-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v821)) (v1 : (c : Dev Cert.KernelIdeal.nD) → Buf (Elt Ideal) ((c.tc : Thread Cert.KernelIdeal.nD Cert.KernelIdeal.τ).loc Cert.KernelIdeal.main_v824)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v821) = v0 c
          ∧ r.2.mem ((c.tc : Thread Cert.KernelIdeal.nD Cert.KernelIdeal.τ).loc Cert.KernelIdeal.main_v824) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v920) = v0 c
          ∧ r.2.mem ((c.tc : Thread Cert.ReferenceIdeal.nD Cert.ReferenceIdeal.τ).loc Cert.ReferenceIdeal.main_v929) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S50000x128 : Shape := ⟨2, ![50000, 128]⟩
abbrev S5000x128 : Shape := ⟨2, ![5000, 128]⟩
abbrev S3x8x128x128 : Shape := ⟨4, ![3, 8, 128, 128]⟩
abbrev S3x8x128 : Shape := ⟨3, ![3, 8, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x500000 : Shape := ⟨2, ![2, 500000]⟩
abbrev S2x100000 : Shape := ⟨2, ![2, 100000]⟩
abbrev S2x20000 : Shape := ⟨2, ![2, 20000]⟩
abbrev S2x50000 : Shape := ⟨2, ![2, 50000]⟩
abbrev S2x5000 : Shape := ⟨2, ![2, 5000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S50000x128 : S_.BroadcastsInDim S50000x128 (![] : Fin 0 → Fin S50000x128.rank)
  reducesTo_S50000x128_S_d0_1 : S50000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S3x8x128x128 : S_.BroadcastsInDim S3x8x128x128 (![] : Fin 0 → Fin S3x8x128x128.rank)
  reducesTo_S3x8x128x128_S_d0_1_2_3 : S3x8x128x128.ReducesTo [0, 1, 2, 3] S_
  bcast_S_S3x8x128 : S_.BroadcastsInDim S3x8x128 (![] : Fin 0 → Fin S3x8x128.rank)
  reducesTo_S3x8x128_S_d0_1_2 : S3x8x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x2 .f32) (main_arg14 : FVec F S2 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg13
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x2 .f32) (main_arg10 : FVec F S2 .f32) (main_arg11 : FVec F S128x128 .f32) (main_arg12 : FVec F S128 .f32) (main_arg13 : FVec F S128x2 .f32) (main_arg14 : FVec F S2 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg9
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg11 main_arg12 main_arg13 main_arg14 main_v48 main_v49 main_v50

def fn_part1 {F : FTy → Type} [FloatOps F] (main_arg4 : FVec F S3x8x128x128 .f32) (main_arg5 : FVec F S3x8x128 .f32) (main_arg6 : FVec F S3x8x128x128 .f32) (main_arg7 : FVec F S128x128 .f32) (main_arg8 : FVec F S128 .f32) (main_arg9 : FVec F S128x2 .f32) (main_arg10 : FVec F S2 .f32) (main_arg11 : FVec F S128x128 .f32) (main_arg12 : FVec F S128 .f32) (main_arg13 : FVec F S128x2 .f32) (main_arg14 : FVec F S2 .f32) (main_v13 : IVec S_ 1) (main_v16 : IVec S5000x128 1) : IVec S_ 1 :=
  let main_c_5 : IVec S_ 1 := constantI S_ 1 1#1
  let main_v17 : IVec S_ 1 := (fun x v => Host.reduce IntOp.andi x v reducesTo_S5000x128_S_d0_1 h_S_) main_v16 main_c_5
  let main_v18 : IVec S_ 1 := andi main_v13 main_v17
  let main_v19 : FVec F S3x8x128x128 .f32 := Host.absf main_arg4
  let main_cst_6 : FVec F S_ .f32 := constant S_ .f32 0x7F800000#32
  let main_v20 : FVec F S3x8x128x128 .f32 := broadcastInDim S3x8x128x128 ![] bcast_S_S3x8x128x128 main_cst_6
  let main_v21 : IVec S3x8x128x128 1 := cmpf .olt main_v19 main_v20
  let main_c_7 : IVec S_ 1 := constantI S_ 1 1#1
  let main_v22 : IVec S_ 1 := (fun x v => Host.reduce IntOp.andi x v reducesTo_S3x8x128x128_S_d0_1_2_3 h_S_) main_v21 main_c_7
  let main_v23 : IVec S_ 1 := andi main_v18 main_v22
  let main_v24 : FVec F S3x8x128 .f32 := Host.absf main_arg5
  let main_cst_8 : FVec F S_ .f32 := constant S_ .f32 0x7F800000#32
  let main_v25 : FVec F S3x8x128 .f32 := broadcastInDim S3x8x128 ![] bcast_S_S3x8x128 main_cst_8
  let main_v26 : IVec S3x8x128 1 := cmpf .olt main_v24 main_v25
  let main_c_9 : IVec S_ 1 := constantI S_ 1 1#1
  let main_v27 : IVec S_ 1 := (fun x v => Host.reduce IntOp.andi x v reducesTo_S3x8x128_S_d0_1_2 h_S_) main_v26 main_c_9
  let main_v28 : IVec S_ 1 := andi main_v23 main_v27
  let main_v29 : FVec F S3x8x128x128 .f32 := Host.absf main_arg6
  let main_cst_10 : FVec F S_ .f32 := constant S_ .f32 0x7F800000#32
  let main_v30 : FVec F S3x8x128x128 .f32 := broadcastInDim S3x8x128x128 ![] bcast_S_S3x8x128x128 main_cst_10
  let main_v31 : IVec S3x8x128x128 1 := cmpf .olt main_v29 main_v30
  let main_c_11 : IVec S_ 1 := constantI S_ 1 1#1
  let main_v32 : IVec S_ 1 := (fun x v => Host.reduce IntOp.andi x v reducesTo_S3x8x128x128_S_d0_1_2_3 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x128 .f32) (main_arg1 : FVec F S20000x128 .f32) (main_arg2 : FVec F S50000x128 .f32) (main_arg3 : FVec F S5000x128 .f32) (main_arg4 : FVec F S3x8x128x128 .f32) (main_arg5 : FVec F S3x8x128 .f32) (main_arg6 : FVec F S3x8x128x128 .f32) (main_arg7 : FVec F S128x128 .f32) (main_arg8 : FVec F S128 .f32) (main_arg9 : FVec F S128x2 .f32) (main_arg10 : FVec F S2 .f32) (main_arg11 : FVec F S128x128 .f32) (main_arg12 : FVec F S128 .f32) (main_arg13 : FVec F S128x2 .f32) (main_arg14 : FVec F S2 .f32) (main_arg15 : IVec S2x500000 32) (main_arg16 : IVec S2x100000 32) (main_arg17 : IVec S2x20000 32) (main_arg18 : IVec S2x20000 32) (main_arg19 : IVec S2x50000 32) (main_arg20 : IVec S2x50000 32) (main_arg21 : IVec S2x5000 32) (main_arg22 : IVec S2x5000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S5000x128 .f32 := Host.absf main_arg3
  let main_cst_4 : FVec F S_ .f32 := constant S_ .f32 0x7F800000#32
  let main_v15 : FVec F S5000x128 .f32 := broadcastInDim S5000x128 ![] bcast_S_S5000x128 main_cst_4
  let main_v16 : IVec S5000x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x128 : Shape := ⟨2, ![100000, 128]⟩
abbrev S20000x128 : Shape := ⟨2, ![20000, 128]⟩
abbrev S50000x128 : Shape := ⟨2, ![50000, 128]⟩
abbrev S5000x128 : Shape := ⟨2, ![5000, 128]⟩
abbrev S3x8x128x128 : Shape := ⟨4, ![3, 8, 128, 128]⟩
abbrev S3x8x128 : Shape := ⟨3, ![3, 8, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x500000 : Shape := ⟨2, ![2, 500000]⟩
abbrev S2x100000 : Shape := ⟨2, ![2, 100000]⟩
abbrev S2x20000 : Shape := ⟨2, ![2, 20000]⟩
abbrev S2x50000 : Shape := ⟨2, ![2, 50000]⟩
abbrev S2x5000 : Shape := ⟨2, ![2, 5000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x100000 : Shape := ⟨2, ![1, 100000]⟩
abbrev S1x20000 : Shape := ⟨2, ![1, 20000]⟩
abbrev S20000 : Shape := ⟨1, ![20000]⟩
abbrev S20000x1 : Shape := ⟨2, ![20000, 1]⟩
abbrev S1x50000 : Shape := ⟨2, ![1, 50000]⟩
abbrev S50000 : Shape := ⟨1, ![50000]⟩
abbrev S50000x1 : Shape := ⟨2, ![50000, 1]⟩
abbrev S1x5000 : Shape := ⟨2, ![1, 5000]⟩
abbrev S5000 : Shape := ⟨1, ![5000]⟩
abbrev S5000x1 : Shape := ⟨2, ![5000, 1]⟩
abbrev S1x1x128x128 : Shape := ⟨4, ![1, 1, 128, 128]⟩
abbrev S1x128x128 : Shape := ⟨3, ![1, 128, 128]⟩
abbrev S5x128x128 : Shape := ⟨3, ![5, 128, 128]⟩
abbrev S1x1x128 : Shape := ⟨3, ![1, 1, 128]⟩
abbrev S1x128 : Shape := ⟨2, ![1, 128]⟩
abbrev S2000x128 : Shape := ⟨2, ![2000, 128]⟩
abbrev S1x2 : Shape := ⟨2, ![1, 2]⟩
abbrev S100000x2 : Shape := ⟨2, ![100000, 2]⟩
abbrev S2000x2 : Shape := ⟨2, ![2000, 2]⟩
abbrev S20000x2 : Shape := ⟨2, ![20000, 2]⟩

abbrev nBuf : Space → Nat
  | .hbm => 992
  | .vmem => 139
  | .smem => 0
  | _ => 0

abbrev hbmTy0_0 (i : Nat) : BufTy := match i % 128 with
  | 0 => ⟨S100000x128, .f32⟩
  | 1 => ⟨S20000x128, .f32⟩
  | 2 => ⟨S50000x128, .f32⟩
  | 3 => ⟨S5000x128, .f32⟩
  | 4 => ⟨S3x8x128x128, .f32⟩
  | 5 => ⟨S3x8x128, .f32⟩
  | 6 => ⟨S3x8x128x128, .f32⟩
  | 7 => ⟨S128x128, .f32⟩
  | 8 => ⟨S128, .f32⟩
  | 9 => ⟨S128x2, .f32⟩
  | 10 => ⟨S2, .f32⟩
  | 11 => ⟨S128x128, .f32⟩
  | 12 => ⟨S128, .f32⟩
  | 13 => ⟨S128x2, .f32⟩
  | 14 => ⟨S2, .f32⟩
  | 15 => ⟨S2x500000, .i32⟩
  | 16 => ⟨S2x100000, .i32⟩
  | 17 => ⟨S2x20000, .i32⟩
  | 18 => ⟨S2x20000, .i32⟩
  | 19 => ⟨S2x50000, .i32⟩
  | 20 => ⟨S2x50000, .i32⟩
  | 21 => ⟨S2x5000, .i32⟩
  | 22 => ⟨S2x5000, .i32⟩
  | 23 => ⟨S1x500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x128, .f32⟩
  | 34 => ⟨S1x500000, .i32⟩
  | 35 => ⟨S500000, .i32⟩
  | 36 => ⟨S_, .f32⟩
  | 37 => ⟨S100000x128, .f32⟩
  | 38 => ⟨S500000x1, .i32⟩
  | 39 => ⟨S100000x128, .f32⟩
  | 40 => ⟨S_, .f32⟩
  | 41 => ⟨S500000, .f32⟩
  | 42 => ⟨S1x500000, .i32⟩
  | 43 => ⟨S500000, .i32⟩
  | 44 => ⟨S_, .f32⟩
  | 45 => ⟨S100000, .f32⟩
  | 46 => ⟨S500000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S1x100000, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x128, .f32⟩
  | 65 => ⟨S1x100000, .i32⟩
  | 66 => ⟨S100000, .i32⟩
  | 67 => ⟨S_, .f32⟩
  | 68 => ⟨S100000x128, .f32⟩
  | 69 => ⟨S100000x1, .i32⟩
  | 70 => ⟨S100000x128, .f32⟩
  | 71 => ⟨S_, .f32⟩
  | 72 => ⟨S100000, .f32⟩
  | 73 => ⟨S1x100000, .i32⟩
  | 74 => ⟨S100000, .i32⟩
  | 75 => ⟨S_, .f32⟩
  | 76 => ⟨S100000, .f32⟩
  | 77 => ⟨S100000x1, .i32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x128, .f32⟩
  | 84 => ⟨S100000x128, .f32⟩
  | 85 => ⟨S1x20000, .i32⟩
  | 86 => ⟨S20000, .i32⟩
  | 87 => ⟨S_, .i32⟩
  | 88 => ⟨S20000, .i32⟩
  | 89 => ⟨S20000, .i1⟩
  | 90 => ⟨S_, .i32⟩
  | 91 => ⟨S20000, .i32⟩
  | 92 => ⟨S20000, .i32⟩
  | 93 => ⟨S20000, .i32⟩
  | 94 => ⟨S20000x1, .i32⟩
  | 95 => ⟨S20000x128, .f32⟩
  | 96 => ⟨S1x20000, .i32⟩
  | 97 => ⟨S20000, .i32⟩
  | 98 => ⟨S_, .f32⟩
  | 99 => ⟨S100000x128, .f32⟩
  | 100 => ⟨S20000x1, .i32⟩
  | 101 => ⟨S100000x128, .f32⟩
  | 102 => ⟨S_, .f32⟩
  | 103 => ⟨S20000, .f32⟩
  | 104 => ⟨S1x20000, .i32⟩
  | 105 => ⟨S20000, .i32⟩
  | 106 => ⟨S_, .f32⟩
  | 107 => ⟨S100000, .f32⟩
  | 108 => ⟨S20000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S1x50000, .i32⟩
  | 117 => ⟨S50000, .i32⟩
  | 118 => ⟨S_, .i32⟩
  | 119 => ⟨S50000, .i32⟩
  | 120 => ⟨S50000, .i1⟩
  | 121 => ⟨S_, .i32⟩
  | 122 => ⟨S50000, .i32⟩
  | 123 => ⟨S50000, .i32⟩
  | 124 => ⟨S50000, .i32⟩
  | 125 => ⟨S50000x1, .i32⟩
  | 126 => ⟨S50000x128, .f32⟩
  | 127 => ⟨S1x50000, .i32⟩
  | _ => ⟨S100000x128, .f32⟩

abbrev hbmTy0_1 (i : Nat) : BufTy := match i % 128 with
  | 0 => ⟨S50000, .i32⟩
  | 1 => ⟨S_, .f32⟩
  | 2 => ⟨S100000x128, .f32⟩
  | 3 => ⟨S50000x1, .i32⟩
  | 4 => ⟨S100000x128, .f32⟩
  | 5 => ⟨S_, .f32⟩
  | 6 => ⟨S50000, .f32⟩
  | 7 => ⟨S1x50000, .i32⟩
  | 8 => ⟨S50000, .i32⟩
  | 9 => ⟨S_, .f32⟩
  | 10 => ⟨S100000, .f32⟩
  | 11 => ⟨S50000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x128, .f32⟩
  | 18 => ⟨S100000x128, .f32⟩
  | 19 => ⟨S1x5000, .i32⟩
  | 20 => ⟨S5000, .i32⟩
  | 21 => ⟨S_, .i32⟩
  | 22 => ⟨S5000, .i32⟩
  | 23 => ⟨S5000, .i1⟩
  | 24 => ⟨S_, .i32⟩
  | 25 => ⟨S5000, .i32⟩
  | 26 => ⟨S5000, .i32⟩
  | 27 => ⟨S5000, .i32⟩
  | 28 => ⟨S5000x1, .i32⟩
  | 29 => ⟨S5000x128, .f32⟩
  | 30 => ⟨S1x5000, .i32⟩
  | 31 => ⟨S5000, .i32⟩
  | 32 => ⟨S_, .f32⟩
  | 33 => ⟨S100000x128, .f32⟩
  | 34 => ⟨S5000x1, .i32⟩
  | 35 => ⟨S100000x128, .f32⟩
  | 36 => ⟨S_, .f32⟩
  | 37 => ⟨S5000, .f32⟩
  | 38 => ⟨S1x5000, .i32⟩
  | 39 => ⟨S5000, .i32⟩
  | 40 => ⟨S_, .f32⟩
  | 41 => ⟨S100000, .f32⟩
  | 42 => ⟨S5000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S1x20000, .i32⟩
  | 51 => ⟨S20000, .i32⟩
  | 52 => ⟨S_, .i32⟩
  | 53 => ⟨S20000, .i32⟩
  | 54 => ⟨S20000, .i1⟩
  | 55 => ⟨S_, .i32⟩
  | 56 => ⟨S20000, .i32⟩
  | 57 => ⟨S20000, .i32⟩
  | 58 => ⟨S20000, .i32⟩
  | 59 => ⟨S20000x1, .i32⟩
  | 60 => ⟨S20000x128, .f32⟩
  | 61 => ⟨S1x20000, .i32⟩
  | 62 => ⟨S20000, .i32⟩
  | 63 => ⟨S_, .f32⟩
  | 64 => ⟨S20000x128, .f32⟩
  | 65 => ⟨S20000x1, .i32⟩
  | 66 => ⟨S20000x128, .f32⟩
  | 67 => ⟨S_, .f32⟩
  | 68 => ⟨S20000, .f32⟩
  | 69 => ⟨S1x20000, .i32⟩
  | 70 => ⟨S20000, .i32⟩
  | 71 => ⟨S_, .f32⟩
  | 72 => ⟨S20000, .f32⟩
  | 73 => ⟨S20000x1, .i32⟩
  | 74 => ⟨S20000, .f32⟩
  | 75 => ⟨S_, .f32⟩
  | 76 => ⟨S20000, .f32⟩
  | 77 => ⟨S20000, .f32⟩
  | 78 => ⟨S20000x1, .f32⟩
  | 79 => ⟨S20000x128, .f32⟩
  | 80 => ⟨S20000x128, .f32⟩
  | 81 => ⟨S1x50000, .i32⟩
  | 82 => ⟨S50000, .i32⟩
  | 83 => ⟨S_, .i32⟩
  | 84 => ⟨S50000, .i32⟩
  | 85 => ⟨S50000, .i1⟩
  | 86 => ⟨S_, .i32⟩
  | 87 => ⟨S50000, .i32⟩
  | 88 => ⟨S50000, .i32⟩
  | 89 => ⟨S50000, .i32⟩
  | 90 => ⟨S50000x1, .i32⟩
  | 91 => ⟨S50000x128, .f32⟩
  | 92 => ⟨S1x50000, .i32⟩
  | 93 => ⟨S50000, .i32⟩
  | 94 => ⟨S_, .f32⟩
  | 95 => ⟨S50000x128, .f32⟩
  | 96 => ⟨S50000x1, .i32⟩
  | 97 => ⟨S50000x128, .f32⟩
  | 98 => ⟨S_, .f32⟩
  | 99 => ⟨S50000, .f32⟩
  | 100 => ⟨S1x50000, .i32⟩
  | 101 => ⟨S50000, .i32⟩
  | 102 => ⟨S_, .f32⟩
  | 103 => ⟨S50000, .f32⟩
  | 104 => ⟨S50000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S1x5000, .i32⟩
  | 113 => ⟨S5000, .i32⟩
  | 114 => ⟨S_, .i32⟩
  | 115 => ⟨S5000, .i32⟩
  | 116 => ⟨S5000, .i1⟩
  | 117 => ⟨S_, .i32⟩
  | 118 => ⟨S5000, .i32⟩
  | 119 => ⟨S5000, .i32⟩
  | 120 => ⟨S5000, .i32⟩
  | 121 => ⟨S5000x1, .i32⟩
  | 122 => ⟨S5000x128, .f32⟩
  | 123 => ⟨S1x5000, .i32⟩
  | 124 => ⟨S5000, .i32⟩
  | 125 => ⟨S_, .f32⟩
  | 126 => ⟨S5000x128, .f32⟩
  | 127 => ⟨S5000x1, .i32⟩
  | _ => ⟨S100000x128, .f32⟩

abbrev hbmTy0_2 (i : Nat) : BufTy := match i % 128 with
  | 0 => ⟨S5000x128, .f32⟩
  | 1 => ⟨S_, .f32⟩
  | 2 => ⟨S5000, .f32⟩
  | 3 => ⟨S1x5000, .i32⟩
  | 4 => ⟨S5000, .i32⟩
  | 5 => ⟨S_, .f32⟩
  | 6 => ⟨S5000, .f32⟩
  | 7 => ⟨S5000x1, .i32⟩
  | 8 => ⟨S5000, .f32⟩
  | 9 => ⟨S_, .f32⟩
  | 10 => ⟨S5000, .f32⟩
  | 11 => ⟨S5000, .f32⟩
  | 12 => ⟨S5000x1, .f32⟩
  | 13 => ⟨S5000x128, .f32⟩
  | 14 => ⟨S5000x128, .f32⟩
  | 15 => ⟨S1x1x128x128, .f32⟩
  | 16 => ⟨S128x128, .f32⟩
  | 17 => ⟨S1x1x128x128, .f32⟩
  | 18 => ⟨S128x128, .f32⟩
  | 19 => ⟨S1x1x128x128, .f32⟩
  | 20 => ⟨S128x128, .f32⟩
  | 21 => ⟨S1x1x128x128, .f32⟩
  | 22 => ⟨S128x128, .f32⟩
  | 23 => ⟨S1x1x128x128, .f32⟩
  | 24 => ⟨S128x128, .f32⟩
  | 25 => ⟨S1x128x128, .f32⟩
  | 26 => ⟨S1x128x128, .f32⟩
  | 27 => ⟨S1x128x128, .f32⟩
  | 28 => ⟨S1x128x128, .f32⟩
  | 29 => ⟨S1x128x128, .f32⟩
  | 30 => ⟨S5x128x128, .f32⟩
  | 31 => ⟨S1x1x128x128, .f32⟩
  | 32 => ⟨S128x128, .f32⟩
  | 33 => ⟨S1x1x128x128, .f32⟩
  | 34 => ⟨S128x128, .f32⟩
  | 35 => ⟨S128x128, .f32⟩
  | 36 => ⟨S1x1x128x128, .f32⟩
  | 37 => ⟨S128x128, .f32⟩
  | 38 => ⟨S128x128, .f32⟩
  | 39 => ⟨S1x1x128x128, .f32⟩
  | 40 => ⟨S128x128, .f32⟩
  | 41 => ⟨S128x128, .f32⟩
  | 42 => ⟨S1x1x128x128, .f32⟩
  | 43 => ⟨S128x128, .f32⟩
  | 44 => ⟨S128x128, .f32⟩
  | 45 => ⟨S1x1x128, .f32⟩
  | 46 => ⟨S128, .f32⟩
  | 47 => ⟨S1x1x128, .f32⟩
  | 48 => ⟨S128, .f32⟩
  | 49 => ⟨S128, .f32⟩
  | 50 => ⟨S1x1x128, .f32⟩
  | 51 => ⟨S128, .f32⟩
  | 52 => ⟨S128, .f32⟩
  | 53 => ⟨S1x1x128, .f32⟩
  | 54 => ⟨S128, .f32⟩
  | 55 => ⟨S128, .f32⟩
  | 56 => ⟨S1x1x128, .f32⟩
  | 57 => ⟨S128, .f32⟩
  | 58 => ⟨S128, .f32⟩
  | 59 => ⟨S1x128, .f32⟩
  | 60 => ⟨S100000x128, .f32⟩
  | 61 => ⟨S1x1x128x128, .f32⟩
  | 62 => ⟨S128x128, .f32⟩
  | 63 => ⟨S1x128x128, .f32⟩
  | 64 => ⟨S1x1x128x128, .f32⟩
  | 65 => ⟨S128x128, .f32⟩
  | 66 => ⟨S1x1x128, .f32⟩
  | 67 => ⟨S128, .f32⟩
  | 68 => ⟨S1x128, .f32⟩
  | 69 => ⟨S20000x128, .f32⟩
  | 70 => ⟨S1x1x128x128, .f32⟩
  | 71 => ⟨S128x128, .f32⟩
  | 72 => ⟨S1x128x128, .f32⟩
  | 73 => ⟨S1x1x128x128, .f32⟩
  | 74 => ⟨S128x128, .f32⟩
  | 75 => ⟨S1x1x128, .f32⟩
  | 76 => ⟨S128, .f32⟩
  | 77 => ⟨S1x128, .f32⟩
  | 78 => ⟨S50000x128, .f32⟩
  | 79 => ⟨S1x1x128x128, .f32⟩
  | 80 => ⟨S128x128, .f32⟩
  | 81 => ⟨S1x128x128, .f32⟩
  | 82 => ⟨S1x1x128x128, .f32⟩
  | 83 => ⟨S128x128, .f32⟩
  | 84 => ⟨S1x1x128, .f32⟩
  | 85 => ⟨S128, .f32⟩
  | 86 => ⟨S1x128, .f32⟩
  | 87 => ⟨S5000x128, .f32⟩
  | 88 => ⟨S1x500000, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .f32⟩
  | 99 => ⟨S1x500000, .i32⟩
  | 100 => ⟨S500000, .i32⟩
  | 101 => ⟨S_, .f32⟩
  | 102 => ⟨S100000x128, .f32⟩
  | 103 => ⟨S500000x1, .i32⟩
  | 104 => ⟨S100000x128, .f32⟩
  | 105 => ⟨S_, .f32⟩
  | 106 => ⟨S500000, .f32⟩
  | 107 => ⟨S1x500000, .i32⟩
  | 108 => ⟨S500000, .i32⟩
  | 109 => ⟨S_, .f32⟩
  | 110 => ⟨S100000, .f32⟩
  | 111 => ⟨S500000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S1x100000, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x128, .f32⟩

abbrev hbmTy0_3 (i : Nat) : BufTy := match i % 128 with
  | 0 => ⟨S100000x1, .i32⟩
  | 1 => ⟨S100000x128, .f32⟩
  | 2 => ⟨S1x100000, .i32⟩
  | 3 => ⟨S100000, .i32⟩
  | 4 => ⟨S_, .f32⟩
  | 5 => ⟨S100000x128, .f32⟩
  | 6 => ⟨S100000x1, .i32⟩
  | 7 => ⟨S100000x128, .f32⟩
  | 8 => ⟨S_, .f32⟩
  | 9 => ⟨S100000, .f32⟩
  | 10 => ⟨S1x100000, .i32⟩
  | 11 => ⟨S100000, .i32⟩
  | 12 => ⟨S_, .f32⟩
  | 13 => ⟨S100000, .f32⟩
  | 14 => ⟨S100000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x128, .f32⟩
  | 21 => ⟨S100000x128, .f32⟩
  | 22 => ⟨S1x20000, .i32⟩
  | 23 => ⟨S20000, .i32⟩
  | 24 => ⟨S_, .i32⟩
  | 25 => ⟨S20000, .i32⟩
  | 26 => ⟨S20000, .i1⟩
  | 27 => ⟨S_, .i32⟩
  | 28 => ⟨S20000, .i32⟩
  | 29 => ⟨S20000, .i32⟩
  | 30 => ⟨S20000, .i32⟩
  | 31 => ⟨S20000x1, .i32⟩
  | 32 => ⟨S20000x128, .f32⟩
  | 33 => ⟨S1x20000, .i32⟩
  | 34 => ⟨S20000, .i32⟩
  | 35 => ⟨S_, .f32⟩
  | 36 => ⟨S100000x128, .f32⟩
  | 37 => ⟨S20000x1, .i32⟩
  | 38 => ⟨S100000x128, .f32⟩
  | 39 => ⟨S_, .f32⟩
  | 40 => ⟨S20000, .f32⟩
  | 41 => ⟨S1x20000, .i32⟩
  | 42 => ⟨S20000, .i32⟩
  | 43 => ⟨S_, .f32⟩
  | 44 => ⟨S100000, .f32⟩
  | 45 => ⟨S20000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S1x50000, .i32⟩
  | 54 => ⟨S50000, .i32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x128, .f32⟩
  | 64 => ⟨S1x50000, .i32⟩
  | 65 => ⟨S50000, .i32⟩
  | 66 => ⟨S_, .f32⟩
  | 67 => ⟨S100000x128, .f32⟩
  | 68 => ⟨S50000x1, .i32⟩
  | 69 => ⟨S100000x128, .f32⟩
  | 70 => ⟨S_, .f32⟩
  | 71 => ⟨S50000, .f32⟩
  | 72 => ⟨S1x50000, .i32⟩
  | 73 => ⟨S50000, .i32⟩
  | 74 => ⟨S_, .f32⟩
  | 75 => ⟨S100000, .f32⟩
  | 76 => ⟨S50000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S1x5000, .i32⟩
  | 85 => ⟨S5000, .i32⟩
  | 86 => ⟨S_, .i32⟩
  | 87 => ⟨S5000, .i32⟩
  | 88 => ⟨S5000, .i1⟩
  | 89 => ⟨S_, .i32⟩
  | 90 => ⟨S5000, .i32⟩
  | 91 => ⟨S5000, .i32⟩
  | 92 => ⟨S5000, .i32⟩
  | 93 => ⟨S5000x1, .i32⟩
  | 94 => ⟨S5000x128, .f32⟩
  | 95 => ⟨S1x5000, .i32⟩
  | 96 => ⟨S5000, .i32⟩
  | 97 => ⟨S_, .f32⟩
  | 98 => ⟨S100000x128, .f32⟩
  | 99 => ⟨S5000x1, .i32⟩
  | 100 => ⟨S100000x128, .f32⟩
  | 101 => ⟨S_, .f32⟩
  | 102 => ⟨S5000, .f32⟩
  | 103 => ⟨S1x5000, .i32⟩
  | 104 => ⟨S5000, .i32⟩
  | 105 => ⟨S_, .f32⟩
  | 106 => ⟨S100000, .f32⟩
  | 107 => ⟨S5000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x128, .f32⟩
  | 114 => ⟨S100000x128, .f32⟩
  | 115 => ⟨S1x20000, .i32⟩
  | 116 => ⟨S20000, .i32⟩
  | 117 => ⟨S_, .i32⟩
  | 118 => ⟨S20000, .i32⟩
  | 119 => ⟨S20000, .i1⟩
  | 120 => ⟨S_, .i32⟩
  | 121 => ⟨S20000, .i32⟩
  | 122 => ⟨S20000, .i32⟩
  | 123 => ⟨S20000, .i32⟩
  | 124 => ⟨S20000x1, .i32⟩
  | 125 => ⟨S20000x128, .f32⟩
  | 126 => ⟨S1x20000, .i32⟩
  | 127 => ⟨S20000, .i32⟩
  | _ => ⟨S100000x128, .f32⟩

abbrev hbmTy0_4 (i : Nat) : BufTy := match i % 128 with
  | 0 => ⟨S_, .f32⟩
  | 1 => ⟨S20000x128, .f32⟩
  | 2 => ⟨S20000x1, .i32⟩
  | 3 => ⟨S20000x128, .f32⟩
  | 4 => ⟨S_, .f32⟩
  | 5 => ⟨S20000, .f32⟩
  | 6 => ⟨S1x20000, .i32⟩
  | 7 => ⟨S20000, .i32⟩
  | 8 => ⟨S_, .f32⟩
  | 9 => ⟨S20000, .f32⟩
  | 10 => ⟨S20000x1, .i32⟩
  | 11 => ⟨S20000, .f32⟩
  | 12 => ⟨S_, .f32⟩
  | 13 => ⟨S20000, .f32⟩
  | 14 => ⟨S20000, .f32⟩
  | 15 => ⟨S20000x1, .f32⟩
  | 16 => ⟨S20000x128, .f32⟩
  | 17 => ⟨S20000x128, .f32⟩
  | 18 => ⟨S1x50000, .i32⟩
  | 19 => ⟨S50000, .i32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x128, .f32⟩
  | 29 => ⟨S1x50000, .i32⟩
  | 30 => ⟨S50000, .i32⟩
  | 31 => ⟨S_, .f32⟩
  | 32 => ⟨S50000x128, .f32⟩
  | 33 => ⟨S50000x1, .i32⟩
  | 34 => ⟨S50000x128, .f32⟩
  | 35 => ⟨S_, .f32⟩
  | 36 => ⟨S50000, .f32⟩
  | 37 => ⟨S1x50000, .i32⟩
  | 38 => ⟨S50000, .i32⟩
  | 39 => ⟨S_, .f32⟩
  | 40 => ⟨S50000, .f32⟩
  | 41 => ⟨S50000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S1x5000, .i32⟩
  | 50 => ⟨S5000, .i32⟩
  | 51 => ⟨S_, .i32⟩
  | 52 => ⟨S5000, .i32⟩
  | 53 => ⟨S5000, .i1⟩
  | 54 => ⟨S_, .i32⟩
  | 55 => ⟨S5000, .i32⟩
  | 56 => ⟨S5000, .i32⟩
  | 57 => ⟨S5000, .i32⟩
  | 58 => ⟨S5000x1, .i32⟩
  | 59 => ⟨S5000x128, .f32⟩
  | 60 => ⟨S1x5000, .i32⟩
  | 61 => ⟨S5000, .i32⟩
  | 62 => ⟨S_, .f32⟩
  | 63 => ⟨S5000x128, .f32⟩
  | 64 => ⟨S5000x1, .i32⟩
  | 65 => ⟨S5000x128, .f32⟩
  | 66 => ⟨S_, .f32⟩
  | 67 => ⟨S5000, .f32⟩
  | 68 => ⟨S1x5000, .i32⟩
  | 69 => ⟨S5000, .i32⟩
  | 70 => ⟨S_, .f32⟩
  | 71 => ⟨S5000, .f32⟩
  | 72 => ⟨S5000x1, .i32⟩
  | 73 => ⟨S5000, .f32⟩
  | 74 => ⟨S_, .f32⟩
  | 75 => ⟨S5000, .f32⟩
  | 76 => ⟨S5000, .f32⟩
  | 77 => ⟨S5000x1, .f32⟩
  | 78 => ⟨S5000x128, .f32⟩
  | 79 => ⟨S5000x128, .f32⟩
  | 80 => ⟨S1x1x128x128, .f32⟩
  | 81 => ⟨S128x128, .f32⟩
  | 82 => ⟨S1x1x128x128, .f32⟩
  | 83 => ⟨S128x128, .f32⟩
  | 84 => ⟨S1x1x128x128, .f32⟩
  | 85 => ⟨S128x128, .f32⟩
  | 86 => ⟨S1x1x128x128, .f32⟩
  | 87 => ⟨S128x128, .f32⟩
  | 88 => ⟨S1x1x128x128, .f32⟩
  | 89 => ⟨S128x128, .f32⟩
  | 90 => ⟨S1x128x128, .f32⟩
  | 91 => ⟨S1x128x128, .f32⟩
  | 92 => ⟨S1x128x128, .f32⟩
  | 93 => ⟨S1x128x128, .f32⟩
  | 94 => ⟨S1x128x128, .f32⟩
  | 95 => ⟨S5x128x128, .f32⟩
  | 96 => ⟨S1x1x128x128, .f32⟩
  | 97 => ⟨S128x128, .f32⟩
  | 98 => ⟨S1x1x128x128, .f32⟩
  | 99 => ⟨S128x128, .f32⟩
  | 100 => ⟨S128x128, .f32⟩
  | 101 => ⟨S1x1x128x128, .f32⟩
  | 102 => ⟨S128x128, .f32⟩
  | 103 => ⟨S128x128, .f32⟩
  | 104 => ⟨S1x1x128x128, .f32⟩
  | 105 => ⟨S128x128, .f32⟩
  | 106 => ⟨S128x128, .f32⟩
  | 107 => ⟨S1x1x128x128, .f32⟩
  | 108 => ⟨S128x128, .f32⟩
  | 109 => ⟨S128x128, .f32⟩
  | 110 => ⟨S1x1x128, .f32⟩
  | 111 => ⟨S128, .f32⟩
  | 112 => ⟨S1x1x128, .f32⟩
  | 113 => ⟨S128, .f32⟩
  | 114 => ⟨S128, .f32⟩
  | 115 => ⟨S1x1x128, .f32⟩
  | 116 => ⟨S128, .f32⟩
  | 117 => ⟨S128, .f32⟩
  | 118 => ⟨S1x1x128, .f32⟩
  | 119 => ⟨S128, .f32⟩
  | 120 => ⟨S128, .f32⟩
  | 121 => ⟨S1x1x128, .f32⟩
  | 122 => ⟨S128, .f32⟩
  | 123 => ⟨S128, .f32⟩
  | 124 => ⟨S1x128, .f32⟩
  | 125 => ⟨S100000x128, .f32⟩
  | 126 => ⟨S1x1x128x128, .f32⟩
  | 127 => ⟨S128x128, .f32⟩
  | _ => ⟨S100000x128, .f32⟩

abbrev hbmTy0_5 (i : Nat) : BufTy := match i % 128 with
  | 0 => ⟨S1x128x128, .f32⟩
  | 1 => ⟨S1x1x128x128, .f32⟩
  | 2 => ⟨S128x128, .f32⟩
  | 3 => ⟨S1x1x128, .f32⟩
  | 4 => ⟨S128, .f32⟩
  | 5 => ⟨S1x128, .f32⟩
  | 6 => ⟨S20000x128, .f32⟩
  | 7 => ⟨S1x1x128x128, .f32⟩
  | 8 => ⟨S128x128, .f32⟩
  | 9 => ⟨S1x128x128, .f32⟩
  | 10 => ⟨S1x1x128x128, .f32⟩
  | 11 => ⟨S128x128, .f32⟩
  | 12 => ⟨S1x1x128, .f32⟩
  | 13 => ⟨S128, .f32⟩
  | 14 => ⟨S1x128, .f32⟩
  | 15 => ⟨S50000x128, .f32⟩
  | 16 => ⟨S1x1x128x128, .f32⟩
  | 17 => ⟨S128x128, .f32⟩
  | 18 => ⟨S1x128x128, .f32⟩
  | 19 => ⟨S1x1x128x128, .f32⟩
  | 20 => ⟨S128x128, .f32⟩
  | 21 => ⟨S1x1x128, .f32⟩
  | 22 => ⟨S128, .f32⟩
  | 23 => ⟨S1x128, .f32⟩
  | 24 => ⟨S5000x128, .f32⟩
  | 25 => ⟨S1x500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S1x500000, .i32⟩
  | 37 => ⟨S500000, .i32⟩
  | 38 => ⟨S_, .f32⟩
  | 39 => ⟨S100000x128, .f32⟩
  | 40 => ⟨S500000x1, .i32⟩
  | 41 => ⟨S100000x128, .f32⟩
  | 42 => ⟨S_, .f32⟩
  | 43 => ⟨S500000, .f32⟩
  | 44 => ⟨S1x500000, .i32⟩
  | 45 => ⟨S500000, .i32⟩
  | 46 => ⟨S_, .f32⟩
  | 47 => ⟨S100000, .f32⟩
  | 48 => ⟨S500000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S1x100000, .i32⟩
  | 57 => ⟨S100000, .i32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x128, .f32⟩
  | 67 => ⟨S1x100000, .i32⟩
  | 68 => ⟨S100000, .i32⟩
  | 69 => ⟨S_, .f32⟩
  | 70 => ⟨S100000x128, .f32⟩
  | 71 => ⟨S100000x1, .i32⟩
  | 72 => ⟨S100000x128, .f32⟩
  | 73 => ⟨S_, .f32⟩
  | 74 => ⟨S100000, .f32⟩
  | 75 => ⟨S1x100000, .i32⟩
  | 76 => ⟨S100000, .i32⟩
  | 77 => ⟨S_, .f32⟩
  | 78 => ⟨S100000, .f32⟩
  | 79 => ⟨S100000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S1x20000, .i32⟩
  | 88 => ⟨S20000, .i32⟩
  | 89 => ⟨S_, .i32⟩
  | 90 => ⟨S20000, .i32⟩
  | 91 => ⟨S20000, .i1⟩
  | 92 => ⟨S_, .i32⟩
  | 93 => ⟨S20000, .i32⟩
  | 94 => ⟨S20000, .i32⟩
  | 95 => ⟨S20000, .i32⟩
  | 96 => ⟨S20000x1, .i32⟩
  | 97 => ⟨S20000x128, .f32⟩
  | 98 => ⟨S1x20000, .i32⟩
  | 99 => ⟨S20000, .i32⟩
  | 100 => ⟨S_, .f32⟩
  | 101 => ⟨S100000x128, .f32⟩
  | 102 => ⟨S20000x1, .i32⟩
  | 103 => ⟨S100000x128, .f32⟩
  | 104 => ⟨S_, .f32⟩
  | 105 => ⟨S20000, .f32⟩
  | 106 => ⟨S1x20000, .i32⟩
  | 107 => ⟨S20000, .i32⟩
  | 108 => ⟨S_, .f32⟩
  | 109 => ⟨S100000, .f32⟩
  | 110 => ⟨S20000x1, .i32⟩
  | 111 => ⟨S100000, .f32⟩
  | 112 => ⟨S_, .f32⟩
  | 113 => ⟨S100000, .f32⟩
  | 114 => ⟨S100000, .f32⟩
  | 115 => ⟨S100000x1, .f32⟩
  | 116 => ⟨S100000x128, .f32⟩
  | 117 => ⟨S100000x128, .f32⟩
  | 118 => ⟨S1x50000, .i32⟩
  | 119 => ⟨S50000, .i32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S100000x128, .f32⟩

abbrev hbmTy0_6 (i : Nat) : BufTy := match i % 128 with
  | 0 => ⟨S50000x128, .f32⟩
  | 1 => ⟨S1x50000, .i32⟩
  | 2 => ⟨S50000, .i32⟩
  | 3 => ⟨S_, .f32⟩
  | 4 => ⟨S100000x128, .f32⟩
  | 5 => ⟨S50000x1, .i32⟩
  | 6 => ⟨S100000x128, .f32⟩
  | 7 => ⟨S_, .f32⟩
  | 8 => ⟨S50000, .f32⟩
  | 9 => ⟨S1x50000, .i32⟩
  | 10 => ⟨S50000, .i32⟩
  | 11 => ⟨S_, .f32⟩
  | 12 => ⟨S100000, .f32⟩
  | 13 => ⟨S50000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x128, .f32⟩
  | 20 => ⟨S100000x128, .f32⟩
  | 21 => ⟨S1x5000, .i32⟩
  | 22 => ⟨S5000, .i32⟩
  | 23 => ⟨S_, .i32⟩
  | 24 => ⟨S5000, .i32⟩
  | 25 => ⟨S5000, .i1⟩
  | 26 => ⟨S_, .i32⟩
  | 27 => ⟨S5000, .i32⟩
  | 28 => ⟨S5000, .i32⟩
  | 29 => ⟨S5000, .i32⟩
  | 30 => ⟨S5000x1, .i32⟩
  | 31 => ⟨S5000x128, .f32⟩
  | 32 => ⟨S1x5000, .i32⟩
  | 33 => ⟨S5000, .i32⟩
  | 34 => ⟨S_, .f32⟩
  | 35 => ⟨S100000x128, .f32⟩
  | 36 => ⟨S5000x1, .i32⟩
  | 37 => ⟨S100000x128, .f32⟩
  | 38 => ⟨S_, .f32⟩
  | 39 => ⟨S5000, .f32⟩
  | 40 => ⟨S1x5000, .i32⟩
  | 41 => ⟨S5000, .i32⟩
  | 42 => ⟨S_, .f32⟩
  | 43 => ⟨S100000, .f32⟩
  | 44 => ⟨S5000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S1x20000, .i32⟩
  | 53 => ⟨S20000, .i32⟩
  | 54 => ⟨S_, .i32⟩
  | 55 => ⟨S20000, .i32⟩
  | 56 => ⟨S20000, .i1⟩
  | 57 => ⟨S_, .i32⟩
  | 58 => ⟨S20000, .i32⟩
  | 59 => ⟨S20000, .i32⟩
  | 60 => ⟨S20000, .i32⟩
  | 61 => ⟨S20000x1, .i32⟩
  | 62 => ⟨S20000x128, .f32⟩
  | 63 => ⟨S1x20000, .i32⟩
  | 64 => ⟨S20000, .i32⟩
  | 65 => ⟨S_, .f32⟩
  | 66 => ⟨S20000x128, .f32⟩
  | 67 => ⟨S20000x1, .i32⟩
  | 68 => ⟨S20000x128, .f32⟩
  | 69 => ⟨S_, .f32⟩
  | 70 => ⟨S20000, .f32⟩
  | 71 => ⟨S1x20000, .i32⟩
  | 72 => ⟨S20000, .i32⟩
  | 73 => ⟨S_, .f32⟩
  | 74 => ⟨S20000, .f32⟩
  | 75 => ⟨S20000x1, .i32⟩
  | 76 => ⟨S20000, .f32⟩
  | 77 => ⟨S_, .f32⟩
  | 78 => ⟨S20000, .f32⟩
  | 79 => ⟨S20000, .f32⟩
  | 80 => ⟨S20000x1, .f32⟩
  | 81 => ⟨S20000x128, .f32⟩
  | 82 => ⟨S20000x128, .f32⟩
  | 83 => ⟨S1x50000, .i32⟩
  | 84 => ⟨S50000, .i32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000x128, .f32⟩
  | 94 => ⟨S1x50000, .i32⟩
  | 95 => ⟨S50000, .i32⟩
  | 96 => ⟨S_, .f32⟩
  | 97 => ⟨S50000x128, .f32⟩
  | 98 => ⟨S50000x1, .i32⟩
  | 99 => ⟨S50000x128, .f32⟩
  | 100 => ⟨S_, .f32⟩
  | 101 => ⟨S50000, .f32⟩
  | 102 => ⟨S1x50000, .i32⟩
  | 103 => ⟨S50000, .i32⟩
  | 104 => ⟨S_, .f32⟩
  | 105 => ⟨S50000, .f32⟩
  | 106 => ⟨S50000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x128, .f32⟩
  | 113 => ⟨S50000x128, .f32⟩
  | 114 => ⟨S1x5000, .i32⟩
  | 115 => ⟨S5000, .i32⟩
  | 116 => ⟨S_, .i32⟩
  | 117 => ⟨S5000, .i32⟩
  | 118 => ⟨S5000, .i1⟩
  | 119 => ⟨S_, .i32⟩
  | 120 => ⟨S5000, .i32⟩
  | 121 => ⟨S5000, .i32⟩
  | 122 => ⟨S5000, .i32⟩
  | 123 => ⟨S5000x1, .i32⟩
  | 124 => ⟨S5000x128, .f32⟩
  | 125 => ⟨S1x5000, .i32⟩
  | 126 => ⟨S5000, .i32⟩
  | 127 => ⟨S_, .f32⟩
  | _ => ⟨S100000x128, .f32⟩

abbrev hbmTy0_7 (i : Nat) : BufTy := match i % 128 with
  | 0 => ⟨S5000x128, .f32⟩
  | 1 => ⟨S5000x1, .i32⟩
  | 2 => ⟨S5000x128, .f32⟩
  | 3 => ⟨S_, .f32⟩
  | 4 => ⟨S5000, .f32⟩
  | 5 => ⟨S1x5000, .i32⟩
  | 6 => ⟨S5000, .i32⟩
  | 7 => ⟨S_, .f32⟩
  | 8 => ⟨S5000, .f32⟩
  | 9 => ⟨S5000x1, .i32⟩
  | 10 => ⟨S5000, .f32⟩
  | 11 => ⟨S_, .f32⟩
  | 12 => ⟨S5000, .f32⟩
  | 13 => ⟨S5000, .f32⟩
  | 14 => ⟨S5000x1, .f32⟩
  | 15 => ⟨S5000x128, .f32⟩
  | 16 => ⟨S5000x128, .f32⟩
  | 17 => ⟨S1x1x128x128, .f32⟩
  | 18 => ⟨S128x128, .f32⟩
  | 19 => ⟨S1x1x128x128, .f32⟩
  | 20 => ⟨S128x128, .f32⟩
  | 21 => ⟨S1x1x128x128, .f32⟩
  | 22 => ⟨S128x128, .f32⟩
  | 23 => ⟨S1x1x128x128, .f32⟩
  | 24 => ⟨S128x128, .f32⟩
  | 25 => ⟨S1x1x128x128, .f32⟩
  | 26 => ⟨S128x128, .f32⟩
  | 27 => ⟨S1x128x128, .f32⟩
  | 28 => ⟨S1x128x128, .f32⟩
  | 29 => ⟨S1x128x128, .f32⟩
  | 30 => ⟨S1x128x128, .f32⟩
  | 31 => ⟨S1x128x128, .f32⟩
  | 32 => ⟨S5x128x128, .f32⟩
  | 33 => ⟨S1x1x128x128, .f32⟩
  | 34 => ⟨S128x128, .f32⟩
  | 35 => ⟨S1x1x128x128, .f32⟩
  | 36 => ⟨S128x128, .f32⟩
  | 37 => ⟨S128x128, .f32⟩
  | 38 => ⟨S1x1x128x128, .f32⟩
  | 39 => ⟨S128x128, .f32⟩
  | 40 => ⟨S128x128, .f32⟩
  | 41 => ⟨S1x1x128x128, .f32⟩
  | 42 => ⟨S128x128, .f32⟩
  | 43 => ⟨S128x128, .f32⟩
  | 44 => ⟨S1x1x128x128, .f32⟩
  | 45 => ⟨S128x128, .f32⟩
  | 46 => ⟨S128x128, .f32⟩
  | 47 => ⟨S1x1x128, .f32⟩
  | 48 => ⟨S128, .f32⟩
  | 49 => ⟨S1x1x128, .f32⟩
  | 50 => ⟨S128, .f32⟩
  | 51 => ⟨S128, .f32⟩
  | 52 => ⟨S1x1x128, .f32⟩
  | 53 => ⟨S128, .f32⟩
  | 54 => ⟨S128, .f32⟩
  | 55 => ⟨S1x1x128, .f32⟩
  | 56 => ⟨S128, .f32⟩
  | 57 => ⟨S128, .f32⟩
  | 58 => ⟨S1x1x128, .f32⟩
  | 59 => ⟨S128, .f32⟩
  | 60 => ⟨S128, .f32⟩
  | 61 => ⟨S1x128, .f32⟩
  | 62 => ⟨S100000x128, .f32⟩
  | 63 => ⟨S1x1x128x128, .f32⟩
  | 64 => ⟨S128x128, .f32⟩
  | 65 => ⟨S1x128x128, .f32⟩
  | 66 => ⟨S1x1x128x128, .f32⟩
  | 67 => ⟨S128x128, .f32⟩
  | 68 => ⟨S1x1x128, .f32⟩
  | 69 => ⟨S128, .f32⟩
  | 70 => ⟨S1x128, .f32⟩
  | 71 => ⟨S20000x128, .f32⟩
  | 72 => ⟨S1x1x128x128, .f32⟩
  | 73 => ⟨S128x128, .f32⟩
  | 74 => ⟨S1x128x128, .f32⟩
  | 75 => ⟨S1x1x128x128, .f32⟩
  | 76 => ⟨S128x128, .f32⟩
  | 77 => ⟨S1x1x128, .f32⟩
  | 78 => ⟨S128, .f32⟩
  | 79 => ⟨S1x128, .f32⟩
  | 80 => ⟨S50000x128, .f32⟩
  | 81 => ⟨S1x1x128x128, .f32⟩
  | 82 => ⟨S128x128, .f32⟩
  | 83 => ⟨S1x128x128, .f32⟩
  | 84 => ⟨S1x1x128x128, .f32⟩
  | 85 => ⟨S128x128, .f32⟩
  | 86 => ⟨S1x1x128, .f32⟩
  | 87 => ⟨S128, .f32⟩
  | 88 => ⟨S1x128, .f32⟩
  | 89 => ⟨S5000x128, .f32⟩
  | 90 => ⟨S1x128, .f32⟩
  | 91 => ⟨S1x2, .f32⟩
  | 92 => ⟨S100000x2, .f32⟩
  | 93 => ⟨S1x128, .f32⟩
  | 94 => ⟨S1x2, .f32⟩
  | 95 => ⟨S20000x2, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S100000x128, .f32⟩

abbrev vmemTy0_0 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S2000x128, .f32⟩
  | 5 => ⟨S2000x128, .f32⟩
  | 6 => ⟨S2000x128, .f32⟩
  | 7 => ⟨S2000x128, .f32⟩
  | 8 => ⟨S2000x128, .f32⟩
  | 9 => ⟨S2000x128, .f32⟩
  | 10 => ⟨S2000x128, .f32⟩
  | 11 => ⟨S2000x128, .f32⟩
  | 12 => ⟨S5x128x128, .f32⟩
  | 13 => ⟨S128x128, .f32⟩
  | 14 => ⟨S1x128, .f32⟩
  | 15 => ⟨S2000x128, .f32⟩
  | 16 => ⟨S2000x128, .f32⟩
  | 17 => ⟨S2000x128, .f32⟩
  | 18 => ⟨S2000x128, .f32⟩
  | 19 => ⟨S2000x128, .f32⟩
  | 20 => ⟨S2000x128, .f32⟩
  | 21 => ⟨S1x128x128, .f32⟩
  | 22 => ⟨S128x128, .f32⟩
  | 23 => ⟨S1x128, .f32⟩
  | 24 => ⟨S2000x128, .f32⟩
  | 25 => ⟨S2000x128, .f32⟩
  | 26 => ⟨S2000x128, .f32⟩
  | 27 => ⟨S2000x128, .f32⟩
  | 28 => ⟨S2000x128, .f32⟩
  | 29 => ⟨S2000x128, .f32⟩
  | 30 => ⟨S1x128x128, .f32⟩
  | 31 => ⟨S128x128, .f32⟩
  | 32 => ⟨S1x128, .f32⟩
  | 33 => ⟨S2000x128, .f32⟩
  | 34 => ⟨S2000x128, .f32⟩
  | 35 => ⟨S5000x128, .f32⟩
  | 36 => ⟨S5000x128, .f32⟩
  | 37 => ⟨S1x128x128, .f32⟩
  | 38 => ⟨S128x128, .f32⟩
  | 39 => ⟨S1x128, .f32⟩
  | 40 => ⟨S5000x128, .f32⟩
  | 41 => ⟨S2000x128, .f32⟩
  | 42 => ⟨S2000x128, .f32⟩
  | 43 => ⟨S2000x128, .f32⟩
  | 44 => ⟨S2000x128, .f32⟩
  | 45 => ⟨S2000x128, .f32⟩
  | 46 => ⟨S2000x128, .f32⟩
  | 47 => ⟨S2000x128, .f32⟩
  | 48 => ⟨S2000x128, .f32⟩
  | 49 => ⟨S2000x128, .f32⟩
  | 50 => ⟨S2000x128, .f32⟩
  | 51 => ⟨S2000x128, .f32⟩
  | 52 => ⟨S2000x128, .f32⟩
  | 53 => ⟨S5x128x128, .f32⟩
  | 54 => ⟨S128x128, .f32⟩
  | 55 => ⟨S1x128, .f32⟩
  | 56 => ⟨S2000x128, .f32⟩
  | 57 => ⟨S2000x128, .f32⟩
  | 58 => ⟨S2000x128, .f32⟩
  | 59 => ⟨S2000x128, .f32⟩
  | 60 => ⟨S2000x128, .f32⟩
  | 61 => ⟨S2000x128, .f32⟩
  | 62 => ⟨S1x128x128, .f32⟩
  | 63 => ⟨S128x128, .f32⟩
  | 64 => ⟨S1x128, .f32⟩
  | 65 => ⟨S2000x128, .f32⟩
  | 66 => ⟨S2000x128, .f32⟩
  | 67 => ⟨S2000x128, .f32⟩
  | 68 => ⟨S2000x128, .f32⟩
  | 69 => ⟨S2000x128, .f32⟩
  | 70 => ⟨S2000x128, .f32⟩
  | 71 => ⟨S1x128x128, .f32⟩
  | 72 => ⟨S128x128, .f32⟩
  | 73 => ⟨S1x128, .f32⟩
  | 74 => ⟨S2000x128, .f32⟩
  | 75 => ⟨S2000x128, .f32⟩
  | 76 => ⟨S5000x128, .f32⟩
  | 77 => ⟨S5000x128, .f32⟩
  | 78 => ⟨S1x128x128, .f32⟩
  | 79 => ⟨S128x128, .f32⟩
  | 80 => ⟨S1x128, .f32⟩
  | 81 => ⟨S5000x128, .f32⟩
  | 82 => ⟨S2000x128, .f32⟩
  | 83 => ⟨S2000x128, .f32⟩
  | 84 => ⟨S2000x128, .f32⟩
  | 85 => ⟨S2000x128, .f32⟩
  | 86 => ⟨S2000x128, .f32⟩
  | 87 => ⟨S2000x128, .f32⟩
  | 88 => ⟨S2000x128, .f32⟩
  | 89 => ⟨S2000x128, .f32⟩
  | 90 => ⟨S2000x128, .f32⟩
  | 91 => ⟨S2000x128, .f32⟩
  | 92 => ⟨S2000x128, .f32⟩
  | 93 => ⟨S2000x128, .f32⟩
  | 94 => ⟨S5x128x128, .f32⟩
  | 95 => ⟨S128x128, .f32⟩
  | 96 => ⟨S1x128, .f32⟩
  | 97 => ⟨S2000x128, .f32⟩
  | 98 => ⟨S2000x128, .f32⟩
  | 99 => ⟨S2000x128, .f32⟩
  | 100 => ⟨S2000x128, .f32⟩
  | 101 => ⟨S2000x128, .f32⟩
  | 102 => ⟨S2000x128, .f32⟩
  | 103 => ⟨S1x128x128, .f32⟩
  | 104 => ⟨S128x128, .f32⟩
  | 105 => ⟨S1x128, .f32⟩
  | 106 => ⟨S2000x128, .f32⟩
  | 107 => ⟨S2000x128, .f32⟩
  | 108 => ⟨S2000x128, .f32⟩
  | 109 => ⟨S2000x128, .f32⟩
  | 110 => ⟨S2000x128, .f32⟩
  | 111 => ⟨S2000x128, .f32⟩
  | 112 => ⟨S1x128x128, .f32⟩
  | 113 => ⟨S128x128, .f32⟩
  | 114 => ⟨S1x128, .f32⟩
  | 115 => ⟨S2000x128, .f32⟩
  | 116 => ⟨S2000x128, .f32⟩
  | 117 => ⟨S5000x128, .f32⟩
  | 118 => ⟨S5000x128, .f32⟩
  | 119 => ⟨S1x128x128, .f32⟩
  | 120 => ⟨S128x128, .f32⟩
  | 121 => ⟨S1x128, .f32⟩
  | 122 => ⟨S5000x128, .f32⟩
  | 123 => ⟨S2000x128, .f32⟩
  | 124 => ⟨S2000x128, .f32⟩
  | 125 => ⟨S128x128, .f32⟩
  | 126 => ⟨S1x128, .f32⟩
  | 127 => ⟨S128x2, .f32⟩
  | _ => ⟨S100000x128, .f32⟩

abbrev vmemTy0_1 (i : Nat) : BufTy := match i % 128 with
  | 0 => ⟨S1x2, .f32⟩
  | 1 => ⟨S2000x2, .f32⟩
  | 2 => ⟨S2000x2, .f32⟩
  | 3 => ⟨S2000x128, .f32⟩
  | 4 => ⟨S2000x128, .f32⟩
  | 5 => ⟨S128x128, .f32⟩
  | 6 => ⟨S1x128, .f32⟩
  | 7 => ⟨S128x2, .f32⟩
  | 8 => ⟨S1x2, .f32⟩
  | 9 => ⟨S2000x2, .f32⟩
  | 10 => ⟨S2000x2, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 139 → Bool
  | ⟨i, _⟩ => dmaSemScopedAt i

abbrev sig : RefSig :=
  ofTc nBuf bufTy 0 139 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_10 : Ref sig .tc := ⟨.hbm, 87, rfl⟩
abbrev main_v52 : Ref sig .tc := ⟨.hbm, 88, rfl⟩
abbrev main_v53 : Ref sig .tc := ⟨.hbm, 89, rfl⟩
abbrev main_c_11 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_14 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_15 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_16 : Ref sig .tc := ⟨.hbm, 118, rfl⟩
abbrev main_v77 : Ref sig .tc := ⟨.hbm, 119, rfl⟩
abbrev main_v78 : Ref sig .tc := ⟨.hbm, 120, rfl⟩
abbrev main_c_17 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_20 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_22 : Ref sig .tc := ⟨.hbm, 149, rfl⟩
abbrev main_v102 : Ref sig .tc := ⟨.hbm, 150, rfl⟩
abbrev main_v103 : Ref sig .tc := ⟨.hbm, 151, rfl⟩
abbrev main_c_23 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_24 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_26 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_27 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_c_28 : Ref sig .tc := ⟨.hbm, 180, rfl⟩
abbrev main_v127 : Ref sig .tc := ⟨.hbm, 181, rfl⟩
abbrev main_v128 : Ref sig .tc := ⟨.hbm, 182, rfl⟩
abbrev main_c_29 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_30 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_31 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_32 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_33 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_c_34 : Ref sig .tc := ⟨.hbm, 211, rfl⟩
abbrev main_v152 : Ref sig .tc := ⟨.hbm, 212, rfl⟩
abbrev main_v153 : Ref sig .tc := ⟨.hbm, 213, rfl⟩
abbrev main_c_35 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_cst_36 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_37 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_38 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_cst_39 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_c_40 : Ref sig .tc := ⟨.hbm, 242, rfl⟩
abbrev main_v177 : Ref sig .tc := ⟨.hbm, 243, rfl⟩
abbrev main_v178 : Ref sig .tc := ⟨.hbm, 244, rfl⟩
abbrev main_c_41 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_42 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_43 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_44 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_cst_45 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_c_46 : Ref sig .tc := ⟨.hbm, 346, rfl⟩
abbrev main_v275 : Ref sig .tc := ⟨.hbm, 347, rfl⟩
abbrev main_v276 : Ref sig .tc := ⟨.hbm, 348, rfl⟩
abbrev main_c_47 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_cst_48 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_cst_49 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_cst_50 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_cst_51 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_c_52 : Ref sig .tc := ⟨.hbm, 377, rfl⟩
abbrev main_v300 : Ref sig .tc := ⟨.hbm, 378, rfl⟩
abbrev main_v301 : Ref sig .tc := ⟨.hbm, 379, rfl⟩
abbrev main_c_53 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_cst_54 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_cst_55 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_cst_56 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_cst_57 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_c_58 : Ref sig .tc := ⟨.hbm, 408, rfl⟩
abbrev main_v325 : Ref sig .tc := ⟨.hbm, 409, rfl⟩
abbrev main_v326 : Ref sig .tc := ⟨.hbm, 410, rfl⟩
abbrev main_c_59 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_v331 : Ref sig .tc := ⟨.hbm, 416, rfl⟩
abbrev main_v332 : Ref sig .tc := ⟨.hbm, 417, rfl⟩
abbrev main_v333 : Ref sig .tc := ⟨.hbm, 418, rfl⟩
abbrev main_cst_60 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_cst_61 : Ref sig .tc := ⟨.hbm, 423, rfl⟩
abbrev main_v337 : Ref sig .tc := ⟨.hbm, 424, rfl⟩
abbrev main_v338 : Ref sig .tc := ⟨.hbm, 425, rfl⟩
abbrev main_v339 : Ref sig .tc := ⟨.hbm, 426, rfl⟩
abbrev main_cst_62 : Ref sig .tc := ⟨.hbm, 427, rfl⟩
abbrev main_v340 : Ref sig .tc := ⟨.hbm, 428, rfl⟩
abbrev main_v341 : Ref sig .tc := ⟨.hbm, 429, rfl⟩
abbrev main_v342 : Ref sig .tc := ⟨.hbm, 430, rfl⟩
abbrev main_cst_63 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_c_64 : Ref sig .tc := ⟨.hbm, 439, rfl⟩
abbrev main_v350 : Ref sig .tc := ⟨.hbm, 440, rfl⟩
abbrev main_v351 : Ref sig .tc := ⟨.hbm, 441, rfl⟩
abbrev main_c_65 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_cst_66 : Ref sig .tc := ⟨.hbm, 450, rfl⟩
abbrev main_v359 : Ref sig .tc := ⟨.hbm, 451, rfl⟩
abbrev main_v360 : Ref sig .tc := ⟨.hbm, 452, rfl⟩
abbrev main_v361 : Ref sig .tc := ⟨.hbm, 453, rfl⟩
abbrev main_cst_67 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_cst_68 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_cst_69 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_c_70 : Ref sig .tc := ⟨.hbm, 470, rfl⟩
abbrev main_v375 : Ref sig .tc := ⟨.hbm, 471, rfl⟩
abbrev main_v376 : Ref sig .tc := ⟨.hbm, 472, rfl⟩
abbrev main_c_71 : Ref sig .tc := ⟨.hbm, 473, rfl⟩
abbrev main_v377 : Ref sig .tc := ⟨.hbm, 474, rfl⟩
abbrev main_v378 : Ref sig .tc := ⟨.hbm, 475, rfl⟩
abbrev main_v379 : Ref sig .tc := ⟨.hbm, 476, rfl⟩
abbrev main_v380 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_cst_72 : Ref sig .tc := ⟨.hbm, 481, rfl⟩
abbrev main_v384 : Ref sig .tc := ⟨.hbm, 482, rfl⟩
abbrev main_v385 : Ref sig .tc := ⟨.hbm, 483, rfl⟩
abbrev main_v386 : Ref sig .tc := ⟨.hbm, 484, rfl⟩
abbrev main_cst_73 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_cst_74 : Ref sig .tc := ⟨.hbm, 489, rfl⟩
abbrev main_v390 : Ref sig .tc := ⟨.hbm, 490, rfl⟩
abbrev main_v391 : Ref sig .tc := ⟨.hbm, 491, rfl⟩
abbrev main_v392 : Ref sig .tc := ⟨.hbm, 492, rfl⟩
abbrev main_cst_75 : Ref sig .tc := ⟨.hbm, 493, rfl⟩
abbrev main_v393 : Ref sig .tc := ⟨.hbm, 494, rfl⟩
abbrev main_v394 : Ref sig .tc := ⟨.hbm, 495, rfl⟩
abbrev main_v395 : Ref sig .tc := ⟨.hbm, 496, rfl⟩
abbrev main_v396 : Ref sig .tc := ⟨.hbm, 497, rfl⟩
abbrev main_v397 : Ref sig .tc := ⟨.hbm, 498, rfl⟩
abbrev main_v398 : Ref sig .tc := ⟨.hbm, 499, rfl⟩
abbrev main_v399 : Ref sig .tc := ⟨.hbm, 500, rfl⟩
abbrev main_c_76 : Ref sig .tc := ⟨.hbm, 501, rfl⟩
abbrev main_v400 : Ref sig .tc := ⟨.hbm, 502, rfl⟩
abbrev main_v401 : Ref sig .tc := ⟨.hbm, 503, rfl⟩
abbrev main_c_77 : Ref sig .tc := ⟨.hbm, 504, rfl⟩
abbrev main_v402 : Ref sig .tc := ⟨.hbm, 505, rfl⟩
abbrev main_v403 : Ref sig .tc := ⟨.hbm, 506, rfl⟩
abbrev main_v404 : Ref sig .tc := ⟨.hbm, 507, rfl⟩
abbrev main_v405 : Ref sig .tc := ⟨.hbm, 508, rfl⟩
abbrev main_v406 : Ref sig .tc := ⟨.hbm, 509, rfl⟩
abbrev main_v407 : Ref sig .tc := ⟨.hbm, 510, rfl⟩
abbrev main_v408 : Ref sig .tc := ⟨.hbm, 511, rfl⟩
abbrev main_cst_78 : Ref sig .tc := ⟨.hbm, 512, rfl⟩
abbrev main_v409 : Ref sig .tc := ⟨.hbm, 513, rfl⟩
abbrev main_v410 : Ref sig .tc := ⟨.hbm, 514, rfl⟩
abbrev main_v411 : Ref sig .tc := ⟨.hbm, 515, rfl⟩
abbrev main_cst_79 : Ref sig .tc := ⟨.hbm, 516, rfl⟩
abbrev main_v412 : Ref sig .tc := ⟨.hbm, 517, rfl⟩
abbrev main_v413 : Ref sig .tc := ⟨.hbm, 518, rfl⟩
abbrev main_v414 : Ref sig .tc := ⟨.hbm, 519, rfl⟩
abbrev main_cst_80 : Ref sig .tc := ⟨.hbm, 520, rfl⟩
abbrev main_v415 : Ref sig .tc := ⟨.hbm, 521, rfl⟩
abbrev main_v416 : Ref sig .tc := ⟨.hbm, 522, rfl⟩
abbrev main_v417 : Ref sig .tc := ⟨.hbm, 523, rfl⟩
abbrev main_cst_81 : Ref sig .tc := ⟨.hbm, 524, rfl⟩
abbrev main_v418 : Ref sig .tc := ⟨.hbm, 525, rfl⟩
abbrev main_v419 : Ref sig .tc := ⟨.hbm, 526, rfl⟩
abbrev main_v420 : Ref sig .tc := ⟨.hbm, 527, rfl⟩
abbrev main_v421 : Ref sig .tc := ⟨.hbm, 528, rfl⟩
abbrev main_v422 : Ref sig .tc := ⟨.hbm, 529, rfl⟩
abbrev main_v423 : Ref sig .tc := ⟨.hbm, 530, rfl⟩
abbrev main_v424 : Ref sig .tc := ⟨.hbm, 531, rfl⟩
abbrev main_c_82 : Ref sig .tc := ⟨.hbm, 532, rfl⟩
abbrev main_v425 : Ref sig .tc := ⟨.hbm, 533, rfl⟩
abbrev main_v426 : Ref sig .tc := ⟨.hbm, 534, rfl⟩
abbrev main_c_83 : Ref sig .tc := ⟨.hbm, 535, rfl⟩
abbrev main_v427 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_v432 : Ref sig .tc := ⟨.hbm, 541, rfl⟩
abbrev main_v433 : Ref sig .tc := ⟨.hbm, 542, rfl⟩
abbrev main_cst_84 : Ref sig .tc := ⟨.hbm, 543, rfl⟩
abbrev main_v434 : Ref sig .tc := ⟨.hbm, 544, rfl⟩
abbrev main_v435 : Ref sig .tc := ⟨.hbm, 545, rfl⟩
abbrev main_v436 : Ref sig .tc := ⟨.hbm, 546, rfl⟩
abbrev main_cst_85 : Ref sig .tc := ⟨.hbm, 547, rfl⟩
abbrev main_v437 : Ref sig .tc := ⟨.hbm, 548, rfl⟩
abbrev main_v438 : Ref sig .tc := ⟨.hbm, 549, rfl⟩
abbrev main_v439 : Ref sig .tc := ⟨.hbm, 550, rfl⟩
abbrev main_cst_86 : Ref sig .tc := ⟨.hbm, 551, rfl⟩
abbrev main_v440 : Ref sig .tc := ⟨.hbm, 552, rfl⟩
abbrev main_v441 : Ref sig .tc := ⟨.hbm, 553, rfl⟩
abbrev main_v442 : Ref sig .tc := ⟨.hbm, 554, rfl⟩
abbrev main_cst_87 : Ref sig .tc := ⟨.hbm, 555, rfl⟩
abbrev main_v443 : Ref sig .tc := ⟨.hbm, 556, rfl⟩
abbrev main_v444 : Ref sig .tc := ⟨.hbm, 557, rfl⟩
abbrev main_v445 : Ref sig .tc := ⟨.hbm, 558, rfl⟩
abbrev main_v446 : Ref sig .tc := ⟨.hbm, 559, rfl⟩
abbrev main_v447 : Ref sig .tc := ⟨.hbm, 560, rfl⟩
abbrev main_v448 : Ref sig .tc := ⟨.hbm, 561, rfl⟩
abbrev main_v449 : Ref sig .tc := ⟨.hbm, 562, rfl⟩
abbrev main_c_88 : Ref sig .tc := ⟨.hbm, 563, rfl⟩
abbrev main_v450 : Ref sig .tc := ⟨.hbm, 564, rfl⟩
abbrev main_v451 : Ref sig .tc := ⟨.hbm, 565, rfl⟩
abbrev main_c_89 : Ref sig .tc := ⟨.hbm, 566, rfl⟩
abbrev main_v452 : Ref sig .tc := ⟨.hbm, 567, rfl⟩
abbrev main_v453 : Ref sig .tc := ⟨.hbm, 568, rfl⟩
abbrev main_v454 : Ref sig .tc := ⟨.hbm, 569, rfl⟩
abbrev main_v455 : Ref sig .tc := ⟨.hbm, 570, rfl⟩
abbrev main_v456 : Ref sig .tc := ⟨.hbm, 571, rfl⟩
abbrev main_v457 : Ref sig .tc := ⟨.hbm, 572, rfl⟩
abbrev main_v458 : Ref sig .tc := ⟨.hbm, 573, rfl⟩
abbrev main_cst_90 : Ref sig .tc := ⟨.hbm, 574, rfl⟩
abbrev main_v459 : Ref sig .tc := ⟨.hbm, 575, rfl⟩
abbrev main_v460 : Ref sig .tc := ⟨.hbm, 576, rfl⟩
abbrev main_v461 : Ref sig .tc := ⟨.hbm, 577, rfl⟩
abbrev main_cst_91 : Ref sig .tc := ⟨.hbm, 578, rfl⟩
abbrev main_v462 : Ref sig .tc := ⟨.hbm, 579, rfl⟩
abbrev main_v463 : Ref sig .tc := ⟨.hbm, 580, rfl⟩
abbrev main_v464 : Ref sig .tc := ⟨.hbm, 581, rfl⟩
abbrev main_cst_92 : Ref sig .tc := ⟨.hbm, 582, rfl⟩
abbrev main_v465 : Ref sig .tc := ⟨.hbm, 583, rfl⟩
abbrev main_v466 : Ref sig .tc := ⟨.hbm, 584, rfl⟩
abbrev main_v467 : Ref sig .tc := ⟨.hbm, 585, rfl⟩
abbrev main_cst_93 : Ref sig .tc := ⟨.hbm, 586, rfl⟩
abbrev main_v468 : Ref sig .tc := ⟨.hbm, 587, rfl⟩
abbrev main_v469 : Ref sig .tc := ⟨.hbm, 588, rfl⟩
abbrev main_v470 : Ref sig .tc := ⟨.hbm, 589, rfl⟩
abbrev main_v471 : Ref sig .tc := ⟨.hbm, 590, rfl⟩
abbrev main_v472 : Ref sig .tc := ⟨.hbm, 591, rfl⟩
abbrev main_v473 : Ref sig .tc := ⟨.hbm, 592, rfl⟩
abbrev main_v474 : Ref sig .tc := ⟨.hbm, 593, rfl⟩
abbrev main_v475 : Ref sig .tc := ⟨.hbm, 594, rfl⟩
abbrev main_v476 : Ref sig .tc := ⟨.hbm, 595, rfl⟩
abbrev main_v477 : Ref sig .tc := ⟨.hbm, 596, rfl⟩
abbrev main_v478 : Ref sig .tc := ⟨.hbm, 597, rfl⟩
abbrev main_v479 : Ref sig .tc := ⟨.hbm, 598, rfl⟩
abbrev main_v480 : Ref sig .tc := ⟨.hbm, 599, rfl⟩
abbrev main_v481 : Ref sig .tc := ⟨.hbm, 600, rfl⟩
abbrev main_v482 : Ref sig .tc := ⟨.hbm, 601, rfl⟩
abbrev main_v483 : Ref sig .tc := ⟨.hbm, 602, rfl⟩
abbrev main_v484 : Ref sig .tc := ⟨.hbm, 603, rfl⟩
abbrev main_v485 : Ref sig .tc := ⟨.hbm, 604, rfl⟩
abbrev main_v486 : Ref sig .tc := ⟨.hbm, 605, rfl⟩
abbrev main_v487 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_v491 : Ref sig .tc := ⟨.hbm, 610, rfl⟩
abbrev main_v492 : Ref sig .tc := ⟨.hbm, 611, rfl⟩
abbrev main_v493 : Ref sig .tc := ⟨.hbm, 612, rfl⟩
abbrev main_v494 : Ref sig .tc := ⟨.hbm, 613, rfl⟩
abbrev main_v495 : Ref sig .tc := ⟨.hbm, 614, rfl⟩
abbrev main_v496 : Ref sig .tc := ⟨.hbm, 615, rfl⟩
abbrev main_v497 : Ref sig .tc := ⟨.hbm, 616, rfl⟩
abbrev main_v498 : Ref sig .tc := ⟨.hbm, 617, rfl⟩
abbrev main_v499 : Ref sig .tc := ⟨.hbm, 618, rfl⟩
abbrev main_v500 : Ref sig .tc := ⟨.hbm, 619, rfl⟩
abbrev main_v501 : Ref sig .tc := ⟨.hbm, 620, rfl⟩
abbrev main_v502 : Ref sig .tc := ⟨.hbm, 621, rfl⟩
abbrev main_v503 : Ref sig .tc := ⟨.hbm, 622, rfl⟩
abbrev main_v504 : Ref sig .tc := ⟨.hbm, 623, rfl⟩
abbrev main_v505 : Ref sig .tc := ⟨.hbm, 624, rfl⟩
abbrev main_v506 : Ref sig .tc := ⟨.hbm, 625, rfl⟩
abbrev main_v507 : Ref sig .tc := ⟨.hbm, 626, rfl⟩
abbrev main_v508 : Ref sig .tc := ⟨.hbm, 627, rfl⟩
abbrev main_v509 : Ref sig .tc := ⟨.hbm, 628, rfl⟩
abbrev main_v510 : Ref sig .tc := ⟨.hbm, 629, rfl⟩
abbrev main_v511 : Ref sig .tc := ⟨.hbm, 630, rfl⟩
abbrev main_v512 : Ref sig .tc := ⟨.hbm, 631, rfl⟩
abbrev main_v513 : Ref sig .tc := ⟨.hbm, 632, rfl⟩
abbrev main_v514 : Ref sig .tc := ⟨.hbm, 633, rfl⟩
abbrev main_v515 : Ref sig .tc := ⟨.hbm, 634, rfl⟩
abbrev main_v516 : Ref sig .tc := ⟨.hbm, 635, rfl⟩
abbrev main_v517 : Ref sig .tc := ⟨.hbm, 636, rfl⟩
abbrev main_v518 : Ref sig .tc := ⟨.hbm, 637, rfl⟩
abbrev main_v519 : Ref sig .tc := ⟨.hbm, 638, rfl⟩
abbrev main_v520 : Ref sig .tc := ⟨.hbm, 639, rfl⟩
abbrev main_v521 : Ref sig .tc := ⟨.hbm, 640, rfl⟩
abbrev main_v522 : Ref sig .tc := ⟨.hbm, 641, rfl⟩
abbrev main_v523 : Ref sig .tc := ⟨.hbm, 642, rfl⟩
abbrev main_v524 : Ref sig .tc := ⟨.hbm, 643, rfl⟩
abbrev main_v525 : Ref sig .tc := ⟨.hbm, 644, rfl⟩
abbrev main_v526 : Ref sig .tc := ⟨.hbm, 645, rfl⟩
abbrev main_v527 : Ref sig .tc := ⟨.hbm, 646, rfl⟩
abbrev main_v528 : Ref sig .tc := ⟨.hbm, 647, rfl⟩
abbrev main_v529 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_v534 : Ref sig .tc := ⟨.hbm, 653, rfl⟩
abbrev main_v535 : Ref sig .tc := ⟨.hbm, 654, rfl⟩
abbrev main_v536 : Ref sig .tc := ⟨.hbm, 655, rfl⟩
abbrev main_v537 : Ref sig .tc := ⟨.hbm, 656, rfl⟩
abbrev main_v538 : Ref sig .tc := ⟨.hbm, 657, rfl⟩
abbrev main_v539 : Ref sig .tc := ⟨.hbm, 658, rfl⟩
abbrev main_v540 : Ref sig .tc := ⟨.hbm, 659, rfl⟩
abbrev main_v541 : Ref sig .tc := ⟨.hbm, 660, rfl⟩
abbrev main_v542 : Ref sig .tc := ⟨.hbm, 661, rfl⟩
abbrev main_v543 : Ref sig .tc := ⟨.hbm, 662, rfl⟩
abbrev main_v544 : Ref sig .tc := ⟨.hbm, 663, rfl⟩
abbrev main_v545 : Ref sig .tc := ⟨.hbm, 664, rfl⟩
abbrev main_v546 : Ref sig .tc := ⟨.hbm, 665, rfl⟩
abbrev main_v547 : Ref sig .tc := ⟨.hbm, 666, rfl⟩
abbrev main_c_94 : Ref sig .tc := ⟨.hbm, 667, rfl⟩
abbrev main_v548 : Ref sig .tc := ⟨.hbm, 668, rfl⟩
abbrev main_v549 : Ref sig .tc := ⟨.hbm, 669, rfl⟩
abbrev main_c_95 : Ref sig .tc := ⟨.hbm, 670, rfl⟩
abbrev main_v550 : Ref sig .tc := ⟨.hbm, 671, rfl⟩
abbrev main_v551 : Ref sig .tc := ⟨.hbm, 672, rfl⟩
abbrev main_v552 : Ref sig .tc := ⟨.hbm, 673, rfl⟩
abbrev main_v553 : Ref sig .tc := ⟨.hbm, 674, rfl⟩
abbrev main_v554 : Ref sig .tc := ⟨.hbm, 675, rfl⟩
abbrev main_v555 : Ref sig .tc := ⟨.hbm, 676, rfl⟩
abbrev main_v556 : Ref sig .tc := ⟨.hbm, 677, rfl⟩
abbrev main_cst_96 : Ref sig .tc := ⟨.hbm, 678, rfl⟩
abbrev main_v557 : Ref sig .tc := ⟨.hbm, 679, rfl⟩
abbrev main_v558 : Ref sig .tc := ⟨.hbm, 680, rfl⟩
abbrev main_v559 : Ref sig .tc := ⟨.hbm, 681, rfl⟩
abbrev main_cst_97 : Ref sig .tc := ⟨.hbm, 682, rfl⟩
abbrev main_v560 : Ref sig .tc := ⟨.hbm, 683, rfl⟩
abbrev main_v561 : Ref sig .tc := ⟨.hbm, 684, rfl⟩
abbrev main_v562 : Ref sig .tc := ⟨.hbm, 685, rfl⟩
abbrev main_cst_98 : Ref sig .tc := ⟨.hbm, 686, rfl⟩
abbrev main_v563 : Ref sig .tc := ⟨.hbm, 687, rfl⟩
abbrev main_v564 : Ref sig .tc := ⟨.hbm, 688, rfl⟩
abbrev main_v565 : Ref sig .tc := ⟨.hbm, 689, rfl⟩
abbrev main_cst_99 : Ref sig .tc := ⟨.hbm, 690, rfl⟩
abbrev main_v566 : Ref sig .tc := ⟨.hbm, 691, rfl⟩
abbrev main_v567 : Ref sig .tc := ⟨.hbm, 692, rfl⟩
abbrev main_v568 : Ref sig .tc := ⟨.hbm, 693, rfl⟩
abbrev main_v569 : Ref sig .tc := ⟨.hbm, 694, rfl⟩
abbrev main_v570 : Ref sig .tc := ⟨.hbm, 695, rfl⟩
abbrev main_v571 : Ref sig .tc := ⟨.hbm, 696, rfl⟩
abbrev main_v572 : Ref sig .tc := ⟨.hbm, 697, rfl⟩
abbrev main_c_100 : Ref sig .tc := ⟨.hbm, 698, rfl⟩
abbrev main_v573 : Ref sig .tc := ⟨.hbm, 699, rfl⟩
abbrev main_v574 : Ref sig .tc := ⟨.hbm, 700, rfl⟩
abbrev main_c_101 : Ref sig .tc := ⟨.hbm, 701, rfl⟩
abbrev main_v575 : Ref sig .tc := ⟨.hbm, 702, rfl⟩
abbrev main_v576 : Ref sig .tc := ⟨.hbm, 703, rfl⟩
abbrev main_v577 : Ref sig .tc := ⟨.hbm, 704, rfl⟩
abbrev main_v578 : Ref sig .tc := ⟨.hbm, 705, rfl⟩
abbrev main_v579 : Ref sig .tc := ⟨.hbm, 706, rfl⟩
abbrev main_v580 : Ref sig .tc := ⟨.hbm, 707, rfl⟩
abbrev main_v581 : Ref sig .tc := ⟨.hbm, 708, rfl⟩
abbrev main_cst_102 : Ref sig .tc := ⟨.hbm, 709, rfl⟩
abbrev main_v582 : Ref sig .tc := ⟨.hbm, 710, rfl⟩
abbrev main_v583 : Ref sig .tc := ⟨.hbm, 711, rfl⟩
abbrev main_v584 : Ref sig .tc := ⟨.hbm, 712, rfl⟩
abbrev main_cst_103 : Ref sig .tc := ⟨.hbm, 713, rfl⟩
abbrev main_v585 : Ref sig .tc := ⟨.hbm, 714, rfl⟩
abbrev main_v586 : Ref sig .tc := ⟨.hbm, 715, rfl⟩
abbrev main_v587 : Ref sig .tc := ⟨.hbm, 716, rfl⟩
abbrev main_cst_104 : Ref sig .tc := ⟨.hbm, 717, rfl⟩
abbrev main_v588 : Ref sig .tc := ⟨.hbm, 718, rfl⟩
abbrev main_v589 : Ref sig .tc := ⟨.hbm, 719, rfl⟩
abbrev main_v590 : Ref sig .tc := ⟨.hbm, 720, rfl⟩
abbrev main_cst_105 : Ref sig .tc := ⟨.hbm, 721, rfl⟩
abbrev main_v591 : Ref sig .tc := ⟨.hbm, 722, rfl⟩
abbrev main_v592 : Ref sig .tc := ⟨.hbm, 723, rfl⟩
abbrev main_v593 : Ref sig .tc := ⟨.hbm, 724, rfl⟩
abbrev main_v594 : Ref sig .tc := ⟨.hbm, 725, rfl⟩
abbrev main_v595 : Ref sig .tc := ⟨.hbm, 726, rfl⟩
abbrev main_v596 : Ref sig .tc := ⟨.hbm, 727, rfl⟩
abbrev main_v597 : Ref sig .tc := ⟨.hbm, 728, rfl⟩
abbrev main_c_106 : Ref sig .tc := ⟨.hbm, 729, rfl⟩
abbrev main_v598 : Ref sig .tc := ⟨.hbm, 730, rfl⟩
abbrev main_v599 : Ref sig .tc := ⟨.hbm, 731, rfl⟩
abbrev main_c_107 : Ref sig .tc := ⟨.hbm, 732, rfl⟩
abbrev main_v600 : Ref sig .tc := ⟨.hbm, 733, rfl⟩
abbrev main_v601 : Ref sig .tc := ⟨.hbm, 734, rfl⟩
abbrev main_v602 : Ref sig .tc := ⟨.hbm, 735, rfl⟩
abbrev main_v603 : Ref sig .tc := ⟨.hbm, 736, rfl⟩
abbrev main_v604 : Ref sig .tc := ⟨.hbm, 737, rfl⟩
abbrev main_v605 : Ref sig .tc := ⟨.hbm, 738, rfl⟩
abbrev main_v606 : Ref sig .tc := ⟨.hbm, 739, rfl⟩
abbrev main_cst_108 : Ref sig .tc := ⟨.hbm, 740, rfl⟩
abbrev main_v607 : Ref sig .tc := ⟨.hbm, 741, rfl⟩
abbrev main_v608 : Ref sig .tc := ⟨.hbm, 742, rfl⟩
abbrev main_v609 : Ref sig .tc := ⟨.hbm, 743, rfl⟩
abbrev main_cst_109 : Ref sig .tc := ⟨.hbm, 744, rfl⟩
abbrev main_v610 : Ref sig .tc := ⟨.hbm, 745, rfl⟩
abbrev main_v611 : Ref sig .tc := ⟨.hbm, 746, rfl⟩
abbrev main_v612 : Ref sig .tc := ⟨.hbm, 747, rfl⟩
abbrev main_cst_110 : Ref sig .tc := ⟨.hbm, 748, rfl⟩
abbrev main_v613 : Ref sig .tc := ⟨.hbm, 749, rfl⟩
abbrev main_v614 : Ref sig .tc := ⟨.hbm, 750, rfl⟩
abbrev main_v615 : Ref sig .tc := ⟨.hbm, 751, rfl⟩
abbrev main_cst_111 : Ref sig .tc := ⟨.hbm, 752, rfl⟩
abbrev main_v616 : Ref sig .tc := ⟨.hbm, 753, rfl⟩
abbrev main_v617 : Ref sig .tc := ⟨.hbm, 754, rfl⟩
abbrev main_v618 : Ref sig .tc := ⟨.hbm, 755, rfl⟩
abbrev main_v619 : Ref sig .tc := ⟨.hbm, 756, rfl⟩
abbrev main_v620 : Ref sig .tc := ⟨.hbm, 757, rfl⟩
abbrev main_v621 : Ref sig .tc := ⟨.hbm, 758, rfl⟩
abbrev main_v622 : Ref sig .tc := ⟨.hbm, 759, rfl⟩
abbrev main_c_112 : Ref sig .tc := ⟨.hbm, 760, rfl⟩
abbrev main_v623 : Ref sig .tc := ⟨.hbm, 761, rfl⟩
abbrev main_v624 : Ref sig .tc := ⟨.hbm, 762, rfl⟩
abbrev main_c_113 : Ref sig .tc := ⟨.hbm, 763, rfl⟩
abbrev main_v625 : Ref sig .tc := ⟨.hbm, 764, rfl⟩
abbrev main_v626 : Ref sig .tc := ⟨.hbm, 765, rfl⟩
abbrev main_v627 : Ref sig .tc := ⟨.hbm, 766, rfl⟩
abbrev main_v628 : Ref sig .tc := ⟨.hbm, 767, rfl⟩
abbrev main_v629 : Ref sig .tc := ⟨.hbm, 768, rfl⟩
abbrev main_v630 : Ref sig .tc := ⟨.hbm, 769, rfl⟩
abbrev main_v631 : Ref sig .tc := ⟨.hbm, 770, rfl⟩
abbrev main_cst_114 : Ref sig .tc := ⟨.hbm, 771, rfl⟩
abbrev main_v632 : Ref sig .tc := ⟨.hbm, 772, rfl⟩
abbrev main_v633 : Ref sig .tc := ⟨.hbm, 773, rfl⟩
abbrev main_v634 : Ref sig .tc := ⟨.hbm, 774, rfl⟩
abbrev main_cst_115 : Ref sig .tc := ⟨.hbm, 775, rfl⟩
abbrev main_v635 : Ref sig .tc := ⟨.hbm, 776, rfl⟩
abbrev main_v636 : Ref sig .tc := ⟨.hbm, 777, rfl⟩
abbrev main_v637 : Ref sig .tc := ⟨.hbm, 778, rfl⟩
abbrev main_cst_116 : Ref sig .tc := ⟨.hbm, 779, rfl⟩
abbrev main_v638 : Ref sig .tc := ⟨.hbm, 780, rfl⟩
abbrev main_v639 : Ref sig .tc := ⟨.hbm, 781, rfl⟩
abbrev main_v640 : Ref sig .tc := ⟨.hbm, 782, rfl⟩
abbrev main_cst_117 : Ref sig .tc := ⟨.hbm, 783, rfl⟩
abbrev main_v641 : Ref sig .tc := ⟨.hbm, 784, rfl⟩
abbrev main_v642 : Ref sig .tc := ⟨.hbm, 785, rfl⟩
abbrev main_v643 : Ref sig .tc := ⟨.hbm, 786, rfl⟩
abbrev main_v644 : Ref sig .tc := ⟨.hbm, 787, rfl⟩
abbrev main_v645 : Ref sig .tc := ⟨.hbm, 788, rfl⟩
abbrev main_v646 : Ref sig .tc := ⟨.hbm, 789, rfl⟩
abbrev main_v647 : Ref sig .tc := ⟨.hbm, 790, rfl⟩
abbrev main_c_118 : Ref sig .tc := ⟨.hbm, 791, rfl⟩
abbrev main_v648 : Ref sig .tc := ⟨.hbm, 792, rfl⟩
abbrev main_v649 : Ref sig .tc := ⟨.hbm, 793, rfl⟩
abbrev main_c_119 : Ref sig .tc := ⟨.hbm, 794, rfl⟩
abbrev main_v650 : Ref sig .tc := ⟨.hbm, 795, rfl⟩
abbrev main_v651 : Ref sig .tc := ⟨.hbm, 796, rfl⟩
abbrev main_v652 : Ref sig .tc := ⟨.hbm, 797, rfl⟩
abbrev main_v653 : Ref sig .tc := ⟨.hbm, 798, rfl⟩
abbrev main_v654 : Ref sig .tc := ⟨.hbm, 799, rfl⟩
abbrev main_v655 : Ref sig .tc := ⟨.hbm, 800, rfl⟩
abbrev main_v656 : Ref sig .tc := ⟨.hbm, 801, rfl⟩
abbrev main_cst_120 : Ref sig .tc := ⟨.hbm, 802, rfl⟩
abbrev main_v657 : Ref sig .tc := ⟨.hbm, 803, rfl⟩
abbrev main_v658 : Ref sig .tc := ⟨.hbm, 804, rfl⟩
abbrev main_v659 : Ref sig .tc := ⟨.hbm, 805, rfl⟩
abbrev main_cst_121 : Ref sig .tc := ⟨.hbm, 806, rfl⟩
abbrev main_v660 : Ref sig .tc := ⟨.hbm, 807, rfl⟩
abbrev main_v661 : Ref sig .tc := ⟨.hbm, 808, rfl⟩
abbrev main_v662 : Ref sig .tc := ⟨.hbm, 809, rfl⟩
abbrev main_cst_122 : Ref sig .tc := ⟨.hbm, 810, rfl⟩
abbrev main_v663 : Ref sig .tc := ⟨.hbm, 811, rfl⟩
abbrev main_v664 : Ref sig .tc := ⟨.hbm, 812, rfl⟩
abbrev main_v665 : Ref sig .tc := ⟨.hbm, 813, rfl⟩
abbrev main_cst_123 : Ref sig .tc := ⟨.hbm, 814, rfl⟩
abbrev main_v666 : Ref sig .tc := ⟨.hbm, 815, rfl⟩
abbrev main_v667 : Ref sig .tc := ⟨.hbm, 816, rfl⟩
abbrev main_v668 : Ref sig .tc := ⟨.hbm, 817, rfl⟩
abbrev main_v669 : Ref sig .tc := ⟨.hbm, 818, rfl⟩
abbrev main_v670 : Ref sig .tc := ⟨.hbm, 819, rfl⟩
abbrev main_v671 : Ref sig .tc := ⟨.hbm, 820, rfl⟩
abbrev main_v672 : Ref sig .tc := ⟨.hbm, 821, rfl⟩
abbrev main_c_124 : Ref sig .tc := ⟨.hbm, 822, rfl⟩
abbrev main_v673 : Ref sig .tc := ⟨.hbm, 823, rfl⟩
abbrev main_v674 : Ref sig .tc := ⟨.hbm, 824, rfl⟩
abbrev main_c_125 : Ref sig .tc := ⟨.hbm, 825, rfl⟩
abbrev main_v675 : Ref sig .tc := ⟨.hbm, 826, rfl⟩
abbrev main_v676 : Ref sig .tc := ⟨.hbm, 827, rfl⟩
abbrev main_v677 : Ref sig .tc := ⟨.hbm, 828, rfl⟩
abbrev main_v678 : Ref sig .tc := ⟨.hbm, 829, rfl⟩
abbrev main_v679 : Ref sig .tc := ⟨.hbm, 830, rfl⟩
abbrev main_v680 : Ref sig .tc := ⟨.hbm, 831, rfl⟩
abbrev main_v681 : Ref sig .tc := ⟨.hbm, 832, rfl⟩
abbrev main_cst_126 : Ref sig .tc := ⟨.hbm, 833, rfl⟩
abbrev main_v682 : Ref sig .tc := ⟨.hbm, 834, rfl⟩
abbrev main_v683 : Ref sig .tc := ⟨.hbm, 835, rfl⟩
abbrev main_v684 : Ref sig .tc := ⟨.hbm, 836, rfl⟩
abbrev main_cst_127 : Ref sig .tc := ⟨.hbm, 837, rfl⟩
abbrev main_v685 : Ref sig .tc := ⟨.hbm, 838, rfl⟩
abbrev main_v686 : Ref sig .tc := ⟨.hbm, 839, rfl⟩
abbrev main_v687 : Ref sig .tc := ⟨.hbm, 840, rfl⟩
abbrev main_cst_128 : Ref sig .tc := ⟨.hbm, 841, rfl⟩
abbrev main_v688 : Ref sig .tc := ⟨.hbm, 842, rfl⟩
abbrev main_v689 : Ref sig .tc := ⟨.hbm, 843, rfl⟩
abbrev main_v690 : Ref sig .tc := ⟨.hbm, 844, rfl⟩
abbrev main_cst_129 : Ref sig .tc := ⟨.hbm, 845, rfl⟩
abbrev main_v691 : Ref sig .tc := ⟨.hbm, 846, rfl⟩
abbrev main_v692 : Ref sig .tc := ⟨.hbm, 847, rfl⟩
abbrev main_v693 : Ref sig .tc := ⟨.hbm, 848, rfl⟩
abbrev main_v694 : Ref sig .tc := ⟨.hbm, 849, rfl⟩
abbrev main_v695 : Ref sig .tc := ⟨.hbm, 850, rfl⟩
abbrev main_v696 : Ref sig .tc := ⟨.hbm, 851, rfl⟩
abbrev main_v697 : Ref sig .tc := ⟨.hbm, 852, rfl⟩
abbrev main_c_130 : Ref sig .tc := ⟨.hbm, 853, rfl⟩
abbrev main_v698 : Ref sig .tc := ⟨.hbm, 854, rfl⟩
abbrev main_v699 : Ref sig .tc := ⟨.hbm, 855, rfl⟩
abbrev main_c_131 : Ref sig .tc := ⟨.hbm, 856, rfl⟩
abbrev main_v700 : Ref sig .tc := ⟨.hbm, 857, rfl⟩
abbrev main_v701 : Ref sig .tc := ⟨.hbm, 858, rfl⟩
abbrev main_v702 : Ref sig .tc := ⟨.hbm, 859, rfl⟩
abbrev main_v703 : Ref sig .tc := ⟨.hbm, 860, rfl⟩
abbrev main_v704 : Ref sig .tc := ⟨.hbm, 861, rfl⟩
abbrev main_v705 : Ref sig .tc := ⟨.hbm, 862, rfl⟩
abbrev main_v706 : Ref sig .tc := ⟨.hbm, 863, rfl⟩
abbrev main_cst_132 : Ref sig .tc := ⟨.hbm, 864, rfl⟩
abbrev main_v707 : Ref sig .tc := ⟨.hbm, 865, rfl⟩
abbrev main_v708 : Ref sig .tc := ⟨.hbm, 866, rfl⟩
abbrev main_v709 : Ref sig .tc := ⟨.hbm, 867, rfl⟩
abbrev main_cst_133 : Ref sig .tc := ⟨.hbm, 868, rfl⟩
abbrev main_v710 : Ref sig .tc := ⟨.hbm, 869, rfl⟩
abbrev main_v711 : Ref sig .tc := ⟨.hbm, 870, rfl⟩
abbrev main_v712 : Ref sig .tc := ⟨.hbm, 871, rfl⟩
abbrev main_cst_134 : Ref sig .tc := ⟨.hbm, 872, rfl⟩
abbrev main_v713 : Ref sig .tc := ⟨.hbm, 873, rfl⟩
abbrev main_v714 : Ref sig .tc := ⟨.hbm, 874, rfl⟩
abbrev main_v715 : Ref sig .tc := ⟨.hbm, 875, rfl⟩
abbrev main_cst_135 : Ref sig .tc := ⟨.hbm, 876, rfl⟩
abbrev main_v716 : Ref sig .tc := ⟨.hbm, 877, rfl⟩
abbrev main_v717 : Ref sig .tc := ⟨.hbm, 878, rfl⟩
abbrev main_v718 : Ref sig .tc := ⟨.hbm, 879, rfl⟩
abbrev main_v719 : Ref sig .tc := ⟨.hbm, 880, rfl⟩
abbrev main_v720 : Ref sig .tc := ⟨.hbm, 881, rfl⟩
abbrev main_v721 : Ref sig .tc := ⟨.hbm, 882, rfl⟩
abbrev main_v722 : Ref sig .tc := ⟨.hbm, 883, rfl⟩
abbrev main_c_136 : Ref sig .tc := ⟨.hbm, 884, rfl⟩
abbrev main_v723 : Ref sig .tc := ⟨.hbm, 885, rfl⟩
abbrev main_v724 : Ref sig .tc := ⟨.hbm, 886, rfl⟩
abbrev main_c_137 : Ref sig .tc := ⟨.hbm, 887, rfl⟩
abbrev main_v725 : Ref sig .tc := ⟨.hbm, 888, rfl⟩
abbrev main_v726 : Ref sig .tc := ⟨.hbm, 889, rfl⟩
abbrev main_v727 : Ref sig .tc := ⟨.hbm, 890, rfl⟩
abbrev main_v728 : Ref sig .tc := ⟨.hbm, 891, rfl⟩
abbrev main_v729 : Ref sig .tc := ⟨.hbm, 892, rfl⟩
abbrev main_v730 : Ref sig .tc := ⟨.hbm, 893, rfl⟩
abbrev main_v731 : Ref sig .tc := ⟨.hbm, 894, rfl⟩
abbrev main_cst_138 : Ref sig .tc := ⟨.hbm, 895, rfl⟩
abbrev main_v732 : Ref sig .tc := ⟨.hbm, 896, rfl⟩
abbrev main_v733 : Ref sig .tc := ⟨.hbm, 897, rfl⟩
abbrev main_v734 : Ref sig .tc := ⟨.hbm, 898, rfl⟩
abbrev main_cst_139 : Ref sig .tc := ⟨.hbm, 899, rfl⟩
abbrev main_v735 : Ref sig .tc := ⟨.hbm, 900, rfl⟩
abbrev main_v736 : Ref sig .tc := ⟨.hbm, 901, rfl⟩
abbrev main_v737 : Ref sig .tc := ⟨.hbm, 902, rfl⟩
abbrev main_cst_140 : Ref sig .tc := ⟨.hbm, 903, rfl⟩
abbrev main_v738 : Ref sig .tc := ⟨.hbm, 904, rfl⟩
abbrev main_v739 : Ref sig .tc := ⟨.hbm, 905, rfl⟩
abbrev main_v740 : Ref sig .tc := ⟨.hbm, 906, rfl⟩
abbrev main_cst_141 : Ref sig .tc := ⟨.hbm, 907, rfl⟩
abbrev main_v741 : Ref sig .tc := ⟨.hbm, 908, rfl⟩
abbrev main_v742 : Ref sig .tc := ⟨.hbm, 909, rfl⟩
abbrev main_v743 : Ref sig .tc := ⟨.hbm, 910, rfl⟩
abbrev main_v744 : Ref sig .tc := ⟨.hbm, 911, rfl⟩
abbrev main_v745 : Ref sig .tc := ⟨.hbm, 912, rfl⟩
abbrev main_v746 : Ref sig .tc := ⟨.hbm, 913, rfl⟩
abbrev main_v747 : Ref sig .tc := ⟨.hbm, 914, rfl⟩
abbrev main_v748 : Ref sig .tc := ⟨.hbm, 915, rfl⟩
abbrev main_v749 : Ref sig .tc := ⟨.hbm, 916, rfl⟩
abbrev main_v750 : Ref sig .tc := ⟨.hbm, 917, rfl⟩
abbrev main_v751 : Ref sig .tc := ⟨.hbm, 918, rfl⟩
abbrev main_v752 : Ref sig .tc := ⟨.hbm, 919, rfl⟩
abbrev main_v753 : Ref sig .tc := ⟨.hbm, 920, rfl⟩
abbrev main_v754 : Ref sig .tc := ⟨.hbm, 921, rfl⟩
abbrev main_v755 : Ref sig .tc := ⟨.hbm, 922, rfl⟩
abbrev main_v756 : Ref sig .tc := ⟨.hbm, 923, rfl⟩
abbrev main_v757 : Ref sig .tc := ⟨.hbm, 924, rfl⟩
abbrev main_v758 : Ref sig .tc := ⟨.hbm, 925, rfl⟩
abbrev main_v759 : Ref sig .tc := ⟨.hbm, 926, rfl⟩
abbrev main_v760 : Ref sig .tc := ⟨.hbm, 927, rfl⟩
abbrev main_v761 : Ref sig .tc := ⟨.hbm, 928, rfl⟩
abbrev main_v762 : Ref sig .tc := ⟨.hbm, 929, rfl⟩
abbrev main_v763 : Ref sig .tc := ⟨.hbm, 930, rfl⟩
abbrev main_v764 : Ref sig .tc := ⟨.hbm, 931, rfl⟩
abbrev main_v765 : Ref sig .tc := ⟨.hbm, 932, rfl⟩
abbrev main_v766 : Ref sig .tc := ⟨.hbm, 933, rfl⟩
abbrev main_v767 : Ref sig .tc := ⟨.hbm, 934, rfl⟩
abbrev main_v768 : Ref sig .tc := ⟨.hbm, 935, rfl⟩
abbrev main_v769 : Ref sig .tc := ⟨.hbm, 936, rfl⟩
abbrev main_v770 : Ref sig .tc := ⟨.hbm, 937, rfl⟩
abbrev main_v771 : Ref sig .tc := ⟨.hbm, 938, rfl⟩
abbrev main_v772 : Ref sig .tc := ⟨.hbm, 939, rfl⟩
abbrev main_v773 : Ref sig .tc := ⟨.hbm, 940, rfl⟩
abbrev main_v774 : Ref sig .tc := ⟨.hbm, 941, rfl⟩
abbrev main_v775 : Ref sig .tc := ⟨.hbm, 942, rfl⟩
abbrev main_v776 : Ref sig .tc := ⟨.hbm, 943, rfl⟩
abbrev main_v777 : Ref sig .tc := ⟨.hbm, 944, rfl⟩
abbrev main_v778 : Ref sig .tc := ⟨.hbm, 945, rfl⟩
abbrev main_v779 : Ref sig .tc := ⟨.hbm, 946, rfl⟩
abbrev main_v780 : Ref sig .tc := ⟨.hbm, 947, rfl⟩
abbrev main_v781 : Ref sig .tc := ⟨.hbm, 948, rfl⟩
abbrev main_v782 : Ref sig .tc := ⟨.hbm, 949, rfl⟩
abbrev main_v783 : Ref sig .tc := ⟨.hbm, 950, rfl⟩
abbrev main_v784 : Ref sig .tc := ⟨.hbm, 951, rfl⟩
abbrev main_v785 : Ref sig .tc := ⟨.hbm, 952, rfl⟩
abbrev main_v786 : Ref sig .tc := ⟨.hbm, 953, rfl⟩
abbrev main_v787 : Ref sig .tc := ⟨.hbm, 954, rfl⟩
abbrev main_v788 : Ref sig .tc := ⟨.hbm, 955, rfl⟩
abbrev main_v789 : Ref sig .tc := ⟨.hbm, 956, rfl⟩
abbrev main_v790 : Ref sig .tc := ⟨.hbm, 957, rfl⟩
abbrev main_v791 : Ref sig .tc := ⟨.hbm, 958, rfl⟩
abbrev main_v792 : Ref sig .tc := ⟨.hbm, 959, rfl⟩
abbrev main_v793 : Ref sig .tc := ⟨.hbm, 960, rfl⟩
abbrev main_v794 : Ref sig .tc := ⟨.hbm, 961, rfl⟩
abbrev main_v795 : Ref sig .tc := ⟨.hbm, 962, rfl⟩
abbrev main_v796 : Ref sig .tc := ⟨.hbm, 963, rfl⟩
abbrev main_v797 : Ref sig .tc := ⟨.hbm, 964, rfl⟩
abbrev main_v798 : Ref sig .tc := ⟨.hbm, 965, rfl⟩
abbrev main_v799 : Ref sig .tc := ⟨.hbm, 966, rfl⟩
abbrev main_v800 : Ref sig .tc := ⟨.hbm, 967, rfl⟩
abbrev main_v801 : Ref sig .tc := ⟨.hbm, 968, rfl⟩
abbrev main_v802 : Ref sig .tc := ⟨.hbm, 969, rfl⟩
abbrev main_v803 : Ref sig .tc := ⟨.hbm, 970, rfl⟩
abbrev main_v804 : Ref sig .tc := ⟨.hbm, 971, rfl⟩
abbrev main_v805 : Ref sig .tc := ⟨.hbm, 972, rfl⟩
abbrev main_v806 : Ref sig .tc := ⟨.hbm, 973, rfl⟩
abbrev main_v807 : Ref sig .tc := ⟨.hbm, 974, rfl⟩
abbrev main_v808 : Ref sig .tc := ⟨.hbm, 975, rfl⟩
abbrev main_v809 : Ref sig .tc := ⟨.hbm, 976, rfl⟩
abbrev main_v810 : Ref sig .tc := ⟨.hbm, 977, rfl⟩
abbrev main_v811 : Ref sig .tc := ⟨.hbm, 978, rfl⟩
abbrev main_v812 : Ref sig .tc := ⟨.hbm, 979, rfl⟩
abbrev main_v813 : Ref sig .tc := ⟨.hbm, 980, rfl⟩
abbrev main_v814 : Ref sig .tc := ⟨.hbm, 981, rfl⟩
abbrev main_v815 : Ref sig .tc := ⟨.hbm, 982, rfl⟩
abbrev main_v816 : Ref sig .tc := ⟨.hbm, 983, rfl⟩
abbrev main_v817 : Ref sig .tc := ⟨.hbm, 984, rfl⟩
abbrev main_v818 : Ref sig .tc := ⟨.hbm, 985, rfl⟩
abbrev main_v819 : Ref sig .tc := ⟨.hbm, 986, rfl⟩
abbrev main_v820 : Ref sig .tc := ⟨.hbm, 987, rfl⟩
abbrev main_v821 : Ref sig .tc := ⟨.hbm, 988, rfl⟩
abbrev main_v822 : Ref sig .tc := ⟨.hbm, 989, rfl⟩
abbrev main_v823 : Ref sig .tc := ⟨.hbm, 990, rfl⟩
abbrev main_v824 : Ref sig .tc := ⟨.hbm, 991, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg3_1 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg5_1 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg8_0 : Ref sig .tc := ⟨.vmem, 55, rfl⟩
abbrev cc4_stg9_0 : Ref sig .tc := ⟨.vmem, 56, rfl⟩
abbrev cc4_stg9_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg5_1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg1_1 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg5_1 : Ref sig .tc := ⟨.vmem, 75, rfl⟩
abbrev cc7_stg0_0 : Ref sig .tc := ⟨.vmem, 76, rfl⟩
abbrev cc7_stg1_0 : Ref sig .tc := ⟨.vmem, 77, rfl⟩
abbrev cc7_stg2_0 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg5_0 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg1_1 : Ref sig .tc := ⟨.vmem, 85, rfl⟩
abbrev cc8_stg2_0 : Ref sig .tc := ⟨.vmem, 86, rfl⟩
abbrev cc8_stg2_1 : Ref sig .tc := ⟨.vmem, 87, rfl⟩
abbrev cc8_stg3_0 : Ref sig .tc := ⟨.vmem, 88, rfl⟩
abbrev cc8_stg3_1 : Ref sig .tc := ⟨.vmem, 89, rfl⟩
abbrev cc8_stg4_0 : Ref sig .tc := ⟨.vmem, 90, rfl⟩
abbrev cc8_stg4_1 : Ref sig .tc := ⟨.vmem, 91, rfl⟩
abbrev cc8_stg5_0 : Ref sig .tc := ⟨.vmem, 92, rfl⟩
abbrev cc8_stg5_1 : Ref sig .tc := ⟨.vmem, 93, rfl⟩
abbrev cc8_stg6_0 : Ref sig .tc := ⟨.vmem, 94, rfl⟩
abbrev cc8_stg7_0 : Ref sig .tc := ⟨.vmem, 95, rfl⟩
abbrev cc8_stg8_0 : Ref sig .tc := ⟨.vmem, 96, rfl⟩
abbrev cc8_stg9_0 : Ref sig .tc := ⟨.vmem, 97, rfl⟩
abbrev cc8_stg9_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg1_1 : Ref sig .tc := ⟨.vmem, 102, rfl⟩
abbrev cc9_stg2_0 : Ref sig .tc := ⟨.vmem, 103, rfl⟩
abbrev cc9_stg3_0 : Ref sig .tc := ⟨.vmem, 104, rfl⟩
abbrev cc9_stg4_0 : Ref sig .tc := ⟨.vmem, 105, rfl⟩
abbrev cc9_stg5_0 : Ref sig .tc := ⟨.vmem, 106, rfl⟩
abbrev cc9_stg5_1 : Ref sig .tc := ⟨.vmem, 107, rfl⟩
abbrev cc10_stg0_0 : Ref sig .tc := ⟨.vmem, 108, rfl⟩
abbrev cc10_stg0_1 : Ref sig .tc := ⟨.vmem, 109, rfl⟩
abbrev cc10_stg1_0 : Ref sig .tc := ⟨.vmem, 110, rfl⟩
abbrev cc10_stg1_1 : Ref sig .tc := ⟨.vmem, 111, rfl⟩
abbrev cc10_stg2_0 : Ref sig .tc := ⟨.vmem, 112, rfl⟩
abbrev cc10_stg3_0 : Ref sig .tc := ⟨.vmem, 113, rfl⟩
abbrev cc10_stg4_0 : Ref sig .tc := ⟨.vmem, 114, rfl⟩
abbrev cc10_stg5_0 : Ref sig .tc := ⟨.vmem, 115, rfl⟩
abbrev cc10_stg5_1 : Ref sig .tc := ⟨.vmem, 116, rfl⟩
abbrev cc11_stg0_0 : Ref sig .tc := ⟨.vmem, 117, rfl⟩
abbrev cc11_stg1_0 : Ref sig .tc := ⟨.vmem, 118, rfl⟩
abbrev cc11_stg2_0 : Ref sig .tc := ⟨.vmem, 119, rfl⟩
abbrev cc11_stg3_0 : Ref sig .tc := ⟨.vmem, 120, rfl⟩
abbrev cc11_stg4_0 : Ref sig .tc := ⟨.vmem, 121, rfl⟩
abbrev cc11_stg5_0 : Ref sig .tc := ⟨.vmem, 122, rfl⟩
abbrev cc12_stg0_0 : Ref sig .tc := ⟨.vmem, 123, rfl⟩
abbrev cc12_stg0_1 : Ref sig .tc := ⟨.vmem, 124, rfl⟩
abbrev cc12_stg1_0 : Ref sig .tc := ⟨.vmem, 125, rfl⟩
abbrev cc12_stg2_0 : Ref sig .tc := ⟨.vmem, 126, rfl⟩
abbrev cc12_stg3_0 : Ref sig .tc := ⟨.vmem, 127, rfl⟩
abbrev cc12_stg4_0 : Ref sig .tc := ⟨.vmem, 128, rfl⟩
abbrev cc12_stg5_0 : Ref sig .tc := ⟨.vmem, 129, rfl⟩
abbrev cc12_stg5_1 : Ref sig .tc := ⟨.vmem, 130, rfl⟩
abbrev cc13_stg0_0 : Ref sig .tc := ⟨.vmem, 131, rfl⟩
abbrev cc13_stg0_1 : Ref sig .tc := ⟨.vmem, 132, rfl⟩
abbrev cc13_stg1_0 : Ref sig .tc := ⟨.vmem, 133, rfl⟩
abbrev cc13_stg2_0 : Ref sig .tc := ⟨.vmem, 134, rfl⟩
abbrev cc13_stg3_0 : Ref sig .tc := ⟨.vmem, 135, rfl⟩
abbrev cc13_stg4_0 : Ref sig .tc := ⟨.vmem, 136, rfl⟩
abbrev cc13_stg5_0 : Ref sig .tc := ⟨.vmem, 137, rfl⟩
abbrev cc13_stg5_1 : Ref sig .tc := ⟨.vmem, 138, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc3_sem0_0 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem3_1 : DmaSem sig := 48
abbrev cc4_sem4_0 : DmaSem sig := 49
abbrev cc4_sem4_1 : DmaSem sig := 50
abbrev cc4_sem5_0 : DmaSem sig := 51
abbrev cc4_sem5_1 : DmaSem sig := 52
abbrev cc4_sem6_0 : DmaSem sig := 53
abbrev cc4_sem7_0 : DmaSem sig := 54
abbrev cc4_sem8_0 : DmaSem sig := 55
abbrev cc4_sem9_0 : DmaSem sig := 56
abbrev cc4_sem9_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem5_1 : DmaSem sig := 66
abbrev cc6_sem0_0 : DmaSem sig := 67
abbrev cc6_sem0_1 : DmaSem sig := 68
abbrev cc6_sem1_0 : DmaSem sig := 69
abbrev cc6_sem1_1 : DmaSem sig := 70
abbrev cc6_sem2_0 : DmaSem sig := 71
abbrev cc6_sem3_0 : DmaSem sig := 72
abbrev cc6_sem4_0 : DmaSem sig := 73
abbrev cc6_sem5_0 : DmaSem sig := 74
abbrev cc6_sem5_1 : DmaSem sig := 75
abbrev cc7_sem0_0 : DmaSem sig := 76
abbrev cc7_sem1_0 : DmaSem sig := 77
abbrev cc7_sem2_0 : DmaSem sig := 78
abbrev cc7_sem3_0 : DmaSem sig := 79
abbrev cc7_sem4_0 : DmaSem sig := 80
abbrev cc7_sem5_0 : DmaSem sig := 81
abbrev cc8_sem0_0 : DmaSem sig := 82
abbrev cc8_sem0_1 : DmaSem sig := 83
abbrev cc8_sem1_0 : DmaSem sig := 84
abbrev cc8_sem1_1 : DmaSem sig := 85
abbrev cc8_sem2_0 : DmaSem sig := 86
abbrev cc8_sem2_1 : DmaSem sig := 87
abbrev cc8_sem3_0 : DmaSem sig := 88
abbrev cc8_sem3_1 : DmaSem sig := 89
abbrev cc8_sem4_0 : DmaSem sig := 90
abbrev cc8_sem4_1 : DmaSem sig := 91
abbrev cc8_sem5_0 : DmaSem sig := 92
abbrev cc8_sem5_1 : DmaSem sig := 93
abbrev cc8_sem6_0 : DmaSem sig := 94
abbrev cc8_sem7_0 : DmaSem sig := 95
abbrev cc8_sem8_0 : DmaSem sig := 96
abbrev cc8_sem9_0 : DmaSem sig := 97
abbrev cc8_sem9_1 : DmaSem sig := 98
abbrev cc9_sem0_0 : DmaSem sig := 99
abbrev cc9_sem0_1 : DmaSem sig := 100
abbrev cc9_sem1_0 : DmaSem sig := 101
abbrev cc9_sem1_1 : DmaSem sig := 102
abbrev cc9_sem2_0 : DmaSem sig := 103
abbrev cc9_sem3_0 : DmaSem sig := 104
abbrev cc9_sem4_0 : DmaSem sig := 105
abbrev cc9_sem5_0 : DmaSem sig := 106
abbrev cc9_sem5_1 : DmaSem sig := 107
abbrev cc10_sem0_0 : DmaSem sig := 108
abbrev cc10_sem0_1 : DmaSem sig := 109
abbrev cc10_sem1_0 : DmaSem sig := 110
abbrev cc10_sem1_1 : DmaSem sig := 111
abbrev cc10_sem2_0 : DmaSem sig := 112
abbrev cc10_sem3_0 : DmaSem sig := 113
abbrev cc10_sem4_0 : DmaSem sig := 114
abbrev cc10_sem5_0 : DmaSem sig := 115
abbrev cc10_sem5_1 : DmaSem sig := 116
abbrev cc11_sem0_0 : DmaSem sig := 117
abbrev cc11_sem1_0 : DmaSem sig := 118
abbrev cc11_sem2_0 : DmaSem sig := 119
abbrev cc11_sem3_0 : DmaSem sig := 120
abbrev cc11_sem4_0 : DmaSem sig := 121
abbrev cc11_sem5_0 : DmaSem sig := 122
abbrev cc12_sem0_0 : DmaSem sig := 123
abbrev cc12_sem0_1 : DmaSem sig := 124
abbrev cc12_sem1_0 : DmaSem sig := 125
abbrev cc12_sem2_0 : DmaSem sig := 126
abbrev cc12_sem3_0 : DmaSem sig := 127
abbrev cc12_sem4_0 : DmaSem sig := 128
abbrev cc12_sem5_0 : DmaSem sig := 129
abbrev cc12_sem5_1 : DmaSem sig := 130
abbrev cc13_sem0_0 : DmaSem sig := 131
abbrev cc13_sem0_1 : DmaSem sig := 132
abbrev cc13_sem1_0 : DmaSem sig := 133
abbrev cc13_sem2_0 : DmaSem sig := 134
abbrev cc13_sem3_0 : DmaSem sig := 135
abbrev cc13_sem4_0 : DmaSem sig := 136
abbrev cc13_sem5_0 : DmaSem sig := 137
abbrev cc13_sem5_1 : DmaSem sig := 138

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S5000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S5000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S5000x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S5x128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S5000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S5000x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S1x128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S5000x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S5x128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S2000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S5000x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S5000x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S1x128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S5000x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x2 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x2 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x2 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x2 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x2 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S2000x2 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  slices_S2x20000_S1x20000_0_0 : S2x20000.Slices ![0, 0] S1x20000
  shapeCasts_S1x20000_S20000 : S1x20000.ShapeCasts S20000
  bcast_S_S20000 : S_.BroadcastsInDim S20000 (![] : Fin 0 → Fin S20000.rank)
  bcast_S20000_S20000x1_0 : S20000.BroadcastsInDim S20000x1 (![0] : Fin 1 → Fin S20000x1.rank)
  slices_S2x20000_S1x20000_1_0 : S2x20000.Slices ![1, 0] S1x20000
  slices_S2x50000_S1x50000_0_0 : S2x50000.Slices ![0, 0] S1x50000
  shapeCasts_S1x50000_S50000 : S1x50000.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S2x50000_S1x50000_1_0 : S2x50000.Slices ![1, 0] S1x50000
  slices_S2x5000_S1x5000_0_0 : S2x5000.Slices ![0, 0] S1x5000
  shapeCasts_S1x5000_S5000 : S1x5000.ShapeCasts S5000
  bcast_S_S5000 : S_.BroadcastsInDim S5000 (![] : Fin 0 → Fin S5000.rank)
  bcast_S5000_S5000x1_0 : S5000.BroadcastsInDim S5000x1 (![0] : Fin 1 → Fin S5000x1.rank)
  slices_S2x5000_S1x5000_1_0 : S2x5000.Slices ![1, 0] S1x5000
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S5000x128 : S_.BroadcastsInDim S5000x128 (![] : Fin 0 → Fin S5000x128.rank)
  bcast_S5000x1_S5000x128_0_1 : S5000x1.BroadcastsInDim S5000x128 (![0, 1] : Fin 2 → Fin S5000x128.rank)
  slices_S3x8x128x128_S1x1x128x128_0_0_0_0 : S3x8x128x128.Slices ![0, 0, 0, 0] S1x1x128x128
  shapeCasts_S1x1x128x128_S128x128 : S1x1x128x128.ShapeCasts S128x128
  slices_S3x8x128x128_S1x1x128x128_0_1_0_0 : S3x8x128x128.Slices ![0, 1, 0, 0] S1x1x128x128
  slices_S3x8x128x128_S1x1x128x128_0_2_0_0 : S3x8x128x128.Slices ![0, 2, 0, 0] S1x1x128x128
  slices_S3x8x128x128_S1x1x128x128_0_4_0_0 : S3x8x128x128.Slices ![0, 4, 0, 0] S1x1x128x128
  slices_S3x8x128x128_S1x1x128x128_0_6_0_0 : S3x8x128x128.Slices ![0, 6, 0, 0] S1x1x128x128
  bcast_S128x128_S1x128x128_1_2 : S128x128.BroadcastsInDim S1x128x128 (![1, 2] : Fin 2 → Fin S1x128x128.rank)
  concatenates_S1x128x128_S1x128x128_S1x128x128_S1x128x128_S1x128x128_S5x128x128_d0 : Shape.Concatenates [S1x128x128, S1x128x128, S1x128x128, S1x128x128, S1x128x128] S5x128x128 0
  slices_S3x8x128_S1x1x128_0_0_0 : S3x8x128.Slices ![0, 0, 0] S1x1x128
  shapeCasts_S1x1x128_S128 : S1x1x128.ShapeCasts S128
  slices_S3x8x128_S1x1x128_0_1_0 : S3x8x128.Slices ![0, 1, 0] S1x1x128
  slices_S3x8x128_S1x1x128_0_2_0 : S3x8x128.Slices ![0, 2, 0] S1x1x128
  slices_S3x8x128_S1x1x128_0_4_0 : S3x8x128.Slices ![0, 4, 0] S1x1x128
  slices_S3x8x128_S1x1x128_0_6_0 : S3x8x128.Slices ![0, 6, 0] S1x1x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2000x128_S2000x128 : S2000x128.ShapeCasts S2000x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x128x128_S1x128x128_1_0_0 : ∀ a, (![1, 0, 0] : Fin 3 → Nat) a + S1x128x128.size a ≤ S5x128x128.size a
  inb_S5x128x128_S1x128x128_2_0_0 : ∀ a, (![2, 0, 0] : Fin 3 → Nat) a + S1x128x128.size a ≤ S5x128x128.size a
  inb_S5x128x128_S1x128x128_3_0_0 : ∀ a, (![3, 0, 0] : Fin 3 → Nat) a + S1x128x128.size a ≤ S5x128x128.size a
  inb_S5x128x128_S1x128x128_4_0_0 : ∀ a, (![4, 0, 0] : Fin 3 → Nat) a + S1x128x128.size a ≤ S5x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x8x128x128_S1x1x128x128_0_3_0_0 : S3x8x128x128.Slices ![0, 3, 0, 0] S1x1x128x128
  shapeCasts_S128x128_S1x128x128 : S128x128.ShapeCasts S1x128x128
  slices_S3x8x128_S1x1x128_0_3_0 : S3x8x128.Slices ![0, 3, 0] S1x1x128
  inb_S1x128x128_S1x128x128_0_0_0 : ∀ a, (![0, 0, 0] : Fin 3 → Nat) a + S1x128x128.size a ≤ S1x128x128.size a
  slices_S3x8x128x128_S1x1x128x128_0_5_0_0 : S3x8x128x128.Slices ![0, 5, 0, 0] S1x1x128x128
  slices_S3x8x128_S1x1x128_0_5_0 : S3x8x128.Slices ![0, 5, 0] S1x1x128
  slices_S3x8x128x128_S1x1x128x128_0_7_0_0 : S3x8x128x128.Slices ![0, 7, 0, 0] S1x1x128x128
  slices_S3x8x128_S1x1x128_0_7_0 : S3x8x128.Slices ![0, 7, 0] S1x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  slices_S3x8x128x128_S1x1x128x128_1_0_0_0 : S3x8x128x128.Slices ![1, 0, 0, 0] S1x1x128x128
  slices_S3x8x128x128_S1x1x128x128_1_1_0_0 : S3x8x128x128.Slices ![1, 1, 0, 0] S1x1x128x128
  slices_S3x8x128x128_S1x1x128x128_1_2_0_0 : S3x8x128x128.Slices ![1, 2, 0, 0] S1x1x128x128
  slices_S3x8x128x128_S1x1x128x128_1_4_0_0 : S3x8x128x128.Slices ![1, 4, 0, 0] S1x1x128x128
  slices_S3x8x128x128_S1x1x128x128_1_6_0_0 : S3x8x128x128.Slices ![1, 6, 0, 0] S1x1x128x128
  slices_S3x8x128_S1x1x128_1_0_0 : S3x8x128.Slices ![1, 0, 0] S1x1x128
  slices_S3x8x128_S1x1x128_1_1_0 : S3x8x128.Slices ![1, 1, 0] S1x1x128
  slices_S3x8x128_S1x1x128_1_2_0 : S3x8x128.Slices ![1, 2, 0] S1x1x128
  slices_S3x8x128_S1x1x128_1_4_0 : S3x8x128.Slices ![1, 4, 0] S1x1x128
  slices_S3x8x128_S1x1x128_1_6_0 : S3x8x128.Slices ![1, 6, 0] S1x1x128
  slices_S3x8x128x128_S1x1x128x128_1_3_0_0 : S3x8x128x128.Slices ![1, 3, 0, 0] S1x1x128x128
  slices_S3x8x128_S1x1x128_1_3_0 : S3x8x128.Slices ![1, 3, 0] S1x1x128
  slices_S3x8x128x128_S1x1x128x128_1_5_0_0 : S3x8x128x128.Slices ![1, 5, 0, 0] S1x1x128x128
  slices_S3x8x128_S1x1x128_1_5_0 : S3x8x128.Slices ![1, 5, 0] S1x1x128
  slices_S3x8x128x128_S1x1x128x128_1_7_0_0 : S3x8x128x128.Slices ![1, 7, 0, 0] S1x1x128x128
  slices_S3x8x128_S1x1x128_1_7_0 : S3x8x128.Slices ![1, 7, 0] S1x1x128
  slices_S3x8x128x128_S1x1x128x128_2_0_0_0 : S3x8x128x128.Slices ![2, 0, 0, 0] S1x1x128x128
  slices_S3x8x128x128_S1x1x128x128_2_1_0_0 : S3x8x128x128.Slices ![2, 1, 0, 0] S1x1x128x128
  slices_S3x8x128x128_S1x1x128x128_2_2_0_0 : S3x8x128x128.Slices ![2, 2, 0, 0] S1x1x128x128
  slices_S3x8x128x128_S1x1x128x128_2_4_0_0 : S3x8x128x128.Slices ![2, 4, 0, 0] S1x1x128x128
  slices_S3x8x128x128_S1x1x128x128_2_6_0_0 : S3x8x128x128.Slices ![2, 6, 0, 0] S1x1x128x128
  slices_S3x8x128_S1x1x128_2_0_0 : S3x8x128.Slices ![2, 0, 0] S1x1x128
  slices_S3x8x128_S1x1x128_2_1_0 : S3x8x128.Slices ![2, 1, 0] S1x1x128
  slices_S3x8x128_S1x1x128_2_2_0 : S3x8x128.Slices ![2, 2, 0] S1x1x128
  slices_S3x8x128_S1x1x128_2_4_0 : S3x8x128.Slices ![2, 4, 0] S1x1x128
  slices_S3x8x128_S1x1x128_2_6_0 : S3x8x128.Slices ![2, 6, 0] S1x1x128
  slices_S3x8x128x128_S1x1x128x128_2_3_0_0 : S3x8x128x128.Slices ![2, 3, 0, 0] S1x1x128x128
  slices_S3x8x128_S1x1x128_2_3_0 : S3x8x128.Slices ![2, 3, 0] S1x1x128
  slices_S3x8x128x128_S1x1x128x128_2_5_0_0 : S3x8x128x128.Slices ![2, 5, 0, 0] S1x1x128x128
  slices_S3x8x128_S1x1x128_2_5_0 : S3x8x128.Slices ![2, 5, 0] S1x1x128
  slices_S3x8x128x128_S1x1x128x128_2_7_0_0 : S3x8x128x128.Slices ![2, 7, 0, 0] S1x1x128x128
  slices_S3x8x128_S1x1x128_2_7_0 : S3x8x128.Slices ![2, 7, 0] S1x1x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S20000x128_S20000x1_S20000x128_1_0_n_n_0_1_1128_wf : GatherDims.WF S20000x128 S20000x1 S20000x128 [1] [0] [] [0] [] 1 ![1, 128]
  scatter_S100000x128_S20000x1_S20000x128_1_0_0_1_wf : ScatterDims.WF S100000x128 S20000x1 S20000x128 [1] [0] [0] 1
  scatter_S100000_S20000x1_S20000_n_0_0_1_wf : ScatterDims.WF S100000 S20000x1 S20000 [] [0] [0] 1
  gather_S50000x128_S50000x1_S50000x128_1_0_n_n_0_1_1128_wf : GatherDims.WF S50000x128 S50000x1 S50000x128 [1] [0] [] [0] [] 1 ![1, 128]
  scatter_S100000x128_S50000x1_S50000x128_1_0_0_1_wf : ScatterDims.WF S100000x128 S50000x1 S50000x128 [1] [0] [0] 1
  scatter_S100000_S50000x1_S50000_n_0_0_1_wf : ScatterDims.WF S100000 S50000x1 S50000 [] [0] [0] 1
  gather_S5000x128_S5000x1_S5000x128_1_0_n_n_0_1_1128_wf : GatherDims.WF S5000x128 S5000x1 S5000x128 [1] [0] [] [0] [] 1 ![1, 128]
  scatter_S100000x128_S5000x1_S5000x128_1_0_0_1_wf : ScatterDims.WF S100000x128 S5000x1 S5000x128 [1] [0] [0] 1
  scatter_S100000_S5000x1_S5000_n_0_0_1_wf : ScatterDims.WF S100000 S5000x1 S5000 [] [0] [0] 1
  gather_S100000x128_S20000x1_S20000x128_1_0_n_n_0_1_1128_wf : GatherDims.WF S100000x128 S20000x1 S20000x128 [1] [0] [] [0] [] 1 ![1, 128]
  scatter_S20000x128_S20000x1_S20000x128_1_0_0_1_wf : ScatterDims.WF S20000x128 S20000x1 S20000x128 [1] [0] [0] 1
  scatter_S20000_S20000x1_S20000_n_0_0_1_wf : ScatterDims.WF S20000 S20000x1 S20000 [] [0] [0] 1
  gather_S100000x128_S50000x1_S50000x128_1_0_n_n_0_1_1128_wf : GatherDims.WF S100000x128 S50000x1 S50000x128 [1] [0] [] [0] [] 1 ![1, 128]
  scatter_S50000x128_S50000x1_S50000x128_1_0_0_1_wf : ScatterDims.WF S50000x128 S50000x1 S50000x128 [1] [0] [0] 1
  scatter_S50000_S50000x1_S50000_n_0_0_1_wf : ScatterDims.WF S50000 S50000x1 S50000 [] [0] [0] 1
  gather_S100000x128_S5000x1_S5000x128_1_0_n_n_0_1_1128_wf : GatherDims.WF S100000x128 S5000x1 S5000x128 [1] [0] [] [0] [] 1 ![1, 128]
  scatter_S5000x128_S5000x1_S5000x128_1_0_0_1_wf : ScatterDims.WF S5000x128 S5000x1 S5000x128 [1] [0] [0] 1
  scatter_S5000_S5000x1_S5000_n_0_0_1_wf : ScatterDims.WF S5000 S5000x1 S5000 [] [0] [0] 1
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x128x128.size a ≤ S5x128x128.size a
  hwx0_6 : ∀ i : grid0.Coords, EltTy.bits .f32 = 32 ∨ (Rect.block (s := S5x128x128) S5x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S1x128x128.size a
  hwx1_2 : ∀ i : grid1.Coords, EltTy.bits .f32 = 32 ∨ (Rect.block (s := S1x128x128) S1x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .f32 = 32 ∨ (Rect.block (s := S20000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128x128.size a ≤ S1x128x128.size a
  hwx2_2 : ∀ i : grid2.Coords, EltTy.bits .f32 = 32 ∨ (Rect.block (s := S1x128x128) S1x128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S5000x128.size a
  hwx3_0 : ∀ i : grid3.Coords, EltTy.bits .f32 = 32 ∨ (Rect.block (s := S5000x128) S5000x128.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S5000x128.size a
  hwx3_1 : ∀ i : grid3.Coords, EltTy.bits .f32 = 32 ∨ (Rect.block (s := S5000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128x128.size a ≤ S1x128x128.size a
  hwx3_2 : ∀ i : grid3.Coords, EltTy.bits .f32 = 32 ∨ (Rect.block (s := S1x128x128) S1x128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 1
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S5000x128.size a
  hwx3_5 : ∀ i : grid3.Coords, EltTy.bits .f32 = 32 ∨ (Rect.block (s := S5000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S5x128x128.size a ≤ S5x128x128.size a
  hwx4_6 : ∀ i : grid4.Coords, EltTy.bits .f32 = 32 ∨ (Rect.block (s := S5x128x128) S5x128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S100000x128.size a
  hwx4_9 : ∀ i : grid4.Coords, EltTy.bits .f32 = 32 ∨ (Rect.block (s := S100000x128) S2000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S20000x128.size a
  hwx5_1 : ∀ i : grid5.Coords, EltTy.bits .f32 = 32 ∨ (Rect.block (s := S20000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128x128.size a ≤ S1x128x128.size a
  hwx5_2 : ∀ i : grid5.Coords, EltTy.bits .f32 = 32 ∨ (Rect.block (s := S1x128x128) S1x128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S20000x128.size a
  hwx5_5 : ∀ i : grid5.Coords, EltTy.bits .f32 = 32 ∨ (Rect.block (s := S20000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128x128.size a ≤ S1x128x128.size a
  hwx6_2 : ∀ i : grid6.Coords, EltTy.bits .f32 = 32 ∨ (Rect.block (s := S1x128x128) S1x128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S50000x128.size a
  hwx6_5 : ∀ i : grid6.Coords, EltTy.bits .f32 = 32 ∨ (Rect.block (s := S50000x128) S2000x128.size (cc6_transform_5 i) (hinb6_5 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S5000x128.size a
  hwx7_0 : ∀ i : grid7.Coords, EltTy.bits .f32 = 32 ∨ (Rect.block (s := S5000x128) S5000x128.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S5000x128.size a
  hwx7_1 : ∀ i : grid7.Coords, EltTy.bits .f32 = 32 ∨ (Rect.block (s := S5000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128x128.size a ≤ S1x128x128.size a
  hwx7_2 : ∀ i : grid7.Coords, EltTy.bits .f32 = 32 ∨ (Rect.block (s := S1x128x128) S1x128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S5000x128.size a
  hwx7_5 : ∀ i : grid7.Coords, EltTy.bits .f32 = 32 ∨ (Rect.block (s := S5000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S100000x128.size a
  hwx8_1 : ∀ i : grid8.Coords, EltTy.bits .f32 = 32 ∨ (Rect.block (s := S100000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S100000x128.size a
  hwx8_2 : ∀ i : grid8.Coords, EltTy.bits .f32 = 32 ∨ (Rect.block (s := S100000x128) S2000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S100000x128.size a
  hwx8_3 : ∀ i : grid8.Coords, EltTy.bits .f32 = 32 ∨ (Rect.block (s := S100000x128) S2000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S100000x128.size a
  hwx8_4 : ∀ i : grid8.Coords, EltTy.bits .f32 = 32 ∨ (Rect.block (s := S100000x128) S2000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S100000x128.size a
  hwx8_5 : ∀ i : grid8.Coords, EltTy.bits .f32 = 32 ∨ (Rect.block (s := S100000x128) S2000x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S5x128x128.size a ≤ S5x128x128.size a
  hwx8_6 : ∀ i : grid8.Coords, EltTy.bits .f32 = 32 ∨ (Rect.block (s := S5x128x128) S5x128x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x128.size a ≤ S128x128.size a
  hwx8_7 : ∀ i : grid8.Coords, EltTy.bits .f32 = 32 ∨ (Rect.block (s := S128x128) S128x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S2000x128.size a ≤ S100000x128.size a
  hwx8_9 : ∀ i : grid8.Coords, EltTy.bits .f32 = 32 ∨ (Rect.block (s := S100000x128) S2000x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S20000x128.size a
  hwx9_0 : ∀ i : grid9.Coords, EltTy.bits .f32 = 32 ∨ (Rect.block (s := S20000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S20000x128.size a
  hwx9_1 : ∀ i : grid9.Coords, EltTy.bits .f32 = 32 ∨ (Rect.block (s := S20000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128x128.size a ≤ S1x128x128.size a
  hwx9_2 : ∀ i : grid9.Coords, EltTy.bits .f32 = 32 ∨ (Rect.block (s := S1x128x128) S1x128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S20000x128.size a
  hwx9_5 : ∀ i : grid9.Coords, EltTy.bits .f32 = 32 ∨ (Rect.block (s := S20000x128) S2000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S50000x128.size a
  hwx10_1 : ∀ i : grid10.Coords, EltTy.bits .f32 = 32 ∨ (Rect.block (s := S50000x128) S2000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128x128.size a ≤ S1x128x128.size a
  hwx10_2 : ∀ i : grid10.Coords, EltTy.bits .f32 = 32 ∨ (Rect.block (s := S1x128x128) S1x128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S50000x128.size a
  hwx10_5 : ∀ i : grid10.Coords, EltTy.bits .f32 = 32 ∨ (Rect.block (s := S50000x128) S2000x128.size (cc10_transform_5 i) (hinb10_5 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S5000x128.size a
  hwx11_0 : ∀ i : grid11.Coords, EltTy.bits .f32 = 32 ∨ (Rect.block (s := S5000x128) S5000x128.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S5000x128.size a
  hwx11_1 : ∀ i : grid11.Coords, EltTy.bits .f32 = 32 ∨ (Rect.block (s := S5000x128) S5000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128x128.size a ≤ S1x128x128.size a
  hwx11_2 : ∀ i : grid11.Coords, EltTy.bits .f32 = 32 ∨ (Rect.block (s := S1x128x128) S1x128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 1
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S5000x128.size a
  hwx11_5 : ∀ i : grid11.Coords, EltTy.bits .f32 = 32 ∨ (Rect.block (s := S5000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S100000x128.size a
  hwx12_0 : ∀ i : grid12.Coords, EltTy.bits .f32 = 32 ∨ (Rect.block (s := S100000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x2.size a ≤ S128x2.size a
  hwx12_3 : ∀ i : grid12.Coords, EltTy.bits .f32 = 32 ∨ (Rect.block (s := S128x2) S128x2.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x2.size a ≤ S1x2.size a
  hwx12_4 : ∀ i : grid12.Coords, EltTy.bits .f32 = 32 ∨ (Rect.block (s := S1x2) S1x2.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x2.size a ≤ S100000x2.size a
  hwx12_5 : ∀ i : grid12.Coords, EltTy.bits .f32 = 32 ∨ (Rect.block (s := S100000x2) S2000x2.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S20000x128.size a
  hwx13_0 : ∀ i : grid13.Coords, EltTy.bits .f32 = 32 ∨ (Rect.block (s := S20000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x2.size a ≤ S128x2.size a
  hwx13_3 : ∀ i : grid13.Coords, EltTy.bits .f32 = 32 ∨ (Rect.block (s := S128x2) S128x2.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x2.size a ≤ S1x2.size a
  hwx13_4 : ∀ i : grid13.Coords, EltTy.bits .f32 = 32 ∨ (Rect.block (s := S1x2) S1x2.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x2.size a ≤ S20000x2.size a
  hwx13_5 : ∀ i : grid13.Coords, EltTy.bits .f32 = 32 ∨ (Rect.block (s := S20000x2) S2000x2.size (cc13_transform_5 i) (hinb13_5 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf
def scatter_S100000x128_S20000x1_S20000x128_1_0_0_1 : ScatterDims S100000x128 S20000x1 S20000x128 where
  updateWindowDims := [1]
  insertedWindowDims := [0]
  scatterDimsToOperandDims := [0]
  indexVectorDim := 1
  wf := scatter_S100000x128_S20000x1_S20000x128_1_0_0_1_wf
def scatter_S100000_S20000x1_S20000_n_0_0_1 : ScatterDims S100000 S20000x1 S20000 where
  updateWindowDims := []
  insertedWindowDims := [0]
  scatterDimsToOperandDims := [0]
  indexVectorDim := 1
  wf := scatter_S100000_S20000x1_S20000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def gather_S5000x128_S5000x1_S5000x128_1_0_n_n_0_1_1128 : GatherDims S5000x128 S5000x1 S5000x128 where
  offsetDims := [1]
  collapsedSliceDims := [0]
  operandBatchingDims := []
  startIndicesBatchingDims := []
  startIndexMap := [0]
  indexVectorDim := 1
  sliceSizes := ![1, 128]
  wf := gather_S5000x128_S5000x1_S5000x128_1_0_n_n_0_1_1128_wf
def scatter_S100000x128_S5000x1_S5000x128_1_0_0_1 : ScatterDims S100000x128 S5000x1 S5000x128 where
  updateWindowDims := [1]
  insertedWindowDims := [0]
  scatterDimsToOperandDims := [0]
  indexVectorDim := 1
  wf := scatter_S100000x128_S5000x1_S5000x128_1_0_0_1_wf
def scatter_S100000_S5000x1_S5000_n_0_0_1 : ScatterDims S100000 S5000x1 S5000 where
  updateWindowDims := []
  insertedWindowDims := [0]
  scatterDimsToOperandDims := [0]
  indexVectorDim := 1
  wf := scatter_S100000_S5000x1_S5000_n_0_0_1_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def scatter_S20000x128_S20000x1_S20000x128_1_0_0_1 : ScatterDims S20000x128 S20000x1 S20000x128 where
  updateWindowDims := [1]
  insertedWindowDims := [0]
  scatterDimsToOperandDims := [0]
  indexVectorDim := 1
  wf := scatter_S20000x128_S20000x1_S20000x128_1_0_0_1_wf
def scatter_S20000_S20000x1_S20000_n_0_0_1 : ScatterDims S20000 S20000x1 S20000 where
  updateWindowDims := []
  insertedWindowDims := [0]
  scatterDimsToOperandDims := [0]
  indexVectorDim := 1
  wf := scatter_S20000_S20000x1_S20000_n_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def scatter_S50000x128_S50000x1_S50000x128_1_0_0_1 : ScatterDims S50000x128 S50000x1 S50000x128 where
  updateWindowDims := [1]
  insertedWindowDims := [0]
  scatterDimsToOperandDims := [0]
  indexVectorDim := 1
  wf := scatter_S50000x128_S50000x1_S50000x128_1_0_0_1_wf
def scatter_S50000_S50000x1_S50000_n_0_0_1 : ScatterDims S50000 S50000x1 S50000 where
  updateWindowDims := []
  insertedWindowDims := [0]
  scatterDimsToOperandDims := [0]
  indexVectorDim := 1
  wf := scatter_S50000_S50000x1_S50000_n_0_0_1_wf
def gather_S100000x128_S5000x1_S5000x128_1_0_n_n_0_1_1128 : GatherDims S100000x128 S5000x1 S5000x128 where
  offsetDims := [1]
  collapsedSliceDims := [0]
  operandBatchingDims := []
  startIndicesBatchingDims := []
  startIndexMap := [0]
  indexVectorDim := 1
  sliceSizes := ![1, 128]
  wf := gather_S100000x128_S5000x1_S5000x128_1_0_n_n_0_1_1128_wf
def scatter_S5000x128_S5000x1_S5000x128_1_0_0_1 : ScatterDims S5000x128 S5000x1 S5000x128 where
  updateWindowDims := [1]
  insertedWindowDims := [0]
  scatterDimsToOperandDims := [0]
  indexVectorDim := 1
  wf := scatter_S5000x128_S5000x1_S5000x128_1_0_0_1_wf
def scatter_S5000_S5000x1_S5000_n_0_0_1 : ScatterDims S5000 S5000x1 S5000 where
  updateWindowDims := []
  insertedWindowDims := [0]
  scatterDimsToOperandDims := [0]
  indexVectorDim := 1
  wf := scatter_S5000_S5000x1_S5000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v99) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v124) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v215) S5x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v229) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v244) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v245) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v149) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v248) S1x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v250) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v253) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v254) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v174) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v257) S1x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v259) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v262) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v263) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v199) S5000x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S5000x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v266) S1x128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v268) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v271) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v272) S5000x128.size cc3_transform_5 reads3_5 true false 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v297) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v322) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v347) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v372) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v397) S2000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v245) S2000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v488) S5x128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v502) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v517) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v518) S2000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v422) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v254) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v521) S1x128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v523) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v526) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v527) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v447) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v263) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v530) S1x128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v532) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v535) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v536) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v472) S5000x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v272) S5000x128.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v539) S1x128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v541) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v544) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v545) S5000x128.size cc7_transform_5 reads7_5 true false 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v570) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v595) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v620) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v645) S2000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v670) S2000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v518) S2000x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v761) S5x128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v775) S128x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v790) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v791) S2000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v695) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v527) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v794) S1x128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v796) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v799) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v800) S2000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v720) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v536) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v803) S1x128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v805) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v808) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v809) S2000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v745) S5000x128.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v545) S5000x128.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v812) S1x128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v814) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v817) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v818) S5000x128.size cc11_transform_5 reads11_5 true false 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v791) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg7) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v819) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg9) S128x2.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v820) S1x2.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v821) S2000x2.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v800) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg11) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v822) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg13) S128x2.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v823) S1x2.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v824) S2000x2.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S50000x128 : Shape := ⟨2, ![50000, 128]⟩
abbrev S5000x128 : Shape := ⟨2, ![5000, 128]⟩
abbrev S3x8x128x128 : Shape := ⟨4, ![3, 8, 128, 128]⟩
abbrev S3x8x128 : Shape := ⟨3, ![3, 8, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x500000 : Shape := ⟨2, ![2, 500000]⟩
abbrev S2x100000 : Shape := ⟨2, ![2, 100000]⟩
abbrev S2x20000 : Shape := ⟨2, ![2, 20000]⟩
abbrev S2x50000 : Shape := ⟨2, ![2, 50000]⟩
abbrev S2x5000 : Shape := ⟨2, ![2, 5000]⟩
abbrev S1x1x128x128 : Shape := ⟨4, ![1, 1, 128, 128]⟩
abbrev S1x1x128 : Shape := ⟨3, ![1, 1, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S1x100000 : Shape := ⟨2, ![1, 100000]⟩
abbrev S1x20000 : Shape := ⟨2, ![1, 20000]⟩
abbrev S20000 : Shape := ⟨1, ![20000]⟩
abbrev S20000x1 : Shape := ⟨2, ![20000, 1]⟩
abbrev S1x50000 : Shape := ⟨2, ![1, 50000]⟩
abbrev S50000 : Shape := ⟨1, ![50000]⟩
abbrev S50000x1 : Shape := ⟨2, ![50000, 1]⟩
abbrev S1x5000 : Shape := ⟨2, ![1, 5000]⟩
abbrev S5000 : Shape := ⟨1, ![5000]⟩
abbrev S5000x1 : Shape := ⟨2, ![5000, 1]⟩
abbrev S100000x2 : Shape := ⟨2, ![100000, 2]⟩
abbrev S1x2 : Shape := ⟨2, ![1, 2]⟩
abbrev S20000x2 : Shape := ⟨2, ![20000, 2]⟩

abbrev nBuf : Space → Nat
  | .hbm => 1125
  | .vmem => 0
  | .smem => 0
  | _ => 0

abbrev hbmTy0_0 (i : Nat) : BufTy := match i % 128 with
  | 0 => ⟨S100000x128, .f32⟩
  | 1 => ⟨S20000x128, .f32⟩
  | 2 => ⟨S50000x128, .f32⟩
  | 3 => ⟨S5000x128, .f32⟩
  | 4 => ⟨S3x8x128x128, .f32⟩
  | 5 => ⟨S3x8x128, .f32⟩
  | 6 => ⟨S3x8x128x128, .f32⟩
  | 7 => ⟨S128x128, .f32⟩
  | 8 => ⟨S128, .f32⟩
  | 9 => ⟨S128x2, .f32⟩
  | 10 => ⟨S2, .f32⟩
  | 11 => ⟨S128x128, .f32⟩
  | 12 => ⟨S128, .f32⟩
  | 13 => ⟨S128x2, .f32⟩
  | 14 => ⟨S2, .f32⟩
  | 15 => ⟨S2x500000, .i32⟩
  | 16 => ⟨S2x100000, .i32⟩
  | 17 => ⟨S2x20000, .i32⟩
  | 18 => ⟨S2x20000, .i32⟩
  | 19 => ⟨S2x50000, .i32⟩
  | 20 => ⟨S2x50000, .i32⟩
  | 21 => ⟨S2x5000, .i32⟩
  | 22 => ⟨S2x5000, .i32⟩
  | 23 => ⟨S1x1x128x128, .f32⟩
  | 24 => ⟨S128x128, .f32⟩
  | 25 => ⟨S1x1x128, .f32⟩
  | 26 => ⟨S128, .f32⟩
  | 27 => ⟨S1x1x128x128, .f32⟩
  | 28 => ⟨S128x128, .f32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S1x500000, .i32⟩
  | 41 => ⟨S500000, .i32⟩
  | 42 => ⟨S_, .f32⟩
  | 43 => ⟨S100000x128, .f32⟩
  | 44 => ⟨S500000x1, .i32⟩
  | 45 => ⟨S100000x128, .f32⟩
  | 46 => ⟨S_, .f32⟩
  | 47 => ⟨S500000, .f32⟩
  | 48 => ⟨S1x500000, .i32⟩
  | 49 => ⟨S500000, .i32⟩
  | 50 => ⟨S_, .f32⟩
  | 51 => ⟨S100000, .f32⟩
  | 52 => ⟨S500000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S100000x128, .f32⟩
  | 66 => ⟨S1x1x128x128, .f32⟩
  | 67 => ⟨S128x128, .f32⟩
  | 68 => ⟨S1x1x128, .f32⟩
  | 69 => ⟨S128, .f32⟩
  | 70 => ⟨S1x1x128x128, .f32⟩
  | 71 => ⟨S128x128, .f32⟩
  | 72 => ⟨S1x100000, .i32⟩
  | 73 => ⟨S100000, .i32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x128, .f32⟩
  | 83 => ⟨S1x100000, .i32⟩
  | 84 => ⟨S100000, .i32⟩
  | 85 => ⟨S_, .f32⟩
  | 86 => ⟨S100000x128, .f32⟩
  | 87 => ⟨S100000x1, .i32⟩
  | 88 => ⟨S100000x128, .f32⟩
  | 89 => ⟨S_, .f32⟩
  | 90 => ⟨S100000, .f32⟩
  | 91 => ⟨S1x100000, .i32⟩
  | 92 => ⟨S100000, .i32⟩
  | 93 => ⟨S_, .f32⟩
  | 94 => ⟨S100000, .f32⟩
  | 95 => ⟨S100000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S1x1x128x128, .f32⟩
  | 111 => ⟨S128x128, .f32⟩
  | 112 => ⟨S1x1x128, .f32⟩
  | 113 => ⟨S128, .f32⟩
  | 114 => ⟨S1x1x128x128, .f32⟩
  | 115 => ⟨S128x128, .f32⟩
  | 116 => ⟨S1x20000, .i32⟩
  | 117 => ⟨S20000, .i32⟩
  | 118 => ⟨S_, .i32⟩
  | 119 => ⟨S20000, .i32⟩
  | 120 => ⟨S20000, .i1⟩
  | 121 => ⟨S_, .i32⟩
  | 122 => ⟨S20000, .i32⟩
  | 123 => ⟨S20000, .i32⟩
  | 124 => ⟨S20000, .i32⟩
  | 125 => ⟨S20000x1, .i32⟩
  | 126 => ⟨S20000x128, .f32⟩
  | 127 => ⟨S1x20000, .i32⟩
  | _ => ⟨S100000x128, .f32⟩

abbrev hbmTy0_1 (i : Nat) : BufTy := match i % 128 with
  | 0 => ⟨S20000, .i32⟩
  | 1 => ⟨S_, .f32⟩
  | 2 => ⟨S100000x128, .f32⟩
  | 3 => ⟨S20000x1, .i32⟩
  | 4 => ⟨S100000x128, .f32⟩
  | 5 => ⟨S_, .f32⟩
  | 6 => ⟨S20000, .f32⟩
  | 7 => ⟨S1x20000, .i32⟩
  | 8 => ⟨S20000, .i32⟩
  | 9 => ⟨S_, .f32⟩
  | 10 => ⟨S100000, .f32⟩
  | 11 => ⟨S20000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S100000x128, .f32⟩
  | 24 => ⟨S100000x128, .f32⟩
  | 25 => ⟨S100000x128, .f32⟩
  | 26 => ⟨S1x1x128x128, .f32⟩
  | 27 => ⟨S128x128, .f32⟩
  | 28 => ⟨S1x1x128, .f32⟩
  | 29 => ⟨S128, .f32⟩
  | 30 => ⟨S1x1x128x128, .f32⟩
  | 31 => ⟨S128x128, .f32⟩
  | 32 => ⟨S1x50000, .i32⟩
  | 33 => ⟨S50000, .i32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x128, .f32⟩
  | 43 => ⟨S1x50000, .i32⟩
  | 44 => ⟨S50000, .i32⟩
  | 45 => ⟨S_, .f32⟩
  | 46 => ⟨S100000x128, .f32⟩
  | 47 => ⟨S50000x1, .i32⟩
  | 48 => ⟨S100000x128, .f32⟩
  | 49 => ⟨S_, .f32⟩
  | 50 => ⟨S50000, .f32⟩
  | 51 => ⟨S1x50000, .i32⟩
  | 52 => ⟨S50000, .i32⟩
  | 53 => ⟨S_, .f32⟩
  | 54 => ⟨S100000, .f32⟩
  | 55 => ⟨S50000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S100000x128, .f32⟩
  | 68 => ⟨S100000x128, .f32⟩
  | 69 => ⟨S100000x128, .f32⟩
  | 70 => ⟨S1x1x128x128, .f32⟩
  | 71 => ⟨S128x128, .f32⟩
  | 72 => ⟨S1x1x128, .f32⟩
  | 73 => ⟨S128, .f32⟩
  | 74 => ⟨S1x1x128x128, .f32⟩
  | 75 => ⟨S128x128, .f32⟩
  | 76 => ⟨S1x5000, .i32⟩
  | 77 => ⟨S5000, .i32⟩
  | 78 => ⟨S_, .i32⟩
  | 79 => ⟨S5000, .i32⟩
  | 80 => ⟨S5000, .i1⟩
  | 81 => ⟨S_, .i32⟩
  | 82 => ⟨S5000, .i32⟩
  | 83 => ⟨S5000, .i32⟩
  | 84 => ⟨S5000, .i32⟩
  | 85 => ⟨S5000x1, .i32⟩
  | 86 => ⟨S5000x128, .f32⟩
  | 87 => ⟨S1x5000, .i32⟩
  | 88 => ⟨S5000, .i32⟩
  | 89 => ⟨S_, .f32⟩
  | 90 => ⟨S100000x128, .f32⟩
  | 91 => ⟨S5000x1, .i32⟩
  | 92 => ⟨S100000x128, .f32⟩
  | 93 => ⟨S_, .f32⟩
  | 94 => ⟨S5000, .f32⟩
  | 95 => ⟨S1x5000, .i32⟩
  | 96 => ⟨S5000, .i32⟩
  | 97 => ⟨S_, .f32⟩
  | 98 => ⟨S100000, .f32⟩
  | 99 => ⟨S5000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S100000x128, .f32⟩
  | 112 => ⟨S100000x128, .f32⟩
  | 113 => ⟨S100000x128, .f32⟩
  | 114 => ⟨S1x1x128x128, .f32⟩
  | 115 => ⟨S128x128, .f32⟩
  | 116 => ⟨S1x1x128, .f32⟩
  | 117 => ⟨S128, .f32⟩
  | 118 => ⟨S1x1x128x128, .f32⟩
  | 119 => ⟨S128x128, .f32⟩
  | 120 => ⟨S1x20000, .i32⟩
  | 121 => ⟨S20000, .i32⟩
  | 122 => ⟨S_, .i32⟩
  | 123 => ⟨S20000, .i32⟩
  | 124 => ⟨S20000, .i1⟩
  | 125 => ⟨S_, .i32⟩
  | 126 => ⟨S20000, .i32⟩
  | 127 => ⟨S20000, .i32⟩
  | _ => ⟨S100000x128, .f32⟩

abbrev hbmTy0_2 (i : Nat) : BufTy := match i % 128 with
  | 0 => ⟨S20000, .i32⟩
  | 1 => ⟨S20000x1, .i32⟩
  | 2 => ⟨S20000x128, .f32⟩
  | 3 => ⟨S1x20000, .i32⟩
  | 4 => ⟨S20000, .i32⟩
  | 5 => ⟨S_, .f32⟩
  | 6 => ⟨S20000x128, .f32⟩
  | 7 => ⟨S20000x1, .i32⟩
  | 8 => ⟨S20000x128, .f32⟩
  | 9 => ⟨S_, .f32⟩
  | 10 => ⟨S20000, .f32⟩
  | 11 => ⟨S1x20000, .i32⟩
  | 12 => ⟨S20000, .i32⟩
  | 13 => ⟨S_, .f32⟩
  | 14 => ⟨S20000, .f32⟩
  | 15 => ⟨S20000x1, .i32⟩
  | 16 => ⟨S20000, .f32⟩
  | 17 => ⟨S_, .f32⟩
  | 18 => ⟨S20000, .f32⟩
  | 19 => ⟨S20000, .f32⟩
  | 20 => ⟨S20000x1, .f32⟩
  | 21 => ⟨S20000x128, .f32⟩
  | 22 => ⟨S20000x128, .f32⟩
  | 23 => ⟨S20000x128, .f32⟩
  | 24 => ⟨S1x128, .f32⟩
  | 25 => ⟨S20000x128, .f32⟩
  | 26 => ⟨S20000x128, .f32⟩
  | 27 => ⟨S20000x128, .f32⟩
  | 28 => ⟨S20000x128, .f32⟩
  | 29 => ⟨S1x1x128x128, .f32⟩
  | 30 => ⟨S128x128, .f32⟩
  | 31 => ⟨S1x1x128, .f32⟩
  | 32 => ⟨S128, .f32⟩
  | 33 => ⟨S1x1x128x128, .f32⟩
  | 34 => ⟨S128x128, .f32⟩
  | 35 => ⟨S1x50000, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x128, .f32⟩
  | 46 => ⟨S1x50000, .i32⟩
  | 47 => ⟨S50000, .i32⟩
  | 48 => ⟨S_, .f32⟩
  | 49 => ⟨S50000x128, .f32⟩
  | 50 => ⟨S50000x1, .i32⟩
  | 51 => ⟨S50000x128, .f32⟩
  | 52 => ⟨S_, .f32⟩
  | 53 => ⟨S50000, .f32⟩
  | 54 => ⟨S1x50000, .i32⟩
  | 55 => ⟨S50000, .i32⟩
  | 56 => ⟨S_, .f32⟩
  | 57 => ⟨S50000, .f32⟩
  | 58 => ⟨S50000x1, .i32⟩
  | 59 => ⟨S50000, .f32⟩
  | 60 => ⟨S_, .f32⟩
  | 61 => ⟨S50000, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S50000x128, .f32⟩
  | 71 => ⟨S50000x128, .f32⟩
  | 72 => ⟨S1x1x128x128, .f32⟩
  | 73 => ⟨S128x128, .f32⟩
  | 74 => ⟨S1x1x128, .f32⟩
  | 75 => ⟨S128, .f32⟩
  | 76 => ⟨S1x1x128x128, .f32⟩
  | 77 => ⟨S128x128, .f32⟩
  | 78 => ⟨S1x5000, .i32⟩
  | 79 => ⟨S5000, .i32⟩
  | 80 => ⟨S_, .i32⟩
  | 81 => ⟨S5000, .i32⟩
  | 82 => ⟨S5000, .i1⟩
  | 83 => ⟨S_, .i32⟩
  | 84 => ⟨S5000, .i32⟩
  | 85 => ⟨S5000, .i32⟩
  | 86 => ⟨S5000, .i32⟩
  | 87 => ⟨S5000x1, .i32⟩
  | 88 => ⟨S5000x128, .f32⟩
  | 89 => ⟨S1x5000, .i32⟩
  | 90 => ⟨S5000, .i32⟩
  | 91 => ⟨S_, .f32⟩
  | 92 => ⟨S5000x128, .f32⟩
  | 93 => ⟨S5000x1, .i32⟩
  | 94 => ⟨S5000x128, .f32⟩
  | 95 => ⟨S_, .f32⟩
  | 96 => ⟨S5000, .f32⟩
  | 97 => ⟨S1x5000, .i32⟩
  | 98 => ⟨S5000, .i32⟩
  | 99 => ⟨S_, .f32⟩
  | 100 => ⟨S5000, .f32⟩
  | 101 => ⟨S5000x1, .i32⟩
  | 102 => ⟨S5000, .f32⟩
  | 103 => ⟨S_, .f32⟩
  | 104 => ⟨S5000, .f32⟩
  | 105 => ⟨S5000, .f32⟩
  | 106 => ⟨S5000x1, .f32⟩
  | 107 => ⟨S5000x128, .f32⟩
  | 108 => ⟨S5000x128, .f32⟩
  | 109 => ⟨S5000x128, .f32⟩
  | 110 => ⟨S1x128, .f32⟩
  | 111 => ⟨S5000x128, .f32⟩
  | 112 => ⟨S5000x128, .f32⟩
  | 113 => ⟨S5000x128, .f32⟩
  | 114 => ⟨S5000x128, .f32⟩
  | 115 => ⟨S_, .f32⟩
  | 116 => ⟨S100000x128, .f32⟩
  | 117 => ⟨S100000x128, .f32⟩
  | 118 => ⟨S_, .f32⟩
  | 119 => ⟨S20000x128, .f32⟩
  | 120 => ⟨S20000x128, .f32⟩
  | 121 => ⟨S_, .f32⟩
  | 122 => ⟨S50000x128, .f32⟩
  | 123 => ⟨S50000x128, .f32⟩
  | 124 => ⟨S_, .f32⟩
  | 125 => ⟨S5000x128, .f32⟩
  | 126 => ⟨S5000x128, .f32⟩
  | 127 => ⟨S1x1x128x128, .f32⟩
  | _ => ⟨S100000x128, .f32⟩

abbrev hbmTy0_3 (i : Nat) : BufTy := match i % 128 with
  | 0 => ⟨S128x128, .f32⟩
  | 1 => ⟨S1x1x128, .f32⟩
  | 2 => ⟨S128, .f32⟩
  | 3 => ⟨S1x1x128x128, .f32⟩
  | 4 => ⟨S128x128, .f32⟩
  | 5 => ⟨S1x500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x128, .f32⟩
  | 16 => ⟨S1x500000, .i32⟩
  | 17 => ⟨S500000, .i32⟩
  | 18 => ⟨S_, .f32⟩
  | 19 => ⟨S100000x128, .f32⟩
  | 20 => ⟨S500000x1, .i32⟩
  | 21 => ⟨S100000x128, .f32⟩
  | 22 => ⟨S_, .f32⟩
  | 23 => ⟨S500000, .f32⟩
  | 24 => ⟨S1x500000, .i32⟩
  | 25 => ⟨S500000, .i32⟩
  | 26 => ⟨S_, .f32⟩
  | 27 => ⟨S100000, .f32⟩
  | 28 => ⟨S500000x1, .i32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S100000x128, .f32⟩
  | 41 => ⟨S100000x128, .f32⟩
  | 42 => ⟨S1x1x128x128, .f32⟩
  | 43 => ⟨S128x128, .f32⟩
  | 44 => ⟨S1x1x128, .f32⟩
  | 45 => ⟨S128, .f32⟩
  | 46 => ⟨S1x1x128x128, .f32⟩
  | 47 => ⟨S128x128, .f32⟩
  | 48 => ⟨S1x100000, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x128, .f32⟩
  | 59 => ⟨S1x100000, .i32⟩
  | 60 => ⟨S100000, .i32⟩
  | 61 => ⟨S_, .f32⟩
  | 62 => ⟨S100000x128, .f32⟩
  | 63 => ⟨S100000x1, .i32⟩
  | 64 => ⟨S100000x128, .f32⟩
  | 65 => ⟨S_, .f32⟩
  | 66 => ⟨S100000, .f32⟩
  | 67 => ⟨S1x100000, .i32⟩
  | 68 => ⟨S100000, .i32⟩
  | 69 => ⟨S_, .f32⟩
  | 70 => ⟨S100000, .f32⟩
  | 71 => ⟨S100000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S1x1x128x128, .f32⟩
  | 87 => ⟨S128x128, .f32⟩
  | 88 => ⟨S1x1x128, .f32⟩
  | 89 => ⟨S128, .f32⟩
  | 90 => ⟨S1x1x128x128, .f32⟩
  | 91 => ⟨S128x128, .f32⟩
  | 92 => ⟨S1x20000, .i32⟩
  | 93 => ⟨S20000, .i32⟩
  | 94 => ⟨S_, .i32⟩
  | 95 => ⟨S20000, .i32⟩
  | 96 => ⟨S20000, .i1⟩
  | 97 => ⟨S_, .i32⟩
  | 98 => ⟨S20000, .i32⟩
  | 99 => ⟨S20000, .i32⟩
  | 100 => ⟨S20000, .i32⟩
  | 101 => ⟨S20000x1, .i32⟩
  | 102 => ⟨S20000x128, .f32⟩
  | 103 => ⟨S1x20000, .i32⟩
  | 104 => ⟨S20000, .i32⟩
  | 105 => ⟨S_, .f32⟩
  | 106 => ⟨S100000x128, .f32⟩
  | 107 => ⟨S20000x1, .i32⟩
  | 108 => ⟨S100000x128, .f32⟩
  | 109 => ⟨S_, .f32⟩
  | 110 => ⟨S20000, .f32⟩
  | 111 => ⟨S1x20000, .i32⟩
  | 112 => ⟨S20000, .i32⟩
  | 113 => ⟨S_, .f32⟩
  | 114 => ⟨S100000, .f32⟩
  | 115 => ⟨S20000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_4 (i : Nat) : BufTy := match i % 128 with
  | 0 => ⟨S100000x128, .f32⟩
  | 1 => ⟨S100000x128, .f32⟩
  | 2 => ⟨S1x1x128x128, .f32⟩
  | 3 => ⟨S128x128, .f32⟩
  | 4 => ⟨S1x1x128, .f32⟩
  | 5 => ⟨S128, .f32⟩
  | 6 => ⟨S1x1x128x128, .f32⟩
  | 7 => ⟨S128x128, .f32⟩
  | 8 => ⟨S1x50000, .i32⟩
  | 9 => ⟨S50000, .i32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S50000x128, .f32⟩
  | 19 => ⟨S1x50000, .i32⟩
  | 20 => ⟨S50000, .i32⟩
  | 21 => ⟨S_, .f32⟩
  | 22 => ⟨S100000x128, .f32⟩
  | 23 => ⟨S50000x1, .i32⟩
  | 24 => ⟨S100000x128, .f32⟩
  | 25 => ⟨S_, .f32⟩
  | 26 => ⟨S50000, .f32⟩
  | 27 => ⟨S1x50000, .i32⟩
  | 28 => ⟨S50000, .i32⟩
  | 29 => ⟨S_, .f32⟩
  | 30 => ⟨S100000, .f32⟩
  | 31 => ⟨S50000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S1x1x128x128, .f32⟩
  | 47 => ⟨S128x128, .f32⟩
  | 48 => ⟨S1x1x128, .f32⟩
  | 49 => ⟨S128, .f32⟩
  | 50 => ⟨S1x1x128x128, .f32⟩
  | 51 => ⟨S128x128, .f32⟩
  | 52 => ⟨S1x5000, .i32⟩
  | 53 => ⟨S5000, .i32⟩
  | 54 => ⟨S_, .i32⟩
  | 55 => ⟨S5000, .i32⟩
  | 56 => ⟨S5000, .i1⟩
  | 57 => ⟨S_, .i32⟩
  | 58 => ⟨S5000, .i32⟩
  | 59 => ⟨S5000, .i32⟩
  | 60 => ⟨S5000, .i32⟩
  | 61 => ⟨S5000x1, .i32⟩
  | 62 => ⟨S5000x128, .f32⟩
  | 63 => ⟨S1x5000, .i32⟩
  | 64 => ⟨S5000, .i32⟩
  | 65 => ⟨S_, .f32⟩
  | 66 => ⟨S100000x128, .f32⟩
  | 67 => ⟨S5000x1, .i32⟩
  | 68 => ⟨S100000x128, .f32⟩
  | 69 => ⟨S_, .f32⟩
  | 70 => ⟨S5000, .f32⟩
  | 71 => ⟨S1x5000, .i32⟩
  | 72 => ⟨S5000, .i32⟩
  | 73 => ⟨S_, .f32⟩
  | 74 => ⟨S100000, .f32⟩
  | 75 => ⟨S5000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S100000x128, .f32⟩
  | 90 => ⟨S1x1x128x128, .f32⟩
  | 91 => ⟨S128x128, .f32⟩
  | 92 => ⟨S1x1x128, .f32⟩
  | 93 => ⟨S128, .f32⟩
  | 94 => ⟨S1x1x128x128, .f32⟩
  | 95 => ⟨S128x128, .f32⟩
  | 96 => ⟨S1x20000, .i32⟩
  | 97 => ⟨S20000, .i32⟩
  | 98 => ⟨S_, .i32⟩
  | 99 => ⟨S20000, .i32⟩
  | 100 => ⟨S20000, .i1⟩
  | 101 => ⟨S_, .i32⟩
  | 102 => ⟨S20000, .i32⟩
  | 103 => ⟨S20000, .i32⟩
  | 104 => ⟨S20000, .i32⟩
  | 105 => ⟨S20000x1, .i32⟩
  | 106 => ⟨S20000x128, .f32⟩
  | 107 => ⟨S1x20000, .i32⟩
  | 108 => ⟨S20000, .i32⟩
  | 109 => ⟨S_, .f32⟩
  | 110 => ⟨S20000x128, .f32⟩
  | 111 => ⟨S20000x1, .i32⟩
  | 112 => ⟨S20000x128, .f32⟩
  | 113 => ⟨S_, .f32⟩
  | 114 => ⟨S20000, .f32⟩
  | 115 => ⟨S1x20000, .i32⟩
  | 116 => ⟨S20000, .i32⟩
  | 117 => ⟨S_, .f32⟩
  | 118 => ⟨S20000, .f32⟩
  | 119 => ⟨S20000x1, .i32⟩
  | 120 => ⟨S20000, .f32⟩
  | 121 => ⟨S_, .f32⟩
  | 122 => ⟨S20000, .f32⟩
  | 123 => ⟨S20000, .f32⟩
  | 124 => ⟨S20000x1, .f32⟩
  | 125 => ⟨S20000x128, .f32⟩
  | 126 => ⟨S20000x128, .f32⟩
  | 127 => ⟨S20000x128, .f32⟩
  | _ => ⟨S100000x128, .f32⟩

abbrev hbmTy0_5 (i : Nat) : BufTy := match i % 128 with
  | 0 => ⟨S1x128, .f32⟩
  | 1 => ⟨S20000x128, .f32⟩
  | 2 => ⟨S20000x128, .f32⟩
  | 3 => ⟨S20000x128, .f32⟩
  | 4 => ⟨S20000x128, .f32⟩
  | 5 => ⟨S1x1x128x128, .f32⟩
  | 6 => ⟨S128x128, .f32⟩
  | 7 => ⟨S1x1x128, .f32⟩
  | 8 => ⟨S128, .f32⟩
  | 9 => ⟨S1x1x128x128, .f32⟩
  | 10 => ⟨S128x128, .f32⟩
  | 11 => ⟨S1x50000, .i32⟩
  | 12 => ⟨S50000, .i32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x128, .f32⟩
  | 22 => ⟨S1x50000, .i32⟩
  | 23 => ⟨S50000, .i32⟩
  | 24 => ⟨S_, .f32⟩
  | 25 => ⟨S50000x128, .f32⟩
  | 26 => ⟨S50000x1, .i32⟩
  | 27 => ⟨S50000x128, .f32⟩
  | 28 => ⟨S_, .f32⟩
  | 29 => ⟨S50000, .f32⟩
  | 30 => ⟨S1x50000, .i32⟩
  | 31 => ⟨S50000, .i32⟩
  | 32 => ⟨S_, .f32⟩
  | 33 => ⟨S50000, .f32⟩
  | 34 => ⟨S50000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S1x1x128x128, .f32⟩
  | 49 => ⟨S128x128, .f32⟩
  | 50 => ⟨S1x1x128, .f32⟩
  | 51 => ⟨S128, .f32⟩
  | 52 => ⟨S1x1x128x128, .f32⟩
  | 53 => ⟨S128x128, .f32⟩
  | 54 => ⟨S1x5000, .i32⟩
  | 55 => ⟨S5000, .i32⟩
  | 56 => ⟨S_, .i32⟩
  | 57 => ⟨S5000, .i32⟩
  | 58 => ⟨S5000, .i1⟩
  | 59 => ⟨S_, .i32⟩
  | 60 => ⟨S5000, .i32⟩
  | 61 => ⟨S5000, .i32⟩
  | 62 => ⟨S5000, .i32⟩
  | 63 => ⟨S5000x1, .i32⟩
  | 64 => ⟨S5000x128, .f32⟩
  | 65 => ⟨S1x5000, .i32⟩
  | 66 => ⟨S5000, .i32⟩
  | 67 => ⟨S_, .f32⟩
  | 68 => ⟨S5000x128, .f32⟩
  | 69 => ⟨S5000x1, .i32⟩
  | 70 => ⟨S5000x128, .f32⟩
  | 71 => ⟨S_, .f32⟩
  | 72 => ⟨S5000, .f32⟩
  | 73 => ⟨S1x5000, .i32⟩
  | 74 => ⟨S5000, .i32⟩
  | 75 => ⟨S_, .f32⟩
  | 76 => ⟨S5000, .f32⟩
  | 77 => ⟨S5000x1, .i32⟩
  | 78 => ⟨S5000, .f32⟩
  | 79 => ⟨S_, .f32⟩
  | 80 => ⟨S5000, .f32⟩
  | 81 => ⟨S5000, .f32⟩
  | 82 => ⟨S5000x1, .f32⟩
  | 83 => ⟨S5000x128, .f32⟩
  | 84 => ⟨S5000x128, .f32⟩
  | 85 => ⟨S5000x128, .f32⟩
  | 86 => ⟨S1x128, .f32⟩
  | 87 => ⟨S5000x128, .f32⟩
  | 88 => ⟨S5000x128, .f32⟩
  | 89 => ⟨S5000x128, .f32⟩
  | 90 => ⟨S5000x128, .f32⟩
  | 91 => ⟨S_, .f32⟩
  | 92 => ⟨S100000x128, .f32⟩
  | 93 => ⟨S100000x128, .f32⟩
  | 94 => ⟨S_, .f32⟩
  | 95 => ⟨S20000x128, .f32⟩
  | 96 => ⟨S20000x128, .f32⟩
  | 97 => ⟨S_, .f32⟩
  | 98 => ⟨S50000x128, .f32⟩
  | 99 => ⟨S50000x128, .f32⟩
  | 100 => ⟨S_, .f32⟩
  | 101 => ⟨S5000x128, .f32⟩
  | 102 => ⟨S5000x128, .f32⟩
  | 103 => ⟨S1x1x128x128, .f32⟩
  | 104 => ⟨S128x128, .f32⟩
  | 105 => ⟨S1x1x128, .f32⟩
  | 106 => ⟨S128, .f32⟩
  | 107 => ⟨S1x1x128x128, .f32⟩
  | 108 => ⟨S128x128, .f32⟩
  | 109 => ⟨S1x500000, .i32⟩
  | 110 => ⟨S500000, .i32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x128, .f32⟩
  | 120 => ⟨S1x500000, .i32⟩
  | 121 => ⟨S500000, .i32⟩
  | 122 => ⟨S_, .f32⟩
  | 123 => ⟨S100000x128, .f32⟩
  | 124 => ⟨S500000x1, .i32⟩
  | 125 => ⟨S100000x128, .f32⟩
  | 126 => ⟨S_, .f32⟩
  | 127 => ⟨S500000, .f32⟩
  | _ => ⟨S100000x128, .f32⟩

abbrev hbmTy0_6 (i : Nat) : BufTy := match i % 128 with
  | 0 => ⟨S1x500000, .i32⟩
  | 1 => ⟨S500000, .i32⟩
  | 2 => ⟨S_, .f32⟩
  | 3 => ⟨S100000, .f32⟩
  | 4 => ⟨S500000x1, .i32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S100000x128, .f32⟩
  | 17 => ⟨S100000x128, .f32⟩
  | 18 => ⟨S1x1x128x128, .f32⟩
  | 19 => ⟨S128x128, .f32⟩
  | 20 => ⟨S1x1x128, .f32⟩
  | 21 => ⟨S128, .f32⟩
  | 22 => ⟨S1x1x128x128, .f32⟩
  | 23 => ⟨S128x128, .f32⟩
  | 24 => ⟨S1x100000, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x128, .f32⟩
  | 35 => ⟨S1x100000, .i32⟩
  | 36 => ⟨S100000, .i32⟩
  | 37 => ⟨S_, .f32⟩
  | 38 => ⟨S100000x128, .f32⟩
  | 39 => ⟨S100000x1, .i32⟩
  | 40 => ⟨S100000x128, .f32⟩
  | 41 => ⟨S_, .f32⟩
  | 42 => ⟨S100000, .f32⟩
  | 43 => ⟨S1x100000, .i32⟩
  | 44 => ⟨S100000, .i32⟩
  | 45 => ⟨S_, .f32⟩
  | 46 => ⟨S100000, .f32⟩
  | 47 => ⟨S100000x1, .i32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S1x1x128x128, .f32⟩
  | 63 => ⟨S128x128, .f32⟩
  | 64 => ⟨S1x1x128, .f32⟩
  | 65 => ⟨S128, .f32⟩
  | 66 => ⟨S1x1x128x128, .f32⟩
  | 67 => ⟨S128x128, .f32⟩
  | 68 => ⟨S1x20000, .i32⟩
  | 69 => ⟨S20000, .i32⟩
  | 70 => ⟨S_, .i32⟩
  | 71 => ⟨S20000, .i32⟩
  | 72 => ⟨S20000, .i1⟩
  | 73 => ⟨S_, .i32⟩
  | 74 => ⟨S20000, .i32⟩
  | 75 => ⟨S20000, .i32⟩
  | 76 => ⟨S20000, .i32⟩
  | 77 => ⟨S20000x1, .i32⟩
  | 78 => ⟨S20000x128, .f32⟩
  | 79 => ⟨S1x20000, .i32⟩
  | 80 => ⟨S20000, .i32⟩
  | 81 => ⟨S_, .f32⟩
  | 82 => ⟨S100000x128, .f32⟩
  | 83 => ⟨S20000x1, .i32⟩
  | 84 => ⟨S100000x128, .f32⟩
  | 85 => ⟨S_, .f32⟩
  | 86 => ⟨S20000, .f32⟩
  | 87 => ⟨S1x20000, .i32⟩
  | 88 => ⟨S20000, .i32⟩
  | 89 => ⟨S_, .f32⟩
  | 90 => ⟨S100000, .f32⟩
  | 91 => ⟨S20000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S100000x128, .f32⟩
  | 104 => ⟨S100000x128, .f32⟩
  | 105 => ⟨S100000x128, .f32⟩
  | 106 => ⟨S1x1x128x128, .f32⟩
  | 107 => ⟨S128x128, .f32⟩
  | 108 => ⟨S1x1x128, .f32⟩
  | 109 => ⟨S128, .f32⟩
  | 110 => ⟨S1x1x128x128, .f32⟩
  | 111 => ⟨S128x128, .f32⟩
  | 112 => ⟨S1x50000, .i32⟩
  | 113 => ⟨S50000, .i32⟩
  | 114 => ⟨S_, .i32⟩
  | 115 => ⟨S50000, .i32⟩
  | 116 => ⟨S50000, .i1⟩
  | 117 => ⟨S_, .i32⟩
  | 118 => ⟨S50000, .i32⟩
  | 119 => ⟨S50000, .i32⟩
  | 120 => ⟨S50000, .i32⟩
  | 121 => ⟨S50000x1, .i32⟩
  | 122 => ⟨S50000x128, .f32⟩
  | 123 => ⟨S1x50000, .i32⟩
  | 124 => ⟨S50000, .i32⟩
  | 125 => ⟨S_, .f32⟩
  | 126 => ⟨S100000x128, .f32⟩
  | 127 => ⟨S50000x1, .i32⟩
  | _ => ⟨S100000x128, .f32⟩

abbrev hbmTy0_7 (i : Nat) : BufTy := match i % 128 with
  | 0 => ⟨S100000x128, .f32⟩
  | 1 => ⟨S_, .f32⟩
  | 2 => ⟨S50000, .f32⟩
  | 3 => ⟨S1x50000, .i32⟩
  | 4 => ⟨S50000, .i32⟩
  | 5 => ⟨S_, .f32⟩
  | 6 => ⟨S100000, .f32⟩
  | 7 => ⟨S50000x1, .i32⟩
  | 8 => ⟨S100000, .f32⟩
  | 9 => ⟨S_, .f32⟩
  | 10 => ⟨S100000, .f32⟩
  | 11 => ⟨S100000, .f32⟩
  | 12 => ⟨S100000x1, .f32⟩
  | 13 => ⟨S100000x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S100000x128, .f32⟩
  | 21 => ⟨S100000x128, .f32⟩
  | 22 => ⟨S1x1x128x128, .f32⟩
  | 23 => ⟨S128x128, .f32⟩
  | 24 => ⟨S1x1x128, .f32⟩
  | 25 => ⟨S128, .f32⟩
  | 26 => ⟨S1x1x128x128, .f32⟩
  | 27 => ⟨S128x128, .f32⟩
  | 28 => ⟨S1x5000, .i32⟩
  | 29 => ⟨S5000, .i32⟩
  | 30 => ⟨S_, .i32⟩
  | 31 => ⟨S5000, .i32⟩
  | 32 => ⟨S5000, .i1⟩
  | 33 => ⟨S_, .i32⟩
  | 34 => ⟨S5000, .i32⟩
  | 35 => ⟨S5000, .i32⟩
  | 36 => ⟨S5000, .i32⟩
  | 37 => ⟨S5000x1, .i32⟩
  | 38 => ⟨S5000x128, .f32⟩
  | 39 => ⟨S1x5000, .i32⟩
  | 40 => ⟨S5000, .i32⟩
  | 41 => ⟨S_, .f32⟩
  | 42 => ⟨S100000x128, .f32⟩
  | 43 => ⟨S5000x1, .i32⟩
  | 44 => ⟨S100000x128, .f32⟩
  | 45 => ⟨S_, .f32⟩
  | 46 => ⟨S5000, .f32⟩
  | 47 => ⟨S1x5000, .i32⟩
  | 48 => ⟨S5000, .i32⟩
  | 49 => ⟨S_, .f32⟩
  | 50 => ⟨S100000, .f32⟩
  | 51 => ⟨S5000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S1x1x128x128, .f32⟩
  | 67 => ⟨S128x128, .f32⟩
  | 68 => ⟨S1x1x128, .f32⟩
  | 69 => ⟨S128, .f32⟩
  | 70 => ⟨S1x1x128x128, .f32⟩
  | 71 => ⟨S128x128, .f32⟩
  | 72 => ⟨S1x20000, .i32⟩
  | 73 => ⟨S20000, .i32⟩
  | 74 => ⟨S_, .i32⟩
  | 75 => ⟨S20000, .i32⟩
  | 76 => ⟨S20000, .i1⟩
  | 77 => ⟨S_, .i32⟩
  | 78 => ⟨S20000, .i32⟩
  | 79 => ⟨S20000, .i32⟩
  | 80 => ⟨S20000, .i32⟩
  | 81 => ⟨S20000x1, .i32⟩
  | 82 => ⟨S20000x128, .f32⟩
  | 83 => ⟨S1x20000, .i32⟩
  | 84 => ⟨S20000, .i32⟩
  | 85 => ⟨S_, .f32⟩
  | 86 => ⟨S20000x128, .f32⟩
  | 87 => ⟨S20000x1, .i32⟩
  | 88 => ⟨S20000x128, .f32⟩
  | 89 => ⟨S_, .f32⟩
  | 90 => ⟨S20000, .f32⟩
  | 91 => ⟨S1x20000, .i32⟩
  | 92 => ⟨S20000, .i32⟩
  | 93 => ⟨S_, .f32⟩
  | 94 => ⟨S20000, .f32⟩
  | 95 => ⟨S20000x1, .i32⟩
  | 96 => ⟨S20000, .f32⟩
  | 97 => ⟨S_, .f32⟩
  | 98 => ⟨S20000, .f32⟩
  | 99 => ⟨S20000, .f32⟩
  | 100 => ⟨S20000x1, .f32⟩
  | 101 => ⟨S20000x128, .f32⟩
  | 102 => ⟨S20000x128, .f32⟩
  | 103 => ⟨S20000x128, .f32⟩
  | 104 => ⟨S1x128, .f32⟩
  | 105 => ⟨S20000x128, .f32⟩
  | 106 => ⟨S20000x128, .f32⟩
  | 107 => ⟨S20000x128, .f32⟩
  | 108 => ⟨S20000x128, .f32⟩
  | 109 => ⟨S1x1x128x128, .f32⟩
  | 110 => ⟨S128x128, .f32⟩
  | 111 => ⟨S1x1x128, .f32⟩
  | 112 => ⟨S128, .f32⟩
  | 113 => ⟨S1x1x128x128, .f32⟩
  | 114 => ⟨S128x128, .f32⟩
  | 115 => ⟨S1x50000, .i32⟩
  | 116 => ⟨S50000, .i32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x128, .f32⟩
  | 126 => ⟨S1x50000, .i32⟩
  | 127 => ⟨S50000, .i32⟩
  | _ => ⟨S100000x128, .f32⟩

abbrev hbmTy0_8 (i : Nat) : BufTy := match i % 128 with
  | 0 => ⟨S_, .f32⟩
  | 1 => ⟨S50000x128, .f32⟩
  | 2 => ⟨S50000x1, .i32⟩
  | 3 => ⟨S50000x128, .f32⟩
  | 4 => ⟨S_, .f32⟩
  | 5 => ⟨S50000, .f32⟩
  | 6 => ⟨S1x50000, .i32⟩
  | 7 => ⟨S50000, .i32⟩
  | 8 => ⟨S_, .f32⟩
  | 9 => ⟨S50000, .f32⟩
  | 10 => ⟨S50000x1, .i32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S50000x128, .f32⟩
  | 24 => ⟨S1x1x128x128, .f32⟩
  | 25 => ⟨S128x128, .f32⟩
  | 26 => ⟨S1x1x128, .f32⟩
  | 27 => ⟨S128, .f32⟩
  | 28 => ⟨S1x1x128x128, .f32⟩
  | 29 => ⟨S128x128, .f32⟩
  | 30 => ⟨S1x5000, .i32⟩
  | 31 => ⟨S5000, .i32⟩
  | 32 => ⟨S_, .i32⟩
  | 33 => ⟨S5000, .i32⟩
  | 34 => ⟨S5000, .i1⟩
  | 35 => ⟨S_, .i32⟩
  | 36 => ⟨S5000, .i32⟩
  | 37 => ⟨S5000, .i32⟩
  | 38 => ⟨S5000, .i32⟩
  | 39 => ⟨S5000x1, .i32⟩
  | 40 => ⟨S5000x128, .f32⟩
  | 41 => ⟨S1x5000, .i32⟩
  | 42 => ⟨S5000, .i32⟩
  | 43 => ⟨S_, .f32⟩
  | 44 => ⟨S5000x128, .f32⟩
  | 45 => ⟨S5000x1, .i32⟩
  | 46 => ⟨S5000x128, .f32⟩
  | 47 => ⟨S_, .f32⟩
  | 48 => ⟨S5000, .f32⟩
  | 49 => ⟨S1x5000, .i32⟩
  | 50 => ⟨S5000, .i32⟩
  | 51 => ⟨S_, .f32⟩
  | 52 => ⟨S5000, .f32⟩
  | 53 => ⟨S5000x1, .i32⟩
  | 54 => ⟨S5000, .f32⟩
  | 55 => ⟨S_, .f32⟩
  | 56 => ⟨S5000, .f32⟩
  | 57 => ⟨S5000, .f32⟩
  | 58 => ⟨S5000x1, .f32⟩
  | 59 => ⟨S5000x128, .f32⟩
  | 60 => ⟨S5000x128, .f32⟩
  | 61 => ⟨S5000x128, .f32⟩
  | 62 => ⟨S1x128, .f32⟩
  | 63 => ⟨S5000x128, .f32⟩
  | 64 => ⟨S5000x128, .f32⟩
  | 65 => ⟨S5000x128, .f32⟩
  | 66 => ⟨S5000x128, .f32⟩
  | 67 => ⟨S_, .f32⟩
  | 68 => ⟨S100000x128, .f32⟩
  | 69 => ⟨S100000x128, .f32⟩
  | 70 => ⟨S_, .f32⟩
  | 71 => ⟨S20000x128, .f32⟩
  | 72 => ⟨S20000x128, .f32⟩
  | 73 => ⟨S_, .f32⟩
  | 74 => ⟨S50000x128, .f32⟩
  | 75 => ⟨S50000x128, .f32⟩
  | 76 => ⟨S_, .f32⟩
  | 77 => ⟨S5000x128, .f32⟩
  | 78 => ⟨S5000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x2, .f32⟩
  | 87 => ⟨S1x2, .f32⟩
  | 88 => ⟨S100000x2, .f32⟩
  | 89 => ⟨S100000x2, .f32⟩
  | 90 => ⟨S20000x128, .f32⟩
  | 91 => ⟨S1x128, .f32⟩
  | 92 => ⟨S20000x128, .f32⟩
  | 93 => ⟨S20000x128, .f32⟩
  | 94 => ⟨S_, .f32⟩
  | 95 => ⟨S20000x128, .f32⟩
  | 96 => ⟨S20000x128, .f32⟩
  | 97 => ⟨S20000x2, .f32⟩
  | 98 => ⟨S1x2, .f32⟩
  | 99 => ⟨S20000x2, .f32⟩
  | 100 => ⟨S20000x2, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_v8 : Ref sig .tc := ⟨.hbm, 32, rfl⟩
abbrev main_v9 : Ref sig .tc := ⟨.hbm, 33, rfl⟩
abbrev main_c_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_4 : Ref sig .tc := ⟨.hbm, 74, rfl⟩
abbrev main_v45 : Ref sig .tc := ⟨.hbm, 75, rfl⟩
abbrev main_v46 : Ref sig .tc := ⟨.hbm, 76, rfl⟩
abbrev main_c_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_9 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_10 : Ref sig .tc := ⟨.hbm, 118, rfl⟩
abbrev main_v83 : Ref sig .tc := ⟨.hbm, 119, rfl⟩
abbrev main_v84 : Ref sig .tc := ⟨.hbm, 120, rfl⟩
abbrev main_c_11 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_12 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_13 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_14 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_15 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_16 : Ref sig .tc := ⟨.hbm, 162, rfl⟩
abbrev main_v121 : Ref sig .tc := ⟨.hbm, 163, rfl⟩
abbrev main_v122 : Ref sig .tc := ⟨.hbm, 164, rfl⟩
abbrev main_c_17 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_18 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_19 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_20 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_21 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_c_22 : Ref sig .tc := ⟨.hbm, 206, rfl⟩
abbrev main_v159 : Ref sig .tc := ⟨.hbm, 207, rfl⟩
abbrev main_v160 : Ref sig .tc := ⟨.hbm, 208, rfl⟩
abbrev main_c_23 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_24 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_25 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_26 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_cst_27 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_c_28 : Ref sig .tc := ⟨.hbm, 250, rfl⟩
abbrev main_v197 : Ref sig .tc := ⟨.hbm, 251, rfl⟩
abbrev main_v198 : Ref sig .tc := ⟨.hbm, 252, rfl⟩
abbrev main_c_29 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_30 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_31 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_cst_32 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_cst_33 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_c_34 : Ref sig .tc := ⟨.hbm, 293, rfl⟩
abbrev main_v234 : Ref sig .tc := ⟨.hbm, 294, rfl⟩
abbrev main_v235 : Ref sig .tc := ⟨.hbm, 295, rfl⟩
abbrev main_c_35 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_cst_36 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_cst_37 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_cst_38 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_cst_39 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_c_40 : Ref sig .tc := ⟨.hbm, 336, rfl⟩
abbrev main_v271 : Ref sig .tc := ⟨.hbm, 337, rfl⟩
abbrev main_v272 : Ref sig .tc := ⟨.hbm, 338, rfl⟩
abbrev main_c_41 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_cst_42 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_cst_43 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_cst_44 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_cst_45 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_call0_cst : Ref sig .tc := ⟨.hbm, 371, rfl⟩
abbrev main_call0_v0 : Ref sig .tc := ⟨.hbm, 372, rfl⟩
abbrev main_v300 : Ref sig .tc := ⟨.hbm, 373, rfl⟩
abbrev main_call1_cst : Ref sig .tc := ⟨.hbm, 374, rfl⟩
abbrev main_call1_v0 : Ref sig .tc := ⟨.hbm, 375, rfl⟩
abbrev main_v301 : Ref sig .tc := ⟨.hbm, 376, rfl⟩
abbrev main_call2_cst : Ref sig .tc := ⟨.hbm, 377, rfl⟩
abbrev main_call2_v0 : Ref sig .tc := ⟨.hbm, 378, rfl⟩
abbrev main_v302 : Ref sig .tc := ⟨.hbm, 379, rfl⟩
abbrev main_call3_cst : Ref sig .tc := ⟨.hbm, 380, rfl⟩
abbrev main_call3_v0 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_v311 : Ref sig .tc := ⟨.hbm, 390, rfl⟩
abbrev main_c_46 : Ref sig .tc := ⟨.hbm, 391, rfl⟩
abbrev main_v312 : Ref sig .tc := ⟨.hbm, 392, rfl⟩
abbrev main_v313 : Ref sig .tc := ⟨.hbm, 393, rfl⟩
abbrev main_c_47 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_cst_48 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_cst_49 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_cst_50 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_cst_51 : Ref sig .tc := ⟨.hbm, 414, rfl⟩
abbrev main_v330 : Ref sig .tc := ⟨.hbm, 415, rfl⟩
abbrev main_v331 : Ref sig .tc := ⟨.hbm, 416, rfl⟩
abbrev main_v332 : Ref sig .tc := ⟨.hbm, 417, rfl⟩
abbrev main_v333 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_c_52 : Ref sig .tc := ⟨.hbm, 434, rfl⟩
abbrev main_v349 : Ref sig .tc := ⟨.hbm, 435, rfl⟩
abbrev main_v350 : Ref sig .tc := ⟨.hbm, 436, rfl⟩
abbrev main_c_53 : Ref sig .tc := ⟨.hbm, 437, rfl⟩
abbrev main_v351 : Ref sig .tc := ⟨.hbm, 438, rfl⟩
abbrev main_v352 : Ref sig .tc := ⟨.hbm, 439, rfl⟩
abbrev main_v353 : Ref sig .tc := ⟨.hbm, 440, rfl⟩
abbrev main_v354 : Ref sig .tc := ⟨.hbm, 441, rfl⟩
abbrev main_v355 : Ref sig .tc := ⟨.hbm, 442, rfl⟩
abbrev main_v356 : Ref sig .tc := ⟨.hbm, 443, rfl⟩
abbrev main_v357 : Ref sig .tc := ⟨.hbm, 444, rfl⟩
abbrev main_cst_54 : Ref sig .tc := ⟨.hbm, 445, rfl⟩
abbrev main_v358 : Ref sig .tc := ⟨.hbm, 446, rfl⟩
abbrev main_v359 : Ref sig .tc := ⟨.hbm, 447, rfl⟩
abbrev main_v360 : Ref sig .tc := ⟨.hbm, 448, rfl⟩
abbrev main_cst_55 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩
abbrev main_cst_56 : Ref sig .tc := ⟨.hbm, 453, rfl⟩
abbrev main_v364 : Ref sig .tc := ⟨.hbm, 454, rfl⟩
abbrev main_v365 : Ref sig .tc := ⟨.hbm, 455, rfl⟩
abbrev main_v366 : Ref sig .tc := ⟨.hbm, 456, rfl⟩
abbrev main_cst_57 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_v375 : Ref sig .tc := ⟨.hbm, 466, rfl⟩
abbrev main_v376 : Ref sig .tc := ⟨.hbm, 467, rfl⟩
abbrev main_v377 : Ref sig .tc := ⟨.hbm, 468, rfl⟩
abbrev main_v378 : Ref sig .tc := ⟨.hbm, 469, rfl⟩
abbrev main_v379 : Ref sig .tc := ⟨.hbm, 470, rfl⟩
abbrev main_v380 : Ref sig .tc := ⟨.hbm, 471, rfl⟩
abbrev main_v381 : Ref sig .tc := ⟨.hbm, 472, rfl⟩
abbrev main_v382 : Ref sig .tc := ⟨.hbm, 473, rfl⟩
abbrev main_v383 : Ref sig .tc := ⟨.hbm, 474, rfl⟩
abbrev main_v384 : Ref sig .tc := ⟨.hbm, 475, rfl⟩
abbrev main_v385 : Ref sig .tc := ⟨.hbm, 476, rfl⟩
abbrev main_v386 : Ref sig .tc := ⟨.hbm, 477, rfl⟩
abbrev main_c_58 : Ref sig .tc := ⟨.hbm, 478, rfl⟩
abbrev main_v387 : Ref sig .tc := ⟨.hbm, 479, rfl⟩
abbrev main_v388 : Ref sig .tc := ⟨.hbm, 480, rfl⟩
abbrev main_c_59 : Ref sig .tc := ⟨.hbm, 481, rfl⟩
abbrev main_v389 : Ref sig .tc := ⟨.hbm, 482, rfl⟩
abbrev main_v390 : Ref sig .tc := ⟨.hbm, 483, rfl⟩
abbrev main_v391 : Ref sig .tc := ⟨.hbm, 484, rfl⟩
abbrev main_v392 : Ref sig .tc := ⟨.hbm, 485, rfl⟩
abbrev main_v393 : Ref sig .tc := ⟨.hbm, 486, rfl⟩
abbrev main_v394 : Ref sig .tc := ⟨.hbm, 487, rfl⟩
abbrev main_v395 : Ref sig .tc := ⟨.hbm, 488, rfl⟩
abbrev main_cst_60 : Ref sig .tc := ⟨.hbm, 489, rfl⟩
abbrev main_v396 : Ref sig .tc := ⟨.hbm, 490, rfl⟩
abbrev main_v397 : Ref sig .tc := ⟨.hbm, 491, rfl⟩
abbrev main_v398 : Ref sig .tc := ⟨.hbm, 492, rfl⟩
abbrev main_cst_61 : Ref sig .tc := ⟨.hbm, 493, rfl⟩
abbrev main_v399 : Ref sig .tc := ⟨.hbm, 494, rfl⟩
abbrev main_v400 : Ref sig .tc := ⟨.hbm, 495, rfl⟩
abbrev main_v401 : Ref sig .tc := ⟨.hbm, 496, rfl⟩
abbrev main_cst_62 : Ref sig .tc := ⟨.hbm, 497, rfl⟩
abbrev main_v402 : Ref sig .tc := ⟨.hbm, 498, rfl⟩
abbrev main_v403 : Ref sig .tc := ⟨.hbm, 499, rfl⟩
abbrev main_v404 : Ref sig .tc := ⟨.hbm, 500, rfl⟩
abbrev main_cst_63 : Ref sig .tc := ⟨.hbm, 501, rfl⟩
abbrev main_v405 : Ref sig .tc := ⟨.hbm, 502, rfl⟩
abbrev main_v406 : Ref sig .tc := ⟨.hbm, 503, rfl⟩
abbrev main_v407 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_v411 : Ref sig .tc := ⟨.hbm, 508, rfl⟩
abbrev main_v412 : Ref sig .tc := ⟨.hbm, 509, rfl⟩
abbrev main_v413 : Ref sig .tc := ⟨.hbm, 510, rfl⟩
abbrev main_v414 : Ref sig .tc := ⟨.hbm, 511, rfl⟩
abbrev main_v415 : Ref sig .tc := ⟨.hbm, 512, rfl⟩
abbrev main_v416 : Ref sig .tc := ⟨.hbm, 513, rfl⟩
abbrev main_v417 : Ref sig .tc := ⟨.hbm, 514, rfl⟩
abbrev main_v418 : Ref sig .tc := ⟨.hbm, 515, rfl⟩
abbrev main_v419 : Ref sig .tc := ⟨.hbm, 516, rfl⟩
abbrev main_v420 : Ref sig .tc := ⟨.hbm, 517, rfl⟩
abbrev main_v421 : Ref sig .tc := ⟨.hbm, 518, rfl⟩
abbrev main_v422 : Ref sig .tc := ⟨.hbm, 519, rfl⟩
abbrev main_v423 : Ref sig .tc := ⟨.hbm, 520, rfl⟩
abbrev main_v424 : Ref sig .tc := ⟨.hbm, 521, rfl⟩
abbrev main_c_64 : Ref sig .tc := ⟨.hbm, 522, rfl⟩
abbrev main_v425 : Ref sig .tc := ⟨.hbm, 523, rfl⟩
abbrev main_v426 : Ref sig .tc := ⟨.hbm, 524, rfl⟩
abbrev main_c_65 : Ref sig .tc := ⟨.hbm, 525, rfl⟩
abbrev main_v427 : Ref sig .tc := ⟨.hbm, 526, rfl⟩
abbrev main_v428 : Ref sig .tc := ⟨.hbm, 527, rfl⟩
abbrev main_v429 : Ref sig .tc := ⟨.hbm, 528, rfl⟩
abbrev main_v430 : Ref sig .tc := ⟨.hbm, 529, rfl⟩
abbrev main_v431 : Ref sig .tc := ⟨.hbm, 530, rfl⟩
abbrev main_v432 : Ref sig .tc := ⟨.hbm, 531, rfl⟩
abbrev main_v433 : Ref sig .tc := ⟨.hbm, 532, rfl⟩
abbrev main_cst_66 : Ref sig .tc := ⟨.hbm, 533, rfl⟩
abbrev main_v434 : Ref sig .tc := ⟨.hbm, 534, rfl⟩
abbrev main_v435 : Ref sig .tc := ⟨.hbm, 535, rfl⟩
abbrev main_v436 : Ref sig .tc := ⟨.hbm, 536, rfl⟩
abbrev main_cst_67 : Ref sig .tc := ⟨.hbm, 537, rfl⟩
abbrev main_v437 : Ref sig .tc := ⟨.hbm, 538, rfl⟩
abbrev main_v438 : Ref sig .tc := ⟨.hbm, 539, rfl⟩
abbrev main_v439 : Ref sig .tc := ⟨.hbm, 540, rfl⟩
abbrev main_cst_68 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_cst_69 : Ref sig .tc := ⟨.hbm, 545, rfl⟩
abbrev main_v443 : Ref sig .tc := ⟨.hbm, 546, rfl⟩
abbrev main_v444 : Ref sig .tc := ⟨.hbm, 547, rfl⟩
abbrev main_v445 : Ref sig .tc := ⟨.hbm, 548, rfl⟩
abbrev main_v446 : Ref sig .tc := ⟨.hbm, 549, rfl⟩
abbrev main_v447 : Ref sig .tc := ⟨.hbm, 550, rfl⟩
abbrev main_v448 : Ref sig .tc := ⟨.hbm, 551, rfl⟩
abbrev main_v449 : Ref sig .tc := ⟨.hbm, 552, rfl⟩
abbrev main_v450 : Ref sig .tc := ⟨.hbm, 553, rfl⟩
abbrev main_v451 : Ref sig .tc := ⟨.hbm, 554, rfl⟩
abbrev main_v452 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_v456 : Ref sig .tc := ⟨.hbm, 559, rfl⟩
abbrev main_v457 : Ref sig .tc := ⟨.hbm, 560, rfl⟩
abbrev main_v458 : Ref sig .tc := ⟨.hbm, 561, rfl⟩
abbrev main_v459 : Ref sig .tc := ⟨.hbm, 562, rfl⟩
abbrev main_v460 : Ref sig .tc := ⟨.hbm, 563, rfl⟩
abbrev main_v461 : Ref sig .tc := ⟨.hbm, 564, rfl⟩
abbrev main_v462 : Ref sig .tc := ⟨.hbm, 565, rfl⟩
abbrev main_c_70 : Ref sig .tc := ⟨.hbm, 566, rfl⟩
abbrev main_v463 : Ref sig .tc := ⟨.hbm, 567, rfl⟩
abbrev main_v464 : Ref sig .tc := ⟨.hbm, 568, rfl⟩
abbrev main_c_71 : Ref sig .tc := ⟨.hbm, 569, rfl⟩
abbrev main_v465 : Ref sig .tc := ⟨.hbm, 570, rfl⟩
abbrev main_v466 : Ref sig .tc := ⟨.hbm, 571, rfl⟩
abbrev main_v467 : Ref sig .tc := ⟨.hbm, 572, rfl⟩
abbrev main_v468 : Ref sig .tc := ⟨.hbm, 573, rfl⟩
abbrev main_v469 : Ref sig .tc := ⟨.hbm, 574, rfl⟩
abbrev main_v470 : Ref sig .tc := ⟨.hbm, 575, rfl⟩
abbrev main_v471 : Ref sig .tc := ⟨.hbm, 576, rfl⟩
abbrev main_cst_72 : Ref sig .tc := ⟨.hbm, 577, rfl⟩
abbrev main_v472 : Ref sig .tc := ⟨.hbm, 578, rfl⟩
abbrev main_v473 : Ref sig .tc := ⟨.hbm, 579, rfl⟩
abbrev main_v474 : Ref sig .tc := ⟨.hbm, 580, rfl⟩
abbrev main_cst_73 : Ref sig .tc := ⟨.hbm, 581, rfl⟩
abbrev main_v475 : Ref sig .tc := ⟨.hbm, 582, rfl⟩
abbrev main_v476 : Ref sig .tc := ⟨.hbm, 583, rfl⟩
abbrev main_v477 : Ref sig .tc := ⟨.hbm, 584, rfl⟩
abbrev main_cst_74 : Ref sig .tc := ⟨.hbm, 585, rfl⟩
abbrev main_v478 : Ref sig .tc := ⟨.hbm, 586, rfl⟩
abbrev main_v479 : Ref sig .tc := ⟨.hbm, 587, rfl⟩
abbrev main_v480 : Ref sig .tc := ⟨.hbm, 588, rfl⟩
abbrev main_cst_75 : Ref sig .tc := ⟨.hbm, 589, rfl⟩
abbrev main_v481 : Ref sig .tc := ⟨.hbm, 590, rfl⟩
abbrev main_v482 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_v486 : Ref sig .tc := ⟨.hbm, 595, rfl⟩
abbrev main_v487 : Ref sig .tc := ⟨.hbm, 596, rfl⟩
abbrev main_v488 : Ref sig .tc := ⟨.hbm, 597, rfl⟩
abbrev main_v489 : Ref sig .tc := ⟨.hbm, 598, rfl⟩
abbrev main_v490 : Ref sig .tc := ⟨.hbm, 599, rfl⟩
abbrev main_v491 : Ref sig .tc := ⟨.hbm, 600, rfl⟩
abbrev main_v492 : Ref sig .tc := ⟨.hbm, 601, rfl⟩
abbrev main_v493 : Ref sig .tc := ⟨.hbm, 602, rfl⟩
abbrev main_v494 : Ref sig .tc := ⟨.hbm, 603, rfl⟩
abbrev main_v495 : Ref sig .tc := ⟨.hbm, 604, rfl⟩
abbrev main_v496 : Ref sig .tc := ⟨.hbm, 605, rfl⟩
abbrev main_v497 : Ref sig .tc := ⟨.hbm, 606, rfl⟩
abbrev main_v498 : Ref sig .tc := ⟨.hbm, 607, rfl⟩
abbrev main_v499 : Ref sig .tc := ⟨.hbm, 608, rfl⟩
abbrev main_v500 : Ref sig .tc := ⟨.hbm, 609, rfl⟩
abbrev main_c_76 : Ref sig .tc := ⟨.hbm, 610, rfl⟩
abbrev main_v501 : Ref sig .tc := ⟨.hbm, 611, rfl⟩
abbrev main_v502 : Ref sig .tc := ⟨.hbm, 612, rfl⟩
abbrev main_c_77 : Ref sig .tc := ⟨.hbm, 613, rfl⟩
abbrev main_v503 : Ref sig .tc := ⟨.hbm, 614, rfl⟩
abbrev main_v504 : Ref sig .tc := ⟨.hbm, 615, rfl⟩
abbrev main_v505 : Ref sig .tc := ⟨.hbm, 616, rfl⟩
abbrev main_v506 : Ref sig .tc := ⟨.hbm, 617, rfl⟩
abbrev main_v507 : Ref sig .tc := ⟨.hbm, 618, rfl⟩
abbrev main_v508 : Ref sig .tc := ⟨.hbm, 619, rfl⟩
abbrev main_v509 : Ref sig .tc := ⟨.hbm, 620, rfl⟩
abbrev main_cst_78 : Ref sig .tc := ⟨.hbm, 621, rfl⟩
abbrev main_v510 : Ref sig .tc := ⟨.hbm, 622, rfl⟩
abbrev main_v511 : Ref sig .tc := ⟨.hbm, 623, rfl⟩
abbrev main_v512 : Ref sig .tc := ⟨.hbm, 624, rfl⟩
abbrev main_cst_79 : Ref sig .tc := ⟨.hbm, 625, rfl⟩
abbrev main_v513 : Ref sig .tc := ⟨.hbm, 626, rfl⟩
abbrev main_v514 : Ref sig .tc := ⟨.hbm, 627, rfl⟩
abbrev main_v515 : Ref sig .tc := ⟨.hbm, 628, rfl⟩
abbrev main_cst_80 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_81 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_v523 : Ref sig .tc := ⟨.hbm, 638, rfl⟩
abbrev main_v524 : Ref sig .tc := ⟨.hbm, 639, rfl⟩
abbrev main_v525 : Ref sig .tc := ⟨.hbm, 640, rfl⟩
abbrev main_v526 : Ref sig .tc := ⟨.hbm, 641, rfl⟩
abbrev main_v527 : Ref sig .tc := ⟨.hbm, 642, rfl⟩
abbrev main_v528 : Ref sig .tc := ⟨.hbm, 643, rfl⟩
abbrev main_v529 : Ref sig .tc := ⟨.hbm, 644, rfl⟩
abbrev main_v530 : Ref sig .tc := ⟨.hbm, 645, rfl⟩
abbrev main_v531 : Ref sig .tc := ⟨.hbm, 646, rfl⟩
abbrev main_v532 : Ref sig .tc := ⟨.hbm, 647, rfl⟩
abbrev main_v533 : Ref sig .tc := ⟨.hbm, 648, rfl⟩
abbrev main_v534 : Ref sig .tc := ⟨.hbm, 649, rfl⟩
abbrev main_v535 : Ref sig .tc := ⟨.hbm, 650, rfl⟩
abbrev main_v536 : Ref sig .tc := ⟨.hbm, 651, rfl⟩
abbrev main_v537 : Ref sig .tc := ⟨.hbm, 652, rfl⟩
abbrev main_c_82 : Ref sig .tc := ⟨.hbm, 653, rfl⟩
abbrev main_v538 : Ref sig .tc := ⟨.hbm, 654, rfl⟩
abbrev main_v539 : Ref sig .tc := ⟨.hbm, 655, rfl⟩
abbrev main_c_83 : Ref sig .tc := ⟨.hbm, 656, rfl⟩
abbrev main_v540 : Ref sig .tc := ⟨.hbm, 657, rfl⟩
abbrev main_v541 : Ref sig .tc := ⟨.hbm, 658, rfl⟩
abbrev main_v542 : Ref sig .tc := ⟨.hbm, 659, rfl⟩
abbrev main_v543 : Ref sig .tc := ⟨.hbm, 660, rfl⟩
abbrev main_v544 : Ref sig .tc := ⟨.hbm, 661, rfl⟩
abbrev main_v545 : Ref sig .tc := ⟨.hbm, 662, rfl⟩
abbrev main_v546 : Ref sig .tc := ⟨.hbm, 663, rfl⟩
abbrev main_cst_84 : Ref sig .tc := ⟨.hbm, 664, rfl⟩
abbrev main_v547 : Ref sig .tc := ⟨.hbm, 665, rfl⟩
abbrev main_v548 : Ref sig .tc := ⟨.hbm, 666, rfl⟩
abbrev main_v549 : Ref sig .tc := ⟨.hbm, 667, rfl⟩
abbrev main_cst_85 : Ref sig .tc := ⟨.hbm, 668, rfl⟩
abbrev main_v550 : Ref sig .tc := ⟨.hbm, 669, rfl⟩
abbrev main_v551 : Ref sig .tc := ⟨.hbm, 670, rfl⟩
abbrev main_v552 : Ref sig .tc := ⟨.hbm, 671, rfl⟩
abbrev main_cst_86 : Ref sig .tc := ⟨.hbm, 672, rfl⟩
abbrev main_v553 : Ref sig .tc := ⟨.hbm, 673, rfl⟩
abbrev main_v554 : Ref sig .tc := ⟨.hbm, 674, rfl⟩
abbrev main_v555 : Ref sig .tc := ⟨.hbm, 675, rfl⟩
abbrev main_cst_87 : Ref sig .tc := ⟨.hbm, 676, rfl⟩
abbrev main_v556 : Ref sig .tc := ⟨.hbm, 677, rfl⟩
abbrev main_v557 : Ref sig .tc := ⟨.hbm, 678, rfl⟩
abbrev main_v558 : Ref sig .tc := ⟨.hbm, 679, rfl⟩
abbrev main_v559 : Ref sig .tc := ⟨.hbm, 680, rfl⟩
abbrev main_v560 : Ref sig .tc := ⟨.hbm, 681, rfl⟩
abbrev main_v561 : Ref sig .tc := ⟨.hbm, 682, rfl⟩
abbrev main_v562 : Ref sig .tc := ⟨.hbm, 683, rfl⟩
abbrev main_v563 : Ref sig .tc := ⟨.hbm, 684, rfl⟩
abbrev main_v564 : Ref sig .tc := ⟨.hbm, 685, rfl⟩
abbrev main_v565 : Ref sig .tc := ⟨.hbm, 686, rfl⟩
abbrev main_v566 : Ref sig .tc := ⟨.hbm, 687, rfl⟩
abbrev main_v567 : Ref sig .tc := ⟨.hbm, 688, rfl⟩
abbrev main_v568 : Ref sig .tc := ⟨.hbm, 689, rfl⟩
abbrev main_v569 : Ref sig .tc := ⟨.hbm, 690, rfl⟩
abbrev main_v570 : Ref sig .tc := ⟨.hbm, 691, rfl⟩
abbrev main_v571 : Ref sig .tc := ⟨.hbm, 692, rfl⟩
abbrev main_v572 : Ref sig .tc := ⟨.hbm, 693, rfl⟩
abbrev main_v573 : Ref sig .tc := ⟨.hbm, 694, rfl⟩
abbrev main_v574 : Ref sig .tc := ⟨.hbm, 695, rfl⟩
abbrev main_c_88 : Ref sig .tc := ⟨.hbm, 696, rfl⟩
abbrev main_v575 : Ref sig .tc := ⟨.hbm, 697, rfl⟩
abbrev main_v576 : Ref sig .tc := ⟨.hbm, 698, rfl⟩
abbrev main_c_89 : Ref sig .tc := ⟨.hbm, 699, rfl⟩
abbrev main_v577 : Ref sig .tc := ⟨.hbm, 700, rfl⟩
abbrev main_v578 : Ref sig .tc := ⟨.hbm, 701, rfl⟩
abbrev main_v579 : Ref sig .tc := ⟨.hbm, 702, rfl⟩
abbrev main_v580 : Ref sig .tc := ⟨.hbm, 703, rfl⟩
abbrev main_v581 : Ref sig .tc := ⟨.hbm, 704, rfl⟩
abbrev main_v582 : Ref sig .tc := ⟨.hbm, 705, rfl⟩
abbrev main_v583 : Ref sig .tc := ⟨.hbm, 706, rfl⟩
abbrev main_cst_90 : Ref sig .tc := ⟨.hbm, 707, rfl⟩
abbrev main_v584 : Ref sig .tc := ⟨.hbm, 708, rfl⟩
abbrev main_v585 : Ref sig .tc := ⟨.hbm, 709, rfl⟩
abbrev main_v586 : Ref sig .tc := ⟨.hbm, 710, rfl⟩
abbrev main_cst_91 : Ref sig .tc := ⟨.hbm, 711, rfl⟩
abbrev main_v587 : Ref sig .tc := ⟨.hbm, 712, rfl⟩
abbrev main_v588 : Ref sig .tc := ⟨.hbm, 713, rfl⟩
abbrev main_v589 : Ref sig .tc := ⟨.hbm, 714, rfl⟩
abbrev main_cst_92 : Ref sig .tc := ⟨.hbm, 715, rfl⟩
abbrev main_v590 : Ref sig .tc := ⟨.hbm, 716, rfl⟩
abbrev main_v591 : Ref sig .tc := ⟨.hbm, 717, rfl⟩
abbrev main_v592 : Ref sig .tc := ⟨.hbm, 718, rfl⟩
abbrev main_cst_93 : Ref sig .tc := ⟨.hbm, 719, rfl⟩
abbrev main_v593 : Ref sig .tc := ⟨.hbm, 720, rfl⟩
abbrev main_v594 : Ref sig .tc := ⟨.hbm, 721, rfl⟩
abbrev main_v595 : Ref sig .tc := ⟨.hbm, 722, rfl⟩
abbrev main_v596 : Ref sig .tc := ⟨.hbm, 723, rfl⟩
abbrev main_v597 : Ref sig .tc := ⟨.hbm, 724, rfl⟩
abbrev main_v598 : Ref sig .tc := ⟨.hbm, 725, rfl⟩
abbrev main_v599 : Ref sig .tc := ⟨.hbm, 726, rfl⟩
abbrev main_v600 : Ref sig .tc := ⟨.hbm, 727, rfl⟩
abbrev main_v601 : Ref sig .tc := ⟨.hbm, 728, rfl⟩
abbrev main_v602 : Ref sig .tc := ⟨.hbm, 729, rfl⟩
abbrev main_v603 : Ref sig .tc := ⟨.hbm, 730, rfl⟩
abbrev main_call4_cst : Ref sig .tc := ⟨.hbm, 731, rfl⟩
abbrev main_call4_v0 : Ref sig .tc := ⟨.hbm, 732, rfl⟩
abbrev main_v604 : Ref sig .tc := ⟨.hbm, 733, rfl⟩
abbrev main_call5_cst : Ref sig .tc := ⟨.hbm, 734, rfl⟩
abbrev main_call5_v0 : Ref sig .tc := ⟨.hbm, 735, rfl⟩
abbrev main_v605 : Ref sig .tc := ⟨.hbm, 736, rfl⟩
abbrev main_call6_cst : Ref sig .tc := ⟨.hbm, 737, rfl⟩
abbrev main_call6_v0 : Ref sig .tc := ⟨.hbm, 738, rfl⟩
abbrev main_v606 : Ref sig .tc := ⟨.hbm, 739, rfl⟩
abbrev main_call7_cst : Ref sig .tc := ⟨.hbm, 740, rfl⟩
abbrev main_call7_v0 : Ref sig .tc := ⟨.hbm, 741, rfl⟩
abbrev main_v607 : Ref sig .tc := ⟨.hbm, 742, rfl⟩
abbrev main_v608 : Ref sig .tc := ⟨.hbm, 743, rfl⟩
abbrev main_v609 : Ref sig .tc := ⟨.hbm, 744, rfl⟩
abbrev main_v610 : Ref sig .tc := ⟨.hbm, 745, rfl⟩
abbrev main_v611 : Ref sig .tc := ⟨.hbm, 746, rfl⟩
abbrev main_v612 : Ref sig .tc := ⟨.hbm, 747, rfl⟩
abbrev main_v613 : Ref sig .tc := ⟨.hbm, 748, rfl⟩
abbrev main_v614 : Ref sig .tc := ⟨.hbm, 749, rfl⟩
abbrev main_v615 : Ref sig .tc := ⟨.hbm, 750, rfl⟩
abbrev main_c_94 : Ref sig .tc := ⟨.hbm, 751, rfl⟩
abbrev main_v616 : Ref sig .tc := ⟨.hbm, 752, rfl⟩
abbrev main_v617 : Ref sig .tc := ⟨.hbm, 753, rfl⟩
abbrev main_c_95 : Ref sig .tc := ⟨.hbm, 754, rfl⟩
abbrev main_v618 : Ref sig .tc := ⟨.hbm, 755, rfl⟩
abbrev main_v619 : Ref sig .tc := ⟨.hbm, 756, rfl⟩
abbrev main_v620 : Ref sig .tc := ⟨.hbm, 757, rfl⟩
abbrev main_v621 : Ref sig .tc := ⟨.hbm, 758, rfl⟩
abbrev main_v622 : Ref sig .tc := ⟨.hbm, 759, rfl⟩
abbrev main_v623 : Ref sig .tc := ⟨.hbm, 760, rfl⟩
abbrev main_v624 : Ref sig .tc := ⟨.hbm, 761, rfl⟩
abbrev main_cst_96 : Ref sig .tc := ⟨.hbm, 762, rfl⟩
abbrev main_v625 : Ref sig .tc := ⟨.hbm, 763, rfl⟩
abbrev main_v626 : Ref sig .tc := ⟨.hbm, 764, rfl⟩
abbrev main_v627 : Ref sig .tc := ⟨.hbm, 765, rfl⟩
abbrev main_cst_97 : Ref sig .tc := ⟨.hbm, 766, rfl⟩
abbrev main_v628 : Ref sig .tc := ⟨.hbm, 767, rfl⟩
abbrev main_v629 : Ref sig .tc := ⟨.hbm, 768, rfl⟩
abbrev main_v630 : Ref sig .tc := ⟨.hbm, 769, rfl⟩
abbrev main_cst_98 : Ref sig .tc := ⟨.hbm, 770, rfl⟩
abbrev main_v631 : Ref sig .tc := ⟨.hbm, 771, rfl⟩
abbrev main_v632 : Ref sig .tc := ⟨.hbm, 772, rfl⟩
abbrev main_v633 : Ref sig .tc := ⟨.hbm, 773, rfl⟩
abbrev main_cst_99 : Ref sig .tc := ⟨.hbm, 774, rfl⟩
abbrev main_v634 : Ref sig .tc := ⟨.hbm, 775, rfl⟩
abbrev main_v635 : Ref sig .tc := ⟨.hbm, 776, rfl⟩
abbrev main_v636 : Ref sig .tc := ⟨.hbm, 777, rfl⟩
abbrev main_v637 : Ref sig .tc := ⟨.hbm, 778, rfl⟩
abbrev main_v638 : Ref sig .tc := ⟨.hbm, 779, rfl⟩
abbrev main_v639 : Ref sig .tc := ⟨.hbm, 780, rfl⟩
abbrev main_v640 : Ref sig .tc := ⟨.hbm, 781, rfl⟩
abbrev main_v641 : Ref sig .tc := ⟨.hbm, 782, rfl⟩
abbrev main_v642 : Ref sig .tc := ⟨.hbm, 783, rfl⟩
abbrev main_v643 : Ref sig .tc := ⟨.hbm, 784, rfl⟩
abbrev main_v644 : Ref sig .tc := ⟨.hbm, 785, rfl⟩
abbrev main_v645 : Ref sig .tc := ⟨.hbm, 786, rfl⟩
abbrev main_v646 : Ref sig .tc := ⟨.hbm, 787, rfl⟩
abbrev main_v647 : Ref sig .tc := ⟨.hbm, 788, rfl⟩
abbrev main_v648 : Ref sig .tc := ⟨.hbm, 789, rfl⟩
abbrev main_v649 : Ref sig .tc := ⟨.hbm, 790, rfl⟩
abbrev main_v650 : Ref sig .tc := ⟨.hbm, 791, rfl⟩
abbrev main_v651 : Ref sig .tc := ⟨.hbm, 792, rfl⟩
abbrev main_v652 : Ref sig .tc := ⟨.hbm, 793, rfl⟩
abbrev main_c_100 : Ref sig .tc := ⟨.hbm, 794, rfl⟩
abbrev main_v653 : Ref sig .tc := ⟨.hbm, 795, rfl⟩
abbrev main_v654 : Ref sig .tc := ⟨.hbm, 796, rfl⟩
abbrev main_c_101 : Ref sig .tc := ⟨.hbm, 797, rfl⟩
abbrev main_v655 : Ref sig .tc := ⟨.hbm, 798, rfl⟩
abbrev main_v656 : Ref sig .tc := ⟨.hbm, 799, rfl⟩
abbrev main_v657 : Ref sig .tc := ⟨.hbm, 800, rfl⟩
abbrev main_v658 : Ref sig .tc := ⟨.hbm, 801, rfl⟩
abbrev main_v659 : Ref sig .tc := ⟨.hbm, 802, rfl⟩
abbrev main_v660 : Ref sig .tc := ⟨.hbm, 803, rfl⟩
abbrev main_v661 : Ref sig .tc := ⟨.hbm, 804, rfl⟩
abbrev main_cst_102 : Ref sig .tc := ⟨.hbm, 805, rfl⟩
abbrev main_v662 : Ref sig .tc := ⟨.hbm, 806, rfl⟩
abbrev main_v663 : Ref sig .tc := ⟨.hbm, 807, rfl⟩
abbrev main_v664 : Ref sig .tc := ⟨.hbm, 808, rfl⟩
abbrev main_cst_103 : Ref sig .tc := ⟨.hbm, 809, rfl⟩
abbrev main_v665 : Ref sig .tc := ⟨.hbm, 810, rfl⟩
abbrev main_v666 : Ref sig .tc := ⟨.hbm, 811, rfl⟩
abbrev main_v667 : Ref sig .tc := ⟨.hbm, 812, rfl⟩
abbrev main_cst_104 : Ref sig .tc := ⟨.hbm, 813, rfl⟩
abbrev main_v668 : Ref sig .tc := ⟨.hbm, 814, rfl⟩
abbrev main_v669 : Ref sig .tc := ⟨.hbm, 815, rfl⟩
abbrev main_v670 : Ref sig .tc := ⟨.hbm, 816, rfl⟩
abbrev main_cst_105 : Ref sig .tc := ⟨.hbm, 817, rfl⟩
abbrev main_v671 : Ref sig .tc := ⟨.hbm, 818, rfl⟩
abbrev main_v672 : Ref sig .tc := ⟨.hbm, 819, rfl⟩
abbrev main_v673 : Ref sig .tc := ⟨.hbm, 820, rfl⟩
abbrev main_v674 : Ref sig .tc := ⟨.hbm, 821, rfl⟩
abbrev main_v675 : Ref sig .tc := ⟨.hbm, 822, rfl⟩
abbrev main_v676 : Ref sig .tc := ⟨.hbm, 823, rfl⟩
abbrev main_v677 : Ref sig .tc := ⟨.hbm, 824, rfl⟩
abbrev main_v678 : Ref sig .tc := ⟨.hbm, 825, rfl⟩
abbrev main_v679 : Ref sig .tc := ⟨.hbm, 826, rfl⟩
abbrev main_v680 : Ref sig .tc := ⟨.hbm, 827, rfl⟩
abbrev main_v681 : Ref sig .tc := ⟨.hbm, 828, rfl⟩
abbrev main_v682 : Ref sig .tc := ⟨.hbm, 829, rfl⟩
abbrev main_v683 : Ref sig .tc := ⟨.hbm, 830, rfl⟩
abbrev main_v684 : Ref sig .tc := ⟨.hbm, 831, rfl⟩
abbrev main_v685 : Ref sig .tc := ⟨.hbm, 832, rfl⟩
abbrev main_v686 : Ref sig .tc := ⟨.hbm, 833, rfl⟩
abbrev main_v687 : Ref sig .tc := ⟨.hbm, 834, rfl⟩
abbrev main_v688 : Ref sig .tc := ⟨.hbm, 835, rfl⟩
abbrev main_v689 : Ref sig .tc := ⟨.hbm, 836, rfl⟩
abbrev main_v690 : Ref sig .tc := ⟨.hbm, 837, rfl⟩
abbrev main_c_106 : Ref sig .tc := ⟨.hbm, 838, rfl⟩
abbrev main_v691 : Ref sig .tc := ⟨.hbm, 839, rfl⟩
abbrev main_v692 : Ref sig .tc := ⟨.hbm, 840, rfl⟩
abbrev main_c_107 : Ref sig .tc := ⟨.hbm, 841, rfl⟩
abbrev main_v693 : Ref sig .tc := ⟨.hbm, 842, rfl⟩
abbrev main_v694 : Ref sig .tc := ⟨.hbm, 843, rfl⟩
abbrev main_v695 : Ref sig .tc := ⟨.hbm, 844, rfl⟩
abbrev main_v696 : Ref sig .tc := ⟨.hbm, 845, rfl⟩
abbrev main_v697 : Ref sig .tc := ⟨.hbm, 846, rfl⟩
abbrev main_v698 : Ref sig .tc := ⟨.hbm, 847, rfl⟩
abbrev main_v699 : Ref sig .tc := ⟨.hbm, 848, rfl⟩
abbrev main_cst_108 : Ref sig .tc := ⟨.hbm, 849, rfl⟩
abbrev main_v700 : Ref sig .tc := ⟨.hbm, 850, rfl⟩
abbrev main_v701 : Ref sig .tc := ⟨.hbm, 851, rfl⟩
abbrev main_v702 : Ref sig .tc := ⟨.hbm, 852, rfl⟩
abbrev main_cst_109 : Ref sig .tc := ⟨.hbm, 853, rfl⟩
abbrev main_v703 : Ref sig .tc := ⟨.hbm, 854, rfl⟩
abbrev main_v704 : Ref sig .tc := ⟨.hbm, 855, rfl⟩
abbrev main_v705 : Ref sig .tc := ⟨.hbm, 856, rfl⟩
abbrev main_cst_110 : Ref sig .tc := ⟨.hbm, 857, rfl⟩
abbrev main_v706 : Ref sig .tc := ⟨.hbm, 858, rfl⟩
abbrev main_v707 : Ref sig .tc := ⟨.hbm, 859, rfl⟩
abbrev main_v708 : Ref sig .tc := ⟨.hbm, 860, rfl⟩
abbrev main_cst_111 : Ref sig .tc := ⟨.hbm, 861, rfl⟩
abbrev main_v709 : Ref sig .tc := ⟨.hbm, 862, rfl⟩
abbrev main_v710 : Ref sig .tc := ⟨.hbm, 863, rfl⟩
abbrev main_v711 : Ref sig .tc := ⟨.hbm, 864, rfl⟩
abbrev main_v712 : Ref sig .tc := ⟨.hbm, 865, rfl⟩
abbrev main_v713 : Ref sig .tc := ⟨.hbm, 866, rfl⟩
abbrev main_v714 : Ref sig .tc := ⟨.hbm, 867, rfl⟩
abbrev main_v715 : Ref sig .tc := ⟨.hbm, 868, rfl⟩
abbrev main_v716 : Ref sig .tc := ⟨.hbm, 869, rfl⟩
abbrev main_v717 : Ref sig .tc := ⟨.hbm, 870, rfl⟩
abbrev main_v718 : Ref sig .tc := ⟨.hbm, 871, rfl⟩
abbrev main_v719 : Ref sig .tc := ⟨.hbm, 872, rfl⟩
abbrev main_v720 : Ref sig .tc := ⟨.hbm, 873, rfl⟩
abbrev main_v721 : Ref sig .tc := ⟨.hbm, 874, rfl⟩
abbrev main_v722 : Ref sig .tc := ⟨.hbm, 875, rfl⟩
abbrev main_v723 : Ref sig .tc := ⟨.hbm, 876, rfl⟩
abbrev main_v724 : Ref sig .tc := ⟨.hbm, 877, rfl⟩
abbrev main_v725 : Ref sig .tc := ⟨.hbm, 878, rfl⟩
abbrev main_v726 : Ref sig .tc := ⟨.hbm, 879, rfl⟩
abbrev main_v727 : Ref sig .tc := ⟨.hbm, 880, rfl⟩
abbrev main_v728 : Ref sig .tc := ⟨.hbm, 881, rfl⟩
abbrev main_c_112 : Ref sig .tc := ⟨.hbm, 882, rfl⟩
abbrev main_v729 : Ref sig .tc := ⟨.hbm, 883, rfl⟩
abbrev main_v730 : Ref sig .tc := ⟨.hbm, 884, rfl⟩
abbrev main_c_113 : Ref sig .tc := ⟨.hbm, 885, rfl⟩
abbrev main_v731 : Ref sig .tc := ⟨.hbm, 886, rfl⟩
abbrev main_v732 : Ref sig .tc := ⟨.hbm, 887, rfl⟩
abbrev main_v733 : Ref sig .tc := ⟨.hbm, 888, rfl⟩
abbrev main_v734 : Ref sig .tc := ⟨.hbm, 889, rfl⟩
abbrev main_v735 : Ref sig .tc := ⟨.hbm, 890, rfl⟩
abbrev main_v736 : Ref sig .tc := ⟨.hbm, 891, rfl⟩
abbrev main_v737 : Ref sig .tc := ⟨.hbm, 892, rfl⟩
abbrev main_cst_114 : Ref sig .tc := ⟨.hbm, 893, rfl⟩
abbrev main_v738 : Ref sig .tc := ⟨.hbm, 894, rfl⟩
abbrev main_v739 : Ref sig .tc := ⟨.hbm, 895, rfl⟩
abbrev main_v740 : Ref sig .tc := ⟨.hbm, 896, rfl⟩
abbrev main_cst_115 : Ref sig .tc := ⟨.hbm, 897, rfl⟩
abbrev main_v741 : Ref sig .tc := ⟨.hbm, 898, rfl⟩
abbrev main_v742 : Ref sig .tc := ⟨.hbm, 899, rfl⟩
abbrev main_v743 : Ref sig .tc := ⟨.hbm, 900, rfl⟩
abbrev main_cst_116 : Ref sig .tc := ⟨.hbm, 901, rfl⟩
abbrev main_v744 : Ref sig .tc := ⟨.hbm, 902, rfl⟩
abbrev main_v745 : Ref sig .tc := ⟨.hbm, 903, rfl⟩
abbrev main_v746 : Ref sig .tc := ⟨.hbm, 904, rfl⟩
abbrev main_cst_117 : Ref sig .tc := ⟨.hbm, 905, rfl⟩
abbrev main_v747 : Ref sig .tc := ⟨.hbm, 906, rfl⟩
abbrev main_v748 : Ref sig .tc := ⟨.hbm, 907, rfl⟩
abbrev main_v749 : Ref sig .tc := ⟨.hbm, 908, rfl⟩
abbrev main_v750 : Ref sig .tc := ⟨.hbm, 909, rfl⟩
abbrev main_v751 : Ref sig .tc := ⟨.hbm, 910, rfl⟩
abbrev main_v752 : Ref sig .tc := ⟨.hbm, 911, rfl⟩
abbrev main_v753 : Ref sig .tc := ⟨.hbm, 912, rfl⟩
abbrev main_v754 : Ref sig .tc := ⟨.hbm, 913, rfl⟩
abbrev main_v755 : Ref sig .tc := ⟨.hbm, 914, rfl⟩
abbrev main_v756 : Ref sig .tc := ⟨.hbm, 915, rfl⟩
abbrev main_v757 : Ref sig .tc := ⟨.hbm, 916, rfl⟩
abbrev main_v758 : Ref sig .tc := ⟨.hbm, 917, rfl⟩
abbrev main_v759 : Ref sig .tc := ⟨.hbm, 918, rfl⟩
abbrev main_v760 : Ref sig .tc := ⟨.hbm, 919, rfl⟩
abbrev main_v761 : Ref sig .tc := ⟨.hbm, 920, rfl⟩
abbrev main_v762 : Ref sig .tc := ⟨.hbm, 921, rfl⟩
abbrev main_v763 : Ref sig .tc := ⟨.hbm, 922, rfl⟩
abbrev main_v764 : Ref sig .tc := ⟨.hbm, 923, rfl⟩
abbrev main_v765 : Ref sig .tc := ⟨.hbm, 924, rfl⟩
abbrev main_v766 : Ref sig .tc := ⟨.hbm, 925, rfl⟩
abbrev main_c_118 : Ref sig .tc := ⟨.hbm, 926, rfl⟩
abbrev main_v767 : Ref sig .tc := ⟨.hbm, 927, rfl⟩
abbrev main_v768 : Ref sig .tc := ⟨.hbm, 928, rfl⟩
abbrev main_c_119 : Ref sig .tc := ⟨.hbm, 929, rfl⟩
abbrev main_v769 : Ref sig .tc := ⟨.hbm, 930, rfl⟩
abbrev main_v770 : Ref sig .tc := ⟨.hbm, 931, rfl⟩
abbrev main_v771 : Ref sig .tc := ⟨.hbm, 932, rfl⟩
abbrev main_v772 : Ref sig .tc := ⟨.hbm, 933, rfl⟩
abbrev main_v773 : Ref sig .tc := ⟨.hbm, 934, rfl⟩
abbrev main_v774 : Ref sig .tc := ⟨.hbm, 935, rfl⟩
abbrev main_v775 : Ref sig .tc := ⟨.hbm, 936, rfl⟩
abbrev main_cst_120 : Ref sig .tc := ⟨.hbm, 937, rfl⟩
abbrev main_v776 : Ref sig .tc := ⟨.hbm, 938, rfl⟩
abbrev main_v777 : Ref sig .tc := ⟨.hbm, 939, rfl⟩
abbrev main_v778 : Ref sig .tc := ⟨.hbm, 940, rfl⟩
abbrev main_cst_121 : Ref sig .tc := ⟨.hbm, 941, rfl⟩
abbrev main_v779 : Ref sig .tc := ⟨.hbm, 942, rfl⟩
abbrev main_v780 : Ref sig .tc := ⟨.hbm, 943, rfl⟩
abbrev main_v781 : Ref sig .tc := ⟨.hbm, 944, rfl⟩
abbrev main_cst_122 : Ref sig .tc := ⟨.hbm, 945, rfl⟩
abbrev main_v782 : Ref sig .tc := ⟨.hbm, 946, rfl⟩
abbrev main_v783 : Ref sig .tc := ⟨.hbm, 947, rfl⟩
abbrev main_v784 : Ref sig .tc := ⟨.hbm, 948, rfl⟩
abbrev main_cst_123 : Ref sig .tc := ⟨.hbm, 949, rfl⟩
abbrev main_v785 : Ref sig .tc := ⟨.hbm, 950, rfl⟩
abbrev main_v786 : Ref sig .tc := ⟨.hbm, 951, rfl⟩
abbrev main_v787 : Ref sig .tc := ⟨.hbm, 952, rfl⟩
abbrev main_v788 : Ref sig .tc := ⟨.hbm, 953, rfl⟩
abbrev main_v789 : Ref sig .tc := ⟨.hbm, 954, rfl⟩
abbrev main_v790 : Ref sig .tc := ⟨.hbm, 955, rfl⟩
abbrev main_v791 : Ref sig .tc := ⟨.hbm, 956, rfl⟩
abbrev main_v792 : Ref sig .tc := ⟨.hbm, 957, rfl⟩
abbrev main_v793 : Ref sig .tc := ⟨.hbm, 958, rfl⟩
abbrev main_v794 : Ref sig .tc := ⟨.hbm, 959, rfl⟩
abbrev main_v795 : Ref sig .tc := ⟨.hbm, 960, rfl⟩
abbrev main_v796 : Ref sig .tc := ⟨.hbm, 961, rfl⟩
abbrev main_v797 : Ref sig .tc := ⟨.hbm, 962, rfl⟩
abbrev main_v798 : Ref sig .tc := ⟨.hbm, 963, rfl⟩
abbrev main_v799 : Ref sig .tc := ⟨.hbm, 964, rfl⟩
abbrev main_v800 : Ref sig .tc := ⟨.hbm, 965, rfl⟩
abbrev main_v801 : Ref sig .tc := ⟨.hbm, 966, rfl⟩
abbrev main_v802 : Ref sig .tc := ⟨.hbm, 967, rfl⟩
abbrev main_v803 : Ref sig .tc := ⟨.hbm, 968, rfl⟩
abbrev main_v804 : Ref sig .tc := ⟨.hbm, 969, rfl⟩
abbrev main_c_124 : Ref sig .tc := ⟨.hbm, 970, rfl⟩
abbrev main_v805 : Ref sig .tc := ⟨.hbm, 971, rfl⟩
abbrev main_v806 : Ref sig .tc := ⟨.hbm, 972, rfl⟩
abbrev main_c_125 : Ref sig .tc := ⟨.hbm, 973, rfl⟩
abbrev main_v807 : Ref sig .tc := ⟨.hbm, 974, rfl⟩
abbrev main_v808 : Ref sig .tc := ⟨.hbm, 975, rfl⟩
abbrev main_v809 : Ref sig .tc := ⟨.hbm, 976, rfl⟩
abbrev main_v810 : Ref sig .tc := ⟨.hbm, 977, rfl⟩
abbrev main_v811 : Ref sig .tc := ⟨.hbm, 978, rfl⟩
abbrev main_v812 : Ref sig .tc := ⟨.hbm, 979, rfl⟩
abbrev main_v813 : Ref sig .tc := ⟨.hbm, 980, rfl⟩
abbrev main_cst_126 : Ref sig .tc := ⟨.hbm, 981, rfl⟩
abbrev main_v814 : Ref sig .tc := ⟨.hbm, 982, rfl⟩
abbrev main_v815 : Ref sig .tc := ⟨.hbm, 983, rfl⟩
abbrev main_v816 : Ref sig .tc := ⟨.hbm, 984, rfl⟩
abbrev main_cst_127 : Ref sig .tc := ⟨.hbm, 985, rfl⟩
abbrev main_v817 : Ref sig .tc := ⟨.hbm, 986, rfl⟩
abbrev main_v818 : Ref sig .tc := ⟨.hbm, 987, rfl⟩
abbrev main_v819 : Ref sig .tc := ⟨.hbm, 988, rfl⟩
abbrev main_cst_128 : Ref sig .tc := ⟨.hbm, 989, rfl⟩
abbrev main_v820 : Ref sig .tc := ⟨.hbm, 990, rfl⟩
abbrev main_v821 : Ref sig .tc := ⟨.hbm, 991, rfl⟩
abbrev main_v822 : Ref sig .tc := ⟨.hbm, 992, rfl⟩
abbrev main_cst_129 : Ref sig .tc := ⟨.hbm, 993, rfl⟩
abbrev main_v823 : Ref sig .tc := ⟨.hbm, 994, rfl⟩
abbrev main_v824 : Ref sig .tc := ⟨.hbm, 995, rfl⟩
abbrev main_v825 : Ref sig .tc := ⟨.hbm, 996, rfl⟩
abbrev main_v826 : Ref sig .tc := ⟨.hbm, 997, rfl⟩
abbrev main_v827 : Ref sig .tc := ⟨.hbm, 998, rfl⟩
abbrev main_v828 : Ref sig .tc := ⟨.hbm, 999, rfl⟩
abbrev main_v829 : Ref sig .tc := ⟨.hbm, 1000, rfl⟩
abbrev main_v830 : Ref sig .tc := ⟨.hbm, 1001, rfl⟩
abbrev main_v831 : Ref sig .tc := ⟨.hbm, 1002, rfl⟩
abbrev main_v832 : Ref sig .tc := ⟨.hbm, 1003, rfl⟩
abbrev main_v833 : Ref sig .tc := ⟨.hbm, 1004, rfl⟩
abbrev main_v834 : Ref sig .tc := ⟨.hbm, 1005, rfl⟩
abbrev main_v835 : Ref sig .tc := ⟨.hbm, 1006, rfl⟩
abbrev main_v836 : Ref sig .tc := ⟨.hbm, 1007, rfl⟩
abbrev main_v837 : Ref sig .tc := ⟨.hbm, 1008, rfl⟩
abbrev main_v838 : Ref sig .tc := ⟨.hbm, 1009, rfl⟩
abbrev main_v839 : Ref sig .tc := ⟨.hbm, 1010, rfl⟩
abbrev main_v840 : Ref sig .tc := ⟨.hbm, 1011, rfl⟩
abbrev main_v841 : Ref sig .tc := ⟨.hbm, 1012, rfl⟩
abbrev main_c_130 : Ref sig .tc := ⟨.hbm, 1013, rfl⟩
abbrev main_v842 : Ref sig .tc := ⟨.hbm, 1014, rfl⟩
abbrev main_v843 : Ref sig .tc := ⟨.hbm, 1015, rfl⟩
abbrev main_c_131 : Ref sig .tc := ⟨.hbm, 1016, rfl⟩
abbrev main_v844 : Ref sig .tc := ⟨.hbm, 1017, rfl⟩
abbrev main_v845 : Ref sig .tc := ⟨.hbm, 1018, rfl⟩
abbrev main_v846 : Ref sig .tc := ⟨.hbm, 1019, rfl⟩
abbrev main_v847 : Ref sig .tc := ⟨.hbm, 1020, rfl⟩
abbrev main_v848 : Ref sig .tc := ⟨.hbm, 1021, rfl⟩
abbrev main_v849 : Ref sig .tc := ⟨.hbm, 1022, rfl⟩
abbrev main_v850 : Ref sig .tc := ⟨.hbm, 1023, rfl⟩
abbrev main_cst_132 : Ref sig .tc := ⟨.hbm, 1024, rfl⟩
abbrev main_v851 : Ref sig .tc := ⟨.hbm, 1025, rfl⟩
abbrev main_v852 : Ref sig .tc := ⟨.hbm, 1026, rfl⟩
abbrev main_v853 : Ref sig .tc := ⟨.hbm, 1027, rfl⟩
abbrev main_cst_133 : Ref sig .tc := ⟨.hbm, 1028, rfl⟩
abbrev main_v854 : Ref sig .tc := ⟨.hbm, 1029, rfl⟩
abbrev main_v855 : Ref sig .tc := ⟨.hbm, 1030, rfl⟩
abbrev main_v856 : Ref sig .tc := ⟨.hbm, 1031, rfl⟩
abbrev main_cst_134 : Ref sig .tc := ⟨.hbm, 1032, rfl⟩
abbrev main_v857 : Ref sig .tc := ⟨.hbm, 1033, rfl⟩
abbrev main_v858 : Ref sig .tc := ⟨.hbm, 1034, rfl⟩
abbrev main_v859 : Ref sig .tc := ⟨.hbm, 1035, rfl⟩
abbrev main_cst_135 : Ref sig .tc := ⟨.hbm, 1036, rfl⟩
abbrev main_v860 : Ref sig .tc := ⟨.hbm, 1037, rfl⟩
abbrev main_v861 : Ref sig .tc := ⟨.hbm, 1038, rfl⟩
abbrev main_v862 : Ref sig .tc := ⟨.hbm, 1039, rfl⟩
abbrev main_v863 : Ref sig .tc := ⟨.hbm, 1040, rfl⟩
abbrev main_v864 : Ref sig .tc := ⟨.hbm, 1041, rfl⟩
abbrev main_v865 : Ref sig .tc := ⟨.hbm, 1042, rfl⟩
abbrev main_v866 : Ref sig .tc := ⟨.hbm, 1043, rfl⟩
abbrev main_v867 : Ref sig .tc := ⟨.hbm, 1044, rfl⟩
abbrev main_v868 : Ref sig .tc := ⟨.hbm, 1045, rfl⟩
abbrev main_v869 : Ref sig .tc := ⟨.hbm, 1046, rfl⟩
abbrev main_v870 : Ref sig .tc := ⟨.hbm, 1047, rfl⟩
abbrev main_v871 : Ref sig .tc := ⟨.hbm, 1048, rfl⟩
abbrev main_v872 : Ref sig .tc := ⟨.hbm, 1049, rfl⟩
abbrev main_v873 : Ref sig .tc := ⟨.hbm, 1050, rfl⟩
abbrev main_v874 : Ref sig .tc := ⟨.hbm, 1051, rfl⟩
abbrev main_v875 : Ref sig .tc := ⟨.hbm, 1052, rfl⟩
abbrev main_v876 : Ref sig .tc := ⟨.hbm, 1053, rfl⟩
abbrev main_v877 : Ref sig .tc := ⟨.hbm, 1054, rfl⟩
abbrev main_v878 : Ref sig .tc := ⟨.hbm, 1055, rfl⟩
abbrev main_c_136 : Ref sig .tc := ⟨.hbm, 1056, rfl⟩
abbrev main_v879 : Ref sig .tc := ⟨.hbm, 1057, rfl⟩
abbrev main_v880 : Ref sig .tc := ⟨.hbm, 1058, rfl⟩
abbrev main_c_137 : Ref sig .tc := ⟨.hbm, 1059, rfl⟩
abbrev main_v881 : Ref sig .tc := ⟨.hbm, 1060, rfl⟩
abbrev main_v882 : Ref sig .tc := ⟨.hbm, 1061, rfl⟩
abbrev main_v883 : Ref sig .tc := ⟨.hbm, 1062, rfl⟩
abbrev main_v884 : Ref sig .tc := ⟨.hbm, 1063, rfl⟩
abbrev main_v885 : Ref sig .tc := ⟨.hbm, 1064, rfl⟩
abbrev main_v886 : Ref sig .tc := ⟨.hbm, 1065, rfl⟩
abbrev main_v887 : Ref sig .tc := ⟨.hbm, 1066, rfl⟩
abbrev main_cst_138 : Ref sig .tc := ⟨.hbm, 1067, rfl⟩
abbrev main_v888 : Ref sig .tc := ⟨.hbm, 1068, rfl⟩
abbrev main_v889 : Ref sig .tc := ⟨.hbm, 1069, rfl⟩
abbrev main_v890 : Ref sig .tc := ⟨.hbm, 1070, rfl⟩
abbrev main_cst_139 : Ref sig .tc := ⟨.hbm, 1071, rfl⟩
abbrev main_v891 : Ref sig .tc := ⟨.hbm, 1072, rfl⟩
abbrev main_v892 : Ref sig .tc := ⟨.hbm, 1073, rfl⟩
abbrev main_v893 : Ref sig .tc := ⟨.hbm, 1074, rfl⟩
abbrev main_cst_140 : Ref sig .tc := ⟨.hbm, 1075, rfl⟩
abbrev main_v894 : Ref sig .tc := ⟨.hbm, 1076, rfl⟩
abbrev main_v895 : Ref sig .tc := ⟨.hbm, 1077, rfl⟩
abbrev main_v896 : Ref sig .tc := ⟨.hbm, 1078, rfl⟩
abbrev main_cst_141 : Ref sig .tc := ⟨.hbm, 1079, rfl⟩
abbrev main_v897 : Ref sig .tc := ⟨.hbm, 1080, rfl⟩
abbrev main_v898 : Ref sig .tc := ⟨.hbm, 1081, rfl⟩
abbrev main_v899 : Ref sig .tc := ⟨.hbm, 1082, rfl⟩
abbrev main_v900 : Ref sig .tc := ⟨.hbm, 1083, rfl⟩
abbrev main_v901 : Ref sig .tc := ⟨.hbm, 1084, rfl⟩
abbrev main_v902 : Ref sig .tc := ⟨.hbm, 1085, rfl⟩
abbrev main_v903 : Ref sig .tc := ⟨.hbm, 1086, rfl⟩
abbrev main_v904 : Ref sig .tc := ⟨.hbm, 1087, rfl⟩
abbrev main_v905 : Ref sig .tc := ⟨.hbm, 1088, rfl⟩
abbrev main_v906 : Ref sig .tc := ⟨.hbm, 1089, rfl⟩
abbrev main_v907 : Ref sig .tc := ⟨.hbm, 1090, rfl⟩
abbrev main_call8_cst : Ref sig .tc := ⟨.hbm, 1091, rfl⟩
abbrev main_call8_v0 : Ref sig .tc := ⟨.hbm, 1092, rfl⟩
abbrev main_v908 : Ref sig .tc := ⟨.hbm, 1093, rfl⟩
abbrev main_call9_cst : Ref sig .tc := ⟨.hbm, 1094, rfl⟩
abbrev main_call9_v0 : Ref sig .tc := ⟨.hbm, 1095, rfl⟩
abbrev main_v909 : Ref sig .tc := ⟨.hbm, 1096, rfl⟩
abbrev main_call10_cst : Ref sig .tc := ⟨.hbm, 1097, rfl⟩
abbrev main_call10_v0 : Ref sig .tc := ⟨.hbm, 1098, rfl⟩
abbrev main_v910 : Ref sig .tc := ⟨.hbm, 1099, rfl⟩
abbrev main_call11_cst : Ref sig .tc := ⟨.hbm, 1100, rfl⟩
abbrev main_call11_v0 : Ref sig .tc := ⟨.hbm, 1101, rfl⟩
abbrev main_v911 : Ref sig .tc := ⟨.hbm, 1102, rfl⟩
abbrev main_v912 : Ref sig .tc := ⟨.hbm, 1103, rfl⟩
abbrev main_v913 : Ref sig .tc := ⟨.hbm, 1104, rfl⟩
abbrev main_v914 : Ref sig .tc := ⟨.hbm, 1105, rfl⟩
abbrev main_v915 : Ref sig .tc := ⟨.hbm, 1106, rfl⟩
abbrev main_call12_cst : Ref sig .tc := ⟨.hbm, 1107, rfl⟩
abbrev main_call12_v0 : Ref sig .tc := ⟨.hbm, 1108, rfl⟩
abbrev main_v916 : Ref sig .tc := ⟨.hbm, 1109, rfl⟩
abbrev main_v917 : Ref sig .tc := ⟨.hbm, 1110, rfl⟩
abbrev main_v918 : Ref sig .tc := ⟨.hbm, 1111, rfl⟩
abbrev main_v919 : Ref sig .tc := ⟨.hbm, 1112, rfl⟩
abbrev main_v920 : Ref sig .tc := ⟨.hbm, 1113, rfl⟩
abbrev main_v921 : Ref sig .tc := ⟨.hbm, 1114, rfl⟩
abbrev main_v922 : Ref sig .tc := ⟨.hbm, 1115, rfl⟩
abbrev main_v923 : Ref sig .tc := ⟨.hbm, 1116, rfl⟩
abbrev main_v924 : Ref sig .tc := ⟨.hbm, 1117, rfl⟩
abbrev main_call13_cst : Ref sig .tc := ⟨.hbm, 1118, rfl⟩
abbrev main_call13_v0 : Ref sig .tc := ⟨.hbm, 1119, rfl⟩
abbrev main_v925 : Ref sig .tc := ⟨.hbm, 1120, rfl⟩
abbrev main_v926 : Ref sig .tc := ⟨.hbm, 1121, rfl⟩
abbrev main_v927 : Ref sig .tc := ⟨.hbm, 1122, rfl⟩
abbrev main_v928 : Ref sig .tc := ⟨.hbm, 1123, rfl⟩
abbrev main_v929 : Ref sig .tc := ⟨.hbm, 1124, rfl⟩

abbrev nD : Nat := 1
abbrev τ : Topo := Topo.v7x

variable {F : FTy → Type} [FloatOps F]

class Facts₀ : Prop where
  slices_S3x8x128x128_S1x1x128x128_0_0_0_0 : S3x8x128x128.Slices ![0, 0, 0, 0] S1x1x128x128
  shapeCasts_S1x1x128x128_S128x128 : S1x1x128x128.ShapeCasts S128x128
  slices_S3x8x128_S1x1x128_0_0_0 : S3x8x128.Slices ![0, 0, 0] S1x1x128
  shapeCasts_S1x1x128_S128 : S1x1x128.ShapeCasts S128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x8x128x128_S1x1x128x128_0_1_0_0 : S3x8x128x128.Slices ![0, 1, 0, 0] S1x1x128x128
  slices_S3x8x128_S1x1x128_0_1_0 : S3x8x128.Slices ![0, 1, 0] S1x1x128
  slices_S2x100000_S1x100000_0_0 : S2x100000.Slices ![0, 0] S1x100000
  shapeCasts_S1x100000_S100000 : S1x100000.ShapeCasts S100000
  slices_S2x100000_S1x100000_1_0 : S2x100000.Slices ![1, 0] S1x100000
  slices_S3x8x128x128_S1x1x128x128_0_2_0_0 : S3x8x128x128.Slices ![0, 2, 0, 0] S1x1x128x128
  slices_S3x8x128_S1x1x128_0_2_0 : S3x8x128.Slices ![0, 2, 0] S1x1x128
  slices_S2x20000_S1x20000_0_0 : S2x20000.Slices ![0, 0] S1x20000
  shapeCasts_S1x20000_S20000 : S1x20000.ShapeCasts S20000
  bcast_S_S20000 : S_.BroadcastsInDim S20000 (![] : Fin 0 → Fin S20000.rank)
  bcast_S20000_S20000x1_0 : S20000.BroadcastsInDim S20000x1 (![0] : Fin 1 → Fin S20000x1.rank)
  slices_S2x20000_S1x20000_1_0 : S2x20000.Slices ![1, 0] S1x20000
  slices_S3x8x128x128_S1x1x128x128_0_4_0_0 : S3x8x128x128.Slices ![0, 4, 0, 0] S1x1x128x128
  slices_S3x8x128_S1x1x128_0_4_0 : S3x8x128.Slices ![0, 4, 0] S1x1x128
  slices_S2x50000_S1x50000_0_0 : S2x50000.Slices ![0, 0] S1x50000
  shapeCasts_S1x50000_S50000 : S1x50000.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S2x50000_S1x50000_1_0 : S2x50000.Slices ![1, 0] S1x50000
  slices_S3x8x128x128_S1x1x128x128_0_6_0_0 : S3x8x128x128.Slices ![0, 6, 0, 0] S1x1x128x128
  slices_S3x8x128_S1x1x128_0_6_0 : S3x8x128.Slices ![0, 6, 0] S1x1x128
  slices_S2x5000_S1x5000_0_0 : S2x5000.Slices ![0, 0] S1x5000
  shapeCasts_S1x5000_S5000 : S1x5000.ShapeCasts S5000
  bcast_S_S5000 : S_.BroadcastsInDim S5000 (![] : Fin 0 → Fin S5000.rank)
  bcast_S5000_S5000x1_0 : S5000.BroadcastsInDim S5000x1 (![0] : Fin 1 → Fin S5000x1.rank)
  slices_S2x5000_S1x5000_1_0 : S2x5000.Slices ![1, 0] S1x5000
  slices_S3x8x128x128_S1x1x128x128_0_3_0_0 : S3x8x128x128.Slices ![0, 3, 0, 0] S1x1x128x128
  slices_S3x8x128_S1x1x128_0_3_0 : S3x8x128.Slices ![0, 3, 0] S1x1x128
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  slices_S3x8x128x128_S1x1x128x128_0_5_0_0 : S3x8x128x128.Slices ![0, 5, 0, 0] S1x1x128x128
  slices_S3x8x128_S1x1x128_0_5_0 : S3x8x128.Slices ![0, 5, 0] S1x1x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S3x8x128x128_S1x1x128x128_0_7_0_0 : S3x8x128x128.Slices ![0, 7, 0, 0] S1x1x128x128
  slices_S3x8x128_S1x1x128_0_7_0 : S3x8x128.Slices ![0, 7, 0] S1x1x128
  bcast_S_S5000x128 : S_.BroadcastsInDim S5000x128 (![] : Fin 0 → Fin S5000x128.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  slices_S3x8x128x128_S1x1x128x128_1_0_0_0 : S3x8x128x128.Slices ![1, 0, 0, 0] S1x1x128x128
  slices_S3x8x128_S1x1x128_1_0_0 : S3x8x128.Slices ![1, 0, 0] S1x1x128
  slices_S3x8x128x128_S1x1x128x128_1_1_0_0 : S3x8x128x128.Slices ![1, 1, 0, 0] S1x1x128x128
  slices_S3x8x128_S1x1x128_1_1_0 : S3x8x128.Slices ![1, 1, 0] S1x1x128
  slices_S3x8x128x128_S1x1x128x128_1_2_0_0 : S3x8x128x128.Slices ![1, 2, 0, 0] S1x1x128x128
  slices_S3x8x128_S1x1x128_1_2_0 : S3x8x128.Slices ![1, 2, 0] S1x1x128
  slices_S3x8x128x128_S1x1x128x128_1_4_0_0 : S3x8x128x128.Slices ![1, 4, 0, 0] S1x1x128x128
  slices_S3x8x128_S1x1x128_1_4_0 : S3x8x128.Slices ![1, 4, 0] S1x1x128
  slices_S3x8x128x128_S1x1x128x128_1_6_0_0 : S3x8x128x128.Slices ![1, 6, 0, 0] S1x1x128x128
  slices_S3x8x128_S1x1x128_1_6_0 : S3x8x128.Slices ![1, 6, 0] S1x1x128
  slices_S3x8x128x128_S1x1x128x128_1_3_0_0 : S3x8x128x128.Slices ![1, 3, 0, 0] S1x1x128x128
  slices_S3x8x128_S1x1x128_1_3_0 : S3x8x128.Slices ![1, 3, 0] S1x1x128
  slices_S3x8x128x128_S1x1x128x128_1_5_0_0 : S3x8x128x128.Slices ![1, 5, 0, 0] S1x1x128x128
  slices_S3x8x128_S1x1x128_1_5_0 : S3x8x128.Slices ![1, 5, 0] S1x1x128
  slices_S3x8x128x128_S1x1x128x128_1_7_0_0 : S3x8x128x128.Slices ![1, 7, 0, 0] S1x1x128x128
  slices_S3x8x128_S1x1x128_1_7_0 : S3x8x128.Slices ![1, 7, 0] S1x1x128
  slices_S3x8x128x128_S1x1x128x128_2_0_0_0 : S3x8x128x128.Slices ![2, 0, 0, 0] S1x1x128x128
  slices_S3x8x128_S1x1x128_2_0_0 : S3x8x128.Slices ![2, 0, 0] S1x1x128
  slices_S3x8x128x128_S1x1x128x128_2_1_0_0 : S3x8x128x128.Slices ![2, 1, 0, 0] S1x1x128x128
  slices_S3x8x128_S1x1x128_2_1_0 : S3x8x128.Slices ![2, 1, 0] S1x1x128
  slices_S3x8x128x128_S1x1x128x128_2_2_0_0 : S3x8x128x128.Slices ![2, 2, 0, 0] S1x1x128x128
  slices_S3x8x128_S1x1x128_2_2_0 : S3x8x128.Slices ![2, 2, 0] S1x1x128
  slices_S3x8x128x128_S1x1x128x128_2_4_0_0 : S3x8x128x128.Slices ![2, 4, 0, 0] S1x1x128x128
  slices_S3x8x128_S1x1x128_2_4_0 : S3x8x128.Slices ![2, 4, 0] S1x1x128
  slices_S3x8x128x128_S1x1x128x128_2_6_0_0 : S3x8x128x128.Slices ![2, 6, 0, 0] S1x1x128x128
  slices_S3x8x128_S1x1x128_2_6_0 : S3x8x128.Slices ![2, 6, 0] S1x1x128
  slices_S3x8x128x128_S1x1x128x128_2_3_0_0 : S3x8x128x128.Slices ![2, 3, 0, 0] S1x1x128x128
  slices_S3x8x128_S1x1x128_2_3_0 : S3x8x128.Slices ![2, 3, 0] S1x1x128
  slices_S3x8x128x128_S1x1x128x128_2_5_0_0 : S3x8x128x128.Slices ![2, 5, 0, 0] S1x1x128x128
  slices_S3x8x128_S1x1x128_2_5_0 : S3x8x128.Slices ![2, 5, 0] S1x1x128
  slices_S3x8x128x128_S1x1x128x128_2_7_0_0 : S3x8x128x128.Slices ![2, 7, 0, 0] S1x1x128x128
  slices_S3x8x128_S1x1x128_2_7_0 : S3x8x128.Slices ![2, 7, 0] S1x1x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S1x2_S20000x2_0_1 : S1x2.BroadcastsInDim S20000x2 (![0, 1] : Fin 2 → Fin S20000x2.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S20000x128_S20000x1_S20000x128_1_0_n_n_0_1_1128_wf : GatherDims.WF S20000x128 S20000x1 S20000x128 [1] [0] [] [0] [] 1 ![1, 128]
  scatter_S100000x128_S20000x1_S20000x128_1_0_0_1_wf : ScatterDims.WF S100000x128 S20000x1 S20000x128 [1] [0] [0] 1
  scatter_S100000_S20000x1_S20000_n_0_0_1_wf : ScatterDims.WF S100000 S20000x1 S20000 [] [0] [0] 1
  gather_S50000x128_S50000x1_S50000x128_1_0_n_n_0_1_1128_wf : GatherDims.WF S50000x128 S50000x1 S50000x128 [1] [0] [] [0] [] 1 ![1, 128]
  scatter_S100000x128_S50000x1_S50000x128_1_0_0_1_wf : ScatterDims.WF S100000x128 S50000x1 S50000x128 [1] [0] [0] 1
  scatter_S100000_S50000x1_S50000_n_0_0_1_wf : ScatterDims.WF S100000 S50000x1 S50000 [] [0] [0] 1
  gather_S5000x128_S5000x1_S5000x128_1_0_n_n_0_1_1128_wf : GatherDims.WF S5000x128 S5000x1 S5000x128 [1] [0] [] [0] [] 1 ![1, 128]
  scatter_S100000x128_S5000x1_S5000x128_1_0_0_1_wf : ScatterDims.WF S100000x128 S5000x1 S5000x128 [1] [0] [0] 1
  scatter_S100000_S5000x1_S5000_n_0_0_1_wf : ScatterDims.WF S100000 S5000x1 S5000 [] [0] [0] 1
  gather_S100000x128_S20000x1_S20000x128_1_0_n_n_0_1_1128_wf : GatherDims.WF S100000x128 S20000x1 S20000x128 [1] [0] [] [0] [] 1 ![1, 128]
  scatter_S20000x128_S20000x1_S20000x128_1_0_0_1_wf : ScatterDims.WF S20000x128 S20000x1 S20000x128 [1] [0] [0] 1
  scatter_S20000_S20000x1_S20000_n_0_0_1_wf : ScatterDims.WF S20000 S20000x1 S20000 [] [0] [0] 1
  dot_S20000x128_S128x128_S20000x128_1_0_0_1_n_n_wf : DotDims.WF S20000x128 S128x128 S20000x128 [1] [0] [0] [1] [] []
  gather_S100000x128_S50000x1_S50000x128_1_0_n_n_0_1_1128_wf : GatherDims.WF S100000x128 S50000x1 S50000x128 [1] [0] [] [0] [] 1 ![1, 128]
  scatter_S50000x128_S50000x1_S50000x128_1_0_0_1_wf : ScatterDims.WF S50000x128 S50000x1 S50000x128 [1] [0] [0] 1
  scatter_S50000_S50000x1_S50000_n_0_0_1_wf : ScatterDims.WF S50000 S50000x1 S50000 [] [0] [0] 1
  dot_S50000x128_S128x128_S50000x128_1_0_0_1_n_n_wf : DotDims.WF S50000x128 S128x128 S50000x128 [1] [0] [0] [1] [] []
  gather_S100000x128_S5000x1_S5000x128_1_0_n_n_0_1_1128_wf : GatherDims.WF S100000x128 S5000x1 S5000x128 [1] [0] [] [0] [] 1 ![1, 128]
  scatter_S5000x128_S5000x1_S5000x128_1_0_0_1_wf : ScatterDims.WF S5000x128 S5000x1 S5000x128 [1] [0] [0] 1
  scatter_S5000_S5000x1_S5000_n_0_0_1_wf : ScatterDims.WF S5000 S5000x1 S5000 [] [0] [0] 1
  dot_S5000x128_S128x128_S5000x128_1_0_0_1_n_n_wf : DotDims.WF S5000x128 S128x128 S5000x128 [1] [0] [0] [1] [] []
  dot_S100000x128_S128x2_S100000x2_1_0_0_1_n_n_wf : DotDims.WF S100000x128 S128x2 S100000x2 [1] [0] [0] [1] [] []
  dot_S20000x128_S128x2_S20000x2_1_0_0_1_n_n_wf : DotDims.WF S20000x128 S128x2 S20000x2 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf
def scatter_S100000x128_S20000x1_S20000x128_1_0_0_1 : ScatterDims S100000x128 S20000x1 S20000x128 where
  updateWindowDims := [1]
  insertedWindowDims := [0]
  scatterDimsToOperandDims := [0]
  indexVectorDim := 1
  wf := scatter_S100000x128_S20000x1_S20000x128_1_0_0_1_wf
def scatter_S100000_S20000x1_S20000_n_0_0_1 : ScatterDims S100000 S20000x1 S20000 where
  updateWindowDims := []
  insertedWindowDims := [0]
  scatterDimsToOperandDims := [0]
  indexVectorDim := 1
  wf := scatter_S100000_S20000x1_S20000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def gather_S5000x128_S5000x1_S5000x128_1_0_n_n_0_1_1128 : GatherDims S5000x128 S5000x1 S5000x128 where
  offsetDims := [1]
  collapsedSliceDims := [0]
  operandBatchingDims := []
  startIndicesBatchingDims := []
  startIndexMap := [0]
  indexVectorDim := 1
  sliceSizes := ![1, 128]
  wf := gather_S5000x128_S5000x1_S5000x128_1_0_n_n_0_1_1128_wf
def scatter_S100000x128_S5000x1_S5000x128_1_0_0_1 : ScatterDims S100000x128 S5000x1 S5000x128 where
  updateWindowDims := [1]
  insertedWindowDims := [0]
  scatterDimsToOperandDims := [0]
  indexVectorDim := 1
  wf := scatter_S100000x128_S5000x1_S5000x128_1_0_0_1_wf
def scatter_S100000_S5000x1_S5000_n_0_0_1 : ScatterDims S100000 S5000x1 S5000 where
  updateWindowDims := []
  insertedWindowDims := [0]
  scatterDimsToOperandDims := [0]
  indexVectorDim := 1
  wf := scatter_S100000_S5000x1_S5000_n_0_0_1_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf
def scatter_S20000x128_S20000x1_S20000x128_1_0_0_1 : ScatterDims S20000x128 S20000x1 S20000x128 where
  updateWindowDims := [1]
  insertedWindowDims := [0]
  scatterDimsToOperandDims := [0]
  indexVectorDim := 1
  wf := scatter_S20000x128_S20000x1_S20000x128_1_0_0_1_wf
def scatter_S20000_S20000x1_S20000_n_0_0_1 : ScatterDims S20000 S20000x1 S20000 where
  updateWindowDims := []
  insertedWindowDims := [0]
  scatterDimsToOperandDims := [0]
  indexVectorDim := 1
  wf := scatter_S20000_S20000x1_S20000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def scatter_S50000x128_S50000x1_S50000x128_1_0_0_1 : ScatterDims S50000x128 S50000x1 S50000x128 where
  updateWindowDims := [1]
  insertedWindowDims := [0]
  scatterDimsToOperandDims := [0]
  indexVectorDim := 1
  wf := scatter_S50000x128_S50000x1_S50000x128_1_0_0_1_wf
def scatter_S50000_S50000x1_S50000_n_0_0_1 : ScatterDims S50000 S50000x1 S50000 where
  updateWindowDims := []
  insertedWindowDims := [0]
  scatterDimsToOperandDims := [0]
  indexVectorDim := 1
  wf := scatter_S50000_S50000x1_S50000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S5000x1_S5000x128_1_0_n_n_0_1_1128 : GatherDims S100000x128 S5000x1 S5000x128 where
  offsetDims := [1]
  collapsedSliceDims := [0]
  operandBatchingDims := []
  startIndicesBatchingDims := []
  startIndexMap := [0]
  indexVectorDim := 1
  sliceSizes := ![1, 128]
  wf := gather_S100000x128_S5000x1_S5000x128_1_0_n_n_0_1_1128_wf
def scatter_S5000x128_S5000x1_S5000x128_1_0_0_1 : ScatterDims S5000x128 S5000x1 S5000x128 where
  updateWindowDims := [1]
  insertedWindowDims := [0]
  scatterDimsToOperandDims := [0]
  indexVectorDim := 1
  wf := scatter_S5000x128_S5000x1_S5000x128_1_0_0_1_wf
def scatter_S5000_S5000x1_S5000_n_0_0_1 : ScatterDims S5000 S5000x1 S5000 where
  updateWindowDims := []
  insertedWindowDims := [0]
  scatterDimsToOperandDims := [0]
  indexVectorDim := 1
  wf := scatter_S5000_S5000x1_S5000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def dot_S20000x128_S128x2_S20000x2_1_0_0_1_n_n : DotDims S20000x128 S128x2 S20000x2 where
  lhsContracting := [1]
  rhsContracting := [0]
  lhsNonContracting := [0]
  rhsNonContracting := [1]
  lhsBatch := []
  rhsBatch := []
  wf := dot_S20000x128_S128x2_S20000x2_1_0_0_1_n_n_wf

class Facts : Prop extends Facts₀ where

variable [Facts]
-- ==== Proof.KB.D0.lean ====
/- Region 0 of @main (pipeline 0): the combine of five aggregates on 2000x128 row blocks. The windows' blocks at a
   point, the contents the body leaves in the output window's staging buffer, and the pipeline's proof data, all at
   a parameter `V`: the TensorCore's buffer contents when the region is entered. -/
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- a whole 2000x128 row block (each aggregate, the destination rows, the output) -/
noncomputable abbrev r0_s : Rect S2000x128 := Rect.unit (s := S2000x128) ![0, 0] S2000x128.size inb_S2000x128_S2000x128_0_0
/-- the whole 128x128 root weight -/
noncomputable abbrev r0_w : Rect S128x128 := Rect.unit (s := S128x128) ![0, 0] S128x128.size inb_S128x128_S128x128_0_0
/-- slice `j` of the stacked 5x128x128 neighbour weights -/
noncomputable abbrev r0_l0 : Rect S5x128x128 := Rect.unit (s := S5x128x128) ![0, 0, 0] S1x128x128.size inb_S5x128x128_S1x128x128_0_0_0
noncomputable abbrev r0_l1 : Rect S5x128x128 := Rect.unit (s := S5x128x128) ![1, 0, 0] S1x128x128.size inb_S5x128x128_S1x128x128_1_0_0
noncomputable abbrev r0_l2 : Rect S5x128x128 := Rect.unit (s := S5x128x128) ![2, 0, 0] S1x128x128.size inb_S5x128x128_S1x128x128_2_0_0
noncomputable abbrev r0_l3 : Rect S5x128x128 := Rect.unit (s := S5x128x128) ![3, 0, 0] S1x128x128.size inb_S5x128x128_S1x128x128_3_0_0
noncomputable abbrev r0_l4 : Rect S5x128x128 := Rect.unit (s := S5x128x128) ![4, 0, 0] S1x128x128.size inb_S5x128x128_S1x128x128_4_0_0
/-- the whole 1x128 bias row -/
noncomputable abbrev r0_b : Rect S1x128 := Rect.unit (s := S1x128) ![0, 0] S1x128.size inb_S1x128_S1x128_0_0

/-! ## What the body leaves in the output window's buffer -/

/-- Window 9's staging buffer after the body, from the input windows' blocks (aggregates `x0 … x4`, destination rows
    `x5`, stacked neighbour weights `x6`, root weight `x7`, bias `x8`): its one store as a piece. -/
noncomputable def out0 (x0 x1 x2 x3 x4 x5 : Vec F S2000x128 .f32) (x6 : Vec F S5x128x128 .f32) (x7 : Vec F S128x128 .f32)
    (x8 : Vec F S1x128 .f32) : Vec F S2000x128 .f32 :=
  View.canon [⟨r0_s, k0_pay1
    (k0_pay2 (View.ld x5 r0_s) (View.ld x7 r0_w) (View.ld x0 r0_s) (View.ld x6 r0_l0) (View.ld x1 r0_s) (View.ld x6 r0_l1)
      (View.ld x2 r0_s) (View.ld x6 r0_l2))
    (k0_pay3 (View.ld x3 r0_s))
    (View.ld x6 r0_l3) (View.ld x4 r0_s) (View.ld x6 r0_l4) (View.ld x8 r0_b)⟩]

/-- Its store tiles the buffer (checked by evaluation), so it covers it. -/
theorem cover0 (p0 : Vec F S2000x128 .f32) (y : S2000x128.Idx) :
    ∃ pc ∈ ([⟨r0_s, p0⟩] : List (View.Piece (Elt F) S2000x128 .f32)), y ∈ pc.1.set :=
  View.cover_of_tiled [⟨r0_s, p0⟩] S2000x128.size (by rfl) y

/-! ## The pipeline's proof data -/

/-- The proof data of pipeline 0 on core `c`: the arrays as the region finds them (`V`); after the body at point
    `t` each input's buffer at its block and the output's at `out0` of the input blocks; the invariant the scoped
    rest and the generator register, untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0 (iblk0 V c 0 t) (iblk0 V c 1 t) (iblk0 V c 2 t) (iblk0 V c 3 t) (iblk0 V c 4 t) (iblk0 V c 5 t)
        (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t =
    out0 (iblk0 V c 0 t) (iblk0 V c 1 t) (iblk0 V c 2 t) (iblk0 V c 3 t) (iblk0 V c 4 t) (iblk0 V c 5 t)
      (iblk0 V c 6 t) (iblk0 V c 7 t) (iblk0 V c 8 t) := by dsimp only [dat0]

end Cert.Kernel.Hand

end
-- ==== Proof.KB.D1.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the combine kernel with one aggregate (pipeline 1), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store take a whole staging buffer

The rectangles occur in statements only; nothing is evaluated with them (`noncomputable`). -/

noncomputable abbrev r1_0 : Rect S2000x128 := Rect.unit (s := S2000x128) ![0, 0] S2000x128.size inb_S2000x128_S2000x128_0_0
noncomputable abbrev r1_1 : Rect S128x128 := Rect.unit (s := S128x128) ![0, 0] S128x128.size inb_S128x128_S128x128_0_0
noncomputable abbrev r1_2 : Rect S1x128x128 := Rect.unit (s := S1x128x128) ![0, 0, 0] S1x128x128.size inb_S1x128x128_S1x128x128_0_0_0
noncomputable abbrev r1_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out1 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r1_0, k1_pay1 (View.ld x1 r1_0) (View.ld x3 r1_1) (View.ld x0 r1_0) (View.ld x2 r1_2) (View.ld x4 r1_3)⟩]

/-- The one store takes the whole buffer (checked by evaluation), so it covers it. -/
theorem cover1 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The pipeline's proof data -/

/-- The proof data of pipeline 1 on core `c`: the arrays as the region finds them (`V`); after the body at point
    `t` each input's buffer at its block and the output's at `out1` of the input blocks; the invariant is the scoped
    rest and the generator register, untouched; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1 (iblk1 V c 0 t) (iblk1 V c 1 t) (iblk1 V c 2 t) (iblk1 V c 3 t) (iblk1 V c 4 t) := by dsimp only [dat1]

end Cert.Kernel.Hand
-- ==== Proof.KB.D2.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: the combine kernel with one aggregate (pipeline 2), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a whole staging buffer

The rectangles occur in statements only; nothing is evaluated with them (`noncomputable`). -/

noncomputable abbrev r2_0 : Rect S2000x128 := Rect.unit (s := S2000x128) ![0, 0] S2000x128.size inb_S2000x128_S2000x128_0_0
noncomputable abbrev r2_1 : Rect S128x128 := Rect.unit (s := S128x128) ![0, 0] S128x128.size inb_S128x128_S128x128_0_0
noncomputable abbrev r2_2 : Rect S1x128x128 := Rect.unit (s := S1x128x128) ![0, 0, 0] S1x128x128.size inb_S1x128x128_S1x128x128_0_0_0
noncomputable abbrev r2_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out2 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r2_0, k2_pay1 (View.ld x1 r2_0) (View.ld x3 r2_1) (View.ld x0 r2_0) (View.ld x2 r2_2) (View.ld x4 r2_3)⟩]

/-- The one store takes the whole buffer (checked by evaluation), so it covers it. -/
theorem cover2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The pipeline's proof data -/

/-- The proof data of pipeline 2 on core `c`: the arrays as the region finds them (`V`); after the body at point
    `t` each input's buffer at its block and the output's at `out2` of the input blocks; the invariant is the scoped
    rest and the generator register, untouched; nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2 (iblk2 V c 0 t) (iblk2 V c 1 t) (iblk2 V c 2 t) (iblk2 V c 3 t) (iblk2 V c 4 t) := by dsimp only [dat2]

end Cert.Kernel.Hand
-- ==== Proof.KB.D3.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: the combine kernel with one aggregate (pipeline 3), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the one store take a whole staging buffer

The rectangles occur in statements only; nothing is evaluated with them (`noncomputable`). -/

noncomputable abbrev r3_0 : Rect S5000x128 := Rect.unit (s := S5000x128) ![0, 0] S5000x128.size inb_S5000x128_S5000x128_0_0
noncomputable abbrev r3_1 : Rect S128x128 := Rect.unit (s := S128x128) ![0, 0] S128x128.size inb_S128x128_S128x128_0_0
noncomputable abbrev r3_2 : Rect S1x128x128 := Rect.unit (s := S1x128x128) ![0, 0, 0] S1x128x128.size inb_S1x128x128_S1x128x128_0_0_0
noncomputable abbrev r3_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out3 (x0 : Vec F S5000x128 .f32) (x1 : Vec F S5000x128 .f32) (x2 : Vec F S1x128x128 .f32) (x3 : Vec F S128x128 .f32)
    (x4 : Vec F S1x128 .f32) : Vec F S5000x128 .f32 :=
  View.canon [⟨r3_0, k3_pay1 (View.ld x1 r3_0) (View.ld x3 r3_1) (View.ld x0 r3_0) (View.ld x2 r3_2) (View.ld x4 r3_3)⟩]

/-- The one store takes the whole buffer (checked by evaluation), so it covers it. -/
theorem cover3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The pipeline's proof data -/

/-- The proof data of pipeline 3 on core `c`: the arrays as the region finds them (`V`); after the body at point
    `t` each input's buffer at its block and the output's at `out3` of the input blocks; the invariant is the scoped
    rest and the generator register, untouched; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3 (iblk3 V c 0 t) (iblk3 V c 1 t) (iblk3 V c 2 t) (iblk3 V c 3 t) (iblk3 V c 4 t) := by dsimp only [dat3]

end Cert.Kernel.Hand
-- ==== Proof.KB.D4.lean ====
/- Region 4 of @main (pipeline 4): the combine of five aggregates on 2000x128 row blocks. The windows' blocks at a
   point, the contents the body leaves in the output window's staging buffer, and the pipeline's proof data, all at
   a parameter `V`: the TensorCore's buffer contents when the region is entered. -/
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses -/

/-- a whole 2000x128 row block (each aggregate, the destination rows, the output) -/
noncomputable abbrev r4_s : Rect S2000x128 := Rect.unit (s := S2000x128) ![0, 0] S2000x128.size inb_S2000x128_S2000x128_0_0
/-- the whole 128x128 root weight -/
noncomputable abbrev r4_w : Rect S128x128 := Rect.unit (s := S128x128) ![0, 0] S128x128.size inb_S128x128_S128x128_0_0
/-- slice `j` of the stacked 5x128x128 neighbour weights -/
noncomputable abbrev r4_l0 : Rect S5x128x128 := Rect.unit (s := S5x128x128) ![0, 0, 0] S1x128x128.size inb_S5x128x128_S1x128x128_0_0_0
noncomputable abbrev r4_l1 : Rect S5x128x128 := Rect.unit (s := S5x128x128) ![1, 0, 0] S1x128x128.size inb_S5x128x128_S1x128x128_1_0_0
noncomputable abbrev r4_l2 : Rect S5x128x128 := Rect.unit (s := S5x128x128) ![2, 0, 0] S1x128x128.size inb_S5x128x128_S1x128x128_2_0_0
noncomputable abbrev r4_l3 : Rect S5x128x128 := Rect.unit (s := S5x128x128) ![3, 0, 0] S1x128x128.size inb_S5x128x128_S1x128x128_3_0_0
noncomputable abbrev r4_l4 : Rect S5x128x128 := Rect.unit (s := S5x128x128) ![4, 0, 0] S1x128x128.size inb_S5x128x128_S1x128x128_4_0_0
/-- the whole 1x128 bias row -/
noncomputable abbrev r4_b : Rect S1x128 := Rect.unit (s := S1x128) ![0, 0] S1x128.size inb_S1x128_S1x128_0_0

/-! ## What the body leaves in the output window's buffer -/

/-- Window 9's staging buffer after the body, from the input windows' blocks (aggregates `x0 … x4`, destination rows
    `x5`, stacked neighbour weights `x6`, root weight `x7`, bias `x8`): its one store as a piece. -/
noncomputable def out4 (x0 x1 x2 x3 x4 x5 : Vec F S2000x128 .f32) (x6 : Vec F S5x128x128 .f32) (x7 : Vec F S128x128 .f32)
    (x8 : Vec F S1x128 .f32) : Vec F S2000x128 .f32 :=
  View.canon [⟨r4_s, k4_pay1
    (k4_pay2 (View.ld x5 r4_s) (View.ld x7 r4_w) (View.ld x0 r4_s) (View.ld x6 r4_l0) (View.ld x1 r4_s) (View.ld x6 r4_l1)
      (View.ld x2 r4_s) (View.ld x6 r4_l2))
    (k4_pay3 (View.ld x3 r4_s))
    (View.ld x6 r4_l3) (View.ld x4 r4_s) (View.ld x6 r4_l4) (View.ld x8 r4_b)⟩]

/-- Its store tiles the buffer (checked by evaluation), so it covers it. -/
theorem cover4 (p0 : Vec F S2000x128 .f32) (y : S2000x128.Idx) :
    ∃ pc ∈ ([⟨r4_s, p0⟩] : List (View.Piece (Elt F) S2000x128 .f32)), y ∈ pc.1.set :=
  View.cover_of_tiled [⟨r4_s, p0⟩] S2000x128.size (by rfl) y

/-! ## The pipeline's proof data -/

/-- The proof data of pipeline 4 on core `c`: the arrays as the region finds them (`V`); after the body at point
    `t` each input's buffer at its block and the output's at `out4` of the input blocks; the invariant the scoped
    rest and the generator register, untouched; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4 (iblk4 V c 0 t) (iblk4 V c 1 t) (iblk4 V c 2 t) (iblk4 V c 3 t) (iblk4 V c 4 t) (iblk4 V c 5 t)
        (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t =
    out4 (iblk4 V c 0 t) (iblk4 V c 1 t) (iblk4 V c 2 t) (iblk4 V c 3 t) (iblk4 V c 4 t) (iblk4 V c 5 t)
      (iblk4 V c 6 t) (iblk4 V c 7 t) (iblk4 V c 8 t) := by dsimp only [dat4]

end Cert.Kernel.Hand

end
-- ==== Proof.KB.D5.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: the combine kernel with one aggregate (pipeline 5), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: every load and the one store take a whole staging buffer

The rectangles occur in statements only; nothing is evaluated with them (`noncomputable`). -/

noncomputable abbrev r5_0 : Rect S2000x128 := Rect.unit (s := S2000x128) ![0, 0] S2000x128.size inb_S2000x128_S2000x128_0_0
noncomputable abbrev r5_1 : Rect S128x128 := Rect.unit (s := S128x128) ![0, 0] S128x128.size inb_S128x128_S128x128_0_0
noncomputable abbrev r5_2 : Rect S1x128x128 := Rect.unit (s := S1x128x128) ![0, 0, 0] S1x128x128.size inb_S1x128x128_S1x128x128_0_0_0
noncomputable abbrev r5_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out5 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r5_0, k5_pay1 (View.ld x1 r5_0) (View.ld x3 r5_1) (View.ld x0 r5_0) (View.ld x2 r5_2) (View.ld x4 r5_3)⟩]

/-- The one store takes the whole buffer (checked by evaluation), so it covers it. -/
theorem cover5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The pipeline's proof data -/

/-- The proof data of pipeline 5 on core `c`: the arrays as the region finds them (`V`); after the body at point
    `t` each input's buffer at its block and the output's at `out5` of the input blocks; the invariant is the scoped
    rest and the generator register, untouched; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5 (iblk5 V c 0 t) (iblk5 V c 1 t) (iblk5 V c 2 t) (iblk5 V c 3 t) (iblk5 V c 4 t) := by dsimp only [dat5]

end Cert.Kernel.Hand
-- ==== Proof.KB.D6.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6 of @main: the combine kernel with one aggregate (pipeline 6), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: every load and the one store take a whole staging buffer

The rectangles occur in statements only; nothing is evaluated with them (`noncomputable`). -/

noncomputable abbrev r6_0 : Rect S2000x128 := Rect.unit (s := S2000x128) ![0, 0] S2000x128.size inb_S2000x128_S2000x128_0_0
noncomputable abbrev r6_1 : Rect S128x128 := Rect.unit (s := S128x128) ![0, 0] S128x128.size inb_S128x128_S128x128_0_0
noncomputable abbrev r6_2 : Rect S1x128x128 := Rect.unit (s := S1x128x128) ![0, 0, 0] S1x128x128.size inb_S1x128x128_S1x128x128_0_0_0
noncomputable abbrev r6_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out6 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r6_0, k6_pay1 (View.ld x1 r6_0) (View.ld x3 r6_1) (View.ld x0 r6_0) (View.ld x2 r6_2) (View.ld x4 r6_3)⟩]

/-- The one store takes the whole buffer (checked by evaluation), so it covers it. -/
theorem cover6 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The pipeline's proof data -/

/-- The proof data of pipeline 6 on core `c`: the arrays as the region finds them (`V`); after the body at point
    `t` each input's buffer at its block and the output's at `out6` of the input blocks; the invariant is the scoped
    rest and the generator register, untouched; nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t =
    out6 (iblk6 V c 0 t) (iblk6 V c 1 t) (iblk6 V c 2 t) (iblk6 V c 3 t) (iblk6 V c 4 t) := by dsimp only [dat6]

end Cert.Kernel.Hand
-- ==== Proof.KB.D7.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7 of @main: the combine kernel with one aggregate (pipeline 7), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: every load and the one store take a whole staging buffer

The rectangles occur in statements only; nothing is evaluated with them (`noncomputable`). -/

noncomputable abbrev r7_0 : Rect S5000x128 := Rect.unit (s := S5000x128) ![0, 0] S5000x128.size inb_S5000x128_S5000x128_0_0
noncomputable abbrev r7_1 : Rect S128x128 := Rect.unit (s := S128x128) ![0, 0] S128x128.size inb_S128x128_S128x128_0_0
noncomputable abbrev r7_2 : Rect S1x128x128 := Rect.unit (s := S1x128x128) ![0, 0, 0] S1x128x128.size inb_S1x128x128_S1x128x128_0_0_0
noncomputable abbrev r7_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out7 (x0 : Vec F S5000x128 .f32) (x1 : Vec F S5000x128 .f32) (x2 : Vec F S1x128x128 .f32) (x3 : Vec F S128x128 .f32)
    (x4 : Vec F S1x128 .f32) : Vec F S5000x128 .f32 :=
  View.canon [⟨r7_0, k7_pay1 (View.ld x1 r7_0) (View.ld x3 r7_1) (View.ld x0 r7_0) (View.ld x2 r7_2) (View.ld x4 r7_3)⟩]

/-- The one store takes the whole buffer (checked by evaluation), so it covers it. -/
theorem cover7 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The pipeline's proof data -/

/-- The proof data of pipeline 7 on core `c`: the arrays as the region finds them (`V`); after the body at point
    `t` each input's buffer at its block and the output's at `out7` of the input blocks; the invariant is the scoped
    rest and the generator register, untouched; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t =
    out7 (iblk7 V c 0 t) (iblk7 V c 1 t) (iblk7 V c 2 t) (iblk7 V c 3 t) (iblk7 V c 4 t) := by dsimp only [dat7]

end Cert.Kernel.Hand
-- ==== Proof.KB.D8.lean ====
/- Region 8 of @main (pipeline 8): the combine of five aggregates on 2000x128 row blocks. The windows' blocks at a
   point, the contents the body leaves in the output window's staging buffer, and the pipeline's proof data, all at
   a parameter `V`: the TensorCore's buffer contents when the region is entered. -/
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses -/

/-- a whole 2000x128 row block (each aggregate, the destination rows, the output) -/
noncomputable abbrev r8_s : Rect S2000x128 := Rect.unit (s := S2000x128) ![0, 0] S2000x128.size inb_S2000x128_S2000x128_0_0
/-- the whole 128x128 root weight -/
noncomputable abbrev r8_w : Rect S128x128 := Rect.unit (s := S128x128) ![0, 0] S128x128.size inb_S128x128_S128x128_0_0
/-- slice `j` of the stacked 5x128x128 neighbour weights -/
noncomputable abbrev r8_l0 : Rect S5x128x128 := Rect.unit (s := S5x128x128) ![0, 0, 0] S1x128x128.size inb_S5x128x128_S1x128x128_0_0_0
noncomputable abbrev r8_l1 : Rect S5x128x128 := Rect.unit (s := S5x128x128) ![1, 0, 0] S1x128x128.size inb_S5x128x128_S1x128x128_1_0_0
noncomputable abbrev r8_l2 : Rect S5x128x128 := Rect.unit (s := S5x128x128) ![2, 0, 0] S1x128x128.size inb_S5x128x128_S1x128x128_2_0_0
noncomputable abbrev r8_l3 : Rect S5x128x128 := Rect.unit (s := S5x128x128) ![3, 0, 0] S1x128x128.size inb_S5x128x128_S1x128x128_3_0_0
noncomputable abbrev r8_l4 : Rect S5x128x128 := Rect.unit (s := S5x128x128) ![4, 0, 0] S1x128x128.size inb_S5x128x128_S1x128x128_4_0_0
/-- the whole 1x128 bias row -/
noncomputable abbrev r8_b : Rect S1x128 := Rect.unit (s := S1x128) ![0, 0] S1x128.size inb_S1x128_S1x128_0_0

/-! ## What the body leaves in the output window's buffer -/

/-- Window 9's staging buffer after the body, from the input windows' blocks (aggregates `x0 … x4`, destination rows
    `x5`, stacked neighbour weights `x6`, root weight `x7`, bias `x8`): its one store as a piece. -/
noncomputable def out8 (x0 x1 x2 x3 x4 x5 : Vec F S2000x128 .f32) (x6 : Vec F S5x128x128 .f32) (x7 : Vec F S128x128 .f32)
    (x8 : Vec F S1x128 .f32) : Vec F S2000x128 .f32 :=
  View.canon [⟨r8_s, k8_pay1
    (k8_pay2 (View.ld x5 r8_s) (View.ld x7 r8_w) (View.ld x0 r8_s) (View.ld x6 r8_l0) (View.ld x1 r8_s) (View.ld x6 r8_l1)
      (View.ld x2 r8_s) (View.ld x6 r8_l2))
    (k8_pay3 (View.ld x3 r8_s))
    (View.ld x6 r8_l3) (View.ld x4 r8_s) (View.ld x6 r8_l4) (View.ld x8 r8_b)⟩]

/-- Its store tiles the buffer (checked by evaluation), so it covers it. -/
theorem cover8 (p0 : Vec F S2000x128 .f32) (y : S2000x128.Idx) :
    ∃ pc ∈ ([⟨r8_s, p0⟩] : List (View.Piece (Elt F) S2000x128 .f32)), y ∈ pc.1.set :=
  View.cover_of_tiled [⟨r8_s, p0⟩] S2000x128.size (by rfl) y

/-! ## The pipeline's proof data -/

/-- The proof data of pipeline 8 on core `c`: the arrays as the region finds them (`V`); after the body at point
    `t` each input's buffer at its block and the output's at `out8` of the input blocks; the invariant the scoped
    rest and the generator register, untouched; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8 (iblk8 V c 0 t) (iblk8 V c 1 t) (iblk8 V c 2 t) (iblk8 V c 3 t) (iblk8 V c 4 t) (iblk8 V c 5 t)
        (iblk8 V c 6 t) (iblk8 V c 7 t) (iblk8 V c 8 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t =
    out8 (iblk8 V c 0 t) (iblk8 V c 1 t) (iblk8 V c 2 t) (iblk8 V c 3 t) (iblk8 V c 4 t) (iblk8 V c 5 t)
      (iblk8 V c 6 t) (iblk8 V c 7 t) (iblk8 V c 8 t) := by dsimp only [dat8]

end Cert.Kernel.Hand

end
-- ==== Proof.KB.D9.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: the combine kernel with one aggregate (pipeline 9), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses: every load and the one store take a whole staging buffer

The rectangles occur in statements only; nothing is evaluated with them (`noncomputable`). -/

noncomputable abbrev r9_0 : Rect S2000x128 := Rect.unit (s := S2000x128) ![0, 0] S2000x128.size inb_S2000x128_S2000x128_0_0
noncomputable abbrev r9_1 : Rect S128x128 := Rect.unit (s := S128x128) ![0, 0] S128x128.size inb_S128x128_S128x128_0_0
noncomputable abbrev r9_2 : Rect S1x128x128 := Rect.unit (s := S1x128x128) ![0, 0, 0] S1x128x128.size inb_S1x128x128_S1x128x128_0_0_0
noncomputable abbrev r9_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out9 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r9_0, k9_pay1 (View.ld x1 r9_0) (View.ld x3 r9_1) (View.ld x0 r9_0) (View.ld x2 r9_2) (View.ld x4 r9_3)⟩]

/-- The one store takes the whole buffer (checked by evaluation), so it covers it. -/
theorem cover9 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The pipeline's proof data -/

/-- The proof data of pipeline 9 on core `c`: the arrays as the region finds them (`V`); after the body at point
    `t` each input's buffer at its block and the output's at `out9` of the input blocks; the invariant is the scoped
    rest and the generator register, untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t =
    out9 (iblk9 V c 0 t) (iblk9 V c 1 t) (iblk9 V c 2 t) (iblk9 V c 3 t) (iblk9 V c 4 t) := by dsimp only [dat9]

end Cert.Kernel.Hand
-- ==== Proof.KB.D10.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: the combine kernel with one aggregate (pipeline 10), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The body's accesses: every load and the one store take a whole staging buffer

The rectangles occur in statements only; nothing is evaluated with them (`noncomputable`). -/

noncomputable abbrev r10_0 : Rect S2000x128 := Rect.unit (s := S2000x128) ![0, 0] S2000x128.size inb_S2000x128_S2000x128_0_0
noncomputable abbrev r10_1 : Rect S128x128 := Rect.unit (s := S128x128) ![0, 0] S128x128.size inb_S128x128_S128x128_0_0
noncomputable abbrev r10_2 : Rect S1x128x128 := Rect.unit (s := S1x128x128) ![0, 0, 0] S1x128x128.size inb_S1x128x128_S1x128x128_0_0_0
noncomputable abbrev r10_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out10 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r10_0, k10_pay1 (View.ld x1 r10_0) (View.ld x3 r10_1) (View.ld x0 r10_0) (View.ld x2 r10_2) (View.ld x4 r10_3)⟩]

/-- The one store takes the whole buffer (checked by evaluation), so it covers it. -/
theorem cover10 (p0 : Vec F S2000x128 .f32) (y : S2000x128.Idx) :
    ∃ pc ∈ ([⟨r10_0, p0⟩] : List (View.Piece (Elt F) S2000x128 .f32)), y ∈ pc.1.set :=
  View.cover_of_tiled [⟨r10_0, p0⟩] S2000x128.size (by rfl) y

/-! ## The pipeline's proof data -/

/-- The proof data of pipeline 10 on core `c`: the arrays as the region finds them (`V`); after the body at point
    `t` each input's buffer at its block and the output's at `out10` of the input blocks; the invariant is the scoped
    rest and the generator register, untouched; nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t =
    out10 (iblk10 V c 0 t) (iblk10 V c 1 t) (iblk10 V c 2 t) (iblk10 V c 3 t) (iblk10 V c 4 t) := by dsimp only [dat10]

end Cert.Kernel.Hand
-- ==== Proof.KB.D11.lean ====
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11 of @main: the combine kernel with one aggregate (pipeline 11), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's accesses: every load and the one store take a whole staging buffer

The rectangles occur in statements only; nothing is evaluated with them (`noncomputable`). -/

noncomputable abbrev r11_0 : Rect S5000x128 := Rect.unit (s := S5000x128) ![0, 0] S5000x128.size inb_S5000x128_S5000x128_0_0
noncomputable abbrev r11_1 : Rect S128x128 := Rect.unit (s := S128x128) ![0, 0] S128x128.size inb_S128x128_S128x128_0_0
noncomputable abbrev r11_2 : Rect S1x128x128 := Rect.unit (s := S1x128x128) ![0, 0, 0] S1x128x128.size inb_S1x128x128_S1x128x128_0_0_0
noncomputable abbrev r11_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out11 (x0 : Vec F S5000x128 .f32) (x1 : Vec F S5000x128 .f32) (x2 : Vec F S1x128x128 .f32) (x3 : Vec F S128x128 .f32)
    (x4 : Vec F S1x128 .f32) : Vec F S5000x128 .f32 :=
  View.canon [⟨r11_0, k11_pay1 (View.ld x1 r11_0) (View.ld x3 r11_1) (View.ld x0 r11_0) (View.ld x2 r11_2) (View.ld x4 r11_3)⟩]

/-- The one store takes the whole buffer (checked by evaluation), so it covers it. -/
theorem cover11 (p0 : Vec F S5000x128 .f32) (y : S5000x128.Idx) :
    ∃ pc ∈ ([⟨r11_0, p0⟩] : List (View.Piece (Elt F) S5000x128 .f32)), y ∈ pc.1.set :=
  View.cover_of_tiled [⟨r11_0, p0⟩] S5000x128.size (by rfl) y

/-! ## The pipeline's proof data -/

/-- The proof data of pipeline 11 on core `c`: the arrays as the region finds them (`V`); after the body at point
    `t` each input's buffer at its block and the output's at `out11` of the input blocks; the invariant is the scoped
    rest and the generator register, untouched; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t =
    out11 (iblk11 V c 0 t) (iblk11 V c 1 t) (iblk11 V c 2 t) (iblk11 V c 3 t) (iblk11 V c 4 t) := by dsimp only [dat11]

end Cert.Kernel.Hand
-- ==== Proof.KB.D12.lean ====
/- Region 12 of @main (custom_call 12, `cc12__mlp_head_kernel`, pipeline 12): the definitions of its half, at a
   PARAMETER `V` — the TensorCore's buffer contents when the region is entered. Each window's block at a point
   (`iblk12`), the rectangles the body loads and stores through, the output window's staging buffer after the body
   (`out12`: its one store as a piece, the payload the skeleton's over the loads of the five input blocks), the
   store's cover of the buffer (`cover12`), and the pipeline's proof data (`dat12`) with its projections. -/
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents (`View.cover_of_tiled`): the elaborator's structural look
-- recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses -/

/-- The whole of the row block `x` (window 0). -/
noncomputable abbrev r12_0 : Rect S2000x128 := Rect.unit (s := S2000x128) ![0, 0] S2000x128.size inb_S2000x128_S2000x128_0_0
/-- The whole of the first layer's weights (window 1). -/
noncomputable abbrev r12_1 : Rect S128x128 := Rect.unit (s := S128x128) ![0, 0] S128x128.size inb_S128x128_S128x128_0_0
/-- The whole of the first layer's bias (window 2). -/
noncomputable abbrev r12_2 : Rect S1x128 := Rect.unit (s := S1x128) ![0, 0] S1x128.size inb_S1x128_S1x128_0_0
/-- The whole of the second layer's weights (window 3). -/
noncomputable abbrev r12_3 : Rect S128x2 := Rect.unit (s := S128x2) ![0, 0] S128x2.size inb_S128x2_S128x2_0_0
/-- The whole of the second layer's bias (window 4). -/
noncomputable abbrev r12_4 : Rect S1x2 := Rect.unit (s := S1x2) ![0, 0] S1x2.size inb_S1x2_S1x2_0_0
/-- The whole of the output block (window 5): the body's one store. -/
noncomputable abbrev r12_5 : Rect S2000x2 := Rect.unit (s := S2000x2) ![0, 0] S2000x2.size inb_S2000x2_S2000x2_0_0

/-! ## What the body leaves in the output window's buffer -/

/-- Window 5's staging buffer after the body, from the input windows' blocks: its one store as a piece
    (Lib/Pipeline/FrameBody.lean `View.canon`), the payload the skeleton's, its arguments the five loads in the
    skeleton's order, each through its rectangle. -/
noncomputable def out12 (x0 : Vec F S2000x128 .f32) (x1 : Vec F S128x128 .f32) (x2 : Vec F S1x128 .f32) (x3 : Vec F S128x2 .f32)
    (x4 : Vec F S1x2 .f32) : Vec F S2000x2 .f32 :=
  View.canon [⟨r12_5, k12_pay1 (View.ld x0 r12_0) (View.ld x1 r12_1) (View.ld x2 r12_2) (View.ld x3 r12_3) (View.ld x4 r12_4)⟩]

/-- The store tiles the buffer (checked by evaluation), so it covers it. -/
theorem cover12 (p0 : Vec F S2000x2 .f32) (y : S2000x2.Idx) :
    ∃ pc ∈ ([⟨r12_5, p0⟩] : List (View.Piece (Elt F) S2000x2 .f32)), y ∈ pc.1.set :=
  View.cover_of_tiled [⟨r12_5, p0⟩] S2000x2.size (by rfl) y

/-! ## The pipeline's proof data -/

/-- The proof data of pipeline 12 on core `c`: the arrays as the region finds them (`V`); after the body at
    point `t` each input's buffer at its block and the output's at `out12` of the input blocks; the invariant the
    class's (Lib/Pipeline/Frame.lean `ΦA`: the scoped rest and the generator register, untouched); nothing owed;
    full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents (the proof data's definition projected, by `dsimp`). -/
theorem A_eq12 (c : Dev nD) (w : Fin cfg12.W) : (dat12 V c).A w = V c (Pipeline.arrRef spec12 w) := by
  dsimp only [dat12]

/-- What the body leaves, window by window (the proof data's `match` reduced by `dsimp`, never `rfl`). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t =
    out12 (iblk12 V c 0 t) (iblk12 V c 1 t) (iblk12 V c 2 t) (iblk12 V c 3 t) (iblk12 V c 4 t) := by dsimp only [dat12]

end Regions

end Cert.Kernel.Hand

end
-- ==== Proof.KB.D13.lean ====
/- Region 13 of @main (custom_call 13, `cc13__mlp_head_kernel`, pipeline 13): the definitions of its half, at a
   PARAMETER `V` — the TensorCore's buffer contents when the region is entered. Each window's block at a point
   (`iblk13`), the rectangles the body loads and stores through, the output window's staging buffer after the body
   (`out13`: its one store as a piece, the payload the skeleton's over the loads of the five input blocks), the
   store's cover of the buffer (`cover13`), and the pipeline's proof data (`dat13`) with its projections. -/
import proofs.«125545_j64845416235624_1_alg».proof.Proof.Gen.Kernel.Launch
import proofs.«125545_j64845416235624_1_alg».proof.Proof.Gen.Kernel.Skeleton
import proofs.«125545_j64845416235624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents (`View.cover_of_tiled`): the elaborator's structural look
-- recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The body's accesses -/

/-- The whole of the row block `x` (window 0). -/
noncomputable abbrev r13_0 : Rect S2000x128 := Rect.unit (s := S2000x128) ![0, 0] S2000x128.size inb_S2000x128_S2000x128_0_0
/-- The whole of the first layer's weights (window 1). -/
noncomputable abbrev r13_1 : Rect S128x128 := Rect.unit (s := S128x128) ![0, 0] S128x128.size inb_S128x128_S128x128_0_0
/-- The whole of the first layer's bias (window 2). -/
noncomputable abbrev r13_2 : Rect S1x128 := Rect.unit (s := S1x128) ![0, 0] S1x128.size inb_S1x128_S1x128_0_0
/-- The whole of the second layer's weights (window 3). -/
noncomputable abbrev r13_3 : Rect S128x2 := Rect.unit (s := S128x2) ![0, 0] S128x2.size inb_S128x2_S128x2_0_0
/-- The whole of the second layer's bias (window 4). -/
noncomputable abbrev r13_4 : Rect S1x2 := Rect.unit (s := S1x2) ![0, 0] S1x2.size inb_S1x2_S1x2_0_0
/-- The whole of the output block (window 5): the body's one store. -/
noncomputable abbrev r13_5 : Rect S2000x2 := Rect.unit (s := S2000x2) ![0, 0] S2000x2.size inb_S2000x2_S2000x2_0_0

/-! ## What the body leaves in the output window's buffer -/

/-- Window 5's staging buffer after the body, from the input windows' blocks: its one store as a piece
    (Lib/Pipeline/FrameBody.lean `View.canon`), the payload the skeleton's, its arguments the five loads in the
    skeleton's order, each through its rectangle. -/
noncomputable def out13 (x0 : Vec F S2000x128 .f32) (x1 : Vec F S128x128 .f32) (x2 : Vec F S1x128 .f32) (x3 : Vec F S128x2 .f32)
    (x4 : Vec F S1x2 .f32) : Vec F S2000x2 .f32 :=
  View.canon [⟨r13_5, k13_pay1 (View.ld x0 r13_0) (View.ld x1 r13_1) (View.ld x2 r13_2) (View.ld x3 r13_3) (View.ld x4 r13_4)⟩]

/-- The store tiles the buffer (checked by evaluation), so it covers it. -/
theorem cover13 (p0 : Vec F S2000x2 .f32) (y : S2000x2.Idx) :
    ∃ pc ∈ ([⟨r13_5, p0⟩] : List (View.Piece (Elt F) S2000x2 .f32)), y ∈ pc.1.set :=
  View.cover_of_tiled [⟨r13_5, p0⟩] S2000x2.size (by rfl) y

/-! ## The pipeline's proof data -/

/-- The proof data of pipeline 13 on core `c`: the arrays as the region finds them (`V`); after the body at
    point `t` each input's buffer at its block and the output's at `out13` of the input blocks; the invariant the
    class's (Lib/Pipeline/Frame.lean `ΦA`: the scoped rest and the generator register, untouched); nothing owed;
    full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13 (iblk13 V c 0 t) (iblk13 V c 1 t) (iblk13 V c 2 t) (iblk13 V c 3 t) (iblk13 V c 4 t)
  Φ _ := Pipeline.ΦA spec13 c
  q _ := fullShare
  owed _ := 0

/-- The proof data's arrays are the region-entry contents (the proof data's definition projected, by `dsimp`). -/
theorem A_eq13 (c : Dev nD) (w : Fin cfg13.W) : (dat13 V c).A w = V c (Pipeline.arrRef spec13 w) := by
  dsimp only [dat13]

/-- What the body leaves, window by window (the proof data's `match` reduced by `dsimp`, never `rfl`). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t =
    out13 (iblk13 V c 0 t) (iblk13 V c 1 t) (iblk13 V c 2 t) (iblk13 V c 3 t) (iblk13 V c 4 t) := by dsimp only [dat13]

end Regions

end Cert.Kernel.Hand

end
-- ==== Proof.KB.Fold.lean ====
/- The buffer contents at every boundary of @main's 44 items (30 lines of host operations, 14 kernel regions), a fold
   from the launch memory: after a line of operations what the operations compute from the contents before it; at a
   region's exit the region's arrays at what its pipeline leaves and every other buffer as entered. Per region, its
   entry and exit contents by name, and the two facts that put its arrays back among the unscoped buffers. -/
import proofs.«125545_j64845416235624_1_alg».proof.Proof.KB.D0
import proofs.«125545_j64845416235624_1_alg».proof.Proof.KB.D1
import proofs.«125545_j64845416235624_1_alg».proof.Proof.KB.D2
import proofs.«125545_j64845416235624_1_alg».proof.Proof.KB.D3
import proofs.«125545_j64845416235624_1_alg».proof.Proof.KB.D4
import proofs.«125545_j64845416235624_1_alg».proof.Proof.KB.D5
import proofs.«125545_j64845416235624_1_alg».proof.Proof.KB.D6
import proofs.«125545_j64845416235624_1_alg».proof.Proof.KB.D7
import proofs.«125545_j64845416235624_1_alg».proof.Proof.KB.D8
import proofs.«125545_j64845416235624_1_alg».proof.Proof.KB.D9
import proofs.«125545_j64845416235624_1_alg».proof.Proof.KB.D10
import proofs.«125545_j64845416235624_1_alg».proof.Proof.KB.D11
import proofs.«125545_j64845416235624_1_alg».proof.Proof.KB.D12
import proofs.«125545_j64845416235624_1_alg».proof.Proof.KB.D13

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffer contents at each boundary of @main's items: a fold from the launch memory -/

variable (m : (ℓ : Loc nD τ sig) → Buf (Elt F) ℓ) (ρ : Dev nD → PrngReg)

/-- Core `c`'s buffers at launch. -/
noncomputable abbrev W0 : Dev nD → Valuation τ sig (Elt F) := fun c b => (s₀ m ρ).mem ((c : Dev nD), b)
/-- The same read at the TensorCore's references. -/
noncomputable abbrev V0 : (c : Dev nD) → (b : Ref sig .tc) → Buf (Elt F) ((c : Thread nD τ).loc b) := fun c b => W0 m ρ c b

/-- After item 1, the operations `main_part0_ops0`. -/
noncomputable abbrev W1 : Dev nD → Valuation τ sig (Elt F) := fun c => StableHlo.after main_part0_ops0 (W0 m ρ c)
noncomputable abbrev V1 : (c : Dev nD) → (b : Ref sig .tc) → Buf (Elt F) ((c : Thread nD τ).loc b) := fun c b => W1 m ρ c b

/-- After item 2, the operations `main_part1_ops0`. -/
noncomputable abbrev W2 : Dev nD → Valuation τ sig (Elt F) := fun c => StableHlo.after main_part1_ops0 (W1 m ρ c)
noncomputable abbrev V2 : (c : Dev nD) → (b : Ref sig .tc) → Buf (Elt F) ((c : Thread nD τ).loc b) := fun c b => W2 m ρ c b

/-- After item 3, the operations `main_part2_ops0`. -/
noncomputable abbrev W3 : Dev nD → Valuation τ sig (Elt F) := fun c => StableHlo.after main_part2_ops0 (W2 m ρ c)
noncomputable abbrev V3 : (c : Dev nD) → (b : Ref sig .tc) → Buf (Elt F) ((c : Thread nD τ).loc b) := fun c b => W3 m ρ c b

/-- After item 4, the operations `main_part3_ops0`. -/
noncomputable abbrev W4 : Dev nD → Valuation τ sig (Elt F) := fun c => StableHlo.after main_part3_ops0 (W3 m ρ c)
noncomputable abbrev V4 : (c : Dev nD) → (b : Ref sig .tc) → Buf (Elt F) ((c : Thread nD τ).loc b) := fun c b => W4 m ρ c b

/-- After item 5, the operations `main_part4_ops0`. -/
noncomputable abbrev W5 : Dev nD → Valuation τ sig (Elt F) := fun c => StableHlo.after main_part4_ops0 (W4 m ρ c)
noncomputable abbrev V5 : (c : Dev nD) → (b : Ref sig .tc) → Buf (Elt F) ((c : Thread nD τ).loc b) := fun c b => W5 m ρ c b

/-- Region 0 (item 6) is entered from the contents after item 5. -/
noncomputable abbrev Win0 : Dev nD → Valuation τ sig (Elt F) := W5 m ρ
noncomputable abbrev Vin0 : (c : Dev nD) → (b : Ref sig .tc) → Buf (Elt F) ((c : Thread nD τ).loc b) := V5 m ρ
/-- At region 0's exit: its arrays at what the pipeline leaves (the inputs as entered, each output's write-backs
    folded), every other buffer as entered. -/
noncomputable def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
noncomputable abbrev V6 : (c : Dev nD) → (b : Ref sig .tc) → Buf (Elt F) ((c : Thread nD τ).loc b) := fun c b => W6 m ρ c b
noncomputable abbrev Wout0 : Dev nD → Valuation τ sig (Elt F) := W6 m ρ
noncomputable abbrev Vout0 : (c : Dev nD) → (b : Ref sig .tc) → Buf (Elt F) ((c : Thread nD τ).loc b) := V6 m ρ
/-- At region 0's exit each of its arrays holds what the pipeline leaves, and every other buffer what it held at entry. -/
theorem hF0 (c : Dev nD) (w : Fin cfg0.W) : (dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)

/-- After item 7, the operations `main_part4_ops1`. -/
noncomputable abbrev W7 : Dev nD → Valuation τ sig (Elt F) := fun c => StableHlo.after main_part4_ops1 (W6 m ρ c)
noncomputable abbrev V7 : (c : Dev nD) → (b : Ref sig .tc) → Buf (Elt F) ((c : Thread nD τ).loc b) := fun c b => W7 m ρ c b

/-- After item 8, the operations `main_part5_ops0`. -/
noncomputable abbrev W8 : Dev nD → Valuation τ sig (Elt F) := fun c => StableHlo.after main_part5_ops0 (W7 m ρ c)
noncomputable abbrev V8 : (c : Dev nD) → (b : Ref sig .tc) → Buf (Elt F) ((c : Thread nD τ).loc b) := fun c b => W8 m ρ c b

/-- Region 1 (item 9) is entered from the contents after item 8. -/
noncomputable abbrev Win1 : Dev nD → Valuation τ sig (Elt F) := W8 m ρ
noncomputable abbrev Vin1 : (c : Dev nD) → (b : Ref sig .tc) → Buf (Elt F) ((c : Thread nD τ).loc b) := V8 m ρ
/-- At region 1's exit: its arrays at what the pipeline leaves (the inputs as entered, each output's write-backs
    folded), every other buffer as entered. -/
noncomputable def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
noncomputable abbrev V9 : (c : Dev nD) → (b : Ref sig .tc) → Buf (Elt F) ((c : Thread nD τ).loc b) := fun c b => W9 m ρ c b
noncomputable abbrev Wout1 : Dev nD → Valuation τ sig (Elt F) := W9 m ρ
noncomputable abbrev Vout1 : (c : Dev nD) → (b : Ref sig .tc) → Buf (Elt F) ((c : Thread nD τ).loc b) := V9 m ρ
/-- At region 1's exit each of its arrays holds what the pipeline leaves, and every other buffer what it held at entry. -/
theorem hF1 (c : Dev nD) (w : Fin cfg1.W) : (dat1 (Vin1 m ρ) c).arrAt w cfg1.N = Vout1 m ρ c (Pipeline.arrRef spec1 w) :=
  (W9_arr m ρ c w).symm
theorem hrest1 (c : Dev nD) : ∀ b, b ∉ Finset.univ.image (Pipeline.arrRef spec1) → Vout1 m ρ c b = Vin1 m ρ c b :=
  fun b hb => W9_of_ne m ρ c b fun w e => hb (Finset.mem_image.mpr ⟨w, Finset.mem_univ _, e⟩)

/-- After item 10, the operations `main_part5_ops1`. -/
noncomputable abbrev W10 : Dev nD → Valuation τ sig (Elt F) := fun c => StableHlo.after main_part5_ops1 (W9 m ρ c)
noncomputable abbrev V10 : (c : Dev nD) → (b : Ref sig .tc) → Buf (Elt F) ((c : Thread nD τ).loc b) := fun c b => W10 m ρ c b

/-- Region 2 (item 11) is entered from the contents after item 10. -/
noncomputable abbrev Win2 : Dev nD → Valuation τ sig (Elt F) := W10 m ρ
noncomputable abbrev Vin2 : (c : Dev nD) → (b : Ref sig .tc) → Buf (Elt F) ((c : Thread nD τ).loc b) := V10 m ρ
/-- At region 2's exit: its arrays at what the pipeline leaves (the inputs as entered, each output's write-backs
    folded), every other buffer as entered. -/
noncomputable def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
noncomputable abbrev V11 : (c : Dev nD) → (b : Ref sig .tc) → Buf (Elt F) ((c : Thread nD τ).loc b) := fun c b => W11 m ρ c b
noncomputable abbrev Wout2 : Dev nD → Valuation τ sig (Elt F) := W11 m ρ
noncomputable abbrev Vout2 : (c : Dev nD) → (b : Ref sig .tc) → Buf (Elt F) ((c : Thread nD τ).loc b) := V11 m ρ
/-- At region 2's exit each of its arrays holds what the pipeline leaves, and every other buffer what it held at entry. -/
theorem hF2 (c : Dev nD) (w : Fin cfg2.W) : (dat2 (Vin2 m ρ) c).arrAt w cfg2.N = Vout2 m ρ c (Pipeline.arrRef spec2 w) :=
  (W11_arr m ρ c w).symm
theorem hrest2 (c : Dev nD) : ∀ b, b ∉ Finset.univ.image (Pipeline.arrRef spec2) → Vout2 m ρ c b = Vin2 m ρ c b :=
  fun b hb => W11_of_ne m ρ c b fun w e => hb (Finset.mem_image.mpr ⟨w, Finset.mem_univ _, e⟩)

/-- After item 12, the operations `main_part5_ops2`. -/
noncomputable abbrev W12 : Dev nD → Valuation τ sig (Elt F) := fun c => StableHlo.after main_part5_ops2 (W11 m ρ c)
noncomputable abbrev V12 : (c : Dev nD) → (b : Ref sig .tc) → Buf (Elt F) ((c : Thread nD τ).loc b) := fun c b => W12 m ρ c b

/-- Region 3 (item 13) is entered from the contents after item 12. -/
noncomputable abbrev Win3 : Dev nD → Valuation τ sig (Elt F) := W12 m ρ
noncomputable abbrev Vin3 : (c : Dev nD) → (b : Ref sig .tc) → Buf (Elt F) ((c : Thread nD τ).loc b) := V12 m ρ
/-- At region 3's exit: its arrays at what the pipeline leaves (the inputs as entered, each output's write-backs
    folded), every other buffer as entered. -/
noncomputable def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
noncomputable abbrev V13 : (c : Dev nD) → (b : Ref sig .tc) → Buf (Elt F) ((c : Thread nD τ).loc b) := fun c b => W13 m ρ c b
noncomputable abbrev Wout3 : Dev nD → Valuation τ sig (Elt F) := W13 m ρ
noncomputable abbrev Vout3 : (c : Dev nD) → (b : Ref sig .tc) → Buf (Elt F) ((c : Thread nD τ).loc b) := V13 m ρ
/-- At region 3's exit each of its arrays holds what the pipeline leaves, and every other buffer what it held at entry. -/
theorem hF3 (c : Dev nD) (w : Fin cfg3.W) : (dat3 (Vin3 m ρ) c).arrAt w cfg3.N = Vout3 m ρ c (Pipeline.arrRef spec3 w) :=
  (W13_arr m ρ c w).symm
theorem hrest3 (c : Dev nD) : ∀ b, b ∉ Finset.univ.image (Pipeline.arrRef spec3) → Vout3 m ρ c b = Vin3 m ρ c b :=
  fun b hb => W13_of_ne m ρ c b fun w e => hb (Finset.mem_image.mpr ⟨w, Finset.mem_univ _, e⟩)

/-- After item 14, the operations `main_part5_ops3`. -/
noncomputable abbrev W14 : Dev nD → Valuation τ sig (Elt F) := fun c => StableHlo.after main_part5_ops3 (W13 m ρ c)
noncomputable abbrev V14 : (c : Dev nD) → (b : Ref sig .tc) → Buf (Elt F) ((c : Thread nD τ).loc b) := fun c b => W14 m ρ c b

/-- After item 15, the operations `main_part6_ops0`. -/
noncomputable abbrev W15 : Dev nD → Valuation τ sig (Elt F) := fun c => StableHlo.after main_part6_ops0 (W14 m ρ c)
noncomputable abbrev V15 : (c : Dev nD) → (b : Ref sig .tc) → Buf (Elt F) ((c : Thread nD τ).loc b) := fun c b => W15 m ρ c b

/-- After item 16, the operations `main_part7_ops0`. -/
noncomputable abbrev W16 : Dev nD → Valuation τ sig (Elt F) := fun c => StableHlo.after main_part7_ops0 (W15 m ρ c)
noncomputable abbrev V16 : (c : Dev nD) → (b : Ref sig .tc) → Buf (Elt F) ((c : Thread nD τ).loc b) := fun c b => W16 m ρ c b

/-- After item 17, the operations `main_part8_ops0`. -/
noncomputable abbrev W17 : Dev nD → Valuation τ sig (Elt F) := fun c => StableHlo.after main_part8_ops0 (W16 m ρ c)
noncomputable abbrev V17 : (c : Dev nD) → (b : Ref sig .tc) → Buf (Elt F) ((c : Thread nD τ).loc b) := fun c b => W17 m ρ c b

/-- After item 18, the operations `main_part9_ops0`. -/
noncomputable abbrev W18 : Dev nD → Valuation τ sig (Elt F) := fun c => StableHlo.after main_part9_ops0 (W17 m ρ c)
noncomputable abbrev V18 : (c : Dev nD) → (b : Ref sig .tc) → Buf (Elt F) ((c : Thread nD τ).loc b) := fun c b => W18 m ρ c b

/-- After item 19, the operations `main_part10_ops0`. -/
noncomputable abbrev W19 : Dev nD → Valuation τ sig (Elt F) := fun c => StableHlo.after main_part10_ops0 (W18 m ρ c)
noncomputable abbrev V19 : (c : Dev nD) → (b : Ref sig .tc) → Buf (Elt F) ((c : Thread nD τ).loc b) := fun c b => W19 m ρ c b

/-- Region 4 (item 20) is entered from the contents after item 19. -/
noncomputable abbrev Win4 : Dev nD → Valuation τ sig (Elt F) := W19 m ρ
noncomputable abbrev Vin4 : (c : Dev nD) → (b : Ref sig .tc) → Buf (Elt F) ((c : Thread nD τ).loc b) := V19 m ρ
/-- At region 4's exit: its arrays at what the pipeline leaves (the inputs as entered, each output's write-backs
    folded), every other buffer as entered. -/
noncomputable def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
noncomputable abbrev V20 : (c : Dev nD) → (b : Ref sig .tc) → Buf (Elt F) ((c : Thread nD τ).loc b) := fun c b => W20 m ρ c b
noncomputable abbrev Wout4 : Dev nD → Valuation τ sig (Elt F) := W20 m ρ
noncomputable abbrev Vout4 : (c : Dev nD) → (b : Ref sig .tc) → Buf (Elt F) ((c : Thread nD τ).loc b) := V20 m ρ
/-- At region 4's exit each of its arrays holds what the pipeline leaves, and every other buffer what it held at entry. -/
theorem hF4 (c : Dev nD) (w : Fin cfg4.W) : (dat4 (Vin4 m ρ) c).arrAt w cfg4.N = Vout4 m ρ c (Pipeline.arrRef spec4 w) :=
  (W20_arr m ρ c w).symm
theorem hrest4 (c : Dev nD) : ∀ b, b ∉ Finset.univ.image (Pipeline.arrRef spec4) → Vout4 m ρ c b = Vin4 m ρ c b :=
  fun b hb => W20_of_ne m ρ c b fun w e => hb (Finset.mem_image.mpr ⟨w, Finset.mem_univ _, e⟩)

/-- After item 21, the operations `main_part10_ops1`. -/
noncomputable abbrev W21 : Dev nD → Valuation τ sig (Elt F) := fun c => StableHlo.after main_part10_ops1 (W20 m ρ c)
noncomputable abbrev V21 : (c : Dev nD) → (b : Ref sig .tc) → Buf (Elt F) ((c : Thread nD τ).loc b) := fun c b => W21 m ρ c b

/-- Region 5 (item 22) is entered from the contents after item 21. -/
noncomputable abbrev Win5 : Dev nD → Valuation τ sig (Elt F) := W21 m ρ
noncomputable abbrev Vin5 : (c : Dev nD) → (b : Ref sig .tc) → Buf (Elt F) ((c : Thread nD τ).loc b) := V21 m ρ
/-- At region 5's exit: its arrays at what the pipeline leaves (the inputs as entered, each output's write-backs
    folded), every other buffer as entered. -/
noncomputable def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
noncomputable abbrev V22 : (c : Dev nD) → (b : Ref sig .tc) → Buf (Elt F) ((c : Thread nD τ).loc b) := fun c b => W22 m ρ c b
noncomputable abbrev Wout5 : Dev nD → Valuation τ sig (Elt F) := W22 m ρ
noncomputable abbrev Vout5 : (c : Dev nD) → (b : Ref sig .tc) → Buf (Elt F) ((c : Thread nD τ).loc b) := V22 m ρ
/-- At region 5's exit each of its arrays holds what the pipeline leaves, and every other buffer what it held at entry. -/
theorem hF5 (c : Dev nD) (w : Fin cfg5.W) : (dat5 (Vin5 m ρ) c).arrAt w cfg5.N = Vout5 m ρ c (Pipeline.arrRef spec5 w) :=
  (W22_arr m ρ c w).symm
theorem hrest5 (c : Dev nD) : ∀ b, b ∉ Finset.univ.image (Pipeline.arrRef spec5) → Vout5 m ρ c b = Vin5 m ρ c b :=
  fun b hb => W22_of_ne m ρ c b fun w e => hb (Finset.mem_image.mpr ⟨w, Finset.mem_univ _, e⟩)

/-- After item 23, the operations `main_part10_ops2`. -/
noncomputable abbrev W23 : Dev nD → Valuation τ sig (Elt F) := fun c => StableHlo.after main_part10_ops2 (W22 m ρ c)
noncomputable abbrev V23 : (c : Dev nD) → (b : Ref sig .tc) → Buf (Elt F) ((c : Thread nD τ).loc b) := fun c b => W23 m ρ c b

/-- Region 6 (item 24) is entered from the contents after item 23. -/
noncomputable abbrev Win6 : Dev nD → Valuation τ sig (Elt F) := W23 m ρ
noncomputable abbrev Vin6 : (c : Dev nD) → (b : Ref sig .tc) → Buf (Elt F) ((c : Thread nD τ).loc b) := V23 m ρ
/-- At region 6's exit: its arrays at what the pipeline leaves (the inputs as entered, each output's write-backs
    folded), every other buffer as entered. -/
noncomputable def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
noncomputable abbrev V24 : (c : Dev nD) → (b : Ref sig .tc) → Buf (Elt F) ((c : Thread nD τ).loc b) := fun c b => W24 m ρ c b
noncomputable abbrev Wout6 : Dev nD → Valuation τ sig (Elt F) := W24 m ρ
noncomputable abbrev Vout6 : (c : Dev nD) → (b : Ref sig .tc) → Buf (Elt F) ((c : Thread nD τ).loc b) := V24 m ρ
/-- At region 6's exit each of its arrays holds what the pipeline leaves, and every other buffer what it held at entry. -/
theorem hF6 (c : Dev nD) (w : Fin cfg6.W) : (dat6 (Vin6 m ρ) c).arrAt w cfg6.N = Vout6 m ρ c (Pipeline.arrRef spec6 w) :=
  (W24_arr m ρ c w).symm
theorem hrest6 (c : Dev nD) : ∀ b, b ∉ Finset.univ.image (Pipeline.arrRef spec6) → Vout6 m ρ c b = Vin6 m ρ c b :=
  fun b hb => W24_of_ne m ρ c b fun w e => hb (Finset.mem_image.mpr ⟨w, Finset.mem_univ _, e⟩)

/-- After item 25, the operations `main_part10_ops3`. -/
noncomputable abbrev W25 : Dev nD → Valuation τ sig (Elt F) := fun c => StableHlo.after main_part10_ops3 (W24 m ρ c)
noncomputable abbrev V25 : (c : Dev nD) → (b : Ref sig .tc) → Buf (Elt F) ((c : Thread nD τ).loc b) := fun c b => W25 m ρ c b

/-- Region 7 (item 26) is entered from the contents after item 25. -/
noncomputable abbrev Win7 : Dev nD → Valuation τ sig (Elt F) := W25 m ρ
noncomputable abbrev Vin7 : (c : Dev nD) → (b : Ref sig .tc) → Buf (Elt F) ((c : Thread nD τ).loc b) := V25 m ρ
/-- At region 7's exit: its arrays at what the pipeline leaves (the inputs as entered, each output's write-backs
    folded), every other buffer as entered. -/
noncomputable def W26 (c : Dev nD) : Valuation τ sig (Elt F) :=
  Pipeline.withArrays spec7 c (W25 m ρ c) fun w => (dat7 (V25 m ρ) c).arrAt w cfg7.N
theorem W26_arr (c : Dev nD) (w : Fin cfg7.W) :
    W26 m ρ c (Proc.devRef .tc (Pipeline.arrRef spec7 w)) = (dat7 (V25 m ρ) c).arrAt w cfg7.N := by
  unfold W26; exact Pipeline.withArrays_arr spec7 launch7.win.arr_inj c _ _ w
theorem W26_of_ne (c : Dev nD) (b : Ref sig .tc) (hb : ∀ w, Pipeline.arrRef spec7 w ≠ b) :
    W26 m ρ c (Proc.devRef .tc b) = W25 m ρ c (Proc.devRef .tc b) := by
  unfold W26; exact Pipeline.withArrays_of_ne spec7 c _ _ b hb
noncomputable abbrev V26 : (c : Dev nD) → (b : Ref sig .tc) → Buf (Elt F) ((c : Thread nD τ).loc b) := fun c b => W26 m ρ c b
noncomputable abbrev Wout7 : Dev nD → Valuation τ sig (Elt F) := W26 m ρ
noncomputable abbrev Vout7 : (c : Dev nD) → (b : Ref sig .tc) → Buf (Elt F) ((c : Thread nD τ).loc b) := V26 m ρ
/-- At region 7's exit each of its arrays holds what the pipeline leaves, and every other buffer what it held at entry. -/
theorem hF7 (c : Dev nD) (w : Fin cfg7.W) : (dat7 (Vin7 m ρ) c).arrAt w cfg7.N = Vout7 m ρ c (Pipeline.arrRef spec7 w) :=
  (W26_arr m ρ c w).symm
theorem hrest7 (c : Dev nD) : ∀ b, b ∉ Finset.univ.image (Pipeline.arrRef spec7) → Vout7 m ρ c b = Vin7 m ρ c b :=
  fun b hb => W26_of_ne m ρ c b fun w e => hb (Finset.mem_image.mpr ⟨w, Finset.mem_univ _, e⟩)

/-- After item 27, the operations `main_part10_ops4`. -/
noncomputable abbrev W27 : Dev nD → Valuation τ sig (Elt F) := fun c => StableHlo.after main_part10_ops4 (W26 m ρ c)
noncomputable abbrev V27 : (c : Dev nD) → (b : Ref sig .tc) → Buf (Elt F) ((c : Thread nD τ).loc b) := fun c b => W27 m ρ c b

/-- After item 28, the operations `main_part11_ops0`. -/
noncomputable abbrev W28 : Dev nD → Valuation τ sig (Elt F) := fun c => StableHlo.after main_part11_ops0 (W27 m ρ c)
noncomputable abbrev V28 : (c : Dev nD) → (b : Ref sig .tc) → Buf (Elt F) ((c : Thread nD τ).loc b) := fun c b => W28 m ρ c b

/-- After item 29, the operations `main_part12_ops0`. -/
noncomputable abbrev W29 : Dev nD → Valuation τ sig (Elt F) := fun c => StableHlo.after main_part12_ops0 (W28 m ρ c)
noncomputable abbrev V29 : (c : Dev nD) → (b : Ref sig .tc) → Buf (Elt F) ((c : Thread nD τ).loc b) := fun c b => W29 m ρ c b

/-- After item 30, the operations `main_part13_ops0`. -/
noncomputable abbrev W30 : Dev nD → Valuation τ sig (Elt F) := fun c => StableHlo.after main_part13_ops0 (W29 m ρ c)
noncomputable abbrev V30 : (c : Dev nD) → (b : Ref sig .tc) → Buf (Elt F) ((c : Thread nD τ).loc b) := fun c b => W30 m ρ c b

/-- After item 31, the operations `main_part14_ops0`. -/
noncomputable abbrev W31 : Dev nD → Valuation τ sig (Elt F) := fun c => StableHlo.after main_part14_ops0 (W30 m ρ c)
noncomputable abbrev V31 : (c : Dev nD) → (b : Ref sig .tc) → Buf (Elt F) ((c : Thread nD τ).loc b) := fun c b => W31 m ρ c b

/-- After item 32, the operations `main_part15_ops0`. -/
noncomputable abbrev W32 : Dev nD → Valuation τ sig (Elt F) := fun c => StableHlo.after main_part15_ops0 (W31 m ρ c)
noncomputable abbrev V32 : (c : Dev nD) → (b : Ref sig .tc) → Buf (Elt F) ((c : Thread nD τ).loc b) := fun c b => W32 m ρ c b

/-- Region 8 (item 33) is entered from the contents after item 32. -/
noncomputable abbrev Win8 : Dev nD → Valuation τ sig (Elt F) := W32 m ρ
noncomputable abbrev Vin8 : (c : Dev nD) → (b : Ref sig .tc) → Buf (Elt F) ((c : Thread nD τ).loc b) := V32 m ρ
/-- At region 8's exit: its arrays at what the pipeline leaves (the inputs as entered, each output's write-backs
    folded), every other buffer as entered. -/
noncomputable def W33 (c : Dev nD) : Valuation τ sig (Elt F) :=
  Pipeline.withArrays spec8 c (W32 m ρ c) fun w => (dat8 (V32 m ρ) c).arrAt w cfg8.N
theorem W33_arr (c : Dev nD) (w : Fin cfg8.W) :
    W33 m ρ c (Proc.devRef .tc (Pipeline.arrRef spec8 w)) = (dat8 (V32 m ρ) c).arrAt w cfg8.N := by
  unfold W33; exact Pipeline.withArrays_arr spec8 launch8.win.arr_inj c _ _ w
theorem W33_of_ne (c : Dev nD) (b : Ref sig .tc) (hb : ∀ w, Pipeline.arrRef spec8 w ≠ b) :
    W33 m ρ c (Proc.devRef .tc b) = W32 m ρ c (Proc.devRef .tc b) := by
  unfold W33; exact Pipeline.withArrays_of_ne spec8 c _ _ b hb
noncomputable abbrev V33 : (c : Dev nD) → (b : Ref sig .tc) → Buf (Elt F) ((c : Thread nD τ).loc b) := fun c b => W33 m ρ c b
noncomputable abbrev Wout8 : Dev nD → Valuation τ sig (Elt F) := W33 m ρ
noncomputable abbrev Vout8 : (c : Dev nD) → (b : Ref sig .tc) → Buf (Elt F) ((c : Thread nD τ).loc b) := V33 m ρ
/-- At region 8's exit each of its arrays holds what the pipeline leaves, and every other buffer what it held at entry. -/
theorem hF8 (c : Dev nD) (w : Fin cfg8.W) : (dat8 (Vin8 m ρ) c).arrAt w cfg8.N = Vout8 m ρ c (Pipeline.arrRef spec8 w) :=
  (W33_arr m ρ c w).symm
theorem hrest8 (c : Dev nD) : ∀ b, b ∉ Finset.univ.image (Pipeline.arrRef spec8) → Vout8 m ρ c b = Vin8 m ρ c b :=
  fun b hb => W33_of_ne m ρ c b fun w e => hb (Finset.mem_image.mpr ⟨w, Finset.mem_univ _, e⟩)

/-- After item 34, the operations `main_part15_ops1`. -/
noncomputable abbrev W34 : Dev nD → Valuation τ sig (Elt F) := fun c => StableHlo.after main_part15_ops1 (W33 m ρ c)
noncomputable abbrev V34 : (c : Dev nD) → (b : Ref sig .tc) → Buf (Elt F) ((c : Thread nD τ).loc b) := fun c b => W34 m ρ c b

/-- Region 9 (item 35) is entered from the contents after item 34. -/
noncomputable abbrev Win9 : Dev nD → Valuation τ sig (Elt F) := W34 m ρ
noncomputable abbrev Vin9 : (c : Dev nD) → (b : Ref sig .tc) → Buf (Elt F) ((c : Thread nD τ).loc b) := V34 m ρ
/-- At region 9's exit: its arrays at what the pipeline leaves (the inputs as entered, each output's write-backs
    folded), every other buffer as entered. -/
noncomputable def W35 (c : Dev nD) : Valuation τ sig (Elt F) :=
  Pipeline.withArrays spec9 c (W34 m ρ c) fun w => (dat9 (V34 m ρ) c).arrAt w cfg9.N
theorem W35_arr (c : Dev nD) (w : Fin cfg9.W) :
    W35 m ρ c (Proc.devRef .tc (Pipeline.arrRef spec9 w)) = (dat9 (V34 m ρ) c).arrAt w cfg9.N := by
  unfold W35; exact Pipeline.withArrays_arr spec9 launch9.win.arr_inj c _ _ w
theorem W35_of_ne (c : Dev nD) (b : Ref sig .tc) (hb : ∀ w, Pipeline.arrRef spec9 w ≠ b) :
    W35 m ρ c (Proc.devRef .tc b) = W34 m ρ c (Proc.devRef .tc b) := by
  unfold W35; exact Pipeline.withArrays_of_ne spec9 c _ _ b hb
noncomputable abbrev V35 : (c : Dev nD) → (b : Ref sig .tc) → Buf (Elt F) ((c : Thread nD τ).loc b) := fun c b => W35 m ρ c b
noncomputable abbrev Wout9 : Dev nD → Valuation τ sig (Elt F) := W35 m ρ
noncomputable abbrev Vout9 : (c : Dev nD) → (b : Ref sig .tc) → Buf (Elt F) ((c : Thread nD τ).loc b) := V35 m ρ
/-- At region 9's exit each of its arrays holds what the pipeline leaves, and every other buffer what it held at entry. -/
theorem hF9 (c : Dev nD) (w : Fin cfg9.W) : (dat9 (Vin9 m ρ) c).arrAt w cfg9.N = Vout9 m ρ c (Pipeline.arrRef spec9 w) :=
  (W35_arr m ρ c w).symm
theorem hrest9 (c : Dev nD) : ∀ b, b ∉ Finset.univ.image (Pipeline.arrRef spec9) → Vout9 m ρ c b = Vin9 m ρ c b :=
  fun b hb => W35_of_ne m ρ c b fun w e => hb (Finset.mem_image.mpr ⟨w, Finset.mem_univ _, e⟩)

/-- After item 36, the operations `main_part15_ops2`. -/
noncomputable abbrev W36 : Dev nD → Valuation τ sig (Elt F) := fun c => StableHlo.after main_part15_ops2 (W35 m ρ c)
noncomputable abbrev V36 : (c : Dev nD) → (b : Ref sig .tc) → Buf (Elt F) ((c : Thread nD τ).loc b) := fun c b => W36 m ρ c b

/-- Region 10 (item 37) is entered from the contents after item 36. -/
noncomputable abbrev Win10 : Dev nD → Valuation τ sig (Elt F) := W36 m ρ
noncomputable abbrev Vin10 : (c : Dev nD) → (b : Ref sig .tc) → Buf (Elt F) ((c : Thread nD τ).loc b) := V36 m ρ
/-- At region 10's exit: its arrays at what the pipeline leaves (the inputs as entered, each output's write-backs
    folded), every other buffer as entered. -/
noncomputable def W37 (c : Dev nD) : Valuation τ sig (Elt F) :=
  Pipeline.withArrays spec10 c (W36 m ρ c) fun w => (dat10 (V36 m ρ) c).arrAt w cfg10.N
theorem W37_arr (c : Dev nD) (w : Fin cfg10.W) :
    W37 m ρ c (Proc.devRef .tc (Pipeline.arrRef spec10 w)) = (dat10 (V36 m ρ) c).arrAt w cfg10.N := by
  unfold W37; exact Pipeline.withArrays_arr spec10 launch10.win.arr_inj c _ _ w
theorem W37_of_ne (c : Dev nD) (b : Ref sig .tc) (hb : ∀ w, Pipeline.arrRef spec10 w ≠ b) :
    W37 m ρ c (Proc.devRef .tc b) = W36 m ρ c (Proc.devRef .tc b) := by
  unfold W37; exact Pipeline.withArrays_of_ne spec10 c _ _ b hb
noncomputable abbrev V37 : (c : Dev nD) → (b : Ref sig .tc) → Buf (Elt F) ((c : Thread nD τ).loc b) := fun c b => W37 m ρ c b
noncomputable abbrev Wout10 : Dev nD → Valuation τ sig (Elt F) := W37 m ρ
noncomputable abbrev Vout10 : (c : Dev nD) → (b : Ref sig .tc) → Buf (Elt F) ((c : Thread nD τ).loc b) := V37 m ρ
/-- At region 10's exit each of its arrays holds what the pipeline leaves, and every other buffer what it held at entry. -/
theorem hF10 (c : Dev nD) (w : Fin cfg10.W) : (dat10 (Vin10 m ρ) c).arrAt w cfg10.N = Vout10 m ρ c (Pipeline.arrRef spec10 w) :=
  (W37_arr m ρ c w).symm
theorem hrest10 (c : Dev nD) : ∀ b, b ∉ Finset.univ.image (Pipeline.arrRef spec10) → Vout10 m ρ c b = Vin10 m ρ c b :=
  fun b hb => W37_of_ne m ρ c b fun w e => hb (Finset.mem_image.mpr ⟨w, Finset.mem_univ _, e⟩)

/-- After item 38, the operations `main_part15_ops3`. -/
noncomputable abbrev W38 : Dev nD → Valuation τ sig (Elt F) := fun c => StableHlo.after main_part15_ops3 (W37 m ρ c)
noncomputable abbrev V38 : (c : Dev nD) → (b : Ref sig .tc) → Buf (Elt F) ((c : Thread nD τ).loc b) := fun c b => W38 m ρ c b

/-- After item 39, the operations `main_part16_ops0`. -/
noncomputable abbrev W39 : Dev nD → Valuation τ sig (Elt F) := fun c => StableHlo.after main_part16_ops0 (W38 m ρ c)
noncomputable abbrev V39 : (c : Dev nD) → (b : Ref sig .tc) → Buf (Elt F) ((c : Thread nD τ).loc b) := fun c b => W39 m ρ c b

/-- Region 11 (item 40) is entered from the contents after item 39. -/
noncomputable abbrev Win11 : Dev nD → Valuation τ sig (Elt F) := W39 m ρ
noncomputable abbrev Vin11 : (c : Dev nD) → (b : Ref sig .tc) → Buf (Elt F) ((c : Thread nD τ).loc b) := V39 m ρ
/-- At region 11's exit: its arrays at what the pipeline leaves (the inputs as entered, each output's write-backs
    folded), every other buffer as entered. -/
noncomputable def W40 (c : Dev nD) : Valuation τ sig (Elt F) :=
  Pipeline.withArrays spec11 c (W39 m ρ c) fun w => (dat11 (V39 m ρ) c).arrAt w cfg11.N
theorem W40_arr (c : Dev nD) (w : Fin cfg11.W) :
    W40 m ρ c (Proc.devRef .tc (Pipeline.arrRef spec11 w)) = (dat11 (V39 m ρ) c).arrAt w cfg11.N := by
  unfold W40; exact Pipeline.withArrays_arr spec11 launch11.win.arr_inj c _ _ w
theorem W40_of_ne (c : Dev nD) (b : Ref sig .tc) (hb : ∀ w, Pipeline.arrRef spec11 w ≠ b) :
    W40 m ρ c (Proc.devRef .tc b) = W39 m ρ c (Proc.devRef .tc b) := by
  unfold W40; exact Pipeline.withArrays_of_ne spec11 c _ _ b hb
noncomputable abbrev V40 : (c : Dev nD) → (b : Ref sig .tc) → Buf (Elt F) ((c : Thread nD τ).loc b) := fun c b => W40 m ρ c b
noncomputable abbrev Wout11 : Dev nD → Valuation τ sig (Elt F) := W40 m ρ
noncomputable abbrev Vout11 : (c : Dev nD) → (b : Ref sig .tc) → Buf (Elt F) ((c : Thread nD τ).loc b) := V40 m ρ
/-- At region 11's exit each of its arrays holds what the pipeline leaves, and every other buffer what it held at entry. -/
theorem hF11 (c : Dev nD) (w : Fin cfg11.W) : (dat11 (Vin11 m ρ) c).arrAt w cfg11.N = Vout11 m ρ c (Pipeline.arrRef spec11 w) :=
  (W40_arr m ρ c w).symm
theorem hrest11 (c : Dev nD) : ∀ b, b ∉ Finset.univ.image (Pipeline.arrRef spec11) → Vout11 m ρ c b = Vin11 m ρ c b :=
  fun b hb => W40_of_ne m ρ c b fun w e => hb (Finset.mem_image.mpr ⟨w, Finset.mem_univ _, e⟩)

/-- After item 41, the operations `main_part16_ops1`. -/
noncomputable abbrev W41 : Dev nD → Valuation τ sig (Elt F) := fun c => StableHlo.after main_part16_ops1 (W40 m ρ c)
noncomputable abbrev V41 : (c : Dev nD) → (b : Ref sig .tc) → Buf (Elt F) ((c : Thread nD τ).loc b) := fun c b => W41 m ρ c b

/-- Region 12 (item 42) is entered from the contents after item 41. -/
noncomputable abbrev Win12 : Dev nD → Valuation τ sig (Elt F) := W41 m ρ
noncomputable abbrev Vin12 : (c : Dev nD) → (b : Ref sig .tc) → Buf (Elt F) ((c : Thread nD τ).loc b) := V41 m ρ
/-- At region 12's exit: its arrays at what the pipeline leaves (the inputs as entered, each output's write-backs
    folded), every other buffer as entered. -/
noncomputable def W42 (c : Dev nD) : Valuation τ sig (Elt F) :=
  Pipeline.withArrays spec12 c (W41 m ρ c) fun w => (dat12 (V41 m ρ) c).arrAt w cfg12.N
theorem W42_arr (c : Dev nD) (w : Fin cfg12.W) :
    W42 m ρ c (Proc.devRef .tc (Pipeline.arrRef spec12 w)) = (dat12 (V41 m ρ) c).arrAt w cfg12.N := by
  unfold W42; exact Pipeline.withArrays_arr spec12 launch12.win.arr_inj c _ _ w
theorem W42_of_ne (c : Dev nD) (b : Ref sig .tc) (hb : ∀ w, Pipeline.arrRef spec12 w ≠ b) :
    W42 m ρ c (Proc.devRef .tc b) = W41 m ρ c (Proc.devRef .tc b) := by
  unfold W42; exact Pipeline.withArrays_of_ne spec12 c _ _ b hb
noncomputable abbrev V42 : (c : Dev nD) → (b : Ref sig .tc) → Buf (Elt F) ((c : Thread nD τ).loc b) := fun c b => W42 m ρ c b
noncomputable abbrev Wout12 : Dev nD → Valuation τ sig (Elt F) := W42 m ρ
noncomputable abbrev Vout12 : (c : Dev nD) → (b : Ref sig .tc) → Buf (Elt F) ((c : Thread nD τ).loc b) := V42 m ρ
/-- At region 12's exit each of its arrays holds what the pipeline leaves, and every other buffer what it held at entry. -/
theorem hF12 (c : Dev nD) (w : Fin cfg12.W) : (dat12 (Vin12 m ρ) c).arrAt w cfg12.N = Vout12 m ρ c (Pipeline.arrRef spec12 w) :=
  (W42_arr m ρ c w).symm
theorem hrest12 (c : Dev nD) : ∀ b, b ∉ Finset.univ.image (Pipeline.arrRef spec12) → Vout12 m ρ c b = Vin12 m ρ c b :=
  fun b hb => W42_of_ne m ρ c b fun w e => hb (Finset.mem_image.mpr ⟨w, Finset.mem_univ _, e⟩)

/-- After item 43, the operations `main_part16_ops2`. -/
noncomputable abbrev W43 : Dev nD → Valuation τ sig (Elt F) := fun c => StableHlo.after main_part16_ops2 (W42 m ρ c)
noncomputable abbrev V43 : (c : Dev nD) → (b : Ref sig .tc) → Buf (Elt F) ((c : Thread nD τ).loc b) := fun c b => W43 m ρ c b

/-- Region 13 (item 44) is entered from the contents after item 43. -/
noncomputable abbrev Win13 : Dev nD → Valuation τ sig (Elt F) := W43 m ρ
noncomputable abbrev Vin13 : (c : Dev nD) → (b : Ref sig .tc) → Buf (Elt F) ((c : Thread nD τ).loc b) := V43 m ρ
/-- At region 13's exit: its arrays at what the pipeline leaves (the inputs as entered, each output's write-backs
    folded), every other buffer as entered. -/
noncomputable def W44 (c : Dev nD) : Valuation τ sig (Elt F) :=
  Pipeline.withArrays spec13 c (W43 m ρ c) fun w => (dat13 (V43 m ρ) c).arrAt w cfg13.N
theorem W44_arr (c : Dev nD) (w : Fin cfg13.W) :
    W44 m ρ c (Proc.devRef .tc (Pipeline.arrRef spec13 w)) = (dat13 (V43 m ρ) c).arrAt w cfg13.N := by
  unfold W44; exact Pipeline.withArrays_arr spec13 launch13.win.arr_inj c _ _ w
theorem W44_of_ne (c : Dev nD) (b : Ref sig .tc) (hb : ∀ w, Pipeline.arrRef spec13 w ≠ b) :
    W44 m ρ c (Proc.devRef .tc b) = W43 m ρ c (Proc.devRef .tc b) := by
  unfold W44; exact Pipeline.withArrays_of_ne spec13 c _ _ b hb
noncomputable abbrev V44 : (c : Dev nD) → (b : Ref sig .tc) → Buf (Elt F) ((c : Thread nD τ).loc b) := fun c b => W44 m ρ c b
noncomputable abbrev Wout13 : Dev nD → Valuation τ sig (Elt F) := W44 m ρ
noncomputable abbrev Vout13 : (c : Dev nD) → (b : Ref sig .tc) → Buf (Elt F) ((c : Thread nD τ).loc b) := V44 m ρ
/-- At region 13's exit each of its arrays holds what the pipeline leaves, and every other buffer what it held at entry. -/
theorem hF13 (c : Dev nD) (w : Fin cfg13.W) : (dat13 (Vin13 m ρ) c).arrAt w cfg13.N = Vout13 m ρ c (Pipeline.arrRef spec13 w) :=
  (W44_arr m ρ c w).symm
theorem hrest13 (c : Dev nD) : ∀ b, b ∉ Finset.univ.image (Pipeline.arrRef spec13) → Vout13 m ρ c b = Vin13 m ρ c b :=
  fun b hb => W44_of_ne m ρ c b fun w e => hb (Finset.mem_image.mpr ⟨w, Finset.mem_univ _, e⟩)

/-- The contents when @main returns. -/
noncomputable abbrev Wfin : Dev nD → Valuation τ sig (Elt F) := W44 m ρ

end Cert.Kernel.Hand

end
-- ==== Proof.KB.B0.lean ====
/- Region 0 of @main (pipeline 0), the body's half: each input window's staging buffer before the body holds its
   block; the kernel body's triple over whole staging memrefs; and the pipeline's body obligation at every point,
   all at a parameter `V`: the TensorCore's buffer contents when the region is entered. -/
import proofs.«125545_j64845416235624_1_alg».proof.Proof.KB.D0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input window's staging buffer before the body -/

/-- Input window `w`'s current staging buffer holds its block at every point, fetched there or not, for any proof
    data whose array is `V`'s (`hA`) and whose body leaves the block in place (`hafter`): unfetched, the block index
    has not moved (the weight windows' index maps are constant); every window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The same of the region's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body's triple -/

set_option maxHeartbeats 4000000 in
/-- The kernel body on whole staging memrefs, the inputs' at read contents `x0 … x8` and the output's at anything, runs
    to the continuation holding the inputs' as they were and the output's at `out0` of the inputs': the printed
    functions are their skeletons, which the symbolic executor runs through the part call, the loads (the last one
    reads the output buffer and its value is unused) and the one store. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S5x128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 x1 x2 x3 x4 x5 : Vec F S2000x128 .f32) (x6 : Vec F S5x128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0 _)

/-! ## The body obligation, at a generic point -/

/-- What the body is called with at point `t` (the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_w`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.B1.lean ====
import proofs.«125545_j64845416235624_1_alg».proof.Proof.KB.D1

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the block index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the block index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): unfetched, the block index has
    not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s (`hA`) and whose body leaves the block in place (`hafter`): unfetched, the block index has
    not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

set_option maxHeartbeats 1000000 in
/-- The kernel body on whole staging memrefs, the inputs' at read contents `x0 … x4` and the output's at anything, runs
    to the continuation holding the inputs' as they were and the output's at `out1` of the inputs'. The body reads
    the five inputs whole, reads the output buffer once (the value is not used), and stores the payload over the
    whole output buffer. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.KB.B2.lean ====
import proofs.«125545_j64845416235624_1_alg».proof.Proof.KB.D2

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s (`hA`) and whose body leaves the block in place (`hafter`): unfetched, the block index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s (`hA`) and whose body leaves the block in place (`hafter`): unfetched, the block index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s (`hA`) and whose body leaves the block in place (`hafter`): unfetched, the block index has
    not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s (`hA`) and whose body leaves the block in place (`hafter`): unfetched, the block index has
    not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's triple -/

set_option maxHeartbeats 1000000 in
/-- The kernel body on whole staging memrefs, the inputs' at read contents `x0 … x4` and the output's at anything, runs
    to the continuation holding the inputs' as they were and the output's at `out2` of the inputs'. The body reads
    the five inputs whole, reads the output buffer once (the value is not used), and stores the payload over the
    whole output buffer. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before1_w`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.KB.B3.lean ====
import proofs.«125545_j64845416235624_1_alg».proof.Proof.KB.D3

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s (`hA`) and whose body leaves the block in place (`hafter`): unfetched, the block index has
    not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s (`hA`) and whose body leaves the block in place (`hafter`): unfetched, the block index has
    not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s (`hA`) and whose body leaves the block in place (`hafter`): unfetched, the block index has
    not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s (`hA`) and whose body leaves the block in place (`hafter`): unfetched, the block index has
    not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body's triple -/

set_option maxHeartbeats 1000000 in
/-- The kernel body on whole staging memrefs, the inputs' at read contents `x0 … x4` and the output's at anything, runs
    to the continuation holding the inputs' as they were and the output's at `out3` of the inputs'. The body reads
    the five inputs whole, reads the output buffer once (the value is not used), and stores the payload over the
    whole output buffer. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before1_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KB.B4.lean ====
/- Region 4 of @main (pipeline 4), the body's half: each input window's staging buffer before the body holds its
   block; the kernel body's triple over whole staging memrefs; and the pipeline's body obligation at every point,
   all at a parameter `V`: the TensorCore's buffer contents when the region is entered. -/
import proofs.«125545_j64845416235624_1_alg».proof.Proof.KB.D4

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input window's staging buffer before the body -/

/-- Input window `w`'s current staging buffer holds its block at every point, fetched there or not, for any proof
    data whose array is `V`'s (`hA`) and whose body leaves the block in place (`hafter`): unfetched, the block index
    has not moved (the weight windows' index maps are constant); every window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The same of the region's own proof data. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body's triple -/

set_option maxHeartbeats 4000000 in
/-- The kernel body on whole staging memrefs, the inputs' at read contents `x0 … x8` and the output's at anything, runs
    to the continuation holding the inputs' as they were and the output's at `out4` of the inputs': the printed
    functions are their skeletons, which the symbolic executor runs through the part call, the loads (the last one
    reads the output buffer and its value is unused) and the one store. -/
theorem sound_kernel4 (c : Dev nD) (E : Set ℕ) (i : grid4.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S5x128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 x1 x2 x3 x4 x5 : Vec F S2000x128 .f32) (x6 : Vec F S5x128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4 x0 x1 x2 x3 x4 x5 x6 x7 x8)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4 _)

/-! ## The body obligation, at a generic point -/

/-- What the body is called with at point `t` (the windows one by one), -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 1000000 in
/-- The body at any point: the inputs' memrefs hold their blocks (`before4_w`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.B5.lean ====
import proofs.«125545_j64845416235624_1_alg».proof.Proof.KB.D5

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s (`hA`) and whose body leaves the block in place (`hafter`): unfetched, the block index has
    not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s (`hA`) and whose body leaves the block in place (`hafter`): unfetched, the block index has
    not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s (`hA`) and whose body leaves the block in place (`hafter`): unfetched, the block index has
    not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s (`hA`) and whose body leaves the block in place (`hafter`): unfetched, the block index has
    not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body's triple -/

set_option maxHeartbeats 1000000 in
/-- The kernel body on whole staging memrefs, the inputs' at read contents `x0 … x4` and the output's at anything, runs
    to the continuation holding the inputs' as they were and the output's at `out5` of the inputs'. The body reads
    the five inputs whole, reads the output buffer once (the value is not used), and stores the payload over the
    whole output buffer. -/
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before1_w`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.KB.B6.lean ====
import proofs.«125545_j64845416235624_1_alg».proof.Proof.KB.D6

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is `V`'s (`hA`) and whose body leaves the block in place (`hafter`): unfetched, the block index has
    not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is `V`'s (`hA`) and whose body leaves the block in place (`hafter`): unfetched, the block index has
    not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is `V`'s (`hA`) and whose body leaves the block in place (`hafter`): unfetched, the block index has
    not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is `V`'s (`hA`) and whose body leaves the block in place (`hafter`): unfetched, the block index has
    not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body's triple -/

set_option maxHeartbeats 1000000 in
/-- The kernel body on whole staging memrefs, the inputs' at read contents `x0 … x4` and the output's at anything, runs
    to the continuation holding the inputs' as they were and the output's at `out6` of the inputs'. The body reads
    the five inputs whole, reads the output buffer once (the value is not used), and stores the payload over the
    whole output buffer. -/
theorem sound_kernel6 (c : Dev nD) (E : Set ℕ) (i : grid6.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out6 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before1_w`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KB.B7.lean ====
import proofs.«125545_j64845416235624_1_alg».proof.Proof.KB.D7

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s (`hA`) and whose body leaves the block in place (`hafter`): unfetched, the block index has
    not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s (`hA`) and whose body leaves the block in place (`hafter`): unfetched, the block index has
    not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is `V`'s (`hA`) and whose body leaves the block in place (`hafter`): unfetched, the block index has
    not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is `V`'s (`hA`) and whose body leaves the block in place (`hafter`): unfetched, the block index has
    not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body's triple -/

set_option maxHeartbeats 1000000 in
/-- The kernel body on whole staging memrefs, the inputs' at read contents `x0 … x4` and the output's at anything, runs
    to the continuation holding the inputs' as they were and the output's at `out7` of the inputs'. The body reads
    the five inputs whole, reads the output buffer once (the value is not used), and stores the payload over the
    whole output buffer. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7 _)

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before1_w`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.KB.B8.lean ====
/- Region 8 of @main (pipeline 8), the body's half: each input window's staging buffer before the body holds its
   block; the kernel body's triple over whole staging memrefs; and the pipeline's body obligation at every point,
   all at a parameter `V`: the TensorCore's buffer contents when the region is entered. -/
import proofs.«125545_j64845416235624_1_alg».proof.Proof.KB.D8

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input window's staging buffer before the body -/

/-- Input window `w`'s current staging buffer holds its block at every point, fetched there or not, for any proof
    data whose array is `V`'s (`hA`) and whose body leaves the block in place (`hafter`): unfetched, the block index
    has not moved (the weight windows' index maps are constant); every window uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- The same of the region's own proof data. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body's triple -/

set_option maxHeartbeats 4000000 in
/-- The kernel body on whole staging memrefs, the inputs' at read contents `x0 … x8` and the output's at anything, runs
    to the continuation holding the inputs' as they were and the output's at `out8` of the inputs': the printed
    functions are their skeletons, which the symbolic executor runs through the part call, the loads (the last one
    reads the output buffer and its value is unused) and the one store. -/
theorem sound_kernel8 (c : Dev nD) (E : Set ℕ) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S5x128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 x1 x2 x3 x4 x5 : Vec F S2000x128 .f32) (x6 : Vec F S5x128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8 x0 x1 x2 x3 x4 x5 x6 x7 x8)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10) K := by
  simp only [cc8_kernel_eq_skeleton]; unfold cc8_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8 _)

/-! ## The body obligation, at a generic point -/

/-- What the body is called with at point `t` (the windows one by one), -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

set_option maxHeartbeats 1000000 in
/-- The body at any point: the inputs' memrefs hold their blocks (`before8_w`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _
    (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.B9.lean ====
import proofs.«125545_j64845416235624_1_alg».proof.Proof.KB.D9

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof data
    whose array is `V`'s (`hA`) and whose body leaves the block in place (`hafter`): unfetched, the block index has
    not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof data
    whose array is `V`'s (`hA`) and whose body leaves the block in place (`hafter`): unfetched, the block index has
    not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof data
    whose array is `V`'s (`hA`) and whose body leaves the block in place (`hafter`): unfetched, the block index has
    not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof data
    whose array is `V`'s (`hA`) and whose body leaves the block in place (`hafter`): unfetched, the block index has
    not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body's triple -/

set_option maxHeartbeats 1000000 in
/-- The kernel body on whole staging memrefs, the inputs' at read contents `x0 … x4` and the output's at anything, runs
    to the continuation holding the inputs' as they were and the output's at `out9` of the inputs'. The body reads
    the five inputs whole, reads the output buffer once (the value is not used), and stores the payload over the
    whole output buffer. -/
theorem sound_kernel9 (c : Dev nD) (E : Set ℕ) (i : grid9.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9 x0 x1 x2 x3 x4)) -∗ K ⟨⟩))
      ⊢ wp frame (wpE (defs₀ (F := F)) Variants.none c none) E (cc9_kernel i arg1 harg1 arg2 harg2 arg3 harg3 arg4 harg4 arg5 harg5 arg6 harg6) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9 _)

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before1_w`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.KB.B10.lean ====
import proofs.«125545_j64845416235624_1_alg».proof.Proof.KB.D10

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is `V`'s (`hA`) and whose body leaves the block in place (`hafter`): unfetched, the block index has
    not moved; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is `V`'s (`hA`) and whose body leaves the block in place (`hafter`): unfetched, the block index has
    not moved; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof data
    whose array is `V`'s (`hA`) and whose body leaves the block in place (`hafter`): unfetched, the block index has
    not moved; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof data
    whose array is `V`'s (`hA`) and whose body leaves the block in place (`hafter`): unfetched, the block index has
    not moved; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body's triple -/

set_option maxHeartbeats 1000000 in
/-- The kernel body on whole staging memrefs, the inputs' at read contents `x0 … x4` and the output's at anything, runs
    to the continuation holding the inputs' as they were and the output's at `out10` of the inputs'. The body reads
    the five inputs whole, reads the output buffer once (the value is not used), and stores the payload over the
    whole output buffer. -/
theorem sound_kernel10 (c : Dev nD) (E : Set ℕ) (i : grid10.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out10 x0 x1 x2 x3 x4)) -∗ K ⟨⟩))
      ⊢ wp frame (wpE (defs₀ (F := F)) Variants.none c none) E (cc10_kernel i arg1 harg1 arg2 harg2 arg3 harg3 arg4 harg4 arg5 harg5 arg6 harg6) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10 _)

/-! ## The body obligation, at a generic point -/

/-- What the body is called with at point `t` (the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks (`before1_w`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand
-- ==== Proof.KB.B11.lean ====
import proofs.«125545_j64845416235624_1_alg».proof.Proof.KB.D11

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is `V`'s (`hA`) and whose body leaves the block in place (`hafter`): unfetched, the block index has
    not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is `V`'s (`hA`) and whose body leaves the block in place (`hafter`): unfetched, the block index has
    not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof data
    whose array is `V`'s (`hA`) and whose body leaves the block in place (`hafter`): unfetched, the block index has
    not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof data
    whose array is `V`'s (`hA`) and whose body leaves the block in place (`hafter`): unfetched, the block index has
    not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body's triple -/

set_option maxHeartbeats 1000000 in
/-- The kernel body on whole staging memrefs, the inputs' at read contents `x0 … x4` and the output's at anything, runs
    to the continuation holding the inputs' as they were and the output's at `out11` of the inputs'. The body reads
    the five inputs whole, reads the output buffer once (the value is not used), and stores the payload over the
    whole output buffer. -/
theorem sound_kernel11 (c : Dev nD) (E : Set ℕ) (i : grid11.Coords) (arg1 : Memref sig .tc .vmem S5000x128 .f32) (harg1 : arg1.IsWhole) (arg2 : Memref sig .tc .vmem S5000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out11 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11 _)

/-! ## The body obligation, at a generic point -/

/-- What the body is called with at point `t` (the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks (`before1_w`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.KB.B12.lean ====
/- Region 12 of @main (custom_call 12, `cc12__mlp_head_kernel`, pipeline 12): the body's half, over the definitions of the
   region's definition module. Each input window's staging buffer holds its block at every point (`before12_W`), the
   body's triple on whole staging memrefs (`sound_kernel12`), and the library's body obligation at every point
   (`body_obligation12`). -/
import proofs.«125545_j64845416235624_1_alg».proof.Proof.KB.D12

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The input windows' buffers when the body is called -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Each input's current staging buffer holds its block at every point, fetched there or not (`before12_W_of`). -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body's triple -/

set_option maxHeartbeats 1000000 in
/-- The kernel body on whole staging memrefs, the inputs' at read contents `xW` and the output's at anything, runs to
    the continuation holding the inputs' as they were and the output's at `out12` of the inputs': the printed function
    is its skeleton, which `sl_exec` runs (Lib/Exec.lean): five loads of the inputs, a load of the output buffer whose
    value is not used, and the one store. -/
theorem sound_kernel12 (c : Dev nD) (E : Set ℕ) (i : grid12.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S2000x2 .f32) (harg6 : arg6.IsWhole)
    (x0 : Vec F S2000x128 .f32) (x1 : Vec F S128x128 .f32) (x2 : Vec F S1x128 .f32) (x3 : Vec F S128x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out12 x0 x1 x2 x3 x4)) -∗ K ⟨⟩))
      ⊢ wp frame (wpE (defs₀ (F := F)) Variants.none c none) E (cc12__mlp_head_kernel i arg1 harg1 arg2 harg2 arg3 harg3 arg4 harg4 arg5 harg5 arg6 harg6) K := by
  simp only [cc12__mlp_head_kernel_eq_skeleton]; unfold cc12__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12 _)

/-! ## The body obligation, at a generic point -/

/-- What the body is called with at point `t` (Lib/Pipeline.lean `BodyObligation`'s precondition, the windows one by one), -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks (`before12_W`), so `sound_kernel12` applies; the invariant and
    the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Regions

end Cert.Kernel.Hand

end
-- ==== Proof.KB.B13.lean ====
/- Region 13 of @main (custom_call 13, `cc13__mlp_head_kernel`, pipeline 13): the body's half, over the definitions of the
   region's definition module. Each input window's staging buffer holds its block at every point (`before13_W`), the
   body's triple on whole staging memrefs (`sound_kernel13`), and the library's body obligation at every point
   (`body_obligation13`). -/
import proofs.«125545_j64845416235624_1_alg».proof.Proof.KB.D13

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The input windows' buffers when the body is called -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Each input's current staging buffer holds its block at every point, fetched there or not (`before13_W_of`). -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-! ## The body's triple -/

set_option maxHeartbeats 1000000 in
/-- The kernel body on whole staging memrefs, the inputs' at read contents `xW` and the output's at anything, runs to
    the continuation holding the inputs' as they were and the output's at `out13` of the inputs': the printed function
    is its skeleton, which `sl_exec` runs (Lib/Exec.lean): five loads of the inputs, a load of the output buffer whose
    value is not used, and the one store. -/
theorem sound_kernel13 (c : Dev nD) (E : Set ℕ) (i : grid13.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S2000x2 .f32) (harg6 : arg6.IsWhole)
    (x0 : Vec F S2000x128 .f32) (x1 : Vec F S128x128 .f32) (x2 : Vec F S1x128 .f32) (x3 : Vec F S128x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out13 x0 x1 x2 x3 x4)) -∗ K ⟨⟩))
      ⊢ wp frame (wpE (defs₀ (F := F)) Variants.none c none) E (cc13__mlp_head_kernel i arg1 harg1 arg2 harg2 arg3 harg3 arg4 harg4 arg5 harg5 arg6 harg6) K := by
  simp only [cc13__mlp_head_kernel_eq_skeleton]; unfold cc13__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover13 _)

/-! ## The body obligation, at a generic point -/

/-- What the body is called with at point `t` (Lib/Pipeline.lean `BodyObligation`'s precondition, the windows one by one), -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- The body at any point: the inputs' memrefs hold their blocks (`before13_W`), so `sound_kernel13` applies; the invariant and
    the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation13 (c : Dev nD) : BodyObligation (dat13 (F := F) V c) (defs₀ (F := F)) Variants.none () Set.univ := fun t => by
  rw [bigSep_W13, bigSep_W13]
  exact sound_body13 V c t

end Regions

end Cert.Kernel.Hand

end
-- ==== Proof.KB.Run.lean ====
/- @main's run as segments: every pipeline's proof data at its region's entry contents, a host segment per line of
   operations and a region segment per kernel region over the thread state "every unscoped buffer at the boundary's
   contents, the generator register at some state, nothing owed", and the launch over the 44 segments: @main
   terminates, nothing faulting, and every final state holds the last boundary's contents at every unscoped buffer. -/
import proofs.«125545_j64845416235624_1_alg».proof.Proof.KB.Fold
import proofs.«125545_j64845416235624_1_alg».proof.Proof.KB.B0
import proofs.«125545_j64845416235624_1_alg».proof.Proof.KB.B1
import proofs.«125545_j64845416235624_1_alg».proof.Proof.KB.B2
import proofs.«125545_j64845416235624_1_alg».proof.Proof.KB.B3
import proofs.«125545_j64845416235624_1_alg».proof.Proof.KB.B4
import proofs.«125545_j64845416235624_1_alg».proof.Proof.KB.B5
import proofs.«125545_j64845416235624_1_alg».proof.Proof.KB.B6
import proofs.«125545_j64845416235624_1_alg».proof.Proof.KB.B7
import proofs.«125545_j64845416235624_1_alg».proof.Proof.KB.B8
import proofs.«125545_j64845416235624_1_alg».proof.Proof.KB.B9
import proofs.«125545_j64845416235624_1_alg».proof.Proof.KB.B10
import proofs.«125545_j64845416235624_1_alg».proof.Proof.KB.B11
import proofs.«125545_j64845416235624_1_alg».proof.Proof.KB.B12
import proofs.«125545_j64845416235624_1_alg».proof.Proof.KB.B13

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
noncomputable abbrev adm : (p : Fin 14) → (pcfgs (F := F) p).Adm := fun p => (cfgs p).toPCfg_adm
/-- Every pipeline's proof data, each at its region's entry contents: a literal `match`, so that the pinned
    configuration at a numeral reduces to the printed one. -/
noncomputable def pdats : (p : Fin 14) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c
  | ⟨8, _⟩ => fun c => dat8 (Vin8 m ρ) c
  | ⟨9, _⟩ => fun c => dat9 (Vin9 m ρ) c
  | ⟨10, _⟩ => fun c => dat10 (Vin10 m ρ) c
  | ⟨11, _⟩ => fun c => dat11 (Vin11 m ρ) c
  | ⟨12, _⟩ => fun c => dat12 (Vin12 m ρ) c
  | ⟨13, _⟩ => fun c => dat13 (Vin13 m ρ) c
noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What rides beside the buffers through every segment: the core's generator register at some state and its `owes`, at nothing. -/
noncomputable abbrev R (c : Dev nD) : sProp 𝕄 := iprop((∃ r, prngReg c r) ∗ ∃ W, owes (c : Thread nD τ) (0 : CellTallies nD τ sig Unit) W)
/-- A line of host operations as a segment over the unscoped references from the contents `W`, `R` riding along: it runs to
    those references at `StableHlo.after ops (W c)`, the next boundary's contents by name. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
noncomputable abbrev Tₙ (c : Dev nD) : sProp 𝕄 := iprop(StableHlo.held (c : Thread nD τ) (Pipeline.ucRefs τ sig) (Wfin m ρ c) ∗ ∃ r, prngReg c r)

/-! ## No line of host operations allocates a buffer -/

/-- No operation of `main_part0_ops0` allocates a buffer. -/
theorem main_part0_ops0_fresh : (main_part0_ops0 : List (HloOp τ sig (Elt F))).Forall fun op => op.fresh = ∅ := by
  simp only [List.Forall]; repeat' constructor

/-- No operation of `main_part1_ops0` allocates a buffer. -/
theorem main_part1_ops0_fresh : (main_part1_ops0 : List (HloOp τ sig (Elt F))).Forall fun op => op.fresh = ∅ := by
  simp only [List.Forall]; repeat' constructor

/-- No operation of `main_part2_ops0` allocates a buffer. -/
theorem main_part2_ops0_fresh : (main_part2_ops0 : List (HloOp τ sig (Elt F))).Forall fun op => op.fresh = ∅ := by
  simp only [List.Forall]; repeat' constructor

/-- No operation of `main_part3_ops0` allocates a buffer. -/
theorem main_part3_ops0_fresh : (main_part3_ops0 : List (HloOp τ sig (Elt F))).Forall fun op => op.fresh = ∅ := by
  simp only [List.Forall]; repeat' constructor

/-- No operation of `main_part4_ops0` allocates a buffer. -/
theorem main_part4_ops0_fresh : (main_part4_ops0 : List (HloOp τ sig (Elt F))).Forall fun op => op.fresh = ∅ := by
  simp only [List.Forall]; repeat' constructor

/-- No operation of `main_part4_ops1` allocates a buffer. -/
theorem main_part4_ops1_fresh : (main_part4_ops1 : List (HloOp τ sig (Elt F))).Forall fun op => op.fresh = ∅ := by
  simp only [List.Forall]; repeat' constructor

/-- No operation of `main_part5_ops0` allocates a buffer. -/
theorem main_part5_ops0_fresh : (main_part5_ops0 : List (HloOp τ sig (Elt F))).Forall fun op => op.fresh = ∅ := by
  simp only [List.Forall]; repeat' constructor

/-- No operation of `main_part5_ops1` allocates a buffer. -/
theorem main_part5_ops1_fresh : (main_part5_ops1 : List (HloOp τ sig (Elt F))).Forall fun op => op.fresh = ∅ := by
  simp only [List.Forall]; repeat' constructor

/-- No operation of `main_part5_ops2` allocates a buffer. -/
theorem main_part5_ops2_fresh : (main_part5_ops2 : List (HloOp τ sig (Elt F))).Forall fun op => op.fresh = ∅ := by
  simp only [List.Forall]; repeat' constructor

/-- No operation of `main_part5_ops3` allocates a buffer. -/
theorem main_part5_ops3_fresh : (main_part5_ops3 : List (HloOp τ sig (Elt F))).Forall fun op => op.fresh = ∅ := by
  simp only [List.Forall]; repeat' constructor

/-- No operation of `main_part6_ops0` allocates a buffer. -/
theorem main_part6_ops0_fresh : (main_part6_ops0 : List (HloOp τ sig (Elt F))).Forall fun op => op.fresh = ∅ := by
  simp only [List.Forall]; repeat' constructor

/-- No operation of `main_part7_ops0` allocates a buffer. -/
theorem main_part7_ops0_fresh : (main_part7_ops0 : List (HloOp τ sig (Elt F))).Forall fun op => op.fresh = ∅ := by
  simp only [List.Forall]; repeat' constructor

/-- No operation of `main_part8_ops0` allocates a buffer. -/
theorem main_part8_ops0_fresh : (main_part8_ops0 : List (HloOp τ sig (Elt F))).Forall fun op => op.fresh = ∅ := by
  simp only [List.Forall]; repeat' constructor

/-- No operation of `main_part9_ops0` allocates a buffer. -/
theorem main_part9_ops0_fresh : (main_part9_ops0 : List (HloOp τ sig (Elt F))).Forall fun op => op.fresh = ∅ := by
  simp only [List.Forall]; repeat' constructor

/-- No operation of `main_part10_ops0` allocates a buffer. -/
theorem main_part10_ops0_fresh : (main_part10_ops0 : List (HloOp τ sig (Elt F))).Forall fun op => op.fresh = ∅ := by
  simp only [List.Forall]; repeat' constructor

/-- No operation of `main_part10_ops1` allocates a buffer. -/
theorem main_part10_ops1_fresh : (main_part10_ops1 : List (HloOp τ sig (Elt F))).Forall fun op => op.fresh = ∅ := by
  simp only [List.Forall]; repeat' constructor

/-- No operation of `main_part10_ops2` allocates a buffer. -/
theorem main_part10_ops2_fresh : (main_part10_ops2 : List (HloOp τ sig (Elt F))).Forall fun op => op.fresh = ∅ := by
  simp only [List.Forall]; repeat' constructor

/-- No operation of `main_part10_ops3` allocates a buffer. -/
theorem main_part10_ops3_fresh : (main_part10_ops3 : List (HloOp τ sig (Elt F))).Forall fun op => op.fresh = ∅ := by
  simp only [List.Forall]; repeat' constructor

/-- No operation of `main_part10_ops4` allocates a buffer. -/
theorem main_part10_ops4_fresh : (main_part10_ops4 : List (HloOp τ sig (Elt F))).Forall fun op => op.fresh = ∅ := by
  simp only [List.Forall]; repeat' constructor

/-- No operation of `main_part11_ops0` allocates a buffer. -/
theorem main_part11_ops0_fresh : (main_part11_ops0 : List (HloOp τ sig (Elt F))).Forall fun op => op.fresh = ∅ := by
  simp only [List.Forall]; repeat' constructor

/-- No operation of `main_part12_ops0` allocates a buffer. -/
theorem main_part12_ops0_fresh : (main_part12_ops0 : List (HloOp τ sig (Elt F))).Forall fun op => op.fresh = ∅ := by
  simp only [List.Forall]; repeat' constructor

/-- No operation of `main_part13_ops0` allocates a buffer. -/
theorem main_part13_ops0_fresh : (main_part13_ops0 : List (HloOp τ sig (Elt F))).Forall fun op => op.fresh = ∅ := by
  simp only [List.Forall]; repeat' constructor

/-- No operation of `main_part14_ops0` allocates a buffer. -/
theorem main_part14_ops0_fresh : (main_part14_ops0 : List (HloOp τ sig (Elt F))).Forall fun op => op.fresh = ∅ := by
  simp only [List.Forall]; repeat' constructor

/-- No operation of `main_part15_ops0` allocates a buffer. -/
theorem main_part15_ops0_fresh : (main_part15_ops0 : List (HloOp τ sig (Elt F))).Forall fun op => op.fresh = ∅ := by
  simp only [List.Forall]; repeat' constructor

/-- No operation of `main_part15_ops1` allocates a buffer. -/
theorem main_part15_ops1_fresh : (main_part15_ops1 : List (HloOp τ sig (Elt F))).Forall fun op => op.fresh = ∅ := by
  simp only [List.Forall]; repeat' constructor

/-- No operation of `main_part15_ops2` allocates a buffer. -/
theorem main_part15_ops2_fresh : (main_part15_ops2 : List (HloOp τ sig (Elt F))).Forall fun op => op.fresh = ∅ := by
  simp only [List.Forall]; repeat' constructor

/-- No operation of `main_part15_ops3` allocates a buffer. -/
theorem main_part15_ops3_fresh : (main_part15_ops3 : List (HloOp τ sig (Elt F))).Forall fun op => op.fresh = ∅ := by
  simp only [List.Forall]; repeat' constructor

/-- No operation of `main_part16_ops0` allocates a buffer. -/
theorem main_part16_ops0_fresh : (main_part16_ops0 : List (HloOp τ sig (Elt F))).Forall fun op => op.fresh = ∅ := by
  simp only [List.Forall]; repeat' constructor

/-- No operation of `main_part16_ops1` allocates a buffer. -/
theorem main_part16_ops1_fresh : (main_part16_ops1 : List (HloOp τ sig (Elt F))).Forall fun op => op.fresh = ∅ := by
  simp only [List.Forall]; repeat' constructor

/-- No operation of `main_part16_ops2` allocates a buffer. -/
theorem main_part16_ops2_fresh : (main_part16_ops2 : List (HloOp τ sig (Elt F))).Forall fun op => op.fresh = ∅ := by
  simp only [List.Forall]; repeat' constructor

/-! ## The regions as segments -/

-- applying a library lemma stated over the pinned configuration unifies with the printed one only when unification may
-- unfold plain definitions in a metavariable's type
set_option backward.isDefEq.respectTransparency.types false in
/-- Region 0 over the thread state: entered from every unscoped buffer at its entry contents, left at its exit
    contents. Its arrays split out of the unscoped buffers and put back at the exit contents; the generator register into the
    class invariant and out; nothing owed; no semaphore of the kernel's own. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (Win0 m ρ c) ∗ R c)
  post c := iprop(StableHlo.held (c : Thread nD τ) (Pipeline.ucRefs τ sig) (Wout0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at its entry contents, left at its exit
    contents. Its arrays split out of the unscoped buffers and put back at the exit contents; the generator register into the
    class invariant and out; nothing owed; no semaphore of the kernel's own. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (Win1 m ρ c) ∗ R c)
  post c := iprop(StableHlo.held (c : Thread nD τ) (Pipeline.ucRefs τ sig) (Wout1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2 over the thread state: entered from every unscoped buffer at its entry contents, left at its exit
    contents. Its arrays split out of the unscoped buffers and put back at the exit contents; the generator register into the
    class invariant and out; nothing owed; no semaphore of the kernel's own. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (Win2 m ρ c) ∗ R c)
  post c := iprop(StableHlo.held (c : Thread nD τ) (Pipeline.ucRefs τ sig) (Wout2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3 over the thread state: entered from every unscoped buffer at its entry contents, left at its exit
    contents. Its arrays split out of the unscoped buffers and put back at the exit contents; the generator register into the
    class invariant and out; nothing owed; no semaphore of the kernel's own. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (Win3 m ρ c) ∗ R c)
  post c := iprop(StableHlo.held (c : Thread nD τ) (Pipeline.ucRefs τ sig) (Wout3 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 4 over the thread state: entered from every unscoped buffer at its entry contents, left at its exit
    contents. Its arrays split out of the unscoped buffers and put back at the exit contents; the generator register into the
    class invariant and out; nothing owed; no semaphore of the kernel's own. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (Win4 m ρ c) ∗ R c)
  post c := iprop(StableHlo.held (c : Thread nD τ) (Pipeline.ucRefs τ sig) (Wout4 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 5 over the thread state: entered from every unscoped buffer at its entry contents, left at its exit
    contents. Its arrays split out of the unscoped buffers and put back at the exit contents; the generator register into the
    class invariant and out; nothing owed; no semaphore of the kernel's own. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (Win5 m ρ c) ∗ R c)
  post c := iprop(StableHlo.held (c : Thread nD τ) (Pipeline.ucRefs τ sig) (Wout5 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 6 over the thread state: entered from every unscoped buffer at its entry contents, left at its exit
    contents. Its arrays split out of the unscoped buffers and put back at the exit contents; the generator register into the
    class invariant and out; nothing owed; no semaphore of the kernel's own. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin6 m ρ) c).loose
  hwaits := Pipeline.hwaits_of_owed_zero _ _ _ _ L lv 6 fun _ _ => rfl
  pre c := iprop(StableHlo.held (c : Thread nD τ) (Pipeline.ucRefs τ sig) (Win6 m ρ c) ∗ R c)
  post c := iprop(StableHlo.held (c : Thread nD τ) (Pipeline.ucRefs τ sig) (Wout6 m ρ c) ∗ R c)
  X c := iprop(∃ r, prngReg c r)
  Y c := iprop(∃ r, prngReg c r)
  Z c := Pipeline.unscopedRest (Ix := Unit) (Name := ℕ) (U := UR sig nD τ) (Lvl := ℕ) spec6 c (Vin6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vin6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vin6 m ρ c) (Vout6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 7 over the thread state: entered from every unscoped buffer at its entry contents, left at its exit
    contents. Its arrays split out of the unscoped buffers and put back at the exit contents; the generator register into the
    class invariant and out; nothing owed; no semaphore of the kernel's own. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin7 m ρ) c).loose
  hwaits := Pipeline.hwaits_of_owed_zero _ _ _ _ L lv 7 fun _ _ => rfl
  pre c := iprop(StableHlo.held (c : Thread nD τ) (Pipeline.ucRefs τ sig) (Win7 m ρ c) ∗ R c)
  post c := iprop(StableHlo.held (c : Thread nD τ) (Pipeline.ucRefs τ sig) (Wout7 m ρ c) ∗ R c)
  X c := iprop(∃ r, prngReg c r)
  Y c := iprop(∃ r, prngReg c r)
  Z c := Pipeline.unscopedRest (Ix := Unit) (Name := ℕ) (U := UR sig nD τ) (Lvl := ℕ) spec7 c (Vin7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vin7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vin7 m ρ c) (Vout7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 8 over the thread state: entered from every unscoped buffer at its entry contents, left at its exit
    contents. Its arrays split out of the unscoped buffers and put back at the exit contents; the generator register into the
    class invariant and out; nothing owed; no semaphore of the kernel's own. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin8 m ρ) c).loose
  hwaits := Pipeline.hwaits_of_owed_zero _ _ _ _ L lv 8 fun _ _ => rfl
  pre c := iprop(StableHlo.held (c : Thread nD τ) (Pipeline.ucRefs τ sig) (Win8 m ρ c) ∗ R c)
  post c := iprop(StableHlo.held (c : Thread nD τ) (Pipeline.ucRefs τ sig) (Wout8 m ρ c) ∗ R c)
  X c := iprop(∃ r, prngReg c r)
  Y c := iprop(∃ r, prngReg c r)
  Z c := Pipeline.unscopedRest (Ix := Unit) (Name := ℕ) (U := UR sig nD τ) (Lvl := ℕ) spec8 c (Vin8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vin8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vin8 m ρ c) (Vout8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 9 over the thread state: entered from every unscoped buffer at its entry contents, left at its exit
    contents. Its arrays split out of the unscoped buffers and put back at the exit contents; the generator register into the
    class invariant and out; nothing owed; no semaphore of the kernel's own. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin9 m ρ) c).loose
  hwaits := Pipeline.hwaits_of_owed_zero _ _ _ _ L lv 9 fun _ _ => rfl
  pre c := iprop(StableHlo.held (c : Thread nD τ) (Pipeline.ucRefs τ sig) (Win9 m ρ c) ∗ R c)
  post c := iprop(StableHlo.held (c : Thread nD τ) (Pipeline.ucRefs τ sig) (Wout9 m ρ c) ∗ R c)
  X c := iprop(∃ r, prngReg c r)
  Y c := iprop(∃ r, prngReg c r)
  Z c := Pipeline.unscopedRest (Ix := Unit) (Name := ℕ) (U := UR sig nD τ) (Lvl := ℕ) spec9 c (Vin9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vin9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vin9 m ρ c) (Vout9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 10 over the thread state: entered from every unscoped buffer at its entry contents, left at its exit
    contents. Its arrays split out of the unscoped buffers and put back at the exit contents; the generator register into the
    class invariant and out; nothing owed; no semaphore of the kernel's own. -/
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vin10 m ρ) c).loose
  hwaits := Pipeline.hwaits_of_owed_zero _ _ _ _ L lv 10 fun _ _ => rfl
  pre c := iprop(StableHlo.held (c : Thread nD τ) (Pipeline.ucRefs τ sig) (Win10 m ρ c) ∗ R c)
  post c := iprop(StableHlo.held (c : Thread nD τ) (Pipeline.ucRefs τ sig) (Wout10 m ρ c) ∗ R c)
  X c := iprop(∃ r, prngReg c r)
  Y c := iprop(∃ r, prngReg c r)
  Z c := Pipeline.unscopedRest (Ix := Unit) (Name := ℕ) (U := UR sig nD τ) (Lvl := ℕ) spec10 c (Vin10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vin10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vin10 m ρ c) (Vout10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 11 over the thread state: entered from every unscoped buffer at its entry contents, left at its exit
    contents. Its arrays split out of the unscoped buffers and put back at the exit contents; the generator register into the
    class invariant and out; nothing owed; no semaphore of the kernel's own. -/
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vin11 m ρ) c).loose
  hwaits := Pipeline.hwaits_of_owed_zero _ _ _ _ L lv 11 fun _ _ => rfl
  pre c := iprop(StableHlo.held (c : Thread nD τ) (Pipeline.ucRefs τ sig) (Win11 m ρ c) ∗ R c)
  post c := iprop(StableHlo.held (c : Thread nD τ) (Pipeline.ucRefs τ sig) (Wout11 m ρ c) ∗ R c)
  X c := iprop(∃ r, prngReg c r)
  Y c := iprop(∃ r, prngReg c r)
  Z c := Pipeline.unscopedRest (Ix := Unit) (Name := ℕ) (U := UR sig nD τ) (Lvl := ℕ) spec11 c (Vin11 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vin11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vin11 m ρ c) (Vout11 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 12 over the thread state: entered from every unscoped buffer at its entry contents, left at its exit
    contents. Its arrays split out of the unscoped buffers and put back at the exit contents; the generator register into the
    class invariant and out; nothing owed; no semaphore of the kernel's own. -/
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vin12 m ρ) c).loose
  hwaits := Pipeline.hwaits_of_owed_zero _ _ _ _ L lv 12 fun _ _ => rfl
  pre c := iprop(StableHlo.held (c : Thread nD τ) (Pipeline.ucRefs τ sig) (Win12 m ρ c) ∗ R c)
  post c := iprop(StableHlo.held (c : Thread nD τ) (Pipeline.ucRefs τ sig) (Wout12 m ρ c) ∗ R c)
  X c := iprop(∃ r, prngReg c r)
  Y c := iprop(∃ r, prngReg c r)
  Z c := Pipeline.unscopedRest (Ix := Unit) (Name := ℕ) (U := UR sig nD τ) (Lvl := ℕ) spec12 c (Vin12 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (Vin12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (Vin12 m ρ c) (Vout12 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 13 over the thread state: entered from every unscoped buffer at its entry contents, left at its exit
    contents. Its arrays split out of the unscoped buffers and put back at the exit contents; the generator register into the
    class invariant and out; nothing owed; no semaphore of the kernel's own. -/
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vin13 m ρ) c).loose
  hwaits := Pipeline.hwaits_of_owed_zero _ _ _ _ L lv 13 fun _ _ => rfl
  pre c := iprop(StableHlo.held (c : Thread nD τ) (Pipeline.ucRefs τ sig) (Win13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec13 c (Vin13 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (Vin13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (Vin13 m ρ c) (Vout13 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 44 segments in order: a host segment per line of operations from its boundary's contents, a region per pallas_call. -/
noncomputable abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part2_ops0 main_part2_ops0_sub main_part2_ops0_fresh (W2 m ρ)),
    .host (hseg main_part3_ops0 main_part3_ops0_sub main_part3_ops0_fresh (W3 m ρ)),
    .host (hseg main_part4_ops0 main_part4_ops0_sub main_part4_ops0_fresh (W4 m ρ)),
    .region (reg0 m ρ),
    .host (hseg main_part4_ops1 main_part4_ops1_sub main_part4_ops1_fresh (W6 m ρ)),
    .host (hseg main_part5_ops0 main_part5_ops0_sub main_part5_ops0_fresh (W7 m ρ)),
    .region (reg1 m ρ),
    .host (hseg main_part5_ops1 main_part5_ops1_sub main_part5_ops1_fresh (W9 m ρ)),
    .region (reg2 m ρ),
    .host (hseg main_part5_ops2 main_part5_ops2_sub main_part5_ops2_fresh (W11 m ρ)),
    .region (reg3 m ρ),
    .host (hseg main_part5_ops3 main_part5_ops3_sub main_part5_ops3_fresh (W13 m ρ)),
    .host (hseg main_part6_ops0 main_part6_ops0_sub main_part6_ops0_fresh (W14 m ρ)),
    .host (hseg main_part7_ops0 main_part7_ops0_sub main_part7_ops0_fresh (W15 m ρ)),
    .host (hseg main_part8_ops0 main_part8_ops0_sub main_part8_ops0_fresh (W16 m ρ)),
    .host (hseg main_part9_ops0 main_part9_ops0_sub main_part9_ops0_fresh (W17 m ρ)),
    .host (hseg main_part10_ops0 main_part10_ops0_sub main_part10_ops0_fresh (W18 m ρ)),
    .region (reg4 m ρ),
    .host (hseg main_part10_ops1 main_part10_ops1_sub main_part10_ops1_fresh (W20 m ρ)),
    .region (reg5 m ρ),
    .host (hseg main_part10_ops2 main_part10_ops2_sub main_part10_ops2_fresh (W22 m ρ)),
    .region (reg6 m ρ),
    .host (hseg main_part10_ops3 main_part10_ops3_sub main_part10_ops3_fresh (W24 m ρ)),
    .region (reg7 m ρ),
    .host (hseg main_part10_ops4 main_part10_ops4_sub main_part10_ops4_fresh (W26 m ρ)),
    .host (hseg main_part11_ops0 main_part11_ops0_sub main_part11_ops0_fresh (W27 m ρ)),
    .host (hseg main_part12_ops0 main_part12_ops0_sub main_part12_ops0_fresh (W28 m ρ)),
    .host (hseg main_part13_ops0 main_part13_ops0_sub main_part13_ops0_fresh (W29 m ρ)),
    .host (hseg main_part14_ops0 main_part14_ops0_sub main_part14_ops0_fresh (W30 m ρ)),
    .host (hseg main_part15_ops0 main_part15_ops0_sub main_part15_ops0_fresh (W31 m ρ)),
    .region (reg8 m ρ),
    .host (hseg main_part15_ops1 main_part15_ops1_sub main_part15_ops1_fresh (W33 m ρ)),
    .region (reg9 m ρ),
    .host (hseg main_part15_ops2 main_part15_ops2_sub main_part15_ops2_fresh (W35 m ρ)),
    .region (reg10 m ρ),
    .host (hseg main_part15_ops3 main_part15_ops3_sub main_part15_ops3_fresh (W37 m ρ)),
    .host (hseg main_part16_ops0 main_part16_ops0_sub main_part16_ops0_fresh (W38 m ρ)),
    .region (reg11 m ρ),
    .host (hseg main_part16_ops1 main_part16_ops1_sub main_part16_ops1_fresh (W40 m ρ)),
    .region (reg12 m ρ),
    .host (hseg main_part16_ops2 main_part16_ops2_sub main_part16_ops2_fresh (W42 m ρ)),
    .region (reg13 m ρ) ]
/-- @main is the run of the segments: the chain of its items, then the segments' run against that chain by the kernel's
    definitional check. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state holds at every unscoped buffer the last boundary's
    contents: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

end Cert.Kernel.Hand

end
-- ==== Proof.KB.Keep.lean ====
import proofs.«125545_j64845416235624_1_alg».proof.Proof.Gen.Kernel.Launch
import Idealize.ShloMosaic.Lib.StableHlo.Run

set_option maxRecDepth 7380

noncomputable section

namespace Cert.Kernel.Hand

open Idealize.ShloMosaic Idealize.ShloMosaic.TcCoe
open Cert.Kernel Cert.Kernel.Gen

variable {F : FTy → Type} [FloatOps F]

/-! # What @main's host operations leave alone

Every host operation writes one buffer, its result. So a line of them leaves every reference that is not one of its
results as it was: `after_keep`, then per host piece of @main the list of its results (`wr_…`), that the piece writes
exactly those (`writes_…`) and the resulting `keep_…`; the tactic `keep_after` picks the piece's lemma from the goal. -/

/-- A line whose operations write, one each and in order, exactly the references of the list `Y` leaves every
    reference outside `Y` as it was (each operation's result leaves what it does not write). -/
theorem after_keep {Val : EltTy → Type} {ops : List (HloOp τ sig Val)} {Y : List (Ref sig .tc)}
    (h : List.Forall₂ (fun op y => op.writes = {Proc.devRef .tc y}) ops Y) (V : Valuation τ sig Val)
    {b : Ref sig .tc} (hb : b ∉ Y) : StableHlo.after ops V (Proc.devRef .tc b) = V (Proc.devRef .tc b) := by
  induction h generalizing V with
  | nil => rfl
  | cons hw _ ih =>
    rw [StableHlo.after_cons, ih _ (fun hm => hb (List.mem_cons_of_mem _ hm))]
    exact HloOp.result_of_not_mem _ _ (by
      rw [hw, Finset.mem_singleton]
      exact StableHlo.devRef_ne_of_ne (fun e => hb (e ▸ List.mem_cons_self)))

/-! ## The host pieces -/

/-- The references the operations of `main_part0_ops0` write, one each, in order. -/
abbrev wr_main_part0_ops0 : List (Ref sig .tc) :=
  [main_v0, main_v1, main_c, main_v2, main_v3, main_c_0, main_v4, main_v5, main_v6, main_v7, main_v8, main_v9, main_v10, main_cst, main_v11, main_v12, main_v13, main_cst_1, main_v14, main_v15, main_v16, main_cst_2, main_v17, main_v18, main_v19, main_cst_3, main_v20, main_v21, main_v22, main_v23, main_v24, main_v25, main_v26, main_c_4, main_v27, main_v28, main_c_5, main_v29, main_v30, main_v31, main_v32, main_v33, main_v34, main_v35, main_cst_6, main_v36, main_v37, main_v38, main_cst_7, main_v39, main_v40, main_v41, main_cst_8, main_v42, main_v43, main_v44, main_cst_9, main_v45, main_v46, main_v47]
theorem writes_main_part0_ops0 : List.Forall₂ (fun (op : HloOp τ sig (Elt F)) y => op.writes = {Proc.devRef .tc y}) main_part0_ops0 wr_main_part0_ops0 :=
  .cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.nil))))))))))))))))))))))))))))))))))))))))))))))))))))))))))))
/-- `main_part0_ops0` leaves every reference it does not write as it was. -/
theorem keep_main_part0_ops0 (W : Valuation τ sig (Elt F)) (b : Ref sig .tc) (hb : b ∉ wr_main_part0_ops0) :
    StableHlo.after main_part0_ops0 W (Proc.devRef .tc b) = W (Proc.devRef .tc b) :=
  after_keep writes_main_part0_ops0 W hb

/-- The references the operations of `main_part1_ops0` write, one each, in order. -/
abbrev wr_main_part1_ops0 : List (Ref sig .tc) :=
  [main_v48, main_v49, main_v50, main_v51, main_c_10, main_v52, main_v53, main_c_11, main_v54, main_v55, main_v56, main_v57, main_v58, main_v59, main_v60, main_cst_12, main_v61, main_v62, main_v63, main_cst_13, main_v64, main_v65, main_v66, main_cst_14, main_v67, main_v68, main_v69, main_cst_15, main_v70, main_v71, main_v72, main_v73, main_v74, main_v75, main_v76, main_c_16, main_v77, main_v78, main_c_17, main_v79, main_v80, main_v81, main_v82, main_v83, main_v84, main_v85, main_cst_18, main_v86, main_v87, main_v88, main_cst_19, main_v89, main_v90, main_v91, main_cst_20, main_v92, main_v93, main_v94, main_cst_21, main_v95]
theorem writes_main_part1_ops0 : List.Forall₂ (fun (op : HloOp τ sig (Elt F)) y => op.writes = {Proc.devRef .tc y}) main_part1_ops0 wr_main_part1_ops0 :=
  .cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.nil))))))))))))))))))))))))))))))))))))))))))))))))))))))))))))
/-- `main_part1_ops0` leaves every reference it does not write as it was. -/
theorem keep_main_part1_ops0 (W : Valuation τ sig (Elt F)) (b : Ref sig .tc) (hb : b ∉ wr_main_part1_ops0) :
    StableHlo.after main_part1_ops0 W (Proc.devRef .tc b) = W (Proc.devRef .tc b) :=
  after_keep writes_main_part1_ops0 W hb

/-- The references the operations of `main_part2_ops0` write, one each, in order. -/
abbrev wr_main_part2_ops0 : List (Ref sig .tc) :=
  [main_v96, main_v97, main_v98, main_v99, main_v100, main_v101, main_c_22, main_v102, main_v103, main_c_23, main_v104, main_v105, main_v106, main_v107, main_v108, main_v109, main_v110, main_cst_24, main_v111, main_v112, main_v113, main_cst_25, main_v114, main_v115, main_v116, main_cst_26, main_v117, main_v118, main_v119, main_cst_27, main_v120, main_v121, main_v122, main_v123, main_v124, main_v125, main_v126, main_c_28, main_v127, main_v128, main_c_29, main_v129, main_v130, main_v131, main_v132, main_v133, main_v134, main_v135, main_cst_30, main_v136, main_v137, main_v138, main_cst_31, main_v139, main_v140, main_v141, main_cst_32, main_v142, main_v143, main_v144]
theorem writes_main_part2_ops0 : List.Forall₂ (fun (op : HloOp τ sig (Elt F)) y => op.writes = {Proc.devRef .tc y}) main_part2_ops0 wr_main_part2_ops0 :=
  .cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.nil))))))))))))))))))))))))))))))))))))))))))))))))))))))))))))
/-- `main_part2_ops0` leaves every reference it does not write as it was. -/
theorem keep_main_part2_ops0 (W : Valuation τ sig (Elt F)) (b : Ref sig .tc) (hb : b ∉ wr_main_part2_ops0) :
    StableHlo.after main_part2_ops0 W (Proc.devRef .tc b) = W (Proc.devRef .tc b) :=
  after_keep writes_main_part2_ops0 W hb

/-- The references the operations of `main_part3_ops0` write, one each, in order. -/
abbrev wr_main_part3_ops0 : List (Ref sig .tc) :=
  [main_cst_33, main_v145, main_v146, main_v147, main_v148, main_v149, main_v150, main_v151, main_c_34, main_v152, main_v153, main_c_35, main_v154, main_v155, main_v156, main_v157, main_v158, main_v159, main_v160, main_cst_36, main_v161, main_v162, main_v163, main_cst_37, main_v164, main_v165, main_v166, main_cst_38, main_v167, main_v168, main_v169, main_cst_39, main_v170, main_v171, main_v172, main_v173, main_v174, main_v175, main_v176, main_c_40, main_v177, main_v178, main_c_41, main_v179, main_v180, main_v181, main_v182, main_v183, main_v184, main_v185, main_cst_42, main_v186, main_v187, main_v188, main_cst_43, main_v189, main_v190, main_v191, main_cst_44, main_v192]
theorem writes_main_part3_ops0 : List.Forall₂ (fun (op : HloOp τ sig (Elt F)) y => op.writes = {Proc.devRef .tc y}) main_part3_ops0 wr_main_part3_ops0 :=
  .cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.nil))))))))))))))))))))))))))))))))))))))))))))))))))))))))))))
/-- `main_part3_ops0` leaves every reference it does not write as it was. -/
theorem keep_main_part3_ops0 (W : Valuation τ sig (Elt F)) (b : Ref sig .tc) (hb : b ∉ wr_main_part3_ops0) :
    StableHlo.after main_part3_ops0 W (Proc.devRef .tc b) = W (Proc.devRef .tc b) :=
  after_keep writes_main_part3_ops0 W hb

/-- The references the operations of `main_part4_ops0` write, one each, in order. -/
abbrev wr_main_part4_ops0 : List (Ref sig .tc) :=
  [main_v193, main_v194, main_cst_45, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244]
theorem writes_main_part4_ops0 : List.Forall₂ (fun (op : HloOp τ sig (Elt F)) y => op.writes = {Proc.devRef .tc y}) main_part4_ops0 wr_main_part4_ops0 :=
  .cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.unary_writes ..) (.cons (StableHlo.unary_writes ..) (.cons (StableHlo.unary_writes ..) (.cons (StableHlo.unary_writes ..) (.cons (StableHlo.nary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.reshape_writes ..) (.nil)))))))))))))))))))))))))))))))))))))))))))))))))))))
/-- `main_part4_ops0` leaves every reference it does not write as it was. -/
theorem keep_main_part4_ops0 (W : Valuation τ sig (Elt F)) (b : Ref sig .tc) (hb : b ∉ wr_main_part4_ops0) :
    StableHlo.after main_part4_ops0 W (Proc.devRef .tc b) = W (Proc.devRef .tc b) :=
  after_keep writes_main_part4_ops0 W hb

/-- The references the operations of `main_part4_ops1` write, one each, in order. -/
abbrev wr_main_part4_ops1 : List (Ref sig .tc) :=
  [main_v246, main_v247, main_v248, main_v249, main_v250, main_v251]
theorem writes_main_part4_ops1 : List.Forall₂ (fun (op : HloOp τ sig (Elt F)) y => op.writes = {Proc.devRef .tc y}) main_part4_ops1 wr_main_part4_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.nil))))))
/-- `main_part4_ops1` leaves every reference it does not write as it was. -/
theorem keep_main_part4_ops1 (W : Valuation τ sig (Elt F)) (b : Ref sig .tc) (hb : b ∉ wr_main_part4_ops1) :
    StableHlo.after main_part4_ops1 W (Proc.devRef .tc b) = W (Proc.devRef .tc b) :=
  after_keep writes_main_part4_ops1 W hb

/-- The references the operations of `main_part5_ops0` write, one each, in order. -/
abbrev wr_main_part5_ops0 : List (Ref sig .tc) :=
  [main_v252, main_v253]
theorem writes_main_part5_ops0 : List.Forall₂ (fun (op : HloOp τ sig (Elt F)) y => op.writes = {Proc.devRef .tc y}) main_part5_ops0 wr_main_part5_ops0 :=
  .cons (StableHlo.reshape_writes ..) (.cons (StableHlo.reshape_writes ..) (.nil))
/-- `main_part5_ops0` leaves every reference it does not write as it was. -/
theorem keep_main_part5_ops0 (W : Valuation τ sig (Elt F)) (b : Ref sig .tc) (hb : b ∉ wr_main_part5_ops0) :
    StableHlo.after main_part5_ops0 W (Proc.devRef .tc b) = W (Proc.devRef .tc b) :=
  after_keep writes_main_part5_ops0 W hb

/-- The references the operations of `main_part5_ops1` write, one each, in order. -/
abbrev wr_main_part5_ops1 : List (Ref sig .tc) :=
  [main_v255, main_v256, main_v257, main_v258, main_v259, main_v260, main_v261, main_v262]
theorem writes_main_part5_ops1 : List.Forall₂ (fun (op : HloOp τ sig (Elt F)) y => op.writes = {Proc.devRef .tc y}) main_part5_ops1 wr_main_part5_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part5_ops1` leaves every reference it does not write as it was. -/
theorem keep_main_part5_ops1 (W : Valuation τ sig (Elt F)) (b : Ref sig .tc) (hb : b ∉ wr_main_part5_ops1) :
    StableHlo.after main_part5_ops1 W (Proc.devRef .tc b) = W (Proc.devRef .tc b) :=
  after_keep writes_main_part5_ops1 W hb

/-- The references the operations of `main_part5_ops2` write, one each, in order. -/
abbrev wr_main_part5_ops2 : List (Ref sig .tc) :=
  [main_v264, main_v265, main_v266, main_v267, main_v268, main_v269, main_v270, main_v271]
theorem writes_main_part5_ops2 : List.Forall₂ (fun (op : HloOp τ sig (Elt F)) y => op.writes = {Proc.devRef .tc y}) main_part5_ops2 wr_main_part5_ops2 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part5_ops2` leaves every reference it does not write as it was. -/
theorem keep_main_part5_ops2 (W : Valuation τ sig (Elt F)) (b : Ref sig .tc) (hb : b ∉ wr_main_part5_ops2) :
    StableHlo.after main_part5_ops2 W (Proc.devRef .tc b) = W (Proc.devRef .tc b) :=
  after_keep writes_main_part5_ops2 W hb

/-- The references the operations of `main_part5_ops3` write, one each, in order. -/
abbrev wr_main_part5_ops3 : List (Ref sig .tc) :=
  [main_v273, main_v274, main_c_46, main_v275, main_v276, main_c_47, main_v277, main_v278, main_v279, main_v280, main_v281, main_v282, main_v283, main_cst_48, main_v284, main_v285, main_v286, main_cst_49, main_v287, main_v288, main_v289, main_cst_50, main_v290, main_v291, main_v292, main_cst_51, main_v293, main_v294, main_v295, main_v296, main_v297, main_v298, main_v299, main_c_52, main_v300, main_v301, main_c_53, main_v302, main_v303]
theorem writes_main_part5_ops3 : List.Forall₂ (fun (op : HloOp τ sig (Elt F)) y => op.writes = {Proc.devRef .tc y}) main_part5_ops3 wr_main_part5_ops3 :=
  .cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.nil)))))))))))))))))))))))))))))))))))))))
/-- `main_part5_ops3` leaves every reference it does not write as it was. -/
theorem keep_main_part5_ops3 (W : Valuation τ sig (Elt F)) (b : Ref sig .tc) (hb : b ∉ wr_main_part5_ops3) :
    StableHlo.after main_part5_ops3 W (Proc.devRef .tc b) = W (Proc.devRef .tc b) :=
  after_keep writes_main_part5_ops3 W hb

/-- The references the operations of `main_part6_ops0` write, one each, in order. -/
abbrev wr_main_part6_ops0 : List (Ref sig .tc) :=
  [main_v304, main_v305, main_v306, main_v307, main_v308, main_cst_54, main_v309, main_v310, main_v311, main_cst_55, main_v312, main_v313, main_v314, main_cst_56, main_v315, main_v316, main_v317, main_cst_57, main_v318, main_v319, main_v320, main_v321, main_v322, main_v323, main_v324, main_c_58, main_v325, main_v326, main_c_59, main_v327, main_v328, main_v329, main_v330, main_v331, main_v332, main_v333, main_cst_60, main_v334, main_v335, main_v336, main_cst_61, main_v337, main_v338, main_v339, main_cst_62, main_v340, main_v341, main_v342, main_cst_63, main_v343, main_v344, main_v345, main_v346, main_v347, main_v348, main_v349, main_c_64, main_v350, main_v351, main_c_65]
theorem writes_main_part6_ops0 : List.Forall₂ (fun (op : HloOp τ sig (Elt F)) y => op.writes = {Proc.devRef .tc y}) main_part6_ops0 wr_main_part6_ops0 :=
  .cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.nil))))))))))))))))))))))))))))))))))))))))))))))))))))))))))))
/-- `main_part6_ops0` leaves every reference it does not write as it was. -/
theorem keep_main_part6_ops0 (W : Valuation τ sig (Elt F)) (b : Ref sig .tc) (hb : b ∉ wr_main_part6_ops0) :
    StableHlo.after main_part6_ops0 W (Proc.devRef .tc b) = W (Proc.devRef .tc b) :=
  after_keep writes_main_part6_ops0 W hb

/-- The references the operations of `main_part7_ops0` write, one each, in order. -/
abbrev wr_main_part7_ops0 : List (Ref sig .tc) :=
  [main_v352, main_v353, main_v354, main_v355, main_v356, main_v357, main_v358, main_cst_66, main_v359, main_v360, main_v361, main_cst_67, main_v362, main_v363, main_v364, main_cst_68, main_v365, main_v366, main_v367, main_cst_69, main_v368, main_v369, main_v370, main_v371, main_v372, main_v373, main_v374, main_c_70, main_v375, main_v376, main_c_71, main_v377, main_v378, main_v379, main_v380, main_v381, main_v382, main_v383, main_cst_72, main_v384, main_v385, main_v386, main_cst_73, main_v387, main_v388, main_v389, main_cst_74, main_v390, main_v391, main_v392, main_cst_75, main_v393, main_v394, main_v395, main_v396, main_v397, main_v398, main_v399, main_c_76, main_v400]
theorem writes_main_part7_ops0 : List.Forall₂ (fun (op : HloOp τ sig (Elt F)) y => op.writes = {Proc.devRef .tc y}) main_part7_ops0 wr_main_part7_ops0 :=
  .cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.nil))))))))))))))))))))))))))))))))))))))))))))))))))))))))))))
/-- `main_part7_ops0` leaves every reference it does not write as it was. -/
theorem keep_main_part7_ops0 (W : Valuation τ sig (Elt F)) (b : Ref sig .tc) (hb : b ∉ wr_main_part7_ops0) :
    StableHlo.after main_part7_ops0 W (Proc.devRef .tc b) = W (Proc.devRef .tc b) :=
  after_keep writes_main_part7_ops0 W hb

/-- The references the operations of `main_part8_ops0` write, one each, in order. -/
abbrev wr_main_part8_ops0 : List (Ref sig .tc) :=
  [main_v401, main_c_77, main_v402, main_v403, main_v404, main_v405, main_v406, main_v407, main_v408, main_cst_78, main_v409, main_v410, main_v411, main_cst_79, main_v412, main_v413, main_v414, main_cst_80, main_v415, main_v416, main_v417, main_cst_81, main_v418, main_v419, main_v420, main_v421, main_v422, main_v423, main_v424, main_c_82, main_v425, main_v426, main_c_83, main_v427, main_v428, main_v429, main_v430, main_v431, main_v432, main_v433, main_cst_84, main_v434, main_v435, main_v436, main_cst_85, main_v437, main_v438, main_v439, main_cst_86, main_v440, main_v441, main_v442, main_cst_87, main_v443, main_v444, main_v445, main_v446, main_v447, main_v448, main_v449]
theorem writes_main_part8_ops0 : List.Forall₂ (fun (op : HloOp τ sig (Elt F)) y => op.writes = {Proc.devRef .tc y}) main_part8_ops0 wr_main_part8_ops0 :=
  .cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.nil))))))))))))))))))))))))))))))))))))))))))))))))))))))))))))
/-- `main_part8_ops0` leaves every reference it does not write as it was. -/
theorem keep_main_part8_ops0 (W : Valuation τ sig (Elt F)) (b : Ref sig .tc) (hb : b ∉ wr_main_part8_ops0) :
    StableHlo.after main_part8_ops0 W (Proc.devRef .tc b) = W (Proc.devRef .tc b) :=
  after_keep writes_main_part8_ops0 W hb

/-- The references the operations of `main_part9_ops0` write, one each, in order. -/
abbrev wr_main_part9_ops0 : List (Ref sig .tc) :=
  [main_c_88, main_v450, main_v451, main_c_89, main_v452, main_v453, main_v454, main_v455, main_v456, main_v457, main_v458, main_cst_90, main_v459, main_v460, main_v461, main_cst_91, main_v462, main_v463, main_v464, main_cst_92, main_v465, main_v466, main_v467, main_cst_93, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493, main_v494, main_v495, main_v496, main_v497, main_v498, main_v499, main_v500, main_v501, main_v502, main_v503]
theorem writes_main_part9_ops0 : List.Forall₂ (fun (op : HloOp τ sig (Elt F)) y => op.writes = {Proc.devRef .tc y}) main_part9_ops0 wr_main_part9_ops0 :=
  .cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.unary_writes ..) (.cons (StableHlo.unary_writes ..) (.cons (StableHlo.unary_writes ..) (.cons (StableHlo.unary_writes ..) (.cons (StableHlo.nary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.nil))))))))))))))))))))))))))))))))))))))))))))))))))))))))))))
/-- `main_part9_ops0` leaves every reference it does not write as it was. -/
theorem keep_main_part9_ops0 (W : Valuation τ sig (Elt F)) (b : Ref sig .tc) (hb : b ∉ wr_main_part9_ops0) :
    StableHlo.after main_part9_ops0 W (Proc.devRef .tc b) = W (Proc.devRef .tc b) :=
  after_keep writes_main_part9_ops0 W hb

/-- The references the operations of `main_part10_ops0` write, one each, in order. -/
abbrev wr_main_part10_ops0 : List (Ref sig .tc) :=
  [main_v504, main_v505, main_v506, main_v507, main_v508, main_v509, main_v510, main_v511, main_v512, main_v513, main_v514, main_v515, main_v516, main_v517]
theorem writes_main_part10_ops0 : List.Forall₂ (fun (op : HloOp τ sig (Elt F)) y => op.writes = {Proc.devRef .tc y}) main_part10_ops0 wr_main_part10_ops0 :=
  .cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.reshape_writes ..) (.nil))))))))))))))
/-- `main_part10_ops0` leaves every reference it does not write as it was. -/
theorem keep_main_part10_ops0 (W : Valuation τ sig (Elt F)) (b : Ref sig .tc) (hb : b ∉ wr_main_part10_ops0) :
    StableHlo.after main_part10_ops0 W (Proc.devRef .tc b) = W (Proc.devRef .tc b) :=
  after_keep writes_main_part10_ops0 W hb

/-- The references the operations of `main_part10_ops1` write, one each, in order. -/
abbrev wr_main_part10_ops1 : List (Ref sig .tc) :=
  [main_v519, main_v520, main_v521, main_v522, main_v523, main_v524, main_v525, main_v526]
theorem writes_main_part10_ops1 : List.Forall₂ (fun (op : HloOp τ sig (Elt F)) y => op.writes = {Proc.devRef .tc y}) main_part10_ops1 wr_main_part10_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part10_ops1` leaves every reference it does not write as it was. -/
theorem keep_main_part10_ops1 (W : Valuation τ sig (Elt F)) (b : Ref sig .tc) (hb : b ∉ wr_main_part10_ops1) :
    StableHlo.after main_part10_ops1 W (Proc.devRef .tc b) = W (Proc.devRef .tc b) :=
  after_keep writes_main_part10_ops1 W hb

/-- The references the operations of `main_part10_ops2` write, one each, in order. -/
abbrev wr_main_part10_ops2 : List (Ref sig .tc) :=
  [main_v528, main_v529, main_v530, main_v531, main_v532, main_v533, main_v534, main_v535]
theorem writes_main_part10_ops2 : List.Forall₂ (fun (op : HloOp τ sig (Elt F)) y => op.writes = {Proc.devRef .tc y}) main_part10_ops2 wr_main_part10_ops2 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part10_ops2` leaves every reference it does not write as it was. -/
theorem keep_main_part10_ops2 (W : Valuation τ sig (Elt F)) (b : Ref sig .tc) (hb : b ∉ wr_main_part10_ops2) :
    StableHlo.after main_part10_ops2 W (Proc.devRef .tc b) = W (Proc.devRef .tc b) :=
  after_keep writes_main_part10_ops2 W hb

/-- The references the operations of `main_part10_ops3` write, one each, in order. -/
abbrev wr_main_part10_ops3 : List (Ref sig .tc) :=
  [main_v537, main_v538, main_v539, main_v540, main_v541, main_v542, main_v543, main_v544]
theorem writes_main_part10_ops3 : List.Forall₂ (fun (op : HloOp τ sig (Elt F)) y => op.writes = {Proc.devRef .tc y}) main_part10_ops3 wr_main_part10_ops3 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part10_ops3` leaves every reference it does not write as it was. -/
theorem keep_main_part10_ops3 (W : Valuation τ sig (Elt F)) (b : Ref sig .tc) (hb : b ∉ wr_main_part10_ops3) :
    StableHlo.after main_part10_ops3 W (Proc.devRef .tc b) = W (Proc.devRef .tc b) :=
  after_keep writes_main_part10_ops3 W hb

/-- The references the operations of `main_part10_ops4` write, one each, in order. -/
abbrev wr_main_part10_ops4 : List (Ref sig .tc) :=
  [main_v546, main_v547, main_c_94, main_v548, main_v549, main_c_95, main_v550, main_v551, main_v552, main_v553, main_v554, main_v555, main_v556, main_cst_96, main_v557, main_v558, main_v559, main_cst_97]
theorem writes_main_part10_ops4 : List.Forall₂ (fun (op : HloOp τ sig (Elt F)) y => op.writes = {Proc.devRef .tc y}) main_part10_ops4 wr_main_part10_ops4 :=
  .cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.nil))))))))))))))))))
/-- `main_part10_ops4` leaves every reference it does not write as it was. -/
theorem keep_main_part10_ops4 (W : Valuation τ sig (Elt F)) (b : Ref sig .tc) (hb : b ∉ wr_main_part10_ops4) :
    StableHlo.after main_part10_ops4 W (Proc.devRef .tc b) = W (Proc.devRef .tc b) :=
  after_keep writes_main_part10_ops4 W hb

/-- The references the operations of `main_part11_ops0` write, one each, in order. -/
abbrev wr_main_part11_ops0 : List (Ref sig .tc) :=
  [main_v560, main_v561, main_v562, main_cst_98, main_v563, main_v564, main_v565, main_cst_99, main_v566, main_v567, main_v568, main_v569, main_v570, main_v571, main_v572, main_c_100, main_v573, main_v574, main_c_101, main_v575, main_v576, main_v577, main_v578, main_v579, main_v580, main_v581, main_cst_102, main_v582, main_v583, main_v584, main_cst_103, main_v585, main_v586, main_v587, main_cst_104, main_v588, main_v589, main_v590, main_cst_105, main_v591, main_v592, main_v593, main_v594, main_v595, main_v596, main_v597, main_c_106, main_v598, main_v599, main_c_107, main_v600, main_v601, main_v602, main_v603, main_v604, main_v605, main_v606, main_cst_108, main_v607, main_v608]
theorem writes_main_part11_ops0 : List.Forall₂ (fun (op : HloOp τ sig (Elt F)) y => op.writes = {Proc.devRef .tc y}) main_part11_ops0 wr_main_part11_ops0 :=
  .cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.nil))))))))))))))))))))))))))))))))))))))))))))))))))))))))))))
/-- `main_part11_ops0` leaves every reference it does not write as it was. -/
theorem keep_main_part11_ops0 (W : Valuation τ sig (Elt F)) (b : Ref sig .tc) (hb : b ∉ wr_main_part11_ops0) :
    StableHlo.after main_part11_ops0 W (Proc.devRef .tc b) = W (Proc.devRef .tc b) :=
  after_keep writes_main_part11_ops0 W hb

/-- The references the operations of `main_part12_ops0` write, one each, in order. -/
abbrev wr_main_part12_ops0 : List (Ref sig .tc) :=
  [main_v609, main_cst_109, main_v610, main_v611, main_v612, main_cst_110, main_v613, main_v614, main_v615, main_cst_111, main_v616, main_v617, main_v618, main_v619, main_v620, main_v621, main_v622, main_c_112, main_v623, main_v624, main_c_113, main_v625, main_v626, main_v627, main_v628, main_v629, main_v630, main_v631, main_cst_114, main_v632, main_v633, main_v634, main_cst_115, main_v635, main_v636, main_v637, main_cst_116, main_v638, main_v639, main_v640, main_cst_117, main_v641, main_v642, main_v643, main_v644, main_v645, main_v646, main_v647, main_c_118, main_v648, main_v649, main_c_119, main_v650, main_v651, main_v652, main_v653, main_v654, main_v655, main_v656, main_cst_120]
theorem writes_main_part12_ops0 : List.Forall₂ (fun (op : HloOp τ sig (Elt F)) y => op.writes = {Proc.devRef .tc y}) main_part12_ops0 wr_main_part12_ops0 :=
  .cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.nil))))))))))))))))))))))))))))))))))))))))))))))))))))))))))))
/-- `main_part12_ops0` leaves every reference it does not write as it was. -/
theorem keep_main_part12_ops0 (W : Valuation τ sig (Elt F)) (b : Ref sig .tc) (hb : b ∉ wr_main_part12_ops0) :
    StableHlo.after main_part12_ops0 W (Proc.devRef .tc b) = W (Proc.devRef .tc b) :=
  after_keep writes_main_part12_ops0 W hb

/-- The references the operations of `main_part13_ops0` write, one each, in order. -/
abbrev wr_main_part13_ops0 : List (Ref sig .tc) :=
  [main_v657, main_v658, main_v659, main_cst_121, main_v660, main_v661, main_v662, main_cst_122, main_v663, main_v664, main_v665, main_cst_123, main_v666, main_v667, main_v668, main_v669, main_v670, main_v671, main_v672, main_c_124, main_v673, main_v674, main_c_125, main_v675, main_v676, main_v677, main_v678, main_v679, main_v680, main_v681, main_cst_126, main_v682, main_v683, main_v684, main_cst_127, main_v685, main_v686, main_v687, main_cst_128, main_v688, main_v689, main_v690, main_cst_129, main_v691, main_v692, main_v693, main_v694, main_v695, main_v696, main_v697, main_c_130, main_v698, main_v699, main_c_131, main_v700, main_v701, main_v702, main_v703, main_v704, main_v705]
theorem writes_main_part13_ops0 : List.Forall₂ (fun (op : HloOp τ sig (Elt F)) y => op.writes = {Proc.devRef .tc y}) main_part13_ops0 wr_main_part13_ops0 :=
  .cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.nil))))))))))))))))))))))))))))))))))))))))))))))))))))))))))))
/-- `main_part13_ops0` leaves every reference it does not write as it was. -/
theorem keep_main_part13_ops0 (W : Valuation τ sig (Elt F)) (b : Ref sig .tc) (hb : b ∉ wr_main_part13_ops0) :
    StableHlo.after main_part13_ops0 W (Proc.devRef .tc b) = W (Proc.devRef .tc b) :=
  after_keep writes_main_part13_ops0 W hb

/-- The references the operations of `main_part14_ops0` write, one each, in order. -/
abbrev wr_main_part14_ops0 : List (Ref sig .tc) :=
  [main_v706, main_cst_132, main_v707, main_v708, main_v709, main_cst_133, main_v710, main_v711, main_v712, main_cst_134, main_v713, main_v714, main_v715, main_cst_135, main_v716, main_v717, main_v718, main_v719, main_v720, main_v721, main_v722, main_c_136, main_v723, main_v724, main_c_137, main_v725, main_v726, main_v727, main_v728, main_v729, main_v730, main_v731, main_cst_138, main_v732, main_v733, main_v734, main_cst_139, main_v735, main_v736, main_v737, main_cst_140, main_v738, main_v739, main_v740, main_cst_141, main_v741, main_v742, main_v743, main_v744, main_v745, main_v746, main_v747, main_v748, main_v749, main_v750, main_v751, main_v752, main_v753, main_v754, main_v755]
theorem writes_main_part14_ops0 : List.Forall₂ (fun (op : HloOp τ sig (Elt F)) y => op.writes = {Proc.devRef .tc y}) main_part14_ops0 wr_main_part14_ops0 :=
  .cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.nil))))))))))))))))))))))))))))))))))))))))))))))))))))))))))))
/-- `main_part14_ops0` leaves every reference it does not write as it was. -/
theorem keep_main_part14_ops0 (W : Valuation τ sig (Elt F)) (b : Ref sig .tc) (hb : b ∉ wr_main_part14_ops0) :
    StableHlo.after main_part14_ops0 W (Proc.devRef .tc b) = W (Proc.devRef .tc b) :=
  after_keep writes_main_part14_ops0 W hb

/-- The references the operations of `main_part15_ops0` write, one each, in order. -/
abbrev wr_main_part15_ops0 : List (Ref sig .tc) :=
  [main_v756, main_v757, main_v758, main_v759, main_v760, main_v761, main_v762, main_v763, main_v764, main_v765, main_v766, main_v767, main_v768, main_v769, main_v770, main_v771, main_v772, main_v773, main_v774, main_v775, main_v776, main_v777, main_v778, main_v779, main_v780, main_v781, main_v782, main_v783, main_v784, main_v785, main_v786, main_v787, main_v788, main_v789, main_v790]
theorem writes_main_part15_ops0 : List.Forall₂ (fun (op : HloOp τ sig (Elt F)) y => op.writes = {Proc.devRef .tc y}) main_part15_ops0 wr_main_part15_ops0 :=
  .cons (StableHlo.unary_writes ..) (.cons (StableHlo.unary_writes ..) (.cons (StableHlo.unary_writes ..) (.cons (StableHlo.unary_writes ..) (.cons (StableHlo.unary_writes ..) (.cons (StableHlo.nary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.reshape_writes ..) (.nil)))))))))))))))))))))))))))))))))))
/-- `main_part15_ops0` leaves every reference it does not write as it was. -/
theorem keep_main_part15_ops0 (W : Valuation τ sig (Elt F)) (b : Ref sig .tc) (hb : b ∉ wr_main_part15_ops0) :
    StableHlo.after main_part15_ops0 W (Proc.devRef .tc b) = W (Proc.devRef .tc b) :=
  after_keep writes_main_part15_ops0 W hb

/-- The references the operations of `main_part15_ops1` write, one each, in order. -/
abbrev wr_main_part15_ops1 : List (Ref sig .tc) :=
  [main_v792, main_v793, main_v794, main_v795, main_v796, main_v797, main_v798, main_v799]
theorem writes_main_part15_ops1 : List.Forall₂ (fun (op : HloOp τ sig (Elt F)) y => op.writes = {Proc.devRef .tc y}) main_part15_ops1 wr_main_part15_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part15_ops1` leaves every reference it does not write as it was. -/
theorem keep_main_part15_ops1 (W : Valuation τ sig (Elt F)) (b : Ref sig .tc) (hb : b ∉ wr_main_part15_ops1) :
    StableHlo.after main_part15_ops1 W (Proc.devRef .tc b) = W (Proc.devRef .tc b) :=
  after_keep writes_main_part15_ops1 W hb

/-- The references the operations of `main_part15_ops2` write, one each, in order. -/
abbrev wr_main_part15_ops2 : List (Ref sig .tc) :=
  [main_v801, main_v802, main_v803, main_v804, main_v805, main_v806, main_v807, main_v808]
theorem writes_main_part15_ops2 : List.Forall₂ (fun (op : HloOp τ sig (Elt F)) y => op.writes = {Proc.devRef .tc y}) main_part15_ops2 wr_main_part15_ops2 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part15_ops2` leaves every reference it does not write as it was. -/
theorem keep_main_part15_ops2 (W : Valuation τ sig (Elt F)) (b : Ref sig .tc) (hb : b ∉ wr_main_part15_ops2) :
    StableHlo.after main_part15_ops2 W (Proc.devRef .tc b) = W (Proc.devRef .tc b) :=
  after_keep writes_main_part15_ops2 W hb

/-- The references the operations of `main_part15_ops3` write, one each, in order. -/
abbrev wr_main_part15_ops3 : List (Ref sig .tc) :=
  [main_v810, main_v811, main_v812, main_v813, main_v814, main_v815]
theorem writes_main_part15_ops3 : List.Forall₂ (fun (op : HloOp τ sig (Elt F)) y => op.writes = {Proc.devRef .tc y}) main_part15_ops3 wr_main_part15_ops3 :=
  .cons (StableHlo.unary_writes ..) (.cons (StableHlo.reshape_writes ..) (.cons (StableHlo.reshape_writes ..) (.cons (StableHlo.unary_writes ..) (.cons (StableHlo.reshape_writes ..) (.cons (StableHlo.unary_writes ..) (.nil))))))
/-- `main_part15_ops3` leaves every reference it does not write as it was. -/
theorem keep_main_part15_ops3 (W : Valuation τ sig (Elt F)) (b : Ref sig .tc) (hb : b ∉ wr_main_part15_ops3) :
    StableHlo.after main_part15_ops3 W (Proc.devRef .tc b) = W (Proc.devRef .tc b) :=
  after_keep writes_main_part15_ops3 W hb

/-- The references the operations of `main_part16_ops0` write, one each, in order. -/
abbrev wr_main_part16_ops0 : List (Ref sig .tc) :=
  [main_v816, main_v817]
theorem writes_main_part16_ops0 : List.Forall₂ (fun (op : HloOp τ sig (Elt F)) y => op.writes = {Proc.devRef .tc y}) main_part16_ops0 wr_main_part16_ops0 :=
  .cons (StableHlo.reshape_writes ..) (.cons (StableHlo.reshape_writes ..) (.nil))
/-- `main_part16_ops0` leaves every reference it does not write as it was. -/
theorem keep_main_part16_ops0 (W : Valuation τ sig (Elt F)) (b : Ref sig .tc) (hb : b ∉ wr_main_part16_ops0) :
    StableHlo.after main_part16_ops0 W (Proc.devRef .tc b) = W (Proc.devRef .tc b) :=
  after_keep writes_main_part16_ops0 W hb

/-- The references the operations of `main_part16_ops1` write, one each, in order. -/
abbrev wr_main_part16_ops1 : List (Ref sig .tc) :=
  [main_v819, main_v820]
theorem writes_main_part16_ops1 : List.Forall₂ (fun (op : HloOp τ sig (Elt F)) y => op.writes = {Proc.devRef .tc y}) main_part16_ops1 wr_main_part16_ops1 :=
  .cons (StableHlo.reshape_writes ..) (.cons (StableHlo.reshape_writes ..) (.nil))
/-- `main_part16_ops1` leaves every reference it does not write as it was. -/
theorem keep_main_part16_ops1 (W : Valuation τ sig (Elt F)) (b : Ref sig .tc) (hb : b ∉ wr_main_part16_ops1) :
    StableHlo.after main_part16_ops1 W (Proc.devRef .tc b) = W (Proc.devRef .tc b) :=
  after_keep writes_main_part16_ops1 W hb

/-- The references the operations of `main_part16_ops2` write, one each, in order. -/
abbrev wr_main_part16_ops2 : List (Ref sig .tc) :=
  [main_v822, main_v823]
theorem writes_main_part16_ops2 : List.Forall₂ (fun (op : HloOp τ sig (Elt F)) y => op.writes = {Proc.devRef .tc y}) main_part16_ops2 wr_main_part16_ops2 :=
  .cons (StableHlo.reshape_writes ..) (.cons (StableHlo.reshape_writes ..) (.nil))
/-- `main_part16_ops2` leaves every reference it does not write as it was. -/
theorem keep_main_part16_ops2 (W : Valuation τ sig (Elt F)) (b : Ref sig .tc) (hb : b ∉ wr_main_part16_ops2) :
    StableHlo.after main_part16_ops2 W (Proc.devRef .tc b) = W (Proc.devRef .tc b) :=
  after_keep writes_main_part16_ops2 W hb

/-! ## The tactic -/

open Lean Elab Tactic Meta in
/-- Closes a goal `StableHlo.after ops W (Proc.devRef .tc b) = W (Proc.devRef .tc b)` where `ops` is one of @main's host
    pieces and `b` a reference the piece does not write: the piece's `keep_…` lemma, `b` told apart from the written
    references by evaluation. A left side that is a reducible abbreviation of such an `after` is unfolded first. For a
    line that is not a named piece it falls back on the operations' `writes` one by one. -/
elab "keep_after" : tactic => withMainContext do
  let t ← instantiateMVars (← (← getMainGoal).getType)
  let some (_, lhs, _) := t.eq? | throwError "keep_after: the goal is not an equation"
  let lhs ← if lhs.getAppFn.isConstOf ``StableHlo.after then pure lhs else whnfR lhs
  let args := lhs.getAppArgs
  let named : Option String :=
    if lhs.getAppFn.isConstOf ``StableHlo.after ∧ args.size ≥ 3 then
      match args[args.size - 3]!.getAppFn.constName? with
      | some (.str _ s) => if s.startsWith "main_part" then some s else none
      | _ => none
    else none
  match named with
  | some s =>
    let id := mkIdent (`Cert.Kernel.Hand ++ Name.mkSimple ("keep_" ++ s))
    evalTactic (← `(tactic| exact $id _ _ (by decide)))
  | none =>
    evalTactic (← `(tactic| (
      refine StableHlo.after_of_forall_not_mem _ _ (List.forall_iff_forall_mem.mp ?_)
      simp only [hostOps0, hostOps1, hostOps2, hostOps3, hostOps4, hostOps5, hostOps6, hostOps7, hostOps8, hostOps9, hostOps10,
        hostOps11, hostOps12, hostOps13, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        StableHlo.nary_writes, StableHlo.unaryIndexed_writes, Finset.mem_singleton]
      repeat' apply And.intro
      all_goals exact StableHlo.devRef_ne_of_ne (by decide))))

/-- The tactic on a named piece, and on a stretch that is not one. -/
example (W : Valuation τ sig (Elt F)) : StableHlo.after main_part5_ops3 W (Proc.devRef .tc main_v24) = W (Proc.devRef .tc main_v24) := by keep_after
example (W : Valuation τ sig (Elt F)) : StableHlo.after hostOps13 W (Proc.devRef .tc main_arg12) = W (Proc.devRef .tc main_arg12) := by keep_after

end Cert.Kernel.Hand

end
-- ==== Proof.KB.KeepArgs0.lean ====
import proofs.«125545_j64845416235624_1_alg».proof.Proof.KB.Keep

set_option maxRecDepth 7380

noncomputable section

namespace Cert.Kernel.Hand

open Idealize.ShloMosaic Idealize.ShloMosaic.TcCoe
open Cert.Kernel Cert.Kernel.Gen

variable {F : FTy → Type} [FloatOps F]

/-! # The argument arrays: no host piece writes one (the pieces of @main's windows 0 to 9)

Per host piece and argument array, the piece's `keep_…` at the argument: it is none of the piece's results, by evaluation. -/

theorem keep_main_part0_ops0_arg0 (W : Valuation τ sig (Elt F)) : StableHlo.after main_part0_ops0 W (Proc.devRef .tc main_arg0) = W (Proc.devRef .tc main_arg0) := keep_main_part0_ops0 W main_arg0 (by decide)
theorem keep_main_part0_ops0_arg1 (W : Valuation τ sig (Elt F)) : StableHlo.after main_part0_ops0 W (Proc.devRef .tc main_arg1) = W (Proc.devRef .tc main_arg1) := keep_main_part0_ops0 W main_arg1 (by decide)
theorem keep_main_part0_ops0_arg2 (W : Valuation τ sig (Elt F)) : StableHlo.after main_part0_ops0 W (Proc.devRef .tc main_arg2) = W (Proc.devRef .tc main_arg2) := keep_main_part0_ops0 W main_arg2 (by decide)
theorem keep_main_part0_ops0_arg3 (W : Valuation τ sig (Elt F)) : StableHlo.after main_part0_ops0 W (Proc.devRef .tc main_arg3) = W (Proc.devRef .tc main_arg3) := keep_main_part0_ops0 W main_arg3 (by decide)
theorem keep_main_part0_ops0_arg4 (W : Valuation τ sig (Elt F)) : StableHlo.after main_part0_ops0 W (Proc.devRef .tc main_arg4) = W (Proc.devRef .tc main_arg4) := keep_main_part0_ops0 W main_arg4 (by decide)
theorem keep_main_part0_ops0_arg5 (W : Valuation τ sig (Elt F)) : StableHlo.after main_part0_ops0 W (Proc.devRef .tc main_arg5) = W (Proc.devRef .tc main_arg5) := keep_main_part0_ops0 W main_arg5 (by decide)
theorem keep_main_part0_ops0_arg6 (W : Valuation τ sig (Elt F)) : StableHlo.after main_part0_ops0 W (Proc.devRef .tc main_arg6) = W (Proc.devRef .tc main_arg6) := keep_main_part0_ops0 W main_arg6 (by decide)
theorem keep_main_part0_ops0_arg7 (W : Valuation τ sig (Elt F)) : StableHlo.after main_part0_ops0 W (Proc.devRef .tc main_arg7) = W (Proc.devRef .tc main_arg7) := keep_main_part0_ops0 W main_arg7 (by decide)
theorem keep_main_part0_ops0_arg8 (W : Valuation τ sig (Elt F)) : StableHlo.after main_part0_ops0 W (Proc.devRef .tc main_arg8) = W (Proc.devRef .tc main_arg8) := keep_main_part0_ops0 W main_arg8 (by decide)
theorem keep_main_part0_ops0_arg9 (W : Valuation τ sig (Elt F)) : StableHlo.after main_part0_ops0 W (Proc.devRef .tc main_arg9) = W (Proc.devRef .tc main_arg9) := keep_main_part0_ops0 W main_arg9 (by decide)
theorem keep_main_part0_ops0_arg10 (W : Valuation τ sig (Elt F)) : StableHlo.after main_part0_ops0 W (Proc.devRef .tc main_arg10) = W (Proc.devRef .tc main_arg10) := keep_main_part0_ops0 W main_arg10 (by decide)
theorem keep_main_part0_ops0_arg11 (W : Valuation τ sig (Elt F)) : StableHlo.after main_part0_ops0 W (Proc.devRef .tc main_arg11) = W (Proc.devRef .tc main_arg11) := keep_main_part0_ops0 W main_arg11 (by decide)
theorem keep_main_part0_ops0_arg12 (W : Valuation τ sig (Elt F)) : StableHlo.after main_part0_ops0 W (Proc.devRef .tc main_arg12) = W (Proc.devRef .tc main_arg12) := keep_main_part0_ops0 W main_arg12 (by decide)
theorem keep_main_part0_ops0_arg13 (W : Valuation τ sig (Elt F)) : StableHlo.after main_part0_ops0 W (Proc.devRef .tc main_arg13) = W (Proc.devRef .tc main_arg13) := keep_main_part0_ops0 W main_arg13 (by decide)
theorem keep_main_part0_ops0_arg14 (W : Valuation τ sig (Elt F)) : StableHlo.after main_part0_ops0 W (Proc.devRef .tc main_arg14) = W (Proc.devRef .tc main_arg14) := keep_main_part0_ops0 W main_arg14 (by decide)
theorem keep_main_part0_ops0_arg15 (W : Valuation τ sig (Elt F)) : StableHlo.after main_part0_ops0 W (Proc.devRef .tc main_arg15) = W (Proc.devRef .tc main_arg15) := keep_main_part0_ops0 W main_arg15 (by decide)
theorem keep_main_part0_ops0_arg16 (W : Valuation τ sig (Elt F)) : StableHlo.after main_part0_ops0 W (Proc.devRef .tc main_arg16) = W (Proc.devRef .tc main_arg16) := keep_main_part0_ops0 W main_arg16 (by decide)
theorem keep_main_part0_ops0_arg17 (W : Valuation τ sig (Elt F)) : StableHlo.after main_part0_ops0 W (Proc.devRef .tc main_arg17) = W (Proc.devRef .tc main_arg17) := keep_main_part0_ops0 W main_arg17 (by decide)
theorem keep_main_part0_ops0_arg18 (W : Valuation τ sig (Elt F)) : StableHlo.after main_part0_ops0 W (Proc.devRef .tc main_arg18) = W (Proc.devRef .tc main_arg18) := keep_main_part0_ops0 W main_arg18 (by decide)
theorem keep_main_part0_ops0_arg19 (W : Valuation τ sig (Elt F)) : StableHlo.after main_part0_ops0 W (Proc.devRef .tc main_arg19) = W (Proc.devRef .tc main_arg19) := keep_main_part0_ops0 W main_arg19 (by decide)
theorem keep_main_part0_ops0_arg20 (W : Valuation τ sig (Elt F)) : StableHlo.after main_part0_ops0 W (Proc.devRef .tc main_arg20) = W (Proc.devRef .tc main_arg20) := keep_main_part0_ops0 W main_arg20 (by decide)
theorem keep_main_part0_ops0_arg21 (W : Valuation τ sig (Elt F)) : StableHlo.after main_part0_ops0 W (Proc.devRef .tc main_arg21) = W (Proc.devRef .tc main_arg21) := keep_main_part0_ops0 W main_arg21 (by decide)
theorem keep_main_part0_ops0_arg22 (W : Valuation τ sig (Elt F)) : StableHlo.after main_part0_ops0 W (Proc.devRef .tc main_arg22) = W (Proc.devRef .tc main_arg22) := keep_main_part0_ops0 W main_arg22 (by decide)
theorem keep_main_part1_ops0_arg0 (W : Valuation τ sig (Elt F)) : StableHlo.after main_part1_ops0 W (Proc.devRef .tc main_arg0) = W (Proc.devRef .tc main_arg0) := keep_main_part1_ops0 W main_arg0 (by decide)
theorem keep_main_part1_ops0_arg1 (W : Valuation τ sig (Elt F)) : StableHlo.after main_part1_ops0 W (Proc.devRef .tc main_arg1) = W (Proc.devRef .tc main_arg1) := keep_main_part1_ops0 W main_arg1 (by decide)
theorem keep_main_part1_ops0_arg2 (W : Valuation τ sig (Elt F)) : StableHlo.after main_part1_ops0 W (Proc.devRef .tc main_arg2) = W (Proc.devRef .tc main_arg2) := keep_main_part1_ops0 W main_arg2 (by decide)
theorem keep_main_part1_ops0_arg3 (W : Valuation τ sig (Elt F)) : StableHlo.after main_part1_ops0 W (Proc.devRef .tc main_arg3) = W (Proc.devRef .tc main_arg3) := keep_main_part1_ops0 W main_arg3 (by decide)
theorem keep_main_part1_ops0_arg4 (W : Valuation τ sig (Elt F)) : StableHlo.after main_part1_ops0 W (Proc.devRef .tc main_arg4) = W (Proc.devRef .tc main_arg4) := keep_main_part1_ops0 W main_arg4 (by decide)
theorem keep_main_part1_ops0_arg5 (W : Valuation τ sig (Elt F)) : StableHlo.after main_part1_ops0 W (Proc.devRef .tc main_arg5) = W (Proc.devRef .tc main_arg5) := keep_main_part1_ops0 W main_arg5 (by decide)
theorem keep_main_part1_ops0_arg6 (W : Valuation τ sig (Elt F)) : StableHlo.after main_part1_ops0 W (Proc.devRef .tc main_arg6) = W (Proc.devRef .tc main_arg6) := keep_main_part1_ops0 W main_arg6 (by decide)
theorem keep_main_part1_ops0_arg7 (W : Valuation τ sig (Elt F)) : StableHlo.after main_part1_ops0 W (Proc.devRef .tc main_arg7) = W (Proc.devRef .tc main_arg7) := keep_main_part1_ops0 W main_arg7 (by decide)
theorem keep_main_part1_ops0_arg8 (W : Valuation τ sig (Elt F)) : StableHlo.after main_part1_ops0 W (Proc.devRef .tc main_arg8) = W (Proc.devRef .tc main_arg8) := keep_main_part1_ops0 W main_arg8 (by decide)
theorem keep_main_part1_ops0_arg9 (W : Valuation τ sig (Elt F)) : StableHlo.after main_part1_ops0 W (Proc.devRef .tc main_arg9) = W (Proc.devRef .tc main_arg9) := keep_main_part1_ops0 W main_arg9 (by decide)
theorem keep_main_part1_ops0_arg10 (W : Valuation τ sig (Elt F)) : StableHlo.after main_part1_ops0 W (Proc.devRef .tc main_arg10) = W (Proc.devRef .tc main_arg10) := keep_main_part1_ops0 W main_arg10 (by decide)
theorem keep_main_part1_ops0_arg11 (W : Valuation τ sig (Elt F)) : StableHlo.after main_part1_ops0 W (Proc.devRef .tc main_arg11) = W (Proc.devRef .tc main_arg11) := keep_main_part1_ops0 W main_arg11 (by decide)
theorem keep_main_part1_ops0_arg12 (W : Valuation τ sig (Elt F)) : StableHlo.after main_part1_ops0 W (Proc.devRef .tc main_arg12) = W (Proc.devRef .tc main_arg12) := keep_main_part1_ops0 W main_arg12 (by decide)
theorem keep_main_part1_ops0_arg13 (W : Valuation τ sig (Elt F)) : StableHlo.after main_part1_ops0 W (Proc.devRef .tc main_arg13) = W (Proc.devRef .tc main_arg13) := keep_main_part1_ops0 W main_arg13 (by decide)
theorem keep_main_part1_ops0_arg14 (W : Valuation τ sig (Elt F)) : StableHlo.after main_part1_ops0 W (Proc.devRef .tc main_arg14) = W (Proc.devRef .tc main_arg14) := keep_main_part1_ops0 W main_arg14 (by decide)
theorem keep_main_part1_ops0_arg15 (W : Valuation τ sig (Elt F)) : StableHlo.after main_part1_ops0 W (Proc.devRef .tc main_arg15) = W (Proc.devRef .tc main_arg15) := keep_main_part1_ops0 W main_arg15 (by decide)
theorem keep_main_part1_ops0_arg16 (W : Valuation τ sig (Elt F)) : StableHlo.after main_part1_ops0 W (Proc.devRef .tc main_arg16) = W (Proc.devRef .tc main_arg16) := keep_main_part1_ops0 W main_arg16 (by decide)
theorem keep_main_part1_ops0_arg17 (W : Valuation τ sig (Elt F)) : StableHlo.after main_part1_ops0 W (Proc.devRef .tc main_arg17) = W (Proc.devRef .tc main_arg17) := keep_main_part1_ops0 W main_arg17 (by decide)
theorem keep_main_part1_ops0_arg18 (W : Valuation τ sig (Elt F)) : StableHlo.after main_part1_ops0 W (Proc.devRef .tc main_arg18) = W (Proc.devRef .tc main_arg18) := keep_main_part1_ops0 W main_arg18 (by decide)
theorem keep_main_part1_ops0_arg19 (W : Valuation τ sig (Elt F)) : StableHlo.after main_part1_ops0 W (Proc.devRef .tc main_arg19) = W (Proc.devRef .tc main_arg19) := keep_main_part1_ops0 W main_arg19 (by decide)
theorem keep_main_part1_ops0_arg20 (W : Valuation τ sig (Elt F)) : StableHlo.after main_part1_ops0 W (Proc.devRef .tc main_arg20) = W (Proc.devRef .tc main_arg20) := keep_main_part1_ops0 W main_arg20 (by decide)
theorem keep_main_part1_ops0_arg21 (W : Valuation τ sig (Elt F)) : StableHlo.after main_part1_ops0 W (Proc.devRef .tc main_arg21) = W (Proc.devRef .tc main_arg21) := keep_main_part1_ops0 W main_arg21 (by decide)
theorem keep_main_part1_ops0_arg22 (W : Valuation τ sig (Elt F)) : StableHlo.after main_part1_ops0 W (Proc.devRef .tc main_arg22) = W (Proc.devRef .tc main_arg22) := keep_main_part1_ops0 W main_arg22 (by decide)
theorem keep_main_part2_ops0_arg0 (W : Valuation τ sig (Elt F)) : StableHlo.after main_part2_ops0 W (Proc.devRef .tc main_arg0) = W (Proc.devRef .tc main_arg0) := keep_main_part2_ops0 W main_arg0 (by decide)
theorem keep_main_part2_ops0_arg1 (W : Valuation τ sig (Elt F)) : StableHlo.after main_part2_ops0 W (Proc.devRef .tc main_arg1) = W (Proc.devRef .tc main_arg1) := keep_main_part2_ops0 W main_arg1 (by decide)
theorem keep_main_part2_ops0_arg2 (W : Valuation τ sig (Elt F)) : StableHlo.after main_part2_ops0 W (Proc.devRef .tc main_arg2) = W (Proc.devRef .tc main_arg2) := keep_main_part2_ops0 W main_arg2 (by decide)
theorem keep_main_part2_ops0_arg3 (W : Valuation τ sig (Elt F)) : StableHlo.after main_part2_ops0 W (Proc.devRef .tc main_arg3) = W (Proc.devRef .tc main_arg3) := keep_main_part2_ops0 W main_arg3 (by decide)
theorem keep_main_part2_ops0_arg4 (W : Valuation τ sig (Elt F)) : StableHlo.after main_part2_ops0 W (Proc.devRef .tc main_arg4) = W (Proc.devRef .tc main_arg4) := keep_main_part2_ops0 W main_arg4 (by decide)
theorem keep_main_part2_ops0_arg5 (W : Valuation τ sig (Elt F)) : StableHlo.after main_part2_ops0 W (Proc.devRef .tc main_arg5) = W (Proc.devRef .tc main_arg5) := keep_main_part2_ops0 W main_arg5 (by decide)
theorem keep_main_part2_ops0_arg6 (W : Valuation τ sig (Elt F)) : StableHlo.after main_part2_ops0 W (Proc.devRef .tc main_arg6) = W (Proc.devRef .tc main_arg6) := keep_main_part2_ops0 W main_arg6 (by decide)
theorem keep_main_part2_ops0_arg7 (W : Valuation τ sig (Elt F)) : StableHlo.after main_part2_ops0 W (Proc.devRef .tc main_arg7) = W (Proc.devRef .tc main_arg7) := keep_main_part2_ops0 W main_arg7 (by decide)
theorem keep_main_part2_ops0_arg8 (W : Valuation τ sig (Elt F)) : StableHlo.after main_part2_ops0 W (Proc.devRef .tc main_arg8) = W (Proc.devRef .tc main_arg8) := keep_main_part2_ops0 W main_arg8 (by decide)
theorem keep_main_part2_ops0_arg9 (W : Valuation τ sig (Elt F)) : StableHlo.after main_part2_ops0 W (Proc.devRef .tc main_arg9) = W (Proc.devRef .tc main_arg9) := keep_main_part2_ops0 W main_arg9 (by decide)
theorem keep_main_part2_ops0_arg10 (W : Valuation τ sig (Elt F)) : StableHlo.after main_part2_ops0 W (Proc.devRef .tc main_arg10) = W (Proc.devRef .tc main_arg10) := keep_main_part2_ops0 W main_arg10 (by decide)
theorem keep_main_part2_ops0_arg11 (W : Valuation τ sig (Elt F)) : StableHlo.after main_part2_ops0 W (Proc.devRef .tc main_arg11) = W (Proc.devRef .tc main_arg11) := keep_main_part2_ops0 W main_arg11 (by decide)
theorem keep_main_part2_ops0_arg12 (W : Valuation τ sig (Elt F)) : StableHlo.after main_part2_ops0 W (Proc.devRef .tc main_arg12) = W (Proc.devRef .tc main_arg12) := keep_main_part2_ops0 W main_arg12 (by decide)
theorem keep_main_part2_ops0_arg13 (W : Valuation τ sig (Elt F)) : StableHlo.after main_part2_ops0 W (Proc.devRef .tc main_arg13) = W (Proc.devRef .tc main_arg13) := keep_main_part2_ops0 W main_arg13 (by decide)
theorem keep_main_part2_ops0_arg14 (W : Valuation τ sig (Elt F)) : StableHlo.after main_part2_ops0 W (Proc.devRef .tc main_arg14) = W (Proc.devRef .tc main_arg14) := keep_main_part2_ops0 W main_arg14 (by decide)
theorem keep_main_part2_ops0_arg15 (W : Valuation τ sig (Elt F)) : StableHlo.after main_part2_ops0 W (Proc.devRef .tc main_arg15) = W (Proc.devRef .tc main_arg15) := keep_main_part2_ops0 W main_arg15 (by decide)
theorem keep_main_part2_ops0_arg16 (W : Valuation τ sig (Elt F)) : StableHlo.after main_part2_ops0 W (Proc.devRef .tc main_arg16) = W (Proc.devRef .tc main_arg16) := keep_main_part2_ops0 W main_arg16 (by decide)
theorem keep_main_part2_ops0_arg17 (W : Valuation τ sig (Elt F)) : StableHlo.after main_part2_ops0 W (Proc.devRef .tc main_arg17) = W (Proc.devRef .tc main_arg17) := keep_main_part2_ops0 W main_arg17 (by decide)
theorem keep_main_part2_ops0_arg18 (W : Valuation τ sig (Elt F)) : StableHlo.after main_part2_ops0 W (Proc.devRef .tc main_arg18) = W (Proc.devRef .tc main_arg18) := keep_main_part2_ops0 W main_arg18 (by decide)
theorem keep_main_part2_ops0_arg19 (W : Valuation τ sig (Elt F)) : StableHlo.after main_part2_ops0 W (Proc.devRef .tc main_arg19) = W (Proc.devRef .tc main_arg19) := keep_main_part2_ops0 W main_arg19 (by decide)
theorem keep_main_part2_ops0_arg20 (W : Valuation τ sig (Elt F)) : StableHlo.after main_part2_ops0 W (Proc.devRef .tc main_arg20) = W (Proc.devRef .tc main_arg20) := keep_main_part2_ops0 W main_arg20 (by decide)
theorem keep_main_part2_ops0_arg21 (W : Valuation τ sig (Elt F)) : StableHlo.after main_part2_ops0 W (Proc.devRef .tc main_arg21) = W (Proc.devRef .tc main_arg21) := keep_main_part2_ops0 W main_arg21 (by decide)
theorem keep_main_part2_ops0_arg22 (W : Valuation τ sig (Elt F)) : StableHlo.after main_part2_ops0 W (Proc.devRef .tc main_arg22) = W (Proc.devRef .tc main_arg22) := keep_main_part2_ops0 W main_arg22 (by decide)
theorem keep_main_part3_ops0_arg0 (W : Valuation τ sig (Elt F)) : StableHlo.after main_part3_ops0 W (Proc.devRef .tc main_arg0) = W (Proc.devRef .tc main_arg0) := keep_main_part3_ops0 W main_arg0 (by decide)
theorem keep_main_part3_ops0_arg1 (W : Valuation τ sig (Elt F)) : StableHlo.after main_part3_ops0 W (Proc.devRef .tc main_arg1) = W (Proc.devRef .tc main_arg1) := keep_main_part3_ops0 W main_arg1 (by decide)
theorem keep_main_part3_ops0_arg2 (W : Valuation τ sig (Elt F)) : StableHlo.after main_part3_ops0 W (Proc.devRef .tc main_arg2) = W (Proc.devRef .tc main_arg2) := keep_main_part3_ops0 W main_arg2 (by decide)
theorem keep_main_part3_ops0_arg3 (W : Valuation τ sig (Elt F)) : StableHlo.after main_part3_ops0 W (Proc.devRef .tc main_arg3) = W (Proc.devRef .tc main_arg3) := keep_main_part3_ops0 W main_arg3 (by decide)
theorem keep_main_part3_ops0_arg4 (W : Valuation τ sig (Elt F)) : StableHlo.after main_part3_ops0 W (Proc.devRef .tc main_arg4) = W (Proc.devRef .tc main_arg4) := keep_main_part3_ops0 W main_arg4 (by decide)
theorem keep_main_part3_ops0_arg5 (W : Valuation τ sig (Elt F)) : StableHlo.after main_part3_ops0 W (Proc.devRef .tc main_arg5) = W (Proc.devRef .tc main_arg5) := keep_main_part3_ops0 W main_arg5 (by decide)
theorem keep_main_part3_ops0_arg6 (W : Valuation τ sig (Elt F)) : StableHlo.after main_part3_ops0 W (Proc.devRef .tc main_arg6) = W (Proc.devRef .tc main_arg6) := keep_main_part3_ops0 W main_arg6 (by decide)
theorem keep_main_part3_ops0_arg7 (W : Valuation τ sig (Elt F)) : StableHlo.after main_part3_ops0 W (Proc.devRef .tc main_arg7) = W (Proc.devRef .tc main_arg7) := keep_main_part3_ops0 W main_arg7 (by decide)
theorem keep_main_part3_ops0_arg8 (W : Valuation τ sig (Elt F)) : StableHlo.after main_part3_ops0 W (Proc.devRef .tc main_arg8) = W (Proc.devRef .tc main_arg8) := keep_main_part3_ops0 W main_arg8 (by decide)
theorem keep_main_part3_ops0_arg9 (W : Valuation τ sig (Elt F)) : StableHlo.after main_part3_ops0 W (Proc.devRef .tc main_arg9) = W (Proc.devRef .tc main_arg9) := keep_main_part3_ops0 W main_arg9 (by decide)
theorem keep_main_part3_ops0_arg10 (W : Valuation τ sig (Elt F)) : StableHlo.after main_part3_ops0 W (Proc.devRef .tc main_arg10) = W (Proc.devRef .tc main_arg10) := keep_main_part3_ops0 W main_arg10 (by decide)
theorem keep_main_part3_ops0_arg11 (W : Valuation τ sig (Elt F)) : StableHlo.after main_part3_ops0 W (Proc.devRef .tc main_arg11) = W (Proc.devRef .tc main_arg11) := keep_main_part3_ops0 W main_arg11 (by decide)
theorem keep_main_part3_ops0_arg12 (W : Valuation τ sig (Elt F)) : StableHlo.after main_part3_ops0 W (Proc.devRef .tc main_arg12) = W (Proc.devRef .tc main_arg12) := keep_main_part3_ops0 W main_arg12 (by decide)
theorem keep_main_part3_ops0_arg13 (W : Valuation τ sig (Elt F)) : StableHlo.after main_part3_ops0 W (Proc.devRef .tc main_arg13) = W (Proc.devRef .tc main_arg13) := keep_main_part3_ops0 W main_arg13 (by decide)
theorem keep_main_part3_ops0_arg14 (W : Valuation τ sig (Elt F)) : StableHlo.after main_part3_ops0 W (Proc.devRef .tc main_arg14) = W (Proc.devRef .tc main_arg14) := keep_main_part3_ops0 W main_arg14 (by decide)
theorem keep_main_part3_ops0_arg15 (W : Valuation τ sig (Elt F)) : StableHlo.after main_part3_ops0 W (Proc.devRef .tc main_arg15) = W (Proc.devRef .tc main_arg15) := keep_main_part3_ops0 W main_arg15 (by decide)
theorem keep_main_part3_ops0_arg16 (W : Valuation τ sig (Elt F)) : StableHlo.after main_part3_ops0 W (Proc.devRef .tc main_arg16) = W (Proc.devRef .tc main_arg16) := keep_main_part3_ops0 W main_arg16 (by decide)
theorem keep_main_part3_ops0_arg17 (W : Valuation τ sig (Elt F)) : StableHlo.after main_part3_ops0 W (Proc.devRef .tc main_arg17) = W (Proc.devRef .tc main_arg17) := keep_main_part3_ops0 W main_arg17 (by decide)
theorem keep_main_part3_ops0_arg18 (W : Valuation τ sig (Elt F)) : StableHlo.after main_part3_ops0 W (Proc.devRef .tc main_arg18) = W (Proc.devRef .tc main_arg18) := keep_main_part3_ops0 W main_arg18 (by decide)
theorem keep_main_part3_ops0_arg19 (W : Valuation τ sig (Elt F)) : StableHlo.after main_part3_ops0 W (Proc.devRef .tc main_arg19) = W (Proc.devRef .tc main_arg19) := keep_main_part3_ops0 W main_arg19 (by decide)
theorem keep_main_part3_ops0_arg20 (W : Valuation τ sig (Elt F)) : StableHlo.after main_part3_ops0 W (Proc.devRef .tc main_arg20) = W (Proc.devRef .tc main_arg20) := keep_main_part3_ops0 W main_arg20 (by decide)
theorem keep_main_part3_ops0_arg21 (W : Valuation τ sig (Elt F)) : StableHlo.after main_part3_ops0 W (Proc.devRef .tc main_arg21) = W (Proc.devRef .tc main_arg21) := keep_main_part3_ops0 W main_arg21 (by decide)
theorem keep_main_part3_ops0_arg22 (W : Valuation τ sig (Elt F)) : StableHlo.after main_part3_ops0 W (Proc.devRef .tc main_arg22) = W (Proc.devRef .tc main_arg22) := keep_main_part3_ops0 W main_arg22 (by decide)
theorem keep_main_part4_ops0_arg0 (W : Valuation τ sig (Elt F)) : StableHlo.after main_part4_ops0 W (Proc.devRef .tc main_arg0) = W (Proc.devRef .tc main_arg0) := keep_main_part4_ops0 W main_arg0 (by decide)
theorem keep_main_part4_ops0_arg1 (W : Valuation τ sig (Elt F)) : StableHlo.after main_part4_ops0 W (Proc.devRef .tc main_arg1) = W (Proc.devRef .tc main_arg1) := keep_main_part4_ops0 W main_arg1 (by decide)
theorem keep_main_part4_ops0_arg2 (W : Valuation τ sig (Elt F)) : StableHlo.after main_part4_ops0 W (Proc.devRef .tc main_arg2) = W (Proc.devRef .tc main_arg2) := keep_main_part4_ops0 W main_arg2 (by decide)
theorem keep_main_part4_ops0_arg3 (W : Valuation τ sig (Elt F)) : StableHlo.after main_part4_ops0 W (Proc.devRef .tc main_arg3) = W (Proc.devRef .tc main_arg3) := keep_main_part4_ops0 W main_arg3 (by decide)
theorem keep_main_part4_ops0_arg4 (W : Valuation τ sig (Elt F)) : StableHlo.after main_part4_ops0 W (Proc.devRef .tc main_arg4) = W (Proc.devRef .tc main_arg4) := keep_main_part4_ops0 W main_arg4 (by decide)
theorem keep_main_part4_ops0_arg5 (W : Valuation τ sig (Elt F)) : StableHlo.after main_part4_ops0 W (Proc.devRef .tc main_arg5) = W (Proc.devRef .tc main_arg5) := keep_main_part4_ops0 W main_arg5 (by decide)
theorem keep_main_part4_ops0_arg6 (W : Valuation τ sig (Elt F)) : StableHlo.after main_part4_ops0 W (Proc.devRef .tc main_arg6) = W (Proc.devRef .tc main_arg6) := keep_main_part4_ops0 W main_arg6 (by decide)
theorem keep_main_part4_ops0_arg7 (W : Valuation τ sig (Elt F)) : StableHlo.after main_part4_ops0 W (Proc.devRef .tc main_arg7) = W (Proc.devRef .tc main_arg7) := keep_main_part4_ops0 W main_arg7 (by decide)
theorem keep_main_part4_ops0_arg8 (W : Valuation τ sig (Elt F)) : StableHlo.after main_part4_ops0 W (Proc.devRef .tc main_arg8) = W (Proc.devRef .tc main_arg8) := keep_main_part4_ops0 W main_arg8 (by decide)
theorem keep_main_part4_ops0_arg9 (W : Valuation τ sig (Elt F)) : StableHlo.after main_part4_ops0 W (Proc.devRef .tc main_arg9) = W (Proc.devRef .tc main_arg9) := keep_main_part4_ops0 W main_arg9 (by decide)
theorem keep_main_part4_ops0_arg10 (W : Valuation τ sig (Elt F)) : StableHlo.after main_part4_ops0 W (Proc.devRef .tc main_arg10) = W (Proc.devRef .tc main_arg10) := keep_main_part4_ops0 W main_arg10 (by decide)
theorem keep_main_part4_ops0_arg11 (W : Valuation τ sig (Elt F)) : StableHlo.after main_part4_ops0 W (Proc.devRef .tc main_arg11) = W (Proc.devRef .tc main_arg11) := keep_main_part4_ops0 W main_arg11 (by decide)
theorem keep_main_part4_ops0_arg12 (W : Valuation τ sig (Elt F)) : StableHlo.after main_part4_ops0 W (Proc.devRef .tc main_arg12) = W (Proc.devRef .tc main_arg12) := keep_main_part4_ops0 W main_arg12 (by decide)
theorem keep_main_part4_ops0_arg13 (W : Valuation τ sig (Elt F)) : StableHlo.after main_part4_ops0 W (Proc.devRef .tc main_arg13) = W (Proc.devRef .tc main_arg13) := keep_main_part4_ops0 W main_arg13 (by decide)
theorem keep_main_part4_ops0_arg14 (W : Valuation τ sig (Elt F)) : StableHlo.after main_part4_ops0 W (Proc.devRef .tc main_arg14) = W (Proc.devRef .tc main_arg14) := keep_main_part4_ops0 W main_arg14 (by decide)
theorem keep_main_part4_ops0_arg15 (W : Valuation τ sig (Elt F)) : StableHlo.after main_part4_ops0 W (Proc.devRef .tc main_arg15) = W (Proc.devRef .tc main_arg15) := keep_main_part4_ops0 W main_arg15 (by decide)
theorem keep_main_part4_ops0_arg16 (W : Valuation τ sig (Elt F)) : StableHlo.after main_part4_ops0 W (Proc.devRef .tc main_arg16) = W (Proc.devRef .tc main_arg16) := keep_main_part4_ops0 W main_arg16 (by decide)
theorem keep_main_part4_ops0_arg17 (W : Valuation τ sig (Elt F)) : StableHlo.after main_part4_ops0 W (Proc.devRef .tc main_arg17) = W (Proc.devRef .tc main_arg17) := keep_main_part4_ops0 W main_arg17 (by decide)
theorem keep_main_part4_ops0_arg18 (W : Valuation τ sig (Elt F)) : StableHlo.after main_part4_ops0 W (Proc.devRef .tc main_arg18) = W (Proc.devRef .tc main_arg18) := keep_main_part4_ops0 W main_arg18 (by decide)
theorem keep_main_part4_ops0_arg19 (W : Valuation τ sig (Elt F)) : StableHlo.after main_part4_ops0 W (Proc.devRef .tc main_arg19) = W (Proc.devRef .tc main_arg19) := keep_main_part4_ops0 W main_arg19 (by decide)
theorem keep_main_part4_ops0_arg20 (W : Valuation τ sig (Elt F)) : StableHlo.after main_part4_ops0 W (Proc.devRef .tc main_arg20) = W (Proc.devRef .tc main_arg20) := keep_main_part4_ops0 W main_arg20 (by decide)
theorem keep_main_part4_ops0_arg21 (W : Valuation τ sig (Elt F)) : StableHlo.after main_part4_ops0 W (Proc.devRef .tc main_arg21) = W (Proc.devRef .tc main_arg21) := keep_main_part4_ops0 W main_arg21 (by decide)
theorem keep_main_part4_ops0_arg22 (W : Valuation τ sig (Elt F)) : StableHlo.after main_part4_ops0 W (Proc.devRef .tc main_arg22) = W (Proc.devRef .tc main_arg22) := keep_main_part4_ops0 W main_arg22 (by decide)
theorem keep_main_part4_ops1_arg0 (W : Valuation τ sig (Elt F)) : StableHlo.after main_part4_ops1 W (Proc.devRef .tc main_arg0) = W (Proc.devRef .tc main_arg0) := keep_main_part4_ops1 W main_arg0 (by decide)
theorem keep_main_part4_ops1_arg1 (W : Valuation τ sig (Elt F)) : StableHlo.after main_part4_ops1 W (Proc.devRef .tc main_arg1) = W (Proc.devRef .tc main_arg1) := keep_main_part4_ops1 W main_arg1 (by decide)
theorem keep_main_part4_ops1_arg2 (W : Valuation τ sig (Elt F)) : StableHlo.after main_part4_ops1 W (Proc.devRef .tc main_arg2) = W (Proc.devRef .tc main_arg2) := keep_main_part4_ops1 W main_arg2 (by decide)
theorem keep_main_part4_ops1_arg3 (W : Valuation τ sig (Elt F)) : StableHlo.after main_part4_ops1 W (Proc.devRef .tc main_arg3) = W (Proc.devRef .tc main_arg3) := keep_main_part4_ops1 W main_arg3 (by decide)
theorem keep_main_part4_ops1_arg4 (W : Valuation τ sig (Elt F)) : StableHlo.after main_part4_ops1 W (Proc.devRef .tc main_arg4) = W (Proc.devRef .tc main_arg4) := keep_main_part4_ops1 W main_arg4 (by decide)
theorem keep_main_part4_ops1_arg5 (W : Valuation τ sig (Elt F)) : StableHlo.after main_part4_ops1 W (Proc.devRef .tc main_arg5) = W (Proc.devRef .tc main_arg5) := keep_main_part4_ops1 W main_arg5 (by decide)
theorem keep_main_part4_ops1_arg6 (W : Valuation τ sig (Elt F)) : StableHlo.after main_part4_ops1 W (Proc.devRef .tc main_arg6) = W (Proc.devRef .tc main_arg6) := keep_main_part4_ops1 W main_arg6 (by decide)
theorem keep_main_part4_ops1_arg7 (W : Valuation τ sig (Elt F)) : StableHlo.after main_part4_ops1 W (Proc.devRef .tc main_arg7) = W (Proc.devRef .tc main_arg7) := keep_main_part4_ops1 W main_arg7 (by decide)
theorem keep_main_part4_ops1_arg8 (W : Valuation τ sig (Elt F)) : StableHlo.after main_part4_ops1 W (Proc.devRef .tc main_arg8) = W (Proc.devRef .tc main_arg8) := keep_main_part4_ops1 W main_arg8 (by decide)
theorem keep_main_part4_ops1_arg9 (W : Valuation τ sig (Elt F)) : StableHlo.after main_part4_ops1 W (Proc.devRef .tc main_arg9) = W (Proc.devRef .tc main_arg9) := keep_main_part4_ops1 W main_arg9 (by decide)
theorem keep_main_part4_ops1_arg10 (W : Valuation τ sig (Elt F)) : StableHlo.after main_part4_ops1 W (Proc.devRef .tc main_arg10) = W (Proc.devRef .tc main_arg10) := keep_main_part4_ops1 W main_arg10 (by decide)
theorem keep_main_part4_ops1_arg11 (W : Valuation τ sig (Elt F)) : StableHlo.after main_part4_ops1 W (Proc.devRef .tc main_arg11) = W (Proc.devRef .tc main_arg11) := keep_main_part4_ops1 W main_arg11 (by decide)
theorem keep_main_part4_ops1_arg12 (W : Valuation τ sig (Elt F)) : StableHlo.after main_part4_ops1 W (Proc.devRef .tc main_arg12) = W (Proc.devRef .tc main_arg12) := keep_main_part4_ops1 W main_arg12 (by decide)
theorem keep_main_part4_ops1_arg13 (W : Valuation τ sig (Elt F)) : StableHlo.after main_part4_ops1 W (Proc.devRef .tc main_arg13) = W (Proc.devRef .tc main_arg13) := keep_main_part4_ops1 W main_arg13 (by decide)
theorem keep_main_part4_ops1_arg14 (W : Valuation τ sig (Elt F)) : StableHlo.after main_part4_ops1 W (Proc.devRef .tc main_arg14) = W (Proc.devRef .tc main_arg14) := keep_main_part4_ops1 W main_arg14 (by decide)
theorem keep_main_part4_ops1_arg15 (W : Valuation τ sig (Elt F)) : StableHlo.after main_part4_ops1 W (Proc.devRef .tc main_arg15) = W (Proc.devRef .tc main_arg15) := keep_main_part4_ops1 W main_arg15 (by decide)
theorem keep_main_part4_ops1_arg16 (W : Valuation τ sig (Elt F)) : StableHlo.after main_part4_ops1 W (Proc.devRef .tc main_arg16) = W (Proc.devRef .tc main_arg16) := keep_main_part4_ops1 W main_arg16 (by decide)
theorem keep_main_part4_ops1_arg17 (W : Valuation τ sig (Elt F)) : StableHlo.after main_part4_ops1 W (Proc.devRef .tc main_arg17) = W (Proc.devRef .tc main_arg17) := keep_main_part4_ops1 W main_arg17 (by decide)
theorem keep_main_part4_ops1_arg18 (W : Valuation τ sig (Elt F)) : StableHlo.after main_part4_ops1 W (Proc.devRef .tc main_arg18) = W (Proc.devRef .tc main_arg18) := keep_main_part4_ops1 W main_arg18 (by decide)
theorem keep_main_part4_ops1_arg19 (W : Valuation τ sig (Elt F)) : StableHlo.after main_part4_ops1 W (Proc.devRef .tc main_arg19) = W (Proc.devRef .tc main_arg19) := keep_main_part4_ops1 W main_arg19 (by decide)
theorem keep_main_part4_ops1_arg20 (W : Valuation τ sig (Elt F)) : StableHlo.after main_part4_ops1 W (Proc.devRef .tc main_arg20) = W (Proc.devRef .tc main_arg20) := keep_main_part4_ops1 W main_arg20 (by decide)
theorem keep_main_part4_ops1_arg21 (W : Valuation τ sig (Elt F)) : StableHlo.after main_part4_ops1 W (Proc.devRef .tc main_arg21) = W (Proc.devRef .tc main_arg21) := keep_main_part4_ops1 W main_arg21 (by decide)
theorem keep_main_part4_ops1_arg22 (W : Valuation τ sig (Elt F)) : StableHlo.after main_part4_ops1 W (Proc.devRef .tc main_arg22) = W (Proc.devRef .tc main_arg22) := keep_main_part4_ops1 W main_arg22 (by decide)
theorem keep_main_part5_ops0_arg0 (W : Valuation τ sig (Elt F)) : StableHlo.after main_part5_ops0 W (Proc.devRef .tc main_arg0) = W (Proc.devRef .tc main_arg0) := keep_main_part5_ops0 W main_arg0 (by decide)
theorem keep_main_part5_ops0_arg1 (W : Valuation τ sig (Elt F)) : StableHlo.after main_part5_ops0 W (Proc.devRef .tc main_arg1) = W (Proc.devRef .tc main_arg1) := keep_main_part5_ops0 W main_arg1 (by decide)
theorem keep_main_part5_ops0_arg2 (W : Valuation τ sig (Elt F)) : StableHlo.after main_part5_ops0 W (Proc.devRef .tc main_arg2) = W (Proc.devRef .tc main_arg2) := keep_main_part5_ops0 W main_arg2 (by decide)
theorem keep_main_part5_ops0_arg3 (W : Valuation τ sig (Elt F)) : StableHlo.after main_part5_ops0 W (Proc.devRef .tc main_arg3) = W (Proc.devRef .tc main_arg3) := keep_main_part5_ops0 W main_arg3 (by decide)
theorem keep_main_part5_ops0_arg4 (W : Valuation τ sig (Elt F)) : StableHlo.after main_part5_ops0 W (Proc.devRef .tc main_arg4) = W (Proc.devRef .tc main_arg4) := keep_main_part5_ops0 W main_arg4 (by decide)
theorem keep_main_part5_ops0_arg5 (W : Valuation τ sig (Elt F)) : StableHlo.after main_part5_ops0 W (Proc.devRef .tc main_arg5) = W (Proc.devRef .tc main_arg5) := keep_main_part5_ops0 W main_arg5 (by decide)
theorem keep_main_part5_ops0_arg6 (W : Valuation τ sig (Elt F)) : StableHlo.after main_part5_ops0 W (Proc.devRef .tc main_arg6) = W (Proc.devRef .tc main_arg6) := keep_main_part5_ops0 W main_arg6 (by decide)
theorem keep_main_part5_ops0_arg7 (W : Valuation τ sig (Elt F)) : StableHlo.after main_part5_ops0 W (Proc.devRef .tc main_arg7) = W (Proc.devRef .tc main_arg7) := keep_main_part5_ops0 W main_arg7 (by decide)
theorem keep_main_part5_ops0_arg8 (W : Valuation τ sig (Elt F)) : StableHlo.after main_part5_ops0 W (Proc.devRef .tc main_arg8) = W (Proc.devRef .tc main_arg8) := keep_main_part5_ops0 W main_arg8 (by decide)
theorem keep_main_part5_ops0_arg9 (W : Valuation τ sig (Elt F)) : StableHlo.after main_part5_ops0 W (Proc.devRef .tc main_arg9) = W (Proc.devRef .tc main_arg9) := keep_main_part5_ops0 W main_arg9 (by decide)
theorem keep_main_part5_ops0_arg10 (W : Valuation τ sig (Elt F)) : StableHlo.after main_part5_ops0 W (Proc.devRef .tc main_arg10) = W (Proc.devRef .tc main_arg10) := keep_main_part5_ops0 W main_arg10 (by decide)
theorem keep_main_part5_ops0_arg11 (W : Valuation τ sig (Elt F)) : StableHlo.after main_part5_ops0 W (Proc.devRef .tc main_arg11) = W (Proc.devRef .tc main_arg11) := keep_main_part5_ops0 W main_arg11 (by decide)
theorem keep_main_part5_ops0_arg12 (W : Valuation τ sig (Elt F)) : StableHlo.after main_part5_ops0 W (Proc.devRef .tc main_arg12) = W (Proc.devRef .tc main_arg12) := keep_main_part5_ops0 W main_arg12 (by decide)
theorem keep_main_part5_ops0_arg13 (W : Valuation τ sig (Elt F)) : StableHlo.after main_part5_ops0 W (Proc.devRef .tc main_arg13) = W (Proc.devRef .tc main_arg13) := keep_main_part5_ops0 W main_arg13 (by decide)
theorem keep_main_part5_ops0_arg14 (W : Valuation τ sig (Elt F)) : StableHlo.after main_part5_ops0 W (Proc.devRef .tc main_arg14) = W (Proc.devRef .tc main_arg14) := keep_main_part5_ops0 W main_arg14 (by decide)
theorem keep_main_part5_ops0_arg15 (W : Valuation τ sig (Elt F)) : StableHlo.after main_part5_ops0 W (Proc.devRef .tc main_arg15) = W (Proc.devRef .tc main_arg15) := keep_main_part5_ops0 W main_arg15 (by decide)
theorem keep_main_part5_ops0_arg16 (W : Valuation τ sig (Elt F)) : StableHlo.after main_part5_ops0 W (Proc.devRef .tc main_arg16) = W (Proc.devRef .tc main_arg16) := keep_main_part5_ops0 W main_arg16 (by decide)
theorem keep_main_part5_ops0_arg17 (W : Valuation τ sig (Elt F)) : StableHlo.after main_part5_ops0 W (Proc.devRef .tc main_arg17) = W (Proc.devRef .tc main_arg17) := keep_main_part5_ops0 W main_arg17 (by decide)
theorem keep_main_part5_ops0_arg18 (W : Valuation τ sig (Elt F)) : StableHlo.after main_part5_ops0 W (Proc.devRef .tc main_arg18) = W (Proc.devRef .tc main_arg18) := keep_main_part5_ops0 W main_arg18 (by decide)
theorem keep_main_part5_ops0_arg19 (W : Valuation τ sig (Elt F)) : StableHlo.after main_part5_ops0 W (Proc.devRef .tc main_arg19) = W (Proc.devRef .tc main_arg19) := keep_main_part5_ops0 W main_arg19 (by decide)
theorem keep_main_part5_ops0_arg20 (W : Valuation τ sig (Elt F)) : StableHlo.after main_part5_ops0 W (Proc.devRef .tc main_arg20) = W (Proc.devRef .tc main_arg20) := keep_main_part5_ops0 W main_arg20 (by decide)
theorem keep_main_part5_ops0_arg21 (W : Valuation τ sig (Elt F)) : StableHlo.after main_part5_ops0 W (Proc.devRef .tc main_arg21) = W (Proc.devRef .tc main_arg21) := keep_main_part5_ops0 W main_arg21 (by decide)
theorem keep_main_part5_ops0_arg22 (W : Valuation τ sig (Elt F)) : StableHlo.after main_part5_ops0 W (Proc.devRef .tc main_arg22) = W (Proc.devRef .tc main_arg22) := keep_main_part5_ops0 W main_arg22 (by decide)
theorem keep_main_part5_ops1_arg0 (W : Valuation τ sig (Elt F)) : StableHlo.after main_part5_ops1 W (Proc.devRef .tc main_arg0) = W (Proc.devRef .tc main_arg0) := keep_main_part5_ops1 W main_arg0 (by decide)
theorem keep_main_part5_ops1_arg1 (W : Valuation τ sig (Elt F)) : StableHlo.after main_part5_ops1 W (Proc.devRef .tc main_arg1) = W (Proc.devRef .tc main_arg1) := keep_main_part5_ops1 W main_arg1 (by decide)
theorem keep_main_part5_ops1_arg2 (W : Valuation τ sig (Elt F)) : StableHlo.after main_part5_ops1 W (Proc.devRef .tc main_arg2) = W (Proc.devRef .tc main_arg2) := keep_main_part5_ops1 W main_arg2 (by decide)
theorem keep_main_part5_ops1_arg3 (W : Valuation τ sig (Elt F)) : StableHlo.after main_part5_ops1 W (Proc.devRef .tc main_arg3) = W (Proc.devRef .tc main_arg3) := keep_main_part5_ops1 W main_arg3 (by decide)
theorem keep_main_part5_ops1_arg4 (W : Valuation τ sig (Elt F)) : StableHlo.after main_part5_ops1 W (Proc.devRef .tc main_arg4) = W (Proc.devRef .tc main_arg4) := keep_main_part5_ops1 W main_arg4 (by decide)
theorem keep_main_part5_ops1_arg5 (W : Valuation τ sig (Elt F)) : StableHlo.after main_part5_ops1 W (Proc.devRef .tc main_arg5) = W (Proc.devRef .tc main_arg5) := keep_main_part5_ops1 W main_arg5 (by decide)
theorem keep_main_part5_ops1_arg6 (W : Valuation τ sig (Elt F)) : StableHlo.after main_part5_ops1 W (Proc.devRef .tc main_arg6) = W (Proc.devRef .tc main_arg6) := keep_main_part5_ops1 W main_arg6 (by decide)
theorem keep_main_part5_ops1_arg7 (W : Valuation τ sig (Elt F)) : StableHlo.after main_part5_ops1 W (Proc.devRef .tc main_arg7) = W (Proc.devRef .tc main_arg7) := keep_main_part5_ops1 W main_arg7 (by decide)
theorem keep_main_part5_ops1_arg8 (W : Valuation τ sig (Elt F)) : StableHlo.after main_part5_ops1 W (Proc.devRef .tc main_arg8) = W (Proc.devRef .tc main_arg8) := keep_main_part5_ops1 W main_arg8 (by decide)
theorem keep_main_part5_ops1_arg9 (W : Valuation τ sig (Elt F)) : StableHlo.after main_part5_ops1 W (Proc.devRef .tc main_arg9) = W (Proc.devRef .tc main_arg9) := keep_main_part5_ops1 W main_arg9 (by decide)
theorem keep_main_part5_ops1_arg10 (W : Valuation τ sig (Elt F)) : StableHlo.after main_part5_ops1 W (Proc.devRef .tc main_arg10) = W (Proc.devRef .tc main_arg10) := keep_main_part5_ops1 W main_arg10 (by decide)
theorem keep_main_part5_ops1_arg11 (W : Valuation τ sig (Elt F)) : StableHlo.after main_part5_ops1 W (Proc.devRef .tc main_arg11) = W (Proc.devRef .tc main_arg11) := keep_main_part5_ops1 W main_arg11 (by decide)
theorem keep_main_part5_ops1_arg12 (W : Valuation τ sig (Elt F)) : StableHlo.after main_part5_ops1 W (Proc.devRef .tc main_arg12) = W (Proc.devRef .tc main_arg12) := keep_main_part5_ops1 W main_arg12 (by decide)
theorem keep_main_part5_ops1_arg13 (W : Valuation τ sig (Elt F)) : StableHlo.after main_part5_ops1 W (Proc.devRef .tc main_arg13) = W (Proc.devRef .tc main_arg13) := keep_main_part5_ops1 W main_arg13 (by decide)
theorem keep_main_part5_ops1_arg14 (W : Valuation τ sig (Elt F)) : StableHlo.after main_part5_ops1 W (Proc.devRef .tc main_arg14) = W (Proc.devRef .tc main_arg14) := keep_main_part5_ops1 W main_arg14 (by decide)
theorem keep_main_part5_ops1_arg15 (W : Valuation τ sig (Elt F)) : StableHlo.after main_part5_ops1 W (Proc.devRef .tc main_arg15) = W (Proc.devRef .tc main_arg15) := keep_main_part5_ops1 W main_arg15 (by decide)
theorem keep_main_part5_ops1_arg16 (W : Valuation τ sig (Elt F)) : StableHlo.after main_part5_ops1 W (Proc.devRef .tc main_arg16) = W (Proc.devRef .tc main_arg16) := keep_main_part5_ops1 W main_arg16 (by decide)
theorem keep_main_part5_ops1_arg17 (W : Valuation τ sig (Elt F)) : StableHlo.after main_part5_ops1 W (Proc.devRef .tc main_arg17) = W (Proc.devRef .tc main_arg17) := keep_main_part5_ops1 W main_arg17 (by decide)
theorem keep_main_part5_ops1_arg18 (W : Valuation τ sig (Elt F)) : StableHlo.after main_part5_ops1 W (Proc.devRef .tc main_arg18) = W (Proc.devRef .tc main_arg18) := keep_main_part5_ops1 W main_arg18 (by decide)
theorem keep_main_part5_ops1_arg19 (W : Valuation τ sig (Elt F)) : StableHlo.after main_part5_ops1 W (Proc.devRef .tc main_arg19) = W (Proc.devRef .tc main_arg19) := keep_main_part5_ops1 W main_arg19 (by decide)
theorem keep_main_part5_ops1_arg20 (W : Valuation τ sig (Elt F)) : StableHlo.after main_part5_ops1 W (Proc.devRef .tc main_arg20) = W (Proc.devRef .tc main_arg20) := keep_main_part5_ops1 W main_arg20 (by decide)
theorem keep_main_part5_ops1_arg21 (W : Valuation τ sig (Elt F)) : StableHlo.after main_part5_ops1 W (Proc.devRef .tc main_arg21) = W (Proc.devRef .tc main_arg21) := keep_main_part5_ops1 W main_arg21 (by decide)
theorem keep_main_part5_ops1_arg22 (W : Valuation τ sig (Elt F)) : StableHlo.after main_part5_ops1 W (Proc.devRef .tc main_arg22) = W (Proc.devRef .tc main_arg22) := keep_main_part5_ops1 W main_arg22 (by decide)
theorem keep_main_part5_ops2_arg0 (W : Valuation τ sig (Elt F)) : StableHlo.after main_part5_ops2 W (Proc.devRef .tc main_arg0) = W (Proc.devRef .tc main_arg0) := keep_main_part5_ops2 W main_arg0 (by decide)
theorem keep_main_part5_ops2_arg1 (W : Valuation τ sig (Elt F)) : StableHlo.after main_part5_ops2 W (Proc.devRef .tc main_arg1) = W (Proc.devRef .tc main_arg1) := keep_main_part5_ops2 W main_arg1 (by decide)
theorem keep_main_part5_ops2_arg2 (W : Valuation τ sig (Elt F)) : StableHlo.after main_part5_ops2 W (Proc.devRef .tc main_arg2) = W (Proc.devRef .tc main_arg2) := keep_main_part5_ops2 W main_arg2 (by decide)
theorem keep_main_part5_ops2_arg3 (W : Valuation τ sig (Elt F)) : StableHlo.after main_part5_ops2 W (Proc.devRef .tc main_arg3) = W (Proc.devRef .tc main_arg3) := keep_main_part5_ops2 W main_arg3 (by decide)
theorem keep_main_part5_ops2_arg4 (W : Valuation τ sig (Elt F)) : StableHlo.after main_part5_ops2 W (Proc.devRef .tc main_arg4) = W (Proc.devRef .tc main_arg4) := keep_main_part5_ops2 W main_arg4 (by decide)
theorem keep_main_part5_ops2_arg5 (W : Valuation τ sig (Elt F)) : StableHlo.after main_part5_ops2 W (Proc.devRef .tc main_arg5) = W (Proc.devRef .tc main_arg5) := keep_main_part5_ops2 W main_arg5 (by decide)
theorem keep_main_part5_ops2_arg6 (W : Valuation τ sig (Elt F)) : StableHlo.after main_part5_ops2 W (Proc.devRef .tc main_arg6) = W (Proc.devRef .tc main_arg6) := keep_main_part5_ops2 W main_arg6 (by decide)
theorem keep_main_part5_ops2_arg7 (W : Valuation τ sig (Elt F)) : StableHlo.after main_part5_ops2 W (Proc.devRef .tc main_arg7) = W (Proc.devRef .tc main_arg7) := keep_main_part5_ops2 W main_arg7 (by decide)
theorem keep_main_part5_ops2_arg8 (W : Valuation τ sig (Elt F)) : StableHlo.after main_part5_ops2 W (Proc.devRef .tc main_arg8) = W (Proc.devRef .tc main_arg8) := keep_main_part5_ops2 W main_arg8 (by decide)
theorem keep_main_part5_ops2_arg9 (W : Valuation τ sig (Elt F)) : StableHlo.after main_part5_ops2 W (Proc.devRef .tc main_arg9) = W (Proc.devRef .tc main_arg9) := keep_main_part5_ops2 W main_arg9 (by decide)
theorem keep_main_part5_ops2_arg10 (W : Valuation τ sig (Elt F)) : StableHlo.after main_part5_ops2 W (Proc.devRef .tc main_arg10) = W (Proc.devRef .tc main_arg10) := keep_main_part5_ops2 W main_arg10 (by decide)
theorem keep_main_part5_ops2_arg11 (W : Valuation τ sig (Elt F)) : StableHlo.after main_part5_ops2 W (Proc.devRef .tc main_arg11) = W (Proc.devRef .tc main_arg11) := keep_main_part5_ops2 W main_arg11 (by decide)
theorem keep_main_part5_ops2_arg12 (W : Valuation τ sig (Elt F)) : StableHlo.after main_part5_ops2 W (Proc.devRef .tc main_arg12) = W (Proc.devRef .tc main_arg12) := keep_main_part5_ops2 W main_arg12 (by decide)
theorem keep_main_part5_ops2_arg13 (W : Valuation τ sig (Elt F)) : StableHlo.after main_part5_ops2 W (Proc.devRef .tc main_arg13) = W (Proc.devRef .tc main_arg13) := keep_main_part5_ops2 W main_arg13 (by decide)
theorem keep_main_part5_ops2_arg14 (W : Valuation τ sig (Elt F)) : StableHlo.after main_part5_ops2 W (Proc.devRef .tc main_arg14) = W (Proc.devRef .tc main_arg14) := keep_main_part5_ops2 W main_arg14 (by decide)
theorem keep_main_part5_ops2_arg15 (W : Valuation τ sig (Elt F)) : StableHlo.after main_part5_ops2 W (Proc.devRef .tc main_arg15) = W (Proc.devRef .tc main_arg15) := keep_main_part5_ops2 W main_arg15 (by decide)
theorem keep_main_part5_ops2_arg16 (W : Valuation τ sig (Elt F)) : StableHlo.after main_part5_ops2 W (Proc.devRef .tc main_arg16) = W (Proc.devRef .tc main_arg16) := keep_main_part5_ops2 W main_arg16 (by decide)
theorem keep_main_part5_ops2_arg17 (W : Valuation τ sig (Elt F)) : StableHlo.after main_part5_ops2 W (Proc.devRef .tc main_arg17) = W (Proc.devRef .tc main_arg17) := keep_main_part5_ops2 W main_arg17 (by decide)
theorem keep_main_part5_ops2_arg18 (W : Valuation τ sig (Elt F)) : StableHlo.after main_part5_ops2 W (Proc.devRef .tc main_arg18) = W (Proc.devRef .tc main_arg18) := keep_main_part5_ops2 W main_arg18 (by decide)
theorem keep_main_part5_ops2_arg19 (W : Valuation τ sig (Elt F)) : StableHlo.after main_part5_ops2 W (Proc.devRef .tc main_arg19) = W (Proc.devRef .tc main_arg19) := keep_main_part5_ops2 W main_arg19 (by decide)
theorem keep_main_part5_ops2_arg20 (W : Valuation τ sig (Elt F)) : StableHlo.after main_part5_ops2 W (Proc.devRef .tc main_arg20) = W (Proc.devRef .tc main_arg20) := keep_main_part5_ops2 W main_arg20 (by decide)
theorem keep_main_part5_ops2_arg21 (W : Valuation τ sig (Elt F)) : StableHlo.after main_part5_ops2 W (Proc.devRef .tc main_arg21) = W (Proc.devRef .tc main_arg21) := keep_main_part5_ops2 W main_arg21 (by decide)
theorem keep_main_part5_ops2_arg22 (W : Valuation τ sig (Elt F)) : StableHlo.after main_part5_ops2 W (Proc.devRef .tc main_arg22) = W (Proc.devRef .tc main_arg22) := keep_main_part5_ops2 W main_arg22 (by decide)
theorem keep_main_part5_ops3_arg0 (W : Valuation τ sig (Elt F)) : StableHlo.after main_part5_ops3 W (Proc.devRef .tc main_arg0) = W (Proc.devRef .tc main_arg0) := keep_main_part5_ops3 W main_arg0 (by decide)
theorem keep_main_part5_ops3_arg1 (W : Valuation τ sig (Elt F)) : StableHlo.after main_part5_ops3 W (Proc.devRef .tc main_arg1) = W (Proc.devRef .tc main_arg1) := keep_main_part5_ops3 W main_arg1 (by decide)
theorem keep_main_part5_ops3_arg2 (W : Valuation τ sig (Elt F)) : StableHlo.after main_part5_ops3 W (Proc.devRef .tc main_arg2) = W (Proc.devRef .tc main_arg2) := keep_main_part5_ops3 W main_arg2 (by decide)
theorem keep_main_part5_ops3_arg3 (W : Valuation τ sig (Elt F)) : StableHlo.after main_part5_ops3 W (Proc.devRef .tc main_arg3) = W (Proc.devRef .tc main_arg3) := keep_main_part5_ops3 W main_arg3 (by decide)
theorem keep_main_part5_ops3_arg4 (W : Valuation τ sig (Elt F)) : StableHlo.after main_part5_ops3 W (Proc.devRef .tc main_arg4) = W (Proc.devRef .tc main_arg4) := keep_main_part5_ops3 W main_arg4 (by decide)
theorem keep_main_part5_ops3_arg5 (W : Valuation τ sig (Elt F)) : StableHlo.after main_part5_ops3 W (Proc.devRef .tc main_arg5) = W (Proc.devRef .tc main_arg5) := keep_main_part5_ops3 W main_arg5 (by decide)
theorem keep_main_part5_ops3_arg6 (W : Valuation τ sig (Elt F)) : StableHlo.after main_part5_ops3 W (Proc.devRef .tc main_arg6) = W (Proc.devRef .tc main_arg6) := keep_main_part5_ops3 W main_arg6 (by decide)
theorem keep_main_part5_ops3_arg7 (W : Valuation τ sig (Elt F)) : StableHlo.after main_part5_ops3 W (Proc.devRef .tc main_arg7) = W (Proc.devRef .tc main_arg7) := keep_main_part5_ops3 W main_arg7 (by decide)
theorem keep_main_part5_ops3_arg8 (W : Valuation τ sig (Elt F)) : StableHlo.after main_part5_ops3 W (Proc.devRef .tc main_arg8) = W (Proc.devRef .tc main_arg8) := keep_main_part5_ops3 W main_arg8 (by decide)
theorem keep_main_part5_ops3_arg9 (W : Valuation τ sig (Elt F)) : StableHlo.after main_part5_ops3 W (Proc.devRef .tc main_arg9) = W (Proc.devRef .tc main_arg9) := keep_main_part5_ops3 W main_arg9 (by decide)
theorem keep_main_part5_ops3_arg10 (W : Valuation τ sig (Elt F)) : StableHlo.after main_part5_ops3 W (Proc.devRef .tc main_arg10) = W (Proc.devRef .tc main_arg10) := keep_main_part5_ops3 W main_arg10 (by decide)
theorem keep_main_part5_ops3_arg11 (W : Valuation τ sig (Elt F)) : StableHlo.after main_part5_ops3 W (Proc.devRef .tc main_arg11) = W (Proc.devRef .tc main_arg11) := keep_main_part5_ops3 W main_arg11 (by decide)
theorem keep_main_part5_ops3_arg12 (W : Valuation τ sig (Elt F)) : StableHlo.after main_part5_ops3 W (Proc.devRef .tc main_arg12) = W (Proc.devRef .tc main_arg12) := keep_main_part5_ops3 W main_arg12 (by decide)
theorem keep_main_part5_ops3_arg13 (W : Valuation τ sig (Elt F)) : StableHlo.after main_part5_ops3 W (Proc.devRef .tc main_arg13) = W (Proc.devRef .tc main_arg13) := keep_main_part5_ops3 W main_arg13 (by decide)
theorem keep_main_part5_ops3_arg14 (W : Valuation τ sig (Elt F)) : StableHlo.after main_part5_ops3 W (Proc.devRef .tc main_arg14) = W (Proc.devRef .tc main_arg14) := keep_main_part5_ops3 W main_arg14 (by decide)
theorem keep_main_part5_ops3_arg15 (W : Valuation τ sig (Elt F)) : StableHlo.after main_part5_ops3 W (Proc.devRef .tc main_arg15) = W (Proc.devRef .tc main_arg15) := keep_main_part5_ops3 W main_arg15 (by decide)
theorem keep_main_part5_ops3_arg16 (W : Valuation τ sig (Elt F)) : StableHlo.after main_part5_ops3 W (Proc.devRef .tc main_arg16) = W (Proc.devRef .tc main_arg16) := keep_main_part5_ops3 W main_arg16 (by decide)
theorem keep_main_part5_ops3_arg17 (W : Valuation τ sig (Elt F)) : StableHlo.after main_part5_ops3 W (Proc.devRef .tc main_arg17) = W (Proc.devRef .tc main_arg17) := keep_main_part5_ops3 W main_arg17 (by decide)
theorem keep_main_part5_ops3_arg18 (W : Valuation τ sig (Elt F)) : StableHlo.after main_part5_ops3 W (Proc.devRef .tc main_arg18) = W (Proc.devRef .tc main_arg18) := keep_main_part5_ops3 W main_arg18 (by decide)
theorem keep_main_part5_ops3_arg19 (W : Valuation τ sig (Elt F)) : StableHlo.after main_part5_ops3 W (Proc.devRef .tc main_arg19) = W (Proc.devRef .tc main_arg19) := keep_main_part5_ops3 W main_arg19 (by decide)
theorem keep_main_part5_ops3_arg20 (W : Valuation τ sig (Elt F)) : StableHlo.after main_part5_ops3 W (Proc.devRef .tc main_arg20) = W (Proc.devRef .tc main_arg20) := keep_main_part5_ops3 W main_arg20 (by decide)
theorem keep_main_part5_ops3_arg21 (W : Valuation τ sig (Elt F)) : StableHlo.after main_part5_ops3 W (Proc.devRef .tc main_arg21) = W (Proc.devRef .tc main_arg21) := keep_main_part5_ops3 W main_arg21 (by decide)
theorem keep_main_part5_ops3_arg22 (W : Valuation τ sig (Elt F)) : StableHlo.after main_part5_ops3 W (Proc.devRef .tc main_arg22) = W (Proc.devRef .tc main_arg22) := keep_main_part5_ops3 W main_arg22 (by decide)
theorem keep_main_part6_ops0_arg0 (W : Valuation τ sig (Elt F)) : StableHlo.after main_part6_ops0 W (Proc.devRef .tc main_arg0) = W (Proc.devRef .tc main_arg0) := keep_main_part6_ops0 W main_arg0 (by decide)
theorem keep_main_part6_ops0_arg1 (W : Valuation τ sig (Elt F)) : StableHlo.after main_part6_ops0 W (Proc.devRef .tc main_arg1) = W (Proc.devRef .tc main_arg1) := keep_main_part6_ops0 W main_arg1 (by decide)
theorem keep_main_part6_ops0_arg2 (W : Valuation τ sig (Elt F)) : StableHlo.after main_part6_ops0 W (Proc.devRef .tc main_arg2) = W (Proc.devRef .tc main_arg2) := keep_main_part6_ops0 W main_arg2 (by decide)
theorem keep_main_part6_ops0_arg3 (W : Valuation τ sig (Elt F)) : StableHlo.after main_part6_ops0 W (Proc.devRef .tc main_arg3) = W (Proc.devRef .tc main_arg3) := keep_main_part6_ops0 W main_arg3 (by decide)
theorem keep_main_part6_ops0_arg4 (W : Valuation τ sig (Elt F)) : StableHlo.after main_part6_ops0 W (Proc.devRef .tc main_arg4) = W (Proc.devRef .tc main_arg4) := keep_main_part6_ops0 W main_arg4 (by decide)
theorem keep_main_part6_ops0_arg5 (W : Valuation τ sig (Elt F)) : StableHlo.after main_part6_ops0 W (Proc.devRef .tc main_arg5) = W (Proc.devRef .tc main_arg5) := keep_main_part6_ops0 W main_arg5 (by decide)
theorem keep_main_part6_ops0_arg6 (W : Valuation τ sig (Elt F)) : StableHlo.after main_part6_ops0 W (Proc.devRef .tc main_arg6) = W (Proc.devRef .tc main_arg6) := keep_main_part6_ops0 W main_arg6 (by decide)
theorem keep_main_part6_ops0_arg7 (W : Valuation τ sig (Elt F)) : StableHlo.after main_part6_ops0 W (Proc.devRef .tc main_arg7) = W (Proc.devRef .tc main_arg7) := keep_main_part6_ops0 W main_arg7 (by decide)
theorem keep_main_part6_ops0_arg8 (W : Valuation τ sig (Elt F)) : StableHlo.after main_part6_ops0 W (Proc.devRef .tc main_arg8) = W (Proc.devRef .tc main_arg8) := keep_main_part6_ops0 W main_arg8 (by decide)
theorem keep_main_part6_ops0_arg9 (W : Valuation τ sig (Elt F)) : StableHlo.after main_part6_ops0 W (Proc.devRef .tc main_arg9) = W (Proc.devRef .tc main_arg9) := keep_main_part6_ops0 W main_arg9 (by decide)
theorem keep_main_part6_ops0_arg10 (W : Valuation τ sig (Elt F)) : StableHlo.after main_part6_ops0 W (Proc.devRef .tc main_arg10) = W (Proc.devRef .tc main_arg10) := keep_main_part6_ops0 W main_arg10 (by decide)
theorem keep_main_part6_ops0_arg11 (W : Valuation τ sig (Elt F)) : StableHlo.after main_part6_ops0 W (Proc.devRef .tc main_arg11) = W (Proc.devRef .tc main_arg11) := keep_main_part6_ops0 W main_arg11 (by decide)
theorem keep_main_part6_ops0_arg12 (W : Valuation τ sig (Elt F)) : StableHlo.after main_part6_ops0 W (Proc.devRef .tc main_arg12) = W (Proc.devRef .tc main_arg12) := keep_main_part6_ops0 W main_arg12 (by decide)
theorem keep_main_part6_ops0_arg13 (W : Valuation τ sig (Elt F)) : StableHlo.after main_part6_ops0 W (Proc.devRef .tc main_arg13) = W (Proc.devRef .tc main_arg13) := keep_main_part6_ops0 W main_arg13 (by decide)
theorem keep_main_part6_ops0_arg14 (W : Valuation τ sig (Elt F)) : StableHlo.after main_part6_ops0 W (Proc.devRef .tc main_arg14) = W (Proc.devRef .tc main_arg14) := keep_main_part6_ops0 W main_arg14 (by decide)
theorem keep_main_part6_ops0_arg15 (W : Valuation τ sig (Elt F)) : StableHlo.after main_part6_ops0 W (Proc.devRef .tc main_arg15) = W (Proc.devRef .tc main_arg15) := keep_main_part6_ops0 W main_arg15 (by decide)
theorem keep_main_part6_ops0_arg16 (W : Valuation τ sig (Elt F)) : StableHlo.after main_part6_ops0 W (Proc.devRef .tc main_arg16) = W (Proc.devRef .tc main_arg16) := keep_main_part6_ops0 W main_arg16 (by decide)
theorem keep_main_part6_ops0_arg17 (W : Valuation τ sig (Elt F)) : StableHlo.after main_part6_ops0 W (Proc.devRef .tc main_arg17) = W (Proc.devRef .tc main_arg17) := keep_main_part6_ops0 W main_arg17 (by decide)
theorem keep_main_part6_ops0_arg18 (W : Valuation τ sig (Elt F)) : StableHlo.after main_part6_ops0 W (Proc.devRef .tc main_arg18) = W (Proc.devRef .tc main_arg18) := keep_main_part6_ops0 W main_arg18 (by decide)
theorem keep_main_part6_ops0_arg19 (W : Valuation τ sig (Elt F)) : StableHlo.after main_part6_ops0 W (Proc.devRef .tc main_arg19) = W (Proc.devRef .tc main_arg19) := keep_main_part6_ops0 W main_arg19 (by decide)
theorem keep_main_part6_ops0_arg20 (W : Valuation τ sig (Elt F)) : StableHlo.after main_part6_ops0 W (Proc.devRef .tc main_arg20) = W (Proc.devRef .tc main_arg20) := keep_main_part6_ops0 W main_arg20 (by decide)
theorem keep_main_part6_ops0_arg21 (W : Valuation τ sig (Elt F)) : StableHlo.after main_part6_ops0 W (Proc.devRef .tc main_arg21) = W (Proc.devRef .tc main_arg21) := keep_main_part6_ops0 W main_arg21 (by decide)
theorem keep_main_part6_ops0_arg22 (W : Valuation τ sig (Elt F)) : StableHlo.after main_part6_ops0 W (Proc.devRef .tc main_arg22) = W (Proc.devRef .tc main_arg22) := keep_main_part6_ops0 W main_arg22 (by decide)
theorem keep_main_part7_ops0_arg0 (W : Valuation τ sig (Elt F)) : StableHlo.after main_part7_ops0 W (Proc.devRef .tc main_arg0) = W (Proc.devRef .tc main_arg0) := keep_main_part7_ops0 W main_arg0 (by decide)
theorem keep_main_part7_ops0_arg1 (W : Valuation τ sig (Elt F)) : StableHlo.after main_part7_ops0 W (Proc.devRef .tc main_arg1) = W (Proc.devRef .tc main_arg1) := keep_main_part7_ops0 W main_arg1 (by decide)
theorem keep_main_part7_ops0_arg2 (W : Valuation τ sig (Elt F)) : StableHlo.after main_part7_ops0 W (Proc.devRef .tc main_arg2) = W (Proc.devRef .tc main_arg2) := keep_main_part7_ops0 W main_arg2 (by decide)
theorem keep_main_part7_ops0_arg3 (W : Valuation τ sig (Elt F)) : StableHlo.after main_part7_ops0 W (Proc.devRef .tc main_arg3) = W (Proc.devRef .tc main_arg3) := keep_main_part7_ops0 W main_arg3 (by decide)
theorem keep_main_part7_ops0_arg4 (W : Valuation τ sig (Elt F)) : StableHlo.after main_part7_ops0 W (Proc.devRef .tc main_arg4) = W (Proc.devRef .tc main_arg4) := keep_main_part7_ops0 W main_arg4 (by decide)
theorem keep_main_part7_ops0_arg5 (W : Valuation τ sig (Elt F)) : StableHlo.after main_part7_ops0 W (Proc.devRef .tc main_arg5) = W (Proc.devRef .tc main_arg5) := keep_main_part7_ops0 W main_arg5 (by decide)
theorem keep_main_part7_ops0_arg6 (W : Valuation τ sig (Elt F)) : StableHlo.after main_part7_ops0 W (Proc.devRef .tc main_arg6) = W (Proc.devRef .tc main_arg6) := keep_main_part7_ops0 W main_arg6 (by decide)
theorem keep_main_part7_ops0_arg7 (W : Valuation τ sig (Elt F)) : StableHlo.after main_part7_ops0 W (Proc.devRef .tc main_arg7) = W (Proc.devRef .tc main_arg7) := keep_main_part7_ops0 W main_arg7 (by decide)
theorem keep_main_part7_ops0_arg8 (W : Valuation τ sig (Elt F)) : StableHlo.after main_part7_ops0 W (Proc.devRef .tc main_arg8) = W (Proc.devRef .tc main_arg8) := keep_main_part7_ops0 W main_arg8 (by decide)
theorem keep_main_part7_ops0_arg9 (W : Valuation τ sig (Elt F)) : StableHlo.after main_part7_ops0 W (Proc.devRef .tc main_arg9) = W (Proc.devRef .tc main_arg9) := keep_main_part7_ops0 W main_arg9 (by decide)
theorem keep_main_part7_ops0_arg10 (W : Valuation τ sig (Elt F)) : StableHlo.after main_part7_ops0 W (Proc.devRef .tc main_arg10) = W (Proc.devRef .tc main_arg10) := keep_main_part7_ops0 W main_arg10 (by decide)
theorem keep_main_part7_ops0_arg11 (W : Valuation τ sig (Elt F)) : StableHlo.after main_part7_ops0 W (Proc.devRef .tc main_arg11) = W (Proc.devRef .tc main_arg11) := keep_main_part7_ops0 W main_arg11 (by decide)
theorem keep_main_part7_ops0_arg12 (W : Valuation τ sig (Elt F)) : StableHlo.after main_part7_ops0 W (Proc.devRef .tc main_arg12) = W (Proc.devRef .tc main_arg12) := keep_main_part7_ops0 W main_arg12 (by decide)
theorem keep_main_part7_ops0_arg13 (W : Valuation τ sig (Elt F)) : StableHlo.after main_part7_ops0 W (Proc.devRef .tc main_arg13) = W (Proc.devRef .tc main_arg13) := keep_main_part7_ops0 W main_arg13 (by decide)
theorem keep_main_part7_ops0_arg14 (W : Valuation τ sig (Elt F)) : StableHlo.after main_part7_ops0 W (Proc.devRef .tc main_arg14) = W (Proc.devRef .tc main_arg14) := keep_main_part7_ops0 W main_arg14 (by decide)
theorem keep_main_part7_ops0_arg15 (W : Valuation τ sig (Elt F)) : StableHlo.after main_part7_ops0 W (Proc.devRef .tc main_arg15) = W (Proc.devRef .tc main_arg15) := keep_main_part7_ops0 W main_arg15 (by decide)
theorem keep_main_part7_ops0_arg16 (W : Valuation τ sig (Elt F)) : StableHlo.after main_part7_ops0 W (Proc.devRef .tc main_arg16) = W (Proc.devRef .tc main_arg16) := keep_main_part7_ops0 W main_arg16 (by decide)
theorem keep_main_part7_ops0_arg17 (W : Valuation τ sig (Elt F)) : StableHlo.after main_part7_ops0 W (Proc.devRef .tc main_arg17) = W (Proc.devRef .tc main_arg17) := keep_main_part7_ops0 W main_arg17 (by decide)
theorem keep_main_part7_ops0_arg18 (W : Valuation τ sig (Elt F)) : StableHlo.after main_part7_ops0 W (Proc.devRef .tc main_arg18) = W (Proc.devRef .tc main_arg18) := keep_main_part7_ops0 W main_arg18 (by decide)
theorem keep_main_part7_ops0_arg19 (W : Valuation τ sig (Elt F)) : StableHlo.after main_part7_ops0 W (Proc.devRef .tc main_arg19) = W (Proc.devRef .tc main_arg19) := keep_main_part7_ops0 W main_arg19 (by decide)
theorem keep_main_part7_ops0_arg20 (W : Valuation τ sig (Elt F)) : StableHlo.after main_part7_ops0 W (Proc.devRef .tc main_arg20) = W (Proc.devRef .tc main_arg20) := keep_main_part7_ops0 W main_arg20 (by decide)
theorem keep_main_part7_ops0_arg21 (W : Valuation τ sig (Elt F)) : StableHlo.after main_part7_ops0 W (Proc.devRef .tc main_arg21) = W (Proc.devRef .tc main_arg21) := keep_main_part7_ops0 W main_arg21 (by decide)
theorem keep_main_part7_ops0_arg22 (W : Valuation τ sig (Elt F)) : StableHlo.after main_part7_ops0 W (Proc.devRef .tc main_arg22) = W (Proc.devRef .tc main_arg22) := keep_main_part7_ops0 W main_arg22 (by decide)
theorem keep_main_part8_ops0_arg0 (W : Valuation τ sig (Elt F)) : StableHlo.after main_part8_ops0 W (Proc.devRef .tc main_arg0) = W (Proc.devRef .tc main_arg0) := keep_main_part8_ops0 W main_arg0 (by decide)
theorem keep_main_part8_ops0_arg1 (W : Valuation τ sig (Elt F)) : StableHlo.after main_part8_ops0 W (Proc.devRef .tc main_arg1) = W (Proc.devRef .tc main_arg1) := keep_main_part8_ops0 W main_arg1 (by decide)
theorem keep_main_part8_ops0_arg2 (W : Valuation τ sig (Elt F)) : StableHlo.after main_part8_ops0 W (Proc.devRef .tc main_arg2) = W (Proc.devRef .tc main_arg2) := keep_main_part8_ops0 W main_arg2 (by decide)
theorem keep_main_part8_ops0_arg3 (W : Valuation τ sig (Elt F)) : StableHlo.after main_part8_ops0 W (Proc.devRef .tc main_arg3) = W (Proc.devRef .tc main_arg3) := keep_main_part8_ops0 W main_arg3 (by decide)
theorem keep_main_part8_ops0_arg4 (W : Valuation τ sig (Elt F)) : StableHlo.after main_part8_ops0 W (Proc.devRef .tc main_arg4) = W (Proc.devRef .tc main_arg4) := keep_main_part8_ops0 W main_arg4 (by decide)
theorem keep_main_part8_ops0_arg5 (W : Valuation τ sig (Elt F)) : StableHlo.after main_part8_ops0 W (Proc.devRef .tc main_arg5) = W (Proc.devRef .tc main_arg5) := keep_main_part8_ops0 W main_arg5 (by decide)
theorem keep_main_part8_ops0_arg6 (W : Valuation τ sig (Elt F)) : StableHlo.after main_part8_ops0 W (Proc.devRef .tc main_arg6) = W (Proc.devRef .tc main_arg6) := keep_main_part8_ops0 W main_arg6 (by decide)
theorem keep_main_part8_ops0_arg7 (W : Valuation τ sig (Elt F)) : StableHlo.after main_part8_ops0 W (Proc.devRef .tc main_arg7) = W (Proc.devRef .tc main_arg7) := keep_main_part8_ops0 W main_arg7 (by decide)
theorem keep_main_part8_ops0_arg8 (W : Valuation τ sig (Elt F)) : StableHlo.after main_part8_ops0 W (Proc.devRef .tc main_arg8) = W (Proc.devRef .tc main_arg8) := keep_main_part8_ops0 W main_arg8 (by decide)
theorem keep_main_part8_ops0_arg9 (W : Valuation τ sig (Elt F)) : StableHlo.after main_part8_ops0 W (Proc.devRef .tc main_arg9) = W (Proc.devRef .tc main_arg9) := keep_main_part8_ops0 W main_arg9 (by decide)
theorem keep_main_part8_ops0_arg10 (W : Valuation τ sig (Elt F)) : StableHlo.after main_part8_ops0 W (Proc.devRef .tc main_arg10) = W (Proc.devRef .tc main_arg10) := keep_main_part8_ops0 W main_arg10 (by decide)
theorem keep_main_part8_ops0_arg11 (W : Valuation τ sig (Elt F)) : StableHlo.after main_part8_ops0 W (Proc.devRef .tc main_arg11) = W (Proc.devRef .tc main_arg11) := keep_main_part8_ops0 W main_arg11 (by decide)
theorem keep_main_part8_ops0_arg12 (W : Valuation τ sig (Elt F)) : StableHlo.after main_part8_ops0 W (Proc.devRef .tc main_arg12) = W (Proc.devRef .tc main_arg12) := keep_main_part8_ops0 W main_arg12 (by decide)
theorem keep_main_part8_ops0_arg13 (W : Valuation τ sig (Elt F)) : StableHlo.after main_part8_ops0 W (Proc.devRef .tc main_arg13) = W (Proc.devRef .tc main_arg13) := keep_main_part8_ops0 W main_arg13 (by decide)
theorem keep_main_part8_ops0_arg14 (W : Valuation τ sig (Elt F)) : StableHlo.after main_part8_ops0 W (Proc.devRef .tc main_arg14) = W (Proc.devRef .tc main_arg14) := keep_main_part8_ops0 W main_arg14 (by decide)
theorem keep_main_part8_ops0_arg15 (W : Valuation τ sig (Elt F)) : StableHlo.after main_part8_ops0 W (Proc.devRef .tc main_arg15) = W (Proc.devRef .tc main_arg15) := keep_main_part8_ops0 W main_arg15 (by decide)
theorem keep_main_part8_ops0_arg16 (W : Valuation τ sig (Elt F)) : StableHlo.after main_part8_ops0 W (Proc.devRef .tc main_arg16) = W (Proc.devRef .tc main_arg16) := keep_main_part8_ops0 W main_arg16 (by decide)
theorem keep_main_part8_ops0_arg17 (W : Valuation τ sig (Elt F)) : StableHlo.after main_part8_ops0 W (Proc.devRef .tc main_arg17) = W (Proc.devRef .tc main_arg17) := keep_main_part8_ops0 W main_arg17 (by decide)
theorem keep_main_part8_ops0_arg18 (W : Valuation τ sig (Elt F)) : StableHlo.after main_part8_ops0 W (Proc.devRef .tc main_arg18) = W (Proc.devRef .tc main_arg18) := keep_main_part8_ops0 W main_arg18 (by decide)
theorem keep_main_part8_ops0_arg19 (W : Valuation τ sig (Elt F)) : StableHlo.after main_part8_ops0 W (Proc.devRef .tc main_arg19) = W (Proc.devRef .tc main_arg19) := keep_main_part8_ops0 W main_arg19 (by decide)
theorem keep_main_part8_ops0_arg20 (W : Valuation τ sig (Elt F)) : StableHlo.after main_part8_ops0 W (Proc.devRef .tc main_arg20) = W (Proc.devRef .tc main_arg20) := keep_main_part8_ops0 W main_arg20 (by decide)
theorem keep_main_part8_ops0_arg21 (W : Valuation τ sig (Elt F)) : StableHlo.after main_part8_ops0 W (Proc.devRef .tc main_arg21) = W (Proc.devRef .tc main_arg21) := keep_main_part8_ops0 W main_arg21 (by decide)
theorem keep_main_part8_ops0_arg22 (W : Valuation τ sig (Elt F)) : StableHlo.after main_part8_ops0 W (Proc.devRef .tc main_arg22) = W (Proc.devRef .tc main_arg22) := keep_main_part8_ops0 W main_arg22 (by decide)
theorem keep_main_part9_ops0_arg0 (W : Valuation τ sig (Elt F)) : StableHlo.after main_part9_ops0 W (Proc.devRef .tc main_arg0) = W (Proc.devRef .tc main_arg0) := keep_main_part9_ops0 W main_arg0 (by decide)
theorem keep_main_part9_ops0_arg1 (W : Valuation τ sig (Elt F)) : StableHlo.after main_part9_ops0 W (Proc.devRef .tc main_arg1) = W (Proc.devRef .tc main_arg1) := keep_main_part9_ops0 W main_arg1 (by decide)
theorem keep_main_part9_ops0_arg2 (W : Valuation τ sig (Elt F)) : StableHlo.after main_part9_ops0 W (Proc.devRef .tc main_arg2) = W (Proc.devRef .tc main_arg2) := keep_main_part9_ops0 W main_arg2 (by decide)
theorem keep_main_part9_ops0_arg3 (W : Valuation τ sig (Elt F)) : StableHlo.after main_part9_ops0 W (Proc.devRef .tc main_arg3) = W (Proc.devRef .tc main_arg3) := keep_main_part9_ops0 W main_arg3 (by decide)
theorem keep_main_part9_ops0_arg4 (W : Valuation τ sig (Elt F)) : StableHlo.after main_part9_ops0 W (Proc.devRef .tc main_arg4) = W (Proc.devRef .tc main_arg4) := keep_main_part9_ops0 W main_arg4 (by decide)
theorem keep_main_part9_ops0_arg5 (W : Valuation τ sig (Elt F)) : StableHlo.after main_part9_ops0 W (Proc.devRef .tc main_arg5) = W (Proc.devRef .tc main_arg5) := keep_main_part9_ops0 W main_arg5 (by decide)
theorem keep_main_part9_ops0_arg6 (W : Valuation τ sig (Elt F)) : StableHlo.after main_part9_ops0 W (Proc.devRef .tc main_arg6) = W (Proc.devRef .tc main_arg6) := keep_main_part9_ops0 W main_arg6 (by decide)
theorem keep_main_part9_ops0_arg7 (W : Valuation τ sig (Elt F)) : StableHlo.after main_part9_ops0 W (Proc.devRef .tc main_arg7) = W (Proc.devRef .tc main_arg7) := keep_main_part9_ops0 W main_arg7 (by decide)
theorem keep_main_part9_ops0_arg8 (W : Valuation τ sig (Elt F)) : StableHlo.after main_part9_ops0 W (Proc.devRef .tc main_arg8) = W (Proc.devRef .tc main_arg8) := keep_main_part9_ops0 W main_arg8 (by decide)
theorem keep_main_part9_ops0_arg9 (W : Valuation τ sig (Elt F)) : StableHlo.after main_part9_ops0 W (Proc.devRef .tc main_arg9) = W (Proc.devRef .tc main_arg9) := keep_main_part9_ops0 W main_arg9 (by decide)
theorem keep_main_part9_ops0_arg10 (W : Valuation τ sig (Elt F)) : StableHlo.after main_part9_ops0 W (Proc.devRef .tc main_arg10) = W (Proc.devRef .tc main_arg10) := keep_main_part9_ops0 W main_arg10 (by decide)
theorem keep_main_part9_ops0_arg11 (W : Valuation τ sig (Elt F)) : StableHlo.after main_part9_ops0 W (Proc.devRef .tc main_arg11) = W (Proc.devRef .tc main_arg11) := keep_main_part9_ops0 W main_arg11 (by decide)
theorem keep_main_part9_ops0_arg12 (W : Valuation τ sig (Elt F)) : StableHlo.after main_part9_ops0 W (Proc.devRef .tc main_arg12) = W (Proc.devRef .tc main_arg12) := keep_main_part9_ops0 W main_arg12 (by decide)
theorem keep_main_part9_ops0_arg13 (W : Valuation τ sig (Elt F)) : StableHlo.after main_part9_ops0 W (Proc.devRef .tc main_arg13) = W (Proc.devRef .tc main_arg13) := keep_main_part9_ops0 W main_arg13 (by decide)
theorem keep_main_part9_ops0_arg14 (W : Valuation τ sig (Elt F)) : StableHlo.after main_part9_ops0 W (Proc.devRef .tc main_arg14) = W (Proc.devRef .tc main_arg14) := keep_main_part9_ops0 W main_arg14 (by decide)
theorem keep_main_part9_ops0_arg15 (W : Valuation τ sig (Elt F)) : StableHlo.after main_part9_ops0 W (Proc.devRef .tc main_arg15) = W (Proc.devRef .tc main_arg15) := keep_main_part9_ops0 W main_arg15 (by decide)
theorem keep_main_part9_ops0_arg16 (W : Valuation τ sig (Elt F)) : StableHlo.after main_part9_ops0 W (Proc.devRef .tc main_arg16) = W (Proc.devRef .tc main_arg16) := keep_main_part9_ops0 W main_arg16 (by decide)
theorem keep_main_part9_ops0_arg17 (W : Valuation τ sig (Elt F)) : StableHlo.after main_part9_ops0 W (Proc.devRef .tc main_arg17) = W (Proc.devRef .tc main_arg17) := keep_main_part9_ops0 W main_arg17 (by decide)
theorem keep_main_part9_ops0_arg18 (W : Valuation τ sig (Elt F)) : StableHlo.after main_part9_ops0 W (Proc.devRef .tc main_arg18) = W (Proc.devRef .tc main_arg18) := keep_main_part9_ops0 W main_arg18 (by decide)
theorem keep_main_part9_ops0_arg19 (W : Valuation τ sig (Elt F)) : StableHlo.after main_part9_ops0 W (Proc.devRef .tc main_arg19) = W (Proc.devRef .tc main_arg19) := keep_main_part9_ops0 W main_arg19 (by decide)
theorem keep_main_part9_ops0_arg20 (W : Valuation τ sig (Elt F)) : StableHlo.after main_part9_ops0 W (Proc.devRef .tc main_arg20) = W (Proc.devRef .tc main_arg20) := keep_main_part9_ops0 W main_arg20 (by decide)
theorem keep_main_part9_ops0_arg21 (W : Valuation τ sig (Elt F)) : StableHlo.after main_part9_ops0 W (Proc.devRef .tc main_arg21) = W (Proc.devRef .tc main_arg21) := keep_main_part9_ops0 W main_arg21 (by decide)
theorem keep_main_part9_ops0_arg22 (W : Valuation τ sig (Elt F)) : StableHlo.after main_part9_ops0 W (Proc.devRef .tc main_arg22) = W (Proc.devRef .tc main_arg22) := keep_main_part9_ops0 W main_arg22 (by decide)

end Cert.Kernel.Hand

end
-- ==== Proof.KB.KeepArgs1.lean ====
import proofs.«125545_j64845416235624_1_alg».proof.Proof.KB.Keep

set_option maxRecDepth 7380

noncomputable section

namespace Cert.Kernel.Hand

open Idealize.ShloMosaic Idealize.ShloMosaic.TcCoe
open Cert.Kernel Cert.Kernel.Gen

variable {F : FTy → Type} [FloatOps F]

/-! # The argument arrays: no host piece writes one (the pieces of @main's windows 10 to 16)

Per host piece and argument array, the piece's `keep_…` at the argument: it is none of the piece's results, by evaluation. -/

theorem keep_main_part10_ops0_arg0 (W : Valuation τ sig (Elt F)) : StableHlo.after main_part10_ops0 W (Proc.devRef .tc main_arg0) = W (Proc.devRef .tc main_arg0) := keep_main_part10_ops0 W main_arg0 (by decide)
theorem keep_main_part10_ops0_arg1 (W : Valuation τ sig (Elt F)) : StableHlo.after main_part10_ops0 W (Proc.devRef .tc main_arg1) = W (Proc.devRef .tc main_arg1) := keep_main_part10_ops0 W main_arg1 (by decide)
theorem keep_main_part10_ops0_arg2 (W : Valuation τ sig (Elt F)) : StableHlo.after main_part10_ops0 W (Proc.devRef .tc main_arg2) = W (Proc.devRef .tc main_arg2) := keep_main_part10_ops0 W main_arg2 (by decide)
theorem keep_main_part10_ops0_arg3 (W : Valuation τ sig (Elt F)) : StableHlo.after main_part10_ops0 W (Proc.devRef .tc main_arg3) = W (Proc.devRef .tc main_arg3) := keep_main_part10_ops0 W main_arg3 (by decide)
theorem keep_main_part10_ops0_arg4 (W : Valuation τ sig (Elt F)) : StableHlo.after main_part10_ops0 W (Proc.devRef .tc main_arg4) = W (Proc.devRef .tc main_arg4) := keep_main_part10_ops0 W main_arg4 (by decide)
theorem keep_main_part10_ops0_arg5 (W : Valuation τ sig (Elt F)) : StableHlo.after main_part10_ops0 W (Proc.devRef .tc main_arg5) = W (Proc.devRef .tc main_arg5) := keep_main_part10_ops0 W main_arg5 (by decide)
theorem keep_main_part10_ops0_arg6 (W : Valuation τ sig (Elt F)) : StableHlo.after main_part10_ops0 W (Proc.devRef .tc main_arg6) = W (Proc.devRef .tc main_arg6) := keep_main_part10_ops0 W main_arg6 (by decide)
theorem keep_main_part10_ops0_arg7 (W : Valuation τ sig (Elt F)) : StableHlo.after main_part10_ops0 W (Proc.devRef .tc main_arg7) = W (Proc.devRef .tc main_arg7) := keep_main_part10_ops0 W main_arg7 (by decide)
theorem keep_main_part10_ops0_arg8 (W : Valuation τ sig (Elt F)) : StableHlo.after main_part10_ops0 W (Proc.devRef .tc main_arg8) = W (Proc.devRef .tc main_arg8) := keep_main_part10_ops0 W main_arg8 (by decide)
theorem keep_main_part10_ops0_arg9 (W : Valuation τ sig (Elt F)) : StableHlo.after main_part10_ops0 W (Proc.devRef .tc main_arg9) = W (Proc.devRef .tc main_arg9) := keep_main_part10_ops0 W main_arg9 (by decide)
theorem keep_main_part10_ops0_arg10 (W : Valuation τ sig (Elt F)) : StableHlo.after main_part10_ops0 W (Proc.devRef .tc main_arg10) = W (Proc.devRef .tc main_arg10) := keep_main_part10_ops0 W main_arg10 (by decide)
theorem keep_main_part10_ops0_arg11 (W : Valuation τ sig (Elt F)) : StableHlo.after main_part10_ops0 W (Proc.devRef .tc main_arg11) = W (Proc.devRef .tc main_arg11) := keep_main_part10_ops0 W main_arg11 (by decide)
theorem keep_main_part10_ops0_arg12 (W : Valuation τ sig (Elt F)) : StableHlo.after main_part10_ops0 W (Proc.devRef .tc main_arg12) = W (Proc.devRef .tc main_arg12) := keep_main_part10_ops0 W main_arg12 (by decide)
theorem keep_main_part10_ops0_arg13 (W : Valuation τ sig (Elt F)) : StableHlo.after main_part10_ops0 W (Proc.devRef .tc main_arg13) = W (Proc.devRef .tc main_arg13) := keep_main_part10_ops0 W main_arg13 (by decide)
theorem keep_main_part10_ops0_arg14 (W : Valuation τ sig (Elt F)) : StableHlo.after main_part10_ops0 W (Proc.devRef .tc main_arg14) = W (Proc.devRef .tc main_arg14) := keep_main_part10_ops0 W main_arg14 (by decide)
theorem keep_main_part10_ops0_arg15 (W : Valuation τ sig (Elt F)) : StableHlo.after main_part10_ops0 W (Proc.devRef .tc main_arg15) = W (Proc.devRef .tc main_arg15) := keep_main_part10_ops0 W main_arg15 (by decide)
theorem keep_main_part10_ops0_arg16 (W : Valuation τ sig (Elt F)) : StableHlo.after main_part10_ops0 W (Proc.devRef .tc main_arg16) = W (Proc.devRef .tc main_arg16) := keep_main_part10_ops0 W main_arg16 (by decide)
theorem keep_main_part10_ops0_arg17 (W : Valuation τ sig (Elt F)) : StableHlo.after main_part10_ops0 W (Proc.devRef .tc main_arg17) = W (Proc.devRef .tc main_arg17) := keep_main_part10_ops0 W main_arg17 (by decide)
theorem keep_main_part10_ops0_arg18 (W : Valuation τ sig (Elt F)) : StableHlo.after main_part10_ops0 W (Proc.devRef .tc main_arg18) = W (Proc.devRef .tc main_arg18) := keep_main_part10_ops0 W main_arg18 (by decide)
theorem keep_main_part10_ops0_arg19 (W : Valuation τ sig (Elt F)) : StableHlo.after main_part10_ops0 W (Proc.devRef .tc main_arg19) = W (Proc.devRef .tc main_arg19) := keep_main_part10_ops0 W main_arg19 (by decide)
theorem keep_main_part10_ops0_arg20 (W : Valuation τ sig (Elt F)) : StableHlo.after main_part10_ops0 W (Proc.devRef .tc main_arg20) = W (Proc.devRef .tc main_arg20) := keep_main_part10_ops0 W main_arg20 (by decide)
theorem keep_main_part10_ops0_arg21 (W : Valuation τ sig (Elt F)) : StableHlo.after main_part10_ops0 W (Proc.devRef .tc main_arg21) = W (Proc.devRef .tc main_arg21) := keep_main_part10_ops0 W main_arg21 (by decide)
theorem keep_main_part10_ops0_arg22 (W : Valuation τ sig (Elt F)) : StableHlo.after main_part10_ops0 W (Proc.devRef .tc main_arg22) = W (Proc.devRef .tc main_arg22) := keep_main_part10_ops0 W main_arg22 (by decide)
theorem keep_main_part10_ops1_arg0 (W : Valuation τ sig (Elt F)) : StableHlo.after main_part10_ops1 W (Proc.devRef .tc main_arg0) = W (Proc.devRef .tc main_arg0) := keep_main_part10_ops1 W main_arg0 (by decide)
theorem keep_main_part10_ops1_arg1 (W : Valuation τ sig (Elt F)) : StableHlo.after main_part10_ops1 W (Proc.devRef .tc main_arg1) = W (Proc.devRef .tc main_arg1) := keep_main_part10_ops1 W main_arg1 (by decide)
theorem keep_main_part10_ops1_arg2 (W : Valuation τ sig (Elt F)) : StableHlo.after main_part10_ops1 W (Proc.devRef .tc main_arg2) = W (Proc.devRef .tc main_arg2) := keep_main_part10_ops1 W main_arg2 (by decide)
theorem keep_main_part10_ops1_arg3 (W : Valuation τ sig (Elt F)) : StableHlo.after main_part10_ops1 W (Proc.devRef .tc main_arg3) = W (Proc.devRef .tc main_arg3) := keep_main_part10_ops1 W main_arg3 (by decide)
theorem keep_main_part10_ops1_arg4 (W : Valuation τ sig (Elt F)) : StableHlo.after main_part10_ops1 W (Proc.devRef .tc main_arg4) = W (Proc.devRef .tc main_arg4) := keep_main_part10_ops1 W main_arg4 (by decide)
theorem keep_main_part10_ops1_arg5 (W : Valuation τ sig (Elt F)) : StableHlo.after main_part10_ops1 W (Proc.devRef .tc main_arg5) = W (Proc.devRef .tc main_arg5) := keep_main_part10_ops1 W main_arg5 (by decide)
theorem keep_main_part10_ops1_arg6 (W : Valuation τ sig (Elt F)) : StableHlo.after main_part10_ops1 W (Proc.devRef .tc main_arg6) = W (Proc.devRef .tc main_arg6) := keep_main_part10_ops1 W main_arg6 (by decide)
theorem keep_main_part10_ops1_arg7 (W : Valuation τ sig (Elt F)) : StableHlo.after main_part10_ops1 W (Proc.devRef .tc main_arg7) = W (Proc.devRef .tc main_arg7) := keep_main_part10_ops1 W main_arg7 (by decide)
theorem keep_main_part10_ops1_arg8 (W : Valuation τ sig (Elt F)) : StableHlo.after main_part10_ops1 W (Proc.devRef .tc main_arg8) = W (Proc.devRef .tc main_arg8) := keep_main_part10_ops1 W main_arg8 (by decide)
theorem keep_main_part10_ops1_arg9 (W : Valuation τ sig (Elt F)) : StableHlo.after main_part10_ops1 W (Proc.devRef .tc main_arg9) = W (Proc.devRef .tc main_arg9) := keep_main_part10_ops1 W main_arg9 (by decide)
theorem keep_main_part10_ops1_arg10 (W : Valuation τ sig (Elt F)) : StableHlo.after main_part10_ops1 W (Proc.devRef .tc main_arg10) = W (Proc.devRef .tc main_arg10) := keep_main_part10_ops1 W main_arg10 (by decide)
theorem keep_main_part10_ops1_arg11 (W : Valuation τ sig (Elt F)) : StableHlo.after main_part10_ops1 W (Proc.devRef .tc main_arg11) = W (Proc.devRef .tc main_arg11) := keep_main_part10_ops1 W main_arg11 (by decide)
theorem keep_main_part10_ops1_arg12 (W : Valuation τ sig (Elt F)) : StableHlo.after main_part10_ops1 W (Proc.devRef .tc main_arg12) = W (Proc.devRef .tc main_arg12) := keep_main_part10_ops1 W main_arg12 (by decide)
theorem keep_main_part10_ops1_arg13 (W : Valuation τ sig (Elt F)) : StableHlo.after main_part10_ops1 W (Proc.devRef .tc main_arg13) = W (Proc.devRef .tc main_arg13) := keep_main_part10_ops1 W main_arg13 (by decide)
theorem keep_main_part10_ops1_arg14 (W : Valuation τ sig (Elt F)) : StableHlo.after main_part10_ops1 W (Proc.devRef .tc main_arg14) = W (Proc.devRef .tc main_arg14) := keep_main_part10_ops1 W main_arg14 (by decide)
theorem keep_main_part10_ops1_arg15 (W : Valuation τ sig (Elt F)) : StableHlo.after main_part10_ops1 W (Proc.devRef .tc main_arg15) = W (Proc.devRef .tc main_arg15) := keep_main_part10_ops1 W main_arg15 (by decide)
theorem keep_main_part10_ops1_arg16 (W : Valuation τ sig (Elt F)) : StableHlo.after main_part10_ops1 W (Proc.devRef .tc main_arg16) = W (Proc.devRef .tc main_arg16) := keep_main_part10_ops1 W main_arg16 (by decide)
theorem keep_main_part10_ops1_arg17 (W : Valuation τ sig (Elt F)) : StableHlo.after main_part10_ops1 W (Proc.devRef .tc main_arg17) = W (Proc.devRef .tc main_arg17) := keep_main_part10_ops1 W main_arg17 (by decide)
theorem keep_main_part10_ops1_arg18 (W : Valuation τ sig (Elt F)) : StableHlo.after main_part10_ops1 W (Proc.devRef .tc main_arg18) = W (Proc.devRef .tc main_arg18) := keep_main_part10_ops1 W main_arg18 (by decide)
theorem keep_main_part10_ops1_arg19 (W : Valuation τ sig (Elt F)) : StableHlo.after main_part10_ops1 W (Proc.devRef .tc main_arg19) = W (Proc.devRef .tc main_arg19) := keep_main_part10_ops1 W main_arg19 (by decide)
theorem keep_main_part10_ops1_arg20 (W : Valuation τ sig (Elt F)) : StableHlo.after main_part10_ops1 W (Proc.devRef .tc main_arg20) = W (Proc.devRef .tc main_arg20) := keep_main_part10_ops1 W main_arg20 (by decide)
theorem keep_main_part10_ops1_arg21 (W : Valuation τ sig (Elt F)) : StableHlo.after main_part10_ops1 W (Proc.devRef .tc main_arg21) = W (Proc.devRef .tc main_arg21) := keep_main_part10_ops1 W main_arg21 (by decide)
theorem keep_main_part10_ops1_arg22 (W : Valuation τ sig (Elt F)) : StableHlo.after main_part10_ops1 W (Proc.devRef .tc main_arg22) = W (Proc.devRef .tc main_arg22) := keep_main_part10_ops1 W main_arg22 (by decide)
theorem keep_main_part10_ops2_arg0 (W : Valuation τ sig (Elt F)) : StableHlo.after main_part10_ops2 W (Proc.devRef .tc main_arg0) = W (Proc.devRef .tc main_arg0) := keep_main_part10_ops2 W main_arg0 (by decide)
theorem keep_main_part10_ops2_arg1 (W : Valuation τ sig (Elt F)) : StableHlo.after main_part10_ops2 W (Proc.devRef .tc main_arg1) = W (Proc.devRef .tc main_arg1) := keep_main_part10_ops2 W main_arg1 (by decide)
theorem keep_main_part10_ops2_arg2 (W : Valuation τ sig (Elt F)) : StableHlo.after main_part10_ops2 W (Proc.devRef .tc main_arg2) = W (Proc.devRef .tc main_arg2) := keep_main_part10_ops2 W main_arg2 (by decide)
theorem keep_main_part10_ops2_arg3 (W : Valuation τ sig (Elt F)) : StableHlo.after main_part10_ops2 W (Proc.devRef .tc main_arg3) = W (Proc.devRef .tc main_arg3) := keep_main_part10_ops2 W main_arg3 (by decide)
theorem keep_main_part10_ops2_arg4 (W : Valuation τ sig (Elt F)) : StableHlo.after main_part10_ops2 W (Proc.devRef .tc main_arg4) = W (Proc.devRef .tc main_arg4) := keep_main_part10_ops2 W main_arg4 (by decide)
theorem keep_main_part10_ops2_arg5 (W : Valuation τ sig (Elt F)) : StableHlo.after main_part10_ops2 W (Proc.devRef .tc main_arg5) = W (Proc.devRef .tc main_arg5) := keep_main_part10_ops2 W main_arg5 (by decide)
theorem keep_main_part10_ops2_arg6 (W : Valuation τ sig (Elt F)) : StableHlo.after main_part10_ops2 W (Proc.devRef .tc main_arg6) = W (Proc.devRef .tc main_arg6) := keep_main_part10_ops2 W main_arg6 (by decide)
theorem keep_main_part10_ops2_arg7 (W : Valuation τ sig (Elt F)) : StableHlo.after main_part10_ops2 W (Proc.devRef .tc main_arg7) = W (Proc.devRef .tc main_arg7) := keep_main_part10_ops2 W main_arg7 (by decide)
theorem keep_main_part10_ops2_arg8 (W : Valuation τ sig (Elt F)) : StableHlo.after main_part10_ops2 W (Proc.devRef .tc main_arg8) = W (Proc.devRef .tc main_arg8) := keep_main_part10_ops2 W main_arg8 (by decide)
theorem keep_main_part10_ops2_arg9 (W : Valuation τ sig (Elt F)) : StableHlo.after main_part10_ops2 W (Proc.devRef .tc main_arg9) = W (Proc.devRef .tc main_arg9) := keep_main_part10_ops2 W main_arg9 (by decide)
theorem keep_main_part10_ops2_arg10 (W : Valuation τ sig (Elt F)) : StableHlo.after main_part10_ops2 W (Proc.devRef .tc main_arg10) = W (Proc.devRef .tc main_arg10) := keep_main_part10_ops2 W main_arg10 (by decide)
theorem keep_main_part10_ops2_arg11 (W : Valuation τ sig (Elt F)) : StableHlo.after main_part10_ops2 W (Proc.devRef .tc main_arg11) = W (Proc.devRef .tc main_arg11) := keep_main_part10_ops2 W main_arg11 (by decide)
theorem keep_main_part10_ops2_arg12 (W : Valuation τ sig (Elt F)) : StableHlo.after main_part10_ops2 W (Proc.devRef .tc main_arg12) = W (Proc.devRef .tc main_arg12) := keep_main_part10_ops2 W main_arg12 (by decide)
theorem keep_main_part10_ops2_arg13 (W : Valuation τ sig (Elt F)) : StableHlo.after main_part10_ops2 W (Proc.devRef .tc main_arg13) = W (Proc.devRef .tc main_arg13) := keep_main_part10_ops2 W main_arg13 (by decide)
theorem keep_main_part10_ops2_arg14 (W : Valuation τ sig (Elt F)) : StableHlo.after main_part10_ops2 W (Proc.devRef .tc main_arg14) = W (Proc.devRef .tc main_arg14) := keep_main_part10_ops2 W main_arg14 (by decide)
theorem keep_main_part10_ops2_arg15 (W : Valuation τ sig (Elt F)) : StableHlo.after main_part10_ops2 W (Proc.devRef .tc main_arg15) = W (Proc.devRef .tc main_arg15) := keep_main_part10_ops2 W main_arg15 (by decide)
theorem keep_main_part10_ops2_arg16 (W : Valuation τ sig (Elt F)) : StableHlo.after main_part10_ops2 W (Proc.devRef .tc main_arg16) = W (Proc.devRef .tc main_arg16) := keep_main_part10_ops2 W main_arg16 (by decide)
theorem keep_main_part10_ops2_arg17 (W : Valuation τ sig (Elt F)) : StableHlo.after main_part10_ops2 W (Proc.devRef .tc main_arg17) = W (Proc.devRef .tc main_arg17) := keep_main_part10_ops2 W main_arg17 (by decide)
theorem keep_main_part10_ops2_arg18 (W : Valuation τ sig (Elt F)) : StableHlo.after main_part10_ops2 W (Proc.devRef .tc main_arg18) = W (Proc.devRef .tc main_arg18) := keep_main_part10_ops2 W main_arg18 (by decide)
theorem keep_main_part10_ops2_arg19 (W : Valuation τ sig (Elt F)) : StableHlo.after main_part10_ops2 W (Proc.devRef .tc main_arg19) = W (Proc.devRef .tc main_arg19) := keep_main_part10_ops2 W main_arg19 (by decide)
theorem keep_main_part10_ops2_arg20 (W : Valuation τ sig (Elt F)) : StableHlo.after main_part10_ops2 W (Proc.devRef .tc main_arg20) = W (Proc.devRef .tc main_arg20) := keep_main_part10_ops2 W main_arg20 (by decide)
theorem keep_main_part10_ops2_arg21 (W : Valuation τ sig (Elt F)) : StableHlo.after main_part10_ops2 W (Proc.devRef .tc main_arg21) = W (Proc.devRef .tc main_arg21) := keep_main_part10_ops2 W main_arg21 (by decide)
theorem keep_main_part10_ops2_arg22 (W : Valuation τ sig (Elt F)) : StableHlo.after main_part10_ops2 W (Proc.devRef .tc main_arg22) = W (Proc.devRef .tc main_arg22) := keep_main_part10_ops2 W main_arg22 (by decide)
theorem keep_main_part10_ops3_arg0 (W : Valuation τ sig (Elt F)) : StableHlo.after main_part10_ops3 W (Proc.devRef .tc main_arg0) = W (Proc.devRef .tc main_arg0) := keep_main_part10_ops3 W main_arg0 (by decide)
theorem keep_main_part10_ops3_arg1 (W : Valuation τ sig (Elt F)) : StableHlo.after main_part10_ops3 W (Proc.devRef .tc main_arg1) = W (Proc.devRef .tc main_arg1) := keep_main_part10_ops3 W main_arg1 (by decide)
theorem keep_main_part10_ops3_arg2 (W : Valuation τ sig (Elt F)) : StableHlo.after main_part10_ops3 W (Proc.devRef .tc main_arg2) = W (Proc.devRef .tc main_arg2) := keep_main_part10_ops3 W main_arg2 (by decide)
theorem keep_main_part10_ops3_arg3 (W : Valuation τ sig (Elt F)) : StableHlo.after main_part10_ops3 W (Proc.devRef .tc main_arg3) = W (Proc.devRef .tc main_arg3) := keep_main_part10_ops3 W main_arg3 (by decide)
theorem keep_main_part10_ops3_arg4 (W : Valuation τ sig (Elt F)) : StableHlo.after main_part10_ops3 W (Proc.devRef .tc main_arg4) = W (Proc.devRef .tc main_arg4) := keep_main_part10_ops3 W main_arg4 (by decide)
theorem keep_main_part10_ops3_arg5 (W : Valuation τ sig (Elt F)) : StableHlo.after main_part10_ops3 W (Proc.devRef .tc main_arg5) = W (Proc.devRef .tc main_arg5) := keep_main_part10_ops3 W main_arg5 (by decide)
theorem keep_main_part10_ops3_arg6 (W : Valuation τ sig (Elt F)) : StableHlo.after main_part10_ops3 W (Proc.devRef .tc main_arg6) = W (Proc.devRef .tc main_arg6) := keep_main_part10_ops3 W main_arg6 (by decide)
theorem keep_main_part10_ops3_arg7 (W : Valuation τ sig (Elt F)) : StableHlo.after main_part10_ops3 W (Proc.devRef .tc main_arg7) = W (Proc.devRef .tc main_arg7) := keep_main_part10_ops3 W main_arg7 (by decide)
theorem keep_main_part10_ops3_arg8 (W : Valuation τ sig (Elt F)) : StableHlo.after main_part10_ops3 W (Proc.devRef .tc main_arg8) = W (Proc.devRef .tc main_arg8) := keep_main_part10_ops3 W main_arg8 (by decide)
theorem keep_main_part10_ops3_arg9 (W : Valuation τ sig (Elt F)) : StableHlo.after main_part10_ops3 W (Proc.devRef .tc main_arg9) = W (Proc.devRef .tc main_arg9) := keep_main_part10_ops3 W main_arg9 (by decide)
theorem keep_main_part10_ops3_arg10 (W : Valuation τ sig (Elt F)) : StableHlo.after main_part10_ops3 W (Proc.devRef .tc main_arg10) = W (Proc.devRef .tc main_arg10) := keep_main_part10_ops3 W main_arg10 (by decide)
theorem keep_main_part10_ops3_arg11 (W : Valuation τ sig (Elt F)) : StableHlo.after main_part10_ops3 W (Proc.devRef .tc main_arg11) = W (Proc.devRef .tc main_arg11) := keep_main_part10_ops3 W main_arg11 (by decide)
theorem keep_main_part10_ops3_arg12 (W : Valuation τ sig (Elt F)) : StableHlo.after main_part10_ops3 W (Proc.devRef .tc main_arg12) = W (Proc.devRef .tc main_arg12) := keep_main_part10_ops3 W main_arg12 (by decide)
theorem keep_main_part10_ops3_arg13 (W : Valuation τ sig (Elt F)) : StableHlo.after main_part10_ops3 W (Proc.devRef .tc main_arg13) = W (Proc.devRef .tc main_arg13) := keep_main_part10_ops3 W main_arg13 (by decide)
theorem keep_main_part10_ops3_arg14 (W : Valuation τ sig (Elt F)) : StableHlo.after main_part10_ops3 W (Proc.devRef .tc main_arg14) = W (Proc.devRef .tc main_arg14) := keep_main_part10_ops3 W main_arg14 (by decide)
theorem keep_main_part10_ops3_arg15 (W : Valuation τ sig (Elt F)) : StableHlo.after main_part10_ops3 W (Proc.devRef .tc main_arg15) = W (Proc.devRef .tc main_arg15) := keep_main_part10_ops3 W main_arg15 (by decide)
theorem keep_main_part10_ops3_arg16 (W : Valuation τ sig (Elt F)) : StableHlo.after main_part10_ops3 W (Proc.devRef .tc main_arg16) = W (Proc.devRef .tc main_arg16) := keep_main_part10_ops3 W main_arg16 (by decide)
theorem keep_main_part10_ops3_arg17 (W : Valuation τ sig (Elt F)) : StableHlo.after main_part10_ops3 W (Proc.devRef .tc main_arg17) = W (Proc.devRef .tc main_arg17) := keep_main_part10_ops3 W main_arg17 (by decide)
theorem keep_main_part10_ops3_arg18 (W : Valuation τ sig (Elt F)) : StableHlo.after main_part10_ops3 W (Proc.devRef .tc main_arg18) = W (Proc.devRef .tc main_arg18) := keep_main_part10_ops3 W main_arg18 (by decide)
theorem keep_main_part10_ops3_arg19 (W : Valuation τ sig (Elt F)) : StableHlo.after main_part10_ops3 W (Proc.devRef .tc main_arg19) = W (Proc.devRef .tc main_arg19) := keep_main_part10_ops3 W main_arg19 (by decide)
theorem keep_main_part10_ops3_arg20 (W : Valuation τ sig (Elt F)) : StableHlo.after main_part10_ops3 W (Proc.devRef .tc main_arg20) = W (Proc.devRef .tc main_arg20) := keep_main_part10_ops3 W main_arg20 (by decide)
theorem keep_main_part10_ops3_arg21 (W : Valuation τ sig (Elt F)) : StableHlo.after main_part10_ops3 W (Proc.devRef .tc main_arg21) = W (Proc.devRef .tc main_arg21) := keep_main_part10_ops3 W main_arg21 (by decide)
theorem keep_main_part10_ops3_arg22 (W : Valuation τ sig (Elt F)) : StableHlo.after main_part10_ops3 W (Proc.devRef .tc main_arg22) = W (Proc.devRef .tc main_arg22) := keep_main_part10_ops3 W main_arg22 (by decide)
theorem keep_main_part10_ops4_arg0 (W : Valuation τ sig (Elt F)) : StableHlo.after main_part10_ops4 W (Proc.devRef .tc main_arg0) = W (Proc.devRef .tc main_arg0) := keep_main_part10_ops4 W main_arg0 (by decide)
theorem keep_main_part10_ops4_arg1 (W : Valuation τ sig (Elt F)) : StableHlo.after main_part10_ops4 W (Proc.devRef .tc main_arg1) = W (Proc.devRef .tc main_arg1) := keep_main_part10_ops4 W main_arg1 (by decide)
theorem keep_main_part10_ops4_arg2 (W : Valuation τ sig (Elt F)) : StableHlo.after main_part10_ops4 W (Proc.devRef .tc main_arg2) = W (Proc.devRef .tc main_arg2) := keep_main_part10_ops4 W main_arg2 (by decide)
theorem keep_main_part10_ops4_arg3 (W : Valuation τ sig (Elt F)) : StableHlo.after main_part10_ops4 W (Proc.devRef .tc main_arg3) = W (Proc.devRef .tc main_arg3) := keep_main_part10_ops4 W main_arg3 (by decide)
theorem keep_main_part10_ops4_arg4 (W : Valuation τ sig (Elt F)) : StableHlo.after main_part10_ops4 W (Proc.devRef .tc main_arg4) = W (Proc.devRef .tc main_arg4) := keep_main_part10_ops4 W main_arg4 (by decide)
theorem keep_main_part10_ops4_arg5 (W : Valuation τ sig (Elt F)) : StableHlo.after main_part10_ops4 W (Proc.devRef .tc main_arg5) = W (Proc.devRef .tc main_arg5) := keep_main_part10_ops4 W main_arg5 (by decide)
theorem keep_main_part10_ops4_arg6 (W : Valuation τ sig (Elt F)) : StableHlo.after main_part10_ops4 W (Proc.devRef .tc main_arg6) = W (Proc.devRef .tc main_arg6) := keep_main_part10_ops4 W main_arg6 (by decide)
theorem keep_main_part10_ops4_arg7 (W : Valuation τ sig (Elt F)) : StableHlo.after main_part10_ops4 W (Proc.devRef .tc main_arg7) = W (Proc.devRef .tc main_arg7) := keep_main_part10_ops4 W main_arg7 (by decide)
theorem keep_main_part10_ops4_arg8 (W : Valuation τ sig (Elt F)) : StableHlo.after main_part10_ops4 W (Proc.devRef .tc main_arg8) = W (Proc.devRef .tc main_arg8) := keep_main_part10_ops4 W main_arg8 (by decide)
theorem keep_main_part10_ops4_arg9 (W : Valuation τ sig (Elt F)) : StableHlo.after main_part10_ops4 W (Proc.devRef .tc main_arg9) = W (Proc.devRef .tc main_arg9) := keep_main_part10_ops4 W main_arg9 (by decide)
theorem keep_main_part10_ops4_arg10 (W : Valuation τ sig (Elt F)) : StableHlo.after main_part10_ops4 W (Proc.devRef .tc main_arg10) = W (Proc.devRef .tc main_arg10) := keep_main_part10_ops4 W main_arg10 (by decide)
theorem keep_main_part10_ops4_arg11 (W : Valuation τ sig (Elt F)) : StableHlo.after main_part10_ops4 W (Proc.devRef .tc main_arg11) = W (Proc.devRef .tc main_arg11) := keep_main_part10_ops4 W main_arg11 (by decide)
theorem keep_main_part10_ops4_arg12 (W : Valuation τ sig (Elt F)) : StableHlo.after main_part10_ops4 W (Proc.devRef .tc main_arg12) = W (Proc.devRef .tc main_arg12) := keep_main_part10_ops4 W main_arg12 (by decide)
theorem keep_main_part10_ops4_arg13 (W : Valuation τ sig (Elt F)) : StableHlo.after main_part10_ops4 W (Proc.devRef .tc main_arg13) = W (Proc.devRef .tc main_arg13) := keep_main_part10_ops4 W main_arg13 (by decide)
theorem keep_main_part10_ops4_arg14 (W : Valuation τ sig (Elt F)) : StableHlo.after main_part10_ops4 W (Proc.devRef .tc main_arg14) = W (Proc.devRef .tc main_arg14) := keep_main_part10_ops4 W main_arg14 (by decide)
theorem keep_main_part10_ops4_arg15 (W : Valuation τ sig (Elt F)) : StableHlo.after main_part10_ops4 W (Proc.devRef .tc main_arg15) = W (Proc.devRef .tc main_arg15) := keep_main_part10_ops4 W main_arg15 (by decide)
theorem keep_main_part10_ops4_arg16 (W : Valuation τ sig (Elt F)) : StableHlo.after main_part10_ops4 W (Proc.devRef .tc main_arg16) = W (Proc.devRef .tc main_arg16) := keep_main_part10_ops4 W main_arg16 (by decide)
theorem keep_main_part10_ops4_arg17 (W : Valuation τ sig (Elt F)) : StableHlo.after main_part10_ops4 W (Proc.devRef .tc main_arg17) = W (Proc.devRef .tc main_arg17) := keep_main_part10_ops4 W main_arg17 (by decide)
theorem keep_main_part10_ops4_arg18 (W : Valuation τ sig (Elt F)) : StableHlo.after main_part10_ops4 W (Proc.devRef .tc main_arg18) = W (Proc.devRef .tc main_arg18) := keep_main_part10_ops4 W main_arg18 (by decide)
theorem keep_main_part10_ops4_arg19 (W : Valuation τ sig (Elt F)) : StableHlo.after main_part10_ops4 W (Proc.devRef .tc main_arg19) = W (Proc.devRef .tc main_arg19) := keep_main_part10_ops4 W main_arg19 (by decide)
theorem keep_main_part10_ops4_arg20 (W : Valuation τ sig (Elt F)) : StableHlo.after main_part10_ops4 W (Proc.devRef .tc main_arg20) = W (Proc.devRef .tc main_arg20) := keep_main_part10_ops4 W main_arg20 (by decide)
theorem keep_main_part10_ops4_arg21 (W : Valuation τ sig (Elt F)) : StableHlo.after main_part10_ops4 W (Proc.devRef .tc main_arg21) = W (Proc.devRef .tc main_arg21) := keep_main_part10_ops4 W main_arg21 (by decide)
theorem keep_main_part10_ops4_arg22 (W : Valuation τ sig (Elt F)) : StableHlo.after main_part10_ops4 W (Proc.devRef .tc main_arg22) = W (Proc.devRef .tc main_arg22) := keep_main_part10_ops4 W main_arg22 (by decide)
theorem keep_main_part11_ops0_arg0 (W : Valuation τ sig (Elt F)) : StableHlo.after main_part11_ops0 W (Proc.devRef .tc main_arg0) = W (Proc.devRef .tc main_arg0) := keep_main_part11_ops0 W main_arg0 (by decide)
theorem keep_main_part11_ops0_arg1 (W : Valuation τ sig (Elt F)) : StableHlo.after main_part11_ops0 W (Proc.devRef .tc main_arg1) = W (Proc.devRef .tc main_arg1) := keep_main_part11_ops0 W main_arg1 (by decide)
theorem keep_main_part11_ops0_arg2 (W : Valuation τ sig (Elt F)) : StableHlo.after main_part11_ops0 W (Proc.devRef .tc main_arg2) = W (Proc.devRef .tc main_arg2) := keep_main_part11_ops0 W main_arg2 (by decide)
theorem keep_main_part11_ops0_arg3 (W : Valuation τ sig (Elt F)) : StableHlo.after main_part11_ops0 W (Proc.devRef .tc main_arg3) = W (Proc.devRef .tc main_arg3) := keep_main_part11_ops0 W main_arg3 (by decide)
theorem keep_main_part11_ops0_arg4 (W : Valuation τ sig (Elt F)) : StableHlo.after main_part11_ops0 W (Proc.devRef .tc main_arg4) = W (Proc.devRef .tc main_arg4) := keep_main_part11_ops0 W main_arg4 (by decide)
theorem keep_main_part11_ops0_arg5 (W : Valuation τ sig (Elt F)) : StableHlo.after main_part11_ops0 W (Proc.devRef .tc main_arg5) = W (Proc.devRef .tc main_arg5) := keep_main_part11_ops0 W main_arg5 (by decide)
theorem keep_main_part11_ops0_arg6 (W : Valuation τ sig (Elt F)) : StableHlo.after main_part11_ops0 W (Proc.devRef .tc main_arg6) = W (Proc.devRef .tc main_arg6) := keep_main_part11_ops0 W main_arg6 (by decide)
theorem keep_main_part11_ops0_arg7 (W : Valuation τ sig (Elt F)) : StableHlo.after main_part11_ops0 W (Proc.devRef .tc main_arg7) = W (Proc.devRef .tc main_arg7) := keep_main_part11_ops0 W main_arg7 (by decide)
theorem keep_main_part11_ops0_arg8 (W : Valuation τ sig (Elt F)) : StableHlo.after main_part11_ops0 W (Proc.devRef .tc main_arg8) = W (Proc.devRef .tc main_arg8) := keep_main_part11_ops0 W main_arg8 (by decide)
theorem keep_main_part11_ops0_arg9 (W : Valuation τ sig (Elt F)) : StableHlo.after main_part11_ops0 W (Proc.devRef .tc main_arg9) = W (Proc.devRef .tc main_arg9) := keep_main_part11_ops0 W main_arg9 (by decide)
theorem keep_main_part11_ops0_arg10 (W : Valuation τ sig (Elt F)) : StableHlo.after main_part11_ops0 W (Proc.devRef .tc main_arg10) = W (Proc.devRef .tc main_arg10) := keep_main_part11_ops0 W main_arg10 (by decide)
theorem keep_main_part11_ops0_arg11 (W : Valuation τ sig (Elt F)) : StableHlo.after main_part11_ops0 W (Proc.devRef .tc main_arg11) = W (Proc.devRef .tc main_arg11) := keep_main_part11_ops0 W main_arg11 (by decide)
theorem keep_main_part11_ops0_arg12 (W : Valuation τ sig (Elt F)) : StableHlo.after main_part11_ops0 W (Proc.devRef .tc main_arg12) = W (Proc.devRef .tc main_arg12) := keep_main_part11_ops0 W main_arg12 (by decide)
theorem keep_main_part11_ops0_arg13 (W : Valuation τ sig (Elt F)) : StableHlo.after main_part11_ops0 W (Proc.devRef .tc main_arg13) = W (Proc.devRef .tc main_arg13) := keep_main_part11_ops0 W main_arg13 (by decide)
theorem keep_main_part11_ops0_arg14 (W : Valuation τ sig (Elt F)) : StableHlo.after main_part11_ops0 W (Proc.devRef .tc main_arg14) = W (Proc.devRef .tc main_arg14) := keep_main_part11_ops0 W main_arg14 (by decide)
theorem keep_main_part11_ops0_arg15 (W : Valuation τ sig (Elt F)) : StableHlo.after main_part11_ops0 W (Proc.devRef .tc main_arg15) = W (Proc.devRef .tc main_arg15) := keep_main_part11_ops0 W main_arg15 (by decide)
theorem keep_main_part11_ops0_arg16 (W : Valuation τ sig (Elt F)) : StableHlo.after main_part11_ops0 W (Proc.devRef .tc main_arg16) = W (Proc.devRef .tc main_arg16) := keep_main_part11_ops0 W main_arg16 (by decide)
theorem keep_main_part11_ops0_arg17 (W : Valuation τ sig (Elt F)) : StableHlo.after main_part11_ops0 W (Proc.devRef .tc main_arg17) = W (Proc.devRef .tc main_arg17) := keep_main_part11_ops0 W main_arg17 (by decide)
theorem keep_main_part11_ops0_arg18 (W : Valuation τ sig (Elt F)) : StableHlo.after main_part11_ops0 W (Proc.devRef .tc main_arg18) = W (Proc.devRef .tc main_arg18) := keep_main_part11_ops0 W main_arg18 (by decide)
theorem keep_main_part11_ops0_arg19 (W : Valuation τ sig (Elt F)) : StableHlo.after main_part11_ops0 W (Proc.devRef .tc main_arg19) = W (Proc.devRef .tc main_arg19) := keep_main_part11_ops0 W main_arg19 (by decide)
theorem keep_main_part11_ops0_arg20 (W : Valuation τ sig (Elt F)) : StableHlo.after main_part11_ops0 W (Proc.devRef .tc main_arg20) = W (Proc.devRef .tc main_arg20) := keep_main_part11_ops0 W main_arg20 (by decide)
theorem keep_main_part11_ops0_arg21 (W : Valuation τ sig (Elt F)) : StableHlo.after main_part11_ops0 W (Proc.devRef .tc main_arg21) = W (Proc.devRef .tc main_arg21) := keep_main_part11_ops0 W main_arg21 (by decide)
theorem keep_main_part11_ops0_arg22 (W : Valuation τ sig (Elt F)) : StableHlo.after main_part11_ops0 W (Proc.devRef .tc main_arg22) = W (Proc.devRef .tc main_arg22) := keep_main_part11_ops0 W main_arg22 (by decide)
theorem keep_main_part12_ops0_arg0 (W : Valuation τ sig (Elt F)) : StableHlo.after main_part12_ops0 W (Proc.devRef .tc main_arg0) = W (Proc.devRef .tc main_arg0) := keep_main_part12_ops0 W main_arg0 (by decide)
theorem keep_main_part12_ops0_arg1 (W : Valuation τ sig (Elt F)) : StableHlo.after main_part12_ops0 W (Proc.devRef .tc main_arg1) = W (Proc.devRef .tc main_arg1) := keep_main_part12_ops0 W main_arg1 (by decide)
theorem keep_main_part12_ops0_arg2 (W : Valuation τ sig (Elt F)) : StableHlo.after main_part12_ops0 W (Proc.devRef .tc main_arg2) = W (Proc.devRef .tc main_arg2) := keep_main_part12_ops0 W main_arg2 (by decide)
theorem keep_main_part12_ops0_arg3 (W : Valuation τ sig (Elt F)) : StableHlo.after main_part12_ops0 W (Proc.devRef .tc main_arg3) = W (Proc.devRef .tc main_arg3) := keep_main_part12_ops0 W main_arg3 (by decide)
theorem keep_main_part12_ops0_arg4 (W : Valuation τ sig (Elt F)) : StableHlo.after main_part12_ops0 W (Proc.devRef .tc main_arg4) = W (Proc.devRef .tc main_arg4) := keep_main_part12_ops0 W main_arg4 (by decide)
theorem keep_main_part12_ops0_arg5 (W : Valuation τ sig (Elt F)) : StableHlo.after main_part12_ops0 W (Proc.devRef .tc main_arg5) = W (Proc.devRef .tc main_arg5) := keep_main_part12_ops0 W main_arg5 (by decide)
theorem keep_main_part12_ops0_arg6 (W : Valuation τ sig (Elt F)) : StableHlo.after main_part12_ops0 W (Proc.devRef .tc main_arg6) = W (Proc.devRef .tc main_arg6) := keep_main_part12_ops0 W main_arg6 (by decide)
theorem keep_main_part12_ops0_arg7 (W : Valuation τ sig (Elt F)) : StableHlo.after main_part12_ops0 W (Proc.devRef .tc main_arg7) = W (Proc.devRef .tc main_arg7) := keep_main_part12_ops0 W main_arg7 (by decide)
theorem keep_main_part12_ops0_arg8 (W : Valuation τ sig (Elt F)) : StableHlo.after main_part12_ops0 W (Proc.devRef .tc main_arg8) = W (Proc.devRef .tc main_arg8) := keep_main_part12_ops0 W main_arg8 (by decide)
theorem keep_main_part12_ops0_arg9 (W : Valuation τ sig (Elt F)) : StableHlo.after main_part12_ops0 W (Proc.devRef .tc main_arg9) = W (Proc.devRef .tc main_arg9) := keep_main_part12_ops0 W main_arg9 (by decide)
theorem keep_main_part12_ops0_arg10 (W : Valuation τ sig (Elt F)) : StableHlo.after main_part12_ops0 W (Proc.devRef .tc main_arg10) = W (Proc.devRef .tc main_arg10) := keep_main_part12_ops0 W main_arg10 (by decide)
theorem keep_main_part12_ops0_arg11 (W : Valuation τ sig (Elt F)) : StableHlo.after main_part12_ops0 W (Proc.devRef .tc main_arg11) = W (Proc.devRef .tc main_arg11) := keep_main_part12_ops0 W main_arg11 (by decide)
theorem keep_main_part12_ops0_arg12 (W : Valuation τ sig (Elt F)) : StableHlo.after main_part12_ops0 W (Proc.devRef .tc main_arg12) = W (Proc.devRef .tc main_arg12) := keep_main_part12_ops0 W main_arg12 (by decide)
theorem keep_main_part12_ops0_arg13 (W : Valuation τ sig (Elt F)) : StableHlo.after main_part12_ops0 W (Proc.devRef .tc main_arg13) = W (Proc.devRef .tc main_arg13) := keep_main_part12_ops0 W main_arg13 (by decide)
theorem keep_main_part12_ops0_arg14 (W : Valuation τ sig (Elt F)) : StableHlo.after main_part12_ops0 W (Proc.devRef .tc main_arg14) = W (Proc.devRef .tc main_arg14) := keep_main_part12_ops0 W main_arg14 (by decide)
theorem keep_main_part12_ops0_arg15 (W : Valuation τ sig (Elt F)) : StableHlo.after main_part12_ops0 W (Proc.devRef .tc main_arg15) = W (Proc.devRef .tc main_arg15) := keep_main_part12_ops0 W main_arg15 (by decide)
theorem keep_main_part12_ops0_arg16 (W : Valuation τ sig (Elt F)) : StableHlo.after main_part12_ops0 W (Proc.devRef .tc main_arg16) = W (Proc.devRef .tc main_arg16) := keep_main_part12_ops0 W main_arg16 (by decide)
theorem keep_main_part12_ops0_arg17 (W : Valuation τ sig (Elt F)) : StableHlo.after main_part12_ops0 W (Proc.devRef .tc main_arg17) = W (Proc.devRef .tc main_arg17) := keep_main_part12_ops0 W main_arg17 (by decide)
theorem keep_main_part12_ops0_arg18 (W : Valuation τ sig (Elt F)) : StableHlo.after main_part12_ops0 W (Proc.devRef .tc main_arg18) = W (Proc.devRef .tc main_arg18) := keep_main_part12_ops0 W main_arg18 (by decide)
theorem keep_main_part12_ops0_arg19 (W : Valuation τ sig (Elt F)) : StableHlo.after main_part12_ops0 W (Proc.devRef .tc main_arg19) = W (Proc.devRef .tc main_arg19) := keep_main_part12_ops0 W main_arg19 (by decide)
theorem keep_main_part12_ops0_arg20 (W : Valuation τ sig (Elt F)) : StableHlo.after main_part12_ops0 W (Proc.devRef .tc main_arg20) = W (Proc.devRef .tc main_arg20) := keep_main_part12_ops0 W main_arg20 (by decide)
theorem keep_main_part12_ops0_arg21 (W : Valuation τ sig (Elt F)) : StableHlo.after main_part12_ops0 W (Proc.devRef .tc main_arg21) = W (Proc.devRef .tc main_arg21) := keep_main_part12_ops0 W main_arg21 (by decide)
theorem keep_main_part12_ops0_arg22 (W : Valuation τ sig (Elt F)) : StableHlo.after main_part12_ops0 W (Proc.devRef .tc main_arg22) = W (Proc.devRef .tc main_arg22) := keep_main_part12_ops0 W main_arg22 (by decide)
theorem keep_main_part13_ops0_arg0 (W : Valuation τ sig (Elt F)) : StableHlo.after main_part13_ops0 W (Proc.devRef .tc main_arg0) = W (Proc.devRef .tc main_arg0) := keep_main_part13_ops0 W main_arg0 (by decide)
theorem keep_main_part13_ops0_arg1 (W : Valuation τ sig (Elt F)) : StableHlo.after main_part13_ops0 W (Proc.devRef .tc main_arg1) = W (Proc.devRef .tc main_arg1) := keep_main_part13_ops0 W main_arg1 (by decide)
theorem keep_main_part13_ops0_arg2 (W : Valuation τ sig (Elt F)) : StableHlo.after main_part13_ops0 W (Proc.devRef .tc main_arg2) = W (Proc.devRef .tc main_arg2) := keep_main_part13_ops0 W main_arg2 (by decide)
theorem keep_main_part13_ops0_arg3 (W : Valuation τ sig (Elt F)) : StableHlo.after main_part13_ops0 W (Proc.devRef .tc main_arg3) = W (Proc.devRef .tc main_arg3) := keep_main_part13_ops0 W main_arg3 (by decide)
theorem keep_main_part13_ops0_arg4 (W : Valuation τ sig (Elt F)) : StableHlo.after main_part13_ops0 W (Proc.devRef .tc main_arg4) = W (Proc.devRef .tc main_arg4) := keep_main_part13_ops0 W main_arg4 (by decide)
theorem keep_main_part13_ops0_arg5 (W : Valuation τ sig (Elt F)) : StableHlo.after main_part13_ops0 W (Proc.devRef .tc main_arg5) = W (Proc.devRef .tc main_arg5) := keep_main_part13_ops0 W main_arg5 (by decide)
theorem keep_main_part13_ops0_arg6 (W : Valuation τ sig (Elt F)) : StableHlo.after main_part13_ops0 W (Proc.devRef .tc main_arg6) = W (Proc.devRef .tc main_arg6) := keep_main_part13_ops0 W main_arg6 (by decide)
theorem keep_main_part13_ops0_arg7 (W : Valuation τ sig (Elt F)) : StableHlo.after main_part13_ops0 W (Proc.devRef .tc main_arg7) = W (Proc.devRef .tc main_arg7) := keep_main_part13_ops0 W main_arg7 (by decide)
theorem keep_main_part13_ops0_arg8 (W : Valuation τ sig (Elt F)) : StableHlo.after main_part13_ops0 W (Proc.devRef .tc main_arg8) = W (Proc.devRef .tc main_arg8) := keep_main_part13_ops0 W main_arg8 (by decide)
theorem keep_main_part13_ops0_arg9 (W : Valuation τ sig (Elt F)) : StableHlo.after main_part13_ops0 W (Proc.devRef .tc main_arg9) = W (Proc.devRef .tc main_arg9) := keep_main_part13_ops0 W main_arg9 (by decide)
theorem keep_main_part13_ops0_arg10 (W : Valuation τ sig (Elt F)) : StableHlo.after main_part13_ops0 W (Proc.devRef .tc main_arg10) = W (Proc.devRef .tc main_arg10) := keep_main_part13_ops0 W main_arg10 (by decide)
theorem keep_main_part13_ops0_arg11 (W : Valuation τ sig (Elt F)) : StableHlo.after main_part13_ops0 W (Proc.devRef .tc main_arg11) = W (Proc.devRef .tc main_arg11) := keep_main_part13_ops0 W main_arg11 (by decide)
theorem keep_main_part13_ops0_arg12 (W : Valuation τ sig (Elt F)) : StableHlo.after main_part13_ops0 W (Proc.devRef .tc main_arg12) = W (Proc.devRef .tc main_arg12) := keep_main_part13_ops0 W main_arg12 (by decide)
theorem keep_main_part13_ops0_arg13 (W : Valuation τ sig (Elt F)) : StableHlo.after main_part13_ops0 W (Proc.devRef .tc main_arg13) = W (Proc.devRef .tc main_arg13) := keep_main_part13_ops0 W main_arg13 (by decide)
theorem keep_main_part13_ops0_arg14 (W : Valuation τ sig (Elt F)) : StableHlo.after main_part13_ops0 W (Proc.devRef .tc main_arg14) = W (Proc.devRef .tc main_arg14) := keep_main_part13_ops0 W main_arg14 (by decide)
theorem keep_main_part13_ops0_arg15 (W : Valuation τ sig (Elt F)) : StableHlo.after main_part13_ops0 W (Proc.devRef .tc main_arg15) = W (Proc.devRef .tc main_arg15) := keep_main_part13_ops0 W main_arg15 (by decide)
theorem keep_main_part13_ops0_arg16 (W : Valuation τ sig (Elt F)) : StableHlo.after main_part13_ops0 W (Proc.devRef .tc main_arg16) = W (Proc.devRef .tc main_arg16) := keep_main_part13_ops0 W main_arg16 (by decide)
theorem keep_main_part13_ops0_arg17 (W : Valuation τ sig (Elt F)) : StableHlo.after main_part13_ops0 W (Proc.devRef .tc main_arg17) = W (Proc.devRef .tc main_arg17) := keep_main_part13_ops0 W main_arg17 (by decide)
theorem keep_main_part13_ops0_arg18 (W : Valuation τ sig (Elt F)) : StableHlo.after main_part13_ops0 W (Proc.devRef .tc main_arg18) = W (Proc.devRef .tc main_arg18) := keep_main_part13_ops0 W main_arg18 (by decide)
theorem keep_main_part13_ops0_arg19 (W : Valuation τ sig (Elt F)) : StableHlo.after main_part13_ops0 W (Proc.devRef .tc main_arg19) = W (Proc.devRef .tc main_arg19) := keep_main_part13_ops0 W main_arg19 (by decide)
theorem keep_main_part13_ops0_arg20 (W : Valuation τ sig (Elt F)) : StableHlo.after main_part13_ops0 W (Proc.devRef .tc main_arg20) = W (Proc.devRef .tc main_arg20) := keep_main_part13_ops0 W main_arg20 (by decide)
theorem keep_main_part13_ops0_arg21 (W : Valuation τ sig (Elt F)) : StableHlo.after main_part13_ops0 W (Proc.devRef .tc main_arg21) = W (Proc.devRef .tc main_arg21) := keep_main_part13_ops0 W main_arg21 (by decide)
theorem keep_main_part13_ops0_arg22 (W : Valuation τ sig (Elt F)) : StableHlo.after main_part13_ops0 W (Proc.devRef .tc main_arg22) = W (Proc.devRef .tc main_arg22) := keep_main_part13_ops0 W main_arg22 (by decide)
theorem keep_main_part14_ops0_arg0 (W : Valuation τ sig (Elt F)) : StableHlo.after main_part14_ops0 W (Proc.devRef .tc main_arg0) = W (Proc.devRef .tc main_arg0) := keep_main_part14_ops0 W main_arg0 (by decide)
theorem keep_main_part14_ops0_arg1 (W : Valuation τ sig (Elt F)) : StableHlo.after main_part14_ops0 W (Proc.devRef .tc main_arg1) = W (Proc.devRef .tc main_arg1) := keep_main_part14_ops0 W main_arg1 (by decide)
theorem keep_main_part14_ops0_arg2 (W : Valuation τ sig (Elt F)) : StableHlo.after main_part14_ops0 W (Proc.devRef .tc main_arg2) = W (Proc.devRef .tc main_arg2) := keep_main_part14_ops0 W main_arg2 (by decide)
theorem keep_main_part14_ops0_arg3 (W : Valuation τ sig (Elt F)) : StableHlo.after main_part14_ops0 W (Proc.devRef .tc main_arg3) = W (Proc.devRef .tc main_arg3) := keep_main_part14_ops0 W main_arg3 (by decide)
theorem keep_main_part14_ops0_arg4 (W : Valuation τ sig (Elt F)) : StableHlo.after main_part14_ops0 W (Proc.devRef .tc main_arg4) = W (Proc.devRef .tc main_arg4) := keep_main_part14_ops0 W main_arg4 (by decide)
theorem keep_main_part14_ops0_arg5 (W : Valuation τ sig (Elt F)) : StableHlo.after main_part14_ops0 W (Proc.devRef .tc main_arg5) = W (Proc.devRef .tc main_arg5) := keep_main_part14_ops0 W main_arg5 (by decide)
theorem keep_main_part14_ops0_arg6 (W : Valuation τ sig (Elt F)) : StableHlo.after main_part14_ops0 W (Proc.devRef .tc main_arg6) = W (Proc.devRef .tc main_arg6) := keep_main_part14_ops0 W main_arg6 (by decide)
theorem keep_main_part14_ops0_arg7 (W : Valuation τ sig (Elt F)) : StableHlo.after main_part14_ops0 W (Proc.devRef .tc main_arg7) = W (Proc.devRef .tc main_arg7) := keep_main_part14_ops0 W main_arg7 (by decide)
theorem keep_main_part14_ops0_arg8 (W : Valuation τ sig (Elt F)) : StableHlo.after main_part14_ops0 W (Proc.devRef .tc main_arg8) = W (Proc.devRef .tc main_arg8) := keep_main_part14_ops0 W main_arg8 (by decide)
theorem keep_main_part14_ops0_arg9 (W : Valuation τ sig (Elt F)) : StableHlo.after main_part14_ops0 W (Proc.devRef .tc main_arg9) = W (Proc.devRef .tc main_arg9) := keep_main_part14_ops0 W main_arg9 (by decide)
theorem keep_main_part14_ops0_arg10 (W : Valuation τ sig (Elt F)) : StableHlo.after main_part14_ops0 W (Proc.devRef .tc main_arg10) = W (Proc.devRef .tc main_arg10) := keep_main_part14_ops0 W main_arg10 (by decide)
theorem keep_main_part14_ops0_arg11 (W : Valuation τ sig (Elt F)) : StableHlo.after main_part14_ops0 W (Proc.devRef .tc main_arg11) = W (Proc.devRef .tc main_arg11) := keep_main_part14_ops0 W main_arg11 (by decide)
theorem keep_main_part14_ops0_arg12 (W : Valuation τ sig (Elt F)) : StableHlo.after main_part14_ops0 W (Proc.devRef .tc main_arg12) = W (Proc.devRef .tc main_arg12) := keep_main_part14_ops0 W main_arg12 (by decide)
theorem keep_main_part14_ops0_arg13 (W : Valuation τ sig (Elt F)) : StableHlo.after main_part14_ops0 W (Proc.devRef .tc main_arg13) = W (Proc.devRef .tc main_arg13) := keep_main_part14_ops0 W main_arg13 (by decide)
theorem keep_main_part14_ops0_arg14 (W : Valuation τ sig (Elt F)) : StableHlo.after main_part14_ops0 W (Proc.devRef .tc main_arg14) = W (Proc.devRef .tc main_arg14) := keep_main_part14_ops0 W main_arg14 (by decide)
theorem keep_main_part14_ops0_arg15 (W : Valuation τ sig (Elt F)) : StableHlo.after main_part14_ops0 W (Proc.devRef .tc main_arg15) = W (Proc.devRef .tc main_arg15) := keep_main_part14_ops0 W main_arg15 (by decide)
theorem keep_main_part14_ops0_arg16 (W : Valuation τ sig (Elt F)) : StableHlo.after main_part14_ops0 W (Proc.devRef .tc main_arg16) = W (Proc.devRef .tc main_arg16) := keep_main_part14_ops0 W main_arg16 (by decide)
theorem keep_main_part14_ops0_arg17 (W : Valuation τ sig (Elt F)) : StableHlo.after main_part14_ops0 W (Proc.devRef .tc main_arg17) = W (Proc.devRef .tc main_arg17) := keep_main_part14_ops0 W main_arg17 (by decide)
theorem keep_main_part14_ops0_arg18 (W : Valuation τ sig (Elt F)) : StableHlo.after main_part14_ops0 W (Proc.devRef .tc main_arg18) = W (Proc.devRef .tc main_arg18) := keep_main_part14_ops0 W main_arg18 (by decide)
theorem keep_main_part14_ops0_arg19 (W : Valuation τ sig (Elt F)) : StableHlo.after main_part14_ops0 W (Proc.devRef .tc main_arg19) = W (Proc.devRef .tc main_arg19) := keep_main_part14_ops0 W main_arg19 (by decide)
theorem keep_main_part14_ops0_arg20 (W : Valuation τ sig (Elt F)) : StableHlo.after main_part14_ops0 W (Proc.devRef .tc main_arg20) = W (Proc.devRef .tc main_arg20) := keep_main_part14_ops0 W main_arg20 (by decide)
theorem keep_main_part14_ops0_arg21 (W : Valuation τ sig (Elt F)) : StableHlo.after main_part14_ops0 W (Proc.devRef .tc main_arg21) = W (Proc.devRef .tc main_arg21) := keep_main_part14_ops0 W main_arg21 (by decide)
theorem keep_main_part14_ops0_arg22 (W : Valuation τ sig (Elt F)) : StableHlo.after main_part14_ops0 W (Proc.devRef .tc main_arg22) = W (Proc.devRef .tc main_arg22) := keep_main_part14_ops0 W main_arg22 (by decide)
theorem keep_main_part15_ops0_arg0 (W : Valuation τ sig (Elt F)) : StableHlo.after main_part15_ops0 W (Proc.devRef .tc main_arg0) = W (Proc.devRef .tc main_arg0) := keep_main_part15_ops0 W main_arg0 (by decide)
theorem keep_main_part15_ops0_arg1 (W : Valuation τ sig (Elt F)) : StableHlo.after main_part15_ops0 W (Proc.devRef .tc main_arg1) = W (Proc.devRef .tc main_arg1) := keep_main_part15_ops0 W main_arg1 (by decide)
theorem keep_main_part15_ops0_arg2 (W : Valuation τ sig (Elt F)) : StableHlo.after main_part15_ops0 W (Proc.devRef .tc main_arg2) = W (Proc.devRef .tc main_arg2) := keep_main_part15_ops0 W main_arg2 (by decide)
theorem keep_main_part15_ops0_arg3 (W : Valuation τ sig (Elt F)) : StableHlo.after main_part15_ops0 W (Proc.devRef .tc main_arg3) = W (Proc.devRef .tc main_arg3) := keep_main_part15_ops0 W main_arg3 (by decide)
theorem keep_main_part15_ops0_arg4 (W : Valuation τ sig (Elt F)) : StableHlo.after main_part15_ops0 W (Proc.devRef .tc main_arg4) = W (Proc.devRef .tc main_arg4) := keep_main_part15_ops0 W main_arg4 (by decide)
theorem keep_main_part15_ops0_arg5 (W : Valuation τ sig (Elt F)) : StableHlo.after main_part15_ops0 W (Proc.devRef .tc main_arg5) = W (Proc.devRef .tc main_arg5) := keep_main_part15_ops0 W main_arg5 (by decide)
theorem keep_main_part15_ops0_arg6 (W : Valuation τ sig (Elt F)) : StableHlo.after main_part15_ops0 W (Proc.devRef .tc main_arg6) = W (Proc.devRef .tc main_arg6) := keep_main_part15_ops0 W main_arg6 (by decide)
theorem keep_main_part15_ops0_arg7 (W : Valuation τ sig (Elt F)) : StableHlo.after main_part15_ops0 W (Proc.devRef .tc main_arg7) = W (Proc.devRef .tc main_arg7) := keep_main_part15_ops0 W main_arg7 (by decide)
theorem keep_main_part15_ops0_arg8 (W : Valuation τ sig (Elt F)) : StableHlo.after main_part15_ops0 W (Proc.devRef .tc main_arg8) = W (Proc.devRef .tc main_arg8) := keep_main_part15_ops0 W main_arg8 (by decide)
theorem keep_main_part15_ops0_arg9 (W : Valuation τ sig (Elt F)) : StableHlo.after main_part15_ops0 W (Proc.devRef .tc main_arg9) = W (Proc.devRef .tc main_arg9) := keep_main_part15_ops0 W main_arg9 (by decide)
theorem keep_main_part15_ops0_arg10 (W : Valuation τ sig (Elt F)) : StableHlo.after main_part15_ops0 W (Proc.devRef .tc main_arg10) = W (Proc.devRef .tc main_arg10) := keep_main_part15_ops0 W main_arg10 (by decide)
theorem keep_main_part15_ops0_arg11 (W : Valuation τ sig (Elt F)) : StableHlo.after main_part15_ops0 W (Proc.devRef .tc main_arg11) = W (Proc.devRef .tc main_arg11) := keep_main_part15_ops0 W main_arg11 (by decide)
theorem keep_main_part15_ops0_arg12 (W : Valuation τ sig (Elt F)) : StableHlo.after main_part15_ops0 W (Proc.devRef .tc main_arg12) = W (Proc.devRef .tc main_arg12) := keep_main_part15_ops0 W main_arg12 (by decide)
theorem keep_main_part15_ops0_arg13 (W : Valuation τ sig (Elt F)) : StableHlo.after main_part15_ops0 W (Proc.devRef .tc main_arg13) = W (Proc.devRef .tc main_arg13) := keep_main_part15_ops0 W main_arg13 (by decide)
theorem keep_main_part15_ops0_arg14 (W : Valuation τ sig (Elt F)) : StableHlo.after main_part15_ops0 W (Proc.devRef .tc main_arg14) = W (Proc.devRef .tc main_arg14) := keep_main_part15_ops0 W main_arg14 (by decide)
theorem keep_main_part15_ops0_arg15 (W : Valuation τ sig (Elt F)) : StableHlo.after main_part15_ops0 W (Proc.devRef .tc main_arg15) = W (Proc.devRef .tc main_arg15) := keep_main_part15_ops0 W main_arg15 (by decide)
theorem keep_main_part15_ops0_arg16 (W : Valuation τ sig (Elt F)) : StableHlo.after main_part15_ops0 W (Proc.devRef .tc main_arg16) = W (Proc.devRef .tc main_arg16) := keep_main_part15_ops0 W main_arg16 (by decide)
theorem keep_main_part15_ops0_arg17 (W : Valuation τ sig (Elt F)) : StableHlo.after main_part15_ops0 W (Proc.devRef .tc main_arg17) = W (Proc.devRef .tc main_arg17) := keep_main_part15_ops0 W main_arg17 (by decide)
theorem keep_main_part15_ops0_arg18 (W : Valuation τ sig (Elt F)) : StableHlo.after main_part15_ops0 W (Proc.devRef .tc main_arg18) = W (Proc.devRef .tc main_arg18) := keep_main_part15_ops0 W main_arg18 (by decide)
theorem keep_main_part15_ops0_arg19 (W : Valuation τ sig (Elt F)) : StableHlo.after main_part15_ops0 W (Proc.devRef .tc main_arg19) = W (Proc.devRef .tc main_arg19) := keep_main_part15_ops0 W main_arg19 (by decide)
theorem keep_main_part15_ops0_arg20 (W : Valuation τ sig (Elt F)) : StableHlo.after main_part15_ops0 W (Proc.devRef .tc main_arg20) = W (Proc.devRef .tc main_arg20) := keep_main_part15_ops0 W main_arg20 (by decide)
theorem keep_main_part15_ops0_arg21 (W : Valuation τ sig (Elt F)) : StableHlo.after main_part15_ops0 W (Proc.devRef .tc main_arg21) = W (Proc.devRef .tc main_arg21) := keep_main_part15_ops0 W main_arg21 (by decide)
theorem keep_main_part15_ops0_arg22 (W : Valuation τ sig (Elt F)) : StableHlo.after main_part15_ops0 W (Proc.devRef .tc main_arg22) = W (Proc.devRef .tc main_arg22) := keep_main_part15_ops0 W main_arg22 (by decide)
theorem keep_main_part15_ops1_arg0 (W : Valuation τ sig (Elt F)) : StableHlo.after main_part15_ops1 W (Proc.devRef .tc main_arg0) = W (Proc.devRef .tc main_arg0) := keep_main_part15_ops1 W main_arg0 (by decide)
theorem keep_main_part15_ops1_arg1 (W : Valuation τ sig (Elt F)) : StableHlo.after main_part15_ops1 W (Proc.devRef .tc main_arg1) = W (Proc.devRef .tc main_arg1) := keep_main_part15_ops1 W main_arg1 (by decide)
theorem keep_main_part15_ops1_arg2 (W : Valuation τ sig (Elt F)) : StableHlo.after main_part15_ops1 W (Proc.devRef .tc main_arg2) = W (Proc.devRef .tc main_arg2) := keep_main_part15_ops1 W main_arg2 (by decide)
theorem keep_main_part15_ops1_arg3 (W : Valuation τ sig (Elt F)) : StableHlo.after main_part15_ops1 W (Proc.devRef .tc main_arg3) = W (Proc.devRef .tc main_arg3) := keep_main_part15_ops1 W main_arg3 (by decide)
theorem keep_main_part15_ops1_arg4 (W : Valuation τ sig (Elt F)) : StableHlo.after main_part15_ops1 W (Proc.devRef .tc main_arg4) = W (Proc.devRef .tc main_arg4) := keep_main_part15_ops1 W main_arg4 (by decide)
theorem keep_main_part15_ops1_arg5 (W : Valuation τ sig (Elt F)) : StableHlo.after main_part15_ops1 W (Proc.devRef .tc main_arg5) = W (Proc.devRef .tc main_arg5) := keep_main_part15_ops1 W main_arg5 (by decide)
theorem keep_main_part15_ops1_arg6 (W : Valuation τ sig (Elt F)) : StableHlo.after main_part15_ops1 W (Proc.devRef .tc main_arg6) = W (Proc.devRef .tc main_arg6) := keep_main_part15_ops1 W main_arg6 (by decide)
theorem keep_main_part15_ops1_arg7 (W : Valuation τ sig (Elt F)) : StableHlo.after main_part15_ops1 W (Proc.devRef .tc main_arg7) = W (Proc.devRef .tc main_arg7) := keep_main_part15_ops1 W main_arg7 (by decide)
theorem keep_main_part15_ops1_arg8 (W : Valuation τ sig (Elt F)) : StableHlo.after main_part15_ops1 W (Proc.devRef .tc main_arg8) = W (Proc.devRef .tc main_arg8) := keep_main_part15_ops1 W main_arg8 (by decide)
theorem keep_main_part15_ops1_arg9 (W : Valuation τ sig (Elt F)) : StableHlo.after main_part15_ops1 W (Proc.devRef .tc main_arg9) = W (Proc.devRef .tc main_arg9) := keep_main_part15_ops1 W main_arg9 (by decide)
theorem keep_main_part15_ops1_arg10 (W : Valuation τ sig (Elt F)) : StableHlo.after main_part15_ops1 W (Proc.devRef .tc main_arg10) = W (Proc.devRef .tc main_arg10) := keep_main_part15_ops1 W main_arg10 (by decide)
theorem keep_main_part15_ops1_arg11 (W : Valuation τ sig (Elt F)) : StableHlo.after main_part15_ops1 W (Proc.devRef .tc main_arg11) = W (Proc.devRef .tc main_arg11) := keep_main_part15_ops1 W main_arg11 (by decide)
theorem keep_main_part15_ops1_arg12 (W : Valuation τ sig (Elt F)) : StableHlo.after main_part15_ops1 W (Proc.devRef .tc main_arg12) = W (Proc.devRef .tc main_arg12) := keep_main_part15_ops1 W main_arg12 (by decide)
theorem keep_main_part15_ops1_arg13 (W : Valuation τ sig (Elt F)) : StableHlo.after main_part15_ops1 W (Proc.devRef .tc main_arg13) = W (Proc.devRef .tc main_arg13) := keep_main_part15_ops1 W main_arg13 (by decide)
theorem keep_main_part15_ops1_arg14 (W : Valuation τ sig (Elt F)) : StableHlo.after main_part15_ops1 W (Proc.devRef .tc main_arg14) = W (Proc.devRef .tc main_arg14) := keep_main_part15_ops1 W main_arg14 (by decide)
theorem keep_main_part15_ops1_arg15 (W : Valuation τ sig (Elt F)) : StableHlo.after main_part15_ops1 W (Proc.devRef .tc main_arg15) = W (Proc.devRef .tc main_arg15) := keep_main_part15_ops1 W main_arg15 (by decide)
theorem keep_main_part15_ops1_arg16 (W : Valuation τ sig (Elt F)) : StableHlo.after main_part15_ops1 W (Proc.devRef .tc main_arg16) = W (Proc.devRef .tc main_arg16) := keep_main_part15_ops1 W main_arg16 (by decide)
theorem keep_main_part15_ops1_arg17 (W : Valuation τ sig (Elt F)) : StableHlo.after main_part15_ops1 W (Proc.devRef .tc main_arg17) = W (Proc.devRef .tc main_arg17) := keep_main_part15_ops1 W main_arg17 (by decide)
theorem keep_main_part15_ops1_arg18 (W : Valuation τ sig (Elt F)) : StableHlo.after main_part15_ops1 W (Proc.devRef .tc main_arg18) = W (Proc.devRef .tc main_arg18) := keep_main_part15_ops1 W main_arg18 (by decide)
theorem keep_main_part15_ops1_arg19 (W : Valuation τ sig (Elt F)) : StableHlo.after main_part15_ops1 W (Proc.devRef .tc main_arg19) = W (Proc.devRef .tc main_arg19) := keep_main_part15_ops1 W main_arg19 (by decide)
theorem keep_main_part15_ops1_arg20 (W : Valuation τ sig (Elt F)) : StableHlo.after main_part15_ops1 W (Proc.devRef .tc main_arg20) = W (Proc.devRef .tc main_arg20) := keep_main_part15_ops1 W main_arg20 (by decide)
theorem keep_main_part15_ops1_arg21 (W : Valuation τ sig (Elt F)) : StableHlo.after main_part15_ops1 W (Proc.devRef .tc main_arg21) = W (Proc.devRef .tc main_arg21) := keep_main_part15_ops1 W main_arg21 (by decide)
theorem keep_main_part15_ops1_arg22 (W : Valuation τ sig (Elt F)) : StableHlo.after main_part15_ops1 W (Proc.devRef .tc main_arg22) = W (Proc.devRef .tc main_arg22) := keep_main_part15_ops1 W main_arg22 (by decide)
theorem keep_main_part15_ops2_arg0 (W : Valuation τ sig (Elt F)) : StableHlo.after main_part15_ops2 W (Proc.devRef .tc main_arg0) = W (Proc.devRef .tc main_arg0) := keep_main_part15_ops2 W main_arg0 (by decide)
theorem keep_main_part15_ops2_arg1 (W : Valuation τ sig (Elt F)) : StableHlo.after main_part15_ops2 W (Proc.devRef .tc main_arg1) = W (Proc.devRef .tc main_arg1) := keep_main_part15_ops2 W main_arg1 (by decide)
theorem keep_main_part15_ops2_arg2 (W : Valuation τ sig (Elt F)) : StableHlo.after main_part15_ops2 W (Proc.devRef .tc main_arg2) = W (Proc.devRef .tc main_arg2) := keep_main_part15_ops2 W main_arg2 (by decide)
theorem keep_main_part15_ops2_arg3 (W : Valuation τ sig (Elt F)) : StableHlo.after main_part15_ops2 W (Proc.devRef .tc main_arg3) = W (Proc.devRef .tc main_arg3) := keep_main_part15_ops2 W main_arg3 (by decide)
theorem keep_main_part15_ops2_arg4 (W : Valuation τ sig (Elt F)) : StableHlo.after main_part15_ops2 W (Proc.devRef .tc main_arg4) = W (Proc.devRef .tc main_arg4) := keep_main_part15_ops2 W main_arg4 (by decide)
theorem keep_main_part15_ops2_arg5 (W : Valuation τ sig (Elt F)) : StableHlo.after main_part15_ops2 W (Proc.devRef .tc main_arg5) = W (Proc.devRef .tc main_arg5) := keep_main_part15_ops2 W main_arg5 (by decide)
theorem keep_main_part15_ops2_arg6 (W : Valuation τ sig (Elt F)) : StableHlo.after main_part15_ops2 W (Proc.devRef .tc main_arg6) = W (Proc.devRef .tc main_arg6) := keep_main_part15_ops2 W main_arg6 (by decide)
theorem keep_main_part15_ops2_arg7 (W : Valuation τ sig (Elt F)) : StableHlo.after main_part15_ops2 W (Proc.devRef .tc main_arg7) = W (Proc.devRef .tc main_arg7) := keep_main_part15_ops2 W main_arg7 (by decide)
theorem keep_main_part15_ops2_arg8 (W : Valuation τ sig (Elt F)) : StableHlo.after main_part15_ops2 W (Proc.devRef .tc main_arg8) = W (Proc.devRef .tc main_arg8) := keep_main_part15_ops2 W main_arg8 (by decide)
theorem keep_main_part15_ops2_arg9 (W : Valuation τ sig (Elt F)) : StableHlo.after main_part15_ops2 W (Proc.devRef .tc main_arg9) = W (Proc.devRef .tc main_arg9) := keep_main_part15_ops2 W main_arg9 (by decide)
theorem keep_main_part15_ops2_arg10 (W : Valuation τ sig (Elt F)) : StableHlo.after main_part15_ops2 W (Proc.devRef .tc main_arg10) = W (Proc.devRef .tc main_arg10) := keep_main_part15_ops2 W main_arg10 (by decide)
theorem keep_main_part15_ops2_arg11 (W : Valuation τ sig (Elt F)) : StableHlo.after main_part15_ops2 W (Proc.devRef .tc main_arg11) = W (Proc.devRef .tc main_arg11) := keep_main_part15_ops2 W main_arg11 (by decide)
theorem keep_main_part15_ops2_arg12 (W : Valuation τ sig (Elt F)) : StableHlo.after main_part15_ops2 W (Proc.devRef .tc main_arg12) = W (Proc.devRef .tc main_arg12) := keep_main_part15_ops2 W main_arg12 (by decide)
theorem keep_main_part15_ops2_arg13 (W : Valuation τ sig (Elt F)) : StableHlo.after main_part15_ops2 W (Proc.devRef .tc main_arg13) = W (Proc.devRef .tc main_arg13) := keep_main_part15_ops2 W main_arg13 (by decide)
theorem keep_main_part15_ops2_arg14 (W : Valuation τ sig (Elt F)) : StableHlo.after main_part15_ops2 W (Proc.devRef .tc main_arg14) = W (Proc.devRef .tc main_arg14) := keep_main_part15_ops2 W main_arg14 (by decide)
theorem keep_main_part15_ops2_arg15 (W : Valuation τ sig (Elt F)) : StableHlo.after main_part15_ops2 W (Proc.devRef .tc main_arg15) = W (Proc.devRef .tc main_arg15) := keep_main_part15_ops2 W main_arg15 (by decide)
theorem keep_main_part15_ops2_arg16 (W : Valuation τ sig (Elt F)) : StableHlo.after main_part15_ops2 W (Proc.devRef .tc main_arg16) = W (Proc.devRef .tc main_arg16) := keep_main_part15_ops2 W main_arg16 (by decide)
theorem keep_main_part15_ops2_arg17 (W : Valuation τ sig (Elt F)) : StableHlo.after main_part15_ops2 W (Proc.devRef .tc main_arg17) = W (Proc.devRef .tc main_arg17) := keep_main_part15_ops2 W main_arg17 (by decide)
theorem keep_main_part15_ops2_arg18 (W : Valuation τ sig (Elt F)) : StableHlo.after main_part15_ops2 W (Proc.devRef .tc main_arg18) = W (Proc.devRef .tc main_arg18) := keep_main_part15_ops2 W main_arg18 (by decide)
theorem keep_main_part15_ops2_arg19 (W : Valuation τ sig (Elt F)) : StableHlo.after main_part15_ops2 W (Proc.devRef .tc main_arg19) = W (Proc.devRef .tc main_arg19) := keep_main_part15_ops2 W main_arg19 (by decide)
theorem keep_main_part15_ops2_arg20 (W : Valuation τ sig (Elt F)) : StableHlo.after main_part15_ops2 W (Proc.devRef .tc main_arg20) = W (Proc.devRef .tc main_arg20) := keep_main_part15_ops2 W main_arg20 (by decide)
theorem keep_main_part15_ops2_arg21 (W : Valuation τ sig (Elt F)) : StableHlo.after main_part15_ops2 W (Proc.devRef .tc main_arg21) = W (Proc.devRef .tc main_arg21) := keep_main_part15_ops2 W main_arg21 (by decide)
theorem keep_main_part15_ops2_arg22 (W : Valuation τ sig (Elt F)) : StableHlo.after main_part15_ops2 W (Proc.devRef .tc main_arg22) = W (Proc.devRef .tc main_arg22) := keep_main_part15_ops2 W main_arg22 (by decide)
theorem keep_main_part15_ops3_arg0 (W : Valuation τ sig (Elt F)) : StableHlo.after main_part15_ops3 W (Proc.devRef .tc main_arg0) = W (Proc.devRef .tc main_arg0) := keep_main_part15_ops3 W main_arg0 (by decide)
theorem keep_main_part15_ops3_arg1 (W : Valuation τ sig (Elt F)) : StableHlo.after main_part15_ops3 W (Proc.devRef .tc main_arg1) = W (Proc.devRef .tc main_arg1) := keep_main_part15_ops3 W main_arg1 (by decide)
theorem keep_main_part15_ops3_arg2 (W : Valuation τ sig (Elt F)) : StableHlo.after main_part15_ops3 W (Proc.devRef .tc main_arg2) = W (Proc.devRef .tc main_arg2) := keep_main_part15_ops3 W main_arg2 (by decide)
theorem keep_main_part15_ops3_arg3 (W : Valuation τ sig (Elt F)) : StableHlo.after main_part15_ops3 W (Proc.devRef .tc main_arg3) = W (Proc.devRef .tc main_arg3) := keep_main_part15_ops3 W main_arg3 (by decide)
theorem keep_main_part15_ops3_arg4 (W : Valuation τ sig (Elt F)) : StableHlo.after main_part15_ops3 W (Proc.devRef .tc main_arg4) = W (Proc.devRef .tc main_arg4) := keep_main_part15_ops3 W main_arg4 (by decide)
theorem keep_main_part15_ops3_arg5 (W : Valuation τ sig (Elt F)) : StableHlo.after main_part15_ops3 W (Proc.devRef .tc main_arg5) = W (Proc.devRef .tc main_arg5) := keep_main_part15_ops3 W main_arg5 (by decide)
theorem keep_main_part15_ops3_arg6 (W : Valuation τ sig (Elt F)) : StableHlo.after main_part15_ops3 W (Proc.devRef .tc main_arg6) = W (Proc.devRef .tc main_arg6) := keep_main_part15_ops3 W main_arg6 (by decide)
theorem keep_main_part15_ops3_arg7 (W : Valuation τ sig (Elt F)) : StableHlo.after main_part15_ops3 W (Proc.devRef .tc main_arg7) = W (Proc.devRef .tc main_arg7) := keep_main_part15_ops3 W main_arg7 (by decide)
theorem keep_main_part15_ops3_arg8 (W : Valuation τ sig (Elt F)) : StableHlo.after main_part15_ops3 W (Proc.devRef .tc main_arg8) = W (Proc.devRef .tc main_arg8) := keep_main_part15_ops3 W main_arg8 (by decide)
theorem keep_main_part15_ops3_arg9 (W : Valuation τ sig (Elt F)) : StableHlo.after main_part15_ops3 W (Proc.devRef .tc main_arg9) = W (Proc.devRef .tc main_arg9) := keep_main_part15_ops3 W main_arg9 (by decide)
theorem keep_main_part15_ops3_arg10 (W : Valuation τ sig (Elt F)) : StableHlo.after main_part15_ops3 W (Proc.devRef .tc main_arg10) = W (Proc.devRef .tc main_arg10) := keep_main_part15_ops3 W main_arg10 (by decide)
theorem keep_main_part15_ops3_arg11 (W : Valuation τ sig (Elt F)) : StableHlo.after main_part15_ops3 W (Proc.devRef .tc main_arg11) = W (Proc.devRef .tc main_arg11) := keep_main_part15_ops3 W main_arg11 (by decide)
theorem keep_main_part15_ops3_arg12 (W : Valuation τ sig (Elt F)) : StableHlo.after main_part15_ops3 W (Proc.devRef .tc main_arg12) = W (Proc.devRef .tc main_arg12) := keep_main_part15_ops3 W main_arg12 (by decide)
theorem keep_main_part15_ops3_arg13 (W : Valuation τ sig (Elt F)) : StableHlo.after main_part15_ops3 W (Proc.devRef .tc main_arg13) = W (Proc.devRef .tc main_arg13) := keep_main_part15_ops3 W main_arg13 (by decide)
theorem keep_main_part15_ops3_arg14 (W : Valuation τ sig (Elt F)) : StableHlo.after main_part15_ops3 W (Proc.devRef .tc main_arg14) = W (Proc.devRef .tc main_arg14) := keep_main_part15_ops3 W main_arg14 (by decide)
theorem keep_main_part15_ops3_arg15 (W : Valuation τ sig (Elt F)) : StableHlo.after main_part15_ops3 W (Proc.devRef .tc main_arg15) = W (Proc.devRef .tc main_arg15) := keep_main_part15_ops3 W main_arg15 (by decide)
theorem keep_main_part15_ops3_arg16 (W : Valuation τ sig (Elt F)) : StableHlo.after main_part15_ops3 W (Proc.devRef .tc main_arg16) = W (Proc.devRef .tc main_arg16) := keep_main_part15_ops3 W main_arg16 (by decide)
theorem keep_main_part15_ops3_arg17 (W : Valuation τ sig (Elt F)) : StableHlo.after main_part15_ops3 W (Proc.devRef .tc main_arg17) = W (Proc.devRef .tc main_arg17) := keep_main_part15_ops3 W main_arg17 (by decide)
theorem keep_main_part15_ops3_arg18 (W : Valuation τ sig (Elt F)) : StableHlo.after main_part15_ops3 W (Proc.devRef .tc main_arg18) = W (Proc.devRef .tc main_arg18) := keep_main_part15_ops3 W main_arg18 (by decide)
theorem keep_main_part15_ops3_arg19 (W : Valuation τ sig (Elt F)) : StableHlo.after main_part15_ops3 W (Proc.devRef .tc main_arg19) = W (Proc.devRef .tc main_arg19) := keep_main_part15_ops3 W main_arg19 (by decide)
theorem keep_main_part15_ops3_arg20 (W : Valuation τ sig (Elt F)) : StableHlo.after main_part15_ops3 W (Proc.devRef .tc main_arg20) = W (Proc.devRef .tc main_arg20) := keep_main_part15_ops3 W main_arg20 (by decide)
theorem keep_main_part15_ops3_arg21 (W : Valuation τ sig (Elt F)) : StableHlo.after main_part15_ops3 W (Proc.devRef .tc main_arg21) = W (Proc.devRef .tc main_arg21) := keep_main_part15_ops3 W main_arg21 (by decide)
theorem keep_main_part15_ops3_arg22 (W : Valuation τ sig (Elt F)) : StableHlo.after main_part15_ops3 W (Proc.devRef .tc main_arg22) = W (Proc.devRef .tc main_arg22) := keep_main_part15_ops3 W main_arg22 (by decide)
theorem keep_main_part16_ops0_arg0 (W : Valuation τ sig (Elt F)) : StableHlo.after main_part16_ops0 W (Proc.devRef .tc main_arg0) = W (Proc.devRef .tc main_arg0) := keep_main_part16_ops0 W main_arg0 (by decide)
theorem keep_main_part16_ops0_arg1 (W : Valuation τ sig (Elt F)) : StableHlo.after main_part16_ops0 W (Proc.devRef .tc main_arg1) = W (Proc.devRef .tc main_arg1) := keep_main_part16_ops0 W main_arg1 (by decide)
theorem keep_main_part16_ops0_arg2 (W : Valuation τ sig (Elt F)) : StableHlo.after main_part16_ops0 W (Proc.devRef .tc main_arg2) = W (Proc.devRef .tc main_arg2) := keep_main_part16_ops0 W main_arg2 (by decide)
theorem keep_main_part16_ops0_arg3 (W : Valuation τ sig (Elt F)) : StableHlo.after main_part16_ops0 W (Proc.devRef .tc main_arg3) = W (Proc.devRef .tc main_arg3) := keep_main_part16_ops0 W main_arg3 (by decide)
theorem keep_main_part16_ops0_arg4 (W : Valuation τ sig (Elt F)) : StableHlo.after main_part16_ops0 W (Proc.devRef .tc main_arg4) = W (Proc.devRef .tc main_arg4) := keep_main_part16_ops0 W main_arg4 (by decide)
theorem keep_main_part16_ops0_arg5 (W : Valuation τ sig (Elt F)) : StableHlo.after main_part16_ops0 W (Proc.devRef .tc main_arg5) = W (Proc.devRef .tc main_arg5) := keep_main_part16_ops0 W main_arg5 (by decide)
theorem keep_main_part16_ops0_arg6 (W : Valuation τ sig (Elt F)) : StableHlo.after main_part16_ops0 W (Proc.devRef .tc main_arg6) = W (Proc.devRef .tc main_arg6) := keep_main_part16_ops0 W main_arg6 (by decide)
theorem keep_main_part16_ops0_arg7 (W : Valuation τ sig (Elt F)) : StableHlo.after main_part16_ops0 W (Proc.devRef .tc main_arg7) = W (Proc.devRef .tc main_arg7) := keep_main_part16_ops0 W main_arg7 (by decide)
theorem keep_main_part16_ops0_arg8 (W : Valuation τ sig (Elt F)) : StableHlo.after main_part16_ops0 W (Proc.devRef .tc main_arg8) = W (Proc.devRef .tc main_arg8) := keep_main_part16_ops0 W main_arg8 (by decide)
theorem keep_main_part16_ops0_arg9 (W : Valuation τ sig (Elt F)) : StableHlo.after main_part16_ops0 W (Proc.devRef .tc main_arg9) = W (Proc.devRef .tc main_arg9) := keep_main_part16_ops0 W main_arg9 (by decide)
theorem keep_main_part16_ops0_arg10 (W : Valuation τ sig (Elt F)) : StableHlo.after main_part16_ops0 W (Proc.devRef .tc main_arg10) = W (Proc.devRef .tc main_arg10) := keep_main_part16_ops0 W main_arg10 (by decide)
theorem keep_main_part16_ops0_arg11 (W : Valuation τ sig (Elt F)) : StableHlo.after main_part16_ops0 W (Proc.devRef .tc main_arg11) = W (Proc.devRef .tc main_arg11) := keep_main_part16_ops0 W main_arg11 (by decide)
theorem keep_main_part16_ops0_arg12 (W : Valuation τ sig (Elt F)) : StableHlo.after main_part16_ops0 W (Proc.devRef .tc main_arg12) = W (Proc.devRef .tc main_arg12) := keep_main_part16_ops0 W main_arg12 (by decide)
theorem keep_main_part16_ops0_arg13 (W : Valuation τ sig (Elt F)) : StableHlo.after main_part16_ops0 W (Proc.devRef .tc main_arg13) = W (Proc.devRef .tc main_arg13) := keep_main_part16_ops0 W main_arg13 (by decide)
theorem keep_main_part16_ops0_arg14 (W : Valuation τ sig (Elt F)) : StableHlo.after main_part16_ops0 W (Proc.devRef .tc main_arg14) = W (Proc.devRef .tc main_arg14) := keep_main_part16_ops0 W main_arg14 (by decide)
theorem keep_main_part16_ops0_arg15 (W : Valuation τ sig (Elt F)) : StableHlo.after main_part16_ops0 W (Proc.devRef .tc main_arg15) = W (Proc.devRef .tc main_arg15) := keep_main_part16_ops0 W main_arg15 (by decide)
theorem keep_main_part16_ops0_arg16 (W : Valuation τ sig (Elt F)) : StableHlo.after main_part16_ops0 W (Proc.devRef .tc main_arg16) = W (Proc.devRef .tc main_arg16) := keep_main_part16_ops0 W main_arg16 (by decide)
theorem keep_main_part16_ops0_arg17 (W : Valuation τ sig (Elt F)) : StableHlo.after main_part16_ops0 W (Proc.devRef .tc main_arg17) = W (Proc.devRef .tc main_arg17) := keep_main_part16_ops0 W main_arg17 (by decide)
theorem keep_main_part16_ops0_arg18 (W : Valuation τ sig (Elt F)) : StableHlo.after main_part16_ops0 W (Proc.devRef .tc main_arg18) = W (Proc.devRef .tc main_arg18) := keep_main_part16_ops0 W main_arg18 (by decide)
theorem keep_main_part16_ops0_arg19 (W : Valuation τ sig (Elt F)) : StableHlo.after main_part16_ops0 W (Proc.devRef .tc main_arg19) = W (Proc.devRef .tc main_arg19) := keep_main_part16_ops0 W main_arg19 (by decide)
theorem keep_main_part16_ops0_arg20 (W : Valuation τ sig (Elt F)) : StableHlo.after main_part16_ops0 W (Proc.devRef .tc main_arg20) = W (Proc.devRef .tc main_arg20) := keep_main_part16_ops0 W main_arg20 (by decide)
theorem keep_main_part16_ops0_arg21 (W : Valuation τ sig (Elt F)) : StableHlo.after main_part16_ops0 W (Proc.devRef .tc main_arg21) = W (Proc.devRef .tc main_arg21) := keep_main_part16_ops0 W main_arg21 (by decide)
theorem keep_main_part16_ops0_arg22 (W : Valuation τ sig (Elt F)) : StableHlo.after main_part16_ops0 W (Proc.devRef .tc main_arg22) = W (Proc.devRef .tc main_arg22) := keep_main_part16_ops0 W main_arg22 (by decide)
theorem keep_main_part16_ops1_arg0 (W : Valuation τ sig (Elt F)) : StableHlo.after main_part16_ops1 W (Proc.devRef .tc main_arg0) = W (Proc.devRef .tc main_arg0) := keep_main_part16_ops1 W main_arg0 (by decide)
theorem keep_main_part16_ops1_arg1 (W : Valuation τ sig (Elt F)) : StableHlo.after main_part16_ops1 W (Proc.devRef .tc main_arg1) = W (Proc.devRef .tc main_arg1) := keep_main_part16_ops1 W main_arg1 (by decide)
theorem keep_main_part16_ops1_arg2 (W : Valuation τ sig (Elt F)) : StableHlo.after main_part16_ops1 W (Proc.devRef .tc main_arg2) = W (Proc.devRef .tc main_arg2) := keep_main_part16_ops1 W main_arg2 (by decide)
theorem keep_main_part16_ops1_arg3 (W : Valuation τ sig (Elt F)) : StableHlo.after main_part16_ops1 W (Proc.devRef .tc main_arg3) = W (Proc.devRef .tc main_arg3) := keep_main_part16_ops1 W main_arg3 (by decide)
theorem keep_main_part16_ops1_arg4 (W : Valuation τ sig (Elt F)) : StableHlo.after main_part16_ops1 W (Proc.devRef .tc main_arg4) = W (Proc.devRef .tc main_arg4) := keep_main_part16_ops1 W main_arg4 (by decide)
theorem keep_main_part16_ops1_arg5 (W : Valuation τ sig (Elt F)) : StableHlo.after main_part16_ops1 W (Proc.devRef .tc main_arg5) = W (Proc.devRef .tc main_arg5) := keep_main_part16_ops1 W main_arg5 (by decide)
theorem keep_main_part16_ops1_arg6 (W : Valuation τ sig (Elt F)) : StableHlo.after main_part16_ops1 W (Proc.devRef .tc main_arg6) = W (Proc.devRef .tc main_arg6) := keep_main_part16_ops1 W main_arg6 (by decide)
theorem keep_main_part16_ops1_arg7 (W : Valuation τ sig (Elt F)) : StableHlo.after main_part16_ops1 W (Proc.devRef .tc main_arg7) = W (Proc.devRef .tc main_arg7) := keep_main_part16_ops1 W main_arg7 (by decide)
theorem keep_main_part16_ops1_arg8 (W : Valuation τ sig (Elt F)) : StableHlo.after main_part16_ops1 W (Proc.devRef .tc main_arg8) = W (Proc.devRef .tc main_arg8) := keep_main_part16_ops1 W main_arg8 (by decide)
theorem keep_main_part16_ops1_arg9 (W : Valuation τ sig (Elt F)) : StableHlo.after main_part16_ops1 W (Proc.devRef .tc main_arg9) = W (Proc.devRef .tc main_arg9) := keep_main_part16_ops1 W main_arg9 (by decide)
theorem keep_main_part16_ops1_arg10 (W : Valuation τ sig (Elt F)) : StableHlo.after main_part16_ops1 W (Proc.devRef .tc main_arg10) = W (Proc.devRef .tc main_arg10) := keep_main_part16_ops1 W main_arg10 (by decide)
theorem keep_main_part16_ops1_arg11 (W : Valuation τ sig (Elt F)) : StableHlo.after main_part16_ops1 W (Proc.devRef .tc main_arg11) = W (Proc.devRef .tc main_arg11) := keep_main_part16_ops1 W main_arg11 (by decide)
theorem keep_main_part16_ops1_arg12 (W : Valuation τ sig (Elt F)) : StableHlo.after main_part16_ops1 W (Proc.devRef .tc main_arg12) = W (Proc.devRef .tc main_arg12) := keep_main_part16_ops1 W main_arg12 (by decide)
theorem keep_main_part16_ops1_arg13 (W : Valuation τ sig (Elt F)) : StableHlo.after main_part16_ops1 W (Proc.devRef .tc main_arg13) = W (Proc.devRef .tc main_arg13) := keep_main_part16_ops1 W main_arg13 (by decide)
theorem keep_main_part16_ops1_arg14 (W : Valuation τ sig (Elt F)) : StableHlo.after main_part16_ops1 W (Proc.devRef .tc main_arg14) = W (Proc.devRef .tc main_arg14) := keep_main_part16_ops1 W main_arg14 (by decide)
theorem keep_main_part16_ops1_arg15 (W : Valuation τ sig (Elt F)) : StableHlo.after main_part16_ops1 W (Proc.devRef .tc main_arg15) = W (Proc.devRef .tc main_arg15) := keep_main_part16_ops1 W main_arg15 (by decide)
theorem keep_main_part16_ops1_arg16 (W : Valuation τ sig (Elt F)) : StableHlo.after main_part16_ops1 W (Proc.devRef .tc main_arg16) = W (Proc.devRef .tc main_arg16) := keep_main_part16_ops1 W main_arg16 (by decide)
theorem keep_main_part16_ops1_arg17 (W : Valuation τ sig (Elt F)) : StableHlo.after main_part16_ops1 W (Proc.devRef .tc main_arg17) = W (Proc.devRef .tc main_arg17) := keep_main_part16_ops1 W main_arg17 (by decide)
theorem keep_main_part16_ops1_arg18 (W : Valuation τ sig (Elt F)) : StableHlo.after main_part16_ops1 W (Proc.devRef .tc main_arg18) = W (Proc.devRef .tc main_arg18) := keep_main_part16_ops1 W main_arg18 (by decide)
theorem keep_main_part16_ops1_arg19 (W : Valuation τ sig (Elt F)) : StableHlo.after main_part16_ops1 W (Proc.devRef .tc main_arg19) = W (Proc.devRef .tc main_arg19) := keep_main_part16_ops1 W main_arg19 (by decide)
theorem keep_main_part16_ops1_arg20 (W : Valuation τ sig (Elt F)) : StableHlo.after main_part16_ops1 W (Proc.devRef .tc main_arg20) = W (Proc.devRef .tc main_arg20) := keep_main_part16_ops1 W main_arg20 (by decide)
theorem keep_main_part16_ops1_arg21 (W : Valuation τ sig (Elt F)) : StableHlo.after main_part16_ops1 W (Proc.devRef .tc main_arg21) = W (Proc.devRef .tc main_arg21) := keep_main_part16_ops1 W main_arg21 (by decide)
theorem keep_main_part16_ops1_arg22 (W : Valuation τ sig (Elt F)) : StableHlo.after main_part16_ops1 W (Proc.devRef .tc main_arg22) = W (Proc.devRef .tc main_arg22) := keep_main_part16_ops1 W main_arg22 (by decide)
theorem keep_main_part16_ops2_arg0 (W : Valuation τ sig (Elt F)) : StableHlo.after main_part16_ops2 W (Proc.devRef .tc main_arg0) = W (Proc.devRef .tc main_arg0) := keep_main_part16_ops2 W main_arg0 (by decide)
theorem keep_main_part16_ops2_arg1 (W : Valuation τ sig (Elt F)) : StableHlo.after main_part16_ops2 W (Proc.devRef .tc main_arg1) = W (Proc.devRef .tc main_arg1) := keep_main_part16_ops2 W main_arg1 (by decide)
theorem keep_main_part16_ops2_arg2 (W : Valuation τ sig (Elt F)) : StableHlo.after main_part16_ops2 W (Proc.devRef .tc main_arg2) = W (Proc.devRef .tc main_arg2) := keep_main_part16_ops2 W main_arg2 (by decide)
theorem keep_main_part16_ops2_arg3 (W : Valuation τ sig (Elt F)) : StableHlo.after main_part16_ops2 W (Proc.devRef .tc main_arg3) = W (Proc.devRef .tc main_arg3) := keep_main_part16_ops2 W main_arg3 (by decide)
theorem keep_main_part16_ops2_arg4 (W : Valuation τ sig (Elt F)) : StableHlo.after main_part16_ops2 W (Proc.devRef .tc main_arg4) = W (Proc.devRef .tc main_arg4) := keep_main_part16_ops2 W main_arg4 (by decide)
theorem keep_main_part16_ops2_arg5 (W : Valuation τ sig (Elt F)) : StableHlo.after main_part16_ops2 W (Proc.devRef .tc main_arg5) = W (Proc.devRef .tc main_arg5) := keep_main_part16_ops2 W main_arg5 (by decide)
theorem keep_main_part16_ops2_arg6 (W : Valuation τ sig (Elt F)) : StableHlo.after main_part16_ops2 W (Proc.devRef .tc main_arg6) = W (Proc.devRef .tc main_arg6) := keep_main_part16_ops2 W main_arg6 (by decide)
theorem keep_main_part16_ops2_arg7 (W : Valuation τ sig (Elt F)) : StableHlo.after main_part16_ops2 W (Proc.devRef .tc main_arg7) = W (Proc.devRef .tc main_arg7) := keep_main_part16_ops2 W main_arg7 (by decide)
theorem keep_main_part16_ops2_arg8 (W : Valuation τ sig (Elt F)) : StableHlo.after main_part16_ops2 W (Proc.devRef .tc main_arg8) = W (Proc.devRef .tc main_arg8) := keep_main_part16_ops2 W main_arg8 (by decide)
theorem keep_main_part16_ops2_arg9 (W : Valuation τ sig (Elt F)) : StableHlo.after main_part16_ops2 W (Proc.devRef .tc main_arg9) = W (Proc.devRef .tc main_arg9) := keep_main_part16_ops2 W main_arg9 (by decide)
theorem keep_main_part16_ops2_arg10 (W : Valuation τ sig (Elt F)) : StableHlo.after main_part16_ops2 W (Proc.devRef .tc main_arg10) = W (Proc.devRef .tc main_arg10) := keep_main_part16_ops2 W main_arg10 (by decide)
theorem keep_main_part16_ops2_arg11 (W : Valuation τ sig (Elt F)) : StableHlo.after main_part16_ops2 W (Proc.devRef .tc main_arg11) = W (Proc.devRef .tc main_arg11) := keep_main_part16_ops2 W main_arg11 (by decide)
theorem keep_main_part16_ops2_arg12 (W : Valuation τ sig (Elt F)) : StableHlo.after main_part16_ops2 W (Proc.devRef .tc main_arg12) = W (Proc.devRef .tc main_arg12) := keep_main_part16_ops2 W main_arg12 (by decide)
theorem keep_main_part16_ops2_arg13 (W : Valuation τ sig (Elt F)) : StableHlo.after main_part16_ops2 W (Proc.devRef .tc main_arg13) = W (Proc.devRef .tc main_arg13) := keep_main_part16_ops2 W main_arg13 (by decide)
theorem keep_main_part16_ops2_arg14 (W : Valuation τ sig (Elt F)) : StableHlo.after main_part16_ops2 W (Proc.devRef .tc main_arg14) = W (Proc.devRef .tc main_arg14) := keep_main_part16_ops2 W main_arg14 (by decide)
theorem keep_main_part16_ops2_arg15 (W : Valuation τ sig (Elt F)) : StableHlo.after main_part16_ops2 W (Proc.devRef .tc main_arg15) = W (Proc.devRef .tc main_arg15) := keep_main_part16_ops2 W main_arg15 (by decide)
theorem keep_main_part16_ops2_arg16 (W : Valuation τ sig (Elt F)) : StableHlo.after main_part16_ops2 W (Proc.devRef .tc main_arg16) = W (Proc.devRef .tc main_arg16) := keep_main_part16_ops2 W main_arg16 (by decide)
theorem keep_main_part16_ops2_arg17 (W : Valuation τ sig (Elt F)) : StableHlo.after main_part16_ops2 W (Proc.devRef .tc main_arg17) = W (Proc.devRef .tc main_arg17) := keep_main_part16_ops2 W main_arg17 (by decide)
theorem keep_main_part16_ops2_arg18 (W : Valuation τ sig (Elt F)) : StableHlo.after main_part16_ops2 W (Proc.devRef .tc main_arg18) = W (Proc.devRef .tc main_arg18) := keep_main_part16_ops2 W main_arg18 (by decide)
theorem keep_main_part16_ops2_arg19 (W : Valuation τ sig (Elt F)) : StableHlo.after main_part16_ops2 W (Proc.devRef .tc main_arg19) = W (Proc.devRef .tc main_arg19) := keep_main_part16_ops2 W main_arg19 (by decide)
theorem keep_main_part16_ops2_arg20 (W : Valuation τ sig (Elt F)) : StableHlo.after main_part16_ops2 W (Proc.devRef .tc main_arg20) = W (Proc.devRef .tc main_arg20) := keep_main_part16_ops2 W main_arg20 (by decide)
theorem keep_main_part16_ops2_arg21 (W : Valuation τ sig (Elt F)) : StableHlo.after main_part16_ops2 W (Proc.devRef .tc main_arg21) = W (Proc.devRef .tc main_arg21) := keep_main_part16_ops2 W main_arg21 (by decide)
theorem keep_main_part16_ops2_arg22 (W : Valuation τ sig (Elt F)) : StableHlo.after main_part16_ops2 W (Proc.devRef .tc main_arg22) = W (Proc.devRef .tc main_arg22) := keep_main_part16_ops2 W main_arg22 (by decide)

end Cert.Kernel.Hand

end
-- ==== Proof.KB.Args0.lean ====
import proofs.«125545_j64845416235624_1_alg».proof.Proof.KB.Fold
import proofs.«125545_j64845416235624_1_alg».proof.Proof.KB.Keep
import proofs.«125545_j64845416235624_1_alg».proof.Proof.KB.KeepArgs0
import proofs.«125545_j64845416235624_1_alg».proof.Proof.KB.KeepArgs1

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-! # The argument arrays end as launched (arguments 0 to 5)

No host operation writes an argument array, and no region does: a region either does not touch it, or reads it through
an input window, whose array the pipeline leaves as entered. So the fold of the buffer contents through @main's 44
items, read at an argument's buffer, walks back item by item to the launch memory. -/

theorem Wfin_arg0 (c : Dev nD) : Wfin m ρ c (Proc.devRef .tc main_arg0) = m ((c : Thread nD τ).loc main_arg0) :=
  calc Wfin m ρ c (Proc.devRef .tc main_arg0)
    _ = W43 m ρ c (Proc.devRef .tc main_arg0) := W44_of_ne m ρ c main_arg0 (by decide)
    _ = W42 m ρ c (Proc.devRef .tc main_arg0) := keep_main_part16_ops2_arg0 _
    _ = W41 m ρ c (Proc.devRef .tc main_arg0) := W42_of_ne m ρ c main_arg0 (by decide)
    _ = W40 m ρ c (Proc.devRef .tc main_arg0) := keep_main_part16_ops1_arg0 _
    _ = W39 m ρ c (Proc.devRef .tc main_arg0) := W40_of_ne m ρ c main_arg0 (by decide)
    _ = W38 m ρ c (Proc.devRef .tc main_arg0) := keep_main_part16_ops0_arg0 _
    _ = W37 m ρ c (Proc.devRef .tc main_arg0) := keep_main_part15_ops3_arg0 _
    _ = W36 m ρ c (Proc.devRef .tc main_arg0) := W37_of_ne m ρ c main_arg0 (by decide)
    _ = W35 m ρ c (Proc.devRef .tc main_arg0) := keep_main_part15_ops2_arg0 _
    _ = W34 m ρ c (Proc.devRef .tc main_arg0) := W35_of_ne m ρ c main_arg0 (by decide)
    _ = W33 m ρ c (Proc.devRef .tc main_arg0) := keep_main_part15_ops1_arg0 _
    _ = W32 m ρ c (Proc.devRef .tc main_arg0) := W33_of_ne m ρ c main_arg0 (by decide)
    _ = W31 m ρ c (Proc.devRef .tc main_arg0) := keep_main_part15_ops0_arg0 _
    _ = W30 m ρ c (Proc.devRef .tc main_arg0) := keep_main_part14_ops0_arg0 _
    _ = W29 m ρ c (Proc.devRef .tc main_arg0) := keep_main_part13_ops0_arg0 _
    _ = W28 m ρ c (Proc.devRef .tc main_arg0) := keep_main_part12_ops0_arg0 _
    _ = W27 m ρ c (Proc.devRef .tc main_arg0) := keep_main_part11_ops0_arg0 _
    _ = W26 m ρ c (Proc.devRef .tc main_arg0) := keep_main_part10_ops4_arg0 _
    _ = W25 m ρ c (Proc.devRef .tc main_arg0) := W26_of_ne m ρ c main_arg0 (by decide)
    _ = W24 m ρ c (Proc.devRef .tc main_arg0) := keep_main_part10_ops3_arg0 _
    _ = W23 m ρ c (Proc.devRef .tc main_arg0) := W24_of_ne m ρ c main_arg0 (by decide)
    _ = W22 m ρ c (Proc.devRef .tc main_arg0) := keep_main_part10_ops2_arg0 _
    _ = W21 m ρ c (Proc.devRef .tc main_arg0) := W22_of_ne m ρ c main_arg0 (by decide)
    _ = W20 m ρ c (Proc.devRef .tc main_arg0) := keep_main_part10_ops1_arg0 _
    _ = W19 m ρ c (Proc.devRef .tc main_arg0) := W20_of_ne m ρ c main_arg0 (by decide)
    _ = W18 m ρ c (Proc.devRef .tc main_arg0) := keep_main_part10_ops0_arg0 _
    _ = W17 m ρ c (Proc.devRef .tc main_arg0) := keep_main_part9_ops0_arg0 _
    _ = W16 m ρ c (Proc.devRef .tc main_arg0) := keep_main_part8_ops0_arg0 _
    _ = W15 m ρ c (Proc.devRef .tc main_arg0) := keep_main_part7_ops0_arg0 _
    _ = W14 m ρ c (Proc.devRef .tc main_arg0) := keep_main_part6_ops0_arg0 _
    _ = W13 m ρ c (Proc.devRef .tc main_arg0) := keep_main_part5_ops3_arg0 _
    _ = W12 m ρ c (Proc.devRef .tc main_arg0) := W13_of_ne m ρ c main_arg0 (by decide)
    _ = W11 m ρ c (Proc.devRef .tc main_arg0) := keep_main_part5_ops2_arg0 _
    _ = W10 m ρ c (Proc.devRef .tc main_arg0) := W11_of_ne m ρ c main_arg0 (by decide)
    _ = W9 m ρ c (Proc.devRef .tc main_arg0) := keep_main_part5_ops1_arg0 _
    _ = W8 m ρ c (Proc.devRef .tc main_arg0) := W9_of_ne m ρ c main_arg0 (by decide)
    _ = W7 m ρ c (Proc.devRef .tc main_arg0) := keep_main_part5_ops0_arg0 _
    _ = W6 m ρ c (Proc.devRef .tc main_arg0) := keep_main_part4_ops1_arg0 _
    _ = W5 m ρ c (Proc.devRef .tc main_arg0) := (W6_arr m ρ c 5).trans (((dat0 (V5 m ρ) c).arrAt_in 5 rfl _).trans (A_eq0 (V5 m ρ) c 5))
    _ = W4 m ρ c (Proc.devRef .tc main_arg0) := keep_main_part4_ops0_arg0 _
    _ = W3 m ρ c (Proc.devRef .tc main_arg0) := keep_main_part3_ops0_arg0 _
    _ = W2 m ρ c (Proc.devRef .tc main_arg0) := keep_main_part2_ops0_arg0 _
    _ = W1 m ρ c (Proc.devRef .tc main_arg0) := keep_main_part1_ops0_arg0 _
    _ = W0 m ρ c (Proc.devRef .tc main_arg0) := keep_main_part0_ops0_arg0 _
    _ = m ((c : Thread nD τ).loc main_arg0) := rfl

theorem Wfin_arg1 (c : Dev nD) : Wfin m ρ c (Proc.devRef .tc main_arg1) = m ((c : Thread nD τ).loc main_arg1) :=
  calc Wfin m ρ c (Proc.devRef .tc main_arg1)
    _ = W43 m ρ c (Proc.devRef .tc main_arg1) := W44_of_ne m ρ c main_arg1 (by decide)
    _ = W42 m ρ c (Proc.devRef .tc main_arg1) := keep_main_part16_ops2_arg1 _
    _ = W41 m ρ c (Proc.devRef .tc main_arg1) := W42_of_ne m ρ c main_arg1 (by decide)
    _ = W40 m ρ c (Proc.devRef .tc main_arg1) := keep_main_part16_ops1_arg1 _
    _ = W39 m ρ c (Proc.devRef .tc main_arg1) := W40_of_ne m ρ c main_arg1 (by decide)
    _ = W38 m ρ c (Proc.devRef .tc main_arg1) := keep_main_part16_ops0_arg1 _
    _ = W37 m ρ c (Proc.devRef .tc main_arg1) := keep_main_part15_ops3_arg1 _
    _ = W36 m ρ c (Proc.devRef .tc main_arg1) := W37_of_ne m ρ c main_arg1 (by decide)
    _ = W35 m ρ c (Proc.devRef .tc main_arg1) := keep_main_part15_ops2_arg1 _
    _ = W34 m ρ c (Proc.devRef .tc main_arg1) := W35_of_ne m ρ c main_arg1 (by decide)
    _ = W33 m ρ c (Proc.devRef .tc main_arg1) := keep_main_part15_ops1_arg1 _
    _ = W32 m ρ c (Proc.devRef .tc main_arg1) := W33_of_ne m ρ c main_arg1 (by decide)
    _ = W31 m ρ c (Proc.devRef .tc main_arg1) := keep_main_part15_ops0_arg1 _
    _ = W30 m ρ c (Proc.devRef .tc main_arg1) := keep_main_part14_ops0_arg1 _
    _ = W29 m ρ c (Proc.devRef .tc main_arg1) := keep_main_part13_ops0_arg1 _
    _ = W28 m ρ c (Proc.devRef .tc main_arg1) := keep_main_part12_ops0_arg1 _
    _ = W27 m ρ c (Proc.devRef .tc main_arg1) := keep_main_part11_ops0_arg1 _
    _ = W26 m ρ c (Proc.devRef .tc main_arg1) := keep_main_part10_ops4_arg1 _
    _ = W25 m ρ c (Proc.devRef .tc main_arg1) := W26_of_ne m ρ c main_arg1 (by decide)
    _ = W24 m ρ c (Proc.devRef .tc main_arg1) := keep_main_part10_ops3_arg1 _
    _ = W23 m ρ c (Proc.devRef .tc main_arg1) := W24_of_ne m ρ c main_arg1 (by decide)
    _ = W22 m ρ c (Proc.devRef .tc main_arg1) := keep_main_part10_ops2_arg1 _
    _ = W21 m ρ c (Proc.devRef .tc main_arg1) := W22_of_ne m ρ c main_arg1 (by decide)
    _ = W20 m ρ c (Proc.devRef .tc main_arg1) := keep_main_part10_ops1_arg1 _
    _ = W19 m ρ c (Proc.devRef .tc main_arg1) := W20_of_ne m ρ c main_arg1 (by decide)
    _ = W18 m ρ c (Proc.devRef .tc main_arg1) := keep_main_part10_ops0_arg1 _
    _ = W17 m ρ c (Proc.devRef .tc main_arg1) := keep_main_part9_ops0_arg1 _
    _ = W16 m ρ c (Proc.devRef .tc main_arg1) := keep_main_part8_ops0_arg1 _
    _ = W15 m ρ c (Proc.devRef .tc main_arg1) := keep_main_part7_ops0_arg1 _
    _ = W14 m ρ c (Proc.devRef .tc main_arg1) := keep_main_part6_ops0_arg1 _
    _ = W13 m ρ c (Proc.devRef .tc main_arg1) := keep_main_part5_ops3_arg1 _
    _ = W12 m ρ c (Proc.devRef .tc main_arg1) := W13_of_ne m ρ c main_arg1 (by decide)
    _ = W11 m ρ c (Proc.devRef .tc main_arg1) := keep_main_part5_ops2_arg1 _
    _ = W10 m ρ c (Proc.devRef .tc main_arg1) := W11_of_ne m ρ c main_arg1 (by decide)
    _ = W9 m ρ c (Proc.devRef .tc main_arg1) := keep_main_part5_ops1_arg1 _
    _ = W8 m ρ c (Proc.devRef .tc main_arg1) := (W9_arr m ρ c 1).trans (((dat1 (V8 m ρ) c).arrAt_in 1 rfl _).trans (A_eq1 (V8 m ρ) c 1))
    _ = W7 m ρ c (Proc.devRef .tc main_arg1) := keep_main_part5_ops0_arg1 _
    _ = W6 m ρ c (Proc.devRef .tc main_arg1) := keep_main_part4_ops1_arg1 _
    _ = W5 m ρ c (Proc.devRef .tc main_arg1) := W6_of_ne m ρ c main_arg1 (by decide)
    _ = W4 m ρ c (Proc.devRef .tc main_arg1) := keep_main_part4_ops0_arg1 _
    _ = W3 m ρ c (Proc.devRef .tc main_arg1) := keep_main_part3_ops0_arg1 _
    _ = W2 m ρ c (Proc.devRef .tc main_arg1) := keep_main_part2_ops0_arg1 _
    _ = W1 m ρ c (Proc.devRef .tc main_arg1) := keep_main_part1_ops0_arg1 _
    _ = W0 m ρ c (Proc.devRef .tc main_arg1) := keep_main_part0_ops0_arg1 _
    _ = m ((c : Thread nD τ).loc main_arg1) := rfl

theorem Wfin_arg2 (c : Dev nD) : Wfin m ρ c (Proc.devRef .tc main_arg2) = m ((c : Thread nD τ).loc main_arg2) :=
  calc Wfin m ρ c (Proc.devRef .tc main_arg2)
    _ = W43 m ρ c (Proc.devRef .tc main_arg2) := W44_of_ne m ρ c main_arg2 (by decide)
    _ = W42 m ρ c (Proc.devRef .tc main_arg2) := keep_main_part16_ops2_arg2 _
    _ = W41 m ρ c (Proc.devRef .tc main_arg2) := W42_of_ne m ρ c main_arg2 (by decide)
    _ = W40 m ρ c (Proc.devRef .tc main_arg2) := keep_main_part16_ops1_arg2 _
    _ = W39 m ρ c (Proc.devRef .tc main_arg2) := W40_of_ne m ρ c main_arg2 (by decide)
    _ = W38 m ρ c (Proc.devRef .tc main_arg2) := keep_main_part16_ops0_arg2 _
    _ = W37 m ρ c (Proc.devRef .tc main_arg2) := keep_main_part15_ops3_arg2 _
    _ = W36 m ρ c (Proc.devRef .tc main_arg2) := W37_of_ne m ρ c main_arg2 (by decide)
    _ = W35 m ρ c (Proc.devRef .tc main_arg2) := keep_main_part15_ops2_arg2 _
    _ = W34 m ρ c (Proc.devRef .tc main_arg2) := W35_of_ne m ρ c main_arg2 (by decide)
    _ = W33 m ρ c (Proc.devRef .tc main_arg2) := keep_main_part15_ops1_arg2 _
    _ = W32 m ρ c (Proc.devRef .tc main_arg2) := W33_of_ne m ρ c main_arg2 (by decide)
    _ = W31 m ρ c (Proc.devRef .tc main_arg2) := keep_main_part15_ops0_arg2 _
    _ = W30 m ρ c (Proc.devRef .tc main_arg2) := keep_main_part14_ops0_arg2 _
    _ = W29 m ρ c (Proc.devRef .tc main_arg2) := keep_main_part13_ops0_arg2 _
    _ = W28 m ρ c (Proc.devRef .tc main_arg2) := keep_main_part12_ops0_arg2 _
    _ = W27 m ρ c (Proc.devRef .tc main_arg2) := keep_main_part11_ops0_arg2 _
    _ = W26 m ρ c (Proc.devRef .tc main_arg2) := keep_main_part10_ops4_arg2 _
    _ = W25 m ρ c (Proc.devRef .tc main_arg2) := W26_of_ne m ρ c main_arg2 (by decide)
    _ = W24 m ρ c (Proc.devRef .tc main_arg2) := keep_main_part10_ops3_arg2 _
    _ = W23 m ρ c (Proc.devRef .tc main_arg2) := W24_of_ne m ρ c main_arg2 (by decide)
    _ = W22 m ρ c (Proc.devRef .tc main_arg2) := keep_main_part10_ops2_arg2 _
    _ = W21 m ρ c (Proc.devRef .tc main_arg2) := W22_of_ne m ρ c main_arg2 (by decide)
    _ = W20 m ρ c (Proc.devRef .tc main_arg2) := keep_main_part10_ops1_arg2 _
    _ = W19 m ρ c (Proc.devRef .tc main_arg2) := W20_of_ne m ρ c main_arg2 (by decide)
    _ = W18 m ρ c (Proc.devRef .tc main_arg2) := keep_main_part10_ops0_arg2 _
    _ = W17 m ρ c (Proc.devRef .tc main_arg2) := keep_main_part9_ops0_arg2 _
    _ = W16 m ρ c (Proc.devRef .tc main_arg2) := keep_main_part8_ops0_arg2 _
    _ = W15 m ρ c (Proc.devRef .tc main_arg2) := keep_main_part7_ops0_arg2 _
    _ = W14 m ρ c (Proc.devRef .tc main_arg2) := keep_main_part6_ops0_arg2 _
    _ = W13 m ρ c (Proc.devRef .tc main_arg2) := keep_main_part5_ops3_arg2 _
    _ = W12 m ρ c (Proc.devRef .tc main_arg2) := W13_of_ne m ρ c main_arg2 (by decide)
    _ = W11 m ρ c (Proc.devRef .tc main_arg2) := keep_main_part5_ops2_arg2 _
    _ = W10 m ρ c (Proc.devRef .tc main_arg2) := (W11_arr m ρ c 1).trans (((dat2 (V10 m ρ) c).arrAt_in 1 rfl _).trans (A_eq2 (V10 m ρ) c 1))
    _ = W9 m ρ c (Proc.devRef .tc main_arg2) := keep_main_part5_ops1_arg2 _
    _ = W8 m ρ c (Proc.devRef .tc main_arg2) := W9_of_ne m ρ c main_arg2 (by decide)
    _ = W7 m ρ c (Proc.devRef .tc main_arg2) := keep_main_part5_ops0_arg2 _
    _ = W6 m ρ c (Proc.devRef .tc main_arg2) := keep_main_part4_ops1_arg2 _
    _ = W5 m ρ c (Proc.devRef .tc main_arg2) := W6_of_ne m ρ c main_arg2 (by decide)
    _ = W4 m ρ c (Proc.devRef .tc main_arg2) := keep_main_part4_ops0_arg2 _
    _ = W3 m ρ c (Proc.devRef .tc main_arg2) := keep_main_part3_ops0_arg2 _
    _ = W2 m ρ c (Proc.devRef .tc main_arg2) := keep_main_part2_ops0_arg2 _
    _ = W1 m ρ c (Proc.devRef .tc main_arg2) := keep_main_part1_ops0_arg2 _
    _ = W0 m ρ c (Proc.devRef .tc main_arg2) := keep_main_part0_ops0_arg2 _
    _ = m ((c : Thread nD τ).loc main_arg2) := rfl

theorem Wfin_arg3 (c : Dev nD) : Wfin m ρ c (Proc.devRef .tc main_arg3) = m ((c : Thread nD τ).loc main_arg3) :=
  calc Wfin m ρ c (Proc.devRef .tc main_arg3)
    _ = W43 m ρ c (Proc.devRef .tc main_arg3) := W44_of_ne m ρ c main_arg3 (by decide)
    _ = W42 m ρ c (Proc.devRef .tc main_arg3) := keep_main_part16_ops2_arg3 _
    _ = W41 m ρ c (Proc.devRef .tc main_arg3) := W42_of_ne m ρ c main_arg3 (by decide)
    _ = W40 m ρ c (Proc.devRef .tc main_arg3) := keep_main_part16_ops1_arg3 _
    _ = W39 m ρ c (Proc.devRef .tc main_arg3) := W40_of_ne m ρ c main_arg3 (by decide)
    _ = W38 m ρ c (Proc.devRef .tc main_arg3) := keep_main_part16_ops0_arg3 _
    _ = W37 m ρ c (Proc.devRef .tc main_arg3) := keep_main_part15_ops3_arg3 _
    _ = W36 m ρ c (Proc.devRef .tc main_arg3) := W37_of_ne m ρ c main_arg3 (by decide)
    _ = W35 m ρ c (Proc.devRef .tc main_arg3) := keep_main_part15_ops2_arg3 _
    _ = W34 m ρ c (Proc.devRef .tc main_arg3) := W35_of_ne m ρ c main_arg3 (by decide)
    _ = W33 m ρ c (Proc.devRef .tc main_arg3) := keep_main_part15_ops1_arg3 _
    _ = W32 m ρ c (Proc.devRef .tc main_arg3) := W33_of_ne m ρ c main_arg3 (by decide)
    _ = W31 m ρ c (Proc.devRef .tc main_arg3) := keep_main_part15_ops0_arg3 _
    _ = W30 m ρ c (Proc.devRef .tc main_arg3) := keep_main_part14_ops0_arg3 _
    _ = W29 m ρ c (Proc.devRef .tc main_arg3) := keep_main_part13_ops0_arg3 _
    _ = W28 m ρ c (Proc.devRef .tc main_arg3) := keep_main_part12_ops0_arg3 _
    _ = W27 m ρ c (Proc.devRef .tc main_arg3) := keep_main_part11_ops0_arg3 _
    _ = W26 m ρ c (Proc.devRef .tc main_arg3) := keep_main_part10_ops4_arg3 _
    _ = W25 m ρ c (Proc.devRef .tc main_arg3) := W26_of_ne m ρ c main_arg3 (by decide)
    _ = W24 m ρ c (Proc.devRef .tc main_arg3) := keep_main_part10_ops3_arg3 _
    _ = W23 m ρ c (Proc.devRef .tc main_arg3) := W24_of_ne m ρ c main_arg3 (by decide)
    _ = W22 m ρ c (Proc.devRef .tc main_arg3) := keep_main_part10_ops2_arg3 _
    _ = W21 m ρ c (Proc.devRef .tc main_arg3) := W22_of_ne m ρ c main_arg3 (by decide)
    _ = W20 m ρ c (Proc.devRef .tc main_arg3) := keep_main_part10_ops1_arg3 _
    _ = W19 m ρ c (Proc.devRef .tc main_arg3) := W20_of_ne m ρ c main_arg3 (by decide)
    _ = W18 m ρ c (Proc.devRef .tc main_arg3) := keep_main_part10_ops0_arg3 _
    _ = W17 m ρ c (Proc.devRef .tc main_arg3) := keep_main_part9_ops0_arg3 _
    _ = W16 m ρ c (Proc.devRef .tc main_arg3) := keep_main_part8_ops0_arg3 _
    _ = W15 m ρ c (Proc.devRef .tc main_arg3) := keep_main_part7_ops0_arg3 _
    _ = W14 m ρ c (Proc.devRef .tc main_arg3) := keep_main_part6_ops0_arg3 _
    _ = W13 m ρ c (Proc.devRef .tc main_arg3) := keep_main_part5_ops3_arg3 _
    _ = W12 m ρ c (Proc.devRef .tc main_arg3) := (W13_arr m ρ c 1).trans (((dat3 (V12 m ρ) c).arrAt_in 1 rfl _).trans (A_eq3 (V12 m ρ) c 1))
    _ = W11 m ρ c (Proc.devRef .tc main_arg3) := keep_main_part5_ops2_arg3 _
    _ = W10 m ρ c (Proc.devRef .tc main_arg3) := W11_of_ne m ρ c main_arg3 (by decide)
    _ = W9 m ρ c (Proc.devRef .tc main_arg3) := keep_main_part5_ops1_arg3 _
    _ = W8 m ρ c (Proc.devRef .tc main_arg3) := W9_of_ne m ρ c main_arg3 (by decide)
    _ = W7 m ρ c (Proc.devRef .tc main_arg3) := keep_main_part5_ops0_arg3 _
    _ = W6 m ρ c (Proc.devRef .tc main_arg3) := keep_main_part4_ops1_arg3 _
    _ = W5 m ρ c (Proc.devRef .tc main_arg3) := W6_of_ne m ρ c main_arg3 (by decide)
    _ = W4 m ρ c (Proc.devRef .tc main_arg3) := keep_main_part4_ops0_arg3 _
    _ = W3 m ρ c (Proc.devRef .tc main_arg3) := keep_main_part3_ops0_arg3 _
    _ = W2 m ρ c (Proc.devRef .tc main_arg3) := keep_main_part2_ops0_arg3 _
    _ = W1 m ρ c (Proc.devRef .tc main_arg3) := keep_main_part1_ops0_arg3 _
    _ = W0 m ρ c (Proc.devRef .tc main_arg3) := keep_main_part0_ops0_arg3 _
    _ = m ((c : Thread nD τ).loc main_arg3) := rfl

theorem Wfin_arg4 (c : Dev nD) : Wfin m ρ c (Proc.devRef .tc main_arg4) = m ((c : Thread nD τ).loc main_arg4) :=
  calc Wfin m ρ c (Proc.devRef .tc main_arg4)
    _ = W43 m ρ c (Proc.devRef .tc main_arg4) := W44_of_ne m ρ c main_arg4 (by decide)
    _ = W42 m ρ c (Proc.devRef .tc main_arg4) := keep_main_part16_ops2_arg4 _
    _ = W41 m ρ c (Proc.devRef .tc main_arg4) := W42_of_ne m ρ c main_arg4 (by decide)
    _ = W40 m ρ c (Proc.devRef .tc main_arg4) := keep_main_part16_ops1_arg4 _
    _ = W39 m ρ c (Proc.devRef .tc main_arg4) := W40_of_ne m ρ c main_arg4 (by decide)
    _ = W38 m ρ c (Proc.devRef .tc main_arg4) := keep_main_part16_ops0_arg4 _
    _ = W37 m ρ c (Proc.devRef .tc main_arg4) := keep_main_part15_ops3_arg4 _
    _ = W36 m ρ c (Proc.devRef .tc main_arg4) := W37_of_ne m ρ c main_arg4 (by decide)
    _ = W35 m ρ c (Proc.devRef .tc main_arg4) := keep_main_part15_ops2_arg4 _
    _ = W34 m ρ c (Proc.devRef .tc main_arg4) := W35_of_ne m ρ c main_arg4 (by decide)
    _ = W33 m ρ c (Proc.devRef .tc main_arg4) := keep_main_part15_ops1_arg4 _
    _ = W32 m ρ c (Proc.devRef .tc main_arg4) := W33_of_ne m ρ c main_arg4 (by decide)
    _ = W31 m ρ c (Proc.devRef .tc main_arg4) := keep_main_part15_ops0_arg4 _
    _ = W30 m ρ c (Proc.devRef .tc main_arg4) := keep_main_part14_ops0_arg4 _
    _ = W29 m ρ c (Proc.devRef .tc main_arg4) := keep_main_part13_ops0_arg4 _
    _ = W28 m ρ c (Proc.devRef .tc main_arg4) := keep_main_part12_ops0_arg4 _
    _ = W27 m ρ c (Proc.devRef .tc main_arg4) := keep_main_part11_ops0_arg4 _
    _ = W26 m ρ c (Proc.devRef .tc main_arg4) := keep_main_part10_ops4_arg4 _
    _ = W25 m ρ c (Proc.devRef .tc main_arg4) := W26_of_ne m ρ c main_arg4 (by decide)
    _ = W24 m ρ c (Proc.devRef .tc main_arg4) := keep_main_part10_ops3_arg4 _
    _ = W23 m ρ c (Proc.devRef .tc main_arg4) := W24_of_ne m ρ c main_arg4 (by decide)
    _ = W22 m ρ c (Proc.devRef .tc main_arg4) := keep_main_part10_ops2_arg4 _
    _ = W21 m ρ c (Proc.devRef .tc main_arg4) := W22_of_ne m ρ c main_arg4 (by decide)
    _ = W20 m ρ c (Proc.devRef .tc main_arg4) := keep_main_part10_ops1_arg4 _
    _ = W19 m ρ c (Proc.devRef .tc main_arg4) := W20_of_ne m ρ c main_arg4 (by decide)
    _ = W18 m ρ c (Proc.devRef .tc main_arg4) := keep_main_part10_ops0_arg4 _
    _ = W17 m ρ c (Proc.devRef .tc main_arg4) := keep_main_part9_ops0_arg4 _
    _ = W16 m ρ c (Proc.devRef .tc main_arg4) := keep_main_part8_ops0_arg4 _
    _ = W15 m ρ c (Proc.devRef .tc main_arg4) := keep_main_part7_ops0_arg4 _
    _ = W14 m ρ c (Proc.devRef .tc main_arg4) := keep_main_part6_ops0_arg4 _
    _ = W13 m ρ c (Proc.devRef .tc main_arg4) := keep_main_part5_ops3_arg4 _
    _ = W12 m ρ c (Proc.devRef .tc main_arg4) := W13_of_ne m ρ c main_arg4 (by decide)
    _ = W11 m ρ c (Proc.devRef .tc main_arg4) := keep_main_part5_ops2_arg4 _
    _ = W10 m ρ c (Proc.devRef .tc main_arg4) := W11_of_ne m ρ c main_arg4 (by decide)
    _ = W9 m ρ c (Proc.devRef .tc main_arg4) := keep_main_part5_ops1_arg4 _
    _ = W8 m ρ c (Proc.devRef .tc main_arg4) := W9_of_ne m ρ c main_arg4 (by decide)
    _ = W7 m ρ c (Proc.devRef .tc main_arg4) := keep_main_part5_ops0_arg4 _
    _ = W6 m ρ c (Proc.devRef .tc main_arg4) := keep_main_part4_ops1_arg4 _
    _ = W5 m ρ c (Proc.devRef .tc main_arg4) := W6_of_ne m ρ c main_arg4 (by decide)
    _ = W4 m ρ c (Proc.devRef .tc main_arg4) := keep_main_part4_ops0_arg4 _
    _ = W3 m ρ c (Proc.devRef .tc main_arg4) := keep_main_part3_ops0_arg4 _
    _ = W2 m ρ c (Proc.devRef .tc main_arg4) := keep_main_part2_ops0_arg4 _
    _ = W1 m ρ c (Proc.devRef .tc main_arg4) := keep_main_part1_ops0_arg4 _
    _ = W0 m ρ c (Proc.devRef .tc main_arg4) := keep_main_part0_ops0_arg4 _
    _ = m ((c : Thread nD τ).loc main_arg4) := rfl

theorem Wfin_arg5 (c : Dev nD) : Wfin m ρ c (Proc.devRef .tc main_arg5) = m ((c : Thread nD τ).loc main_arg5) :=
  calc Wfin m ρ c (Proc.devRef .tc main_arg5)
    _ = W43 m ρ c (Proc.devRef .tc main_arg5) := W44_of_ne m ρ c main_arg5 (by decide)
    _ = W42 m ρ c (Proc.devRef .tc main_arg5) := keep_main_part16_ops2_arg5 _
    _ = W41 m ρ c (Proc.devRef .tc main_arg5) := W42_of_ne m ρ c main_arg5 (by decide)
    _ = W40 m ρ c (Proc.devRef .tc main_arg5) := keep_main_part16_ops1_arg5 _
    _ = W39 m ρ c (Proc.devRef .tc main_arg5) := W40_of_ne m ρ c main_arg5 (by decide)
    _ = W38 m ρ c (Proc.devRef .tc main_arg5) := keep_main_part16_ops0_arg5 _
    _ = W37 m ρ c (Proc.devRef .tc main_arg5) := keep_main_part15_ops3_arg5 _
    _ = W36 m ρ c (Proc.devRef .tc main_arg5) := W37_of_ne m ρ c main_arg5 (by decide)
    _ = W35 m ρ c (Proc.devRef .tc main_arg5) := keep_main_part15_ops2_arg5 _
    _ = W34 m ρ c (Proc.devRef .tc main_arg5) := W35_of_ne m ρ c main_arg5 (by decide)
    _ = W33 m ρ c (Proc.devRef .tc main_arg5) := keep_main_part15_ops1_arg5 _
    _ = W32 m ρ c (Proc.devRef .tc main_arg5) := W33_of_ne m ρ c main_arg5 (by decide)
    _ = W31 m ρ c (Proc.devRef .tc main_arg5) := keep_main_part15_ops0_arg5 _
    _ = W30 m ρ c (Proc.devRef .tc main_arg5) := keep_main_part14_ops0_arg5 _
    _ = W29 m ρ c (Proc.devRef .tc main_arg5) := keep_main_part13_ops0_arg5 _
    _ = W28 m ρ c (Proc.devRef .tc main_arg5) := keep_main_part12_ops0_arg5 _
    _ = W27 m ρ c (Proc.devRef .tc main_arg5) := keep_main_part11_ops0_arg5 _
    _ = W26 m ρ c (Proc.devRef .tc main_arg5) := keep_main_part10_ops4_arg5 _
    _ = W25 m ρ c (Proc.devRef .tc main_arg5) := W26_of_ne m ρ c main_arg5 (by decide)
    _ = W24 m ρ c (Proc.devRef .tc main_arg5) := keep_main_part10_ops3_arg5 _
    _ = W23 m ρ c (Proc.devRef .tc main_arg5) := W24_of_ne m ρ c main_arg5 (by decide)
    _ = W22 m ρ c (Proc.devRef .tc main_arg5) := keep_main_part10_ops2_arg5 _
    _ = W21 m ρ c (Proc.devRef .tc main_arg5) := W22_of_ne m ρ c main_arg5 (by decide)
    _ = W20 m ρ c (Proc.devRef .tc main_arg5) := keep_main_part10_ops1_arg5 _
    _ = W19 m ρ c (Proc.devRef .tc main_arg5) := W20_of_ne m ρ c main_arg5 (by decide)
    _ = W18 m ρ c (Proc.devRef .tc main_arg5) := keep_main_part10_ops0_arg5 _
    _ = W17 m ρ c (Proc.devRef .tc main_arg5) := keep_main_part9_ops0_arg5 _
    _ = W16 m ρ c (Proc.devRef .tc main_arg5) := keep_main_part8_ops0_arg5 _
    _ = W15 m ρ c (Proc.devRef .tc main_arg5) := keep_main_part7_ops0_arg5 _
    _ = W14 m ρ c (Proc.devRef .tc main_arg5) := keep_main_part6_ops0_arg5 _
    _ = W13 m ρ c (Proc.devRef .tc main_arg5) := keep_main_part5_ops3_arg5 _
    _ = W12 m ρ c (Proc.devRef .tc main_arg5) := W13_of_ne m ρ c main_arg5 (by decide)
    _ = W11 m ρ c (Proc.devRef .tc main_arg5) := keep_main_part5_ops2_arg5 _
    _ = W10 m ρ c (Proc.devRef .tc main_arg5) := W11_of_ne m ρ c main_arg5 (by decide)
    _ = W9 m ρ c (Proc.devRef .tc main_arg5) := keep_main_part5_ops1_arg5 _
    _ = W8 m ρ c (Proc.devRef .tc main_arg5) := W9_of_ne m ρ c main_arg5 (by decide)
    _ = W7 m ρ c (Proc.devRef .tc main_arg5) := keep_main_part5_ops0_arg5 _
    _ = W6 m ρ c (Proc.devRef .tc main_arg5) := keep_main_part4_ops1_arg5 _
    _ = W5 m ρ c (Proc.devRef .tc main_arg5) := W6_of_ne m ρ c main_arg5 (by decide)
    _ = W4 m ρ c (Proc.devRef .tc main_arg5) := keep_main_part4_ops0_arg5 _
    _ = W3 m ρ c (Proc.devRef .tc main_arg5) := keep_main_part3_ops0_arg5 _
    _ = W2 m ρ c (Proc.devRef .tc main_arg5) := keep_main_part2_ops0_arg5 _
    _ = W1 m ρ c (Proc.devRef .tc main_arg5) := keep_main_part1_ops0_arg5 _
    _ = W0 m ρ c (Proc.devRef .tc main_arg5) := keep_main_part0_ops0_arg5 _
    _ = m ((c : Thread nD τ).loc main_arg5) := rfl

end Cert.Kernel.Hand

end
-- ==== Proof.KB.Args1.lean ====
import proofs.«125545_j64845416235624_1_alg».proof.Proof.KB.Fold
import proofs.«125545_j64845416235624_1_alg».proof.Proof.KB.Keep
import proofs.«125545_j64845416235624_1_alg».proof.Proof.KB.KeepArgs0
import proofs.«125545_j64845416235624_1_alg».proof.Proof.KB.KeepArgs1

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-! # The argument arrays end as launched (arguments 6 to 11)

No host operation writes an argument array, and no region does: a region either does not touch it, or reads it through
an input window, whose array the pipeline leaves as entered. So the fold of the buffer contents through @main's 44
items, read at an argument's buffer, walks back item by item to the launch memory. -/

theorem Wfin_arg6 (c : Dev nD) : Wfin m ρ c (Proc.devRef .tc main_arg6) = m ((c : Thread nD τ).loc main_arg6) :=
  calc Wfin m ρ c (Proc.devRef .tc main_arg6)
    _ = W43 m ρ c (Proc.devRef .tc main_arg6) := W44_of_ne m ρ c main_arg6 (by decide)
    _ = W42 m ρ c (Proc.devRef .tc main_arg6) := keep_main_part16_ops2_arg6 _
    _ = W41 m ρ c (Proc.devRef .tc main_arg6) := W42_of_ne m ρ c main_arg6 (by decide)
    _ = W40 m ρ c (Proc.devRef .tc main_arg6) := keep_main_part16_ops1_arg6 _
    _ = W39 m ρ c (Proc.devRef .tc main_arg6) := W40_of_ne m ρ c main_arg6 (by decide)
    _ = W38 m ρ c (Proc.devRef .tc main_arg6) := keep_main_part16_ops0_arg6 _
    _ = W37 m ρ c (Proc.devRef .tc main_arg6) := keep_main_part15_ops3_arg6 _
    _ = W36 m ρ c (Proc.devRef .tc main_arg6) := W37_of_ne m ρ c main_arg6 (by decide)
    _ = W35 m ρ c (Proc.devRef .tc main_arg6) := keep_main_part15_ops2_arg6 _
    _ = W34 m ρ c (Proc.devRef .tc main_arg6) := W35_of_ne m ρ c main_arg6 (by decide)
    _ = W33 m ρ c (Proc.devRef .tc main_arg6) := keep_main_part15_ops1_arg6 _
    _ = W32 m ρ c (Proc.devRef .tc main_arg6) := W33_of_ne m ρ c main_arg6 (by decide)
    _ = W31 m ρ c (Proc.devRef .tc main_arg6) := keep_main_part15_ops0_arg6 _
    _ = W30 m ρ c (Proc.devRef .tc main_arg6) := keep_main_part14_ops0_arg6 _
    _ = W29 m ρ c (Proc.devRef .tc main_arg6) := keep_main_part13_ops0_arg6 _
    _ = W28 m ρ c (Proc.devRef .tc main_arg6) := keep_main_part12_ops0_arg6 _
    _ = W27 m ρ c (Proc.devRef .tc main_arg6) := keep_main_part11_ops0_arg6 _
    _ = W26 m ρ c (Proc.devRef .tc main_arg6) := keep_main_part10_ops4_arg6 _
    _ = W25 m ρ c (Proc.devRef .tc main_arg6) := W26_of_ne m ρ c main_arg6 (by decide)
    _ = W24 m ρ c (Proc.devRef .tc main_arg6) := keep_main_part10_ops3_arg6 _
    _ = W23 m ρ c (Proc.devRef .tc main_arg6) := W24_of_ne m ρ c main_arg6 (by decide)
    _ = W22 m ρ c (Proc.devRef .tc main_arg6) := keep_main_part10_ops2_arg6 _
    _ = W21 m ρ c (Proc.devRef .tc main_arg6) := W22_of_ne m ρ c main_arg6 (by decide)
    _ = W20 m ρ c (Proc.devRef .tc main_arg6) := keep_main_part10_ops1_arg6 _
    _ = W19 m ρ c (Proc.devRef .tc main_arg6) := W20_of_ne m ρ c main_arg6 (by decide)
    _ = W18 m ρ c (Proc.devRef .tc main_arg6) := keep_main_part10_ops0_arg6 _
    _ = W17 m ρ c (Proc.devRef .tc main_arg6) := keep_main_part9_ops0_arg6 _
    _ = W16 m ρ c (Proc.devRef .tc main_arg6) := keep_main_part8_ops0_arg6 _
    _ = W15 m ρ c (Proc.devRef .tc main_arg6) := keep_main_part7_ops0_arg6 _
    _ = W14 m ρ c (Proc.devRef .tc main_arg6) := keep_main_part6_ops0_arg6 _
    _ = W13 m ρ c (Proc.devRef .tc main_arg6) := keep_main_part5_ops3_arg6 _
    _ = W12 m ρ c (Proc.devRef .tc main_arg6) := W13_of_ne m ρ c main_arg6 (by decide)
    _ = W11 m ρ c (Proc.devRef .tc main_arg6) := keep_main_part5_ops2_arg6 _
    _ = W10 m ρ c (Proc.devRef .tc main_arg6) := W11_of_ne m ρ c main_arg6 (by decide)
    _ = W9 m ρ c (Proc.devRef .tc main_arg6) := keep_main_part5_ops1_arg6 _
    _ = W8 m ρ c (Proc.devRef .tc main_arg6) := W9_of_ne m ρ c main_arg6 (by decide)
    _ = W7 m ρ c (Proc.devRef .tc main_arg6) := keep_main_part5_ops0_arg6 _
    _ = W6 m ρ c (Proc.devRef .tc main_arg6) := keep_main_part4_ops1_arg6 _
    _ = W5 m ρ c (Proc.devRef .tc main_arg6) := W6_of_ne m ρ c main_arg6 (by decide)
    _ = W4 m ρ c (Proc.devRef .tc main_arg6) := keep_main_part4_ops0_arg6 _
    _ = W3 m ρ c (Proc.devRef .tc main_arg6) := keep_main_part3_ops0_arg6 _
    _ = W2 m ρ c (Proc.devRef .tc main_arg6) := keep_main_part2_ops0_arg6 _
    _ = W1 m ρ c (Proc.devRef .tc main_arg6) := keep_main_part1_ops0_arg6 _
    _ = W0 m ρ c (Proc.devRef .tc main_arg6) := keep_main_part0_ops0_arg6 _
    _ = m ((c : Thread nD τ).loc main_arg6) := rfl

theorem Wfin_arg7 (c : Dev nD) : Wfin m ρ c (Proc.devRef .tc main_arg7) = m ((c : Thread nD τ).loc main_arg7) :=
  calc Wfin m ρ c (Proc.devRef .tc main_arg7)
    _ = W43 m ρ c (Proc.devRef .tc main_arg7) := W44_of_ne m ρ c main_arg7 (by decide)
    _ = W42 m ρ c (Proc.devRef .tc main_arg7) := keep_main_part16_ops2_arg7 _
    _ = W41 m ρ c (Proc.devRef .tc main_arg7) := (W42_arr m ρ c 1).trans (((dat12 (V41 m ρ) c).arrAt_in 1 rfl _).trans (A_eq12 (V41 m ρ) c 1))
    _ = W40 m ρ c (Proc.devRef .tc main_arg7) := keep_main_part16_ops1_arg7 _
    _ = W39 m ρ c (Proc.devRef .tc main_arg7) := W40_of_ne m ρ c main_arg7 (by decide)
    _ = W38 m ρ c (Proc.devRef .tc main_arg7) := keep_main_part16_ops0_arg7 _
    _ = W37 m ρ c (Proc.devRef .tc main_arg7) := keep_main_part15_ops3_arg7 _
    _ = W36 m ρ c (Proc.devRef .tc main_arg7) := W37_of_ne m ρ c main_arg7 (by decide)
    _ = W35 m ρ c (Proc.devRef .tc main_arg7) := keep_main_part15_ops2_arg7 _
    _ = W34 m ρ c (Proc.devRef .tc main_arg7) := W35_of_ne m ρ c main_arg7 (by decide)
    _ = W33 m ρ c (Proc.devRef .tc main_arg7) := keep_main_part15_ops1_arg7 _
    _ = W32 m ρ c (Proc.devRef .tc main_arg7) := W33_of_ne m ρ c main_arg7 (by decide)
    _ = W31 m ρ c (Proc.devRef .tc main_arg7) := keep_main_part15_ops0_arg7 _
    _ = W30 m ρ c (Proc.devRef .tc main_arg7) := keep_main_part14_ops0_arg7 _
    _ = W29 m ρ c (Proc.devRef .tc main_arg7) := keep_main_part13_ops0_arg7 _
    _ = W28 m ρ c (Proc.devRef .tc main_arg7) := keep_main_part12_ops0_arg7 _
    _ = W27 m ρ c (Proc.devRef .tc main_arg7) := keep_main_part11_ops0_arg7 _
    _ = W26 m ρ c (Proc.devRef .tc main_arg7) := keep_main_part10_ops4_arg7 _
    _ = W25 m ρ c (Proc.devRef .tc main_arg7) := W26_of_ne m ρ c main_arg7 (by decide)
    _ = W24 m ρ c (Proc.devRef .tc main_arg7) := keep_main_part10_ops3_arg7 _
    _ = W23 m ρ c (Proc.devRef .tc main_arg7) := W24_of_ne m ρ c main_arg7 (by decide)
    _ = W22 m ρ c (Proc.devRef .tc main_arg7) := keep_main_part10_ops2_arg7 _
    _ = W21 m ρ c (Proc.devRef .tc main_arg7) := W22_of_ne m ρ c main_arg7 (by decide)
    _ = W20 m ρ c (Proc.devRef .tc main_arg7) := keep_main_part10_ops1_arg7 _
    _ = W19 m ρ c (Proc.devRef .tc main_arg7) := W20_of_ne m ρ c main_arg7 (by decide)
    _ = W18 m ρ c (Proc.devRef .tc main_arg7) := keep_main_part10_ops0_arg7 _
    _ = W17 m ρ c (Proc.devRef .tc main_arg7) := keep_main_part9_ops0_arg7 _
    _ = W16 m ρ c (Proc.devRef .tc main_arg7) := keep_main_part8_ops0_arg7 _
    _ = W15 m ρ c (Proc.devRef .tc main_arg7) := keep_main_part7_ops0_arg7 _
    _ = W14 m ρ c (Proc.devRef .tc main_arg7) := keep_main_part6_ops0_arg7 _
    _ = W13 m ρ c (Proc.devRef .tc main_arg7) := keep_main_part5_ops3_arg7 _
    _ = W12 m ρ c (Proc.devRef .tc main_arg7) := W13_of_ne m ρ c main_arg7 (by decide)
    _ = W11 m ρ c (Proc.devRef .tc main_arg7) := keep_main_part5_ops2_arg7 _
    _ = W10 m ρ c (Proc.devRef .tc main_arg7) := W11_of_ne m ρ c main_arg7 (by decide)
    _ = W9 m ρ c (Proc.devRef .tc main_arg7) := keep_main_part5_ops1_arg7 _
    _ = W8 m ρ c (Proc.devRef .tc main_arg7) := W9_of_ne m ρ c main_arg7 (by decide)
    _ = W7 m ρ c (Proc.devRef .tc main_arg7) := keep_main_part5_ops0_arg7 _
    _ = W6 m ρ c (Proc.devRef .tc main_arg7) := keep_main_part4_ops1_arg7 _
    _ = W5 m ρ c (Proc.devRef .tc main_arg7) := W6_of_ne m ρ c main_arg7 (by decide)
    _ = W4 m ρ c (Proc.devRef .tc main_arg7) := keep_main_part4_ops0_arg7 _
    _ = W3 m ρ c (Proc.devRef .tc main_arg7) := keep_main_part3_ops0_arg7 _
    _ = W2 m ρ c (Proc.devRef .tc main_arg7) := keep_main_part2_ops0_arg7 _
    _ = W1 m ρ c (Proc.devRef .tc main_arg7) := keep_main_part1_ops0_arg7 _
    _ = W0 m ρ c (Proc.devRef .tc main_arg7) := keep_main_part0_ops0_arg7 _
    _ = m ((c : Thread nD τ).loc main_arg7) := rfl

theorem Wfin_arg8 (c : Dev nD) : Wfin m ρ c (Proc.devRef .tc main_arg8) = m ((c : Thread nD τ).loc main_arg8) :=
  calc Wfin m ρ c (Proc.devRef .tc main_arg8)
    _ = W43 m ρ c (Proc.devRef .tc main_arg8) := W44_of_ne m ρ c main_arg8 (by decide)
    _ = W42 m ρ c (Proc.devRef .tc main_arg8) := keep_main_part16_ops2_arg8 _
    _ = W41 m ρ c (Proc.devRef .tc main_arg8) := W42_of_ne m ρ c main_arg8 (by decide)
    _ = W40 m ρ c (Proc.devRef .tc main_arg8) := keep_main_part16_ops1_arg8 _
    _ = W39 m ρ c (Proc.devRef .tc main_arg8) := W40_of_ne m ρ c main_arg8 (by decide)
    _ = W38 m ρ c (Proc.devRef .tc main_arg8) := keep_main_part16_ops0_arg8 _
    _ = W37 m ρ c (Proc.devRef .tc main_arg8) := keep_main_part15_ops3_arg8 _
    _ = W36 m ρ c (Proc.devRef .tc main_arg8) := W37_of_ne m ρ c main_arg8 (by decide)
    _ = W35 m ρ c (Proc.devRef .tc main_arg8) := keep_main_part15_ops2_arg8 _
    _ = W34 m ρ c (Proc.devRef .tc main_arg8) := W35_of_ne m ρ c main_arg8 (by decide)
    _ = W33 m ρ c (Proc.devRef .tc main_arg8) := keep_main_part15_ops1_arg8 _
    _ = W32 m ρ c (Proc.devRef .tc main_arg8) := W33_of_ne m ρ c main_arg8 (by decide)
    _ = W31 m ρ c (Proc.devRef .tc main_arg8) := keep_main_part15_ops0_arg8 _
    _ = W30 m ρ c (Proc.devRef .tc main_arg8) := keep_main_part14_ops0_arg8 _
    _ = W29 m ρ c (Proc.devRef .tc main_arg8) := keep_main_part13_ops0_arg8 _
    _ = W28 m ρ c (Proc.devRef .tc main_arg8) := keep_main_part12_ops0_arg8 _
    _ = W27 m ρ c (Proc.devRef .tc main_arg8) := keep_main_part11_ops0_arg8 _
    _ = W26 m ρ c (Proc.devRef .tc main_arg8) := keep_main_part10_ops4_arg8 _
    _ = W25 m ρ c (Proc.devRef .tc main_arg8) := W26_of_ne m ρ c main_arg8 (by decide)
    _ = W24 m ρ c (Proc.devRef .tc main_arg8) := keep_main_part10_ops3_arg8 _
    _ = W23 m ρ c (Proc.devRef .tc main_arg8) := W24_of_ne m ρ c main_arg8 (by decide)
    _ = W22 m ρ c (Proc.devRef .tc main_arg8) := keep_main_part10_ops2_arg8 _
    _ = W21 m ρ c (Proc.devRef .tc main_arg8) := W22_of_ne m ρ c main_arg8 (by decide)
    _ = W20 m ρ c (Proc.devRef .tc main_arg8) := keep_main_part10_ops1_arg8 _
    _ = W19 m ρ c (Proc.devRef .tc main_arg8) := W20_of_ne m ρ c main_arg8 (by decide)
    _ = W18 m ρ c (Proc.devRef .tc main_arg8) := keep_main_part10_ops0_arg8 _
    _ = W17 m ρ c (Proc.devRef .tc main_arg8) := keep_main_part9_ops0_arg8 _
    _ = W16 m ρ c (Proc.devRef .tc main_arg8) := keep_main_part8_ops0_arg8 _
    _ = W15 m ρ c (Proc.devRef .tc main_arg8) := keep_main_part7_ops0_arg8 _
    _ = W14 m ρ c (Proc.devRef .tc main_arg8) := keep_main_part6_ops0_arg8 _
    _ = W13 m ρ c (Proc.devRef .tc main_arg8) := keep_main_part5_ops3_arg8 _
    _ = W12 m ρ c (Proc.devRef .tc main_arg8) := W13_of_ne m ρ c main_arg8 (by decide)
    _ = W11 m ρ c (Proc.devRef .tc main_arg8) := keep_main_part5_ops2_arg8 _
    _ = W10 m ρ c (Proc.devRef .tc main_arg8) := W11_of_ne m ρ c main_arg8 (by decide)
    _ = W9 m ρ c (Proc.devRef .tc main_arg8) := keep_main_part5_ops1_arg8 _
    _ = W8 m ρ c (Proc.devRef .tc main_arg8) := W9_of_ne m ρ c main_arg8 (by decide)
    _ = W7 m ρ c (Proc.devRef .tc main_arg8) := keep_main_part5_ops0_arg8 _
    _ = W6 m ρ c (Proc.devRef .tc main_arg8) := keep_main_part4_ops1_arg8 _
    _ = W5 m ρ c (Proc.devRef .tc main_arg8) := W6_of_ne m ρ c main_arg8 (by decide)
    _ = W4 m ρ c (Proc.devRef .tc main_arg8) := keep_main_part4_ops0_arg8 _
    _ = W3 m ρ c (Proc.devRef .tc main_arg8) := keep_main_part3_ops0_arg8 _
    _ = W2 m ρ c (Proc.devRef .tc main_arg8) := keep_main_part2_ops0_arg8 _
    _ = W1 m ρ c (Proc.devRef .tc main_arg8) := keep_main_part1_ops0_arg8 _
    _ = W0 m ρ c (Proc.devRef .tc main_arg8) := keep_main_part0_ops0_arg8 _
    _ = m ((c : Thread nD τ).loc main_arg8) := rfl

theorem Wfin_arg9 (c : Dev nD) : Wfin m ρ c (Proc.devRef .tc main_arg9) = m ((c : Thread nD τ).loc main_arg9) :=
  calc Wfin m ρ c (Proc.devRef .tc main_arg9)
    _ = W43 m ρ c (Proc.devRef .tc main_arg9) := W44_of_ne m ρ c main_arg9 (by decide)
    _ = W42 m ρ c (Proc.devRef .tc main_arg9) := keep_main_part16_ops2_arg9 _
    _ = W41 m ρ c (Proc.devRef .tc main_arg9) := (W42_arr m ρ c 3).trans (((dat12 (V41 m ρ) c).arrAt_in 3 rfl _).trans (A_eq12 (V41 m ρ) c 3))
    _ = W40 m ρ c (Proc.devRef .tc main_arg9) := keep_main_part16_ops1_arg9 _
    _ = W39 m ρ c (Proc.devRef .tc main_arg9) := W40_of_ne m ρ c main_arg9 (by decide)
    _ = W38 m ρ c (Proc.devRef .tc main_arg9) := keep_main_part16_ops0_arg9 _
    _ = W37 m ρ c (Proc.devRef .tc main_arg9) := keep_main_part15_ops3_arg9 _
    _ = W36 m ρ c (Proc.devRef .tc main_arg9) := W37_of_ne m ρ c main_arg9 (by decide)
    _ = W35 m ρ c (Proc.devRef .tc main_arg9) := keep_main_part15_ops2_arg9 _
    _ = W34 m ρ c (Proc.devRef .tc main_arg9) := W35_of_ne m ρ c main_arg9 (by decide)
    _ = W33 m ρ c (Proc.devRef .tc main_arg9) := keep_main_part15_ops1_arg9 _
    _ = W32 m ρ c (Proc.devRef .tc main_arg9) := W33_of_ne m ρ c main_arg9 (by decide)
    _ = W31 m ρ c (Proc.devRef .tc main_arg9) := keep_main_part15_ops0_arg9 _
    _ = W30 m ρ c (Proc.devRef .tc main_arg9) := keep_main_part14_ops0_arg9 _
    _ = W29 m ρ c (Proc.devRef .tc main_arg9) := keep_main_part13_ops0_arg9 _
    _ = W28 m ρ c (Proc.devRef .tc main_arg9) := keep_main_part12_ops0_arg9 _
    _ = W27 m ρ c (Proc.devRef .tc main_arg9) := keep_main_part11_ops0_arg9 _
    _ = W26 m ρ c (Proc.devRef .tc main_arg9) := keep_main_part10_ops4_arg9 _
    _ = W25 m ρ c (Proc.devRef .tc main_arg9) := W26_of_ne m ρ c main_arg9 (by decide)
    _ = W24 m ρ c (Proc.devRef .tc main_arg9) := keep_main_part10_ops3_arg9 _
    _ = W23 m ρ c (Proc.devRef .tc main_arg9) := W24_of_ne m ρ c main_arg9 (by decide)
    _ = W22 m ρ c (Proc.devRef .tc main_arg9) := keep_main_part10_ops2_arg9 _
    _ = W21 m ρ c (Proc.devRef .tc main_arg9) := W22_of_ne m ρ c main_arg9 (by decide)
    _ = W20 m ρ c (Proc.devRef .tc main_arg9) := keep_main_part10_ops1_arg9 _
    _ = W19 m ρ c (Proc.devRef .tc main_arg9) := W20_of_ne m ρ c main_arg9 (by decide)
    _ = W18 m ρ c (Proc.devRef .tc main_arg9) := keep_main_part10_ops0_arg9 _
    _ = W17 m ρ c (Proc.devRef .tc main_arg9) := keep_main_part9_ops0_arg9 _
    _ = W16 m ρ c (Proc.devRef .tc main_arg9) := keep_main_part8_ops0_arg9 _
    _ = W15 m ρ c (Proc.devRef .tc main_arg9) := keep_main_part7_ops0_arg9 _
    _ = W14 m ρ c (Proc.devRef .tc main_arg9) := keep_main_part6_ops0_arg9 _
    _ = W13 m ρ c (Proc.devRef .tc main_arg9) := keep_main_part5_ops3_arg9 _
    _ = W12 m ρ c (Proc.devRef .tc main_arg9) := W13_of_ne m ρ c main_arg9 (by decide)
    _ = W11 m ρ c (Proc.devRef .tc main_arg9) := keep_main_part5_ops2_arg9 _
    _ = W10 m ρ c (Proc.devRef .tc main_arg9) := W11_of_ne m ρ c main_arg9 (by decide)
    _ = W9 m ρ c (Proc.devRef .tc main_arg9) := keep_main_part5_ops1_arg9 _
    _ = W8 m ρ c (Proc.devRef .tc main_arg9) := W9_of_ne m ρ c main_arg9 (by decide)
    _ = W7 m ρ c (Proc.devRef .tc main_arg9) := keep_main_part5_ops0_arg9 _
    _ = W6 m ρ c (Proc.devRef .tc main_arg9) := keep_main_part4_ops1_arg9 _
    _ = W5 m ρ c (Proc.devRef .tc main_arg9) := W6_of_ne m ρ c main_arg9 (by decide)
    _ = W4 m ρ c (Proc.devRef .tc main_arg9) := keep_main_part4_ops0_arg9 _
    _ = W3 m ρ c (Proc.devRef .tc main_arg9) := keep_main_part3_ops0_arg9 _
    _ = W2 m ρ c (Proc.devRef .tc main_arg9) := keep_main_part2_ops0_arg9 _
    _ = W1 m ρ c (Proc.devRef .tc main_arg9) := keep_main_part1_ops0_arg9 _
    _ = W0 m ρ c (Proc.devRef .tc main_arg9) := keep_main_part0_ops0_arg9 _
    _ = m ((c : Thread nD τ).loc main_arg9) := rfl

theorem Wfin_arg10 (c : Dev nD) : Wfin m ρ c (Proc.devRef .tc main_arg10) = m ((c : Thread nD τ).loc main_arg10) :=
  calc Wfin m ρ c (Proc.devRef .tc main_arg10)
    _ = W43 m ρ c (Proc.devRef .tc main_arg10) := W44_of_ne m ρ c main_arg10 (by decide)
    _ = W42 m ρ c (Proc.devRef .tc main_arg10) := keep_main_part16_ops2_arg10 _
    _ = W41 m ρ c (Proc.devRef .tc main_arg10) := W42_of_ne m ρ c main_arg10 (by decide)
    _ = W40 m ρ c (Proc.devRef .tc main_arg10) := keep_main_part16_ops1_arg10 _
    _ = W39 m ρ c (Proc.devRef .tc main_arg10) := W40_of_ne m ρ c main_arg10 (by decide)
    _ = W38 m ρ c (Proc.devRef .tc main_arg10) := keep_main_part16_ops0_arg10 _
    _ = W37 m ρ c (Proc.devRef .tc main_arg10) := keep_main_part15_ops3_arg10 _
    _ = W36 m ρ c (Proc.devRef .tc main_arg10) := W37_of_ne m ρ c main_arg10 (by decide)
    _ = W35 m ρ c (Proc.devRef .tc main_arg10) := keep_main_part15_ops2_arg10 _
    _ = W34 m ρ c (Proc.devRef .tc main_arg10) := W35_of_ne m ρ c main_arg10 (by decide)
    _ = W33 m ρ c (Proc.devRef .tc main_arg10) := keep_main_part15_ops1_arg10 _
    _ = W32 m ρ c (Proc.devRef .tc main_arg10) := W33_of_ne m ρ c main_arg10 (by decide)
    _ = W31 m ρ c (Proc.devRef .tc main_arg10) := keep_main_part15_ops0_arg10 _
    _ = W30 m ρ c (Proc.devRef .tc main_arg10) := keep_main_part14_ops0_arg10 _
    _ = W29 m ρ c (Proc.devRef .tc main_arg10) := keep_main_part13_ops0_arg10 _
    _ = W28 m ρ c (Proc.devRef .tc main_arg10) := keep_main_part12_ops0_arg10 _
    _ = W27 m ρ c (Proc.devRef .tc main_arg10) := keep_main_part11_ops0_arg10 _
    _ = W26 m ρ c (Proc.devRef .tc main_arg10) := keep_main_part10_ops4_arg10 _
    _ = W25 m ρ c (Proc.devRef .tc main_arg10) := W26_of_ne m ρ c main_arg10 (by decide)
    _ = W24 m ρ c (Proc.devRef .tc main_arg10) := keep_main_part10_ops3_arg10 _
    _ = W23 m ρ c (Proc.devRef .tc main_arg10) := W24_of_ne m ρ c main_arg10 (by decide)
    _ = W22 m ρ c (Proc.devRef .tc main_arg10) := keep_main_part10_ops2_arg10 _
    _ = W21 m ρ c (Proc.devRef .tc main_arg10) := W22_of_ne m ρ c main_arg10 (by decide)
    _ = W20 m ρ c (Proc.devRef .tc main_arg10) := keep_main_part10_ops1_arg10 _
    _ = W19 m ρ c (Proc.devRef .tc main_arg10) := W20_of_ne m ρ c main_arg10 (by decide)
    _ = W18 m ρ c (Proc.devRef .tc main_arg10) := keep_main_part10_ops0_arg10 _
    _ = W17 m ρ c (Proc.devRef .tc main_arg10) := keep_main_part9_ops0_arg10 _
    _ = W16 m ρ c (Proc.devRef .tc main_arg10) := keep_main_part8_ops0_arg10 _
    _ = W15 m ρ c (Proc.devRef .tc main_arg10) := keep_main_part7_ops0_arg10 _
    _ = W14 m ρ c (Proc.devRef .tc main_arg10) := keep_main_part6_ops0_arg10 _
    _ = W13 m ρ c (Proc.devRef .tc main_arg10) := keep_main_part5_ops3_arg10 _
    _ = W12 m ρ c (Proc.devRef .tc main_arg10) := W13_of_ne m ρ c main_arg10 (by decide)
    _ = W11 m ρ c (Proc.devRef .tc main_arg10) := keep_main_part5_ops2_arg10 _
    _ = W10 m ρ c (Proc.devRef .tc main_arg10) := W11_of_ne m ρ c main_arg10 (by decide)
    _ = W9 m ρ c (Proc.devRef .tc main_arg10) := keep_main_part5_ops1_arg10 _
    _ = W8 m ρ c (Proc.devRef .tc main_arg10) := W9_of_ne m ρ c main_arg10 (by decide)
    _ = W7 m ρ c (Proc.devRef .tc main_arg10) := keep_main_part5_ops0_arg10 _
    _ = W6 m ρ c (Proc.devRef .tc main_arg10) := keep_main_part4_ops1_arg10 _
    _ = W5 m ρ c (Proc.devRef .tc main_arg10) := W6_of_ne m ρ c main_arg10 (by decide)
    _ = W4 m ρ c (Proc.devRef .tc main_arg10) := keep_main_part4_ops0_arg10 _
    _ = W3 m ρ c (Proc.devRef .tc main_arg10) := keep_main_part3_ops0_arg10 _
    _ = W2 m ρ c (Proc.devRef .tc main_arg10) := keep_main_part2_ops0_arg10 _
    _ = W1 m ρ c (Proc.devRef .tc main_arg10) := keep_main_part1_ops0_arg10 _
    _ = W0 m ρ c (Proc.devRef .tc main_arg10) := keep_main_part0_ops0_arg10 _
    _ = m ((c : Thread nD τ).loc main_arg10) := rfl

theorem Wfin_arg11 (c : Dev nD) : Wfin m ρ c (Proc.devRef .tc main_arg11) = m ((c : Thread nD τ).loc main_arg11) :=
  calc Wfin m ρ c (Proc.devRef .tc main_arg11)
    _ = W43 m ρ c (Proc.devRef .tc main_arg11) := (W44_arr m ρ c 1).trans (((dat13 (V43 m ρ) c).arrAt_in 1 rfl _).trans (A_eq13 (V43 m ρ) c 1))
    _ = W42 m ρ c (Proc.devRef .tc main_arg11) := keep_main_part16_ops2_arg11 _
    _ = W41 m ρ c (Proc.devRef .tc main_arg11) := W42_of_ne m ρ c main_arg11 (by decide)
    _ = W40 m ρ c (Proc.devRef .tc main_arg11) := keep_main_part16_ops1_arg11 _
    _ = W39 m ρ c (Proc.devRef .tc main_arg11) := W40_of_ne m ρ c main_arg11 (by decide)
    _ = W38 m ρ c (Proc.devRef .tc main_arg11) := keep_main_part16_ops0_arg11 _
    _ = W37 m ρ c (Proc.devRef .tc main_arg11) := keep_main_part15_ops3_arg11 _
    _ = W36 m ρ c (Proc.devRef .tc main_arg11) := W37_of_ne m ρ c main_arg11 (by decide)
    _ = W35 m ρ c (Proc.devRef .tc main_arg11) := keep_main_part15_ops2_arg11 _
    _ = W34 m ρ c (Proc.devRef .tc main_arg11) := W35_of_ne m ρ c main_arg11 (by decide)
    _ = W33 m ρ c (Proc.devRef .tc main_arg11) := keep_main_part15_ops1_arg11 _
    _ = W32 m ρ c (Proc.devRef .tc main_arg11) := W33_of_ne m ρ c main_arg11 (by decide)
    _ = W31 m ρ c (Proc.devRef .tc main_arg11) := keep_main_part15_ops0_arg11 _
    _ = W30 m ρ c (Proc.devRef .tc main_arg11) := keep_main_part14_ops0_arg11 _
    _ = W29 m ρ c (Proc.devRef .tc main_arg11) := keep_main_part13_ops0_arg11 _
    _ = W28 m ρ c (Proc.devRef .tc main_arg11) := keep_main_part12_ops0_arg11 _
    _ = W27 m ρ c (Proc.devRef .tc main_arg11) := keep_main_part11_ops0_arg11 _
    _ = W26 m ρ c (Proc.devRef .tc main_arg11) := keep_main_part10_ops4_arg11 _
    _ = W25 m ρ c (Proc.devRef .tc main_arg11) := W26_of_ne m ρ c main_arg11 (by decide)
    _ = W24 m ρ c (Proc.devRef .tc main_arg11) := keep_main_part10_ops3_arg11 _
    _ = W23 m ρ c (Proc.devRef .tc main_arg11) := W24_of_ne m ρ c main_arg11 (by decide)
    _ = W22 m ρ c (Proc.devRef .tc main_arg11) := keep_main_part10_ops2_arg11 _
    _ = W21 m ρ c (Proc.devRef .tc main_arg11) := W22_of_ne m ρ c main_arg11 (by decide)
    _ = W20 m ρ c (Proc.devRef .tc main_arg11) := keep_main_part10_ops1_arg11 _
    _ = W19 m ρ c (Proc.devRef .tc main_arg11) := W20_of_ne m ρ c main_arg11 (by decide)
    _ = W18 m ρ c (Proc.devRef .tc main_arg11) := keep_main_part10_ops0_arg11 _
    _ = W17 m ρ c (Proc.devRef .tc main_arg11) := keep_main_part9_ops0_arg11 _
    _ = W16 m ρ c (Proc.devRef .tc main_arg11) := keep_main_part8_ops0_arg11 _
    _ = W15 m ρ c (Proc.devRef .tc main_arg11) := keep_main_part7_ops0_arg11 _
    _ = W14 m ρ c (Proc.devRef .tc main_arg11) := keep_main_part6_ops0_arg11 _
    _ = W13 m ρ c (Proc.devRef .tc main_arg11) := keep_main_part5_ops3_arg11 _
    _ = W12 m ρ c (Proc.devRef .tc main_arg11) := W13_of_ne m ρ c main_arg11 (by decide)
    _ = W11 m ρ c (Proc.devRef .tc main_arg11) := keep_main_part5_ops2_arg11 _
    _ = W10 m ρ c (Proc.devRef .tc main_arg11) := W11_of_ne m ρ c main_arg11 (by decide)
    _ = W9 m ρ c (Proc.devRef .tc main_arg11) := keep_main_part5_ops1_arg11 _
    _ = W8 m ρ c (Proc.devRef .tc main_arg11) := W9_of_ne m ρ c main_arg11 (by decide)
    _ = W7 m ρ c (Proc.devRef .tc main_arg11) := keep_main_part5_ops0_arg11 _
    _ = W6 m ρ c (Proc.devRef .tc main_arg11) := keep_main_part4_ops1_arg11 _
    _ = W5 m ρ c (Proc.devRef .tc main_arg11) := W6_of_ne m ρ c main_arg11 (by decide)
    _ = W4 m ρ c (Proc.devRef .tc main_arg11) := keep_main_part4_ops0_arg11 _
    _ = W3 m ρ c (Proc.devRef .tc main_arg11) := keep_main_part3_ops0_arg11 _
    _ = W2 m ρ c (Proc.devRef .tc main_arg11) := keep_main_part2_ops0_arg11 _
    _ = W1 m ρ c (Proc.devRef .tc main_arg11) := keep_main_part1_ops0_arg11 _
    _ = W0 m ρ c (Proc.devRef .tc main_arg11) := keep_main_part0_ops0_arg11 _
    _ = m ((c : Thread nD τ).loc main_arg11) := rfl

end Cert.Kernel.Hand

end
-- ==== Proof.KB.Args2.lean ====
import proofs.«125545_j64845416235624_1_alg».proof.Proof.KB.Fold
import proofs.«125545_j64845416235624_1_alg».proof.Proof.KB.Keep
import proofs.«125545_j64845416235624_1_alg».proof.Proof.KB.KeepArgs0
import proofs.«125545_j64845416235624_1_alg».proof.Proof.KB.KeepArgs1

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-! # The argument arrays end as launched (arguments 12 to 17)

No host operation writes an argument array, and no region does: a region either does not touch it, or reads it through
an input window, whose array the pipeline leaves as entered. So the fold of the buffer contents through @main's 44
items, read at an argument's buffer, walks back item by item to the launch memory. -/

theorem Wfin_arg12 (c : Dev nD) : Wfin m ρ c (Proc.devRef .tc main_arg12) = m ((c : Thread nD τ).loc main_arg12) :=
  calc Wfin m ρ c (Proc.devRef .tc main_arg12)
    _ = W43 m ρ c (Proc.devRef .tc main_arg12) := W44_of_ne m ρ c main_arg12 (by decide)
    _ = W42 m ρ c (Proc.devRef .tc main_arg12) := keep_main_part16_ops2_arg12 _
    _ = W41 m ρ c (Proc.devRef .tc main_arg12) := W42_of_ne m ρ c main_arg12 (by decide)
    _ = W40 m ρ c (Proc.devRef .tc main_arg12) := keep_main_part16_ops1_arg12 _
    _ = W39 m ρ c (Proc.devRef .tc main_arg12) := W40_of_ne m ρ c main_arg12 (by decide)
    _ = W38 m ρ c (Proc.devRef .tc main_arg12) := keep_main_part16_ops0_arg12 _
    _ = W37 m ρ c (Proc.devRef .tc main_arg12) := keep_main_part15_ops3_arg12 _
    _ = W36 m ρ c (Proc.devRef .tc main_arg12) := W37_of_ne m ρ c main_arg12 (by decide)
    _ = W35 m ρ c (Proc.devRef .tc main_arg12) := keep_main_part15_ops2_arg12 _
    _ = W34 m ρ c (Proc.devRef .tc main_arg12) := W35_of_ne m ρ c main_arg12 (by decide)
    _ = W33 m ρ c (Proc.devRef .tc main_arg12) := keep_main_part15_ops1_arg12 _
    _ = W32 m ρ c (Proc.devRef .tc main_arg12) := W33_of_ne m ρ c main_arg12 (by decide)
    _ = W31 m ρ c (Proc.devRef .tc main_arg12) := keep_main_part15_ops0_arg12 _
    _ = W30 m ρ c (Proc.devRef .tc main_arg12) := keep_main_part14_ops0_arg12 _
    _ = W29 m ρ c (Proc.devRef .tc main_arg12) := keep_main_part13_ops0_arg12 _
    _ = W28 m ρ c (Proc.devRef .tc main_arg12) := keep_main_part12_ops0_arg12 _
    _ = W27 m ρ c (Proc.devRef .tc main_arg12) := keep_main_part11_ops0_arg12 _
    _ = W26 m ρ c (Proc.devRef .tc main_arg12) := keep_main_part10_ops4_arg12 _
    _ = W25 m ρ c (Proc.devRef .tc main_arg12) := W26_of_ne m ρ c main_arg12 (by decide)
    _ = W24 m ρ c (Proc.devRef .tc main_arg12) := keep_main_part10_ops3_arg12 _
    _ = W23 m ρ c (Proc.devRef .tc main_arg12) := W24_of_ne m ρ c main_arg12 (by decide)
    _ = W22 m ρ c (Proc.devRef .tc main_arg12) := keep_main_part10_ops2_arg12 _
    _ = W21 m ρ c (Proc.devRef .tc main_arg12) := W22_of_ne m ρ c main_arg12 (by decide)
    _ = W20 m ρ c (Proc.devRef .tc main_arg12) := keep_main_part10_ops1_arg12 _
    _ = W19 m ρ c (Proc.devRef .tc main_arg12) := W20_of_ne m ρ c main_arg12 (by decide)
    _ = W18 m ρ c (Proc.devRef .tc main_arg12) := keep_main_part10_ops0_arg12 _
    _ = W17 m ρ c (Proc.devRef .tc main_arg12) := keep_main_part9_ops0_arg12 _
    _ = W16 m ρ c (Proc.devRef .tc main_arg12) := keep_main_part8_ops0_arg12 _
    _ = W15 m ρ c (Proc.devRef .tc main_arg12) := keep_main_part7_ops0_arg12 _
    _ = W14 m ρ c (Proc.devRef .tc main_arg12) := keep_main_part6_ops0_arg12 _
    _ = W13 m ρ c (Proc.devRef .tc main_arg12) := keep_main_part5_ops3_arg12 _
    _ = W12 m ρ c (Proc.devRef .tc main_arg12) := W13_of_ne m ρ c main_arg12 (by decide)
    _ = W11 m ρ c (Proc.devRef .tc main_arg12) := keep_main_part5_ops2_arg12 _
    _ = W10 m ρ c (Proc.devRef .tc main_arg12) := W11_of_ne m ρ c main_arg12 (by decide)
    _ = W9 m ρ c (Proc.devRef .tc main_arg12) := keep_main_part5_ops1_arg12 _
    _ = W8 m ρ c (Proc.devRef .tc main_arg12) := W9_of_ne m ρ c main_arg12 (by decide)
    _ = W7 m ρ c (Proc.devRef .tc main_arg12) := keep_main_part5_ops0_arg12 _
    _ = W6 m ρ c (Proc.devRef .tc main_arg12) := keep_main_part4_ops1_arg12 _
    _ = W5 m ρ c (Proc.devRef .tc main_arg12) := W6_of_ne m ρ c main_arg12 (by decide)
    _ = W4 m ρ c (Proc.devRef .tc main_arg12) := keep_main_part4_ops0_arg12 _
    _ = W3 m ρ c (Proc.devRef .tc main_arg12) := keep_main_part3_ops0_arg12 _
    _ = W2 m ρ c (Proc.devRef .tc main_arg12) := keep_main_part2_ops0_arg12 _
    _ = W1 m ρ c (Proc.devRef .tc main_arg12) := keep_main_part1_ops0_arg12 _
    _ = W0 m ρ c (Proc.devRef .tc main_arg12) := keep_main_part0_ops0_arg12 _
    _ = m ((c : Thread nD τ).loc main_arg12) := rfl

theorem Wfin_arg13 (c : Dev nD) : Wfin m ρ c (Proc.devRef .tc main_arg13) = m ((c : Thread nD τ).loc main_arg13) :=
  calc Wfin m ρ c (Proc.devRef .tc main_arg13)
    _ = W43 m ρ c (Proc.devRef .tc main_arg13) := (W44_arr m ρ c 3).trans (((dat13 (V43 m ρ) c).arrAt_in 3 rfl _).trans (A_eq13 (V43 m ρ) c 3))
    _ = W42 m ρ c (Proc.devRef .tc main_arg13) := keep_main_part16_ops2_arg13 _
    _ = W41 m ρ c (Proc.devRef .tc main_arg13) := W42_of_ne m ρ c main_arg13 (by decide)
    _ = W40 m ρ c (Proc.devRef .tc main_arg13) := keep_main_part16_ops1_arg13 _
    _ = W39 m ρ c (Proc.devRef .tc main_arg13) := W40_of_ne m ρ c main_arg13 (by decide)
    _ = W38 m ρ c (Proc.devRef .tc main_arg13) := keep_main_part16_ops0_arg13 _
    _ = W37 m ρ c (Proc.devRef .tc main_arg13) := keep_main_part15_ops3_arg13 _
    _ = W36 m ρ c (Proc.devRef .tc main_arg13) := W37_of_ne m ρ c main_arg13 (by decide)
    _ = W35 m ρ c (Proc.devRef .tc main_arg13) := keep_main_part15_ops2_arg13 _
    _ = W34 m ρ c (Proc.devRef .tc main_arg13) := W35_of_ne m ρ c main_arg13 (by decide)
    _ = W33 m ρ c (Proc.devRef .tc main_arg13) := keep_main_part15_ops1_arg13 _
    _ = W32 m ρ c (Proc.devRef .tc main_arg13) := W33_of_ne m ρ c main_arg13 (by decide)
    _ = W31 m ρ c (Proc.devRef .tc main_arg13) := keep_main_part15_ops0_arg13 _
    _ = W30 m ρ c (Proc.devRef .tc main_arg13) := keep_main_part14_ops0_arg13 _
    _ = W29 m ρ c (Proc.devRef .tc main_arg13) := keep_main_part13_ops0_arg13 _
    _ = W28 m ρ c (Proc.devRef .tc main_arg13) := keep_main_part12_ops0_arg13 _
    _ = W27 m ρ c (Proc.devRef .tc main_arg13) := keep_main_part11_ops0_arg13 _
    _ = W26 m ρ c (Proc.devRef .tc main_arg13) := keep_main_part10_ops4_arg13 _
    _ = W25 m ρ c (Proc.devRef .tc main_arg13) := W26_of_ne m ρ c main_arg13 (by decide)
    _ = W24 m ρ c (Proc.devRef .tc main_arg13) := keep_main_part10_ops3_arg13 _
    _ = W23 m ρ c (Proc.devRef .tc main_arg13) := W24_of_ne m ρ c main_arg13 (by decide)
    _ = W22 m ρ c (Proc.devRef .tc main_arg13) := keep_main_part10_ops2_arg13 _
    _ = W21 m ρ c (Proc.devRef .tc main_arg13) := W22_of_ne m ρ c main_arg13 (by decide)
    _ = W20 m ρ c (Proc.devRef .tc main_arg13) := keep_main_part10_ops1_arg13 _
    _ = W19 m ρ c (Proc.devRef .tc main_arg13) := W20_of_ne m ρ c main_arg13 (by decide)
    _ = W18 m ρ c (Proc.devRef .tc main_arg13) := keep_main_part10_ops0_arg13 _
    _ = W17 m ρ c (Proc.devRef .tc main_arg13) := keep_main_part9_ops0_arg13 _
    _ = W16 m ρ c (Proc.devRef .tc main_arg13) := keep_main_part8_ops0_arg13 _
    _ = W15 m ρ c (Proc.devRef .tc main_arg13) := keep_main_part7_ops0_arg13 _
    _ = W14 m ρ c (Proc.devRef .tc main_arg13) := keep_main_part6_ops0_arg13 _
    _ = W13 m ρ c (Proc.devRef .tc main_arg13) := keep_main_part5_ops3_arg13 _
    _ = W12 m ρ c (Proc.devRef .tc main_arg13) := W13_of_ne m ρ c main_arg13 (by decide)
    _ = W11 m ρ c (Proc.devRef .tc main_arg13) := keep_main_part5_ops2_arg13 _
    _ = W10 m ρ c (Proc.devRef .tc main_arg13) := W11_of_ne m ρ c main_arg13 (by decide)
    _ = W9 m ρ c (Proc.devRef .tc main_arg13) := keep_main_part5_ops1_arg13 _
    _ = W8 m ρ c (Proc.devRef .tc main_arg13) := W9_of_ne m ρ c main_arg13 (by decide)
    _ = W7 m ρ c (Proc.devRef .tc main_arg13) := keep_main_part5_ops0_arg13 _
    _ = W6 m ρ c (Proc.devRef .tc main_arg13) := keep_main_part4_ops1_arg13 _
    _ = W5 m ρ c (Proc.devRef .tc main_arg13) := W6_of_ne m ρ c main_arg13 (by decide)
    _ = W4 m ρ c (Proc.devRef .tc main_arg13) := keep_main_part4_ops0_arg13 _
    _ = W3 m ρ c (Proc.devRef .tc main_arg13) := keep_main_part3_ops0_arg13 _
    _ = W2 m ρ c (Proc.devRef .tc main_arg13) := keep_main_part2_ops0_arg13 _
    _ = W1 m ρ c (Proc.devRef .tc main_arg13) := keep_main_part1_ops0_arg13 _
    _ = W0 m ρ c (Proc.devRef .tc main_arg13) := keep_main_part0_ops0_arg13 _
    _ = m ((c : Thread nD τ).loc main_arg13) := rfl

theorem Wfin_arg14 (c : Dev nD) : Wfin m ρ c (Proc.devRef .tc main_arg14) = m ((c : Thread nD τ).loc main_arg14) :=
  calc Wfin m ρ c (Proc.devRef .tc main_arg14)
    _ = W43 m ρ c (Proc.devRef .tc main_arg14) := W44_of_ne m ρ c main_arg14 (by decide)
    _ = W42 m ρ c (Proc.devRef .tc main_arg14) := keep_main_part16_ops2_arg14 _
    _ = W41 m ρ c (Proc.devRef .tc main_arg14) := W42_of_ne m ρ c main_arg14 (by decide)
    _ = W40 m ρ c (Proc.devRef .tc main_arg14) := keep_main_part16_ops1_arg14 _
    _ = W39 m ρ c (Proc.devRef .tc main_arg14) := W40_of_ne m ρ c main_arg14 (by decide)
    _ = W38 m ρ c (Proc.devRef .tc main_arg14) := keep_main_part16_ops0_arg14 _
    _ = W37 m ρ c (Proc.devRef .tc main_arg14) := keep_main_part15_ops3_arg14 _
    _ = W36 m ρ c (Proc.devRef .tc main_arg14) := W37_of_ne m ρ c main_arg14 (by decide)
    _ = W35 m ρ c (Proc.devRef .tc main_arg14) := keep_main_part15_ops2_arg14 _
    _ = W34 m ρ c (Proc.devRef .tc main_arg14) := W35_of_ne m ρ c main_arg14 (by decide)
    _ = W33 m ρ c (Proc.devRef .tc main_arg14) := keep_main_part15_ops1_arg14 _
    _ = W32 m ρ c (Proc.devRef .tc main_arg14) := W33_of_ne m ρ c main_arg14 (by decide)
    _ = W31 m ρ c (Proc.devRef .tc main_arg14) := keep_main_part15_ops0_arg14 _
    _ = W30 m ρ c (Proc.devRef .tc main_arg14) := keep_main_part14_ops0_arg14 _
    _ = W29 m ρ c (Proc.devRef .tc main_arg14) := keep_main_part13_ops0_arg14 _
    _ = W28 m ρ c (Proc.devRef .tc main_arg14) := keep_main_part12_ops0_arg14 _
    _ = W27 m ρ c (Proc.devRef .tc main_arg14) := keep_main_part11_ops0_arg14 _
    _ = W26 m ρ c (Proc.devRef .tc main_arg14) := keep_main_part10_ops4_arg14 _
    _ = W25 m ρ c (Proc.devRef .tc main_arg14) := W26_of_ne m ρ c main_arg14 (by decide)
    _ = W24 m ρ c (Proc.devRef .tc main_arg14) := keep_main_part10_ops3_arg14 _
    _ = W23 m ρ c (Proc.devRef .tc main_arg14) := W24_of_ne m ρ c main_arg14 (by decide)
    _ = W22 m ρ c (Proc.devRef .tc main_arg14) := keep_main_part10_ops2_arg14 _
    _ = W21 m ρ c (Proc.devRef .tc main_arg14) := W22_of_ne m ρ c main_arg14 (by decide)
    _ = W20 m ρ c (Proc.devRef .tc main_arg14) := keep_main_part10_ops1_arg14 _
    _ = W19 m ρ c (Proc.devRef .tc main_arg14) := W20_of_ne m ρ c main_arg14 (by decide)
    _ = W18 m ρ c (Proc.devRef .tc main_arg14) := keep_main_part10_ops0_arg14 _
    _ = W17 m ρ c (Proc.devRef .tc main_arg14) := keep_main_part9_ops0_arg14 _
    _ = W16 m ρ c (Proc.devRef .tc main_arg14) := keep_main_part8_ops0_arg14 _
    _ = W15 m ρ c (Proc.devRef .tc main_arg14) := keep_main_part7_ops0_arg14 _
    _ = W14 m ρ c (Proc.devRef .tc main_arg14) := keep_main_part6_ops0_arg14 _
    _ = W13 m ρ c (Proc.devRef .tc main_arg14) := keep_main_part5_ops3_arg14 _
    _ = W12 m ρ c (Proc.devRef .tc main_arg14) := W13_of_ne m ρ c main_arg14 (by decide)
    _ = W11 m ρ c (Proc.devRef .tc main_arg14) := keep_main_part5_ops2_arg14 _
    _ = W10 m ρ c (Proc.devRef .tc main_arg14) := W11_of_ne m ρ c main_arg14 (by decide)
    _ = W9 m ρ c (Proc.devRef .tc main_arg14) := keep_main_part5_ops1_arg14 _
    _ = W8 m ρ c (Proc.devRef .tc main_arg14) := W9_of_ne m ρ c main_arg14 (by decide)
    _ = W7 m ρ c (Proc.devRef .tc main_arg14) := keep_main_part5_ops0_arg14 _
    _ = W6 m ρ c (Proc.devRef .tc main_arg14) := keep_main_part4_ops1_arg14 _
    _ = W5 m ρ c (Proc.devRef .tc main_arg14) := W6_of_ne m ρ c main_arg14 (by decide)
    _ = W4 m ρ c (Proc.devRef .tc main_arg14) := keep_main_part4_ops0_arg14 _
    _ = W3 m ρ c (Proc.devRef .tc main_arg14) := keep_main_part3_ops0_arg14 _
    _ = W2 m ρ c (Proc.devRef .tc main_arg14) := keep_main_part2_ops0_arg14 _
    _ = W1 m ρ c (Proc.devRef .tc main_arg14) := keep_main_part1_ops0_arg14 _
    _ = W0 m ρ c (Proc.devRef .tc main_arg14) := keep_main_part0_ops0_arg14 _
    _ = m ((c : Thread nD τ).loc main_arg14) := rfl

theorem Wfin_arg15 (c : Dev nD) : Wfin m ρ c (Proc.devRef .tc main_arg15) = m ((c : Thread nD τ).loc main_arg15) :=
  calc Wfin m ρ c (Proc.devRef .tc main_arg15)
    _ = W43 m ρ c (Proc.devRef .tc main_arg15) := W44_of_ne m ρ c main_arg15 (by decide)
    _ = W42 m ρ c (Proc.devRef .tc main_arg15) := keep_main_part16_ops2_arg15 _
    _ = W41 m ρ c (Proc.devRef .tc main_arg15) := W42_of_ne m ρ c main_arg15 (by decide)
    _ = W40 m ρ c (Proc.devRef .tc main_arg15) := keep_main_part16_ops1_arg15 _
    _ = W39 m ρ c (Proc.devRef .tc main_arg15) := W40_of_ne m ρ c main_arg15 (by decide)
    _ = W38 m ρ c (Proc.devRef .tc main_arg15) := keep_main_part16_ops0_arg15 _
    _ = W37 m ρ c (Proc.devRef .tc main_arg15) := keep_main_part15_ops3_arg15 _
    _ = W36 m ρ c (Proc.devRef .tc main_arg15) := W37_of_ne m ρ c main_arg15 (by decide)
    _ = W35 m ρ c (Proc.devRef .tc main_arg15) := keep_main_part15_ops2_arg15 _
    _ = W34 m ρ c (Proc.devRef .tc main_arg15) := W35_of_ne m ρ c main_arg15 (by decide)
    _ = W33 m ρ c (Proc.devRef .tc main_arg15) := keep_main_part15_ops1_arg15 _
    _ = W32 m ρ c (Proc.devRef .tc main_arg15) := W33_of_ne m ρ c main_arg15 (by decide)
    _ = W31 m ρ c (Proc.devRef .tc main_arg15) := keep_main_part15_ops0_arg15 _
    _ = W30 m ρ c (Proc.devRef .tc main_arg15) := keep_main_part14_ops0_arg15 _
    _ = W29 m ρ c (Proc.devRef .tc main_arg15) := keep_main_part13_ops0_arg15 _
    _ = W28 m ρ c (Proc.devRef .tc main_arg15) := keep_main_part12_ops0_arg15 _
    _ = W27 m ρ c (Proc.devRef .tc main_arg15) := keep_main_part11_ops0_arg15 _
    _ = W26 m ρ c (Proc.devRef .tc main_arg15) := keep_main_part10_ops4_arg15 _
    _ = W25 m ρ c (Proc.devRef .tc main_arg15) := W26_of_ne m ρ c main_arg15 (by decide)
    _ = W24 m ρ c (Proc.devRef .tc main_arg15) := keep_main_part10_ops3_arg15 _
    _ = W23 m ρ c (Proc.devRef .tc main_arg15) := W24_of_ne m ρ c main_arg15 (by decide)
    _ = W22 m ρ c (Proc.devRef .tc main_arg15) := keep_main_part10_ops2_arg15 _
    _ = W21 m ρ c (Proc.devRef .tc main_arg15) := W22_of_ne m ρ c main_arg15 (by decide)
    _ = W20 m ρ c (Proc.devRef .tc main_arg15) := keep_main_part10_ops1_arg15 _
    _ = W19 m ρ c (Proc.devRef .tc main_arg15) := W20_of_ne m ρ c main_arg15 (by decide)
    _ = W18 m ρ c (Proc.devRef .tc main_arg15) := keep_main_part10_ops0_arg15 _
    _ = W17 m ρ c (Proc.devRef .tc main_arg15) := keep_main_part9_ops0_arg15 _
    _ = W16 m ρ c (Proc.devRef .tc main_arg15) := keep_main_part8_ops0_arg15 _
    _ = W15 m ρ c (Proc.devRef .tc main_arg15) := keep_main_part7_ops0_arg15 _
    _ = W14 m ρ c (Proc.devRef .tc main_arg15) := keep_main_part6_ops0_arg15 _
    _ = W13 m ρ c (Proc.devRef .tc main_arg15) := keep_main_part5_ops3_arg15 _
    _ = W12 m ρ c (Proc.devRef .tc main_arg15) := W13_of_ne m ρ c main_arg15 (by decide)
    _ = W11 m ρ c (Proc.devRef .tc main_arg15) := keep_main_part5_ops2_arg15 _
    _ = W10 m ρ c (Proc.devRef .tc main_arg15) := W11_of_ne m ρ c main_arg15 (by decide)
    _ = W9 m ρ c (Proc.devRef .tc main_arg15) := keep_main_part5_ops1_arg15 _
    _ = W8 m ρ c (Proc.devRef .tc main_arg15) := W9_of_ne m ρ c main_arg15 (by decide)
    _ = W7 m ρ c (Proc.devRef .tc main_arg15) := keep_main_part5_ops0_arg15 _
    _ = W6 m ρ c (Proc.devRef .tc main_arg15) := keep_main_part4_ops1_arg15 _
    _ = W5 m ρ c (Proc.devRef .tc main_arg15) := W6_of_ne m ρ c main_arg15 (by decide)
    _ = W4 m ρ c (Proc.devRef .tc main_arg15) := keep_main_part4_ops0_arg15 _
    _ = W3 m ρ c (Proc.devRef .tc main_arg15) := keep_main_part3_ops0_arg15 _
    _ = W2 m ρ c (Proc.devRef .tc main_arg15) := keep_main_part2_ops0_arg15 _
    _ = W1 m ρ c (Proc.devRef .tc main_arg15) := keep_main_part1_ops0_arg15 _
    _ = W0 m ρ c (Proc.devRef .tc main_arg15) := keep_main_part0_ops0_arg15 _
    _ = m ((c : Thread nD τ).loc main_arg15) := rfl

theorem Wfin_arg16 (c : Dev nD) : Wfin m ρ c (Proc.devRef .tc main_arg16) = m ((c : Thread nD τ).loc main_arg16) :=
  calc Wfin m ρ c (Proc.devRef .tc main_arg16)
    _ = W43 m ρ c (Proc.devRef .tc main_arg16) := W44_of_ne m ρ c main_arg16 (by decide)
    _ = W42 m ρ c (Proc.devRef .tc main_arg16) := keep_main_part16_ops2_arg16 _
    _ = W41 m ρ c (Proc.devRef .tc main_arg16) := W42_of_ne m ρ c main_arg16 (by decide)
    _ = W40 m ρ c (Proc.devRef .tc main_arg16) := keep_main_part16_ops1_arg16 _
    _ = W39 m ρ c (Proc.devRef .tc main_arg16) := W40_of_ne m ρ c main_arg16 (by decide)
    _ = W38 m ρ c (Proc.devRef .tc main_arg16) := keep_main_part16_ops0_arg16 _
    _ = W37 m ρ c (Proc.devRef .tc main_arg16) := keep_main_part15_ops3_arg16 _
    _ = W36 m ρ c (Proc.devRef .tc main_arg16) := W37_of_ne m ρ c main_arg16 (by decide)
    _ = W35 m ρ c (Proc.devRef .tc main_arg16) := keep_main_part15_ops2_arg16 _
    _ = W34 m ρ c (Proc.devRef .tc main_arg16) := W35_of_ne m ρ c main_arg16 (by decide)
    _ = W33 m ρ c (Proc.devRef .tc main_arg16) := keep_main_part15_ops1_arg16 _
    _ = W32 m ρ c (Proc.devRef .tc main_arg16) := W33_of_ne m ρ c main_arg16 (by decide)
    _ = W31 m ρ c (Proc.devRef .tc main_arg16) := keep_main_part15_ops0_arg16 _
    _ = W30 m ρ c (Proc.devRef .tc main_arg16) := keep_main_part14_ops0_arg16 _
    _ = W29 m ρ c (Proc.devRef .tc main_arg16) := keep_main_part13_ops0_arg16 _
    _ = W28 m ρ c (Proc.devRef .tc main_arg16) := keep_main_part12_ops0_arg16 _
    _ = W27 m ρ c (Proc.devRef .tc main_arg16) := keep_main_part11_ops0_arg16 _
    _ = W26 m ρ c (Proc.devRef .tc main_arg16) := keep_main_part10_ops4_arg16 _
    _ = W25 m ρ c (Proc.devRef .tc main_arg16) := W26_of_ne m ρ c main_arg16 (by decide)
    _ = W24 m ρ c (Proc.devRef .tc main_arg16) := keep_main_part10_ops3_arg16 _
    _ = W23 m ρ c (Proc.devRef .tc main_arg16) := W24_of_ne m ρ c main_arg16 (by decide)
    _ = W22 m ρ c (Proc.devRef .tc main_arg16) := keep_main_part10_ops2_arg16 _
    _ = W21 m ρ c (Proc.devRef .tc main_arg16) := W22_of_ne m ρ c main_arg16 (by decide)
    _ = W20 m ρ c (Proc.devRef .tc main_arg16) := keep_main_part10_ops1_arg16 _
    _ = W19 m ρ c (Proc.devRef .tc main_arg16) := W20_of_ne m ρ c main_arg16 (by decide)
    _ = W18 m ρ c (Proc.devRef .tc main_arg16) := keep_main_part10_ops0_arg16 _
    _ = W17 m ρ c (Proc.devRef .tc main_arg16) := keep_main_part9_ops0_arg16 _
    _ = W16 m ρ c (Proc.devRef .tc main_arg16) := keep_main_part8_ops0_arg16 _
    _ = W15 m ρ c (Proc.devRef .tc main_arg16) := keep_main_part7_ops0_arg16 _
    _ = W14 m ρ c (Proc.devRef .tc main_arg16) := keep_main_part6_ops0_arg16 _
    _ = W13 m ρ c (Proc.devRef .tc main_arg16) := keep_main_part5_ops3_arg16 _
    _ = W12 m ρ c (Proc.devRef .tc main_arg16) := W13_of_ne m ρ c main_arg16 (by decide)
    _ = W11 m ρ c (Proc.devRef .tc main_arg16) := keep_main_part5_ops2_arg16 _
    _ = W10 m ρ c (Proc.devRef .tc main_arg16) := W11_of_ne m ρ c main_arg16 (by decide)
    _ = W9 m ρ c (Proc.devRef .tc main_arg16) := keep_main_part5_ops1_arg16 _
    _ = W8 m ρ c (Proc.devRef .tc main_arg16) := W9_of_ne m ρ c main_arg16 (by decide)
    _ = W7 m ρ c (Proc.devRef .tc main_arg16) := keep_main_part5_ops0_arg16 _
    _ = W6 m ρ c (Proc.devRef .tc main_arg16) := keep_main_part4_ops1_arg16 _
    _ = W5 m ρ c (Proc.devRef .tc main_arg16) := W6_of_ne m ρ c main_arg16 (by decide)
    _ = W4 m ρ c (Proc.devRef .tc main_arg16) := keep_main_part4_ops0_arg16 _
    _ = W3 m ρ c (Proc.devRef .tc main_arg16) := keep_main_part3_ops0_arg16 _
    _ = W2 m ρ c (Proc.devRef .tc main_arg16) := keep_main_part2_ops0_arg16 _
    _ = W1 m ρ c (Proc.devRef .tc main_arg16) := keep_main_part1_ops0_arg16 _
    _ = W0 m ρ c (Proc.devRef .tc main_arg16) := keep_main_part0_ops0_arg16 _
    _ = m ((c : Thread nD τ).loc main_arg16) := rfl

theorem Wfin_arg17 (c : Dev nD) : Wfin m ρ c (Proc.devRef .tc main_arg17) = m ((c : Thread nD τ).loc main_arg17) :=
  calc Wfin m ρ c (Proc.devRef .tc main_arg17)
    _ = W43 m ρ c (Proc.devRef .tc main_arg17) := W44_of_ne m ρ c main_arg17 (by decide)
    _ = W42 m ρ c (Proc.devRef .tc main_arg17) := keep_main_part16_ops2_arg17 _
    _ = W41 m ρ c (Proc.devRef .tc main_arg17) := W42_of_ne m ρ c main_arg17 (by decide)
    _ = W40 m ρ c (Proc.devRef .tc main_arg17) := keep_main_part16_ops1_arg17 _
    _ = W39 m ρ c (Proc.devRef .tc main_arg17) := W40_of_ne m ρ c main_arg17 (by decide)
    _ = W38 m ρ c (Proc.devRef .tc main_arg17) := keep_main_part16_ops0_arg17 _
    _ = W37 m ρ c (Proc.devRef .tc main_arg17) := keep_main_part15_ops3_arg17 _
    _ = W36 m ρ c (Proc.devRef .tc main_arg17) := W37_of_ne m ρ c main_arg17 (by decide)
    _ = W35 m ρ c (Proc.devRef .tc main_arg17) := keep_main_part15_ops2_arg17 _
    _ = W34 m ρ c (Proc.devRef .tc main_arg17) := W35_of_ne m ρ c main_arg17 (by decide)
    _ = W33 m ρ c (Proc.devRef .tc main_arg17) := keep_main_part15_ops1_arg17 _
    _ = W32 m ρ c (Proc.devRef .tc main_arg17) := W33_of_ne m ρ c main_arg17 (by decide)
    _ = W31 m ρ c (Proc.devRef .tc main_arg17) := keep_main_part15_ops0_arg17 _
    _ = W30 m ρ c (Proc.devRef .tc main_arg17) := keep_main_part14_ops0_arg17 _
    _ = W29 m ρ c (Proc.devRef .tc main_arg17) := keep_main_part13_ops0_arg17 _
    _ = W28 m ρ c (Proc.devRef .tc main_arg17) := keep_main_part12_ops0_arg17 _
    _ = W27 m ρ c (Proc.devRef .tc main_arg17) := keep_main_part11_ops0_arg17 _
    _ = W26 m ρ c (Proc.devRef .tc main_arg17) := keep_main_part10_ops4_arg17 _
    _ = W25 m ρ c (Proc.devRef .tc main_arg17) := W26_of_ne m ρ c main_arg17 (by decide)
    _ = W24 m ρ c (Proc.devRef .tc main_arg17) := keep_main_part10_ops3_arg17 _
    _ = W23 m ρ c (Proc.devRef .tc main_arg17) := W24_of_ne m ρ c main_arg17 (by decide)
    _ = W22 m ρ c (Proc.devRef .tc main_arg17) := keep_main_part10_ops2_arg17 _
    _ = W21 m ρ c (Proc.devRef .tc main_arg17) := W22_of_ne m ρ c main_arg17 (by decide)
    _ = W20 m ρ c (Proc.devRef .tc main_arg17) := keep_main_part10_ops1_arg17 _
    _ = W19 m ρ c (Proc.devRef .tc main_arg17) := W20_of_ne m ρ c main_arg17 (by decide)
    _ = W18 m ρ c (Proc.devRef .tc main_arg17) := keep_main_part10_ops0_arg17 _
    _ = W17 m ρ c (Proc.devRef .tc main_arg17) := keep_main_part9_ops0_arg17 _
    _ = W16 m ρ c (Proc.devRef .tc main_arg17) := keep_main_part8_ops0_arg17 _
    _ = W15 m ρ c (Proc.devRef .tc main_arg17) := keep_main_part7_ops0_arg17 _
    _ = W14 m ρ c (Proc.devRef .tc main_arg17) := keep_main_part6_ops0_arg17 _
    _ = W13 m ρ c (Proc.devRef .tc main_arg17) := keep_main_part5_ops3_arg17 _
    _ = W12 m ρ c (Proc.devRef .tc main_arg17) := W13_of_ne m ρ c main_arg17 (by decide)
    _ = W11 m ρ c (Proc.devRef .tc main_arg17) := keep_main_part5_ops2_arg17 _
    _ = W10 m ρ c (Proc.devRef .tc main_arg17) := W11_of_ne m ρ c main_arg17 (by decide)
    _ = W9 m ρ c (Proc.devRef .tc main_arg17) := keep_main_part5_ops1_arg17 _
    _ = W8 m ρ c (Proc.devRef .tc main_arg17) := W9_of_ne m ρ c main_arg17 (by decide)
    _ = W7 m ρ c (Proc.devRef .tc main_arg17) := keep_main_part5_ops0_arg17 _
    _ = W6 m ρ c (Proc.devRef .tc main_arg17) := keep_main_part4_ops1_arg17 _
    _ = W5 m ρ c (Proc.devRef .tc main_arg17) := W6_of_ne m ρ c main_arg17 (by decide)
    _ = W4 m ρ c (Proc.devRef .tc main_arg17) := keep_main_part4_ops0_arg17 _
    _ = W3 m ρ c (Proc.devRef .tc main_arg17) := keep_main_part3_ops0_arg17 _
    _ = W2 m ρ c (Proc.devRef .tc main_arg17) := keep_main_part2_ops0_arg17 _
    _ = W1 m ρ c (Proc.devRef .tc main_arg17) := keep_main_part1_ops0_arg17 _
    _ = W0 m ρ c (Proc.devRef .tc main_arg17) := keep_main_part0_ops0_arg17 _
    _ = m ((c : Thread nD τ).loc main_arg17) := rfl

end Cert.Kernel.Hand

end
-- ==== Proof.KB.Args3.lean ====
import proofs.«125545_j64845416235624_1_alg».proof.Proof.KB.Fold
import proofs.«125545_j64845416235624_1_alg».proof.Proof.KB.Keep
import proofs.«125545_j64845416235624_1_alg».proof.Proof.KB.KeepArgs0
import proofs.«125545_j64845416235624_1_alg».proof.Proof.KB.KeepArgs1

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-! # The argument arrays end as launched (arguments 18 to 22)

No host operation writes an argument array, and no region does: a region either does not touch it, or reads it through
an input window, whose array the pipeline leaves as entered. So the fold of the buffer contents through @main's 44
items, read at an argument's buffer, walks back item by item to the launch memory. -/

theorem Wfin_arg18 (c : Dev nD) : Wfin m ρ c (Proc.devRef .tc main_arg18) = m ((c : Thread nD τ).loc main_arg18) :=
  calc Wfin m ρ c (Proc.devRef .tc main_arg18)
    _ = W43 m ρ c (Proc.devRef .tc main_arg18) := W44_of_ne m ρ c main_arg18 (by decide)
    _ = W42 m ρ c (Proc.devRef .tc main_arg18) := keep_main_part16_ops2_arg18 _
    _ = W41 m ρ c (Proc.devRef .tc main_arg18) := W42_of_ne m ρ c main_arg18 (by decide)
    _ = W40 m ρ c (Proc.devRef .tc main_arg18) := keep_main_part16_ops1_arg18 _
    _ = W39 m ρ c (Proc.devRef .tc main_arg18) := W40_of_ne m ρ c main_arg18 (by decide)
    _ = W38 m ρ c (Proc.devRef .tc main_arg18) := keep_main_part16_ops0_arg18 _
    _ = W37 m ρ c (Proc.devRef .tc main_arg18) := keep_main_part15_ops3_arg18 _
    _ = W36 m ρ c (Proc.devRef .tc main_arg18) := W37_of_ne m ρ c main_arg18 (by decide)
    _ = W35 m ρ c (Proc.devRef .tc main_arg18) := keep_main_part15_ops2_arg18 _
    _ = W34 m ρ c (Proc.devRef .tc main_arg18) := W35_of_ne m ρ c main_arg18 (by decide)
    _ = W33 m ρ c (Proc.devRef .tc main_arg18) := keep_main_part15_ops1_arg18 _
    _ = W32 m ρ c (Proc.devRef .tc main_arg18) := W33_of_ne m ρ c main_arg18 (by decide)
    _ = W31 m ρ c (Proc.devRef .tc main_arg18) := keep_main_part15_ops0_arg18 _
    _ = W30 m ρ c (Proc.devRef .tc main_arg18) := keep_main_part14_ops0_arg18 _
    _ = W29 m ρ c (Proc.devRef .tc main_arg18) := keep_main_part13_ops0_arg18 _
    _ = W28 m ρ c (Proc.devRef .tc main_arg18) := keep_main_part12_ops0_arg18 _
    _ = W27 m ρ c (Proc.devRef .tc main_arg18) := keep_main_part11_ops0_arg18 _
    _ = W26 m ρ c (Proc.devRef .tc main_arg18) := keep_main_part10_ops4_arg18 _
    _ = W25 m ρ c (Proc.devRef .tc main_arg18) := W26_of_ne m ρ c main_arg18 (by decide)
    _ = W24 m ρ c (Proc.devRef .tc main_arg18) := keep_main_part10_ops3_arg18 _
    _ = W23 m ρ c (Proc.devRef .tc main_arg18) := W24_of_ne m ρ c main_arg18 (by decide)
    _ = W22 m ρ c (Proc.devRef .tc main_arg18) := keep_main_part10_ops2_arg18 _
    _ = W21 m ρ c (Proc.devRef .tc main_arg18) := W22_of_ne m ρ c main_arg18 (by decide)
    _ = W20 m ρ c (Proc.devRef .tc main_arg18) := keep_main_part10_ops1_arg18 _
    _ = W19 m ρ c (Proc.devRef .tc main_arg18) := W20_of_ne m ρ c main_arg18 (by decide)
    _ = W18 m ρ c (Proc.devRef .tc main_arg18) := keep_main_part10_ops0_arg18 _
    _ = W17 m ρ c (Proc.devRef .tc main_arg18) := keep_main_part9_ops0_arg18 _
    _ = W16 m ρ c (Proc.devRef .tc main_arg18) := keep_main_part8_ops0_arg18 _
    _ = W15 m ρ c (Proc.devRef .tc main_arg18) := keep_main_part7_ops0_arg18 _
    _ = W14 m ρ c (Proc.devRef .tc main_arg18) := keep_main_part6_ops0_arg18 _
    _ = W13 m ρ c (Proc.devRef .tc main_arg18) := keep_main_part5_ops3_arg18 _
    _ = W12 m ρ c (Proc.devRef .tc main_arg18) := W13_of_ne m ρ c main_arg18 (by decide)
    _ = W11 m ρ c (Proc.devRef .tc main_arg18) := keep_main_part5_ops2_arg18 _
    _ = W10 m ρ c (Proc.devRef .tc main_arg18) := W11_of_ne m ρ c main_arg18 (by decide)
    _ = W9 m ρ c (Proc.devRef .tc main_arg18) := keep_main_part5_ops1_arg18 _
    _ = W8 m ρ c (Proc.devRef .tc main_arg18) := W9_of_ne m ρ c main_arg18 (by decide)
    _ = W7 m ρ c (Proc.devRef .tc main_arg18) := keep_main_part5_ops0_arg18 _
    _ = W6 m ρ c (Proc.devRef .tc main_arg18) := keep_main_part4_ops1_arg18 _
    _ = W5 m ρ c (Proc.devRef .tc main_arg18) := W6_of_ne m ρ c main_arg18 (by decide)
    _ = W4 m ρ c (Proc.devRef .tc main_arg18) := keep_main_part4_ops0_arg18 _
    _ = W3 m ρ c (Proc.devRef .tc main_arg18) := keep_main_part3_ops0_arg18 _
    _ = W2 m ρ c (Proc.devRef .tc main_arg18) := keep_main_part2_ops0_arg18 _
    _ = W1 m ρ c (Proc.devRef .tc main_arg18) := keep_main_part1_ops0_arg18 _
    _ = W0 m ρ c (Proc.devRef .tc main_arg18) := keep_main_part0_ops0_arg18 _
    _ = m ((c : Thread nD τ).loc main_arg18) := rfl

theorem Wfin_arg19 (c : Dev nD) : Wfin m ρ c (Proc.devRef .tc main_arg19) = m ((c : Thread nD τ).loc main_arg19) :=
  calc Wfin m ρ c (Proc.devRef .tc main_arg19)
    _ = W43 m ρ c (Proc.devRef .tc main_arg19) := W44_of_ne m ρ c main_arg19 (by decide)
    _ = W42 m ρ c (Proc.devRef .tc main_arg19) := keep_main_part16_ops2_arg19 _
    _ = W41 m ρ c (Proc.devRef .tc main_arg19) := W42_of_ne m ρ c main_arg19 (by decide)
    _ = W40 m ρ c (Proc.devRef .tc main_arg19) := keep_main_part16_ops1_arg19 _
    _ = W39 m ρ c (Proc.devRef .tc main_arg19) := W40_of_ne m ρ c main_arg19 (by decide)
    _ = W38 m ρ c (Proc.devRef .tc main_arg19) := keep_main_part16_ops0_arg19 _
    _ = W37 m ρ c (Proc.devRef .tc main_arg19) := keep_main_part15_ops3_arg19 _
    _ = W36 m ρ c (Proc.devRef .tc main_arg19) := W37_of_ne m ρ c main_arg19 (by decide)
    _ = W35 m ρ c (Proc.devRef .tc main_arg19) := keep_main_part15_ops2_arg19 _
    _ = W34 m ρ c (Proc.devRef .tc main_arg19) := W35_of_ne m ρ c main_arg19 (by decide)
    _ = W33 m ρ c (Proc.devRef .tc main_arg19) := keep_main_part15_ops1_arg19 _
    _ = W32 m ρ c (Proc.devRef .tc main_arg19) := W33_of_ne m ρ c main_arg19 (by decide)
    _ = W31 m ρ c (Proc.devRef .tc main_arg19) := keep_main_part15_ops0_arg19 _
    _ = W30 m ρ c (Proc.devRef .tc main_arg19) := keep_main_part14_ops0_arg19 _
    _ = W29 m ρ c (Proc.devRef .tc main_arg19) := keep_main_part13_ops0_arg19 _
    _ = W28 m ρ c (Proc.devRef .tc main_arg19) := keep_main_part12_ops0_arg19 _
    _ = W27 m ρ c (Proc.devRef .tc main_arg19) := keep_main_part11_ops0_arg19 _
    _ = W26 m ρ c (Proc.devRef .tc main_arg19) := keep_main_part10_ops4_arg19 _
    _ = W25 m ρ c (Proc.devRef .tc main_arg19) := W26_of_ne m ρ c main_arg19 (by decide)
    _ = W24 m ρ c (Proc.devRef .tc main_arg19) := keep_main_part10_ops3_arg19 _
    _ = W23 m ρ c (Proc.devRef .tc main_arg19) := W24_of_ne m ρ c main_arg19 (by decide)
    _ = W22 m ρ c (Proc.devRef .tc main_arg19) := keep_main_part10_ops2_arg19 _
    _ = W21 m ρ c (Proc.devRef .tc main_arg19) := W22_of_ne m ρ c main_arg19 (by decide)
    _ = W20 m ρ c (Proc.devRef .tc main_arg19) := keep_main_part10_ops1_arg19 _
    _ = W19 m ρ c (Proc.devRef .tc main_arg19) := W20_of_ne m ρ c main_arg19 (by decide)
    _ = W18 m ρ c (Proc.devRef .tc main_arg19) := keep_main_part10_ops0_arg19 _
    _ = W17 m ρ c (Proc.devRef .tc main_arg19) := keep_main_part9_ops0_arg19 _
    _ = W16 m ρ c (Proc.devRef .tc main_arg19) := keep_main_part8_ops0_arg19 _
    _ = W15 m ρ c (Proc.devRef .tc main_arg19) := keep_main_part7_ops0_arg19 _
    _ = W14 m ρ c (Proc.devRef .tc main_arg19) := keep_main_part6_ops0_arg19 _
    _ = W13 m ρ c (Proc.devRef .tc main_arg19) := keep_main_part5_ops3_arg19 _
    _ = W12 m ρ c (Proc.devRef .tc main_arg19) := W13_of_ne m ρ c main_arg19 (by decide)
    _ = W11 m ρ c (Proc.devRef .tc main_arg19) := keep_main_part5_ops2_arg19 _
    _ = W10 m ρ c (Proc.devRef .tc main_arg19) := W11_of_ne m ρ c main_arg19 (by decide)
    _ = W9 m ρ c (Proc.devRef .tc main_arg19) := keep_main_part5_ops1_arg19 _
    _ = W8 m ρ c (Proc.devRef .tc main_arg19) := W9_of_ne m ρ c main_arg19 (by decide)
    _ = W7 m ρ c (Proc.devRef .tc main_arg19) := keep_main_part5_ops0_arg19 _
    _ = W6 m ρ c (Proc.devRef .tc main_arg19) := keep_main_part4_ops1_arg19 _
    _ = W5 m ρ c (Proc.devRef .tc main_arg19) := W6_of_ne m ρ c main_arg19 (by decide)
    _ = W4 m ρ c (Proc.devRef .tc main_arg19) := keep_main_part4_ops0_arg19 _
    _ = W3 m ρ c (Proc.devRef .tc main_arg19) := keep_main_part3_ops0_arg19 _
    _ = W2 m ρ c (Proc.devRef .tc main_arg19) := keep_main_part2_ops0_arg19 _
    _ = W1 m ρ c (Proc.devRef .tc main_arg19) := keep_main_part1_ops0_arg19 _
    _ = W0 m ρ c (Proc.devRef .tc main_arg19) := keep_main_part0_ops0_arg19 _
    _ = m ((c : Thread nD τ).loc main_arg19) := rfl

theorem Wfin_arg20 (c : Dev nD) : Wfin m ρ c (Proc.devRef .tc main_arg20) = m ((c : Thread nD τ).loc main_arg20) :=
  calc Wfin m ρ c (Proc.devRef .tc main_arg20)
    _ = W43 m ρ c (Proc.devRef .tc main_arg20) := W44_of_ne m ρ c main_arg20 (by decide)
    _ = W42 m ρ c (Proc.devRef .tc main_arg20) := keep_main_part16_ops2_arg20 _
    _ = W41 m ρ c (Proc.devRef .tc main_arg20) := W42_of_ne m ρ c main_arg20 (by decide)
    _ = W40 m ρ c (Proc.devRef .tc main_arg20) := keep_main_part16_ops1_arg20 _
    _ = W39 m ρ c (Proc.devRef .tc main_arg20) := W40_of_ne m ρ c main_arg20 (by decide)
    _ = W38 m ρ c (Proc.devRef .tc main_arg20) := keep_main_part16_ops0_arg20 _
    _ = W37 m ρ c (Proc.devRef .tc main_arg20) := keep_main_part15_ops3_arg20 _
    _ = W36 m ρ c (Proc.devRef .tc main_arg20) := W37_of_ne m ρ c main_arg20 (by decide)
    _ = W35 m ρ c (Proc.devRef .tc main_arg20) := keep_main_part15_ops2_arg20 _
    _ = W34 m ρ c (Proc.devRef .tc main_arg20) := W35_of_ne m ρ c main_arg20 (by decide)
    _ = W33 m ρ c (Proc.devRef .tc main_arg20) := keep_main_part15_ops1_arg20 _
    _ = W32 m ρ c (Proc.devRef .tc main_arg20) := W33_of_ne m ρ c main_arg20 (by decide)
    _ = W31 m ρ c (Proc.devRef .tc main_arg20) := keep_main_part15_ops0_arg20 _
    _ = W30 m ρ c (Proc.devRef .tc main_arg20) := keep_main_part14_ops0_arg20 _
    _ = W29 m ρ c (Proc.devRef .tc main_arg20) := keep_main_part13_ops0_arg20 _
    _ = W28 m ρ c (Proc.devRef .tc main_arg20) := keep_main_part12_ops0_arg20 _
    _ = W27 m ρ c (Proc.devRef .tc main_arg20) := keep_main_part11_ops0_arg20 _
    _ = W26 m ρ c (Proc.devRef .tc main_arg20) := keep_main_part10_ops4_arg20 _
    _ = W25 m ρ c (Proc.devRef .tc main_arg20) := W26_of_ne m ρ c main_arg20 (by decide)
    _ = W24 m ρ c (Proc.devRef .tc main_arg20) := keep_main_part10_ops3_arg20 _
    _ = W23 m ρ c (Proc.devRef .tc main_arg20) := W24_of_ne m ρ c main_arg20 (by decide)
    _ = W22 m ρ c (Proc.devRef .tc main_arg20) := keep_main_part10_ops2_arg20 _
    _ = W21 m ρ c (Proc.devRef .tc main_arg20) := W22_of_ne m ρ c main_arg20 (by decide)
    _ = W20 m ρ c (Proc.devRef .tc main_arg20) := keep_main_part10_ops1_arg20 _
    _ = W19 m ρ c (Proc.devRef .tc main_arg20) := W20_of_ne m ρ c main_arg20 (by decide)
    _ = W18 m ρ c (Proc.devRef .tc main_arg20) := keep_main_part10_ops0_arg20 _
    _ = W17 m ρ c (Proc.devRef .tc main_arg20) := keep_main_part9_ops0_arg20 _
    _ = W16 m ρ c (Proc.devRef .tc main_arg20) := keep_main_part8_ops0_arg20 _
    _ = W15 m ρ c (Proc.devRef .tc main_arg20) := keep_main_part7_ops0_arg20 _
    _ = W14 m ρ c (Proc.devRef .tc main_arg20) := keep_main_part6_ops0_arg20 _
    _ = W13 m ρ c (Proc.devRef .tc main_arg20) := keep_main_part5_ops3_arg20 _
    _ = W12 m ρ c (Proc.devRef .tc main_arg20) := W13_of_ne m ρ c main_arg20 (by decide)
    _ = W11 m ρ c (Proc.devRef .tc main_arg20) := keep_main_part5_ops2_arg20 _
    _ = W10 m ρ c (Proc.devRef .tc main_arg20) := W11_of_ne m ρ c main_arg20 (by decide)
    _ = W9 m ρ c (Proc.devRef .tc main_arg20) := keep_main_part5_ops1_arg20 _
    _ = W8 m ρ c (Proc.devRef .tc main_arg20) := W9_of_ne m ρ c main_arg20 (by decide)
    _ = W7 m ρ c (Proc.devRef .tc main_arg20) := keep_main_part5_ops0_arg20 _
    _ = W6 m ρ c (Proc.devRef .tc main_arg20) := keep_main_part4_ops1_arg20 _
    _ = W5 m ρ c (Proc.devRef .tc main_arg20) := W6_of_ne m ρ c main_arg20 (by decide)
    _ = W4 m ρ c (Proc.devRef .tc main_arg20) := keep_main_part4_ops0_arg20 _
    _ = W3 m ρ c (Proc.devRef .tc main_arg20) := keep_main_part3_ops0_arg20 _
    _ = W2 m ρ c (Proc.devRef .tc main_arg20) := keep_main_part2_ops0_arg20 _
    _ = W1 m ρ c (Proc.devRef .tc main_arg20) := keep_main_part1_ops0_arg20 _
    _ = W0 m ρ c (Proc.devRef .tc main_arg20) := keep_main_part0_ops0_arg20 _
    _ = m ((c : Thread nD τ).loc main_arg20) := rfl

theorem Wfin_arg21 (c : Dev nD) : Wfin m ρ c (Proc.devRef .tc main_arg21) = m ((c : Thread nD τ).loc main_arg21) :=
  calc Wfin m ρ c (Proc.devRef .tc main_arg21)
    _ = W43 m ρ c (Proc.devRef .tc main_arg21) := W44_of_ne m ρ c main_arg21 (by decide)
    _ = W42 m ρ c (Proc.devRef .tc main_arg21) := keep_main_part16_ops2_arg21 _
    _ = W41 m ρ c (Proc.devRef .tc main_arg21) := W42_of_ne m ρ c main_arg21 (by decide)
    _ = W40 m ρ c (Proc.devRef .tc main_arg21) := keep_main_part16_ops1_arg21 _
    _ = W39 m ρ c (Proc.devRef .tc main_arg21) := W40_of_ne m ρ c main_arg21 (by decide)
    _ = W38 m ρ c (Proc.devRef .tc main_arg21) := keep_main_part16_ops0_arg21 _
    _ = W37 m ρ c (Proc.devRef .tc main_arg21) := keep_main_part15_ops3_arg21 _
    _ = W36 m ρ c (Proc.devRef .tc main_arg21) := W37_of_ne m ρ c main_arg21 (by decide)
    _ = W35 m ρ c (Proc.devRef .tc main_arg21) := keep_main_part15_ops2_arg21 _
    _ = W34 m ρ c (Proc.devRef .tc main_arg21) := W35_of_ne m ρ c main_arg21 (by decide)
    _ = W33 m ρ c (Proc.devRef .tc main_arg21) := keep_main_part15_ops1_arg21 _
    _ = W32 m ρ c (Proc.devRef .tc main_arg21) := W33_of_ne m ρ c main_arg21 (by decide)
    _ = W31 m ρ c (Proc.devRef .tc main_arg21) := keep_main_part15_ops0_arg21 _
    _ = W30 m ρ c (Proc.devRef .tc main_arg21) := keep_main_part14_ops0_arg21 _
    _ = W29 m ρ c (Proc.devRef .tc main_arg21) := keep_main_part13_ops0_arg21 _
    _ = W28 m ρ c (Proc.devRef .tc main_arg21) := keep_main_part12_ops0_arg21 _
    _ = W27 m ρ c (Proc.devRef .tc main_arg21) := keep_main_part11_ops0_arg21 _
    _ = W26 m ρ c (Proc.devRef .tc main_arg21) := keep_main_part10_ops4_arg21 _
    _ = W25 m ρ c (Proc.devRef .tc main_arg21) := W26_of_ne m ρ c main_arg21 (by decide)
    _ = W24 m ρ c (Proc.devRef .tc main_arg21) := keep_main_part10_ops3_arg21 _
    _ = W23 m ρ c (Proc.devRef .tc main_arg21) := W24_of_ne m ρ c main_arg21 (by decide)
    _ = W22 m ρ c (Proc.devRef .tc main_arg21) := keep_main_part10_ops2_arg21 _
    _ = W21 m ρ c (Proc.devRef .tc main_arg21) := W22_of_ne m ρ c main_arg21 (by decide)
    _ = W20 m ρ c (Proc.devRef .tc main_arg21) := keep_main_part10_ops1_arg21 _
    _ = W19 m ρ c (Proc.devRef .tc main_arg21) := W20_of_ne m ρ c main_arg21 (by decide)
    _ = W18 m ρ c (Proc.devRef .tc main_arg21) := keep_main_part10_ops0_arg21 _
    _ = W17 m ρ c (Proc.devRef .tc main_arg21) := keep_main_part9_ops0_arg21 _
    _ = W16 m ρ c (Proc.devRef .tc main_arg21) := keep_main_part8_ops0_arg21 _
    _ = W15 m ρ c (Proc.devRef .tc main_arg21) := keep_main_part7_ops0_arg21 _
    _ = W14 m ρ c (Proc.devRef .tc main_arg21) := keep_main_part6_ops0_arg21 _
    _ = W13 m ρ c (Proc.devRef .tc main_arg21) := keep_main_part5_ops3_arg21 _
    _ = W12 m ρ c (Proc.devRef .tc main_arg21) := W13_of_ne m ρ c main_arg21 (by decide)
    _ = W11 m ρ c (Proc.devRef .tc main_arg21) := keep_main_part5_ops2_arg21 _
    _ = W10 m ρ c (Proc.devRef .tc main_arg21) := W11_of_ne m ρ c main_arg21 (by decide)
    _ = W9 m ρ c (Proc.devRef .tc main_arg21) := keep_main_part5_ops1_arg21 _
    _ = W8 m ρ c (Proc.devRef .tc main_arg21) := W9_of_ne m ρ c main_arg21 (by decide)
    _ = W7 m ρ c (Proc.devRef .tc main_arg21) := keep_main_part5_ops0_arg21 _
    _ = W6 m ρ c (Proc.devRef .tc main_arg21) := keep_main_part4_ops1_arg21 _
    _ = W5 m ρ c (Proc.devRef .tc main_arg21) := W6_of_ne m ρ c main_arg21 (by decide)
    _ = W4 m ρ c (Proc.devRef .tc main_arg21) := keep_main_part4_ops0_arg21 _
    _ = W3 m ρ c (Proc.devRef .tc main_arg21) := keep_main_part3_ops0_arg21 _
    _ = W2 m ρ c (Proc.devRef .tc main_arg21) := keep_main_part2_ops0_arg21 _
    _ = W1 m ρ c (Proc.devRef .tc main_arg21) := keep_main_part1_ops0_arg21 _
    _ = W0 m ρ c (Proc.devRef .tc main_arg21) := keep_main_part0_ops0_arg21 _
    _ = m ((c : Thread nD τ).loc main_arg21) := rfl

theorem Wfin_arg22 (c : Dev nD) : Wfin m ρ c (Proc.devRef .tc main_arg22) = m ((c : Thread nD τ).loc main_arg22) :=
  calc Wfin m ρ c (Proc.devRef .tc main_arg22)
    _ = W43 m ρ c (Proc.devRef .tc main_arg22) := W44_of_ne m ρ c main_arg22 (by decide)
    _ = W42 m ρ c (Proc.devRef .tc main_arg22) := keep_main_part16_ops2_arg22 _
    _ = W41 m ρ c (Proc.devRef .tc main_arg22) := W42_of_ne m ρ c main_arg22 (by decide)
    _ = W40 m ρ c (Proc.devRef .tc main_arg22) := keep_main_part16_ops1_arg22 _
    _ = W39 m ρ c (Proc.devRef .tc main_arg22) := W40_of_ne m ρ c main_arg22 (by decide)
    _ = W38 m ρ c (Proc.devRef .tc main_arg22) := keep_main_part16_ops0_arg22 _
    _ = W37 m ρ c (Proc.devRef .tc main_arg22) := keep_main_part15_ops3_arg22 _
    _ = W36 m ρ c (Proc.devRef .tc main_arg22) := W37_of_ne m ρ c main_arg22 (by decide)
    _ = W35 m ρ c (Proc.devRef .tc main_arg22) := keep_main_part15_ops2_arg22 _
    _ = W34 m ρ c (Proc.devRef .tc main_arg22) := W35_of_ne m ρ c main_arg22 (by decide)
    _ = W33 m ρ c (Proc.devRef .tc main_arg22) := keep_main_part15_ops1_arg22 _
    _ = W32 m ρ c (Proc.devRef .tc main_arg22) := W33_of_ne m ρ c main_arg22 (by decide)
    _ = W31 m ρ c (Proc.devRef .tc main_arg22) := keep_main_part15_ops0_arg22 _
    _ = W30 m ρ c (Proc.devRef .tc main_arg22) := keep_main_part14_ops0_arg22 _
    _ = W29 m ρ c (Proc.devRef .tc main_arg22) := keep_main_part13_ops0_arg22 _
    _ = W28 m ρ c (Proc.devRef .tc main_arg22) := keep_main_part12_ops0_arg22 _
    _ = W27 m ρ c (Proc.devRef .tc main_arg22) := keep_main_part11_ops0_arg22 _
    _ = W26 m ρ c (Proc.devRef .tc main_arg22) := keep_main_part10_ops4_arg22 _
    _ = W25 m ρ c (Proc.devRef .tc main_arg22) := W26_of_ne m ρ c main_arg22 (by decide)
    _ = W24 m ρ c (Proc.devRef .tc main_arg22) := keep_main_part10_ops3_arg22 _
    _ = W23 m ρ c (Proc.devRef .tc main_arg22) := W24_of_ne m ρ c main_arg22 (by decide)
    _ = W22 m ρ c (Proc.devRef .tc main_arg22) := keep_main_part10_ops2_arg22 _
    _ = W21 m ρ c (Proc.devRef .tc main_arg22) := W22_of_ne m ρ c main_arg22 (by decide)
    _ = W20 m ρ c (Proc.devRef .tc main_arg22) := keep_main_part10_ops1_arg22 _
    _ = W19 m ρ c (Proc.devRef .tc main_arg22) := W20_of_ne m ρ c main_arg22 (by decide)
    _ = W18 m ρ c (Proc.devRef .tc main_arg22) := keep_main_part10_ops0_arg22 _
    _ = W17 m ρ c (Proc.devRef .tc main_arg22) := keep_main_part9_ops0_arg22 _
    _ = W16 m ρ c (Proc.devRef .tc main_arg22) := keep_main_part8_ops0_arg22 _
    _ = W15 m ρ c (Proc.devRef .tc main_arg22) := keep_main_part7_ops0_arg22 _
    _ = W14 m ρ c (Proc.devRef .tc main_arg22) := keep_main_part6_ops0_arg22 _
    _ = W13 m ρ c (Proc.devRef .tc main_arg22) := keep_main_part5_ops3_arg22 _
    _ = W12 m ρ c (Proc.devRef .tc main_arg22) := W13_of_ne m ρ c main_arg22 (by decide)
    _ = W11 m ρ c (Proc.devRef .tc main_arg22) := keep_main_part5_ops2_arg22 _
    _ = W10 m ρ c (Proc.devRef .tc main_arg22) := W11_of_ne m ρ c main_arg22 (by decide)
    _ = W9 m ρ c (Proc.devRef .tc main_arg22) := keep_main_part5_ops1_arg22 _
    _ = W8 m ρ c (Proc.devRef .tc main_arg22) := W9_of_ne m ρ c main_arg22 (by decide)
    _ = W7 m ρ c (Proc.devRef .tc main_arg22) := keep_main_part5_ops0_arg22 _
    _ = W6 m ρ c (Proc.devRef .tc main_arg22) := keep_main_part4_ops1_arg22 _
    _ = W5 m ρ c (Proc.devRef .tc main_arg22) := W6_of_ne m ρ c main_arg22 (by decide)
    _ = W4 m ρ c (Proc.devRef .tc main_arg22) := keep_main_part4_ops0_arg22 _
    _ = W3 m ρ c (Proc.devRef .tc main_arg22) := keep_main_part3_ops0_arg22 _
    _ = W2 m ρ c (Proc.devRef .tc main_arg22) := keep_main_part2_ops0_arg22 _
    _ = W1 m ρ c (Proc.devRef .tc main_arg22) := keep_main_part1_ops0_arg22 _
    _ = W0 m ρ c (Proc.devRef .tc main_arg22) := keep_main_part0_ops0_arg22 _
    _ = m ((c : Thread nD τ).loc main_arg22) := rfl

end Cert.Kernel.Hand

end
-- ==== Proof.KB.Args.lean ====
/- Each of the 23 argument arrays ends as launched: `Wfin_arg0` … `Wfin_arg22`, gathered from the four modules that prove them. -/
import proofs.«125545_j64845416235624_1_alg».proof.Proof.KB.Args0
import proofs.«125545_j64845416235624_1_alg».proof.Proof.KB.Args1
import proofs.«125545_j64845416235624_1_alg».proof.Proof.KB.Args2
import proofs.«125545_j64845416235624_1_alg».proof.Proof.KB.Args3
-- ==== Proof.KB.Frame.lean ====
import proofs.«125545_j64845416235624_1_alg».proof.Proof.KB.Run
import proofs.«125545_j64845416235624_1_alg».proof.Proof.KB.Args

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! # The frame claim

At the compiled mesh, from any memory with zero counters, every weakly fair execution of @main on the TensorCores
terminates, nothing faulting, and every final state has the 23 argument arrays as launched: the run leaves every
unscoped buffer at the last boundary's contents (`run_all`), an argument array is an unscoped buffer (`mem_uc`), and
the last boundary's contents at an argument are the launch memory's (`Wfin_arg…`). -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
    (h c _ (mem_uc main_arg0 (by decide))).trans (Wfin_arg0 m ρ c),
    (h c _ (mem_uc main_arg1 (by decide))).trans (Wfin_arg1 m ρ c),
    (h c _ (mem_uc main_arg2 (by decide))).trans (Wfin_arg2 m ρ c),
    (h c _ (mem_uc main_arg3 (by decide))).trans (Wfin_arg3 m ρ c),
    (h c _ (mem_uc main_arg4 (by decide))).trans (Wfin_arg4 m ρ c),
    (h c _ (mem_uc main_arg5 (by decide))).trans (Wfin_arg5 m ρ c),
    (h c _ (mem_uc main_arg6 (by decide))).trans (Wfin_arg6 m ρ c),
    (h c _ (mem_uc main_arg7 (by decide))).trans (Wfin_arg7 m ρ c),
    (h c _ (mem_uc main_arg8 (by decide))).trans (Wfin_arg8 m ρ c),
    (h c _ (mem_uc main_arg9 (by decide))).trans (Wfin_arg9 m ρ c),
    (h c _ (mem_uc main_arg10 (by decide))).trans (Wfin_arg10 m ρ c),
    (h c _ (mem_uc main_arg11 (by decide))).trans (Wfin_arg11 m ρ c),
    (h c _ (mem_uc main_arg12 (by decide))).trans (Wfin_arg12 m ρ c),
    (h c _ (mem_uc main_arg13 (by decide))).trans (Wfin_arg13 m ρ c),
    (h c _ (mem_uc main_arg14 (by decide))).trans (Wfin_arg14 m ρ c),
    (h c _ (mem_uc main_arg15 (by decide))).trans (Wfin_arg15 m ρ c),
    (h c _ (mem_uc main_arg16 (by decide))).trans (Wfin_arg16 m ρ c),
    (h c _ (mem_uc main_arg17 (by decide))).trans (Wfin_arg17 m ρ c),
    (h c _ (mem_uc main_arg18 (by decide))).trans (Wfin_arg18 m ρ c),
    (h c _ (mem_uc main_arg19 (by decide))).trans (Wfin_arg19 m ρ c),
    (h c _ (mem_uc main_arg20 (by decide))).trans (Wfin_arg20 m ρ c),
    (h c _ (mem_uc main_arg21 (by decide))).trans (Wfin_arg21 m ρ c),
    (h c _ (mem_uc main_arg22 (by decide))).trans (Wfin_arg22 m ρ c)⟩) (run_all m ρ)

end Cert.Kernel.Hand

end
-- ==== Proof.KI.D0.lean ====
/- Region 0 of @main (pipeline 0): the combine of five aggregates on 2000x128 row blocks. The windows' blocks at a
   point, the contents the body leaves in the output window's staging buffer, and the pipeline's proof data, all at
   a parameter `V`: the TensorCore's buffer contents when the region is entered. -/
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- a whole 2000x128 row block (each aggregate, the destination rows, the output) -/
noncomputable abbrev r0_s : Rect S2000x128 := Rect.unit (s := S2000x128) ![0, 0] S2000x128.size inb_S2000x128_S2000x128_0_0
/-- the whole 128x128 root weight -/
noncomputable abbrev r0_w : Rect S128x128 := Rect.unit (s := S128x128) ![0, 0] S128x128.size inb_S128x128_S128x128_0_0
/-- slice `j` of the stacked 5x128x128 neighbour weights -/
noncomputable abbrev r0_l0 : Rect S5x128x128 := Rect.unit (s := S5x128x128) ![0, 0, 0] S1x128x128.size inb_S5x128x128_S1x128x128_0_0_0
noncomputable abbrev r0_l1 : Rect S5x128x128 := Rect.unit (s := S5x128x128) ![1, 0, 0] S1x128x128.size inb_S5x128x128_S1x128x128_1_0_0
noncomputable abbrev r0_l2 : Rect S5x128x128 := Rect.unit (s := S5x128x128) ![2, 0, 0] S1x128x128.size inb_S5x128x128_S1x128x128_2_0_0
noncomputable abbrev r0_l3 : Rect S5x128x128 := Rect.unit (s := S5x128x128) ![3, 0, 0] S1x128x128.size inb_S5x128x128_S1x128x128_3_0_0
noncomputable abbrev r0_l4 : Rect S5x128x128 := Rect.unit (s := S5x128x128) ![4, 0, 0] S1x128x128.size inb_S5x128x128_S1x128x128_4_0_0
/-- the whole 1x128 bias row -/
noncomputable abbrev r0_b : Rect S1x128 := Rect.unit (s := S1x128) ![0, 0] S1x128.size inb_S1x128_S1x128_0_0

/-! ## What the body leaves in the output window's buffer -/

/-- Window 9's staging buffer after the body, from the input windows' blocks (aggregates `x0 … x4`, destination rows
    `x5`, stacked neighbour weights `x6`, root weight `x7`, bias `x8`): its one store as a piece. -/
noncomputable def out0 (x0 x1 x2 x3 x4 x5 : Vec F S2000x128 .f32) (x6 : Vec F S5x128x128 .f32) (x7 : Vec F S128x128 .f32)
    (x8 : Vec F S1x128 .f32) : Vec F S2000x128 .f32 :=
  View.canon [⟨r0_s, k0_pay1
    (k0_pay2 (View.ld x5 r0_s) (View.ld x7 r0_w) (View.ld x0 r0_s) (View.ld x6 r0_l0) (View.ld x1 r0_s) (View.ld x6 r0_l1)
      (View.ld x2 r0_s) (View.ld x6 r0_l2))
    (k0_pay3 (View.ld x3 r0_s))
    (View.ld x6 r0_l3) (View.ld x4 r0_s) (View.ld x6 r0_l4) (View.ld x8 r0_b)⟩]

/-- Its store tiles the buffer (checked by evaluation), so it covers it. -/
theorem cover0 (p0 : Vec F S2000x128 .f32) (y : S2000x128.Idx) :
    ∃ pc ∈ ([⟨r0_s, p0⟩] : List (View.Piece (Elt F) S2000x128 .f32)), y ∈ pc.1.set :=
  View.cover_of_tiled [⟨r0_s, p0⟩] S2000x128.size (by rfl) y

/-! ## The pipeline's proof data -/

/-- The proof data of pipeline 0 on core `c`: the arrays as the region finds them (`V`); after the body at point
    `t` each input's buffer at its block and the output's at `out0` of the input blocks; the invariant the scoped
    rest and the generator register, untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0 (iblk0 V c 0 t) (iblk0 V c 1 t) (iblk0 V c 2 t) (iblk0 V c 3 t) (iblk0 V c 4 t) (iblk0 V c 5 t)
        (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t =
    out0 (iblk0 V c 0 t) (iblk0 V c 1 t) (iblk0 V c 2 t) (iblk0 V c 3 t) (iblk0 V c 4 t) (iblk0 V c 5 t)
      (iblk0 V c 6 t) (iblk0 V c 7 t) (iblk0 V c 8 t) := by dsimp only [dat0]

end Cert.KernelIdeal.Hand

end
-- ==== Proof.KI.D1.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the combine kernel with one aggregate (pipeline 1), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store take a whole staging buffer

The rectangles occur in statements only; nothing is evaluated with them (`noncomputable`). -/

noncomputable abbrev r1_0 : Rect S2000x128 := Rect.unit (s := S2000x128) ![0, 0] S2000x128.size inb_S2000x128_S2000x128_0_0
noncomputable abbrev r1_1 : Rect S128x128 := Rect.unit (s := S128x128) ![0, 0] S128x128.size inb_S128x128_S128x128_0_0
noncomputable abbrev r1_2 : Rect S1x128x128 := Rect.unit (s := S1x128x128) ![0, 0, 0] S1x128x128.size inb_S1x128x128_S1x128x128_0_0_0
noncomputable abbrev r1_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out1 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r1_0, k1_pay1 (View.ld x1 r1_0) (View.ld x3 r1_1) (View.ld x0 r1_0) (View.ld x2 r1_2) (View.ld x4 r1_3)⟩]

/-- The one store takes the whole buffer (checked by evaluation), so it covers it. -/
theorem cover1 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The pipeline's proof data -/

/-- The proof data of pipeline 1 on core `c`: the arrays as the region finds them (`V`); after the body at point
    `t` each input's buffer at its block and the output's at `out1` of the input blocks; the invariant is the scoped
    rest and the generator register, untouched; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1 (iblk1 V c 0 t) (iblk1 V c 1 t) (iblk1 V c 2 t) (iblk1 V c 3 t) (iblk1 V c 4 t) := by dsimp only [dat1]

end Cert.KernelIdeal.Hand
-- ==== Proof.KI.D2.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: the combine kernel with one aggregate (pipeline 2), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a whole staging buffer

The rectangles occur in statements only; nothing is evaluated with them (`noncomputable`). -/

noncomputable abbrev r2_0 : Rect S2000x128 := Rect.unit (s := S2000x128) ![0, 0] S2000x128.size inb_S2000x128_S2000x128_0_0
noncomputable abbrev r2_1 : Rect S128x128 := Rect.unit (s := S128x128) ![0, 0] S128x128.size inb_S128x128_S128x128_0_0
noncomputable abbrev r2_2 : Rect S1x128x128 := Rect.unit (s := S1x128x128) ![0, 0, 0] S1x128x128.size inb_S1x128x128_S1x128x128_0_0_0
noncomputable abbrev r2_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out2 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r2_0, k2_pay1 (View.ld x1 r2_0) (View.ld x3 r2_1) (View.ld x0 r2_0) (View.ld x2 r2_2) (View.ld x4 r2_3)⟩]

/-- The one store takes the whole buffer (checked by evaluation), so it covers it. -/
theorem cover2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The pipeline's proof data -/

/-- The proof data of pipeline 2 on core `c`: the arrays as the region finds them (`V`); after the body at point
    `t` each input's buffer at its block and the output's at `out2` of the input blocks; the invariant is the scoped
    rest and the generator register, untouched; nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2 (iblk2 V c 0 t) (iblk2 V c 1 t) (iblk2 V c 2 t) (iblk2 V c 3 t) (iblk2 V c 4 t) := by dsimp only [dat2]

end Cert.KernelIdeal.Hand
-- ==== Proof.KI.D3.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: the combine kernel with one aggregate (pipeline 3), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the one store take a whole staging buffer

The rectangles occur in statements only; nothing is evaluated with them (`noncomputable`). -/

noncomputable abbrev r3_0 : Rect S5000x128 := Rect.unit (s := S5000x128) ![0, 0] S5000x128.size inb_S5000x128_S5000x128_0_0
noncomputable abbrev r3_1 : Rect S128x128 := Rect.unit (s := S128x128) ![0, 0] S128x128.size inb_S128x128_S128x128_0_0
noncomputable abbrev r3_2 : Rect S1x128x128 := Rect.unit (s := S1x128x128) ![0, 0, 0] S1x128x128.size inb_S1x128x128_S1x128x128_0_0_0
noncomputable abbrev r3_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out3 (x0 : Vec F S5000x128 .f32) (x1 : Vec F S5000x128 .f32) (x2 : Vec F S1x128x128 .f32) (x3 : Vec F S128x128 .f32)
    (x4 : Vec F S1x128 .f32) : Vec F S5000x128 .f32 :=
  View.canon [⟨r3_0, k3_pay1 (View.ld x1 r3_0) (View.ld x3 r3_1) (View.ld x0 r3_0) (View.ld x2 r3_2) (View.ld x4 r3_3)⟩]

/-- The one store takes the whole buffer (checked by evaluation), so it covers it. -/
theorem cover3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The pipeline's proof data -/

/-- The proof data of pipeline 3 on core `c`: the arrays as the region finds them (`V`); after the body at point
    `t` each input's buffer at its block and the output's at `out3` of the input blocks; the invariant is the scoped
    rest and the generator register, untouched; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3 (iblk3 V c 0 t) (iblk3 V c 1 t) (iblk3 V c 2 t) (iblk3 V c 3 t) (iblk3 V c 4 t) := by dsimp only [dat3]

end Cert.KernelIdeal.Hand
-- ==== Proof.KI.D4.lean ====
/- Region 4 of @main (pipeline 4): the combine of five aggregates on 2000x128 row blocks. The windows' blocks at a
   point, the contents the body leaves in the output window's staging buffer, and the pipeline's proof data, all at
   a parameter `V`: the TensorCore's buffer contents when the region is entered. -/
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses -/

/-- a whole 2000x128 row block (each aggregate, the destination rows, the output) -/
noncomputable abbrev r4_s : Rect S2000x128 := Rect.unit (s := S2000x128) ![0, 0] S2000x128.size inb_S2000x128_S2000x128_0_0
/-- the whole 128x128 root weight -/
noncomputable abbrev r4_w : Rect S128x128 := Rect.unit (s := S128x128) ![0, 0] S128x128.size inb_S128x128_S128x128_0_0
/-- slice `j` of the stacked 5x128x128 neighbour weights -/
noncomputable abbrev r4_l0 : Rect S5x128x128 := Rect.unit (s := S5x128x128) ![0, 0, 0] S1x128x128.size inb_S5x128x128_S1x128x128_0_0_0
noncomputable abbrev r4_l1 : Rect S5x128x128 := Rect.unit (s := S5x128x128) ![1, 0, 0] S1x128x128.size inb_S5x128x128_S1x128x128_1_0_0
noncomputable abbrev r4_l2 : Rect S5x128x128 := Rect.unit (s := S5x128x128) ![2, 0, 0] S1x128x128.size inb_S5x128x128_S1x128x128_2_0_0
noncomputable abbrev r4_l3 : Rect S5x128x128 := Rect.unit (s := S5x128x128) ![3, 0, 0] S1x128x128.size inb_S5x128x128_S1x128x128_3_0_0
noncomputable abbrev r4_l4 : Rect S5x128x128 := Rect.unit (s := S5x128x128) ![4, 0, 0] S1x128x128.size inb_S5x128x128_S1x128x128_4_0_0
/-- the whole 1x128 bias row -/
noncomputable abbrev r4_b : Rect S1x128 := Rect.unit (s := S1x128) ![0, 0] S1x128.size inb_S1x128_S1x128_0_0

/-! ## What the body leaves in the output window's buffer -/

/-- Window 9's staging buffer after the body, from the input windows' blocks (aggregates `x0 … x4`, destination rows
    `x5`, stacked neighbour weights `x6`, root weight `x7`, bias `x8`): its one store as a piece. -/
noncomputable def out4 (x0 x1 x2 x3 x4 x5 : Vec F S2000x128 .f32) (x6 : Vec F S5x128x128 .f32) (x7 : Vec F S128x128 .f32)
    (x8 : Vec F S1x128 .f32) : Vec F S2000x128 .f32 :=
  View.canon [⟨r4_s, k4_pay1
    (k4_pay2 (View.ld x5 r4_s) (View.ld x7 r4_w) (View.ld x0 r4_s) (View.ld x6 r4_l0) (View.ld x1 r4_s) (View.ld x6 r4_l1)
      (View.ld x2 r4_s) (View.ld x6 r4_l2))
    (k4_pay3 (View.ld x3 r4_s))
    (View.ld x6 r4_l3) (View.ld x4 r4_s) (View.ld x6 r4_l4) (View.ld x8 r4_b)⟩]

/-- Its store tiles the buffer (checked by evaluation), so it covers it. -/
theorem cover4 (p0 : Vec F S2000x128 .f32) (y : S2000x128.Idx) :
    ∃ pc ∈ ([⟨r4_s, p0⟩] : List (View.Piece (Elt F) S2000x128 .f32)), y ∈ pc.1.set :=
  View.cover_of_tiled [⟨r4_s, p0⟩] S2000x128.size (by rfl) y

/-! ## The pipeline's proof data -/

/-- The proof data of pipeline 4 on core `c`: the arrays as the region finds them (`V`); after the body at point
    `t` each input's buffer at its block and the output's at `out4` of the input blocks; the invariant the scoped
    rest and the generator register, untouched; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4 (iblk4 V c 0 t) (iblk4 V c 1 t) (iblk4 V c 2 t) (iblk4 V c 3 t) (iblk4 V c 4 t) (iblk4 V c 5 t)
        (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t =
    out4 (iblk4 V c 0 t) (iblk4 V c 1 t) (iblk4 V c 2 t) (iblk4 V c 3 t) (iblk4 V c 4 t) (iblk4 V c 5 t)
      (iblk4 V c 6 t) (iblk4 V c 7 t) (iblk4 V c 8 t) := by dsimp only [dat4]

end Cert.KernelIdeal.Hand

end
-- ==== Proof.KI.D5.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: the combine kernel with one aggregate (pipeline 5), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: every load and the one store take a whole staging buffer

The rectangles occur in statements only; nothing is evaluated with them (`noncomputable`). -/

noncomputable abbrev r5_0 : Rect S2000x128 := Rect.unit (s := S2000x128) ![0, 0] S2000x128.size inb_S2000x128_S2000x128_0_0
noncomputable abbrev r5_1 : Rect S128x128 := Rect.unit (s := S128x128) ![0, 0] S128x128.size inb_S128x128_S128x128_0_0
noncomputable abbrev r5_2 : Rect S1x128x128 := Rect.unit (s := S1x128x128) ![0, 0, 0] S1x128x128.size inb_S1x128x128_S1x128x128_0_0_0
noncomputable abbrev r5_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out5 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r5_0, k5_pay1 (View.ld x1 r5_0) (View.ld x3 r5_1) (View.ld x0 r5_0) (View.ld x2 r5_2) (View.ld x4 r5_3)⟩]

/-- The one store takes the whole buffer (checked by evaluation), so it covers it. -/
theorem cover5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The pipeline's proof data -/

/-- The proof data of pipeline 5 on core `c`: the arrays as the region finds them (`V`); after the body at point
    `t` each input's buffer at its block and the output's at `out5` of the input blocks; the invariant is the scoped
    rest and the generator register, untouched; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5 (iblk5 V c 0 t) (iblk5 V c 1 t) (iblk5 V c 2 t) (iblk5 V c 3 t) (iblk5 V c 4 t) := by dsimp only [dat5]

end Cert.KernelIdeal.Hand
-- ==== Proof.KI.D6.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6 of @main: the combine kernel with one aggregate (pipeline 6), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: every load and the one store take a whole staging buffer

The rectangles occur in statements only; nothing is evaluated with them (`noncomputable`). -/

noncomputable abbrev r6_0 : Rect S2000x128 := Rect.unit (s := S2000x128) ![0, 0] S2000x128.size inb_S2000x128_S2000x128_0_0
noncomputable abbrev r6_1 : Rect S128x128 := Rect.unit (s := S128x128) ![0, 0] S128x128.size inb_S128x128_S128x128_0_0
noncomputable abbrev r6_2 : Rect S1x128x128 := Rect.unit (s := S1x128x128) ![0, 0, 0] S1x128x128.size inb_S1x128x128_S1x128x128_0_0_0
noncomputable abbrev r6_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out6 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r6_0, k6_pay1 (View.ld x1 r6_0) (View.ld x3 r6_1) (View.ld x0 r6_0) (View.ld x2 r6_2) (View.ld x4 r6_3)⟩]

/-- The one store takes the whole buffer (checked by evaluation), so it covers it. -/
theorem cover6 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The pipeline's proof data -/

/-- The proof data of pipeline 6 on core `c`: the arrays as the region finds them (`V`); after the body at point
    `t` each input's buffer at its block and the output's at `out6` of the input blocks; the invariant is the scoped
    rest and the generator register, untouched; nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t =
    out6 (iblk6 V c 0 t) (iblk6 V c 1 t) (iblk6 V c 2 t) (iblk6 V c 3 t) (iblk6 V c 4 t) := by dsimp only [dat6]

end Cert.KernelIdeal.Hand
-- ==== Proof.KI.D7.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7 of @main: the combine kernel with one aggregate (pipeline 7), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: every load and the one store take a whole staging buffer

The rectangles occur in statements only; nothing is evaluated with them (`noncomputable`). -/

noncomputable abbrev r7_0 : Rect S5000x128 := Rect.unit (s := S5000x128) ![0, 0] S5000x128.size inb_S5000x128_S5000x128_0_0
noncomputable abbrev r7_1 : Rect S128x128 := Rect.unit (s := S128x128) ![0, 0] S128x128.size inb_S128x128_S128x128_0_0
noncomputable abbrev r7_2 : Rect S1x128x128 := Rect.unit (s := S1x128x128) ![0, 0, 0] S1x128x128.size inb_S1x128x128_S1x128x128_0_0_0
noncomputable abbrev r7_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out7 (x0 : Vec F S5000x128 .f32) (x1 : Vec F S5000x128 .f32) (x2 : Vec F S1x128x128 .f32) (x3 : Vec F S128x128 .f32)
    (x4 : Vec F S1x128 .f32) : Vec F S5000x128 .f32 :=
  View.canon [⟨r7_0, k7_pay1 (View.ld x1 r7_0) (View.ld x3 r7_1) (View.ld x0 r7_0) (View.ld x2 r7_2) (View.ld x4 r7_3)⟩]

/-- The one store takes the whole buffer (checked by evaluation), so it covers it. -/
theorem cover7 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The pipeline's proof data -/

/-- The proof data of pipeline 7 on core `c`: the arrays as the region finds them (`V`); after the body at point
    `t` each input's buffer at its block and the output's at `out7` of the input blocks; the invariant is the scoped
    rest and the generator register, untouched; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t =
    out7 (iblk7 V c 0 t) (iblk7 V c 1 t) (iblk7 V c 2 t) (iblk7 V c 3 t) (iblk7 V c 4 t) := by dsimp only [dat7]

end Cert.KernelIdeal.Hand
-- ==== Proof.KI.D8.lean ====
/- Region 8 of @main (pipeline 8): the combine of five aggregates on 2000x128 row blocks. The windows' blocks at a
   point, the contents the body leaves in the output window's staging buffer, and the pipeline's proof data, all at
   a parameter `V`: the TensorCore's buffer contents when the region is entered. -/
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses -/

/-- a whole 2000x128 row block (each aggregate, the destination rows, the output) -/
noncomputable abbrev r8_s : Rect S2000x128 := Rect.unit (s := S2000x128) ![0, 0] S2000x128.size inb_S2000x128_S2000x128_0_0
/-- the whole 128x128 root weight -/
noncomputable abbrev r8_w : Rect S128x128 := Rect.unit (s := S128x128) ![0, 0] S128x128.size inb_S128x128_S128x128_0_0
/-- slice `j` of the stacked 5x128x128 neighbour weights -/
noncomputable abbrev r8_l0 : Rect S5x128x128 := Rect.unit (s := S5x128x128) ![0, 0, 0] S1x128x128.size inb_S5x128x128_S1x128x128_0_0_0
noncomputable abbrev r8_l1 : Rect S5x128x128 := Rect.unit (s := S5x128x128) ![1, 0, 0] S1x128x128.size inb_S5x128x128_S1x128x128_1_0_0
noncomputable abbrev r8_l2 : Rect S5x128x128 := Rect.unit (s := S5x128x128) ![2, 0, 0] S1x128x128.size inb_S5x128x128_S1x128x128_2_0_0
noncomputable abbrev r8_l3 : Rect S5x128x128 := Rect.unit (s := S5x128x128) ![3, 0, 0] S1x128x128.size inb_S5x128x128_S1x128x128_3_0_0
noncomputable abbrev r8_l4 : Rect S5x128x128 := Rect.unit (s := S5x128x128) ![4, 0, 0] S1x128x128.size inb_S5x128x128_S1x128x128_4_0_0
/-- the whole 1x128 bias row -/
noncomputable abbrev r8_b : Rect S1x128 := Rect.unit (s := S1x128) ![0, 0] S1x128.size inb_S1x128_S1x128_0_0

/-! ## What the body leaves in the output window's buffer -/

/-- Window 9's staging buffer after the body, from the input windows' blocks (aggregates `x0 … x4`, destination rows
    `x5`, stacked neighbour weights `x6`, root weight `x7`, bias `x8`): its one store as a piece. -/
noncomputable def out8 (x0 x1 x2 x3 x4 x5 : Vec F S2000x128 .f32) (x6 : Vec F S5x128x128 .f32) (x7 : Vec F S128x128 .f32)
    (x8 : Vec F S1x128 .f32) : Vec F S2000x128 .f32 :=
  View.canon [⟨r8_s, k8_pay1
    (k8_pay2 (View.ld x5 r8_s) (View.ld x7 r8_w) (View.ld x0 r8_s) (View.ld x6 r8_l0) (View.ld x1 r8_s) (View.ld x6 r8_l1)
      (View.ld x2 r8_s) (View.ld x6 r8_l2))
    (k8_pay3 (View.ld x3 r8_s))
    (View.ld x6 r8_l3) (View.ld x4 r8_s) (View.ld x6 r8_l4) (View.ld x8 r8_b)⟩]

/-- Its store tiles the buffer (checked by evaluation), so it covers it. -/
theorem cover8 (p0 : Vec F S2000x128 .f32) (y : S2000x128.Idx) :
    ∃ pc ∈ ([⟨r8_s, p0⟩] : List (View.Piece (Elt F) S2000x128 .f32)), y ∈ pc.1.set :=
  View.cover_of_tiled [⟨r8_s, p0⟩] S2000x128.size (by rfl) y

/-! ## The pipeline's proof data -/

/-- The proof data of pipeline 8 on core `c`: the arrays as the region finds them (`V`); after the body at point
    `t` each input's buffer at its block and the output's at `out8` of the input blocks; the invariant the scoped
    rest and the generator register, untouched; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8 (iblk8 V c 0 t) (iblk8 V c 1 t) (iblk8 V c 2 t) (iblk8 V c 3 t) (iblk8 V c 4 t) (iblk8 V c 5 t)
        (iblk8 V c 6 t) (iblk8 V c 7 t) (iblk8 V c 8 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t =
    out8 (iblk8 V c 0 t) (iblk8 V c 1 t) (iblk8 V c 2 t) (iblk8 V c 3 t) (iblk8 V c 4 t) (iblk8 V c 5 t)
      (iblk8 V c 6 t) (iblk8 V c 7 t) (iblk8 V c 8 t) := by dsimp only [dat8]

end Cert.KernelIdeal.Hand

end
-- ==== Proof.KI.D9.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: the combine kernel with one aggregate (pipeline 9), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses: every load and the one store take a whole staging buffer

The rectangles occur in statements only; nothing is evaluated with them (`noncomputable`). -/

noncomputable abbrev r9_0 : Rect S2000x128 := Rect.unit (s := S2000x128) ![0, 0] S2000x128.size inb_S2000x128_S2000x128_0_0
noncomputable abbrev r9_1 : Rect S128x128 := Rect.unit (s := S128x128) ![0, 0] S128x128.size inb_S128x128_S128x128_0_0
noncomputable abbrev r9_2 : Rect S1x128x128 := Rect.unit (s := S1x128x128) ![0, 0, 0] S1x128x128.size inb_S1x128x128_S1x128x128_0_0_0
noncomputable abbrev r9_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out9 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r9_0, k9_pay1 (View.ld x1 r9_0) (View.ld x3 r9_1) (View.ld x0 r9_0) (View.ld x2 r9_2) (View.ld x4 r9_3)⟩]

/-- The one store takes the whole buffer (checked by evaluation), so it covers it. -/
theorem cover9 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The pipeline's proof data -/

/-- The proof data of pipeline 9 on core `c`: the arrays as the region finds them (`V`); after the body at point
    `t` each input's buffer at its block and the output's at `out9` of the input blocks; the invariant is the scoped
    rest and the generator register, untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t =
    out9 (iblk9 V c 0 t) (iblk9 V c 1 t) (iblk9 V c 2 t) (iblk9 V c 3 t) (iblk9 V c 4 t) := by dsimp only [dat9]

end Cert.KernelIdeal.Hand
-- ==== Proof.KI.D10.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: the combine kernel with one aggregate (pipeline 10), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The body's accesses: every load and the one store take a whole staging buffer

The rectangles occur in statements only; nothing is evaluated with them (`noncomputable`). -/

noncomputable abbrev r10_0 : Rect S2000x128 := Rect.unit (s := S2000x128) ![0, 0] S2000x128.size inb_S2000x128_S2000x128_0_0
noncomputable abbrev r10_1 : Rect S128x128 := Rect.unit (s := S128x128) ![0, 0] S128x128.size inb_S128x128_S128x128_0_0
noncomputable abbrev r10_2 : Rect S1x128x128 := Rect.unit (s := S1x128x128) ![0, 0, 0] S1x128x128.size inb_S1x128x128_S1x128x128_0_0_0
noncomputable abbrev r10_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out10 (x0 : Vec F S2000x128 .f32) (x1 : Vec F S2000x128 .f32) (x2 : Vec F S1x128x128 .f32) (x3 : Vec F S128x128 .f32)
    (x4 : Vec F S1x128 .f32) : Vec F S2000x128 .f32 :=
  View.canon [⟨r10_0, k10_pay1 (View.ld x1 r10_0) (View.ld x3 r10_1) (View.ld x0 r10_0) (View.ld x2 r10_2) (View.ld x4 r10_3)⟩]

/-- The one store takes the whole buffer (checked by evaluation), so it covers it. -/
theorem cover10 (p0 : Vec F S2000x128 .f32) (y : S2000x128.Idx) :
    ∃ pc ∈ ([⟨r10_0, p0⟩] : List (View.Piece (Elt F) S2000x128 .f32)), y ∈ pc.1.set :=
  View.cover_of_tiled [⟨r10_0, p0⟩] S2000x128.size (by rfl) y

/-! ## The pipeline's proof data -/

/-- The proof data of pipeline 10 on core `c`: the arrays as the region finds them (`V`); after the body at point
    `t` each input's buffer at its block and the output's at `out10` of the input blocks; the invariant is the scoped
    rest and the generator register, untouched; nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t =
    out10 (iblk10 V c 0 t) (iblk10 V c 1 t) (iblk10 V c 2 t) (iblk10 V c 3 t) (iblk10 V c 4 t) := by dsimp only [dat10]

end Cert.KernelIdeal.Hand
-- ==== Proof.KI.D11.lean ====
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11 of @main: the combine kernel with one aggregate (pipeline 11), at the entry contents `V`

Windows: 0 the aggregate's row block, 1 the destination features' row block, 2 the aggregate's weight `[1,128,128]`,
3 the destination weight `[128,128]`, 4 the bias row `[1,128]`, 5 the output's row block. The body leaves in the
output block `max (x_dst ⬝ Wr + agg ⬝ Wl[0] + bias, 0)` with both products on `bf16`-rounded operands. -/

/-! ## The windows' blocks -/

/-- Window `w`'s block at point `t`, read off its array as the region finds it (`V`). -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's accesses: every load and the one store take a whole staging buffer

The rectangles occur in statements only; nothing is evaluated with them (`noncomputable`). -/

noncomputable abbrev r11_0 : Rect S5000x128 := Rect.unit (s := S5000x128) ![0, 0] S5000x128.size inb_S5000x128_S5000x128_0_0
noncomputable abbrev r11_1 : Rect S128x128 := Rect.unit (s := S128x128) ![0, 0] S128x128.size inb_S128x128_S128x128_0_0
noncomputable abbrev r11_2 : Rect S1x128x128 := Rect.unit (s := S1x128x128) ![0, 0, 0] S1x128x128.size inb_S1x128x128_S1x128x128_0_0_0
noncomputable abbrev r11_3 : Rect S1x128 := Rect.unit (s := S1x128) ![0, 0] S1x128.size inb_S1x128_S1x128_0_0

/-! ## What the body leaves in the output window's buffer -/

/-- Window 5's staging buffer after the body, from the input windows' blocks `x0 … x4` (in window order): its one
    store as a piece. The payload takes its arguments in the order the body loads them: the destination block
    (window 1), the destination weight (window 3), the aggregate block (window 0), the aggregate's weight
    (window 2), the bias (window 4). -/
noncomputable def out11 (x0 : Vec F S5000x128 .f32) (x1 : Vec F S5000x128 .f32) (x2 : Vec F S1x128x128 .f32) (x3 : Vec F S128x128 .f32)
    (x4 : Vec F S1x128 .f32) : Vec F S5000x128 .f32 :=
  View.canon [⟨r11_0, k11_pay1 (View.ld x1 r11_0) (View.ld x3 r11_1) (View.ld x0 r11_0) (View.ld x2 r11_2) (View.ld x4 r11_3)⟩]

/-- The one store takes the whole buffer (checked by evaluation), so it covers it. -/
theorem cover11 (p0 : Vec F S5000x128 .f32) (y : S5000x128.Idx) :
    ∃ pc ∈ ([⟨r11_0, p0⟩] : List (View.Piece (Elt F) S5000x128 .f32)), y ∈ pc.1.set :=
  View.cover_of_tiled [⟨r11_0, p0⟩] S5000x128.size (by rfl) y

/-! ## The pipeline's proof data -/

/-- The proof data of pipeline 11 on core `c`: the arrays as the region finds them (`V`); after the body at point
    `t` each input's buffer at its block and the output's at `out11` of the input blocks; the invariant is the scoped
    rest and the generator register, untouched; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t =
    out11 (iblk11 V c 0 t) (iblk11 V c 1 t) (iblk11 V c 2 t) (iblk11 V c 3 t) (iblk11 V c 4 t) := by dsimp only [dat11]

end Cert.KernelIdeal.Hand
-- ==== Proof.KI.D12.lean ====
/- Region 12 of @main (custom_call 12, `cc12__mlp_head_kernel`, pipeline 12): the definitions of its half, at a
   PARAMETER `V` — the TensorCore's buffer contents when the region is entered. Each window's block at a point
   (`iblk12`), the rectangles the body loads and stores through, the output window's staging buffer after the body
   (`out12`: its one store as a piece, the payload the skeleton's over the loads of the five input blocks), the
   store's cover of the buffer (`cover12`), and the pipeline's proof data (`dat12`) with its projections. -/
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents (`View.cover_of_tiled`): the elaborator's structural look
-- recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses -/

/-- The whole of the row block `x` (window 0). -/
noncomputable abbrev r12_0 : Rect S2000x128 := Rect.unit (s := S2000x128) ![0, 0] S2000x128.size inb_S2000x128_S2000x128_0_0
/-- The whole of the first layer's weights (window 1). -/
noncomputable abbrev r12_1 : Rect S128x128 := Rect.unit (s := S128x128) ![0, 0] S128x128.size inb_S128x128_S128x128_0_0
/-- The whole of the first layer's bias (window 2). -/
noncomputable abbrev r12_2 : Rect S1x128 := Rect.unit (s := S1x128) ![0, 0] S1x128.size inb_S1x128_S1x128_0_0
/-- The whole of the second layer's weights (window 3). -/
noncomputable abbrev r12_3 : Rect S128x2 := Rect.unit (s := S128x2) ![0, 0] S128x2.size inb_S128x2_S128x2_0_0
/-- The whole of the second layer's bias (window 4). -/
noncomputable abbrev r12_4 : Rect S1x2 := Rect.unit (s := S1x2) ![0, 0] S1x2.size inb_S1x2_S1x2_0_0
/-- The whole of the output block (window 5): the body's one store. -/
noncomputable abbrev r12_5 : Rect S2000x2 := Rect.unit (s := S2000x2) ![0, 0] S2000x2.size inb_S2000x2_S2000x2_0_0

/-! ## What the body leaves in the output window's buffer -/

/-- Window 5's staging buffer after the body, from the input windows' blocks: its one store as a piece
    (Lib/Pipeline/FrameBody.lean `View.canon`), the payload the skeleton's, its arguments the five loads in the
    skeleton's order, each through its rectangle. -/
noncomputable def out12 (x0 : Vec F S2000x128 .f32) (x1 : Vec F S128x128 .f32) (x2 : Vec F S1x128 .f32) (x3 : Vec F S128x2 .f32)
    (x4 : Vec F S1x2 .f32) : Vec F S2000x2 .f32 :=
  View.canon [⟨r12_5, k12_pay1 (View.ld x0 r12_0) (View.ld x1 r12_1) (View.ld x2 r12_2) (View.ld x3 r12_3) (View.ld x4 r12_4)⟩]

/-- The store tiles the buffer (checked by evaluation), so it covers it. -/
theorem cover12 (p0 : Vec F S2000x2 .f32) (y : S2000x2.Idx) :
    ∃ pc ∈ ([⟨r12_5, p0⟩] : List (View.Piece (Elt F) S2000x2 .f32)), y ∈ pc.1.set :=
  View.cover_of_tiled [⟨r12_5, p0⟩] S2000x2.size (by rfl) y

/-! ## The pipeline's proof data -/

/-- The proof data of pipeline 12 on core `c`: the arrays as the region finds them (`V`); after the body at
    point `t` each input's buffer at its block and the output's at `out12` of the input blocks; the invariant the
    class's (Lib/Pipeline/Frame.lean `ΦA`: the scoped rest and the generator register, untouched); nothing owed;
    full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents (the proof data's definition projected, by `dsimp`). -/
theorem A_eq12 (c : Dev nD) (w : Fin cfg12.W) : (dat12 V c).A w = V c (Pipeline.arrRef spec12 w) := by
  dsimp only [dat12]

/-- What the body leaves, window by window (the proof data's `match` reduced by `dsimp`, never `rfl`). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t =
    out12 (iblk12 V c 0 t) (iblk12 V c 1 t) (iblk12 V c 2 t) (iblk12 V c 3 t) (iblk12 V c 4 t) := by dsimp only [dat12]

end Regions

end Cert.KernelIdeal.Hand

end
-- ==== Proof.KI.D13.lean ====
/- Region 13 of @main (custom_call 13, `cc13__mlp_head_kernel`, pipeline 13): the definitions of its half, at a
   PARAMETER `V` — the TensorCore's buffer contents when the region is entered. Each window's block at a point
   (`iblk13`), the rectangles the body loads and stores through, the output window's staging buffer after the body
   (`out13`: its one store as a piece, the payload the skeleton's over the loads of the five input blocks), the
   store's cover of the buffer (`cover13`), and the pipeline's proof data (`dat13`) with its projections. -/
import proofs.«125545_j64845416235624_1_alg».proof.Proof.Gen.KernelIdeal.Launch
import proofs.«125545_j64845416235624_1_alg».proof.Proof.Gen.KernelIdeal.Skeleton
import proofs.«125545_j64845416235624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents (`View.cover_of_tiled`): the elaborator's structural look
-- recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The body's accesses -/

/-- The whole of the row block `x` (window 0). -/
noncomputable abbrev r13_0 : Rect S2000x128 := Rect.unit (s := S2000x128) ![0, 0] S2000x128.size inb_S2000x128_S2000x128_0_0
/-- The whole of the first layer's weights (window 1). -/
noncomputable abbrev r13_1 : Rect S128x128 := Rect.unit (s := S128x128) ![0, 0] S128x128.size inb_S128x128_S128x128_0_0
/-- The whole of the first layer's bias (window 2). -/
noncomputable abbrev r13_2 : Rect S1x128 := Rect.unit (s := S1x128) ![0, 0] S1x128.size inb_S1x128_S1x128_0_0
/-- The whole of the second layer's weights (window 3). -/
noncomputable abbrev r13_3 : Rect S128x2 := Rect.unit (s := S128x2) ![0, 0] S128x2.size inb_S128x2_S128x2_0_0
/-- The whole of the second layer's bias (window 4). -/
noncomputable abbrev r13_4 : Rect S1x2 := Rect.unit (s := S1x2) ![0, 0] S1x2.size inb_S1x2_S1x2_0_0
/-- The whole of the output block (window 5): the body's one store. -/
noncomputable abbrev r13_5 : Rect S2000x2 := Rect.unit (s := S2000x2) ![0, 0] S2000x2.size inb_S2000x2_S2000x2_0_0

/-! ## What the body leaves in the output window's buffer -/

/-- Window 5's staging buffer after the body, from the input windows' blocks: its one store as a piece
    (Lib/Pipeline/FrameBody.lean `View.canon`), the payload the skeleton's, its arguments the five loads in the
    skeleton's order, each through its rectangle. -/
noncomputable def out13 (x0 : Vec F S2000x128 .f32) (x1 : Vec F S128x128 .f32) (x2 : Vec F S1x128 .f32) (x3 : Vec F S128x2 .f32)
    (x4 : Vec F S1x2 .f32) : Vec F S2000x2 .f32 :=
  View.canon [⟨r13_5, k13_pay1 (View.ld x0 r13_0) (View.ld x1 r13_1) (View.ld x2 r13_2) (View.ld x3 r13_3) (View.ld x4 r13_4)⟩]

/-- The store tiles the buffer (checked by evaluation), so it covers it. -/
theorem cover13 (p0 : Vec F S2000x2 .f32) (y : S2000x2.Idx) :
    ∃ pc ∈ ([⟨r13_5, p0⟩] : List (View.Piece (Elt F) S2000x2 .f32)), y ∈ pc.1.set :=
  View.cover_of_tiled [⟨r13_5, p0⟩] S2000x2.size (by rfl) y

/-! ## The pipeline's proof data -/

/-- The proof data of pipeline 13 on core `c`: the arrays as the region finds them (`V`); after the body at
    point `t` each input's buffer at its block and the output's at `out13` of the input blocks; the invariant the
    class's (Lib/Pipeline/Frame.lean `ΦA`: the scoped rest and the generator register, untouched); nothing owed;
    full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13 (iblk13 V c 0 t) (iblk13 V c 1 t) (iblk13 V c 2 t) (iblk13 V c 3 t) (iblk13 V c 4 t)
  Φ _ := Pipeline.ΦA spec13 c
  q _ := fullShare
  owed _ := 0

/-- The proof data's arrays are the region-entry contents (the proof data's definition projected, by `dsimp`). -/
theorem A_eq13 (c : Dev nD) (w : Fin cfg13.W) : (dat13 V c).A w = V c (Pipeline.arrRef spec13 w) := by
  dsimp only [dat13]

/-- What the body leaves, window by window (the proof data's `match` reduced by `dsimp`, never `rfl`). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t =
    out13 (iblk13 V c 0 t) (iblk13 V c 1 t) (iblk13 V c 2 t) (iblk13 V c 3 t) (iblk13 V c 4 t) := by dsimp only [dat13]

end Regions

end Cert.KernelIdeal.Hand

end
-- ==== Proof.KI.Fold.lean ====
/- The buffer contents at every boundary of @main's 44 items (30 lines of host operations, 14 kernel regions), a fold
   from the launch memory: after a line of operations what the operations compute from the contents before it; at a
   region's exit the region's arrays at what its pipeline leaves and every other buffer as entered. Per region, its
   entry and exit contents by name, and the two facts that put its arrays back among the unscoped buffers. -/
import proofs.«125545_j64845416235624_1_alg».proof.Proof.KI.D0
import proofs.«125545_j64845416235624_1_alg».proof.Proof.KI.D1
import proofs.«125545_j64845416235624_1_alg».proof.Proof.KI.D2
import proofs.«125545_j64845416235624_1_alg».proof.Proof.KI.D3
import proofs.«125545_j64845416235624_1_alg».proof.Proof.KI.D4
import proofs.«125545_j64845416235624_1_alg».proof.Proof.KI.D5
import proofs.«125545_j64845416235624_1_alg».proof.Proof.KI.D6
import proofs.«125545_j64845416235624_1_alg».proof.Proof.KI.D7
import proofs.«125545_j64845416235624_1_alg».proof.Proof.KI.D8
import proofs.«125545_j64845416235624_1_alg».proof.Proof.KI.D9
import proofs.«125545_j64845416235624_1_alg».proof.Proof.KI.D10
import proofs.«125545_j64845416235624_1_alg».proof.Proof.KI.D11
import proofs.«125545_j64845416235624_1_alg».proof.Proof.KI.D12
import proofs.«125545_j64845416235624_1_alg».proof.Proof.KI.D13

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffer contents at each boundary of @main's items: a fold from the launch memory -/

variable (m : (ℓ : Loc nD τ sig) → Buf (Elt F) ℓ) (ρ : Dev nD → PrngReg)

/-- Core `c`'s buffers at launch. -/
noncomputable abbrev W0 : Dev nD → Valuation τ sig (Elt F) := fun c b => (s₀ m ρ).mem ((c : Dev nD), b)
/-- The same read at the TensorCore's references. -/
noncomputable abbrev V0 : (c : Dev nD) → (b : Ref sig .tc) → Buf (Elt F) ((c : Thread nD τ).loc b) := fun c b => W0 m ρ c b

/-- After item 1, the operations `main_part0_ops0`. -/
noncomputable abbrev W1 : Dev nD → Valuation τ sig (Elt F) := fun c => StableHlo.after main_part0_ops0 (W0 m ρ c)
noncomputable abbrev V1 : (c : Dev nD) → (b : Ref sig .tc) → Buf (Elt F) ((c : Thread nD τ).loc b) := fun c b => W1 m ρ c b

/-- After item 2, the operations `main_part1_ops0`. -/
noncomputable abbrev W2 : Dev nD → Valuation τ sig (Elt F) := fun c => StableHlo.after main_part1_ops0 (W1 m ρ c)
noncomputable abbrev V2 : (c : Dev nD) → (b : Ref sig .tc) → Buf (Elt F) ((c : Thread nD τ).loc b) := fun c b => W2 m ρ c b

/-- After item 3, the operations `main_part2_ops0`. -/
noncomputable abbrev W3 : Dev nD → Valuation τ sig (Elt F) := fun c => StableHlo.after main_part2_ops0 (W2 m ρ c)
noncomputable abbrev V3 : (c : Dev nD) → (b : Ref sig .tc) → Buf (Elt F) ((c : Thread nD τ).loc b) := fun c b => W3 m ρ c b

/-- After item 4, the operations `main_part3_ops0`. -/
noncomputable abbrev W4 : Dev nD → Valuation τ sig (Elt F) := fun c => StableHlo.after main_part3_ops0 (W3 m ρ c)
noncomputable abbrev V4 : (c : Dev nD) → (b : Ref sig .tc) → Buf (Elt F) ((c : Thread nD τ).loc b) := fun c b => W4 m ρ c b

/-- After item 5, the operations `main_part4_ops0`. -/
noncomputable abbrev W5 : Dev nD → Valuation τ sig (Elt F) := fun c => StableHlo.after main_part4_ops0 (W4 m ρ c)
noncomputable abbrev V5 : (c : Dev nD) → (b : Ref sig .tc) → Buf (Elt F) ((c : Thread nD τ).loc b) := fun c b => W5 m ρ c b

/-- Region 0 (item 6) is entered from the contents after item 5. -/
noncomputable abbrev Win0 : Dev nD → Valuation τ sig (Elt F) := W5 m ρ
noncomputable abbrev Vin0 : (c : Dev nD) → (b : Ref sig .tc) → Buf (Elt F) ((c : Thread nD τ).loc b) := V5 m ρ
/-- At region 0's exit: its arrays at what the pipeline leaves (the inputs as entered, each output's write-backs
    folded), every other buffer as entered. -/
noncomputable def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
noncomputable abbrev V6 : (c : Dev nD) → (b : Ref sig .tc) → Buf (Elt F) ((c : Thread nD τ).loc b) := fun c b => W6 m ρ c b
noncomputable abbrev Wout0 : Dev nD → Valuation τ sig (Elt F) := W6 m ρ
noncomputable abbrev Vout0 : (c : Dev nD) → (b : Ref sig .tc) → Buf (Elt F) ((c : Thread nD τ).loc b) := V6 m ρ
/-- At region 0's exit each of its arrays holds what the pipeline leaves, and every other buffer what it held at entry. -/
theorem hF0 (c : Dev nD) (w : Fin cfg0.W) : (dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)

/-- After item 7, the operations `main_part4_ops1`. -/
noncomputable abbrev W7 : Dev nD → Valuation τ sig (Elt F) := fun c => StableHlo.after main_part4_ops1 (W6 m ρ c)
noncomputable abbrev V7 : (c : Dev nD) → (b : Ref sig .tc) → Buf (Elt F) ((c : Thread nD τ).loc b) := fun c b => W7 m ρ c b

/-- After item 8, the operations `main_part5_ops0`. -/
noncomputable abbrev W8 : Dev nD → Valuation τ sig (Elt F) := fun c => StableHlo.after main_part5_ops0 (W7 m ρ c)
noncomputable abbrev V8 : (c : Dev nD) → (b : Ref sig .tc) → Buf (Elt F) ((c : Thread nD τ).loc b) := fun c b => W8 m ρ c b

/-- Region 1 (item 9) is entered from the contents after item 8. -/
noncomputable abbrev Win1 : Dev nD → Valuation τ sig (Elt F) := W8 m ρ
noncomputable abbrev Vin1 : (c : Dev nD) → (b : Ref sig .tc) → Buf (Elt F) ((c : Thread nD τ).loc b) := V8 m ρ
/-- At region 1's exit: its arrays at what the pipeline leaves (the inputs as entered, each output's write-backs
    folded), every other buffer as entered. -/
noncomputable def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
noncomputable abbrev V9 : (c : Dev nD) → (b : Ref sig .tc) → Buf (Elt F) ((c : Thread nD τ).loc b) := fun c b => W9 m ρ c b
noncomputable abbrev Wout1 : Dev nD → Valuation τ sig (Elt F) := W9 m ρ
noncomputable abbrev Vout1 : (c : Dev nD) → (b : Ref sig .tc) → Buf (Elt F) ((c : Thread nD τ).loc b) := V9 m ρ
/-- At region 1's exit each of its arrays holds what the pipeline leaves, and every other buffer what it held at entry. -/
theorem hF1 (c : Dev nD) (w : Fin cfg1.W) : (dat1 (Vin1 m ρ) c).arrAt w cfg1.N = Vout1 m ρ c (Pipeline.arrRef spec1 w) :=
  (W9_arr m ρ c w).symm
theorem hrest1 (c : Dev nD) : ∀ b, b ∉ Finset.univ.image (Pipeline.arrRef spec1) → Vout1 m ρ c b = Vin1 m ρ c b :=
  fun b hb => W9_of_ne m ρ c b fun w e => hb (Finset.mem_image.mpr ⟨w, Finset.mem_univ _, e⟩)

/-- After item 10, the operations `main_part5_ops1`. -/
noncomputable abbrev W10 : Dev nD → Valuation τ sig (Elt F) := fun c => StableHlo.after main_part5_ops1 (W9 m ρ c)
noncomputable abbrev V10 : (c : Dev nD) → (b : Ref sig .tc) → Buf (Elt F) ((c : Thread nD τ).loc b) := fun c b => W10 m ρ c b

/-- Region 2 (item 11) is entered from the contents after item 10. -/
noncomputable abbrev Win2 : Dev nD → Valuation τ sig (Elt F) := W10 m ρ
noncomputable abbrev Vin2 : (c : Dev nD) → (b : Ref sig .tc) → Buf (Elt F) ((c : Thread nD τ).loc b) := V10 m ρ
/-- At region 2's exit: its arrays at what the pipeline leaves (the inputs as entered, each output's write-backs
    folded), every other buffer as entered. -/
noncomputable def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
noncomputable abbrev V11 : (c : Dev nD) → (b : Ref sig .tc) → Buf (Elt F) ((c : Thread nD τ).loc b) := fun c b => W11 m ρ c b
noncomputable abbrev Wout2 : Dev nD → Valuation τ sig (Elt F) := W11 m ρ
noncomputable abbrev Vout2 : (c : Dev nD) → (b : Ref sig .tc) → Buf (Elt F) ((c : Thread nD τ).loc b) := V11 m ρ
/-- At region 2's exit each of its arrays holds what the pipeline leaves, and every other buffer what it held at entry. -/
theorem hF2 (c : Dev nD) (w : Fin cfg2.W) : (dat2 (Vin2 m ρ) c).arrAt w cfg2.N = Vout2 m ρ c (Pipeline.arrRef spec2 w) :=
  (W11_arr m ρ c w).symm
theorem hrest2 (c : Dev nD) : ∀ b, b ∉ Finset.univ.image (Pipeline.arrRef spec2) → Vout2 m ρ c b = Vin2 m ρ c b :=
  fun b hb => W11_of_ne m ρ c b fun w e => hb (Finset.mem_image.mpr ⟨w, Finset.mem_univ _, e⟩)

/-- After item 12, the operations `main_part5_ops2`. -/
noncomputable abbrev W12 : Dev nD → Valuation τ sig (Elt F) := fun c => StableHlo.after main_part5_ops2 (W11 m ρ c)
noncomputable abbrev V12 : (c : Dev nD) → (b : Ref sig .tc) → Buf (Elt F) ((c : Thread nD τ).loc b) := fun c b => W12 m ρ c b

/-- Region 3 (item 13) is entered from the contents after item 12. -/
noncomputable abbrev Win3 : Dev nD → Valuation τ sig (Elt F) := W12 m ρ
noncomputable abbrev Vin3 : (c : Dev nD) → (b : Ref sig .tc) → Buf (Elt F) ((c : Thread nD τ).loc b) := V12 m ρ
/-- At region 3's exit: its arrays at what the pipeline leaves (the inputs as entered, each output's write-backs
    folded), every other buffer as entered. -/
noncomputable def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
noncomputable abbrev V13 : (c : Dev nD) → (b : Ref sig .tc) → Buf (Elt F) ((c : Thread nD τ).loc b) := fun c b => W13 m ρ c b
noncomputable abbrev Wout3 : Dev nD → Valuation τ sig (Elt F) := W13 m ρ
noncomputable abbrev Vout3 : (c : Dev nD) → (b : Ref sig .tc) → Buf (Elt F) ((c : Thread nD τ).loc b) := V13 m ρ
/-- At region 3's exit each of its arrays holds what the pipeline leaves, and every other buffer what it held at entry. -/
theorem hF3 (c : Dev nD) (w : Fin cfg3.W) : (dat3 (Vin3 m ρ) c).arrAt w cfg3.N = Vout3 m ρ c (Pipeline.arrRef spec3 w) :=
  (W13_arr m ρ c w).symm
theorem hrest3 (c : Dev nD) : ∀ b, b ∉ Finset.univ.image (Pipeline.arrRef spec3) → Vout3 m ρ c b = Vin3 m ρ c b :=
  fun b hb => W13_of_ne m ρ c b fun w e => hb (Finset.mem_image.mpr ⟨w, Finset.mem_univ _, e⟩)

/-- After item 14, the operations `main_part5_ops3`. -/
noncomputable abbrev W14 : Dev nD → Valuation τ sig (Elt F) := fun c => StableHlo.after main_part5_ops3 (W13 m ρ c)
noncomputable abbrev V14 : (c : Dev nD) → (b : Ref sig .tc) → Buf (Elt F) ((c : Thread nD τ).loc b) := fun c b => W14 m ρ c b

/-- After item 15, the operations `main_part6_ops0`. -/
noncomputable abbrev W15 : Dev nD → Valuation τ sig (Elt F) := fun c => StableHlo.after main_part6_ops0 (W14 m ρ c)
noncomputable abbrev V15 : (c : Dev nD) → (b : Ref sig .tc) → Buf (Elt F) ((c : Thread nD τ).loc b) := fun c b => W15 m ρ c b

/-- After item 16, the operations `main_part7_ops0`. -/
noncomputable abbrev W16 : Dev nD → Valuation τ sig (Elt F) := fun c => StableHlo.after main_part7_ops0 (W15 m ρ c)
noncomputable abbrev V16 : (c : Dev nD) → (b : Ref sig .tc) → Buf (Elt F) ((c : Thread nD τ).loc b) := fun c b => W16 m ρ c b

/-- After item 17, the operations `main_part8_ops0`. -/
noncomputable abbrev W17 : Dev nD → Valuation τ sig (Elt F) := fun c => StableHlo.after main_part8_ops0 (W16 m ρ c)
noncomputable abbrev V17 : (c : Dev nD) → (b : Ref sig .tc) → Buf (Elt F) ((c : Thread nD τ).loc b) := fun c b => W17 m ρ c b

/-- After item 18, the operations `main_part9_ops0`. -/
noncomputable abbrev W18 : Dev nD → Valuation τ sig (Elt F) := fun c => StableHlo.after main_part9_ops0 (W17 m ρ c)
noncomputable abbrev V18 : (c : Dev nD) → (b : Ref sig .tc) → Buf (Elt F) ((c : Thread nD τ).loc b) := fun c b => W18 m ρ c b

/-- After item 19, the operations `main_part10_ops0`. -/
noncomputable abbrev W19 : Dev nD → Valuation τ sig (Elt F) := fun c => StableHlo.after main_part10_ops0 (W18 m ρ c)
noncomputable abbrev V19 : (c : Dev nD) → (b : Ref sig .tc) → Buf (Elt F) ((c : Thread nD τ).loc b) := fun c b => W19 m ρ c b

/-- Region 4 (item 20) is entered from the contents after item 19. -/
noncomputable abbrev Win4 : Dev nD → Valuation τ sig (Elt F) := W19 m ρ
noncomputable abbrev Vin4 : (c : Dev nD) → (b : Ref sig .tc) → Buf (Elt F) ((c : Thread nD τ).loc b) := V19 m ρ
/-- At region 4's exit: its arrays at what the pipeline leaves (the inputs as entered, each output's write-backs
    folded), every other buffer as entered. -/
noncomputable def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
noncomputable abbrev V20 : (c : Dev nD) → (b : Ref sig .tc) → Buf (Elt F) ((c : Thread nD τ).loc b) := fun c b => W20 m ρ c b
noncomputable abbrev Wout4 : Dev nD → Valuation τ sig (Elt F) := W20 m ρ
noncomputable abbrev Vout4 : (c : Dev nD) → (b : Ref sig .tc) → Buf (Elt F) ((c : Thread nD τ).loc b) := V20 m ρ
/-- At region 4's exit each of its arrays holds what the pipeline leaves, and every other buffer what it held at entry. -/
theorem hF4 (c : Dev nD) (w : Fin cfg4.W) : (dat4 (Vin4 m ρ) c).arrAt w cfg4.N = Vout4 m ρ c (Pipeline.arrRef spec4 w) :=
  (W20_arr m ρ c w).symm
theorem hrest4 (c : Dev nD) : ∀ b, b ∉ Finset.univ.image (Pipeline.arrRef spec4) → Vout4 m ρ c b = Vin4 m ρ c b :=
  fun b hb => W20_of_ne m ρ c b fun w e => hb (Finset.mem_image.mpr ⟨w, Finset.mem_univ _, e⟩)

/-- After item 21, the operations `main_part10_ops1`. -/
noncomputable abbrev W21 : Dev nD → Valuation τ sig (Elt F) := fun c => StableHlo.after main_part10_ops1 (W20 m ρ c)
noncomputable abbrev V21 : (c : Dev nD) → (b : Ref sig .tc) → Buf (Elt F) ((c : Thread nD τ).loc b) := fun c b => W21 m ρ c b

/-- Region 5 (item 22) is entered from the contents after item 21. -/
noncomputable abbrev Win5 : Dev nD → Valuation τ sig (Elt F) := W21 m ρ
noncomputable abbrev Vin5 : (c : Dev nD) → (b : Ref sig .tc) → Buf (Elt F) ((c : Thread nD τ).loc b) := V21 m ρ
/-- At region 5's exit: its arrays at what the pipeline leaves (the inputs as entered, each output's write-backs
    folded), every other buffer as entered. -/
noncomputable def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
noncomputable abbrev V22 : (c : Dev nD) → (b : Ref sig .tc) → Buf (Elt F) ((c : Thread nD τ).loc b) := fun c b => W22 m ρ c b
noncomputable abbrev Wout5 : Dev nD → Valuation τ sig (Elt F) := W22 m ρ
noncomputable abbrev Vout5 : (c : Dev nD) → (b : Ref sig .tc) → Buf (Elt F) ((c : Thread nD τ).loc b) := V22 m ρ
/-- At region 5's exit each of its arrays holds what the pipeline leaves, and every other buffer what it held at entry. -/
theorem hF5 (c : Dev nD) (w : Fin cfg5.W) : (dat5 (Vin5 m ρ) c).arrAt w cfg5.N = Vout5 m ρ c (Pipeline.arrRef spec5 w) :=
  (W22_arr m ρ c w).symm
theorem hrest5 (c : Dev nD) : ∀ b, b ∉ Finset.univ.image (Pipeline.arrRef spec5) → Vout5 m ρ c b = Vin5 m ρ c b :=
  fun b hb => W22_of_ne m ρ c b fun w e => hb (Finset.mem_image.mpr ⟨w, Finset.mem_univ _, e⟩)

/-- After item 23, the operations `main_part10_ops2`. -/
noncomputable abbrev W23 : Dev nD → Valuation τ sig (Elt F) := fun c => StableHlo.after main_part10_ops2 (W22 m ρ c)
noncomputable abbrev V23 : (c : Dev nD) → (b : Ref sig .tc) → Buf (Elt F) ((c : Thread nD τ).loc b) := fun c b => W23 m ρ c b

/-- Region 6 (item 24) is entered from the contents after item 23. -/
noncomputable abbrev Win6 : Dev nD → Valuation τ sig (Elt F) := W23 m ρ
noncomputable abbrev Vin6 : (c : Dev nD) → (b : Ref sig .tc) → Buf (Elt F) ((c : Thread nD τ).loc b) := V23 m ρ
/-- At region 6's exit: its arrays at what the pipeline leaves (the inputs as entered, each output's write-backs
    folded), every other buffer as entered. -/
noncomputable def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
noncomputable abbrev V24 : (c : Dev nD) → (b : Ref sig .tc) → Buf (Elt F) ((c : Thread nD τ).loc b) := fun c b => W24 m ρ c b
noncomputable abbrev Wout6 : Dev nD → Valuation τ sig (Elt F) := W24 m ρ
noncomputable abbrev Vout6 : (c : Dev nD) → (b : Ref sig .tc) → Buf (Elt F) ((c : Thread nD τ).loc b) := V24 m ρ
/-- At region 6's exit each of its arrays holds what the pipeline leaves, and every other buffer what it held at entry. -/
theorem hF6 (c : Dev nD) (w : Fin cfg6.W) : (dat6 (Vin6 m ρ) c).arrAt w cfg6.N = Vout6 m ρ c (Pipeline.arrRef spec6 w) :=
  (W24_arr m ρ c w).symm
theorem hrest6 (c : Dev nD) : ∀ b, b ∉ Finset.univ.image (Pipeline.arrRef spec6) → Vout6 m ρ c b = Vin6 m ρ c b :=
  fun b hb => W24_of_ne m ρ c b fun w e => hb (Finset.mem_image.mpr ⟨w, Finset.mem_univ _, e⟩)

/-- After item 25, the operations `main_part10_ops3`. -/
noncomputable abbrev W25 : Dev nD → Valuation τ sig (Elt F) := fun c => StableHlo.after main_part10_ops3 (W24 m ρ c)
noncomputable abbrev V25 : (c : Dev nD) → (b : Ref sig .tc) → Buf (Elt F) ((c : Thread nD τ).loc b) := fun c b => W25 m ρ c b

/-- Region 7 (item 26) is entered from the contents after item 25. -/
noncomputable abbrev Win7 : Dev nD → Valuation τ sig (Elt F) := W25 m ρ
noncomputable abbrev Vin7 : (c : Dev nD) → (b : Ref sig .tc) → Buf (Elt F) ((c : Thread nD τ).loc b) := V25 m ρ
/-- At region 7's exit: its arrays at what the pipeline leaves (the inputs as entered, each output's write-backs
    folded), every other buffer as entered. -/
noncomputable def W26 (c : Dev nD) : Valuation τ sig (Elt F) :=
  Pipeline.withArrays spec7 c (W25 m ρ c) fun w => (dat7 (V25 m ρ) c).arrAt w cfg7.N
theorem W26_arr (c : Dev nD) (w : Fin cfg7.W) :
    W26 m ρ c (Proc.devRef .tc (Pipeline.arrRef spec7 w)) = (dat7 (V25 m ρ) c).arrAt w cfg7.N := by
  unfold W26; exact Pipeline.withArrays_arr spec7 launch7.win.arr_inj c _ _ w
theorem W26_of_ne (c : Dev nD) (b : Ref sig .tc) (hb : ∀ w, Pipeline.arrRef spec7 w ≠ b) :
    W26 m ρ c (Proc.devRef .tc b) = W25 m ρ c (Proc.devRef .tc b) := by
  unfold W26; exact Pipeline.withArrays_of_ne spec7 c _ _ b hb
noncomputable abbrev V26 : (c : Dev nD) → (b : Ref sig .tc) → Buf (Elt F) ((c : Thread nD τ).loc b) := fun c b => W26 m ρ c b
noncomputable abbrev Wout7 : Dev nD → Valuation τ sig (Elt F) := W26 m ρ
noncomputable abbrev Vout7 : (c : Dev nD) → (b : Ref sig .tc) → Buf (Elt F) ((c : Thread nD τ).loc b) := V26 m ρ
/-- At region 7's exit each of its arrays holds what the pipeline leaves, and every other buffer what it held at entry. -/
theorem hF7 (c : Dev nD) (w : Fin cfg7.W) : (dat7 (Vin7 m ρ) c).arrAt w cfg7.N = Vout7 m ρ c (Pipeline.arrRef spec7 w) :=
  (W26_arr m ρ c w).symm
theorem hrest7 (c : Dev nD) : ∀ b, b ∉ Finset.univ.image (Pipeline.arrRef spec7) → Vout7 m ρ c b = Vin7 m ρ c b :=
  fun b hb => W26_of_ne m ρ c b fun w e => hb (Finset.mem_image.mpr ⟨w, Finset.mem_univ _, e⟩)

/-- After item 27, the operations `main_part10_ops4`. -/
noncomputable abbrev W27 : Dev nD → Valuation τ sig (Elt F) := fun c => StableHlo.after main_part10_ops4 (W26 m ρ c)
noncomputable abbrev V27 : (c : Dev nD) → (b : Ref sig .tc) → Buf (Elt F) ((c : Thread nD τ).loc b) := fun c b => W27 m ρ c b

/-- After item 28, the operations `main_part11_ops0`. -/
noncomputable abbrev W28 : Dev nD → Valuation τ sig (Elt F) := fun c => StableHlo.after main_part11_ops0 (W27 m ρ c)
noncomputable abbrev V28 : (c : Dev nD) → (b : Ref sig .tc) → Buf (Elt F) ((c : Thread nD τ).loc b) := fun c b => W28 m ρ c b

/-- After item 29, the operations `main_part12_ops0`. -/
noncomputable abbrev W29 : Dev nD → Valuation τ sig (Elt F) := fun c => StableHlo.after main_part12_ops0 (W28 m ρ c)
noncomputable abbrev V29 : (c : Dev nD) → (b : Ref sig .tc) → Buf (Elt F) ((c : Thread nD τ).loc b) := fun c b => W29 m ρ c b

/-- After item 30, the operations `main_part13_ops0`. -/
noncomputable abbrev W30 : Dev nD → Valuation τ sig (Elt F) := fun c => StableHlo.after main_part13_ops0 (W29 m ρ c)
noncomputable abbrev V30 : (c : Dev nD) → (b : Ref sig .tc) → Buf (Elt F) ((c : Thread nD τ).loc b) := fun c b => W30 m ρ c b

/-- After item 31, the operations `main_part14_ops0`. -/
noncomputable abbrev W31 : Dev nD → Valuation τ sig (Elt F) := fun c => StableHlo.after main_part14_ops0 (W30 m ρ c)
noncomputable abbrev V31 : (c : Dev nD) → (b : Ref sig .tc) → Buf (Elt F) ((c : Thread nD τ).loc b) := fun c b => W31 m ρ c b

/-- After item 32, the operations `main_part15_ops0`. -/
noncomputable abbrev W32 : Dev nD → Valuation τ sig (Elt F) := fun c => StableHlo.after main_part15_ops0 (W31 m ρ c)
noncomputable abbrev V32 : (c : Dev nD) → (b : Ref sig .tc) → Buf (Elt F) ((c : Thread nD τ).loc b) := fun c b => W32 m ρ c b

/-- Region 8 (item 33) is entered from the contents after item 32. -/
noncomputable abbrev Win8 : Dev nD → Valuation τ sig (Elt F) := W32 m ρ
noncomputable abbrev Vin8 : (c : Dev nD) → (b : Ref sig .tc) → Buf (Elt F) ((c : Thread nD τ).loc b) := V32 m ρ
/-- At region 8's exit: its arrays at what the pipeline leaves (the inputs as entered, each output's write-backs
    folded), every other buffer as entered. -/
noncomputable def W33 (c : Dev nD) : Valuation τ sig (Elt F) :=
  Pipeline.withArrays spec8 c (W32 m ρ c) fun w => (dat8 (V32 m ρ) c).arrAt w cfg8.N
theorem W33_arr (c : Dev nD) (w : Fin cfg8.W) :
    W33 m ρ c (Proc.devRef .tc (Pipeline.arrRef spec8 w)) = (dat8 (V32 m ρ) c).arrAt w cfg8.N := by
  unfold W33; exact Pipeline.withArrays_arr spec8 launch8.win.arr_inj c _ _ w
theorem W33_of_ne (c : Dev nD) (b : Ref sig .tc) (hb : ∀ w, Pipeline.arrRef spec8 w ≠ b) :
    W33 m ρ c (Proc.devRef .tc b) = W32 m ρ c (Proc.devRef .tc b) := by
  unfold W33; exact Pipeline.withArrays_of_ne spec8 c _ _ b hb
noncomputable abbrev V33 : (c : Dev nD) → (b : Ref sig .tc) → Buf (Elt F) ((c : Thread nD τ).loc b) := fun c b => W33 m ρ c b
noncomputable abbrev Wout8 : Dev nD → Valuation τ sig (Elt F) := W33 m ρ
noncomputable abbrev Vout8 : (c : Dev nD) → (b : Ref sig .tc) → Buf (Elt F) ((c : Thread nD τ).loc b) := V33 m ρ
/-- At region 8's exit each of its arrays holds what the pipeline leaves, and every other buffer what it held at entry. -/
theorem hF8 (c : Dev nD) (w : Fin cfg8.W) : (dat8 (Vin8 m ρ) c).arrAt w cfg8.N = Vout8 m ρ c (Pipeline.arrRef spec8 w) :=
  (W33_arr m ρ c w).symm
theorem hrest8 (c : Dev nD) : ∀ b, b ∉ Finset.univ.image (Pipeline.arrRef spec8) → Vout8 m ρ c b = Vin8 m ρ c b :=
  fun b hb => W33_of_ne m ρ c b fun w e => hb (Finset.mem_image.mpr ⟨w, Finset.mem_univ _, e⟩)

/-- After item 34, the operations `main_part15_ops1`. -/
noncomputable abbrev W34 : Dev nD → Valuation τ sig (Elt F) := fun c => StableHlo.after main_part15_ops1 (W33 m ρ c)
noncomputable abbrev V34 : (c : Dev nD) → (b : Ref sig .tc) → Buf (Elt F) ((c : Thread nD τ).loc b) := fun c b => W34 m ρ c b

/-- Region 9 (item 35) is entered from the contents after item 34. -/
noncomputable abbrev Win9 : Dev nD → Valuation τ sig (Elt F) := W34 m ρ
noncomputable abbrev Vin9 : (c : Dev nD) → (b : Ref sig .tc) → Buf (Elt F) ((c : Thread nD τ).loc b) := V34 m ρ
/-- At region 9's exit: its arrays at what the pipeline leaves (the inputs as entered, each output's write-backs
    folded), every other buffer as entered. -/
noncomputable def W35 (c : Dev nD) : Valuation τ sig (Elt F) :=
  Pipeline.withArrays spec9 c (W34 m ρ c) fun w => (dat9 (V34 m ρ) c).arrAt w cfg9.N
theorem W35_arr (c : Dev nD) (w : Fin cfg9.W) :
    W35 m ρ c (Proc.devRef .tc (Pipeline.arrRef spec9 w)) = (dat9 (V34 m ρ) c).arrAt w cfg9.N := by
  unfold W35; exact Pipeline.withArrays_arr spec9 launch9.win.arr_inj c _ _ w
theorem W35_of_ne (c : Dev nD) (b : Ref sig .tc) (hb : ∀ w, Pipeline.arrRef spec9 w ≠ b) :
    W35 m ρ c (Proc.devRef .tc b) = W34 m ρ c (Proc.devRef .tc b) := by
  unfold W35; exact Pipeline.withArrays_of_ne spec9 c _ _ b hb
noncomputable abbrev V35 : (c : Dev nD) → (b : Ref sig .tc) → Buf (Elt F) ((c : Thread nD τ).loc b) := fun c b => W35 m ρ c b
noncomputable abbrev Wout9 : Dev nD → Valuation τ sig (Elt F) := W35 m ρ
noncomputable abbrev Vout9 : (c : Dev nD) → (b : Ref sig .tc) → Buf (Elt F) ((c : Thread nD τ).loc b) := V35 m ρ
/-- At region 9's exit each of its arrays holds what the pipeline leaves, and every other buffer what it held at entry. -/
theorem hF9 (c : Dev nD) (w : Fin cfg9.W) : (dat9 (Vin9 m ρ) c).arrAt w cfg9.N = Vout9 m ρ c (Pipeline.arrRef spec9 w) :=
  (W35_arr m ρ c w).symm
theorem hrest9 (c : Dev nD) : ∀ b, b ∉ Finset.univ.image (Pipeline.arrRef spec9) → Vout9 m ρ c b = Vin9 m ρ c b :=
  fun b hb => W35_of_ne m ρ c b fun w e => hb (Finset.mem_image.mpr ⟨w, Finset.mem_univ _, e⟩)

/-- After item 36, the operations `main_part15_ops2`. -/
noncomputable abbrev W36 : Dev nD → Valuation τ sig (Elt F) := fun c => StableHlo.after main_part15_ops2 (W35 m ρ c)
noncomputable abbrev V36 : (c : Dev nD) → (b : Ref sig .tc) → Buf (Elt F) ((c : Thread nD τ).loc b) := fun c b => W36 m ρ c b

/-- Region 10 (item 37) is entered from the contents after item 36. -/
noncomputable abbrev Win10 : Dev nD → Valuation τ sig (Elt F) := W36 m ρ
noncomputable abbrev Vin10 : (c : Dev nD) → (b : Ref sig .tc) → Buf (Elt F) ((c : Thread nD τ).loc b) := V36 m ρ
/-- At region 10's exit: its arrays at what the pipeline leaves (the inputs as entered, each output's write-backs
    folded), every other buffer as entered. -/
noncomputable def W37 (c : Dev nD) : Valuation τ sig (Elt F) :=
  Pipeline.withArrays spec10 c (W36 m ρ c) fun w => (dat10 (V36 m ρ) c).arrAt w cfg10.N
theorem W37_arr (c : Dev nD) (w : Fin cfg10.W) :
    W37 m ρ c (Proc.devRef .tc (Pipeline.arrRef spec10 w)) = (dat10 (V36 m ρ) c).arrAt w cfg10.N := by
  unfold W37; exact Pipeline.withArrays_arr spec10 launch10.win.arr_inj c _ _ w
theorem W37_of_ne (c : Dev nD) (b : Ref sig .tc) (hb : ∀ w, Pipeline.arrRef spec10 w ≠ b) :
    W37 m ρ c (Proc.devRef .tc b) = W36 m ρ c (Proc.devRef .tc b) := by
  unfold W37; exact Pipeline.withArrays_of_ne spec10 c _ _ b hb
noncomputable abbrev V37 : (c : Dev nD) → (b : Ref sig .tc) → Buf (Elt F) ((c : Thread nD τ).loc b) := fun c b => W37 m ρ c b
noncomputable abbrev Wout10 : Dev nD → Valuation τ sig (Elt F) := W37 m ρ
noncomputable abbrev Vout10 : (c : Dev nD) → (b : Ref sig .tc) → Buf (Elt F) ((c : Thread nD τ).loc b) := V37 m ρ
/-- At region 10's exit each of its arrays holds what the pipeline leaves, and every other buffer what it held at entry. -/
theorem hF10 (c : Dev nD) (w : Fin cfg10.W) : (dat10 (Vin10 m ρ) c).arrAt w cfg10.N = Vout10 m ρ c (Pipeline.arrRef spec10 w) :=
  (W37_arr m ρ c w).symm
theorem hrest10 (c : Dev nD) : ∀ b, b ∉ Finset.univ.image (Pipeline.arrRef spec10) → Vout10 m ρ c b = Vin10 m ρ c b :=
  fun b hb => W37_of_ne m ρ c b fun w e => hb (Finset.mem_image.mpr ⟨w, Finset.mem_univ _, e⟩)

/-- After item 38, the operations `main_part15_ops3`. -/
noncomputable abbrev W38 : Dev nD → Valuation τ sig (Elt F) := fun c => StableHlo.after main_part15_ops3 (W37 m ρ c)
noncomputable abbrev V38 : (c : Dev nD) → (b : Ref sig .tc) → Buf (Elt F) ((c : Thread nD τ).loc b) := fun c b => W38 m ρ c b

/-- After item 39, the operations `main_part16_ops0`. -/
noncomputable abbrev W39 : Dev nD → Valuation τ sig (Elt F) := fun c => StableHlo.after main_part16_ops0 (W38 m ρ c)
noncomputable abbrev V39 : (c : Dev nD) → (b : Ref sig .tc) → Buf (Elt F) ((c : Thread nD τ).loc b) := fun c b => W39 m ρ c b

/-- Region 11 (item 40) is entered from the contents after item 39. -/
noncomputable abbrev Win11 : Dev nD → Valuation τ sig (Elt F) := W39 m ρ
noncomputable abbrev Vin11 : (c : Dev nD) → (b : Ref sig .tc) → Buf (Elt F) ((c : Thread nD τ).loc b) := V39 m ρ
/-- At region 11's exit: its arrays at what the pipeline leaves (the inputs as entered, each output's write-backs
    folded), every other buffer as entered. -/
noncomputable def W40 (c : Dev nD) : Valuation τ sig (Elt F) :=
  Pipeline.withArrays spec11 c (W39 m ρ c) fun w => (dat11 (V39 m ρ) c).arrAt w cfg11.N
theorem W40_arr (c : Dev nD) (w : Fin cfg11.W) :
    W40 m ρ c (Proc.devRef .tc (Pipeline.arrRef spec11 w)) = (dat11 (V39 m ρ) c).arrAt w cfg11.N := by
  unfold W40; exact Pipeline.withArrays_arr spec11 launch11.win.arr_inj c _ _ w
theorem W40_of_ne (c : Dev nD) (b : Ref sig .tc) (hb : ∀ w, Pipeline.arrRef spec11 w ≠ b) :
    W40 m ρ c (Proc.devRef .tc b) = W39 m ρ c (Proc.devRef .tc b) := by
  unfold W40; exact Pipeline.withArrays_of_ne spec11 c _ _ b hb
noncomputable abbrev V40 : (c : Dev nD) → (b : Ref sig .tc) → Buf (Elt F) ((c : Thread nD τ).loc b) := fun c b => W40 m ρ c b
noncomputable abbrev Wout11 : Dev nD → Valuation τ sig (Elt F) := W40 m ρ
noncomputable abbrev Vout11 : (c : Dev nD) → (b : Ref sig .tc) → Buf (Elt F) ((c : Thread nD τ).loc b) := V40 m ρ
/-- At region 11's exit each of its arrays holds what the pipeline leaves, and every other buffer what it held at entry. -/
theorem hF11 (c : Dev nD) (w : Fin cfg11.W) : (dat11 (Vin11 m ρ) c).arrAt w cfg11.N = Vout11 m ρ c (Pipeline.arrRef spec11 w) :=
  (W40_arr m ρ c w).symm
theorem hrest11 (c : Dev nD) : ∀ b, b ∉ Finset.univ.image (Pipeline.arrRef spec11) → Vout11 m ρ c b = Vin11 m ρ c b :=
  fun b hb => W40_of_ne m ρ c b fun w e => hb (Finset.mem_image.mpr ⟨w, Finset.mem_univ _, e⟩)

/-- After item 41, the operations `main_part16_ops1`. -/
noncomputable abbrev W41 : Dev nD → Valuation τ sig (Elt F) := fun c => StableHlo.after main_part16_ops1 (W40 m ρ c)
noncomputable abbrev V41 : (c : Dev nD) → (b : Ref sig .tc) → Buf (Elt F) ((c : Thread nD τ).loc b) := fun c b => W41 m ρ c b

/-- Region 12 (item 42) is entered from the contents after item 41. -/
noncomputable abbrev Win12 : Dev nD → Valuation τ sig (Elt F) := W41 m ρ
noncomputable abbrev Vin12 : (c : Dev nD) → (b : Ref sig .tc) → Buf (Elt F) ((c : Thread nD τ).loc b) := V41 m ρ
/-- At region 12's exit: its arrays at what the pipeline leaves (the inputs as entered, each output's write-backs
    folded), every other buffer as entered. -/
noncomputable def W42 (c : Dev nD) : Valuation τ sig (Elt F) :=
  Pipeline.withArrays spec12 c (W41 m ρ c) fun w => (dat12 (V41 m ρ) c).arrAt w cfg12.N
theorem W42_arr (c : Dev nD) (w : Fin cfg12.W) :
    W42 m ρ c (Proc.devRef .tc (Pipeline.arrRef spec12 w)) = (dat12 (V41 m ρ) c).arrAt w cfg12.N := by
  unfold W42; exact Pipeline.withArrays_arr spec12 launch12.win.arr_inj c _ _ w
theorem W42_of_ne (c : Dev nD) (b : Ref sig .tc) (hb : ∀ w, Pipeline.arrRef spec12 w ≠ b) :
    W42 m ρ c (Proc.devRef .tc b) = W41 m ρ c (Proc.devRef .tc b) := by
  unfold W42; exact Pipeline.withArrays_of_ne spec12 c _ _ b hb
noncomputable abbrev V42 : (c : Dev nD) → (b : Ref sig .tc) → Buf (Elt F) ((c : Thread nD τ).loc b) := fun c b => W42 m ρ c b
noncomputable abbrev Wout12 : Dev nD → Valuation τ sig (Elt F) := W42 m ρ
noncomputable abbrev Vout12 : (c : Dev nD) → (b : Ref sig .tc) → Buf (Elt F) ((c : Thread nD τ).loc b) := V42 m ρ
/-- At region 12's exit each of its arrays holds what the pipeline leaves, and every other buffer what it held at entry. -/
theorem hF12 (c : Dev nD) (w : Fin cfg12.W) : (dat12 (Vin12 m ρ) c).arrAt w cfg12.N = Vout12 m ρ c (Pipeline.arrRef spec12 w) :=
  (W42_arr m ρ c w).symm
theorem hrest12 (c : Dev nD) : ∀ b, b ∉ Finset.univ.image (Pipeline.arrRef spec12) → Vout12 m ρ c b = Vin12 m ρ c b :=
  fun b hb => W42_of_ne m ρ c b fun w e => hb (Finset.mem_image.mpr ⟨w, Finset.mem_univ _, e⟩)

/-- After item 43, the operations `main_part16_ops2`. -/
noncomputable abbrev W43 : Dev nD → Valuation τ sig (Elt F) := fun c => StableHlo.after main_part16_ops2 (W42 m ρ c)
noncomputable abbrev V43 : (c : Dev nD) → (b : Ref sig .tc) → Buf (Elt F) ((c : Thread nD τ).loc b) := fun c b => W43 m ρ c b

/-- Region 13 (item 44) is entered from the contents after item 43. -/
noncomputable abbrev Win13 : Dev nD → Valuation τ sig (Elt F) := W43 m ρ
noncomputable abbrev Vin13 : (c : Dev nD) → (b : Ref sig .tc) → Buf (Elt F) ((c : Thread nD τ).loc b) := V43 m ρ
/-- At region 13's exit: its arrays at what the pipeline leaves (the inputs as entered, each output's write-backs
    folded), every other buffer as entered. -/
noncomputable def W44 (c : Dev nD) : Valuation τ sig (Elt F) :=
  Pipeline.withArrays spec13 c (W43 m ρ c) fun w => (dat13 (V43 m ρ) c).arrAt w cfg13.N
theorem W44_arr (c : Dev nD) (w : Fin cfg13.W) :
    W44 m ρ c (Proc.devRef .tc (Pipeline.arrRef spec13 w)) = (dat13 (V43 m ρ) c).arrAt w cfg13.N := by
  unfold W44; exact Pipeline.withArrays_arr spec13 launch13.win.arr_inj c _ _ w
theorem W44_of_ne (c : Dev nD) (b : Ref sig .tc) (hb : ∀ w, Pipeline.arrRef spec13 w ≠ b) :
    W44 m ρ c (Proc.devRef .tc b) = W43 m ρ c (Proc.devRef .tc b) := by
  unfold W44; exact Pipeline.withArrays_of_ne spec13 c _ _ b hb
noncomputable abbrev V44 : (c : Dev nD) → (b : Ref sig .tc) → Buf (Elt F) ((c : Thread nD τ).loc b) := fun c b => W44 m ρ c b
noncomputable abbrev Wout13 : Dev nD → Valuation τ sig (Elt F) := W44 m ρ
noncomputable abbrev Vout13 : (c : Dev nD) → (b : Ref sig .tc) → Buf (Elt F) ((c : Thread nD τ).loc b) := V44 m ρ
/-- At region 13's exit each of its arrays holds what the pipeline leaves, and every other buffer what it held at entry. -/
theorem hF13 (c : Dev nD) (w : Fin cfg13.W) : (dat13 (Vin13 m ρ) c).arrAt w cfg13.N = Vout13 m ρ c (Pipeline.arrRef spec13 w) :=
  (W44_arr m ρ c w).symm
theorem hrest13 (c : Dev nD) : ∀ b, b ∉ Finset.univ.image (Pipeline.arrRef spec13) → Vout13 m ρ c b = Vin13 m ρ c b :=
  fun b hb => W44_of_ne m ρ c b fun w e => hb (Finset.mem_image.mpr ⟨w, Finset.mem_univ _, e⟩)

/-- The contents when @main returns. -/
noncomputable abbrev Wfin : Dev nD → Valuation τ sig (Elt F) := W44 m ρ

end Cert.KernelIdeal.Hand

end
-- ==== Proof.KI.B0.lean ====
/- Region 0 of @main (pipeline 0), the body's half: each input window's staging buffer before the body holds its
   block; the kernel body's triple over whole staging memrefs; and the pipeline's body obligation at every point,
   all at a parameter `V`: the TensorCore's buffer contents when the region is entered. -/
import proofs.«125545_j64845416235624_1_alg».proof.Proof.KI.D0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input window's staging buffer before the body -/

/-- Input window `w`'s current staging buffer holds its block at every point, fetched there or not, for any proof
    data whose array is `V`'s (`hA`) and whose body leaves the block in place (`hafter`): unfetched, the block index
    has not moved (the weight windows' index maps are constant); every window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The same of the region's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body's triple -/

set_option maxHeartbeats 4000000 in
/-- The kernel body on whole staging memrefs, the inputs' at read contents `x0 … x8` and the output's at anything, runs
    to the continuation holding the inputs' as they were and the output's at `out0` of the inputs': the printed
    functions are their skeletons, which the symbolic executor runs through the part call, the loads (the last one
    reads the output buffer and its value is unused) and the one store. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S5x128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 x1 x2 x3 x4 x5 : Vec F S2000x128 .f32) (x6 : Vec F S5x128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0 _)

/-! ## The body obligation, at a generic point -/

/-- What the body is called with at point `t` (the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_w`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.B1.lean ====
import proofs.«125545_j64845416235624_1_alg».proof.Proof.KI.D1

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the block index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the block index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): unfetched, the block index has
    not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s (`hA`) and whose body leaves the block in place (`hafter`): unfetched, the block index has
    not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

set_option maxHeartbeats 1000000 in
/-- The kernel body on whole staging memrefs, the inputs' at read contents `x0 … x4` and the output's at anything, runs
    to the continuation holding the inputs' as they were and the output's at `out1` of the inputs'. The body reads
    the five inputs whole, reads the output buffer once (the value is not used), and stores the payload over the
    whole output buffer. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.B2.lean ====
import proofs.«125545_j64845416235624_1_alg».proof.Proof.KI.D2

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s (`hA`) and whose body leaves the block in place (`hafter`): unfetched, the block index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s (`hA`) and whose body leaves the block in place (`hafter`): unfetched, the block index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s (`hA`) and whose body leaves the block in place (`hafter`): unfetched, the block index has
    not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s (`hA`) and whose body leaves the block in place (`hafter`): unfetched, the block index has
    not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's triple -/

set_option maxHeartbeats 1000000 in
/-- The kernel body on whole staging memrefs, the inputs' at read contents `x0 … x4` and the output's at anything, runs
    to the continuation holding the inputs' as they were and the output's at `out2` of the inputs'. The body reads
    the five inputs whole, reads the output buffer once (the value is not used), and stores the payload over the
    whole output buffer. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before1_w`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.B3.lean ====
import proofs.«125545_j64845416235624_1_alg».proof.Proof.KI.D3

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s (`hA`) and whose body leaves the block in place (`hafter`): unfetched, the block index has
    not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s (`hA`) and whose body leaves the block in place (`hafter`): unfetched, the block index has
    not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s (`hA`) and whose body leaves the block in place (`hafter`): unfetched, the block index has
    not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s (`hA`) and whose body leaves the block in place (`hafter`): unfetched, the block index has
    not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body's triple -/

set_option maxHeartbeats 1000000 in
/-- The kernel body on whole staging memrefs, the inputs' at read contents `x0 … x4` and the output's at anything, runs
    to the continuation holding the inputs' as they were and the output's at `out3` of the inputs'. The body reads
    the five inputs whole, reads the output buffer once (the value is not used), and stores the payload over the
    whole output buffer. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before1_w`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.B4.lean ====
/- Region 4 of @main (pipeline 4), the body's half: each input window's staging buffer before the body holds its
   block; the kernel body's triple over whole staging memrefs; and the pipeline's body obligation at every point,
   all at a parameter `V`: the TensorCore's buffer contents when the region is entered. -/
import proofs.«125545_j64845416235624_1_alg».proof.Proof.KI.D4

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input window's staging buffer before the body -/

/-- Input window `w`'s current staging buffer holds its block at every point, fetched there or not, for any proof
    data whose array is `V`'s (`hA`) and whose body leaves the block in place (`hafter`): unfetched, the block index
    has not moved (the weight windows' index maps are constant); every window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The same of the region's own proof data. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body's triple -/

set_option maxHeartbeats 4000000 in
/-- The kernel body on whole staging memrefs, the inputs' at read contents `x0 … x8` and the output's at anything, runs
    to the continuation holding the inputs' as they were and the output's at `out4` of the inputs': the printed
    functions are their skeletons, which the symbolic executor runs through the part call, the loads (the last one
    reads the output buffer and its value is unused) and the one store. -/
theorem sound_kernel4 (c : Dev nD) (E : Set ℕ) (i : grid4.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S5x128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 x1 x2 x3 x4 x5 : Vec F S2000x128 .f32) (x6 : Vec F S5x128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4 x0 x1 x2 x3 x4 x5 x6 x7 x8)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4 _)

/-! ## The body obligation, at a generic point -/

/-- What the body is called with at point `t` (the windows one by one), -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 1000000 in
/-- The body at any point: the inputs' memrefs hold their blocks (`before4_w`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.B5.lean ====
import proofs.«125545_j64845416235624_1_alg».proof.Proof.KI.D5

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s (`hA`) and whose body leaves the block in place (`hafter`): unfetched, the block index has
    not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s (`hA`) and whose body leaves the block in place (`hafter`): unfetched, the block index has
    not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s (`hA`) and whose body leaves the block in place (`hafter`): unfetched, the block index has
    not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s (`hA`) and whose body leaves the block in place (`hafter`): unfetched, the block index has
    not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body's triple -/

set_option maxHeartbeats 1000000 in
/-- The kernel body on whole staging memrefs, the inputs' at read contents `x0 … x4` and the output's at anything, runs
    to the continuation holding the inputs' as they were and the output's at `out5` of the inputs'. The body reads
    the five inputs whole, reads the output buffer once (the value is not used), and stores the payload over the
    whole output buffer. -/
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before1_w`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.B6.lean ====
import proofs.«125545_j64845416235624_1_alg».proof.Proof.KI.D6

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is `V`'s (`hA`) and whose body leaves the block in place (`hafter`): unfetched, the block index has
    not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is `V`'s (`hA`) and whose body leaves the block in place (`hafter`): unfetched, the block index has
    not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is `V`'s (`hA`) and whose body leaves the block in place (`hafter`): unfetched, the block index has
    not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is `V`'s (`hA`) and whose body leaves the block in place (`hafter`): unfetched, the block index has
    not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body's triple -/

set_option maxHeartbeats 1000000 in
/-- The kernel body on whole staging memrefs, the inputs' at read contents `x0 … x4` and the output's at anything, runs
    to the continuation holding the inputs' as they were and the output's at `out6` of the inputs'. The body reads
    the five inputs whole, reads the output buffer once (the value is not used), and stores the payload over the
    whole output buffer. -/
theorem sound_kernel6 (c : Dev nD) (E : Set ℕ) (i : grid6.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out6 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before1_w`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.B7.lean ====
import proofs.«125545_j64845416235624_1_alg».proof.Proof.KI.D7

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s (`hA`) and whose body leaves the block in place (`hafter`): unfetched, the block index has
    not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s (`hA`) and whose body leaves the block in place (`hafter`): unfetched, the block index has
    not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is `V`'s (`hA`) and whose body leaves the block in place (`hafter`): unfetched, the block index has
    not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is `V`'s (`hA`) and whose body leaves the block in place (`hafter`): unfetched, the block index has
    not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body's triple -/

set_option maxHeartbeats 1000000 in
/-- The kernel body on whole staging memrefs, the inputs' at read contents `x0 … x4` and the output's at anything, runs
    to the continuation holding the inputs' as they were and the output's at `out7` of the inputs'. The body reads
    the five inputs whole, reads the output buffer once (the value is not used), and stores the payload over the
    whole output buffer. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7 _)

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before1_w`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.B8.lean ====
/- Region 8 of @main (pipeline 8), the body's half: each input window's staging buffer before the body holds its
   block; the kernel body's triple over whole staging memrefs; and the pipeline's body obligation at every point,
   all at a parameter `V`: the TensorCore's buffer contents when the region is entered. -/
import proofs.«125545_j64845416235624_1_alg».proof.Proof.KI.D8

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input window's staging buffer before the body -/

/-- Input window `w`'s current staging buffer holds its block at every point, fetched there or not, for any proof
    data whose array is `V`'s (`hA`) and whose body leaves the block in place (`hafter`): unfetched, the block index
    has not moved (the weight windows' index maps are constant); every window uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- The same of the region's own proof data. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body's triple -/

set_option maxHeartbeats 4000000 in
/-- The kernel body on whole staging memrefs, the inputs' at read contents `x0 … x8` and the output's at anything, runs
    to the continuation holding the inputs' as they were and the output's at `out8` of the inputs': the printed
    functions are their skeletons, which the symbolic executor runs through the part call, the loads (the last one
    reads the output buffer and its value is unused) and the one store. -/
theorem sound_kernel8 (c : Dev nD) (E : Set ℕ) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S5x128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S2000x128 .f32) (harg10 : arg10.IsWhole)
    (x0 x1 x2 x3 x4 x5 : Vec F S2000x128 .f32) (x6 : Vec F S5x128x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8 x0 x1 x2 x3 x4 x5 x6 x7 x8)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10) K := by
  simp only [cc8_kernel_eq_skeleton]; unfold cc8_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8 _)

/-! ## The body obligation, at a generic point -/

/-- What the body is called with at point `t` (the windows one by one), -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

set_option maxHeartbeats 1000000 in
/-- The body at any point: the inputs' memrefs hold their blocks (`before8_w`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _
    (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.B9.lean ====
import proofs.«125545_j64845416235624_1_alg».proof.Proof.KI.D9

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof data
    whose array is `V`'s (`hA`) and whose body leaves the block in place (`hafter`): unfetched, the block index has
    not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof data
    whose array is `V`'s (`hA`) and whose body leaves the block in place (`hafter`): unfetched, the block index has
    not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof data
    whose array is `V`'s (`hA`) and whose body leaves the block in place (`hafter`): unfetched, the block index has
    not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof data
    whose array is `V`'s (`hA`) and whose body leaves the block in place (`hafter`): unfetched, the block index has
    not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body's triple -/

set_option maxHeartbeats 1000000 in
/-- The kernel body on whole staging memrefs, the inputs' at read contents `x0 … x4` and the output's at anything, runs
    to the continuation holding the inputs' as they were and the output's at `out9` of the inputs'. The body reads
    the five inputs whole, reads the output buffer once (the value is not used), and stores the payload over the
    whole output buffer. -/
theorem sound_kernel9 (c : Dev nD) (E : Set ℕ) (i : grid9.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9 x0 x1 x2 x3 x4)) -∗ K ⟨⟩))
      ⊢ wp frame (wpE (defs₀ (F := F)) Variants.none c none) E (cc9_kernel i arg1 harg1 arg2 harg2 arg3 harg3 arg4 harg4 arg5 harg5 arg6 harg6) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9 _)

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before1_w`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.B10.lean ====
import proofs.«125545_j64845416235624_1_alg».proof.Proof.KI.D10

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is `V`'s (`hA`) and whose body leaves the block in place (`hafter`): unfetched, the block index has
    not moved; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is `V`'s (`hA`) and whose body leaves the block in place (`hafter`): unfetched, the block index has
    not moved; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof data
    whose array is `V`'s (`hA`) and whose body leaves the block in place (`hafter`): unfetched, the block index has
    not moved; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof data
    whose array is `V`'s (`hA`) and whose body leaves the block in place (`hafter`): unfetched, the block index has
    not moved; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body's triple -/

set_option maxHeartbeats 1000000 in
/-- The kernel body on whole staging memrefs, the inputs' at read contents `x0 … x4` and the output's at anything, runs
    to the continuation holding the inputs' as they were and the output's at `out10` of the inputs'. The body reads
    the five inputs whole, reads the output buffer once (the value is not used), and stores the payload over the
    whole output buffer. -/
theorem sound_kernel10 (c : Dev nD) (E : Set ℕ) (i : grid10.Coords) (arg1 : Memref sig .tc .vmem S2000x128 .f32) (harg1 : arg1.IsWhole) (arg2 : Memref sig .tc .vmem S2000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out10 x0 x1 x2 x3 x4)) -∗ K ⟨⟩))
      ⊢ wp frame (wpE (defs₀ (F := F)) Variants.none c none) E (cc10_kernel i arg1 harg1 arg2 harg2 arg3 harg3 arg4 harg4 arg5 harg5 arg6 harg6) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10 _)

/-! ## The body obligation, at a generic point -/

/-- What the body is called with at point `t` (the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks (`before1_w`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand
-- ==== Proof.KI.B11.lean ====
import proofs.«125545_j64845416235624_1_alg».proof.Proof.KI.D11

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11 of @main: the body's triple and the body obligation, at the entry contents `V` -/

/-! ## Each input's staging buffer holds its block -/

/-- Input window 0's current staging buffer holds its block at every point, fetched there or not, for any proof data
    whose array is `V`'s (`hA`) and whose body leaves the block in place (`hafter`): unfetched, the block index has
    not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is `V`'s (`hA`) and whose body leaves the block in place (`hafter`): unfetched, the block index has
    not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is `V`'s (`hA`) and whose body leaves the block in place (`hafter`): unfetched, the block index has
    not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof data
    whose array is `V`'s (`hA`) and whose body leaves the block in place (`hafter`): unfetched, the block index has
    not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof data
    whose array is `V`'s (`hA`) and whose body leaves the block in place (`hafter`): unfetched, the block index has
    not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body's triple -/

set_option maxHeartbeats 1000000 in
/-- The kernel body on whole staging memrefs, the inputs' at read contents `x0 … x4` and the output's at anything, runs
    to the continuation holding the inputs' as they were and the output's at `out11` of the inputs'. The body reads
    the five inputs whole, reads the output buffer once (the value is not used), and stores the payload over the
    whole output buffer. -/
theorem sound_kernel11 (c : Dev nD) (E : Set ℕ) (i : grid11.Coords) (arg1 : Memref sig .tc .vmem S5000x128 .f32) (harg1 : arg1.IsWhole) (arg2 : Memref sig .tc .vmem S5000x128 .f32) (harg2 : arg2.IsWhole) (arg3 : Memref sig .tc .vmem S1x128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S1x128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out11 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11 _)

/-! ## The body obligation, at a generic point -/

/-- What the body is called with at point `t` (the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks (`before1_w`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.B12.lean ====
/- Region 12 of @main (custom_call 12, `cc12__mlp_head_kernel`, pipeline 12): the body's half, over the definitions of the
   region's definition module. Each input window's staging buffer holds its block at every point (`before12_W`), the
   body's triple on whole staging memrefs (`sound_kernel12`), and the library's body obligation at every point
   (`body_obligation12`). -/
import proofs.«125545_j64845416235624_1_alg».proof.Proof.KI.D12

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The input windows' buffers when the body is called -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Each input's current staging buffer holds its block at every point, fetched there or not (`before12_W_of`). -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body's triple -/

set_option maxHeartbeats 1000000 in
/-- The kernel body on whole staging memrefs, the inputs' at read contents `xW` and the output's at anything, runs to
    the continuation holding the inputs' as they were and the output's at `out12` of the inputs': the printed function
    is its skeleton, which `sl_exec` runs (Lib/Exec.lean): five loads of the inputs, a load of the output buffer whose
    value is not used, and the one store. -/
theorem sound_kernel12 (c : Dev nD) (E : Set ℕ) (i : grid12.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S2000x2 .f32) (harg6 : arg6.IsWhole)
    (x0 : Vec F S2000x128 .f32) (x1 : Vec F S128x128 .f32) (x2 : Vec F S1x128 .f32) (x3 : Vec F S128x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out12 x0 x1 x2 x3 x4)) -∗ K ⟨⟩))
      ⊢ wp frame (wpE (defs₀ (F := F)) Variants.none c none) E (cc12__mlp_head_kernel i arg1 harg1 arg2 harg2 arg3 harg3 arg4 harg4 arg5 harg5 arg6 harg6) K := by
  simp only [cc12__mlp_head_kernel_eq_skeleton]; unfold cc12__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12 _)

/-! ## The body obligation, at a generic point -/

/-- What the body is called with at point `t` (Lib/Pipeline.lean `BodyObligation`'s precondition, the windows one by one), -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks (`before12_W`), so `sound_kernel12` applies; the invariant and
    the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Regions

end Cert.KernelIdeal.Hand

end
-- ==== Proof.KI.B13.lean ====
/- Region 13 of @main (custom_call 13, `cc13__mlp_head_kernel`, pipeline 13): the body's half, over the definitions of the
   region's definition module. Each input window's staging buffer holds its block at every point (`before13_W`), the
   body's triple on whole staging memrefs (`sound_kernel13`), and the library's body obligation at every point
   (`body_obligation13`). -/
import proofs.«125545_j64845416235624_1_alg».proof.Proof.KI.D13

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The input windows' buffers when the body is called -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Each input's current staging buffer holds its block at every point, fetched there or not (`before13_W_of`). -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-! ## The body's triple -/

set_option maxHeartbeats 1000000 in
/-- The kernel body on whole staging memrefs, the inputs' at read contents `xW` and the output's at anything, runs to
    the continuation holding the inputs' as they were and the output's at `out13` of the inputs': the printed function
    is its skeleton, which `sl_exec` runs (Lib/Exec.lean): five loads of the inputs, a load of the output buffer whose
    value is not used, and the one store. -/
theorem sound_kernel13 (c : Dev nD) (E : Set ℕ) (i : grid13.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S2000x2 .f32) (harg6 : arg6.IsWhole)
    (x0 : Vec F S2000x128 .f32) (x1 : Vec F S128x128 .f32) (x2 : Vec F S1x128 .f32) (x3 : Vec F S128x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out13 x0 x1 x2 x3 x4)) -∗ K ⟨⟩))
      ⊢ wp frame (wpE (defs₀ (F := F)) Variants.none c none) E (cc13__mlp_head_kernel i arg1 harg1 arg2 harg2 arg3 harg3 arg4 harg4 arg5 harg5 arg6 harg6) K := by
  simp only [cc13__mlp_head_kernel_eq_skeleton]; unfold cc13__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover13 _)

/-! ## The body obligation, at a generic point -/

/-- What the body is called with at point `t` (Lib/Pipeline.lean `BodyObligation`'s precondition, the windows one by one), -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- The body at any point: the inputs' memrefs hold their blocks (`before13_W`), so `sound_kernel13` applies; the invariant and
    the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation13 (c : Dev nD) : BodyObligation (dat13 (F := F) V c) (defs₀ (F := F)) Variants.none () Set.univ := fun t => by
  rw [bigSep_W13, bigSep_W13]
  exact sound_body13 V c t

end Regions

end Cert.KernelIdeal.Hand

end
-- ==== Proof.KI.Run.lean ====
/- @main's run as segments: every pipeline's proof data at its region's entry contents, a host segment per line of
   operations and a region segment per kernel region over the thread state "every unscoped buffer at the boundary's
   contents, the generator register at some state, nothing owed", and the launch over the 44 segments: @main
   terminates, nothing faulting, and every final state holds the last boundary's contents at every unscoped buffer. -/
import proofs.«125545_j64845416235624_1_alg».proof.Proof.KI.Fold
import proofs.«125545_j64845416235624_1_alg».proof.Proof.KI.B0
import proofs.«125545_j64845416235624_1_alg».proof.Proof.KI.B1
import proofs.«125545_j64845416235624_1_alg».proof.Proof.KI.B2
import proofs.«125545_j64845416235624_1_alg».proof.Proof.KI.B3
import proofs.«125545_j64845416235624_1_alg».proof.Proof.KI.B4
import proofs.«125545_j64845416235624_1_alg».proof.Proof.KI.B5
import proofs.«125545_j64845416235624_1_alg».proof.Proof.KI.B6
import proofs.«125545_j64845416235624_1_alg».proof.Proof.KI.B7
import proofs.«125545_j64845416235624_1_alg».proof.Proof.KI.B8
import proofs.«125545_j64845416235624_1_alg».proof.Proof.KI.B9
import proofs.«125545_j64845416235624_1_alg».proof.Proof.KI.B10
import proofs.«125545_j64845416235624_1_alg».proof.Proof.KI.B11
import proofs.«125545_j64845416235624_1_alg».proof.Proof.KI.B12
import proofs.«125545_j64845416235624_1_alg».proof.Proof.KI.B13

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
noncomputable abbrev adm : (p : Fin 14) → (pcfgs (F := F) p).Adm := fun p => (cfgs p).toPCfg_adm
/-- Every pipeline's proof data, each at its region's entry contents: a literal `match`, so that the pinned
    configuration at a numeral reduces to the printed one. -/
noncomputable def pdats : (p : Fin 14) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c
  | ⟨8, _⟩ => fun c => dat8 (Vin8 m ρ) c
  | ⟨9, _⟩ => fun c => dat9 (Vin9 m ρ) c
  | ⟨10, _⟩ => fun c => dat10 (Vin10 m ρ) c
  | ⟨11, _⟩ => fun c => dat11 (Vin11 m ρ) c
  | ⟨12, _⟩ => fun c => dat12 (Vin12 m ρ) c
  | ⟨13, _⟩ => fun c => dat13 (Vin13 m ρ) c
noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What rides beside the buffers through every segment: the core's generator register at some state and its `owes`, at nothing. -/
noncomputable abbrev R (c : Dev nD) : sProp 𝕄 := iprop((∃ r, prngReg c r) ∗ ∃ W, owes (c : Thread nD τ) (0 : CellTallies nD τ sig Unit) W)
/-- A line of host operations as a segment over the unscoped references from the contents `W`, `R` riding along: it runs to
    those references at `StableHlo.after ops (W c)`, the next boundary's contents by name. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
noncomputable abbrev Tₙ (c : Dev nD) : sProp 𝕄 := iprop(StableHlo.held (c : Thread nD τ) (Pipeline.ucRefs τ sig) (Wfin m ρ c) ∗ ∃ r, prngReg c r)

/-! ## No line of host operations allocates a buffer -/

/-- No operation of `main_part0_ops0` allocates a buffer. -/
theorem main_part0_ops0_fresh : (main_part0_ops0 : List (HloOp τ sig (Elt F))).Forall fun op => op.fresh = ∅ := by
  simp only [List.Forall]; repeat' constructor

/-- No operation of `main_part1_ops0` allocates a buffer. -/
theorem main_part1_ops0_fresh : (main_part1_ops0 : List (HloOp τ sig (Elt F))).Forall fun op => op.fresh = ∅ := by
  simp only [List.Forall]; repeat' constructor

/-- No operation of `main_part2_ops0` allocates a buffer. -/
theorem main_part2_ops0_fresh : (main_part2_ops0 : List (HloOp τ sig (Elt F))).Forall fun op => op.fresh = ∅ := by
  simp only [List.Forall]; repeat' constructor

/-- No operation of `main_part3_ops0` allocates a buffer. -/
theorem main_part3_ops0_fresh : (main_part3_ops0 : List (HloOp τ sig (Elt F))).Forall fun op => op.fresh = ∅ := by
  simp only [List.Forall]; repeat' constructor

/-- No operation of `main_part4_ops0` allocates a buffer. -/
theorem main_part4_ops0_fresh : (main_part4_ops0 : List (HloOp τ sig (Elt F))).Forall fun op => op.fresh = ∅ := by
  simp only [List.Forall]; repeat' constructor

/-- No operation of `main_part4_ops1` allocates a buffer. -/
theorem main_part4_ops1_fresh : (main_part4_ops1 : List (HloOp τ sig (Elt F))).Forall fun op => op.fresh = ∅ := by
  simp only [List.Forall]; repeat' constructor

/-- No operation of `main_part5_ops0` allocates a buffer. -/
theorem main_part5_ops0_fresh : (main_part5_ops0 : List (HloOp τ sig (Elt F))).Forall fun op => op.fresh = ∅ := by
  simp only [List.Forall]; repeat' constructor

/-- No operation of `main_part5_ops1` allocates a buffer. -/
theorem main_part5_ops1_fresh : (main_part5_ops1 : List (HloOp τ sig (Elt F))).Forall fun op => op.fresh = ∅ := by
  simp only [List.Forall]; repeat' constructor

/-- No operation of `main_part5_ops2` allocates a buffer. -/
theorem main_part5_ops2_fresh : (main_part5_ops2 : List (HloOp τ sig (Elt F))).Forall fun op => op.fresh = ∅ := by
  simp only [List.Forall]; repeat' constructor

/-- No operation of `main_part5_ops3` allocates a buffer. -/
theorem main_part5_ops3_fresh : (main_part5_ops3 : List (HloOp τ sig (Elt F))).Forall fun op => op.fresh = ∅ := by
  simp only [List.Forall]; repeat' constructor

/-- No operation of `main_part6_ops0` allocates a buffer. -/
theorem main_part6_ops0_fresh : (main_part6_ops0 : List (HloOp τ sig (Elt F))).Forall fun op => op.fresh = ∅ := by
  simp only [List.Forall]; repeat' constructor

/-- No operation of `main_part7_ops0` allocates a buffer. -/
theorem main_part7_ops0_fresh : (main_part7_ops0 : List (HloOp τ sig (Elt F))).Forall fun op => op.fresh = ∅ := by
  simp only [List.Forall]; repeat' constructor

/-- No operation of `main_part8_ops0` allocates a buffer. -/
theorem main_part8_ops0_fresh : (main_part8_ops0 : List (HloOp τ sig (Elt F))).Forall fun op => op.fresh = ∅ := by
  simp only [List.Forall]; repeat' constructor

/-- No operation of `main_part9_ops0` allocates a buffer. -/
theorem main_part9_ops0_fresh : (main_part9_ops0 : List (HloOp τ sig (Elt F))).Forall fun op => op.fresh = ∅ := by
  simp only [List.Forall]; repeat' constructor

/-- No operation of `main_part10_ops0` allocates a buffer. -/
theorem main_part10_ops0_fresh : (main_part10_ops0 : List (HloOp τ sig (Elt F))).Forall fun op => op.fresh = ∅ := by
  simp only [List.Forall]; repeat' constructor

/-- No operation of `main_part10_ops1` allocates a buffer. -/
theorem main_part10_ops1_fresh : (main_part10_ops1 : List (HloOp τ sig (Elt F))).Forall fun op => op.fresh = ∅ := by
  simp only [List.Forall]; repeat' constructor

/-- No operation of `main_part10_ops2` allocates a buffer. -/
theorem main_part10_ops2_fresh : (main_part10_ops2 : List (HloOp τ sig (Elt F))).Forall fun op => op.fresh = ∅ := by
  simp only [List.Forall]; repeat' constructor

/-- No operation of `main_part10_ops3` allocates a buffer. -/
theorem main_part10_ops3_fresh : (main_part10_ops3 : List (HloOp τ sig (Elt F))).Forall fun op => op.fresh = ∅ := by
  simp only [List.Forall]; repeat' constructor

/-- No operation of `main_part10_ops4` allocates a buffer. -/
theorem main_part10_ops4_fresh : (main_part10_ops4 : List (HloOp τ sig (Elt F))).Forall fun op => op.fresh = ∅ := by
  simp only [List.Forall]; repeat' constructor

/-- No operation of `main_part11_ops0` allocates a buffer. -/
theorem main_part11_ops0_fresh : (main_part11_ops0 : List (HloOp τ sig (Elt F))).Forall fun op => op.fresh = ∅ := by
  simp only [List.Forall]; repeat' constructor

/-- No operation of `main_part12_ops0` allocates a buffer. -/
theorem main_part12_ops0_fresh : (main_part12_ops0 : List (HloOp τ sig (Elt F))).Forall fun op => op.fresh = ∅ := by
  simp only [List.Forall]; repeat' constructor

/-- No operation of `main_part13_ops0` allocates a buffer. -/
theorem main_part13_ops0_fresh : (main_part13_ops0 : List (HloOp τ sig (Elt F))).Forall fun op => op.fresh = ∅ := by
  simp only [List.Forall]; repeat' constructor

/-- No operation of `main_part14_ops0` allocates a buffer. -/
theorem main_part14_ops0_fresh : (main_part14_ops0 : List (HloOp τ sig (Elt F))).Forall fun op => op.fresh = ∅ := by
  simp only [List.Forall]; repeat' constructor

/-- No operation of `main_part15_ops0` allocates a buffer. -/
theorem main_part15_ops0_fresh : (main_part15_ops0 : List (HloOp τ sig (Elt F))).Forall fun op => op.fresh = ∅ := by
  simp only [List.Forall]; repeat' constructor

/-- No operation of `main_part15_ops1` allocates a buffer. -/
theorem main_part15_ops1_fresh : (main_part15_ops1 : List (HloOp τ sig (Elt F))).Forall fun op => op.fresh = ∅ := by
  simp only [List.Forall]; repeat' constructor

/-- No operation of `main_part15_ops2` allocates a buffer. -/
theorem main_part15_ops2_fresh : (main_part15_ops2 : List (HloOp τ sig (Elt F))).Forall fun op => op.fresh = ∅ := by
  simp only [List.Forall]; repeat' constructor

/-- No operation of `main_part15_ops3` allocates a buffer. -/
theorem main_part15_ops3_fresh : (main_part15_ops3 : List (HloOp τ sig (Elt F))).Forall fun op => op.fresh = ∅ := by
  simp only [List.Forall]; repeat' constructor

/-- No operation of `main_part16_ops0` allocates a buffer. -/
theorem main_part16_ops0_fresh : (main_part16_ops0 : List (HloOp τ sig (Elt F))).Forall fun op => op.fresh = ∅ := by
  simp only [List.Forall]; repeat' constructor

/-- No operation of `main_part16_ops1` allocates a buffer. -/
theorem main_part16_ops1_fresh : (main_part16_ops1 : List (HloOp τ sig (Elt F))).Forall fun op => op.fresh = ∅ := by
  simp only [List.Forall]; repeat' constructor

/-- No operation of `main_part16_ops2` allocates a buffer. -/
theorem main_part16_ops2_fresh : (main_part16_ops2 : List (HloOp τ sig (Elt F))).Forall fun op => op.fresh = ∅ := by
  simp only [List.Forall]; repeat' constructor

/-! ## The regions as segments -/

-- applying a library lemma stated over the pinned configuration unifies with the printed one only when unification may
-- unfold plain definitions in a metavariable's type
set_option backward.isDefEq.respectTransparency.types false in
/-- Region 0 over the thread state: entered from every unscoped buffer at its entry contents, left at its exit
    contents. Its arrays split out of the unscoped buffers and put back at the exit contents; the generator register into the
    class invariant and out; nothing owed; no semaphore of the kernel's own. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (Win0 m ρ c) ∗ R c)
  post c := iprop(StableHlo.held (c : Thread nD τ) (Pipeline.ucRefs τ sig) (Wout0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at its entry contents, left at its exit
    contents. Its arrays split out of the unscoped buffers and put back at the exit contents; the generator register into the
    class invariant and out; nothing owed; no semaphore of the kernel's own. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (Win1 m ρ c) ∗ R c)
  post c := iprop(StableHlo.held (c : Thread nD τ) (Pipeline.ucRefs τ sig) (Wout1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2 over the thread state: entered from every unscoped buffer at its entry contents, left at its exit
    contents. Its arrays split out of the unscoped buffers and put back at the exit contents; the generator register into the
    class invariant and out; nothing owed; no semaphore of the kernel's own. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (Win2 m ρ c) ∗ R c)
  post c := iprop(StableHlo.held (c : Thread nD τ) (Pipeline.ucRefs τ sig) (Wout2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3 over the thread state: entered from every unscoped buffer at its entry contents, left at its exit
    contents. Its arrays split out of the unscoped buffers and put back at the exit contents; the generator register into the
    class invariant and out; nothing owed; no semaphore of the kernel's own. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (Win3 m ρ c) ∗ R c)
  post c := iprop(StableHlo.held (c : Thread nD τ) (Pipeline.ucRefs τ sig) (Wout3 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 4 over the thread state: entered from every unscoped buffer at its entry contents, left at its exit
    contents. Its arrays split out of the unscoped buffers and put back at the exit contents; the generator register into the
    class invariant and out; nothing owed; no semaphore of the kernel's own. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (Win4 m ρ c) ∗ R c)
  post c := iprop(StableHlo.held (c : Thread nD τ) (Pipeline.ucRefs τ sig) (Wout4 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 5 over the thread state: entered from every unscoped buffer at its entry contents, left at its exit
    contents. Its arrays split out of the unscoped buffers and put back at the exit contents; the generator register into the
    class invariant and out; nothing owed; no semaphore of the kernel's own. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (Win5 m ρ c) ∗ R c)
  post c := iprop(StableHlo.held (c : Thread nD τ) (Pipeline.ucRefs τ sig) (Wout5 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 6 over the thread state: entered from every unscoped buffer at its entry contents, left at its exit
    contents. Its arrays split out of the unscoped buffers and put back at the exit contents; the generator register into the
    class invariant and out; nothing owed; no semaphore of the kernel's own. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin6 m ρ) c).loose
  hwaits := Pipeline.hwaits_of_owed_zero _ _ _ _ L lv 6 fun _ _ => rfl
  pre c := iprop(StableHlo.held (c : Thread nD τ) (Pipeline.ucRefs τ sig) (Win6 m ρ c) ∗ R c)
  post c := iprop(StableHlo.held (c : Thread nD τ) (Pipeline.ucRefs τ sig) (Wout6 m ρ c) ∗ R c)
  X c := iprop(∃ r, prngReg c r)
  Y c := iprop(∃ r, prngReg c r)
  Z c := Pipeline.unscopedRest (Ix := Unit) (Name := ℕ) (U := UR sig nD τ) (Lvl := ℕ) spec6 c (Vin6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vin6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vin6 m ρ c) (Vout6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 7 over the thread state: entered from every unscoped buffer at its entry contents, left at its exit
    contents. Its arrays split out of the unscoped buffers and put back at the exit contents; the generator register into the
    class invariant and out; nothing owed; no semaphore of the kernel's own. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin7 m ρ) c).loose
  hwaits := Pipeline.hwaits_of_owed_zero _ _ _ _ L lv 7 fun _ _ => rfl
  pre c := iprop(StableHlo.held (c : Thread nD τ) (Pipeline.ucRefs τ sig) (Win7 m ρ c) ∗ R c)
  post c := iprop(StableHlo.held (c : Thread nD τ) (Pipeline.ucRefs τ sig) (Wout7 m ρ c) ∗ R c)
  X c := iprop(∃ r, prngReg c r)
  Y c := iprop(∃ r, prngReg c r)
  Z c := Pipeline.unscopedRest (Ix := Unit) (Name := ℕ) (U := UR sig nD τ) (Lvl := ℕ) spec7 c (Vin7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vin7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vin7 m ρ c) (Vout7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 8 over the thread state: entered from every unscoped buffer at its entry contents, left at its exit
    contents. Its arrays split out of the unscoped buffers and put back at the exit contents; the generator register into the
    class invariant and out; nothing owed; no semaphore of the kernel's own. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin8 m ρ) c).loose
  hwaits := Pipeline.hwaits_of_owed_zero _ _ _ _ L lv 8 fun _ _ => rfl
  pre c := iprop(StableHlo.held (c : Thread nD τ) (Pipeline.ucRefs τ sig) (Win8 m ρ c) ∗ R c)
  post c := iprop(StableHlo.held (c : Thread nD τ) (Pipeline.ucRefs τ sig) (Wout8 m ρ c) ∗ R c)
  X c := iprop(∃ r, prngReg c r)
  Y c := iprop(∃ r, prngReg c r)
  Z c := Pipeline.unscopedRest (Ix := Unit) (Name := ℕ) (U := UR sig nD τ) (Lvl := ℕ) spec8 c (Vin8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vin8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vin8 m ρ c) (Vout8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 9 over the thread state: entered from every unscoped buffer at its entry contents, left at its exit
    contents. Its arrays split out of the unscoped buffers and put back at the exit contents; the generator register into the
    class invariant and out; nothing owed; no semaphore of the kernel's own. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin9 m ρ) c).loose
  hwaits := Pipeline.hwaits_of_owed_zero _ _ _ _ L lv 9 fun _ _ => rfl
  pre c := iprop(StableHlo.held (c : Thread nD τ) (Pipeline.ucRefs τ sig) (Win9 m ρ c) ∗ R c)
  post c := iprop(StableHlo.held (c : Thread nD τ) (Pipeline.ucRefs τ sig) (Wout9 m ρ c) ∗ R c)
  X c := iprop(∃ r, prngReg c r)
  Y c := iprop(∃ r, prngReg c r)
  Z c := Pipeline.unscopedRest (Ix := Unit) (Name := ℕ) (U := UR sig nD τ) (Lvl := ℕ) spec9 c (Vin9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vin9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vin9 m ρ c) (Vout9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 10 over the thread state: entered from every unscoped buffer at its entry contents, left at its exit
    contents. Its arrays split out of the unscoped buffers and put back at the exit contents; the generator register into the
    class invariant and out; nothing owed; no semaphore of the kernel's own. -/
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vin10 m ρ) c).loose
  hwaits := Pipeline.hwaits_of_owed_zero _ _ _ _ L lv 10 fun _ _ => rfl
  pre c := iprop(StableHlo.held (c : Thread nD τ) (Pipeline.ucRefs τ sig) (Win10 m ρ c) ∗ R c)
  post c := iprop(StableHlo.held (c : Thread nD τ) (Pipeline.ucRefs τ sig) (Wout10 m ρ c) ∗ R c)
  X c := iprop(∃ r, prngReg c r)
  Y c := iprop(∃ r, prngReg c r)
  Z c := Pipeline.unscopedRest (Ix := Unit) (Name := ℕ) (U := UR sig nD τ) (Lvl := ℕ) spec10 c (Vin10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vin10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vin10 m ρ c) (Vout10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 11 over the thread state: entered from every unscoped buffer at its entry contents, left at its exit
    contents. Its arrays split out of the unscoped buffers and put back at the exit contents; the generator register into the
    class invariant and out; nothing owed; no semaphore of the kernel's own. -/
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vin11 m ρ) c).loose
  hwaits := Pipeline.hwaits_of_owed_zero _ _ _ _ L lv 11 fun _ _ => rfl
  pre c := iprop(StableHlo.held (c : Thread nD τ) (Pipeline.ucRefs τ sig) (Win11 m ρ c) ∗ R c)
  post c := iprop(StableHlo.held (c : Thread nD τ) (Pipeline.ucRefs τ sig) (Wout11 m ρ c) ∗ R c)
  X c := iprop(∃ r, prngReg c r)
  Y c := iprop(∃ r, prngReg c r)
  Z c := Pipeline.unscopedRest (Ix := Unit) (Name := ℕ) (U := UR sig nD τ) (Lvl := ℕ) spec11 c (Vin11 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vin11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vin11 m ρ c) (Vout11 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 12 over the thread state: entered from every unscoped buffer at its entry contents, left at its exit
    contents. Its arrays split out of the unscoped buffers and put back at the exit contents; the generator register into the
    class invariant and out; nothing owed; no semaphore of the kernel's own. -/
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vin12 m ρ) c).loose
  hwaits := Pipeline.hwaits_of_owed_zero _ _ _ _ L lv 12 fun _ _ => rfl
  pre c := iprop(StableHlo.held (c : Thread nD τ) (Pipeline.ucRefs τ sig) (Win12 m ρ c) ∗ R c)
  post c := iprop(StableHlo.held (c : Thread nD τ) (Pipeline.ucRefs τ sig) (Wout12 m ρ c) ∗ R c)
  X c := iprop(∃ r, prngReg c r)
  Y c := iprop(∃ r, prngReg c r)
  Z c := Pipeline.unscopedRest (Ix := Unit) (Name := ℕ) (U := UR sig nD τ) (Lvl := ℕ) spec12 c (Vin12 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (Vin12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (Vin12 m ρ c) (Vout12 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 13 over the thread state: entered from every unscoped buffer at its entry contents, left at its exit
    contents. Its arrays split out of the unscoped buffers and put back at the exit contents; the generator register into the
    class invariant and out; nothing owed; no semaphore of the kernel's own. -/
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vin13 m ρ) c).loose
  hwaits := Pipeline.hwaits_of_owed_zero _ _ _ _ L lv 13 fun _ _ => rfl
  pre c := iprop(StableHlo.held (c : Thread nD τ) (Pipeline.ucRefs τ sig) (Win13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec13 c (Vin13 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (Vin13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (Vin13 m ρ c) (Vout13 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 44 segments in order: a host segment per line of operations from its boundary's contents, a region per pallas_call. -/
noncomputable abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part2_ops0 main_part2_ops0_sub main_part2_ops0_fresh (W2 m ρ)),
    .host (hseg main_part3_ops0 main_part3_ops0_sub main_part3_ops0_fresh (W3 m ρ)),
    .host (hseg main_part4_ops0 main_part4_ops0_sub main_part4_ops0_fresh (W4 m ρ)),
    .region (reg0 m ρ),
    .host (hseg main_part4_ops1 main_part4_ops1_sub main_part4_ops1_fresh (W6 m ρ)),
    .host (hseg main_part5_ops0 main_part5_ops0_sub main_part5_ops0_fresh (W7 m ρ)),
    .region (reg1 m ρ),
    .host (hseg main_part5_ops1 main_part5_ops1_sub main_part5_ops1_fresh (W9 m ρ)),
    .region (reg2 m ρ),
    .host (hseg main_part5_ops2 main_part5_ops2_sub main_part5_ops2_fresh (W11 m ρ)),
    .region (reg3 m ρ),
    .host (hseg main_part5_ops3 main_part5_ops3_sub main_part5_ops3_fresh (W13 m ρ)),
    .host (hseg main_part6_ops0 main_part6_ops0_sub main_part6_ops0_fresh (W14 m ρ)),
    .host (hseg main_part7_ops0 main_part7_ops0_sub main_part7_ops0_fresh (W15 m ρ)),
    .host (hseg main_part8_ops0 main_part8_ops0_sub main_part8_ops0_fresh (W16 m ρ)),
    .host (hseg main_part9_ops0 main_part9_ops0_sub main_part9_ops0_fresh (W17 m ρ)),
    .host (hseg main_part10_ops0 main_part10_ops0_sub main_part10_ops0_fresh (W18 m ρ)),
    .region (reg4 m ρ),
    .host (hseg main_part10_ops1 main_part10_ops1_sub main_part10_ops1_fresh (W20 m ρ)),
    .region (reg5 m ρ),
    .host (hseg main_part10_ops2 main_part10_ops2_sub main_part10_ops2_fresh (W22 m ρ)),
    .region (reg6 m ρ),
    .host (hseg main_part10_ops3 main_part10_ops3_sub main_part10_ops3_fresh (W24 m ρ)),
    .region (reg7 m ρ),
    .host (hseg main_part10_ops4 main_part10_ops4_sub main_part10_ops4_fresh (W26 m ρ)),
    .host (hseg main_part11_ops0 main_part11_ops0_sub main_part11_ops0_fresh (W27 m ρ)),
    .host (hseg main_part12_ops0 main_part12_ops0_sub main_part12_ops0_fresh (W28 m ρ)),
    .host (hseg main_part13_ops0 main_part13_ops0_sub main_part13_ops0_fresh (W29 m ρ)),
    .host (hseg main_part14_ops0 main_part14_ops0_sub main_part14_ops0_fresh (W30 m ρ)),
    .host (hseg main_part15_ops0 main_part15_ops0_sub main_part15_ops0_fresh (W31 m ρ)),
    .region (reg8 m ρ),
    .host (hseg main_part15_ops1 main_part15_ops1_sub main_part15_ops1_fresh (W33 m ρ)),
    .region (reg9 m ρ),
    .host (hseg main_part15_ops2 main_part15_ops2_sub main_part15_ops2_fresh (W35 m ρ)),
    .region (reg10 m ρ),
    .host (hseg main_part15_ops3 main_part15_ops3_sub main_part15_ops3_fresh (W37 m ρ)),
    .host (hseg main_part16_ops0 main_part16_ops0_sub main_part16_ops0_fresh (W38 m ρ)),
    .region (reg11 m ρ),
    .host (hseg main_part16_ops1 main_part16_ops1_sub main_part16_ops1_fresh (W40 m ρ)),
    .region (reg12 m ρ),
    .host (hseg main_part16_ops2 main_part16_ops2_sub main_part16_ops2_fresh (W42 m ρ)),
    .region (reg13 m ρ) ]
/-- @main is the run of the segments: the chain of its items, then the segments' run against that chain by the kernel's
    definitional check. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state holds at every unscoped buffer the last boundary's
    contents: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

end Cert.KernelIdeal.Hand

end
-- ==== Proof.KI.Keep.lean ====
import proofs.«125545_j64845416235624_1_alg».proof.Proof.Gen.KernelIdeal.Launch
import Idealize.ShloMosaic.Lib.StableHlo.Run

set_option maxRecDepth 7380

noncomputable section

namespace Cert.KernelIdeal.Hand

open Idealize.ShloMosaic Idealize.ShloMosaic.TcCoe
open Cert.KernelIdeal Cert.KernelIdeal.Gen

variable {F : FTy → Type} [FloatOps F]

/-! # What @main's host operations leave alone

Every host operation writes one buffer, its result. So a line of them leaves every reference that is not one of its
results as it was: `after_keep`, then per host piece of @main the list of its results (`wr_…`), that the piece writes
exactly those (`writes_…`) and the resulting `keep_…`; the tactic `keep_after` picks the piece's lemma from the goal. -/

/-- A line whose operations write, one each and in order, exactly the references of the list `Y` leaves every
    reference outside `Y` as it was (each operation's result leaves what it does not write). -/
theorem after_keep {Val : EltTy → Type} {ops : List (HloOp τ sig Val)} {Y : List (Ref sig .tc)}
    (h : List.Forall₂ (fun op y => op.writes = {Proc.devRef .tc y}) ops Y) (V : Valuation τ sig Val)
    {b : Ref sig .tc} (hb : b ∉ Y) : StableHlo.after ops V (Proc.devRef .tc b) = V (Proc.devRef .tc b) := by
  induction h generalizing V with
  | nil => rfl
  | cons hw _ ih =>
    rw [StableHlo.after_cons, ih _ (fun hm => hb (List.mem_cons_of_mem _ hm))]
    exact HloOp.result_of_not_mem _ _ (by
      rw [hw, Finset.mem_singleton]
      exact StableHlo.devRef_ne_of_ne (fun e => hb (e ▸ List.mem_cons_self)))

/-! ## The host pieces -/

/-- The references the operations of `main_part0_ops0` write, one each, in order. -/
abbrev wr_main_part0_ops0 : List (Ref sig .tc) :=
  [main_v0, main_v1, main_c, main_v2, main_v3, main_c_0, main_v4, main_v5, main_v6, main_v7, main_v8, main_v9, main_v10, main_cst, main_v11, main_v12, main_v13, main_cst_1, main_v14, main_v15, main_v16, main_cst_2, main_v17, main_v18, main_v19, main_cst_3, main_v20, main_v21, main_v22, main_v23, main_v24, main_v25, main_v26, main_c_4, main_v27, main_v28, main_c_5, main_v29, main_v30, main_v31, main_v32, main_v33, main_v34, main_v35, main_cst_6, main_v36, main_v37, main_v38, main_cst_7, main_v39, main_v40, main_v41, main_cst_8, main_v42, main_v43, main_v44, main_cst_9, main_v45, main_v46, main_v47]
theorem writes_main_part0_ops0 : List.Forall₂ (fun (op : HloOp τ sig (Elt F)) y => op.writes = {Proc.devRef .tc y}) main_part0_ops0 wr_main_part0_ops0 :=
  .cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.nil))))))))))))))))))))))))))))))))))))))))))))))))))))))))))))
/-- `main_part0_ops0` leaves every reference it does not write as it was. -/
theorem keep_main_part0_ops0 (W : Valuation τ sig (Elt F)) (b : Ref sig .tc) (hb : b ∉ wr_main_part0_ops0) :
    StableHlo.after main_part0_ops0 W (Proc.devRef .tc b) = W (Proc.devRef .tc b) :=
  after_keep writes_main_part0_ops0 W hb

/-- The references the operations of `main_part1_ops0` write, one each, in order. -/
abbrev wr_main_part1_ops0 : List (Ref sig .tc) :=
  [main_v48, main_v49, main_v50, main_v51, main_c_10, main_v52, main_v53, main_c_11, main_v54, main_v55, main_v56, main_v57, main_v58, main_v59, main_v60, main_cst_12, main_v61, main_v62, main_v63, main_cst_13, main_v64, main_v65, main_v66, main_cst_14, main_v67, main_v68, main_v69, main_cst_15, main_v70, main_v71, main_v72, main_v73, main_v74, main_v75, main_v76, main_c_16, main_v77, main_v78, main_c_17, main_v79, main_v80, main_v81, main_v82, main_v83, main_v84, main_v85, main_cst_18, main_v86, main_v87, main_v88, main_cst_19, main_v89, main_v90, main_v91, main_cst_20, main_v92, main_v93, main_v94, main_cst_21, main_v95]
theorem writes_main_part1_ops0 : List.Forall₂ (fun (op : HloOp τ sig (Elt F)) y => op.writes = {Proc.devRef .tc y}) main_part1_ops0 wr_main_part1_ops0 :=
  .cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.nil))))))))))))))))))))))))))))))))))))))))))))))))))))))))))))
/-- `main_part1_ops0` leaves every reference it does not write as it was. -/
theorem keep_main_part1_ops0 (W : Valuation τ sig (Elt F)) (b : Ref sig .tc) (hb : b ∉ wr_main_part1_ops0) :
    StableHlo.after main_part1_ops0 W (Proc.devRef .tc b) = W (Proc.devRef .tc b) :=
  after_keep writes_main_part1_ops0 W hb

/-- The references the operations of `main_part2_ops0` write, one each, in order. -/
abbrev wr_main_part2_ops0 : List (Ref sig .tc) :=
  [main_v96, main_v97, main_v98, main_v99, main_v100, main_v101, main_c_22, main_v102, main_v103, main_c_23, main_v104, main_v105, main_v106, main_v107, main_v108, main_v109, main_v110, main_cst_24, main_v111, main_v112, main_v113, main_cst_25, main_v114, main_v115, main_v116, main_cst_26, main_v117, main_v118, main_v119, main_cst_27, main_v120, main_v121, main_v122, main_v123, main_v124, main_v125, main_v126, main_c_28, main_v127, main_v128, main_c_29, main_v129, main_v130, main_v131, main_v132, main_v133, main_v134, main_v135, main_cst_30, main_v136, main_v137, main_v138, main_cst_31, main_v139, main_v140, main_v141, main_cst_32, main_v142, main_v143, main_v144]
theorem writes_main_part2_ops0 : List.Forall₂ (fun (op : HloOp τ sig (Elt F)) y => op.writes = {Proc.devRef .tc y}) main_part2_ops0 wr_main_part2_ops0 :=
  .cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.nil))))))))))))))))))))))))))))))))))))))))))))))))))))))))))))
/-- `main_part2_ops0` leaves every reference it does not write as it was. -/
theorem keep_main_part2_ops0 (W : Valuation τ sig (Elt F)) (b : Ref sig .tc) (hb : b ∉ wr_main_part2_ops0) :
    StableHlo.after main_part2_ops0 W (Proc.devRef .tc b) = W (Proc.devRef .tc b) :=
  after_keep writes_main_part2_ops0 W hb

/-- The references the operations of `main_part3_ops0` write, one each, in order. -/
abbrev wr_main_part3_ops0 : List (Ref sig .tc) :=
  [main_cst_33, main_v145, main_v146, main_v147, main_v148, main_v149, main_v150, main_v151, main_c_34, main_v152, main_v153, main_c_35, main_v154, main_v155, main_v156, main_v157, main_v158, main_v159, main_v160, main_cst_36, main_v161, main_v162, main_v163, main_cst_37, main_v164, main_v165, main_v166, main_cst_38, main_v167, main_v168, main_v169, main_cst_39, main_v170, main_v171, main_v172, main_v173, main_v174, main_v175, main_v176, main_c_40, main_v177, main_v178, main_c_41, main_v179, main_v180, main_v181, main_v182, main_v183, main_v184, main_v185, main_cst_42, main_v186, main_v187, main_v188, main_cst_43, main_v189, main_v190, main_v191, main_cst_44, main_v192]
theorem writes_main_part3_ops0 : List.Forall₂ (fun (op : HloOp τ sig (Elt F)) y => op.writes = {Proc.devRef .tc y}) main_part3_ops0 wr_main_part3_ops0 :=
  .cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.nil))))))))))))))))))))))))))))))))))))))))))))))))))))))))))))
/-- `main_part3_ops0` leaves every reference it does not write as it was. -/
theorem keep_main_part3_ops0 (W : Valuation τ sig (Elt F)) (b : Ref sig .tc) (hb : b ∉ wr_main_part3_ops0) :
    StableHlo.after main_part3_ops0 W (Proc.devRef .tc b) = W (Proc.devRef .tc b) :=
  after_keep writes_main_part3_ops0 W hb

/-- The references the operations of `main_part4_ops0` write, one each, in order. -/
abbrev wr_main_part4_ops0 : List (Ref sig .tc) :=
  [main_v193, main_v194, main_cst_45, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244]
theorem writes_main_part4_ops0 : List.Forall₂ (fun (op : HloOp τ sig (Elt F)) y => op.writes = {Proc.devRef .tc y}) main_part4_ops0 wr_main_part4_ops0 :=
  .cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.unary_writes ..) (.cons (StableHlo.unary_writes ..) (.cons (StableHlo.unary_writes ..) (.cons (StableHlo.unary_writes ..) (.cons (StableHlo.nary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.reshape_writes ..) (.nil)))))))))))))))))))))))))))))))))))))))))))))))))))))
/-- `main_part4_ops0` leaves every reference it does not write as it was. -/
theorem keep_main_part4_ops0 (W : Valuation τ sig (Elt F)) (b : Ref sig .tc) (hb : b ∉ wr_main_part4_ops0) :
    StableHlo.after main_part4_ops0 W (Proc.devRef .tc b) = W (Proc.devRef .tc b) :=
  after_keep writes_main_part4_ops0 W hb

/-- The references the operations of `main_part4_ops1` write, one each, in order. -/
abbrev wr_main_part4_ops1 : List (Ref sig .tc) :=
  [main_v246, main_v247, main_v248, main_v249, main_v250, main_v251]
theorem writes_main_part4_ops1 : List.Forall₂ (fun (op : HloOp τ sig (Elt F)) y => op.writes = {Proc.devRef .tc y}) main_part4_ops1 wr_main_part4_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.nil))))))
/-- `main_part4_ops1` leaves every reference it does not write as it was. -/
theorem keep_main_part4_ops1 (W : Valuation τ sig (Elt F)) (b : Ref sig .tc) (hb : b ∉ wr_main_part4_ops1) :
    StableHlo.after main_part4_ops1 W (Proc.devRef .tc b) = W (Proc.devRef .tc b) :=
  after_keep writes_main_part4_ops1 W hb

/-- The references the operations of `main_part5_ops0` write, one each, in order. -/
abbrev wr_main_part5_ops0 : List (Ref sig .tc) :=
  [main_v252, main_v253]
theorem writes_main_part5_ops0 : List.Forall₂ (fun (op : HloOp τ sig (Elt F)) y => op.writes = {Proc.devRef .tc y}) main_part5_ops0 wr_main_part5_ops0 :=
  .cons (StableHlo.reshape_writes ..) (.cons (StableHlo.reshape_writes ..) (.nil))
/-- `main_part5_ops0` leaves every reference it does not write as it was. -/
theorem keep_main_part5_ops0 (W : Valuation τ sig (Elt F)) (b : Ref sig .tc) (hb : b ∉ wr_main_part5_ops0) :
    StableHlo.after main_part5_ops0 W (Proc.devRef .tc b) = W (Proc.devRef .tc b) :=
  after_keep writes_main_part5_ops0 W hb

/-- The references the operations of `main_part5_ops1` write, one each, in order. -/
abbrev wr_main_part5_ops1 : List (Ref sig .tc) :=
  [main_v255, main_v256, main_v257, main_v258, main_v259, main_v260, main_v261, main_v262]
theorem writes_main_part5_ops1 : List.Forall₂ (fun (op : HloOp τ sig (Elt F)) y => op.writes = {Proc.devRef .tc y}) main_part5_ops1 wr_main_part5_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part5_ops1` leaves every reference it does not write as it was. -/
theorem keep_main_part5_ops1 (W : Valuation τ sig (Elt F)) (b : Ref sig .tc) (hb : b ∉ wr_main_part5_ops1) :
    StableHlo.after main_part5_ops1 W (Proc.devRef .tc b) = W (Proc.devRef .tc b) :=
  after_keep writes_main_part5_ops1 W hb

/-- The references the operations of `main_part5_ops2` write, one each, in order. -/
abbrev wr_main_part5_ops2 : List (Ref sig .tc) :=
  [main_v264, main_v265, main_v266, main_v267, main_v268, main_v269, main_v270, main_v271]
theorem writes_main_part5_ops2 : List.Forall₂ (fun (op : HloOp τ sig (Elt F)) y => op.writes = {Proc.devRef .tc y}) main_part5_ops2 wr_main_part5_ops2 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part5_ops2` leaves every reference it does not write as it was. -/
theorem keep_main_part5_ops2 (W : Valuation τ sig (Elt F)) (b : Ref sig .tc) (hb : b ∉ wr_main_part5_ops2) :
    StableHlo.after main_part5_ops2 W (Proc.devRef .tc b) = W (Proc.devRef .tc b) :=
  after_keep writes_main_part5_ops2 W hb

/-- The references the operations of `main_part5_ops3` write, one each, in order. -/
abbrev wr_main_part5_ops3 : List (Ref sig .tc) :=
  [main_v273, main_v274, main_c_46, main_v275, main_v276, main_c_47, main_v277, main_v278, main_v279, main_v280, main_v281, main_v282, main_v283, main_cst_48, main_v284, main_v285, main_v286, main_cst_49, main_v287, main_v288, main_v289, main_cst_50, main_v290, main_v291, main_v292, main_cst_51, main_v293, main_v294, main_v295, main_v296, main_v297, main_v298, main_v299, main_c_52, main_v300, main_v301, main_c_53, main_v302, main_v303]
theorem writes_main_part5_ops3 : List.Forall₂ (fun (op : HloOp τ sig (Elt F)) y => op.writes = {Proc.devRef .tc y}) main_part5_ops3 wr_main_part5_ops3 :=
  .cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.nil)))))))))))))))))))))))))))))))))))))))
/-- `main_part5_ops3` leaves every reference it does not write as it was. -/
theorem keep_main_part5_ops3 (W : Valuation τ sig (Elt F)) (b : Ref sig .tc) (hb : b ∉ wr_main_part5_ops3) :
    StableHlo.after main_part5_ops3 W (Proc.devRef .tc b) = W (Proc.devRef .tc b) :=
  after_keep writes_main_part5_ops3 W hb

/-- The references the operations of `main_part6_ops0` write, one each, in order. -/
abbrev wr_main_part6_ops0 : List (Ref sig .tc) :=
  [main_v304, main_v305, main_v306, main_v307, main_v308, main_cst_54, main_v309, main_v310, main_v311, main_cst_55, main_v312, main_v313, main_v314, main_cst_56, main_v315, main_v316, main_v317, main_cst_57, main_v318, main_v319, main_v320, main_v321, main_v322, main_v323, main_v324, main_c_58, main_v325, main_v326, main_c_59, main_v327, main_v328, main_v329, main_v330, main_v331, main_v332, main_v333, main_cst_60, main_v334, main_v335, main_v336, main_cst_61, main_v337, main_v338, main_v339, main_cst_62, main_v340, main_v341, main_v342, main_cst_63, main_v343, main_v344, main_v345, main_v346, main_v347, main_v348, main_v349, main_c_64, main_v350, main_v351, main_c_65]
theorem writes_main_part6_ops0 : List.Forall₂ (fun (op : HloOp τ sig (Elt F)) y => op.writes = {Proc.devRef .tc y}) main_part6_ops0 wr_main_part6_ops0 :=
  .cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.nil))))))))))))))))))))))))))))))))))))))))))))))))))))))))))))
/-- `main_part6_ops0` leaves every reference it does not write as it was. -/
theorem keep_main_part6_ops0 (W : Valuation τ sig (Elt F)) (b : Ref sig .tc) (hb : b ∉ wr_main_part6_ops0) :
    StableHlo.after main_part6_ops0 W (Proc.devRef .tc b) = W (Proc.devRef .tc b) :=
  after_keep writes_main_part6_ops0 W hb

/-- The references the operations of `main_part7_ops0` write, one each, in order. -/
abbrev wr_main_part7_ops0 : List (Ref sig .tc) :=
  [main_v352, main_v353, main_v354, main_v355, main_v356, main_v357, main_v358, main_cst_66, main_v359, main_v360, main_v361, main_cst_67, main_v362, main_v363, main_v364, main_cst_68, main_v365, main_v366, main_v367, main_cst_69, main_v368, main_v369, main_v370, main_v371, main_v372, main_v373, main_v374, main_c_70, main_v375, main_v376, main_c_71, main_v377, main_v378, main_v379, main_v380, main_v381, main_v382, main_v383, main_cst_72, main_v384, main_v385, main_v386, main_cst_73, main_v387, main_v388, main_v389, main_cst_74, main_v390, main_v391, main_v392, main_cst_75, main_v393, main_v394, main_v395, main_v396, main_v397, main_v398, main_v399, main_c_76, main_v400]
theorem writes_main_part7_ops0 : List.Forall₂ (fun (op : HloOp τ sig (Elt F)) y => op.writes = {Proc.devRef .tc y}) main_part7_ops0 wr_main_part7_ops0 :=
  .cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.nil))))))))))))))))))))))))))))))))))))))))))))))))))))))))))))
/-- `main_part7_ops0` leaves every reference it does not write as it was. -/
theorem keep_main_part7_ops0 (W : Valuation τ sig (Elt F)) (b : Ref sig .tc) (hb : b ∉ wr_main_part7_ops0) :
    StableHlo.after main_part7_ops0 W (Proc.devRef .tc b) = W (Proc.devRef .tc b) :=
  after_keep writes_main_part7_ops0 W hb

/-- The references the operations of `main_part8_ops0` write, one each, in order. -/
abbrev wr_main_part8_ops0 : List (Ref sig .tc) :=
  [main_v401, main_c_77, main_v402, main_v403, main_v404, main_v405, main_v406, main_v407, main_v408, main_cst_78, main_v409, main_v410, main_v411, main_cst_79, main_v412, main_v413, main_v414, main_cst_80, main_v415, main_v416, main_v417, main_cst_81, main_v418, main_v419, main_v420, main_v421, main_v422, main_v423, main_v424, main_c_82, main_v425, main_v426, main_c_83, main_v427, main_v428, main_v429, main_v430, main_v431, main_v432, main_v433, main_cst_84, main_v434, main_v435, main_v436, main_cst_85, main_v437, main_v438, main_v439, main_cst_86, main_v440, main_v441, main_v442, main_cst_87, main_v443, main_v444, main_v445, main_v446, main_v447, main_v448, main_v449]
theorem writes_main_part8_ops0 : List.Forall₂ (fun (op : HloOp τ sig (Elt F)) y => op.writes = {Proc.devRef .tc y}) main_part8_ops0 wr_main_part8_ops0 :=
  .cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.nil))))))))))))))))))))))))))))))))))))))))))))))))))))))))))))
/-- `main_part8_ops0` leaves every reference it does not write as it was. -/
theorem keep_main_part8_ops0 (W : Valuation τ sig (Elt F)) (b : Ref sig .tc) (hb : b ∉ wr_main_part8_ops0) :
    StableHlo.after main_part8_ops0 W (Proc.devRef .tc b) = W (Proc.devRef .tc b) :=
  after_keep writes_main_part8_ops0 W hb

/-- The references the operations of `main_part9_ops0` write, one each, in order. -/
abbrev wr_main_part9_ops0 : List (Ref sig .tc) :=
  [main_c_88, main_v450, main_v451, main_c_89, main_v452, main_v453, main_v454, main_v455, main_v456, main_v457, main_v458, main_cst_90, main_v459, main_v460, main_v461, main_cst_91, main_v462, main_v463, main_v464, main_cst_92, main_v465, main_v466, main_v467, main_cst_93, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493, main_v494, main_v495, main_v496, main_v497, main_v498, main_v499, main_v500, main_v501, main_v502, main_v503]
theorem writes_main_part9_ops0 : List.Forall₂ (fun (op : HloOp τ sig (Elt F)) y => op.writes = {Proc.devRef .tc y}) main_part9_ops0 wr_main_part9_ops0 :=
  .cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.unary_writes ..) (.cons (StableHlo.unary_writes ..) (.cons (StableHlo.unary_writes ..) (.cons (StableHlo.unary_writes ..) (.cons (StableHlo.nary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.nil))))))))))))))))))))))))))))))))))))))))))))))))))))))))))))
/-- `main_part9_ops0` leaves every reference it does not write as it was. -/
theorem keep_main_part9_ops0 (W : Valuation τ sig (Elt F)) (b : Ref sig .tc) (hb : b ∉ wr_main_part9_ops0) :
    StableHlo.after main_part9_ops0 W (Proc.devRef .tc b) = W (Proc.devRef .tc b) :=
  after_keep writes_main_part9_ops0 W hb

/-- The references the operations of `main_part10_ops0` write, one each, in order. -/
abbrev wr_main_part10_ops0 : List (Ref sig .tc) :=
  [main_v504, main_v505, main_v506, main_v507, main_v508, main_v509, main_v510, main_v511, main_v512, main_v513, main_v514, main_v515, main_v516, main_v517]
theorem writes_main_part10_ops0 : List.Forall₂ (fun (op : HloOp τ sig (Elt F)) y => op.writes = {Proc.devRef .tc y}) main_part10_ops0 wr_main_part10_ops0 :=
  .cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.reshape_writes ..) (.nil))))))))))))))
/-- `main_part10_ops0` leaves every reference it does not write as it was. -/
theorem keep_main_part10_ops0 (W : Valuation τ sig (Elt F)) (b : Ref sig .tc) (hb : b ∉ wr_main_part10_ops0) :
    StableHlo.after main_part10_ops0 W (Proc.devRef .tc b) = W (Proc.devRef .tc b) :=
  after_keep writes_main_part10_ops0 W hb

/-- The references the operations of `main_part10_ops1` write, one each, in order. -/
abbrev wr_main_part10_ops1 : List (Ref sig .tc) :=
  [main_v519, main_v520, main_v521, main_v522, main_v523, main_v524, main_v525, main_v526]
theorem writes_main_part10_ops1 : List.Forall₂ (fun (op : HloOp τ sig (Elt F)) y => op.writes = {Proc.devRef .tc y}) main_part10_ops1 wr_main_part10_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part10_ops1` leaves every reference it does not write as it was. -/
theorem keep_main_part10_ops1 (W : Valuation τ sig (Elt F)) (b : Ref sig .tc) (hb : b ∉ wr_main_part10_ops1) :
    StableHlo.after main_part10_ops1 W (Proc.devRef .tc b) = W (Proc.devRef .tc b) :=
  after_keep writes_main_part10_ops1 W hb

/-- The references the operations of `main_part10_ops2` write, one each, in order. -/
abbrev wr_main_part10_ops2 : List (Ref sig .tc) :=
  [main_v528, main_v529, main_v530, main_v531, main_v532, main_v533, main_v534, main_v535]
theorem writes_main_part10_ops2 : List.Forall₂ (fun (op : HloOp τ sig (Elt F)) y => op.writes = {Proc.devRef .tc y}) main_part10_ops2 wr_main_part10_ops2 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part10_ops2` leaves every reference it does not write as it was. -/
theorem keep_main_part10_ops2 (W : Valuation τ sig (Elt F)) (b : Ref sig .tc) (hb : b ∉ wr_main_part10_ops2) :
    StableHlo.after main_part10_ops2 W (Proc.devRef .tc b) = W (Proc.devRef .tc b) :=
  after_keep writes_main_part10_ops2 W hb

/-- The references the operations of `main_part10_ops3` write, one each, in order. -/
abbrev wr_main_part10_ops3 : List (Ref sig .tc) :=
  [main_v537, main_v538, main_v539, main_v540, main_v541, main_v542, main_v543, main_v544]
theorem writes_main_part10_ops3 : List.Forall₂ (fun (op : HloOp τ sig (Elt F)) y => op.writes = {Proc.devRef .tc y}) main_part10_ops3 wr_main_part10_ops3 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part10_ops3` leaves every reference it does not write as it was. -/
theorem keep_main_part10_ops3 (W : Valuation τ sig (Elt F)) (b : Ref sig .tc) (hb : b ∉ wr_main_part10_ops3) :
    StableHlo.after main_part10_ops3 W (Proc.devRef .tc b) = W (Proc.devRef .tc b) :=
  after_keep writes_main_part10_ops3 W hb

/-- The references the operations of `main_part10_ops4` write, one each, in order. -/
abbrev wr_main_part10_ops4 : List (Ref sig .tc) :=
  [main_v546, main_v547, main_c_94, main_v548, main_v549, main_c_95, main_v550, main_v551, main_v552, main_v553, main_v554, main_v555, main_v556, main_cst_96, main_v557, main_v558, main_v559, main_cst_97]
theorem writes_main_part10_ops4 : List.Forall₂ (fun (op : HloOp τ sig (Elt F)) y => op.writes = {Proc.devRef .tc y}) main_part10_ops4 wr_main_part10_ops4 :=
  .cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.nil))))))))))))))))))
/-- `main_part10_ops4` leaves every reference it does not write as it was. -/
theorem keep_main_part10_ops4 (W : Valuation τ sig (Elt F)) (b : Ref sig .tc) (hb : b ∉ wr_main_part10_ops4) :
    StableHlo.after main_part10_ops4 W (Proc.devRef .tc b) = W (Proc.devRef .tc b) :=
  after_keep writes_main_part10_ops4 W hb

/-- The references the operations of `main_part11_ops0` write, one each, in order. -/
abbrev wr_main_part11_ops0 : List (Ref sig .tc) :=
  [main_v560, main_v561, main_v562, main_cst_98, main_v563, main_v564, main_v565, main_cst_99, main_v566, main_v567, main_v568, main_v569, main_v570, main_v571, main_v572, main_c_100, main_v573, main_v574, main_c_101, main_v575, main_v576, main_v577, main_v578, main_v579, main_v580, main_v581, main_cst_102, main_v582, main_v583, main_v584, main_cst_103, main_v585, main_v586, main_v587, main_cst_104, main_v588, main_v589, main_v590, main_cst_105, main_v591, main_v592, main_v593, main_v594, main_v595, main_v596, main_v597, main_c_106, main_v598, main_v599, main_c_107, main_v600, main_v601, main_v602, main_v603, main_v604, main_v605, main_v606, main_cst_108, main_v607, main_v608]
theorem writes_main_part11_ops0 : List.Forall₂ (fun (op : HloOp τ sig (Elt F)) y => op.writes = {Proc.devRef .tc y}) main_part11_ops0 wr_main_part11_ops0 :=
  .cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.nil))))))))))))))))))))))))))))))))))))))))))))))))))))))))))))
/-- `main_part11_ops0` leaves every reference it does not write as it was. -/
theorem keep_main_part11_ops0 (W : Valuation τ sig (Elt F)) (b : Ref sig .tc) (hb : b ∉ wr_main_part11_ops0) :
    StableHlo.after main_part11_ops0 W (Proc.devRef .tc b) = W (Proc.devRef .tc b) :=
  after_keep writes_main_part11_ops0 W hb

/-- The references the operations of `main_part12_ops0` write, one each, in order. -/
abbrev wr_main_part12_ops0 : List (Ref sig .tc) :=
  [main_v609, main_cst_109, main_v610, main_v611, main_v612, main_cst_110, main_v613, main_v614, main_v615, main_cst_111, main_v616, main_v617, main_v618, main_v619, main_v620, main_v621, main_v622, main_c_112, main_v623, main_v624, main_c_113, main_v625, main_v626, main_v627, main_v628, main_v629, main_v630, main_v631, main_cst_114, main_v632, main_v633, main_v634, main_cst_115, main_v635, main_v636, main_v637, main_cst_116, main_v638, main_v639, main_v640, main_cst_117, main_v641, main_v642, main_v643, main_v644, main_v645, main_v646, main_v647, main_c_118, main_v648, main_v649, main_c_119, main_v650, main_v651, main_v652, main_v653, main_v654, main_v655, main_v656, main_cst_120]
theorem writes_main_part12_ops0 : List.Forall₂ (fun (op : HloOp τ sig (Elt F)) y => op.writes = {Proc.devRef .tc y}) main_part12_ops0 wr_main_part12_ops0 :=
  .cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.nil))))))))))))))))))))))))))))))))))))))))))))))))))))))))))))
/-- `main_part12_ops0` leaves every reference it does not write as it was. -/
theorem keep_main_part12_ops0 (W : Valuation τ sig (Elt F)) (b : Ref sig .tc) (hb : b ∉ wr_main_part12_ops0) :
    StableHlo.after main_part12_ops0 W (Proc.devRef .tc b) = W (Proc.devRef .tc b) :=
  after_keep writes_main_part12_ops0 W hb

/-- The references the operations of `main_part13_ops0` write, one each, in order. -/
abbrev wr_main_part13_ops0 : List (Ref sig .tc) :=
  [main_v657, main_v658, main_v659, main_cst_121, main_v660, main_v661, main_v662, main_cst_122, main_v663, main_v664, main_v665, main_cst_123, main_v666, main_v667, main_v668, main_v669, main_v670, main_v671, main_v672, main_c_124, main_v673, main_v674, main_c_125, main_v675, main_v676, main_v677, main_v678, main_v679, main_v680, main_v681, main_cst_126, main_v682, main_v683, main_v684, main_cst_127, main_v685, main_v686, main_v687, main_cst_128, main_v688, main_v689, main_v690, main_cst_129, main_v691, main_v692, main_v693, main_v694, main_v695, main_v696, main_v697, main_c_130, main_v698, main_v699, main_c_131, main_v700, main_v701, main_v702, main_v703, main_v704, main_v705]
theorem writes_main_part13_ops0 : List.Forall₂ (fun (op : HloOp τ sig (Elt F)) y => op.writes = {Proc.devRef .tc y}) main_part13_ops0 wr_main_part13_ops0 :=
  .cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.nil))))))))))))))))))))))))))))))))))))))))))))))))))))))))))))
/-- `main_part13_ops0` leaves every reference it does not write as it was. -/
theorem keep_main_part13_ops0 (W : Valuation τ sig (Elt F)) (b : Ref sig .tc) (hb : b ∉ wr_main_part13_ops0) :
    StableHlo.after main_part13_ops0 W (Proc.devRef .tc b) = W (Proc.devRef .tc b) :=
  after_keep writes_main_part13_ops0 W hb

/-- The references the operations of `main_part14_ops0` write, one each, in order. -/
abbrev wr_main_part14_ops0 : List (Ref sig .tc) :=
  [main_v706, main_cst_132, main_v707, main_v708, main_v709, main_cst_133, main_v710, main_v711, main_v712, main_cst_134, main_v713, main_v714, main_v715, main_cst_135, main_v716, main_v717, main_v718, main_v719, main_v720, main_v721, main_v722, main_c_136, main_v723, main_v724, main_c_137, main_v725, main_v726, main_v727, main_v728, main_v729, main_v730, main_v731, main_cst_138, main_v732, main_v733, main_v734, main_cst_139, main_v735, main_v736, main_v737, main_cst_140, main_v738, main_v739, main_v740, main_cst_141, main_v741, main_v742, main_v743, main_v744, main_v745, main_v746, main_v747, main_v748, main_v749, main_v750, main_v751, main_v752, main_v753, main_v754, main_v755]
theorem writes_main_part14_ops0 : List.Forall₂ (fun (op : HloOp τ sig (Elt F)) y => op.writes = {Proc.devRef .tc y}) main_part14_ops0 wr_main_part14_ops0 :=
  .cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.nil))))))))))))))))))))))))))))))))))))))))))))))))))))))))))))
/-- `main_part14_ops0` leaves every reference it does not write as it was. -/
theorem keep_main_part14_ops0 (W : Valuation τ sig (Elt F)) (b : Ref sig .tc) (hb : b ∉ wr_main_part14_ops0) :
    StableHlo.after main_part14_ops0 W (Proc.devRef .tc b) = W (Proc.devRef .tc b) :=
  after_keep writes_main_part14_ops0 W hb

/-- The references the operations of `main_part15_ops0` write, one each, in order. -/
abbrev wr_main_part15_ops0 : List (Ref sig .tc) :=
  [main_v756, main_v757, main_v758, main_v759, main_v760, main_v761, main_v762, main_v763, main_v764, main_v765, main_v766, main_v767, main_v768, main_v769, main_v770, main_v771, main_v772, main_v773, main_v774, main_v775, main_v776, main_v777, main_v778, main_v779, main_v780, main_v781, main_v782, main_v783, main_v784, main_v785, main_v786, main_v787, main_v788, main_v789, main_v790]
theorem writes_main_part15_ops0 : List.Forall₂ (fun (op : HloOp τ sig (Elt F)) y => op.writes = {Proc.devRef .tc y}) main_part15_ops0 wr_main_part15_ops0 :=
  .cons (StableHlo.unary_writes ..) (.cons (StableHlo.unary_writes ..) (.cons (StableHlo.unary_writes ..) (.cons (StableHlo.unary_writes ..) (.cons (StableHlo.unary_writes ..) (.cons (StableHlo.nary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.binary_writes ..) (.cons (StableHlo.reshape_writes ..) (.nil)))))))))))))))))))))))))))))))))))
/-- `main_part15_ops0` leaves every reference it does not write as it was. -/
theorem keep_main_part15_ops0 (W : Valuation τ sig (Elt F)) (b : Ref sig .tc) (hb : b ∉ wr_main_part15_ops0) :
    StableHlo.after main_part15_ops0 W (Proc.devRef .tc b) = W (Proc.devRef .tc b) :=
  after_keep writes_main_part15_ops0 W hb

/-- The references the operations of `main_part15_ops1` write, one each, in order. -/
abbrev wr_main_part15_ops1 : List (Ref sig .tc) :=
  [main_v792, main_v793, main_v794, main_v795, main_v796, main_v797, main_v798, main_v799]
theorem writes_main_part15_ops1 : List.Forall₂ (fun (op : HloOp τ sig (Elt F)) y => op.writes = {Proc.devRef .tc y}) main_part15_ops1 wr_main_part15_ops1 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part15_ops1` leaves every reference it does not write as it was. -/
theorem keep_main_part15_ops1 (W : Valuation τ sig (Elt F)) (b : Ref sig .tc) (hb : b ∉ wr_main_part15_ops1) :
    StableHlo.after main_part15_ops1 W (Proc.devRef .tc b) = W (Proc.devRef .tc b) :=
  after_keep writes_main_part15_ops1 W hb

/-- The references the operations of `main_part15_ops2` write, one each, in order. -/
abbrev wr_main_part15_ops2 : List (Ref sig .tc) :=
  [main_v801, main_v802, main_v803, main_v804, main_v805, main_v806, main_v807, main_v808]
theorem writes_main_part15_ops2 : List.Forall₂ (fun (op : HloOp τ sig (Elt F)) y => op.writes = {Proc.devRef .tc y}) main_part15_ops2 wr_main_part15_ops2 :=
  .cons (StableHlo.unary_writes ..) (.cons (StableHlo.reshape_writes ..) (.cons (StableHlo.reshape_writes ..) (.cons (StableHlo.unary_writes ..) (.cons (StableHlo.reshape_writes ..) (.cons (StableHlo.unary_writes ..) (.cons (StableHlo.reshape_writes ..) (.cons (StableHlo.reshape_writes ..) (.nil))))))))
/-- `main_part15_ops2` leaves every reference it does not write as it was. -/
theorem keep_main_part15_ops2 (W : Valuation τ sig (Elt F)) (b : Ref sig .tc) (hb : b ∉ wr_main_part15_ops2) :
    StableHlo.after main_part15_ops2 W (Proc.devRef .tc b) = W (Proc.devRef .tc b) :=
  after_keep writes_main_part15_ops2 W hb

/-- The references the operations of `main_part15_ops3` write, one each, in order. -/
abbrev wr_main_part15_ops3 : List (Ref sig .tc) :=
  [main_v810, main_v811, main_v812, main_v813, main_v814, main_v815]
theorem writes_main_part15_ops3 : List.Forall₂ (fun (op : HloOp τ sig (Elt F)) y => op.writes = {Proc.devRef .tc y}) main_part15_ops3 wr_main_part15_ops3 :=
  .cons (StableHlo.unary_writes ..) (.cons (StableHlo.reshape_writes ..) (.cons (StableHlo.reshape_writes ..) (.cons (StableHlo.unary_writes ..) (.cons (StableHlo.reshape_writes ..) (.cons (StableHlo.unary_writes ..) (.nil))))))
/-- `main_part15_ops3` leaves every reference it does not write as it was. -/
theorem keep_main_part15_ops3 (W : Valuation τ sig (Elt F)) (b : Ref sig .tc) (hb : b ∉ wr_main_part15_ops3) :
    StableHlo.after main_part15_ops3 W (Proc.devRef .tc b) = W (Proc.devRef .tc b) :=
  after_keep writes_main_part15_ops3 W hb

/-- The references the operations of `main_part16_ops0` write, one each, in order. -/
abbrev wr_main_part16_ops0 : List (Ref sig .tc) :=
  [main_v816, main_v817]
theorem writes_main_part16_ops0 : List.Forall₂ (fun (op : HloOp τ sig (Elt F)) y => op.writes = {Proc.devRef .tc y}) main_part16_ops0 wr_main_part16_ops0 :=
  .cons (StableHlo.reshape_writes ..) (.cons (StableHlo.reshape_writes ..) (.nil))
/-- `main_part16_ops0` leaves every reference it does not write as it was. -/
theorem keep_main_part16_ops0 (W : Valuation τ sig (Elt F)) (b : Ref sig .tc) (hb : b ∉ wr_main_part16_ops0) :
    StableHlo.after main_part16_ops0 W (Proc.devRef .tc b) = W (Proc.devRef .tc b) :=
  after_keep writes_main_part16_ops0 W hb

/-- The references the operations of `main_part16_ops1` write, one each, in order. -/
abbrev wr_main_part16_ops1 : List (Ref sig .tc) :=
  [main_v819, main_v820]
theorem writes_main_part16_ops1 : List.Forall₂ (fun (op : HloOp τ sig (Elt F)) y => op.writes = {Proc.devRef .tc y}) main_part16_ops1 wr_main_part16_ops1 :=
  .cons (StableHlo.reshape_writes ..) (.cons (StableHlo.reshape_writes ..) (.nil))
/-- `main_part16_ops1` leaves every reference it does not write as it was. -/
theorem keep_main_part16_ops1 (W : Valuation τ sig (Elt F)) (b : Ref sig .tc) (hb : b ∉ wr_main_part16_ops1) :
    StableHlo.after main_part16_ops1 W (Proc.devRef .tc b) = W (Proc.devRef .tc b) :=
  after_keep writes_main_part16_ops1 W hb

/-- The references the operations of `main_part16_ops2` write, one each, in order. -/
abbrev wr_main_part16_ops2 : List (Ref sig .tc) :=
  [main_v822, main_v823]
theorem writes_main_part16_ops2 : List.Forall₂ (fun (op : HloOp τ sig (Elt F)) y => op.writes = {Proc.devRef .tc y}) main_part16_ops2 wr_main_part16_ops2 :=
  .cons (StableHlo.reshape_writes ..) (.cons (StableHlo.reshape_writes ..) (.nil))
/-- `main_part16_ops2` leaves every reference it does not write as it was. -/
theorem keep_main_part16_ops2 (W : Valuation τ sig (Elt F)) (b : Ref sig .tc) (hb : b ∉ wr_main_part16_ops2) :
    StableHlo.after main_part16_ops2 W (Proc.devRef .tc b) = W (Proc.devRef .tc b) :=
  after_keep writes_main_part16_ops2 W hb

/-! ## The tactic -/

open Lean Elab Tactic Meta in
/-- Closes a goal `StableHlo.after ops W (Proc.devRef .tc b) = W (Proc.devRef .tc b)` where `ops` is one of @main's host
    pieces and `b` a reference the piece does not write: the piece's `keep_…` lemma, `b` told apart from the written
    references by evaluation. A left side that is a reducible abbreviation of such an `after` is unfolded first. For a
    line that is not a named piece it falls back on the operations' `writes` one by one. -/
elab "keep_after" : tactic => withMainContext do
  let t ← instantiateMVars (← (← getMainGoal).getType)
  let some (_, lhs, _) := t.eq? | throwError "keep_after: the goal is not an equation"
  let lhs ← if lhs.getAppFn.isConstOf ``StableHlo.after then pure lhs else whnfR lhs
  let args := lhs.getAppArgs
  let named : Option String :=
    if lhs.getAppFn.isConstOf ``StableHlo.after ∧ args.size ≥ 3 then
      match args[args.size - 3]!.getAppFn.constName? with
      | some (.str _ s) => if s.startsWith "main_part" then some s else none
      | _ => none
    else none
  match named with
  | some s =>
    let id := mkIdent (`Cert.KernelIdeal.Hand ++ Name.mkSimple ("keep_" ++ s))
    evalTactic (← `(tactic| exact $id _ _ (by decide)))
  | none =>
    evalTactic (← `(tactic| (
      refine StableHlo.after_of_forall_not_mem _ _ (List.forall_iff_forall_mem.mp ?_)
      simp only [hostOps0, hostOps1, hostOps2, hostOps3, hostOps4, hostOps5, hostOps6, hostOps7, hostOps8, hostOps9, hostOps10,
        hostOps11, hostOps12, hostOps13, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        StableHlo.nary_writes, StableHlo.unaryIndexed_writes, Finset.mem_singleton]
      repeat' apply And.intro
      all_goals exact StableHlo.devRef_ne_of_ne (by decide))))

/-- The tactic on a named piece, and on a stretch that is not one. -/
example (W : Valuation τ sig (Elt F)) : StableHlo.after main_part5_ops3 W (Proc.devRef .tc main_v24) = W (Proc.devRef .tc main_v24) := by keep_after
example (W : Valuation τ sig (Elt F)) : StableHlo.after hostOps13 W (Proc.devRef .tc main_arg12) = W (Proc.devRef .tc main_arg12) := by keep_after

end Cert.KernelIdeal.Hand

end
-- ==== Proof.KI.KeepArgs0.lean ====
import proofs.«125545_j64845416235624_1_alg».proof.Proof.KI.Keep

set_option maxRecDepth 7380

noncomputable section

namespace Cert.KernelIdeal.Hand

open Idealize.ShloMosaic Idealize.ShloMosaic.TcCoe
open Cert.KernelIdeal Cert.KernelIdeal.Gen

variable {F : FTy → Type} [FloatOps F]

/-! # The argument arrays: no host piece writes one (the pieces of @main's windows 0 to 9)

Per host piece and argument array, the piece's `keep_…` at the argument: it is none of the piece's results, by evaluation. -/

theorem keep_main_part0_ops0_arg0 (W : Valuation τ sig (Elt F)) : StableHlo.after main_part0_ops0 W (Proc.devRef .tc main_arg0) = W (Proc.devRef .tc main_arg0) := keep_main_part0_ops0 W main_arg0 (by decide)
theorem keep_main_part0_ops0_arg1 (W : Valuation τ sig (Elt F)) : StableHlo.after main_part0_ops0 W (Proc.devRef .tc main_arg1) = W (Proc.devRef .tc main_arg1) := keep_main_part0_ops0 W main_arg1 (by decide)
theorem keep_main_part0_ops0_arg2 (W : Valuation τ sig (Elt F)) : StableHlo.after main_part0_ops0 W (Proc.devRef .tc main_arg2) = W (Proc.devRef .tc main_arg2) := keep_main_part0_ops0 W main_arg2 (by decide)
theorem keep_main_part0_ops0_arg3 (W : Valuation τ sig (Elt F)) : StableHlo.after main_part0_ops0 W (Proc.devRef .tc main_arg3) = W (Proc.devRef .tc main_arg3) := keep_main_part0_ops0 W main_arg3 (by decide)
theorem keep_main_part0_ops0_arg4 (W : Valuation τ sig (Elt F)) : StableHlo.after main_part0_ops0 W (Proc.devRef .tc main_arg4) = W (Proc.devRef .tc main_arg4) := keep_main_part0_ops0 W main_arg4 (by decide)
theorem keep_main_part0_ops0_arg5 (W : Valuation τ sig (Elt F)) : StableHlo.after main_part0_ops0 W (Proc.devRef .tc main_arg5) = W (Proc.devRef .tc main_arg5) := keep_main_part0_ops0 W main_arg5 (by decide)
theorem keep_main_part0_ops0_arg6 (W : Valuation τ sig (Elt F)) : StableHlo.after main_part0_ops0 W (Proc.devRef .tc main_arg6) = W (Proc.devRef .tc main_arg6) := keep_main_part0_ops0 W main_arg6 (by decide)
theorem keep_main_part0_ops0_arg7 (W : Valuation τ sig (Elt F)) : StableHlo.after main_part0_ops0 W (Proc.devRef .tc main_arg7) = W (Proc.devRef .tc main_arg7) := keep_main_part0_ops0 W main_arg7 (by decide)
theorem keep_main_part0_ops0_arg8 (W : Valuation τ sig (Elt F)) : StableHlo.after main_part0_ops0 W (Proc.devRef .tc main_arg8) = W (Proc.devRef .tc main_arg8) := keep_main_part0_ops0 W main_arg8 (by decide)
theorem keep_main_part0_ops0_arg9 (W : Valuation τ sig (Elt F)) : StableHlo.after main_part0_ops0 W (Proc.devRef .tc main_arg9) = W (Proc.devRef .tc main_arg9) := keep_main_part0_ops0 W main_arg9 (by decide)
theorem keep_main_part0_ops0_arg10 (W : Valuation τ sig (Elt F)) : StableHlo.after main_part0_ops0 W (Proc.devRef .tc main_arg10) = W (Proc.devRef .tc main_arg10) := keep_main_part0_ops0 W main_arg10 (by decide)
theorem keep_main_part0_ops0_arg11 (W : Valuation τ sig (Elt F)) : StableHlo.after main_part0_ops0 W (Proc.devRef .tc main_arg11) = W (Proc.devRef .tc main_arg11) := keep_main_part0_ops0 W main_arg11 (by decide)
theorem keep_main_part0_ops0_arg12 (W : Valuation τ sig (Elt F)) : StableHlo.after main_part0_ops0 W (Proc.devRef .tc main_arg12) = W (Proc.devRef .tc main_arg12) := keep_main_part0_ops0 W main_arg12 (by decide)
theorem keep_main_part0_ops0_arg13 (W : Valuation τ sig (Elt F)) : StableHlo.after main_part0_ops0 W (Proc.devRef .tc main_arg13) = W (Proc.devRef .tc main_arg13) := keep_main_part0_ops0 W main_arg13 (by decide)
theorem keep_main_part0_ops0_arg14 (W : Valuation τ sig (Elt F)) : StableHlo.after main_part0_ops0 W (Proc.devRef .tc main_arg14) = W (Proc.devRef .tc main_arg14) := keep_main_part0_ops0 W main_arg14 (by decide)
theorem keep_main_part0_ops0_arg15 (W : Valuation τ sig (Elt F)) : StableHlo.after main_part0_ops0 W (Proc.devRef .tc main_arg15) = W (Proc.devRef .tc main_arg15) := keep_main_part0_ops0 W main_arg15 (by decide)
theorem keep_main_part0_ops0_arg16 (W : Valuation τ sig (Elt F)) : StableHlo.after main_part0_ops0 W (Proc.devRef .tc main_arg16) = W (Proc.devRef .tc main_arg16) := keep_main_part0_ops0 W main_arg16 (by decide)
theorem keep_main_part0_ops0_arg17 (W : Valuation τ sig (Elt F)) : StableHlo.after main_part0_ops0 W (Proc.devRef .tc main_arg17) = W (Proc.devRef .tc main_arg17) := keep_main_part0_ops0 W main_arg17 (by decide)
theorem keep_main_part0_ops0_arg18 (W : Valuation τ sig (Elt F)) : StableHlo.after main_part0_ops0 W (Proc.devRef .tc main_arg18) = W (Proc.devRef .tc main_arg18) := keep_main_part0_ops0 W main_arg18 (by decide)
theorem keep_main_part0_ops0_arg19 (W : Valuation τ sig (Elt F)) : StableHlo.after main_part0_ops0 W (Proc.devRef .tc main_arg19) = W (Proc.devRef .tc main_arg19) := keep_main_part0_ops0 W main_arg19 (by decide)
theorem keep_main_part0_ops0_arg20 (W : Valuation τ sig (Elt F)) : StableHlo.after main_part0_ops0 W (Proc.devRef .tc main_arg20) = W (Proc.devRef .tc main_arg20) := keep_main_part0_ops0 W main_arg20 (by decide)
theorem keep_main_part0_ops0_arg21 (W : Valuation τ sig (Elt F)) : StableHlo.after main_part0_ops0 W (Proc.devRef .tc main_arg21) = W (Proc.devRef .tc main_arg21) := keep_main_part0_ops0 W main_arg21 (by decide)
theorem keep_main_part0_ops0_arg22 (W : Valuation τ sig (Elt F)) : StableHlo.after main_part0_ops0 W (Proc.devRef .tc main_arg22) = W (Proc.devRef .tc main_arg22) := keep_main_part0_ops0 W main_arg22 (by decide)
theorem keep_main_part1_ops0_arg0 (W : Valuation τ sig (Elt F)) : StableHlo.after main_part1_ops0 W (Proc.devRef .tc main_arg0) = W (Proc.devRef .tc main_arg0) := keep_main_part1_ops0 W main_arg0 (by decide)
theorem keep_main_part1_ops0_arg1 (W : Valuation τ sig (Elt F)) : StableHlo.after main_part1_ops0 W (Proc.devRef .tc main_arg1) = W (Proc.devRef .tc main_arg1) := keep_main_part1_ops0 W main_arg1 (by decide)
theorem keep_main_part1_ops0_arg2 (W : Valuation τ sig (Elt F)) : StableHlo.after main_part1_ops0 W (Proc.devRef .tc main_arg2) = W (Proc.devRef .tc main_arg2) := keep_main_part1_ops0 W main_arg2 (by decide)
theorem keep_main_part1_ops0_arg3 (W : Valuation τ sig (Elt F)) : StableHlo.after main_part1_ops0 W (Proc.devRef .tc main_arg3) = W (Proc.devRef .tc main_arg3) := keep_main_part1_ops0 W main_arg3 (by decide)
theorem keep_main_part1_ops0_arg4 (W : Valuation τ sig (Elt F)) : StableHlo.after main_part1_ops0 W (Proc.devRef .tc main_arg4) = W (Proc.devRef .tc main_arg4) := keep_main_part1_ops0 W main_arg4 (by decide)
theorem keep_main_part1_ops0_arg5 (W : Valuation τ sig (Elt F)) : StableHlo.after main_part1_ops0 W (Proc.devRef .tc main_arg5) = W (Proc.devRef .tc main_arg5) := keep_main_part1_ops0 W main_arg5 (by decide)
theorem keep_main_part1_ops0_arg6 (W : Valuation τ sig (Elt F)) : StableHlo.after main_part1_ops0 W (Proc.devRef .tc main_arg6) = W (Proc.devRef .tc main_arg6) := keep_main_part1_ops0 W main_arg6 (by decide)
theorem keep_main_part1_ops0_arg7 (W : Valuation τ sig (Elt F)) : StableHlo.after main_part1_ops0 W (Proc.devRef .tc main_arg7) = W (Proc.devRef .tc main_arg7) := keep_main_part1_ops0 W main_arg7 (by decide)
theorem keep_main_part1_ops0_arg8 (W : Valuation τ sig (Elt F)) : StableHlo.after main_part1_ops0 W (Proc.devRef .tc main_arg8) = W (Proc.devRef .tc main_arg8) := keep_main_part1_ops0 W main_arg8 (by decide)
theorem keep_main_part1_ops0_arg9 (W : Valuation τ sig (Elt F)) : StableHlo.after main_part1_ops0 W (Proc.devRef .tc main_arg9) = W (Proc.devRef .tc main_arg9) := keep_main_part1_ops0 W main_arg9 (by decide)
theorem keep_main_part1_ops0_arg10 (W : Valuation τ sig (Elt F)) : StableHlo.after main_part1_ops0 W (Proc.devRef .tc main_arg10) = W (Proc.devRef .tc main_arg10) := keep_main_part1_ops0 W main_arg10 (by decide)
theorem keep_main_part1_ops0_arg11 (W : Valuation τ sig (Elt F)) : StableHlo.after main_part1_ops0 W (Proc.devRef .tc main_arg11) = W (Proc.devRef .tc main_arg11) := keep_main_part1_ops0 W main_arg11 (by decide)
theorem keep_main_part1_ops0_arg12 (W : Valuation τ sig (Elt F)) : StableHlo.after main_part1_ops0 W (Proc.devRef .tc main_arg12) = W (Proc.devRef .tc main_arg12) := keep_main_part1_ops0 W main_arg12 (by decide)
theorem keep_main_part1_ops0_arg13 (W : Valuation τ sig (Elt F)) : StableHlo.after main_part1_ops0 W (Proc.devRef .tc main_arg13) = W (Proc.devRef .tc main_arg13) := keep_main_part1_ops0 W main_arg13 (by decide)
theorem keep_main_part1_ops0_arg14 (W : Valuation τ sig (Elt F)) : StableHlo.after main_part1_ops0 W (Proc.devRef .tc main_arg14) = W (Proc.devRef .tc main_arg14) := keep_main_part1_ops0 W main_arg14 (by decide)
theorem keep_main_part1_ops0_arg15 (W : Valuation τ sig (Elt F)) : StableHlo.after main_part1_ops0 W (Proc.devRef .tc main_arg15) = W (Proc.devRef .tc main_arg15) := keep_main_part1_ops0 W main_arg15 (by decide)
theorem keep_main_part1_ops0_arg16 (W : Valuation τ sig (Elt F)) : StableHlo.after main_part1_ops0 W (Proc.devRef .tc main_arg16) = W (Proc.devRef .tc main_arg16) := keep_main_part1_ops0 W main_arg16 (by decide)
theorem keep_main_part1_ops0_arg17 (W : Valuation τ sig (Elt F)) : StableHlo.after main_part1_ops0 W (Proc.devRef .tc main_arg17) = W (Proc.devRef .tc main_arg17) := keep_main_part1_ops0 W main_arg17 (by decide)
theorem keep_main_part1_ops0_arg18 (W : Valuation τ sig (Elt F)) : StableHlo.after main_part1_ops0 W (Proc.devRef .tc main_arg18) = W (Proc.devRef .tc main_arg18) := keep_main_part1_ops0 W main_arg18 (by decide)
theorem keep_main_part1_ops0_arg19 (W : Valuation τ sig (Elt F)) : StableHlo.after main_part1_ops0 W (Proc.devRef .tc main_arg19) = W (Proc.devRef .tc main_arg19) := keep_main_part1_ops0 W main_arg19 (by decide)
theorem keep_main_part1_ops0_arg20 (W : Valuation τ sig (Elt F)) : StableHlo.after main_part1_ops0 W (Proc.devRef .tc main_arg20) = W (Proc.devRef .tc main_arg20) := keep_main_part1_ops0 W main_arg20 (by decide)
theorem keep_main_part1_ops0_arg21 (W : Valuation τ sig (Elt F)) : StableHlo.after main_part1_ops0 W (Proc.devRef .tc main_arg21) = W (Proc.devRef .tc main_arg21) := keep_main_part1_ops0 W main_arg21 (by decide)
theorem keep_main_part1_ops0_arg22 (W : Valuation τ sig (Elt F)) : StableHlo.after main_part1_ops0 W (Proc.devRef .tc main_arg22) = W (Proc.devRef .tc main_arg22) := keep_main_part1_ops0 W main_arg22 (by decide)
theorem keep_main_part2_ops0_arg0 (W : Valuation τ sig (Elt F)) : StableHlo.after main_part2_ops0 W (Proc.devRef .tc main_arg0) = W (Proc.devRef .tc main_arg0) := keep_main_part2_ops0 W main_arg0 (by decide)
theorem keep_main_part2_ops0_arg1 (W : Valuation τ sig (Elt F)) : StableHlo.after main_part2_ops0 W (Proc.devRef .tc main_arg1) = W (Proc.devRef .tc main_arg1) := keep_main_part2_ops0 W main_arg1 (by decide)
theorem keep_main_part2_ops0_arg2 (W : Valuation τ sig (Elt F)) : StableHlo.after main_part2_ops0 W (Proc.devRef .tc main_arg2) = W (Proc.devRef .tc main_arg2) := keep_main_part2_ops0 W main_arg2 (by decide)
theorem keep_main_part2_ops0_arg3 (W : Valuation τ sig (Elt F)) : StableHlo.after main_part2_ops0 W (Proc.devRef .tc main_arg3) = W (Proc.devRef .tc main_arg3) := keep_main_part2_ops0 W main_arg3 (by decide)
theorem keep_main_part2_ops0_arg4 (W : Valuation τ sig (Elt F)) : StableHlo.after main_part2_ops0 W (Proc.devRef .tc main_arg4) = W (Proc.devRef .tc main_arg4) := keep_main_part2_ops0 W main_arg4 (by decide)
theorem keep_main_part2_ops0_arg5 (W : Valuation τ sig (Elt F)) : StableHlo.after main_part2_ops0 W (Proc.devRef .tc main_arg5) = W (Proc.devRef .tc main_arg5) := keep_main_part2_ops0 W main_arg5 (by decide)
theorem keep_main_part2_ops0_arg6 (W : Valuation τ sig (Elt F)) : StableHlo.after main_part2_ops0 W (Proc.devRef .tc main_arg6) = W (Proc.devRef .tc main_arg6) := keep_main_part2_ops0 W main_arg6 (by decide)
theorem keep_main_part2_ops0_arg7 (W : Valuation τ sig (Elt F)) : StableHlo.after main_part2_ops0 W (Proc.devRef .tc main_arg7) = W (Proc.devRef .tc main_arg7) := keep_main_part2_ops0 W main_arg7 (by decide)
theorem keep_main_part2_ops0_arg8 (W : Valuation τ sig (Elt F)) : StableHlo.after main_part2_ops0 W (Proc.devRef .tc main_arg8) = W (Proc.devRef .tc main_arg8) := keep_main_part2_ops0 W main_arg8 (by decide)
theorem keep_main_part2_ops0_arg9 (W : Valuation τ sig (Elt F)) : StableHlo.after main_part2_ops0 W (Proc.devRef .tc main_arg9) = W (Proc.devRef .tc main_arg9) := keep_main_part2_ops0 W main_arg9 (by decide)
theorem keep_main_part2_ops0_arg10 (W : Valuation τ sig (Elt F)) : StableHlo.after main_part2_ops0 W (Proc.devRef .tc main_arg10) = W (Proc.devRef .tc main_arg10) := keep_main_part2_ops0 W main_arg10 (by decide)
theorem keep_main_part2_ops0_arg11 (W : Valuation τ sig (Elt F)) : StableHlo.after main_part2_ops0 W (Proc.devRef .tc main_arg11) = W (Proc.devRef .tc main_arg11) := keep_main_part2_ops0 W main_arg11 (by decide)
theorem keep_main_part2_ops0_arg12 (W : Valuation τ sig (Elt F)) : StableHlo.after main_part2_ops0 W (Proc.devRef .tc main_arg12) = W (Proc.devRef .tc main_arg12) := keep_main_part2_ops0 W main_arg12 (by decide)
theorem keep_main_part2_ops0_arg13 (W : Valuation τ sig (Elt F)) : StableHlo.after main_part2_ops0 W (Proc.devRef .tc main_arg13) = W (Proc.devRef .tc main_arg13) := keep_main_part2_ops0 W main_arg13 (by decide)
theorem keep_main_part2_ops0_arg14 (W : Valuation τ sig (Elt F)) : StableHlo.after main_part2_ops0 W (Proc.devRef .tc main_arg14) = W (Proc.devRef .tc main_arg14) := keep_main_part2_ops0 W main_arg14 (by decide)
theorem keep_main_part2_ops0_arg15 (W : Valuation τ sig (Elt F)) : StableHlo.after main_part2_ops0 W (Proc.devRef .tc main_arg15) = W (Proc.devRef .tc main_arg15) := keep_main_part2_ops0 W main_arg15 (by decide)
theorem keep_main_part2_ops0_arg16 (W : Valuation τ sig (Elt F)) : StableHlo.after main_part2_ops0 W (Proc.devRef .tc main_arg16) = W (Proc.devRef .tc main_arg16) := keep_main_part2_ops0 W main_arg16 (by decide)
theorem keep_main_part2_ops0_arg17 (W : Valuation τ sig (Elt F)) : StableHlo.after main_part2_ops0 W (Proc.devRef .tc main_arg17) = W (Proc.devRef .tc main_arg17) := keep_main_part2_ops0 W main_arg17 (by decide)
theorem keep_main_part2_ops0_arg18 (W : Valuation τ sig (Elt F)) : StableHlo.after main_part2_ops0 W (Proc.devRef .tc main_arg18) = W (Proc.devRef .tc main_arg18) := keep_main_part2_ops0 W main_arg18 (by decide)
theorem keep_main_part2_ops0_arg19 (W : Valuation τ sig (Elt F)) : StableHlo.after main_part2_ops0 W (Proc.devRef .tc main_arg19) = W (Proc.devRef .tc main_arg19) := keep_main_part2_ops0 W main_arg19 (by decide)
theorem keep_main_part2_ops0_arg20 (W : Valuation τ sig (Elt F)) : StableHlo.after main_part2_ops0 W (Proc.devRef .tc main_arg20) = W (Proc.devRef .tc main_arg20) := keep_main_part2_ops0 W main_arg20 (by decide)
theorem keep_main_part2_ops0_arg21 (W : Valuation τ sig (Elt F)) : StableHlo.after main_part2_ops0 W (Proc.devRef .tc main_arg21) = W (Proc.devRef .tc main_arg21) := keep_main_part2_ops0 W main_arg21 (by decide)
theorem keep_main_part2_ops0_arg22 (W : Valuation τ sig (Elt F)) : StableHlo.after main_part2_ops0 W (Proc.devRef .tc main_arg22) = W (Proc.devRef .tc main_arg22) := keep_main_part2_ops0 W main_arg22 (by decide)
theorem keep_main_part3_ops0_arg0 (W : Valuation τ sig (Elt F)) : StableHlo.after main_part3_ops0 W (Proc.devRef .tc main_arg0) = W (Proc.devRef .tc main_arg0) := keep_main_part3_ops0 W main_arg0 (by decide)
theorem keep_main_part3_ops0_arg1 (W : Valuation τ sig (Elt F)) : StableHlo.after main_part3_ops0 W (Proc.devRef .tc main_arg1) = W (Proc.devRef .tc main_arg1) := keep_main_part3_ops0 W main_arg1 (by decide)
theorem keep_main_part3_ops0_arg2 (W : Valuation τ sig (Elt F)) : StableHlo.after main_part3_ops0 W (Proc.devRef .tc main_arg2) = W (Proc.devRef .tc main_arg2) := keep_main_part3_ops0 W main_arg2 (by decide)
theorem keep_main_part3_ops0_arg3 (W : Valuation τ sig (Elt F)) : StableHlo.after main_part3_ops0 W (Proc.devRef .tc main_arg3) = W (Proc.devRef .tc main_arg3) := keep_main_part3_ops0 W main_arg3 (by decide)
theorem keep_main_part3_ops0_arg4 (W : Valuation τ sig (Elt F)) : StableHlo.after main_part3_ops0 W (Proc.devRef .tc main_arg4) = W (Proc.devRef .tc main_arg4) := keep_main_part3_ops0 W main_arg4 (by decide)
theorem keep_main_part3_ops0_arg5 (W : Valuation τ sig (Elt F)) : StableHlo.after main_part3_ops0 W (Proc.devRef .tc main_arg5) = W (Proc.devRef .tc main_arg5) := keep_main_part3_ops0 W main_arg5 (by decide)
theorem keep_main_part3_ops0_arg6 (W : Valuation τ sig (Elt F)) : StableHlo.after main_part3_ops0 W (Proc.devRef .tc main_arg6) = W (Proc.devRef .tc main_arg6) := keep_main_part3_ops0 W main_arg6 (by decide)
theorem keep_main_part3_ops0_arg7 (W : Valuation τ sig (Elt F)) : StableHlo.after main_part3_ops0 W (Proc.devRef .tc main_arg7) = W (Proc.devRef .tc main_arg7) := keep_main_part3_ops0 W main_arg7 (by decide)
theorem keep_main_part3_ops0_arg8 (W : Valuation τ sig (Elt F)) : StableHlo.after main_part3_ops0 W (Proc.devRef .tc main_arg8) = W (Proc.devRef .tc main_arg8) := keep_main_part3_ops0 W main_arg8 (by decide)
theorem keep_main_part3_ops0_arg9 (W : Valuation τ sig (Elt F)) : StableHlo.after main_part3_ops0 W (Proc.devRef .tc main_arg9) = W (Proc.devRef .tc main_arg9) := keep_main_part3_ops0 W main_arg9 (by decide)
theorem keep_main_part3_ops0_arg10 (W : Valuation τ sig (Elt F)) : StableHlo.after main_part3_ops0 W (Proc.devRef .tc main_arg10) = W (Proc.devRef .tc main_arg10) := keep_main_part3_ops0 W main_arg10 (by decide)
theorem keep_main_part3_ops0_arg11 (W : Valuation τ sig (Elt F)) : StableHlo.after main_part3_ops0 W (Proc.devRef .tc main_arg11) = W (Proc.devRef .tc main_arg11) := keep_main_part3_ops0 W main_arg11 (by decide)
theorem keep_main_part3_ops0_arg12 (W : Valuation τ sig (Elt F)) : StableHlo.after main_part3_ops0 W (Proc.devRef .tc main_arg12) = W (Proc.devRef .tc main_arg12) := keep_main_part3_ops0 W main_arg12 (by decide)
theorem keep_main_part3_ops0_arg13 (W : Valuation τ sig (Elt F)) : StableHlo.after main_part3_ops0 W (Proc.devRef .tc main_arg13) = W (Proc.devRef .tc main_arg13) := keep_main_part3_ops0 W main_arg13 (by decide)
theorem keep_main_part3_ops0_arg14 (W : Valuation τ sig (Elt F)) : StableHlo.after main_part3_ops0 W (Proc.devRef .tc main_arg14) = W (Proc.devRef .tc main_arg14) := keep_main_part3_ops0 W main_arg14 (by decide)
theorem keep_main_part3_ops0_arg15 (W : Valuation τ sig (Elt F)) : StableHlo.after main_part3_ops0 W (Proc.devRef .tc main_arg15) = W (Proc.devRef .tc main_arg15) := keep_main_part3_ops0 W main_arg15 (by decide)
theorem keep_main_part3_ops0_arg16 (W : Valuation τ sig (Elt F)) : StableHlo.after main_part3_ops0 W (Proc.devRef .tc main_arg16) = W (Proc.devRef .tc main_arg16) := keep_main_part3_ops0 W main_arg16 (by decide)
theorem keep_main_part3_ops0_arg17 (W : Valuation τ sig (Elt F)) : StableHlo.after main_part3_ops0 W (Proc.devRef .tc main_arg17) = W (Proc.devRef .tc main_arg17) := keep_main_part3_ops0 W main_arg17 (by decide)
theorem keep_main_part3_ops0_arg18 (W : Valuation τ sig (Elt F)) : StableHlo.after main_part3_ops0 W (Proc.devRef .tc main_arg18) = W (Proc.devRef .tc main_arg18) := keep_main_part3_ops0 W main_arg18 (by decide)
theorem keep_main_part3_ops0_arg19 (W : Valuation τ sig (Elt F)) : StableHlo.after main_part3_ops0 W (Proc.devRef .tc main_arg19) = W (Proc.devRef .tc main_arg19) := keep_main_part3_ops0 W main_arg19 (by decide)
theorem keep_main_part3_ops0_arg20 (W : Valuation τ sig (Elt F)) : StableHlo.after main_part3_ops0 W (Proc.devRef .tc main_arg20) = W (Proc.devRef .tc main_arg20) := keep_main_part3_ops0 W main_arg20 (by decide)
theorem keep_main_part3_ops0_arg21 (W : Valuation τ sig (Elt F)) : StableHlo.after main_part3_ops0 W (Proc.devRef .tc main_arg21) = W (Proc.devRef .tc main_arg21) := keep_main_part3_ops0 W main_arg21 (by decide)
theorem keep_main_part3_ops0_arg22 (W : Valuation τ sig (Elt F)) : StableHlo.after main_part3_ops0 W (Proc.devRef .tc main_arg22) = W (Proc.devRef .tc main_arg22) := keep_main_part3_ops0 W main_arg22 (by decide)
theorem keep_main_part4_ops0_arg0 (W : Valuation τ sig (Elt F)) : StableHlo.after main_part4_ops0 W (Proc.devRef .tc main_arg0) = W (Proc.devRef .tc main_arg0) := keep_main_part4_ops0 W main_arg0 (by decide)
theorem keep_main_part4_ops0_arg1 (W : Valuation τ sig (Elt F)) : StableHlo.after main_part4_ops0 W (Proc.devRef .tc main_arg1) = W (Proc.devRef .tc main_arg1) := keep_main_part4_ops0 W main_arg1 (by decide)
theorem keep_main_part4_ops0_arg2 (W : Valuation τ sig (Elt F)) : StableHlo.after main_part4_ops0 W (Proc.devRef .tc main_arg2) = W (Proc.devRef .tc main_arg2) := keep_main_part4_ops0 W main_arg2 (by decide)
theorem keep_main_part4_ops0_arg3 (W : Valuation τ sig (Elt F)) : StableHlo.after main_part4_ops0 W (Proc.devRef .tc main_arg3) = W (Proc.devRef .tc main_arg3) := keep_main_part4_ops0 W main_arg3 (by decide)
theorem keep_main_part4_ops0_arg4 (W : Valuation τ sig (Elt F)) : StableHlo.after main_part4_ops0 W (Proc.devRef .tc main_arg4) = W (Proc.devRef .tc main_arg4) := keep_main_part4_ops0 W main_arg4 (by decide)
theorem keep_main_part4_ops0_arg5 (W : Valuation τ sig (Elt F)) : StableHlo.after main_part4_ops0 W (Proc.devRef .tc main_arg5) = W (Proc.devRef .tc main_arg5) := keep_main_part4_ops0 W main_arg5 (by decide)
theorem keep_main_part4_ops0_arg6 (W : Valuation τ sig (Elt F)) : StableHlo.after main_part4_ops0 W (Proc.devRef .tc main_arg6) = W (Proc.devRef .tc main_arg6) := keep_main_part4_ops0 W main_arg6 (by decide)
theorem keep_main_part4_ops0_arg7 (W : Valuation τ sig (Elt F)) : StableHlo.after main_part4_ops0 W (Proc.devRef .tc main_arg7) = W (Proc.devRef .tc main_arg7) := keep_main_part4_ops0 W main_arg7 (by decide)
theorem keep_main_part4_ops0_arg8 (W : Valuation τ sig (Elt F)) : StableHlo.after main_part4_ops0 W (Proc.devRef .tc main_arg8) = W (Proc.devRef .tc main_arg8) := keep_main_part4_ops0 W main_arg8 (by decide)
theorem keep_main_part4_ops0_arg9 (W : Valuation τ sig (Elt F)) : StableHlo.after main_part4_ops0 W (Proc.devRef .tc main_arg9) = W (Proc.devRef .tc main_arg9) := keep_main_part4_ops0 W main_arg9 (by decide)
theorem keep_main_part4_ops0_arg10 (W : Valuation τ sig (Elt F)) : StableHlo.after main_part4_ops0 W (Proc.devRef .tc main_arg10) = W (Proc.devRef .tc main_arg10) := keep_main_part4_ops0 W main_arg10 (by decide)
theorem keep_main_part4_ops0_arg11 (W : Valuation τ sig (Elt F)) : StableHlo.after main_part4_ops0 W (Proc.devRef .tc main_arg11) = W (Proc.devRef .tc main_arg11) := keep_main_part4_ops0 W main_arg11 (by decide)
theorem keep_main_part4_ops0_arg12 (W : Valuation τ sig (Elt F)) : StableHlo.after main_part4_ops0 W (Proc.devRef .tc main_arg12) = W (Proc.devRef .tc main_arg12) := keep_main_part4_ops0 W main_arg12 (by decide)
theorem keep_main_part4_ops0_arg13 (W : Valuation τ sig (Elt F)) : StableHlo.after main_part4_ops0 W (Proc.devRef .tc main_arg13) = W (Proc.devRef .tc main_arg13) := keep_main_part4_ops0 W main_arg13 (by decide)
theorem keep_main_part4_ops0_arg14 (W : Valuation τ sig (Elt F)) : StableHlo.after main_part4_ops0 W (Proc.devRef .tc main_arg14) = W (Proc.devRef .tc main_arg14) := keep_main_part4_ops0 W main_arg14 (by decide)
theorem keep_main_part4_ops0_arg15 (W : Valuation τ sig (Elt F)) : StableHlo.after main_part4_ops0 W (Proc.devRef .tc main_arg15) = W (Proc.devRef .tc main_arg15) := keep_main_part4_ops0 W main_arg15 (by decide)
theorem keep_main_part4_ops0_arg16 (W : Valuation τ sig (Elt F)) : StableHlo.after main_part4_ops0 W (Proc.devRef .tc main_arg16) = W (Proc.devRef .tc main_arg16) := keep_main_part4_ops0 W main_arg16 (by decide)
theorem keep_main_part4_ops0_arg17 (W : Valuation τ sig (Elt F)) : StableHlo.after main_part4_ops0 W (Proc.devRef .tc main_arg17) = W (Proc.devRef .tc main_arg17) := keep_main_part4_ops0 W main_arg17 (by decide)
theorem keep_main_part4_ops0_arg18 (W : Valuation τ sig (Elt F)) : StableHlo.after main_part4_ops0 W (Proc.devRef .tc main_arg18) = W (Proc.devRef .tc main_arg18) := keep_main_part4_ops0 W main_arg18 (by decide)
theorem keep_main_part4_ops0_arg19 (W : Valuation τ sig (Elt F)) : StableHlo.after main_part4_ops0 W (Proc.devRef .tc main_arg19) = W (Proc.devRef .tc main_arg19) := keep_main_part4_ops0 W main_arg19 (by decide)
theorem keep_main_part4_ops0_arg20 (W : Valuation τ sig (Elt F)) : StableHlo.after main_part4_ops0 W (Proc.devRef .tc main_arg20) = W (Proc.devRef .tc main_arg20) := keep_main_part4_ops0 W main_arg20 (by decide)
theorem keep_main_part4_ops0_arg21 (W : Valuation τ sig (Elt F)) : StableHlo.after main_part4_ops0 W (Proc.devRef .tc main_arg21) = W (Proc.devRef .tc main_arg21) := keep_main_part4_ops0 W main_arg21 (by decide)
theorem keep_main_part4_ops0_arg22 (W : Valuation τ sig (Elt F)) : StableHlo.after main_part4_ops0 W (Proc.devRef .tc main_arg22) = W (Proc.devRef .tc main_arg22) := keep_main_part4_ops0 W main_arg22 (by decide)
theorem keep_main_part4_ops1_arg0 (W : Valuation τ sig (Elt F)) : StableHlo.after main_part4_ops1 W (Proc.devRef .tc main_arg0) = W (Proc.devRef .tc main_arg0) := keep_main_part4_ops1 W main_arg0 (by decide)
theorem keep_main_part4_ops1_arg1 (W : Valuation τ sig (Elt F)) : StableHlo.after main_part4_ops1 W (Proc.devRef .tc main_arg1) = W (Proc.devRef .tc main_arg1) := keep_main_part4_ops1 W main_arg1 (by decide)
theorem keep_main_part4_ops1_arg2 (W : Valuation τ sig (Elt F)) : StableHlo.after main_part4_ops1 W (Proc.devRef .tc main_arg2) = W (Proc.devRef .tc main_arg2) := keep_main_part4_ops1 W main_arg2 (by decide)
theorem keep_main_part4_ops1_arg3 (W : Valuation τ sig (Elt F)) : StableHlo.after main_part4_ops1 W (Proc.devRef .tc main_arg3) = W (Proc.devRef .tc main_arg3) := keep_main_part4_ops1 W main_arg3 (by decide)
theorem keep_main_part4_ops1_arg4 (W : Valuation τ sig (Elt F)) : StableHlo.after main_part4_ops1 W (Proc.devRef .tc main_arg4) = W (Proc.devRef .tc main_arg4) := keep_main_part4_ops1 W main_arg4 (by decide)
theorem keep_main_part4_ops1_arg5 (W : Valuation τ sig (Elt F)) : StableHlo.after main_part4_ops1 W (Proc.devRef .tc main_arg5) = W (Proc.devRef .tc main_arg5) := keep_main_part4_ops1 W main_arg5 (by decide)
theorem keep_main_part4_ops1_arg6 (W : Valuation τ sig (Elt F)) : StableHlo.after main_part4_ops1 W (Proc.devRef .tc main_arg6) = W (Proc.devRef .tc main_arg6) := keep_main_part4_ops1 W main_arg6 (by decide)
theorem keep_main_part4_ops1_arg7 (W : Valuation τ sig (Elt F)) : StableHlo.after main_part4_ops1 W (Proc.devRef .tc main_arg7) = W (Proc.devRef .tc main_arg7) := keep_main_part4_ops1 W main_arg7 (by decide)
theorem keep_main_part4_ops1_arg8 (W : Valuation τ sig (Elt F)) : StableHlo.after main_part4_ops1 W (Proc.devRef .tc main_arg8) = W (Proc.devRef .tc main_arg8) := keep_main_part4_ops1 W main_arg8 (by decide)
theorem keep_main_part4_ops1_arg9 (W : Valuation τ sig (Elt F)) : StableHlo.after main_part4_ops1 W (Proc.devRef .tc main_arg9) = W (Proc.devRef .tc main_arg9) := keep_main_part4_ops1 W main_arg9 (by decide)
theorem keep_main_part4_ops1_arg10 (W : Valuation τ sig (Elt F)) : StableHlo.after main_part4_ops1 W (Proc.devRef .tc main_arg10) = W (Proc.devRef .tc main_arg10) := keep_main_part4_ops1 W main_arg10 (by decide)
theorem keep_main_part4_ops1_arg11 (W : Valuation τ sig (Elt F)) : StableHlo.after main_part4_ops1 W (Proc.devRef .tc main_arg11) = W (Proc.devRef .tc main_arg11) := keep_main_part4_ops1 W main_arg11 (by decide)
theorem keep_main_part4_ops1_arg12 (W : Valuation τ sig (Elt F)) : StableHlo.after main_part4_ops1 W (Proc.devRef .tc main_arg12) = W (Proc.devRef .tc main_arg12) := keep_main_part4_ops1 W main_arg12 (by decide)
theorem keep_main_part4_ops1_arg13 (W : Valuation τ sig (Elt F)) : StableHlo.after main_part4_ops1 W (Proc.devRef .tc main_arg13) = W (Proc.devRef .tc main_arg13) := keep_main_part4_ops1 W main_arg13 (by decide)
theorem keep_main_part4_ops1_arg14 (W : Valuation τ sig (Elt F)) : StableHlo.after main_part4_ops1 W (Proc.devRef .tc main_arg14) = W (Proc.devRef .tc main_arg14) := keep_main_part4_ops1 W main_arg14 (by decide)
theorem keep_main_part4_ops1_arg15 (W : Valuation τ sig (Elt F)) : StableHlo.after main_part4_ops1 W (Proc.devRef .tc main_arg15) = W (Proc.devRef .tc main_arg15) := keep_main_part4_ops1 W main_arg15 (by decide)
theorem keep_main_part4_ops1_arg16 (W : Valuation τ sig (Elt F)) : StableHlo.after main_part4_ops1 W (Proc.devRef .tc main_arg16) = W (Proc.devRef .tc main_arg16) := keep_main_part4_ops1 W main_arg16 (by decide)
theorem keep_main_part4_ops1_arg17 (W : Valuation τ sig (Elt F)) : StableHlo.after main_part4_ops1 W (Proc.devRef .tc main_arg17) = W (Proc.devRef .tc main_arg17) := keep_main_part4_ops1 W main_arg17 (by decide)
theorem keep_main_part4_ops1_arg18 (W : Valuation τ sig (Elt F)) : StableHlo.after main_part4_ops1 W (Proc.devRef .tc main_arg18) = W (Proc.devRef .tc main_arg18) := keep_main_part4_ops1 W main_arg18 (by decide)
theorem keep_main_part4_ops1_arg19 (W : Valuation τ sig (Elt F)) : StableHlo.after main_part4_ops1 W (Proc.devRef .tc main_arg19) = W (Proc.devRef .tc main_arg19) := keep_main_part4_ops1 W main_arg19 (by decide)
theorem keep_main_part4_ops1_arg20 (W : Valuation τ sig (Elt F)) : StableHlo.after main_part4_ops1 W (Proc.devRef .tc main_arg20) = W (Proc.devRef .tc main_arg20) := keep_main_part4_ops1 W main_arg20 (by decide)
theorem keep_main_part4_ops1_arg21 (W : Valuation τ sig (Elt F)) : StableHlo.after main_part4_ops1 W (Proc.devRef .tc main_arg21) = W (Proc.devRef .tc main_arg21) := keep_main_part4_ops1 W main_arg21 (by decide)
theorem keep_main_part4_ops1_arg22 (W : Valuation τ sig (Elt F)) : StableHlo.after main_part4_ops1 W (Proc.devRef .tc main_arg22) = W (Proc.devRef .tc main_arg22) := keep_main_part4_ops1 W main_arg22 (by decide)
theorem keep_main_part5_ops0_arg0 (W : Valuation τ sig (Elt F)) : StableHlo.after main_part5_ops0 W (Proc.devRef .tc main_arg0) = W (Proc.devRef .tc main_arg0) := keep_main_part5_ops0 W main_arg0 (by decide)
theorem keep_main_part5_ops0_arg1 (W : Valuation τ sig (Elt F)) : StableHlo.after main_part5_ops0 W (Proc.devRef .tc main_arg1) = W (Proc.devRef .tc main_arg1) := keep_main_part5_ops0 W main_arg1 (by decide)
theorem keep_main_part5_ops0_arg2 (W : Valuation τ sig (Elt F)) : StableHlo.after main_part5_ops0 W (Proc.devRef .tc main_arg2) = W (Proc.devRef .tc main_arg2) := keep_main_part5_ops0 W main_arg2 (by decide)
theorem keep_main_part5_ops0_arg3 (W : Valuation τ sig (Elt F)) : StableHlo.after main_part5_ops0 W (Proc.devRef .tc main_arg3) = W (Proc.devRef .tc main_arg3) := keep_main_part5_ops0 W main_arg3 (by decide)
theorem keep_main_part5_ops0_arg4 (W : Valuation τ sig (Elt F)) : StableHlo.after main_part5_ops0 W (Proc.devRef .tc main_arg4) = W (Proc.devRef .tc main_arg4) := keep_main_part5_ops0 W main_arg4 (by decide)
theorem keep_main_part5_ops0_arg5 (W : Valuation τ sig (Elt F)) : StableHlo.after main_part5_ops0 W (Proc.devRef .tc main_arg5) = W (Proc.devRef .tc main_arg5) := keep_main_part5_ops0 W main_arg5 (by decide)
theorem keep_main_part5_ops0_arg6 (W : Valuation τ sig (Elt F)) : StableHlo.after main_part5_ops0 W (Proc.devRef .tc main_arg6) = W (Proc.devRef .tc main_arg6) := keep_main_part5_ops0 W main_arg6 (by decide)
theorem keep_main_part5_ops0_arg7 (W : Valuation τ sig (Elt F)) : StableHlo.after main_part5_ops0 W (Proc.devRef .tc main_arg7) = W (Proc.devRef .tc main_arg7) := keep_main_part5_ops0 W main_arg7 (by decide)
theorem keep_main_part5_ops0_arg8 (W : Valuation τ sig (Elt F)) : StableHlo.after main_part5_ops0 W (Proc.devRef .tc main_arg8) = W (Proc.devRef .tc main_arg8) := keep_main_part5_ops0 W main_arg8 (by decide)
theorem keep_main_part5_ops0_arg9 (W : Valuation τ sig (Elt F)) : StableHlo.after main_part5_ops0 W (Proc.devRef .tc main_arg9) = W (Proc.devRef .tc main_arg9) := keep_main_part5_ops0 W main_arg9 (by decide)
theorem keep_main_part5_ops0_arg10 (W : Valuation τ sig (Elt F)) : StableHlo.after main_part5_ops0 W (Proc.devRef .tc main_arg10) = W (Proc.devRef .tc main_arg10) := keep_main_part5_ops0 W main_arg10 (by decide)
theorem keep_main_part5_ops0_arg11 (W : Valuation τ sig (Elt F)) : StableHlo.after main_part5_ops0 W (Proc.devRef .tc main_arg11) = W (Proc.devRef .tc main_arg11) := keep_main_part5_ops0 W main_arg11 (by decide)
theorem keep_main_part5_ops0_arg12 (W : Valuation τ sig (Elt F)) : StableHlo.after main_part5_ops0 W (Proc.devRef .tc main_arg12) = W (Proc.devRef .tc main_arg12) := keep_main_part5_ops0 W main_arg12 (by decide)
theorem keep_main_part5_ops0_arg13 (W : Valuation τ sig (Elt F)) : StableHlo.after main_part5_ops0 W (Proc.devRef .tc main_arg13) = W (Proc.devRef .tc main_arg13) := keep_main_part5_ops0 W main_arg13 (by decide)
theorem keep_main_part5_ops0_arg14 (W : Valuation τ sig (Elt F)) : StableHlo.after main_part5_ops0 W (Proc.devRef .tc main_arg14) = W (Proc.devRef .tc main_arg14) := keep_main_part5_ops0 W main_arg14 (by decide)
theorem keep_main_part5_ops0_arg15 (W : Valuation τ sig (Elt F)) : StableHlo.after main_part5_ops0 W (Proc.devRef .tc main_arg15) = W (Proc.devRef .tc main_arg15) := keep_main_part5_ops0 W main_arg15 (by decide)
theorem keep_main_part5_ops0_arg16 (W : Valuation τ sig (Elt F)) : StableHlo.after main_part5_ops0 W (Proc.devRef .tc main_arg16) = W (Proc.devRef .tc main_arg16) := keep_main_part5_ops0 W main_arg16 (by decide)
theorem keep_main_part5_ops0_arg17 (W : Valuation τ sig (Elt F)) : StableHlo.after main_part5_ops0 W (Proc.devRef .tc main_arg17) = W (Proc.devRef .tc main_arg17) := keep_main_part5_ops0 W main_arg17 (by decide)
theorem keep_main_part5_ops0_arg18 (W : Valuation τ sig (Elt F)) : StableHlo.after main_part5_ops0 W (Proc.devRef .tc main_arg18) = W (Proc.devRef .tc main_arg18) := keep_main_part5_ops0 W main_arg18 (by decide)
theorem keep_main_part5_ops0_arg19 (W : Valuation τ sig (Elt F)) : StableHlo.after main_part5_ops0 W (Proc.devRef .tc main_arg19) = W (Proc.devRef .tc main_arg19) := keep_main_part5_ops0 W main_arg19 (by decide)
theorem keep_main_part5_ops0_arg20 (W : Valuation τ sig (Elt F)) : StableHlo.after main_part5_ops0 W (Proc.devRef .tc main_arg20) = W (Proc.devRef .tc main_arg20) := keep_main_part5_ops0 W main_arg20 (by decide)
theorem keep_main_part5_ops0_arg21 (W : Valuation τ sig (Elt F)) : StableHlo.after main_part5_ops0 W (Proc.devRef .tc main_arg21) = W (Proc.devRef .tc main_arg21) := keep_main_part5_ops0 W main_arg21 (by decide)
theorem keep_main_part5_ops0_arg22 (W : Valuation τ sig (Elt F)) : StableHlo.after main_part5_ops0 W (Proc.devRef .tc main_arg22) = W (Proc.devRef .tc main_arg22) := keep_main_part5_ops0 W main_arg22 (by decide)
theorem keep_main_part5_ops1_arg0 (W : Valuation τ sig (Elt F)) : StableHlo.after main_part5_ops1 W (Proc.devRef .tc main_arg0) = W (Proc.devRef .tc main_arg0) := keep_main_part5_ops1 W main_arg0 (by decide)
theorem keep_main_part5_ops1_arg1 (W : Valuation τ sig (Elt F)) : StableHlo.after main_part5_ops1 W (Proc.devRef .tc main_arg1) = W (Proc.devRef .tc main_arg1) := keep_main_part5_ops1 W main_arg1 (by decide)
theorem keep_main_part5_ops1_arg2 (W : Valuation τ sig (Elt F)) : StableHlo.after main_part5_ops1 W (Proc.devRef .tc main_arg2) = W (Proc.devRef .tc main_arg2) := keep_main_part5_ops1 W main_arg2 (by decide)
theorem keep_main_part5_ops1_arg3 (W : Valuation τ sig (Elt F)) : StableHlo.after main_part5_ops1 W (Proc.devRef .tc main_arg3) = W (Proc.devRef .tc main_arg3) := keep_main_part5_ops1 W main_arg3 (by decide)
theorem keep_main_part5_ops1_arg4 (W : Valuation τ sig (Elt F)) : StableHlo.after main_part5_ops1 W (Proc.devRef .tc main_arg4) = W (Proc.devRef .tc main_arg4) := keep_main_part5_ops1 W main_arg4 (by decide)
theorem keep_main_part5_ops1_arg5 (W : Valuation τ sig (Elt F)) : StableHlo.after main_part5_ops1 W (Proc.devRef .tc main_arg5) = W (Proc.devRef .tc main_arg5) := keep_main_part5_ops1 W main_arg5 (by decide)
theorem keep_main_part5_ops1_arg6 (W : Valuation τ sig (Elt F)) : StableHlo.after main_part5_ops1 W (Proc.devRef .tc main_arg6) = W (Proc.devRef .tc main_arg6) := keep_main_part5_ops1 W main_arg6 (by decide)
theorem keep_main_part5_ops1_arg7 (W : Valuation τ sig (Elt F)) : StableHlo.after main_part5_ops1 W (Proc.devRef .tc main_arg7) = W (Proc.devRef .tc main_arg7) := keep_main_part5_ops1 W main_arg7 (by decide)
theorem keep_main_part5_ops1_arg8 (W : Valuation τ sig (Elt F)) : StableHlo.after main_part5_ops1 W (Proc.devRef .tc main_arg8) = W (Proc.devRef .tc main_arg8) := keep_main_part5_ops1 W main_arg8 (by decide)
theorem keep_main_part5_ops1_arg9 (W : Valuation τ sig (Elt F)) : StableHlo.after main_part5_ops1 W (Proc.devRef .tc main_arg9) = W (Proc.devRef .tc main_arg9) := keep_main_part5_ops1 W main_arg9 (by decide)
theorem keep_main_part5_ops1_arg10 (W : Valuation τ sig (Elt F)) : StableHlo.after main_part5_ops1 W (Proc.devRef .tc main_arg10) = W (Proc.devRef .tc main_arg10) := keep_main_part5_ops1 W main_arg10 (by decide)
theorem keep_main_part5_ops1_arg11 (W : Valuation τ sig (Elt F)) : StableHlo.after main_part5_ops1 W (Proc.devRef .tc main_arg11) = W (Proc.devRef .tc main_arg11) := keep_main_part5_ops1 W main_arg11 (by decide)
theorem keep_main_part5_ops1_arg12 (W : Valuation τ sig (Elt F)) : StableHlo.after main_part5_ops1 W (Proc.devRef .tc main_arg12) = W (Proc.devRef .tc main_arg12) := keep_main_part5_ops1 W main_arg12 (by decide)
theorem keep_main_part5_ops1_arg13 (W : Valuation τ sig (Elt F)) : StableHlo.after main_part5_ops1 W (Proc.devRef .tc main_arg13) = W (Proc.devRef .tc main_arg13) := keep_main_part5_ops1 W main_arg13 (by decide)
theorem keep_main_part5_ops1_arg14 (W : Valuation τ sig (Elt F)) : StableHlo.after main_part5_ops1 W (Proc.devRef .tc main_arg14) = W (Proc.devRef .tc main_arg14) := keep_main_part5_ops1 W main_arg14 (by decide)
theorem keep_main_part5_ops1_arg15 (W : Valuation τ sig (Elt F)) : StableHlo.after main_part5_ops1 W (Proc.devRef .tc main_arg15) = W (Proc.devRef .tc main_arg15) := keep_main_part5_ops1 W main_arg15 (by decide)
theorem keep_main_part5_ops1_arg16 (W : Valuation τ sig (Elt F)) : StableHlo.after main_part5_ops1 W (Proc.devRef .tc main_arg16) = W (Proc.devRef .tc main_arg16) := keep_main_part5_ops1 W main_arg16 (by decide)
theorem keep_main_part5_ops1_arg17 (W : Valuation τ sig (Elt F)) : StableHlo.after main_part5_ops1 W (Proc.devRef .tc main_arg17) = W (Proc.devRef .tc main_arg17) := keep_main_part5_ops1 W main_arg17 (by decide)
theorem keep_main_part5_ops1_arg18 (W : Valuation τ sig (Elt F)) : StableHlo.after main_part5_ops1 W (Proc.devRef .tc main_arg18) = W (Proc.devRef .tc main_arg18) := keep_main_part5_ops1 W main_arg18 (by decide)
theorem keep_main_part5_ops1_arg19 (W : Valuation τ sig (Elt F)) : StableHlo.after main_part5_ops1 W (Proc.devRef .tc main_arg19) = W (Proc.devRef .tc main_arg19) := keep_main_part5_ops1 W main_arg19 (by decide)
theorem keep_main_part5_ops1_arg20 (W : Valuation τ sig (Elt F)) : StableHlo.after main_part5_ops1 W (Proc.devRef .tc main_arg20) = W (Proc.devRef .tc main_arg20) := keep_main_part5_ops1 W main_arg20 (by decide)
theorem keep_main_part5_ops1_arg21 (W : Valuation τ sig (Elt F)) : StableHlo.after main_part5_ops1 W (Proc.devRef .tc main_arg21) = W (Proc.devRef .tc main_arg21) := keep_main_part5_ops1 W main_arg21 (by decide)
theorem keep_main_part5_ops1_arg22 (W : Valuation τ sig (Elt F)) : StableHlo.after main_part5_ops1 W (Proc.devRef .tc main_arg22) = W (Proc.devRef .tc main_arg22) := keep_main_part5_ops1 W main_arg22 (by decide)
theorem keep_main_part5_ops2_arg0 (W : Valuation τ sig (Elt F)) : StableHlo.after main_part5_ops2 W (Proc.devRef .tc main_arg0) = W (Proc.devRef .tc main_arg0) := keep_main_part5_ops2 W main_arg0 (by decide)
theorem keep_main_part5_ops2_arg1 (W : Valuation τ sig (Elt F)) : StableHlo.after main_part5_ops2 W (Proc.devRef .tc main_arg1) = W (Proc.devRef .tc main_arg1) := keep_main_part5_ops2 W main_arg1 (by decide)
theorem keep_main_part5_ops2_arg2 (W : Valuation τ sig (Elt F)) : StableHlo.after main_part5_ops2 W (Proc.devRef .tc main_arg2) = W (Proc.devRef .tc main_arg2) := keep_main_part5_ops2 W main_arg2 (by decide)
theorem keep_main_part5_ops2_arg3 (W : Valuation τ sig (Elt F)) : StableHlo.after main_part5_ops2 W (Proc.devRef .tc main_arg3) = W (Proc.devRef .tc main_arg3) := keep_main_part5_ops2 W main_arg3 (by decide)
theorem keep_main_part5_ops2_arg4 (W : Valuation τ sig (Elt F)) : StableHlo.after main_part5_ops2 W (Proc.devRef .tc main_arg4) = W (Proc.devRef .tc main_arg4) := keep_main_part5_ops2 W main_arg4 (by decide)
theorem keep_main_part5_ops2_arg5 (W : Valuation τ sig (Elt F)) : StableHlo.after main_part5_ops2 W (Proc.devRef .tc main_arg5) = W (Proc.devRef .tc main_arg5) := keep_main_part5_ops2 W main_arg5 (by decide)
theorem keep_main_part5_ops2_arg6 (W : Valuation τ sig (Elt F)) : StableHlo.after main_part5_ops2 W (Proc.devRef .tc main_arg6) = W (Proc.devRef .tc main_arg6) := keep_main_part5_ops2 W main_arg6 (by decide)
theorem keep_main_part5_ops2_arg7 (W : Valuation τ sig (Elt F)) : StableHlo.after main_part5_ops2 W (Proc.devRef .tc main_arg7) = W (Proc.devRef .tc main_arg7) := keep_main_part5_ops2 W main_arg7 (by decide)
theorem keep_main_part5_ops2_arg8 (W : Valuation τ sig (Elt F)) : StableHlo.after main_part5_ops2 W (Proc.devRef .tc main_arg8) = W (Proc.devRef .tc main_arg8) := keep_main_part5_ops2 W main_arg8 (by decide)
theorem keep_main_part5_ops2_arg9 (W : Valuation τ sig (Elt F)) : StableHlo.after main_part5_ops2 W (Proc.devRef .tc main_arg9) = W (Proc.devRef .tc main_arg9) := keep_main_part5_ops2 W main_arg9 (by decide)
theorem keep_main_part5_ops2_arg10 (W : Valuation τ sig (Elt F)) : StableHlo.after main_part5_ops2 W (Proc.devRef .tc main_arg10) = W (Proc.devRef .tc main_arg10) := keep_main_part5_ops2 W main_arg10 (by decide)
theorem keep_main_part5_ops2_arg11 (W : Valuation τ sig (Elt F)) : StableHlo.after main_part5_ops2 W (Proc.devRef .tc main_arg11) = W (Proc.devRef .tc main_arg11) := keep_main_part5_ops2 W main_arg11 (by decide)
theorem keep_main_part5_ops2_arg12 (W : Valuation τ sig (Elt F)) : StableHlo.after main_part5_ops2 W (Proc.devRef .tc main_arg12) = W (Proc.devRef .tc main_arg12) := keep_main_part5_ops2 W main_arg12 (by decide)
theorem keep_main_part5_ops2_arg13 (W : Valuation τ sig (Elt F)) : StableHlo.after main_part5_ops2 W (Proc.devRef .tc main_arg13) = W (Proc.devRef .tc main_arg13) := keep_main_part5_ops2 W main_arg13 (by decide)
theorem keep_main_part5_ops2_arg14 (W : Valuation τ sig (Elt F)) : StableHlo.after main_part5_ops2 W (Proc.devRef .tc main_arg14) = W (Proc.devRef .tc main_arg14) := keep_main_part5_ops2 W main_arg14 (by decide)
theorem keep_main_part5_ops2_arg15 (W : Valuation τ sig (Elt F)) : StableHlo.after main_part5_ops2 W (Proc.devRef .tc main_arg15) = W (Proc.devRef .tc main_arg15) := keep_main_part5_ops2 W main_arg15 (by decide)
theorem keep_main_part5_ops2_arg16 (W : Valuation τ sig (Elt F)) : StableHlo.after main_part5_ops2 W (Proc.devRef .tc main_arg16) = W (Proc.devRef .tc main_arg16) := keep_main_part5_ops2 W main_arg16 (by decide)
theorem keep_main_part5_ops2_arg17 (W : Valuation τ sig (Elt F)) : StableHlo.after main_part5_ops2 W (Proc.devRef .tc main_arg17) = W (Proc.devRef .tc main_arg17) := keep_main_part5_ops2 W main_arg17 (by decide)
theorem keep_main_part5_ops2_arg18 (W : Valuation τ sig (Elt F)) : StableHlo.after main_part5_ops2 W (Proc.devRef .tc main_arg18) = W (Proc.devRef .tc main_arg18) := keep_main_part5_ops2 W main_arg18 (by decide)
theorem keep_main_part5_ops2_arg19 (W : Valuation τ sig (Elt F)) : StableHlo.after main_part5_ops2 W (Proc.devRef .tc main_arg19) = W (Proc.devRef .tc main_arg19) := keep_main_part5_ops2 W main_arg19 (by decide)
theorem keep_main_part5_ops2_arg20 (W : Valuation τ sig (Elt F)) : StableHlo.after main_part5_ops2 W (Proc.devRef .tc main_arg20) = W (Proc.devRef .tc main_arg20) := keep_main_part5_ops2 W main_arg20 (by decide)
theorem keep_main_part5_ops2_arg21 (W : Valuation τ sig (Elt F)) : StableHlo.after main_part5_ops2 W (Proc.devRef .tc main_arg21) = W (Proc.devRef .tc main_arg21) := keep_main_part5_ops2 W main_arg21 (by decide)
theorem keep_main_part5_ops2_arg22 (W : Valuation τ sig (Elt F)) : StableHlo.after main_part5_ops2 W (Proc.devRef .tc main_arg22) = W (Proc.devRef .tc main_arg22) := keep_main_part5_ops2 W main_arg22 (by decide)
theorem keep_main_part5_ops3_arg0 (W : Valuation τ sig (Elt F)) : StableHlo.after main_part5_ops3 W (Proc.devRef .tc main_arg0) = W (Proc.devRef .tc main_arg0) := keep_main_part5_ops3 W main_arg0 (by decide)
theorem keep_main_part5_ops3_arg1 (W : Valuation τ sig (Elt F)) : StableHlo.after main_part5_ops3 W (Proc.devRef .tc main_arg1) = W (Proc.devRef .tc main_arg1) := keep_main_part5_ops3 W main_arg1 (by decide)
theorem keep_main_part5_ops3_arg2 (W : Valuation τ sig (Elt F)) : StableHlo.after main_part5_ops3 W (Proc.devRef .tc main_arg2) = W (Proc.devRef .tc main_arg2) := keep_main_part5_ops3 W main_arg2 (by decide)
theorem keep_main_part5_ops3_arg3 (W : Valuation τ sig (Elt F)) : StableHlo.after main_part5_ops3 W (Proc.devRef .tc main_arg3) = W (Proc.devRef .tc main_arg3) := keep_main_part5_ops3 W main_arg3 (by decide)
theorem keep_main_part5_ops3_arg4 (W : Valuation τ sig (Elt F)) : StableHlo.after main_part5_ops3 W (Proc.devRef .tc main_arg4) = W (Proc.devRef .tc main_arg4) := keep_main_part5_ops3 W main_arg4 (by decide)
theorem keep_main_part5_ops3_arg5 (W : Valuation τ sig (Elt F)) : StableHlo.after main_part5_ops3 W (Proc.devRef .tc main_arg5) = W (Proc.devRef .tc main_arg5) := keep_main_part5_ops3 W main_arg5 (by decide)
theorem keep_main_part5_ops3_arg6 (W : Valuation τ sig (Elt F)) : StableHlo.after main_part5_ops3 W (Proc.devRef .tc main_arg6) = W (Proc.devRef .tc main_arg6) := keep_main_part5_ops3 W main_arg6 (by decide)
theorem keep_main_part5_ops3_arg7 (W : Valuation τ sig (Elt F)) : StableHlo.after main_part5_ops3 W (Proc.devRef .tc main_arg7) = W (Proc.devRef .tc main_arg7) := keep_main_part5_ops3 W main_arg7 (by decide)
theorem keep_main_part5_ops3_arg8 (W : Valuation τ sig (Elt F)) : StableHlo.after main_part5_ops3 W (Proc.devRef .tc main_arg8) = W (Proc.devRef .tc main_arg8) := keep_main_part5_ops3 W main_arg8 (by decide)
theorem keep_main_part5_ops3_arg9 (W : Valuation τ sig (Elt F)) : StableHlo.after main_part5_ops3 W (Proc.devRef .tc main_arg9) = W (Proc.devRef .tc main_arg9) := keep_main_part5_ops3 W main_arg9 (by decide)
theorem keep_main_part5_ops3_arg10 (W : Valuation τ sig (Elt F)) : StableHlo.after main_part5_ops3 W (Proc.devRef .tc main_arg10) = W (Proc.devRef .tc main_arg10) := keep_main_part5_ops3 W main_arg10 (by decide)
theorem keep_main_part5_ops3_arg11 (W : Valuation τ sig (Elt F)) : StableHlo.after main_part5_ops3 W (Proc.devRef .tc main_arg11) = W (Proc.devRef .tc main_arg11) := keep_main_part5_ops3 W main_arg11 (by decide)
theorem keep_main_part5_ops3_arg12 (W : Valuation τ sig (Elt F)) : StableHlo.after main_part5_ops3 W (Proc.devRef .tc main_arg12) = W (Proc.devRef .tc main_arg12) := keep_main_part5_ops3 W main_arg12 (by decide)
theorem keep_main_part5_ops3_arg13 (W : Valuation τ sig (Elt F)) : StableHlo.after main_part5_ops3 W (Proc.devRef .tc main_arg13) = W (Proc.devRef .tc main_arg13) := keep_main_part5_ops3 W main_arg13 (by decide)
theorem keep_main_part5_ops3_arg14 (W : Valuation τ sig (Elt F)) : StableHlo.after main_part5_ops3 W (Proc.devRef .tc main_arg14) = W (Proc.devRef .tc main_arg14) := keep_main_part5_ops3 W main_arg14 (by decide)
theorem keep_main_part5_ops3_arg15 (W : Valuation τ sig (Elt F)) : StableHlo.after main_part5_ops3 W (Proc.devRef .tc main_arg15) = W (Proc.devRef .tc main_arg15) := keep_main_part5_ops3 W main_arg15 (by decide)
theorem keep_main_part5_ops3_arg16 (W : Valuation τ sig (Elt F)) : StableHlo.after main_part5_ops3 W (Proc.devRef .tc main_arg16) = W (Proc.devRef .tc main_arg16) := keep_main_part5_ops3 W main_arg16 (by decide)
theorem keep_main_part5_ops3_arg17 (W : Valuation τ sig (Elt F)) : StableHlo.after main_part5_ops3 W (Proc.devRef .tc main_arg17) = W (Proc.devRef .tc main_arg17) := keep_main_part5_ops3 W main_arg17 (by decide)
theorem keep_main_part5_ops3_arg18 (W : Valuation τ sig (Elt F)) : StableHlo.after main_part5_ops3 W (Proc.devRef .tc main_arg18) = W (Proc.devRef .tc main_arg18) := keep_main_part5_ops3 W main_arg18 (by decide)
theorem keep_main_part5_ops3_arg19 (W : Valuation τ sig (Elt F)) : StableHlo.after main_part5_ops3 W (Proc.devRef .tc main_arg19) = W (Proc.devRef .tc main_arg19) := keep_main_part5_ops3 W main_arg19 (by decide)
theorem keep_main_part5_ops3_arg20 (W : Valuation τ sig (Elt F)) : StableHlo.after main_part5_ops3 W (Proc.devRef .tc main_arg20) = W (Proc.devRef .tc main_arg20) := keep_main_part5_ops3 W main_arg20 (by decide)
theorem keep_main_part5_ops3_arg21 (W : Valuation τ sig (Elt F)) : StableHlo.after main_part5_ops3 W (Proc.devRef .tc main_arg21) = W (Proc.devRef .tc main_arg21) := keep_main_part5_ops3 W main_arg21 (by decide)
theorem keep_main_part5_ops3_arg22 (W : Valuation τ sig (Elt F)) : StableHlo.after main_part5_ops3 W (Proc.devRef .tc main_arg22) = W (Proc.devRef .tc main_arg22) := keep_main_part5_ops3 W main_arg22 (by decide)
theorem keep_main_part6_ops0_arg0 (W : Valuation τ sig (Elt F)) : StableHlo.after main_part6_ops0 W (Proc.devRef .tc main_arg0) = W (Proc.devRef .tc main_arg0) := keep_main_part6_ops0 W main_arg0 (by decide)
theorem keep_main_part6_ops0_arg1 (W : Valuation τ sig (Elt F)) : StableHlo.after main_part6_ops0 W (Proc.devRef .tc main_arg1) = W (Proc.devRef .tc main_arg1) := keep_main_part6_ops0 W main_arg1 (by decide)
theorem keep_main_part6_ops0_arg2 (W : Valuation τ sig (Elt F)) : StableHlo.after main_part6_ops0 W (Proc.devRef .tc main_arg2) = W (Proc.devRef .tc main_arg2) := keep_main_part6_ops0 W main_arg2 (by decide)
theorem keep_main_part6_ops0_arg3 (W : Valuation τ sig (Elt F)) : StableHlo.after main_part6_ops0 W (Proc.devRef .tc main_arg3) = W (Proc.devRef .tc main_arg3) := keep_main_part6_ops0 W main_arg3 (by decide)
theorem keep_main_part6_ops0_arg4 (W : Valuation τ sig (Elt F)) : StableHlo.after main_part6_ops0 W (Proc.devRef .tc main_arg4) = W (Proc.devRef .tc main_arg4) := keep_main_part6_ops0 W main_arg4 (by decide)
theorem keep_main_part6_ops0_arg5 (W : Valuation τ sig (Elt F)) : StableHlo.after main_part6_ops0 W (Proc.devRef .tc main_arg5) = W (Proc.devRef .tc main_arg5) := keep_main_part6_ops0 W main_arg5 (by decide)
theorem keep_main_part6_ops0_arg6 (W : Valuation τ sig (Elt F)) : StableHlo.after main_part6_ops0 W (Proc.devRef .tc main_arg6) = W (Proc.devRef .tc main_arg6) := keep_main_part6_ops0 W main_arg6 (by decide)
theorem keep_main_part6_ops0_arg7 (W : Valuation τ sig (Elt F)) : StableHlo.after main_part6_ops0 W (Proc.devRef .tc main_arg7) = W (Proc.devRef .tc main_arg7) := keep_main_part6_ops0 W main_arg7 (by decide)
theorem keep_main_part6_ops0_arg8 (W : Valuation τ sig (Elt F)) : StableHlo.after main_part6_ops0 W (Proc.devRef .tc main_arg8) = W (Proc.devRef .tc main_arg8) := keep_main_part6_ops0 W main_arg8 (by decide)
theorem keep_main_part6_ops0_arg9 (W : Valuation τ sig (Elt F)) : StableHlo.after main_part6_ops0 W (Proc.devRef .tc main_arg9) = W (Proc.devRef .tc main_arg9) := keep_main_part6_ops0 W main_arg9 (by decide)
theorem keep_main_part6_ops0_arg10 (W : Valuation τ sig (Elt F)) : StableHlo.after main_part6_ops0 W (Proc.devRef .tc main_arg10) = W (Proc.devRef .tc main_arg10) := keep_main_part6_ops0 W main_arg10 (by decide)
theorem keep_main_part6_ops0_arg11 (W : Valuation τ sig (Elt F)) : StableHlo.after main_part6_ops0 W (Proc.devRef .tc main_arg11) = W (Proc.devRef .tc main_arg11) := keep_main_part6_ops0 W main_arg11 (by decide)
theorem keep_main_part6_ops0_arg12 (W : Valuation τ sig (Elt F)) : StableHlo.after main_part6_ops0 W (Proc.devRef .tc main_arg12) = W (Proc.devRef .tc main_arg12) := keep_main_part6_ops0 W main_arg12 (by decide)
theorem keep_main_part6_ops0_arg13 (W : Valuation τ sig (Elt F)) : StableHlo.after main_part6_ops0 W (Proc.devRef .tc main_arg13) = W (Proc.devRef .tc main_arg13) := keep_main_part6_ops0 W main_arg13 (by decide)
theorem keep_main_part6_ops0_arg14 (W : Valuation τ sig (Elt F)) : StableHlo.after main_part6_ops0 W (Proc.devRef .tc main_arg14) = W (Proc.devRef .tc main_arg14) := keep_main_part6_ops0 W main_arg14 (by decide)
theorem keep_main_part6_ops0_arg15 (W : Valuation τ sig (Elt F)) : StableHlo.after main_part6_ops0 W (Proc.devRef .tc main_arg15) = W (Proc.devRef .tc main_arg15) := keep_main_part6_ops0 W main_arg15 (by decide)
theorem keep_main_part6_ops0_arg16 (W : Valuation τ sig (Elt F)) : StableHlo.after main_part6_ops0 W (Proc.devRef .tc main_arg16) = W (Proc.devRef .tc main_arg16) := keep_main_part6_ops0 W main_arg16 (by decide)
theorem keep_main_part6_ops0_arg17 (W : Valuation τ sig (Elt F)) : StableHlo.after main_part6_ops0 W (Proc.devRef .tc main_arg17) = W (Proc.devRef .tc main_arg17) := keep_main_part6_ops0 W main_arg17 (by decide)
theorem keep_main_part6_ops0_arg18 (W : Valuation τ sig (Elt F)) : StableHlo.after main_part6_ops0 W (Proc.devRef .tc main_arg18) = W (Proc.devRef .tc main_arg18) := keep_main_part6_ops0 W main_arg18 (by decide)
theorem keep_main_part6_ops0_arg19 (W : Valuation τ sig (Elt F)) : StableHlo.after main_part6_ops0 W (Proc.devRef .tc main_arg19) = W (Proc.devRef .tc main_arg19) := keep_main_part6_ops0 W main_arg19 (by decide)
theorem keep_main_part6_ops0_arg20 (W : Valuation τ sig (Elt F)) : StableHlo.after main_part6_ops0 W (Proc.devRef .tc main_arg20) = W (Proc.devRef .tc main_arg20) := keep_main_part6_ops0 W main_arg20 (by decide)
theorem keep_main_part6_ops0_arg21 (W : Valuation τ sig (Elt F)) : StableHlo.after main_part6_ops0 W (Proc.devRef .tc main_arg21) = W (Proc.devRef .tc main_arg21) := keep_main_part6_ops0 W main_arg21 (by decide)
theorem keep_main_part6_ops0_arg22 (W : Valuation τ sig (Elt F)) : StableHlo.after main_part6_ops0 W (Proc.devRef .tc main_arg22) = W (Proc.devRef .tc main_arg22) := keep_main_part6_ops0 W main_arg22 (by decide)
theorem keep_main_part7_ops0_arg0 (W : Valuation τ sig (Elt F)) : StableHlo.after main_part7_ops0 W (Proc.devRef .tc main_arg0) = W (Proc.devRef .tc main_arg0) := keep_main_part7_ops0 W main_arg0 (by decide)
theorem keep_main_part7_ops0_arg1 (W : Valuation τ sig (Elt F)) : StableHlo.after main_part7_ops0 W (Proc.devRef .tc main_arg1) = W (Proc.devRef .tc main_arg1) := keep_main_part7_ops0 W main_arg1 (by decide)
theorem keep_main_part7_ops0_arg2 (W : Valuation τ sig (Elt F)) : StableHlo.after main_part7_ops0 W (Proc.devRef .tc main_arg2) = W (Proc.devRef .tc main_arg2) := keep_main_part7_ops0 W main_arg2 (by decide)
theorem keep_main_part7_ops0_arg3 (W : Valuation τ sig (Elt F)) : StableHlo.after main_part7_ops0 W (Proc.devRef .tc main_arg3) = W (Proc.devRef .tc main_arg3) := keep_main_part7_ops0 W main_arg3 (by decide)
theorem keep_main_part7_ops0_arg4 (W : Valuation τ sig (Elt F)) : StableHlo.after main_part7_ops0 W (Proc.devRef .tc main_arg4) = W (Proc.devRef .tc main_arg4) := keep_main_part7_ops0 W main_arg4 (by decide)
theorem keep_main_part7_ops0_arg5 (W : Valuation τ sig (Elt F)) : StableHlo.after main_part7_ops0 W (Proc.devRef .tc main_arg5) = W (Proc.devRef .tc main_arg5) := keep_main_part7_ops0 W main_arg5 (by decide)
theorem keep_main_part7_ops0_arg6 (W : Valuation τ sig (Elt F)) : StableHlo.after main_part7_ops0 W (Proc.devRef .tc main_arg6) = W (Proc.devRef .tc main_arg6) := keep_main_part7_ops0 W main_arg6 (by decide)
theorem keep_main_part7_ops0_arg7 (W : Valuation τ sig (Elt F)) : StableHlo.after main_part7_ops0 W (Proc.devRef .tc main_arg7) = W (Proc.devRef .tc main_arg7) := keep_main_part7_ops0 W main_arg7 (by decide)
theorem keep_main_part7_ops0_arg8 (W : Valuation τ sig (Elt F)) : StableHlo.after main_part7_ops0 W (Proc.devRef .tc main_arg8) = W (Proc.devRef .tc main_arg8) := keep_main_part7_ops0 W main_arg8 (by decide)
theorem keep_main_part7_ops0_arg9 (W : Valuation τ sig (Elt F)) : StableHlo.after main_part7_ops0 W (Proc.devRef .tc main_arg9) = W (Proc.devRef .tc main_arg9) := keep_main_part7_ops0 W main_arg9 (by decide)
theorem keep_main_part7_ops0_arg10 (W : Valuation τ sig (Elt F)) : StableHlo.after main_part7_ops0 W (Proc.devRef .tc main_arg10) = W (Proc.devRef .tc main_arg10) := keep_main_part7_ops0 W main_arg10 (by decide)
theorem keep_main_part7_ops0_arg11 (W : Valuation τ sig (Elt F)) : StableHlo.after main_part7_ops0 W (Proc.devRef .tc main_arg11) = W (Proc.devRef .tc main_arg11) := keep_main_part7_ops0 W main_arg11 (by decide)
theorem keep_main_part7_ops0_arg12 (W : Valuation τ sig (Elt F)) : StableHlo.after main_part7_ops0 W (Proc.devRef .tc main_arg12) = W (Proc.devRef .tc main_arg12) := keep_main_part7_ops0 W main_arg12 (by decide)
theorem keep_main_part7_ops0_arg13 (W : Valuation τ sig (Elt F)) : StableHlo.after main_part7_ops0 W (Proc.devRef .tc main_arg13) = W (Proc.devRef .tc main_arg13) := keep_main_part7_ops0 W main_arg13 (by decide)
theorem keep_main_part7_ops0_arg14 (W : Valuation τ sig (Elt F)) : StableHlo.after main_part7_ops0 W (Proc.devRef .tc main_arg14) = W (Proc.devRef .tc main_arg14) := keep_main_part7_ops0 W main_arg14 (by decide)
theorem keep_main_part7_ops0_arg15 (W : Valuation τ sig (Elt F)) : StableHlo.after main_part7_ops0 W (Proc.devRef .tc main_arg15) = W (Proc.devRef .tc main_arg15) := keep_main_part7_ops0 W main_arg15 (by decide)
theorem keep_main_part7_ops0_arg16 (W : Valuation τ sig (Elt F)) : StableHlo.after main_part7_ops0 W (Proc.devRef .tc main_arg16) = W (Proc.devRef .tc main_arg16) := keep_main_part7_ops0 W main_arg16 (by decide)
theorem keep_main_part7_ops0_arg17 (W : Valuation τ sig (Elt F)) : StableHlo.after main_part7_ops0 W (Proc.devRef .tc main_arg17) = W (Proc.devRef .tc main_arg17) := keep_main_part7_ops0 W main_arg17 (by decide)
theorem keep_main_part7_ops0_arg18 (W : Valuation τ sig (Elt F)) : StableHlo.after main_part7_ops0 W (Proc.devRef .tc main_arg18) = W (Proc.devRef .tc main_arg18) := keep_main_part7_ops0 W main_arg18 (by decide)
theorem keep_main_part7_ops0_arg19 (W : Valuation τ sig (Elt F)) : StableHlo.after main_part7_ops0 W (Proc.devRef .tc main_arg19) = W (Proc.devRef .tc main_arg19) := keep_main_part7_ops0 W main_arg19 (by decide)
theorem keep_main_part7_ops0_arg20 (W : Valuation τ sig (Elt F)) : StableHlo.after main_part7_ops0 W (Proc.devRef .tc main_arg20) = W (Proc.devRef .tc main_arg20) := keep_main_part7_ops0 W main_arg20 (by decide)
theorem keep_main_part7_ops0_arg21 (W : Valuation τ sig (Elt F)) : StableHlo.after main_part7_ops0 W (Proc.devRef .tc main_arg21) = W (Proc.devRef .tc main_arg21) := keep_main_part7_ops0 W main_arg21 (by decide)
theorem keep_main_part7_ops0_arg22 (W : Valuation τ sig (Elt F)) : StableHlo.after main_part7_ops0 W (Proc.devRef .tc main_arg22) = W (Proc.devRef .tc main_arg22) := keep_main_part7_ops0 W main_arg22 (by decide)
theorem keep_main_part8_ops0_arg0 (W : Valuation τ sig (Elt F)) : StableHlo.after main_part8_ops0 W (Proc.devRef .tc main_arg0) = W (Proc.devRef .tc main_arg0) := keep_main_part8_ops0 W main_arg0 (by decide)
theorem keep_main_part8_ops0_arg1 (W : Valuation τ sig (Elt F)) : StableHlo.after main_part8_ops0 W (Proc.devRef .tc main_arg1) = W (Proc.devRef .tc main_arg1) := keep_main_part8_ops0 W main_arg1 (by decide)
theorem keep_main_part8_ops0_arg2 (W : Valuation τ sig (Elt F)) : StableHlo.after main_part8_ops0 W (Proc.devRef .tc main_arg2) = W (Proc.devRef .tc main_arg2) := keep_main_part8_ops0 W main_arg2 (by decide)
theorem keep_main_part8_ops0_arg3 (W : Valuation τ sig (Elt F)) : StableHlo.after main_part8_ops0 W (Proc.devRef .tc main_arg3) = W (Proc.devRef .tc main_arg3) := keep_main_part8_ops0 W main_arg3 (by decide)
theorem keep_main_part8_ops0_arg4 (W : Valuation τ sig (Elt F)) : StableHlo.after main_part8_ops0 W (Proc.devRef .tc main_arg4) = W (Proc.devRef .tc main_arg4) := keep_main_part8_ops0 W main_arg4 (by decide)
theorem keep_main_part8_ops0_arg5 (W : Valuation τ sig (Elt F)) : StableHlo.after main_part8_ops0 W (Proc.devRef .tc main_arg5) = W (Proc.devRef .tc main_arg5) := keep_main_part8_ops0 W main_arg5 (by decide)
theorem keep_main_part8_ops0_arg6 (W : Valuation τ sig (Elt F)) : StableHlo.after main_part8_ops0 W (Proc.devRef .tc main_arg6) = W (Proc.devRef .tc main_arg6) := keep_main_part8_ops0 W main_arg6 (by decide)
theorem keep_main_part8_ops0_arg7 (W : Valuation τ sig (Elt F)) : StableHlo.after main_part8_ops0 W (Proc.devRef .tc main_arg7) = W (Proc.devRef .tc main_arg7) := keep_main_part8_ops0 W main_arg7 (by decide)
theorem keep_main_part8_ops0_arg8 (W : Valuation τ sig (Elt F)) : StableHlo.after main_part8_ops0 W (Proc.devRef .tc main_arg8) = W (Proc.devRef .tc main_arg8) := keep_main_part8_ops0 W main_arg8 (by decide)
theorem keep_main_part8_ops0_arg9 (W : Valuation τ sig (Elt F)) : StableHlo.after main_part8_ops0 W (Proc.devRef .tc main_arg9) = W (Proc.devRef .tc main_arg9) := keep_main_part8_ops0 W main_arg9 (by decide)
theorem keep_main_part8_ops0_arg10 (W : Valuation τ sig (Elt F)) : StableHlo.after main_part8_ops0 W (Proc.devRef .tc main_arg10) = W (Proc.devRef .tc main_arg10) := keep_main_part8_ops0 W main_arg10 (by decide)
theorem keep_main_part8_ops0_arg11 (W : Valuation τ sig (Elt F)) : StableHlo.after main_part8_ops0 W (Proc.devRef .tc main_arg11) = W (Proc.devRef .tc main_arg11) := keep_main_part8_ops0 W main_arg11 (by decide)
theorem keep_main_part8_ops0_arg12 (W : Valuation τ sig (Elt F)) : StableHlo.after main_part8_ops0 W (Proc.devRef .tc main_arg12) = W (Proc.devRef .tc main_arg12) := keep_main_part8_ops0 W main_arg12 (by decide)
theorem keep_main_part8_ops0_arg13 (W : Valuation τ sig (Elt F)) : StableHlo.after main_part8_ops0 W (Proc.devRef .tc main_arg13) = W (Proc.devRef .tc main_arg13) := keep_main_part8_ops0 W main_arg13 (by decide)
theorem keep_main_part8_ops0_arg14 (W : Valuation τ sig (Elt F)) : StableHlo.after main_part8_ops0 W (Proc.devRef .tc main_arg14) = W (Proc.devRef .tc main_arg14) := keep_main_part8_ops0 W main_arg14 (by decide)
theorem keep_main_part8_ops0_arg15 (W : Valuation τ sig (Elt F)) : StableHlo.after main_part8_ops0 W (Proc.devRef .tc main_arg15) = W (Proc.devRef .tc main_arg15) := keep_main_part8_ops0 W main_arg15 (by decide)
theorem keep_main_part8_ops0_arg16 (W : Valuation τ sig (Elt F)) : StableHlo.after main_part8_ops0 W (Proc.devRef .tc main_arg16) = W (Proc.devRef .tc main_arg16) := keep_main_part8_ops0 W main_arg16 (by decide)
theorem keep_main_part8_ops0_arg17 (W : Valuation τ sig (Elt F)) : StableHlo.after main_part8_ops0 W (Proc.devRef .tc main_arg17) = W (Proc.devRef .tc main_arg17) := keep_main_part8_ops0 W main_arg17 (by decide)
theorem keep_main_part8_ops0_arg18 (W : Valuation τ sig (Elt F)) : StableHlo.after main_part8_ops0 W (Proc.devRef .tc main_arg18) = W (Proc.devRef .tc main_arg18) := keep_main_part8_ops0 W main_arg18 (by decide)
theorem keep_main_part8_ops0_arg19 (W : Valuation τ sig (Elt F)) : StableHlo.after main_part8_ops0 W (Proc.devRef .tc main_arg19) = W (Proc.devRef .tc main_arg19) := keep_main_part8_ops0 W main_arg19 (by decide)
theorem keep_main_part8_ops0_arg20 (W : Valuation τ sig (Elt F)) : StableHlo.after main_part8_ops0 W (Proc.devRef .tc main_arg20) = W (Proc.devRef .tc main_arg20) := keep_main_part8_ops0 W main_arg20 (by decide)
theorem keep_main_part8_ops0_arg21 (W : Valuation τ sig (Elt F)) : StableHlo.after main_part8_ops0 W (Proc.devRef .tc main_arg21) = W (Proc.devRef .tc main_arg21) := keep_main_part8_ops0 W main_arg21 (by decide)
theorem keep_main_part8_ops0_arg22 (W : Valuation τ sig (Elt F)) : StableHlo.after main_part8_ops0 W (Proc.devRef .tc main_arg22) = W (Proc.devRef .tc main_arg22) := keep_main_part8_ops0 W main_arg22 (by decide)
theorem keep_main_part9_ops0_arg0 (W : Valuation τ sig (Elt F)) : StableHlo.after main_part9_ops0 W (Proc.devRef .tc main_arg0) = W (Proc.devRef .tc main_arg0) := keep_main_part9_ops0 W main_arg0 (by decide)
theorem keep_main_part9_ops0_arg1 (W : Valuation τ sig (Elt F)) : StableHlo.after main_part9_ops0 W (Proc.devRef .tc main_arg1) = W (Proc.devRef .tc main_arg1) := keep_main_part9_ops0 W main_arg1 (by decide)
theorem keep_main_part9_ops0_arg2 (W : Valuation τ sig (Elt F)) : StableHlo.after main_part9_ops0 W (Proc.devRef .tc main_arg2) = W (Proc.devRef .tc main_arg2) := keep_main_part9_ops0 W main_arg2 (by decide)
theorem keep_main_part9_ops0_arg3 (W : Valuation τ sig (Elt F)) : StableHlo.after main_part9_ops0 W (Proc.devRef .tc main_arg3) = W (Proc.devRef .tc main_arg3) := keep_main_part9_ops0 W main_arg3 (by decide)
theorem keep_main_part9_ops0_arg4 (W : Valuation τ sig (Elt F)) : StableHlo.after main_part9_ops0 W (Proc.devRef .tc main_arg4) = W (Proc.devRef .tc main_arg4) := keep_main_part9_ops0 W main_arg4 (by decide)
theorem keep_main_part9_ops0_arg5 (W : Valuation τ sig (Elt F)) : StableHlo.after main_part9_ops0 W (Proc.devRef .tc main_arg5) = W (Proc.devRef .tc main_arg5) := keep_main_part9_ops0 W main_arg5 (by decide)
theorem keep_main_part9_ops0_arg6 (W : Valuation τ sig (Elt F)) : StableHlo.after main_part9_ops0 W (Proc.devRef .tc main_arg6) = W (Proc.devRef .tc main_arg6) := keep_main_part9_ops0 W main_arg6 (by decide)
theorem keep_main_part9_ops0_arg7 (W : Valuation τ sig (Elt F)) : StableHlo.after main_part9_ops0 W (Proc.devRef .tc main_arg7) = W (Proc.devRef .tc main_arg7) := keep_main_part9_ops0 W main_arg7 (by decide)
theorem keep_main_part9_ops0_arg8 (W : Valuation τ sig (Elt F)) : StableHlo.after main_part9_ops0 W (Proc.devRef .tc main_arg8) = W (Proc.devRef .tc main_arg8) := keep_main_part9_ops0 W main_arg8 (by decide)
theorem keep_main_part9_ops0_arg9 (W : Valuation τ sig (Elt F)) : StableHlo.after main_part9_ops0 W (Proc.devRef .tc main_arg9) = W (Proc.devRef .tc main_arg9) := keep_main_part9_ops0 W main_arg9 (by decide)
theorem keep_main_part9_ops0_arg10 (W : Valuation τ sig (Elt F)) : StableHlo.after main_part9_ops0 W (Proc.devRef .tc main_arg10) = W (Proc.devRef .tc main_arg10) := keep_main_part9_ops0 W main_arg10 (by decide)
theorem keep_main_part9_ops0_arg11 (W : Valuation τ sig (Elt F)) : StableHlo.after main_part9_ops0 W (Proc.devRef .tc main_arg11) = W (Proc.devRef .tc main_arg11) := keep_main_part9_ops0 W main_arg11 (by decide)
theorem keep_main_part9_ops0_arg12 (W : Valuation τ sig (Elt F)) : StableHlo.after main_part9_ops0 W (Proc.devRef .tc main_arg12) = W (Proc.devRef .tc main_arg12) := keep_main_part9_ops0 W main_arg12 (by decide)
theorem keep_main_part9_ops0_arg13 (W : Valuation τ sig (Elt F)) : StableHlo.after main_part9_ops0 W (Proc.devRef .tc main_arg13) = W (Proc.devRef .tc main_arg13) := keep_main_part9_ops0 W main_arg13 (by decide)
theorem keep_main_part9_ops0_arg14 (W : Valuation τ sig (Elt F)) : StableHlo.after main_part9_ops0 W (Proc.devRef .tc main_arg14) = W (Proc.devRef .tc main_arg14) := keep_main_part9_ops0 W main_arg14 (by decide)
theorem keep_main_part9_ops0_arg15 (W : Valuation τ sig (Elt F)) : StableHlo.after main_part9_ops0 W (Proc.devRef .tc main_arg15) = W (Proc.devRef .tc main_arg15) := keep_main_part9_ops0 W main_arg15 (by decide)
theorem keep_main_part9_ops0_arg16 (W : Valuation τ sig (Elt F)) : StableHlo.after main_part9_ops0 W (Proc.devRef .tc main_arg16) = W (Proc.devRef .tc main_arg16) := keep_main_part9_ops0 W main_arg16 (by decide)
theorem keep_main_part9_ops0_arg17 (W : Valuation τ sig (Elt F)) : StableHlo.after main_part9_ops0 W (Proc.devRef .tc main_arg17) = W (Proc.devRef .tc main_arg17) := keep_main_part9_ops0 W main_arg17 (by decide)
theorem keep_main_part9_ops0_arg18 (W : Valuation τ sig (Elt F)) : StableHlo.after main_part9_ops0 W (Proc.devRef .tc main_arg18) = W (Proc.devRef .tc main_arg18) := keep_main_part9_ops0 W main_arg18 (by decide)
theorem keep_main_part9_ops0_arg19 (W : Valuation τ sig (Elt F)) : StableHlo.after main_part9_ops0 W (Proc.devRef .tc main_arg19) = W (Proc.devRef .tc main_arg19) := keep_main_part9_ops0 W main_arg19 (by decide)
theorem keep_main_part9_ops0_arg20 (W : Valuation τ sig (Elt F)) : StableHlo.after main_part9_ops0 W (Proc.devRef .tc main_arg20) = W (Proc.devRef .tc main_arg20) := keep_main_part9_ops0 W main_arg20 (by decide)
theorem keep_main_part9_ops0_arg21 (W : Valuation τ sig (Elt F)) : StableHlo.after main_part9_ops0 W (Proc.devRef .tc main_arg21) = W (Proc.devRef .tc main_arg21) := keep_main_part9_ops0 W main_arg21 (by decide)
theorem keep_main_part9_ops0_arg22 (W : Valuation τ sig (Elt F)) : StableHlo.after main_part9_ops0 W (Proc.devRef .tc main_arg22) = W (Proc.devRef .tc main_arg22) := keep_main_part9_ops0 W main_arg22 (by decide)

end Cert.KernelIdeal.Hand

end
-- ==== Proof.KI.KeepArgs1.lean ====
import proofs.«125545_j64845416235624_1_alg».proof.Proof.KI.Keep

set_option maxRecDepth 7380

noncomputable section

namespace Cert.KernelIdeal.Hand

open Idealize.ShloMosaic Idealize.ShloMosaic.TcCoe
open Cert.KernelIdeal Cert.KernelIdeal.Gen

variable {F : FTy → Type} [FloatOps F]

/-! # The argument arrays: no host piece writes one (the pieces of @main's windows 10 to 16)

Per host piece and argument array, the piece's `keep_…` at the argument: it is none of the piece's results, by evaluation. -/

theorem keep_main_part10_ops0_arg0 (W : Valuation τ sig (Elt F)) : StableHlo.after main_part10_ops0 W (Proc.devRef .tc main_arg0) = W (Proc.devRef .tc main_arg0) := keep_main_part10_ops0 W main_arg0 (by decide)
theorem keep_main_part10_ops0_arg1 (W : Valuation τ sig (Elt F)) : StableHlo.after main_part10_ops0 W (Proc.devRef .tc main_arg1) = W (Proc.devRef .tc main_arg1) := keep_main_part10_ops0 W main_arg1 (by decide)
theorem keep_main_part10_ops0_arg2 (W : Valuation τ sig (Elt F)) : StableHlo.after main_part10_ops0 W (Proc.devRef .tc main_arg2) = W (Proc.devRef .tc main_arg2) := keep_main_part10_ops0 W main_arg2 (by decide)
theorem keep_main_part10_ops0_arg3 (W : Valuation τ sig (Elt F)) : StableHlo.after main_part10_ops0 W (Proc.devRef .tc main_arg3) = W (Proc.devRef .tc main_arg3) := keep_main_part10_ops0 W main_arg3 (by decide)
theorem keep_main_part10_ops0_arg4 (W : Valuation τ sig (Elt F)) : StableHlo.after main_part10_ops0 W (Proc.devRef .tc main_arg4) = W (Proc.devRef .tc main_arg4) := keep_main_part10_ops0 W main_arg4 (by decide)
theorem keep_main_part10_ops0_arg5 (W : Valuation τ sig (Elt F)) : StableHlo.after main_part10_ops0 W (Proc.devRef .tc main_arg5) = W (Proc.devRef .tc main_arg5) := keep_main_part10_ops0 W main_arg5 (by decide)
theorem keep_main_part10_ops0_arg6 (W : Valuation τ sig (Elt F)) : StableHlo.after main_part10_ops0 W (Proc.devRef .tc main_arg6) = W (Proc.devRef .tc main_arg6) := keep_main_part10_ops0 W main_arg6 (by decide)
theorem keep_main_part10_ops0_arg7 (W : Valuation τ sig (Elt F)) : StableHlo.after main_part10_ops0 W (Proc.devRef .tc main_arg7) = W (Proc.devRef .tc main_arg7) := keep_main_part10_ops0 W main_arg7 (by decide)
theorem keep_main_part10_ops0_arg8 (W : Valuation τ sig (Elt F)) : StableHlo.after main_part10_ops0 W (Proc.devRef .tc main_arg8) = W (Proc.devRef .tc main_arg8) := keep_main_part10_ops0 W main_arg8 (by decide)
theorem keep_main_part10_ops0_arg9 (W : Valuation τ sig (Elt F)) : StableHlo.after main_part10_ops0 W (Proc.devRef .tc main_arg9) = W (Proc.devRef .tc main_arg9) := keep_main_part10_ops0 W main_arg9 (by decide)
theorem keep_main_part10_ops0_arg10 (W : Valuation τ sig (Elt F)) : StableHlo.after main_part10_ops0 W (Proc.devRef .tc main_arg10) = W (Proc.devRef .tc main_arg10) := keep_main_part10_ops0 W main_arg10 (by decide)
theorem keep_main_part10_ops0_arg11 (W : Valuation τ sig (Elt F)) : StableHlo.after main_part10_ops0 W (Proc.devRef .tc main_arg11) = W (Proc.devRef .tc main_arg11) := keep_main_part10_ops0 W main_arg11 (by decide)
theorem keep_main_part10_ops0_arg12 (W : Valuation τ sig (Elt F)) : StableHlo.after main_part10_ops0 W (Proc.devRef .tc main_arg12) = W (Proc.devRef .tc main_arg12) := keep_main_part10_ops0 W main_arg12 (by decide)
theorem keep_main_part10_ops0_arg13 (W : Valuation τ sig (Elt F)) : StableHlo.after main_part10_ops0 W (Proc.devRef .tc main_arg13) = W (Proc.devRef .tc main_arg13) := keep_main_part10_ops0 W main_arg13 (by decide)
theorem keep_main_part10_ops0_arg14 (W : Valuation τ sig (Elt F)) : StableHlo.after main_part10_ops0 W (Proc.devRef .tc main_arg14) = W (Proc.devRef .tc main_arg14) := keep_main_part10_ops0 W main_arg14 (by decide)
theorem keep_main_part10_ops0_arg15 (W : Valuation τ sig (Elt F)) : StableHlo.after main_part10_ops0 W (Proc.devRef .tc main_arg15) = W (Proc.devRef .tc main_arg15) := keep_main_part10_ops0 W main_arg15 (by decide)
theorem keep_main_part10_ops0_arg16 (W : Valuation τ sig (Elt F)) : StableHlo.after main_part10_ops0 W (Proc.devRef .tc main_arg16) = W (Proc.devRef .tc main_arg16) := keep_main_part10_ops0 W main_arg16 (by decide)
theorem keep_main_part10_ops0_arg17 (W : Valuation τ sig (Elt F)) : StableHlo.after main_part10_ops0 W (Proc.devRef .tc main_arg17) = W (Proc.devRef .tc main_arg17) := keep_main_part10_ops0 W main_arg17 (by decide)
theorem keep_main_part10_ops0_arg18 (W : Valuation τ sig (Elt F)) : StableHlo.after main_part10_ops0 W (Proc.devRef .tc main_arg18) = W (Proc.devRef .tc main_arg18) := keep_main_part10_ops0 W main_arg18 (by decide)
theorem keep_main_part10_ops0_arg19 (W : Valuation τ sig (Elt F)) : StableHlo.after main_part10_ops0 W (Proc.devRef .tc main_arg19) = W (Proc.devRef .tc main_arg19) := keep_main_part10_ops0 W main_arg19 (by decide)
theorem keep_main_part10_ops0_arg20 (W : Valuation τ sig (Elt F)) : StableHlo.after main_part10_ops0 W (Proc.devRef .tc main_arg20) = W (Proc.devRef .tc main_arg20) := keep_main_part10_ops0 W main_arg20 (by decide)
theorem keep_main_part10_ops0_arg21 (W : Valuation τ sig (Elt F)) : StableHlo.after main_part10_ops0 W (Proc.devRef .tc main_arg21) = W (Proc.devRef .tc main_arg21) := keep_main_part10_ops0 W main_arg21 (by decide)
theorem keep_main_part10_ops0_arg22 (W : Valuation τ sig (Elt F)) : StableHlo.after main_part10_ops0 W (Proc.devRef .tc main_arg22) = W (Proc.devRef .tc main_arg22) := keep_main_part10_ops0 W main_arg22 (by decide)
theorem keep_main_part10_ops1_arg0 (W : Valuation τ sig (Elt F)) : StableHlo.after main_part10_ops1 W (Proc.devRef .tc main_arg0) = W (Proc.devRef .tc main_arg0) := keep_main_part10_ops1 W main_arg0 (by decide)
theorem keep_main_part10_ops1_arg1 (W : Valuation τ sig (Elt F)) : StableHlo.after main_part10_ops1 W (Proc.devRef .tc main_arg1) = W (Proc.devRef .tc main_arg1) := keep_main_part10_ops1 W main_arg1 (by decide)
theorem keep_main_part10_ops1_arg2 (W : Valuation τ sig (Elt F)) : StableHlo.after main_part10_ops1 W (Proc.devRef .tc main_arg2) = W (Proc.devRef .tc main_arg2) := keep_main_part10_ops1 W main_arg2 (by decide)
theorem keep_main_part10_ops1_arg3 (W : Valuation τ sig (Elt F)) : StableHlo.after main_part10_ops1 W (Proc.devRef .tc main_arg3) = W (Proc.devRef .tc main_arg3) := keep_main_part10_ops1 W main_arg3 (by decide)
theorem keep_main_part10_ops1_arg4 (W : Valuation τ sig (Elt F)) : StableHlo.after main_part10_ops1 W (Proc.devRef .tc main_arg4) = W (Proc.devRef .tc main_arg4) := keep_main_part10_ops1 W main_arg4 (by decide)
theorem keep_main_part10_ops1_arg5 (W : Valuation τ sig (Elt F)) : StableHlo.after main_part10_ops1 W (Proc.devRef .tc main_arg5) = W (Proc.devRef .tc main_arg5) := keep_main_part10_ops1 W main_arg5 (by decide)
theorem keep_main_part10_ops1_arg6 (W : Valuation τ sig (Elt F)) : StableHlo.after main_part10_ops1 W (Proc.devRef .tc main_arg6) = W (Proc.devRef .tc main_arg6) := keep_main_part10_ops1 W main_arg6 (by decide)
theorem keep_main_part10_ops1_arg7 (W : Valuation τ sig (Elt F)) : StableHlo.after main_part10_ops1 W (Proc.devRef .tc main_arg7) = W (Proc.devRef .tc main_arg7) := keep_main_part10_ops1 W main_arg7 (by decide)
theorem keep_main_part10_ops1_arg8 (W : Valuation τ sig (Elt F)) : StableHlo.after main_part10_ops1 W (Proc.devRef .tc main_arg8) = W (Proc.devRef .tc main_arg8) := keep_main_part10_ops1 W main_arg8 (by decide)
theorem keep_main_part10_ops1_arg9 (W : Valuation τ sig (Elt F)) : StableHlo.after main_part10_ops1 W (Proc.devRef .tc main_arg9) = W (Proc.devRef .tc main_arg9) := keep_main_part10_ops1 W main_arg9 (by decide)
theorem keep_main_part10_ops1_arg10 (W : Valuation τ sig (Elt F)) : StableHlo.after main_part10_ops1 W (Proc.devRef .tc main_arg10) = W (Proc.devRef .tc main_arg10) := keep_main_part10_ops1 W main_arg10 (by decide)
theorem keep_main_part10_ops1_arg11 (W : Valuation τ sig (Elt F)) : StableHlo.after main_part10_ops1 W (Proc.devRef .tc main_arg11) = W (Proc.devRef .tc main_arg11) := keep_main_part10_ops1 W main_arg11 (by decide)
theorem keep_main_part10_ops1_arg12 (W : Valuation τ sig (Elt F)) : StableHlo.after main_part10_ops1 W (Proc.devRef .tc main_arg12) = W (Proc.devRef .tc main_arg12) := keep_main_part10_ops1 W main_arg12 (by decide)
theorem keep_main_part10_ops1_arg13 (W : Valuation τ sig (Elt F)) : StableHlo.after main_part10_ops1 W (Proc.devRef .tc main_arg13) = W (Proc.devRef .tc main_arg13) := keep_main_part10_ops1 W main_arg13 (by decide)
theorem keep_main_part10_ops1_arg14 (W : Valuation τ sig (Elt F)) : StableHlo.after main_part10_ops1 W (Proc.devRef .tc main_arg14) = W (Proc.devRef .tc main_arg14) := keep_main_part10_ops1 W main_arg14 (by decide)
theorem keep_main_part10_ops1_arg15 (W : Valuation τ sig (Elt F)) : StableHlo.after main_part10_ops1 W (Proc.devRef .tc main_arg15) = W (Proc.devRef .tc main_arg15) := keep_main_part10_ops1 W main_arg15 (by decide)
theorem keep_main_part10_ops1_arg16 (W : Valuation τ sig (Elt F)) : StableHlo.after main_part10_ops1 W (Proc.devRef .tc main_arg16) = W (Proc.devRef .tc main_arg16) := keep_main_part10_ops1 W main_arg16 (by decide)
theorem keep_main_part10_ops1_arg17 (W : Valuation τ sig (Elt F)) : StableHlo.after main_part10_ops1 W (Proc.devRef .tc main_arg17) = W (Proc.devRef .tc main_arg17) := keep_main_part10_ops1 W main_arg17 (by decide)
theorem keep_main_part10_ops1_arg18 (W : Valuation τ sig (Elt F)) : StableHlo.after main_part10_ops1 W (Proc.devRef .tc main_arg18) = W (Proc.devRef .tc main_arg18) := keep_main_part10_ops1 W main_arg18 (by decide)
theorem keep_main_part10_ops1_arg19 (W : Valuation τ sig (Elt F)) : StableHlo.after main_part10_ops1 W (Proc.devRef .tc main_arg19) = W (Proc.devRef .tc main_arg19) := keep_main_part10_ops1 W main_arg19 (by decide)
theorem keep_main_part10_ops1_arg20 (W : Valuation τ sig (Elt F)) : StableHlo.after main_part10_ops1 W (Proc.devRef .tc main_arg20) = W (Proc.devRef .tc main_arg20) := keep_main_part10_ops1 W main_arg20 (by decide)
theorem keep_main_part10_ops1_arg21 (W : Valuation τ sig (Elt F)) : StableHlo.after main_part10_ops1 W (Proc.devRef .tc main_arg21) = W (Proc.devRef .tc main_arg21) := keep_main_part10_ops1 W main_arg21 (by decide)
theorem keep_main_part10_ops1_arg22 (W : Valuation τ sig (Elt F)) : StableHlo.after main_part10_ops1 W (Proc.devRef .tc main_arg22) = W (Proc.devRef .tc main_arg22) := keep_main_part10_ops1 W main_arg22 (by decide)
theorem keep_main_part10_ops2_arg0 (W : Valuation τ sig (Elt F)) : StableHlo.after main_part10_ops2 W (Proc.devRef .tc main_arg0) = W (Proc.devRef .tc main_arg0) := keep_main_part10_ops2 W main_arg0 (by decide)
theorem keep_main_part10_ops2_arg1 (W : Valuation τ sig (Elt F)) : StableHlo.after main_part10_ops2 W (Proc.devRef .tc main_arg1) = W (Proc.devRef .tc main_arg1) := keep_main_part10_ops2 W main_arg1 (by decide)
theorem keep_main_part10_ops2_arg2 (W : Valuation τ sig (Elt F)) : StableHlo.after main_part10_ops2 W (Proc.devRef .tc main_arg2) = W (Proc.devRef .tc main_arg2) := keep_main_part10_ops2 W main_arg2 (by decide)
theorem keep_main_part10_ops2_arg3 (W : Valuation τ sig (Elt F)) : StableHlo.after main_part10_ops2 W (Proc.devRef .tc main_arg3) = W (Proc.devRef .tc main_arg3) := keep_main_part10_ops2 W main_arg3 (by decide)
theorem keep_main_part10_ops2_arg4 (W : Valuation τ sig (Elt F)) : StableHlo.after main_part10_ops2 W (Proc.devRef .tc main_arg4) = W (Proc.devRef .tc main_arg4) := keep_main_part10_ops2 W main_arg4 (by decide)
theorem keep_main_part10_ops2_arg5 (W : Valuation τ sig (Elt F)) : StableHlo.after main_part10_ops2 W (Proc.devRef .tc main_arg5) = W (Proc.devRef .tc main_arg5) := keep_main_part10_ops2 W main_arg5 (by decide)
theorem keep_main_part10_ops2_arg6 (W : Valuation τ sig (Elt F)) : StableHlo.after main_part10_ops2 W (Proc.devRef .tc main_arg6) = W (Proc.devRef .tc main_arg6) := keep_main_part10_ops2 W main_arg6 (by decide)
theorem keep_main_part10_ops2_arg7 (W : Valuation τ sig (Elt F)) : StableHlo.after main_part10_ops2 W (Proc.devRef .tc main_arg7) = W (Proc.devRef .tc main_arg7) := keep_main_part10_ops2 W main_arg7 (by decide)
theorem keep_main_part10_ops2_arg8 (W : Valuation τ sig (Elt F)) : StableHlo.after main_part10_ops2 W (Proc.devRef .tc main_arg8) = W (Proc.devRef .tc main_arg8) := keep_main_part10_ops2 W main_arg8 (by decide)
theorem keep_main_part10_ops2_arg9 (W : Valuation τ sig (Elt F)) : StableHlo.after main_part10_ops2 W (Proc.devRef .tc main_arg9) = W (Proc.devRef .tc main_arg9) := keep_main_part10_ops2 W main_arg9 (by decide)
theorem keep_main_part10_ops2_arg10 (W : Valuation τ sig (Elt F)) : StableHlo.after main_part10_ops2 W (Proc.devRef .tc main_arg10) = W (Proc.devRef .tc main_arg10) := keep_main_part10_ops2 W main_arg10 (by decide)
theorem keep_main_part10_ops2_arg11 (W : Valuation τ sig (Elt F)) : StableHlo.after main_part10_ops2 W (Proc.devRef .tc main_arg11) = W (Proc.devRef .tc main_arg11) := keep_main_part10_ops2 W main_arg11 (by decide)
theorem keep_main_part10_ops2_arg12 (W : Valuation τ sig (Elt F)) : StableHlo.after main_part10_ops2 W (Proc.devRef .tc main_arg12) = W (Proc.devRef .tc main_arg12) := keep_main_part10_ops2 W main_arg12 (by decide)
theorem keep_main_part10_ops2_arg13 (W : Valuation τ sig (Elt F)) : StableHlo.after main_part10_ops2 W (Proc.devRef .tc main_arg13) = W (Proc.devRef .tc main_arg13) := keep_main_part10_ops2 W main_arg13 (by decide)
theorem keep_main_part10_ops2_arg14 (W : Valuation τ sig (Elt F)) : StableHlo.after main_part10_ops2 W (Proc.devRef .tc main_arg14) = W (Proc.devRef .tc main_arg14) := keep_main_part10_ops2 W main_arg14 (by decide)
theorem keep_main_part10_ops2_arg15 (W : Valuation τ sig (Elt F)) : StableHlo.after main_part10_ops2 W (Proc.devRef .tc main_arg15) = W (Proc.devRef .tc main_arg15) := keep_main_part10_ops2 W main_arg15 (by decide)
theorem keep_main_part10_ops2_arg16 (W : Valuation τ sig (Elt F)) : StableHlo.after main_part10_ops2 W (Proc.devRef .tc main_arg16) = W (Proc.devRef .tc main_arg16) := keep_main_part10_ops2 W main_arg16 (by decide)
theorem keep_main_part10_ops2_arg17 (W : Valuation τ sig (Elt F)) : StableHlo.after main_part10_ops2 W (Proc.devRef .tc main_arg17) = W (Proc.devRef .tc main_arg17) := keep_main_part10_ops2 W main_arg17 (by decide)
theorem keep_main_part10_ops2_arg18 (W : Valuation τ sig (Elt F)) : StableHlo.after main_part10_ops2 W (Proc.devRef .tc main_arg18) = W (Proc.devRef .tc main_arg18) := keep_main_part10_ops2 W main_arg18 (by decide)
theorem keep_main_part10_ops2_arg19 (W : Valuation τ sig (Elt F)) : StableHlo.after main_part10_ops2 W (Proc.devRef .tc main_arg19) = W (Proc.devRef .tc main_arg19) := keep_main_part10_ops2 W main_arg19 (by decide)
theorem keep_main_part10_ops2_arg20 (W : Valuation τ sig (Elt F)) : StableHlo.after main_part10_ops2 W (Proc.devRef .tc main_arg20) = W (Proc.devRef .tc main_arg20) := keep_main_part10_ops2 W main_arg20 (by decide)
theorem keep_main_part10_ops2_arg21 (W : Valuation τ sig (Elt F)) : StableHlo.after main_part10_ops2 W (Proc.devRef .tc main_arg21) = W (Proc.devRef .tc main_arg21) := keep_main_part10_ops2 W main_arg21 (by decide)
theorem keep_main_part10_ops2_arg22 (W : Valuation τ sig (Elt F)) : StableHlo.after main_part10_ops2 W (Proc.devRef .tc main_arg22) = W (Proc.devRef .tc main_arg22) := keep_main_part10_ops2 W main_arg22 (by decide)
theorem keep_main_part10_ops3_arg0 (W : Valuation τ sig (Elt F)) : StableHlo.after main_part10_ops3 W (Proc.devRef .tc main_arg0) = W (Proc.devRef .tc main_arg0) := keep_main_part10_ops3 W main_arg0 (by decide)
theorem keep_main_part10_ops3_arg1 (W : Valuation τ sig (Elt F)) : StableHlo.after main_part10_ops3 W (Proc.devRef .tc main_arg1) = W (Proc.devRef .tc main_arg1) := keep_main_part10_ops3 W main_arg1 (by decide)
theorem keep_main_part10_ops3_arg2 (W : Valuation τ sig (Elt F)) : StableHlo.after main_part10_ops3 W (Proc.devRef .tc main_arg2) = W (Proc.devRef .tc main_arg2) := keep_main_part10_ops3 W main_arg2 (by decide)
theorem keep_main_part10_ops3_arg3 (W : Valuation τ sig (Elt F)) : StableHlo.after main_part10_ops3 W (Proc.devRef .tc main_arg3) = W (Proc.devRef .tc main_arg3) := keep_main_part10_ops3 W main_arg3 (by decide)
theorem keep_main_part10_ops3_arg4 (W : Valuation τ sig (Elt F)) : StableHlo.after main_part10_ops3 W (Proc.devRef .tc main_arg4) = W (Proc.devRef .tc main_arg4) := keep_main_part10_ops3 W main_arg4 (by decide)
theorem keep_main_part10_ops3_arg5 (W : Valuation τ sig (Elt F)) : StableHlo.after main_part10_ops3 W (Proc.devRef .tc main_arg5) = W (Proc.devRef .tc main_arg5) := keep_main_part10_ops3 W main_arg5 (by decide)
theorem keep_main_part10_ops3_arg6 (W : Valuation τ sig (Elt F)) : StableHlo.after main_part10_ops3 W (Proc.devRef .tc main_arg6) = W (Proc.devRef .tc main_arg6) := keep_main_part10_ops3 W main_arg6 (by decide)
theorem keep_main_part10_ops3_arg7 (W : Valuation τ sig (Elt F)) : StableHlo.after main_part10_ops3 W (Proc.devRef .tc main_arg7) = W (Proc.devRef .tc main_arg7) := keep_main_part10_ops3 W main_arg7 (by decide)
theorem keep_main_part10_ops3_arg8 (W : Valuation τ sig (Elt F)) : StableHlo.after main_part10_ops3 W (Proc.devRef .tc main_arg8) = W (Proc.devRef .tc main_arg8) := keep_main_part10_ops3 W main_arg8 (by decide)
theorem keep_main_part10_ops3_arg9 (W : Valuation τ sig (Elt F)) : StableHlo.after main_part10_ops3 W (Proc.devRef .tc main_arg9) = W (Proc.devRef .tc main_arg9) := keep_main_part10_ops3 W main_arg9 (by decide)
theorem keep_main_part10_ops3_arg10 (W : Valuation τ sig (Elt F)) : StableHlo.after main_part10_ops3 W (Proc.devRef .tc main_arg10) = W (Proc.devRef .tc main_arg10) := keep_main_part10_ops3 W main_arg10 (by decide)
theorem keep_main_part10_ops3_arg11 (W : Valuation τ sig (Elt F)) : StableHlo.after main_part10_ops3 W (Proc.devRef .tc main_arg11) = W (Proc.devRef .tc main_arg11) := keep_main_part10_ops3 W main_arg11 (by decide)
theorem keep_main_part10_ops3_arg12 (W : Valuation τ sig (Elt F)) : StableHlo.after main_part10_ops3 W (Proc.devRef .tc main_arg12) = W (Proc.devRef .tc main_arg12) := keep_main_part10_ops3 W main_arg12 (by decide)
theorem keep_main_part10_ops3_arg13 (W : Valuation τ sig (Elt F)) : StableHlo.after main_part10_ops3 W (Proc.devRef .tc main_arg13) = W (Proc.devRef .tc main_arg13) := keep_main_part10_ops3 W main_arg13 (by decide)
theorem keep_main_part10_ops3_arg14 (W : Valuation τ sig (Elt F)) : StableHlo.after main_part10_ops3 W (Proc.devRef .tc main_arg14) = W (Proc.devRef .tc main_arg14) := keep_main_part10_ops3 W main_arg14 (by decide)
theorem keep_main_part10_ops3_arg15 (W : Valuation τ sig (Elt F)) : StableHlo.after main_part10_ops3 W (Proc.devRef .tc main_arg15) = W (Proc.devRef .tc main_arg15) := keep_main_part10_ops3 W main_arg15 (by decide)
theorem keep_main_part10_ops3_arg16 (W : Valuation τ sig (Elt F)) : StableHlo.after main_part10_ops3 W (Proc.devRef .tc main_arg16) = W (Proc.devRef .tc main_arg16) := keep_main_part10_ops3 W main_arg16 (by decide)
theorem keep_main_part10_ops3_arg17 (W : Valuation τ sig (Elt F)) : StableHlo.after main_part10_ops3 W (Proc.devRef .tc main_arg17) = W (Proc.devRef .tc main_arg17) := keep_main_part10_ops3 W main_arg17 (by decide)
theorem keep_main_part10_ops3_arg18 (W : Valuation τ sig (Elt F)) : StableHlo.after main_part10_ops3 W (Proc.devRef .tc main_arg18) = W (Proc.devRef .tc main_arg18) := keep_main_part10_ops3 W main_arg18 (by decide)
theorem keep_main_part10_ops3_arg19 (W : Valuation τ sig (Elt F)) : StableHlo.after main_part10_ops3 W (Proc.devRef .tc main_arg19) = W (Proc.devRef .tc main_arg19) := keep_main_part10_ops3 W main_arg19 (by decide)
theorem keep_main_part10_ops3_arg20 (W : Valuation τ sig (Elt F)) : StableHlo.after main_part10_ops3 W (Proc.devRef .tc main_arg20) = W (Proc.devRef .tc main_arg20) := keep_main_part10_ops3 W main_arg20 (by decide)
theorem keep_main_part10_ops3_arg21 (W : Valuation τ sig (Elt F)) : StableHlo.after main_part10_ops3 W (Proc.devRef .tc main_arg21) = W (Proc.devRef .tc main_arg21) := keep_main_part10_ops3 W main_arg21 (by decide)
theorem keep_main_part10_ops3_arg22 (W : Valuation τ sig (Elt F)) : StableHlo.after main_part10_ops3 W (Proc.devRef .tc main_arg22) = W (Proc.devRef .tc main_arg22) := keep_main_part10_ops3 W main_arg22 (by decide)
theorem keep_main_part10_ops4_arg0 (W : Valuation τ sig (Elt F)) : StableHlo.after main_part10_ops4 W (Proc.devRef .tc main_arg0) = W (Proc.devRef .tc main_arg0) := keep_main_part10_ops4 W main_arg0 (by decide)
theorem keep_main_part10_ops4_arg1 (W : Valuation τ sig (Elt F)) : StableHlo.after main_part10_ops4 W (Proc.devRef .tc main_arg1) = W (Proc.devRef .tc main_arg1) := keep_main_part10_ops4 W main_arg1 (by decide)
theorem keep_main_part10_ops4_arg2 (W : Valuation τ sig (Elt F)) : StableHlo.after main_part10_ops4 W (Proc.devRef .tc main_arg2) = W (Proc.devRef .tc main_arg2) := keep_main_part10_ops4 W main_arg2 (by decide)
theorem keep_main_part10_ops4_arg3 (W : Valuation τ sig (Elt F)) : StableHlo.after main_part10_ops4 W (Proc.devRef .tc main_arg3) = W (Proc.devRef .tc main_arg3) := keep_main_part10_ops4 W main_arg3 (by decide)
theorem keep_main_part10_ops4_arg4 (W : Valuation τ sig (Elt F)) : StableHlo.after main_part10_ops4 W (Proc.devRef .tc main_arg4) = W (Proc.devRef .tc main_arg4) := keep_main_part10_ops4 W main_arg4 (by decide)
theorem keep_main_part10_ops4_arg5 (W : Valuation τ sig (Elt F)) : StableHlo.after main_part10_ops4 W (Proc.devRef .tc main_arg5) = W (Proc.devRef .tc main_arg5) := keep_main_part10_ops4 W main_arg5 (by decide)
theorem keep_main_part10_ops4_arg6 (W : Valuation τ sig (Elt F)) : StableHlo.after main_part10_ops4 W (Proc.devRef .tc main_arg6) = W (Proc.devRef .tc main_arg6) := keep_main_part10_ops4 W main_arg6 (by decide)
theorem keep_main_part10_ops4_arg7 (W : Valuation τ sig (Elt F)) : StableHlo.after main_part10_ops4 W (Proc.devRef .tc main_arg7) = W (Proc.devRef .tc main_arg7) := keep_main_part10_ops4 W main_arg7 (by decide)
theorem keep_main_part10_ops4_arg8 (W : Valuation τ sig (Elt F)) : StableHlo.after main_part10_ops4 W (Proc.devRef .tc main_arg8) = W (Proc.devRef .tc main_arg8) := keep_main_part10_ops4 W main_arg8 (by decide)
theorem keep_main_part10_ops4_arg9 (W : Valuation τ sig (Elt F)) : StableHlo.after main_part10_ops4 W (Proc.devRef .tc main_arg9) = W (Proc.devRef .tc main_arg9) := keep_main_part10_ops4 W main_arg9 (by decide)
theorem keep_main_part10_ops4_arg10 (W : Valuation τ sig (Elt F)) : StableHlo.after main_part10_ops4 W (Proc.devRef .tc main_arg10) = W (Proc.devRef .tc main_arg10) := keep_main_part10_ops4 W main_arg10 (by decide)
theorem keep_main_part10_ops4_arg11 (W : Valuation τ sig (Elt F)) : StableHlo.after main_part10_ops4 W (Proc.devRef .tc main_arg11) = W (Proc.devRef .tc main_arg11) := keep_main_part10_ops4 W main_arg11 (by decide)
theorem keep_main_part10_ops4_arg12 (W : Valuation τ sig (Elt F)) : StableHlo.after main_part10_ops4 W (Proc.devRef .tc main_arg12) = W (Proc.devRef .tc main_arg12) := keep_main_part10_ops4 W main_arg12 (by decide)
theorem keep_main_part10_ops4_arg13 (W : Valuation τ sig (Elt F)) : StableHlo.after main_part10_ops4 W (Proc.devRef .tc main_arg13) = W (Proc.devRef .tc main_arg13) := keep_main_part10_ops4 W main_arg13 (by decide)
theorem keep_main_part10_ops4_arg14 (W : Valuation τ sig (Elt F)) : StableHlo.after main_part10_ops4 W (Proc.devRef .tc main_arg14) = W (Proc.devRef .tc main_arg14) := keep_main_part10_ops4 W main_arg14 (by decide)
theorem keep_main_part10_ops4_arg15 (W : Valuation τ sig (Elt F)) : StableHlo.after main_part10_ops4 W (Proc.devRef .tc main_arg15) = W (Proc.devRef .tc main_arg15) := keep_main_part10_ops4 W main_arg15 (by decide)
theorem keep_main_part10_ops4_arg16 (W : Valuation τ sig (Elt F)) : StableHlo.after main_part10_ops4 W (Proc.devRef .tc main_arg16) = W (Proc.devRef .tc main_arg16) := keep_main_part10_ops4 W main_arg16 (by decide)
theorem keep_main_part10_ops4_arg17 (W : Valuation τ sig (Elt F)) : StableHlo.after main_part10_ops4 W (Proc.devRef .tc main_arg17) = W (Proc.devRef .tc main_arg17) := keep_main_part10_ops4 W main_arg17 (by decide)
theorem keep_main_part10_ops4_arg18 (W : Valuation τ sig (Elt F)) : StableHlo.after main_part10_ops4 W (Proc.devRef .tc main_arg18) = W (Proc.devRef .tc main_arg18) := keep_main_part10_ops4 W main_arg18 (by decide)
theorem keep_main_part10_ops4_arg19 (W : Valuation τ sig (Elt F)) : StableHlo.after main_part10_ops4 W (Proc.devRef .tc main_arg19) = W (Proc.devRef .tc main_arg19) := keep_main_part10_ops4 W main_arg19 (by decide)
theorem keep_main_part10_ops4_arg20 (W : Valuation τ sig (Elt F)) : StableHlo.after main_part10_ops4 W (Proc.devRef .tc main_arg20) = W (Proc.devRef .tc main_arg20) := keep_main_part10_ops4 W main_arg20 (by decide)
theorem keep_main_part10_ops4_arg21 (W : Valuation τ sig (Elt F)) : StableHlo.after main_part10_ops4 W (Proc.devRef .tc main_arg21) = W (Proc.devRef .tc main_arg21) := keep_main_part10_ops4 W main_arg21 (by decide)
theorem keep_main_part10_ops4_arg22 (W : Valuation τ sig (Elt F)) : StableHlo.after main_part10_ops4 W (Proc.devRef .tc main_arg22) = W (Proc.devRef .tc main_arg22) := keep_main_part10_ops4 W main_arg22 (by decide)
theorem keep_main_part11_ops0_arg0 (W : Valuation τ sig (Elt F)) : StableHlo.after main_part11_ops0 W (Proc.devRef .tc main_arg0) = W (Proc.devRef .tc main_arg0) := keep_main_part11_ops0 W main_arg0 (by decide)
theorem keep_main_part11_ops0_arg1 (W : Valuation τ sig (Elt F)) : StableHlo.after main_part11_ops0 W (Proc.devRef .tc main_arg1) = W (Proc.devRef .tc main_arg1) := keep_main_part11_ops0 W main_arg1 (by decide)
theorem keep_main_part11_ops0_arg2 (W : Valuation τ sig (Elt F)) : StableHlo.after main_part11_ops0 W (Proc.devRef .tc main_arg2) = W (Proc.devRef .tc main_arg2) := keep_main_part11_ops0 W main_arg2 (by decide)
theorem keep_main_part11_ops0_arg3 (W : Valuation τ sig (Elt F)) : StableHlo.after main_part11_ops0 W (Proc.devRef .tc main_arg3) = W (Proc.devRef .tc main_arg3) := keep_main_part11_ops0 W main_arg3 (by decide)
theorem keep_main_part11_ops0_arg4 (W : Valuation τ sig (Elt F)) : StableHlo.after main_part11_ops0 W (Proc.devRef .tc main_arg4) = W (Proc.devRef .tc main_arg4) := keep_main_part11_ops0 W main_arg4 (by decide)
theorem keep_main_part11_ops0_arg5 (W : Valuation τ sig (Elt F)) : StableHlo.after main_part11_ops0 W (Proc.devRef .tc main_arg5) = W (Proc.devRef .tc main_arg5) := keep_main_part11_ops0 W main_arg5 (by decide)
theorem keep_main_part11_ops0_arg6 (W : Valuation τ sig (Elt F)) : StableHlo.after main_part11_ops0 W (Proc.devRef .tc main_arg6) = W (Proc.devRef .tc main_arg6) := keep_main_part11_ops0 W main_arg6 (by decide)
theorem keep_main_part11_ops0_arg7 (W : Valuation τ sig (Elt F)) : StableHlo.after main_part11_ops0 W (Proc.devRef .tc main_arg7) = W (Proc.devRef .tc main_arg7) := keep_main_part11_ops0 W main_arg7 (by decide)
theorem keep_main_part11_ops0_arg8 (W : Valuation τ sig (Elt F)) : StableHlo.after main_part11_ops0 W (Proc.devRef .tc main_arg8) = W (Proc.devRef .tc main_arg8) := keep_main_part11_ops0 W main_arg8 (by decide)
theorem keep_main_part11_ops0_arg9 (W : Valuation τ sig (Elt F)) : StableHlo.after main_part11_ops0 W (Proc.devRef .tc main_arg9) = W (Proc.devRef .tc main_arg9) := keep_main_part11_ops0 W main_arg9 (by decide)
theorem keep_main_part11_ops0_arg10 (W : Valuation τ sig (Elt F)) : StableHlo.after main_part11_ops0 W (Proc.devRef .tc main_arg10) = W (Proc.devRef .tc main_arg10) := keep_main_part11_ops0 W main_arg10 (by decide)
theorem keep_main_part11_ops0_arg11 (W : Valuation τ sig (Elt F)) : StableHlo.after main_part11_ops0 W (Proc.devRef .tc main_arg11) = W (Proc.devRef .tc main_arg11) := keep_main_part11_ops0 W main_arg11 (by decide)
theorem keep_main_part11_ops0_arg12 (W : Valuation τ sig (Elt F)) : StableHlo.after main_part11_ops0 W (Proc.devRef .tc main_arg12) = W (Proc.devRef .tc main_arg12) := keep_main_part11_ops0 W main_arg12 (by decide)
theorem keep_main_part11_ops0_arg13 (W : Valuation τ sig (Elt F)) : StableHlo.after main_part11_ops0 W (Proc.devRef .tc main_arg13) = W (Proc.devRef .tc main_arg13) := keep_main_part11_ops0 W main_arg13 (by decide)
theorem keep_main_part11_ops0_arg14 (W : Valuation τ sig (Elt F)) : StableHlo.after main_part11_ops0 W (Proc.devRef .tc main_arg14) = W (Proc.devRef .tc main_arg14) := keep_main_part11_ops0 W main_arg14 (by decide)
theorem keep_main_part11_ops0_arg15 (W : Valuation τ sig (Elt F)) : StableHlo.after main_part11_ops0 W (Proc.devRef .tc main_arg15) = W (Proc.devRef .tc main_arg15) := keep_main_part11_ops0 W main_arg15 (by decide)
theorem keep_main_part11_ops0_arg16 (W : Valuation τ sig (Elt F)) : StableHlo.after main_part11_ops0 W (Proc.devRef .tc main_arg16) = W (Proc.devRef .tc main_arg16) := keep_main_part11_ops0 W main_arg16 (by decide)
theorem keep_main_part11_ops0_arg17 (W : Valuation τ sig (Elt F)) : StableHlo.after main_part11_ops0 W (Proc.devRef .tc main_arg17) = W (Proc.devRef .tc main_arg17) := keep_main_part11_ops0 W main_arg17 (by decide)
theorem keep_main_part11_ops0_arg18 (W : Valuation τ sig (Elt F)) : StableHlo.after main_part11_ops0 W (Proc.devRef .tc main_arg18) = W (Proc.devRef .tc main_arg18) := keep_main_part11_ops0 W main_arg18 (by decide)
theorem keep_main_part11_ops0_arg19 (W : Valuation τ sig (Elt F)) : StableHlo.after main_part11_ops0 W (Proc.devRef .tc main_arg19) = W (Proc.devRef .tc main_arg19) := keep_main_part11_ops0 W main_arg19 (by decide)
theorem keep_main_part11_ops0_arg20 (W : Valuation τ sig (Elt F)) : StableHlo.after main_part11_ops0 W (Proc.devRef .tc main_arg20) = W (Proc.devRef .tc main_arg20) := keep_main_part11_ops0 W main_arg20 (by decide)
theorem keep_main_part11_ops0_arg21 (W : Valuation τ sig (Elt F)) : StableHlo.after main_part11_ops0 W (Proc.devRef .tc main_arg21) = W (Proc.devRef .tc main_arg21) := keep_main_part11_ops0 W main_arg21 (by decide)
theorem keep_main_part11_ops0_arg22 (W : Valuation τ sig (Elt F)) : StableHlo.after main_part11_ops0 W (Proc.devRef .tc main_arg22) = W (Proc.devRef .tc main_arg22) := keep_main_part11_ops0 W main_arg22 (by decide)
theorem keep_main_part12_ops0_arg0 (W : Valuation τ sig (Elt F)) : StableHlo.after main_part12_ops0 W (Proc.devRef .tc main_arg0) = W (Proc.devRef .tc main_arg0) := keep_main_part12_ops0 W main_arg0 (by decide)
theorem keep_main_part12_ops0_arg1 (W : Valuation τ sig (Elt F)) : StableHlo.after main_part12_ops0 W (Proc.devRef .tc main_arg1) = W (Proc.devRef .tc main_arg1) := keep_main_part12_ops0 W main_arg1 (by decide)
theorem keep_main_part12_ops0_arg2 (W : Valuation τ sig (Elt F)) : StableHlo.after main_part12_ops0 W (Proc.devRef .tc main_arg2) = W (Proc.devRef .tc main_arg2) := keep_main_part12_ops0 W main_arg2 (by decide)
theorem keep_main_part12_ops0_arg3 (W : Valuation τ sig (Elt F)) : StableHlo.after main_part12_ops0 W (Proc.devRef .tc main_arg3) = W (Proc.devRef .tc main_arg3) := keep_main_part12_ops0 W main_arg3 (by decide)
theorem keep_main_part12_ops0_arg4 (W : Valuation τ sig (Elt F)) : StableHlo.after main_part12_ops0 W (Proc.devRef .tc main_arg4) = W (Proc.devRef .tc main_arg4) := keep_main_part12_ops0 W main_arg4 (by decide)
theorem keep_main_part12_ops0_arg5 (W : Valuation τ sig (Elt F)) : StableHlo.after main_part12_ops0 W (Proc.devRef .tc main_arg5) = W (Proc.devRef .tc main_arg5) := keep_main_part12_ops0 W main_arg5 (by decide)
theorem keep_main_part12_ops0_arg6 (W : Valuation τ sig (Elt F)) : StableHlo.after main_part12_ops0 W (Proc.devRef .tc main_arg6) = W (Proc.devRef .tc main_arg6) := keep_main_part12_ops0 W main_arg6 (by decide)
theorem keep_main_part12_ops0_arg7 (W : Valuation τ sig (Elt F)) : StableHlo.after main_part12_ops0 W (Proc.devRef .tc main_arg7) = W (Proc.devRef .tc main_arg7) := keep_main_part12_ops0 W main_arg7 (by decide)
theorem keep_main_part12_ops0_arg8 (W : Valuation τ sig (Elt F)) : StableHlo.after main_part12_ops0 W (Proc.devRef .tc main_arg8) = W (Proc.devRef .tc main_arg8) := keep_main_part12_ops0 W main_arg8 (by decide)
theorem keep_main_part12_ops0_arg9 (W : Valuation τ sig (Elt F)) : StableHlo.after main_part12_ops0 W (Proc.devRef .tc main_arg9) = W (Proc.devRef .tc main_arg9) := keep_main_part12_ops0 W main_arg9 (by decide)
theorem keep_main_part12_ops0_arg10 (W : Valuation τ sig (Elt F)) : StableHlo.after main_part12_ops0 W (Proc.devRef .tc main_arg10) = W (Proc.devRef .tc main_arg10) := keep_main_part12_ops0 W main_arg10 (by decide)
theorem keep_main_part12_ops0_arg11 (W : Valuation τ sig (Elt F)) : StableHlo.after main_part12_ops0 W (Proc.devRef .tc main_arg11) = W (Proc.devRef .tc main_arg11) := keep_main_part12_ops0 W main_arg11 (by decide)
theorem keep_main_part12_ops0_arg12 (W : Valuation τ sig (Elt F)) : StableHlo.after main_part12_ops0 W (Proc.devRef .tc main_arg12) = W (Proc.devRef .tc main_arg12) := keep_main_part12_ops0 W main_arg12 (by decide)
theorem keep_main_part12_ops0_arg13 (W : Valuation τ sig (Elt F)) : StableHlo.after main_part12_ops0 W (Proc.devRef .tc main_arg13) = W (Proc.devRef .tc main_arg13) := keep_main_part12_ops0 W main_arg13 (by decide)
theorem keep_main_part12_ops0_arg14 (W : Valuation τ sig (Elt F)) : StableHlo.after main_part12_ops0 W (Proc.devRef .tc main_arg14) = W (Proc.devRef .tc main_arg14) := keep_main_part12_ops0 W main_arg14 (by decide)
theorem keep_main_part12_ops0_arg15 (W : Valuation τ sig (Elt F)) : StableHlo.after main_part12_ops0 W (Proc.devRef .tc main_arg15) = W (Proc.devRef .tc main_arg15) := keep_main_part12_ops0 W main_arg15 (by decide)
theorem keep_main_part12_ops0_arg16 (W : Valuation τ sig (Elt F)) : StableHlo.after main_part12_ops0 W (Proc.devRef .tc main_arg16) = W (Proc.devRef .tc main_arg16) := keep_main_part12_ops0 W main_arg16 (by decide)
theorem keep_main_part12_ops0_arg17 (W : Valuation τ sig (Elt F)) : StableHlo.after main_part12_ops0 W (Proc.devRef .tc main_arg17) = W (Proc.devRef .tc main_arg17) := keep_main_part12_ops0 W main_arg17 (by decide)
theorem keep_main_part12_ops0_arg18 (W : Valuation τ sig (Elt F)) : StableHlo.after main_part12_ops0 W (Proc.devRef .tc main_arg18) = W (Proc.devRef .tc main_arg18) := keep_main_part12_ops0 W main_arg18 (by decide)
theorem keep_main_part12_ops0_arg19 (W : Valuation τ sig (Elt F)) : StableHlo.after main_part12_ops0 W (Proc.devRef .tc main_arg19) = W (Proc.devRef .tc main_arg19) := keep_main_part12_ops0 W main_arg19 (by decide)
theorem keep_main_part12_ops0_arg20 (W : Valuation τ sig (Elt F)) : StableHlo.after main_part12_ops0 W (Proc.devRef .tc main_arg20) = W (Proc.devRef .tc main_arg20) := keep_main_part12_ops0 W main_arg20 (by decide)
theorem keep_main_part12_ops0_arg21 (W : Valuation τ sig (Elt F)) : StableHlo.after main_part12_ops0 W (Proc.devRef .tc main_arg21) = W (Proc.devRef .tc main_arg21) := keep_main_part12_ops0 W main_arg21 (by decide)
theorem keep_main_part12_ops0_arg22 (W : Valuation τ sig (Elt F)) : StableHlo.after main_part12_ops0 W (Proc.devRef .tc main_arg22) = W (Proc.devRef .tc main_arg22) := keep_main_part12_ops0 W main_arg22 (by decide)
theorem keep_main_part13_ops0_arg0 (W : Valuation τ sig (Elt F)) : StableHlo.after main_part13_ops0 W (Proc.devRef .tc main_arg0) = W (Proc.devRef .tc main_arg0) := keep_main_part13_ops0 W main_arg0 (by decide)
theorem keep_main_part13_ops0_arg1 (W : Valuation τ sig (Elt F)) : StableHlo.after main_part13_ops0 W (Proc.devRef .tc main_arg1) = W (Proc.devRef .tc main_arg1) := keep_main_part13_ops0 W main_arg1 (by decide)
theorem keep_main_part13_ops0_arg2 (W : Valuation τ sig (Elt F)) : StableHlo.after main_part13_ops0 W (Proc.devRef .tc main_arg2) = W (Proc.devRef .tc main_arg2) := keep_main_part13_ops0 W main_arg2 (by decide)
theorem keep_main_part13_ops0_arg3 (W : Valuation τ sig (Elt F)) : StableHlo.after main_part13_ops0 W (Proc.devRef .tc main_arg3) = W (Proc.devRef .tc main_arg3) := keep_main_part13_ops0 W main_arg3 (by decide)
theorem keep_main_part13_ops0_arg4 (W : Valuation τ sig (Elt F)) : StableHlo.after main_part13_ops0 W (Proc.devRef .tc main_arg4) = W (Proc.devRef .tc main_arg4) := keep_main_part13_ops0 W main_arg4 (by decide)
theorem keep_main_part13_ops0_arg5 (W : Valuation τ sig (Elt F)) : StableHlo.after main_part13_ops0 W (Proc.devRef .tc main_arg5) = W (Proc.devRef .tc main_arg5) := keep_main_part13_ops0 W main_arg5 (by decide)
theorem keep_main_part13_ops0_arg6 (W : Valuation τ sig (Elt F)) : StableHlo.after main_part13_ops0 W (Proc.devRef .tc main_arg6) = W (Proc.devRef .tc main_arg6) := keep_main_part13_ops0 W main_arg6 (by decide)
theorem keep_main_part13_ops0_arg7 (W : Valuation τ sig (Elt F)) : StableHlo.after main_part13_ops0 W (Proc.devRef .tc main_arg7) = W (Proc.devRef .tc main_arg7) := keep_main_part13_ops0 W main_arg7 (by decide)
theorem keep_main_part13_ops0_arg8 (W : Valuation τ sig (Elt F)) : StableHlo.after main_part13_ops0 W (Proc.devRef .tc main_arg8) = W (Proc.devRef .tc main_arg8) := keep_main_part13_ops0 W main_arg8 (by decide)
theorem keep_main_part13_ops0_arg9 (W : Valuation τ sig (Elt F)) : StableHlo.after main_part13_ops0 W (Proc.devRef .tc main_arg9) = W (Proc.devRef .tc main_arg9) := keep_main_part13_ops0 W main_arg9 (by decide)
theorem keep_main_part13_ops0_arg10 (W : Valuation τ sig (Elt F)) : StableHlo.after main_part13_ops0 W (Proc.devRef .tc main_arg10) = W (Proc.devRef .tc main_arg10) := keep_main_part13_ops0 W main_arg10 (by decide)
theorem keep_main_part13_ops0_arg11 (W : Valuation τ sig (Elt F)) : StableHlo.after main_part13_ops0 W (Proc.devRef .tc main_arg11) = W (Proc.devRef .tc main_arg11) := keep_main_part13_ops0 W main_arg11 (by decide)
theorem keep_main_part13_ops0_arg12 (W : Valuation τ sig (Elt F)) : StableHlo.after main_part13_ops0 W (Proc.devRef .tc main_arg12) = W (Proc.devRef .tc main_arg12) := keep_main_part13_ops0 W main_arg12 (by decide)
theorem keep_main_part13_ops0_arg13 (W : Valuation τ sig (Elt F)) : StableHlo.after main_part13_ops0 W (Proc.devRef .tc main_arg13) = W (Proc.devRef .tc main_arg13) := keep_main_part13_ops0 W main_arg13 (by decide)
theorem keep_main_part13_ops0_arg14 (W : Valuation τ sig (Elt F)) : StableHlo.after main_part13_ops0 W (Proc.devRef .tc main_arg14) = W (Proc.devRef .tc main_arg14) := keep_main_part13_ops0 W main_arg14 (by decide)
theorem keep_main_part13_ops0_arg15 (W : Valuation τ sig (Elt F)) : StableHlo.after main_part13_ops0 W (Proc.devRef .tc main_arg15) = W (Proc.devRef .tc main_arg15) := keep_main_part13_ops0 W main_arg15 (by decide)
theorem keep_main_part13_ops0_arg16 (W : Valuation τ sig (Elt F)) : StableHlo.after main_part13_ops0 W (Proc.devRef .tc main_arg16) = W (Proc.devRef .tc main_arg16) := keep_main_part13_ops0 W main_arg16 (by decide)
theorem keep_main_part13_ops0_arg17 (W : Valuation τ sig (Elt F)) : StableHlo.after main_part13_ops0 W (Proc.devRef .tc main_arg17) = W (Proc.devRef .tc main_arg17) := keep_main_part13_ops0 W main_arg17 (by decide)
theorem keep_main_part13_ops0_arg18 (W : Valuation τ sig (Elt F)) : StableHlo.after main_part13_ops0 W (Proc.devRef .tc main_arg18) = W (Proc.devRef .tc main_arg18) := keep_main_part13_ops0 W main_arg18 (by decide)
theorem keep_main_part13_ops0_arg19 (W : Valuation τ sig (Elt F)) : StableHlo.after main_part13_ops0 W (Proc.devRef .tc main_arg19) = W (Proc.devRef .tc main_arg19) := keep_main_part13_ops0 W main_arg19 (by decide)
theorem keep_main_part13_ops0_arg20 (W : Valuation τ sig (Elt F)) : StableHlo.after main_part13_ops0 W (Proc.devRef .tc main_arg20) = W (Proc.devRef .tc main_arg20) := keep_main_part13_ops0 W main_arg20 (by decide)
theorem keep_main_part13_ops0_arg21 (W : Valuation τ sig (Elt F)) : StableHlo.after main_part13_ops0 W (Proc.devRef .tc main_arg21) = W (Proc.devRef .tc main_arg21) := keep_main_part13_ops0 W main_arg21 (by decide)
theorem keep_main_part13_ops0_arg22 (W : Valuation τ sig (Elt F)) : StableHlo.after main_part13_ops0 W (Proc.devRef .tc main_arg22) = W (Proc.devRef .tc main_arg22) := keep_main_part13_ops0 W main_arg22 (by decide)
theorem keep_main_part14_ops0_arg0 (W : Valuation τ sig (Elt F)) : StableHlo.after main_part14_ops0 W (Proc.devRef .tc main_arg0) = W (Proc.devRef .tc main_arg0) := keep_main_part14_ops0 W main_arg0 (by decide)
theorem keep_main_part14_ops0_arg1 (W : Valuation τ sig (Elt F)) : StableHlo.after main_part14_ops0 W (Proc.devRef .tc main_arg1) = W (Proc.devRef .tc main_arg1) := keep_main_part14_ops0 W main_arg1 (by decide)
theorem keep_main_part14_ops0_arg2 (W : Valuation τ sig (Elt F)) : StableHlo.after main_part14_ops0 W (Proc.devRef .tc main_arg2) = W (Proc.devRef .tc main_arg2) := keep_main_part14_ops0 W main_arg2 (by decide)
theorem keep_main_part14_ops0_arg3 (W : Valuation τ sig (Elt F)) : StableHlo.after main_part14_ops0 W (Proc.devRef .tc main_arg3) = W (Proc.devRef .tc main_arg3) := keep_main_part14_ops0 W main_arg3 (by decide)
theorem keep_main_part14_ops0_arg4 (W : Valuation τ sig (Elt F)) : StableHlo.after main_part14_ops0 W (Proc.devRef .tc main_arg4) = W (Proc.devRef .tc main_arg4) := keep_main_part14_ops0 W main_arg4 (by decide)
theorem keep_main_part14_ops0_arg5 (W : Valuation τ sig (Elt F)) : StableHlo.after main_part14_ops0 W (Proc.devRef .tc main_arg5) = W (Proc.devRef .tc main_arg5) := keep_main_part14_ops0 W main_arg5 (by decide)
theorem keep_main_part14_ops0_arg6 (W : Valuation τ sig (Elt F)) : StableHlo.after main_part14_ops0 W (Proc.devRef .tc main_arg6) = W (Proc.devRef .tc main_arg6) := keep_main_part14_ops0 W main_arg6 (by decide)
theorem keep_main_part14_ops0_arg7 (W : Valuation τ sig (Elt F)) : StableHlo.after main_part14_ops0 W (Proc.devRef .tc main_arg7) = W (Proc.devRef .tc main_arg7) := keep_main_part14_ops0 W main_arg7 (by decide)
theorem keep_main_part14_ops0_arg8 (W : Valuation τ sig (Elt F)) : StableHlo.after main_part14_ops0 W (Proc.devRef .tc main_arg8) = W (Proc.devRef .tc main_arg8) := keep_main_part14_ops0 W main_arg8 (by decide)
theorem keep_main_part14_ops0_arg9 (W : Valuation τ sig (Elt F)) : StableHlo.after main_part14_ops0 W (Proc.devRef .tc main_arg9) = W (Proc.devRef .tc main_arg9) := keep_main_part14_ops0 W main_arg9 (by decide)
theorem keep_main_part14_ops0_arg10 (W : Valuation τ sig (Elt F)) : StableHlo.after main_part14_ops0 W (Proc.devRef .tc main_arg10) = W (Proc.devRef .tc main_arg10) := keep_main_part14_ops0 W main_arg10 (by decide)
theorem keep_main_part14_ops0_arg11 (W : Valuation τ sig (Elt F)) : StableHlo.after main_part14_ops0 W (Proc.devRef .tc main_arg11) = W (Proc.devRef .tc main_arg11) := keep_main_part14_ops0 W main_arg11 (by decide)
theorem keep_main_part14_ops0_arg12 (W : Valuation τ sig (Elt F)) : StableHlo.after main_part14_ops0 W (Proc.devRef .tc main_arg12) = W (Proc.devRef .tc main_arg12) := keep_main_part14_ops0 W main_arg12 (by decide)
theorem keep_main_part14_ops0_arg13 (W : Valuation τ sig (Elt F)) : StableHlo.after main_part14_ops0 W (Proc.devRef .tc main_arg13) = W (Proc.devRef .tc main_arg13) := keep_main_part14_ops0 W main_arg13 (by decide)
theorem keep_main_part14_ops0_arg14 (W : Valuation τ sig (Elt F)) : StableHlo.after main_part14_ops0 W (Proc.devRef .tc main_arg14) = W (Proc.devRef .tc main_arg14) := keep_main_part14_ops0 W main_arg14 (by decide)
theorem keep_main_part14_ops0_arg15 (W : Valuation τ sig (Elt F)) : StableHlo.after main_part14_ops0 W (Proc.devRef .tc main_arg15) = W (Proc.devRef .tc main_arg15) := keep_main_part14_ops0 W main_arg15 (by decide)
theorem keep_main_part14_ops0_arg16 (W : Valuation τ sig (Elt F)) : StableHlo.after main_part14_ops0 W (Proc.devRef .tc main_arg16) = W (Proc.devRef .tc main_arg16) := keep_main_part14_ops0 W main_arg16 (by decide)
theorem keep_main_part14_ops0_arg17 (W : Valuation τ sig (Elt F)) : StableHlo.after main_part14_ops0 W (Proc.devRef .tc main_arg17) = W (Proc.devRef .tc main_arg17) := keep_main_part14_ops0 W main_arg17 (by decide)
theorem keep_main_part14_ops0_arg18 (W : Valuation τ sig (Elt F)) : StableHlo.after main_part14_ops0 W (Proc.devRef .tc main_arg18) = W (Proc.devRef .tc main_arg18) := keep_main_part14_ops0 W main_arg18 (by decide)
theorem keep_main_part14_ops0_arg19 (W : Valuation τ sig (Elt F)) : StableHlo.after main_part14_ops0 W (Proc.devRef .tc main_arg19) = W (Proc.devRef .tc main_arg19) := keep_main_part14_ops0 W main_arg19 (by decide)
theorem keep_main_part14_ops0_arg20 (W : Valuation τ sig (Elt F)) : StableHlo.after main_part14_ops0 W (Proc.devRef .tc main_arg20) = W (Proc.devRef .tc main_arg20) := keep_main_part14_ops0 W main_arg20 (by decide)
theorem keep_main_part14_ops0_arg21 (W : Valuation τ sig (Elt F)) : StableHlo.after main_part14_ops0 W (Proc.devRef .tc main_arg21) = W (Proc.devRef .tc main_arg21) := keep_main_part14_ops0 W main_arg21 (by decide)
theorem keep_main_part14_ops0_arg22 (W : Valuation τ sig (Elt F)) : StableHlo.after main_part14_ops0 W (Proc.devRef .tc main_arg22) = W (Proc.devRef .tc main_arg22) := keep_main_part14_ops0 W main_arg22 (by decide)
theorem keep_main_part15_ops0_arg0 (W : Valuation τ sig (Elt F)) : StableHlo.after main_part15_ops0 W (Proc.devRef .tc main_arg0) = W (Proc.devRef .tc main_arg0) := keep_main_part15_ops0 W main_arg0 (by decide)
theorem keep_main_part15_ops0_arg1 (W : Valuation τ sig (Elt F)) : StableHlo.after main_part15_ops0 W (Proc.devRef .tc main_arg1) = W (Proc.devRef .tc main_arg1) := keep_main_part15_ops0 W main_arg1 (by decide)
theorem keep_main_part15_ops0_arg2 (W : Valuation τ sig (Elt F)) : StableHlo.after main_part15_ops0 W (Proc.devRef .tc main_arg2) = W (Proc.devRef .tc main_arg2) := keep_main_part15_ops0 W main_arg2 (by decide)
theorem keep_main_part15_ops0_arg3 (W : Valuation τ sig (Elt F)) : StableHlo.after main_part15_ops0 W (Proc.devRef .tc main_arg3) = W (Proc.devRef .tc main_arg3) := keep_main_part15_ops0 W main_arg3 (by decide)
theorem keep_main_part15_ops0_arg4 (W : Valuation τ sig (Elt F)) : StableHlo.after main_part15_ops0 W (Proc.devRef .tc main_arg4) = W (Proc.devRef .tc main_arg4) := keep_main_part15_ops0 W main_arg4 (by decide)
theorem keep_main_part15_ops0_arg5 (W : Valuation τ sig (Elt F)) : StableHlo.after main_part15_ops0 W (Proc.devRef .tc main_arg5) = W (Proc.devRef .tc main_arg5) := keep_main_part15_ops0 W main_arg5 (by decide)
theorem keep_main_part15_ops0_arg6 (W : Valuation τ sig (Elt F)) : StableHlo.after main_part15_ops0 W (Proc.devRef .tc main_arg6) = W (Proc.devRef .tc main_arg6) := keep_main_part15_ops0 W main_arg6 (by decide)
theorem keep_main_part15_ops0_arg7 (W : Valuation τ sig (Elt F)) : StableHlo.after main_part15_ops0 W (Proc.devRef .tc main_arg7) = W (Proc.devRef .tc main_arg7) := keep_main_part15_ops0 W main_arg7 (by decide)
theorem keep_main_part15_ops0_arg8 (W : Valuation τ sig (Elt F)) : StableHlo.after main_part15_ops0 W (Proc.devRef .tc main_arg8) = W (Proc.devRef .tc main_arg8) := keep_main_part15_ops0 W main_arg8 (by decide)
theorem keep_main_part15_ops0_arg9 (W : Valuation τ sig (Elt F)) : StableHlo.after main_part15_ops0 W (Proc.devRef .tc main_arg9) = W (Proc.devRef .tc main_arg9) := keep_main_part15_ops0 W main_arg9 (by decide)
theorem keep_main_part15_ops0_arg10 (W : Valuation τ sig (Elt F)) : StableHlo.after main_part15_ops0 W (Proc.devRef .tc main_arg10) = W (Proc.devRef .tc main_arg10) := keep_main_part15_ops0 W main_arg10 (by decide)
theorem keep_main_part15_ops0_arg11 (W : Valuation τ sig (Elt F)) : StableHlo.after main_part15_ops0 W (Proc.devRef .tc main_arg11) = W (Proc.devRef .tc main_arg11) := keep_main_part15_ops0 W main_arg11 (by decide)
theorem keep_main_part15_ops0_arg12 (W : Valuation τ sig (Elt F)) : StableHlo.after main_part15_ops0 W (Proc.devRef .tc main_arg12) = W (Proc.devRef .tc main_arg12) := keep_main_part15_ops0 W main_arg12 (by decide)
theorem keep_main_part15_ops0_arg13 (W : Valuation τ sig (Elt F)) : StableHlo.after main_part15_ops0 W (Proc.devRef .tc main_arg13) = W (Proc.devRef .tc main_arg13) := keep_main_part15_ops0 W main_arg13 (by decide)
theorem keep_main_part15_ops0_arg14 (W : Valuation τ sig (Elt F)) : StableHlo.after main_part15_ops0 W (Proc.devRef .tc main_arg14) = W (Proc.devRef .tc main_arg14) := keep_main_part15_ops0 W main_arg14 (by decide)
theorem keep_main_part15_ops0_arg15 (W : Valuation τ sig (Elt F)) : StableHlo.after main_part15_ops0 W (Proc.devRef .tc main_arg15) = W (Proc.devRef .tc main_arg15) := keep_main_part15_ops0 W main_arg15 (by decide)
theorem keep_main_part15_ops0_arg16 (W : Valuation τ sig (Elt F)) : StableHlo.after main_part15_ops0 W (Proc.devRef .tc main_arg16) = W (Proc.devRef .tc main_arg16) := keep_main_part15_ops0 W main_arg16 (by decide)
theorem keep_main_part15_ops0_arg17 (W : Valuation τ sig (Elt F)) : StableHlo.after main_part15_ops0 W (Proc.devRef .tc main_arg17) = W (Proc.devRef .tc main_arg17) := keep_main_part15_ops0 W main_arg17 (by decide)
theorem keep_main_part15_ops0_arg18 (W : Valuation τ sig (Elt F)) : StableHlo.after main_part15_ops0 W (Proc.devRef .tc main_arg18) = W (Proc.devRef .tc main_arg18) := keep_main_part15_ops0 W main_arg18 (by decide)
theorem keep_main_part15_ops0_arg19 (W : Valuation τ sig (Elt F)) : StableHlo.after main_part15_ops0 W (Proc.devRef .tc main_arg19) = W (Proc.devRef .tc main_arg19) := keep_main_part15_ops0 W main_arg19 (by decide)
theorem keep_main_part15_ops0_arg20 (W : Valuation τ sig (Elt F)) : StableHlo.after main_part15_ops0 W (Proc.devRef .tc main_arg20) = W (Proc.devRef .tc main_arg20) := keep_main_part15_ops0 W main_arg20 (by decide)
theorem keep_main_part15_ops0_arg21 (W : Valuation τ sig (Elt F)) : StableHlo.after main_part15_ops0 W (Proc.devRef .tc main_arg21) = W (Proc.devRef .tc main_arg21) := keep_main_part15_ops0 W main_arg21 (by decide)
theorem keep_main_part15_ops0_arg22 (W : Valuation τ sig (Elt F)) : StableHlo.after main_part15_ops0 W (Proc.devRef .tc main_arg22) = W (Proc.devRef .tc main_arg22) := keep_main_part15_ops0 W main_arg22 (by decide)
theorem keep_main_part15_ops1_arg0 (W : Valuation τ sig (Elt F)) : StableHlo.after main_part15_ops1 W (Proc.devRef .tc main_arg0) = W (Proc.devRef .tc main_arg0) := keep_main_part15_ops1 W main_arg0 (by decide)
theorem keep_main_part15_ops1_arg1 (W : Valuation τ sig (Elt F)) : StableHlo.after main_part15_ops1 W (Proc.devRef .tc main_arg1) = W (Proc.devRef .tc main_arg1) := keep_main_part15_ops1 W main_arg1 (by decide)
theorem keep_main_part15_ops1_arg2 (W : Valuation τ sig (Elt F)) : StableHlo.after main_part15_ops1 W (Proc.devRef .tc main_arg2) = W (Proc.devRef .tc main_arg2) := keep_main_part15_ops1 W main_arg2 (by decide)
theorem keep_main_part15_ops1_arg3 (W : Valuation τ sig (Elt F)) : StableHlo.after main_part15_ops1 W (Proc.devRef .tc main_arg3) = W (Proc.devRef .tc main_arg3) := keep_main_part15_ops1 W main_arg3 (by decide)
theorem keep_main_part15_ops1_arg4 (W : Valuation τ sig (Elt F)) : StableHlo.after main_part15_ops1 W (Proc.devRef .tc main_arg4) = W (Proc.devRef .tc main_arg4) := keep_main_part15_ops1 W main_arg4 (by decide)
theorem keep_main_part15_ops1_arg5 (W : Valuation τ sig (Elt F)) : StableHlo.after main_part15_ops1 W (Proc.devRef .tc main_arg5) = W (Proc.devRef .tc main_arg5) := keep_main_part15_ops1 W main_arg5 (by decide)
theorem keep_main_part15_ops1_arg6 (W : Valuation τ sig (Elt F)) : StableHlo.after main_part15_ops1 W (Proc.devRef .tc main_arg6) = W (Proc.devRef .tc main_arg6) := keep_main_part15_ops1 W main_arg6 (by decide)
theorem keep_main_part15_ops1_arg7 (W : Valuation τ sig (Elt F)) : StableHlo.after main_part15_ops1 W (Proc.devRef .tc main_arg7) = W (Proc.devRef .tc main_arg7) := keep_main_part15_ops1 W main_arg7 (by decide)
theorem keep_main_part15_ops1_arg8 (W : Valuation τ sig (Elt F)) : StableHlo.after main_part15_ops1 W (Proc.devRef .tc main_arg8) = W (Proc.devRef .tc main_arg8) := keep_main_part15_ops1 W main_arg8 (by decide)
theorem keep_main_part15_ops1_arg9 (W : Valuation τ sig (Elt F)) : StableHlo.after main_part15_ops1 W (Proc.devRef .tc main_arg9) = W (Proc.devRef .tc main_arg9) := keep_main_part15_ops1 W main_arg9 (by decide)
theorem keep_main_part15_ops1_arg10 (W : Valuation τ sig (Elt F)) : StableHlo.after main_part15_ops1 W (Proc.devRef .tc main_arg10) = W (Proc.devRef .tc main_arg10) := keep_main_part15_ops1 W main_arg10 (by decide)
theorem keep_main_part15_ops1_arg11 (W : Valuation τ sig (Elt F)) : StableHlo.after main_part15_ops1 W (Proc.devRef .tc main_arg11) = W (Proc.devRef .tc main_arg11) := keep_main_part15_ops1 W main_arg11 (by decide)
theorem keep_main_part15_ops1_arg12 (W : Valuation τ sig (Elt F)) : StableHlo.after main_part15_ops1 W (Proc.devRef .tc main_arg12) = W (Proc.devRef .tc main_arg12) := keep_main_part15_ops1 W main_arg12 (by decide)
theorem keep_main_part15_ops1_arg13 (W : Valuation τ sig (Elt F)) : StableHlo.after main_part15_ops1 W (Proc.devRef .tc main_arg13) = W (Proc.devRef .tc main_arg13) := keep_main_part15_ops1 W main_arg13 (by decide)
theorem keep_main_part15_ops1_arg14 (W : Valuation τ sig (Elt F)) : StableHlo.after main_part15_ops1 W (Proc.devRef .tc main_arg14) = W (Proc.devRef .tc main_arg14) := keep_main_part15_ops1 W main_arg14 (by decide)
theorem keep_main_part15_ops1_arg15 (W : Valuation τ sig (Elt F)) : StableHlo.after main_part15_ops1 W (Proc.devRef .tc main_arg15) = W (Proc.devRef .tc main_arg15) := keep_main_part15_ops1 W main_arg15 (by decide)
theorem keep_main_part15_ops1_arg16 (W : Valuation τ sig (Elt F)) : StableHlo.after main_part15_ops1 W (Proc.devRef .tc main_arg16) = W (Proc.devRef .tc main_arg16) := keep_main_part15_ops1 W main_arg16 (by decide)
theorem keep_main_part15_ops1_arg17 (W : Valuation τ sig (Elt F)) : StableHlo.after main_part15_ops1 W (Proc.devRef .tc main_arg17) = W (Proc.devRef .tc main_arg17) := keep_main_part15_ops1 W main_arg17 (by decide)
theorem keep_main_part15_ops1_arg18 (W : Valuation τ sig (Elt F)) : StableHlo.after main_part15_ops1 W (Proc.devRef .tc main_arg18) = W (Proc.devRef .tc main_arg18) := keep_main_part15_ops1 W main_arg18 (by decide)
theorem keep_main_part15_ops1_arg19 (W : Valuation τ sig (Elt F)) : StableHlo.after main_part15_ops1 W (Proc.devRef .tc main_arg19) = W (Proc.devRef .tc main_arg19) := keep_main_part15_ops1 W main_arg19 (by decide)
theorem keep_main_part15_ops1_arg20 (W : Valuation τ sig (Elt F)) : StableHlo.after main_part15_ops1 W (Proc.devRef .tc main_arg20) = W (Proc.devRef .tc main_arg20) := keep_main_part15_ops1 W main_arg20 (by decide)
theorem keep_main_part15_ops1_arg21 (W : Valuation τ sig (Elt F)) : StableHlo.after main_part15_ops1 W (Proc.devRef .tc main_arg21) = W (Proc.devRef .tc main_arg21) := keep_main_part15_ops1 W main_arg21 (by decide)
theorem keep_main_part15_ops1_arg22 (W : Valuation τ sig (Elt F)) : StableHlo.after main_part15_ops1 W (Proc.devRef .tc main_arg22) = W (Proc.devRef .tc main_arg22) := keep_main_part15_ops1 W main_arg22 (by decide)
theorem keep_main_part15_ops2_arg0 (W : Valuation τ sig (Elt F)) : StableHlo.after main_part15_ops2 W (Proc.devRef .tc main_arg0) = W (Proc.devRef .tc main_arg0) := keep_main_part15_ops2 W main_arg0 (by decide)
theorem keep_main_part15_ops2_arg1 (W : Valuation τ sig (Elt F)) : StableHlo.after main_part15_ops2 W (Proc.devRef .tc main_arg1) = W (Proc.devRef .tc main_arg1) := keep_main_part15_ops2 W main_arg1 (by decide)
theorem keep_main_part15_ops2_arg2 (W : Valuation τ sig (Elt F)) : StableHlo.after main_part15_ops2 W (Proc.devRef .tc main_arg2) = W (Proc.devRef .tc main_arg2) := keep_main_part15_ops2 W main_arg2 (by decide)
theorem keep_main_part15_ops2_arg3 (W : Valuation τ sig (Elt F)) : StableHlo.after main_part15_ops2 W (Proc.devRef .tc main_arg3) = W (Proc.devRef .tc main_arg3) := keep_main_part15_ops2 W main_arg3 (by decide)
theorem keep_main_part15_ops2_arg4 (W : Valuation τ sig (Elt F)) : StableHlo.after main_part15_ops2 W (Proc.devRef .tc main_arg4) = W (Proc.devRef .tc main_arg4) := keep_main_part15_ops2 W main_arg4 (by decide)
theorem keep_main_part15_ops2_arg5 (W : Valuation τ sig (Elt F)) : StableHlo.after main_part15_ops2 W (Proc.devRef .tc main_arg5) = W (Proc.devRef .tc main_arg5) := keep_main_part15_ops2 W main_arg5 (by decide)
theorem keep_main_part15_ops2_arg6 (W : Valuation τ sig (Elt F)) : StableHlo.after main_part15_ops2 W (Proc.devRef .tc main_arg6) = W (Proc.devRef .tc main_arg6) := keep_main_part15_ops2 W main_arg6 (by decide)
theorem keep_main_part15_ops2_arg7 (W : Valuation τ sig (Elt F)) : StableHlo.after main_part15_ops2 W (Proc.devRef .tc main_arg7) = W (Proc.devRef .tc main_arg7) := keep_main_part15_ops2 W main_arg7 (by decide)
theorem keep_main_part15_ops2_arg8 (W : Valuation τ sig (Elt F)) : StableHlo.after main_part15_ops2 W (Proc.devRef .tc main_arg8) = W (Proc.devRef .tc main_arg8) := keep_main_part15_ops2 W main_arg8 (by decide)
theorem keep_main_part15_ops2_arg9 (W : Valuation τ sig (Elt F)) : StableHlo.after main_part15_ops2 W (Proc.devRef .tc main_arg9) = W (Proc.devRef .tc main_arg9) := keep_main_part15_ops2 W main_arg9 (by decide)
theorem keep_main_part15_ops2_arg10 (W : Valuation τ sig (Elt F)) : StableHlo.after main_part15_ops2 W (Proc.devRef .tc main_arg10) = W (Proc.devRef .tc main_arg10) := keep_main_part15_ops2 W main_arg10 (by decide)
theorem keep_main_part15_ops2_arg11 (W : Valuation τ sig (Elt F)) : StableHlo.after main_part15_ops2 W (Proc.devRef .tc main_arg11) = W (Proc.devRef .tc main_arg11) := keep_main_part15_ops2 W main_arg11 (by decide)
theorem keep_main_part15_ops2_arg12 (W : Valuation τ sig (Elt F)) : StableHlo.after main_part15_ops2 W (Proc.devRef .tc main_arg12) = W (Proc.devRef .tc main_arg12) := keep_main_part15_ops2 W main_arg12 (by decide)
theorem keep_main_part15_ops2_arg13 (W : Valuation τ sig (Elt F)) : StableHlo.after main_part15_ops2 W (Proc.devRef .tc main_arg13) = W (Proc.devRef .tc main_arg13) := keep_main_part15_ops2 W main_arg13 (by decide)
theorem keep_main_part15_ops2_arg14 (W : Valuation τ sig (Elt F)) : StableHlo.after main_part15_ops2 W (Proc.devRef .tc main_arg14) = W (Proc.devRef .tc main_arg14) := keep_main_part15_ops2 W main_arg14 (by decide)
theorem keep_main_part15_ops2_arg15 (W : Valuation τ sig (Elt F)) : StableHlo.after main_part15_ops2 W (Proc.devRef .tc main_arg15) = W (Proc.devRef .tc main_arg15) := keep_main_part15_ops2 W main_arg15 (by decide)
theorem keep_main_part15_ops2_arg16 (W : Valuation τ sig (Elt F)) : StableHlo.after main_part15_ops2 W (Proc.devRef .tc main_arg16) = W (Proc.devRef .tc main_arg16) := keep_main_part15_ops2 W main_arg16 (by decide)
theorem keep_main_part15_ops2_arg17 (W : Valuation τ sig (Elt F)) : StableHlo.after main_part15_ops2 W (Proc.devRef .tc main_arg17) = W (Proc.devRef .tc main_arg17) := keep_main_part15_ops2 W main_arg17 (by decide)
theorem keep_main_part15_ops2_arg18 (W : Valuation τ sig (Elt F)) : StableHlo.after main_part15_ops2 W (Proc.devRef .tc main_arg18) = W (Proc.devRef .tc main_arg18) := keep_main_part15_ops2 W main_arg18 (by decide)
theorem keep_main_part15_ops2_arg19 (W : Valuation τ sig (Elt F)) : StableHlo.after main_part15_ops2 W (Proc.devRef .tc main_arg19) = W (Proc.devRef .tc main_arg19) := keep_main_part15_ops2 W main_arg19 (by decide)
theorem keep_main_part15_ops2_arg20 (W : Valuation τ sig (Elt F)) : StableHlo.after main_part15_ops2 W (Proc.devRef .tc main_arg20) = W (Proc.devRef .tc main_arg20) := keep_main_part15_ops2 W main_arg20 (by decide)
theorem keep_main_part15_ops2_arg21 (W : Valuation τ sig (Elt F)) : StableHlo.after main_part15_ops2 W (Proc.devRef .tc main_arg21) = W (Proc.devRef .tc main_arg21) := keep_main_part15_ops2 W main_arg21 (by decide)
theorem keep_main_part15_ops2_arg22 (W : Valuation τ sig (Elt F)) : StableHlo.after main_part15_ops2 W (Proc.devRef .tc main_arg22) = W (Proc.devRef .tc main_arg22) := keep_main_part15_ops2 W main_arg22 (by decide)
theorem keep_main_part15_ops3_arg0 (W : Valuation τ sig (Elt F)) : StableHlo.after main_part15_ops3 W (Proc.devRef .tc main_arg0) = W (Proc.devRef .tc main_arg0) := keep_main_part15_ops3 W main_arg0 (by decide)
theorem keep_main_part15_ops3_arg1 (W : Valuation τ sig (Elt F)) : StableHlo.after main_part15_ops3 W (Proc.devRef .tc main_arg1) = W (Proc.devRef .tc main_arg1) := keep_main_part15_ops3 W main_arg1 (by decide)
theorem keep_main_part15_ops3_arg2 (W : Valuation τ sig (Elt F)) : StableHlo.after main_part15_ops3 W (Proc.devRef .tc main_arg2) = W (Proc.devRef .tc main_arg2) := keep_main_part15_ops3 W main_arg2 (by decide)
theorem keep_main_part15_ops3_arg3 (W : Valuation τ sig (Elt F)) : StableHlo.after main_part15_ops3 W (Proc.devRef .tc main_arg3) = W (Proc.devRef .tc main_arg3) := keep_main_part15_ops3 W main_arg3 (by decide)
theorem keep_main_part15_ops3_arg4 (W : Valuation τ sig (Elt F)) : StableHlo.after main_part15_ops3 W (Proc.devRef .tc main_arg4) = W (Proc.devRef .tc main_arg4) := keep_main_part15_ops3 W main_arg4 (by decide)
theorem keep_main_part15_ops3_arg5 (W : Valuation τ sig (Elt F)) : StableHlo.after main_part15_ops3 W (Proc.devRef .tc main_arg5) = W (Proc.devRef .tc main_arg5) := keep_main_part15_ops3 W main_arg5 (by decide)
theorem keep_main_part15_ops3_arg6 (W : Valuation τ sig (Elt F)) : StableHlo.after main_part15_ops3 W (Proc.devRef .tc main_arg6) = W (Proc.devRef .tc main_arg6) := keep_main_part15_ops3 W main_arg6 (by decide)
theorem keep_main_part15_ops3_arg7 (W : Valuation τ sig (Elt F)) : StableHlo.after main_part15_ops3 W (Proc.devRef .tc main_arg7) = W (Proc.devRef .tc main_arg7) := keep_main_part15_ops3 W main_arg7 (by decide)
theorem keep_main_part15_ops3_arg8 (W : Valuation τ sig (Elt F)) : StableHlo.after main_part15_ops3 W (Proc.devRef .tc main_arg8) = W (Proc.devRef .tc main_arg8) := keep_main_part15_ops3 W main_arg8 (by decide)
theorem keep_main_part15_ops3_arg9 (W : Valuation τ sig (Elt F)) : StableHlo.after main_part15_ops3 W (Proc.devRef .tc main_arg9) = W (Proc.devRef .tc main_arg9) := keep_main_part15_ops3 W main_arg9 (by decide)
theorem keep_main_part15_ops3_arg10 (W : Valuation τ sig (Elt F)) : StableHlo.after main_part15_ops3 W (Proc.devRef .tc main_arg10) = W (Proc.devRef .tc main_arg10) := keep_main_part15_ops3 W main_arg10 (by decide)
theorem keep_main_part15_ops3_arg11 (W : Valuation τ sig (Elt F)) : StableHlo.after main_part15_ops3 W (Proc.devRef .tc main_arg11) = W (Proc.devRef .tc main_arg11) := keep_main_part15_ops3 W main_arg11 (by decide)
theorem keep_main_part15_ops3_arg12 (W : Valuation τ sig (Elt F)) : StableHlo.after main_part15_ops3 W (Proc.devRef .tc main_arg12) = W (Proc.devRef .tc main_arg12) := keep_main_part15_ops3 W main_arg12 (by decide)
theorem keep_main_part15_ops3_arg13 (W : Valuation τ sig (Elt F)) : StableHlo.after main_part15_ops3 W (Proc.devRef .tc main_arg13) = W (Proc.devRef .tc main_arg13) := keep_main_part15_ops3 W main_arg13 (by decide)
theorem keep_main_part15_ops3_arg14 (W : Valuation τ sig (Elt F)) : StableHlo.after main_part15_ops3 W (Proc.devRef .tc main_arg14) = W (Proc.devRef .tc main_arg14) := keep_main_part15_ops3 W main_arg14 (by decide)
theorem keep_main_part15_ops3_arg15 (W : Valuation τ sig (Elt F)) : StableHlo.after main_part15_ops3 W (Proc.devRef .tc main_arg15) = W (Proc.devRef .tc main_arg15) := keep_main_part15_ops3 W main_arg15 (by decide)
theorem keep_main_part15_ops3_arg16 (W : Valuation τ sig (Elt F)) : StableHlo.after main_part15_ops3 W (Proc.devRef .tc main_arg16) = W (Proc.devRef .tc main_arg16) := keep_main_part15_ops3 W main_arg16 (by decide)
theorem keep_main_part15_ops3_arg17 (W : Valuation τ sig (Elt F)) : StableHlo.after main_part15_ops3 W (Proc.devRef .tc main_arg17) = W (Proc.devRef .tc main_arg17) := keep_main_part15_ops3 W main_arg17 (by decide)
theorem keep_main_part15_ops3_arg18 (W : Valuation τ sig (Elt F)) : StableHlo.after main_part15_ops3 W (Proc.devRef .tc main_arg18) = W (Proc.devRef .tc main_arg18) := keep_main_part15_ops3 W main_arg18 (by decide)
theorem keep_main_part15_ops3_arg19 (W : Valuation τ sig (Elt F)) : StableHlo.after main_part15_ops3 W (Proc.devRef .tc main_arg19) = W (Proc.devRef .tc main_arg19) := keep_main_part15_ops3 W main_arg19 (by decide)
theorem keep_main_part15_ops3_arg20 (W : Valuation τ sig (Elt F)) : StableHlo.after main_part15_ops3 W (Proc.devRef .tc main_arg20) = W (Proc.devRef .tc main_arg20) := keep_main_part15_ops3 W main_arg20 (by decide)
theorem keep_main_part15_ops3_arg21 (W : Valuation τ sig (Elt F)) : StableHlo.after main_part15_ops3 W (Proc.devRef .tc main_arg21) = W (Proc.devRef .tc main_arg21) := keep_main_part15_ops3 W main_arg21 (by decide)
theorem keep_main_part15_ops3_arg22 (W : Valuation τ sig (Elt F)) : StableHlo.after main_part15_ops3 W (Proc.devRef .tc main_arg22) = W (Proc.devRef .tc main_arg22) := keep_main_part15_ops3 W main_arg22 (by decide)
theorem keep_main_part16_ops0_arg0 (W : Valuation τ sig (Elt F)) : StableHlo.after main_part16_ops0 W (Proc.devRef .tc main_arg0) = W (Proc.devRef .tc main_arg0) := keep_main_part16_ops0 W main_arg0 (by decide)
theorem keep_main_part16_ops0_arg1 (W : Valuation τ sig (Elt F)) : StableHlo.after main_part16_ops0 W (Proc.devRef .tc main_arg1) = W (Proc.devRef .tc main_arg1) := keep_main_part16_ops0 W main_arg1 (by decide)
theorem keep_main_part16_ops0_arg2 (W : Valuation τ sig (Elt F)) : StableHlo.after main_part16_ops0 W (Proc.devRef .tc main_arg2) = W (Proc.devRef .tc main_arg2) := keep_main_part16_ops0 W main_arg2 (by decide)
theorem keep_main_part16_ops0_arg3 (W : Valuation τ sig (Elt F)) : StableHlo.after main_part16_ops0 W (Proc.devRef .tc main_arg3) = W (Proc.devRef .tc main_arg3) := keep_main_part16_ops0 W main_arg3 (by decide)
theorem keep_main_part16_ops0_arg4 (W : Valuation τ sig (Elt F)) : StableHlo.after main_part16_ops0 W (Proc.devRef .tc main_arg4) = W (Proc.devRef .tc main_arg4) := keep_main_part16_ops0 W main_arg4 (by decide)
theorem keep_main_part16_ops0_arg5 (W : Valuation τ sig (Elt F)) : StableHlo.after main_part16_ops0 W (Proc.devRef .tc main_arg5) = W (Proc.devRef .tc main_arg5) := keep_main_part16_ops0 W main_arg5 (by decide)
theorem keep_main_part16_ops0_arg6 (W : Valuation τ sig (Elt F)) : StableHlo.after main_part16_ops0 W (Proc.devRef .tc main_arg6) = W (Proc.devRef .tc main_arg6) := keep_main_part16_ops0 W main_arg6 (by decide)
theorem keep_main_part16_ops0_arg7 (W : Valuation τ sig (Elt F)) : StableHlo.after main_part16_ops0 W (Proc.devRef .tc main_arg7) = W (Proc.devRef .tc main_arg7) := keep_main_part16_ops0 W main_arg7 (by decide)
theorem keep_main_part16_ops0_arg8 (W : Valuation τ sig (Elt F)) : StableHlo.after main_part16_ops0 W (Proc.devRef .tc main_arg8) = W (Proc.devRef .tc main_arg8) := keep_main_part16_ops0 W main_arg8 (by decide)
theorem keep_main_part16_ops0_arg9 (W : Valuation τ sig (Elt F)) : StableHlo.after main_part16_ops0 W (Proc.devRef .tc main_arg9) = W (Proc.devRef .tc main_arg9) := keep_main_part16_ops0 W main_arg9 (by decide)
theorem keep_main_part16_ops0_arg10 (W : Valuation τ sig (Elt F)) : StableHlo.after main_part16_ops0 W (Proc.devRef .tc main_arg10) = W (Proc.devRef .tc main_arg10) := keep_main_part16_ops0 W main_arg10 (by decide)
theorem keep_main_part16_ops0_arg11 (W : Valuation τ sig (Elt F)) : StableHlo.after main_part16_ops0 W (Proc.devRef .tc main_arg11) = W (Proc.devRef .tc main_arg11) := keep_main_part16_ops0 W main_arg11 (by decide)
theorem keep_main_part16_ops0_arg12 (W : Valuation τ sig (Elt F)) : StableHlo.after main_part16_ops0 W (Proc.devRef .tc main_arg12) = W (Proc.devRef .tc main_arg12) := keep_main_part16_ops0 W main_arg12 (by decide)
theorem keep_main_part16_ops0_arg13 (W : Valuation τ sig (Elt F)) : StableHlo.after main_part16_ops0 W (Proc.devRef .tc main_arg13) = W (Proc.devRef .tc main_arg13) := keep_main_part16_ops0 W main_arg13 (by decide)
theorem keep_main_part16_ops0_arg14 (W : Valuation τ sig (Elt F)) : StableHlo.after main_part16_ops0 W (Proc.devRef .tc main_arg14) = W (Proc.devRef .tc main_arg14) := keep_main_part16_ops0 W main_arg14 (by decide)
theorem keep_main_part16_ops0_arg15 (W : Valuation τ sig (Elt F)) : StableHlo.after main_part16_ops0 W (Proc.devRef .tc main_arg15) = W (Proc.devRef .tc main_arg15) := keep_main_part16_ops0 W main_arg15 (by decide)
theorem keep_main_part16_ops0_arg16 (W : Valuation τ sig (Elt F)) : StableHlo.after main_part16_ops0 W (Proc.devRef .tc main_arg16) = W (Proc.devRef .tc main_arg16) := keep_main_part16_ops0 W main_arg16 (by decide)
theorem keep_main_part16_ops0_arg17 (W : Valuation τ sig (Elt F)) : StableHlo.after main_part16_ops0 W (Proc.devRef .tc main_arg17) = W (Proc.devRef .tc main_arg17) := keep_main_part16_ops0 W main_arg17 (by decide)
theorem keep_main_part16_ops0_arg18 (W : Valuation τ sig (Elt F)) : StableHlo.after main_part16_ops0 W (Proc.devRef .tc main_arg18) = W (Proc.devRef .tc main_arg18) := keep_main_part16_ops0 W main_arg18 (by decide)
theorem keep_main_part16_ops0_arg19 (W : Valuation τ sig (Elt F)) : StableHlo.after main_part16_ops0 W (Proc.devRef .tc main_arg19) = W (Proc.devRef .tc main_arg19) := keep_main_part16_ops0 W main_arg19 (by decide)
theorem keep_main_part16_ops0_arg20 (W : Valuation τ sig (Elt F)) : StableHlo.after main_part16_ops0 W (Proc.devRef .tc main_arg20) = W (Proc.devRef .tc main_arg20) := keep_main_part16_ops0 W main_arg20 (by decide)
theorem keep_main_part16_ops0_arg21 (W : Valuation τ sig (Elt F)) : StableHlo.after main_part16_ops0 W (Proc.devRef .tc main_arg21) = W (Proc.devRef .tc main_arg21) := keep_main_part16_ops0 W main_arg21 (by decide)
theorem keep_main_part16_ops0_arg22 (W : Valuation τ sig (Elt F)) : StableHlo.after main_part16_ops0 W (Proc.devRef .tc main_arg22) = W (Proc.devRef .tc main_arg22) := keep_main_part16_ops0 W main_arg22 (by decide)
theorem keep_main_part16_ops1_arg0 (W : Valuation τ sig (Elt F)) : StableHlo.after main_part16_ops1 W (Proc.devRef .tc main_arg0) = W (Proc.devRef .tc main_arg0) := keep_main_part16_ops1 W main_arg0 (by decide)
theorem keep_main_part16_ops1_arg1 (W : Valuation τ sig (Elt F)) : StableHlo.after main_part16_ops1 W (Proc.devRef .tc main_arg1) = W (Proc.devRef .tc main_arg1) := keep_main_part16_ops1 W main_arg1 (by decide)
theorem keep_main_part16_ops1_arg2 (W : Valuation τ sig (Elt F)) : StableHlo.after main_part16_ops1 W (Proc.devRef .tc main_arg2) = W (Proc.devRef .tc main_arg2) := keep_main_part16_ops1 W main_arg2 (by decide)
theorem keep_main_part16_ops1_arg3 (W : Valuation τ sig (Elt F)) : StableHlo.after main_part16_ops1 W (Proc.devRef .tc main_arg3) = W (Proc.devRef .tc main_arg3) := keep_main_part16_ops1 W main_arg3 (by decide)
theorem keep_main_part16_ops1_arg4 (W : Valuation τ sig (Elt F)) : StableHlo.after main_part16_ops1 W (Proc.devRef .tc main_arg4) = W (Proc.devRef .tc main_arg4) := keep_main_part16_ops1 W main_arg4 (by decide)
theorem keep_main_part16_ops1_arg5 (W : Valuation τ sig (Elt F)) : StableHlo.after main_part16_ops1 W (Proc.devRef .tc main_arg5) = W (Proc.devRef .tc main_arg5) := keep_main_part16_ops1 W main_arg5 (by decide)
theorem keep_main_part16_ops1_arg6 (W : Valuation τ sig (Elt F)) : StableHlo.after main_part16_ops1 W (Proc.devRef .tc main_arg6) = W (Proc.devRef .tc main_arg6) := keep_main_part16_ops1 W main_arg6 (by decide)
theorem keep_main_part16_ops1_arg7 (W : Valuation τ sig (Elt F)) : StableHlo.after main_part16_ops1 W (Proc.devRef .tc main_arg7) = W (Proc.devRef .tc main_arg7) := keep_main_part16_ops1 W main_arg7 (by decide)
theorem keep_main_part16_ops1_arg8 (W : Valuation τ sig (Elt F)) : StableHlo.after main_part16_ops1 W (Proc.devRef .tc main_arg8) = W (Proc.devRef .tc main_arg8) := keep_main_part16_ops1 W main_arg8 (by decide)
theorem keep_main_part16_ops1_arg9 (W : Valuation τ sig (Elt F)) : StableHlo.after main_part16_ops1 W (Proc.devRef .tc main_arg9) = W (Proc.devRef .tc main_arg9) := keep_main_part16_ops1 W main_arg9 (by decide)
theorem keep_main_part16_ops1_arg10 (W : Valuation τ sig (Elt F)) : StableHlo.after main_part16_ops1 W (Proc.devRef .tc main_arg10) = W (Proc.devRef .tc main_arg10) := keep_main_part16_ops1 W main_arg10 (by decide)
theorem keep_main_part16_ops1_arg11 (W : Valuation τ sig (Elt F)) : StableHlo.after main_part16_ops1 W (Proc.devRef .tc main_arg11) = W (Proc.devRef .tc main_arg11) := keep_main_part16_ops1 W main_arg11 (by decide)
theorem keep_main_part16_ops1_arg12 (W : Valuation τ sig (Elt F)) : StableHlo.after main_part16_ops1 W (Proc.devRef .tc main_arg12) = W (Proc.devRef .tc main_arg12) := keep_main_part16_ops1 W main_arg12 (by decide)
theorem keep_main_part16_ops1_arg13 (W : Valuation τ sig (Elt F)) : StableHlo.after main_part16_ops1 W (Proc.devRef .tc main_arg13) = W (Proc.devRef .tc main_arg13) := keep_main_part16_ops1 W main_arg13 (by decide)
theorem keep_main_part16_ops1_arg14 (W : Valuation τ sig (Elt F)) : StableHlo.after main_part16_ops1 W (Proc.devRef .tc main_arg14) = W (Proc.devRef .tc main_arg14) := keep_main_part16_ops1 W main_arg14 (by decide)
theorem keep_main_part16_ops1_arg15 (W : Valuation τ sig (Elt F)) : StableHlo.after main_part16_ops1 W (Proc.devRef .tc main_arg15) = W (Proc.devRef .tc main_arg15) := keep_main_part16_ops1 W main_arg15 (by decide)
theorem keep_main_part16_ops1_arg16 (W : Valuation τ sig (Elt F)) : StableHlo.after main_part16_ops1 W (Proc.devRef .tc main_arg16) = W (Proc.devRef .tc main_arg16) := keep_main_part16_ops1 W main_arg16 (by decide)
theorem keep_main_part16_ops1_arg17 (W : Valuation τ sig (Elt F)) : StableHlo.after main_part16_ops1 W (Proc.devRef .tc main_arg17) = W (Proc.devRef .tc main_arg17) := keep_main_part16_ops1 W main_arg17 (by decide)
theorem keep_main_part16_ops1_arg18 (W : Valuation τ sig (Elt F)) : StableHlo.after main_part16_ops1 W (Proc.devRef .tc main_arg18) = W (Proc.devRef .tc main_arg18) := keep_main_part16_ops1 W main_arg18 (by decide)
theorem keep_main_part16_ops1_arg19 (W : Valuation τ sig (Elt F)) : StableHlo.after main_part16_ops1 W (Proc.devRef .tc main_arg19) = W (Proc.devRef .tc main_arg19) := keep_main_part16_ops1 W main_arg19 (by decide)
theorem keep_main_part16_ops1_arg20 (W : Valuation τ sig (Elt F)) : StableHlo.after main_part16_ops1 W (Proc.devRef .tc main_arg20) = W (Proc.devRef .tc main_arg20) := keep_main_part16_ops1 W main_arg20 (by decide)
theorem keep_main_part16_ops1_arg21 (W : Valuation τ sig (Elt F)) : StableHlo.after main_part16_ops1 W (Proc.devRef .tc main_arg21) = W (Proc.devRef .tc main_arg21) := keep_main_part16_ops1 W main_arg21 (by decide)
theorem keep_main_part16_ops1_arg22 (W : Valuation τ sig (Elt F)) : StableHlo.after main_part16_ops1 W (Proc.devRef .tc main_arg22) = W (Proc.devRef .tc main_arg22) := keep_main_part16_ops1 W main_arg22 (by decide)
theorem keep_main_part16_ops2_arg0 (W : Valuation τ sig (Elt F)) : StableHlo.after main_part16_ops2 W (Proc.devRef .tc main_arg0) = W (Proc.devRef .tc main_arg0) := keep_main_part16_ops2 W main_arg0 (by decide)
theorem keep_main_part16_ops2_arg1 (W : Valuation τ sig (Elt F)) : StableHlo.after main_part16_ops2 W (Proc.devRef .tc main_arg1) = W (Proc.devRef .tc main_arg1) := keep_main_part16_ops2 W main_arg1 (by decide)
theorem keep_main_part16_ops2_arg2 (W : Valuation τ sig (Elt F)) : StableHlo.after main_part16_ops2 W (Proc.devRef .tc main_arg2) = W (Proc.devRef .tc main_arg2) := keep_main_part16_ops2 W main_arg2 (by decide)
theorem keep_main_part16_ops2_arg3 (W : Valuation τ sig (Elt F)) : StableHlo.after main_part16_ops2 W (Proc.devRef .tc main_arg3) = W (Proc.devRef .tc main_arg3) := keep_main_part16_ops2 W main_arg3 (by decide)
theorem keep_main_part16_ops2_arg4 (W : Valuation τ sig (Elt F)) : StableHlo.after main_part16_ops2 W (Proc.devRef .tc main_arg4) = W (Proc.devRef .tc main_arg4) := keep_main_part16_ops2 W main_arg4 (by decide)
theorem keep_main_part16_ops2_arg5 (W : Valuation τ sig (Elt F)) : StableHlo.after main_part16_ops2 W (Proc.devRef .tc main_arg5) = W (Proc.devRef .tc main_arg5) := keep_main_part16_ops2 W main_arg5 (by decide)
theorem keep_main_part16_ops2_arg6 (W : Valuation τ sig (Elt F)) : StableHlo.after main_part16_ops2 W (Proc.devRef .tc main_arg6) = W (Proc.devRef .tc main_arg6) := keep_main_part16_ops2 W main_arg6 (by decide)
theorem keep_main_part16_ops2_arg7 (W : Valuation τ sig (Elt F)) : StableHlo.after main_part16_ops2 W (Proc.devRef .tc main_arg7) = W (Proc.devRef .tc main_arg7) := keep_main_part16_ops2 W main_arg7 (by decide)
theorem keep_main_part16_ops2_arg8 (W : Valuation τ sig (Elt F)) : StableHlo.after main_part16_ops2 W (Proc.devRef .tc main_arg8) = W (Proc.devRef .tc main_arg8) := keep_main_part16_ops2 W main_arg8 (by decide)
theorem keep_main_part16_ops2_arg9 (W : Valuation τ sig (Elt F)) : StableHlo.after main_part16_ops2 W (Proc.devRef .tc main_arg9) = W (Proc.devRef .tc main_arg9) := keep_main_part16_ops2 W main_arg9 (by decide)
theorem keep_main_part16_ops2_arg10 (W : Valuation τ sig (Elt F)) : StableHlo.after main_part16_ops2 W (Proc.devRef .tc main_arg10) = W (Proc.devRef .tc main_arg10) := keep_main_part16_ops2 W main_arg10 (by decide)
theorem keep_main_part16_ops2_arg11 (W : Valuation τ sig (Elt F)) : StableHlo.after main_part16_ops2 W (Proc.devRef .tc main_arg11) = W (Proc.devRef .tc main_arg11) := keep_main_part16_ops2 W main_arg11 (by decide)
theorem keep_main_part16_ops2_arg12 (W : Valuation τ sig (Elt F)) : StableHlo.after main_part16_ops2 W (Proc.devRef .tc main_arg12) = W (Proc.devRef .tc main_arg12) := keep_main_part16_ops2 W main_arg12 (by decide)
theorem keep_main_part16_ops2_arg13 (W : Valuation τ sig (Elt F)) : StableHlo.after main_part16_ops2 W (Proc.devRef .tc main_arg13) = W (Proc.devRef .tc main_arg13) := keep_main_part16_ops2 W main_arg13 (by decide)
theorem keep_main_part16_ops2_arg14 (W : Valuation τ sig (Elt F)) : StableHlo.after main_part16_ops2 W (Proc.devRef .tc main_arg14) = W (Proc.devRef .tc main_arg14) := keep_main_part16_ops2 W main_arg14 (by decide)
theorem keep_main_part16_ops2_arg15 (W : Valuation τ sig (Elt F)) : StableHlo.after main_part16_ops2 W (Proc.devRef .tc main_arg15) = W (Proc.devRef .tc main_arg15) := keep_main_part16_ops2 W main_arg15 (by decide)
theorem keep_main_part16_ops2_arg16 (W : Valuation τ sig (Elt F)) : StableHlo.after main_part16_ops2 W (Proc.devRef .tc main_arg16) = W (Proc.devRef .tc main_arg16) := keep_main_part16_ops2 W main_arg16 (by decide)
theorem keep_main_part16_ops2_arg17 (W : Valuation τ sig (Elt F)) : StableHlo.after main_part16_ops2 W (Proc.devRef .tc main_arg17) = W (Proc.devRef .tc main_arg17) := keep_main_part16_ops2 W main_arg17 (by decide)
theorem keep_main_part16_ops2_arg18 (W : Valuation τ sig (Elt F)) : StableHlo.after main_part16_ops2 W (Proc.devRef .tc main_arg18) = W (Proc.devRef .tc main_arg18) := keep_main_part16_ops2 W main_arg18 (by decide)
theorem keep_main_part16_ops2_arg19 (W : Valuation τ sig (Elt F)) : StableHlo.after main_part16_ops2 W (Proc.devRef .tc main_arg19) = W (Proc.devRef .tc main_arg19) := keep_main_part16_ops2 W main_arg19 (by decide)
theorem keep_main_part16_ops2_arg20 (W : Valuation τ sig (Elt F)) : StableHlo.after main_part16_ops2 W (Proc.devRef .tc main_arg20) = W (Proc.devRef .tc main_arg20) := keep_main_part16_ops2 W main_arg20 (by decide)
theorem keep_main_part16_ops2_arg21 (W : Valuation τ sig (Elt F)) : StableHlo.after main_part16_ops2 W (Proc.devRef .tc main_arg21) = W (Proc.devRef .tc main_arg21) := keep_main_part16_ops2 W main_arg21 (by decide)
theorem keep_main_part16_ops2_arg22 (W : Valuation τ sig (Elt F)) : StableHlo.after main_part16_ops2 W (Proc.devRef .tc main_arg22) = W (Proc.devRef .tc main_arg22) := keep_main_part16_ops2 W main_arg22 (by decide)

end Cert.KernelIdeal.Hand

end
-- ==== Proof.KI.Args0.lean ====
import proofs.«125545_j64845416235624_1_alg».proof.Proof.KI.Fold
import proofs.«125545_j64845416235624_1_alg».proof.Proof.KI.Keep
import proofs.«125545_j64845416235624_1_alg».proof.Proof.KI.KeepArgs0
import proofs.«125545_j64845416235624_1_alg».proof.Proof.KI.KeepArgs1

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! # The argument arrays end as launched (arguments 0 to 5)

No host operation writes an argument array, and no region does: a region either does not touch it, or reads it through
an input window, whose array the pipeline leaves as entered. So the fold of the buffer contents through @main's 44
items, read at an argument's buffer, walks back item by item to the launch memory. -/

theorem Wfin_arg0 (c : Dev nD) : Wfin m ρ c (Proc.devRef .tc main_arg0) = m ((c : Thread nD τ).loc main_arg0) :=
  calc Wfin m ρ c (Proc.devRef .tc main_arg0)
    _ = W43 m ρ c (Proc.devRef .tc main_arg0) := W44_of_ne m ρ c main_arg0 (by decide)
    _ = W42 m ρ c (Proc.devRef .tc main_arg0) := keep_main_part16_ops2_arg0 _
    _ = W41 m ρ c (Proc.devRef .tc main_arg0) := W42_of_ne m ρ c main_arg0 (by decide)
    _ = W40 m ρ c (Proc.devRef .tc main_arg0) := keep_main_part16_ops1_arg0 _
    _ = W39 m ρ c (Proc.devRef .tc main_arg0) := W40_of_ne m ρ c main_arg0 (by decide)
    _ = W38 m ρ c (Proc.devRef .tc main_arg0) := keep_main_part16_ops0_arg0 _
    _ = W37 m ρ c (Proc.devRef .tc main_arg0) := keep_main_part15_ops3_arg0 _
    _ = W36 m ρ c (Proc.devRef .tc main_arg0) := W37_of_ne m ρ c main_arg0 (by decide)
    _ = W35 m ρ c (Proc.devRef .tc main_arg0) := keep_main_part15_ops2_arg0 _
    _ = W34 m ρ c (Proc.devRef .tc main_arg0) := W35_of_ne m ρ c main_arg0 (by decide)
    _ = W33 m ρ c (Proc.devRef .tc main_arg0) := keep_main_part15_ops1_arg0 _
    _ = W32 m ρ c (Proc.devRef .tc main_arg0) := W33_of_ne m ρ c main_arg0 (by decide)
    _ = W31 m ρ c (Proc.devRef .tc main_arg0) := keep_main_part15_ops0_arg0 _
    _ = W30 m ρ c (Proc.devRef .tc main_arg0) := keep_main_part14_ops0_arg0 _
    _ = W29 m ρ c (Proc.devRef .tc main_arg0) := keep_main_part13_ops0_arg0 _
    _ = W28 m ρ c (Proc.devRef .tc main_arg0) := keep_main_part12_ops0_arg0 _
    _ = W27 m ρ c (Proc.devRef .tc main_arg0) := keep_main_part11_ops0_arg0 _
    _ = W26 m ρ c (Proc.devRef .tc main_arg0) := keep_main_part10_ops4_arg0 _
    _ = W25 m ρ c (Proc.devRef .tc main_arg0) := W26_of_ne m ρ c main_arg0 (by decide)
    _ = W24 m ρ c (Proc.devRef .tc main_arg0) := keep_main_part10_ops3_arg0 _
    _ = W23 m ρ c (Proc.devRef .tc main_arg0) := W24_of_ne m ρ c main_arg0 (by decide)
    _ = W22 m ρ c (Proc.devRef .tc main_arg0) := keep_main_part10_ops2_arg0 _
    _ = W21 m ρ c (Proc.devRef .tc main_arg0) := W22_of_ne m ρ c main_arg0 (by decide)
    _ = W20 m ρ c (Proc.devRef .tc main_arg0) := keep_main_part10_ops1_arg0 _
    _ = W19 m ρ c (Proc.devRef .tc main_arg0) := W20_of_ne m ρ c main_arg0 (by decide)
    _ = W18 m ρ c (Proc.devRef .tc main_arg0) := keep_main_part10_ops0_arg0 _
    _ = W17 m ρ c (Proc.devRef .tc main_arg0) := keep_main_part9_ops0_arg0 _
    _ = W16 m ρ c (Proc.devRef .tc main_arg0) := keep_main_part8_ops0_arg0 _
    _ = W15 m ρ c (Proc.devRef .tc main_arg0) := keep_main_part7_ops0_arg0 _
    _ = W14 m ρ c (Proc.devRef .tc main_arg0) := keep_main_part6_ops0_arg0 _
    _ = W13 m ρ c (Proc.devRef .tc main_arg0) := keep_main_part5_ops3_arg0 _
    _ = W12 m ρ c (Proc.devRef .tc main_arg0) := W13_of_ne m ρ c main_arg0 (by decide)
    _ = W11 m ρ c (Proc.devRef .tc main_arg0) := keep_main_part5_ops2_arg0 _
    _ = W10 m ρ c (Proc.devRef .tc main_arg0) := W11_of_ne m ρ c main_arg0 (by decide)
    _ = W9 m ρ c (Proc.devRef .tc main_arg0) := keep_main_part5_ops1_arg0 _
    _ = W8 m ρ c (Proc.devRef .tc main_arg0) := W9_of_ne m ρ c main_arg0 (by decide)
    _ = W7 m ρ c (Proc.devRef .tc main_arg0) := keep_main_part5_ops0_arg0 _
    _ = W6 m ρ c (Proc.devRef .tc main_arg0) := keep_main_part4_ops1_arg0 _
    _ = W5 m ρ c (Proc.devRef .tc main_arg0) := (W6_arr m ρ c 5).trans (((dat0 (V5 m ρ) c).arrAt_in 5 rfl _).trans (A_eq0 (V5 m ρ) c 5))
    _ = W4 m ρ c (Proc.devRef .tc main_arg0) := keep_main_part4_ops0_arg0 _
    _ = W3 m ρ c (Proc.devRef .tc main_arg0) := keep_main_part3_ops0_arg0 _
    _ = W2 m ρ c (Proc.devRef .tc main_arg0) := keep_main_part2_ops0_arg0 _
    _ = W1 m ρ c (Proc.devRef .tc main_arg0) := keep_main_part1_ops0_arg0 _
    _ = W0 m ρ c (Proc.devRef .tc main_arg0) := keep_main_part0_ops0_arg0 _
    _ = m ((c : Thread nD τ).loc main_arg0) := rfl

theorem Wfin_arg1 (c : Dev nD) : Wfin m ρ c (Proc.devRef .tc main_arg1) = m ((c : Thread nD τ).loc main_arg1) :=
  calc Wfin m ρ c (Proc.devRef .tc main_arg1)
    _ = W43 m ρ c (Proc.devRef .tc main_arg1) := W44_of_ne m ρ c main_arg1 (by decide)
    _ = W42 m ρ c (Proc.devRef .tc main_arg1) := keep_main_part16_ops2_arg1 _
    _ = W41 m ρ c (Proc.devRef .tc main_arg1) := W42_of_ne m ρ c main_arg1 (by decide)
    _ = W40 m ρ c (Proc.devRef .tc main_arg1) := keep_main_part16_ops1_arg1 _
    _ = W39 m ρ c (Proc.devRef .tc main_arg1) := W40_of_ne m ρ c main_arg1 (by decide)
    _ = W38 m ρ c (Proc.devRef .tc main_arg1) := keep_main_part16_ops0_arg1 _
    _ = W37 m ρ c (Proc.devRef .tc main_arg1) := keep_main_part15_ops3_arg1 _
    _ = W36 m ρ c (Proc.devRef .tc main_arg1) := W37_of_ne m ρ c main_arg1 (by decide)
    _ = W35 m ρ c (Proc.devRef .tc main_arg1) := keep_main_part15_ops2_arg1 _
    _ = W34 m ρ c (Proc.devRef .tc main_arg1) := W35_of_ne m ρ c main_arg1 (by decide)
    _ = W33 m ρ c (Proc.devRef .tc main_arg1) := keep_main_part15_ops1_arg1 _
    _ = W32 m ρ c (Proc.devRef .tc main_arg1) := W33_of_ne m ρ c main_arg1 (by decide)
    _ = W31 m ρ c (Proc.devRef .tc main_arg1) := keep_main_part15_ops0_arg1 _
    _ = W30 m ρ c (Proc.devRef .tc main_arg1) := keep_main_part14_ops0_arg1 _
    _ = W29 m ρ c (Proc.devRef .tc main_arg1) := keep_main_part13_ops0_arg1 _
    _ = W28 m ρ c (Proc.devRef .tc main_arg1) := keep_main_part12_ops0_arg1 _
    _ = W27 m ρ c (Proc.devRef .tc main_arg1) := keep_main_part11_ops0_arg1 _
    _ = W26 m ρ c (Proc.devRef .tc main_arg1) := keep_main_part10_ops4_arg1 _
    _ = W25 m ρ c (Proc.devRef .tc main_arg1) := W26_of_ne m ρ c main_arg1 (by decide)
    _ = W24 m ρ c (Proc.devRef .tc main_arg1) := keep_main_part10_ops3_arg1 _
    _ = W23 m ρ c (Proc.devRef .tc main_arg1) := W24_of_ne m ρ c main_arg1 (by decide)
    _ = W22 m ρ c (Proc.devRef .tc main_arg1) := keep_main_part10_ops2_arg1 _
    _ = W21 m ρ c (Proc.devRef .tc main_arg1) := W22_of_ne m ρ c main_arg1 (by decide)
    _ = W20 m ρ c (Proc.devRef .tc main_arg1) := keep_main_part10_ops1_arg1 _
    _ = W19 m ρ c (Proc.devRef .tc main_arg1) := W20_of_ne m ρ c main_arg1 (by decide)
    _ = W18 m ρ c (Proc.devRef .tc main_arg1) := keep_main_part10_ops0_arg1 _
    _ = W17 m ρ c (Proc.devRef .tc main_arg1) := keep_main_part9_ops0_arg1 _
    _ = W16 m ρ c (Proc.devRef .tc main_arg1) := keep_main_part8_ops0_arg1 _
    _ = W15 m ρ c (Proc.devRef .tc main_arg1) := keep_main_part7_ops0_arg1 _
    _ = W14 m ρ c (Proc.devRef .tc main_arg1) := keep_main_part6_ops0_arg1 _
    _ = W13 m ρ c (Proc.devRef .tc main_arg1) := keep_main_part5_ops3_arg1 _
    _ = W12 m ρ c (Proc.devRef .tc main_arg1) := W13_of_ne m ρ c main_arg1 (by decide)
    _ = W11 m ρ c (Proc.devRef .tc main_arg1) := keep_main_part5_ops2_arg1 _
    _ = W10 m ρ c (Proc.devRef .tc main_arg1) := W11_of_ne m ρ c main_arg1 (by decide)
    _ = W9 m ρ c (Proc.devRef .tc main_arg1) := keep_main_part5_ops1_arg1 _
    _ = W8 m ρ c (Proc.devRef .tc main_arg1) := (W9_arr m ρ c 1).trans (((dat1 (V8 m ρ) c).arrAt_in 1 rfl _).trans (A_eq1 (V8 m ρ) c 1))
    _ = W7 m ρ c (Proc.devRef .tc main_arg1) := keep_main_part5_ops0_arg1 _
    _ = W6 m ρ c (Proc.devRef .tc main_arg1) := keep_main_part4_ops1_arg1 _
    _ = W5 m ρ c (Proc.devRef .tc main_arg1) := W6_of_ne m ρ c main_arg1 (by decide)
    _ = W4 m ρ c (Proc.devRef .tc main_arg1) := keep_main_part4_ops0_arg1 _
    _ = W3 m ρ c (Proc.devRef .tc main_arg1) := keep_main_part3_ops0_arg1 _
    _ = W2 m ρ c (Proc.devRef .tc main_arg1) := keep_main_part2_ops0_arg1 _
    _ = W1 m ρ c (Proc.devRef .tc main_arg1) := keep_main_part1_ops0_arg1 _
    _ = W0 m ρ c (Proc.devRef .tc main_arg1) := keep_main_part0_ops0_arg1 _
    _ = m ((c : Thread nD τ).loc main_arg1) := rfl

theorem Wfin_arg2 (c : Dev nD) : Wfin m ρ c (Proc.devRef .tc main_arg2) = m ((c : Thread nD τ).loc main_arg2) :=
  calc Wfin m ρ c (Proc.devRef .tc main_arg2)
    _ = W43 m ρ c (Proc.devRef .tc main_arg2) := W44_of_ne m ρ c main_arg2 (by decide)
    _ = W42 m ρ c (Proc.devRef .tc main_arg2) := keep_main_part16_ops2_arg2 _
    _ = W41 m ρ c (Proc.devRef .tc main_arg2) := W42_of_ne m ρ c main_arg2 (by decide)
    _ = W40 m ρ c (Proc.devRef .tc main_arg2) := keep_main_part16_ops1_arg2 _
    _ = W39 m ρ c (Proc.devRef .tc main_arg2) := W40_of_ne m ρ c main_arg2 (by decide)
    _ = W38 m ρ c (Proc.devRef .tc main_arg2) := keep_main_part16_ops0_arg2 _
    _ = W37 m ρ c (Proc.devRef .tc main_arg2) := keep_main_part15_ops3_arg2 _
    _ = W36 m ρ c (Proc.devRef .tc main_arg2) := W37_of_ne m ρ c main_arg2 (by decide)
    _ = W35 m ρ c (Proc.devRef .tc main_arg2) := keep_main_part15_ops2_arg2 _
    _ = W34 m ρ c (Proc.devRef .tc main_arg2) := W35_of_ne m ρ c main_arg2 (by decide)
    _ = W33 m ρ c (Proc.devRef .tc main_arg2) := keep_main_part15_ops1_arg2 _
    _ = W32 m ρ c (Proc.devRef .tc main_arg2) := W33_of_ne m ρ c main_arg2 (by decide)
    _ = W31 m ρ c (Proc.devRef .tc main_arg2) := keep_main_part15_ops0_arg2 _
    _ = W30 m ρ c (Proc.devRef .tc main_arg2) := keep_main_part14_ops0_arg2 _
    _ = W29 m ρ c (Proc.devRef .tc main_arg2) := keep_main_part13_ops0_arg2 _
    _ = W28 m ρ c (Proc.devRef .tc main_arg2) := keep_main_part12_ops0_arg2 _
    _ = W27 m ρ c (Proc.devRef .tc main_arg2) := keep_main_part11_ops0_arg2 _
    _ = W26 m ρ c (Proc.devRef .tc main_arg2) := keep_main_part10_ops4_arg2 _
    _ = W25 m ρ c (Proc.devRef .tc main_arg2) := W26_of_ne m ρ c main_arg2 (by decide)
    _ = W24 m ρ c (Proc.devRef .tc main_arg2) := keep_main_part10_ops3_arg2 _
    _ = W23 m ρ c (Proc.devRef .tc main_arg2) := W24_of_ne m ρ c main_arg2 (by decide)
    _ = W22 m ρ c (Proc.devRef .tc main_arg2) := keep_main_part10_ops2_arg2 _
    _ = W21 m ρ c (Proc.devRef .tc main_arg2) := W22_of_ne m ρ c main_arg2 (by decide)
    _ = W20 m ρ c (Proc.devRef .tc main_arg2) := keep_main_part10_ops1_arg2 _
    _ = W19 m ρ c (Proc.devRef .tc main_arg2) := W20_of_ne m ρ c main_arg2 (by decide)
    _ = W18 m ρ c (Proc.devRef .tc main_arg2) := keep_main_part10_ops0_arg2 _
    _ = W17 m ρ c (Proc.devRef .tc main_arg2) := keep_main_part9_ops0_arg2 _
    _ = W16 m ρ c (Proc.devRef .tc main_arg2) := keep_main_part8_ops0_arg2 _
    _ = W15 m ρ c (Proc.devRef .tc main_arg2) := keep_main_part7_ops0_arg2 _
    _ = W14 m ρ c (Proc.devRef .tc main_arg2) := keep_main_part6_ops0_arg2 _
    _ = W13 m ρ c (Proc.devRef .tc main_arg2) := keep_main_part5_ops3_arg2 _
    _ = W12 m ρ c (Proc.devRef .tc main_arg2) := W13_of_ne m ρ c main_arg2 (by decide)
    _ = W11 m ρ c (Proc.devRef .tc main_arg2) := keep_main_part5_ops2_arg2 _
    _ = W10 m ρ c (Proc.devRef .tc main_arg2) := (W11_arr m ρ c 1).trans (((dat2 (V10 m ρ) c).arrAt_in 1 rfl _).trans (A_eq2 (V10 m ρ) c 1))
    _ = W9 m ρ c (Proc.devRef .tc main_arg2) := keep_main_part5_ops1_arg2 _
    _ = W8 m ρ c (Proc.devRef .tc main_arg2) := W9_of_ne m ρ c main_arg2 (by decide)
    _ = W7 m ρ c (Proc.devRef .tc main_arg2) := keep_main_part5_ops0_arg2 _
    _ = W6 m ρ c (Proc.devRef .tc main_arg2) := keep_main_part4_ops1_arg2 _
    _ = W5 m ρ c (Proc.devRef .tc main_arg2) := W6_of_ne m ρ c main_arg2 (by decide)
    _ = W4 m ρ c (Proc.devRef .tc main_arg2) := keep_main_part4_ops0_arg2 _
    _ = W3 m ρ c (Proc.devRef .tc main_arg2) := keep_main_part3_ops0_arg2 _
    _ = W2 m ρ c (Proc.devRef .tc main_arg2) := keep_main_part2_ops0_arg2 _
    _ = W1 m ρ c (Proc.devRef .tc main_arg2) := keep_main_part1_ops0_arg2 _
    _ = W0 m ρ c (Proc.devRef .tc main_arg2) := keep_main_part0_ops0_arg2 _
    _ = m ((c : Thread nD τ).loc main_arg2) := rfl

theorem Wfin_arg3 (c : Dev nD) : Wfin m ρ c (Proc.devRef .tc main_arg3) = m ((c : Thread nD τ).loc main_arg3) :=
  calc Wfin m ρ c (Proc.devRef .tc main_arg3)
    _ = W43 m ρ c (Proc.devRef .tc main_arg3) := W44_of_ne m ρ c main_arg3 (by decide)
    _ = W42 m ρ c (Proc.devRef .tc main_arg3) := keep_main_part16_ops2_arg3 _
    _ = W41 m ρ c (Proc.devRef .tc main_arg3) := W42_of_ne m ρ c main_arg3 (by decide)
    _ = W40 m ρ c (Proc.devRef .tc main_arg3) := keep_main_part16_ops1_arg3 _
    _ = W39 m ρ c (Proc.devRef .tc main_arg3) := W40_of_ne m ρ c main_arg3 (by decide)
    _ = W38 m ρ c (Proc.devRef .tc main_arg3) := keep_main_part16_ops0_arg3 _
    _ = W37 m ρ c (Proc.devRef .tc main_arg3) := keep_main_part15_ops3_arg3 _
    _ = W36 m ρ c (Proc.devRef .tc main_arg3) := W37_of_ne m ρ c main_arg3 (by decide)
    _ = W35 m ρ c (Proc.devRef .tc main_arg3) := keep_main_part15_ops2_arg3 _
    _ = W34 m ρ c (Proc.devRef .tc main_arg3) := W35_of_ne m ρ c main_arg3 (by decide)
    _ = W33 m ρ c (Proc.devRef .tc main_arg3) := keep_main_part15_ops1_arg3 _
    _ = W32 m ρ c (Proc.devRef .tc main_arg3) := W33_of_ne m ρ c main_arg3 (by decide)
    _ = W31 m ρ c (Proc.devRef .tc main_arg3) := keep_main_part15_ops0_arg3 _
    _ = W30 m ρ c (Proc.devRef .tc main_arg3) := keep_main_part14_ops0_arg3 _
    _ = W29 m ρ c (Proc.devRef .tc main_arg3) := keep_main_part13_ops0_arg3 _
    _ = W28 m ρ c (Proc.devRef .tc main_arg3) := keep_main_part12_ops0_arg3 _
    _ = W27 m ρ c (Proc.devRef .tc main_arg3) := keep_main_part11_ops0_arg3 _
    _ = W26 m ρ c (Proc.devRef .tc main_arg3) := keep_main_part10_ops4_arg3 _
    _ = W25 m ρ c (Proc.devRef .tc main_arg3) := W26_of_ne m ρ c main_arg3 (by decide)
    _ = W24 m ρ c (Proc.devRef .tc main_arg3) := keep_main_part10_ops3_arg3 _
    _ = W23 m ρ c (Proc.devRef .tc main_arg3) := W24_of_ne m ρ c main_arg3 (by decide)
    _ = W22 m ρ c (Proc.devRef .tc main_arg3) := keep_main_part10_ops2_arg3 _
    _ = W21 m ρ c (Proc.devRef .tc main_arg3) := W22_of_ne m ρ c main_arg3 (by decide)
    _ = W20 m ρ c (Proc.devRef .tc main_arg3) := keep_main_part10_ops1_arg3 _
    _ = W19 m ρ c (Proc.devRef .tc main_arg3) := W20_of_ne m ρ c main_arg3 (by decide)
    _ = W18 m ρ c (Proc.devRef .tc main_arg3) := keep_main_part10_ops0_arg3 _
    _ = W17 m ρ c (Proc.devRef .tc main_arg3) := keep_main_part9_ops0_arg3 _
    _ = W16 m ρ c (Proc.devRef .tc main_arg3) := keep_main_part8_ops0_arg3 _
    _ = W15 m ρ c (Proc.devRef .tc main_arg3) := keep_main_part7_ops0_arg3 _
    _ = W14 m ρ c (Proc.devRef .tc main_arg3) := keep_main_part6_ops0_arg3 _
    _ = W13 m ρ c (Proc.devRef .tc main_arg3) := keep_main_part5_ops3_arg3 _
    _ = W12 m ρ c (Proc.devRef .tc main_arg3) := (W13_arr m ρ c 1).trans (((dat3 (V12 m ρ) c).arrAt_in 1 rfl _).trans (A_eq3 (V12 m ρ) c 1))
    _ = W11 m ρ c (Proc.devRef .tc main_arg3) := keep_main_part5_ops2_arg3 _
    _ = W10 m ρ c (Proc.devRef .tc main_arg3) := W11_of_ne m ρ c main_arg3 (by decide)
    _ = W9 m ρ c (Proc.devRef .tc main_arg3) := keep_main_part5_ops1_arg3 _
    _ = W8 m ρ c (Proc.devRef .tc main_arg3) := W9_of_ne m ρ c main_arg3 (by decide)
    _ = W7 m ρ c (Proc.devRef .tc main_arg3) := keep_main_part5_ops0_arg3 _
    _ = W6 m ρ c (Proc.devRef .tc main_arg3) := keep_main_part4_ops1_arg3 _
    _ = W5 m ρ c (Proc.devRef .tc main_arg3) := W6_of_ne m ρ c main_arg3 (by decide)
    _ = W4 m ρ c (Proc.devRef .tc main_arg3) := keep_main_part4_ops0_arg3 _
    _ = W3 m ρ c (Proc.devRef .tc main_arg3) := keep_main_part3_ops0_arg3 _
    _ = W2 m ρ c (Proc.devRef .tc main_arg3) := keep_main_part2_ops0_arg3 _
    _ = W1 m ρ c (Proc.devRef .tc main_arg3) := keep_main_part1_ops0_arg3 _
    _ = W0 m ρ c (Proc.devRef .tc main_arg3) := keep_main_part0_ops0_arg3 _
    _ = m ((c : Thread nD τ).loc main_arg3) := rfl

theorem Wfin_arg4 (c : Dev nD) : Wfin m ρ c (Proc.devRef .tc main_arg4) = m ((c : Thread nD τ).loc main_arg4) :=
  calc Wfin m ρ c (Proc.devRef .tc main_arg4)
    _ = W43 m ρ c (Proc.devRef .tc main_arg4) := W44_of_ne m ρ c main_arg4 (by decide)
    _ = W42 m ρ c (Proc.devRef .tc main_arg4) := keep_main_part16_ops2_arg4 _
    _ = W41 m ρ c (Proc.devRef .tc main_arg4) := W42_of_ne m ρ c main_arg4 (by decide)
    _ = W40 m ρ c (Proc.devRef .tc main_arg4) := keep_main_part16_ops1_arg4 _
    _ = W39 m ρ c (Proc.devRef .tc main_arg4) := W40_of_ne m ρ c main_arg4 (by decide)
    _ = W38 m ρ c (Proc.devRef .tc main_arg4) := keep_main_part16_ops0_arg4 _
    _ = W37 m ρ c (Proc.devRef .tc main_arg4) := keep_main_part15_ops3_arg4 _
    _ = W36 m ρ c (Proc.devRef .tc main_arg4) := W37_of_ne m ρ c main_arg4 (by decide)
    _ = W35 m ρ c (Proc.devRef .tc main_arg4) := keep_main_part15_ops2_arg4 _
    _ = W34 m ρ c (Proc.devRef .tc main_arg4) := W35_of_ne m ρ c main_arg4 (by decide)
    _ = W33 m ρ c (Proc.devRef .tc main_arg4) := keep_main_part15_ops1_arg4 _
    _ = W32 m ρ c (Proc.devRef .tc main_arg4) := W33_of_ne m ρ c main_arg4 (by decide)
    _ = W31 m ρ c (Proc.devRef .tc main_arg4) := keep_main_part15_ops0_arg4 _
    _ = W30 m ρ c (Proc.devRef .tc main_arg4) := keep_main_part14_ops0_arg4 _
    _ = W29 m ρ c (Proc.devRef .tc main_arg4) := keep_main_part13_ops0_arg4 _
    _ = W28 m ρ c (Proc.devRef .tc main_arg4) := keep_main_part12_ops0_arg4 _
    _ = W27 m ρ c (Proc.devRef .tc main_arg4) := keep_main_part11_ops0_arg4 _
    _ = W26 m ρ c (Proc.devRef .tc main_arg4) := keep_main_part10_ops4_arg4 _
    _ = W25 m ρ c (Proc.devRef .tc main_arg4) := W26_of_ne m ρ c main_arg4 (by decide)
    _ = W24 m ρ c (Proc.devRef .tc main_arg4) := keep_main_part10_ops3_arg4 _
    _ = W23 m ρ c (Proc.devRef .tc main_arg4) := W24_of_ne m ρ c main_arg4 (by decide)
    _ = W22 m ρ c (Proc.devRef .tc main_arg4) := keep_main_part10_ops2_arg4 _
    _ = W21 m ρ c (Proc.devRef .tc main_arg4) := W22_of_ne m ρ c main_arg4 (by decide)
    _ = W20 m ρ c (Proc.devRef .tc main_arg4) := keep_main_part10_ops1_arg4 _
    _ = W19 m ρ c (Proc.devRef .tc main_arg4) := W20_of_ne m ρ c main_arg4 (by decide)
    _ = W18 m ρ c (Proc.devRef .tc main_arg4) := keep_main_part10_ops0_arg4 _
    _ = W17 m ρ c (Proc.devRef .tc main_arg4) := keep_main_part9_ops0_arg4 _
    _ = W16 m ρ c (Proc.devRef .tc main_arg4) := keep_main_part8_ops0_arg4 _
    _ = W15 m ρ c (Proc.devRef .tc main_arg4) := keep_main_part7_ops0_arg4 _
    _ = W14 m ρ c (Proc.devRef .tc main_arg4) := keep_main_part6_ops0_arg4 _
    _ = W13 m ρ c (Proc.devRef .tc main_arg4) := keep_main_part5_ops3_arg4 _
    _ = W12 m ρ c (Proc.devRef .tc main_arg4) := W13_of_ne m ρ c main_arg4 (by decide)
    _ = W11 m ρ c (Proc.devRef .tc main_arg4) := keep_main_part5_ops2_arg4 _
    _ = W10 m ρ c (Proc.devRef .tc main_arg4) := W11_of_ne m ρ c main_arg4 (by decide)
    _ = W9 m ρ c (Proc.devRef .tc main_arg4) := keep_main_part5_ops1_arg4 _
    _ = W8 m ρ c (Proc.devRef .tc main_arg4) := W9_of_ne m ρ c main_arg4 (by decide)
    _ = W7 m ρ c (Proc.devRef .tc main_arg4) := keep_main_part5_ops0_arg4 _
    _ = W6 m ρ c (Proc.devRef .tc main_arg4) := keep_main_part4_ops1_arg4 _
    _ = W5 m ρ c (Proc.devRef .tc main_arg4) := W6_of_ne m ρ c main_arg4 (by decide)
    _ = W4 m ρ c (Proc.devRef .tc main_arg4) := keep_main_part4_ops0_arg4 _
    _ = W3 m ρ c (Proc.devRef .tc main_arg4) := keep_main_part3_ops0_arg4 _
    _ = W2 m ρ c (Proc.devRef .tc main_arg4) := keep_main_part2_ops0_arg4 _
    _ = W1 m ρ c (Proc.devRef .tc main_arg4) := keep_main_part1_ops0_arg4 _
    _ = W0 m ρ c (Proc.devRef .tc main_arg4) := keep_main_part0_ops0_arg4 _
    _ = m ((c : Thread nD τ).loc main_arg4) := rfl

theorem Wfin_arg5 (c : Dev nD) : Wfin m ρ c (Proc.devRef .tc main_arg5) = m ((c : Thread nD τ).loc main_arg5) :=
  calc Wfin m ρ c (Proc.devRef .tc main_arg5)
    _ = W43 m ρ c (Proc.devRef .tc main_arg5) := W44_of_ne m ρ c main_arg5 (by decide)
    _ = W42 m ρ c (Proc.devRef .tc main_arg5) := keep_main_part16_ops2_arg5 _
    _ = W41 m ρ c (Proc.devRef .tc main_arg5) := W42_of_ne m ρ c main_arg5 (by decide)
    _ = W40 m ρ c (Proc.devRef .tc main_arg5) := keep_main_part16_ops1_arg5 _
    _ = W39 m ρ c (Proc.devRef .tc main_arg5) := W40_of_ne m ρ c main_arg5 (by decide)
    _ = W38 m ρ c (Proc.devRef .tc main_arg5) := keep_main_part16_ops0_arg5 _
    _ = W37 m ρ c (Proc.devRef .tc main_arg5) := keep_main_part15_ops3_arg5 _
    _ = W36 m ρ c (Proc.devRef .tc main_arg5) := W37_of_ne m ρ c main_arg5 (by decide)
    _ = W35 m ρ c (Proc.devRef .tc main_arg5) := keep_main_part15_ops2_arg5 _
    _ = W34 m ρ c (Proc.devRef .tc main_arg5) := W35_of_ne m ρ c main_arg5 (by decide)
    _ = W33 m ρ c (Proc.devRef .tc main_arg5) := keep_main_part15_ops1_arg5 _
    _ = W32 m ρ c (Proc.devRef .tc main_arg5) := W33_of_ne m ρ c main_arg5 (by decide)
    _ = W31 m ρ c (Proc.devRef .tc main_arg5) := keep_main_part15_ops0_arg5 _
    _ = W30 m ρ c (Proc.devRef .tc main_arg5) := keep_main_part14_ops0_arg5 _
    _ = W29 m ρ c (Proc.devRef .tc main_arg5) := keep_main_part13_ops0_arg5 _
    _ = W28 m ρ c (Proc.devRef .tc main_arg5) := keep_main_part12_ops0_arg5 _
    _ = W27 m ρ c (Proc.devRef .tc main_arg5) := keep_main_part11_ops0_arg5 _
    _ = W26 m ρ c (Proc.devRef .tc main_arg5) := keep_main_part10_ops4_arg5 _
    _ = W25 m ρ c (Proc.devRef .tc main_arg5) := W26_of_ne m ρ c main_arg5 (by decide)
    _ = W24 m ρ c (Proc.devRef .tc main_arg5) := keep_main_part10_ops3_arg5 _
    _ = W23 m ρ c (Proc.devRef .tc main_arg5) := W24_of_ne m ρ c main_arg5 (by decide)
    _ = W22 m ρ c (Proc.devRef .tc main_arg5) := keep_main_part10_ops2_arg5 _
    _ = W21 m ρ c (Proc.devRef .tc main_arg5) := W22_of_ne m ρ c main_arg5 (by decide)
    _ = W20 m ρ c (Proc.devRef .tc main_arg5) := keep_main_part10_ops1_arg5 _
    _ = W19 m ρ c (Proc.devRef .tc main_arg5) := W20_of_ne m ρ c main_arg5 (by decide)
    _ = W18 m ρ c (Proc.devRef .tc main_arg5) := keep_main_part10_ops0_arg5 _
    _ = W17 m ρ c (Proc.devRef .tc main_arg5) := keep_main_part9_ops0_arg5 _
    _ = W16 m ρ c (Proc.devRef .tc main_arg5) := keep_main_part8_ops0_arg5 _
    _ = W15 m ρ c (Proc.devRef .tc main_arg5) := keep_main_part7_ops0_arg5 _
    _ = W14 m ρ c (Proc.devRef .tc main_arg5) := keep_main_part6_ops0_arg5 _
    _ = W13 m ρ c (Proc.devRef .tc main_arg5) := keep_main_part5_ops3_arg5 _
    _ = W12 m ρ c (Proc.devRef .tc main_arg5) := W13_of_ne m ρ c main_arg5 (by decide)
    _ = W11 m ρ c (Proc.devRef .tc main_arg5) := keep_main_part5_ops2_arg5 _
    _ = W10 m ρ c (Proc.devRef .tc main_arg5) := W11_of_ne m ρ c main_arg5 (by decide)
    _ = W9 m ρ c (Proc.devRef .tc main_arg5) := keep_main_part5_ops1_arg5 _
    _ = W8 m ρ c (Proc.devRef .tc main_arg5) := W9_of_ne m ρ c main_arg5 (by decide)
    _ = W7 m ρ c (Proc.devRef .tc main_arg5) := keep_main_part5_ops0_arg5 _
    _ = W6 m ρ c (Proc.devRef .tc main_arg5) := keep_main_part4_ops1_arg5 _
    _ = W5 m ρ c (Proc.devRef .tc main_arg5) := W6_of_ne m ρ c main_arg5 (by decide)
    _ = W4 m ρ c (Proc.devRef .tc main_arg5) := keep_main_part4_ops0_arg5 _
    _ = W3 m ρ c (Proc.devRef .tc main_arg5) := keep_main_part3_ops0_arg5 _
    _ = W2 m ρ c (Proc.devRef .tc main_arg5) := keep_main_part2_ops0_arg5 _
    _ = W1 m ρ c (Proc.devRef .tc main_arg5) := keep_main_part1_ops0_arg5 _
    _ = W0 m ρ c (Proc.devRef .tc main_arg5) := keep_main_part0_ops0_arg5 _
    _ = m ((c : Thread nD τ).loc main_arg5) := rfl

end Cert.KernelIdeal.Hand

end
-- ==== Proof.KI.Args1.lean ====
import proofs.«125545_j64845416235624_1_alg».proof.Proof.KI.Fold
import proofs.«125545_j64845416235624_1_alg».proof.Proof.KI.Keep
import proofs.«125545_j64845416235624_1_alg».proof.Proof.KI.KeepArgs0
import proofs.«125545_j64845416235624_1_alg».proof.Proof.KI.KeepArgs1

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! # The argument arrays end as launched (arguments 6 to 11)

No host operation writes an argument array, and no region does: a region either does not touch it, or reads it through
an input window, whose array the pipeline leaves as entered. So the fold of the buffer contents through @main's 44
items, read at an argument's buffer, walks back item by item to the launch memory. -/

theorem Wfin_arg6 (c : Dev nD) : Wfin m ρ c (Proc.devRef .tc main_arg6) = m ((c : Thread nD τ).loc main_arg6) :=
  calc Wfin m ρ c (Proc.devRef .tc main_arg6)
    _ = W43 m ρ c (Proc.devRef .tc main_arg6) := W44_of_ne m ρ c main_arg6 (by decide)
    _ = W42 m ρ c (Proc.devRef .tc main_arg6) := keep_main_part16_ops2_arg6 _
    _ = W41 m ρ c (Proc.devRef .tc main_arg6) := W42_of_ne m ρ c main_arg6 (by decide)
    _ = W40 m ρ c (Proc.devRef .tc main_arg6) := keep_main_part16_ops1_arg6 _
    _ = W39 m ρ c (Proc.devRef .tc main_arg6) := W40_of_ne m ρ c main_arg6 (by decide)
    _ = W38 m ρ c (Proc.devRef .tc main_arg6) := keep_main_part16_ops0_arg6 _
    _ = W37 m ρ c (Proc.devRef .tc main_arg6) := keep_main_part15_ops3_arg6 _
    _ = W36 m ρ c (Proc.devRef .tc main_arg6) := W37_of_ne m ρ c main_arg6 (by decide)
    _ = W35 m ρ c (Proc.devRef .tc main_arg6) := keep_main_part15_ops2_arg6 _
    _ = W34 m ρ c (Proc.devRef .tc main_arg6) := W35_of_ne m ρ c main_arg6 (by decide)
    _ = W33 m ρ c (Proc.devRef .tc main_arg6) := keep_main_part15_ops1_arg6 _
    _ = W32 m ρ c (Proc.devRef .tc main_arg6) := W33_of_ne m ρ c main_arg6 (by decide)
    _ = W31 m ρ c (Proc.devRef .tc main_arg6) := keep_main_part15_ops0_arg6 _
    _ = W30 m ρ c (Proc.devRef .tc main_arg6) := keep_main_part14_ops0_arg6 _
    _ = W29 m ρ c (Proc.devRef .tc main_arg6) := keep_main_part13_ops0_arg6 _
    _ = W28 m ρ c (Proc.devRef .tc main_arg6) := keep_main_part12_ops0_arg6 _
    _ = W27 m ρ c (Proc.devRef .tc main_arg6) := keep_main_part11_ops0_arg6 _
    _ = W26 m ρ c (Proc.devRef .tc main_arg6) := keep_main_part10_ops4_arg6 _
    _ = W25 m ρ c (Proc.devRef .tc main_arg6) := W26_of_ne m ρ c main_arg6 (by decide)
    _ = W24 m ρ c (Proc.devRef .tc main_arg6) := keep_main_part10_ops3_arg6 _
    _ = W23 m ρ c (Proc.devRef .tc main_arg6) := W24_of_ne m ρ c main_arg6 (by decide)
    _ = W22 m ρ c (Proc.devRef .tc main_arg6) := keep_main_part10_ops2_arg6 _
    _ = W21 m ρ c (Proc.devRef .tc main_arg6) := W22_of_ne m ρ c main_arg6 (by decide)
    _ = W20 m ρ c (Proc.devRef .tc main_arg6) := keep_main_part10_ops1_arg6 _
    _ = W19 m ρ c (Proc.devRef .tc main_arg6) := W20_of_ne m ρ c main_arg6 (by decide)
    _ = W18 m ρ c (Proc.devRef .tc main_arg6) := keep_main_part10_ops0_arg6 _
    _ = W17 m ρ c (Proc.devRef .tc main_arg6) := keep_main_part9_ops0_arg6 _
    _ = W16 m ρ c (Proc.devRef .tc main_arg6) := keep_main_part8_ops0_arg6 _
    _ = W15 m ρ c (Proc.devRef .tc main_arg6) := keep_main_part7_ops0_arg6 _
    _ = W14 m ρ c (Proc.devRef .tc main_arg6) := keep_main_part6_ops0_arg6 _
    _ = W13 m ρ c (Proc.devRef .tc main_arg6) := keep_main_part5_ops3_arg6 _
    _ = W12 m ρ c (Proc.devRef .tc main_arg6) := W13_of_ne m ρ c main_arg6 (by decide)
    _ = W11 m ρ c (Proc.devRef .tc main_arg6) := keep_main_part5_ops2_arg6 _
    _ = W10 m ρ c (Proc.devRef .tc main_arg6) := W11_of_ne m ρ c main_arg6 (by decide)
    _ = W9 m ρ c (Proc.devRef .tc main_arg6) := keep_main_part5_ops1_arg6 _
    _ = W8 m ρ c (Proc.devRef .tc main_arg6) := W9_of_ne m ρ c main_arg6 (by decide)
    _ = W7 m ρ c (Proc.devRef .tc main_arg6) := keep_main_part5_ops0_arg6 _
    _ = W6 m ρ c (Proc.devRef .tc main_arg6) := keep_main_part4_ops1_arg6 _
    _ = W5 m ρ c (Proc.devRef .tc main_arg6) := W6_of_ne m ρ c main_arg6 (by decide)
    _ = W4 m ρ c (Proc.devRef .tc main_arg6) := keep_main_part4_ops0_arg6 _
    _ = W3 m ρ c (Proc.devRef .tc main_arg6) := keep_main_part3_ops0_arg6 _
    _ = W2 m ρ c (Proc.devRef .tc main_arg6) := keep_main_part2_ops0_arg6 _
    _ = W1 m ρ c (Proc.devRef .tc main_arg6) := keep_main_part1_ops0_arg6 _
    _ = W0 m ρ c (Proc.devRef .tc main_arg6) := keep_main_part0_ops0_arg6 _
    _ = m ((c : Thread nD τ).loc main_arg6) := rfl

theorem Wfin_arg7 (c : Dev nD) : Wfin m ρ c (Proc.devRef .tc main_arg7) = m ((c : Thread nD τ).loc main_arg7) :=
  calc Wfin m ρ c (Proc.devRef .tc main_arg7)
    _ = W43 m ρ c (Proc.devRef .tc main_arg7) := W44_of_ne m ρ c main_arg7 (by decide)
    _ = W42 m ρ c (Proc.devRef .tc main_arg7) := keep_main_part16_ops2_arg7 _
    _ = W41 m ρ c (Proc.devRef .tc main_arg7) := (W42_arr m ρ c 1).trans (((dat12 (V41 m ρ) c).arrAt_in 1 rfl _).trans (A_eq12 (V41 m ρ) c 1))
    _ = W40 m ρ c (Proc.devRef .tc main_arg7) := keep_main_part16_ops1_arg7 _
    _ = W39 m ρ c (Proc.devRef .tc main_arg7) := W40_of_ne m ρ c main_arg7 (by decide)
    _ = W38 m ρ c (Proc.devRef .tc main_arg7) := keep_main_part16_ops0_arg7 _
    _ = W37 m ρ c (Proc.devRef .tc main_arg7) := keep_main_part15_ops3_arg7 _
    _ = W36 m ρ c (Proc.devRef .tc main_arg7) := W37_of_ne m ρ c main_arg7 (by decide)
    _ = W35 m ρ c (Proc.devRef .tc main_arg7) := keep_main_part15_ops2_arg7 _
    _ = W34 m ρ c (Proc.devRef .tc main_arg7) := W35_of_ne m ρ c main_arg7 (by decide)
    _ = W33 m ρ c (Proc.devRef .tc main_arg7) := keep_main_part15_ops1_arg7 _
    _ = W32 m ρ c (Proc.devRef .tc main_arg7) := W33_of_ne m ρ c main_arg7 (by decide)
    _ = W31 m ρ c (Proc.devRef .tc main_arg7) := keep_main_part15_ops0_arg7 _
    _ = W30 m ρ c (Proc.devRef .tc main_arg7) := keep_main_part14_ops0_arg7 _
    _ = W29 m ρ c (Proc.devRef .tc main_arg7) := keep_main_part13_ops0_arg7 _
    _ = W28 m ρ c (Proc.devRef .tc main_arg7) := keep_main_part12_ops0_arg7 _
    _ = W27 m ρ c (Proc.devRef .tc main_arg7) := keep_main_part11_ops0_arg7 _
    _ = W26 m ρ c (Proc.devRef .tc main_arg7) := keep_main_part10_ops4_arg7 _
    _ = W25 m ρ c (Proc.devRef .tc main_arg7) := W26_of_ne m ρ c main_arg7 (by decide)
    _ = W24 m ρ c (Proc.devRef .tc main_arg7) := keep_main_part10_ops3_arg7 _
    _ = W23 m ρ c (Proc.devRef .tc main_arg7) := W24_of_ne m ρ c main_arg7 (by decide)
    _ = W22 m ρ c (Proc.devRef .tc main_arg7) := keep_main_part10_ops2_arg7 _
    _ = W21 m ρ c (Proc.devRef .tc main_arg7) := W22_of_ne m ρ c main_arg7 (by decide)
    _ = W20 m ρ c (Proc.devRef .tc main_arg7) := keep_main_part10_ops1_arg7 _
    _ = W19 m ρ c (Proc.devRef .tc main_arg7) := W20_of_ne m ρ c main_arg7 (by decide)
    _ = W18 m ρ c (Proc.devRef .tc main_arg7) := keep_main_part10_ops0_arg7 _
    _ = W17 m ρ c (Proc.devRef .tc main_arg7) := keep_main_part9_ops0_arg7 _
    _ = W16 m ρ c (Proc.devRef .tc main_arg7) := keep_main_part8_ops0_arg7 _
    _ = W15 m ρ c (Proc.devRef .tc main_arg7) := keep_main_part7_ops0_arg7 _
    _ = W14 m ρ c (Proc.devRef .tc main_arg7) := keep_main_part6_ops0_arg7 _
    _ = W13 m ρ c (Proc.devRef .tc main_arg7) := keep_main_part5_ops3_arg7 _
    _ = W12 m ρ c (Proc.devRef .tc main_arg7) := W13_of_ne m ρ c main_arg7 (by decide)
    _ = W11 m ρ c (Proc.devRef .tc main_arg7) := keep_main_part5_ops2_arg7 _
    _ = W10 m ρ c (Proc.devRef .tc main_arg7) := W11_of_ne m ρ c main_arg7 (by decide)
    _ = W9 m ρ c (Proc.devRef .tc main_arg7) := keep_main_part5_ops1_arg7 _
    _ = W8 m ρ c (Proc.devRef .tc main_arg7) := W9_of_ne m ρ c main_arg7 (by decide)
    _ = W7 m ρ c (Proc.devRef .tc main_arg7) := keep_main_part5_ops0_arg7 _
    _ = W6 m ρ c (Proc.devRef .tc main_arg7) := keep_main_part4_ops1_arg7 _
    _ = W5 m ρ c (Proc.devRef .tc main_arg7) := W6_of_ne m ρ c main_arg7 (by decide)
    _ = W4 m ρ c (Proc.devRef .tc main_arg7) := keep_main_part4_ops0_arg7 _
    _ = W3 m ρ c (Proc.devRef .tc main_arg7) := keep_main_part3_ops0_arg7 _
    _ = W2 m ρ c (Proc.devRef .tc main_arg7) := keep_main_part2_ops0_arg7 _
    _ = W1 m ρ c (Proc.devRef .tc main_arg7) := keep_main_part1_ops0_arg7 _
    _ = W0 m ρ c (Proc.devRef .tc main_arg7) := keep_main_part0_ops0_arg7 _
    _ = m ((c : Thread nD τ).loc main_arg7) := rfl

theorem Wfin_arg8 (c : Dev nD) : Wfin m ρ c (Proc.devRef .tc main_arg8) = m ((c : Thread nD τ).loc main_arg8) :=
  calc Wfin m ρ c (Proc.devRef .tc main_arg8)
    _ = W43 m ρ c (Proc.devRef .tc main_arg8) := W44_of_ne m ρ c main_arg8 (by decide)
    _ = W42 m ρ c (Proc.devRef .tc main_arg8) := keep_main_part16_ops2_arg8 _
    _ = W41 m ρ c (Proc.devRef .tc main_arg8) := W42_of_ne m ρ c main_arg8 (by decide)
    _ = W40 m ρ c (Proc.devRef .tc main_arg8) := keep_main_part16_ops1_arg8 _
    _ = W39 m ρ c (Proc.devRef .tc main_arg8) := W40_of_ne m ρ c main_arg8 (by decide)
    _ = W38 m ρ c (Proc.devRef .tc main_arg8) := keep_main_part16_ops0_arg8 _
    _ = W37 m ρ c (Proc.devRef .tc main_arg8) := keep_main_part15_ops3_arg8 _
    _ = W36 m ρ c (Proc.devRef .tc main_arg8) := W37_of_ne m ρ c main_arg8 (by decide)
    _ = W35 m ρ c (Proc.devRef .tc main_arg8) := keep_main_part15_ops2_arg8 _
    _ = W34 m ρ c (Proc.devRef .tc main_arg8) := W35_of_ne m ρ c main_arg8 (by decide)
    _ = W33 m ρ c (Proc.devRef .tc main_arg8) := keep_main_part15_ops1_arg8 _
    _ = W32 m ρ c (Proc.devRef .tc main_arg8) := W33_of_ne m ρ c main_arg8 (by decide)
    _ = W31 m ρ c (Proc.devRef .tc main_arg8) := keep_main_part15_ops0_arg8 _
    _ = W30 m ρ c (Proc.devRef .tc main_arg8) := keep_main_part14_ops0_arg8 _
    _ = W29 m ρ c (Proc.devRef .tc main_arg8) := keep_main_part13_ops0_arg8 _
    _ = W28 m ρ c (Proc.devRef .tc main_arg8) := keep_main_part12_ops0_arg8 _
    _ = W27 m ρ c (Proc.devRef .tc main_arg8) := keep_main_part11_ops0_arg8 _
    _ = W26 m ρ c (Proc.devRef .tc main_arg8) := keep_main_part10_ops4_arg8 _
    _ = W25 m ρ c (Proc.devRef .tc main_arg8) := W26_of_ne m ρ c main_arg8 (by decide)
    _ = W24 m ρ c (Proc.devRef .tc main_arg8) := keep_main_part10_ops3_arg8 _
    _ = W23 m ρ c (Proc.devRef .tc main_arg8) := W24_of_ne m ρ c main_arg8 (by decide)
    _ = W22 m ρ c (Proc.devRef .tc main_arg8) := keep_main_part10_ops2_arg8 _
    _ = W21 m ρ c (Proc.devRef .tc main_arg8) := W22_of_ne m ρ c main_arg8 (by decide)
    _ = W20 m ρ c (Proc.devRef .tc main_arg8) := keep_main_part10_ops1_arg8 _
    _ = W19 m ρ c (Proc.devRef .tc main_arg8) := W20_of_ne m ρ c main_arg8 (by decide)
    _ = W18 m ρ c (Proc.devRef .tc main_arg8) := keep_main_part10_ops0_arg8 _
    _ = W17 m ρ c (Proc.devRef .tc main_arg8) := keep_main_part9_ops0_arg8 _
    _ = W16 m ρ c (Proc.devRef .tc main_arg8) := keep_main_part8_ops0_arg8 _
    _ = W15 m ρ c (Proc.devRef .tc main_arg8) := keep_main_part7_ops0_arg8 _
    _ = W14 m ρ c (Proc.devRef .tc main_arg8) := keep_main_part6_ops0_arg8 _
    _ = W13 m ρ c (Proc.devRef .tc main_arg8) := keep_main_part5_ops3_arg8 _
    _ = W12 m ρ c (Proc.devRef .tc main_arg8) := W13_of_ne m ρ c main_arg8 (by decide)
    _ = W11 m ρ c (Proc.devRef .tc main_arg8) := keep_main_part5_ops2_arg8 _
    _ = W10 m ρ c (Proc.devRef .tc main_arg8) := W11_of_ne m ρ c main_arg8 (by decide)
    _ = W9 m ρ c (Proc.devRef .tc main_arg8) := keep_main_part5_ops1_arg8 _
    _ = W8 m ρ c (Proc.devRef .tc main_arg8) := W9_of_ne m ρ c main_arg8 (by decide)
    _ = W7 m ρ c (Proc.devRef .tc main_arg8) := keep_main_part5_ops0_arg8 _
    _ = W6 m ρ c (Proc.devRef .tc main_arg8) := keep_main_part4_ops1_arg8 _
    _ = W5 m ρ c (Proc.devRef .tc main_arg8) := W6_of_ne m ρ c main_arg8 (by decide)
    _ = W4 m ρ c (Proc.devRef .tc main_arg8) := keep_main_part4_ops0_arg8 _
    _ = W3 m ρ c (Proc.devRef .tc main_arg8) := keep_main_part3_ops0_arg8 _
    _ = W2 m ρ c (Proc.devRef .tc main_arg8) := keep_main_part2_ops0_arg8 _
    _ = W1 m ρ c (Proc.devRef .tc main_arg8) := keep_main_part1_ops0_arg8 _
    _ = W0 m ρ c (Proc.devRef .tc main_arg8) := keep_main_part0_ops0_arg8 _
    _ = m ((c : Thread nD τ).loc main_arg8) := rfl

theorem Wfin_arg9 (c : Dev nD) : Wfin m ρ c (Proc.devRef .tc main_arg9) = m ((c : Thread nD τ).loc main_arg9) :=
  calc Wfin m ρ c (Proc.devRef .tc main_arg9)
    _ = W43 m ρ c (Proc.devRef .tc main_arg9) := W44_of_ne m ρ c main_arg9 (by decide)
    _ = W42 m ρ c (Proc.devRef .tc main_arg9) := keep_main_part16_ops2_arg9 _
    _ = W41 m ρ c (Proc.devRef .tc main_arg9) := (W42_arr m ρ c 3).trans (((dat12 (V41 m ρ) c).arrAt_in 3 rfl _).trans (A_eq12 (V41 m ρ) c 3))
    _ = W40 m ρ c (Proc.devRef .tc main_arg9) := keep_main_part16_ops1_arg9 _
    _ = W39 m ρ c (Proc.devRef .tc main_arg9) := W40_of_ne m ρ c main_arg9 (by decide)
    _ = W38 m ρ c (Proc.devRef .tc main_arg9) := keep_main_part16_ops0_arg9 _
    _ = W37 m ρ c (Proc.devRef .tc main_arg9) := keep_main_part15_ops3_arg9 _
    _ = W36 m ρ c (Proc.devRef .tc main_arg9) := W37_of_ne m ρ c main_arg9 (by decide)
    _ = W35 m ρ c (Proc.devRef .tc main_arg9) := keep_main_part15_ops2_arg9 _
    _ = W34 m ρ c (Proc.devRef .tc main_arg9) := W35_of_ne m ρ c main_arg9 (by decide)
    _ = W33 m ρ c (Proc.devRef .tc main_arg9) := keep_main_part15_ops1_arg9 _
    _ = W32 m ρ c (Proc.devRef .tc main_arg9) := W33_of_ne m ρ c main_arg9 (by decide)
    _ = W31 m ρ c (Proc.devRef .tc main_arg9) := keep_main_part15_ops0_arg9 _
    _ = W30 m ρ c (Proc.devRef .tc main_arg9) := keep_main_part14_ops0_arg9 _
    _ = W29 m ρ c (Proc.devRef .tc main_arg9) := keep_main_part13_ops0_arg9 _
    _ = W28 m ρ c (Proc.devRef .tc main_arg9) := keep_main_part12_ops0_arg9 _
    _ = W27 m ρ c (Proc.devRef .tc main_arg9) := keep_main_part11_ops0_arg9 _
    _ = W26 m ρ c (Proc.devRef .tc main_arg9) := keep_main_part10_ops4_arg9 _
    _ = W25 m ρ c (Proc.devRef .tc main_arg9) := W26_of_ne m ρ c main_arg9 (by decide)
    _ = W24 m ρ c (Proc.devRef .tc main_arg9) := keep_main_part10_ops3_arg9 _
    _ = W23 m ρ c (Proc.devRef .tc main_arg9) := W24_of_ne m ρ c main_arg9 (by decide)
    _ = W22 m ρ c (Proc.devRef .tc main_arg9) := keep_main_part10_ops2_arg9 _
    _ = W21 m ρ c (Proc.devRef .tc main_arg9) := W22_of_ne m ρ c main_arg9 (by decide)
    _ = W20 m ρ c (Proc.devRef .tc main_arg9) := keep_main_part10_ops1_arg9 _
    _ = W19 m ρ c (Proc.devRef .tc main_arg9) := W20_of_ne m ρ c main_arg9 (by decide)
    _ = W18 m ρ c (Proc.devRef .tc main_arg9) := keep_main_part10_ops0_arg9 _
    _ = W17 m ρ c (Proc.devRef .tc main_arg9) := keep_main_part9_ops0_arg9 _
    _ = W16 m ρ c (Proc.devRef .tc main_arg9) := keep_main_part8_ops0_arg9 _
    _ = W15 m ρ c (Proc.devRef .tc main_arg9) := keep_main_part7_ops0_arg9 _
    _ = W14 m ρ c (Proc.devRef .tc main_arg9) := keep_main_part6_ops0_arg9 _
    _ = W13 m ρ c (Proc.devRef .tc main_arg9) := keep_main_part5_ops3_arg9 _
    _ = W12 m ρ c (Proc.devRef .tc main_arg9) := W13_of_ne m ρ c main_arg9 (by decide)
    _ = W11 m ρ c (Proc.devRef .tc main_arg9) := keep_main_part5_ops2_arg9 _
    _ = W10 m ρ c (Proc.devRef .tc main_arg9) := W11_of_ne m ρ c main_arg9 (by decide)
    _ = W9 m ρ c (Proc.devRef .tc main_arg9) := keep_main_part5_ops1_arg9 _
    _ = W8 m ρ c (Proc.devRef .tc main_arg9) := W9_of_ne m ρ c main_arg9 (by decide)
    _ = W7 m ρ c (Proc.devRef .tc main_arg9) := keep_main_part5_ops0_arg9 _
    _ = W6 m ρ c (Proc.devRef .tc main_arg9) := keep_main_part4_ops1_arg9 _
    _ = W5 m ρ c (Proc.devRef .tc main_arg9) := W6_of_ne m ρ c main_arg9 (by decide)
    _ = W4 m ρ c (Proc.devRef .tc main_arg9) := keep_main_part4_ops0_arg9 _
    _ = W3 m ρ c (Proc.devRef .tc main_arg9) := keep_main_part3_ops0_arg9 _
    _ = W2 m ρ c (Proc.devRef .tc main_arg9) := keep_main_part2_ops0_arg9 _
    _ = W1 m ρ c (Proc.devRef .tc main_arg9) := keep_main_part1_ops0_arg9 _
    _ = W0 m ρ c (Proc.devRef .tc main_arg9) := keep_main_part0_ops0_arg9 _
    _ = m ((c : Thread nD τ).loc main_arg9) := rfl

theorem Wfin_arg10 (c : Dev nD) : Wfin m ρ c (Proc.devRef .tc main_arg10) = m ((c : Thread nD τ).loc main_arg10) :=
  calc Wfin m ρ c (Proc.devRef .tc main_arg10)
    _ = W43 m ρ c (Proc.devRef .tc main_arg10) := W44_of_ne m ρ c main_arg10 (by decide)
    _ = W42 m ρ c (Proc.devRef .tc main_arg10) := keep_main_part16_ops2_arg10 _
    _ = W41 m ρ c (Proc.devRef .tc main_arg10) := W42_of_ne m ρ c main_arg10 (by decide)
    _ = W40 m ρ c (Proc.devRef .tc main_arg10) := keep_main_part16_ops1_arg10 _
    _ = W39 m ρ c (Proc.devRef .tc main_arg10) := W40_of_ne m ρ c main_arg10 (by decide)
    _ = W38 m ρ c (Proc.devRef .tc main_arg10) := keep_main_part16_ops0_arg10 _
    _ = W37 m ρ c (Proc.devRef .tc main_arg10) := keep_main_part15_ops3_arg10 _
    _ = W36 m ρ c (Proc.devRef .tc main_arg10) := W37_of_ne m ρ c main_arg10 (by decide)
    _ = W35 m ρ c (Proc.devRef .tc main_arg10) := keep_main_part15_ops2_arg10 _
    _ = W34 m ρ c (Proc.devRef .tc main_arg10) := W35_of_ne m ρ c main_arg10 (by decide)
    _ = W33 m ρ c (Proc.devRef .tc main_arg10) := keep_main_part15_ops1_arg10 _
    _ = W32 m ρ c (Proc.devRef .tc main_arg10) := W33_of_ne m ρ c main_arg10 (by decide)
    _ = W31 m ρ c (Proc.devRef .tc main_arg10) := keep_main_part15_ops0_arg10 _
    _ = W30 m ρ c (Proc.devRef .tc main_arg10) := keep_main_part14_ops0_arg10 _
    _ = W29 m ρ c (Proc.devRef .tc main_arg10) := keep_main_part13_ops0_arg10 _
    _ = W28 m ρ c (Proc.devRef .tc main_arg10) := keep_main_part12_ops0_arg10 _
    _ = W27 m ρ c (Proc.devRef .tc main_arg10) := keep_main_part11_ops0_arg10 _
    _ = W26 m ρ c (Proc.devRef .tc main_arg10) := keep_main_part10_ops4_arg10 _
    _ = W25 m ρ c (Proc.devRef .tc main_arg10) := W26_of_ne m ρ c main_arg10 (by decide)
    _ = W24 m ρ c (Proc.devRef .tc main_arg10) := keep_main_part10_ops3_arg10 _
    _ = W23 m ρ c (Proc.devRef .tc main_arg10) := W24_of_ne m ρ c main_arg10 (by decide)
    _ = W22 m ρ c (Proc.devRef .tc main_arg10) := keep_main_part10_ops2_arg10 _
    _ = W21 m ρ c (Proc.devRef .tc main_arg10) := W22_of_ne m ρ c main_arg10 (by decide)
    _ = W20 m ρ c (Proc.devRef .tc main_arg10) := keep_main_part10_ops1_arg10 _
    _ = W19 m ρ c (Proc.devRef .tc main_arg10) := W20_of_ne m ρ c main_arg10 (by decide)
    _ = W18 m ρ c (Proc.devRef .tc main_arg10) := keep_main_part10_ops0_arg10 _
    _ = W17 m ρ c (Proc.devRef .tc main_arg10) := keep_main_part9_ops0_arg10 _
    _ = W16 m ρ c (Proc.devRef .tc main_arg10) := keep_main_part8_ops0_arg10 _
    _ = W15 m ρ c (Proc.devRef .tc main_arg10) := keep_main_part7_ops0_arg10 _
    _ = W14 m ρ c (Proc.devRef .tc main_arg10) := keep_main_part6_ops0_arg10 _
    _ = W13 m ρ c (Proc.devRef .tc main_arg10) := keep_main_part5_ops3_arg10 _
    _ = W12 m ρ c (Proc.devRef .tc main_arg10) := W13_of_ne m ρ c main_arg10 (by decide)
    _ = W11 m ρ c (Proc.devRef .tc main_arg10) := keep_main_part5_ops2_arg10 _
    _ = W10 m ρ c (Proc.devRef .tc main_arg10) := W11_of_ne m ρ c main_arg10 (by decide)
    _ = W9 m ρ c (Proc.devRef .tc main_arg10) := keep_main_part5_ops1_arg10 _
    _ = W8 m ρ c (Proc.devRef .tc main_arg10) := W9_of_ne m ρ c main_arg10 (by decide)
    _ = W7 m ρ c (Proc.devRef .tc main_arg10) := keep_main_part5_ops0_arg10 _
    _ = W6 m ρ c (Proc.devRef .tc main_arg10) := keep_main_part4_ops1_arg10 _
    _ = W5 m ρ c (Proc.devRef .tc main_arg10) := W6_of_ne m ρ c main_arg10 (by decide)
    _ = W4 m ρ c (Proc.devRef .tc main_arg10) := keep_main_part4_ops0_arg10 _
    _ = W3 m ρ c (Proc.devRef .tc main_arg10) := keep_main_part3_ops0_arg10 _
    _ = W2 m ρ c (Proc.devRef .tc main_arg10) := keep_main_part2_ops0_arg10 _
    _ = W1 m ρ c (Proc.devRef .tc main_arg10) := keep_main_part1_ops0_arg10 _
    _ = W0 m ρ c (Proc.devRef .tc main_arg10) := keep_main_part0_ops0_arg10 _
    _ = m ((c : Thread nD τ).loc main_arg10) := rfl

theorem Wfin_arg11 (c : Dev nD) : Wfin m ρ c (Proc.devRef .tc main_arg11) = m ((c : Thread nD τ).loc main_arg11) :=
  calc Wfin m ρ c (Proc.devRef .tc main_arg11)
    _ = W43 m ρ c (Proc.devRef .tc main_arg11) := (W44_arr m ρ c 1).trans (((dat13 (V43 m ρ) c).arrAt_in 1 rfl _).trans (A_eq13 (V43 m ρ) c 1))
    _ = W42 m ρ c (Proc.devRef .tc main_arg11) := keep_main_part16_ops2_arg11 _
    _ = W41 m ρ c (Proc.devRef .tc main_arg11) := W42_of_ne m ρ c main_arg11 (by decide)
    _ = W40 m ρ c (Proc.devRef .tc main_arg11) := keep_main_part16_ops1_arg11 _
    _ = W39 m ρ c (Proc.devRef .tc main_arg11) := W40_of_ne m ρ c main_arg11 (by decide)
    _ = W38 m ρ c (Proc.devRef .tc main_arg11) := keep_main_part16_ops0_arg11 _
    _ = W37 m ρ c (Proc.devRef .tc main_arg11) := keep_main_part15_ops3_arg11 _
    _ = W36 m ρ c (Proc.devRef .tc main_arg11) := W37_of_ne m ρ c main_arg11 (by decide)
    _ = W35 m ρ c (Proc.devRef .tc main_arg11) := keep_main_part15_ops2_arg11 _
    _ = W34 m ρ c (Proc.devRef .tc main_arg11) := W35_of_ne m ρ c main_arg11 (by decide)
    _ = W33 m ρ c (Proc.devRef .tc main_arg11) := keep_main_part15_ops1_arg11 _
    _ = W32 m ρ c (Proc.devRef .tc main_arg11) := W33_of_ne m ρ c main_arg11 (by decide)
    _ = W31 m ρ c (Proc.devRef .tc main_arg11) := keep_main_part15_ops0_arg11 _
    _ = W30 m ρ c (Proc.devRef .tc main_arg11) := keep_main_part14_ops0_arg11 _
    _ = W29 m ρ c (Proc.devRef .tc main_arg11) := keep_main_part13_ops0_arg11 _
    _ = W28 m ρ c (Proc.devRef .tc main_arg11) := keep_main_part12_ops0_arg11 _
    _ = W27 m ρ c (Proc.devRef .tc main_arg11) := keep_main_part11_ops0_arg11 _
    _ = W26 m ρ c (Proc.devRef .tc main_arg11) := keep_main_part10_ops4_arg11 _
    _ = W25 m ρ c (Proc.devRef .tc main_arg11) := W26_of_ne m ρ c main_arg11 (by decide)
    _ = W24 m ρ c (Proc.devRef .tc main_arg11) := keep_main_part10_ops3_arg11 _
    _ = W23 m ρ c (Proc.devRef .tc main_arg11) := W24_of_ne m ρ c main_arg11 (by decide)
    _ = W22 m ρ c (Proc.devRef .tc main_arg11) := keep_main_part10_ops2_arg11 _
    _ = W21 m ρ c (Proc.devRef .tc main_arg11) := W22_of_ne m ρ c main_arg11 (by decide)
    _ = W20 m ρ c (Proc.devRef .tc main_arg11) := keep_main_part10_ops1_arg11 _
    _ = W19 m ρ c (Proc.devRef .tc main_arg11) := W20_of_ne m ρ c main_arg11 (by decide)
    _ = W18 m ρ c (Proc.devRef .tc main_arg11) := keep_main_part10_ops0_arg11 _
    _ = W17 m ρ c (Proc.devRef .tc main_arg11) := keep_main_part9_ops0_arg11 _
    _ = W16 m ρ c (Proc.devRef .tc main_arg11) := keep_main_part8_ops0_arg11 _
    _ = W15 m ρ c (Proc.devRef .tc main_arg11) := keep_main_part7_ops0_arg11 _
    _ = W14 m ρ c (Proc.devRef .tc main_arg11) := keep_main_part6_ops0_arg11 _
    _ = W13 m ρ c (Proc.devRef .tc main_arg11) := keep_main_part5_ops3_arg11 _
    _ = W12 m ρ c (Proc.devRef .tc main_arg11) := W13_of_ne m ρ c main_arg11 (by decide)
    _ = W11 m ρ c (Proc.devRef .tc main_arg11) := keep_main_part5_ops2_arg11 _
    _ = W10 m ρ c (Proc.devRef .tc main_arg11) := W11_of_ne m ρ c main_arg11 (by decide)
    _ = W9 m ρ c (Proc.devRef .tc main_arg11) := keep_main_part5_ops1_arg11 _
    _ = W8 m ρ c (Proc.devRef .tc main_arg11) := W9_of_ne m ρ c main_arg11 (by decide)
    _ = W7 m ρ c (Proc.devRef .tc main_arg11) := keep_main_part5_ops0_arg11 _
    _ = W6 m ρ c (Proc.devRef .tc main_arg11) := keep_main_part4_ops1_arg11 _
    _ = W5 m ρ c (Proc.devRef .tc main_arg11) := W6_of_ne m ρ c main_arg11 (by decide)
    _ = W4 m ρ c (Proc.devRef .tc main_arg11) := keep_main_part4_ops0_arg11 _
    _ = W3 m ρ c (Proc.devRef .tc main_arg11) := keep_main_part3_ops0_arg11 _
    _ = W2 m ρ c (Proc.devRef .tc main_arg11) := keep_main_part2_ops0_arg11 _
    _ = W1 m ρ c (Proc.devRef .tc main_arg11) := keep_main_part1_ops0_arg11 _
    _ = W0 m ρ c (Proc.devRef .tc main_arg11) := keep_main_part0_ops0_arg11 _
    _ = m ((c : Thread nD τ).loc main_arg11) := rfl

end Cert.KernelIdeal.Hand

end
-- ==== Proof.KI.Args2.lean ====
import proofs.«125545_j64845416235624_1_alg».proof.Proof.KI.Fold
import proofs.«125545_j64845416235624_1_alg».proof.Proof.KI.Keep
import proofs.«125545_j64845416235624_1_alg».proof.Proof.KI.KeepArgs0
import proofs.«125545_j64845416235624_1_alg».proof.Proof.KI.KeepArgs1

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! # The argument arrays end as launched (arguments 12 to 17)

No host operation writes an argument array, and no region does: a region either does not touch it, or reads it through
an input window, whose array the pipeline leaves as entered. So the fold of the buffer contents through @main's 44
items, read at an argument's buffer, walks back item by item to the launch memory. -/

theorem Wfin_arg12 (c : Dev nD) : Wfin m ρ c (Proc.devRef .tc main_arg12) = m ((c : Thread nD τ).loc main_arg12) :=
  calc Wfin m ρ c (Proc.devRef .tc main_arg12)
    _ = W43 m ρ c (Proc.devRef .tc main_arg12) := W44_of_ne m ρ c main_arg12 (by decide)
    _ = W42 m ρ c (Proc.devRef .tc main_arg12) := keep_main_part16_ops2_arg12 _
    _ = W41 m ρ c (Proc.devRef .tc main_arg12) := W42_of_ne m ρ c main_arg12 (by decide)
    _ = W40 m ρ c (Proc.devRef .tc main_arg12) := keep_main_part16_ops1_arg12 _
    _ = W39 m ρ c (Proc.devRef .tc main_arg12) := W40_of_ne m ρ c main_arg12 (by decide)
    _ = W38 m ρ c (Proc.devRef .tc main_arg12) := keep_main_part16_ops0_arg12 _
    _ = W37 m ρ c (Proc.devRef .tc main_arg12) := keep_main_part15_ops3_arg12 _
    _ = W36 m ρ c (Proc.devRef .tc main_arg12) := W37_of_ne m ρ c main_arg12 (by decide)
    _ = W35 m ρ c (Proc.devRef .tc main_arg12) := keep_main_part15_ops2_arg12 _
    _ = W34 m ρ c (Proc.devRef .tc main_arg12) := W35_of_ne m ρ c main_arg12 (by decide)
    _ = W33 m ρ c (Proc.devRef .tc main_arg12) := keep_main_part15_ops1_arg12 _
    _ = W32 m ρ c (Proc.devRef .tc main_arg12) := W33_of_ne m ρ c main_arg12 (by decide)
    _ = W31 m ρ c (Proc.devRef .tc main_arg12) := keep_main_part15_ops0_arg12 _
    _ = W30 m ρ c (Proc.devRef .tc main_arg12) := keep_main_part14_ops0_arg12 _
    _ = W29 m ρ c (Proc.devRef .tc main_arg12) := keep_main_part13_ops0_arg12 _
    _ = W28 m ρ c (Proc.devRef .tc main_arg12) := keep_main_part12_ops0_arg12 _
    _ = W27 m ρ c (Proc.devRef .tc main_arg12) := keep_main_part11_ops0_arg12 _
    _ = W26 m ρ c (Proc.devRef .tc main_arg12) := keep_main_part10_ops4_arg12 _
    _ = W25 m ρ c (Proc.devRef .tc main_arg12) := W26_of_ne m ρ c main_arg12 (by decide)
    _ = W24 m ρ c (Proc.devRef .tc main_arg12) := keep_main_part10_ops3_arg12 _
    _ = W23 m ρ c (Proc.devRef .tc main_arg12) := W24_of_ne m ρ c main_arg12 (by decide)
    _ = W22 m ρ c (Proc.devRef .tc main_arg12) := keep_main_part10_ops2_arg12 _
    _ = W21 m ρ c (Proc.devRef .tc main_arg12) := W22_of_ne m ρ c main_arg12 (by decide)
    _ = W20 m ρ c (Proc.devRef .tc main_arg12) := keep_main_part10_ops1_arg12 _
    _ = W19 m ρ c (Proc.devRef .tc main_arg12) := W20_of_ne m ρ c main_arg12 (by decide)
    _ = W18 m ρ c (Proc.devRef .tc main_arg12) := keep_main_part10_ops0_arg12 _
    _ = W17 m ρ c (Proc.devRef .tc main_arg12) := keep_main_part9_ops0_arg12 _
    _ = W16 m ρ c (Proc.devRef .tc main_arg12) := keep_main_part8_ops0_arg12 _
    _ = W15 m ρ c (Proc.devRef .tc main_arg12) := keep_main_part7_ops0_arg12 _
    _ = W14 m ρ c (Proc.devRef .tc main_arg12) := keep_main_part6_ops0_arg12 _
    _ = W13 m ρ c (Proc.devRef .tc main_arg12) := keep_main_part5_ops3_arg12 _
    _ = W12 m ρ c (Proc.devRef .tc main_arg12) := W13_of_ne m ρ c main_arg12 (by decide)
    _ = W11 m ρ c (Proc.devRef .tc main_arg12) := keep_main_part5_ops2_arg12 _
    _ = W10 m ρ c (Proc.devRef .tc main_arg12) := W11_of_ne m ρ c main_arg12 (by decide)
    _ = W9 m ρ c (Proc.devRef .tc main_arg12) := keep_main_part5_ops1_arg12 _
    _ = W8 m ρ c (Proc.devRef .tc main_arg12) := W9_of_ne m ρ c main_arg12 (by decide)
    _ = W7 m ρ c (Proc.devRef .tc main_arg12) := keep_main_part5_ops0_arg12 _
    _ = W6 m ρ c (Proc.devRef .tc main_arg12) := keep_main_part4_ops1_arg12 _
    _ = W5 m ρ c (Proc.devRef .tc main_arg12) := W6_of_ne m ρ c main_arg12 (by decide)
    _ = W4 m ρ c (Proc.devRef .tc main_arg12) := keep_main_part4_ops0_arg12 _
    _ = W3 m ρ c (Proc.devRef .tc main_arg12) := keep_main_part3_ops0_arg12 _
    _ = W2 m ρ c (Proc.devRef .tc main_arg12) := keep_main_part2_ops0_arg12 _
    _ = W1 m ρ c (Proc.devRef .tc main_arg12) := keep_main_part1_ops0_arg12 _
    _ = W0 m ρ c (Proc.devRef .tc main_arg12) := keep_main_part0_ops0_arg12 _
    _ = m ((c : Thread nD τ).loc main_arg12) := rfl

theorem Wfin_arg13 (c : Dev nD) : Wfin m ρ c (Proc.devRef .tc main_arg13) = m ((c : Thread nD τ).loc main_arg13) :=
  calc Wfin m ρ c (Proc.devRef .tc main_arg13)
    _ = W43 m ρ c (Proc.devRef .tc main_arg13) := (W44_arr m ρ c 3).trans (((dat13 (V43 m ρ) c).arrAt_in 3 rfl _).trans (A_eq13 (V43 m ρ) c 3))
    _ = W42 m ρ c (Proc.devRef .tc main_arg13) := keep_main_part16_ops2_arg13 _
    _ = W41 m ρ c (Proc.devRef .tc main_arg13) := W42_of_ne m ρ c main_arg13 (by decide)
    _ = W40 m ρ c (Proc.devRef .tc main_arg13) := keep_main_part16_ops1_arg13 _
    _ = W39 m ρ c (Proc.devRef .tc main_arg13) := W40_of_ne m ρ c main_arg13 (by decide)
    _ = W38 m ρ c (Proc.devRef .tc main_arg13) := keep_main_part16_ops0_arg13 _
    _ = W37 m ρ c (Proc.devRef .tc main_arg13) := keep_main_part15_ops3_arg13 _
    _ = W36 m ρ c (Proc.devRef .tc main_arg13) := W37_of_ne m ρ c main_arg13 (by decide)
    _ = W35 m ρ c (Proc.devRef .tc main_arg13) := keep_main_part15_ops2_arg13 _
    _ = W34 m ρ c (Proc.devRef .tc main_arg13) := W35_of_ne m ρ c main_arg13 (by decide)
    _ = W33 m ρ c (Proc.devRef .tc main_arg13) := keep_main_part15_ops1_arg13 _
    _ = W32 m ρ c (Proc.devRef .tc main_arg13) := W33_of_ne m ρ c main_arg13 (by decide)
    _ = W31 m ρ c (Proc.devRef .tc main_arg13) := keep_main_part15_ops0_arg13 _
    _ = W30 m ρ c (Proc.devRef .tc main_arg13) := keep_main_part14_ops0_arg13 _
    _ = W29 m ρ c (Proc.devRef .tc main_arg13) := keep_main_part13_ops0_arg13 _
    _ = W28 m ρ c (Proc.devRef .tc main_arg13) := keep_main_part12_ops0_arg13 _
    _ = W27 m ρ c (Proc.devRef .tc main_arg13) := keep_main_part11_ops0_arg13 _
    _ = W26 m ρ c (Proc.devRef .tc main_arg13) := keep_main_part10_ops4_arg13 _
    _ = W25 m ρ c (Proc.devRef .tc main_arg13) := W26_of_ne m ρ c main_arg13 (by decide)
    _ = W24 m ρ c (Proc.devRef .tc main_arg13) := keep_main_part10_ops3_arg13 _
    _ = W23 m ρ c (Proc.devRef .tc main_arg13) := W24_of_ne m ρ c main_arg13 (by decide)
    _ = W22 m ρ c (Proc.devRef .tc main_arg13) := keep_main_part10_ops2_arg13 _
    _ = W21 m ρ c (Proc.devRef .tc main_arg13) := W22_of_ne m ρ c main_arg13 (by decide)
    _ = W20 m ρ c (Proc.devRef .tc main_arg13) := keep_main_part10_ops1_arg13 _
    _ = W19 m ρ c (Proc.devRef .tc main_arg13) := W20_of_ne m ρ c main_arg13 (by decide)
    _ = W18 m ρ c (Proc.devRef .tc main_arg13) := keep_main_part10_ops0_arg13 _
    _ = W17 m ρ c (Proc.devRef .tc main_arg13) := keep_main_part9_ops0_arg13 _
    _ = W16 m ρ c (Proc.devRef .tc main_arg13) := keep_main_part8_ops0_arg13 _
    _ = W15 m ρ c (Proc.devRef .tc main_arg13) := keep_main_part7_ops0_arg13 _
    _ = W14 m ρ c (Proc.devRef .tc main_arg13) := keep_main_part6_ops0_arg13 _
    _ = W13 m ρ c (Proc.devRef .tc main_arg13) := keep_main_part5_ops3_arg13 _
    _ = W12 m ρ c (Proc.devRef .tc main_arg13) := W13_of_ne m ρ c main_arg13 (by decide)
    _ = W11 m ρ c (Proc.devRef .tc main_arg13) := keep_main_part5_ops2_arg13 _
    _ = W10 m ρ c (Proc.devRef .tc main_arg13) := W11_of_ne m ρ c main_arg13 (by decide)
    _ = W9 m ρ c (Proc.devRef .tc main_arg13) := keep_main_part5_ops1_arg13 _
    _ = W8 m ρ c (Proc.devRef .tc main_arg13) := W9_of_ne m ρ c main_arg13 (by decide)
    _ = W7 m ρ c (Proc.devRef .tc main_arg13) := keep_main_part5_ops0_arg13 _
    _ = W6 m ρ c (Proc.devRef .tc main_arg13) := keep_main_part4_ops1_arg13 _
    _ = W5 m ρ c (Proc.devRef .tc main_arg13) := W6_of_ne m ρ c main_arg13 (by decide)
    _ = W4 m ρ c (Proc.devRef .tc main_arg13) := keep_main_part4_ops0_arg13 _
    _ = W3 m ρ c (Proc.devRef .tc main_arg13) := keep_main_part3_ops0_arg13 _
    _ = W2 m ρ c (Proc.devRef .tc main_arg13) := keep_main_part2_ops0_arg13 _
    _ = W1 m ρ c (Proc.devRef .tc main_arg13) := keep_main_part1_ops0_arg13 _
    _ = W0 m ρ c (Proc.devRef .tc main_arg13) := keep_main_part0_ops0_arg13 _
    _ = m ((c : Thread nD τ).loc main_arg13) := rfl

theorem Wfin_arg14 (c : Dev nD) : Wfin m ρ c (Proc.devRef .tc main_arg14) = m ((c : Thread nD τ).loc main_arg14) :=
  calc Wfin m ρ c (Proc.devRef .tc main_arg14)
    _ = W43 m ρ c (Proc.devRef .tc main_arg14) := W44_of_ne m ρ c main_arg14 (by decide)
    _ = W42 m ρ c (Proc.devRef .tc main_arg14) := keep_main_part16_ops2_arg14 _
    _ = W41 m ρ c (Proc.devRef .tc main_arg14) := W42_of_ne m ρ c main_arg14 (by decide)
    _ = W40 m ρ c (Proc.devRef .tc main_arg14) := keep_main_part16_ops1_arg14 _
    _ = W39 m ρ c (Proc.devRef .tc main_arg14) := W40_of_ne m ρ c main_arg14 (by decide)
    _ = W38 m ρ c (Proc.devRef .tc main_arg14) := keep_main_part16_ops0_arg14 _
    _ = W37 m ρ c (Proc.devRef .tc main_arg14) := keep_main_part15_ops3_arg14 _
    _ = W36 m ρ c (Proc.devRef .tc main_arg14) := W37_of_ne m ρ c main_arg14 (by decide)
    _ = W35 m ρ c (Proc.devRef .tc main_arg14) := keep_main_part15_ops2_arg14 _
    _ = W34 m ρ c (Proc.devRef .tc main_arg14) := W35_of_ne m ρ c main_arg14 (by decide)
    _ = W33 m ρ c (Proc.devRef .tc main_arg14) := keep_main_part15_ops1_arg14 _
    _ = W32 m ρ c (Proc.devRef .tc main_arg14) := W33_of_ne m ρ c main_arg14 (by decide)
    _ = W31 m ρ c (Proc.devRef .tc main_arg14) := keep_main_part15_ops0_arg14 _
    _ = W30 m ρ c (Proc.devRef .tc main_arg14) := keep_main_part14_ops0_arg14 _
    _ = W29 m ρ c (Proc.devRef .tc main_arg14) := keep_main_part13_ops0_arg14 _
    _ = W28 m ρ c (Proc.devRef .tc main_arg14) := keep_main_part12_ops0_arg14 _
    _ = W27 m ρ c (Proc.devRef .tc main_arg14) := keep_main_part11_ops0_arg14 _
    _ = W26 m ρ c (Proc.devRef .tc main_arg14) := keep_main_part10_ops4_arg14 _
    _ = W25 m ρ c (Proc.devRef .tc main_arg14) := W26_of_ne m ρ c main_arg14 (by decide)
    _ = W24 m ρ c (Proc.devRef .tc main_arg14) := keep_main_part10_ops3_arg14 _
    _ = W23 m ρ c (Proc.devRef .tc main_arg14) := W24_of_ne m ρ c main_arg14 (by decide)
    _ = W22 m ρ c (Proc.devRef .tc main_arg14) := keep_main_part10_ops2_arg14 _
    _ = W21 m ρ c (Proc.devRef .tc main_arg14) := W22_of_ne m ρ c main_arg14 (by decide)
    _ = W20 m ρ c (Proc.devRef .tc main_arg14) := keep_main_part10_ops1_arg14 _
    _ = W19 m ρ c (Proc.devRef .tc main_arg14) := W20_of_ne m ρ c main_arg14 (by decide)
    _ = W18 m ρ c (Proc.devRef .tc main_arg14) := keep_main_part10_ops0_arg14 _
    _ = W17 m ρ c (Proc.devRef .tc main_arg14) := keep_main_part9_ops0_arg14 _
    _ = W16 m ρ c (Proc.devRef .tc main_arg14) := keep_main_part8_ops0_arg14 _
    _ = W15 m ρ c (Proc.devRef .tc main_arg14) := keep_main_part7_ops0_arg14 _
    _ = W14 m ρ c (Proc.devRef .tc main_arg14) := keep_main_part6_ops0_arg14 _
    _ = W13 m ρ c (Proc.devRef .tc main_arg14) := keep_main_part5_ops3_arg14 _
    _ = W12 m ρ c (Proc.devRef .tc main_arg14) := W13_of_ne m ρ c main_arg14 (by decide)
    _ = W11 m ρ c (Proc.devRef .tc main_arg14) := keep_main_part5_ops2_arg14 _
    _ = W10 m ρ c (Proc.devRef .tc main_arg14) := W11_of_ne m ρ c main_arg14 (by decide)
    _ = W9 m ρ c (Proc.devRef .tc main_arg14) := keep_main_part5_ops1_arg14 _
    _ = W8 m ρ c (Proc.devRef .tc main_arg14) := W9_of_ne m ρ c main_arg14 (by decide)
    _ = W7 m ρ c (Proc.devRef .tc main_arg14) := keep_main_part5_ops0_arg14 _
    _ = W6 m ρ c (Proc.devRef .tc main_arg14) := keep_main_part4_ops1_arg14 _
    _ = W5 m ρ c (Proc.devRef .tc main_arg14) := W6_of_ne m ρ c main_arg14 (by decide)
    _ = W4 m ρ c (Proc.devRef .tc main_arg14) := keep_main_part4_ops0_arg14 _
    _ = W3 m ρ c (Proc.devRef .tc main_arg14) := keep_main_part3_ops0_arg14 _
    _ = W2 m ρ c (Proc.devRef .tc main_arg14) := keep_main_part2_ops0_arg14 _
    _ = W1 m ρ c (Proc.devRef .tc main_arg14) := keep_main_part1_ops0_arg14 _
    _ = W0 m ρ c (Proc.devRef .tc main_arg14) := keep_main_part0_ops0_arg14 _
    _ = m ((c : Thread nD τ).loc main_arg14) := rfl

theorem Wfin_arg15 (c : Dev nD) : Wfin m ρ c (Proc.devRef .tc main_arg15) = m ((c : Thread nD τ).loc main_arg15) :=
  calc Wfin m ρ c (Proc.devRef .tc main_arg15)
    _ = W43 m ρ c (Proc.devRef .tc main_arg15) := W44_of_ne m ρ c main_arg15 (by decide)
    _ = W42 m ρ c (Proc.devRef .tc main_arg15) := keep_main_part16_ops2_arg15 _
    _ = W41 m ρ c (Proc.devRef .tc main_arg15) := W42_of_ne m ρ c main_arg15 (by decide)
    _ = W40 m ρ c (Proc.devRef .tc main_arg15) := keep_main_part16_ops1_arg15 _
    _ = W39 m ρ c (Proc.devRef .tc main_arg15) := W40_of_ne m ρ c main_arg15 (by decide)
    _ = W38 m ρ c (Proc.devRef .tc main_arg15) := keep_main_part16_ops0_arg15 _
    _ = W37 m ρ c (Proc.devRef .tc main_arg15) := keep_main_part15_ops3_arg15 _
    _ = W36 m ρ c (Proc.devRef .tc main_arg15) := W37_of_ne m ρ c main_arg15 (by decide)
    _ = W35 m ρ c (Proc.devRef .tc main_arg15) := keep_main_part15_ops2_arg15 _
    _ = W34 m ρ c (Proc.devRef .tc main_arg15) := W35_of_ne m ρ c main_arg15 (by decide)
    _ = W33 m ρ c (Proc.devRef .tc main_arg15) := keep_main_part15_ops1_arg15 _
    _ = W32 m ρ c (Proc.devRef .tc main_arg15) := W33_of_ne m ρ c main_arg15 (by decide)
    _ = W31 m ρ c (Proc.devRef .tc main_arg15) := keep_main_part15_ops0_arg15 _
    _ = W30 m ρ c (Proc.devRef .tc main_arg15) := keep_main_part14_ops0_arg15 _
    _ = W29 m ρ c (Proc.devRef .tc main_arg15) := keep_main_part13_ops0_arg15 _
    _ = W28 m ρ c (Proc.devRef .tc main_arg15) := keep_main_part12_ops0_arg15 _
    _ = W27 m ρ c (Proc.devRef .tc main_arg15) := keep_main_part11_ops0_arg15 _
    _ = W26 m ρ c (Proc.devRef .tc main_arg15) := keep_main_part10_ops4_arg15 _
    _ = W25 m ρ c (Proc.devRef .tc main_arg15) := W26_of_ne m ρ c main_arg15 (by decide)
    _ = W24 m ρ c (Proc.devRef .tc main_arg15) := keep_main_part10_ops3_arg15 _
    _ = W23 m ρ c (Proc.devRef .tc main_arg15) := W24_of_ne m ρ c main_arg15 (by decide)
    _ = W22 m ρ c (Proc.devRef .tc main_arg15) := keep_main_part10_ops2_arg15 _
    _ = W21 m ρ c (Proc.devRef .tc main_arg15) := W22_of_ne m ρ c main_arg15 (by decide)
    _ = W20 m ρ c (Proc.devRef .tc main_arg15) := keep_main_part10_ops1_arg15 _
    _ = W19 m ρ c (Proc.devRef .tc main_arg15) := W20_of_ne m ρ c main_arg15 (by decide)
    _ = W18 m ρ c (Proc.devRef .tc main_arg15) := keep_main_part10_ops0_arg15 _
    _ = W17 m ρ c (Proc.devRef .tc main_arg15) := keep_main_part9_ops0_arg15 _
    _ = W16 m ρ c (Proc.devRef .tc main_arg15) := keep_main_part8_ops0_arg15 _
    _ = W15 m ρ c (Proc.devRef .tc main_arg15) := keep_main_part7_ops0_arg15 _
    _ = W14 m ρ c (Proc.devRef .tc main_arg15) := keep_main_part6_ops0_arg15 _
    _ = W13 m ρ c (Proc.devRef .tc main_arg15) := keep_main_part5_ops3_arg15 _
    _ = W12 m ρ c (Proc.devRef .tc main_arg15) := W13_of_ne m ρ c main_arg15 (by decide)
    _ = W11 m ρ c (Proc.devRef .tc main_arg15) := keep_main_part5_ops2_arg15 _
    _ = W10 m ρ c (Proc.devRef .tc main_arg15) := W11_of_ne m ρ c main_arg15 (by decide)
    _ = W9 m ρ c (Proc.devRef .tc main_arg15) := keep_main_part5_ops1_arg15 _
    _ = W8 m ρ c (Proc.devRef .tc main_arg15) := W9_of_ne m ρ c main_arg15 (by decide)
    _ = W7 m ρ c (Proc.devRef .tc main_arg15) := keep_main_part5_ops0_arg15 _
    _ = W6 m ρ c (Proc.devRef .tc main_arg15) := keep_main_part4_ops1_arg15 _
    _ = W5 m ρ c (Proc.devRef .tc main_arg15) := W6_of_ne m ρ c main_arg15 (by decide)
    _ = W4 m ρ c (Proc.devRef .tc main_arg15) := keep_main_part4_ops0_arg15 _
    _ = W3 m ρ c (Proc.devRef .tc main_arg15) := keep_main_part3_ops0_arg15 _
    _ = W2 m ρ c (Proc.devRef .tc main_arg15) := keep_main_part2_ops0_arg15 _
    _ = W1 m ρ c (Proc.devRef .tc main_arg15) := keep_main_part1_ops0_arg15 _
    _ = W0 m ρ c (Proc.devRef .tc main_arg15) := keep_main_part0_ops0_arg15 _
    _ = m ((c : Thread nD τ).loc main_arg15) := rfl

theorem Wfin_arg16 (c : Dev nD) : Wfin m ρ c (Proc.devRef .tc main_arg16) = m ((c : Thread nD τ).loc main_arg16) :=
  calc Wfin m ρ c (Proc.devRef .tc main_arg16)
    _ = W43 m ρ c (Proc.devRef .tc main_arg16) := W44_of_ne m ρ c main_arg16 (by decide)
    _ = W42 m ρ c (Proc.devRef .tc main_arg16) := keep_main_part16_ops2_arg16 _
    _ = W41 m ρ c (Proc.devRef .tc main_arg16) := W42_of_ne m ρ c main_arg16 (by decide)
    _ = W40 m ρ c (Proc.devRef .tc main_arg16) := keep_main_part16_ops1_arg16 _
    _ = W39 m ρ c (Proc.devRef .tc main_arg16) := W40_of_ne m ρ c main_arg16 (by decide)
    _ = W38 m ρ c (Proc.devRef .tc main_arg16) := keep_main_part16_ops0_arg16 _
    _ = W37 m ρ c (Proc.devRef .tc main_arg16) := keep_main_part15_ops3_arg16 _
    _ = W36 m ρ c (Proc.devRef .tc main_arg16) := W37_of_ne m ρ c main_arg16 (by decide)
    _ = W35 m ρ c (Proc.devRef .tc main_arg16) := keep_main_part15_ops2_arg16 _
    _ = W34 m ρ c (Proc.devRef .tc main_arg16) := W35_of_ne m ρ c main_arg16 (by decide)
    _ = W33 m ρ c (Proc.devRef .tc main_arg16) := keep_main_part15_ops1_arg16 _
    _ = W32 m ρ c (Proc.devRef .tc main_arg16) := W33_of_ne m ρ c main_arg16 (by decide)
    _ = W31 m ρ c (Proc.devRef .tc main_arg16) := keep_main_part15_ops0_arg16 _
    _ = W30 m ρ c (Proc.devRef .tc main_arg16) := keep_main_part14_ops0_arg16 _
    _ = W29 m ρ c (Proc.devRef .tc main_arg16) := keep_main_part13_ops0_arg16 _
    _ = W28 m ρ c (Proc.devRef .tc main_arg16) := keep_main_part12_ops0_arg16 _
    _ = W27 m ρ c (Proc.devRef .tc main_arg16) := keep_main_part11_ops0_arg16 _
    _ = W26 m ρ c (Proc.devRef .tc main_arg16) := keep_main_part10_ops4_arg16 _
    _ = W25 m ρ c (Proc.devRef .tc main_arg16) := W26_of_ne m ρ c main_arg16 (by decide)
    _ = W24 m ρ c (Proc.devRef .tc main_arg16) := keep_main_part10_ops3_arg16 _
    _ = W23 m ρ c (Proc.devRef .tc main_arg16) := W24_of_ne m ρ c main_arg16 (by decide)
    _ = W22 m ρ c (Proc.devRef .tc main_arg16) := keep_main_part10_ops2_arg16 _
    _ = W21 m ρ c (Proc.devRef .tc main_arg16) := W22_of_ne m ρ c main_arg16 (by decide)
    _ = W20 m ρ c (Proc.devRef .tc main_arg16) := keep_main_part10_ops1_arg16 _
    _ = W19 m ρ c (Proc.devRef .tc main_arg16) := W20_of_ne m ρ c main_arg16 (by decide)
    _ = W18 m ρ c (Proc.devRef .tc main_arg16) := keep_main_part10_ops0_arg16 _
    _ = W17 m ρ c (Proc.devRef .tc main_arg16) := keep_main_part9_ops0_arg16 _
    _ = W16 m ρ c (Proc.devRef .tc main_arg16) := keep_main_part8_ops0_arg16 _
    _ = W15 m ρ c (Proc.devRef .tc main_arg16) := keep_main_part7_ops0_arg16 _
    _ = W14 m ρ c (Proc.devRef .tc main_arg16) := keep_main_part6_ops0_arg16 _
    _ = W13 m ρ c (Proc.devRef .tc main_arg16) := keep_main_part5_ops3_arg16 _
    _ = W12 m ρ c (Proc.devRef .tc main_arg16) := W13_of_ne m ρ c main_arg16 (by decide)
    _ = W11 m ρ c (Proc.devRef .tc main_arg16) := keep_main_part5_ops2_arg16 _
    _ = W10 m ρ c (Proc.devRef .tc main_arg16) := W11_of_ne m ρ c main_arg16 (by decide)
    _ = W9 m ρ c (Proc.devRef .tc main_arg16) := keep_main_part5_ops1_arg16 _
    _ = W8 m ρ c (Proc.devRef .tc main_arg16) := W9_of_ne m ρ c main_arg16 (by decide)
    _ = W7 m ρ c (Proc.devRef .tc main_arg16) := keep_main_part5_ops0_arg16 _
    _ = W6 m ρ c (Proc.devRef .tc main_arg16) := keep_main_part4_ops1_arg16 _
    _ = W5 m ρ c (Proc.devRef .tc main_arg16) := W6_of_ne m ρ c main_arg16 (by decide)
    _ = W4 m ρ c (Proc.devRef .tc main_arg16) := keep_main_part4_ops0_arg16 _
    _ = W3 m ρ c (Proc.devRef .tc main_arg16) := keep_main_part3_ops0_arg16 _
    _ = W2 m ρ c (Proc.devRef .tc main_arg16) := keep_main_part2_ops0_arg16 _
    _ = W1 m ρ c (Proc.devRef .tc main_arg16) := keep_main_part1_ops0_arg16 _
    _ = W0 m ρ c (Proc.devRef .tc main_arg16) := keep_main_part0_ops0_arg16 _
    _ = m ((c : Thread nD τ).loc main_arg16) := rfl

theorem Wfin_arg17 (c : Dev nD) : Wfin m ρ c (Proc.devRef .tc main_arg17) = m ((c : Thread nD τ).loc main_arg17) :=
  calc Wfin m ρ c (Proc.devRef .tc main_arg17)
    _ = W43 m ρ c (Proc.devRef .tc main_arg17) := W44_of_ne m ρ c main_arg17 (by decide)
    _ = W42 m ρ c (Proc.devRef .tc main_arg17) := keep_main_part16_ops2_arg17 _
    _ = W41 m ρ c (Proc.devRef .tc main_arg17) := W42_of_ne m ρ c main_arg17 (by decide)
    _ = W40 m ρ c (Proc.devRef .tc main_arg17) := keep_main_part16_ops1_arg17 _
    _ = W39 m ρ c (Proc.devRef .tc main_arg17) := W40_of_ne m ρ c main_arg17 (by decide)
    _ = W38 m ρ c (Proc.devRef .tc main_arg17) := keep_main_part16_ops0_arg17 _
    _ = W37 m ρ c (Proc.devRef .tc main_arg17) := keep_main_part15_ops3_arg17 _
    _ = W36 m ρ c (Proc.devRef .tc main_arg17) := W37_of_ne m ρ c main_arg17 (by decide)
    _ = W35 m ρ c (Proc.devRef .tc main_arg17) := keep_main_part15_ops2_arg17 _
    _ = W34 m ρ c (Proc.devRef .tc main_arg17) := W35_of_ne m ρ c main_arg17 (by decide)
    _ = W33 m ρ c (Proc.devRef .tc main_arg17) := keep_main_part15_ops1_arg17 _
    _ = W32 m ρ c (Proc.devRef .tc main_arg17) := W33_of_ne m ρ c main_arg17 (by decide)
    _ = W31 m ρ c (Proc.devRef .tc main_arg17) := keep_main_part15_ops0_arg17 _
    _ = W30 m ρ c (Proc.devRef .tc main_arg17) := keep_main_part14_ops0_arg17 _
    _ = W29 m ρ c (Proc.devRef .tc main_arg17) := keep_main_part13_ops0_arg17 _
    _ = W28 m ρ c (Proc.devRef .tc main_arg17) := keep_main_part12_ops0_arg17 _
    _ = W27 m ρ c (Proc.devRef .tc main_arg17) := keep_main_part11_ops0_arg17 _
    _ = W26 m ρ c (Proc.devRef .tc main_arg17) := keep_main_part10_ops4_arg17 _
    _ = W25 m ρ c (Proc.devRef .tc main_arg17) := W26_of_ne m ρ c main_arg17 (by decide)
    _ = W24 m ρ c (Proc.devRef .tc main_arg17) := keep_main_part10_ops3_arg17 _
    _ = W23 m ρ c (Proc.devRef .tc main_arg17) := W24_of_ne m ρ c main_arg17 (by decide)
    _ = W22 m ρ c (Proc.devRef .tc main_arg17) := keep_main_part10_ops2_arg17 _
    _ = W21 m ρ c (Proc.devRef .tc main_arg17) := W22_of_ne m ρ c main_arg17 (by decide)
    _ = W20 m ρ c (Proc.devRef .tc main_arg17) := keep_main_part10_ops1_arg17 _
    _ = W19 m ρ c (Proc.devRef .tc main_arg17) := W20_of_ne m ρ c main_arg17 (by decide)
    _ = W18 m ρ c (Proc.devRef .tc main_arg17) := keep_main_part10_ops0_arg17 _
    _ = W17 m ρ c (Proc.devRef .tc main_arg17) := keep_main_part9_ops0_arg17 _
    _ = W16 m ρ c (Proc.devRef .tc main_arg17) := keep_main_part8_ops0_arg17 _
    _ = W15 m ρ c (Proc.devRef .tc main_arg17) := keep_main_part7_ops0_arg17 _
    _ = W14 m ρ c (Proc.devRef .tc main_arg17) := keep_main_part6_ops0_arg17 _
    _ = W13 m ρ c (Proc.devRef .tc main_arg17) := keep_main_part5_ops3_arg17 _
    _ = W12 m ρ c (Proc.devRef .tc main_arg17) := W13_of_ne m ρ c main_arg17 (by decide)
    _ = W11 m ρ c (Proc.devRef .tc main_arg17) := keep_main_part5_ops2_arg17 _
    _ = W10 m ρ c (Proc.devRef .tc main_arg17) := W11_of_ne m ρ c main_arg17 (by decide)
    _ = W9 m ρ c (Proc.devRef .tc main_arg17) := keep_main_part5_ops1_arg17 _
    _ = W8 m ρ c (Proc.devRef .tc main_arg17) := W9_of_ne m ρ c main_arg17 (by decide)
    _ = W7 m ρ c (Proc.devRef .tc main_arg17) := keep_main_part5_ops0_arg17 _
    _ = W6 m ρ c (Proc.devRef .tc main_arg17) := keep_main_part4_ops1_arg17 _
    _ = W5 m ρ c (Proc.devRef .tc main_arg17) := W6_of_ne m ρ c main_arg17 (by decide)
    _ = W4 m ρ c (Proc.devRef .tc main_arg17) := keep_main_part4_ops0_arg17 _
    _ = W3 m ρ c (Proc.devRef .tc main_arg17) := keep_main_part3_ops0_arg17 _
    _ = W2 m ρ c (Proc.devRef .tc main_arg17) := keep_main_part2_ops0_arg17 _
    _ = W1 m ρ c (Proc.devRef .tc main_arg17) := keep_main_part1_ops0_arg17 _
    _ = W0 m ρ c (Proc.devRef .tc main_arg17) := keep_main_part0_ops0_arg17 _
    _ = m ((c : Thread nD τ).loc main_arg17) := rfl

end Cert.KernelIdeal.Hand

end
-- ==== Proof.KI.Args3.lean ====
import proofs.«125545_j64845416235624_1_alg».proof.Proof.KI.Fold
import proofs.«125545_j64845416235624_1_alg».proof.Proof.KI.Keep
import proofs.«125545_j64845416235624_1_alg».proof.Proof.KI.KeepArgs0
import proofs.«125545_j64845416235624_1_alg».proof.Proof.KI.KeepArgs1

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! # The argument arrays end as launched (arguments 18 to 22)

No host operation writes an argument array, and no region does: a region either does not touch it, or reads it through
an input window, whose array the pipeline leaves as entered. So the fold of the buffer contents through @main's 44
items, read at an argument's buffer, walks back item by item to the launch memory. -/

theorem Wfin_arg18 (c : Dev nD) : Wfin m ρ c (Proc.devRef .tc main_arg18) = m ((c : Thread nD τ).loc main_arg18) :=
  calc Wfin m ρ c (Proc.devRef .tc main_arg18)
    _ = W43 m ρ c (Proc.devRef .tc main_arg18) := W44_of_ne m ρ c main_arg18 (by decide)
    _ = W42 m ρ c (Proc.devRef .tc main_arg18) := keep_main_part16_ops2_arg18 _
    _ = W41 m ρ c (Proc.devRef .tc main_arg18) := W42_of_ne m ρ c main_arg18 (by decide)
    _ = W40 m ρ c (Proc.devRef .tc main_arg18) := keep_main_part16_ops1_arg18 _
    _ = W39 m ρ c (Proc.devRef .tc main_arg18) := W40_of_ne m ρ c main_arg18 (by decide)
    _ = W38 m ρ c (Proc.devRef .tc main_arg18) := keep_main_part16_ops0_arg18 _
    _ = W37 m ρ c (Proc.devRef .tc main_arg18) := keep_main_part15_ops3_arg18 _
    _ = W36 m ρ c (Proc.devRef .tc main_arg18) := W37_of_ne m ρ c main_arg18 (by decide)
    _ = W35 m ρ c (Proc.devRef .tc main_arg18) := keep_main_part15_ops2_arg18 _
    _ = W34 m ρ c (Proc.devRef .tc main_arg18) := W35_of_ne m ρ c main_arg18 (by decide)
    _ = W33 m ρ c (Proc.devRef .tc main_arg18) := keep_main_part15_ops1_arg18 _
    _ = W32 m ρ c (Proc.devRef .tc main_arg18) := W33_of_ne m ρ c main_arg18 (by decide)
    _ = W31 m ρ c (Proc.devRef .tc main_arg18) := keep_main_part15_ops0_arg18 _
    _ = W30 m ρ c (Proc.devRef .tc main_arg18) := keep_main_part14_ops0_arg18 _
    _ = W29 m ρ c (Proc.devRef .tc main_arg18) := keep_main_part13_ops0_arg18 _
    _ = W28 m ρ c (Proc.devRef .tc main_arg18) := keep_main_part12_ops0_arg18 _
    _ = W27 m ρ c (Proc.devRef .tc main_arg18) := keep_main_part11_ops0_arg18 _
    _ = W26 m ρ c (Proc.devRef .tc main_arg18) := keep_main_part10_ops4_arg18 _
    _ = W25 m ρ c (Proc.devRef .tc main_arg18) := W26_of_ne m ρ c main_arg18 (by decide)
    _ = W24 m ρ c (Proc.devRef .tc main_arg18) := keep_main_part10_ops3_arg18 _
    _ = W23 m ρ c (Proc.devRef .tc main_arg18) := W24_of_ne m ρ c main_arg18 (by decide)
    _ = W22 m ρ c (Proc.devRef .tc main_arg18) := keep_main_part10_ops2_arg18 _
    _ = W21 m ρ c (Proc.devRef .tc main_arg18) := W22_of_ne m ρ c main_arg18 (by decide)
    _ = W20 m ρ c (Proc.devRef .tc main_arg18) := keep_main_part10_ops1_arg18 _
    _ = W19 m ρ c (Proc.devRef .tc main_arg18) := W20_of_ne m ρ c main_arg18 (by decide)
    _ = W18 m ρ c (Proc.devRef .tc main_arg18) := keep_main_part10_ops0_arg18 _
    _ = W17 m ρ c (Proc.devRef .tc main_arg18) := keep_main_part9_ops0_arg18 _
    _ = W16 m ρ c (Proc.devRef .tc main_arg18) := keep_main_part8_ops0_arg18 _
    _ = W15 m ρ c (Proc.devRef .tc main_arg18) := keep_main_part7_ops0_arg18 _
    _ = W14 m ρ c (Proc.devRef .tc main_arg18) := keep_main_part6_ops0_arg18 _
    _ = W13 m ρ c (Proc.devRef .tc main_arg18) := keep_main_part5_ops3_arg18 _
    _ = W12 m ρ c (Proc.devRef .tc main_arg18) := W13_of_ne m ρ c main_arg18 (by decide)
    _ = W11 m ρ c (Proc.devRef .tc main_arg18) := keep_main_part5_ops2_arg18 _
    _ = W10 m ρ c (Proc.devRef .tc main_arg18) := W11_of_ne m ρ c main_arg18 (by decide)
    _ = W9 m ρ c (Proc.devRef .tc main_arg18) := keep_main_part5_ops1_arg18 _
    _ = W8 m ρ c (Proc.devRef .tc main_arg18) := W9_of_ne m ρ c main_arg18 (by decide)
    _ = W7 m ρ c (Proc.devRef .tc main_arg18) := keep_main_part5_ops0_arg18 _
    _ = W6 m ρ c (Proc.devRef .tc main_arg18) := keep_main_part4_ops1_arg18 _
    _ = W5 m ρ c (Proc.devRef .tc main_arg18) := W6_of_ne m ρ c main_arg18 (by decide)
    _ = W4 m ρ c (Proc.devRef .tc main_arg18) := keep_main_part4_ops0_arg18 _
    _ = W3 m ρ c (Proc.devRef .tc main_arg18) := keep_main_part3_ops0_arg18 _
    _ = W2 m ρ c (Proc.devRef .tc main_arg18) := keep_main_part2_ops0_arg18 _
    _ = W1 m ρ c (Proc.devRef .tc main_arg18) := keep_main_part1_ops0_arg18 _
    _ = W0 m ρ c (Proc.devRef .tc main_arg18) := keep_main_part0_ops0_arg18 _
    _ = m ((c : Thread nD τ).loc main_arg18) := rfl

theorem Wfin_arg19 (c : Dev nD) : Wfin m ρ c (Proc.devRef .tc main_arg19) = m ((c : Thread nD τ).loc main_arg19) :=
  calc Wfin m ρ c (Proc.devRef .tc main_arg19)
    _ = W43 m ρ c (Proc.devRef .tc main_arg19) := W44_of_ne m ρ c main_arg19 (by decide)
    _ = W42 m ρ c (Proc.devRef .tc main_arg19) := keep_main_part16_ops2_arg19 _
    _ = W41 m ρ c (Proc.devRef .tc main_arg19) := W42_of_ne m ρ c main_arg19 (by decide)
    _ = W40 m ρ c (Proc.devRef .tc main_arg19) := keep_main_part16_ops1_arg19 _
    _ = W39 m ρ c (Proc.devRef .tc main_arg19) := W40_of_ne m ρ c main_arg19 (by decide)
    _ = W38 m ρ c (Proc.devRef .tc main_arg19) := keep_main_part16_ops0_arg19 _
    _ = W37 m ρ c (Proc.devRef .tc main_arg19) := keep_main_part15_ops3_arg19 _
    _ = W36 m ρ c (Proc.devRef .tc main_arg19) := W37_of_ne m ρ c main_arg19 (by decide)
    _ = W35 m ρ c (Proc.devRef .tc main_arg19) := keep_main_part15_ops2_arg19 _
    _ = W34 m ρ c (Proc.devRef .tc main_arg19) := W35_of_ne m ρ c main_arg19 (by decide)
    _ = W33 m ρ c (Proc.devRef .tc main_arg19) := keep_main_part15_ops1_arg19 _
    _ = W32 m ρ c (Proc.devRef .tc main_arg19) := W33_of_ne m ρ c main_arg19 (by decide)
    _ = W31 m ρ c (Proc.devRef .tc main_arg19) := keep_main_part15_ops0_arg19 _
    _ = W30 m ρ c (Proc.devRef .tc main_arg19) := keep_main_part14_ops0_arg19 _
    _ = W29 m ρ c (Proc.devRef .tc main_arg19) := keep_main_part13_ops0_arg19 _
    _ = W28 m ρ c (Proc.devRef .tc main_arg19) := keep_main_part12_ops0_arg19 _
    _ = W27 m ρ c (Proc.devRef .tc main_arg19) := keep_main_part11_ops0_arg19 _
    _ = W26 m ρ c (Proc.devRef .tc main_arg19) := keep_main_part10_ops4_arg19 _
    _ = W25 m ρ c (Proc.devRef .tc main_arg19) := W26_of_ne m ρ c main_arg19 (by decide)
    _ = W24 m ρ c (Proc.devRef .tc main_arg19) := keep_main_part10_ops3_arg19 _
    _ = W23 m ρ c (Proc.devRef .tc main_arg19) := W24_of_ne m ρ c main_arg19 (by decide)
    _ = W22 m ρ c (Proc.devRef .tc main_arg19) := keep_main_part10_ops2_arg19 _
    _ = W21 m ρ c (Proc.devRef .tc main_arg19) := W22_of_ne m ρ c main_arg19 (by decide)
    _ = W20 m ρ c (Proc.devRef .tc main_arg19) := keep_main_part10_ops1_arg19 _
    _ = W19 m ρ c (Proc.devRef .tc main_arg19) := W20_of_ne m ρ c main_arg19 (by decide)
    _ = W18 m ρ c (Proc.devRef .tc main_arg19) := keep_main_part10_ops0_arg19 _
    _ = W17 m ρ c (Proc.devRef .tc main_arg19) := keep_main_part9_ops0_arg19 _
    _ = W16 m ρ c (Proc.devRef .tc main_arg19) := keep_main_part8_ops0_arg19 _
    _ = W15 m ρ c (Proc.devRef .tc main_arg19) := keep_main_part7_ops0_arg19 _
    _ = W14 m ρ c (Proc.devRef .tc main_arg19) := keep_main_part6_ops0_arg19 _
    _ = W13 m ρ c (Proc.devRef .tc main_arg19) := keep_main_part5_ops3_arg19 _
    _ = W12 m ρ c (Proc.devRef .tc main_arg19) := W13_of_ne m ρ c main_arg19 (by decide)
    _ = W11 m ρ c (Proc.devRef .tc main_arg19) := keep_main_part5_ops2_arg19 _
    _ = W10 m ρ c (Proc.devRef .tc main_arg19) := W11_of_ne m ρ c main_arg19 (by decide)
    _ = W9 m ρ c (Proc.devRef .tc main_arg19) := keep_main_part5_ops1_arg19 _
    _ = W8 m ρ c (Proc.devRef .tc main_arg19) := W9_of_ne m ρ c main_arg19 (by decide)
    _ = W7 m ρ c (Proc.devRef .tc main_arg19) := keep_main_part5_ops0_arg19 _
    _ = W6 m ρ c (Proc.devRef .tc main_arg19) := keep_main_part4_ops1_arg19 _
    _ = W5 m ρ c (Proc.devRef .tc main_arg19) := W6_of_ne m ρ c main_arg19 (by decide)
    _ = W4 m ρ c (Proc.devRef .tc main_arg19) := keep_main_part4_ops0_arg19 _
    _ = W3 m ρ c (Proc.devRef .tc main_arg19) := keep_main_part3_ops0_arg19 _
    _ = W2 m ρ c (Proc.devRef .tc main_arg19) := keep_main_part2_ops0_arg19 _
    _ = W1 m ρ c (Proc.devRef .tc main_arg19) := keep_main_part1_ops0_arg19 _
    _ = W0 m ρ c (Proc.devRef .tc main_arg19) := keep_main_part0_ops0_arg19 _
    _ = m ((c : Thread nD τ).loc main_arg19) := rfl

theorem Wfin_arg20 (c : Dev nD) : Wfin m ρ c (Proc.devRef .tc main_arg20) = m ((c : Thread nD τ).loc main_arg20) :=
  calc Wfin m ρ c (Proc.devRef .tc main_arg20)
    _ = W43 m ρ c (Proc.devRef .tc main_arg20) := W44_of_ne m ρ c main_arg20 (by decide)
    _ = W42 m ρ c (Proc.devRef .tc main_arg20) := keep_main_part16_ops2_arg20 _
    _ = W41 m ρ c (Proc.devRef .tc main_arg20) := W42_of_ne m ρ c main_arg20 (by decide)
    _ = W40 m ρ c (Proc.devRef .tc main_arg20) := keep_main_part16_ops1_arg20 _
    _ = W39 m ρ c (Proc.devRef .tc main_arg20) := W40_of_ne m ρ c main_arg20 (by decide)
    _ = W38 m ρ c (Proc.devRef .tc main_arg20) := keep_main_part16_ops0_arg20 _
    _ = W37 m ρ c (Proc.devRef .tc main_arg20) := keep_main_part15_ops3_arg20 _
    _ = W36 m ρ c (Proc.devRef .tc main_arg20) := W37_of_ne m ρ c main_arg20 (by decide)
    _ = W35 m ρ c (Proc.devRef .tc main_arg20) := keep_main_part15_ops2_arg20 _
    _ = W34 m ρ c (Proc.devRef .tc main_arg20) := W35_of_ne m ρ c main_arg20 (by decide)
    _ = W33 m ρ c (Proc.devRef .tc main_arg20) := keep_main_part15_ops1_arg20 _
    _ = W32 m ρ c (Proc.devRef .tc main_arg20) := W33_of_ne m ρ c main_arg20 (by decide)
    _ = W31 m ρ c (Proc.devRef .tc main_arg20) := keep_main_part15_ops0_arg20 _
    _ = W30 m ρ c (Proc.devRef .tc main_arg20) := keep_main_part14_ops0_arg20 _
    _ = W29 m ρ c (Proc.devRef .tc main_arg20) := keep_main_part13_ops0_arg20 _
    _ = W28 m ρ c (Proc.devRef .tc main_arg20) := keep_main_part12_ops0_arg20 _
    _ = W27 m ρ c (Proc.devRef .tc main_arg20) := keep_main_part11_ops0_arg20 _
    _ = W26 m ρ c (Proc.devRef .tc main_arg20) := keep_main_part10_ops4_arg20 _
    _ = W25 m ρ c (Proc.devRef .tc main_arg20) := W26_of_ne m ρ c main_arg20 (by decide)
    _ = W24 m ρ c (Proc.devRef .tc main_arg20) := keep_main_part10_ops3_arg20 _
    _ = W23 m ρ c (Proc.devRef .tc main_arg20) := W24_of_ne m ρ c main_arg20 (by decide)
    _ = W22 m ρ c (Proc.devRef .tc main_arg20) := keep_main_part10_ops2_arg20 _
    _ = W21 m ρ c (Proc.devRef .tc main_arg20) := W22_of_ne m ρ c main_arg20 (by decide)
    _ = W20 m ρ c (Proc.devRef .tc main_arg20) := keep_main_part10_ops1_arg20 _
    _ = W19 m ρ c (Proc.devRef .tc main_arg20) := W20_of_ne m ρ c main_arg20 (by decide)
    _ = W18 m ρ c (Proc.devRef .tc main_arg20) := keep_main_part10_ops0_arg20 _
    _ = W17 m ρ c (Proc.devRef .tc main_arg20) := keep_main_part9_ops0_arg20 _
    _ = W16 m ρ c (Proc.devRef .tc main_arg20) := keep_main_part8_ops0_arg20 _
    _ = W15 m ρ c (Proc.devRef .tc main_arg20) := keep_main_part7_ops0_arg20 _
    _ = W14 m ρ c (Proc.devRef .tc main_arg20) := keep_main_part6_ops0_arg20 _
    _ = W13 m ρ c (Proc.devRef .tc main_arg20) := keep_main_part5_ops3_arg20 _
    _ = W12 m ρ c (Proc.devRef .tc main_arg20) := W13_of_ne m ρ c main_arg20 (by decide)
    _ = W11 m ρ c (Proc.devRef .tc main_arg20) := keep_main_part5_ops2_arg20 _
    _ = W10 m ρ c (Proc.devRef .tc main_arg20) := W11_of_ne m ρ c main_arg20 (by decide)
    _ = W9 m ρ c (Proc.devRef .tc main_arg20) := keep_main_part5_ops1_arg20 _
    _ = W8 m ρ c (Proc.devRef .tc main_arg20) := W9_of_ne m ρ c main_arg20 (by decide)
    _ = W7 m ρ c (Proc.devRef .tc main_arg20) := keep_main_part5_ops0_arg20 _
    _ = W6 m ρ c (Proc.devRef .tc main_arg20) := keep_main_part4_ops1_arg20 _
    _ = W5 m ρ c (Proc.devRef .tc main_arg20) := W6_of_ne m ρ c main_arg20 (by decide)
    _ = W4 m ρ c (Proc.devRef .tc main_arg20) := keep_main_part4_ops0_arg20 _
    _ = W3 m ρ c (Proc.devRef .tc main_arg20) := keep_main_part3_ops0_arg20 _
    _ = W2 m ρ c (Proc.devRef .tc main_arg20) := keep_main_part2_ops0_arg20 _
    _ = W1 m ρ c (Proc.devRef .tc main_arg20) := keep_main_part1_ops0_arg20 _
    _ = W0 m ρ c (Proc.devRef .tc main_arg20) := keep_main_part0_ops0_arg20 _
    _ = m ((c : Thread nD τ).loc main_arg20) := rfl

theorem Wfin_arg21 (c : Dev nD) : Wfin m ρ c (Proc.devRef .tc main_arg21) = m ((c : Thread nD τ).loc main_arg21) :=
  calc Wfin m ρ c (Proc.devRef .tc main_arg21)
    _ = W43 m ρ c (Proc.devRef .tc main_arg21) := W44_of_ne m ρ c main_arg21 (by decide)
    _ = W42 m ρ c (Proc.devRef .tc main_arg21) := keep_main_part16_ops2_arg21 _
    _ = W41 m ρ c (Proc.devRef .tc main_arg21) := W42_of_ne m ρ c main_arg21 (by decide)
    _ = W40 m ρ c (Proc.devRef .tc main_arg21) := keep_main_part16_ops1_arg21 _
    _ = W39 m ρ c (Proc.devRef .tc main_arg21) := W40_of_ne m ρ c main_arg21 (by decide)
    _ = W38 m ρ c (Proc.devRef .tc main_arg21) := keep_main_part16_ops0_arg21 _
    _ = W37 m ρ c (Proc.devRef .tc main_arg21) := keep_main_part15_ops3_arg21 _
    _ = W36 m ρ c (Proc.devRef .tc main_arg21) := W37_of_ne m ρ c main_arg21 (by decide)
    _ = W35 m ρ c (Proc.devRef .tc main_arg21) := keep_main_part15_ops2_arg21 _
    _ = W34 m ρ c (Proc.devRef .tc main_arg21) := W35_of_ne m ρ c main_arg21 (by decide)
    _ = W33 m ρ c (Proc.devRef .tc main_arg21) := keep_main_part15_ops1_arg21 _
    _ = W32 m ρ c (Proc.devRef .tc main_arg21) := W33_of_ne m ρ c main_arg21 (by decide)
    _ = W31 m ρ c (Proc.devRef .tc main_arg21) := keep_main_part15_ops0_arg21 _
    _ = W30 m ρ c (Proc.devRef .tc main_arg21) := keep_main_part14_ops0_arg21 _
    _ = W29 m ρ c (Proc.devRef .tc main_arg21) := keep_main_part13_ops0_arg21 _
    _ = W28 m ρ c (Proc.devRef .tc main_arg21) := keep_main_part12_ops0_arg21 _
    _ = W27 m ρ c (Proc.devRef .tc main_arg21) := keep_main_part11_ops0_arg21 _
    _ = W26 m ρ c (Proc.devRef .tc main_arg21) := keep_main_part10_ops4_arg21 _
    _ = W25 m ρ c (Proc.devRef .tc main_arg21) := W26_of_ne m ρ c main_arg21 (by decide)
    _ = W24 m ρ c (Proc.devRef .tc main_arg21) := keep_main_part10_ops3_arg21 _
    _ = W23 m ρ c (Proc.devRef .tc main_arg21) := W24_of_ne m ρ c main_arg21 (by decide)
    _ = W22 m ρ c (Proc.devRef .tc main_arg21) := keep_main_part10_ops2_arg21 _
    _ = W21 m ρ c (Proc.devRef .tc main_arg21) := W22_of_ne m ρ c main_arg21 (by decide)
    _ = W20 m ρ c (Proc.devRef .tc main_arg21) := keep_main_part10_ops1_arg21 _
    _ = W19 m ρ c (Proc.devRef .tc main_arg21) := W20_of_ne m ρ c main_arg21 (by decide)
    _ = W18 m ρ c (Proc.devRef .tc main_arg21) := keep_main_part10_ops0_arg21 _
    _ = W17 m ρ c (Proc.devRef .tc main_arg21) := keep_main_part9_ops0_arg21 _
    _ = W16 m ρ c (Proc.devRef .tc main_arg21) := keep_main_part8_ops0_arg21 _
    _ = W15 m ρ c (Proc.devRef .tc main_arg21) := keep_main_part7_ops0_arg21 _
    _ = W14 m ρ c (Proc.devRef .tc main_arg21) := keep_main_part6_ops0_arg21 _
    _ = W13 m ρ c (Proc.devRef .tc main_arg21) := keep_main_part5_ops3_arg21 _
    _ = W12 m ρ c (Proc.devRef .tc main_arg21) := W13_of_ne m ρ c main_arg21 (by decide)
    _ = W11 m ρ c (Proc.devRef .tc main_arg21) := keep_main_part5_ops2_arg21 _
    _ = W10 m ρ c (Proc.devRef .tc main_arg21) := W11_of_ne m ρ c main_arg21 (by decide)
    _ = W9 m ρ c (Proc.devRef .tc main_arg21) := keep_main_part5_ops1_arg21 _
    _ = W8 m ρ c (Proc.devRef .tc main_arg21) := W9_of_ne m ρ c main_arg21 (by decide)
    _ = W7 m ρ c (Proc.devRef .tc main_arg21) := keep_main_part5_ops0_arg21 _
    _ = W6 m ρ c (Proc.devRef .tc main_arg21) := keep_main_part4_ops1_arg21 _
    _ = W5 m ρ c (Proc.devRef .tc main_arg21) := W6_of_ne m ρ c main_arg21 (by decide)
    _ = W4 m ρ c (Proc.devRef .tc main_arg21) := keep_main_part4_ops0_arg21 _
    _ = W3 m ρ c (Proc.devRef .tc main_arg21) := keep_main_part3_ops0_arg21 _
    _ = W2 m ρ c (Proc.devRef .tc main_arg21) := keep_main_part2_ops0_arg21 _
    _ = W1 m ρ c (Proc.devRef .tc main_arg21) := keep_main_part1_ops0_arg21 _
    _ = W0 m ρ c (Proc.devRef .tc main_arg21) := keep_main_part0_ops0_arg21 _
    _ = m ((c : Thread nD τ).loc main_arg21) := rfl

theorem Wfin_arg22 (c : Dev nD) : Wfin m ρ c (Proc.devRef .tc main_arg22) = m ((c : Thread nD τ).loc main_arg22) :=
  calc Wfin m ρ c (Proc.devRef .tc main_arg22)
    _ = W43 m ρ c (Proc.devRef .tc main_arg22) := W44_of_ne m ρ c main_arg22 (by decide)
    _ = W42 m ρ c (Proc.devRef .tc main_arg22) := keep_main_part16_ops2_arg22 _
    _ = W41 m ρ c (Proc.devRef .tc main_arg22) := W42_of_ne m ρ c main_arg22 (by decide)
    _ = W40 m ρ c (Proc.devRef .tc main_arg22) := keep_main_part16_ops1_arg22 _
    _ = W39 m ρ c (Proc.devRef .tc main_arg22) := W40_of_ne m ρ c main_arg22 (by decide)
    _ = W38 m ρ c (Proc.devRef .tc main_arg22) := keep_main_part16_ops0_arg22 _
    _ = W37 m ρ c (Proc.devRef .tc main_arg22) := keep_main_part15_ops3_arg22 _
    _ = W36 m ρ c (Proc.devRef .tc main_arg22) := W37_of_ne m ρ c main_arg22 (by decide)
    _ = W35 m ρ c (Proc.devRef .tc main_arg22) := keep_main_part15_ops2_arg22 _
    _ = W34 m ρ c (Proc.devRef .tc main_arg22) := W35_of_ne m ρ c main_arg22 (by decide)
    _ = W33 m ρ c (Proc.devRef .tc main_arg22) := keep_main_part15_ops1_arg22 _
    _ = W32 m ρ c (Proc.devRef .tc main_arg22) := W33_of_ne m ρ c main_arg22 (by decide)
    _ = W31 m ρ c (Proc.devRef .tc main_arg22) := keep_main_part15_ops0_arg22 _
    _ = W30 m ρ c (Proc.devRef .tc main_arg22) := keep_main_part14_ops0_arg22 _
    _ = W29 m ρ c (Proc.devRef .tc main_arg22) := keep_main_part13_ops0_arg22 _
    _ = W28 m ρ c (Proc.devRef .tc main_arg22) := keep_main_part12_ops0_arg22 _
    _ = W27 m ρ c (Proc.devRef .tc main_arg22) := keep_main_part11_ops0_arg22 _
    _ = W26 m ρ c (Proc.devRef .tc main_arg22) := keep_main_part10_ops4_arg22 _
    _ = W25 m ρ c (Proc.devRef .tc main_arg22) := W26_of_ne m ρ c main_arg22 (by decide)
    _ = W24 m ρ c (Proc.devRef .tc main_arg22) := keep_main_part10_ops3_arg22 _
    _ = W23 m ρ c (Proc.devRef .tc main_arg22) := W24_of_ne m ρ c main_arg22 (by decide)
    _ = W22 m ρ c (Proc.devRef .tc main_arg22) := keep_main_part10_ops2_arg22 _
    _ = W21 m ρ c (Proc.devRef .tc main_arg22) := W22_of_ne m ρ c main_arg22 (by decide)
    _ = W20 m ρ c (Proc.devRef .tc main_arg22) := keep_main_part10_ops1_arg22 _
    _ = W19 m ρ c (Proc.devRef .tc main_arg22) := W20_of_ne m ρ c main_arg22 (by decide)
    _ = W18 m ρ c (Proc.devRef .tc main_arg22) := keep_main_part10_ops0_arg22 _
    _ = W17 m ρ c (Proc.devRef .tc main_arg22) := keep_main_part9_ops0_arg22 _
    _ = W16 m ρ c (Proc.devRef .tc main_arg22) := keep_main_part8_ops0_arg22 _
    _ = W15 m ρ c (Proc.devRef .tc main_arg22) := keep_main_part7_ops0_arg22 _
    _ = W14 m ρ c (Proc.devRef .tc main_arg22) := keep_main_part6_ops0_arg22 _
    _ = W13 m ρ c (Proc.devRef .tc main_arg22) := keep_main_part5_ops3_arg22 _
    _ = W12 m ρ c (Proc.devRef .tc main_arg22) := W13_of_ne m ρ c main_arg22 (by decide)
    _ = W11 m ρ c (Proc.devRef .tc main_arg22) := keep_main_part5_ops2_arg22 _
    _ = W10 m ρ c (Proc.devRef .tc main_arg22) := W11_of_ne m ρ c main_arg22 (by decide)
    _ = W9 m ρ c (Proc.devRef .tc main_arg22) := keep_main_part5_ops1_arg22 _
    _ = W8 m ρ c (Proc.devRef .tc main_arg22) := W9_of_ne m ρ c main_arg22 (by decide)
    _ = W7 m ρ c (Proc.devRef .tc main_arg22) := keep_main_part5_ops0_arg22 _
    _ = W6 m ρ c (Proc.devRef .tc main_arg22) := keep_main_part4_ops1_arg22 _
    _ = W5 m ρ c (Proc.devRef .tc main_arg22) := W6_of_ne m ρ c main_arg22 (by decide)
    _ = W4 m ρ c (Proc.devRef .tc main_arg22) := keep_main_part4_ops0_arg22 _
    _ = W3 m ρ c (Proc.devRef .tc main_arg22) := keep_main_part3_ops0_arg22 _
    _ = W2 m ρ c (Proc.devRef .tc main_arg22) := keep_main_part2_ops0_arg22 _
    _ = W1 m ρ c (Proc.devRef .tc main_arg22) := keep_main_part1_ops0_arg22 _
    _ = W0 m ρ c (Proc.devRef .tc main_arg22) := keep_main_part0_ops0_arg22 _
    _ = m ((c : Thread nD τ).loc main_arg22) := rfl

end Cert.KernelIdeal.Hand

end
-- ==== Proof.KI.Args.lean ====
/- Each of the 23 argument arrays ends as launched: `Wfin_arg0` … `Wfin_arg22`, gathered from the four modules that prove them. -/
import proofs.«125545_j64845416235624_1_alg».proof.Proof.KI.Args0
import proofs.«125545_j64845416235624_1_alg».proof.Proof.KI.Args1
import proofs.«125545_j64845416235624_1_alg».proof.Proof.KI.Args2
import proofs.«125545_j64845416235624_1_alg».proof.Proof.KI.Args3
-- ==== Proof.KI.Frame.lean ====
import proofs.«125545_j64845416235624_1_alg».proof.Proof.KI.Run
import proofs.«125545_j64845416235624_1_alg».proof.Proof.KI.Args

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! # The frame claim

At the compiled mesh, from any memory with zero counters, every weakly fair execution of @main on the TensorCores
terminates, nothing faulting, and every final state has the 23 argument arrays as launched: the run leaves every
unscoped buffer at the last boundary's contents (`run_all`), an argument array is an unscoped buffer (`mem_uc`), and
the last boundary's contents at an argument are the launch memory's (`Wfin_arg…`). -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
    (h c _ (mem_uc main_arg0 (by decide))).trans (Wfin_arg0 m ρ c),
    (h c _ (mem_uc main_arg1 (by decide))).trans (Wfin_arg1 m ρ c),
    (h c _ (mem_uc main_arg2 (by decide))).trans (Wfin_arg2 m ρ c),
    (h c _ (mem_uc main_arg3 (by decide))).trans (Wfin_arg3 m ρ c),
    (h c _ (mem_uc main_arg4 (by decide))).trans (Wfin_arg4 m ρ c),
    (h c _ (mem_uc main_arg5 (by decide))).trans (Wfin_arg5 m ρ c),
    (h c _ (mem_uc main_arg6 (by decide))).trans (Wfin_arg6 m ρ c),
    (h c _ (mem_uc main_arg7 (by decide))).trans (Wfin_arg7 m ρ c),
    (h c _ (mem_uc main_arg8 (by decide))).trans (Wfin_arg8 m ρ c),
    (h c _ (mem_uc main_arg9 (by decide))).trans (Wfin_arg9 m ρ c),
    (h c _ (mem_uc main_arg10 (by decide))).trans (Wfin_arg10 m ρ c),
    (h c _ (mem_uc main_arg11 (by decide))).trans (Wfin_arg11 m ρ c),
    (h c _ (mem_uc main_arg12 (by decide))).trans (Wfin_arg12 m ρ c),
    (h c _ (mem_uc main_arg13 (by decide))).trans (Wfin_arg13 m ρ c),
    (h c _ (mem_uc main_arg14 (by decide))).trans (Wfin_arg14 m ρ c),
    (h c _ (mem_uc main_arg15 (by decide))).trans (Wfin_arg15 m ρ c),
    (h c _ (mem_uc main_arg16 (by decide))).trans (Wfin_arg16 m ρ c),
    (h c _ (mem_uc main_arg17 (by decide))).trans (Wfin_arg17 m ρ c),
    (h c _ (mem_uc main_arg18 (by decide))).trans (Wfin_arg18 m ρ c),
    (h c _ (mem_uc main_arg19 (by decide))).trans (Wfin_arg19 m ρ c),
    (h c _ (mem_uc main_arg20 (by decide))).trans (Wfin_arg20 m ρ c),
    (h c _ (mem_uc main_arg21 (by decide))).trans (Wfin_arg21 m ρ c),
    (h c _ (mem_uc main_arg22 (by decide))).trans (Wfin_arg22 m ρ c)⟩) (run_all m ρ)

end Cert.KernelIdeal.Hand

end
-- ==== Proof.Ref.Ops.lean ====
/-
  The reference's @main as lists of host operations, one list per printed window main_part<K>: each window is
  the sequence of its list, every operation's buffers are TensorCore buffers, and no operation allocates; then the
  same for the eighteen windows one after the other.
-/
import proofs.«125545_j64845416235624_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 60 operations of @main's window 0 (operations 1 … 60 of 1102), in order. -/
abbrev rw0 : List (HloOp τ sig (Elt F)) :=
  [ unary main_arg4 main_v0 ((extractStridedSlice S1x1x128x128 ![0, 0, 0, 0] · slices_S3x8x128x128_S1x1x128x128_0_0_0_0) : (⟨S3x8x128x128, .f32⟩ : BufTy).Contents (Elt F) → (⟨S1x1x128x128, .f32⟩ : BufTy).Contents (Elt F)),
    reshape main_v0 main_v1 rfl shapeCasts_S1x1x128x128_S128x128,
    unary main_arg5 main_v2 ((extractStridedSlice S1x1x128 ![0, 0, 0] · slices_S3x8x128_S1x1x128_0_0_0) : (⟨S3x8x128, .f32⟩ : BufTy).Contents (Elt F) → (⟨S1x1x128, .f32⟩ : BufTy).Contents (Elt F)),
    reshape main_v2 main_v3 rfl shapeCasts_S1x1x128_S128,
    unary main_arg6 main_v4 ((extractStridedSlice S1x1x128x128 ![0, 0, 0, 0] · slices_S3x8x128x128_S1x1x128x128_0_0_0_0) : (⟨S3x8x128x128, .f32⟩ : BufTy).Contents (Elt F) → (⟨S1x1x128x128, .f32⟩ : BufTy).Contents (Elt F)),
    reshape main_v4 main_v5 rfl shapeCasts_S1x1x128x128_S128x128,
    unary main_arg15 main_v6 ((extractStridedSlice S1x500000 ![0, 0] · slices_S2x500000_S1x500000_0_0) : (⟨S2x500000, .i32⟩ : BufTy).Contents (Elt F) → (⟨S1x500000, .i32⟩ : BufTy).Contents (Elt F)),
    reshape main_v6 main_v7 rfl shapeCasts_S1x500000_S500000,
    nullary main_c (constantI S_ 32 0#32),
    unary main_c main_v8 (broadcastInDim S500000 ![] bcast_S_S500000 : (⟨S_, .i32⟩ : BufTy).Contents (Elt F) → (⟨S500000, .i32⟩ : BufTy).Contents (Elt F)),
    binary main_v7 main_v8 main_v9 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v10 (broadcastInDim S500000 ![] bcast_S_S500000 : (⟨S_, .i32⟩ : BufTy).Contents (Elt F) → (⟨S500000, .i32⟩ : BufTy).Contents (Elt F)),
    binary main_v7 main_v10 main_v11 (addi : (⟨S500000, .i32⟩ : BufTy).Contents (Elt F) → (⟨S500000, .i32⟩ : BufTy).Contents (Elt F) → (⟨S500000, .i32⟩ : BufTy).Contents (Elt F)),
    ternary main_v9 main_v11 main_v7 main_v12 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v12 main_v13 (broadcastInDim S500000x1 ![0] bcast_S500000_S500000x1_0 : (⟨S500000, .i32⟩ : BufTy).Contents (Elt F) → (⟨S500000x1, .i32⟩ : BufTy).Contents (Elt F)),
    binary main_arg0 main_v13 main_v14 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    unary main_arg15 main_v15 ((extractStridedSlice S1x500000 ![1, 0] · slices_S2x500000_S1x500000_1_0) : (⟨S2x500000, .i32⟩ : BufTy).Contents (Elt F) → (⟨S1x500000, .i32⟩ : BufTy).Contents (Elt F)),
    reshape main_v15 main_v16 rfl shapeCasts_S1x500000_S500000,
    nullary main_cst (constant S_ .f32 0x00000000#32),
    unary main_cst main_v17 (broadcastInDim S100000x128 ![] bcast_S_S100000x128 : (⟨S_, .f32⟩ : BufTy).Contents (Elt F) → (⟨S100000x128, .f32⟩ : BufTy).Contents (Elt F)),
    unary main_v16 main_v18 (broadcastInDim S500000x1 ![0] bcast_S500000_S500000x1_0 : (⟨S500000, .i32⟩ : BufTy).Contents (Elt F) → (⟨S500000x1, .i32⟩ : BufTy).Contents (Elt F)),
    ternary main_v17 main_v18 main_v14 main_v19 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_1 (constant S_ .f32 0x3F800000#32),
    unary main_cst_1 main_v20 (broadcastInDim S500000 ![] bcast_S_S500000 : (⟨S_, .f32⟩ : BufTy).Contents (Elt F) → (⟨S500000, .f32⟩ : BufTy).Contents (Elt F)),
    unary main_arg15 main_v21 ((extractStridedSlice S1x500000 ![1, 0] · slices_S2x500000_S1x500000_1_0) : (⟨S2x500000, .i32⟩ : BufTy).Contents (Elt F) → (⟨S1x500000, .i32⟩ : BufTy).Contents (Elt F)),
    reshape main_v21 main_v22 rfl shapeCasts_S1x500000_S500000,
    nullary main_cst_2 (constant S_ .f32 0x00000000#32),
    unary main_cst_2 main_v23 (broadcastInDim S100000 ![] bcast_S_S100000 : (⟨S_, .f32⟩ : BufTy).Contents (Elt F) → (⟨S100000, .f32⟩ : BufTy).Contents (Elt F)),
    unary main_v22 main_v24 (broadcastInDim S500000x1 ![0] bcast_S500000_S500000x1_0 : (⟨S500000, .i32⟩ : BufTy).Contents (Elt F) → (⟨S500000x1, .i32⟩ : BufTy).Contents (Elt F)),
    ternary main_v23 main_v24 main_v20 main_v25 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_3 (constant S_ .f32 0x3F800000#32),
    unary main_cst_3 main_v26 (broadcastInDim S100000 ![] bcast_S_S100000 : (⟨S_, .f32⟩ : BufTy).Contents (Elt F) → (⟨S100000, .f32⟩ : BufTy).Contents (Elt F)),
    binary main_v25 main_v26 main_v27 (maximumf : (⟨S100000, .f32⟩ : BufTy).Contents (Elt F) → (⟨S100000, .f32⟩ : BufTy).Contents (Elt F) → (⟨S100000, .f32⟩ : BufTy).Contents (Elt F)),
    unary main_v27 main_v28 (broadcastInDim S100000x1 ![0] bcast_S100000_S100000x1_0 : (⟨S100000, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v19 main_v29 main_v30 (Host.divf : (⟨S100000x128, .f32⟩ : BufTy).Contents (Elt F) → (⟨S100000x128, .f32⟩ : BufTy).Contents (Elt F) → (⟨S100000x128, .f32⟩ : BufTy).Contents (Elt F)),
    binary main_v30 main_v1 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v3 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    binary main_arg0 main_v5 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v34 main_v35 main_v36 (addf : (⟨S100000x128, .f32⟩ : BufTy).Contents (Elt F) → (⟨S100000x128, .f32⟩ : BufTy).Contents (Elt F) → (⟨S100000x128, .f32⟩ : BufTy).Contents (Elt F)),
    unary main_arg4 main_v37 ((extractStridedSlice S1x1x128x128 ![0, 1, 0, 0] · slices_S3x8x128x128_S1x1x128x128_0_1_0_0) : (⟨S3x8x128x128, .f32⟩ : BufTy).Contents (Elt F) → (⟨S1x1x128x128, .f32⟩ : BufTy).Contents (Elt F)),
    reshape main_v37 main_v38 rfl shapeCasts_S1x1x128x128_S128x128,
    unary main_arg5 main_v39 ((extractStridedSlice S1x1x128 ![0, 1, 0] · slices_S3x8x128_S1x1x128_0_1_0) : (⟨S3x8x128, .f32⟩ : BufTy).Contents (Elt F) → (⟨S1x1x128, .f32⟩ : BufTy).Contents (Elt F)),
    reshape main_v39 main_v40 rfl shapeCasts_S1x1x128_S128,
    unary main_arg6 main_v41 ((extractStridedSlice S1x1x128x128 ![0, 1, 0, 0] · slices_S3x8x128x128_S1x1x128x128_0_1_0_0) : (⟨S3x8x128x128, .f32⟩ : BufTy).Contents (Elt F) → (⟨S1x1x128x128, .f32⟩ : BufTy).Contents (Elt F)),
    reshape main_v41 main_v42 rfl shapeCasts_S1x1x128x128_S128x128,
    unary main_arg16 main_v43 ((extractStridedSlice S1x100000 ![0, 0] · slices_S2x100000_S1x100000_0_0) : (⟨S2x100000, .i32⟩ : BufTy).Contents (Elt F) → (⟨S1x100000, .i32⟩ : BufTy).Contents (Elt F)),
    reshape main_v43 main_v44 rfl shapeCasts_S1x100000_S100000,
    nullary main_c_4 (constantI S_ 32 0#32),
    unary main_c_4 main_v45 (broadcastInDim S100000 ![] bcast_S_S100000 : (⟨S_, .i32⟩ : BufTy).Contents (Elt F) → (⟨S100000, .i32⟩ : BufTy).Contents (Elt F)),
    binary main_v44 main_v45 main_v46 (cmpi .slt : (⟨S100000, .i32⟩ : BufTy).Contents (Elt F) → (⟨S100000, .i32⟩ : BufTy).Contents (Elt F) → (⟨S100000, .i1⟩ : BufTy).Contents (Elt F)),
    nullary main_c_5 (constantI S_ 32 100000#32),
    unary main_c_5 main_v47 (broadcastInDim S100000 ![] bcast_S_S100000 : (⟨S_, .i32⟩ : BufTy).Contents (Elt F) → (⟨S100000, .i32⟩ : BufTy).Contents (Elt F)),
    binary main_v44 main_v47 main_v48 (addi : (⟨S100000, .i32⟩ : BufTy).Contents (Elt F) → (⟨S100000, .i32⟩ : BufTy).Contents (Elt F) → (⟨S100000, .i32⟩ : BufTy).Contents (Elt F)),
    ternary main_v46 main_v48 main_v44 main_v49 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v49 main_v50 (broadcastInDim S100000x1 ![0] bcast_S100000_S100000x1_0 : (⟨S100000, .i32⟩ : BufTy).Contents (Elt F) → (⟨S100000x1, .i32⟩ : BufTy).Contents (Elt F)),
    binary main_arg0 main_v50 main_v51 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)) ]

set_option maxRecDepth 8192 in
set_option maxHeartbeats 4000000 in
theorem main_part0_eq (c : Dev nD) : main_part0 (F := F) c = seq rw0 := rfl

set_option maxRecDepth 8192 in
theorem rw0_sub : (rw0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem rw0_fresh' : (rw0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw0_fresh : ∀ op ∈ (rw0 : List (HloOp τ sig (Elt F))), op.fresh = ∅ :=
  List.forall_iff_forall_mem.mp rw0_fresh'

/-- The 60 operations of @main's window 1 (operations 61 … 120 of 1102), in order. -/
abbrev rw1 : List (HloOp τ sig (Elt F)) :=
  [ unary main_arg16 main_v52 ((extractStridedSlice S1x100000 ![1, 0] · slices_S2x100000_S1x100000_1_0) : (⟨S2x100000, .i32⟩ : BufTy).Contents (Elt F) → (⟨S1x100000, .i32⟩ : BufTy).Contents (Elt F)),
    reshape main_v52 main_v53 rfl shapeCasts_S1x100000_S100000,
    nullary main_cst_6 (constant S_ .f32 0x00000000#32),
    unary main_cst_6 main_v54 (broadcastInDim S100000x128 ![] bcast_S_S100000x128 : (⟨S_, .f32⟩ : BufTy).Contents (Elt F) → (⟨S100000x128, .f32⟩ : BufTy).Contents (Elt F)),
    unary main_v53 main_v55 (broadcastInDim S100000x1 ![0] bcast_S100000_S100000x1_0 : (⟨S100000, .i32⟩ : BufTy).Contents (Elt F) → (⟨S100000x1, .i32⟩ : BufTy).Contents (Elt F)),
    ternary main_v54 main_v55 main_v51 main_v56 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_7 (constant S_ .f32 0x3F800000#32),
    unary main_cst_7 main_v57 (broadcastInDim S100000 ![] bcast_S_S100000 : (⟨S_, .f32⟩ : BufTy).Contents (Elt F) → (⟨S100000, .f32⟩ : BufTy).Contents (Elt F)),
    unary main_arg16 main_v58 ((extractStridedSlice S1x100000 ![1, 0] · slices_S2x100000_S1x100000_1_0) : (⟨S2x100000, .i32⟩ : BufTy).Contents (Elt F) → (⟨S1x100000, .i32⟩ : BufTy).Contents (Elt F)),
    reshape main_v58 main_v59 rfl shapeCasts_S1x100000_S100000,
    nullary main_cst_8 (constant S_ .f32 0x00000000#32),
    unary main_cst_8 main_v60 (broadcastInDim S100000 ![] bcast_S_S100000 : (⟨S_, .f32⟩ : BufTy).Contents (Elt F) → (⟨S100000, .f32⟩ : BufTy).Contents (Elt F)),
    unary main_v59 main_v61 (broadcastInDim S100000x1 ![0] bcast_S100000_S100000x1_0 : (⟨S100000, .i32⟩ : BufTy).Contents (Elt F) → (⟨S100000x1, .i32⟩ : BufTy).Contents (Elt F)),
    ternary main_v60 main_v61 main_v57 main_v62 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_9 (constant S_ .f32 0x3F800000#32),
    unary main_cst_9 main_v63 (broadcastInDim S100000 ![] bcast_S_S100000 : (⟨S_, .f32⟩ : BufTy).Contents (Elt F) → (⟨S100000, .f32⟩ : BufTy).Contents (Elt F)),
    binary main_v62 main_v63 main_v64 (maximumf : (⟨S100000, .f32⟩ : BufTy).Contents (Elt F) → (⟨S100000, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    unary main_v65 main_v66 (broadcastInDim S100000x128 ![0, 1] bcast_S100000x1_S100000x128_0_1 : (⟨S100000x1, .f32⟩ : BufTy).Contents (Elt F) → (⟨S100000x128, .f32⟩ : BufTy).Contents (Elt F)),
    binary main_v56 main_v66 main_v67 (Host.divf : (⟨S100000x128, .f32⟩ : BufTy).Contents (Elt F) → (⟨S100000x128, .f32⟩ : BufTy).Contents (Elt F) → (⟨S100000x128, .f32⟩ : BufTy).Contents (Elt F)),
    binary main_v67 main_v38 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v40 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    binary main_arg0 main_v42 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v71 main_v72 main_v73 (addf : (⟨S100000x128, .f32⟩ : BufTy).Contents (Elt F) → (⟨S100000x128, .f32⟩ : BufTy).Contents (Elt F) → (⟨S100000x128, .f32⟩ : BufTy).Contents (Elt F)),
    binary main_v36 main_v73 main_v74 (addf : (⟨S100000x128, .f32⟩ : BufTy).Contents (Elt F) → (⟨S100000x128, .f32⟩ : BufTy).Contents (Elt F) → (⟨S100000x128, .f32⟩ : BufTy).Contents (Elt F)),
    unary main_arg4 main_v75 ((extractStridedSlice S1x1x128x128 ![0, 2, 0, 0] · slices_S3x8x128x128_S1x1x128x128_0_2_0_0) : (⟨S3x8x128x128, .f32⟩ : BufTy).Contents (Elt F) → (⟨S1x1x128x128, .f32⟩ : BufTy).Contents (Elt F)),
    reshape main_v75 main_v76 rfl shapeCasts_S1x1x128x128_S128x128,
    unary main_arg5 main_v77 ((extractStridedSlice S1x1x128 ![0, 2, 0] · slices_S3x8x128_S1x1x128_0_2_0) : (⟨S3x8x128, .f32⟩ : BufTy).Contents (Elt F) → (⟨S1x1x128, .f32⟩ : BufTy).Contents (Elt F)),
    reshape main_v77 main_v78 rfl shapeCasts_S1x1x128_S128,
    unary main_arg6 main_v79 ((extractStridedSlice S1x1x128x128 ![0, 2, 0, 0] · slices_S3x8x128x128_S1x1x128x128_0_2_0_0) : (⟨S3x8x128x128, .f32⟩ : BufTy).Contents (Elt F) → (⟨S1x1x128x128, .f32⟩ : BufTy).Contents (Elt F)),
    reshape main_v79 main_v80 rfl shapeCasts_S1x1x128x128_S128x128,
    unary main_arg17 main_v81 ((extractStridedSlice S1x20000 ![0, 0] · slices_S2x20000_S1x20000_0_0) : (⟨S2x20000, .i32⟩ : BufTy).Contents (Elt F) → (⟨S1x20000, .i32⟩ : BufTy).Contents (Elt F)),
    reshape main_v81 main_v82 rfl shapeCasts_S1x20000_S20000,
    nullary main_c_10 (constantI S_ 32 0#32),
    unary main_c_10 main_v83 (broadcastInDim S20000 ![] bcast_S_S20000 : (⟨S_, .i32⟩ : BufTy).Contents (Elt F) → (⟨S20000, .i32⟩ : BufTy).Contents (Elt F)),
    binary main_v82 main_v83 main_v84 (cmpi .slt : (⟨S20000, .i32⟩ : BufTy).Contents (Elt F) → (⟨S20000, .i32⟩ : BufTy).Contents (Elt F) → (⟨S20000, .i1⟩ : BufTy).Contents (Elt F)),
    nullary main_c_11 (constantI S_ 32 20000#32),
    unary main_c_11 main_v85 (broadcastInDim S20000 ![] bcast_S_S20000 : (⟨S_, .i32⟩ : BufTy).Contents (Elt F) → (⟨S20000, .i32⟩ : BufTy).Contents (Elt F)),
    binary main_v82 main_v85 main_v86 (addi : (⟨S20000, .i32⟩ : BufTy).Contents (Elt F) → (⟨S20000, .i32⟩ : BufTy).Contents (Elt F) → (⟨S20000, .i32⟩ : BufTy).Contents (Elt F)),
    ternary main_v84 main_v86 main_v82 main_v87 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v87 main_v88 (broadcastInDim S20000x1 ![0] bcast_S20000_S20000x1_0 : (⟨S20000, .i32⟩ : BufTy).Contents (Elt F) → (⟨S20000x1, .i32⟩ : BufTy).Contents (Elt F)),
    binary main_arg1 main_v88 main_v89 ((fun x i => Host.gather gather_S20000x128_S20000x1_S20000x128_1_0_n_n_0_1_1128 x i) : (⟨S20000x128, .f32⟩ : BufTy).Contents (Elt F) → (⟨S20000x1, .i32⟩ : BufTy).Contents (Elt F) → (⟨S20000x128, .f32⟩ : BufTy).Contents (Elt F)),
    unary main_arg17 main_v90 ((extractStridedSlice S1x20000 ![1, 0] · slices_S2x20000_S1x20000_1_0) : (⟨S2x20000, .i32⟩ : BufTy).Contents (Elt F) → (⟨S1x20000, .i32⟩ : BufTy).Contents (Elt F)),
    reshape main_v90 main_v91 rfl shapeCasts_S1x20000_S20000,
    nullary main_cst_12 (constant S_ .f32 0x00000000#32),
    unary main_cst_12 main_v92 (broadcastInDim S100000x128 ![] bcast_S_S100000x128 : (⟨S_, .f32⟩ : BufTy).Contents (Elt F) → (⟨S100000x128, .f32⟩ : BufTy).Contents (Elt F)),
    unary main_v91 main_v93 (broadcastInDim S20000x1 ![0] bcast_S20000_S20000x1_0 : (⟨S20000, .i32⟩ : BufTy).Contents (Elt F) → (⟨S20000x1, .i32⟩ : BufTy).Contents (Elt F)),
    ternary main_v92 main_v93 main_v89 main_v94 ((fun x i u => Host.scatterAdd scatter_S100000x128_S20000x1_S20000x128_1_0_0_1 x i u) : (⟨S100000x128, .f32⟩ : BufTy).Contents (Elt F) → (⟨S20000x1, .i32⟩ : BufTy).Contents (Elt F) → (⟨S20000x128, .f32⟩ : BufTy).Contents (Elt F) → (⟨S100000x128, .f32⟩ : BufTy).Contents (Elt F)),
    nullary main_cst_13 (constant S_ .f32 0x3F800000#32),
    unary main_cst_13 main_v95 (broadcastInDim S20000 ![] bcast_S_S20000 : (⟨S_, .f32⟩ : BufTy).Contents (Elt F) → (⟨S20000, .f32⟩ : BufTy).Contents (Elt F)),
    unary main_arg17 main_v96 ((extractStridedSlice S1x20000 ![1, 0] · slices_S2x20000_S1x20000_1_0) : (⟨S2x20000, .i32⟩ : BufTy).Contents (Elt F) → (⟨S1x20000, .i32⟩ : BufTy).Contents (Elt F)),
    reshape main_v96 main_v97 rfl shapeCasts_S1x20000_S20000,
    nullary main_cst_14 (constant S_ .f32 0x00000000#32),
    unary main_cst_14 main_v98 (broadcastInDim S100000 ![] bcast_S_S100000 : (⟨S_, .f32⟩ : BufTy).Contents (Elt F) → (⟨S100000, .f32⟩ : BufTy).Contents (Elt F)),
    unary main_v97 main_v99 (broadcastInDim S20000x1 ![0] bcast_S20000_S20000x1_0 : (⟨S20000, .i32⟩ : BufTy).Contents (Elt F) → (⟨S20000x1, .i32⟩ : BufTy).Contents (Elt F)),
    ternary main_v98 main_v99 main_v95 main_v100 ((fun x i u => Host.scatterAdd scatter_S100000_S20000x1_S20000_n_0_0_1 x i u) : (⟨S100000, .f32⟩ : BufTy).Contents (Elt F) → (⟨S20000x1, .i32⟩ : BufTy).Contents (Elt F) → (⟨S20000, .f32⟩ : BufTy).Contents (Elt F) → (⟨S100000, .f32⟩ : BufTy).Contents (Elt F)),
    nullary main_cst_15 (constant S_ .f32 0x3F800000#32),
    unary main_cst_15 main_v101 (broadcastInDim S100000 ![] bcast_S_S100000 : (⟨S_, .f32⟩ : BufTy).Contents (Elt F) → (⟨S100000, .f32⟩ : BufTy).Contents (Elt F)) ]

set_option maxRecDepth 8192 in
set_option maxHeartbeats 4000000 in
theorem main_part1_eq (c : Dev nD) : main_part1 (F := F) c = seq rw1 := rfl

set_option maxRecDepth 8192 in
theorem rw1_sub : (rw1 : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub ..⟩

set_option maxRecDepth 8192 in
theorem rw1_fresh' : (rw1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw1_fresh : ∀ op ∈ (rw1 : List (HloOp τ sig (Elt F))), op.fresh = ∅ :=
  List.forall_iff_forall_mem.mp rw1_fresh'

/-- The 60 operations of @main's window 2 (operations 121 … 180 of 1102), in order. -/
abbrev rw2 : List (HloOp τ sig (Elt F)) :=
  [ binary main_v100 main_v101 main_v102 (maximumf : (⟨S100000, .f32⟩ : BufTy).Contents (Elt F) → (⟨S100000, .f32⟩ : BufTy).Contents (Elt F) → (⟨S100000, .f32⟩ : BufTy).Contents (Elt F)),
    unary main_v102 main_v103 (broadcastInDim S100000x1 ![0] bcast_S100000_S100000x1_0 : (⟨S100000, .f32⟩ : BufTy).Contents (Elt F) → (⟨S100000x1, .f32⟩ : BufTy).Contents (Elt F)),
    unary main_v103 main_v104 (broadcastInDim S100000x128 ![0, 1] bcast_S100000x1_S100000x128_0_1 : (⟨S100000x1, .f32⟩ : BufTy).Contents (Elt F) → (⟨S100000x128, .f32⟩ : BufTy).Contents (Elt F)),
    binary main_v94 main_v104 main_v105 (Host.divf : (⟨S100000x128, .f32⟩ : BufTy).Contents (Elt F) → (⟨S100000x128, .f32⟩ : BufTy).Contents (Elt F) → (⟨S100000x128, .f32⟩ : BufTy).Contents (Elt F)),
    binary main_v105 main_v76 main_v106 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v78 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v106 main_v108 main_v109 (addf : (⟨S100000x128, .f32⟩ : BufTy).Contents (Elt F) → (⟨S100000x128, .f32⟩ : BufTy).Contents (Elt F) → (⟨S100000x128, .f32⟩ : BufTy).Contents (Elt F)),
    binary main_arg0 main_v80 main_v110 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v109 main_v110 main_v111 (addf : (⟨S100000x128, .f32⟩ : BufTy).Contents (Elt F) → (⟨S100000x128, .f32⟩ : BufTy).Contents (Elt F) → (⟨S100000x128, .f32⟩ : BufTy).Contents (Elt F)),
    binary main_v74 main_v111 main_v112 (addf : (⟨S100000x128, .f32⟩ : BufTy).Contents (Elt F) → (⟨S100000x128, .f32⟩ : BufTy).Contents (Elt F) → (⟨S100000x128, .f32⟩ : BufTy).Contents (Elt F)),
    unary main_arg4 main_v113 ((extractStridedSlice S1x1x128x128 ![0, 4, 0, 0] · slices_S3x8x128x128_S1x1x128x128_0_4_0_0) : (⟨S3x8x128x128, .f32⟩ : BufTy).Contents (Elt F) → (⟨S1x1x128x128, .f32⟩ : BufTy).Contents (Elt F)),
    reshape main_v113 main_v114 rfl shapeCasts_S1x1x128x128_S128x128,
    unary main_arg5 main_v115 ((extractStridedSlice S1x1x128 ![0, 4, 0] · slices_S3x8x128_S1x1x128_0_4_0) : (⟨S3x8x128, .f32⟩ : BufTy).Contents (Elt F) → (⟨S1x1x128, .f32⟩ : BufTy).Contents (Elt F)),
    reshape main_v115 main_v116 rfl shapeCasts_S1x1x128_S128,
    unary main_arg6 main_v117 ((extractStridedSlice S1x1x128x128 ![0, 4, 0, 0] · slices_S3x8x128x128_S1x1x128x128_0_4_0_0) : (⟨S3x8x128x128, .f32⟩ : BufTy).Contents (Elt F) → (⟨S1x1x128x128, .f32⟩ : BufTy).Contents (Elt F)),
    reshape main_v117 main_v118 rfl shapeCasts_S1x1x128x128_S128x128,
    unary main_arg19 main_v119 ((extractStridedSlice S1x50000 ![0, 0] · slices_S2x50000_S1x50000_0_0) : (⟨S2x50000, .i32⟩ : BufTy).Contents (Elt F) → (⟨S1x50000, .i32⟩ : BufTy).Contents (Elt F)),
    reshape main_v119 main_v120 rfl shapeCasts_S1x50000_S50000,
    nullary main_c_16 (constantI S_ 32 0#32),
    unary main_c_16 main_v121 (broadcastInDim S50000 ![] bcast_S_S50000 : (⟨S_, .i32⟩ : BufTy).Contents (Elt F) → (⟨S50000, .i32⟩ : BufTy).Contents (Elt F)),
    binary main_v120 main_v121 main_v122 (cmpi .slt : (⟨S50000, .i32⟩ : BufTy).Contents (Elt F) → (⟨S50000, .i32⟩ : BufTy).Contents (Elt F) → (⟨S50000, .i1⟩ : BufTy).Contents (Elt F)),
    nullary main_c_17 (constantI S_ 32 50000#32),
    unary main_c_17 main_v123 (broadcastInDim S50000 ![] bcast_S_S50000 : (⟨S_, .i32⟩ : BufTy).Contents (Elt F) → (⟨S50000, .i32⟩ : BufTy).Contents (Elt F)),
    binary main_v120 main_v123 main_v124 (addi : (⟨S50000, .i32⟩ : BufTy).Contents (Elt F) → (⟨S50000, .i32⟩ : BufTy).Contents (Elt F) → (⟨S50000, .i32⟩ : BufTy).Contents (Elt F)),
    ternary main_v122 main_v124 main_v120 main_v125 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v125 main_v126 (broadcastInDim S50000x1 ![0] bcast_S50000_S50000x1_0 : (⟨S50000, .i32⟩ : BufTy).Contents (Elt F) → (⟨S50000x1, .i32⟩ : BufTy).Contents (Elt F)),
    binary main_arg2 main_v126 main_v127 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    unary main_arg19 main_v128 ((extractStridedSlice S1x50000 ![1, 0] · slices_S2x50000_S1x50000_1_0) : (⟨S2x50000, .i32⟩ : BufTy).Contents (Elt F) → (⟨S1x50000, .i32⟩ : BufTy).Contents (Elt F)),
    reshape main_v128 main_v129 rfl shapeCasts_S1x50000_S50000,
    nullary main_cst_18 (constant S_ .f32 0x00000000#32),
    unary main_cst_18 main_v130 (broadcastInDim S100000x128 ![] bcast_S_S100000x128 : (⟨S_, .f32⟩ : BufTy).Contents (Elt F) → (⟨S100000x128, .f32⟩ : BufTy).Contents (Elt F)),
    unary main_v129 main_v131 (broadcastInDim S50000x1 ![0] bcast_S50000_S50000x1_0 : (⟨S50000, .i32⟩ : BufTy).Contents (Elt F) → (⟨S50000x1, .i32⟩ : BufTy).Contents (Elt F)),
    ternary main_v130 main_v131 main_v127 main_v132 ((fun x i u => Host.scatterAdd scatter_S100000x128_S50000x1_S50000x128_1_0_0_1 x i u) : (⟨S100000x128, .f32⟩ : BufTy).Contents (Elt F) → (⟨S50000x1, .i32⟩ : BufTy).Contents (Elt F) → (⟨S50000x128, .f32⟩ : BufTy).Contents (Elt F) → (⟨S100000x128, .f32⟩ : BufTy).Contents (Elt F)),
    nullary main_cst_19 (constant S_ .f32 0x3F800000#32),
    unary main_cst_19 main_v133 (broadcastInDim S50000 ![] bcast_S_S50000 : (⟨S_, .f32⟩ : BufTy).Contents (Elt F) → (⟨S50000, .f32⟩ : BufTy).Contents (Elt F)),
    unary main_arg19 main_v134 ((extractStridedSlice S1x50000 ![1, 0] · slices_S2x50000_S1x50000_1_0) : (⟨S2x50000, .i32⟩ : BufTy).Contents (Elt F) → (⟨S1x50000, .i32⟩ : BufTy).Contents (Elt F)),
    reshape main_v134 main_v135 rfl shapeCasts_S1x50000_S50000,
    nullary main_cst_20 (constant S_ .f32 0x00000000#32),
    unary main_cst_20 main_v136 (broadcastInDim S100000 ![] bcast_S_S100000 : (⟨S_, .f32⟩ : BufTy).Contents (Elt F) → (⟨S100000, .f32⟩ : BufTy).Contents (Elt F)),
    unary main_v135 main_v137 (broadcastInDim S50000x1 ![0] bcast_S50000_S50000x1_0 : (⟨S50000, .i32⟩ : BufTy).Contents (Elt F) → (⟨S50000x1, .i32⟩ : BufTy).Contents (Elt F)),
    ternary main_v136 main_v137 main_v133 main_v138 ((fun x i u => Host.scatterAdd scatter_S100000_S50000x1_S50000_n_0_0_1 x i u) : (⟨S100000, .f32⟩ : BufTy).Contents (Elt F) → (⟨S50000x1, .i32⟩ : BufTy).Contents (Elt F) → (⟨S50000, .f32⟩ : BufTy).Contents (Elt F) → (⟨S100000, .f32⟩ : BufTy).Contents (Elt F)),
    nullary main_cst_21 (constant S_ .f32 0x3F800000#32),
    unary main_cst_21 main_v139 (broadcastInDim S100000 ![] bcast_S_S100000 : (⟨S_, .f32⟩ : BufTy).Contents (Elt F) → (⟨S100000, .f32⟩ : BufTy).Contents (Elt F)),
    binary main_v138 main_v139 main_v140 (maximumf : (⟨S100000, .f32⟩ : BufTy).Contents (Elt F) → (⟨S100000, .f32⟩ : BufTy).Contents (Elt F) → (⟨S100000, .f32⟩ : BufTy).Contents (Elt F)),
    unary main_v140 main_v141 (broadcastInDim S100000x1 ![0] bcast_S100000_S100000x1_0 : (⟨S100000, .f32⟩ : BufTy).Contents (Elt F) → (⟨S100000x1, .f32⟩ : BufTy).Contents (Elt F)),
    unary main_v141 main_v142 (broadcastInDim S100000x128 ![0, 1] bcast_S100000x1_S100000x128_0_1 : (⟨S100000x1, .f32⟩ : BufTy).Contents (Elt F) → (⟨S100000x128, .f32⟩ : BufTy).Contents (Elt F)),
    binary main_v132 main_v142 main_v143 (Host.divf : (⟨S100000x128, .f32⟩ : BufTy).Contents (Elt F) → (⟨S100000x128, .f32⟩ : BufTy).Contents (Elt F) → (⟨S100000x128, .f32⟩ : BufTy).Contents (Elt F)),
    binary main_v143 main_v114 main_v144 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v116 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v144 main_v146 main_v147 (addf : (⟨S100000x128, .f32⟩ : BufTy).Contents (Elt F) → (⟨S100000x128, .f32⟩ : BufTy).Contents (Elt F) → (⟨S100000x128, .f32⟩ : BufTy).Contents (Elt F)),
    binary main_arg0 main_v118 main_v148 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v147 main_v148 main_v149 (addf : (⟨S100000x128, .f32⟩ : BufTy).Contents (Elt F) → (⟨S100000x128, .f32⟩ : BufTy).Contents (Elt F) → (⟨S100000x128, .f32⟩ : BufTy).Contents (Elt F)),
    binary main_v112 main_v149 main_v150 (addf : (⟨S100000x128, .f32⟩ : BufTy).Contents (Elt F) → (⟨S100000x128, .f32⟩ : BufTy).Contents (Elt F) → (⟨S100000x128, .f32⟩ : BufTy).Contents (Elt F)),
    unary main_arg4 main_v151 ((extractStridedSlice S1x1x128x128 ![0, 6, 0, 0] · slices_S3x8x128x128_S1x1x128x128_0_6_0_0) : (⟨S3x8x128x128, .f32⟩ : BufTy).Contents (Elt F) → (⟨S1x1x128x128, .f32⟩ : BufTy).Contents (Elt F)),
    reshape main_v151 main_v152 rfl shapeCasts_S1x1x128x128_S128x128,
    unary main_arg5 main_v153 ((extractStridedSlice S1x1x128 ![0, 6, 0] · slices_S3x8x128_S1x1x128_0_6_0) : (⟨S3x8x128, .f32⟩ : BufTy).Contents (Elt F) → (⟨S1x1x128, .f32⟩ : BufTy).Contents (Elt F)),
    reshape main_v153 main_v154 rfl shapeCasts_S1x1x128_S128,
    unary main_arg6 main_v155 ((extractStridedSlice S1x1x128x128 ![0, 6, 0, 0] · slices_S3x8x128x128_S1x1x128x128_0_6_0_0) : (⟨S3x8x128x128, .f32⟩ : BufTy).Contents (Elt F) → (⟨S1x1x128x128, .f32⟩ : BufTy).Contents (Elt F)) ]

set_option maxRecDepth 8192 in
set_option maxHeartbeats 4000000 in
theorem main_part2_eq (c : Dev nD) : main_part2 (F := F) c = seq rw2 := rfl

set_option maxRecDepth 8192 in
theorem rw2_sub : (rw2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub ..⟩

set_option maxRecDepth 8192 in
theorem rw2_fresh' : (rw2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw2_fresh : ∀ op ∈ (rw2 : List (HloOp τ sig (Elt F))), op.fresh = ∅ :=
  List.forall_iff_forall_mem.mp rw2_fresh'

/-- The 60 operations of @main's window 3 (operations 181 … 240 of 1102), in order. -/
abbrev rw3 : List (HloOp τ sig (Elt F)) :=
  [ reshape main_v155 main_v156 rfl shapeCasts_S1x1x128x128_S128x128,
    unary main_arg21 main_v157 ((extractStridedSlice S1x5000 ![0, 0] · slices_S2x5000_S1x5000_0_0) : (⟨S2x5000, .i32⟩ : BufTy).Contents (Elt F) → (⟨S1x5000, .i32⟩ : BufTy).Contents (Elt F)),
    reshape main_v157 main_v158 rfl shapeCasts_S1x5000_S5000,
    nullary main_c_22 (constantI S_ 32 0#32),
    unary main_c_22 main_v159 (broadcastInDim S5000 ![] bcast_S_S5000 : (⟨S_, .i32⟩ : BufTy).Contents (Elt F) → (⟨S5000, .i32⟩ : BufTy).Contents (Elt F)),
    binary main_v158 main_v159 main_v160 (cmpi .slt : (⟨S5000, .i32⟩ : BufTy).Contents (Elt F) → (⟨S5000, .i32⟩ : BufTy).Contents (Elt F) → (⟨S5000, .i1⟩ : BufTy).Contents (Elt F)),
    nullary main_c_23 (constantI S_ 32 5000#32),
    unary main_c_23 main_v161 (broadcastInDim S5000 ![] bcast_S_S5000 : (⟨S_, .i32⟩ : BufTy).Contents (Elt F) → (⟨S5000, .i32⟩ : BufTy).Contents (Elt F)),
    binary main_v158 main_v161 main_v162 (addi : (⟨S5000, .i32⟩ : BufTy).Contents (Elt F) → (⟨S5000, .i32⟩ : BufTy).Contents (Elt F) → (⟨S5000, .i32⟩ : BufTy).Contents (Elt F)),
    ternary main_v160 main_v162 main_v158 main_v163 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v163 main_v164 (broadcastInDim S5000x1 ![0] bcast_S5000_S5000x1_0 : (⟨S5000, .i32⟩ : BufTy).Contents (Elt F) → (⟨S5000x1, .i32⟩ : BufTy).Contents (Elt F)),
    binary main_arg3 main_v164 main_v165 ((fun x i => Host.gather gather_S5000x128_S5000x1_S5000x128_1_0_n_n_0_1_1128 x i) : (⟨S5000x128, .f32⟩ : BufTy).Contents (Elt F) → (⟨S5000x1, .i32⟩ : BufTy).Contents (Elt F) → (⟨S5000x128, .f32⟩ : BufTy).Contents (Elt F)),
    unary main_arg21 main_v166 ((extractStridedSlice S1x5000 ![1, 0] · slices_S2x5000_S1x5000_1_0) : (⟨S2x5000, .i32⟩ : BufTy).Contents (Elt F) → (⟨S1x5000, .i32⟩ : BufTy).Contents (Elt F)),
    reshape main_v166 main_v167 rfl shapeCasts_S1x5000_S5000,
    nullary main_cst_24 (constant S_ .f32 0x00000000#32),
    unary main_cst_24 main_v168 (broadcastInDim S100000x128 ![] bcast_S_S100000x128 : (⟨S_, .f32⟩ : BufTy).Contents (Elt F) → (⟨S100000x128, .f32⟩ : BufTy).Contents (Elt F)),
    unary main_v167 main_v169 (broadcastInDim S5000x1 ![0] bcast_S5000_S5000x1_0 : (⟨S5000, .i32⟩ : BufTy).Contents (Elt F) → (⟨S5000x1, .i32⟩ : BufTy).Contents (Elt F)),
    ternary main_v168 main_v169 main_v165 main_v170 ((fun x i u => Host.scatterAdd scatter_S100000x128_S5000x1_S5000x128_1_0_0_1 x i u) : (⟨S100000x128, .f32⟩ : BufTy).Contents (Elt F) → (⟨S5000x1, .i32⟩ : BufTy).Contents (Elt F) → (⟨S5000x128, .f32⟩ : BufTy).Contents (Elt F) → (⟨S100000x128, .f32⟩ : BufTy).Contents (Elt F)),
    nullary main_cst_25 (constant S_ .f32 0x3F800000#32),
    unary main_cst_25 main_v171 (broadcastInDim S5000 ![] bcast_S_S5000 : (⟨S_, .f32⟩ : BufTy).Contents (Elt F) → (⟨S5000, .f32⟩ : BufTy).Contents (Elt F)),
    unary main_arg21 main_v172 ((extractStridedSlice S1x5000 ![1, 0] · slices_S2x5000_S1x5000_1_0) : (⟨S2x5000, .i32⟩ : BufTy).Contents (Elt F) → (⟨S1x5000, .i32⟩ : BufTy).Contents (Elt F)),
    reshape main_v172 main_v173 rfl shapeCasts_S1x5000_S5000,
    nullary main_cst_26 (constant S_ .f32 0x00000000#32),
    unary main_cst_26 main_v174 (broadcastInDim S100000 ![] bcast_S_S100000 : (⟨S_, .f32⟩ : BufTy).Contents (Elt F) → (⟨S100000, .f32⟩ : BufTy).Contents (Elt F)),
    unary main_v173 main_v175 (broadcastInDim S5000x1 ![0] bcast_S5000_S5000x1_0 : (⟨S5000, .i32⟩ : BufTy).Contents (Elt F) → (⟨S5000x1, .i32⟩ : BufTy).Contents (Elt F)),
    ternary main_v174 main_v175 main_v171 main_v176 ((fun x i u => Host.scatterAdd scatter_S100000_S5000x1_S5000_n_0_0_1 x i u) : (⟨S100000, .f32⟩ : BufTy).Contents (Elt F) → (⟨S5000x1, .i32⟩ : BufTy).Contents (Elt F) → (⟨S5000, .f32⟩ : BufTy).Contents (Elt F) → (⟨S100000, .f32⟩ : BufTy).Contents (Elt F)),
    nullary main_cst_27 (constant S_ .f32 0x3F800000#32),
    unary main_cst_27 main_v177 (broadcastInDim S100000 ![] bcast_S_S100000 : (⟨S_, .f32⟩ : BufTy).Contents (Elt F) → (⟨S100000, .f32⟩ : BufTy).Contents (Elt F)),
    binary main_v176 main_v177 main_v178 (maximumf : (⟨S100000, .f32⟩ : BufTy).Contents (Elt F) → (⟨S100000, .f32⟩ : BufTy).Contents (Elt F) → (⟨S100000, .f32⟩ : BufTy).Contents (Elt F)),
    unary main_v178 main_v179 (broadcastInDim S100000x1 ![0] bcast_S100000_S100000x1_0 : (⟨S100000, .f32⟩ : BufTy).Contents (Elt F) → (⟨S100000x1, .f32⟩ : BufTy).Contents (Elt F)),
    unary main_v179 main_v180 (broadcastInDim S100000x128 ![0, 1] bcast_S100000x1_S100000x128_0_1 : (⟨S100000x1, .f32⟩ : BufTy).Contents (Elt F) → (⟨S100000x128, .f32⟩ : BufTy).Contents (Elt F)),
    binary main_v170 main_v180 main_v181 (Host.divf : (⟨S100000x128, .f32⟩ : BufTy).Contents (Elt F) → (⟨S100000x128, .f32⟩ : BufTy).Contents (Elt F) → (⟨S100000x128, .f32⟩ : BufTy).Contents (Elt F)),
    binary main_v181 main_v152 main_v182 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v154 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v182 main_v184 main_v185 (addf : (⟨S100000x128, .f32⟩ : BufTy).Contents (Elt F) → (⟨S100000x128, .f32⟩ : BufTy).Contents (Elt F) → (⟨S100000x128, .f32⟩ : BufTy).Contents (Elt F)),
    binary main_arg0 main_v156 main_v186 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v185 main_v186 main_v187 (addf : (⟨S100000x128, .f32⟩ : BufTy).Contents (Elt F) → (⟨S100000x128, .f32⟩ : BufTy).Contents (Elt F) → (⟨S100000x128, .f32⟩ : BufTy).Contents (Elt F)),
    binary main_v150 main_v187 main_v188 (addf : (⟨S100000x128, .f32⟩ : BufTy).Contents (Elt F) → (⟨S100000x128, .f32⟩ : BufTy).Contents (Elt F) → (⟨S100000x128, .f32⟩ : BufTy).Contents (Elt F)),
    unary main_arg4 main_v189 ((extractStridedSlice S1x1x128x128 ![0, 3, 0, 0] · slices_S3x8x128x128_S1x1x128x128_0_3_0_0) : (⟨S3x8x128x128, .f32⟩ : BufTy).Contents (Elt F) → (⟨S1x1x128x128, .f32⟩ : BufTy).Contents (Elt F)),
    reshape main_v189 main_v190 rfl shapeCasts_S1x1x128x128_S128x128,
    unary main_arg5 main_v191 ((extractStridedSlice S1x1x128 ![0, 3, 0] · slices_S3x8x128_S1x1x128_0_3_0) : (⟨S3x8x128, .f32⟩ : BufTy).Contents (Elt F) → (⟨S1x1x128, .f32⟩ : BufTy).Contents (Elt F)),
    reshape main_v191 main_v192 rfl shapeCasts_S1x1x128_S128,
    unary main_arg6 main_v193 ((extractStridedSlice S1x1x128x128 ![0, 3, 0, 0] · slices_S3x8x128x128_S1x1x128x128_0_3_0_0) : (⟨S3x8x128x128, .f32⟩ : BufTy).Contents (Elt F) → (⟨S1x1x128x128, .f32⟩ : BufTy).Contents (Elt F)),
    reshape main_v193 main_v194 rfl shapeCasts_S1x1x128x128_S128x128,
    unary main_arg18 main_v195 ((extractStridedSlice S1x20000 ![0, 0] · slices_S2x20000_S1x20000_0_0) : (⟨S2x20000, .i32⟩ : BufTy).Contents (Elt F) → (⟨S1x20000, .i32⟩ : BufTy).Contents (Elt F)),
    reshape main_v195 main_v196 rfl shapeCasts_S1x20000_S20000,
    nullary main_c_28 (constantI S_ 32 0#32),
    unary main_c_28 main_v197 (broadcastInDim S20000 ![] bcast_S_S20000 : (⟨S_, .i32⟩ : BufTy).Contents (Elt F) → (⟨S20000, .i32⟩ : BufTy).Contents (Elt F)),
    binary main_v196 main_v197 main_v198 (cmpi .slt : (⟨S20000, .i32⟩ : BufTy).Contents (Elt F) → (⟨S20000, .i32⟩ : BufTy).Contents (Elt F) → (⟨S20000, .i1⟩ : BufTy).Contents (Elt F)),
    nullary main_c_29 (constantI S_ 32 100000#32),
    unary main_c_29 main_v199 (broadcastInDim S20000 ![] bcast_S_S20000 : (⟨S_, .i32⟩ : BufTy).Contents (Elt F) → (⟨S20000, .i32⟩ : BufTy).Contents (Elt F)),
    binary main_v196 main_v199 main_v200 (addi : (⟨S20000, .i32⟩ : BufTy).Contents (Elt F) → (⟨S20000, .i32⟩ : BufTy).Contents (Elt F) → (⟨S20000, .i32⟩ : BufTy).Contents (Elt F)),
    ternary main_v198 main_v200 main_v196 main_v201 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v201 main_v202 (broadcastInDim S20000x1 ![0] bcast_S20000_S20000x1_0 : (⟨S20000, .i32⟩ : BufTy).Contents (Elt F) → (⟨S20000x1, .i32⟩ : BufTy).Contents (Elt F)),
    binary main_arg0 main_v202 main_v203 ((fun x i => Host.gather gather_S100000x128_S20000x1_S20000x128_1_0_n_n_0_1_1128 x i) : (⟨S100000x128, .f32⟩ : BufTy).Contents (Elt F) → (⟨S20000x1, .i32⟩ : BufTy).Contents (Elt F) → (⟨S20000x128, .f32⟩ : BufTy).Contents (Elt F)),
    unary main_arg18 main_v204 ((extractStridedSlice S1x20000 ![1, 0] · slices_S2x20000_S1x20000_1_0) : (⟨S2x20000, .i32⟩ : BufTy).Contents (Elt F) → (⟨S1x20000, .i32⟩ : BufTy).Contents (Elt F)),
    reshape main_v204 main_v205 rfl shapeCasts_S1x20000_S20000,
    nullary main_cst_30 (constant S_ .f32 0x00000000#32),
    unary main_cst_30 main_v206 (broadcastInDim S20000x128 ![] bcast_S_S20000x128 : (⟨S_, .f32⟩ : BufTy).Contents (Elt F) → (⟨S20000x128, .f32⟩ : BufTy).Contents (Elt F)) ]

set_option maxRecDepth 8192 in
set_option maxHeartbeats 4000000 in
theorem main_part3_eq (c : Dev nD) : main_part3 (F := F) c = seq rw3 := rfl

set_option maxRecDepth 8192 in
theorem rw3_sub : (rw3 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub ..⟩

set_option maxRecDepth 8192 in
theorem rw3_fresh' : (rw3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw3_fresh : ∀ op ∈ (rw3 : List (HloOp τ sig (Elt F))), op.fresh = ∅ :=
  List.forall_iff_forall_mem.mp rw3_fresh'

/-- The 60 operations of @main's window 4 (operations 241 … 300 of 1102), in order. -/
abbrev rw4 : List (HloOp τ sig (Elt F)) :=
  [ unary main_v205 main_v207 (broadcastInDim S20000x1 ![0] bcast_S20000_S20000x1_0 : (⟨S20000, .i32⟩ : BufTy).Contents (Elt F) → (⟨S20000x1, .i32⟩ : BufTy).Contents (Elt F)),
    ternary main_v206 main_v207 main_v203 main_v208 ((fun x i u => Host.scatterAdd scatter_S20000x128_S20000x1_S20000x128_1_0_0_1 x i u) : (⟨S20000x128, .f32⟩ : BufTy).Contents (Elt F) → (⟨S20000x1, .i32⟩ : BufTy).Contents (Elt F) → (⟨S20000x128, .f32⟩ : BufTy).Contents (Elt F) → (⟨S20000x128, .f32⟩ : BufTy).Contents (Elt F)),
    nullary main_cst_31 (constant S_ .f32 0x3F800000#32),
    unary main_cst_31 main_v209 (broadcastInDim S20000 ![] bcast_S_S20000 : (⟨S_, .f32⟩ : BufTy).Contents (Elt F) → (⟨S20000, .f32⟩ : BufTy).Contents (Elt F)),
    unary main_arg18 main_v210 ((extractStridedSlice S1x20000 ![1, 0] · slices_S2x20000_S1x20000_1_0) : (⟨S2x20000, .i32⟩ : BufTy).Contents (Elt F) → (⟨S1x20000, .i32⟩ : BufTy).Contents (Elt F)),
    reshape main_v210 main_v211 rfl shapeCasts_S1x20000_S20000,
    nullary main_cst_32 (constant S_ .f32 0x00000000#32),
    unary main_cst_32 main_v212 (broadcastInDim S20000 ![] bcast_S_S20000 : (⟨S_, .f32⟩ : BufTy).Contents (Elt F) → (⟨S20000, .f32⟩ : BufTy).Contents (Elt F)),
    unary main_v211 main_v213 (broadcastInDim S20000x1 ![0] bcast_S20000_S20000x1_0 : (⟨S20000, .i32⟩ : BufTy).Contents (Elt F) → (⟨S20000x1, .i32⟩ : BufTy).Contents (Elt F)),
    ternary main_v212 main_v213 main_v209 main_v214 ((fun x i u => Host.scatterAdd scatter_S20000_S20000x1_S20000_n_0_0_1 x i u) : (⟨S20000, .f32⟩ : BufTy).Contents (Elt F) → (⟨S20000x1, .i32⟩ : BufTy).Contents (Elt F) → (⟨S20000, .f32⟩ : BufTy).Contents (Elt F) → (⟨S20000, .f32⟩ : BufTy).Contents (Elt F)),
    nullary main_cst_33 (constant S_ .f32 0x3F800000#32),
    unary main_cst_33 main_v215 (broadcastInDim S20000 ![] bcast_S_S20000 : (⟨S_, .f32⟩ : BufTy).Contents (Elt F) → (⟨S20000, .f32⟩ : BufTy).Contents (Elt F)),
    binary main_v214 main_v215 main_v216 (maximumf : (⟨S20000, .f32⟩ : BufTy).Contents (Elt F) → (⟨S20000, .f32⟩ : BufTy).Contents (Elt F) → (⟨S20000, .f32⟩ : BufTy).Contents (Elt F)),
    unary main_v216 main_v217 (broadcastInDim S20000x1 ![0] bcast_S20000_S20000x1_0 : (⟨S20000, .f32⟩ : BufTy).Contents (Elt F) → (⟨S20000x1, .f32⟩ : BufTy).Contents (Elt F)),
    unary main_v217 main_v218 (broadcastInDim S20000x128 ![0, 1] bcast_S20000x1_S20000x128_0_1 : (⟨S20000x1, .f32⟩ : BufTy).Contents (Elt F) → (⟨S20000x128, .f32⟩ : BufTy).Contents (Elt F)),
    binary main_v208 main_v218 main_v219 (Host.divf : (⟨S20000x128, .f32⟩ : BufTy).Contents (Elt F) → (⟨S20000x128, .f32⟩ : BufTy).Contents (Elt F) → (⟨S20000x128, .f32⟩ : BufTy).Contents (Elt F)),
    binary main_v219 main_v190 main_v220 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v192 main_v221 (broadcastInDim S1x128 ![1] bcast_S128_S1x128_1 : (⟨S128, .f32⟩ : BufTy).Contents (Elt F) → (⟨S1x128, .f32⟩ : BufTy).Contents (Elt F)),
    unary main_v221 main_v222 (broadcastInDim S20000x128 ![0, 1] bcast_S1x128_S20000x128_0_1 : (⟨S1x128, .f32⟩ : BufTy).Contents (Elt F) → (⟨S20000x128, .f32⟩ : BufTy).Contents (Elt F)),
    binary main_v220 main_v222 main_v223 (addf : (⟨S20000x128, .f32⟩ : BufTy).Contents (Elt F) → (⟨S20000x128, .f32⟩ : BufTy).Contents (Elt F) → (⟨S20000x128, .f32⟩ : BufTy).Contents (Elt F)),
    binary main_arg1 main_v194 main_v224 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v223 main_v224 main_v225 (addf : (⟨S20000x128, .f32⟩ : BufTy).Contents (Elt F) → (⟨S20000x128, .f32⟩ : BufTy).Contents (Elt F) → (⟨S20000x128, .f32⟩ : BufTy).Contents (Elt F)),
    unary main_arg4 main_v226 ((extractStridedSlice S1x1x128x128 ![0, 5, 0, 0] · slices_S3x8x128x128_S1x1x128x128_0_5_0_0) : (⟨S3x8x128x128, .f32⟩ : BufTy).Contents (Elt F) → (⟨S1x1x128x128, .f32⟩ : BufTy).Contents (Elt F)),
    reshape main_v226 main_v227 rfl shapeCasts_S1x1x128x128_S128x128,
    unary main_arg5 main_v228 ((extractStridedSlice S1x1x128 ![0, 5, 0] · slices_S3x8x128_S1x1x128_0_5_0) : (⟨S3x8x128, .f32⟩ : BufTy).Contents (Elt F) → (⟨S1x1x128, .f32⟩ : BufTy).Contents (Elt F)),
    reshape main_v228 main_v229 rfl shapeCasts_S1x1x128_S128,
    unary main_arg6 main_v230 ((extractStridedSlice S1x1x128x128 ![0, 5, 0, 0] · slices_S3x8x128x128_S1x1x128x128_0_5_0_0) : (⟨S3x8x128x128, .f32⟩ : BufTy).Contents (Elt F) → (⟨S1x1x128x128, .f32⟩ : BufTy).Contents (Elt F)),
    reshape main_v230 main_v231 rfl shapeCasts_S1x1x128x128_S128x128,
    unary main_arg20 main_v232 ((extractStridedSlice S1x50000 ![0, 0] · slices_S2x50000_S1x50000_0_0) : (⟨S2x50000, .i32⟩ : BufTy).Contents (Elt F) → (⟨S1x50000, .i32⟩ : BufTy).Contents (Elt F)),
    reshape main_v232 main_v233 rfl shapeCasts_S1x50000_S50000,
    nullary main_c_34 (constantI S_ 32 0#32),
    unary main_c_34 main_v234 (broadcastInDim S50000 ![] bcast_S_S50000 : (⟨S_, .i32⟩ : BufTy).Contents (Elt F) → (⟨S50000, .i32⟩ : BufTy).Contents (Elt F)),
    binary main_v233 main_v234 main_v235 (cmpi .slt : (⟨S50000, .i32⟩ : BufTy).Contents (Elt F) → (⟨S50000, .i32⟩ : BufTy).Contents (Elt F) → (⟨S50000, .i1⟩ : BufTy).Contents (Elt F)),
    nullary main_c_35 (constantI S_ 32 100000#32),
    unary main_c_35 main_v236 (broadcastInDim S50000 ![] bcast_S_S50000 : (⟨S_, .i32⟩ : BufTy).Contents (Elt F) → (⟨S50000, .i32⟩ : BufTy).Contents (Elt F)),
    binary main_v233 main_v236 main_v237 (addi : (⟨S50000, .i32⟩ : BufTy).Contents (Elt F) → (⟨S50000, .i32⟩ : BufTy).Contents (Elt F) → (⟨S50000, .i32⟩ : BufTy).Contents (Elt F)),
    ternary main_v235 main_v237 main_v233 main_v238 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v238 main_v239 (broadcastInDim S50000x1 ![0] bcast_S50000_S50000x1_0 : (⟨S50000, .i32⟩ : BufTy).Contents (Elt F) → (⟨S50000x1, .i32⟩ : BufTy).Contents (Elt F)),
    binary main_arg0 main_v239 main_v240 ((fun x i => Host.gather gather_S100000x128_S50000x1_S50000x128_1_0_n_n_0_1_1128 x i) : (⟨S100000x128, .f32⟩ : BufTy).Contents (Elt F) → (⟨S50000x1, .i32⟩ : BufTy).Contents (Elt F) → (⟨S50000x128, .f32⟩ : BufTy).Contents (Elt F)),
    unary main_arg20 main_v241 ((extractStridedSlice S1x50000 ![1, 0] · slices_S2x50000_S1x50000_1_0) : (⟨S2x50000, .i32⟩ : BufTy).Contents (Elt F) → (⟨S1x50000, .i32⟩ : BufTy).Contents (Elt F)),
    reshape main_v241 main_v242 rfl shapeCasts_S1x50000_S50000,
    nullary main_cst_36 (constant S_ .f32 0x00000000#32),
    unary main_cst_36 main_v243 (broadcastInDim S50000x128 ![] bcast_S_S50000x128 : (⟨S_, .f32⟩ : BufTy).Contents (Elt F) → (⟨S50000x128, .f32⟩ : BufTy).Contents (Elt F)),
    unary main_v242 main_v244 (broadcastInDim S50000x1 ![0] bcast_S50000_S50000x1_0 : (⟨S50000, .i32⟩ : BufTy).Contents (Elt F) → (⟨S50000x1, .i32⟩ : BufTy).Contents (Elt F)),
    ternary main_v243 main_v244 main_v240 main_v245 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    nullary main_cst_37 (constant S_ .f32 0x3F800000#32),
    unary main_cst_37 main_v246 (broadcastInDim S50000 ![] bcast_S_S50000 : (⟨S_, .f32⟩ : BufTy).Contents (Elt F) → (⟨S50000, .f32⟩ : BufTy).Contents (Elt F)),
    unary main_arg20 main_v247 ((extractStridedSlice S1x50000 ![1, 0] · slices_S2x50000_S1x50000_1_0) : (⟨S2x50000, .i32⟩ : BufTy).Contents (Elt F) → (⟨S1x50000, .i32⟩ : BufTy).Contents (Elt F)),
    reshape main_v247 main_v248 rfl shapeCasts_S1x50000_S50000,
    nullary main_cst_38 (constant S_ .f32 0x00000000#32),
    unary main_cst_38 main_v249 (broadcastInDim S50000 ![] bcast_S_S50000 : (⟨S_, .f32⟩ : BufTy).Contents (Elt F) → (⟨S50000, .f32⟩ : BufTy).Contents (Elt F)),
    unary main_v248 main_v250 (broadcastInDim S50000x1 ![0] bcast_S50000_S50000x1_0 : (⟨S50000, .i32⟩ : BufTy).Contents (Elt F) → (⟨S50000x1, .i32⟩ : BufTy).Contents (Elt F)),
    ternary main_v249 main_v250 main_v246 main_v251 ((fun x i u => Host.scatterAdd scatter_S50000_S50000x1_S50000_n_0_0_1 x i u) : (⟨S50000, .f32⟩ : BufTy).Contents (Elt F) → (⟨S50000x1, .i32⟩ : BufTy).Contents (Elt F) → (⟨S50000, .f32⟩ : BufTy).Contents (Elt F) → (⟨S50000, .f32⟩ : BufTy).Contents (Elt F)),
    nullary main_cst_39 (constant S_ .f32 0x3F800000#32),
    unary main_cst_39 main_v252 (broadcastInDim S50000 ![] bcast_S_S50000 : (⟨S_, .f32⟩ : BufTy).Contents (Elt F) → (⟨S50000, .f32⟩ : BufTy).Contents (Elt F)),
    binary main_v251 main_v252 main_v253 (maximumf : (⟨S50000, .f32⟩ : BufTy).Contents (Elt F) → (⟨S50000, .f32⟩ : BufTy).Contents (Elt F) → (⟨S50000, .f32⟩ : BufTy).Contents (Elt F)),
    unary main_v253 main_v254 (broadcastInDim S50000x1 ![0] bcast_S50000_S50000x1_0 : (⟨S50000, .f32⟩ : BufTy).Contents (Elt F) → (⟨S50000x1, .f32⟩ : BufTy).Contents (Elt F)),
    unary main_v254 main_v255 (broadcastInDim S50000x128 ![0, 1] bcast_S50000x1_S50000x128_0_1 : (⟨S50000x1, .f32⟩ : BufTy).Contents (Elt F) → (⟨S50000x128, .f32⟩ : BufTy).Contents (Elt F)),
    binary main_v245 main_v255 main_v256 (Host.divf : (⟨S50000x128, .f32⟩ : BufTy).Contents (Elt F) → (⟨S50000x128, .f32⟩ : BufTy).Contents (Elt F) → (⟨S50000x128, .f32⟩ : BufTy).Contents (Elt F)),
    binary main_v256 main_v227 main_v257 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

set_option maxRecDepth 8192 in
set_option maxHeartbeats 4000000 in
theorem main_part4_eq (c : Dev nD) : main_part4 (F := F) c = seq rw4 := rfl

set_option maxRecDepth 8192 in
theorem rw4_sub : (rw4 : List (HloOp τ sig (Elt F))).Forall fun op => op.bufs ⊆ tcRefs τ sig :=
  ⟨unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩

set_option maxRecDepth 8192 in
theorem rw4_fresh' : (rw4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw4_fresh : ∀ op ∈ (rw4 : List (HloOp τ sig (Elt F))), op.fresh = ∅ :=
  List.forall_iff_forall_mem.mp rw4_fresh'

/-- The 68 operations of @main's window 5 (operations 301 … 368 of 1102), in order. -/
abbrev rw5 : List (HloOp τ sig (Elt F)) :=
  [ unary main_v229 main_v258 (broadcastInDim S1x128 ![1] bcast_S128_S1x128_1 : (⟨S128, .f32⟩ : BufTy).Contents (Elt F) → (⟨S1x128, .f32⟩ : BufTy).Contents (Elt F)),
    unary main_v258 main_v259 (broadcastInDim S50000x128 ![0, 1] bcast_S1x128_S50000x128_0_1 : (⟨S1x128, .f32⟩ : BufTy).Contents (Elt F) → (⟨S50000x128, .f32⟩ : BufTy).Contents (Elt F)),
    binary main_v257 main_v259 main_v260 (addf : (⟨S50000x128, .f32⟩ : BufTy).Contents (Elt F) → (⟨S50000x128, .f32⟩ : BufTy).Contents (Elt F) → (⟨S50000x128, .f32⟩ : BufTy).Contents (Elt F)),
    binary main_arg2 main_v231 main_v261 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v260 main_v261 main_v262 (addf : (⟨S50000x128, .f32⟩ : BufTy).Contents (Elt F) → (⟨S50000x128, .f32⟩ : BufTy).Contents (Elt F) → (⟨S50000x128, .f32⟩ : BufTy).Contents (Elt F)),
    unary main_arg4 main_v263 ((extractStridedSlice S1x1x128x128 ![0, 7, 0, 0] · slices_S3x8x128x128_S1x1x128x128_0_7_0_0) : (⟨S3x8x128x128, .f32⟩ : BufTy).Contents (Elt F) → (⟨S1x1x128x128, .f32⟩ : BufTy).Contents (Elt F)),
    reshape main_v263 main_v264 rfl shapeCasts_S1x1x128x128_S128x128,
    unary main_arg5 main_v265 ((extractStridedSlice S1x1x128 ![0, 7, 0] · slices_S3x8x128_S1x1x128_0_7_0) : (⟨S3x8x128, .f32⟩ : BufTy).Contents (Elt F) → (⟨S1x1x128, .f32⟩ : BufTy).Contents (Elt F)),
    reshape main_v265 main_v266 rfl shapeCasts_S1x1x128_S128,
    unary main_arg6 main_v267 ((extractStridedSlice S1x1x128x128 ![0, 7, 0, 0] · slices_S3x8x128x128_S1x1x128x128_0_7_0_0) : (⟨S3x8x128x128, .f32⟩ : BufTy).Contents (Elt F) → (⟨S1x1x128x128, .f32⟩ : BufTy).Contents (Elt F)),
    reshape main_v267 main_v268 rfl shapeCasts_S1x1x128x128_S128x128,
    unary main_arg22 main_v269 ((extractStridedSlice S1x5000 ![0, 0] · slices_S2x5000_S1x5000_0_0) : (⟨S2x5000, .i32⟩ : BufTy).Contents (Elt F) → (⟨S1x5000, .i32⟩ : BufTy).Contents (Elt F)),
    reshape main_v269 main_v270 rfl shapeCasts_S1x5000_S5000,
    nullary main_c_40 (constantI S_ 32 0#32),
    unary main_c_40 main_v271 (broadcastInDim S5000 ![] bcast_S_S5000 : (⟨S_, .i32⟩ : BufTy).Contents (Elt F) → (⟨S5000, .i32⟩ : BufTy).Contents (Elt F)),
    binary main_v270 main_v271 main_v272 (cmpi .slt : (⟨S5000, .i32⟩ : BufTy).Contents (Elt F) → (⟨S5000, .i32⟩ : BufTy).Contents (Elt F) → (⟨S5000, .i1⟩ : BufTy).Contents (Elt F)),
    nullary main_c_41 (constantI S_ 32 100000#32),
    unary main_c_41 main_v273 (broadcastInDim S5000 ![] bcast_S_S5000 : (⟨S_, .i32⟩ : BufTy).Contents (Elt F) → (⟨S5000, .i32⟩ : BufTy).Contents (Elt F)),
    binary main_v270 main_v273 main_v274 (addi : (⟨S5000, .i32⟩ : BufTy).Contents (Elt F) → (⟨S5000, .i32⟩ : BufTy).Contents (Elt F) → (⟨S5000, .i32⟩ : BufTy).Contents (Elt F)),
    ternary main_v272 main_v274 main_v270 main_v275 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v275 main_v276 (broadcastInDim S5000x1 ![0] bcast_S5000_S5000x1_0 : (⟨S5000, .i32⟩ : BufTy).Contents (Elt F) → (⟨S5000x1, .i32⟩ : BufTy).Contents (Elt F)),
    binary main_arg0 main_v276 main_v277 ((fun x i => Host.gather gather_S100000x128_S5000x1_S5000x128_1_0_n_n_0_1_1128 x i) : (⟨S100000x128, .f32⟩ : BufTy).Contents (Elt F) → (⟨S5000x1, .i32⟩ : BufTy).Contents (Elt F) → (⟨S5000x128, .f32⟩ : BufTy).Contents (Elt F)),
    unary main_arg22 main_v278 ((extractStridedSlice S1x5000 ![1, 0] · slices_S2x5000_S1x5000_1_0) : (⟨S2x5000, .i32⟩ : BufTy).Contents (Elt F) → (⟨S1x5000, .i32⟩ : BufTy).Contents (Elt F)),
    reshape main_v278 main_v279 rfl shapeCasts_S1x5000_S5000,
    nullary main_cst_42 (constant S_ .f32 0x00000000#32),
    unary main_cst_42 main_v280 (broadcastInDim S5000x128 ![] bcast_S_S5000x128 : (⟨S_, .f32⟩ : BufTy).Contents (Elt F) → (⟨S5000x128, .f32⟩ : BufTy).Contents (Elt F)),
    unary main_v279 main_v281 (broadcastInDim S5000x1 ![0] bcast_S5000_S5000x1_0 : (⟨S5000, .i32⟩ : BufTy).Contents (Elt F) → (⟨S5000x1, .i32⟩ : BufTy).Contents (Elt F)),
    ternary main_v280 main_v281 main_v277 main_v282 ((fun x i u => Host.scatterAdd scatter_S5000x128_S5000x1_S5000x128_1_0_0_1 x i u) : (⟨S5000x128, .f32⟩ : BufTy).Contents (Elt F) → (⟨S5000x1, .i32⟩ : BufTy).Contents (Elt F) → (⟨S5000x128, .f32⟩ : BufTy).Contents (Elt F) → (⟨S5000x128, .f32⟩ : BufTy).Contents (Elt F)),
    nullary main_cst_43 (constant S_ .f32 0x3F800000#32),
    unary main_cst_43 main_v283 (broadcastInDim S5000 ![] bcast_S_S5000 : (⟨S_, .f32⟩ : BufTy).Contents (Elt F) → (⟨S5000, .f32⟩ : BufTy).Contents (Elt F)),
    unary main_arg22 main_v284 ((extractStridedSlice S1x5000 ![1, 0] · slices_S2x5000_S1x5000_1_0) : (⟨S2x5000, .i32⟩ : BufTy).Contents (Elt F) → (⟨S1x5000, .i32⟩ : BufTy).Contents (Elt F)),
    reshape main_v284 main_v285 rfl shapeCasts_S1x5000_S5000,
    nullary main_cst_44 (constant S_ .f32 0x00000000#32),
    unary main_cst_44 main_v286 (broadcastInDim S5000 ![] bcast_S_S5000 : (⟨S_, .f32⟩ : BufTy).Contents (Elt F) → (⟨S5000, .f32⟩ : BufTy).Contents (Elt F)),
    unary main_v285 main_v287 (broadcastInDim S5000x1 ![0] bcast_S5000_S5000x1_0 : (⟨S5000, .i32⟩ : BufTy).Contents (Elt F) → (⟨S5000x1, .i32⟩ : BufTy).Contents (Elt F)),
    ternary main_v286 main_v287 main_v283 main_v288 ((fun x i u => Host.scatterAdd scatter_S5000_S5000x1_S5000_n_0_0_1 x i u) : (⟨S5000, .f32⟩ : BufTy).Contents (Elt F) → (⟨S5000x1, .i32⟩ : BufTy).Contents (Elt F) → (⟨S5000, .f32⟩ : BufTy).Contents (Elt F) → (⟨S5000, .f32⟩ : BufTy).Contents (Elt F)),
    nullary main_cst_45 (constant S_ .f32 0x3F800000#32),
    unary main_cst_45 main_v289 (broadcastInDim S5000 ![] bcast_S_S5000 : (⟨S_, .f32⟩ : BufTy).Contents (Elt F) → (⟨S5000, .f32⟩ : BufTy).Contents (Elt F)),
    binary main_v288 main_v289 main_v290 (maximumf : (⟨S5000, .f32⟩ : BufTy).Contents (Elt F) → (⟨S5000, .f32⟩ : BufTy).Contents (Elt F) → (⟨S5000, .f32⟩ : BufTy).Contents (Elt F)),
    unary main_v290 main_v291 (broadcastInDim S5000x1 ![0] bcast_S5000_S5000x1_0 : (⟨S5000, .f32⟩ : BufTy).Contents (Elt F) → (⟨S5000x1, .f32⟩ : BufTy).Contents (Elt F)),
    unary main_v291 main_v292 (broadcastInDim S5000x128 ![0, 1] bcast_S5000x1_S5000x128_0_1 : (⟨S5000x1, .f32⟩ : BufTy).Contents (Elt F) → (⟨S5000x128, .f32⟩ : BufTy).Contents (Elt F)),
    binary main_v282 main_v292 main_v293 (Host.divf : (⟨S5000x128, .f32⟩ : BufTy).Contents (Elt F) → (⟨S5000x128, .f32⟩ : BufTy).Contents (Elt F) → (⟨S5000x128, .f32⟩ : BufTy).Contents (Elt F)),
    binary main_v293 main_v264 main_v294 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v266 main_v295 (broadcastInDim S1x128 ![1] bcast_S128_S1x128_1 : (⟨S128, .f32⟩ : BufTy).Contents (Elt F) → (⟨S1x128, .f32⟩ : BufTy).Contents (Elt F)),
    unary main_v295 main_v296 (broadcastInDim S5000x128 ![0, 1] bcast_S1x128_S5000x128_0_1 : (⟨S1x128, .f32⟩ : BufTy).Contents (Elt F) → (⟨S5000x128, .f32⟩ : BufTy).Contents (Elt F)),
    binary main_v294 main_v296 main_v297 (addf : (⟨S5000x128, .f32⟩ : BufTy).Contents (Elt F) → (⟨S5000x128, .f32⟩ : BufTy).Contents (Elt F) → (⟨S5000x128, .f32⟩ : BufTy).Contents (Elt F)),
    binary main_arg3 main_v268 main_v298 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v297 main_v298 main_v299 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v188) (TRef.of (T := ⟨S100000x128, .f32⟩) main_call0_v0) (TRef.of (T := ⟨S100000x128, .f32⟩) main_v300) maximumf,
    TRef.nullary (TRef.of (T := ⟨S_, .f32⟩) main_call1_cst) (constant S_ .f32 0x00000000#32),
    TRef.unary (TRef.of (T := ⟨S_, .f32⟩) main_call1_cst) (TRef.of (T := ⟨S20000x128, .f32⟩) main_call1_v0) (broadcastInDim S20000x128 ![] bcast_S_S20000x128),
    TRef.binary (TRef.of (T := ⟨S20000x128, .f32⟩) main_v225) (TRef.of (T := ⟨S20000x128, .f32⟩) main_call1_v0) (TRef.of (T := ⟨S20000x128, .f32⟩) main_v301) maximumf,
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v262) (TRef.of (T := ⟨S50000x128, .f32⟩) main_call2_v0) (TRef.of (T := ⟨S50000x128, .f32⟩) main_v302) maximumf,
    TRef.nullary (TRef.of (T := ⟨S_, .f32⟩) main_call3_cst) (constant S_ .f32 0x00000000#32),
    TRef.unary (TRef.of (T := ⟨S_, .f32⟩) main_call3_cst) (TRef.of (T := ⟨S5000x128, .f32⟩) main_call3_v0) (broadcastInDim S5000x128 ![] bcast_S_S5000x128),
    TRef.binary (TRef.of (T := ⟨S5000x128, .f32⟩) main_v299) (TRef.of (T := ⟨S5000x128, .f32⟩) main_call3_v0) (TRef.of (T := ⟨S5000x128, .f32⟩) main_v303) maximumf,
    unary main_arg4 main_v304 ((extractStridedSlice S1x1x128x128 ![1, 0, 0, 0] · slices_S3x8x128x128_S1x1x128x128_1_0_0_0) : (⟨S3x8x128x128, .f32⟩ : BufTy).Contents (Elt F) → (⟨S1x1x128x128, .f32⟩ : BufTy).Contents (Elt F)),
    reshape main_v304 main_v305 rfl shapeCasts_S1x1x128x128_S128x128,
    unary main_arg5 main_v306 ((extractStridedSlice S1x1x128 ![1, 0, 0] · slices_S3x8x128_S1x1x128_1_0_0) : (⟨S3x8x128, .f32⟩ : BufTy).Contents (Elt F) → (⟨S1x1x128, .f32⟩ : BufTy).Contents (Elt F)),
    reshape main_v306 main_v307 rfl shapeCasts_S1x1x128_S128,
    unary main_arg6 main_v308 ((extractStridedSlice S1x1x128x128 ![1, 0, 0, 0] · slices_S3x8x128x128_S1x1x128x128_1_0_0_0) : (⟨S3x8x128x128, .f32⟩ : BufTy).Contents (Elt F) → (⟨S1x1x128x128, .f32⟩ : BufTy).Contents (Elt F)),
    reshape main_v308 main_v309 rfl shapeCasts_S1x1x128x128_S128x128,
    unary main_arg15 main_v310 ((extractStridedSlice S1x500000 ![0, 0] · slices_S2x500000_S1x500000_0_0) : (⟨S2x500000, .i32⟩ : BufTy).Contents (Elt F) → (⟨S1x500000, .i32⟩ : BufTy).Contents (Elt F)),
    reshape main_v310 main_v311 rfl shapeCasts_S1x500000_S500000 ]

set_option maxRecDepth 8192 in
set_option maxHeartbeats 4000000 in
theorem main_part5_eq (c : Dev nD) : main_part5 (F := F) c = seq rw5 := rfl

set_option maxRecDepth 8192 in
theorem rw5_sub : (rw5 : List (HloOp τ sig (Elt F))).Forall fun op => op.bufs ⊆ tcRefs τ sig :=
  ⟨unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩

set_option maxRecDepth 8192 in
theorem rw5_fresh' : (rw5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw5_fresh : ∀ op ∈ (rw5 : List (HloOp τ sig (Elt F))), op.fresh = ∅ :=
  List.forall_iff_forall_mem.mp rw5_fresh'

/-- The 60 operations of @main's window 6 (operations 369 … 428 of 1102), in order. -/
abbrev rw6 : List (HloOp τ sig (Elt F)) :=
  [ nullary main_c_46 (constantI S_ 32 0#32),
    unary main_c_46 main_v312 (broadcastInDim S500000 ![] bcast_S_S500000 : (⟨S_, .i32⟩ : BufTy).Contents (Elt F) → (⟨S500000, .i32⟩ : BufTy).Contents (Elt F)),
    binary main_v311 main_v312 main_v313 (cmpi .slt : (⟨S500000, .i32⟩ : BufTy).Contents (Elt F) → (⟨S500000, .i32⟩ : BufTy).Contents (Elt F) → (⟨S500000, .i1⟩ : BufTy).Contents (Elt F)),
    nullary main_c_47 (constantI S_ 32 100000#32),
    unary main_c_47 main_v314 (broadcastInDim S500000 ![] bcast_S_S500000 : (⟨S_, .i32⟩ : BufTy).Contents (Elt F) → (⟨S500000, .i32⟩ : BufTy).Contents (Elt F)),
    binary main_v311 main_v314 main_v315 (addi : (⟨S500000, .i32⟩ : BufTy).Contents (Elt F) → (⟨S500000, .i32⟩ : BufTy).Contents (Elt F) → (⟨S500000, .i32⟩ : BufTy).Contents (Elt F)),
    ternary main_v313 main_v315 main_v311 main_v316 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v316 main_v317 (broadcastInDim S500000x1 ![0] bcast_S500000_S500000x1_0 : (⟨S500000, .i32⟩ : BufTy).Contents (Elt F) → (⟨S500000x1, .i32⟩ : BufTy).Contents (Elt F)),
    binary main_v300 main_v317 main_v318 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    unary main_arg15 main_v319 ((extractStridedSlice S1x500000 ![1, 0] · slices_S2x500000_S1x500000_1_0) : (⟨S2x500000, .i32⟩ : BufTy).Contents (Elt F) → (⟨S1x500000, .i32⟩ : BufTy).Contents (Elt F)),
    reshape main_v319 main_v320 rfl shapeCasts_S1x500000_S500000,
    nullary main_cst_48 (constant S_ .f32 0x00000000#32),
    unary main_cst_48 main_v321 (broadcastInDim S100000x128 ![] bcast_S_S100000x128 : (⟨S_, .f32⟩ : BufTy).Contents (Elt F) → (⟨S100000x128, .f32⟩ : BufTy).Contents (Elt F)),
    unary main_v320 main_v322 (broadcastInDim S500000x1 ![0] bcast_S500000_S500000x1_0 : (⟨S500000, .i32⟩ : BufTy).Contents (Elt F) → (⟨S500000x1, .i32⟩ : BufTy).Contents (Elt F)),
    ternary main_v321 main_v322 main_v318 main_v323 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_49 (constant S_ .f32 0x3F800000#32),
    unary main_cst_49 main_v324 (broadcastInDim S500000 ![] bcast_S_S500000 : (⟨S_, .f32⟩ : BufTy).Contents (Elt F) → (⟨S500000, .f32⟩ : BufTy).Contents (Elt F)),
    unary main_arg15 main_v325 ((extractStridedSlice S1x500000 ![1, 0] · slices_S2x500000_S1x500000_1_0) : (⟨S2x500000, .i32⟩ : BufTy).Contents (Elt F) → (⟨S1x500000, .i32⟩ : BufTy).Contents (Elt F)),
    reshape main_v325 main_v326 rfl shapeCasts_S1x500000_S500000,
    nullary main_cst_50 (constant S_ .f32 0x00000000#32),
    unary main_cst_50 main_v327 (broadcastInDim S100000 ![] bcast_S_S100000 : (⟨S_, .f32⟩ : BufTy).Contents (Elt F) → (⟨S100000, .f32⟩ : BufTy).Contents (Elt F)),
    unary main_v326 main_v328 (broadcastInDim S500000x1 ![0] bcast_S500000_S500000x1_0 : (⟨S500000, .i32⟩ : BufTy).Contents (Elt F) → (⟨S500000x1, .i32⟩ : BufTy).Contents (Elt F)),
    ternary main_v327 main_v328 main_v324 main_v329 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_51 (constant S_ .f32 0x3F800000#32),
    unary main_cst_51 main_v330 (broadcastInDim S100000 ![] bcast_S_S100000 : (⟨S_, .f32⟩ : BufTy).Contents (Elt F) → (⟨S100000, .f32⟩ : BufTy).Contents (Elt F)),
    binary main_v329 main_v330 main_v331 (maximumf : (⟨S100000, .f32⟩ : BufTy).Contents (Elt F) → (⟨S100000, .f32⟩ : BufTy).Contents (Elt F) → (⟨S100000, .f32⟩ : BufTy).Contents (Elt F)),
    unary main_v331 main_v332 (broadcastInDim S100000x1 ![0] bcast_S100000_S100000x1_0 : (⟨S100000, .f32⟩ : BufTy).Contents (Elt F) → (⟨S100000x1, .f32⟩ : BufTy).Contents (Elt F)),
    unary main_v332 main_v333 (broadcastInDim S100000x128 ![0, 1] bcast_S100000x1_S100000x128_0_1 : (⟨S100000x1, .f32⟩ : BufTy).Contents (Elt F) → (⟨S100000x128, .f32⟩ : BufTy).Contents (Elt F)),
    binary main_v323 main_v333 main_v334 (Host.divf : (⟨S100000x128, .f32⟩ : BufTy).Contents (Elt F) → (⟨S100000x128, .f32⟩ : BufTy).Contents (Elt F) → (⟨S100000x128, .f32⟩ : BufTy).Contents (Elt F)),
    binary main_v334 main_v305 main_v335 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v307 main_v336 (broadcastInDim S1x128 ![1] bcast_S128_S1x128_1 : (⟨S128, .f32⟩ : BufTy).Contents (Elt F) → (⟨S1x128, .f32⟩ : BufTy).Contents (Elt F)),
    unary main_v336 main_v337 (broadcastInDim S100000x128 ![0, 1] bcast_S1x128_S100000x128_0_1 : (⟨S1x128, .f32⟩ : BufTy).Contents (Elt F) → (⟨S100000x128, .f32⟩ : BufTy).Contents (Elt F)),
    binary main_v335 main_v337 main_v338 (addf : (⟨S100000x128, .f32⟩ : BufTy).Contents (Elt F) → (⟨S100000x128, .f32⟩ : BufTy).Contents (Elt F) → (⟨S100000x128, .f32⟩ : BufTy).Contents (Elt F)),
    binary main_v300 main_v309 main_v339 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v338 main_v339 main_v340 (addf : (⟨S100000x128, .f32⟩ : BufTy).Contents (Elt F) → (⟨S100000x128, .f32⟩ : BufTy).Contents (Elt F) → (⟨S100000x128, .f32⟩ : BufTy).Contents (Elt F)),
    unary main_arg4 main_v341 ((extractStridedSlice S1x1x128x128 ![1, 1, 0, 0] · slices_S3x8x128x128_S1x1x128x128_1_1_0_0) : (⟨S3x8x128x128, .f32⟩ : BufTy).Contents (Elt F) → (⟨S1x1x128x128, .f32⟩ : BufTy).Contents (Elt F)),
    reshape main_v341 main_v342 rfl shapeCasts_S1x1x128x128_S128x128,
    unary main_arg5 main_v343 ((extractStridedSlice S1x1x128 ![1, 1, 0] · slices_S3x8x128_S1x1x128_1_1_0) : (⟨S3x8x128, .f32⟩ : BufTy).Contents (Elt F) → (⟨S1x1x128, .f32⟩ : BufTy).Contents (Elt F)),
    reshape main_v343 main_v344 rfl shapeCasts_S1x1x128_S128,
    unary main_arg6 main_v345 ((extractStridedSlice S1x1x128x128 ![1, 1, 0, 0] · slices_S3x8x128x128_S1x1x128x128_1_1_0_0) : (⟨S3x8x128x128, .f32⟩ : BufTy).Contents (Elt F) → (⟨S1x1x128x128, .f32⟩ : BufTy).Contents (Elt F)),
    reshape main_v345 main_v346 rfl shapeCasts_S1x1x128x128_S128x128,
    unary main_arg16 main_v347 ((extractStridedSlice S1x100000 ![0, 0] · slices_S2x100000_S1x100000_0_0) : (⟨S2x100000, .i32⟩ : BufTy).Contents (Elt F) → (⟨S1x100000, .i32⟩ : BufTy).Contents (Elt F)),
    reshape main_v347 main_v348 rfl shapeCasts_S1x100000_S100000,
    nullary main_c_52 (constantI S_ 32 0#32),
    unary main_c_52 main_v349 (broadcastInDim S100000 ![] bcast_S_S100000 : (⟨S_, .i32⟩ : BufTy).Contents (Elt F) → (⟨S100000, .i32⟩ : BufTy).Contents (Elt F)),
    binary main_v348 main_v349 main_v350 (cmpi .slt : (⟨S100000, .i32⟩ : BufTy).Contents (Elt F) → (⟨S100000, .i32⟩ : BufTy).Contents (Elt F) → (⟨S100000, .i1⟩ : BufTy).Contents (Elt F)),
    nullary main_c_53 (constantI S_ 32 100000#32),
    unary main_c_53 main_v351 (broadcastInDim S100000 ![] bcast_S_S100000 : (⟨S_, .i32⟩ : BufTy).Contents (Elt F) → (⟨S100000, .i32⟩ : BufTy).Contents (Elt F)),
    binary main_v348 main_v351 main_v352 (addi : (⟨S100000, .i32⟩ : BufTy).Contents (Elt F) → (⟨S100000, .i32⟩ : BufTy).Contents (Elt F) → (⟨S100000, .i32⟩ : BufTy).Contents (Elt F)),
    ternary main_v350 main_v352 main_v348 main_v353 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v353 main_v354 (broadcastInDim S100000x1 ![0] bcast_S100000_S100000x1_0 : (⟨S100000, .i32⟩ : BufTy).Contents (Elt F) → (⟨S100000x1, .i32⟩ : BufTy).Contents (Elt F)),
    binary main_v300 main_v354 main_v355 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    unary main_arg16 main_v356 ((extractStridedSlice S1x100000 ![1, 0] · slices_S2x100000_S1x100000_1_0) : (⟨S2x100000, .i32⟩ : BufTy).Contents (Elt F) → (⟨S1x100000, .i32⟩ : BufTy).Contents (Elt F)),
    reshape main_v356 main_v357 rfl shapeCasts_S1x100000_S100000,
    nullary main_cst_54 (constant S_ .f32 0x00000000#32),
    unary main_cst_54 main_v358 (broadcastInDim S100000x128 ![] bcast_S_S100000x128 : (⟨S_, .f32⟩ : BufTy).Contents (Elt F) → (⟨S100000x128, .f32⟩ : BufTy).Contents (Elt F)),
    unary main_v357 main_v359 (broadcastInDim S100000x1 ![0] bcast_S100000_S100000x1_0 : (⟨S100000, .i32⟩ : BufTy).Contents (Elt F) → (⟨S100000x1, .i32⟩ : BufTy).Contents (Elt F)),
    ternary main_v358 main_v359 main_v355 main_v360 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_55 (constant S_ .f32 0x3F800000#32),
    unary main_cst_55 main_v361 (broadcastInDim S100000 ![] bcast_S_S100000 : (⟨S_, .f32⟩ : BufTy).Contents (Elt F) → (⟨S100000, .f32⟩ : BufTy).Contents (Elt F)) ]

set_option maxRecDepth 8192 in
set_option maxHeartbeats 4000000 in
theorem main_part6_eq (c : Dev nD) : main_part6 (F := F) c = seq rw6 := rfl

set_option maxRecDepth 8192 in
theorem rw6_sub : (rw6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub ..⟩

set_option maxRecDepth 8192 in
theorem rw6_fresh' : (rw6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw6_fresh : ∀ op ∈ (rw6 : List (HloOp τ sig (Elt F))), op.fresh = ∅ :=
  List.forall_iff_forall_mem.mp rw6_fresh'

/-- The 60 operations of @main's window 7 (operations 429 … 488 of 1102), in order. -/
abbrev rw7 : List (HloOp τ sig (Elt F)) :=
  [ unary main_arg16 main_v362 ((extractStridedSlice S1x100000 ![1, 0] · slices_S2x100000_S1x100000_1_0) : (⟨S2x100000, .i32⟩ : BufTy).Contents (Elt F) → (⟨S1x100000, .i32⟩ : BufTy).Contents (Elt F)),
    reshape main_v362 main_v363 rfl shapeCasts_S1x100000_S100000,
    nullary main_cst_56 (constant S_ .f32 0x00000000#32),
    unary main_cst_56 main_v364 (broadcastInDim S100000 ![] bcast_S_S100000 : (⟨S_, .f32⟩ : BufTy).Contents (Elt F) → (⟨S100000, .f32⟩ : BufTy).Contents (Elt F)),
    unary main_v363 main_v365 (broadcastInDim S100000x1 ![0] bcast_S100000_S100000x1_0 : (⟨S100000, .i32⟩ : BufTy).Contents (Elt F) → (⟨S100000x1, .i32⟩ : BufTy).Contents (Elt F)),
    ternary main_v364 main_v365 main_v361 main_v366 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_57 (constant S_ .f32 0x3F800000#32),
    unary main_cst_57 main_v367 (broadcastInDim S100000 ![] bcast_S_S100000 : (⟨S_, .f32⟩ : BufTy).Contents (Elt F) → (⟨S100000, .f32⟩ : BufTy).Contents (Elt F)),
    binary main_v366 main_v367 main_v368 (maximumf : (⟨S100000, .f32⟩ : BufTy).Contents (Elt F) → (⟨S100000, .f32⟩ : BufTy).Contents (Elt F) → (⟨S100000, .f32⟩ : BufTy).Contents (Elt F)),
    unary main_v368 main_v369 (broadcastInDim S100000x1 ![0] bcast_S100000_S100000x1_0 : (⟨S100000, .f32⟩ : BufTy).Contents (Elt F) → (⟨S100000x1, .f32⟩ : BufTy).Contents (Elt F)),
    unary main_v369 main_v370 (broadcastInDim S100000x128 ![0, 1] bcast_S100000x1_S100000x128_0_1 : (⟨S100000x1, .f32⟩ : BufTy).Contents (Elt F) → (⟨S100000x128, .f32⟩ : BufTy).Contents (Elt F)),
    binary main_v360 main_v370 main_v371 (Host.divf : (⟨S100000x128, .f32⟩ : BufTy).Contents (Elt F) → (⟨S100000x128, .f32⟩ : BufTy).Contents (Elt F) → (⟨S100000x128, .f32⟩ : BufTy).Contents (Elt F)),
    binary main_v371 main_v342 main_v372 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v344 main_v373 (broadcastInDim S1x128 ![1] bcast_S128_S1x128_1 : (⟨S128, .f32⟩ : BufTy).Contents (Elt F) → (⟨S1x128, .f32⟩ : BufTy).Contents (Elt F)),
    unary main_v373 main_v374 (broadcastInDim S100000x128 ![0, 1] bcast_S1x128_S100000x128_0_1 : (⟨S1x128, .f32⟩ : BufTy).Contents (Elt F) → (⟨S100000x128, .f32⟩ : BufTy).Contents (Elt F)),
    binary main_v372 main_v374 main_v375 (addf : (⟨S100000x128, .f32⟩ : BufTy).Contents (Elt F) → (⟨S100000x128, .f32⟩ : BufTy).Contents (Elt F) → (⟨S100000x128, .f32⟩ : BufTy).Contents (Elt F)),
    binary main_v300 main_v346 main_v376 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v375 main_v376 main_v377 (addf : (⟨S100000x128, .f32⟩ : BufTy).Contents (Elt F) → (⟨S100000x128, .f32⟩ : BufTy).Contents (Elt F) → (⟨S100000x128, .f32⟩ : BufTy).Contents (Elt F)),
    binary main_v340 main_v377 main_v378 (addf : (⟨S100000x128, .f32⟩ : BufTy).Contents (Elt F) → (⟨S100000x128, .f32⟩ : BufTy).Contents (Elt F) → (⟨S100000x128, .f32⟩ : BufTy).Contents (Elt F)),
    unary main_arg4 main_v379 ((extractStridedSlice S1x1x128x128 ![1, 2, 0, 0] · slices_S3x8x128x128_S1x1x128x128_1_2_0_0) : (⟨S3x8x128x128, .f32⟩ : BufTy).Contents (Elt F) → (⟨S1x1x128x128, .f32⟩ : BufTy).Contents (Elt F)),
    reshape main_v379 main_v380 rfl shapeCasts_S1x1x128x128_S128x128,
    unary main_arg5 main_v381 ((extractStridedSlice S1x1x128 ![1, 2, 0] · slices_S3x8x128_S1x1x128_1_2_0) : (⟨S3x8x128, .f32⟩ : BufTy).Contents (Elt F) → (⟨S1x1x128, .f32⟩ : BufTy).Contents (Elt F)),
    reshape main_v381 main_v382 rfl shapeCasts_S1x1x128_S128,
    unary main_arg6 main_v383 ((extractStridedSlice S1x1x128x128 ![1, 2, 0, 0] · slices_S3x8x128x128_S1x1x128x128_1_2_0_0) : (⟨S3x8x128x128, .f32⟩ : BufTy).Contents (Elt F) → (⟨S1x1x128x128, .f32⟩ : BufTy).Contents (Elt F)),
    reshape main_v383 main_v384 rfl shapeCasts_S1x1x128x128_S128x128,
    unary main_arg17 main_v385 ((extractStridedSlice S1x20000 ![0, 0] · slices_S2x20000_S1x20000_0_0) : (⟨S2x20000, .i32⟩ : BufTy).Contents (Elt F) → (⟨S1x20000, .i32⟩ : BufTy).Contents (Elt F)),
    reshape main_v385 main_v386 rfl shapeCasts_S1x20000_S20000,
    nullary main_c_58 (constantI S_ 32 0#32),
    unary main_c_58 main_v387 (broadcastInDim S20000 ![] bcast_S_S20000 : (⟨S_, .i32⟩ : BufTy).Contents (Elt F) → (⟨S20000, .i32⟩ : BufTy).Contents (Elt F)),
    binary main_v386 main_v387 main_v388 (cmpi .slt : (⟨S20000, .i32⟩ : BufTy).Contents (Elt F) → (⟨S20000, .i32⟩ : BufTy).Contents (Elt F) → (⟨S20000, .i1⟩ : BufTy).Contents (Elt F)),
    nullary main_c_59 (constantI S_ 32 20000#32),
    unary main_c_59 main_v389 (broadcastInDim S20000 ![] bcast_S_S20000 : (⟨S_, .i32⟩ : BufTy).Contents (Elt F) → (⟨S20000, .i32⟩ : BufTy).Contents (Elt F)),
    binary main_v386 main_v389 main_v390 (addi : (⟨S20000, .i32⟩ : BufTy).Contents (Elt F) → (⟨S20000, .i32⟩ : BufTy).Contents (Elt F) → (⟨S20000, .i32⟩ : BufTy).Contents (Elt F)),
    ternary main_v388 main_v390 main_v386 main_v391 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v391 main_v392 (broadcastInDim S20000x1 ![0] bcast_S20000_S20000x1_0 : (⟨S20000, .i32⟩ : BufTy).Contents (Elt F) → (⟨S20000x1, .i32⟩ : BufTy).Contents (Elt F)),
    binary main_v301 main_v392 main_v393 ((fun x i => Host.gather gather_S20000x128_S20000x1_S20000x128_1_0_n_n_0_1_1128 x i) : (⟨S20000x128, .f32⟩ : BufTy).Contents (Elt F) → (⟨S20000x1, .i32⟩ : BufTy).Contents (Elt F) → (⟨S20000x128, .f32⟩ : BufTy).Contents (Elt F)),
    unary main_arg17 main_v394 ((extractStridedSlice S1x20000 ![1, 0] · slices_S2x20000_S1x20000_1_0) : (⟨S2x20000, .i32⟩ : BufTy).Contents (Elt F) → (⟨S1x20000, .i32⟩ : BufTy).Contents (Elt F)),
    reshape main_v394 main_v395 rfl shapeCasts_S1x20000_S20000,
    nullary main_cst_60 (constant S_ .f32 0x00000000#32),
    unary main_cst_60 main_v396 (broadcastInDim S100000x128 ![] bcast_S_S100000x128 : (⟨S_, .f32⟩ : BufTy).Contents (Elt F) → (⟨S100000x128, .f32⟩ : BufTy).Contents (Elt F)),
    unary main_v395 main_v397 (broadcastInDim S20000x1 ![0] bcast_S20000_S20000x1_0 : (⟨S20000, .i32⟩ : BufTy).Contents (Elt F) → (⟨S20000x1, .i32⟩ : BufTy).Contents (Elt F)),
    ternary main_v396 main_v397 main_v393 main_v398 ((fun x i u => Host.scatterAdd scatter_S100000x128_S20000x1_S20000x128_1_0_0_1 x i u) : (⟨S100000x128, .f32⟩ : BufTy).Contents (Elt F) → (⟨S20000x1, .i32⟩ : BufTy).Contents (Elt F) → (⟨S20000x128, .f32⟩ : BufTy).Contents (Elt F) → (⟨S100000x128, .f32⟩ : BufTy).Contents (Elt F)),
    nullary main_cst_61 (constant S_ .f32 0x3F800000#32),
    unary main_cst_61 main_v399 (broadcastInDim S20000 ![] bcast_S_S20000 : (⟨S_, .f32⟩ : BufTy).Contents (Elt F) → (⟨S20000, .f32⟩ : BufTy).Contents (Elt F)),
    unary main_arg17 main_v400 ((extractStridedSlice S1x20000 ![1, 0] · slices_S2x20000_S1x20000_1_0) : (⟨S2x20000, .i32⟩ : BufTy).Contents (Elt F) → (⟨S1x20000, .i32⟩ : BufTy).Contents (Elt F)),
    reshape main_v400 main_v401 rfl shapeCasts_S1x20000_S20000,
    nullary main_cst_62 (constant S_ .f32 0x00000000#32),
    unary main_cst_62 main_v402 (broadcastInDim S100000 ![] bcast_S_S100000 : (⟨S_, .f32⟩ : BufTy).Contents (Elt F) → (⟨S100000, .f32⟩ : BufTy).Contents (Elt F)),
    unary main_v401 main_v403 (broadcastInDim S20000x1 ![0] bcast_S20000_S20000x1_0 : (⟨S20000, .i32⟩ : BufTy).Contents (Elt F) → (⟨S20000x1, .i32⟩ : BufTy).Contents (Elt F)),
    ternary main_v402 main_v403 main_v399 main_v404 ((fun x i u => Host.scatterAdd scatter_S100000_S20000x1_S20000_n_0_0_1 x i u) : (⟨S100000, .f32⟩ : BufTy).Contents (Elt F) → (⟨S20000x1, .i32⟩ : BufTy).Contents (Elt F) → (⟨S20000, .f32⟩ : BufTy).Contents (Elt F) → (⟨S100000, .f32⟩ : BufTy).Contents (Elt F)),
    nullary main_cst_63 (constant S_ .f32 0x3F800000#32),
    unary main_cst_63 main_v405 (broadcastInDim S100000 ![] bcast_S_S100000 : (⟨S_, .f32⟩ : BufTy).Contents (Elt F) → (⟨S100000, .f32⟩ : BufTy).Contents (Elt F)),
    binary main_v404 main_v405 main_v406 (maximumf : (⟨S100000, .f32⟩ : BufTy).Contents (Elt F) → (⟨S100000, .f32⟩ : BufTy).Contents (Elt F) → (⟨S100000, .f32⟩ : BufTy).Contents (Elt F)),
    unary main_v406 main_v407 (broadcastInDim S100000x1 ![0] bcast_S100000_S100000x1_0 : (⟨S100000, .f32⟩ : BufTy).Contents (Elt F) → (⟨S100000x1, .f32⟩ : BufTy).Contents (Elt F)),
    unary main_v407 main_v408 (broadcastInDim S100000x128 ![0, 1] bcast_S100000x1_S100000x128_0_1 : (⟨S100000x1, .f32⟩ : BufTy).Contents (Elt F) → (⟨S100000x128, .f32⟩ : BufTy).Contents (Elt F)),
    binary main_v398 main_v408 main_v409 (Host.divf : (⟨S100000x128, .f32⟩ : BufTy).Contents (Elt F) → (⟨S100000x128, .f32⟩ : BufTy).Contents (Elt F) → (⟨S100000x128, .f32⟩ : BufTy).Contents (Elt F)),
    binary main_v409 main_v380 main_v410 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v382 main_v411 (broadcastInDim S1x128 ![1] bcast_S128_S1x128_1 : (⟨S128, .f32⟩ : BufTy).Contents (Elt F) → (⟨S1x128, .f32⟩ : BufTy).Contents (Elt F)),
    unary main_v411 main_v412 (broadcastInDim S100000x128 ![0, 1] bcast_S1x128_S100000x128_0_1 : (⟨S1x128, .f32⟩ : BufTy).Contents (Elt F) → (⟨S100000x128, .f32⟩ : BufTy).Contents (Elt F)),
    binary main_v410 main_v412 main_v413 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_part7_eq (c : Dev nD) : main_part7 (F := F) c = seq rw7 := rfl

set_option maxRecDepth 8192 in
theorem rw7_sub : (rw7 : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
theorem rw7_fresh' : (rw7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw7_fresh : ∀ op ∈ (rw7 : List (HloOp τ sig (Elt F))), op.fresh = ∅ :=
  List.forall_iff_forall_mem.mp rw7_fresh'

/-- The 60 operations of @main's window 8 (operations 489 … 548 of 1102), in order. -/
abbrev rw8 : List (HloOp τ sig (Elt F)) :=
  [ binary main_v300 main_v384 main_v414 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v413 main_v414 main_v415 (addf : (⟨S100000x128, .f32⟩ : BufTy).Contents (Elt F) → (⟨S100000x128, .f32⟩ : BufTy).Contents (Elt F) → (⟨S100000x128, .f32⟩ : BufTy).Contents (Elt F)),
    binary main_v378 main_v415 main_v416 (addf : (⟨S100000x128, .f32⟩ : BufTy).Contents (Elt F) → (⟨S100000x128, .f32⟩ : BufTy).Contents (Elt F) → (⟨S100000x128, .f32⟩ : BufTy).Contents (Elt F)),
    unary main_arg4 main_v417 ((extractStridedSlice S1x1x128x128 ![1, 4, 0, 0] · slices_S3x8x128x128_S1x1x128x128_1_4_0_0) : (⟨S3x8x128x128, .f32⟩ : BufTy).Contents (Elt F) → (⟨S1x1x128x128, .f32⟩ : BufTy).Contents (Elt F)),
    reshape main_v417 main_v418 rfl shapeCasts_S1x1x128x128_S128x128,
    unary main_arg5 main_v419 ((extractStridedSlice S1x1x128 ![1, 4, 0] · slices_S3x8x128_S1x1x128_1_4_0) : (⟨S3x8x128, .f32⟩ : BufTy).Contents (Elt F) → (⟨S1x1x128, .f32⟩ : BufTy).Contents (Elt F)),
    reshape main_v419 main_v420 rfl shapeCasts_S1x1x128_S128,
    unary main_arg6 main_v421 ((extractStridedSlice S1x1x128x128 ![1, 4, 0, 0] · slices_S3x8x128x128_S1x1x128x128_1_4_0_0) : (⟨S3x8x128x128, .f32⟩ : BufTy).Contents (Elt F) → (⟨S1x1x128x128, .f32⟩ : BufTy).Contents (Elt F)),
    reshape main_v421 main_v422 rfl shapeCasts_S1x1x128x128_S128x128,
    unary main_arg19 main_v423 ((extractStridedSlice S1x50000 ![0, 0] · slices_S2x50000_S1x50000_0_0) : (⟨S2x50000, .i32⟩ : BufTy).Contents (Elt F) → (⟨S1x50000, .i32⟩ : BufTy).Contents (Elt F)),
    reshape main_v423 main_v424 rfl shapeCasts_S1x50000_S50000,
    nullary main_c_64 (constantI S_ 32 0#32),
    unary main_c_64 main_v425 (broadcastInDim S50000 ![] bcast_S_S50000 : (⟨S_, .i32⟩ : BufTy).Contents (Elt F) → (⟨S50000, .i32⟩ : BufTy).Contents (Elt F)),
    binary main_v424 main_v425 main_v426 (cmpi .slt : (⟨S50000, .i32⟩ : BufTy).Contents (Elt F) → (⟨S50000, .i32⟩ : BufTy).Contents (Elt F) → (⟨S50000, .i1⟩ : BufTy).Contents (Elt F)),
    nullary main_c_65 (constantI S_ 32 50000#32),
    unary main_c_65 main_v427 (broadcastInDim S50000 ![] bcast_S_S50000 : (⟨S_, .i32⟩ : BufTy).Contents (Elt F) → (⟨S50000, .i32⟩ : BufTy).Contents (Elt F)),
    binary main_v424 main_v427 main_v428 (addi : (⟨S50000, .i32⟩ : BufTy).Contents (Elt F) → (⟨S50000, .i32⟩ : BufTy).Contents (Elt F) → (⟨S50000, .i32⟩ : BufTy).Contents (Elt F)),
    ternary main_v426 main_v428 main_v424 main_v429 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v429 main_v430 (broadcastInDim S50000x1 ![0] bcast_S50000_S50000x1_0 : (⟨S50000, .i32⟩ : BufTy).Contents (Elt F) → (⟨S50000x1, .i32⟩ : BufTy).Contents (Elt F)),
    binary main_v302 main_v430 main_v431 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    unary main_arg19 main_v432 ((extractStridedSlice S1x50000 ![1, 0] · slices_S2x50000_S1x50000_1_0) : (⟨S2x50000, .i32⟩ : BufTy).Contents (Elt F) → (⟨S1x50000, .i32⟩ : BufTy).Contents (Elt F)),
    reshape main_v432 main_v433 rfl shapeCasts_S1x50000_S50000,
    nullary main_cst_66 (constant S_ .f32 0x00000000#32),
    unary main_cst_66 main_v434 (broadcastInDim S100000x128 ![] bcast_S_S100000x128 : (⟨S_, .f32⟩ : BufTy).Contents (Elt F) → (⟨S100000x128, .f32⟩ : BufTy).Contents (Elt F)),
    unary main_v433 main_v435 (broadcastInDim S50000x1 ![0] bcast_S50000_S50000x1_0 : (⟨S50000, .i32⟩ : BufTy).Contents (Elt F) → (⟨S50000x1, .i32⟩ : BufTy).Contents (Elt F)),
    ternary main_v434 main_v435 main_v431 main_v436 ((fun x i u => Host.scatterAdd scatter_S100000x128_S50000x1_S50000x128_1_0_0_1 x i u) : (⟨S100000x128, .f32⟩ : BufTy).Contents (Elt F) → (⟨S50000x1, .i32⟩ : BufTy).Contents (Elt F) → (⟨S50000x128, .f32⟩ : BufTy).Contents (Elt F) → (⟨S100000x128, .f32⟩ : BufTy).Contents (Elt F)),
    nullary main_cst_67 (constant S_ .f32 0x3F800000#32),
    unary main_cst_67 main_v437 (broadcastInDim S50000 ![] bcast_S_S50000 : (⟨S_, .f32⟩ : BufTy).Contents (Elt F) → (⟨S50000, .f32⟩ : BufTy).Contents (Elt F)),
    unary main_arg19 main_v438 ((extractStridedSlice S1x50000 ![1, 0] · slices_S2x50000_S1x50000_1_0) : (⟨S2x50000, .i32⟩ : BufTy).Contents (Elt F) → (⟨S1x50000, .i32⟩ : BufTy).Contents (Elt F)),
    reshape main_v438 main_v439 rfl shapeCasts_S1x50000_S50000,
    nullary main_cst_68 (constant S_ .f32 0x00000000#32),
    unary main_cst_68 main_v440 (broadcastInDim S100000 ![] bcast_S_S100000 : (⟨S_, .f32⟩ : BufTy).Contents (Elt F) → (⟨S100000, .f32⟩ : BufTy).Contents (Elt F)),
    unary main_v439 main_v441 (broadcastInDim S50000x1 ![0] bcast_S50000_S50000x1_0 : (⟨S50000, .i32⟩ : BufTy).Contents (Elt F) → (⟨S50000x1, .i32⟩ : BufTy).Contents (Elt F)),
    ternary main_v440 main_v441 main_v437 main_v442 ((fun x i u => Host.scatterAdd scatter_S100000_S50000x1_S50000_n_0_0_1 x i u) : (⟨S100000, .f32⟩ : BufTy).Contents (Elt F) → (⟨S50000x1, .i32⟩ : BufTy).Contents (Elt F) → (⟨S50000, .f32⟩ : BufTy).Contents (Elt F) → (⟨S100000, .f32⟩ : BufTy).Contents (Elt F)),
    nullary main_cst_69 (constant S_ .f32 0x3F800000#32),
    unary main_cst_69 main_v443 (broadcastInDim S100000 ![] bcast_S_S100000 : (⟨S_, .f32⟩ : BufTy).Contents (Elt F) → (⟨S100000, .f32⟩ : BufTy).Contents (Elt F)),
    binary main_v442 main_v443 main_v444 (maximumf : (⟨S100000, .f32⟩ : BufTy).Contents (Elt F) → (⟨S100000, .f32⟩ : BufTy).Contents (Elt F) → (⟨S100000, .f32⟩ : BufTy).Contents (Elt F)),
    unary main_v444 main_v445 (broadcastInDim S100000x1 ![0] bcast_S100000_S100000x1_0 : (⟨S100000, .f32⟩ : BufTy).Contents (Elt F) → (⟨S100000x1, .f32⟩ : BufTy).Contents (Elt F)),
    unary main_v445 main_v446 (broadcastInDim S100000x128 ![0, 1] bcast_S100000x1_S100000x128_0_1 : (⟨S100000x1, .f32⟩ : BufTy).Contents (Elt F) → (⟨S100000x128, .f32⟩ : BufTy).Contents (Elt F)),
    binary main_v436 main_v446 main_v447 (Host.divf : (⟨S100000x128, .f32⟩ : BufTy).Contents (Elt F) → (⟨S100000x128, .f32⟩ : BufTy).Contents (Elt F) → (⟨S100000x128, .f32⟩ : BufTy).Contents (Elt F)),
    binary main_v447 main_v418 main_v448 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v420 main_v449 (broadcastInDim S1x128 ![1] bcast_S128_S1x128_1 : (⟨S128, .f32⟩ : BufTy).Contents (Elt F) → (⟨S1x128, .f32⟩ : BufTy).Contents (Elt F)),
    unary main_v449 main_v450 (broadcastInDim S100000x128 ![0, 1] bcast_S1x128_S100000x128_0_1 : (⟨S1x128, .f32⟩ : BufTy).Contents (Elt F) → (⟨S100000x128, .f32⟩ : BufTy).Contents (Elt F)),
    binary main_v448 main_v450 main_v451 (addf : (⟨S100000x128, .f32⟩ : BufTy).Contents (Elt F) → (⟨S100000x128, .f32⟩ : BufTy).Contents (Elt F) → (⟨S100000x128, .f32⟩ : BufTy).Contents (Elt F)),
    binary main_v300 main_v422 main_v452 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v451 main_v452 main_v453 (addf : (⟨S100000x128, .f32⟩ : BufTy).Contents (Elt F) → (⟨S100000x128, .f32⟩ : BufTy).Contents (Elt F) → (⟨S100000x128, .f32⟩ : BufTy).Contents (Elt F)),
    binary main_v416 main_v453 main_v454 (addf : (⟨S100000x128, .f32⟩ : BufTy).Contents (Elt F) → (⟨S100000x128, .f32⟩ : BufTy).Contents (Elt F) → (⟨S100000x128, .f32⟩ : BufTy).Contents (Elt F)),
    unary main_arg4 main_v455 ((extractStridedSlice S1x1x128x128 ![1, 6, 0, 0] · slices_S3x8x128x128_S1x1x128x128_1_6_0_0) : (⟨S3x8x128x128, .f32⟩ : BufTy).Contents (Elt F) → (⟨S1x1x128x128, .f32⟩ : BufTy).Contents (Elt F)),
    reshape main_v455 main_v456 rfl shapeCasts_S1x1x128x128_S128x128,
    unary main_arg5 main_v457 ((extractStridedSlice S1x1x128 ![1, 6, 0] · slices_S3x8x128_S1x1x128_1_6_0) : (⟨S3x8x128, .f32⟩ : BufTy).Contents (Elt F) → (⟨S1x1x128, .f32⟩ : BufTy).Contents (Elt F)),
    reshape main_v457 main_v458 rfl shapeCasts_S1x1x128_S128,
    unary main_arg6 main_v459 ((extractStridedSlice S1x1x128x128 ![1, 6, 0, 0] · slices_S3x8x128x128_S1x1x128x128_1_6_0_0) : (⟨S3x8x128x128, .f32⟩ : BufTy).Contents (Elt F) → (⟨S1x1x128x128, .f32⟩ : BufTy).Contents (Elt F)),
    reshape main_v459 main_v460 rfl shapeCasts_S1x1x128x128_S128x128,
    unary main_arg21 main_v461 ((extractStridedSlice S1x5000 ![0, 0] · slices_S2x5000_S1x5000_0_0) : (⟨S2x5000, .i32⟩ : BufTy).Contents (Elt F) → (⟨S1x5000, .i32⟩ : BufTy).Contents (Elt F)),
    reshape main_v461 main_v462 rfl shapeCasts_S1x5000_S5000,
    nullary main_c_70 (constantI S_ 32 0#32),
    unary main_c_70 main_v463 (broadcastInDim S5000 ![] bcast_S_S5000 : (⟨S_, .i32⟩ : BufTy).Contents (Elt F) → (⟨S5000, .i32⟩ : BufTy).Contents (Elt F)),
    binary main_v462 main_v463 main_v464 (cmpi .slt : (⟨S5000, .i32⟩ : BufTy).Contents (Elt F) → (⟨S5000, .i32⟩ : BufTy).Contents (Elt F) → (⟨S5000, .i1⟩ : BufTy).Contents (Elt F)),
    nullary main_c_71 (constantI S_ 32 5000#32),
    unary main_c_71 main_v465 (broadcastInDim S5000 ![] bcast_S_S5000 : (⟨S_, .i32⟩ : BufTy).Contents (Elt F) → (⟨S5000, .i32⟩ : BufTy).Contents (Elt F)) ]

set_option maxRecDepth 8192 in
set_option maxHeartbeats 4000000 in
theorem main_part8_eq (c : Dev nD) : main_part8 (F := F) c = seq rw8 := rfl

set_option maxRecDepth 8192 in
theorem rw8_sub : (rw8 : List (HloOp τ sig (Elt F))).Forall fun op => op.bufs ⊆ tcRefs τ sig :=
  ⟨binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub ..⟩

set_option maxRecDepth 8192 in
theorem rw8_fresh' : (rw8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw8_fresh : ∀ op ∈ (rw8 : List (HloOp τ sig (Elt F))), op.fresh = ∅ :=
  List.forall_iff_forall_mem.mp rw8_fresh'

/-- The 60 operations of @main's window 9 (operations 549 … 608 of 1102), in order. -/
abbrev rw9 : List (HloOp τ sig (Elt F)) :=
  [ binary main_v462 main_v465 main_v466 (addi : (⟨S5000, .i32⟩ : BufTy).Contents (Elt F) → (⟨S5000, .i32⟩ : BufTy).Contents (Elt F) → (⟨S5000, .i32⟩ : BufTy).Contents (Elt F)),
    ternary main_v464 main_v466 main_v462 main_v467 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v467 main_v468 (broadcastInDim S5000x1 ![0] bcast_S5000_S5000x1_0 : (⟨S5000, .i32⟩ : BufTy).Contents (Elt F) → (⟨S5000x1, .i32⟩ : BufTy).Contents (Elt F)),
    binary main_v303 main_v468 main_v469 ((fun x i => Host.gather gather_S5000x128_S5000x1_S5000x128_1_0_n_n_0_1_1128 x i) : (⟨S5000x128, .f32⟩ : BufTy).Contents (Elt F) → (⟨S5000x1, .i32⟩ : BufTy).Contents (Elt F) → (⟨S5000x128, .f32⟩ : BufTy).Contents (Elt F)),
    unary main_arg21 main_v470 ((extractStridedSlice S1x5000 ![1, 0] · slices_S2x5000_S1x5000_1_0) : (⟨S2x5000, .i32⟩ : BufTy).Contents (Elt F) → (⟨S1x5000, .i32⟩ : BufTy).Contents (Elt F)),
    reshape main_v470 main_v471 rfl shapeCasts_S1x5000_S5000,
    nullary main_cst_72 (constant S_ .f32 0x00000000#32),
    unary main_cst_72 main_v472 (broadcastInDim S100000x128 ![] bcast_S_S100000x128 : (⟨S_, .f32⟩ : BufTy).Contents (Elt F) → (⟨S100000x128, .f32⟩ : BufTy).Contents (Elt F)),
    unary main_v471 main_v473 (broadcastInDim S5000x1 ![0] bcast_S5000_S5000x1_0 : (⟨S5000, .i32⟩ : BufTy).Contents (Elt F) → (⟨S5000x1, .i32⟩ : BufTy).Contents (Elt F)),
    ternary main_v472 main_v473 main_v469 main_v474 ((fun x i u => Host.scatterAdd scatter_S100000x128_S5000x1_S5000x128_1_0_0_1 x i u) : (⟨S100000x128, .f32⟩ : BufTy).Contents (Elt F) → (⟨S5000x1, .i32⟩ : BufTy).Contents (Elt F) → (⟨S5000x128, .f32⟩ : BufTy).Contents (Elt F) → (⟨S100000x128, .f32⟩ : BufTy).Contents (Elt F)),
    nullary main_cst_73 (constant S_ .f32 0x3F800000#32),
    unary main_cst_73 main_v475 (broadcastInDim S5000 ![] bcast_S_S5000 : (⟨S_, .f32⟩ : BufTy).Contents (Elt F) → (⟨S5000, .f32⟩ : BufTy).Contents (Elt F)),
    unary main_arg21 main_v476 ((extractStridedSlice S1x5000 ![1, 0] · slices_S2x5000_S1x5000_1_0) : (⟨S2x5000, .i32⟩ : BufTy).Contents (Elt F) → (⟨S1x5000, .i32⟩ : BufTy).Contents (Elt F)),
    reshape main_v476 main_v477 rfl shapeCasts_S1x5000_S5000,
    nullary main_cst_74 (constant S_ .f32 0x00000000#32),
    unary main_cst_74 main_v478 (broadcastInDim S100000 ![] bcast_S_S100000 : (⟨S_, .f32⟩ : BufTy).Contents (Elt F) → (⟨S100000, .f32⟩ : BufTy).Contents (Elt F)),
    unary main_v477 main_v479 (broadcastInDim S5000x1 ![0] bcast_S5000_S5000x1_0 : (⟨S5000, .i32⟩ : BufTy).Contents (Elt F) → (⟨S5000x1, .i32⟩ : BufTy).Contents (Elt F)),
    ternary main_v478 main_v479 main_v475 main_v480 ((fun x i u => Host.scatterAdd scatter_S100000_S5000x1_S5000_n_0_0_1 x i u) : (⟨S100000, .f32⟩ : BufTy).Contents (Elt F) → (⟨S5000x1, .i32⟩ : BufTy).Contents (Elt F) → (⟨S5000, .f32⟩ : BufTy).Contents (Elt F) → (⟨S100000, .f32⟩ : BufTy).Contents (Elt F)),
    nullary main_cst_75 (constant S_ .f32 0x3F800000#32),
    unary main_cst_75 main_v481 (broadcastInDim S100000 ![] bcast_S_S100000 : (⟨S_, .f32⟩ : BufTy).Contents (Elt F) → (⟨S100000, .f32⟩ : BufTy).Contents (Elt F)),
    binary main_v480 main_v481 main_v482 (maximumf : (⟨S100000, .f32⟩ : BufTy).Contents (Elt F) → (⟨S100000, .f32⟩ : BufTy).Contents (Elt F) → (⟨S100000, .f32⟩ : BufTy).Contents (Elt F)),
    unary main_v482 main_v483 (broadcastInDim S100000x1 ![0] bcast_S100000_S100000x1_0 : (⟨S100000, .f32⟩ : BufTy).Contents (Elt F) → (⟨S100000x1, .f32⟩ : BufTy).Contents (Elt F)),
    unary main_v483 main_v484 (broadcastInDim S100000x128 ![0, 1] bcast_S100000x1_S100000x128_0_1 : (⟨S100000x1, .f32⟩ : BufTy).Contents (Elt F) → (⟨S100000x128, .f32⟩ : BufTy).Contents (Elt F)),
    binary main_v474 main_v484 main_v485 (Host.divf : (⟨S100000x128, .f32⟩ : BufTy).Contents (Elt F) → (⟨S100000x128, .f32⟩ : BufTy).Contents (Elt F) → (⟨S100000x128, .f32⟩ : BufTy).Contents (Elt F)),
    binary main_v485 main_v456 main_v486 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v458 main_v487 (broadcastInDim S1x128 ![1] bcast_S128_S1x128_1 : (⟨S128, .f32⟩ : BufTy).Contents (Elt F) → (⟨S1x128, .f32⟩ : BufTy).Contents (Elt F)),
    unary main_v487 main_v488 (broadcastInDim S100000x128 ![0, 1] bcast_S1x128_S100000x128_0_1 : (⟨S1x128, .f32⟩ : BufTy).Contents (Elt F) → (⟨S100000x128, .f32⟩ : BufTy).Contents (Elt F)),
    binary main_v486 main_v488 main_v489 (addf : (⟨S100000x128, .f32⟩ : BufTy).Contents (Elt F) → (⟨S100000x128, .f32⟩ : BufTy).Contents (Elt F) → (⟨S100000x128, .f32⟩ : BufTy).Contents (Elt F)),
    binary main_v300 main_v460 main_v490 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v489 main_v490 main_v491 (addf : (⟨S100000x128, .f32⟩ : BufTy).Contents (Elt F) → (⟨S100000x128, .f32⟩ : BufTy).Contents (Elt F) → (⟨S100000x128, .f32⟩ : BufTy).Contents (Elt F)),
    binary main_v454 main_v491 main_v492 (addf : (⟨S100000x128, .f32⟩ : BufTy).Contents (Elt F) → (⟨S100000x128, .f32⟩ : BufTy).Contents (Elt F) → (⟨S100000x128, .f32⟩ : BufTy).Contents (Elt F)),
    unary main_arg4 main_v493 ((extractStridedSlice S1x1x128x128 ![1, 3, 0, 0] · slices_S3x8x128x128_S1x1x128x128_1_3_0_0) : (⟨S3x8x128x128, .f32⟩ : BufTy).Contents (Elt F) → (⟨S1x1x128x128, .f32⟩ : BufTy).Contents (Elt F)),
    reshape main_v493 main_v494 rfl shapeCasts_S1x1x128x128_S128x128,
    unary main_arg5 main_v495 ((extractStridedSlice S1x1x128 ![1, 3, 0] · slices_S3x8x128_S1x1x128_1_3_0) : (⟨S3x8x128, .f32⟩ : BufTy).Contents (Elt F) → (⟨S1x1x128, .f32⟩ : BufTy).Contents (Elt F)),
    reshape main_v495 main_v496 rfl shapeCasts_S1x1x128_S128,
    unary main_arg6 main_v497 ((extractStridedSlice S1x1x128x128 ![1, 3, 0, 0] · slices_S3x8x128x128_S1x1x128x128_1_3_0_0) : (⟨S3x8x128x128, .f32⟩ : BufTy).Contents (Elt F) → (⟨S1x1x128x128, .f32⟩ : BufTy).Contents (Elt F)),
    reshape main_v497 main_v498 rfl shapeCasts_S1x1x128x128_S128x128,
    unary main_arg18 main_v499 ((extractStridedSlice S1x20000 ![0, 0] · slices_S2x20000_S1x20000_0_0) : (⟨S2x20000, .i32⟩ : BufTy).Contents (Elt F) → (⟨S1x20000, .i32⟩ : BufTy).Contents (Elt F)),
    reshape main_v499 main_v500 rfl shapeCasts_S1x20000_S20000,
    nullary main_c_76 (constantI S_ 32 0#32),
    unary main_c_76 main_v501 (broadcastInDim S20000 ![] bcast_S_S20000 : (⟨S_, .i32⟩ : BufTy).Contents (Elt F) → (⟨S20000, .i32⟩ : BufTy).Contents (Elt F)),
    binary main_v500 main_v501 main_v502 (cmpi .slt : (⟨S20000, .i32⟩ : BufTy).Contents (Elt F) → (⟨S20000, .i32⟩ : BufTy).Contents (Elt F) → (⟨S20000, .i1⟩ : BufTy).Contents (Elt F)),
    nullary main_c_77 (constantI S_ 32 100000#32),
    unary main_c_77 main_v503 (broadcastInDim S20000 ![] bcast_S_S20000 : (⟨S_, .i32⟩ : BufTy).Contents (Elt F) → (⟨S20000, .i32⟩ : BufTy).Contents (Elt F)),
    binary main_v500 main_v503 main_v504 (addi : (⟨S20000, .i32⟩ : BufTy).Contents (Elt F) → (⟨S20000, .i32⟩ : BufTy).Contents (Elt F) → (⟨S20000, .i32⟩ : BufTy).Contents (Elt F)),
    ternary main_v502 main_v504 main_v500 main_v505 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v505 main_v506 (broadcastInDim S20000x1 ![0] bcast_S20000_S20000x1_0 : (⟨S20000, .i32⟩ : BufTy).Contents (Elt F) → (⟨S20000x1, .i32⟩ : BufTy).Contents (Elt F)),
    binary main_v300 main_v506 main_v507 ((fun x i => Host.gather gather_S100000x128_S20000x1_S20000x128_1_0_n_n_0_1_1128 x i) : (⟨S100000x128, .f32⟩ : BufTy).Contents (Elt F) → (⟨S20000x1, .i32⟩ : BufTy).Contents (Elt F) → (⟨S20000x128, .f32⟩ : BufTy).Contents (Elt F)),
    unary main_arg18 main_v508 ((extractStridedSlice S1x20000 ![1, 0] · slices_S2x20000_S1x20000_1_0) : (⟨S2x20000, .i32⟩ : BufTy).Contents (Elt F) → (⟨S1x20000, .i32⟩ : BufTy).Contents (Elt F)),
    reshape main_v508 main_v509 rfl shapeCasts_S1x20000_S20000,
    nullary main_cst_78 (constant S_ .f32 0x00000000#32),
    unary main_cst_78 main_v510 (broadcastInDim S20000x128 ![] bcast_S_S20000x128 : (⟨S_, .f32⟩ : BufTy).Contents (Elt F) → (⟨S20000x128, .f32⟩ : BufTy).Contents (Elt F)),
    unary main_v509 main_v511 (broadcastInDim S20000x1 ![0] bcast_S20000_S20000x1_0 : (⟨S20000, .i32⟩ : BufTy).Contents (Elt F) → (⟨S20000x1, .i32⟩ : BufTy).Contents (Elt F)),
    ternary main_v510 main_v511 main_v507 main_v512 ((fun x i u => Host.scatterAdd scatter_S20000x128_S20000x1_S20000x128_1_0_0_1 x i u) : (⟨S20000x128, .f32⟩ : BufTy).Contents (Elt F) → (⟨S20000x1, .i32⟩ : BufTy).Contents (Elt F) → (⟨S20000x128, .f32⟩ : BufTy).Contents (Elt F) → (⟨S20000x128, .f32⟩ : BufTy).Contents (Elt F)),
    nullary main_cst_79 (constant S_ .f32 0x3F800000#32),
    unary main_cst_79 main_v513 (broadcastInDim S20000 ![] bcast_S_S20000 : (⟨S_, .f32⟩ : BufTy).Contents (Elt F) → (⟨S20000, .f32⟩ : BufTy).Contents (Elt F)),
    unary main_arg18 main_v514 ((extractStridedSlice S1x20000 ![1, 0] · slices_S2x20000_S1x20000_1_0) : (⟨S2x20000, .i32⟩ : BufTy).Contents (Elt F) → (⟨S1x20000, .i32⟩ : BufTy).Contents (Elt F)),
    reshape main_v514 main_v515 rfl shapeCasts_S1x20000_S20000,
    nullary main_cst_80 (constant S_ .f32 0x00000000#32),
    unary main_cst_80 main_v516 (broadcastInDim S20000 ![] bcast_S_S20000 : (⟨S_, .f32⟩ : BufTy).Contents (Elt F) → (⟨S20000, .f32⟩ : BufTy).Contents (Elt F)) ]

set_option maxRecDepth 8192 in
set_option maxHeartbeats 4000000 in
theorem main_part9_eq (c : Dev nD) : main_part9 (F := F) c = seq rw9 := rfl

set_option maxRecDepth 8192 in
theorem rw9_sub : (rw9 : List (HloOp τ sig (Elt F))).Forall fun op => op.bufs ⊆ tcRefs τ sig :=
  ⟨binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub ..⟩

set_option maxRecDepth 8192 in
theorem rw9_fresh' : (rw9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw9_fresh : ∀ op ∈ (rw9 : List (HloOp τ sig (Elt F))), op.fresh = ∅ :=
  List.forall_iff_forall_mem.mp rw9_fresh'

/-- The 60 operations of @main's window 10 (operations 609 … 668 of 1102), in order. -/
abbrev rw10 : List (HloOp τ sig (Elt F)) :=
  [ unary main_v515 main_v517 (broadcastInDim S20000x1 ![0] bcast_S20000_S20000x1_0 : (⟨S20000, .i32⟩ : BufTy).Contents (Elt F) → (⟨S20000x1, .i32⟩ : BufTy).Contents (Elt F)),
    ternary main_v516 main_v517 main_v513 main_v518 ((fun x i u => Host.scatterAdd scatter_S20000_S20000x1_S20000_n_0_0_1 x i u) : (⟨S20000, .f32⟩ : BufTy).Contents (Elt F) → (⟨S20000x1, .i32⟩ : BufTy).Contents (Elt F) → (⟨S20000, .f32⟩ : BufTy).Contents (Elt F) → (⟨S20000, .f32⟩ : BufTy).Contents (Elt F)),
    nullary main_cst_81 (constant S_ .f32 0x3F800000#32),
    unary main_cst_81 main_v519 (broadcastInDim S20000 ![] bcast_S_S20000 : (⟨S_, .f32⟩ : BufTy).Contents (Elt F) → (⟨S20000, .f32⟩ : BufTy).Contents (Elt F)),
    binary main_v518 main_v519 main_v520 (maximumf : (⟨S20000, .f32⟩ : BufTy).Contents (Elt F) → (⟨S20000, .f32⟩ : BufTy).Contents (Elt F) → (⟨S20000, .f32⟩ : BufTy).Contents (Elt F)),
    unary main_v520 main_v521 (broadcastInDim S20000x1 ![0] bcast_S20000_S20000x1_0 : (⟨S20000, .f32⟩ : BufTy).Contents (Elt F) → (⟨S20000x1, .f32⟩ : BufTy).Contents (Elt F)),
    unary main_v521 main_v522 (broadcastInDim S20000x128 ![0, 1] bcast_S20000x1_S20000x128_0_1 : (⟨S20000x1, .f32⟩ : BufTy).Contents (Elt F) → (⟨S20000x128, .f32⟩ : BufTy).Contents (Elt F)),
    binary main_v512 main_v522 main_v523 (Host.divf : (⟨S20000x128, .f32⟩ : BufTy).Contents (Elt F) → (⟨S20000x128, .f32⟩ : BufTy).Contents (Elt F) → (⟨S20000x128, .f32⟩ : BufTy).Contents (Elt F)),
    binary main_v523 main_v494 main_v524 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v496 main_v525 (broadcastInDim S1x128 ![1] bcast_S128_S1x128_1 : (⟨S128, .f32⟩ : BufTy).Contents (Elt F) → (⟨S1x128, .f32⟩ : BufTy).Contents (Elt F)),
    unary main_v525 main_v526 (broadcastInDim S20000x128 ![0, 1] bcast_S1x128_S20000x128_0_1 : (⟨S1x128, .f32⟩ : BufTy).Contents (Elt F) → (⟨S20000x128, .f32⟩ : BufTy).Contents (Elt F)),
    binary main_v524 main_v526 main_v527 (addf : (⟨S20000x128, .f32⟩ : BufTy).Contents (Elt F) → (⟨S20000x128, .f32⟩ : BufTy).Contents (Elt F) → (⟨S20000x128, .f32⟩ : BufTy).Contents (Elt F)),
    binary main_v301 main_v498 main_v528 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v527 main_v528 main_v529 (addf : (⟨S20000x128, .f32⟩ : BufTy).Contents (Elt F) → (⟨S20000x128, .f32⟩ : BufTy).Contents (Elt F) → (⟨S20000x128, .f32⟩ : BufTy).Contents (Elt F)),
    unary main_arg4 main_v530 ((extractStridedSlice S1x1x128x128 ![1, 5, 0, 0] · slices_S3x8x128x128_S1x1x128x128_1_5_0_0) : (⟨S3x8x128x128, .f32⟩ : BufTy).Contents (Elt F) → (⟨S1x1x128x128, .f32⟩ : BufTy).Contents (Elt F)),
    reshape main_v530 main_v531 rfl shapeCasts_S1x1x128x128_S128x128,
    unary main_arg5 main_v532 ((extractStridedSlice S1x1x128 ![1, 5, 0] · slices_S3x8x128_S1x1x128_1_5_0) : (⟨S3x8x128, .f32⟩ : BufTy).Contents (Elt F) → (⟨S1x1x128, .f32⟩ : BufTy).Contents (Elt F)),
    reshape main_v532 main_v533 rfl shapeCasts_S1x1x128_S128,
    unary main_arg6 main_v534 ((extractStridedSlice S1x1x128x128 ![1, 5, 0, 0] · slices_S3x8x128x128_S1x1x128x128_1_5_0_0) : (⟨S3x8x128x128, .f32⟩ : BufTy).Contents (Elt F) → (⟨S1x1x128x128, .f32⟩ : BufTy).Contents (Elt F)),
    reshape main_v534 main_v535 rfl shapeCasts_S1x1x128x128_S128x128,
    unary main_arg20 main_v536 ((extractStridedSlice S1x50000 ![0, 0] · slices_S2x50000_S1x50000_0_0) : (⟨S2x50000, .i32⟩ : BufTy).Contents (Elt F) → (⟨S1x50000, .i32⟩ : BufTy).Contents (Elt F)),
    reshape main_v536 main_v537 rfl shapeCasts_S1x50000_S50000,
    nullary main_c_82 (constantI S_ 32 0#32),
    unary main_c_82 main_v538 (broadcastInDim S50000 ![] bcast_S_S50000 : (⟨S_, .i32⟩ : BufTy).Contents (Elt F) → (⟨S50000, .i32⟩ : BufTy).Contents (Elt F)),
    binary main_v537 main_v538 main_v539 (cmpi .slt : (⟨S50000, .i32⟩ : BufTy).Contents (Elt F) → (⟨S50000, .i32⟩ : BufTy).Contents (Elt F) → (⟨S50000, .i1⟩ : BufTy).Contents (Elt F)),
    nullary main_c_83 (constantI S_ 32 100000#32),
    unary main_c_83 main_v540 (broadcastInDim S50000 ![] bcast_S_S50000 : (⟨S_, .i32⟩ : BufTy).Contents (Elt F) → (⟨S50000, .i32⟩ : BufTy).Contents (Elt F)),
    binary main_v537 main_v540 main_v541 (addi : (⟨S50000, .i32⟩ : BufTy).Contents (Elt F) → (⟨S50000, .i32⟩ : BufTy).Contents (Elt F) → (⟨S50000, .i32⟩ : BufTy).Contents (Elt F)),
    ternary main_v539 main_v541 main_v537 main_v542 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v542 main_v543 (broadcastInDim S50000x1 ![0] bcast_S50000_S50000x1_0 : (⟨S50000, .i32⟩ : BufTy).Contents (Elt F) → (⟨S50000x1, .i32⟩ : BufTy).Contents (Elt F)),
    binary main_v300 main_v543 main_v544 ((fun x i => Host.gather gather_S100000x128_S50000x1_S50000x128_1_0_n_n_0_1_1128 x i) : (⟨S100000x128, .f32⟩ : BufTy).Contents (Elt F) → (⟨S50000x1, .i32⟩ : BufTy).Contents (Elt F) → (⟨S50000x128, .f32⟩ : BufTy).Contents (Elt F)),
    unary main_arg20 main_v545 ((extractStridedSlice S1x50000 ![1, 0] · slices_S2x50000_S1x50000_1_0) : (⟨S2x50000, .i32⟩ : BufTy).Contents (Elt F) → (⟨S1x50000, .i32⟩ : BufTy).Contents (Elt F)),
    reshape main_v545 main_v546 rfl shapeCasts_S1x50000_S50000,
    nullary main_cst_84 (constant S_ .f32 0x00000000#32),
    unary main_cst_84 main_v547 (broadcastInDim S50000x128 ![] bcast_S_S50000x128 : (⟨S_, .f32⟩ : BufTy).Contents (Elt F) → (⟨S50000x128, .f32⟩ : BufTy).Contents (Elt F)),
    unary main_v546 main_v548 (broadcastInDim S50000x1 ![0] bcast_S50000_S50000x1_0 : (⟨S50000, .i32⟩ : BufTy).Contents (Elt F) → (⟨S50000x1, .i32⟩ : BufTy).Contents (Elt F)),
    ternary main_v547 main_v548 main_v544 main_v549 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    nullary main_cst_85 (constant S_ .f32 0x3F800000#32),
    unary main_cst_85 main_v550 (broadcastInDim S50000 ![] bcast_S_S50000 : (⟨S_, .f32⟩ : BufTy).Contents (Elt F) → (⟨S50000, .f32⟩ : BufTy).Contents (Elt F)),
    unary main_arg20 main_v551 ((extractStridedSlice S1x50000 ![1, 0] · slices_S2x50000_S1x50000_1_0) : (⟨S2x50000, .i32⟩ : BufTy).Contents (Elt F) → (⟨S1x50000, .i32⟩ : BufTy).Contents (Elt F)),
    reshape main_v551 main_v552 rfl shapeCasts_S1x50000_S50000,
    nullary main_cst_86 (constant S_ .f32 0x00000000#32),
    unary main_cst_86 main_v553 (broadcastInDim S50000 ![] bcast_S_S50000 : (⟨S_, .f32⟩ : BufTy).Contents (Elt F) → (⟨S50000, .f32⟩ : BufTy).Contents (Elt F)),
    unary main_v552 main_v554 (broadcastInDim S50000x1 ![0] bcast_S50000_S50000x1_0 : (⟨S50000, .i32⟩ : BufTy).Contents (Elt F) → (⟨S50000x1, .i32⟩ : BufTy).Contents (Elt F)),
    ternary main_v553 main_v554 main_v550 main_v555 ((fun x i u => Host.scatterAdd scatter_S50000_S50000x1_S50000_n_0_0_1 x i u) : (⟨S50000, .f32⟩ : BufTy).Contents (Elt F) → (⟨S50000x1, .i32⟩ : BufTy).Contents (Elt F) → (⟨S50000, .f32⟩ : BufTy).Contents (Elt F) → (⟨S50000, .f32⟩ : BufTy).Contents (Elt F)),
    nullary main_cst_87 (constant S_ .f32 0x3F800000#32),
    unary main_cst_87 main_v556 (broadcastInDim S50000 ![] bcast_S_S50000 : (⟨S_, .f32⟩ : BufTy).Contents (Elt F) → (⟨S50000, .f32⟩ : BufTy).Contents (Elt F)),
    binary main_v555 main_v556 main_v557 (maximumf : (⟨S50000, .f32⟩ : BufTy).Contents (Elt F) → (⟨S50000, .f32⟩ : BufTy).Contents (Elt F) → (⟨S50000, .f32⟩ : BufTy).Contents (Elt F)),
    unary main_v557 main_v558 (broadcastInDim S50000x1 ![0] bcast_S50000_S50000x1_0 : (⟨S50000, .f32⟩ : BufTy).Contents (Elt F) → (⟨S50000x1, .f32⟩ : BufTy).Contents (Elt F)),
    unary main_v558 main_v559 (broadcastInDim S50000x128 ![0, 1] bcast_S50000x1_S50000x128_0_1 : (⟨S50000x1, .f32⟩ : BufTy).Contents (Elt F) → (⟨S50000x128, .f32⟩ : BufTy).Contents (Elt F)),
    binary main_v549 main_v559 main_v560 (Host.divf : (⟨S50000x128, .f32⟩ : BufTy).Contents (Elt F) → (⟨S50000x128, .f32⟩ : BufTy).Contents (Elt F) → (⟨S50000x128, .f32⟩ : BufTy).Contents (Elt F)),
    binary main_v560 main_v531 main_v561 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v533 main_v562 (broadcastInDim S1x128 ![1] bcast_S128_S1x128_1 : (⟨S128, .f32⟩ : BufTy).Contents (Elt F) → (⟨S1x128, .f32⟩ : BufTy).Contents (Elt F)),
    unary main_v562 main_v563 (broadcastInDim S50000x128 ![0, 1] bcast_S1x128_S50000x128_0_1 : (⟨S1x128, .f32⟩ : BufTy).Contents (Elt F) → (⟨S50000x128, .f32⟩ : BufTy).Contents (Elt F)),
    binary main_v561 main_v563 main_v564 (addf : (⟨S50000x128, .f32⟩ : BufTy).Contents (Elt F) → (⟨S50000x128, .f32⟩ : BufTy).Contents (Elt F) → (⟨S50000x128, .f32⟩ : BufTy).Contents (Elt F)),
    binary main_v302 main_v535 main_v565 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v564 main_v565 main_v566 (addf : (⟨S50000x128, .f32⟩ : BufTy).Contents (Elt F) → (⟨S50000x128, .f32⟩ : BufTy).Contents (Elt F) → (⟨S50000x128, .f32⟩ : BufTy).Contents (Elt F)),
    unary main_arg4 main_v567 ((extractStridedSlice S1x1x128x128 ![1, 7, 0, 0] · slices_S3x8x128x128_S1x1x128x128_1_7_0_0) : (⟨S3x8x128x128, .f32⟩ : BufTy).Contents (Elt F) → (⟨S1x1x128x128, .f32⟩ : BufTy).Contents (Elt F)),
    reshape main_v567 main_v568 rfl shapeCasts_S1x1x128x128_S128x128,
    unary main_arg5 main_v569 ((extractStridedSlice S1x1x128 ![1, 7, 0] · slices_S3x8x128_S1x1x128_1_7_0) : (⟨S3x8x128, .f32⟩ : BufTy).Contents (Elt F) → (⟨S1x1x128, .f32⟩ : BufTy).Contents (Elt F)) ]

set_option maxRecDepth 8192 in
set_option maxHeartbeats 4000000 in
theorem main_part10_eq (c : Dev nD) : main_part10 (F := F) c = seq rw10 := rfl

set_option maxRecDepth 8192 in
theorem rw10_sub : (rw10 : List (HloOp τ sig (Elt F))).Forall fun op => op.bufs ⊆ tcRefs τ sig :=
  ⟨unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub ..⟩

set_option maxRecDepth 8192 in
theorem rw10_fresh' : (rw10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw10_fresh : ∀ op ∈ (rw10 : List (HloOp τ sig (Elt F))), op.fresh = ∅ :=
  List.forall_iff_forall_mem.mp rw10_fresh'

/-- The 68 operations of @main's window 11 (operations 669 … 736 of 1102), in order. -/
abbrev rw11 : List (HloOp τ sig (Elt F)) :=
  [ reshape main_v569 main_v570 rfl shapeCasts_S1x1x128_S128,
    unary main_arg6 main_v571 ((extractStridedSlice S1x1x128x128 ![1, 7, 0, 0] · slices_S3x8x128x128_S1x1x128x128_1_7_0_0) : (⟨S3x8x128x128, .f32⟩ : BufTy).Contents (Elt F) → (⟨S1x1x128x128, .f32⟩ : BufTy).Contents (Elt F)),
    reshape main_v571 main_v572 rfl shapeCasts_S1x1x128x128_S128x128,
    unary main_arg22 main_v573 ((extractStridedSlice S1x5000 ![0, 0] · slices_S2x5000_S1x5000_0_0) : (⟨S2x5000, .i32⟩ : BufTy).Contents (Elt F) → (⟨S1x5000, .i32⟩ : BufTy).Contents (Elt F)),
    reshape main_v573 main_v574 rfl shapeCasts_S1x5000_S5000,
    nullary main_c_88 (constantI S_ 32 0#32),
    unary main_c_88 main_v575 (broadcastInDim S5000 ![] bcast_S_S5000 : (⟨S_, .i32⟩ : BufTy).Contents (Elt F) → (⟨S5000, .i32⟩ : BufTy).Contents (Elt F)),
    binary main_v574 main_v575 main_v576 (cmpi .slt : (⟨S5000, .i32⟩ : BufTy).Contents (Elt F) → (⟨S5000, .i32⟩ : BufTy).Contents (Elt F) → (⟨S5000, .i1⟩ : BufTy).Contents (Elt F)),
    nullary main_c_89 (constantI S_ 32 100000#32),
    unary main_c_89 main_v577 (broadcastInDim S5000 ![] bcast_S_S5000 : (⟨S_, .i32⟩ : BufTy).Contents (Elt F) → (⟨S5000, .i32⟩ : BufTy).Contents (Elt F)),
    binary main_v574 main_v577 main_v578 (addi : (⟨S5000, .i32⟩ : BufTy).Contents (Elt F) → (⟨S5000, .i32⟩ : BufTy).Contents (Elt F) → (⟨S5000, .i32⟩ : BufTy).Contents (Elt F)),
    ternary main_v576 main_v578 main_v574 main_v579 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v579 main_v580 (broadcastInDim S5000x1 ![0] bcast_S5000_S5000x1_0 : (⟨S5000, .i32⟩ : BufTy).Contents (Elt F) → (⟨S5000x1, .i32⟩ : BufTy).Contents (Elt F)),
    binary main_v300 main_v580 main_v581 ((fun x i => Host.gather gather_S100000x128_S5000x1_S5000x128_1_0_n_n_0_1_1128 x i) : (⟨S100000x128, .f32⟩ : BufTy).Contents (Elt F) → (⟨S5000x1, .i32⟩ : BufTy).Contents (Elt F) → (⟨S5000x128, .f32⟩ : BufTy).Contents (Elt F)),
    unary main_arg22 main_v582 ((extractStridedSlice S1x5000 ![1, 0] · slices_S2x5000_S1x5000_1_0) : (⟨S2x5000, .i32⟩ : BufTy).Contents (Elt F) → (⟨S1x5000, .i32⟩ : BufTy).Contents (Elt F)),
    reshape main_v582 main_v583 rfl shapeCasts_S1x5000_S5000,
    nullary main_cst_90 (constant S_ .f32 0x00000000#32),
    unary main_cst_90 main_v584 (broadcastInDim S5000x128 ![] bcast_S_S5000x128 : (⟨S_, .f32⟩ : BufTy).Contents (Elt F) → (⟨S5000x128, .f32⟩ : BufTy).Contents (Elt F)),
    unary main_v583 main_v585 (broadcastInDim S5000x1 ![0] bcast_S5000_S5000x1_0 : (⟨S5000, .i32⟩ : BufTy).Contents (Elt F) → (⟨S5000x1, .i32⟩ : BufTy).Contents (Elt F)),
    ternary main_v584 main_v585 main_v581 main_v586 ((fun x i u => Host.scatterAdd scatter_S5000x128_S5000x1_S5000x128_1_0_0_1 x i u) : (⟨S5000x128, .f32⟩ : BufTy).Contents (Elt F) → (⟨S5000x1, .i32⟩ : BufTy).Contents (Elt F) → (⟨S5000x128, .f32⟩ : BufTy).Contents (Elt F) → (⟨S5000x128, .f32⟩ : BufTy).Contents (Elt F)),
    nullary main_cst_91 (constant S_ .f32 0x3F800000#32),
    unary main_cst_91 main_v587 (broadcastInDim S5000 ![] bcast_S_S5000 : (⟨S_, .f32⟩ : BufTy).Contents (Elt F) → (⟨S5000, .f32⟩ : BufTy).Contents (Elt F)),
    unary main_arg22 main_v588 ((extractStridedSlice S1x5000 ![1, 0] · slices_S2x5000_S1x5000_1_0) : (⟨S2x5000, .i32⟩ : BufTy).Contents (Elt F) → (⟨S1x5000, .i32⟩ : BufTy).Contents (Elt F)),
    reshape main_v588 main_v589 rfl shapeCasts_S1x5000_S5000,
    nullary main_cst_92 (constant S_ .f32 0x00000000#32),
    unary main_cst_92 main_v590 (broadcastInDim S5000 ![] bcast_S_S5000 : (⟨S_, .f32⟩ : BufTy).Contents (Elt F) → (⟨S5000, .f32⟩ : BufTy).Contents (Elt F)),
    unary main_v589 main_v591 (broadcastInDim S5000x1 ![0] bcast_S5000_S5000x1_0 : (⟨S5000, .i32⟩ : BufTy).Contents (Elt F) → (⟨S5000x1, .i32⟩ : BufTy).Contents (Elt F)),
    ternary main_v590 main_v591 main_v587 main_v592 ((fun x i u => Host.scatterAdd scatter_S5000_S5000x1_S5000_n_0_0_1 x i u) : (⟨S5000, .f32⟩ : BufTy).Contents (Elt F) → (⟨S5000x1, .i32⟩ : BufTy).Contents (Elt F) → (⟨S5000, .f32⟩ : BufTy).Contents (Elt F) → (⟨S5000, .f32⟩ : BufTy).Contents (Elt F)),
    nullary main_cst_93 (constant S_ .f32 0x3F800000#32),
    unary main_cst_93 main_v593 (broadcastInDim S5000 ![] bcast_S_S5000 : (⟨S_, .f32⟩ : BufTy).Contents (Elt F) → (⟨S5000, .f32⟩ : BufTy).Contents (Elt F)),
    binary main_v592 main_v593 main_v594 (maximumf : (⟨S5000, .f32⟩ : BufTy).Contents (Elt F) → (⟨S5000, .f32⟩ : BufTy).Contents (Elt F) → (⟨S5000, .f32⟩ : BufTy).Contents (Elt F)),
    unary main_v594 main_v595 (broadcastInDim S5000x1 ![0] bcast_S5000_S5000x1_0 : (⟨S5000, .f32⟩ : BufTy).Contents (Elt F) → (⟨S5000x1, .f32⟩ : BufTy).Contents (Elt F)),
    unary main_v595 main_v596 (broadcastInDim S5000x128 ![0, 1] bcast_S5000x1_S5000x128_0_1 : (⟨S5000x1, .f32⟩ : BufTy).Contents (Elt F) → (⟨S5000x128, .f32⟩ : BufTy).Contents (Elt F)),
    binary main_v586 main_v596 main_v597 (Host.divf : (⟨S5000x128, .f32⟩ : BufTy).Contents (Elt F) → (⟨S5000x128, .f32⟩ : BufTy).Contents (Elt F) → (⟨S5000x128, .f32⟩ : BufTy).Contents (Elt F)),
    binary main_v597 main_v568 main_v598 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v570 main_v599 (broadcastInDim S1x128 ![1] bcast_S128_S1x128_1 : (⟨S128, .f32⟩ : BufTy).Contents (Elt F) → (⟨S1x128, .f32⟩ : BufTy).Contents (Elt F)),
    unary main_v599 main_v600 (broadcastInDim S5000x128 ![0, 1] bcast_S1x128_S5000x128_0_1 : (⟨S1x128, .f32⟩ : BufTy).Contents (Elt F) → (⟨S5000x128, .f32⟩ : BufTy).Contents (Elt F)),
    binary main_v598 main_v600 main_v601 (addf : (⟨S5000x128, .f32⟩ : BufTy).Contents (Elt F) → (⟨S5000x128, .f32⟩ : BufTy).Contents (Elt F) → (⟨S5000x128, .f32⟩ : BufTy).Contents (Elt F)),
    binary main_v303 main_v572 main_v602 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v601 main_v602 main_v603 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v492) (TRef.of (T := ⟨S100000x128, .f32⟩) main_call4_v0) (TRef.of (T := ⟨S100000x128, .f32⟩) main_v604) maximumf,
    TRef.nullary (TRef.of (T := ⟨S_, .f32⟩) main_call5_cst) (constant S_ .f32 0x00000000#32),
    TRef.unary (TRef.of (T := ⟨S_, .f32⟩) main_call5_cst) (TRef.of (T := ⟨S20000x128, .f32⟩) main_call5_v0) (broadcastInDim S20000x128 ![] bcast_S_S20000x128),
    TRef.binary (TRef.of (T := ⟨S20000x128, .f32⟩) main_v529) (TRef.of (T := ⟨S20000x128, .f32⟩) main_call5_v0) (TRef.of (T := ⟨S20000x128, .f32⟩) main_v605) maximumf,
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v566) (TRef.of (T := ⟨S50000x128, .f32⟩) main_call6_v0) (TRef.of (T := ⟨S50000x128, .f32⟩) main_v606) maximumf,
    TRef.nullary (TRef.of (T := ⟨S_, .f32⟩) main_call7_cst) (constant S_ .f32 0x00000000#32),
    TRef.unary (TRef.of (T := ⟨S_, .f32⟩) main_call7_cst) (TRef.of (T := ⟨S5000x128, .f32⟩) main_call7_v0) (broadcastInDim S5000x128 ![] bcast_S_S5000x128),
    TRef.binary (TRef.of (T := ⟨S5000x128, .f32⟩) main_v603) (TRef.of (T := ⟨S5000x128, .f32⟩) main_call7_v0) (TRef.of (T := ⟨S5000x128, .f32⟩) main_v607) maximumf,
    unary main_arg4 main_v608 ((extractStridedSlice S1x1x128x128 ![2, 0, 0, 0] · slices_S3x8x128x128_S1x1x128x128_2_0_0_0) : (⟨S3x8x128x128, .f32⟩ : BufTy).Contents (Elt F) → (⟨S1x1x128x128, .f32⟩ : BufTy).Contents (Elt F)),
    reshape main_v608 main_v609 rfl shapeCasts_S1x1x128x128_S128x128,
    unary main_arg5 main_v610 ((extractStridedSlice S1x1x128 ![2, 0, 0] · slices_S3x8x128_S1x1x128_2_0_0) : (⟨S3x8x128, .f32⟩ : BufTy).Contents (Elt F) → (⟨S1x1x128, .f32⟩ : BufTy).Contents (Elt F)),
    reshape main_v610 main_v611 rfl shapeCasts_S1x1x128_S128,
    unary main_arg6 main_v612 ((extractStridedSlice S1x1x128x128 ![2, 0, 0, 0] · slices_S3x8x128x128_S1x1x128x128_2_0_0_0) : (⟨S3x8x128x128, .f32⟩ : BufTy).Contents (Elt F) → (⟨S1x1x128x128, .f32⟩ : BufTy).Contents (Elt F)),
    reshape main_v612 main_v613 rfl shapeCasts_S1x1x128x128_S128x128,
    unary main_arg15 main_v614 ((extractStridedSlice S1x500000 ![0, 0] · slices_S2x500000_S1x500000_0_0) : (⟨S2x500000, .i32⟩ : BufTy).Contents (Elt F) → (⟨S1x500000, .i32⟩ : BufTy).Contents (Elt F)),
    reshape main_v614 main_v615 rfl shapeCasts_S1x500000_S500000,
    nullary main_c_94 (constantI S_ 32 0#32),
    unary main_c_94 main_v616 (broadcastInDim S500000 ![] bcast_S_S500000 : (⟨S_, .i32⟩ : BufTy).Contents (Elt F) → (⟨S500000, .i32⟩ : BufTy).Contents (Elt F)),
    binary main_v615 main_v616 main_v617 (cmpi .slt : (⟨S500000, .i32⟩ : BufTy).Contents (Elt F) → (⟨S500000, .i32⟩ : BufTy).Contents (Elt F) → (⟨S500000, .i1⟩ : BufTy).Contents (Elt F)),
    nullary main_c_95 (constantI S_ 32 100000#32),
    unary main_c_95 main_v618 (broadcastInDim S500000 ![] bcast_S_S500000 : (⟨S_, .i32⟩ : BufTy).Contents (Elt F) → (⟨S500000, .i32⟩ : BufTy).Contents (Elt F)),
    binary main_v615 main_v618 main_v619 (addi : (⟨S500000, .i32⟩ : BufTy).Contents (Elt F) → (⟨S500000, .i32⟩ : BufTy).Contents (Elt F) → (⟨S500000, .i32⟩ : BufTy).Contents (Elt F)),
    ternary main_v617 main_v619 main_v615 main_v620 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v620 main_v621 (broadcastInDim S500000x1 ![0] bcast_S500000_S500000x1_0 : (⟨S500000, .i32⟩ : BufTy).Contents (Elt F) → (⟨S500000x1, .i32⟩ : BufTy).Contents (Elt F)) ]

set_option maxRecDepth 8192 in
set_option maxHeartbeats 4000000 in
theorem main_part11_eq (c : Dev nD) : main_part11 (F := F) c = seq rw11 := rfl

set_option maxRecDepth 8192 in
theorem rw11_sub : (rw11 : List (HloOp τ sig (Elt F))).Forall fun op => op.bufs ⊆ tcRefs τ sig :=
  ⟨reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩

set_option maxRecDepth 8192 in
theorem rw11_fresh' : (rw11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw11_fresh : ∀ op ∈ (rw11 : List (HloOp τ sig (Elt F))), op.fresh = ∅ :=
  List.forall_iff_forall_mem.mp rw11_fresh'

/-- The 60 operations of @main's window 12 (operations 737 … 796 of 1102), in order. -/
abbrev rw12 : List (HloOp τ sig (Elt F)) :=
  [ binary main_v604 main_v621 main_v622 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    unary main_arg15 main_v623 ((extractStridedSlice S1x500000 ![1, 0] · slices_S2x500000_S1x500000_1_0) : (⟨S2x500000, .i32⟩ : BufTy).Contents (Elt F) → (⟨S1x500000, .i32⟩ : BufTy).Contents (Elt F)),
    reshape main_v623 main_v624 rfl shapeCasts_S1x500000_S500000,
    nullary main_cst_96 (constant S_ .f32 0x00000000#32),
    unary main_cst_96 main_v625 (broadcastInDim S100000x128 ![] bcast_S_S100000x128 : (⟨S_, .f32⟩ : BufTy).Contents (Elt F) → (⟨S100000x128, .f32⟩ : BufTy).Contents (Elt F)),
    unary main_v624 main_v626 (broadcastInDim S500000x1 ![0] bcast_S500000_S500000x1_0 : (⟨S500000, .i32⟩ : BufTy).Contents (Elt F) → (⟨S500000x1, .i32⟩ : BufTy).Contents (Elt F)),
    ternary main_v625 main_v626 main_v622 main_v627 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_97 (constant S_ .f32 0x3F800000#32),
    unary main_cst_97 main_v628 (broadcastInDim S500000 ![] bcast_S_S500000 : (⟨S_, .f32⟩ : BufTy).Contents (Elt F) → (⟨S500000, .f32⟩ : BufTy).Contents (Elt F)),
    unary main_arg15 main_v629 ((extractStridedSlice S1x500000 ![1, 0] · slices_S2x500000_S1x500000_1_0) : (⟨S2x500000, .i32⟩ : BufTy).Contents (Elt F) → (⟨S1x500000, .i32⟩ : BufTy).Contents (Elt F)),
    reshape main_v629 main_v630 rfl shapeCasts_S1x500000_S500000,
    nullary main_cst_98 (constant S_ .f32 0x00000000#32),
    unary main_cst_98 main_v631 (broadcastInDim S100000 ![] bcast_S_S100000 : (⟨S_, .f32⟩ : BufTy).Contents (Elt F) → (⟨S100000, .f32⟩ : BufTy).Contents (Elt F)),
    unary main_v630 main_v632 (broadcastInDim S500000x1 ![0] bcast_S500000_S500000x1_0 : (⟨S500000, .i32⟩ : BufTy).Contents (Elt F) → (⟨S500000x1, .i32⟩ : BufTy).Contents (Elt F)),
    ternary main_v631 main_v632 main_v628 main_v633 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_99 (constant S_ .f32 0x3F800000#32),
    unary main_cst_99 main_v634 (broadcastInDim S100000 ![] bcast_S_S100000 : (⟨S_, .f32⟩ : BufTy).Contents (Elt F) → (⟨S100000, .f32⟩ : BufTy).Contents (Elt F)),
    binary main_v633 main_v634 main_v635 (maximumf : (⟨S100000, .f32⟩ : BufTy).Contents (Elt F) → (⟨S100000, .f32⟩ : BufTy).Contents (Elt F) → (⟨S100000, .f32⟩ : BufTy).Contents (Elt F)),
    unary main_v635 main_v636 (broadcastInDim S100000x1 ![0] bcast_S100000_S100000x1_0 : (⟨S100000, .f32⟩ : BufTy).Contents (Elt F) → (⟨S100000x1, .f32⟩ : BufTy).Contents (Elt F)),
    unary main_v636 main_v637 (broadcastInDim S100000x128 ![0, 1] bcast_S100000x1_S100000x128_0_1 : (⟨S100000x1, .f32⟩ : BufTy).Contents (Elt F) → (⟨S100000x128, .f32⟩ : BufTy).Contents (Elt F)),
    binary main_v627 main_v637 main_v638 (Host.divf : (⟨S100000x128, .f32⟩ : BufTy).Contents (Elt F) → (⟨S100000x128, .f32⟩ : BufTy).Contents (Elt F) → (⟨S100000x128, .f32⟩ : BufTy).Contents (Elt F)),
    binary main_v638 main_v609 main_v639 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v611 main_v640 (broadcastInDim S1x128 ![1] bcast_S128_S1x128_1 : (⟨S128, .f32⟩ : BufTy).Contents (Elt F) → (⟨S1x128, .f32⟩ : BufTy).Contents (Elt F)),
    unary main_v640 main_v641 (broadcastInDim S100000x128 ![0, 1] bcast_S1x128_S100000x128_0_1 : (⟨S1x128, .f32⟩ : BufTy).Contents (Elt F) → (⟨S100000x128, .f32⟩ : BufTy).Contents (Elt F)),
    binary main_v639 main_v641 main_v642 (addf : (⟨S100000x128, .f32⟩ : BufTy).Contents (Elt F) → (⟨S100000x128, .f32⟩ : BufTy).Contents (Elt F) → (⟨S100000x128, .f32⟩ : BufTy).Contents (Elt F)),
    binary main_v604 main_v613 main_v643 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v642 main_v643 main_v644 (addf : (⟨S100000x128, .f32⟩ : BufTy).Contents (Elt F) → (⟨S100000x128, .f32⟩ : BufTy).Contents (Elt F) → (⟨S100000x128, .f32⟩ : BufTy).Contents (Elt F)),
    unary main_arg4 main_v645 ((extractStridedSlice S1x1x128x128 ![2, 1, 0, 0] · slices_S3x8x128x128_S1x1x128x128_2_1_0_0) : (⟨S3x8x128x128, .f32⟩ : BufTy).Contents (Elt F) → (⟨S1x1x128x128, .f32⟩ : BufTy).Contents (Elt F)),
    reshape main_v645 main_v646 rfl shapeCasts_S1x1x128x128_S128x128,
    unary main_arg5 main_v647 ((extractStridedSlice S1x1x128 ![2, 1, 0] · slices_S3x8x128_S1x1x128_2_1_0) : (⟨S3x8x128, .f32⟩ : BufTy).Contents (Elt F) → (⟨S1x1x128, .f32⟩ : BufTy).Contents (Elt F)),
    reshape main_v647 main_v648 rfl shapeCasts_S1x1x128_S128,
    unary main_arg6 main_v649 ((extractStridedSlice S1x1x128x128 ![2, 1, 0, 0] · slices_S3x8x128x128_S1x1x128x128_2_1_0_0) : (⟨S3x8x128x128, .f32⟩ : BufTy).Contents (Elt F) → (⟨S1x1x128x128, .f32⟩ : BufTy).Contents (Elt F)),
    reshape main_v649 main_v650 rfl shapeCasts_S1x1x128x128_S128x128,
    unary main_arg16 main_v651 ((extractStridedSlice S1x100000 ![0, 0] · slices_S2x100000_S1x100000_0_0) : (⟨S2x100000, .i32⟩ : BufTy).Contents (Elt F) → (⟨S1x100000, .i32⟩ : BufTy).Contents (Elt F)),
    reshape main_v651 main_v652 rfl shapeCasts_S1x100000_S100000,
    nullary main_c_100 (constantI S_ 32 0#32),
    unary main_c_100 main_v653 (broadcastInDim S100000 ![] bcast_S_S100000 : (⟨S_, .i32⟩ : BufTy).Contents (Elt F) → (⟨S100000, .i32⟩ : BufTy).Contents (Elt F)),
    binary main_v652 main_v653 main_v654 (cmpi .slt : (⟨S100000, .i32⟩ : BufTy).Contents (Elt F) → (⟨S100000, .i32⟩ : BufTy).Contents (Elt F) → (⟨S100000, .i1⟩ : BufTy).Contents (Elt F)),
    nullary main_c_101 (constantI S_ 32 100000#32),
    unary main_c_101 main_v655 (broadcastInDim S100000 ![] bcast_S_S100000 : (⟨S_, .i32⟩ : BufTy).Contents (Elt F) → (⟨S100000, .i32⟩ : BufTy).Contents (Elt F)),
    binary main_v652 main_v655 main_v656 (addi : (⟨S100000, .i32⟩ : BufTy).Contents (Elt F) → (⟨S100000, .i32⟩ : BufTy).Contents (Elt F) → (⟨S100000, .i32⟩ : BufTy).Contents (Elt F)),
    ternary main_v654 main_v656 main_v652 main_v657 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v657 main_v658 (broadcastInDim S100000x1 ![0] bcast_S100000_S100000x1_0 : (⟨S100000, .i32⟩ : BufTy).Contents (Elt F) → (⟨S100000x1, .i32⟩ : BufTy).Contents (Elt F)),
    binary main_v604 main_v658 main_v659 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    unary main_arg16 main_v660 ((extractStridedSlice S1x100000 ![1, 0] · slices_S2x100000_S1x100000_1_0) : (⟨S2x100000, .i32⟩ : BufTy).Contents (Elt F) → (⟨S1x100000, .i32⟩ : BufTy).Contents (Elt F)),
    reshape main_v660 main_v661 rfl shapeCasts_S1x100000_S100000,
    nullary main_cst_102 (constant S_ .f32 0x00000000#32),
    unary main_cst_102 main_v662 (broadcastInDim S100000x128 ![] bcast_S_S100000x128 : (⟨S_, .f32⟩ : BufTy).Contents (Elt F) → (⟨S100000x128, .f32⟩ : BufTy).Contents (Elt F)),
    unary main_v661 main_v663 (broadcastInDim S100000x1 ![0] bcast_S100000_S100000x1_0 : (⟨S100000, .i32⟩ : BufTy).Contents (Elt F) → (⟨S100000x1, .i32⟩ : BufTy).Contents (Elt F)),
    ternary main_v662 main_v663 main_v659 main_v664 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_103 (constant S_ .f32 0x3F800000#32),
    unary main_cst_103 main_v665 (broadcastInDim S100000 ![] bcast_S_S100000 : (⟨S_, .f32⟩ : BufTy).Contents (Elt F) → (⟨S100000, .f32⟩ : BufTy).Contents (Elt F)),
    unary main_arg16 main_v666 ((extractStridedSlice S1x100000 ![1, 0] · slices_S2x100000_S1x100000_1_0) : (⟨S2x100000, .i32⟩ : BufTy).Contents (Elt F) → (⟨S1x100000, .i32⟩ : BufTy).Contents (Elt F)),
    reshape main_v666 main_v667 rfl shapeCasts_S1x100000_S100000,
    nullary main_cst_104 (constant S_ .f32 0x00000000#32),
    unary main_cst_104 main_v668 (broadcastInDim S100000 ![] bcast_S_S100000 : (⟨S_, .f32⟩ : BufTy).Contents (Elt F) → (⟨S100000, .f32⟩ : BufTy).Contents (Elt F)),
    unary main_v667 main_v669 (broadcastInDim S100000x1 ![0] bcast_S100000_S100000x1_0 : (⟨S100000, .i32⟩ : BufTy).Contents (Elt F) → (⟨S100000x1, .i32⟩ : BufTy).Contents (Elt F)),
    ternary main_v668 main_v669 main_v665 main_v670 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_105 (constant S_ .f32 0x3F800000#32),
    unary main_cst_105 main_v671 (broadcastInDim S100000 ![] bcast_S_S100000 : (⟨S_, .f32⟩ : BufTy).Contents (Elt F) → (⟨S100000, .f32⟩ : BufTy).Contents (Elt F)) ]

set_option maxRecDepth 8192 in
set_option maxHeartbeats 4000000 in
theorem main_part12_eq (c : Dev nD) : main_part12 (F := F) c = seq rw12 := rfl

set_option maxRecDepth 8192 in
theorem rw12_sub : (rw12 : List (HloOp τ sig (Elt F))).Forall fun op => op.bufs ⊆ tcRefs τ sig :=
  ⟨binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub ..⟩

set_option maxRecDepth 8192 in
theorem rw12_fresh' : (rw12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw12_fresh : ∀ op ∈ (rw12 : List (HloOp τ sig (Elt F))), op.fresh = ∅ :=
  List.forall_iff_forall_mem.mp rw12_fresh'

/-- The 60 operations of @main's window 13 (operations 797 … 856 of 1102), in order. -/
abbrev rw13 : List (HloOp τ sig (Elt F)) :=
  [ binary main_v670 main_v671 main_v672 (maximumf : (⟨S100000, .f32⟩ : BufTy).Contents (Elt F) → (⟨S100000, .f32⟩ : BufTy).Contents (Elt F) → (⟨S100000, .f32⟩ : BufTy).Contents (Elt F)),
    unary main_v672 main_v673 (broadcastInDim S100000x1 ![0] bcast_S100000_S100000x1_0 : (⟨S100000, .f32⟩ : BufTy).Contents (Elt F) → (⟨S100000x1, .f32⟩ : BufTy).Contents (Elt F)),
    unary main_v673 main_v674 (broadcastInDim S100000x128 ![0, 1] bcast_S100000x1_S100000x128_0_1 : (⟨S100000x1, .f32⟩ : BufTy).Contents (Elt F) → (⟨S100000x128, .f32⟩ : BufTy).Contents (Elt F)),
    binary main_v664 main_v674 main_v675 (Host.divf : (⟨S100000x128, .f32⟩ : BufTy).Contents (Elt F) → (⟨S100000x128, .f32⟩ : BufTy).Contents (Elt F) → (⟨S100000x128, .f32⟩ : BufTy).Contents (Elt F)),
    binary main_v675 main_v646 main_v676 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v648 main_v677 (broadcastInDim S1x128 ![1] bcast_S128_S1x128_1 : (⟨S128, .f32⟩ : BufTy).Contents (Elt F) → (⟨S1x128, .f32⟩ : BufTy).Contents (Elt F)),
    unary main_v677 main_v678 (broadcastInDim S100000x128 ![0, 1] bcast_S1x128_S100000x128_0_1 : (⟨S1x128, .f32⟩ : BufTy).Contents (Elt F) → (⟨S100000x128, .f32⟩ : BufTy).Contents (Elt F)),
    binary main_v676 main_v678 main_v679 (addf : (⟨S100000x128, .f32⟩ : BufTy).Contents (Elt F) → (⟨S100000x128, .f32⟩ : BufTy).Contents (Elt F) → (⟨S100000x128, .f32⟩ : BufTy).Contents (Elt F)),
    binary main_v604 main_v650 main_v680 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v679 main_v680 main_v681 (addf : (⟨S100000x128, .f32⟩ : BufTy).Contents (Elt F) → (⟨S100000x128, .f32⟩ : BufTy).Contents (Elt F) → (⟨S100000x128, .f32⟩ : BufTy).Contents (Elt F)),
    binary main_v644 main_v681 main_v682 (addf : (⟨S100000x128, .f32⟩ : BufTy).Contents (Elt F) → (⟨S100000x128, .f32⟩ : BufTy).Contents (Elt F) → (⟨S100000x128, .f32⟩ : BufTy).Contents (Elt F)),
    unary main_arg4 main_v683 ((extractStridedSlice S1x1x128x128 ![2, 2, 0, 0] · slices_S3x8x128x128_S1x1x128x128_2_2_0_0) : (⟨S3x8x128x128, .f32⟩ : BufTy).Contents (Elt F) → (⟨S1x1x128x128, .f32⟩ : BufTy).Contents (Elt F)),
    reshape main_v683 main_v684 rfl shapeCasts_S1x1x128x128_S128x128,
    unary main_arg5 main_v685 ((extractStridedSlice S1x1x128 ![2, 2, 0] · slices_S3x8x128_S1x1x128_2_2_0) : (⟨S3x8x128, .f32⟩ : BufTy).Contents (Elt F) → (⟨S1x1x128, .f32⟩ : BufTy).Contents (Elt F)),
    reshape main_v685 main_v686 rfl shapeCasts_S1x1x128_S128,
    unary main_arg6 main_v687 ((extractStridedSlice S1x1x128x128 ![2, 2, 0, 0] · slices_S3x8x128x128_S1x1x128x128_2_2_0_0) : (⟨S3x8x128x128, .f32⟩ : BufTy).Contents (Elt F) → (⟨S1x1x128x128, .f32⟩ : BufTy).Contents (Elt F)),
    reshape main_v687 main_v688 rfl shapeCasts_S1x1x128x128_S128x128,
    unary main_arg17 main_v689 ((extractStridedSlice S1x20000 ![0, 0] · slices_S2x20000_S1x20000_0_0) : (⟨S2x20000, .i32⟩ : BufTy).Contents (Elt F) → (⟨S1x20000, .i32⟩ : BufTy).Contents (Elt F)),
    reshape main_v689 main_v690 rfl shapeCasts_S1x20000_S20000,
    nullary main_c_106 (constantI S_ 32 0#32),
    unary main_c_106 main_v691 (broadcastInDim S20000 ![] bcast_S_S20000 : (⟨S_, .i32⟩ : BufTy).Contents (Elt F) → (⟨S20000, .i32⟩ : BufTy).Contents (Elt F)),
    binary main_v690 main_v691 main_v692 (cmpi .slt : (⟨S20000, .i32⟩ : BufTy).Contents (Elt F) → (⟨S20000, .i32⟩ : BufTy).Contents (Elt F) → (⟨S20000, .i1⟩ : BufTy).Contents (Elt F)),
    nullary main_c_107 (constantI S_ 32 20000#32),
    unary main_c_107 main_v693 (broadcastInDim S20000 ![] bcast_S_S20000 : (⟨S_, .i32⟩ : BufTy).Contents (Elt F) → (⟨S20000, .i32⟩ : BufTy).Contents (Elt F)),
    binary main_v690 main_v693 main_v694 (addi : (⟨S20000, .i32⟩ : BufTy).Contents (Elt F) → (⟨S20000, .i32⟩ : BufTy).Contents (Elt F) → (⟨S20000, .i32⟩ : BufTy).Contents (Elt F)),
    ternary main_v692 main_v694 main_v690 main_v695 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v695 main_v696 (broadcastInDim S20000x1 ![0] bcast_S20000_S20000x1_0 : (⟨S20000, .i32⟩ : BufTy).Contents (Elt F) → (⟨S20000x1, .i32⟩ : BufTy).Contents (Elt F)),
    binary main_v605 main_v696 main_v697 ((fun x i => Host.gather gather_S20000x128_S20000x1_S20000x128_1_0_n_n_0_1_1128 x i) : (⟨S20000x128, .f32⟩ : BufTy).Contents (Elt F) → (⟨S20000x1, .i32⟩ : BufTy).Contents (Elt F) → (⟨S20000x128, .f32⟩ : BufTy).Contents (Elt F)),
    unary main_arg17 main_v698 ((extractStridedSlice S1x20000 ![1, 0] · slices_S2x20000_S1x20000_1_0) : (⟨S2x20000, .i32⟩ : BufTy).Contents (Elt F) → (⟨S1x20000, .i32⟩ : BufTy).Contents (Elt F)),
    reshape main_v698 main_v699 rfl shapeCasts_S1x20000_S20000,
    nullary main_cst_108 (constant S_ .f32 0x00000000#32),
    unary main_cst_108 main_v700 (broadcastInDim S100000x128 ![] bcast_S_S100000x128 : (⟨S_, .f32⟩ : BufTy).Contents (Elt F) → (⟨S100000x128, .f32⟩ : BufTy).Contents (Elt F)),
    unary main_v699 main_v701 (broadcastInDim S20000x1 ![0] bcast_S20000_S20000x1_0 : (⟨S20000, .i32⟩ : BufTy).Contents (Elt F) → (⟨S20000x1, .i32⟩ : BufTy).Contents (Elt F)),
    ternary main_v700 main_v701 main_v697 main_v702 ((fun x i u => Host.scatterAdd scatter_S100000x128_S20000x1_S20000x128_1_0_0_1 x i u) : (⟨S100000x128, .f32⟩ : BufTy).Contents (Elt F) → (⟨S20000x1, .i32⟩ : BufTy).Contents (Elt F) → (⟨S20000x128, .f32⟩ : BufTy).Contents (Elt F) → (⟨S100000x128, .f32⟩ : BufTy).Contents (Elt F)),
    nullary main_cst_109 (constant S_ .f32 0x3F800000#32),
    unary main_cst_109 main_v703 (broadcastInDim S20000 ![] bcast_S_S20000 : (⟨S_, .f32⟩ : BufTy).Contents (Elt F) → (⟨S20000, .f32⟩ : BufTy).Contents (Elt F)),
    unary main_arg17 main_v704 ((extractStridedSlice S1x20000 ![1, 0] · slices_S2x20000_S1x20000_1_0) : (⟨S2x20000, .i32⟩ : BufTy).Contents (Elt F) → (⟨S1x20000, .i32⟩ : BufTy).Contents (Elt F)),
    reshape main_v704 main_v705 rfl shapeCasts_S1x20000_S20000,
    nullary main_cst_110 (constant S_ .f32 0x00000000#32),
    unary main_cst_110 main_v706 (broadcastInDim S100000 ![] bcast_S_S100000 : (⟨S_, .f32⟩ : BufTy).Contents (Elt F) → (⟨S100000, .f32⟩ : BufTy).Contents (Elt F)),
    unary main_v705 main_v707 (broadcastInDim S20000x1 ![0] bcast_S20000_S20000x1_0 : (⟨S20000, .i32⟩ : BufTy).Contents (Elt F) → (⟨S20000x1, .i32⟩ : BufTy).Contents (Elt F)),
    ternary main_v706 main_v707 main_v703 main_v708 ((fun x i u => Host.scatterAdd scatter_S100000_S20000x1_S20000_n_0_0_1 x i u) : (⟨S100000, .f32⟩ : BufTy).Contents (Elt F) → (⟨S20000x1, .i32⟩ : BufTy).Contents (Elt F) → (⟨S20000, .f32⟩ : BufTy).Contents (Elt F) → (⟨S100000, .f32⟩ : BufTy).Contents (Elt F)),
    nullary main_cst_111 (constant S_ .f32 0x3F800000#32),
    unary main_cst_111 main_v709 (broadcastInDim S100000 ![] bcast_S_S100000 : (⟨S_, .f32⟩ : BufTy).Contents (Elt F) → (⟨S100000, .f32⟩ : BufTy).Contents (Elt F)),
    binary main_v708 main_v709 main_v710 (maximumf : (⟨S100000, .f32⟩ : BufTy).Contents (Elt F) → (⟨S100000, .f32⟩ : BufTy).Contents (Elt F) → (⟨S100000, .f32⟩ : BufTy).Contents (Elt F)),
    unary main_v710 main_v711 (broadcastInDim S100000x1 ![0] bcast_S100000_S100000x1_0 : (⟨S100000, .f32⟩ : BufTy).Contents (Elt F) → (⟨S100000x1, .f32⟩ : BufTy).Contents (Elt F)),
    unary main_v711 main_v712 (broadcastInDim S100000x128 ![0, 1] bcast_S100000x1_S100000x128_0_1 : (⟨S100000x1, .f32⟩ : BufTy).Contents (Elt F) → (⟨S100000x128, .f32⟩ : BufTy).Contents (Elt F)),
    binary main_v702 main_v712 main_v713 (Host.divf : (⟨S100000x128, .f32⟩ : BufTy).Contents (Elt F) → (⟨S100000x128, .f32⟩ : BufTy).Contents (Elt F) → (⟨S100000x128, .f32⟩ : BufTy).Contents (Elt F)),
    binary main_v713 main_v684 main_v714 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v686 main_v715 (broadcastInDim S1x128 ![1] bcast_S128_S1x128_1 : (⟨S128, .f32⟩ : BufTy).Contents (Elt F) → (⟨S1x128, .f32⟩ : BufTy).Contents (Elt F)),
    unary main_v715 main_v716 (broadcastInDim S100000x128 ![0, 1] bcast_S1x128_S100000x128_0_1 : (⟨S1x128, .f32⟩ : BufTy).Contents (Elt F) → (⟨S100000x128, .f32⟩ : BufTy).Contents (Elt F)),
    binary main_v714 main_v716 main_v717 (addf : (⟨S100000x128, .f32⟩ : BufTy).Contents (Elt F) → (⟨S100000x128, .f32⟩ : BufTy).Contents (Elt F) → (⟨S100000x128, .f32⟩ : BufTy).Contents (Elt F)),
    binary main_v604 main_v688 main_v718 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v717 main_v718 main_v719 (addf : (⟨S100000x128, .f32⟩ : BufTy).Contents (Elt F) → (⟨S100000x128, .f32⟩ : BufTy).Contents (Elt F) → (⟨S100000x128, .f32⟩ : BufTy).Contents (Elt F)),
    binary main_v682 main_v719 main_v720 (addf : (⟨S100000x128, .f32⟩ : BufTy).Contents (Elt F) → (⟨S100000x128, .f32⟩ : BufTy).Contents (Elt F) → (⟨S100000x128, .f32⟩ : BufTy).Contents (Elt F)),
    unary main_arg4 main_v721 ((extractStridedSlice S1x1x128x128 ![2, 4, 0, 0] · slices_S3x8x128x128_S1x1x128x128_2_4_0_0) : (⟨S3x8x128x128, .f32⟩ : BufTy).Contents (Elt F) → (⟨S1x1x128x128, .f32⟩ : BufTy).Contents (Elt F)),
    reshape main_v721 main_v722 rfl shapeCasts_S1x1x128x128_S128x128,
    unary main_arg5 main_v723 ((extractStridedSlice S1x1x128 ![2, 4, 0] · slices_S3x8x128_S1x1x128_2_4_0) : (⟨S3x8x128, .f32⟩ : BufTy).Contents (Elt F) → (⟨S1x1x128, .f32⟩ : BufTy).Contents (Elt F)),
    reshape main_v723 main_v724 rfl shapeCasts_S1x1x128_S128,
    unary main_arg6 main_v725 ((extractStridedSlice S1x1x128x128 ![2, 4, 0, 0] · slices_S3x8x128x128_S1x1x128x128_2_4_0_0) : (⟨S3x8x128x128, .f32⟩ : BufTy).Contents (Elt F) → (⟨S1x1x128x128, .f32⟩ : BufTy).Contents (Elt F)) ]

set_option maxRecDepth 8192 in
set_option maxHeartbeats 4000000 in
theorem main_part13_eq (c : Dev nD) : main_part13 (F := F) c = seq rw13 := rfl

set_option maxRecDepth 8192 in
theorem rw13_sub : (rw13 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub ..⟩

set_option maxRecDepth 8192 in
theorem rw13_fresh' : (rw13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw13_fresh : ∀ op ∈ (rw13 : List (HloOp τ sig (Elt F))), op.fresh = ∅ :=
  List.forall_iff_forall_mem.mp rw13_fresh'

/-- The 60 operations of @main's window 14 (operations 857 … 916 of 1102), in order. -/
abbrev rw14 : List (HloOp τ sig (Elt F)) :=
  [ reshape main_v725 main_v726 rfl shapeCasts_S1x1x128x128_S128x128,
    unary main_arg19 main_v727 ((extractStridedSlice S1x50000 ![0, 0] · slices_S2x50000_S1x50000_0_0) : (⟨S2x50000, .i32⟩ : BufTy).Contents (Elt F) → (⟨S1x50000, .i32⟩ : BufTy).Contents (Elt F)),
    reshape main_v727 main_v728 rfl shapeCasts_S1x50000_S50000,
    nullary main_c_112 (constantI S_ 32 0#32),
    unary main_c_112 main_v729 (broadcastInDim S50000 ![] bcast_S_S50000 : (⟨S_, .i32⟩ : BufTy).Contents (Elt F) → (⟨S50000, .i32⟩ : BufTy).Contents (Elt F)),
    binary main_v728 main_v729 main_v730 (cmpi .slt : (⟨S50000, .i32⟩ : BufTy).Contents (Elt F) → (⟨S50000, .i32⟩ : BufTy).Contents (Elt F) → (⟨S50000, .i1⟩ : BufTy).Contents (Elt F)),
    nullary main_c_113 (constantI S_ 32 50000#32),
    unary main_c_113 main_v731 (broadcastInDim S50000 ![] bcast_S_S50000 : (⟨S_, .i32⟩ : BufTy).Contents (Elt F) → (⟨S50000, .i32⟩ : BufTy).Contents (Elt F)),
    binary main_v728 main_v731 main_v732 (addi : (⟨S50000, .i32⟩ : BufTy).Contents (Elt F) → (⟨S50000, .i32⟩ : BufTy).Contents (Elt F) → (⟨S50000, .i32⟩ : BufTy).Contents (Elt F)),
    ternary main_v730 main_v732 main_v728 main_v733 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v733 main_v734 (broadcastInDim S50000x1 ![0] bcast_S50000_S50000x1_0 : (⟨S50000, .i32⟩ : BufTy).Contents (Elt F) → (⟨S50000x1, .i32⟩ : BufTy).Contents (Elt F)),
    binary main_v606 main_v734 main_v735 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    unary main_arg19 main_v736 ((extractStridedSlice S1x50000 ![1, 0] · slices_S2x50000_S1x50000_1_0) : (⟨S2x50000, .i32⟩ : BufTy).Contents (Elt F) → (⟨S1x50000, .i32⟩ : BufTy).Contents (Elt F)),
    reshape main_v736 main_v737 rfl shapeCasts_S1x50000_S50000,
    nullary main_cst_114 (constant S_ .f32 0x00000000#32),
    unary main_cst_114 main_v738 (broadcastInDim S100000x128 ![] bcast_S_S100000x128 : (⟨S_, .f32⟩ : BufTy).Contents (Elt F) → (⟨S100000x128, .f32⟩ : BufTy).Contents (Elt F)),
    unary main_v737 main_v739 (broadcastInDim S50000x1 ![0] bcast_S50000_S50000x1_0 : (⟨S50000, .i32⟩ : BufTy).Contents (Elt F) → (⟨S50000x1, .i32⟩ : BufTy).Contents (Elt F)),
    ternary main_v738 main_v739 main_v735 main_v740 ((fun x i u => Host.scatterAdd scatter_S100000x128_S50000x1_S50000x128_1_0_0_1 x i u) : (⟨S100000x128, .f32⟩ : BufTy).Contents (Elt F) → (⟨S50000x1, .i32⟩ : BufTy).Contents (Elt F) → (⟨S50000x128, .f32⟩ : BufTy).Contents (Elt F) → (⟨S100000x128, .f32⟩ : BufTy).Contents (Elt F)),
    nullary main_cst_115 (constant S_ .f32 0x3F800000#32),
    unary main_cst_115 main_v741 (broadcastInDim S50000 ![] bcast_S_S50000 : (⟨S_, .f32⟩ : BufTy).Contents (Elt F) → (⟨S50000, .f32⟩ : BufTy).Contents (Elt F)),
    unary main_arg19 main_v742 ((extractStridedSlice S1x50000 ![1, 0] · slices_S2x50000_S1x50000_1_0) : (⟨S2x50000, .i32⟩ : BufTy).Contents (Elt F) → (⟨S1x50000, .i32⟩ : BufTy).Contents (Elt F)),
    reshape main_v742 main_v743 rfl shapeCasts_S1x50000_S50000,
    nullary main_cst_116 (constant S_ .f32 0x00000000#32),
    unary main_cst_116 main_v744 (broadcastInDim S100000 ![] bcast_S_S100000 : (⟨S_, .f32⟩ : BufTy).Contents (Elt F) → (⟨S100000, .f32⟩ : BufTy).Contents (Elt F)),
    unary main_v743 main_v745 (broadcastInDim S50000x1 ![0] bcast_S50000_S50000x1_0 : (⟨S50000, .i32⟩ : BufTy).Contents (Elt F) → (⟨S50000x1, .i32⟩ : BufTy).Contents (Elt F)),
    ternary main_v744 main_v745 main_v741 main_v746 ((fun x i u => Host.scatterAdd scatter_S100000_S50000x1_S50000_n_0_0_1 x i u) : (⟨S100000, .f32⟩ : BufTy).Contents (Elt F) → (⟨S50000x1, .i32⟩ : BufTy).Contents (Elt F) → (⟨S50000, .f32⟩ : BufTy).Contents (Elt F) → (⟨S100000, .f32⟩ : BufTy).Contents (Elt F)),
    nullary main_cst_117 (constant S_ .f32 0x3F800000#32),
    unary main_cst_117 main_v747 (broadcastInDim S100000 ![] bcast_S_S100000 : (⟨S_, .f32⟩ : BufTy).Contents (Elt F) → (⟨S100000, .f32⟩ : BufTy).Contents (Elt F)),
    binary main_v746 main_v747 main_v748 (maximumf : (⟨S100000, .f32⟩ : BufTy).Contents (Elt F) → (⟨S100000, .f32⟩ : BufTy).Contents (Elt F) → (⟨S100000, .f32⟩ : BufTy).Contents (Elt F)),
    unary main_v748 main_v749 (broadcastInDim S100000x1 ![0] bcast_S100000_S100000x1_0 : (⟨S100000, .f32⟩ : BufTy).Contents (Elt F) → (⟨S100000x1, .f32⟩ : BufTy).Contents (Elt F)),
    unary main_v749 main_v750 (broadcastInDim S100000x128 ![0, 1] bcast_S100000x1_S100000x128_0_1 : (⟨S100000x1, .f32⟩ : BufTy).Contents (Elt F) → (⟨S100000x128, .f32⟩ : BufTy).Contents (Elt F)),
    binary main_v740 main_v750 main_v751 (Host.divf : (⟨S100000x128, .f32⟩ : BufTy).Contents (Elt F) → (⟨S100000x128, .f32⟩ : BufTy).Contents (Elt F) → (⟨S100000x128, .f32⟩ : BufTy).Contents (Elt F)),
    binary main_v751 main_v722 main_v752 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v724 main_v753 (broadcastInDim S1x128 ![1] bcast_S128_S1x128_1 : (⟨S128, .f32⟩ : BufTy).Contents (Elt F) → (⟨S1x128, .f32⟩ : BufTy).Contents (Elt F)),
    unary main_v753 main_v754 (broadcastInDim S100000x128 ![0, 1] bcast_S1x128_S100000x128_0_1 : (⟨S1x128, .f32⟩ : BufTy).Contents (Elt F) → (⟨S100000x128, .f32⟩ : BufTy).Contents (Elt F)),
    binary main_v752 main_v754 main_v755 (addf : (⟨S100000x128, .f32⟩ : BufTy).Contents (Elt F) → (⟨S100000x128, .f32⟩ : BufTy).Contents (Elt F) → (⟨S100000x128, .f32⟩ : BufTy).Contents (Elt F)),
    binary main_v604 main_v726 main_v756 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v755 main_v756 main_v757 (addf : (⟨S100000x128, .f32⟩ : BufTy).Contents (Elt F) → (⟨S100000x128, .f32⟩ : BufTy).Contents (Elt F) → (⟨S100000x128, .f32⟩ : BufTy).Contents (Elt F)),
    binary main_v720 main_v757 main_v758 (addf : (⟨S100000x128, .f32⟩ : BufTy).Contents (Elt F) → (⟨S100000x128, .f32⟩ : BufTy).Contents (Elt F) → (⟨S100000x128, .f32⟩ : BufTy).Contents (Elt F)),
    unary main_arg4 main_v759 ((extractStridedSlice S1x1x128x128 ![2, 6, 0, 0] · slices_S3x8x128x128_S1x1x128x128_2_6_0_0) : (⟨S3x8x128x128, .f32⟩ : BufTy).Contents (Elt F) → (⟨S1x1x128x128, .f32⟩ : BufTy).Contents (Elt F)),
    reshape main_v759 main_v760 rfl shapeCasts_S1x1x128x128_S128x128,
    unary main_arg5 main_v761 ((extractStridedSlice S1x1x128 ![2, 6, 0] · slices_S3x8x128_S1x1x128_2_6_0) : (⟨S3x8x128, .f32⟩ : BufTy).Contents (Elt F) → (⟨S1x1x128, .f32⟩ : BufTy).Contents (Elt F)),
    reshape main_v761 main_v762 rfl shapeCasts_S1x1x128_S128,
    unary main_arg6 main_v763 ((extractStridedSlice S1x1x128x128 ![2, 6, 0, 0] · slices_S3x8x128x128_S1x1x128x128_2_6_0_0) : (⟨S3x8x128x128, .f32⟩ : BufTy).Contents (Elt F) → (⟨S1x1x128x128, .f32⟩ : BufTy).Contents (Elt F)),
    reshape main_v763 main_v764 rfl shapeCasts_S1x1x128x128_S128x128,
    unary main_arg21 main_v765 ((extractStridedSlice S1x5000 ![0, 0] · slices_S2x5000_S1x5000_0_0) : (⟨S2x5000, .i32⟩ : BufTy).Contents (Elt F) → (⟨S1x5000, .i32⟩ : BufTy).Contents (Elt F)),
    reshape main_v765 main_v766 rfl shapeCasts_S1x5000_S5000,
    nullary main_c_118 (constantI S_ 32 0#32),
    unary main_c_118 main_v767 (broadcastInDim S5000 ![] bcast_S_S5000 : (⟨S_, .i32⟩ : BufTy).Contents (Elt F) → (⟨S5000, .i32⟩ : BufTy).Contents (Elt F)),
    binary main_v766 main_v767 main_v768 (cmpi .slt : (⟨S5000, .i32⟩ : BufTy).Contents (Elt F) → (⟨S5000, .i32⟩ : BufTy).Contents (Elt F) → (⟨S5000, .i1⟩ : BufTy).Contents (Elt F)),
    nullary main_c_119 (constantI S_ 32 5000#32),
    unary main_c_119 main_v769 (broadcastInDim S5000 ![] bcast_S_S5000 : (⟨S_, .i32⟩ : BufTy).Contents (Elt F) → (⟨S5000, .i32⟩ : BufTy).Contents (Elt F)),
    binary main_v766 main_v769 main_v770 (addi : (⟨S5000, .i32⟩ : BufTy).Contents (Elt F) → (⟨S5000, .i32⟩ : BufTy).Contents (Elt F) → (⟨S5000, .i32⟩ : BufTy).Contents (Elt F)),
    ternary main_v768 main_v770 main_v766 main_v771 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v771 main_v772 (broadcastInDim S5000x1 ![0] bcast_S5000_S5000x1_0 : (⟨S5000, .i32⟩ : BufTy).Contents (Elt F) → (⟨S5000x1, .i32⟩ : BufTy).Contents (Elt F)),
    binary main_v607 main_v772 main_v773 ((fun x i => Host.gather gather_S5000x128_S5000x1_S5000x128_1_0_n_n_0_1_1128 x i) : (⟨S5000x128, .f32⟩ : BufTy).Contents (Elt F) → (⟨S5000x1, .i32⟩ : BufTy).Contents (Elt F) → (⟨S5000x128, .f32⟩ : BufTy).Contents (Elt F)),
    unary main_arg21 main_v774 ((extractStridedSlice S1x5000 ![1, 0] · slices_S2x5000_S1x5000_1_0) : (⟨S2x5000, .i32⟩ : BufTy).Contents (Elt F) → (⟨S1x5000, .i32⟩ : BufTy).Contents (Elt F)),
    reshape main_v774 main_v775 rfl shapeCasts_S1x5000_S5000,
    nullary main_cst_120 (constant S_ .f32 0x00000000#32),
    unary main_cst_120 main_v776 (broadcastInDim S100000x128 ![] bcast_S_S100000x128 : (⟨S_, .f32⟩ : BufTy).Contents (Elt F) → (⟨S100000x128, .f32⟩ : BufTy).Contents (Elt F)) ]

set_option maxRecDepth 8192 in
set_option maxHeartbeats 4000000 in
theorem main_part14_eq (c : Dev nD) : main_part14 (F := F) c = seq rw14 := rfl

set_option maxRecDepth 8192 in
theorem rw14_sub : (rw14 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub ..⟩

set_option maxRecDepth 8192 in
theorem rw14_fresh' : (rw14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw14_fresh : ∀ op ∈ (rw14 : List (HloOp τ sig (Elt F))), op.fresh = ∅ :=
  List.forall_iff_forall_mem.mp rw14_fresh'

/-- The 60 operations of @main's window 15 (operations 917 … 976 of 1102), in order. -/
abbrev rw15 : List (HloOp τ sig (Elt F)) :=
  [ unary main_v775 main_v777 (broadcastInDim S5000x1 ![0] bcast_S5000_S5000x1_0 : (⟨S5000, .i32⟩ : BufTy).Contents (Elt F) → (⟨S5000x1, .i32⟩ : BufTy).Contents (Elt F)),
    ternary main_v776 main_v777 main_v773 main_v778 ((fun x i u => Host.scatterAdd scatter_S100000x128_S5000x1_S5000x128_1_0_0_1 x i u) : (⟨S100000x128, .f32⟩ : BufTy).Contents (Elt F) → (⟨S5000x1, .i32⟩ : BufTy).Contents (Elt F) → (⟨S5000x128, .f32⟩ : BufTy).Contents (Elt F) → (⟨S100000x128, .f32⟩ : BufTy).Contents (Elt F)),
    nullary main_cst_121 (constant S_ .f32 0x3F800000#32),
    unary main_cst_121 main_v779 (broadcastInDim S5000 ![] bcast_S_S5000 : (⟨S_, .f32⟩ : BufTy).Contents (Elt F) → (⟨S5000, .f32⟩ : BufTy).Contents (Elt F)),
    unary main_arg21 main_v780 ((extractStridedSlice S1x5000 ![1, 0] · slices_S2x5000_S1x5000_1_0) : (⟨S2x5000, .i32⟩ : BufTy).Contents (Elt F) → (⟨S1x5000, .i32⟩ : BufTy).Contents (Elt F)),
    reshape main_v780 main_v781 rfl shapeCasts_S1x5000_S5000,
    nullary main_cst_122 (constant S_ .f32 0x00000000#32),
    unary main_cst_122 main_v782 (broadcastInDim S100000 ![] bcast_S_S100000 : (⟨S_, .f32⟩ : BufTy).Contents (Elt F) → (⟨S100000, .f32⟩ : BufTy).Contents (Elt F)),
    unary main_v781 main_v783 (broadcastInDim S5000x1 ![0] bcast_S5000_S5000x1_0 : (⟨S5000, .i32⟩ : BufTy).Contents (Elt F) → (⟨S5000x1, .i32⟩ : BufTy).Contents (Elt F)),
    ternary main_v782 main_v783 main_v779 main_v784 ((fun x i u => Host.scatterAdd scatter_S100000_S5000x1_S5000_n_0_0_1 x i u) : (⟨S100000, .f32⟩ : BufTy).Contents (Elt F) → (⟨S5000x1, .i32⟩ : BufTy).Contents (Elt F) → (⟨S5000, .f32⟩ : BufTy).Contents (Elt F) → (⟨S100000, .f32⟩ : BufTy).Contents (Elt F)),
    nullary main_cst_123 (constant S_ .f32 0x3F800000#32),
    unary main_cst_123 main_v785 (broadcastInDim S100000 ![] bcast_S_S100000 : (⟨S_, .f32⟩ : BufTy).Contents (Elt F) → (⟨S100000, .f32⟩ : BufTy).Contents (Elt F)),
    binary main_v784 main_v785 main_v786 (maximumf : (⟨S100000, .f32⟩ : BufTy).Contents (Elt F) → (⟨S100000, .f32⟩ : BufTy).Contents (Elt F) → (⟨S100000, .f32⟩ : BufTy).Contents (Elt F)),
    unary main_v786 main_v787 (broadcastInDim S100000x1 ![0] bcast_S100000_S100000x1_0 : (⟨S100000, .f32⟩ : BufTy).Contents (Elt F) → (⟨S100000x1, .f32⟩ : BufTy).Contents (Elt F)),
    unary main_v787 main_v788 (broadcastInDim S100000x128 ![0, 1] bcast_S100000x1_S100000x128_0_1 : (⟨S100000x1, .f32⟩ : BufTy).Contents (Elt F) → (⟨S100000x128, .f32⟩ : BufTy).Contents (Elt F)),
    binary main_v778 main_v788 main_v789 (Host.divf : (⟨S100000x128, .f32⟩ : BufTy).Contents (Elt F) → (⟨S100000x128, .f32⟩ : BufTy).Contents (Elt F) → (⟨S100000x128, .f32⟩ : BufTy).Contents (Elt F)),
    binary main_v789 main_v760 main_v790 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v762 main_v791 (broadcastInDim S1x128 ![1] bcast_S128_S1x128_1 : (⟨S128, .f32⟩ : BufTy).Contents (Elt F) → (⟨S1x128, .f32⟩ : BufTy).Contents (Elt F)),
    unary main_v791 main_v792 (broadcastInDim S100000x128 ![0, 1] bcast_S1x128_S100000x128_0_1 : (⟨S1x128, .f32⟩ : BufTy).Contents (Elt F) → (⟨S100000x128, .f32⟩ : BufTy).Contents (Elt F)),
    binary main_v790 main_v792 main_v793 (addf : (⟨S100000x128, .f32⟩ : BufTy).Contents (Elt F) → (⟨S100000x128, .f32⟩ : BufTy).Contents (Elt F) → (⟨S100000x128, .f32⟩ : BufTy).Contents (Elt F)),
    binary main_v604 main_v764 main_v794 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v793 main_v794 main_v795 (addf : (⟨S100000x128, .f32⟩ : BufTy).Contents (Elt F) → (⟨S100000x128, .f32⟩ : BufTy).Contents (Elt F) → (⟨S100000x128, .f32⟩ : BufTy).Contents (Elt F)),
    binary main_v758 main_v795 main_v796 (addf : (⟨S100000x128, .f32⟩ : BufTy).Contents (Elt F) → (⟨S100000x128, .f32⟩ : BufTy).Contents (Elt F) → (⟨S100000x128, .f32⟩ : BufTy).Contents (Elt F)),
    unary main_arg4 main_v797 ((extractStridedSlice S1x1x128x128 ![2, 3, 0, 0] · slices_S3x8x128x128_S1x1x128x128_2_3_0_0) : (⟨S3x8x128x128, .f32⟩ : BufTy).Contents (Elt F) → (⟨S1x1x128x128, .f32⟩ : BufTy).Contents (Elt F)),
    reshape main_v797 main_v798 rfl shapeCasts_S1x1x128x128_S128x128,
    unary main_arg5 main_v799 ((extractStridedSlice S1x1x128 ![2, 3, 0] · slices_S3x8x128_S1x1x128_2_3_0) : (⟨S3x8x128, .f32⟩ : BufTy).Contents (Elt F) → (⟨S1x1x128, .f32⟩ : BufTy).Contents (Elt F)),
    reshape main_v799 main_v800 rfl shapeCasts_S1x1x128_S128,
    unary main_arg6 main_v801 ((extractStridedSlice S1x1x128x128 ![2, 3, 0, 0] · slices_S3x8x128x128_S1x1x128x128_2_3_0_0) : (⟨S3x8x128x128, .f32⟩ : BufTy).Contents (Elt F) → (⟨S1x1x128x128, .f32⟩ : BufTy).Contents (Elt F)),
    reshape main_v801 main_v802 rfl shapeCasts_S1x1x128x128_S128x128,
    unary main_arg18 main_v803 ((extractStridedSlice S1x20000 ![0, 0] · slices_S2x20000_S1x20000_0_0) : (⟨S2x20000, .i32⟩ : BufTy).Contents (Elt F) → (⟨S1x20000, .i32⟩ : BufTy).Contents (Elt F)),
    reshape main_v803 main_v804 rfl shapeCasts_S1x20000_S20000,
    nullary main_c_124 (constantI S_ 32 0#32),
    unary main_c_124 main_v805 (broadcastInDim S20000 ![] bcast_S_S20000 : (⟨S_, .i32⟩ : BufTy).Contents (Elt F) → (⟨S20000, .i32⟩ : BufTy).Contents (Elt F)),
    binary main_v804 main_v805 main_v806 (cmpi .slt : (⟨S20000, .i32⟩ : BufTy).Contents (Elt F) → (⟨S20000, .i32⟩ : BufTy).Contents (Elt F) → (⟨S20000, .i1⟩ : BufTy).Contents (Elt F)),
    nullary main_c_125 (constantI S_ 32 100000#32),
    unary main_c_125 main_v807 (broadcastInDim S20000 ![] bcast_S_S20000 : (⟨S_, .i32⟩ : BufTy).Contents (Elt F) → (⟨S20000, .i32⟩ : BufTy).Contents (Elt F)),
    binary main_v804 main_v807 main_v808 (addi : (⟨S20000, .i32⟩ : BufTy).Contents (Elt F) → (⟨S20000, .i32⟩ : BufTy).Contents (Elt F) → (⟨S20000, .i32⟩ : BufTy).Contents (Elt F)),
    ternary main_v806 main_v808 main_v804 main_v809 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v809 main_v810 (broadcastInDim S20000x1 ![0] bcast_S20000_S20000x1_0 : (⟨S20000, .i32⟩ : BufTy).Contents (Elt F) → (⟨S20000x1, .i32⟩ : BufTy).Contents (Elt F)),
    binary main_v604 main_v810 main_v811 ((fun x i => Host.gather gather_S100000x128_S20000x1_S20000x128_1_0_n_n_0_1_1128 x i) : (⟨S100000x128, .f32⟩ : BufTy).Contents (Elt F) → (⟨S20000x1, .i32⟩ : BufTy).Contents (Elt F) → (⟨S20000x128, .f32⟩ : BufTy).Contents (Elt F)),
    unary main_arg18 main_v812 ((extractStridedSlice S1x20000 ![1, 0] · slices_S2x20000_S1x20000_1_0) : (⟨S2x20000, .i32⟩ : BufTy).Contents (Elt F) → (⟨S1x20000, .i32⟩ : BufTy).Contents (Elt F)),
    reshape main_v812 main_v813 rfl shapeCasts_S1x20000_S20000,
    nullary main_cst_126 (constant S_ .f32 0x00000000#32),
    unary main_cst_126 main_v814 (broadcastInDim S20000x128 ![] bcast_S_S20000x128 : (⟨S_, .f32⟩ : BufTy).Contents (Elt F) → (⟨S20000x128, .f32⟩ : BufTy).Contents (Elt F)),
    unary main_v813 main_v815 (broadcastInDim S20000x1 ![0] bcast_S20000_S20000x1_0 : (⟨S20000, .i32⟩ : BufTy).Contents (Elt F) → (⟨S20000x1, .i32⟩ : BufTy).Contents (Elt F)),
    ternary main_v814 main_v815 main_v811 main_v816 ((fun x i u => Host.scatterAdd scatter_S20000x128_S20000x1_S20000x128_1_0_0_1 x i u) : (⟨S20000x128, .f32⟩ : BufTy).Contents (Elt F) → (⟨S20000x1, .i32⟩ : BufTy).Contents (Elt F) → (⟨S20000x128, .f32⟩ : BufTy).Contents (Elt F) → (⟨S20000x128, .f32⟩ : BufTy).Contents (Elt F)),
    nullary main_cst_127 (constant S_ .f32 0x3F800000#32),
    unary main_cst_127 main_v817 (broadcastInDim S20000 ![] bcast_S_S20000 : (⟨S_, .f32⟩ : BufTy).Contents (Elt F) → (⟨S20000, .f32⟩ : BufTy).Contents (Elt F)),
    unary main_arg18 main_v818 ((extractStridedSlice S1x20000 ![1, 0] · slices_S2x20000_S1x20000_1_0) : (⟨S2x20000, .i32⟩ : BufTy).Contents (Elt F) → (⟨S1x20000, .i32⟩ : BufTy).Contents (Elt F)),
    reshape main_v818 main_v819 rfl shapeCasts_S1x20000_S20000,
    nullary main_cst_128 (constant S_ .f32 0x00000000#32),
    unary main_cst_128 main_v820 (broadcastInDim S20000 ![] bcast_S_S20000 : (⟨S_, .f32⟩ : BufTy).Contents (Elt F) → (⟨S20000, .f32⟩ : BufTy).Contents (Elt F)),
    unary main_v819 main_v821 (broadcastInDim S20000x1 ![0] bcast_S20000_S20000x1_0 : (⟨S20000, .i32⟩ : BufTy).Contents (Elt F) → (⟨S20000x1, .i32⟩ : BufTy).Contents (Elt F)),
    ternary main_v820 main_v821 main_v817 main_v822 ((fun x i u => Host.scatterAdd scatter_S20000_S20000x1_S20000_n_0_0_1 x i u) : (⟨S20000, .f32⟩ : BufTy).Contents (Elt F) → (⟨S20000x1, .i32⟩ : BufTy).Contents (Elt F) → (⟨S20000, .f32⟩ : BufTy).Contents (Elt F) → (⟨S20000, .f32⟩ : BufTy).Contents (Elt F)),
    nullary main_cst_129 (constant S_ .f32 0x3F800000#32),
    unary main_cst_129 main_v823 (broadcastInDim S20000 ![] bcast_S_S20000 : (⟨S_, .f32⟩ : BufTy).Contents (Elt F) → (⟨S20000, .f32⟩ : BufTy).Contents (Elt F)),
    binary main_v822 main_v823 main_v824 (maximumf : (⟨S20000, .f32⟩ : BufTy).Contents (Elt F) → (⟨S20000, .f32⟩ : BufTy).Contents (Elt F) → (⟨S20000, .f32⟩ : BufTy).Contents (Elt F)),
    unary main_v824 main_v825 (broadcastInDim S20000x1 ![0] bcast_S20000_S20000x1_0 : (⟨S20000, .f32⟩ : BufTy).Contents (Elt F) → (⟨S20000x1, .f32⟩ : BufTy).Contents (Elt F)),
    unary main_v825 main_v826 (broadcastInDim S20000x128 ![0, 1] bcast_S20000x1_S20000x128_0_1 : (⟨S20000x1, .f32⟩ : BufTy).Contents (Elt F) → (⟨S20000x128, .f32⟩ : BufTy).Contents (Elt F)),
    binary main_v816 main_v826 main_v827 (Host.divf : (⟨S20000x128, .f32⟩ : BufTy).Contents (Elt F) → (⟨S20000x128, .f32⟩ : BufTy).Contents (Elt F) → (⟨S20000x128, .f32⟩ : BufTy).Contents (Elt F)) ]

set_option maxRecDepth 8192 in
set_option maxHeartbeats 4000000 in
theorem main_part15_eq (c : Dev nD) : main_part15 (F := F) c = seq rw15 := rfl

set_option maxRecDepth 8192 in
theorem rw15_sub : (rw15 : List (HloOp τ sig (Elt F))).Forall fun op => op.bufs ⊆ tcRefs τ sig :=
  ⟨unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
theorem rw15_fresh' : (rw15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw15_fresh : ∀ op ∈ (rw15 : List (HloOp τ sig (Elt F))), op.fresh = ∅ :=
  List.forall_iff_forall_mem.mp rw15_fresh'

/-- The 60 operations of @main's window 16 (operations 977 … 1036 of 1102), in order. -/
abbrev rw16 : List (HloOp τ sig (Elt F)) :=
  [ binary main_v827 main_v798 main_v828 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v800 main_v829 (broadcastInDim S1x128 ![1] bcast_S128_S1x128_1 : (⟨S128, .f32⟩ : BufTy).Contents (Elt F) → (⟨S1x128, .f32⟩ : BufTy).Contents (Elt F)),
    unary main_v829 main_v830 (broadcastInDim S20000x128 ![0, 1] bcast_S1x128_S20000x128_0_1 : (⟨S1x128, .f32⟩ : BufTy).Contents (Elt F) → (⟨S20000x128, .f32⟩ : BufTy).Contents (Elt F)),
    binary main_v828 main_v830 main_v831 (addf : (⟨S20000x128, .f32⟩ : BufTy).Contents (Elt F) → (⟨S20000x128, .f32⟩ : BufTy).Contents (Elt F) → (⟨S20000x128, .f32⟩ : BufTy).Contents (Elt F)),
    binary main_v605 main_v802 main_v832 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v831 main_v832 main_v833 (addf : (⟨S20000x128, .f32⟩ : BufTy).Contents (Elt F) → (⟨S20000x128, .f32⟩ : BufTy).Contents (Elt F) → (⟨S20000x128, .f32⟩ : BufTy).Contents (Elt F)),
    unary main_arg4 main_v834 ((extractStridedSlice S1x1x128x128 ![2, 5, 0, 0] · slices_S3x8x128x128_S1x1x128x128_2_5_0_0) : (⟨S3x8x128x128, .f32⟩ : BufTy).Contents (Elt F) → (⟨S1x1x128x128, .f32⟩ : BufTy).Contents (Elt F)),
    reshape main_v834 main_v835 rfl shapeCasts_S1x1x128x128_S128x128,
    unary main_arg5 main_v836 ((extractStridedSlice S1x1x128 ![2, 5, 0] · slices_S3x8x128_S1x1x128_2_5_0) : (⟨S3x8x128, .f32⟩ : BufTy).Contents (Elt F) → (⟨S1x1x128, .f32⟩ : BufTy).Contents (Elt F)),
    reshape main_v836 main_v837 rfl shapeCasts_S1x1x128_S128,
    unary main_arg6 main_v838 ((extractStridedSlice S1x1x128x128 ![2, 5, 0, 0] · slices_S3x8x128x128_S1x1x128x128_2_5_0_0) : (⟨S3x8x128x128, .f32⟩ : BufTy).Contents (Elt F) → (⟨S1x1x128x128, .f32⟩ : BufTy).Contents (Elt F)),
    reshape main_v838 main_v839 rfl shapeCasts_S1x1x128x128_S128x128,
    unary main_arg20 main_v840 ((extractStridedSlice S1x50000 ![0, 0] · slices_S2x50000_S1x50000_0_0) : (⟨S2x50000, .i32⟩ : BufTy).Contents (Elt F) → (⟨S1x50000, .i32⟩ : BufTy).Contents (Elt F)),
    reshape main_v840 main_v841 rfl shapeCasts_S1x50000_S50000,
    nullary main_c_130 (constantI S_ 32 0#32),
    unary main_c_130 main_v842 (broadcastInDim S50000 ![] bcast_S_S50000 : (⟨S_, .i32⟩ : BufTy).Contents (Elt F) → (⟨S50000, .i32⟩ : BufTy).Contents (Elt F)),
    binary main_v841 main_v842 main_v843 (cmpi .slt : (⟨S50000, .i32⟩ : BufTy).Contents (Elt F) → (⟨S50000, .i32⟩ : BufTy).Contents (Elt F) → (⟨S50000, .i1⟩ : BufTy).Contents (Elt F)),
    nullary main_c_131 (constantI S_ 32 100000#32),
    unary main_c_131 main_v844 (broadcastInDim S50000 ![] bcast_S_S50000 : (⟨S_, .i32⟩ : BufTy).Contents (Elt F) → (⟨S50000, .i32⟩ : BufTy).Contents (Elt F)),
    binary main_v841 main_v844 main_v845 (addi : (⟨S50000, .i32⟩ : BufTy).Contents (Elt F) → (⟨S50000, .i32⟩ : BufTy).Contents (Elt F) → (⟨S50000, .i32⟩ : BufTy).Contents (Elt F)),
    ternary main_v843 main_v845 main_v841 main_v846 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v846 main_v847 (broadcastInDim S50000x1 ![0] bcast_S50000_S50000x1_0 : (⟨S50000, .i32⟩ : BufTy).Contents (Elt F) → (⟨S50000x1, .i32⟩ : BufTy).Contents (Elt F)),
    binary main_v604 main_v847 main_v848 ((fun x i => Host.gather gather_S100000x128_S50000x1_S50000x128_1_0_n_n_0_1_1128 x i) : (⟨S100000x128, .f32⟩ : BufTy).Contents (Elt F) → (⟨S50000x1, .i32⟩ : BufTy).Contents (Elt F) → (⟨S50000x128, .f32⟩ : BufTy).Contents (Elt F)),
    unary main_arg20 main_v849 ((extractStridedSlice S1x50000 ![1, 0] · slices_S2x50000_S1x50000_1_0) : (⟨S2x50000, .i32⟩ : BufTy).Contents (Elt F) → (⟨S1x50000, .i32⟩ : BufTy).Contents (Elt F)),
    reshape main_v849 main_v850 rfl shapeCasts_S1x50000_S50000,
    nullary main_cst_132 (constant S_ .f32 0x00000000#32),
    unary main_cst_132 main_v851 (broadcastInDim S50000x128 ![] bcast_S_S50000x128 : (⟨S_, .f32⟩ : BufTy).Contents (Elt F) → (⟨S50000x128, .f32⟩ : BufTy).Contents (Elt F)),
    unary main_v850 main_v852 (broadcastInDim S50000x1 ![0] bcast_S50000_S50000x1_0 : (⟨S50000, .i32⟩ : BufTy).Contents (Elt F) → (⟨S50000x1, .i32⟩ : BufTy).Contents (Elt F)),
    ternary main_v851 main_v852 main_v848 main_v853 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    nullary main_cst_133 (constant S_ .f32 0x3F800000#32),
    unary main_cst_133 main_v854 (broadcastInDim S50000 ![] bcast_S_S50000 : (⟨S_, .f32⟩ : BufTy).Contents (Elt F) → (⟨S50000, .f32⟩ : BufTy).Contents (Elt F)),
    unary main_arg20 main_v855 ((extractStridedSlice S1x50000 ![1, 0] · slices_S2x50000_S1x50000_1_0) : (⟨S2x50000, .i32⟩ : BufTy).Contents (Elt F) → (⟨S1x50000, .i32⟩ : BufTy).Contents (Elt F)),
    reshape main_v855 main_v856 rfl shapeCasts_S1x50000_S50000,
    nullary main_cst_134 (constant S_ .f32 0x00000000#32),
    unary main_cst_134 main_v857 (broadcastInDim S50000 ![] bcast_S_S50000 : (⟨S_, .f32⟩ : BufTy).Contents (Elt F) → (⟨S50000, .f32⟩ : BufTy).Contents (Elt F)),
    unary main_v856 main_v858 (broadcastInDim S50000x1 ![0] bcast_S50000_S50000x1_0 : (⟨S50000, .i32⟩ : BufTy).Contents (Elt F) → (⟨S50000x1, .i32⟩ : BufTy).Contents (Elt F)),
    ternary main_v857 main_v858 main_v854 main_v859 ((fun x i u => Host.scatterAdd scatter_S50000_S50000x1_S50000_n_0_0_1 x i u) : (⟨S50000, .f32⟩ : BufTy).Contents (Elt F) → (⟨S50000x1, .i32⟩ : BufTy).Contents (Elt F) → (⟨S50000, .f32⟩ : BufTy).Contents (Elt F) → (⟨S50000, .f32⟩ : BufTy).Contents (Elt F)),
    nullary main_cst_135 (constant S_ .f32 0x3F800000#32),
    unary main_cst_135 main_v860 (broadcastInDim S50000 ![] bcast_S_S50000 : (⟨S_, .f32⟩ : BufTy).Contents (Elt F) → (⟨S50000, .f32⟩ : BufTy).Contents (Elt F)),
    binary main_v859 main_v860 main_v861 (maximumf : (⟨S50000, .f32⟩ : BufTy).Contents (Elt F) → (⟨S50000, .f32⟩ : BufTy).Contents (Elt F) → (⟨S50000, .f32⟩ : BufTy).Contents (Elt F)),
    unary main_v861 main_v862 (broadcastInDim S50000x1 ![0] bcast_S50000_S50000x1_0 : (⟨S50000, .f32⟩ : BufTy).Contents (Elt F) → (⟨S50000x1, .f32⟩ : BufTy).Contents (Elt F)),
    unary main_v862 main_v863 (broadcastInDim S50000x128 ![0, 1] bcast_S50000x1_S50000x128_0_1 : (⟨S50000x1, .f32⟩ : BufTy).Contents (Elt F) → (⟨S50000x128, .f32⟩ : BufTy).Contents (Elt F)),
    binary main_v853 main_v863 main_v864 (Host.divf : (⟨S50000x128, .f32⟩ : BufTy).Contents (Elt F) → (⟨S50000x128, .f32⟩ : BufTy).Contents (Elt F) → (⟨S50000x128, .f32⟩ : BufTy).Contents (Elt F)),
    binary main_v864 main_v835 main_v865 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v837 main_v866 (broadcastInDim S1x128 ![1] bcast_S128_S1x128_1 : (⟨S128, .f32⟩ : BufTy).Contents (Elt F) → (⟨S1x128, .f32⟩ : BufTy).Contents (Elt F)),
    unary main_v866 main_v867 (broadcastInDim S50000x128 ![0, 1] bcast_S1x128_S50000x128_0_1 : (⟨S1x128, .f32⟩ : BufTy).Contents (Elt F) → (⟨S50000x128, .f32⟩ : BufTy).Contents (Elt F)),
    binary main_v865 main_v867 main_v868 (addf : (⟨S50000x128, .f32⟩ : BufTy).Contents (Elt F) → (⟨S50000x128, .f32⟩ : BufTy).Contents (Elt F) → (⟨S50000x128, .f32⟩ : BufTy).Contents (Elt F)),
    binary main_v606 main_v839 main_v869 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v868 main_v869 main_v870 (addf : (⟨S50000x128, .f32⟩ : BufTy).Contents (Elt F) → (⟨S50000x128, .f32⟩ : BufTy).Contents (Elt F) → (⟨S50000x128, .f32⟩ : BufTy).Contents (Elt F)),
    unary main_arg4 main_v871 ((extractStridedSlice S1x1x128x128 ![2, 7, 0, 0] · slices_S3x8x128x128_S1x1x128x128_2_7_0_0) : (⟨S3x8x128x128, .f32⟩ : BufTy).Contents (Elt F) → (⟨S1x1x128x128, .f32⟩ : BufTy).Contents (Elt F)),
    reshape main_v871 main_v872 rfl shapeCasts_S1x1x128x128_S128x128,
    unary main_arg5 main_v873 ((extractStridedSlice S1x1x128 ![2, 7, 0] · slices_S3x8x128_S1x1x128_2_7_0) : (⟨S3x8x128, .f32⟩ : BufTy).Contents (Elt F) → (⟨S1x1x128, .f32⟩ : BufTy).Contents (Elt F)),
    reshape main_v873 main_v874 rfl shapeCasts_S1x1x128_S128,
    unary main_arg6 main_v875 ((extractStridedSlice S1x1x128x128 ![2, 7, 0, 0] · slices_S3x8x128x128_S1x1x128x128_2_7_0_0) : (⟨S3x8x128x128, .f32⟩ : BufTy).Contents (Elt F) → (⟨S1x1x128x128, .f32⟩ : BufTy).Contents (Elt F)),
    reshape main_v875 main_v876 rfl shapeCasts_S1x1x128x128_S128x128,
    unary main_arg22 main_v877 ((extractStridedSlice S1x5000 ![0, 0] · slices_S2x5000_S1x5000_0_0) : (⟨S2x5000, .i32⟩ : BufTy).Contents (Elt F) → (⟨S1x5000, .i32⟩ : BufTy).Contents (Elt F)),
    reshape main_v877 main_v878 rfl shapeCasts_S1x5000_S5000,
    nullary main_c_136 (constantI S_ 32 0#32),
    unary main_c_136 main_v879 (broadcastInDim S5000 ![] bcast_S_S5000 : (⟨S_, .i32⟩ : BufTy).Contents (Elt F) → (⟨S5000, .i32⟩ : BufTy).Contents (Elt F)),
    binary main_v878 main_v879 main_v880 (cmpi .slt : (⟨S5000, .i32⟩ : BufTy).Contents (Elt F) → (⟨S5000, .i32⟩ : BufTy).Contents (Elt F) → (⟨S5000, .i1⟩ : BufTy).Contents (Elt F)) ]

set_option maxRecDepth 8192 in
set_option maxHeartbeats 4000000 in
theorem main_part16_eq (c : Dev nD) : main_part16 (F := F) c = seq rw16 := rfl

set_option maxRecDepth 8192 in
theorem rw16_sub : (rw16 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub ..⟩

set_option maxRecDepth 8192 in
theorem rw16_fresh' : (rw16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw16_fresh : ∀ op ∈ (rw16 : List (HloOp τ sig (Elt F))), op.fresh = ∅ :=
  List.forall_iff_forall_mem.mp rw16_fresh'

/-- The 66 operations of @main's window 17 (operations 1037 … 1102 of 1102), in order. -/
abbrev rw17 : List (HloOp τ sig (Elt F)) :=
  [ nullary main_c_137 (constantI S_ 32 100000#32),
    unary main_c_137 main_v881 (broadcastInDim S5000 ![] bcast_S_S5000 : (⟨S_, .i32⟩ : BufTy).Contents (Elt F) → (⟨S5000, .i32⟩ : BufTy).Contents (Elt F)),
    binary main_v878 main_v881 main_v882 (addi : (⟨S5000, .i32⟩ : BufTy).Contents (Elt F) → (⟨S5000, .i32⟩ : BufTy).Contents (Elt F) → (⟨S5000, .i32⟩ : BufTy).Contents (Elt F)),
    ternary main_v880 main_v882 main_v878 main_v883 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v883 main_v884 (broadcastInDim S5000x1 ![0] bcast_S5000_S5000x1_0 : (⟨S5000, .i32⟩ : BufTy).Contents (Elt F) → (⟨S5000x1, .i32⟩ : BufTy).Contents (Elt F)),
    binary main_v604 main_v884 main_v885 ((fun x i => Host.gather gather_S100000x128_S5000x1_S5000x128_1_0_n_n_0_1_1128 x i) : (⟨S100000x128, .f32⟩ : BufTy).Contents (Elt F) → (⟨S5000x1, .i32⟩ : BufTy).Contents (Elt F) → (⟨S5000x128, .f32⟩ : BufTy).Contents (Elt F)),
    unary main_arg22 main_v886 ((extractStridedSlice S1x5000 ![1, 0] · slices_S2x5000_S1x5000_1_0) : (⟨S2x5000, .i32⟩ : BufTy).Contents (Elt F) → (⟨S1x5000, .i32⟩ : BufTy).Contents (Elt F)),
    reshape main_v886 main_v887 rfl shapeCasts_S1x5000_S5000,
    nullary main_cst_138 (constant S_ .f32 0x00000000#32),
    unary main_cst_138 main_v888 (broadcastInDim S5000x128 ![] bcast_S_S5000x128 : (⟨S_, .f32⟩ : BufTy).Contents (Elt F) → (⟨S5000x128, .f32⟩ : BufTy).Contents (Elt F)),
    unary main_v887 main_v889 (broadcastInDim S5000x1 ![0] bcast_S5000_S5000x1_0 : (⟨S5000, .i32⟩ : BufTy).Contents (Elt F) → (⟨S5000x1, .i32⟩ : BufTy).Contents (Elt F)),
    ternary main_v888 main_v889 main_v885 main_v890 ((fun x i u => Host.scatterAdd scatter_S5000x128_S5000x1_S5000x128_1_0_0_1 x i u) : (⟨S5000x128, .f32⟩ : BufTy).Contents (Elt F) → (⟨S5000x1, .i32⟩ : BufTy).Contents (Elt F) → (⟨S5000x128, .f32⟩ : BufTy).Contents (Elt F) → (⟨S5000x128, .f32⟩ : BufTy).Contents (Elt F)),
    nullary main_cst_139 (constant S_ .f32 0x3F800000#32),
    unary main_cst_139 main_v891 (broadcastInDim S5000 ![] bcast_S_S5000 : (⟨S_, .f32⟩ : BufTy).Contents (Elt F) → (⟨S5000, .f32⟩ : BufTy).Contents (Elt F)),
    unary main_arg22 main_v892 ((extractStridedSlice S1x5000 ![1, 0] · slices_S2x5000_S1x5000_1_0) : (⟨S2x5000, .i32⟩ : BufTy).Contents (Elt F) → (⟨S1x5000, .i32⟩ : BufTy).Contents (Elt F)),
    reshape main_v892 main_v893 rfl shapeCasts_S1x5000_S5000,
    nullary main_cst_140 (constant S_ .f32 0x00000000#32),
    unary main_cst_140 main_v894 (broadcastInDim S5000 ![] bcast_S_S5000 : (⟨S_, .f32⟩ : BufTy).Contents (Elt F) → (⟨S5000, .f32⟩ : BufTy).Contents (Elt F)),
    unary main_v893 main_v895 (broadcastInDim S5000x1 ![0] bcast_S5000_S5000x1_0 : (⟨S5000, .i32⟩ : BufTy).Contents (Elt F) → (⟨S5000x1, .i32⟩ : BufTy).Contents (Elt F)),
    ternary main_v894 main_v895 main_v891 main_v896 ((fun x i u => Host.scatterAdd scatter_S5000_S5000x1_S5000_n_0_0_1 x i u) : (⟨S5000, .f32⟩ : BufTy).Contents (Elt F) → (⟨S5000x1, .i32⟩ : BufTy).Contents (Elt F) → (⟨S5000, .f32⟩ : BufTy).Contents (Elt F) → (⟨S5000, .f32⟩ : BufTy).Contents (Elt F)),
    nullary main_cst_141 (constant S_ .f32 0x3F800000#32),
    unary main_cst_141 main_v897 (broadcastInDim S5000 ![] bcast_S_S5000 : (⟨S_, .f32⟩ : BufTy).Contents (Elt F) → (⟨S5000, .f32⟩ : BufTy).Contents (Elt F)),
    binary main_v896 main_v897 main_v898 (maximumf : (⟨S5000, .f32⟩ : BufTy).Contents (Elt F) → (⟨S5000, .f32⟩ : BufTy).Contents (Elt F) → (⟨S5000, .f32⟩ : BufTy).Contents (Elt F)),
    unary main_v898 main_v899 (broadcastInDim S5000x1 ![0] bcast_S5000_S5000x1_0 : (⟨S5000, .f32⟩ : BufTy).Contents (Elt F) → (⟨S5000x1, .f32⟩ : BufTy).Contents (Elt F)),
    unary main_v899 main_v900 (broadcastInDim S5000x128 ![0, 1] bcast_S5000x1_S5000x128_0_1 : (⟨S5000x1, .f32⟩ : BufTy).Contents (Elt F) → (⟨S5000x128, .f32⟩ : BufTy).Contents (Elt F)),
    binary main_v890 main_v900 main_v901 (Host.divf : (⟨S5000x128, .f32⟩ : BufTy).Contents (Elt F) → (⟨S5000x128, .f32⟩ : BufTy).Contents (Elt F) → (⟨S5000x128, .f32⟩ : BufTy).Contents (Elt F)),
    binary main_v901 main_v872 main_v902 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v874 main_v903 (broadcastInDim S1x128 ![1] bcast_S128_S1x128_1 : (⟨S128, .f32⟩ : BufTy).Contents (Elt F) → (⟨S1x128, .f32⟩ : BufTy).Contents (Elt F)),
    unary main_v903 main_v904 (broadcastInDim S5000x128 ![0, 1] bcast_S1x128_S5000x128_0_1 : (⟨S1x128, .f32⟩ : BufTy).Contents (Elt F) → (⟨S5000x128, .f32⟩ : BufTy).Contents (Elt F)),
    binary main_v902 main_v904 main_v905 (addf : (⟨S5000x128, .f32⟩ : BufTy).Contents (Elt F) → (⟨S5000x128, .f32⟩ : BufTy).Contents (Elt F) → (⟨S5000x128, .f32⟩ : BufTy).Contents (Elt F)),
    binary main_v607 main_v876 main_v906 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v905 main_v906 main_v907 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v796) (TRef.of (T := ⟨S100000x128, .f32⟩) main_call8_v0) (TRef.of (T := ⟨S100000x128, .f32⟩) main_v908) maximumf,
    TRef.nullary (TRef.of (T := ⟨S_, .f32⟩) main_call9_cst) (constant S_ .f32 0x00000000#32),
    TRef.unary (TRef.of (T := ⟨S_, .f32⟩) main_call9_cst) (TRef.of (T := ⟨S20000x128, .f32⟩) main_call9_v0) (broadcastInDim S20000x128 ![] bcast_S_S20000x128),
    TRef.binary (TRef.of (T := ⟨S20000x128, .f32⟩) main_v833) (TRef.of (T := ⟨S20000x128, .f32⟩) main_call9_v0) (TRef.of (T := ⟨S20000x128, .f32⟩) main_v909) maximumf,
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v870) (TRef.of (T := ⟨S50000x128, .f32⟩) main_call10_v0) (TRef.of (T := ⟨S50000x128, .f32⟩) main_v910) maximumf,
    TRef.nullary (TRef.of (T := ⟨S_, .f32⟩) main_call11_cst) (constant S_ .f32 0x00000000#32),
    TRef.unary (TRef.of (T := ⟨S_, .f32⟩) main_call11_cst) (TRef.of (T := ⟨S5000x128, .f32⟩) main_call11_v0) (broadcastInDim S5000x128 ![] bcast_S_S5000x128),
    TRef.binary (TRef.of (T := ⟨S5000x128, .f32⟩) main_v907) (TRef.of (T := ⟨S5000x128, .f32⟩) main_call11_v0) (TRef.of (T := ⟨S5000x128, .f32⟩) main_v911) maximumf,
    binary main_v908 main_arg7 main_v912 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v913 (broadcastInDim S1x128 ![1] bcast_S128_S1x128_1 : (⟨S128, .f32⟩ : BufTy).Contents (Elt F) → (⟨S1x128, .f32⟩ : BufTy).Contents (Elt F)),
    unary main_v913 main_v914 (broadcastInDim S100000x128 ![0, 1] bcast_S1x128_S100000x128_0_1 : (⟨S1x128, .f32⟩ : BufTy).Contents (Elt F) → (⟨S100000x128, .f32⟩ : BufTy).Contents (Elt F)),
    binary main_v912 main_v914 main_v915 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x128, .f32⟩) main_call12_v0) (broadcastInDim S100000x128 ![] bcast_S_S100000x128),
    TRef.binary (TRef.of (T := ⟨S100000x128, .f32⟩) main_v915) (TRef.of (T := ⟨S100000x128, .f32⟩) main_call12_v0) (TRef.of (T := ⟨S100000x128, .f32⟩) main_v916) maximumf,
    binary main_v916 main_arg9 main_v917 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg10 main_v918 (broadcastInDim S1x2 ![1] bcast_S2_S1x2_1 : (⟨S2, .f32⟩ : BufTy).Contents (Elt F) → (⟨S1x2, .f32⟩ : BufTy).Contents (Elt F)),
    unary main_v918 main_v919 (broadcastInDim S100000x2 ![0, 1] bcast_S1x2_S100000x2_0_1 : (⟨S1x2, .f32⟩ : BufTy).Contents (Elt F) → (⟨S100000x2, .f32⟩ : BufTy).Contents (Elt F)),
    binary main_v917 main_v919 main_v920 (addf : (⟨S100000x2, .f32⟩ : BufTy).Contents (Elt F) → (⟨S100000x2, .f32⟩ : BufTy).Contents (Elt F) → (⟨S100000x2, .f32⟩ : BufTy).Contents (Elt F)),
    binary main_v909 main_arg11 main_v921 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg12 main_v922 (broadcastInDim S1x128 ![1] bcast_S128_S1x128_1 : (⟨S128, .f32⟩ : BufTy).Contents (Elt F) → (⟨S1x128, .f32⟩ : BufTy).Contents (Elt F)),
    unary main_v922 main_v923 (broadcastInDim S20000x128 ![0, 1] bcast_S1x128_S20000x128_0_1 : (⟨S1x128, .f32⟩ : BufTy).Contents (Elt F) → (⟨S20000x128, .f32⟩ : BufTy).Contents (Elt F)),
    binary main_v921 main_v923 main_v924 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S20000x128, .f32⟩) main_call13_v0) (broadcastInDim S20000x128 ![] bcast_S_S20000x128),
    TRef.binary (TRef.of (T := ⟨S20000x128, .f32⟩) main_v924) (TRef.of (T := ⟨S20000x128, .f32⟩) main_call13_v0) (TRef.of (T := ⟨S20000x128, .f32⟩) main_v925) maximumf,
    binary main_v925 main_arg13 main_v926 ((fun l r => Host.dotGeneral dot_S20000x128_S128x2_S20000x2_1_0_0_1_n_n none l r) : (⟨S20000x128, .f32⟩ : BufTy).Contents (Elt F) → (⟨S128x2, .f32⟩ : BufTy).Contents (Elt F) → (⟨S20000x2, .f32⟩ : BufTy).Contents (Elt F)),
    unary main_arg14 main_v927 (broadcastInDim S1x2 ![1] bcast_S2_S1x2_1 : (⟨S2, .f32⟩ : BufTy).Contents (Elt F) → (⟨S1x2, .f32⟩ : BufTy).Contents (Elt F)),
    unary main_v927 main_v928 (broadcastInDim S20000x2 ![0, 1] bcast_S1x2_S20000x2_0_1 : (⟨S1x2, .f32⟩ : BufTy).Contents (Elt F) → (⟨S20000x2, .f32⟩ : BufTy).Contents (Elt F)),
    binary main_v926 main_v928 main_v929 (addf : (⟨S20000x2, .f32⟩ : BufTy).Contents (Elt F) → (⟨S20000x2, .f32⟩ : BufTy).Contents (Elt F) → (⟨S20000x2, .f32⟩ : BufTy).Contents (Elt F)) ]

set_option maxRecDepth 8192 in
set_option maxHeartbeats 4000000 in
theorem main_part17_eq (c : Dev nD) : main_part17 (F := F) c = seq rw17 := rfl

set_option maxRecDepth 8192 in
theorem rw17_sub : (rw17 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem rw17_fresh' : (rw17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem rw17_fresh : ∀ op ∈ (rw17 : List (HloOp τ sig (Elt F))), op.fresh = ∅ :=
  List.forall_iff_forall_mem.mp rw17_fresh'

/-! ## The whole of @main -/

/-- @main's 1102 operations: the eighteen windows one after the other. -/
abbrev rops : List (HloOp τ sig (Elt F)) :=
  rw0 ++ (rw1 ++ (rw2 ++ (rw3 ++ (rw4 ++ (rw5 ++ (rw6 ++ (rw7 ++ (rw8 ++ (rw9 ++ (rw10 ++ (rw11 ++ (rw12 ++ (rw13 ++ (rw14 ++ (rw15 ++ (rw16 ++ (rw17)))))))))))))))))

theorem main_eq (c : Dev nD) : main (F := F) c = seq rops := by
  simp only [main, main_part0_eq, main_part1_eq, main_part2_eq, main_part3_eq, main_part4_eq, main_part5_eq, main_part6_eq, main_part7_eq, main_part8_eq, main_part9_eq, main_part10_eq, main_part11_eq, main_part12_eq, main_part13_eq, main_part14_eq, main_part15_eq, main_part16_eq, main_part17_eq, seq_append]

private theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

private theorem fresh_app {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op hop => (List.mem_append.mp hop).elim (h₁ op) (h₂ op)

theorem rops_sub : (rops : List (HloOp τ sig (Elt F))).Forall fun op => op.bufs ⊆ tcRefs τ sig :=
  forall_app rw0_sub (forall_app rw1_sub (forall_app rw2_sub (forall_app rw3_sub (forall_app rw4_sub (forall_app rw5_sub (forall_app rw6_sub (forall_app rw7_sub (forall_app rw8_sub (forall_app rw9_sub (forall_app rw10_sub (forall_app rw11_sub (forall_app rw12_sub (forall_app rw13_sub (forall_app rw14_sub (forall_app rw15_sub (forall_app rw16_sub (rw17_sub)))))))))))))))))

theorem rops_fresh : ∀ op ∈ (rops : List (HloOp τ sig (Elt F))), op.fresh = ∅ :=
  fresh_app rw0_fresh (fresh_app rw1_fresh (fresh_app rw2_fresh (fresh_app rw3_fresh (fresh_app rw4_fresh (fresh_app rw5_fresh (fresh_app rw6_fresh (fresh_app rw7_fresh (fresh_app rw8_fresh (fresh_app rw9_fresh (fresh_app rw10_fresh (fresh_app rw11_fresh (fresh_app rw12_fresh (fresh_app rw13_fresh (fresh_app rw14_fresh (fresh_app rw15_fresh (fresh_app rw16_fresh (rw17_fresh)))))))))))))))))

end Cert.ReferenceIdeal.Hand
end
-- ==== Proof.Ref.RunSeq.lean ====
/- The reference program's run, read off its operations: @main is the line of its 1102 host operations, the signature
   scopes nothing, every operation touches only TensorCore buffers and allocates none, so every weakly fair execution
   terminates with each buffer at the fold of the operations' results over the launch contents. -/
import proofs.«125545_j64845416235624_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    reference's @main terminates, and every final state has each TensorCore buffer at the fold of the 1102 operations'
    results over its launch contents. -/
theorem ref_run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after rops (launchContents m d) (Proc.devRef .tc b) :=
  run_seq scopedRefs_eq scopedSems_eq defs main (fun _ => rops) main_eq (fun _ => rops_sub) m ρ (fun _ => rops_fresh)

end Cert.ReferenceIdeal.Hand

end
-- ==== Proof.Ref.Keep.lean ====
import proofs.«125545_j64845416235624_1_alg».proof.Proof.Ref.Ops
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! # What the reference's operations leave alone

Every operation of the reference's @main writes one buffer, its result. So a line of them leaves every reference that is
not one of its results as it was: `after_keep`; the results of two lines run one after the other are the two lists joined
(`writes_append`). Then per chunk of @main's operations the list of its results (`wr_…`), that the chunk writes exactly
those (`writes_…`) and the resulting `keep_…`; last, the argument arrays: the whole line writes none of them. -/

/-- A line whose operations write, one each and in order, exactly the references of the list `Y` leaves every
    reference outside `Y` as it was (each operation's result leaves what it does not write). -/
theorem after_keep {Val : EltTy → Type} {ops : List (HloOp τ sig Val)} {Y : List (Ref sig .tc)}
    (h : List.Forall₂ (fun op y => op.writes = {Proc.devRef .tc y}) ops Y) (V : Valuation τ sig Val)
    {b : Ref sig .tc} (hb : b ∉ Y) : StableHlo.after ops V (Proc.devRef .tc b) = V (Proc.devRef .tc b) := by
  induction h generalizing V with
  | nil => rfl
  | cons hw _ ih =>
    rw [StableHlo.after_cons, ih _ (fun hm => hb (List.mem_cons_of_mem _ hm))]
    exact HloOp.result_of_not_mem _ _ (by
      rw [hw, Finset.mem_singleton]
      exact StableHlo.devRef_ne_of_ne (fun e => hb (e ▸ List.mem_cons_self)))

/-- Two lines one after the other write the first's results, then the second's. -/
theorem writes_append {Val : EltTy → Type} {ops₁ ops₂ : List (HloOp τ sig Val)} {Y₁ Y₂ : List (Ref sig .tc)}
    (h₁ : List.Forall₂ (fun op y => op.writes = {Proc.devRef .tc y}) ops₁ Y₁)
    (h₂ : List.Forall₂ (fun op y => op.writes = {Proc.devRef .tc y}) ops₂ Y₂) :
    List.Forall₂ (fun op y => op.writes = {Proc.devRef .tc y}) (ops₁ ++ ops₂) (Y₁ ++ Y₂) := by
  induction h₁ with
  | nil => exact h₂
  | cons h _ ih => exact .cons h ih

/-! ## The chunks -/

/-- The references the operations of `rw0` write, one each, in order. -/
abbrev wr_rw0 : List (Ref sig .tc) :=
  [main_v0, main_v1, main_v2, main_v3, main_v4, main_v5, main_v6, main_v7, main_c, main_v8, main_v9, main_c_0, main_v10, main_v11, main_v12, main_v13, main_v14, main_v15, main_v16, main_cst, main_v17, main_v18, main_v19, main_cst_1, main_v20, main_v21, main_v22, main_cst_2, main_v23, main_v24, main_v25, main_cst_3, main_v26, main_v27, main_v28, main_v29, main_v30, main_v31, main_v32, main_v33, main_v34, main_v35, main_v36, main_v37, main_v38, main_v39, main_v40, main_v41, main_v42, main_v43, main_v44, main_c_4, main_v45, main_v46, main_c_5, main_v47, main_v48, main_v49, main_v50, main_v51]
theorem writes_rw0 : List.Forall₂ (fun (op : HloOp τ sig (Elt F)) y => op.writes = {Proc.devRef .tc y}) rw0 wr_rw0 :=
  .cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.nil))))))))))))))))))))))))))))))))))))))))))))))))))))))))))))
/-- `rw0` leaves every reference it does not write as it was. -/
theorem keep_rw0 (W : Valuation τ sig (Elt F)) (b : Ref sig .tc) (hb : b ∉ wr_rw0) :
    StableHlo.after rw0 W (Proc.devRef .tc b) = W (Proc.devRef .tc b) :=
  after_keep writes_rw0 W hb

/-- The references the operations of `rw1` write, one each, in order. -/
abbrev wr_rw1 : List (Ref sig .tc) :=
  [main_v52, main_v53, main_cst_6, main_v54, main_v55, main_v56, main_cst_7, main_v57, main_v58, main_v59, main_cst_8, main_v60, main_v61, main_v62, main_cst_9, main_v63, main_v64, main_v65, main_v66, main_v67, main_v68, main_v69, main_v70, main_v71, main_v72, main_v73, main_v74, main_v75, main_v76, main_v77, main_v78, main_v79, main_v80, main_v81, main_v82, main_c_10, main_v83, main_v84, main_c_11, main_v85, main_v86, main_v87, main_v88, main_v89, main_v90, main_v91, main_cst_12, main_v92, main_v93, main_v94, main_cst_13, main_v95, main_v96, main_v97, main_cst_14, main_v98, main_v99, main_v100, main_cst_15, main_v101]
theorem writes_rw1 : List.Forall₂ (fun (op : HloOp τ sig (Elt F)) y => op.writes = {Proc.devRef .tc y}) rw1 wr_rw1 :=
  .cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.nil))))))))))))))))))))))))))))))))))))))))))))))))))))))))))))
/-- `rw1` leaves every reference it does not write as it was. -/
theorem keep_rw1 (W : Valuation τ sig (Elt F)) (b : Ref sig .tc) (hb : b ∉ wr_rw1) :
    StableHlo.after rw1 W (Proc.devRef .tc b) = W (Proc.devRef .tc b) :=
  after_keep writes_rw1 W hb

/-- The references the operations of `rw2` write, one each, in order. -/
abbrev wr_rw2 : List (Ref sig .tc) :=
  [main_v102, main_v103, main_v104, main_v105, main_v106, main_v107, main_v108, main_v109, main_v110, main_v111, main_v112, main_v113, main_v114, main_v115, main_v116, main_v117, main_v118, main_v119, main_v120, main_c_16, main_v121, main_v122, main_c_17, main_v123, main_v124, main_v125, main_v126, main_v127, main_v128, main_v129, main_cst_18, main_v130, main_v131, main_v132, main_cst_19, main_v133, main_v134, main_v135, main_cst_20, main_v136, main_v137, main_v138, main_cst_21, main_v139, main_v140, main_v141, main_v142, main_v143, main_v144, main_v145, main_v146, main_v147, main_v148, main_v149, main_v150, main_v151, main_v152, main_v153, main_v154, main_v155]
theorem writes_rw2 : List.Forall₂ (fun (op : HloOp τ sig (Elt F)) y => op.writes = {Proc.devRef .tc y}) rw2 wr_rw2 :=
  .cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.nil))))))))))))))))))))))))))))))))))))))))))))))))))))))))))))
/-- `rw2` leaves every reference it does not write as it was. -/
theorem keep_rw2 (W : Valuation τ sig (Elt F)) (b : Ref sig .tc) (hb : b ∉ wr_rw2) :
    StableHlo.after rw2 W (Proc.devRef .tc b) = W (Proc.devRef .tc b) :=
  after_keep writes_rw2 W hb

/-- The references the operations of `rw3` write, one each, in order. -/
abbrev wr_rw3 : List (Ref sig .tc) :=
  [main_v156, main_v157, main_v158, main_c_22, main_v159, main_v160, main_c_23, main_v161, main_v162, main_v163, main_v164, main_v165, main_v166, main_v167, main_cst_24, main_v168, main_v169, main_v170, main_cst_25, main_v171, main_v172, main_v173, main_cst_26, main_v174, main_v175, main_v176, main_cst_27, main_v177, main_v178, main_v179, main_v180, main_v181, main_v182, main_v183, main_v184, main_v185, main_v186, main_v187, main_v188, main_v189, main_v190, main_v191, main_v192, main_v193, main_v194, main_v195, main_v196, main_c_28, main_v197, main_v198, main_c_29, main_v199, main_v200, main_v201, main_v202, main_v203, main_v204, main_v205, main_cst_30, main_v206]
theorem writes_rw3 : List.Forall₂ (fun (op : HloOp τ sig (Elt F)) y => op.writes = {Proc.devRef .tc y}) rw3 wr_rw3 :=
  .cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.nil))))))))))))))))))))))))))))))))))))))))))))))))))))))))))))
/-- `rw3` leaves every reference it does not write as it was. -/
theorem keep_rw3 (W : Valuation τ sig (Elt F)) (b : Ref sig .tc) (hb : b ∉ wr_rw3) :
    StableHlo.after rw3 W (Proc.devRef .tc b) = W (Proc.devRef .tc b) :=
  after_keep writes_rw3 W hb

/-- The references the operations of `rw4` write, one each, in order. -/
abbrev wr_rw4 : List (Ref sig .tc) :=
  [main_v207, main_v208, main_cst_31, main_v209, main_v210, main_v211, main_cst_32, main_v212, main_v213, main_v214, main_cst_33, main_v215, main_v216, main_v217, main_v218, main_v219, main_v220, main_v221, main_v222, main_v223, main_v224, main_v225, main_v226, main_v227, main_v228, main_v229, main_v230, main_v231, main_v232, main_v233, main_c_34, main_v234, main_v235, main_c_35, main_v236, main_v237, main_v238, main_v239, main_v240, main_v241, main_v242, main_cst_36, main_v243, main_v244, main_v245, main_cst_37, main_v246, main_v247, main_v248, main_cst_38, main_v249, main_v250, main_v251, main_cst_39, main_v252, main_v253, main_v254, main_v255, main_v256, main_v257]
theorem writes_rw4 : List.Forall₂ (fun (op : HloOp τ sig (Elt F)) y => op.writes = {Proc.devRef .tc y}) rw4 wr_rw4 :=
  .cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.nil))))))))))))))))))))))))))))))))))))))))))))))))))))))))))))
/-- `rw4` leaves every reference it does not write as it was. -/
theorem keep_rw4 (W : Valuation τ sig (Elt F)) (b : Ref sig .tc) (hb : b ∉ wr_rw4) :
    StableHlo.after rw4 W (Proc.devRef .tc b) = W (Proc.devRef .tc b) :=
  after_keep writes_rw4 W hb

/-- The references the operations of `rw5` write, one each, in order. -/
abbrev wr_rw5 : List (Ref sig .tc) :=
  [main_v258, main_v259, main_v260, main_v261, main_v262, main_v263, main_v264, main_v265, main_v266, main_v267, main_v268, main_v269, main_v270, main_c_40, main_v271, main_v272, main_c_41, main_v273, main_v274, main_v275, main_v276, main_v277, main_v278, main_v279, main_cst_42, main_v280, main_v281, main_v282, main_cst_43, main_v283, main_v284, main_v285, main_cst_44, main_v286, main_v287, main_v288, main_cst_45, main_v289, main_v290, main_v291, main_v292, main_v293, main_v294, main_v295, main_v296, main_v297, main_v298, main_v299, main_call0_cst, main_call0_v0, main_v300, main_call1_cst, main_call1_v0, main_v301, main_call2_cst, main_call2_v0, main_v302, main_call3_cst, main_call3_v0, main_v303, main_v304, main_v305, main_v306, main_v307, main_v308, main_v309, main_v310, main_v311]
theorem writes_rw5 : List.Forall₂ (fun (op : HloOp τ sig (Elt F)) y => op.writes = {Proc.devRef .tc y}) rw5 wr_rw5 :=
  .cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons rfl (.cons rfl (.cons rfl (.cons rfl (.cons rfl (.cons rfl (.cons rfl (.cons rfl (.cons rfl (.cons rfl (.cons rfl (.cons rfl (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.nil))))))))))))))))))))))))))))))))))))))))))))))))))))))))))))))))))))
/-- `rw5` leaves every reference it does not write as it was. -/
theorem keep_rw5 (W : Valuation τ sig (Elt F)) (b : Ref sig .tc) (hb : b ∉ wr_rw5) :
    StableHlo.after rw5 W (Proc.devRef .tc b) = W (Proc.devRef .tc b) :=
  after_keep writes_rw5 W hb

/-- The references the operations of `rw6` write, one each, in order. -/
abbrev wr_rw6 : List (Ref sig .tc) :=
  [main_c_46, main_v312, main_v313, main_c_47, main_v314, main_v315, main_v316, main_v317, main_v318, main_v319, main_v320, main_cst_48, main_v321, main_v322, main_v323, main_cst_49, main_v324, main_v325, main_v326, main_cst_50, main_v327, main_v328, main_v329, main_cst_51, main_v330, main_v331, main_v332, main_v333, main_v334, main_v335, main_v336, main_v337, main_v338, main_v339, main_v340, main_v341, main_v342, main_v343, main_v344, main_v345, main_v346, main_v347, main_v348, main_c_52, main_v349, main_v350, main_c_53, main_v351, main_v352, main_v353, main_v354, main_v355, main_v356, main_v357, main_cst_54, main_v358, main_v359, main_v360, main_cst_55, main_v361]
theorem writes_rw6 : List.Forall₂ (fun (op : HloOp τ sig (Elt F)) y => op.writes = {Proc.devRef .tc y}) rw6 wr_rw6 :=
  .cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.nil))))))))))))))))))))))))))))))))))))))))))))))))))))))))))))
/-- `rw6` leaves every reference it does not write as it was. -/
theorem keep_rw6 (W : Valuation τ sig (Elt F)) (b : Ref sig .tc) (hb : b ∉ wr_rw6) :
    StableHlo.after rw6 W (Proc.devRef .tc b) = W (Proc.devRef .tc b) :=
  after_keep writes_rw6 W hb

/-- The references the operations of `rw7` write, one each, in order. -/
abbrev wr_rw7 : List (Ref sig .tc) :=
  [main_v362, main_v363, main_cst_56, main_v364, main_v365, main_v366, main_cst_57, main_v367, main_v368, main_v369, main_v370, main_v371, main_v372, main_v373, main_v374, main_v375, main_v376, main_v377, main_v378, main_v379, main_v380, main_v381, main_v382, main_v383, main_v384, main_v385, main_v386, main_c_58, main_v387, main_v388, main_c_59, main_v389, main_v390, main_v391, main_v392, main_v393, main_v394, main_v395, main_cst_60, main_v396, main_v397, main_v398, main_cst_61, main_v399, main_v400, main_v401, main_cst_62, main_v402, main_v403, main_v404, main_cst_63, main_v405, main_v406, main_v407, main_v408, main_v409, main_v410, main_v411, main_v412, main_v413]
theorem writes_rw7 : List.Forall₂ (fun (op : HloOp τ sig (Elt F)) y => op.writes = {Proc.devRef .tc y}) rw7 wr_rw7 :=
  .cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.nil))))))))))))))))))))))))))))))))))))))))))))))))))))))))))))
/-- `rw7` leaves every reference it does not write as it was. -/
theorem keep_rw7 (W : Valuation τ sig (Elt F)) (b : Ref sig .tc) (hb : b ∉ wr_rw7) :
    StableHlo.after rw7 W (Proc.devRef .tc b) = W (Proc.devRef .tc b) :=
  after_keep writes_rw7 W hb

/-- The references the operations of `rw8` write, one each, in order. -/
abbrev wr_rw8 : List (Ref sig .tc) :=
  [main_v414, main_v415, main_v416, main_v417, main_v418, main_v419, main_v420, main_v421, main_v422, main_v423, main_v424, main_c_64, main_v425, main_v426, main_c_65, main_v427, main_v428, main_v429, main_v430, main_v431, main_v432, main_v433, main_cst_66, main_v434, main_v435, main_v436, main_cst_67, main_v437, main_v438, main_v439, main_cst_68, main_v440, main_v441, main_v442, main_cst_69, main_v443, main_v444, main_v445, main_v446, main_v447, main_v448, main_v449, main_v450, main_v451, main_v452, main_v453, main_v454, main_v455, main_v456, main_v457, main_v458, main_v459, main_v460, main_v461, main_v462, main_c_70, main_v463, main_v464, main_c_71, main_v465]
theorem writes_rw8 : List.Forall₂ (fun (op : HloOp τ sig (Elt F)) y => op.writes = {Proc.devRef .tc y}) rw8 wr_rw8 :=
  .cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.nil))))))))))))))))))))))))))))))))))))))))))))))))))))))))))))
/-- `rw8` leaves every reference it does not write as it was. -/
theorem keep_rw8 (W : Valuation τ sig (Elt F)) (b : Ref sig .tc) (hb : b ∉ wr_rw8) :
    StableHlo.after rw8 W (Proc.devRef .tc b) = W (Proc.devRef .tc b) :=
  after_keep writes_rw8 W hb

/-- The references the operations of `rw9` write, one each, in order. -/
abbrev wr_rw9 : List (Ref sig .tc) :=
  [main_v466, main_v467, main_v468, main_v469, main_v470, main_v471, main_cst_72, main_v472, main_v473, main_v474, main_cst_73, main_v475, main_v476, main_v477, main_cst_74, main_v478, main_v479, main_v480, main_cst_75, main_v481, main_v482, main_v483, main_v484, main_v485, main_v486, main_v487, main_v488, main_v489, main_v490, main_v491, main_v492, main_v493, main_v494, main_v495, main_v496, main_v497, main_v498, main_v499, main_v500, main_c_76, main_v501, main_v502, main_c_77, main_v503, main_v504, main_v505, main_v506, main_v507, main_v508, main_v509, main_cst_78, main_v510, main_v511, main_v512, main_cst_79, main_v513, main_v514, main_v515, main_cst_80, main_v516]
theorem writes_rw9 : List.Forall₂ (fun (op : HloOp τ sig (Elt F)) y => op.writes = {Proc.devRef .tc y}) rw9 wr_rw9 :=
  .cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.nil))))))))))))))))))))))))))))))))))))))))))))))))))))))))))))
/-- `rw9` leaves every reference it does not write as it was. -/
theorem keep_rw9 (W : Valuation τ sig (Elt F)) (b : Ref sig .tc) (hb : b ∉ wr_rw9) :
    StableHlo.after rw9 W (Proc.devRef .tc b) = W (Proc.devRef .tc b) :=
  after_keep writes_rw9 W hb

/-- The references the operations of `rw10` write, one each, in order. -/
abbrev wr_rw10 : List (Ref sig .tc) :=
  [main_v517, main_v518, main_cst_81, main_v519, main_v520, main_v521, main_v522, main_v523, main_v524, main_v525, main_v526, main_v527, main_v528, main_v529, main_v530, main_v531, main_v532, main_v533, main_v534, main_v535, main_v536, main_v537, main_c_82, main_v538, main_v539, main_c_83, main_v540, main_v541, main_v542, main_v543, main_v544, main_v545, main_v546, main_cst_84, main_v547, main_v548, main_v549, main_cst_85, main_v550, main_v551, main_v552, main_cst_86, main_v553, main_v554, main_v555, main_cst_87, main_v556, main_v557, main_v558, main_v559, main_v560, main_v561, main_v562, main_v563, main_v564, main_v565, main_v566, main_v567, main_v568, main_v569]
theorem writes_rw10 : List.Forall₂ (fun (op : HloOp τ sig (Elt F)) y => op.writes = {Proc.devRef .tc y}) rw10 wr_rw10 :=
  .cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.nil))))))))))))))))))))))))))))))))))))))))))))))))))))))))))))
/-- `rw10` leaves every reference it does not write as it was. -/
theorem keep_rw10 (W : Valuation τ sig (Elt F)) (b : Ref sig .tc) (hb : b ∉ wr_rw10) :
    StableHlo.after rw10 W (Proc.devRef .tc b) = W (Proc.devRef .tc b) :=
  after_keep writes_rw10 W hb

/-- The references the operations of `rw11` write, one each, in order. -/
abbrev wr_rw11 : List (Ref sig .tc) :=
  [main_v570, main_v571, main_v572, main_v573, main_v574, main_c_88, main_v575, main_v576, main_c_89, main_v577, main_v578, main_v579, main_v580, main_v581, main_v582, main_v583, main_cst_90, main_v584, main_v585, main_v586, main_cst_91, main_v587, main_v588, main_v589, main_cst_92, main_v590, main_v591, main_v592, main_cst_93, main_v593, main_v594, main_v595, main_v596, main_v597, main_v598, main_v599, main_v600, main_v601, main_v602, main_v603, main_call4_cst, main_call4_v0, main_v604, main_call5_cst, main_call5_v0, main_v605, main_call6_cst, main_call6_v0, main_v606, main_call7_cst, main_call7_v0, main_v607, main_v608, main_v609, main_v610, main_v611, main_v612, main_v613, main_v614, main_v615, main_c_94, main_v616, main_v617, main_c_95, main_v618, main_v619, main_v620, main_v621]
theorem writes_rw11 : List.Forall₂ (fun (op : HloOp τ sig (Elt F)) y => op.writes = {Proc.devRef .tc y}) rw11 wr_rw11 :=
  .cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons rfl (.cons rfl (.cons rfl (.cons rfl (.cons rfl (.cons rfl (.cons rfl (.cons rfl (.cons rfl (.cons rfl (.cons rfl (.cons rfl (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.nil))))))))))))))))))))))))))))))))))))))))))))))))))))))))))))))))))))
/-- `rw11` leaves every reference it does not write as it was. -/
theorem keep_rw11 (W : Valuation τ sig (Elt F)) (b : Ref sig .tc) (hb : b ∉ wr_rw11) :
    StableHlo.after rw11 W (Proc.devRef .tc b) = W (Proc.devRef .tc b) :=
  after_keep writes_rw11 W hb

/-- The references the operations of `rw12` write, one each, in order. -/
abbrev wr_rw12 : List (Ref sig .tc) :=
  [main_v622, main_v623, main_v624, main_cst_96, main_v625, main_v626, main_v627, main_cst_97, main_v628, main_v629, main_v630, main_cst_98, main_v631, main_v632, main_v633, main_cst_99, main_v634, main_v635, main_v636, main_v637, main_v638, main_v639, main_v640, main_v641, main_v642, main_v643, main_v644, main_v645, main_v646, main_v647, main_v648, main_v649, main_v650, main_v651, main_v652, main_c_100, main_v653, main_v654, main_c_101, main_v655, main_v656, main_v657, main_v658, main_v659, main_v660, main_v661, main_cst_102, main_v662, main_v663, main_v664, main_cst_103, main_v665, main_v666, main_v667, main_cst_104, main_v668, main_v669, main_v670, main_cst_105, main_v671]
theorem writes_rw12 : List.Forall₂ (fun (op : HloOp τ sig (Elt F)) y => op.writes = {Proc.devRef .tc y}) rw12 wr_rw12 :=
  .cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.nil))))))))))))))))))))))))))))))))))))))))))))))))))))))))))))
/-- `rw12` leaves every reference it does not write as it was. -/
theorem keep_rw12 (W : Valuation τ sig (Elt F)) (b : Ref sig .tc) (hb : b ∉ wr_rw12) :
    StableHlo.after rw12 W (Proc.devRef .tc b) = W (Proc.devRef .tc b) :=
  after_keep writes_rw12 W hb

/-- The references the operations of `rw13` write, one each, in order. -/
abbrev wr_rw13 : List (Ref sig .tc) :=
  [main_v672, main_v673, main_v674, main_v675, main_v676, main_v677, main_v678, main_v679, main_v680, main_v681, main_v682, main_v683, main_v684, main_v685, main_v686, main_v687, main_v688, main_v689, main_v690, main_c_106, main_v691, main_v692, main_c_107, main_v693, main_v694, main_v695, main_v696, main_v697, main_v698, main_v699, main_cst_108, main_v700, main_v701, main_v702, main_cst_109, main_v703, main_v704, main_v705, main_cst_110, main_v706, main_v707, main_v708, main_cst_111, main_v709, main_v710, main_v711, main_v712, main_v713, main_v714, main_v715, main_v716, main_v717, main_v718, main_v719, main_v720, main_v721, main_v722, main_v723, main_v724, main_v725]
theorem writes_rw13 : List.Forall₂ (fun (op : HloOp τ sig (Elt F)) y => op.writes = {Proc.devRef .tc y}) rw13 wr_rw13 :=
  .cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.nil))))))))))))))))))))))))))))))))))))))))))))))))))))))))))))
/-- `rw13` leaves every reference it does not write as it was. -/
theorem keep_rw13 (W : Valuation τ sig (Elt F)) (b : Ref sig .tc) (hb : b ∉ wr_rw13) :
    StableHlo.after rw13 W (Proc.devRef .tc b) = W (Proc.devRef .tc b) :=
  after_keep writes_rw13 W hb

/-- The references the operations of `rw14` write, one each, in order. -/
abbrev wr_rw14 : List (Ref sig .tc) :=
  [main_v726, main_v727, main_v728, main_c_112, main_v729, main_v730, main_c_113, main_v731, main_v732, main_v733, main_v734, main_v735, main_v736, main_v737, main_cst_114, main_v738, main_v739, main_v740, main_cst_115, main_v741, main_v742, main_v743, main_cst_116, main_v744, main_v745, main_v746, main_cst_117, main_v747, main_v748, main_v749, main_v750, main_v751, main_v752, main_v753, main_v754, main_v755, main_v756, main_v757, main_v758, main_v759, main_v760, main_v761, main_v762, main_v763, main_v764, main_v765, main_v766, main_c_118, main_v767, main_v768, main_c_119, main_v769, main_v770, main_v771, main_v772, main_v773, main_v774, main_v775, main_cst_120, main_v776]
theorem writes_rw14 : List.Forall₂ (fun (op : HloOp τ sig (Elt F)) y => op.writes = {Proc.devRef .tc y}) rw14 wr_rw14 :=
  .cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.nil))))))))))))))))))))))))))))))))))))))))))))))))))))))))))))
/-- `rw14` leaves every reference it does not write as it was. -/
theorem keep_rw14 (W : Valuation τ sig (Elt F)) (b : Ref sig .tc) (hb : b ∉ wr_rw14) :
    StableHlo.after rw14 W (Proc.devRef .tc b) = W (Proc.devRef .tc b) :=
  after_keep writes_rw14 W hb

/-- The references the operations of `rw15` write, one each, in order. -/
abbrev wr_rw15 : List (Ref sig .tc) :=
  [main_v777, main_v778, main_cst_121, main_v779, main_v780, main_v781, main_cst_122, main_v782, main_v783, main_v784, main_cst_123, main_v785, main_v786, main_v787, main_v788, main_v789, main_v790, main_v791, main_v792, main_v793, main_v794, main_v795, main_v796, main_v797, main_v798, main_v799, main_v800, main_v801, main_v802, main_v803, main_v804, main_c_124, main_v805, main_v806, main_c_125, main_v807, main_v808, main_v809, main_v810, main_v811, main_v812, main_v813, main_cst_126, main_v814, main_v815, main_v816, main_cst_127, main_v817, main_v818, main_v819, main_cst_128, main_v820, main_v821, main_v822, main_cst_129, main_v823, main_v824, main_v825, main_v826, main_v827]
theorem writes_rw15 : List.Forall₂ (fun (op : HloOp τ sig (Elt F)) y => op.writes = {Proc.devRef .tc y}) rw15 wr_rw15 :=
  .cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.nil))))))))))))))))))))))))))))))))))))))))))))))))))))))))))))
/-- `rw15` leaves every reference it does not write as it was. -/
theorem keep_rw15 (W : Valuation τ sig (Elt F)) (b : Ref sig .tc) (hb : b ∉ wr_rw15) :
    StableHlo.after rw15 W (Proc.devRef .tc b) = W (Proc.devRef .tc b) :=
  after_keep writes_rw15 W hb

/-- The references the operations of `rw16` write, one each, in order. -/
abbrev wr_rw16 : List (Ref sig .tc) :=
  [main_v828, main_v829, main_v830, main_v831, main_v832, main_v833, main_v834, main_v835, main_v836, main_v837, main_v838, main_v839, main_v840, main_v841, main_c_130, main_v842, main_v843, main_c_131, main_v844, main_v845, main_v846, main_v847, main_v848, main_v849, main_v850, main_cst_132, main_v851, main_v852, main_v853, main_cst_133, main_v854, main_v855, main_v856, main_cst_134, main_v857, main_v858, main_v859, main_cst_135, main_v860, main_v861, main_v862, main_v863, main_v864, main_v865, main_v866, main_v867, main_v868, main_v869, main_v870, main_v871, main_v872, main_v873, main_v874, main_v875, main_v876, main_v877, main_v878, main_c_136, main_v879, main_v880]
theorem writes_rw16 : List.Forall₂ (fun (op : HloOp τ sig (Elt F)) y => op.writes = {Proc.devRef .tc y}) rw16 wr_rw16 :=
  .cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.nil))))))))))))))))))))))))))))))))))))))))))))))))))))))))))))
/-- `rw16` leaves every reference it does not write as it was. -/
theorem keep_rw16 (W : Valuation τ sig (Elt F)) (b : Ref sig .tc) (hb : b ∉ wr_rw16) :
    StableHlo.after rw16 W (Proc.devRef .tc b) = W (Proc.devRef .tc b) :=
  after_keep writes_rw16 W hb

/-- The references the operations of `rw17` write, one each, in order. -/
abbrev wr_rw17 : List (Ref sig .tc) :=
  [main_c_137, main_v881, main_v882, main_v883, main_v884, main_v885, main_v886, main_v887, main_cst_138, main_v888, main_v889, main_v890, main_cst_139, main_v891, main_v892, main_v893, main_cst_140, main_v894, main_v895, main_v896, main_cst_141, main_v897, main_v898, main_v899, main_v900, main_v901, main_v902, main_v903, main_v904, main_v905, main_v906, main_v907, main_call8_cst, main_call8_v0, main_v908, main_call9_cst, main_call9_v0, main_v909, main_call10_cst, main_call10_v0, main_v910, main_call11_cst, main_call11_v0, main_v911, main_v912, main_v913, main_v914, main_v915, main_call12_cst, main_call12_v0, main_v916, main_v917, main_v918, main_v919, main_v920, main_v921, main_v922, main_v923, main_v924, main_call13_cst, main_call13_v0, main_v925, main_v926, main_v927, main_v928, main_v929]
theorem writes_rw17 : List.Forall₂ (fun (op : HloOp τ sig (Elt F)) y => op.writes = {Proc.devRef .tc y}) rw17 wr_rw17 :=
  .cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.unary_writes ..) (.cons (StableHlo.reshape_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons rfl (.cons rfl (.cons rfl (.cons rfl (.cons rfl (.cons rfl (.cons rfl (.cons rfl (.cons rfl (.cons rfl (.cons rfl (.cons rfl (.cons (StableHlo.binary_writes ..) (.cons (StableHlo.unary_writes ..) (.cons (StableHlo.unary_writes ..) (.cons (StableHlo.binary_writes ..) (.cons rfl (.cons rfl (.cons rfl (.cons (StableHlo.binary_writes ..) (.cons (StableHlo.unary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons rfl (.cons rfl (.cons rfl (.cons (StableHlo.binary_writes ..) (.cons (StableHlo.unary_writes ..) (.cons (StableHlo.unary_writes ..) (.cons (StableHlo.binary_writes ..) (.nil))))))))))))))))))))))))))))))))))))))))))))))))))))))))))))))))))
/-- `rw17` leaves every reference it does not write as it was. -/
theorem keep_rw17 (W : Valuation τ sig (Elt F)) (b : Ref sig .tc) (hb : b ∉ wr_rw17) :
    StableHlo.after rw17 W (Proc.devRef .tc b) = W (Proc.devRef .tc b) :=
  after_keep writes_rw17 W hb

/-- The references `rops` writes: its parts' lists joined as the parts are. -/
abbrev wr_rops : List (Ref sig .tc) :=
  wr_rw0 ++ (wr_rw1 ++ (wr_rw2 ++ (wr_rw3 ++ (wr_rw4 ++ (wr_rw5 ++ (wr_rw6 ++ (wr_rw7 ++ (wr_rw8 ++ (wr_rw9 ++ (wr_rw10 ++ (wr_rw11 ++ (wr_rw12 ++ (wr_rw13 ++ (wr_rw14 ++ (wr_rw15 ++ (wr_rw16 ++ (wr_rw17)))))))))))))))))
theorem writes_rops : List.Forall₂ (fun (op : HloOp τ sig (Elt F)) y => op.writes = {Proc.devRef .tc y}) rops wr_rops :=
  writes_append writes_rw0 (writes_append writes_rw1 (writes_append writes_rw2 (writes_append writes_rw3 (writes_append writes_rw4 (writes_append writes_rw5 (writes_append writes_rw6 (writes_append writes_rw7 (writes_append writes_rw8 (writes_append writes_rw9 (writes_append writes_rw10 (writes_append writes_rw11 (writes_append writes_rw12 (writes_append writes_rw13 (writes_append writes_rw14 (writes_append writes_rw15 (writes_append writes_rw16 (writes_rw17)))))))))))))))))
/-- `rops` leaves every reference it does not write as it was. -/
theorem keep_rops (W : Valuation τ sig (Elt F)) (b : Ref sig .tc) (hb : b ∉ wr_rops) :
    StableHlo.after rops W (Proc.devRef .tc b) = W (Proc.devRef .tc b) :=
  after_keep writes_rops W hb

/-! ## The argument arrays: the whole line writes none -/

theorem rops_arg0 (V : Valuation τ sig (Elt F)) : StableHlo.after rops V (Proc.devRef .tc main_arg0) = V (Proc.devRef .tc main_arg0) := keep_rops V main_arg0 (by decide)
theorem rops_arg1 (V : Valuation τ sig (Elt F)) : StableHlo.after rops V (Proc.devRef .tc main_arg1) = V (Proc.devRef .tc main_arg1) := keep_rops V main_arg1 (by decide)
theorem rops_arg2 (V : Valuation τ sig (Elt F)) : StableHlo.after rops V (Proc.devRef .tc main_arg2) = V (Proc.devRef .tc main_arg2) := keep_rops V main_arg2 (by decide)
theorem rops_arg3 (V : Valuation τ sig (Elt F)) : StableHlo.after rops V (Proc.devRef .tc main_arg3) = V (Proc.devRef .tc main_arg3) := keep_rops V main_arg3 (by decide)
theorem rops_arg4 (V : Valuation τ sig (Elt F)) : StableHlo.after rops V (Proc.devRef .tc main_arg4) = V (Proc.devRef .tc main_arg4) := keep_rops V main_arg4 (by decide)
theorem rops_arg5 (V : Valuation τ sig (Elt F)) : StableHlo.after rops V (Proc.devRef .tc main_arg5) = V (Proc.devRef .tc main_arg5) := keep_rops V main_arg5 (by decide)
theorem rops_arg6 (V : Valuation τ sig (Elt F)) : StableHlo.after rops V (Proc.devRef .tc main_arg6) = V (Proc.devRef .tc main_arg6) := keep_rops V main_arg6 (by decide)
theorem rops_arg7 (V : Valuation τ sig (Elt F)) : StableHlo.after rops V (Proc.devRef .tc main_arg7) = V (Proc.devRef .tc main_arg7) := keep_rops V main_arg7 (by decide)
theorem rops_arg8 (V : Valuation τ sig (Elt F)) : StableHlo.after rops V (Proc.devRef .tc main_arg8) = V (Proc.devRef .tc main_arg8) := keep_rops V main_arg8 (by decide)
theorem rops_arg9 (V : Valuation τ sig (Elt F)) : StableHlo.after rops V (Proc.devRef .tc main_arg9) = V (Proc.devRef .tc main_arg9) := keep_rops V main_arg9 (by decide)
theorem rops_arg10 (V : Valuation τ sig (Elt F)) : StableHlo.after rops V (Proc.devRef .tc main_arg10) = V (Proc.devRef .tc main_arg10) := keep_rops V main_arg10 (by decide)
theorem rops_arg11 (V : Valuation τ sig (Elt F)) : StableHlo.after rops V (Proc.devRef .tc main_arg11) = V (Proc.devRef .tc main_arg11) := keep_rops V main_arg11 (by decide)
theorem rops_arg12 (V : Valuation τ sig (Elt F)) : StableHlo.after rops V (Proc.devRef .tc main_arg12) = V (Proc.devRef .tc main_arg12) := keep_rops V main_arg12 (by decide)
theorem rops_arg13 (V : Valuation τ sig (Elt F)) : StableHlo.after rops V (Proc.devRef .tc main_arg13) = V (Proc.devRef .tc main_arg13) := keep_rops V main_arg13 (by decide)
theorem rops_arg14 (V : Valuation τ sig (Elt F)) : StableHlo.after rops V (Proc.devRef .tc main_arg14) = V (Proc.devRef .tc main_arg14) := keep_rops V main_arg14 (by decide)
theorem rops_arg15 (V : Valuation τ sig (Elt F)) : StableHlo.after rops V (Proc.devRef .tc main_arg15) = V (Proc.devRef .tc main_arg15) := keep_rops V main_arg15 (by decide)
theorem rops_arg16 (V : Valuation τ sig (Elt F)) : StableHlo.after rops V (Proc.devRef .tc main_arg16) = V (Proc.devRef .tc main_arg16) := keep_rops V main_arg16 (by decide)
theorem rops_arg17 (V : Valuation τ sig (Elt F)) : StableHlo.after rops V (Proc.devRef .tc main_arg17) = V (Proc.devRef .tc main_arg17) := keep_rops V main_arg17 (by decide)
theorem rops_arg18 (V : Valuation τ sig (Elt F)) : StableHlo.after rops V (Proc.devRef .tc main_arg18) = V (Proc.devRef .tc main_arg18) := keep_rops V main_arg18 (by decide)
theorem rops_arg19 (V : Valuation τ sig (Elt F)) : StableHlo.after rops V (Proc.devRef .tc main_arg19) = V (Proc.devRef .tc main_arg19) := keep_rops V main_arg19 (by decide)
theorem rops_arg20 (V : Valuation τ sig (Elt F)) : StableHlo.after rops V (Proc.devRef .tc main_arg20) = V (Proc.devRef .tc main_arg20) := keep_rops V main_arg20 (by decide)
theorem rops_arg21 (V : Valuation τ sig (Elt F)) : StableHlo.after rops V (Proc.devRef .tc main_arg21) = V (Proc.devRef .tc main_arg21) := keep_rops V main_arg21 (by decide)
theorem rops_arg22 (V : Valuation τ sig (Elt F)) : StableHlo.after rops V (Proc.devRef .tc main_arg22) = V (Proc.devRef .tc main_arg22) := keep_rops V main_arg22 (by decide)

end Cert.ReferenceIdeal.Hand

end
-- ==== Proof.Ref.Frame.lean ====
/- The reference program's frame: it runs to the end on every weakly fair execution and leaves its twenty-three
   arguments unchanged. From the run read off the operations (each buffer at the fold of the operations' results over
   the launch contents) and, per argument, the fact that no operation writes it. -/
import proofs.«125545_j64845416235624_1_alg».proof.Defs
import proofs.«125545_j64845416235624_1_alg».proof.Proof.Gen.ReferenceIdeal
import proofs.«125545_j64845416235624_1_alg».proof.Proof.Gen.Pre_finite_inputs
import proofs.«125545_j64845416235624_1_alg».proof.Proof.Ref.RunSeq
import proofs.«125545_j64845416235624_1_alg».proof.Proof.Ref.Keep

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference program's frame: it runs to the end on every weakly fair execution and leaves its twenty-three
    arguments unchanged — no operation writes an argument, so the fold of the operations' results over the launch
    contents reads, at an argument, the launch contents. -/
theorem frame_ri : Cert.frame_ReferenceIdeal := fun m ρ _ =>
  (θ_run Cert.ReferenceIdeal.defs _ _).mono (fun _ h c =>
    ⟨(h c main_arg0).trans (rops_arg0 _),
     (h c main_arg1).trans (rops_arg1 _),
     (h c main_arg2).trans (rops_arg2 _),
     (h c main_arg3).trans (rops_arg3 _),
     (h c main_arg4).trans (rops_arg4 _),
     (h c main_arg5).trans (rops_arg5 _),
     (h c main_arg6).trans (rops_arg6 _),
     (h c main_arg7).trans (rops_arg7 _),
     (h c main_arg8).trans (rops_arg8 _),
     (h c main_arg9).trans (rops_arg9 _),
     (h c main_arg10).trans (rops_arg10 _),
     (h c main_arg11).trans (rops_arg11 _),
     (h c main_arg12).trans (rops_arg12 _),
     (h c main_arg13).trans (rops_arg13 _),
     (h c main_arg14).trans (rops_arg14 _),
     (h c main_arg15).trans (rops_arg15 _),
     (h c main_arg16).trans (rops_arg16 _),
     (h c main_arg17).trans (rops_arg17 _),
     (h c main_arg18).trans (rops_arg18 _),
     (h c main_arg19).trans (rops_arg19 _),
     (h c main_arg20).trans (rops_arg20 _),
     (h c main_arg21).trans (rops_arg21 _),
     (h c main_arg22).trans (rops_arg22 _)⟩)
    (ref_run_after (F := Ideal) m ρ)

end Cert.ReferenceIdeal.Hand

end
-- ==== Proof.Spec.lean ====
import Idealize.ShloMosaic.PureOps.Ideal
import Idealize.ShloMosaic.PureOps.Ideal.Laws
import Idealize.ShloMosaic.Lib.ValueIdx
import Mathlib.Data.EReal.Basic
import Mathlib.Algebra.BigOperators.Group.Finset.Basic

/-!
  The specification, over the extended reals and abstract index types.

  One message-passing layer of the heterogeneous network: for a node type with incoming edge
  types `e`, the new features are `relu (∑ₑ (aggₑ · Wlₑ + blₑ + x_dst · Wrₑ))`.  The reference
  evaluates the sum edge type by edge type (`layer1R`, `layer5R`); the kernel evaluates
  `relu (x_dst · (∑ₑ Wrₑ) + ∑ₑ aggₑ · Wlₑ + ∑ₑ blₑ)` (`layer1K`, `layer5K`).  The head is a
  two-layer perceptron.
-/

open scoped BigOperators

noncomputable section

namespace Cert.Spec

variable {ι κ γ ω : Type} [Fintype κ] [Fintype γ]

/-- The rectifier. -/
def relu (x : EReal) : EReal := max x 0

/-- The matrix product. -/
def mm (x : ι → κ → EReal) (w : κ → γ → EReal) : ι → γ → EReal :=
  fun i j => ∑ k, x i k * w k j

/-- One edge type's contribution as the reference evaluates it: `agg · Wl + bl + x_dst · Wr`. -/
def sageR (a xd : ι → κ → EReal) (wl wr : κ → γ → EReal) (b : γ → EReal) : ι → γ → EReal :=
  fun i j => (mm a wl i j + b j) + mm xd wr i j

/-- A layer with one incoming edge type, as the reference evaluates it. -/
def layer1R (a xd : ι → κ → EReal) (wl wr : κ → γ → EReal) (b : γ → EReal) : ι → γ → EReal :=
  fun i j => relu (sageR a xd wl wr b i j)

/-- A layer with one incoming edge type, as the kernel evaluates it. -/
def layer1K (a xd : ι → κ → EReal) (wl wr : κ → γ → EReal) (b : γ → EReal) : ι → γ → EReal :=
  fun i j => relu ((mm xd wr i j + mm a wl i j) + b j)

/-- A layer with five incoming edge types, as the reference evaluates it. -/
def layer5R (a0 a1 a2 a3 a4 xd : ι → κ → EReal)
    (wl0 wl1 wl2 wl3 wl4 wr0 wr1 wr2 wr3 wr4 : κ → γ → EReal) (b0 b1 b2 b3 b4 : γ → EReal) :
    ι → γ → EReal :=
  fun i j => relu ((((sageR a0 xd wl0 wr0 b0 i j + sageR a1 xd wl1 wr1 b1 i j)
    + sageR a2 xd wl2 wr2 b2 i j) + sageR a3 xd wl3 wr3 b3 i j) + sageR a4 xd wl4 wr4 b4 i j)

/-- A layer with five incoming edge types, as the kernel evaluates it: `wrs` and `bs` are the
    sums of the five root weights and of the five biases. -/
def layer5K (a0 a1 a2 a3 a4 xd : ι → κ → EReal) (wl0 wl1 wl2 wl3 wl4 : κ → γ → EReal)
    (wrs : κ → γ → EReal) (bs : γ → EReal) : ι → γ → EReal :=
  fun i j => relu ((((((mm xd wrs i j + mm a0 wl0 i j) + mm a1 wl1 i j) + mm a2 wl2 i j)
    + mm a3 wl3 i j) + mm a4 wl4 i j) + bs j)

/-- The two-layer perceptron head. -/
def head (x : ι → κ → EReal) (w1 : κ → γ → EReal) (b1 : γ → EReal) (w2 : γ → ω → EReal)
    (b2 : ω → EReal) : ι → ω → EReal :=
  fun i o => (∑ h, relu (mm x w1 i h + b1 h) * w2 h o) + b2 o

/-- An extended real that is a real number. -/
def IsReal (x : EReal) : Prop := ∃ r : ℝ, x = (r : EReal)

end Cert.Spec

end
-- ==== Proof.SpecLaw.lean ====
import proofs.«125545_j64845416235624_1_alg».proof.Proof.Spec

/-!
  The algebra of the specification: the kernel's evaluation of a layer equals the reference's on
  real entries, and every specified value is a real number when the entries are.
-/

open scoped BigOperators

noncomputable section

namespace Cert.Spec

variable {ι κ γ ω : Type} [Fintype κ] [Fintype γ]

/-! ### Real numbers among the extended reals -/

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  rcases le_total x y with h | h
  · rw [max_eq_right h]; exact hy
  · rw [max_eq_left h]; exact hx

theorem isReal_sum {α : Type} (s : Finset α) (f : α → EReal) (h : ∀ a ∈ s, IsReal (f a)) :
    IsReal (∑ a ∈ s, f a) := by
  classical
  induction s using Finset.induction_on with
  | empty => rw [Finset.sum_empty]; exact isReal_zero
  | insert a s ha ih =>
    rw [Finset.sum_insert ha]
    exact isReal_add (h a (Finset.mem_insert_self a s))
      (ih fun b hb => h b (Finset.mem_insert_of_mem hb))

theorem isReal_relu {x : EReal} (hx : IsReal x) : IsReal (relu x) := isReal_max hx isReal_zero

/-- A quotient of reals by a real that is at least one is real. -/
theorem isReal_div_of_one_le {x y : EReal} (hx : IsReal x) (hy : IsReal y) (h1 : 1 ≤ y) :
    IsReal (Idealize.ShloMosaic.Ideal.div x y) := by
  obtain ⟨a, rfl⟩ := hx
  obtain ⟨b, rfl⟩ := hy
  have hb : (1 : ℝ) ≤ b := by exact_mod_cast h1
  have hb0 : b ≠ 0 := by intro h0; rw [h0] at hb; exact absurd hb (by norm_num)
  rw [Idealize.ShloMosaic.Ideal.div_coe hb0]
  exact isReal_mul (isReal_coe a) (isReal_coe _)

/-- The least the count of a mean is divided by. -/
theorem one_le_max_one (c : EReal) : 1 ≤ max c 1 := le_max_right c 1

/-! ### The specified values are real -/

theorem isReal_mm {x : ι → κ → EReal} {w : κ → γ → EReal} (i : ι) (j : γ)
    (hx : ∀ k, IsReal (x i k)) (hw : ∀ k, IsReal (w k j)) : IsReal (mm x w i j) :=
  isReal_sum _ _ fun k _ => isReal_mul (hx k) (hw k)

theorem isReal_sageR {a xd : ι → κ → EReal} {wl wr : κ → γ → EReal} {b : γ → EReal} (i : ι) (j : γ)
    (ha : ∀ k, IsReal (a i k)) (hxd : ∀ k, IsReal (xd i k)) (hwl : ∀ k, IsReal (wl k j))
    (hwr : ∀ k, IsReal (wr k j)) (hb : IsReal (b j)) : IsReal (sageR a xd wl wr b i j) :=
  isReal_add (isReal_add (isReal_mm i j ha hwl) hb) (isReal_mm i j hxd hwr)

theorem isReal_layer1R {a xd : ι → κ → EReal} {wl wr : κ → γ → EReal} {b : γ → EReal} (i : ι) (j : γ)
    (ha : ∀ k, IsReal (a i k)) (hxd : ∀ k, IsReal (xd i k)) (hwl : ∀ k, IsReal (wl k j))
    (hwr : ∀ k, IsReal (wr k j)) (hb : IsReal (b j)) : IsReal (layer1R a xd wl wr b i j) :=
  isReal_relu (isReal_sageR i j ha hxd hwl hwr hb)

theorem isReal_layer1K {a xd : ι → κ → EReal} {wl wr : κ → γ → EReal} {b : γ → EReal} (i : ι) (j : γ)
    (ha : ∀ k, IsReal (a i k)) (hxd : ∀ k, IsReal (xd i k)) (hwl : ∀ k, IsReal (wl k j))
    (hwr : ∀ k, IsReal (wr k j)) (hb : IsReal (b j)) : IsReal (layer1K a xd wl wr b i j) :=
  isReal_relu (isReal_add (isReal_add (isReal_mm i j hxd hwr) (isReal_mm i j ha hwl)) hb)

theorem isReal_layer5R {a0 a1 a2 a3 a4 xd : ι → κ → EReal}
    {wl0 wl1 wl2 wl3 wl4 wr0 wr1 wr2 wr3 wr4 : κ → γ → EReal} {b0 b1 b2 b3 b4 : γ → EReal}
    (i : ι) (j : γ)
    (ha0 : ∀ k, IsReal (a0 i k)) (ha1 : ∀ k, IsReal (a1 i k)) (ha2 : ∀ k, IsReal (a2 i k))
    (ha3 : ∀ k, IsReal (a3 i k)) (ha4 : ∀ k, IsReal (a4 i k)) (hxd : ∀ k, IsReal (xd i k))
    (hwl0 : ∀ k, IsReal (wl0 k j)) (hwl1 : ∀ k, IsReal (wl1 k j)) (hwl2 : ∀ k, IsReal (wl2 k j))
    (hwl3 : ∀ k, IsReal (wl3 k j)) (hwl4 : ∀ k, IsReal (wl4 k j))
    (hwr0 : ∀ k, IsReal (wr0 k j)) (hwr1 : ∀ k, IsReal (wr1 k j)) (hwr2 : ∀ k, IsReal (wr2 k j))
    (hwr3 : ∀ k, IsReal (wr3 k j)) (hwr4 : ∀ k, IsReal (wr4 k j))
    (hb0 : IsReal (b0 j)) (hb1 : IsReal (b1 j)) (hb2 : IsReal (b2 j)) (hb3 : IsReal (b3 j))
    (hb4 : IsReal (b4 j)) :
    IsReal (layer5R a0 a1 a2 a3 a4 xd wl0 wl1 wl2 wl3 wl4 wr0 wr1 wr2 wr3 wr4 b0 b1 b2 b3 b4 i j) :=
  isReal_relu (isReal_add (isReal_add (isReal_add (isReal_add
    (isReal_sageR i j ha0 hxd hwl0 hwr0 hb0) (isReal_sageR i j ha1 hxd hwl1 hwr1 hb1))
    (isReal_sageR i j ha2 hxd hwl2 hwr2 hb2)) (isReal_sageR i j ha3 hxd hwl3 hwr3 hb3))
    (isReal_sageR i j ha4 hxd hwl4 hwr4 hb4))

theorem isReal_layer5K {a0 a1 a2 a3 a4 xd : ι → κ → EReal} {wl0 wl1 wl2 wl3 wl4 : κ → γ → EReal}
    {wrs : κ → γ → EReal} {bs : γ → EReal} (i : ι) (j : γ)
    (ha0 : ∀ k, IsReal (a0 i k)) (ha1 : ∀ k, IsReal (a1 i k)) (ha2 : ∀ k, IsReal (a2 i k))
    (ha3 : ∀ k, IsReal (a3 i k)) (ha4 : ∀ k, IsReal (a4 i k)) (hxd : ∀ k, IsReal (xd i k))
    (hwl0 : ∀ k, IsReal (wl0 k j)) (hwl1 : ∀ k, IsReal (wl1 k j)) (hwl2 : ∀ k, IsReal (wl2 k j))
    (hwl3 : ∀ k, IsReal (wl3 k j)) (hwl4 : ∀ k, IsReal (wl4 k j))
    (hwrs : ∀ k, IsReal (wrs k j)) (hbs : IsReal (bs j)) :
    IsReal (layer5K a0 a1 a2 a3 a4 xd wl0 wl1 wl2 wl3 wl4 wrs bs i j) :=
  isReal_relu (isReal_add (isReal_add (isReal_add (isReal_add (isReal_add (isReal_add
    (isReal_mm i j hxd hwrs) (isReal_mm i j ha0 hwl0)) (isReal_mm i j ha1 hwl1))
    (isReal_mm i j ha2 hwl2)) (isReal_mm i j ha3 hwl3)) (isReal_mm i j ha4 hwl4)) hbs)

theorem isReal_head {x : ι → κ → EReal} {w1 : κ → γ → EReal} {b1 : γ → EReal} {w2 : γ → ω → EReal}
    {b2 : ω → EReal} (i : ι) (o : ω)
    (hx : ∀ k, IsReal (x i k)) (hw1 : ∀ k h, IsReal (w1 k h)) (hb1 : ∀ h, IsReal (b1 h))
    (hw2 : ∀ h, IsReal (w2 h o)) (hb2 : IsReal (b2 o)) : IsReal (head x w1 b1 w2 b2 i o) :=
  isReal_add (isReal_sum _ _ fun h _ =>
    isReal_mul (isReal_relu (isReal_add (isReal_mm i h hx fun k => hw1 k h) (hb1 h))) (hw2 h)) hb2

/-! ### The one-aggregate layer: a reordering of the sum -/

theorem layer1K_eq_layer1R (a xd : ι → κ → EReal) (wl wr : κ → γ → EReal) (b : γ → EReal) :
    layer1K a xd wl wr b = layer1R a xd wl wr b := by
  funext i j
  show relu ((mm xd wr i j + mm a wl i j) + b j) = relu ((mm a wl i j + b j) + mm xd wr i j)
  congr 1
  rw [add_comm (mm xd wr i j) (mm a wl i j), add_assoc, add_comm (mm xd wr i j) (b j), ← add_assoc]

/-! ### The five-aggregate layer: distributivity, on real entries -/

/-- The coercion of a finite sum of reals. -/
theorem coe_sum {α : Type} (s : Finset α) (f : α → ℝ) :
    ((∑ a ∈ s, f a : ℝ) : EReal) = ∑ a ∈ s, (f a : EReal) := by
  classical
  induction s using Finset.induction_on with
  | empty => rw [Finset.sum_empty, Finset.sum_empty, EReal.coe_zero]
  | insert a s ha ih => rw [Finset.sum_insert ha, Finset.sum_insert ha, EReal.coe_add, ih]

/-- A matrix product of real matrices is the real matrix product. -/
theorem mm_coe (x : ι → κ → ℝ) (w : κ → γ → ℝ) (i : ι) (j : γ) :
    mm (fun i k => (x i k : EReal)) (fun k j => (w k j : EReal)) i j
      = ((∑ k, x i k * w k j : ℝ) : EReal) := by
  show (∑ k, (x i k : EReal) * (w k j : EReal)) = _
  rw [coe_sum]
  exact Finset.sum_congr rfl fun k _ => (EReal.coe_mul _ _).symm

/-- A matrix of real entries is the coercion of a real matrix. -/
theorem exists_real_matrix {α β : Type} (f : α → β → EReal) (h : ∀ a b, IsReal (f a b)) :
    ∃ g : α → β → ℝ, f = fun a b => (g a b : EReal) := by
  choose g hg using h
  exact ⟨g, funext fun a => funext fun b => hg a b⟩

/-- A vector of real entries is the coercion of a real vector. -/
theorem exists_real_vector {α : Type} (f : α → EReal) (h : ∀ a, IsReal (f a)) :
    ∃ g : α → ℝ, f = fun a => (g a : EReal) := by
  choose g hg using h
  exact ⟨g, funext fun a => hg a⟩

/-- The distributive law the five-aggregate layer rests on, over the reals. -/
theorem real_layer5 (a0 a1 a2 a3 a4 xd wl0 wl1 wl2 wl3 wl4 wr0 wr1 wr2 wr3 wr4 : κ → ℝ)
    (b0 b1 b2 b3 b4 : ℝ) :
    ((((((∑ k, xd k * ((((wr0 k + wr1 k) + wr2 k) + wr3 k) + wr4 k) + ∑ k, a0 k * wl0 k)
        + ∑ k, a1 k * wl1 k) + ∑ k, a2 k * wl2 k) + ∑ k, a3 k * wl3 k) + ∑ k, a4 k * wl4 k)
        + ((((b0 + b1) + b2) + b3) + b4))
      = ((((((∑ k, a0 k * wl0 k + b0) + ∑ k, xd k * wr0 k)
          + ((∑ k, a1 k * wl1 k + b1) + ∑ k, xd k * wr1 k))
          + ((∑ k, a2 k * wl2 k + b2) + ∑ k, xd k * wr2 k))
          + ((∑ k, a3 k * wl3 k + b3) + ∑ k, xd k * wr3 k))
          + ((∑ k, a4 k * wl4 k + b4) + ∑ k, xd k * wr4 k)) := by
  simp only [mul_add, Finset.sum_add_distrib]
  ring

theorem layer5K_eq_layer5R (a0 a1 a2 a3 a4 xd : ι → κ → EReal)
    (wl0 wl1 wl2 wl3 wl4 wr0 wr1 wr2 wr3 wr4 : κ → γ → EReal) (b0 b1 b2 b3 b4 : γ → EReal)
    (ha0 : ∀ i k, IsReal (a0 i k)) (ha1 : ∀ i k, IsReal (a1 i k)) (ha2 : ∀ i k, IsReal (a2 i k))
    (ha3 : ∀ i k, IsReal (a3 i k)) (ha4 : ∀ i k, IsReal (a4 i k)) (hxd : ∀ i k, IsReal (xd i k))
    (hwl0 : ∀ k j, IsReal (wl0 k j)) (hwl1 : ∀ k j, IsReal (wl1 k j))
    (hwl2 : ∀ k j, IsReal (wl2 k j)) (hwl3 : ∀ k j, IsReal (wl3 k j))
    (hwl4 : ∀ k j, IsReal (wl4 k j))
    (hwr0 : ∀ k j, IsReal (wr0 k j)) (hwr1 : ∀ k j, IsReal (wr1 k j))
    (hwr2 : ∀ k j, IsReal (wr2 k j)) (hwr3 : ∀ k j, IsReal (wr3 k j))
    (hwr4 : ∀ k j, IsReal (wr4 k j))
    (hb0 : ∀ j, IsReal (b0 j)) (hb1 : ∀ j, IsReal (b1 j)) (hb2 : ∀ j, IsReal (b2 j))
    (hb3 : ∀ j, IsReal (b3 j)) (hb4 : ∀ j, IsReal (b4 j)) :
    layer5K a0 a1 a2 a3 a4 xd wl0 wl1 wl2 wl3 wl4
        (fun k j => (((wr0 k j + wr1 k j) + wr2 k j) + wr3 k j) + wr4 k j)
        (fun j => (((b0 j + b1 j) + b2 j) + b3 j) + b4 j)
      = layer5R a0 a1 a2 a3 a4 xd wl0 wl1 wl2 wl3 wl4 wr0 wr1 wr2 wr3 wr4 b0 b1 b2 b3 b4 := by
  obtain ⟨a0, rfl⟩ := exists_real_matrix a0 ha0
  obtain ⟨a1, rfl⟩ := exists_real_matrix a1 ha1
  obtain ⟨a2, rfl⟩ := exists_real_matrix a2 ha2
  obtain ⟨a3, rfl⟩ := exists_real_matrix a3 ha3
  obtain ⟨a4, rfl⟩ := exists_real_matrix a4 ha4
  obtain ⟨xd, rfl⟩ := exists_real_matrix xd hxd
  obtain ⟨wl0, rfl⟩ := exists_real_matrix wl0 hwl0
  obtain ⟨wl1, rfl⟩ := exists_real_matrix wl1 hwl1
  obtain ⟨wl2, rfl⟩ := exists_real_matrix wl2 hwl2
  obtain ⟨wl3, rfl⟩ := exists_real_matrix wl3 hwl3
  obtain ⟨wl4, rfl⟩ := exists_real_matrix wl4 hwl4
  obtain ⟨wr0, rfl⟩ := exists_real_matrix wr0 hwr0
  obtain ⟨wr1, rfl⟩ := exists_real_matrix wr1 hwr1
  obtain ⟨wr2, rfl⟩ := exists_real_matrix wr2 hwr2
  obtain ⟨wr3, rfl⟩ := exists_real_matrix wr3 hwr3
  obtain ⟨wr4, rfl⟩ := exists_real_matrix wr4 hwr4
  obtain ⟨b0, rfl⟩ := exists_real_vector b0 hb0
  obtain ⟨b1, rfl⟩ := exists_real_vector b1 hb1
  obtain ⟨b2, rfl⟩ := exists_real_vector b2 hb2
  obtain ⟨b3, rfl⟩ := exists_real_vector b3 hb3
  obtain ⟨b4, rfl⟩ := exists_real_vector b4 hb4
  funext i j
  simp only [layer5K, layer5R, sageR, ← EReal.coe_add, mm_coe]
  exact congrArg (fun r : ℝ => relu (r : EReal))
    (real_layer5 (a0 i) (a1 i) (a2 i) (a3 i) (a4 i) (xd i) (fun k => wl0 k j) (fun k => wl1 k j)
      (fun k => wl2 k j) (fun k => wl3 k j) (fun k => wl4 k j) (fun k => wr0 k j)
      (fun k => wr1 k j) (fun k => wr2 k j) (fun k => wr3 k j) (fun k => wr4 k j)
      (b0 j) (b1 j) (b2 j) (b3 j) (b4 j))

end Cert.Spec

end
-- ==== Proof.SpecNet.lean ====
import proofs.«125545_j64845416235624_1_alg».proof.Proof.SpecLaw

/-!
  The whole network, abstractly: four node types (bus, generator, load, shunt) with features of
  one width, eight edge types each with a mean aggregation, and per layer one five-aggregate
  combination for the bus and a one-aggregate combination for each other type.  The kernel's
  evaluation of a layer, and of three layers, equals the reference's when every entry is real
  and the aggregations keep real entries real.
-/

open scoped BigOperators

noncomputable section

namespace Cert.Spec

variable {ιb ιg ιl ιs κ : Type} [Fintype κ]

/-- The features of the four node types. -/
structure Feat (ιb ιg ιl ιs κ : Type) where
  b : ιb → κ → EReal
  g : ιg → κ → EReal
  l : ιl → κ → EReal
  s : ιs → κ → EReal

/-- The eight aggregations, each from the features of its source type to rows of its destination
    type: five arrive at the bus (from bus twice, generator, load, shunt), one at each other type
    (from bus). -/
structure Aggs (ιb ιg ιl ιs κ : Type) where
  ac : (ιb → κ → EReal) → ιb → κ → EReal
  tr : (ιb → κ → EReal) → ιb → κ → EReal
  gb : (ιg → κ → EReal) → ιb → κ → EReal
  lb : (ιl → κ → EReal) → ιb → κ → EReal
  sb : (ιs → κ → EReal) → ιb → κ → EReal
  bg : (ιb → κ → EReal) → ιg → κ → EReal
  bl : (ιb → κ → EReal) → ιl → κ → EReal
  bs : (ιb → κ → EReal) → ιs → κ → EReal

/-- Every feature is a real number. -/
structure Feat.Real (x : Feat ιb ιg ιl ιs κ) : Prop where
  b : ∀ i k, IsReal (x.b i k)
  g : ∀ i k, IsReal (x.g i k)
  l : ∀ i k, IsReal (x.l i k)
  s : ∀ i k, IsReal (x.s i k)

/-- Every aggregation takes real features to real rows. -/
structure Aggs.Real (A : Aggs ιb ιg ιl ιs κ) : Prop where
  ac : ∀ x, (∀ i k, IsReal (x i k)) → ∀ i k, IsReal (A.ac x i k)
  tr : ∀ x, (∀ i k, IsReal (x i k)) → ∀ i k, IsReal (A.tr x i k)
  gb : ∀ x, (∀ i k, IsReal (x i k)) → ∀ i k, IsReal (A.gb x i k)
  lb : ∀ x, (∀ i k, IsReal (x i k)) → ∀ i k, IsReal (A.lb x i k)
  sb : ∀ x, (∀ i k, IsReal (x i k)) → ∀ i k, IsReal (A.sb x i k)
  bg : ∀ x, (∀ i k, IsReal (x i k)) → ∀ i k, IsReal (A.bg x i k)
  bl : ∀ x, (∀ i k, IsReal (x i k)) → ∀ i k, IsReal (A.bl x i k)
  bs : ∀ x, (∀ i k, IsReal (x i k)) → ∀ i k, IsReal (A.bs x i k)

/-- One layer as the kernel evaluates it; the eight edge types' weights are indexed
    `0, 1, 2, 4, 6` into the bus and `3, 5, 7` into the generator, load and shunt. -/
def stepK (A : Aggs ιb ιg ιl ιs κ) (Wl Wr : Fin 8 → κ → κ → EReal) (bl : Fin 8 → κ → EReal)
    (x : Feat ιb ιg ιl ιs κ) : Feat ιb ιg ιl ιs κ :=
  { b := layer5K (A.ac x.b) (A.tr x.b) (A.gb x.g) (A.lb x.l) (A.sb x.s) x.b
      (Wl 0) (Wl 1) (Wl 2) (Wl 4) (Wl 6)
      (fun k j => (((Wr 0 k j + Wr 1 k j) + Wr 2 k j) + Wr 4 k j) + Wr 6 k j)
      (fun j => (((bl 0 j + bl 1 j) + bl 2 j) + bl 4 j) + bl 6 j)
    g := layer1K (A.bg x.b) x.g (Wl 3) (Wr 3) (bl 3)
    l := layer1K (A.bl x.b) x.l (Wl 5) (Wr 5) (bl 5)
    s := layer1K (A.bs x.b) x.s (Wl 7) (Wr 7) (bl 7) }

/-- One layer as the reference evaluates it. -/
def stepR (A : Aggs ιb ιg ιl ιs κ) (Wl Wr : Fin 8 → κ → κ → EReal) (bl : Fin 8 → κ → EReal)
    (x : Feat ιb ιg ιl ιs κ) : Feat ιb ιg ιl ιs κ :=
  { b := layer5R (A.ac x.b) (A.tr x.b) (A.gb x.g) (A.lb x.l) (A.sb x.s) x.b
      (Wl 0) (Wl 1) (Wl 2) (Wl 4) (Wl 6) (Wr 0) (Wr 1) (Wr 2) (Wr 4) (Wr 6)
      (bl 0) (bl 1) (bl 2) (bl 4) (bl 6)
    g := layer1R (A.bg x.b) x.g (Wl 3) (Wr 3) (bl 3)
    l := layer1R (A.bl x.b) x.l (Wl 5) (Wr 5) (bl 5)
    s := layer1R (A.bs x.b) x.s (Wl 7) (Wr 7) (bl 7) }

theorem stepK_eq_stepR {A : Aggs ιb ιg ιl ιs κ} {Wl Wr : Fin 8 → κ → κ → EReal}
    {bl : Fin 8 → κ → EReal} {x : Feat ιb ιg ιl ιs κ} (hA : A.Real) (hx : x.Real)
    (hWl : ∀ e k j, IsReal (Wl e k j)) (hWr : ∀ e k j, IsReal (Wr e k j))
    (hbl : ∀ e j, IsReal (bl e j)) : stepK A Wl Wr bl x = stepR A Wl Wr bl x := by
  have hb := layer5K_eq_layer5R (A.ac x.b) (A.tr x.b) (A.gb x.g) (A.lb x.l) (A.sb x.s) x.b
    (Wl 0) (Wl 1) (Wl 2) (Wl 4) (Wl 6) (Wr 0) (Wr 1) (Wr 2) (Wr 4) (Wr 6)
    (bl 0) (bl 1) (bl 2) (bl 4) (bl 6)
    (hA.ac _ hx.b) (hA.tr _ hx.b) (hA.gb _ hx.g) (hA.lb _ hx.l) (hA.sb _ hx.s) hx.b
    (hWl 0) (hWl 1) (hWl 2) (hWl 4) (hWl 6) (hWr 0) (hWr 1) (hWr 2) (hWr 4) (hWr 6)
    (hbl 0) (hbl 1) (hbl 2) (hbl 4) (hbl 6)
  simp only [stepK, stepR, hb, layer1K_eq_layer1R]

theorem stepR_real {A : Aggs ιb ιg ιl ιs κ} {Wl Wr : Fin 8 → κ → κ → EReal}
    {bl : Fin 8 → κ → EReal} {x : Feat ιb ιg ιl ιs κ} (hA : A.Real) (hx : x.Real)
    (hWl : ∀ e k j, IsReal (Wl e k j)) (hWr : ∀ e k j, IsReal (Wr e k j))
    (hbl : ∀ e j, IsReal (bl e j)) : (stepR A Wl Wr bl x).Real where
  b := fun i j => isReal_layer5R i j (hA.ac _ hx.b i) (hA.tr _ hx.b i) (hA.gb _ hx.g i)
    (hA.lb _ hx.l i) (hA.sb _ hx.s i) (hx.b i)
    (fun k => hWl 0 k j) (fun k => hWl 1 k j) (fun k => hWl 2 k j) (fun k => hWl 4 k j)
    (fun k => hWl 6 k j) (fun k => hWr 0 k j) (fun k => hWr 1 k j) (fun k => hWr 2 k j)
    (fun k => hWr 4 k j) (fun k => hWr 6 k j) (hbl 0 j) (hbl 1 j) (hbl 2 j) (hbl 4 j) (hbl 6 j)
  g := fun i j => isReal_layer1R i j (hA.bg _ hx.b i) (hx.g i) (fun k => hWl 3 k j)
    (fun k => hWr 3 k j) (hbl 3 j)
  l := fun i j => isReal_layer1R i j (hA.bl _ hx.b i) (hx.l i) (fun k => hWl 5 k j)
    (fun k => hWr 5 k j) (hbl 5 j)
  s := fun i j => isReal_layer1R i j (hA.bs _ hx.b i) (hx.s i) (fun k => hWl 7 k j)
    (fun k => hWr 7 k j) (hbl 7 j)

theorem stepK_real {A : Aggs ιb ιg ιl ιs κ} {Wl Wr : Fin 8 → κ → κ → EReal}
    {bl : Fin 8 → κ → EReal} {x : Feat ιb ιg ιl ιs κ} (hA : A.Real) (hx : x.Real)
    (hWl : ∀ e k j, IsReal (Wl e k j)) (hWr : ∀ e k j, IsReal (Wr e k j))
    (hbl : ∀ e j, IsReal (bl e j)) : (stepK A Wl Wr bl x).Real := by
  rw [stepK_eq_stepR hA hx hWl hWr hbl]
  exact stepR_real hA hx hWl hWr hbl

/-- Three layers as the kernel evaluates them. -/
def net3K (A : Aggs ιb ιg ιl ιs κ) (WL WR : Fin 3 → Fin 8 → κ → κ → EReal)
    (BL : Fin 3 → Fin 8 → κ → EReal) (x : Feat ιb ιg ιl ιs κ) : Feat ιb ιg ιl ιs κ :=
  stepK A (WL 2) (WR 2) (BL 2) (stepK A (WL 1) (WR 1) (BL 1) (stepK A (WL 0) (WR 0) (BL 0) x))

/-- Three layers as the reference evaluates them. -/
def net3R (A : Aggs ιb ιg ιl ιs κ) (WL WR : Fin 3 → Fin 8 → κ → κ → EReal)
    (BL : Fin 3 → Fin 8 → κ → EReal) (x : Feat ιb ιg ιl ιs κ) : Feat ιb ιg ιl ιs κ :=
  stepR A (WL 2) (WR 2) (BL 2) (stepR A (WL 1) (WR 1) (BL 1) (stepR A (WL 0) (WR 0) (BL 0) x))

theorem net3R_real {A : Aggs ιb ιg ιl ιs κ} {WL WR : Fin 3 → Fin 8 → κ → κ → EReal}
    {BL : Fin 3 → Fin 8 → κ → EReal} {x : Feat ιb ιg ιl ιs κ} (hA : A.Real) (hx : x.Real)
    (hWL : ∀ l e k j, IsReal (WL l e k j)) (hWR : ∀ l e k j, IsReal (WR l e k j))
    (hBL : ∀ l e j, IsReal (BL l e j)) : (net3R A WL WR BL x).Real :=
  stepR_real hA (stepR_real hA (stepR_real hA hx (hWL 0) (hWR 0) (hBL 0)) (hWL 1) (hWR 1) (hBL 1))
    (hWL 2) (hWR 2) (hBL 2)

theorem net3K_eq_net3R {A : Aggs ιb ιg ιl ιs κ} {WL WR : Fin 3 → Fin 8 → κ → κ → EReal}
    {BL : Fin 3 → Fin 8 → κ → EReal} {x : Feat ιb ιg ιl ιs κ} (hA : A.Real) (hx : x.Real)
    (hWL : ∀ l e k j, IsReal (WL l e k j)) (hWR : ∀ l e k j, IsReal (WR l e k j))
    (hBL : ∀ l e j, IsReal (BL l e j)) : net3K A WL WR BL x = net3R A WL WR BL x := by
  have h0 := stepR_real hA hx (hWL 0) (hWR 0) (hBL 0)
  have h1 := stepR_real hA h0 (hWL 1) (hWR 1) (hBL 1)
  unfold net3K net3R
  rw [stepK_eq_stepR hA hx (hWL 0) (hWR 0) (hBL 0), stepK_eq_stepR hA h0 (hWL 1) (hWR 1) (hBL 1),
    stepK_eq_stepR hA h1 (hWL 2) (hWR 2) (hBL 2)]

theorem net3K_real {A : Aggs ιb ιg ιl ιs κ} {WL WR : Fin 3 → Fin 8 → κ → κ → EReal}
    {BL : Fin 3 → Fin 8 → κ → EReal} {x : Feat ιb ιg ιl ιs κ} (hA : A.Real) (hx : x.Real)
    (hWL : ∀ l e k j, IsReal (WL l e k j)) (hWR : ∀ l e k j, IsReal (WR l e k j))
    (hBL : ∀ l e j, IsReal (BL l e j)) : (net3K A WL WR BL x).Real := by
  rw [net3K_eq_net3R hA hx hWL hWR hBL]
  exact net3R_real hA hx hWL hWR hBL

end Cert.Spec

end
-- ==== Proof.KI.Agg.lean ====
/- The mean aggregation of @main's host side, one definition per edge type: the source rows gathered along the
   edges (row 0 of the edge index, a negative entry wrapped by the source count), summed into the destination rows
   (row 1), and divided by the number of edges arriving at each destination, at least one. Each definition is the
   composition of the printed operations of one aggregation, generic in the float values. -/
import proofs.«125545_j64845416235624_1_alg».proof.KernelIdeal

noncomputable section

namespace Cert.KernelIdeal.Hand

open Idealize.ShloMosaic Idealize.SL.Sem
open Cert.KernelIdeal

variable {F : FTy → Type} [FloatOps F] [Facts₀]
open Facts₀

/-- Mean over the incoming edges of type ac (bus to bus, lines): for destination row d and feature j, the sum over the edges k
    with destination d of x at the source row of k, divided by the number of such edges or by one if there is none. -/
def aggK_ac (x : Vec F S100000x128 .f32) (ei : IVec S2x500000 32) : Vec F S100000x128 .f32 :=
  Host.divf
    (Host.scatterAdd scatter_S100000x128_S500000x1_S500000x128_1_0_0_1
      (broadcastInDim S100000x128 ![] bcast_S_S100000x128 (constant S_ .f32 0x00000000#32))
      (broadcastInDim S500000x1 ![0] bcast_S500000_S500000x1_0
        (shapeCast _ (extractStridedSlice S1x500000 ![1, 0] ei slices_S2x500000_S1x500000_1_0) shapeCasts_S1x500000_S500000))
      (Host.gather gather_S100000x128_S500000x1_S500000x128_1_0_n_n_0_1_1128 x
        (broadcastInDim S500000x1 ![0] bcast_S500000_S500000x1_0
          (select
            (cmpi .slt (shapeCast _ (extractStridedSlice S1x500000 ![0, 0] ei slices_S2x500000_S1x500000_0_0) shapeCasts_S1x500000_S500000)
              (broadcastInDim S500000 ![] bcast_S_S500000 (constantI S_ 32 0#32)))
            (addi (shapeCast _ (extractStridedSlice S1x500000 ![0, 0] ei slices_S2x500000_S1x500000_0_0) shapeCasts_S1x500000_S500000)
              (broadcastInDim S500000 ![] bcast_S_S500000 (constantI S_ 32 100000#32)))
            (shapeCast _ (extractStridedSlice S1x500000 ![0, 0] ei slices_S2x500000_S1x500000_0_0) shapeCasts_S1x500000_S500000)))))
    (broadcastInDim S100000x128 ![0, 1] bcast_S100000x1_S100000x128_0_1
      (broadcastInDim S100000x1 ![0] bcast_S100000_S100000x1_0
        (maximumf
          (Host.scatterAdd scatter_S100000_S500000x1_S500000_n_0_0_1
            (broadcastInDim S100000 ![] bcast_S_S100000 (constant S_ .f32 0x00000000#32))
            (broadcastInDim S500000x1 ![0] bcast_S500000_S500000x1_0
              (shapeCast _ (extractStridedSlice S1x500000 ![1, 0] ei slices_S2x500000_S1x500000_1_0) shapeCasts_S1x500000_S500000))
            (broadcastInDim S500000 ![] bcast_S_S500000 (constant S_ .f32 0x3F800000#32)))
          (broadcastInDim S100000 ![] bcast_S_S100000 (constant S_ .f32 0x3F800000#32)))))

/-- Mean over the incoming edges of type tr (bus to bus, transformers): for destination row d and feature j, the sum over the edges k
    with destination d of x at the source row of k, divided by the number of such edges or by one if there is none. -/
def aggK_tr (x : Vec F S100000x128 .f32) (ei : IVec S2x100000 32) : Vec F S100000x128 .f32 :=
  Host.divf
    (Host.scatterAdd scatter_S100000x128_S100000x1_S100000x128_1_0_0_1
      (broadcastInDim S100000x128 ![] bcast_S_S100000x128 (constant S_ .f32 0x00000000#32))
      (broadcastInDim S100000x1 ![0] bcast_S100000_S100000x1_0
        (shapeCast _ (extractStridedSlice S1x100000 ![1, 0] ei slices_S2x100000_S1x100000_1_0) shapeCasts_S1x100000_S100000))
      (Host.gather gather_S100000x128_S100000x1_S100000x128_1_0_n_n_0_1_1128 x
        (broadcastInDim S100000x1 ![0] bcast_S100000_S100000x1_0
          (select
            (cmpi .slt (shapeCast _ (extractStridedSlice S1x100000 ![0, 0] ei slices_S2x100000_S1x100000_0_0) shapeCasts_S1x100000_S100000)
              (broadcastInDim S100000 ![] bcast_S_S100000 (constantI S_ 32 0#32)))
            (addi (shapeCast _ (extractStridedSlice S1x100000 ![0, 0] ei slices_S2x100000_S1x100000_0_0) shapeCasts_S1x100000_S100000)
              (broadcastInDim S100000 ![] bcast_S_S100000 (constantI S_ 32 100000#32)))
            (shapeCast _ (extractStridedSlice S1x100000 ![0, 0] ei slices_S2x100000_S1x100000_0_0) shapeCasts_S1x100000_S100000)))))
    (broadcastInDim S100000x128 ![0, 1] bcast_S100000x1_S100000x128_0_1
      (broadcastInDim S100000x1 ![0] bcast_S100000_S100000x1_0
        (maximumf
          (Host.scatterAdd scatter_S100000_S100000x1_S100000_n_0_0_1
            (broadcastInDim S100000 ![] bcast_S_S100000 (constant S_ .f32 0x00000000#32))
            (broadcastInDim S100000x1 ![0] bcast_S100000_S100000x1_0
              (shapeCast _ (extractStridedSlice S1x100000 ![1, 0] ei slices_S2x100000_S1x100000_1_0) shapeCasts_S1x100000_S100000))
            (broadcastInDim S100000 ![] bcast_S_S100000 (constant S_ .f32 0x3F800000#32)))
          (broadcastInDim S100000 ![] bcast_S_S100000 (constant S_ .f32 0x3F800000#32)))))

/-- Mean over the incoming edges of type gb (generator to bus): for destination row d and feature j, the sum over the edges k
    with destination d of x at the source row of k, divided by the number of such edges or by one if there is none. -/
def aggK_gb (x : Vec F S20000x128 .f32) (ei : IVec S2x20000 32) : Vec F S100000x128 .f32 :=
  Host.divf
    (Host.scatterAdd scatter_S100000x128_S20000x1_S20000x128_1_0_0_1
      (broadcastInDim S100000x128 ![] bcast_S_S100000x128 (constant S_ .f32 0x00000000#32))
      (broadcastInDim S20000x1 ![0] bcast_S20000_S20000x1_0
        (shapeCast _ (extractStridedSlice S1x20000 ![1, 0] ei slices_S2x20000_S1x20000_1_0) shapeCasts_S1x20000_S20000))
      (Host.gather gather_S20000x128_S20000x1_S20000x128_1_0_n_n_0_1_1128 x
        (broadcastInDim S20000x1 ![0] bcast_S20000_S20000x1_0
          (select
            (cmpi .slt (shapeCast _ (extractStridedSlice S1x20000 ![0, 0] ei slices_S2x20000_S1x20000_0_0) shapeCasts_S1x20000_S20000)
              (broadcastInDim S20000 ![] bcast_S_S20000 (constantI S_ 32 0#32)))
            (addi (shapeCast _ (extractStridedSlice S1x20000 ![0, 0] ei slices_S2x20000_S1x20000_0_0) shapeCasts_S1x20000_S20000)
              (broadcastInDim S20000 ![] bcast_S_S20000 (constantI S_ 32 20000#32)))
            (shapeCast _ (extractStridedSlice S1x20000 ![0, 0] ei slices_S2x20000_S1x20000_0_0) shapeCasts_S1x20000_S20000)))))
    (broadcastInDim S100000x128 ![0, 1] bcast_S100000x1_S100000x128_0_1
      (broadcastInDim S100000x1 ![0] bcast_S100000_S100000x1_0
        (maximumf
          (Host.scatterAdd scatter_S100000_S20000x1_S20000_n_0_0_1
            (broadcastInDim S100000 ![] bcast_S_S100000 (constant S_ .f32 0x00000000#32))
            (broadcastInDim S20000x1 ![0] bcast_S20000_S20000x1_0
              (shapeCast _ (extractStridedSlice S1x20000 ![1, 0] ei slices_S2x20000_S1x20000_1_0) shapeCasts_S1x20000_S20000))
            (broadcastInDim S20000 ![] bcast_S_S20000 (constant S_ .f32 0x3F800000#32)))
          (broadcastInDim S100000 ![] bcast_S_S100000 (constant S_ .f32 0x3F800000#32)))))

/-- Mean over the incoming edges of type lb (load to bus): for destination row d and feature j, the sum over the edges k
    with destination d of x at the source row of k, divided by the number of such edges or by one if there is none. -/
def aggK_lb (x : Vec F S50000x128 .f32) (ei : IVec S2x50000 32) : Vec F S100000x128 .f32 :=
  Host.divf
    (Host.scatterAdd scatter_S100000x128_S50000x1_S50000x128_1_0_0_1
      (broadcastInDim S100000x128 ![] bcast_S_S100000x128 (constant S_ .f32 0x00000000#32))
      (broadcastInDim S50000x1 ![0] bcast_S50000_S50000x1_0
        (shapeCast _ (extractStridedSlice S1x50000 ![1, 0] ei slices_S2x50000_S1x50000_1_0) shapeCasts_S1x50000_S50000))
      (Host.gather gather_S50000x128_S50000x1_S50000x128_1_0_n_n_0_1_1128 x
        (broadcastInDim S50000x1 ![0] bcast_S50000_S50000x1_0
          (select
            (cmpi .slt (shapeCast _ (extractStridedSlice S1x50000 ![0, 0] ei slices_S2x50000_S1x50000_0_0) shapeCasts_S1x50000_S50000)
              (broadcastInDim S50000 ![] bcast_S_S50000 (constantI S_ 32 0#32)))
            (addi (shapeCast _ (extractStridedSlice S1x50000 ![0, 0] ei slices_S2x50000_S1x50000_0_0) shapeCasts_S1x50000_S50000)
              (broadcastInDim S50000 ![] bcast_S_S50000 (constantI S_ 32 50000#32)))
            (shapeCast _ (extractStridedSlice S1x50000 ![0, 0] ei slices_S2x50000_S1x50000_0_0) shapeCasts_S1x50000_S50000)))))
    (broadcastInDim S100000x128 ![0, 1] bcast_S100000x1_S100000x128_0_1
      (broadcastInDim S100000x1 ![0] bcast_S100000_S100000x1_0
        (maximumf
          (Host.scatterAdd scatter_S100000_S50000x1_S50000_n_0_0_1
            (broadcastInDim S100000 ![] bcast_S_S100000 (constant S_ .f32 0x00000000#32))
            (broadcastInDim S50000x1 ![0] bcast_S50000_S50000x1_0
              (shapeCast _ (extractStridedSlice S1x50000 ![1, 0] ei slices_S2x50000_S1x50000_1_0) shapeCasts_S1x50000_S50000))
            (broadcastInDim S50000 ![] bcast_S_S50000 (constant S_ .f32 0x3F800000#32)))
          (broadcastInDim S100000 ![] bcast_S_S100000 (constant S_ .f32 0x3F800000#32)))))

/-- Mean over the incoming edges of type sb (shunt to bus): for destination row d and feature j, the sum over the edges k
    with destination d of x at the source row of k, divided by the number of such edges or by one if there is none. -/
def aggK_sb (x : Vec F S5000x128 .f32) (ei : IVec S2x5000 32) : Vec F S100000x128 .f32 :=
  Host.divf
    (Host.scatterAdd scatter_S100000x128_S5000x1_S5000x128_1_0_0_1
      (broadcastInDim S100000x128 ![] bcast_S_S100000x128 (constant S_ .f32 0x00000000#32))
      (broadcastInDim S5000x1 ![0] bcast_S5000_S5000x1_0
        (shapeCast _ (extractStridedSlice S1x5000 ![1, 0] ei slices_S2x5000_S1x5000_1_0) shapeCasts_S1x5000_S5000))
      (Host.gather gather_S5000x128_S5000x1_S5000x128_1_0_n_n_0_1_1128 x
        (broadcastInDim S5000x1 ![0] bcast_S5000_S5000x1_0
          (select
            (cmpi .slt (shapeCast _ (extractStridedSlice S1x5000 ![0, 0] ei slices_S2x5000_S1x5000_0_0) shapeCasts_S1x5000_S5000)
              (broadcastInDim S5000 ![] bcast_S_S5000 (constantI S_ 32 0#32)))
            (addi (shapeCast _ (extractStridedSlice S1x5000 ![0, 0] ei slices_S2x5000_S1x5000_0_0) shapeCasts_S1x5000_S5000)
              (broadcastInDim S5000 ![] bcast_S_S5000 (constantI S_ 32 5000#32)))
            (shapeCast _ (extractStridedSlice S1x5000 ![0, 0] ei slices_S2x5000_S1x5000_0_0) shapeCasts_S1x5000_S5000)))))
    (broadcastInDim S100000x128 ![0, 1] bcast_S100000x1_S100000x128_0_1
      (broadcastInDim S100000x1 ![0] bcast_S100000_S100000x1_0
        (maximumf
          (Host.scatterAdd scatter_S100000_S5000x1_S5000_n_0_0_1
            (broadcastInDim S100000 ![] bcast_S_S100000 (constant S_ .f32 0x00000000#32))
            (broadcastInDim S5000x1 ![0] bcast_S5000_S5000x1_0
              (shapeCast _ (extractStridedSlice S1x5000 ![1, 0] ei slices_S2x5000_S1x5000_1_0) shapeCasts_S1x5000_S5000))
            (broadcastInDim S5000 ![] bcast_S_S5000 (constant S_ .f32 0x3F800000#32)))
          (broadcastInDim S100000 ![] bcast_S_S100000 (constant S_ .f32 0x3F800000#32)))))

/-- Mean over the incoming edges of type bg (bus to generator): for destination row d and feature j, the sum over the edges k
    with destination d of x at the source row of k, divided by the number of such edges or by one if there is none. -/
def aggK_bg (x : Vec F S100000x128 .f32) (ei : IVec S2x20000 32) : Vec F S20000x128 .f32 :=
  Host.divf
    (Host.scatterAdd scatter_S20000x128_S20000x1_S20000x128_1_0_0_1
      (broadcastInDim S20000x128 ![] bcast_S_S20000x128 (constant S_ .f32 0x00000000#32))
      (broadcastInDim S20000x1 ![0] bcast_S20000_S20000x1_0
        (shapeCast _ (extractStridedSlice S1x20000 ![1, 0] ei slices_S2x20000_S1x20000_1_0) shapeCasts_S1x20000_S20000))
      (Host.gather gather_S100000x128_S20000x1_S20000x128_1_0_n_n_0_1_1128 x
        (broadcastInDim S20000x1 ![0] bcast_S20000_S20000x1_0
          (select
            (cmpi .slt (shapeCast _ (extractStridedSlice S1x20000 ![0, 0] ei slices_S2x20000_S1x20000_0_0) shapeCasts_S1x20000_S20000)
              (broadcastInDim S20000 ![] bcast_S_S20000 (constantI S_ 32 0#32)))
            (addi (shapeCast _ (extractStridedSlice S1x20000 ![0, 0] ei slices_S2x20000_S1x20000_0_0) shapeCasts_S1x20000_S20000)
              (broadcastInDim S20000 ![] bcast_S_S20000 (constantI S_ 32 100000#32)))
            (shapeCast _ (extractStridedSlice S1x20000 ![0, 0] ei slices_S2x20000_S1x20000_0_0) shapeCasts_S1x20000_S20000)))))
    (broadcastInDim S20000x128 ![0, 1] bcast_S20000x1_S20000x128_0_1
      (broadcastInDim S20000x1 ![0] bcast_S20000_S20000x1_0
        (maximumf
          (Host.scatterAdd scatter_S20000_S20000x1_S20000_n_0_0_1
            (broadcastInDim S20000 ![] bcast_S_S20000 (constant S_ .f32 0x00000000#32))
            (broadcastInDim S20000x1 ![0] bcast_S20000_S20000x1_0
              (shapeCast _ (extractStridedSlice S1x20000 ![1, 0] ei slices_S2x20000_S1x20000_1_0) shapeCasts_S1x20000_S20000))
            (broadcastInDim S20000 ![] bcast_S_S20000 (constant S_ .f32 0x3F800000#32)))
          (broadcastInDim S20000 ![] bcast_S_S20000 (constant S_ .f32 0x3F800000#32)))))

/-- Mean over the incoming edges of type bl (bus to load): for destination row d and feature j, the sum over the edges k
    with destination d of x at the source row of k, divided by the number of such edges or by one if there is none. -/
def aggK_bl (x : Vec F S100000x128 .f32) (ei : IVec S2x50000 32) : Vec F S50000x128 .f32 :=
  Host.divf
    (Host.scatterAdd scatter_S50000x128_S50000x1_S50000x128_1_0_0_1
      (broadcastInDim S50000x128 ![] bcast_S_S50000x128 (constant S_ .f32 0x00000000#32))
      (broadcastInDim S50000x1 ![0] bcast_S50000_S50000x1_0
        (shapeCast _ (extractStridedSlice S1x50000 ![1, 0] ei slices_S2x50000_S1x50000_1_0) shapeCasts_S1x50000_S50000))
      (Host.gather gather_S100000x128_S50000x1_S50000x128_1_0_n_n_0_1_1128 x
        (broadcastInDim S50000x1 ![0] bcast_S50000_S50000x1_0
          (select
            (cmpi .slt (shapeCast _ (extractStridedSlice S1x50000 ![0, 0] ei slices_S2x50000_S1x50000_0_0) shapeCasts_S1x50000_S50000)
              (broadcastInDim S50000 ![] bcast_S_S50000 (constantI S_ 32 0#32)))
            (addi (shapeCast _ (extractStridedSlice S1x50000 ![0, 0] ei slices_S2x50000_S1x50000_0_0) shapeCasts_S1x50000_S50000)
              (broadcastInDim S50000 ![] bcast_S_S50000 (constantI S_ 32 100000#32)))
            (shapeCast _ (extractStridedSlice S1x50000 ![0, 0] ei slices_S2x50000_S1x50000_0_0) shapeCasts_S1x50000_S50000)))))
    (broadcastInDim S50000x128 ![0, 1] bcast_S50000x1_S50000x128_0_1
      (broadcastInDim S50000x1 ![0] bcast_S50000_S50000x1_0
        (maximumf
          (Host.scatterAdd scatter_S50000_S50000x1_S50000_n_0_0_1
            (broadcastInDim S50000 ![] bcast_S_S50000 (constant S_ .f32 0x00000000#32))
            (broadcastInDim S50000x1 ![0] bcast_S50000_S50000x1_0
              (shapeCast _ (extractStridedSlice S1x50000 ![1, 0] ei slices_S2x50000_S1x50000_1_0) shapeCasts_S1x50000_S50000))
            (broadcastInDim S50000 ![] bcast_S_S50000 (constant S_ .f32 0x3F800000#32)))
          (broadcastInDim S50000 ![] bcast_S_S50000 (constant S_ .f32 0x3F800000#32)))))

/-- Mean over the incoming edges of type bs (bus to shunt): for destination row d and feature j, the sum over the edges k
    with destination d of x at the source row of k, divided by the number of such edges or by one if there is none. -/
def aggK_bs (x : Vec F S100000x128 .f32) (ei : IVec S2x5000 32) : Vec F S5000x128 .f32 :=
  Host.divf
    (Host.scatterAdd scatter_S5000x128_S5000x1_S5000x128_1_0_0_1
      (broadcastInDim S5000x128 ![] bcast_S_S5000x128 (constant S_ .f32 0x00000000#32))
      (broadcastInDim S5000x1 ![0] bcast_S5000_S5000x1_0
        (shapeCast _ (extractStridedSlice S1x5000 ![1, 0] ei slices_S2x5000_S1x5000_1_0) shapeCasts_S1x5000_S5000))
      (Host.gather gather_S100000x128_S5000x1_S5000x128_1_0_n_n_0_1_1128 x
        (broadcastInDim S5000x1 ![0] bcast_S5000_S5000x1_0
          (select
            (cmpi .slt (shapeCast _ (extractStridedSlice S1x5000 ![0, 0] ei slices_S2x5000_S1x5000_0_0) shapeCasts_S1x5000_S5000)
              (broadcastInDim S5000 ![] bcast_S_S5000 (constantI S_ 32 0#32)))
            (addi (shapeCast _ (extractStridedSlice S1x5000 ![0, 0] ei slices_S2x5000_S1x5000_0_0) shapeCasts_S1x5000_S5000)
              (broadcastInDim S5000 ![] bcast_S_S5000 (constantI S_ 32 100000#32)))
            (shapeCast _ (extractStridedSlice S1x5000 ![0, 0] ei slices_S2x5000_S1x5000_0_0) shapeCasts_S1x5000_S5000)))))
    (broadcastInDim S5000x128 ![0, 1] bcast_S5000x1_S5000x128_0_1
      (broadcastInDim S5000x1 ![0] bcast_S5000_S5000x1_0
        (maximumf
          (Host.scatterAdd scatter_S5000_S5000x1_S5000_n_0_0_1
            (broadcastInDim S5000 ![] bcast_S_S5000 (constant S_ .f32 0x00000000#32))
            (broadcastInDim S5000x1 ![0] bcast_S5000_S5000x1_0
              (shapeCast _ (extractStridedSlice S1x5000 ![1, 0] ei slices_S2x5000_S1x5000_1_0) shapeCasts_S1x5000_S5000))
            (broadcastInDim S5000 ![] bcast_S_S5000 (constant S_ .f32 0x3F800000#32)))
          (broadcastInDim S5000 ![] bcast_S_S5000 (constant S_ .f32 0x3F800000#32)))))

end Cert.KernelIdeal.Hand

end
-- ==== Proof.NetDefs.lean ====
/- The two programs' results as ONE pair of functions of the argument arrays.

   A feature array of shape [n, 128] is read as a function of a row and a column; the eight mean aggregations are
   the kernel program's host-side compositions, taken as whole-array functions of the source features and the
   edge index; the per-layer weights are the slices [l, e, ·, ·] of the stacked weight arrays. With these the
   kernel's result is the three kernel-form layer steps followed by a two-layer head, and the reference's result
   the three reference-form steps followed by the same head. -/
import proofs.«125545_j64845416235624_1_alg».proof.Proof.SpecNet
import proofs.«125545_j64845416235624_1_alg».proof.Proof.KI.Agg
import proofs.«125545_j64845416235624_1_alg».proof.Proof.Gen.KernelIdeal
import Idealize.ShloMosaic.Lib.ValueIdx

noncomputable section

namespace Cert.Hand.Net

open Idealize.ShloMosaic Idealize.ShloMosaic.ValueIdx
open Cert.KernelIdeal Cert.KernelIdeal.Gen Cert.KernelIdeal.Hand

/-- A rank-2 array read as a function of its row and its column. -/
abbrev cur2 {n0 n1 : Nat} (A : (⟨2, ![n0, n1]⟩ : Shape).Idx → EReal) : Fin n0 → Fin n1 → EReal := fun i k => A (ix2 i k)
/-- A function of a row and a column as a rank-2 array. -/
abbrev unc2 {n0 n1 : Nat} (f : Fin n0 → Fin n1 → EReal) : (⟨2, ![n0, n1]⟩ : Shape).Idx → EReal := fun idx => f (idx 0) (idx 1)
/-- A rank-1 array read as a function of its one coordinate. -/
abbrev cur1 {n : Nat} (A : (⟨1, ![n]⟩ : Shape).Idx → EReal) : Fin n → EReal := fun h => A (ix1 h)

theorem unc2_cur2 {n0 n1 : Nat} (A : (⟨2, ![n0, n1]⟩ : Shape).Idx → EReal) : unc2 (cur2 A) = A :=
  funext fun j => (congrArg A (eq_ix2 j)).symm
theorem cur2_unc2 {n0 n1 : Nat} (f : Fin n0 → Fin n1 → EReal) : cur2 (unc2 f) = f := rfl

/-- Layer `l`, edge type `e` of a stacked [3, 8, 128, 128] weight array. -/
def W4 (W : (⟨4, ![3, 8, 128, 128]⟩ : Shape).Idx → EReal) : Fin 3 → Fin 8 → Fin 128 → Fin 128 → EReal :=
  fun l e k j => W (ix4 l e k j)
/-- Layer `l`, edge type `e` of the stacked [3, 8, 128] bias array. -/
def B3 (b : (⟨3, ![3, 8, 128]⟩ : Shape).Idx → EReal) : Fin 3 → Fin 8 → Fin 128 → EReal :=
  fun l e j => b (ix3 l e j)

/-- The eight mean aggregations at the given edge indices, on features read by row and column. -/
def aggs (e15 : IVec ⟨2, ![2, 500000]⟩ 32) (e16 : IVec ⟨2, ![2, 100000]⟩ 32) (e17 : IVec ⟨2, ![2, 20000]⟩ 32)
    (e18 : IVec ⟨2, ![2, 20000]⟩ 32) (e19 : IVec ⟨2, ![2, 50000]⟩ 32) (e20 : IVec ⟨2, ![2, 50000]⟩ 32)
    (e21 : IVec ⟨2, ![2, 5000]⟩ 32) (e22 : IVec ⟨2, ![2, 5000]⟩ 32) :
    Cert.Spec.Aggs (Fin 100000) (Fin 20000) (Fin 50000) (Fin 5000) (Fin 128) where
  ac xb := cur2 (aggK_ac (F := Ideal) (unc2 xb) e15)
  tr xb := cur2 (aggK_tr (F := Ideal) (unc2 xb) e16)
  gb xg := cur2 (aggK_gb (F := Ideal) (unc2 xg) e17)
  lb xl := cur2 (aggK_lb (F := Ideal) (unc2 xl) e19)
  sb xs := cur2 (aggK_sb (F := Ideal) (unc2 xs) e21)
  bg xb := cur2 (aggK_bg (F := Ideal) (unc2 xb) e18)
  bl xb := cur2 (aggK_bl (F := Ideal) (unc2 xb) e20)
  bs xb := cur2 (aggK_bs (F := Ideal) (unc2 xb) e22)

/-- The four input feature arrays by row and column. -/
def feat0 (x0 : (⟨2, ![100000, 128]⟩ : Shape).Idx → EReal) (x1 : (⟨2, ![20000, 128]⟩ : Shape).Idx → EReal)
    (x2 : (⟨2, ![50000, 128]⟩ : Shape).Idx → EReal) (x3 : (⟨2, ![5000, 128]⟩ : Shape).Idx → EReal) :
    Cert.Spec.Feat (Fin 100000) (Fin 20000) (Fin 50000) (Fin 5000) (Fin 128) :=
  ⟨cur2 x0, cur2 x1, cur2 x2, cur2 x3⟩

section Outputs
variable (x0 : (⟨2, ![100000, 128]⟩ : Shape).Idx → EReal) (x1 : (⟨2, ![20000, 128]⟩ : Shape).Idx → EReal)
  (x2 : (⟨2, ![50000, 128]⟩ : Shape).Idx → EReal) (x3 : (⟨2, ![5000, 128]⟩ : Shape).Idx → EReal)
  (x4 : (⟨4, ![3, 8, 128, 128]⟩ : Shape).Idx → EReal) (x5 : (⟨3, ![3, 8, 128]⟩ : Shape).Idx → EReal)
  (x6 : (⟨4, ![3, 8, 128, 128]⟩ : Shape).Idx → EReal)
  (e15 : IVec ⟨2, ![2, 500000]⟩ 32) (e16 : IVec ⟨2, ![2, 100000]⟩ 32) (e17 : IVec ⟨2, ![2, 20000]⟩ 32)
  (e18 : IVec ⟨2, ![2, 20000]⟩ 32) (e19 : IVec ⟨2, ![2, 50000]⟩ 32) (e20 : IVec ⟨2, ![2, 50000]⟩ 32)
  (e21 : IVec ⟨2, ![2, 5000]⟩ 32) (e22 : IVec ⟨2, ![2, 5000]⟩ 32)

/-- The features after the three layers, kernel form. -/
def featK := Cert.Spec.net3K (aggs e15 e16 e17 e18 e19 e20 e21 e22) (W4 x4) (W4 x6) (B3 x5) (feat0 x0 x1 x2 x3)
/-- The features after the three layers, reference form. -/
def featR := Cert.Spec.net3R (aggs e15 e16 e17 e18 e19 e20 e21 e22) (W4 x4) (W4 x6) (B3 x5) (feat0 x0 x1 x2 x3)
end Outputs

/-- A two-layer head on features read by row and column, as a rank-2 array. -/
def headArr {n : Nat} (x : Fin n → Fin 128 → EReal) (w1 : (⟨2, ![128, 128]⟩ : Shape).Idx → EReal)
    (b1 : (⟨1, ![128]⟩ : Shape).Idx → EReal) (w2 : (⟨2, ![128, 2]⟩ : Shape).Idx → EReal)
    (b2 : (⟨1, ![2]⟩ : Shape).Idx → EReal) : (⟨2, ![n, 2]⟩ : Shape).Idx → EReal :=
  unc2 (Cert.Spec.head x (cur2 w1) (cur1 b1) (cur2 w2) (cur1 b2))

end Cert.Hand.Net

end
-- ==== Proof.SpecHost.lean ====
import proofs.«125545_j64845416235624_1_alg».proof.Proof.SpecLaw
import Idealize.ShloMosaic.PureOps.Contract
import Idealize.ShloMosaic.Lib.IdealHost

/-!
  The host operations of a mean aggregation, at the extended reals: each keeps real entries real.

  A mean aggregate gathers rows of the source features, adds the rows that land on each
  destination (a scatter with an `add` body into zeros), counts them the same way (ones into
  zeros), and divides the sum by `max count 1`, broadcast along the feature axis.
-/

open scoped BigOperators
open Idealize.ShloMosaic

noncomputable section

namespace Cert.Spec

/-! ### Re-indexings: an entry of the result is an entry of the operand -/

theorem gather_forall {α : Type} {s si t : Shape} {w : Nat} (P : α → Prop) (d : GatherDims s si t)
    (x : s.Idx → α) (idx : IVec si w) (hx : ∀ i, P (x i)) (j : t.Idx) :
    P (Host.gather d x idx j) := hx _

theorem broadcastInDim_forall {α : Type} {s t : Shape} (P : α → Prop) (dims : Fin s.rank → Fin t.rank)
    (h : s.BroadcastsInDim t dims) (x : s.Idx → α) (hx : ∀ i, P (x i)) (j : t.Idx) :
    P (broadcastInDim t dims h x j) := hx _

theorem shapeCast_forall {α : Type} {s t : Shape} (P : α → Prop) (x : s.Idx → α) (h : s.ShapeCasts t)
    (hx : ∀ i, P (x i)) (j : t.Idx) : P (shapeCast t x h j) := hx _

theorem extractStridedSlice_forall {α : Type} {s t : Shape} (P : α → Prop) (off : Fin s.rank → Nat)
    (x : s.Idx → α) (h : s.Slices off t) (hx : ∀ i, P (x i)) (j : t.Idx) :
    P (extractStridedSlice t off x h j) := hx _

theorem isReal_gather {s si t : Shape} {w : Nat} {φ : FTy} (d : GatherDims s si t)
    (x : FVec Ideal s φ) (idx : IVec si w) (hx : ∀ i, IsReal (x i)) (j : t.Idx) :
    IsReal (Host.gather d x idx j) := hx _

theorem isReal_broadcastInDim {s t : Shape} {φ : FTy} (dims : Fin s.rank → Fin t.rank)
    (h : s.BroadcastsInDim t dims) (x : FVec Ideal s φ) (hx : ∀ i, IsReal (x i)) (j : t.Idx) :
    IsReal (broadcastInDim t dims h x j) := hx _

theorem one_le_broadcastInDim {s t : Shape} {φ : FTy} (dims : Fin s.rank → Fin t.rank)
    (h : s.BroadcastsInDim t dims) (x : FVec Ideal s φ) (hx : ∀ i, (1 : EReal) ≤ x i) (j : t.Idx) :
    (1 : EReal) ≤ broadcastInDim t dims h x j := hx _

/-! ### The constants zero and one -/

theorem constant_zero_apply {s : Shape} (i : s.Idx) :
    constant (F := Ideal) s .f32 0x00000000#32 i = 0 := Ideal.ofBits_zero_f32

theorem constant_one_apply {s : Shape} (i : s.Idx) :
    constant (F := Ideal) s .f32 0x3F800000#32 i = 1 := Ideal.ofBits_one_f32

theorem isReal_constant_zero {s : Shape} (i : s.Idx) :
    IsReal (constant (F := Ideal) s .f32 0x00000000#32 i) := by
  rw [constant_zero_apply]; exact isReal_zero

theorem isReal_constant_one {s : Shape} (i : s.Idx) :
    IsReal (constant (F := Ideal) s .f32 0x3F800000#32 i) := by
  rw [constant_one_apply]; exact isReal_one

/-! ### Elementwise sum, maximum and quotient -/

theorem addf_apply {s : Shape} {φ : FTy} (x y : FVec Ideal s φ) (i : s.Idx) :
    addf x y i = x i + y i := rfl

theorem maximumf_apply {s : Shape} {φ : FTy} (x y : FVec Ideal s φ) (i : s.Idx) :
    maximumf x y i = max (x i) (y i) := rfl

theorem isReal_addf {s : Shape} {φ : FTy} (x y : FVec Ideal s φ) (i : s.Idx) (hx : IsReal (x i))
    (hy : IsReal (y i)) : IsReal (addf x y i) := isReal_add hx hy

theorem isReal_maximumf {s : Shape} {φ : FTy} (x y : FVec Ideal s φ) (i : s.Idx) (hx : IsReal (x i))
    (hy : IsReal (y i)) : IsReal (maximumf x y i) := isReal_max hx hy

/-- A maximum with something that is at least one is at least one. -/
theorem one_le_maximumf {s : Shape} {φ : FTy} (x y : FVec Ideal s φ) (i : s.Idx)
    (hy : (1 : EReal) ≤ y i) : (1 : EReal) ≤ maximumf x y i :=
  le_trans hy (le_max_right (x i) (y i))

theorem isReal_hostDivf {s : Shape} {φ : FTy} (x y : FVec Ideal s φ) (i : s.Idx) (hx : IsReal (x i))
    (hy : IsReal (y i)) (h1 : (1 : EReal) ≤ y i) : IsReal (Host.divf x y i) :=
  isReal_div_of_one_le hx hy h1

/-! ### The scatter with an `add` body -/

theorem scatterAdd_apply {s si u : Shape} {w : Nat} {φ : FTy} (d : ScatterDims s si u)
    (x : FVec Ideal s φ) (idx : IVec si w) (upd : FVec Ideal u φ) (i : s.Idx) :
    Host.scatterAdd d x idx upd i
      = x i + ∑ j ∈ Finset.univ.filter (fun j => d.resultIdx? j idx = some i), upd j := rfl

theorem isReal_scatterAdd {s si u : Shape} {w : Nat} {φ : FTy} (d : ScatterDims s si u)
    (x : FVec Ideal s φ) (idx : IVec si w) (upd : FVec Ideal u φ) (i : s.Idx) (hx : IsReal (x i))
    (hu : ∀ j, IsReal (upd j)) : IsReal (Host.scatterAdd d x idx upd i) := by
  rw [scatterAdd_apply]
  exact isReal_add hx (isReal_sum _ _ fun j _ => hu j)

/-! ### The mean: a real sum divided by `max count 1` -/

/-- The divisor of a mean, `max count 1`, is real and at least one when the count is real. -/
theorem divisor_real_ge_one {s : Shape} {φ : FTy} (cnt one : FVec Ideal s φ) (i : s.Idx)
    (hc : IsReal (cnt i)) (h1 : one i = 1) :
    IsReal (maximumf cnt one i) ∧ (1 : EReal) ≤ maximumf cnt one i :=
  ⟨isReal_maximumf cnt one i hc (h1 ▸ isReal_one), one_le_maximumf cnt one i (le_of_eq h1.symm)⟩

/-! ### An entry whose magnitude is below infinity is real -/

theorem ofBits_inf_f32 : Ideal.ofBits .f32 0x7F800000#32 = ⊤ := by simp [Ideal.ofBits, Ideal.ieee]

theorem isReal_of_abs_lt_top {a : EReal} (h : max a (-a) < ⊤) : IsReal a := by
  rw [isReal_iff]
  constructor
  · rintro rfl
    simp at h
  · rintro rfl
    simp at h

end Cert.Spec

end
-- ==== Proof.KI.AggReal.lean ====
import proofs.«125545_j64845416235624_1_alg».proof.Proof.KI.Agg
import proofs.«125545_j64845416235624_1_alg».proof.Proof.SpecHost

/-!
  The mean aggregates of real features have real entries: the rows gathered from real features,
  added into zeros where they land, divided by `max count 1` broadcast along the feature axis.
-/

open scoped BigOperators
open Idealize.ShloMosaic

noncomputable section

namespace Cert.Spec

/-- The count of a mean — ones added into zeros where the edges land — is real, and the divisor
    `max count 1` is real and at least one. -/
theorem divisor_scatter_real_ge_one {sc sj su : Shape} {w : Nat} {φ : FTy} (dc : ScatterDims sc sj su)
    (zeroc : FVec Ideal sc φ) (idx : IVec sj w) (ones : FVec Ideal su φ) (onec : FVec Ideal sc φ)
    (hzc : ∀ i, zeroc i = 0) (hones : ∀ j, ones j = 1) (honec : ∀ i, onec i = 1) (i : sc.Idx) :
    IsReal (maximumf (Host.scatterAdd dc zeroc idx ones) onec i)
      ∧ (1 : EReal) ≤ maximumf (Host.scatterAdd dc zeroc idx ones) onec i :=
  divisor_real_ge_one _ onec i
    (isReal_scatterAdd dc zeroc idx ones i (hzc i ▸ isReal_zero) fun j => hones j ▸ isReal_one)
    (honec i)

/-- A mean aggregate of real features has real entries. -/
theorem isReal_meanAggregate {sx si sg sa sj sc su sm : Shape} {w w' : Nat} {φ : FTy}
    (g : GatherDims sx si sg) (x : FVec Ideal sx φ) (gi : IVec si w)
    (d : ScatterDims sa sj sg) (zero : FVec Ideal sa φ) (idx : IVec sj w')
    (dc : ScatterDims sc sj su) (zeroc : FVec Ideal sc φ) (idxc : IVec sj w') (ones : FVec Ideal su φ)
    (onec : FVec Ideal sc φ)
    (dims1 : Fin sc.rank → Fin sm.rank) (h1 : sc.BroadcastsInDim sm dims1)
    (dims2 : Fin sm.rank → Fin sa.rank) (h2 : sm.BroadcastsInDim sa dims2)
    (hx : ∀ i, IsReal (x i)) (hz : ∀ i, zero i = 0) (hzc : ∀ i, zeroc i = 0)
    (hones : ∀ j, ones j = 1) (honec : ∀ i, onec i = 1) (i : sa.Idx) :
    IsReal (Host.divf (Host.scatterAdd d zero idx (Host.gather g x gi))
      (broadcastInDim sa dims2 h2 (broadcastInDim sm dims1 h1
        (maximumf (Host.scatterAdd dc zeroc idxc ones) onec))) i) := by
  have hden := broadcastInDim_forall (fun v : EReal => IsReal v ∧ (1 : EReal) ≤ v) dims2 h2 _
    (broadcastInDim_forall (fun v : EReal => IsReal v ∧ (1 : EReal) ≤ v) dims1 h1 _
      (divisor_scatter_real_ge_one dc zeroc idxc ones onec hzc hones honec)) i
  exact isReal_hostDivf _ _ i
    (isReal_scatterAdd d zero idx _ i (hz i ▸ isReal_zero) (isReal_gather g x gi hx))
    hden.1 hden.2

end Cert.Spec

namespace Cert.KernelIdeal.Hand

open Idealize.ShloMosaic Idealize.SL.Sem
open Cert.KernelIdeal
open Cert.Spec

variable [Facts₀]

theorem aggK_ac_real (x : Vec Ideal S100000x128 .f32) (ei : IVec S2x500000 32)
    (hx : ∀ i, Cert.Spec.IsReal (x i)) : ∀ i, Cert.Spec.IsReal (aggK_ac (F := Ideal) x ei i) := by
  intro i
  unfold aggK_ac
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

theorem aggK_tr_real (x : Vec Ideal S100000x128 .f32) (ei : IVec S2x100000 32)
    (hx : ∀ i, Cert.Spec.IsReal (x i)) : ∀ i, Cert.Spec.IsReal (aggK_tr (F := Ideal) x ei i) := by
  intro i
  unfold aggK_tr
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

theorem aggK_gb_real (x : Vec Ideal S20000x128 .f32) (ei : IVec S2x20000 32)
    (hx : ∀ i, Cert.Spec.IsReal (x i)) : ∀ i, Cert.Spec.IsReal (aggK_gb (F := Ideal) x ei i) := by
  intro i
  unfold aggK_gb
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

theorem aggK_lb_real (x : Vec Ideal S50000x128 .f32) (ei : IVec S2x50000 32)
    (hx : ∀ i, Cert.Spec.IsReal (x i)) : ∀ i, Cert.Spec.IsReal (aggK_lb (F := Ideal) x ei i) := by
  intro i
  unfold aggK_lb
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

theorem aggK_sb_real (x : Vec Ideal S5000x128 .f32) (ei : IVec S2x5000 32)
    (hx : ∀ i, Cert.Spec.IsReal (x i)) : ∀ i, Cert.Spec.IsReal (aggK_sb (F := Ideal) x ei i) := by
  intro i
  unfold aggK_sb
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

theorem aggK_bg_real (x : Vec Ideal S100000x128 .f32) (ei : IVec S2x20000 32)
    (hx : ∀ i, Cert.Spec.IsReal (x i)) : ∀ i, Cert.Spec.IsReal (aggK_bg (F := Ideal) x ei i) := by
  intro i
  unfold aggK_bg
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

theorem aggK_bl_real (x : Vec Ideal S100000x128 .f32) (ei : IVec S2x50000 32)
    (hx : ∀ i, Cert.Spec.IsReal (x i)) : ∀ i, Cert.Spec.IsReal (aggK_bl (F := Ideal) x ei i) := by
  intro i
  unfold aggK_bl
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

theorem aggK_bs_real (x : Vec Ideal S100000x128 .f32) (ei : IVec S2x5000 32)
    (hx : ∀ i, Cert.Spec.IsReal (x i)) : ∀ i, Cert.Spec.IsReal (aggK_bs (F := Ideal) x ei i) := by
  intro i
  unfold aggK_bs
  refine isReal_meanAggregate (φ := .f32) _ x _ _ _ _ _ _ _ _ _ _ _ _ _ hx ?_ ?_ ?_ ?_ i
  exacts [fun _ => constant_zero_apply _, fun _ => constant_zero_apply _,
    fun _ => constant_one_apply _, fun _ => constant_one_apply _]

end Cert.KernelIdeal.Hand

end
-- ==== Proof.PreReal.lean ====
/- From the precondition to real entries. The precondition is the conjunction, over the fifteen float arguments, of the
   whole-array test "|x| < +∞ at every index" (an abs, a comparison against the f32 pattern 0x7F800000 broadcast from a
   scalar, and a reduction by "and" over all axes, from 1). An extended real whose absolute value max x (-x) lies
   strictly below ⊤ is neither ⊤ nor ⊥, hence a real number; so where the precondition is all ones every entry of every
   float argument is a real number. The integer arguments do not occur in the precondition and nothing is said of them. -/
import proofs.«125545_j64845416235624_1_alg».proof.Defs
import Idealize.ShloMosaic.Lib.ReduceAll
import Idealize.ShloMosaic.Lib.ValueIdx
import Idealize.ShloMosaic.PureOps.Ideal

noncomputable section

namespace Cert.Hand.PreReal

open Idealize.ShloMosaic

/-- The rank-0 shape has one index. -/
local instance subsingleton_scalar_idx : Subsingleton (⟨0, ![]⟩ : Shape).Idx := ⟨fun a b => funext fun d => d.elim0⟩

/-- The f32 pattern 0x7F800000 denotes +∞. -/
theorem inf_pattern : Ideal.ofBits .f32 0x7F800000#32 = (⊤ : EReal) := by
  simp [Ideal.ofBits, Ideal.ieee]

/-- A one-bit word made from a Boolean is 1 only when the Boolean is true. -/
theorem true_of_ofBool_eq_one {b : Bool} (h : BitVec.ofBool b = 1#1) : b = true := by
  cases b
  · exact absurd h (by decide)
  · rfl

/-- An extended real whose absolute value is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A whole-array test "|x| < +∞, everywhere" that came out 1: every entry of the array is a real number. -/
theorem real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
          (cmpf .olt (Host.absf x) (broadcastInDim s ![] hb (constant (F := Ideal) (⟨0, ![]⟩ : Shape) .f32 0x7F800000#32)))
          init hr hu j = 1#1)
    (i : s.Idx) : ∃ r : ℝ, x i = (r : EReal) := by
  have h1 := Host.reduce_andi_all _ init hr hu j e i
  refine real_of_abs_lt_top (x i) ?_
  have h2 : BitVec.ofBool (decide (max (x i) (-(x i)) < Ideal.ofBits .f32 0x7F800000#32)) = 1#1 := h1
  rw [inf_pattern] at h2
  exact of_decide_eq_true (true_of_ofBool_eq_one h2)

variable [Cert.Pre_finite_inputs.Facts]

/-- The printed precondition, all ones: each of its fifteen float arguments has only real entries. -/
theorem real_of_pre (a0 : FVec Ideal Cert.Pre_finite_inputs.S100000x128 .f32) (a1 : FVec Ideal Cert.Pre_finite_inputs.S20000x128 .f32) (a2 : FVec Ideal Cert.Pre_finite_inputs.S50000x128 .f32) (a3 : FVec Ideal Cert.Pre_finite_inputs.S5000x128 .f32) (a4 : FVec Ideal Cert.Pre_finite_inputs.S3x8x128x128 .f32) (a5 : FVec Ideal Cert.Pre_finite_inputs.S3x8x128 .f32) (a6 : FVec Ideal Cert.Pre_finite_inputs.S3x8x128x128 .f32) (a7 : FVec Ideal Cert.Pre_finite_inputs.S128x128 .f32) (a8 : FVec Ideal Cert.Pre_finite_inputs.S128 .f32) (a9 : FVec Ideal Cert.Pre_finite_inputs.S128x2 .f32) (a10 : FVec Ideal Cert.Pre_finite_inputs.S2 .f32) (a11 : FVec Ideal Cert.Pre_finite_inputs.S128x128 .f32) (a12 : FVec Ideal Cert.Pre_finite_inputs.S128 .f32) (a13 : FVec Ideal Cert.Pre_finite_inputs.S128x2 .f32) (a14 : FVec Ideal Cert.Pre_finite_inputs.S2 .f32)
    (a15 : IVec Cert.Pre_finite_inputs.S2x500000 32) (a16 : IVec Cert.Pre_finite_inputs.S2x100000 32) (a17 : IVec Cert.Pre_finite_inputs.S2x20000 32) (a18 : IVec Cert.Pre_finite_inputs.S2x20000 32) (a19 : IVec Cert.Pre_finite_inputs.S2x50000 32) (a20 : IVec Cert.Pre_finite_inputs.S2x50000 32) (a21 : IVec Cert.Pre_finite_inputs.S2x5000 32) (a22 : IVec Cert.Pre_finite_inputs.S2x5000 32)
    (h : Cert.Pre_finite_inputs.fn (F := Ideal) a0 a1 a2 a3 a4 a5 a6 a7 a8 a9 a10 a11 a12 a13 a14 a15 a16 a17 a18 a19 a20 a21 a22 = (fun _ => 1#1)) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal)) := by
  have h0 := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_finite a0 _ _ _ _ _ e0,
    real_of_all_finite a1 _ _ _ _ _ e1,
    real_of_all_finite a2 _ _ _ _ _ e2,
    real_of_all_finite a3 _ _ _ _ _ e3,
    real_of_all_finite a4 _ _ _ _ _ e4,
    real_of_all_finite a5 _ _ _ _ _ e5,
    real_of_all_finite a6 _ _ _ _ _ e6,
    real_of_all_finite a7 _ _ _ _ _ e7,
    real_of_all_finite a8 _ _ _ _ _ e8,
    real_of_all_finite a9 _ _ _ _ _ e9,
    real_of_all_finite a10 _ _ _ _ _ e10,
    real_of_all_finite a11 _ _ _ _ _ e11,
    real_of_all_finite a12 _ _ _ _ _ e12,
    real_of_all_finite a13 _ _ _ _ _ e13,
    real_of_all_finite a14 _ _ _ _ _ e14⟩

open Idealize.SL.Sem

/-- Under the precondition, every entry of float argument 0 is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (real_of_pre _ _ _ _ _ _ _ _ _ _ _ _ _ _ _ _ _ _ _ _ _ _ _ (h c)).1

/-- Under the precondition, every entry of float argument 1 is a real number. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (real_of_pre _ _ _ _ _ _ _ _ _ _ _ _ _ _ _ _ _ _ _ _ _ _ _ (h c)).2.1

/-- Under the precondition, every entry of float argument 2 is a real number. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (real_of_pre _ _ _ _ _ _ _ _ _ _ _ _ _ _ _ _ _ _ _ _ _ _ _ (h c)).2.2.1

/-- Under the precondition, every entry of float argument 3 is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (real_of_pre _ _ _ _ _ _ _ _ _ _ _ _ _ _ _ _ _ _ _ _ _ _ _ (h c)).2.2.2.1

/-- Under the precondition, every entry of float argument 4 is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (real_of_pre _ _ _ _ _ _ _ _ _ _ _ _ _ _ _ _ _ _ _ _ _ _ _ (h c)).2.2.2.2.1

/-- Under the precondition, every entry of float argument 5 is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (real_of_pre _ _ _ _ _ _ _ _ _ _ _ _ _ _ _ _ _ _ _ _ _ _ _ (h c)).2.2.2.2.2.1

/-- Under the precondition, every entry of float argument 6 is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (real_of_pre _ _ _ _ _ _ _ _ _ _ _ _ _ _ _ _ _ _ _ _ _ _ _ (h c)).2.2.2.2.2.2.1

/-- Under the precondition, every entry of float argument 7 is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (real_of_pre _ _ _ _ _ _ _ _ _ _ _ _ _ _ _ _ _ _ _ _ _ _ _ (h c)).2.2.2.2.2.2.2.1

/-- Under the precondition, every entry of float argument 8 is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (real_of_pre _ _ _ _ _ _ _ _ _ _ _ _ _ _ _ _ _ _ _ _ _ _ _ (h c)).2.2.2.2.2.2.2.2.1

/-- Under the precondition, every entry of float argument 9 is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (real_of_pre _ _ _ _ _ _ _ _ _ _ _ _ _ _ _ _ _ _ _ _ _ _ _ (h c)).2.2.2.2.2.2.2.2.2.1

/-- Under the precondition, every entry of float argument 10 is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (real_of_pre _ _ _ _ _ _ _ _ _ _ _ _ _ _ _ _ _ _ _ _ _ _ _ (h c)).2.2.2.2.2.2.2.2.2.2.1

/-- Under the precondition, every entry of float argument 11 is a real number. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (real_of_pre _ _ _ _ _ _ _ _ _ _ _ _ _ _ _ _ _ _ _ _ _ _ _ (h c)).2.2.2.2.2.2.2.2.2.2.2.1

/-- Under the precondition, every entry of float argument 12 is a real number. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (real_of_pre _ _ _ _ _ _ _ _ _ _ _ _ _ _ _ _ _ _ _ _ _ _ _ (h c)).2.2.2.2.2.2.2.2.2.2.2.2.1

/-- Under the precondition, every entry of float argument 13 is a real number. -/
theorem real_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg13) i = (r : EReal) :=
  (real_of_pre _ _ _ _ _ _ _ _ _ _ _ _ _ _ _ _ _ _ _ _ _ _ _ (h c)).2.2.2.2.2.2.2.2.2.2.2.2.2.1

/-- Under the precondition, every entry of float argument 14 is a real number. -/
theorem real_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg14) i = (r : EReal) :=
  (real_of_pre _ _ _ _ _ _ _ _ _ _ _ _ _ _ _ _ _ _ _ _ _ _ _ (h c)).2.2.2.2.2.2.2.2.2.2.2.2.2.2

end Cert.Hand.PreReal

end
-- ==== Proof.NetEq.lean ====
import proofs.«125545_j64845416235624_1_alg».proof.Proof.NetDefs
import proofs.«125545_j64845416235624_1_alg».proof.Proof.KI.AggReal
import proofs.«125545_j64845416235624_1_alg».proof.Proof.PreReal
import proofs.«125545_j64845416235624_1_alg».proof.Proof.Gen.Pre_finite_inputs

/-!
  The network in kernel form equals the network in reference form on real arguments: the eight
  mean aggregations keep real entries real, the stacked weights and the features read by row and
  column are real where the arrays are, and the three layers then agree layer by layer.
-/

noncomputable section

namespace Cert.Hand.Net

open Idealize.ShloMosaic Idealize.ShloMosaic.ValueIdx Idealize.SL.Sem
open Cert.KernelIdeal Cert.KernelIdeal.Gen Cert.KernelIdeal.Hand
open Cert.Spec

/-- The eight mean aggregations take real features to real rows. -/
theorem aggs_real (e15 : IVec ⟨2, ![2, 500000]⟩ 32) (e16 : IVec ⟨2, ![2, 100000]⟩ 32) (e17 : IVec ⟨2, ![2, 20000]⟩ 32)
    (e18 : IVec ⟨2, ![2, 20000]⟩ 32) (e19 : IVec ⟨2, ![2, 50000]⟩ 32) (e20 : IVec ⟨2, ![2, 50000]⟩ 32)
    (e21 : IVec ⟨2, ![2, 5000]⟩ 32) (e22 : IVec ⟨2, ![2, 5000]⟩ 32) :
    (aggs e15 e16 e17 e18 e19 e20 e21 e22).Real where
  ac := fun x hx i k => aggK_ac_real (unc2 x) e15 (fun idx => hx (idx 0) (idx 1)) (ix2 i k)
  tr := fun x hx i k => aggK_tr_real (unc2 x) e16 (fun idx => hx (idx 0) (idx 1)) (ix2 i k)
  gb := fun x hx i k => aggK_gb_real (unc2 x) e17 (fun idx => hx (idx 0) (idx 1)) (ix2 i k)
  lb := fun x hx i k => aggK_lb_real (unc2 x) e19 (fun idx => hx (idx 0) (idx 1)) (ix2 i k)
  sb := fun x hx i k => aggK_sb_real (unc2 x) e21 (fun idx => hx (idx 0) (idx 1)) (ix2 i k)
  bg := fun x hx i k => aggK_bg_real (unc2 x) e18 (fun idx => hx (idx 0) (idx 1)) (ix2 i k)
  bl := fun x hx i k => aggK_bl_real (unc2 x) e20 (fun idx => hx (idx 0) (idx 1)) (ix2 i k)
  bs := fun x hx i k => aggK_bs_real (unc2 x) e22 (fun idx => hx (idx 0) (idx 1)) (ix2 i k)

/-- Real feature arrays are real read by row and column. -/
theorem feat0_real (x0 : (⟨2, ![100000, 128]⟩ : Shape).Idx → EReal) (x1 : (⟨2, ![20000, 128]⟩ : Shape).Idx → EReal)
    (x2 : (⟨2, ![50000, 128]⟩ : Shape).Idx → EReal) (x3 : (⟨2, ![5000, 128]⟩ : Shape).Idx → EReal)
    (h0 : ∀ i, IsReal (x0 i)) (h1 : ∀ i, IsReal (x1 i)) (h2 : ∀ i, IsReal (x2 i)) (h3 : ∀ i, IsReal (x3 i)) :
    (feat0 x0 x1 x2 x3).Real :=
  ⟨fun i k => h0 _, fun i k => h1 _, fun i k => h2 _, fun i k => h3 _⟩

/-- A real stacked weight array has real slices. -/
theorem W4_real (W : (⟨4, ![3, 8, 128, 128]⟩ : Shape).Idx → EReal) (h : ∀ i, IsReal (W i)) :
    ∀ l e k j, IsReal (W4 W l e k j) := fun l e k j => h _

/-- A real stacked bias array has real slices. -/
theorem B3_real (b : (⟨3, ![3, 8, 128]⟩ : Shape).Idx → EReal) (h : ∀ i, IsReal (b i)) :
    ∀ l e j, IsReal (B3 b l e j) := fun l e j => h _

/-- On real arguments the three layers in kernel form are the three layers in reference form. -/
theorem featK_eq_featR (x0 : (⟨2, ![100000, 128]⟩ : Shape).Idx → EReal) (x1 : (⟨2, ![20000, 128]⟩ : Shape).Idx → EReal)
    (x2 : (⟨2, ![50000, 128]⟩ : Shape).Idx → EReal) (x3 : (⟨2, ![5000, 128]⟩ : Shape).Idx → EReal)
    (x4 : (⟨4, ![3, 8, 128, 128]⟩ : Shape).Idx → EReal) (x5 : (⟨3, ![3, 8, 128]⟩ : Shape).Idx → EReal)
    (x6 : (⟨4, ![3, 8, 128, 128]⟩ : Shape).Idx → EReal)
    (e15 : IVec ⟨2, ![2, 500000]⟩ 32) (e16 : IVec ⟨2, ![2, 100000]⟩ 32) (e17 : IVec ⟨2, ![2, 20000]⟩ 32)
    (e18 : IVec ⟨2, ![2, 20000]⟩ 32) (e19 : IVec ⟨2, ![2, 50000]⟩ 32) (e20 : IVec ⟨2, ![2, 50000]⟩ 32)
    (e21 : IVec ⟨2, ![2, 5000]⟩ 32) (e22 : IVec ⟨2, ![2, 5000]⟩ 32)
    (h0 : ∀ i, IsReal (x0 i)) (h1 : ∀ i, IsReal (x1 i)) (h2 : ∀ i, IsReal (x2 i))
    (h3 : ∀ i, IsReal (x3 i)) (h4 : ∀ i, IsReal (x4 i)) (h5 : ∀ i, IsReal (x5 i)) (h6 : ∀ i, IsReal (x6 i)) :
    featK x0 x1 x2 x3 x4 x5 x6 e15 e16 e17 e18 e19 e20 e21 e22 = featR x0 x1 x2 x3 x4 x5 x6 e15 e16 e17 e18 e19 e20 e21 e22 :=
  net3K_eq_net3R (aggs_real e15 e16 e17 e18 e19 e20 e21 e22) (feat0_real x0 x1 x2 x3 h0 h1 h2 h3) (W4_real x4 h4)
    (W4_real x6 h6) (B3_real x5 h5)

/-- On real arguments the features after the three layers are real. -/
theorem featR_real (x0 : (⟨2, ![100000, 128]⟩ : Shape).Idx → EReal) (x1 : (⟨2, ![20000, 128]⟩ : Shape).Idx → EReal)
    (x2 : (⟨2, ![50000, 128]⟩ : Shape).Idx → EReal) (x3 : (⟨2, ![5000, 128]⟩ : Shape).Idx → EReal)
    (x4 : (⟨4, ![3, 8, 128, 128]⟩ : Shape).Idx → EReal) (x5 : (⟨3, ![3, 8, 128]⟩ : Shape).Idx → EReal)
    (x6 : (⟨4, ![3, 8, 128, 128]⟩ : Shape).Idx → EReal)
    (e15 : IVec ⟨2, ![2, 500000]⟩ 32) (e16 : IVec ⟨2, ![2, 100000]⟩ 32) (e17 : IVec ⟨2, ![2, 20000]⟩ 32)
    (e18 : IVec ⟨2, ![2, 20000]⟩ 32) (e19 : IVec ⟨2, ![2, 50000]⟩ 32) (e20 : IVec ⟨2, ![2, 50000]⟩ 32)
    (e21 : IVec ⟨2, ![2, 5000]⟩ 32) (e22 : IVec ⟨2, ![2, 5000]⟩ 32)
    (h0 : ∀ i, IsReal (x0 i)) (h1 : ∀ i, IsReal (x1 i)) (h2 : ∀ i, IsReal (x2 i))
    (h3 : ∀ i, IsReal (x3 i)) (h4 : ∀ i, IsReal (x4 i)) (h5 : ∀ i, IsReal (x5 i)) (h6 : ∀ i, IsReal (x6 i)) :
    (featR x0 x1 x2 x3 x4 x5 x6 e15 e16 e17 e18 e19 e20 e21 e22).Real :=
  net3R_real (aggs_real e15 e16 e17 e18 e19 e20 e21 e22) (feat0_real x0 x1 x2 x3 h0 h1 h2 h3) (W4_real x4 h4)
    (W4_real x6 h6) (B3_real x5 h5)

/-- At a memory of which the precondition holds, on every device, the two forms agree on the argument arrays. -/
theorem featK_eq_featR_mem (m : (ℓ : Loc nD τ sig) → Buf (Elt Ideal) ℓ) (h : Cert.Pre_KernelIdeal m) (c : Dev nD) :
    featK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      = featR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  featK_eq_featR _ _ _ _ _ _ _ _ _ _ _ _ _ _ _
    (Cert.Hand.PreReal.real_arg0 m h c) (Cert.Hand.PreReal.real_arg1 m h c) (Cert.Hand.PreReal.real_arg2 m h c)
    (Cert.Hand.PreReal.real_arg3 m h c) (Cert.Hand.PreReal.real_arg4 m h c) (Cert.Hand.PreReal.real_arg5 m h c)
    (Cert.Hand.PreReal.real_arg6 m h c)

end Cert.Hand.Net

end
-- ==== Proof.AlgCore.lean ====
import proofs.«125545_j64845416235624_1_alg».proof.Defs
import proofs.«125545_j64845416235624_1_alg».proof.Proof.NetEq
import proofs.«125545_j64845416235624_1_alg».proof.Proof.Gen.KernelIdeal
import proofs.«125545_j64845416235624_1_alg».proof.Proof.Gen.ReferenceIdeal
import proofs.«125545_j64845416235624_1_alg».proof.Proof.Gen.Pre_finite_inputs
import Idealize.ShloMosaic.Lib.Pipeline.Frame
import Idealize.ShloMosaic.Lib.StableHlo.Run

/-!
  The assembly of the algebraic claim from its pieces.

  The kernel program's run ends with every unscoped buffer at a valuation `W`; its two results there
  are the head of the three kernel-form layers of the argument arrays and its arguments are as launched.
  The reference program's run ends with its two results at the head of the three reference-form layers
  of its argument arrays, its arguments as launched. The precondition makes every float argument real,
  so the two forms agree, and the two programs' arguments agree by hypothesis: the results are equal.
-/

noncomputable section

namespace Cert.Hand.Alg

open Idealize.ShloMosaic Idealize.ShloMosaic.TcCoe Idealize.SL.Sem
open Cert.Hand.Net

/-- What the assembly takes of the two programs, at initial memories `m` (kernel) and `m'` (reference):
    the kernel's run to the valuation `W`, `W` at the arguments and at the two results, the reference's
    run to the result terms `R0` and `R1`, and those terms as heads of the reference-form layers. -/
structure Pieces (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (W : Dev Cert.KernelIdeal.nD → Valuation Cert.KernelIdeal.τ Cert.KernelIdeal.sig (Elt Ideal))
    (R0 : (c : Dev Cert.ReferenceIdeal.nD) → Buf (Elt Ideal) ((c.tc : Thread Cert.ReferenceIdeal.nD Cert.ReferenceIdeal.τ).loc Cert.ReferenceIdeal.main_v920))
    (R1 : (c : Dev Cert.ReferenceIdeal.nD) → Buf (Elt Ideal) ((c.tc : Thread Cert.ReferenceIdeal.nD Cert.ReferenceIdeal.τ).loc Cert.ReferenceIdeal.main_v929)) : Prop where
  run : θ_run (Cert.KernelIdeal.defs (F := Ideal)) (onTc (τ := Cert.KernelIdeal.τ) (Cert.KernelIdeal.main (F := Ideal))) ⟨m, fun _ => 0, g⟩
    (fun r => ∀ c : Dev Cert.KernelIdeal.nD, ∀ b ∈ Pipeline.ucRefs Cert.KernelIdeal.τ Cert.KernelIdeal.sig,
      r.2.mem (((c : Thread Cert.KernelIdeal.nD Cert.KernelIdeal.τ)).1, b) = W c b)
  uc : ∀ b : Ref Cert.KernelIdeal.sig .tc, ¬ (Proc.devRef .tc b : DevRef Cert.KernelIdeal.τ Cert.KernelIdeal.sig).isScoped →
    Proc.devRef .tc b ∈ Pipeline.ucRefs Cert.KernelIdeal.τ Cert.KernelIdeal.sig
  arg0 : ∀ c : Dev Cert.KernelIdeal.nD, W c (Proc.devRef .tc Cert.KernelIdeal.main_arg0) = (m ((c.tc : Thread Cert.KernelIdeal.nD Cert.KernelIdeal.τ).loc Cert.KernelIdeal.main_arg0))
  arg1 : ∀ c : Dev Cert.KernelIdeal.nD, W c (Proc.devRef .tc Cert.KernelIdeal.main_arg1) = (m ((c.tc : Thread Cert.KernelIdeal.nD Cert.KernelIdeal.τ).loc Cert.KernelIdeal.main_arg1))
  arg2 : ∀ c : Dev Cert.KernelIdeal.nD, W c (Proc.devRef .tc Cert.KernelIdeal.main_arg2) = (m ((c.tc : Thread Cert.KernelIdeal.nD Cert.KernelIdeal.τ).loc Cert.KernelIdeal.main_arg2))
  arg3 : ∀ c : Dev Cert.KernelIdeal.nD, W c (Proc.devRef .tc Cert.KernelIdeal.main_arg3) = (m ((c.tc : Thread Cert.KernelIdeal.nD Cert.KernelIdeal.τ).loc Cert.KernelIdeal.main_arg3))
  arg4 : ∀ c : Dev Cert.KernelIdeal.nD, W c (Proc.devRef .tc Cert.KernelIdeal.main_arg4) = (m ((c.tc : Thread Cert.KernelIdeal.nD Cert.KernelIdeal.τ).loc Cert.KernelIdeal.main_arg4))
  arg5 : ∀ c : Dev Cert.KernelIdeal.nD, W c (Proc.devRef .tc Cert.KernelIdeal.main_arg5) = (m ((c.tc : Thread Cert.KernelIdeal.nD Cert.KernelIdeal.τ).loc Cert.KernelIdeal.main_arg5))
  arg6 : ∀ c : Dev Cert.KernelIdeal.nD, W c (Proc.devRef .tc Cert.KernelIdeal.main_arg6) = (m ((c.tc : Thread Cert.KernelIdeal.nD Cert.KernelIdeal.τ).loc Cert.KernelIdeal.main_arg6))
  arg7 : ∀ c : Dev Cert.KernelIdeal.nD, W c (Proc.devRef .tc Cert.KernelIdeal.main_arg7) = (m ((c.tc : Thread Cert.KernelIdeal.nD Cert.KernelIdeal.τ).loc Cert.KernelIdeal.main_arg7))
  arg8 : ∀ c : Dev Cert.KernelIdeal.nD, W c (Proc.devRef .tc Cert.KernelIdeal.main_arg8) = (m ((c.tc : Thread Cert.KernelIdeal.nD Cert.KernelIdeal.τ).loc Cert.KernelIdeal.main_arg8))
  arg9 : ∀ c : Dev Cert.KernelIdeal.nD, W c (Proc.devRef .tc Cert.KernelIdeal.main_arg9) = (m ((c.tc : Thread Cert.KernelIdeal.nD Cert.KernelIdeal.τ).loc Cert.KernelIdeal.main_arg9))
  arg10 : ∀ c : Dev Cert.KernelIdeal.nD, W c (Proc.devRef .tc Cert.KernelIdeal.main_arg10) = (m ((c.tc : Thread Cert.KernelIdeal.nD Cert.KernelIdeal.τ).loc Cert.KernelIdeal.main_arg10))
  arg11 : ∀ c : Dev Cert.KernelIdeal.nD, W c (Proc.devRef .tc Cert.KernelIdeal.main_arg11) = (m ((c.tc : Thread Cert.KernelIdeal.nD Cert.KernelIdeal.τ).loc Cert.KernelIdeal.main_arg11))
  arg12 : ∀ c : Dev Cert.KernelIdeal.nD, W c (Proc.devRef .tc Cert.KernelIdeal.main_arg12) = (m ((c.tc : Thread Cert.KernelIdeal.nD Cert.KernelIdeal.τ).loc Cert.KernelIdeal.main_arg12))
  arg13 : ∀ c : Dev Cert.KernelIdeal.nD, W c (Proc.devRef .tc Cert.KernelIdeal.main_arg13) = (m ((c.tc : Thread Cert.KernelIdeal.nD Cert.KernelIdeal.τ).loc Cert.KernelIdeal.main_arg13))
  arg14 : ∀ c : Dev Cert.KernelIdeal.nD, W c (Proc.devRef .tc Cert.KernelIdeal.main_arg14) = (m ((c.tc : Thread Cert.KernelIdeal.nD Cert.KernelIdeal.τ).loc Cert.KernelIdeal.main_arg14))
  arg15 : ∀ c : Dev Cert.KernelIdeal.nD, W c (Proc.devRef .tc Cert.KernelIdeal.main_arg15) = (m ((c.tc : Thread Cert.KernelIdeal.nD Cert.KernelIdeal.τ).loc Cert.KernelIdeal.main_arg15))
  arg16 : ∀ c : Dev Cert.KernelIdeal.nD, W c (Proc.devRef .tc Cert.KernelIdeal.main_arg16) = (m ((c.tc : Thread Cert.KernelIdeal.nD Cert.KernelIdeal.τ).loc Cert.KernelIdeal.main_arg16))
  arg17 : ∀ c : Dev Cert.KernelIdeal.nD, W c (Proc.devRef .tc Cert.KernelIdeal.main_arg17) = (m ((c.tc : Thread Cert.KernelIdeal.nD Cert.KernelIdeal.τ).loc Cert.KernelIdeal.main_arg17))
  arg18 : ∀ c : Dev Cert.KernelIdeal.nD, W c (Proc.devRef .tc Cert.KernelIdeal.main_arg18) = (m ((c.tc : Thread Cert.KernelIdeal.nD Cert.KernelIdeal.τ).loc Cert.KernelIdeal.main_arg18))
  arg19 : ∀ c : Dev Cert.KernelIdeal.nD, W c (Proc.devRef .tc Cert.KernelIdeal.main_arg19) = (m ((c.tc : Thread Cert.KernelIdeal.nD Cert.KernelIdeal.τ).loc Cert.KernelIdeal.main_arg19))
  arg20 : ∀ c : Dev Cert.KernelIdeal.nD, W c (Proc.devRef .tc Cert.KernelIdeal.main_arg20) = (m ((c.tc : Thread Cert.KernelIdeal.nD Cert.KernelIdeal.τ).loc Cert.KernelIdeal.main_arg20))
  arg21 : ∀ c : Dev Cert.KernelIdeal.nD, W c (Proc.devRef .tc Cert.KernelIdeal.main_arg21) = (m ((c.tc : Thread Cert.KernelIdeal.nD Cert.KernelIdeal.τ).loc Cert.KernelIdeal.main_arg21))
  arg22 : ∀ c : Dev Cert.KernelIdeal.nD, W c (Proc.devRef .tc Cert.KernelIdeal.main_arg22) = (m ((c.tc : Thread Cert.KernelIdeal.nD Cert.KernelIdeal.τ).loc Cert.KernelIdeal.main_arg22))
  kbus : ∀ c : Dev Cert.KernelIdeal.nD, W c (Proc.devRef .tc Cert.KernelIdeal.main_v821)
    = headArr (featK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).b
        (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
  kgen : ∀ c : Dev Cert.KernelIdeal.nD, W c (Proc.devRef .tc Cert.KernelIdeal.main_v824)
    = headArr (featK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).g
        (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
  rrun : θ_run (Cert.ReferenceIdeal.defs (F := Ideal)) (onTc (τ := Cert.ReferenceIdeal.τ) (Cert.ReferenceIdeal.main (F := Ideal))) ⟨m', fun _ => 0, g'⟩
    (fun r => ∀ c : Dev Cert.ReferenceIdeal.nD,
      r.2.mem ((c.tc : Thread Cert.ReferenceIdeal.nD Cert.ReferenceIdeal.τ).loc Cert.ReferenceIdeal.main_v920) = R0 c
      ∧ r.2.mem ((c.tc : Thread Cert.ReferenceIdeal.nD Cert.ReferenceIdeal.τ).loc Cert.ReferenceIdeal.main_v929) = R1 c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))
  rbus : ∀ c : Dev Cert.ReferenceIdeal.nD, R0 c
    = headArr (featR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22))).b
        (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
  rgen : ∀ c : Dev Cert.ReferenceIdeal.nD, R1 c
    = headArr (featR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22))).g
        (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))

/-- The algebraic claim from its pieces. -/
theorem algebraic_of
    (W : (m : (ℓ : Loc Cert.KernelIdeal.nD Cert.KernelIdeal.τ Cert.KernelIdeal.sig) → Buf (Elt Ideal) ℓ) → (g : Dev Cert.KernelIdeal.nD → PrngReg) →
      Dev Cert.KernelIdeal.nD → Valuation Cert.KernelIdeal.τ Cert.KernelIdeal.sig (Elt Ideal))
    (R0 : (m' : (ℓ : Loc Cert.ReferenceIdeal.nD Cert.ReferenceIdeal.τ Cert.ReferenceIdeal.sig) → Buf (Elt Ideal) ℓ) → (c : Dev Cert.ReferenceIdeal.nD) →
      Buf (Elt Ideal) ((c.tc : Thread Cert.ReferenceIdeal.nD Cert.ReferenceIdeal.τ).loc Cert.ReferenceIdeal.main_v920))
    (R1 : (m' : (ℓ : Loc Cert.ReferenceIdeal.nD Cert.ReferenceIdeal.τ Cert.ReferenceIdeal.sig) → Buf (Elt Ideal) ℓ) → (c : Dev Cert.ReferenceIdeal.nD) →
      Buf (Elt Ideal) ((c.tc : Thread Cert.ReferenceIdeal.nD Cert.ReferenceIdeal.τ).loc Cert.ReferenceIdeal.main_v929))
    (h : ∀ m g m' g', Pieces m g m' g' (W m g) (R0 m') (R1 m')) : Cert.algebraic_KernelIdeal_ReferenceIdeal := by
  intro m g m' g' hpre hagree
  have p := h m g m' g'
  refine ⟨fun c => W m g c (Proc.devRef .tc Cert.KernelIdeal.main_v821), fun c => W m g c (Proc.devRef .tc Cert.KernelIdeal.main_v824), ?_, ?_⟩
  · exact (θ_run Cert.KernelIdeal.defs _ _).mono (fun _ hr c =>
      ⟨hr c _ (p.uc Cert.KernelIdeal.main_v821 (by decide)), hr c _ (p.uc Cert.KernelIdeal.main_v824 (by decide)),
        (hr c _ (p.uc Cert.KernelIdeal.main_arg0 (by decide))).trans (p.arg0 c),
        (hr c _ (p.uc Cert.KernelIdeal.main_arg1 (by decide))).trans (p.arg1 c),
        (hr c _ (p.uc Cert.KernelIdeal.main_arg2 (by decide))).trans (p.arg2 c),
        (hr c _ (p.uc Cert.KernelIdeal.main_arg3 (by decide))).trans (p.arg3 c),
        (hr c _ (p.uc Cert.KernelIdeal.main_arg4 (by decide))).trans (p.arg4 c),
        (hr c _ (p.uc Cert.KernelIdeal.main_arg5 (by decide))).trans (p.arg5 c),
        (hr c _ (p.uc Cert.KernelIdeal.main_arg6 (by decide))).trans (p.arg6 c),
        (hr c _ (p.uc Cert.KernelIdeal.main_arg7 (by decide))).trans (p.arg7 c),
        (hr c _ (p.uc Cert.KernelIdeal.main_arg8 (by decide))).trans (p.arg8 c),
        (hr c _ (p.uc Cert.KernelIdeal.main_arg9 (by decide))).trans (p.arg9 c),
        (hr c _ (p.uc Cert.KernelIdeal.main_arg10 (by decide))).trans (p.arg10 c),
        (hr c _ (p.uc Cert.KernelIdeal.main_arg11 (by decide))).trans (p.arg11 c),
        (hr c _ (p.uc Cert.KernelIdeal.main_arg12 (by decide))).trans (p.arg12 c),
        (hr c _ (p.uc Cert.KernelIdeal.main_arg13 (by decide))).trans (p.arg13 c),
        (hr c _ (p.uc Cert.KernelIdeal.main_arg14 (by decide))).trans (p.arg14 c),
        (hr c _ (p.uc Cert.KernelIdeal.main_arg15 (by decide))).trans (p.arg15 c),
        (hr c _ (p.uc Cert.KernelIdeal.main_arg16 (by decide))).trans (p.arg16 c),
        (hr c _ (p.uc Cert.KernelIdeal.main_arg17 (by decide))).trans (p.arg17 c),
        (hr c _ (p.uc Cert.KernelIdeal.main_arg18 (by decide))).trans (p.arg18 c),
        (hr c _ (p.uc Cert.KernelIdeal.main_arg19 (by decide))).trans (p.arg19 c),
        (hr c _ (p.uc Cert.KernelIdeal.main_arg20 (by decide))).trans (p.arg20 c),
        (hr c _ (p.uc Cert.KernelIdeal.main_arg21 (by decide))).trans (p.arg21 c),
        (hr c _ (p.uc Cert.KernelIdeal.main_arg22 (by decide))).trans (p.arg22 c)⟩) p.run
  · refine (θ_run Cert.ReferenceIdeal.defs _ _).mono (fun _ hr c => ⟨(hr c).1.trans ?_, (hr c).2.1.trans ?_, (hr c).2.2⟩) p.rrun
    · obtain ⟨a0, a1, a2, a3, a4, a5, a6, a7, a8, a9, a10, a11, a12, a13, a14, a15, a16, a17, a18, a19, a20, a21, a22⟩ := hagree c
      rw [p.rbus c]
      show _ = W m g c (Proc.devRef .tc Cert.KernelIdeal.main_v821)
      rw [p.kbus c, featK_eq_featR_mem m hpre c, a0, a1, a2, a3, a4, a5, a6, a7, a8, a9, a10, a15, a16, a17, a18, a19, a20, a21, a22]
    · obtain ⟨a0, a1, a2, a3, a4, a5, a6, a7, a8, a9, a10, a11, a12, a13, a14, a15, a16, a17, a18, a19, a20, a21, a22⟩ := hagree c
      rw [p.rgen c]
      show _ = W m g c (Proc.devRef .tc Cert.KernelIdeal.main_v824)
      rw [p.kgen c, featK_eq_featR_mem m hpre c, a0, a1, a2, a3, a4, a5, a6, a11, a12, a13, a14, a15, a16, a17, a18, a19, a20, a21, a22]

end Cert.Hand.Alg

end
-- ==== Proof.KI.Val0.lean ====
import proofs.«125545_j64845416235624_1_alg».proof.Proof.KI.D0
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 0 at the ideal values: the output array is the five-aggregate layer of the arrays the region finds

The body's payload is read at an index (six block products into zero accumulators, added in the body's order, the
bias row broadcast, the rectifier); each neighbour weight is a slice of the stacked weights; each input block is
its array read at the point's rows; the row blocks tile the output array. -/

/-! ## The block product `[2000,128] ⬝ [128,128]` at an index -/

theorem lhs0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm0_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs0_0 _ _
    | ⟨1, _⟩ => exact (lhs0_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs0_0 _ _).trans hk
    | ⟨1, _⟩ => exact rhs0_1 _ _)
  rw [el, er]

/-! ## The payloads at an index -/

/-- The first part's sum, at row `i` and column `j`: the destination rows times the root weight, then the first
    three aggregates times their weights, added in that order. -/
theorem pay0_2_apply (x0 : Vec Ideal S2000x128 .f32) (x1 : Vec Ideal S128x128 .f32) (x2 : Vec Ideal S2000x128 .f32)
    (x3 : Vec Ideal S1x128x128 .f32) (x4 : Vec Ideal S2000x128 .f32) (x5 : Vec Ideal S1x128x128 .f32)
    (x6 : Vec Ideal S2000x128 .f32) (x7 : Vec Ideal S1x128x128 .f32) (i : Fin 2000) (j : Fin 128) :
    k0_pay2 (F := Ideal) x0 x1 x2 x3 x4 x5 x6 x7 (ix2 i j)
      = (((∑ k : Fin 128, x0 (ix2 i k) * x1 (ix2 k j)) + ∑ k : Fin 128, x2 (ix2 i k) * x3 (ix3 (0 : Fin 1) k j))
          + ∑ k : Fin 128, x4 (ix2 i k) * x5 (ix3 (0 : Fin 1) k j)) + ∑ k : Fin 128, x6 (ix2 i k) * x7 (ix3 (0 : Fin 1) k j) := by
  unfold k0_pay2
  simp only [addf_apply, mm0_apply, truncf_apply, shapeCast_self, shapeCast_1ab_ab_apply]

/-- The fourth aggregate's rows rounded to `bf16`: themselves, at the ideal values. -/
theorem pay0_3_apply (x : Vec Ideal S2000x128 .f32) (y : S2000x128.Idx) : k0_pay3 (F := Ideal) x y = x y := by
  unfold k0_pay3
  simp only [truncf_apply, shapeCast_self]

/-- What the body stores, at row `i` and column `j` of the block, from the first part's sum `s`, the fourth
    aggregate's rounded rows `a3`, and the loaded fourth weight, fifth aggregate, fifth weight and bias row. -/
theorem pay0_1_apply (s : FVec Ideal S2000x128 .f32) (a3 : FVec Ideal S2000x128 .bf16) (w3 : Vec Ideal S1x128x128 .f32)
    (a4 : Vec Ideal S2000x128 .f32) (w4 : Vec Ideal S1x128x128 .f32) (b : Vec Ideal S1x128 .f32) (i : Fin 2000) (j : Fin 128) :
    k0_pay1 (F := Ideal) s a3 w3 a4 w4 b (ix2 i j)
      = max (((s (ix2 i j) + ∑ k : Fin 128, a3 (ix2 i k) * w3 (ix3 (0 : Fin 1) k j))
          + ∑ k : Fin 128, a4 (ix2 i k) * w4 (ix3 (0 : Fin 1) k j)) + b (ix2 (0 : Fin 1) j)) 0 := by
  unfold k0_pay1
  simp only [maximumf_apply, addf_apply, broadcast_apply, mm0_apply, truncf_apply, shapeCast_self,
    shapeCast_1ab_ab_apply, broadcastTo_1b_ab_apply]
  exact congrArg (max _) Ideal.ofBits_zero_f32

/-! ## The neighbour weights: slices of the stacked weights -/

theorem ld0_l0 (x : Vec Ideal S5x128x128 .f32) (k j : Fin 128) : View.ld x r0_l0 (ix3 (0 : Fin 1) k j) = x (ix3 (0 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld0_l1 (x : Vec Ideal S5x128x128 .f32) (k j : Fin 128) : View.ld x r0_l1 (ix3 (0 : Fin 1) k j) = x (ix3 (1 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld0_l2 (x : Vec Ideal S5x128x128 .f32) (k j : Fin 128) : View.ld x r0_l2 (ix3 (0 : Fin 1) k j) = x (ix3 (2 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld0_l3 (x : Vec Ideal S5x128x128 .f32) (k j : Fin 128) : View.ld x r0_l3 (ix3 (0 : Fin 1) k j) = x (ix3 (3 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld0_l4 (x : Vec Ideal S5x128x128 .f32) (k j : Fin 128) : View.ld x r0_l4 (ix3 (0 : Fin 1) k j) = x (ix3 (4 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega

/-! ## From blocks to the array -/

variable (V : (c : Dev nD) → (b : Ref sig .tc) → Buf (Elt Ideal) ((c : Thread nD τ).loc b))

theorem hz0_2 : (![0, 0] : Fin 2 → Nat) = fun _ => 0 := funext fun a => by fin_cases a <;> rfl

/-- The layer's value as one function of the arrays the region finds, index by index. -/
abbrev G0 (c : Dev nD) : S100000x128.Idx → EReal := fun idx =>
  Cert.Spec.layer5K (fun (i : Fin 100000) (k : Fin 128) => V c (Pipeline.arrRef spec0 0) (ix2 i k))
    (fun (i : Fin 100000) (k : Fin 128) => V c (Pipeline.arrRef spec0 1) (ix2 i k))
    (fun (i : Fin 100000) (k : Fin 128) => V c (Pipeline.arrRef spec0 2) (ix2 i k))
    (fun (i : Fin 100000) (k : Fin 128) => V c (Pipeline.arrRef spec0 3) (ix2 i k))
    (fun (i : Fin 100000) (k : Fin 128) => V c (Pipeline.arrRef spec0 4) (ix2 i k))
    (fun (i : Fin 100000) (k : Fin 128) => V c (Pipeline.arrRef spec0 5) (ix2 i k))
    (fun (k j : Fin 128) => V c (Pipeline.arrRef spec0 6) (ix3 (0 : Fin 5) k j))
    (fun (k j : Fin 128) => V c (Pipeline.arrRef spec0 6) (ix3 (1 : Fin 5) k j))
    (fun (k j : Fin 128) => V c (Pipeline.arrRef spec0 6) (ix3 (2 : Fin 5) k j))
    (fun (k j : Fin 128) => V c (Pipeline.arrRef spec0 6) (ix3 (3 : Fin 5) k j))
    (fun (k j : Fin 128) => V c (Pipeline.arrRef spec0 6) (ix3 (4 : Fin 5) k j))
    (fun (k j : Fin 128) => V c (Pipeline.arrRef spec0 7) (ix2 k j))
    (fun (j : Fin 128) => V c (Pipeline.arrRef spec0 8) (ix2 (0 : Fin 1) j)) (idx 0) (idx 1)

/-- The printed index maps over the grid: the row-tiled windows move with the point, the weights and the bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of point `t`'s row block, as a row of the array. -/
def row0 (t : Fin cfg0.N) (p : Fin 2000) : Fin 100000 :=
  ⟨2000 * t.val + p.val, by have ht := t.isLt; have hN : cfg0.N = 50 := N_0; have hp := p.isLt; omega⟩

/-- A row-tiled window's block at point `t` is the `2000` rows of its array from row `2000 t` on: the five
    aggregates and the destination features. -/
theorem iblk0_0_eq (c : Dev nD) (t : Fin cfg0.N) (p : Fin 2000) (k : Fin 128) :
    (iblk0 V c 0 t : Vec Ideal S2000x128 .f32) (ix2 p k) = (V c (Pipeline.arrRef spec0 0) : S100000x128.Idx → EReal) (ix2 (row0 t p) k) := by
  obtain ⟨e0, e1, -⟩ := idx_facts0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega
theorem iblk0_1_eq (c : Dev nD) (t : Fin cfg0.N) (p : Fin 2000) (k : Fin 128) :
    (iblk0 V c 1 t : Vec Ideal S2000x128 .f32) (ix2 p k) = (V c (Pipeline.arrRef spec0 1) : S100000x128.Idx → EReal) (ix2 (row0 t p) k) := by
  obtain ⟨-, -, e0, e1, -⟩ := idx_facts0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega
theorem iblk0_2_eq (c : Dev nD) (t : Fin cfg0.N) (p : Fin 2000) (k : Fin 128) :
    (iblk0 V c 2 t : Vec Ideal S2000x128 .f32) (ix2 p k) = (V c (Pipeline.arrRef spec0 2) : S100000x128.Idx → EReal) (ix2 (row0 t p) k) := by
  obtain ⟨-, -, -, -, e0, e1, -⟩ := idx_facts0 t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 2000 + 1 * p.val = 2000 * t.val + p.val; omega
  | ⟨1, _⟩ => show win0_2.index t (1 : Fin 2) * 128 + 1 * k.val = k.val; omega
theorem iblk0_3_eq (c : Dev nD) (t : Fin cfg0.N) (p : Fin 2000) (k : Fin 128) :
    (iblk0 V c 3 t : Vec Ideal S2000x128 .f32) (ix2 p k) = (V c (Pipeline.arrRef spec0 3) : S100000x128.Idx → EReal) (ix2 (row0 t p) k) := by
  obtain ⟨-, -, -, -, -, -, e0, e1, -⟩ := idx_facts0 t
  unfold iblk0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t (0 : Fin 2) * 2000 + 1 * p.val = 2000 * t.val + p.val; omega
  | ⟨1, _⟩ => show win0_3.index t (1 : Fin 2) * 128 + 1 * k.val = k.val; omega
theorem iblk0_4_eq (c : Dev nD) (t : Fin cfg0.N) (p : Fin 2000) (k : Fin 128) :
    (iblk0 V c 4 t : Vec Ideal S2000x128 .f32) (ix2 p k) = (V c (Pipeline.arrRef spec0 4) : S100000x128.Idx → EReal) (ix2 (row0 t p) k) := by
  obtain ⟨-, -, -, -, -, -, -, -, e0, e1, -⟩ := idx_facts0 t
  unfold iblk0
  rw [View.read_apply]
  show V c (Pipeline.arrRef spec0 4) _ = V c (Pipeline.arrRef spec0 4) _
  refine congrArg (V c (Pipeline.arrRef spec0 4)) (funext fun a => Fin.ext ?_)
  match a with
  | ⟨0, _⟩ => show win0_4.index t (0 : Fin 2) * 2000 + 1 * p.val = 2000 * t.val + p.val; omega
  | ⟨1, _⟩ => show win0_4.index t (1 : Fin 2) * 128 + 1 * k.val = k.val; omega
theorem iblk0_5_eq (c : Dev nD) (t : Fin cfg0.N) (p : Fin 2000) (k : Fin 128) :
    (iblk0 V c 5 t : Vec Ideal S2000x128 .f32) (ix2 p k) = (V c (Pipeline.arrRef spec0 5) : S100000x128.Idx → EReal) (ix2 (row0 t p) k) := by
  obtain ⟨-, -, -, -, -, -, -, -, -, -, e0, e1, -⟩ := idx_facts0 t
  unfold iblk0
  rw [View.read_apply]
  show V c (Pipeline.arrRef spec0 5) _ = V c (Pipeline.arrRef spec0 5) _
  refine congrArg (V c (Pipeline.arrRef spec0 5)) (funext fun a => Fin.ext ?_)
  match a with
  | ⟨0, _⟩ => show win0_5.index t (0 : Fin 2) * 2000 + 1 * p.val = 2000 * t.val + p.val; omega
  | ⟨1, _⟩ => show win0_5.index t (1 : Fin 2) * 128 + 1 * k.val = k.val; omega

/-- The stacked neighbour weights' block is its whole array. -/
theorem iblk0_6_eq (c : Dev nD) (t : Fin cfg0.N) (e : Fin 5) (k j : Fin 128) :
    (iblk0 V c 6 t : Vec Ideal S5x128x128 .f32) (ix3 e k j) = (V c (Pipeline.arrRef spec0 6) : S5x128x128.Idx → EReal) (ix3 e k j) := by
  obtain ⟨-, -, -, -, -, -, -, -, -, -, -, -, e0, e1, e2, -⟩ := idx_facts0 t
  unfold iblk0
  rw [View.read_apply]
  show V c (Pipeline.arrRef spec0 6) _ = V c (Pipeline.arrRef spec0 6) _
  refine congrArg (V c (Pipeline.arrRef spec0 6)) (funext fun a => Fin.ext ?_)
  match a with
  | ⟨0, _⟩ => show win0_6.index t (0 : Fin 3) * 5 + 1 * e.val = e.val; omega
  | ⟨1, _⟩ => show win0_6.index t (1 : Fin 3) * 128 + 1 * k.val = k.val; omega
  | ⟨2, _⟩ => show win0_6.index t (2 : Fin 3) * 128 + 1 * j.val = j.val; omega

/-- Neighbour weight `e` as the body loads it: slice `e` of the stacked weights' array. -/
theorem ld0_s0 (c : Dev nD) (t : Fin cfg0.N) (k j : Fin 128) :
    View.ld (iblk0 V c 6 t : Vec Ideal S5x128x128 .f32) r0_l0 (ix3 (0 : Fin 1) k j) = (V c (Pipeline.arrRef spec0 6) : S5x128x128.Idx → EReal) (ix3 (0 : Fin 5) k j) :=
  (ld0_l0 _ k j).trans (iblk0_6_eq V c t 0 k j)
theorem ld0_s1 (c : Dev nD) (t : Fin cfg0.N) (k j : Fin 128) :
    View.ld (iblk0 V c 6 t : Vec Ideal S5x128x128 .f32) r0_l1 (ix3 (0 : Fin 1) k j) = (V c (Pipeline.arrRef spec0 6) : S5x128x128.Idx → EReal) (ix3 (1 : Fin 5) k j) :=
  (ld0_l1 _ k j).trans (iblk0_6_eq V c t 1 k j)
theorem ld0_s2 (c : Dev nD) (t : Fin cfg0.N) (k j : Fin 128) :
    View.ld (iblk0 V c 6 t : Vec Ideal S5x128x128 .f32) r0_l2 (ix3 (0 : Fin 1) k j) = (V c (Pipeline.arrRef spec0 6) : S5x128x128.Idx → EReal) (ix3 (2 : Fin 5) k j) :=
  (ld0_l2 _ k j).trans (iblk0_6_eq V c t 2 k j)
theorem ld0_s3 (c : Dev nD) (t : Fin cfg0.N) (k j : Fin 128) :
    View.ld (iblk0 V c 6 t : Vec Ideal S5x128x128 .f32) r0_l3 (ix3 (0 : Fin 1) k j) = (V c (Pipeline.arrRef spec0 6) : S5x128x128.Idx → EReal) (ix3 (3 : Fin 5) k j) :=
  (ld0_l3 _ k j).trans (iblk0_6_eq V c t 3 k j)
theorem ld0_s4 (c : Dev nD) (t : Fin cfg0.N) (k j : Fin 128) :
    View.ld (iblk0 V c 6 t : Vec Ideal S5x128x128 .f32) r0_l4 (ix3 (0 : Fin 1) k j) = (V c (Pipeline.arrRef spec0 6) : S5x128x128.Idx → EReal) (ix3 (4 : Fin 5) k j) :=
  (ld0_l4 _ k j).trans (iblk0_6_eq V c t 4 k j)

/-- The summed root weight's block is its whole array. -/
theorem iblk0_7_eq (c : Dev nD) (t : Fin cfg0.N) (k j : Fin 128) :
    (iblk0 V c 7 t : Vec Ideal S128x128 .f32) (ix2 k j) = (V c (Pipeline.arrRef spec0 7) : S128x128.Idx → EReal) (ix2 k j) := by
  obtain ⟨-, -, -, -, -, -, -, -, -, -, -, -, -, -, -, e0, e1, -⟩ := idx_facts0 t
  unfold iblk0
  rw [View.read_apply]
  show V c (Pipeline.arrRef spec0 7) _ = V c (Pipeline.arrRef spec0 7) _
  refine congrArg (V c (Pipeline.arrRef spec0 7)) (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

/-- The summed bias block is its whole array. -/
theorem iblk0_8_eq (c : Dev nD) (t : Fin cfg0.N) (j : Fin 128) :
    (iblk0 V c 8 t : Vec Ideal S1x128 .f32) (ix2 (0 : Fin 1) j) = (V c (Pipeline.arrRef spec0 8) : S1x128.Idx → EReal) (ix2 (0 : Fin 1) j) := by
  obtain ⟨-, -, -, -, -, -, -, -, -, -, -, -, -, -, -, -, -, e0, e1, -⟩ := idx_facts0 t
  unfold iblk0
  rw [View.read_apply]
  show V c (Pipeline.arrRef spec0 8) _ = V c (Pipeline.arrRef spec0 8) _
  refine congrArg (V c (Pipeline.arrRef spec0 8)) (funext fun a => Fin.ext ?_)
  match a with
  | ⟨0, _⟩ => show win0_8.index t (0 : Fin 2) * 1 + 1 * 0 = 0; omega
  | ⟨1, _⟩ => show win0_8.index t (1 : Fin 2) * 128 + 1 * j.val = j.val; omega

/-- Where the output's block at point `t` puts its entry `(p, q)`: row `2000 t + p`, column `q`. -/
theorem emb0_9 (t : Fin cfg0.N) (p : Fin 2000) (q : Fin 128) :
    ((cfg0.win 9).blk t).view.emb (ix2 p q) = (ix2 (row0 t p) q : S100000x128.Idx) := by
  obtain ⟨-, -, -, -, -, -, -, -, -, -, -, -, -, -, -, -, -, -, -, e0, e1⟩ := idx_facts0 t
  refine funext fun a => Fin.ext ?_
  match a with
  | ⟨0, _⟩ => show win0_9.index t (0 : Fin 2) * 2000 + 1 * p.val = 2000 * t.val + p.val; omega
  | ⟨1, _⟩ => show win0_9.index t (1 : Fin 2) * 128 + 1 * q.val = q.val; omega

/-- What point `t` writes back is block `t` of the layer's value. -/
theorem flushed0_eq (c : Dev nD) (t : Fin cfg0.N) :
    (dat0 (F := Ideal) V c).flushed 9 t = ((cfg0.win 9).blk t).view.read (Elt Ideal) (G0 V c) := by
  show (cfg0.win 9).cut (grid0.coords t) ((dat0 V c).after 9 t) = _
  rw [after0_9]
  unfold out0
  rw [View.canon_unit_zero hz0_2]
  simp only [View.ld_unit_zero (S := S2000x128) hz0_2, View.ld_unit_zero (S := S128x128) hz0_2, View.ld_unit_zero (S := S1x128) hz0_2]
  funext y
  obtain ⟨p, q, rfl⟩ : ∃ (p : Fin 2000) (q : Fin 128), y = ix2 p q := ⟨y 0, y 1, eq_ix2 y⟩
  show k0_pay1 (F := Ideal)
      (k0_pay2 (iblk0 V c 5 t) (iblk0 V c 7 t) (iblk0 V c 0 t) (View.ld (iblk0 V c 6 t) r0_l0) (iblk0 V c 1 t) (View.ld (iblk0 V c 6 t) r0_l1)
        (iblk0 V c 2 t) (View.ld (iblk0 V c 6 t) r0_l2))
      (k0_pay3 (iblk0 V c 3 t)) (View.ld (iblk0 V c 6 t) r0_l3) (iblk0 V c 4 t) (View.ld (iblk0 V c 6 t) r0_l4) (iblk0 V c 8 t) (ix2 p q)
    = G0 V c (((cfg0.win 9).blk t).view.emb (ix2 p q))
  refine (pay0_1_apply _ _ _ _ _ _ p q).trans ?_
  rw [emb0_9 t p q]
  simp only [pay0_2_apply, pay0_3_apply, ld0_s0, ld0_s1, ld0_s2, ld0_s3, ld0_s4]
  simp only [iblk0_0_eq, iblk0_1_eq, iblk0_2_eq, iblk0_3_eq, iblk0_4_eq, iblk0_5_eq, iblk0_7_eq, iblk0_8_eq]
  rfl

/-- An index of the output array is in point `t`'s block iff each coordinate is in the block's range on its axis. -/
theorem mem_blk0 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v245).slice (win0_9.rect t)).set ↔ _
  rw [View.set_slice_whole, Rect.mem_set_unit]
  exact Iff.rfl

/-- Every index of the output array is in the block of the point `r / 2000`, `r` its row. -/
theorem mem_blk0_cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  have ht : t.val = (i 0).val / 2000 := rfl
  obtain ⟨-, -, -, -, -, -, -, -, -, -, -, -, -, -, -, -, -, -, -, e0, e1⟩ := idx_facts0 t
  refine ⟨t, flush0_9 t, ?_⟩
  rw [mem_blk0]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- The output array after the region is the layer's value: the row blocks cover it. -/
theorem val0_G (c : Dev nD) : (dat0 (F := Ideal) V c).arrAt 9 cfg0.N = G0 V c :=
  (dat0 V c).arrAt_eq_of_cover 9 (G0 V c) (fun t _ => flushed0_eq V c t) mem_blk0_cover

/-- THE OUTPUT ARRAY after the region: the five-aggregate layer of the arrays the region finds. -/
theorem val0 (c : Dev nD) :
    (dat0 (F := Ideal) V c).arrAt 9 cfg0.N = fun idx =>
      Cert.Spec.layer5K (fun (i : Fin 100000) (k : Fin 128) => V c (Pipeline.arrRef spec0 0) (ix2 i k))
        (fun (i : Fin 100000) (k : Fin 128) => V c (Pipeline.arrRef spec0 1) (ix2 i k))
        (fun (i : Fin 100000) (k : Fin 128) => V c (Pipeline.arrRef spec0 2) (ix2 i k))
        (fun (i : Fin 100000) (k : Fin 128) => V c (Pipeline.arrRef spec0 3) (ix2 i k))
        (fun (i : Fin 100000) (k : Fin 128) => V c (Pipeline.arrRef spec0 4) (ix2 i k))
        (fun (i : Fin 100000) (k : Fin 128) => V c (Pipeline.arrRef spec0 5) (ix2 i k))
        (fun (k j : Fin 128) => V c (Pipeline.arrRef spec0 6) (ix3 (0 : Fin 5) k j))
        (fun (k j : Fin 128) => V c (Pipeline.arrRef spec0 6) (ix3 (1 : Fin 5) k j))
        (fun (k j : Fin 128) => V c (Pipeline.arrRef spec0 6) (ix3 (2 : Fin 5) k j))
        (fun (k j : Fin 128) => V c (Pipeline.arrRef spec0 6) (ix3 (3 : Fin 5) k j))
        (fun (k j : Fin 128) => V c (Pipeline.arrRef spec0 6) (ix3 (4 : Fin 5) k j))
        (fun (k j : Fin 128) => V c (Pipeline.arrRef spec0 7) (ix2 k j))
        (fun (j : Fin 128) => V c (Pipeline.arrRef spec0 8) (ix2 (0 : Fin 1) j)) (idx 0) (idx 1) :=
  val0_G V c

end Cert.KernelIdeal.Hand
-- ==== Proof.KI.Val1.lean ====
import proofs.«125545_j64845416235624_1_alg».proof.Proof.KI.D1
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 1 at the ideal values: the output array is the one-aggregate layer of the arrays the region finds

The body's payload is read at an index (two block products into zero accumulators, the bias row broadcast, the
rectifier); each input block is its array read at the point's rows; the row blocks tile the output array. -/

/-! ## The block product `[2000,128] ⬝ [128,128]` at an index -/

theorem lhs1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm1_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs1_0 _ _
    | ⟨1, _⟩ => exact (lhs1_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs1_0 _ _).trans hk
    | ⟨1, _⟩ => exact rhs1_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay1_apply (x0 : Vec Ideal S2000x128 .f32) (x1 : Vec Ideal S128x128 .f32) (x2 : Vec Ideal S2000x128 .f32)
    (x3 : Vec Ideal S1x128x128 .f32) (x4 : Vec Ideal S1x128 .f32) (i : Fin 2000) (j : Fin 128) :
    k1_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k1_pay1
  simp only [maximumf_apply, addf_apply, broadcast_apply, mm1_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- The layer's value as one function of the arrays the region finds, index by index. -/
abbrev G1 (c : Dev nD) : S20000x128.Idx → EReal := fun idx =>
  Cert.Spec.layer1K (fun (i : Fin 20000) (k : Fin 128) => V c (Pipeline.arrRef spec1 0) (ix2 i k))
    (fun (i : Fin 20000) (k : Fin 128) => V c (Pipeline.arrRef spec1 1) (ix2 i k))
    (fun (k j : Fin 128) => V c (Pipeline.arrRef spec1 2) (ix3 (0 : Fin 1) k j))
    (fun (k j : Fin 128) => V c (Pipeline.arrRef spec1 3) (ix2 k j))
    (fun (j : Fin 128) => V c (Pipeline.arrRef spec1 4) (ix2 (0 : Fin 1) j)) (idx 0) (idx 1)

/-- The printed index maps over the grid: the row-tiled windows move with the point, the weights and the bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s row block, as a row of the array. -/
def row1 (t : Fin cfg1.N) (p : Fin 2000) : Fin 20000 :=
  ⟨2000 * t.val + p.val, by have ht := t.isLt; have hN : cfg1.N = 10 := N_1; have hp := p.isLt; omega⟩

/-- The aggregate's block at point `t` is the `2000` rows of its array from row `2000 t` on. -/
theorem iblk1_0_eq (c : Dev nD) (t : Fin cfg1.N) (p : Fin 2000) (k : Fin 128) :
    (iblk1 V c 0 t : Vec Ideal S2000x128 .f32) (ix2 p k) = (V c (Pipeline.arrRef spec1 0) : S20000x128.Idx → EReal) (ix2 (row1 t p) k) := by
  obtain ⟨e0, e1, -⟩ := idx_facts1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- The destination features' block at point `t` is the same rows of its array. -/
theorem iblk1_1_eq (c : Dev nD) (t : Fin cfg1.N) (p : Fin 2000) (k : Fin 128) :
    (iblk1 V c 1 t : Vec Ideal S2000x128 .f32) (ix2 p k) = (V c (Pipeline.arrRef spec1 1) : S20000x128.Idx → EReal) (ix2 (row1 t p) k) := by
  obtain ⟨-, -, e0, e1, -⟩ := idx_facts1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- The aggregate's weight block is its whole array. -/
theorem iblk1_2_eq (c : Dev nD) (t : Fin cfg1.N) (k j : Fin 128) :
    (iblk1 V c 2 t : Vec Ideal S1x128x128 .f32) (ix3 (0 : Fin 1) k j) = (V c (Pipeline.arrRef spec1 2) : S1x128x128.Idx → EReal) (ix3 (0 : Fin 1) k j) := by
  obtain ⟨-, -, -, -, e0, e1, e2, -⟩ := idx_facts1 t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 3) * 1 + 1 * 0 = 0; omega
  | ⟨1, _⟩ => show win1_2.index t (1 : Fin 3) * 128 + 1 * k.val = k.val; omega
  | ⟨2, _⟩ => show win1_2.index t (2 : Fin 3) * 128 + 1 * j.val = j.val; omega

/-- The destination weight block is its whole array. -/
theorem iblk1_3_eq (c : Dev nD) (t : Fin cfg1.N) (k j : Fin 128) :
    (iblk1 V c 3 t : Vec Ideal S128x128 .f32) (ix2 k j) = (V c (Pipeline.arrRef spec1 3) : S128x128.Idx → EReal) (ix2 k j) := by
  obtain ⟨-, -, -, -, -, -, -, e0, e1, -⟩ := idx_facts1 t
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

/-- The bias block is its whole array. -/
theorem iblk1_4_eq (c : Dev nD) (t : Fin cfg1.N) (j : Fin 128) :
    (iblk1 V c 4 t : Vec Ideal S1x128 .f32) (ix2 (0 : Fin 1) j) = (V c (Pipeline.arrRef spec1 4) : S1x128.Idx → EReal) (ix2 (0 : Fin 1) j) := by
  obtain ⟨-, -, -, -, -, -, -, -, -, e0, e1, -⟩ := idx_facts1 t
  unfold iblk1
  rw [View.read_apply]
  show V c (Pipeline.arrRef spec1 4) _ = V c (Pipeline.arrRef spec1 4) _
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

/-- Where the output's block at point `t` puts its entry `(p, q)`: row `2000 t + p`, column `q`. -/
theorem emb1_5 (t : Fin cfg1.N) (p : Fin 2000) (q : Fin 128) :
    ((cfg1.win 5).blk t).view.emb (ix2 p q) = (ix2 (row1 t p) q : S20000x128.Idx) := by
  obtain ⟨-, -, -, -, -, -, -, -, -, -, -, e0, e1⟩ := idx_facts1 t
  refine funext fun a => Fin.ext ?_
  match a with
  | ⟨0, _⟩ => show win1_5.index t (0 : Fin 2) * 2000 + 1 * p.val = 2000 * t.val + p.val; omega
  | ⟨1, _⟩ => show win1_5.index t (1 : Fin 2) * 128 + 1 * q.val = q.val; omega

/-- What point `t` writes back is block `t` of the layer's value. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1
  rw [View.canon_unit_zero hz1_2]
  simp only [View.ld_unit_zero (S := S2000x128) hz1_2, View.ld_unit_zero (S := S128x128) hz1_2, View.ld_unit_zero (S := S1x128x128) hz1_3, View.ld_unit_zero (S := S1x128) hz1_2]
  funext y
  obtain ⟨p, q, rfl⟩ : ∃ (p : Fin 2000) (q : Fin 128), y = ix2 p q := ⟨y 0, y 1, eq_ix2 y⟩
  show k1_pay1 (F := Ideal) (iblk1 V c 1 t) (iblk1 V c 3 t) (iblk1 V c 0 t) (iblk1 V c 2 t) (iblk1 V c 4 t) (ix2 p q) = G1 V c (((cfg1.win 5).blk t).view.emb (ix2 p q))
  refine (pay1_apply _ _ _ _ _ p q).trans ?_
  rw [emb1_5 t p q]
  simp only [iblk1_0_eq, iblk1_1_eq, iblk1_2_eq, iblk1_3_eq, iblk1_4_eq]
  rfl

/-- An index of the output array is in point `t`'s block iff each coordinate is in the block's range on its axis. -/
theorem mem_blk1 (t : Fin cfg1.N) (i : S20000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v254).slice (win1_5.rect t)).set ↔ _
  rw [View.set_slice_whole, Rect.mem_set_unit]
  exact Iff.rfl

/-- THE OUTPUT ARRAY after the region: the one-aggregate layer of the arrays the region finds (the point that covers
    row `r` is `r / 2000`). -/
theorem val1 (c : Dev nD) :
    (dat1 (F := Ideal) V c).arrAt 5 cfg1.N = fun idx =>
      Cert.Spec.layer1K (fun (i : Fin 20000) (k : Fin 128) => V c (Pipeline.arrRef spec1 0) (ix2 i k))
        (fun (i : Fin 20000) (k : Fin 128) => V c (Pipeline.arrRef spec1 1) (ix2 i k))
        (fun (k j : Fin 128) => V c (Pipeline.arrRef spec1 2) (ix3 (0 : Fin 1) k j))
        (fun (k j : Fin 128) => V c (Pipeline.arrRef spec1 3) (ix2 k j))
        (fun (j : Fin 128) => V c (Pipeline.arrRef spec1 4) (ix2 (0 : Fin 1) j)) (idx 0) (idx 1) :=
  (dat1 V c).arrAt_eq_of_cover 5 (G1 V c) (fun t _ => flushed1_eq V c t) fun i => by
    have hi0 : (i 0).val < 20000 := (i 0).isLt
    have hi1 : (i 1).val < 128 := (i 1).isLt
    have hN : cfg1.N = 10 := N_1
    let t : Fin cfg1.N := ⟨(i 0).val / 2000, by rw [hN]; omega⟩
    have ht : t.val = (i 0).val / 2000 := rfl
    obtain ⟨-, -, -, -, -, -, -, -, -, -, -, e0, e1⟩ := idx_facts1 t
    refine ⟨t, flush1_5 t, ?_⟩
    rw [mem_blk1]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega

end Cert.KernelIdeal.Hand
-- ==== Proof.KI.Val2.lean ====
import proofs.«125545_j64845416235624_1_alg».proof.Proof.KI.D2
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 2 at the ideal values: the output array is the one-aggregate layer of the arrays the region finds

The body's payload is read at an index (two block products into zero accumulators, the bias row broadcast, the
rectifier); each input block is its array read at the point's rows; the row blocks tile the output array. -/

/-! ## The block product `[2000,128] ⬝ [128,128]` at an index -/

theorem lhs2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm2_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs2_0 _ _
    | ⟨1, _⟩ => exact (lhs2_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay2_apply (x0 : Vec Ideal S2000x128 .f32) (x1 : Vec Ideal S128x128 .f32) (x2 : Vec Ideal S2000x128 .f32)
    (x3 : Vec Ideal S1x128x128 .f32) (x4 : Vec Ideal S1x128 .f32) (i : Fin 2000) (j : Fin 128) :
    k2_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k2_pay1
  simp only [maximumf_apply, addf_apply, broadcast_apply, mm2_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz2_2 : (![0, 0] : Fin 2 → Nat) = fun _ => 0 := funext fun a => by fin_cases a <;> rfl
theorem hz2_3 : (![0, 0, 0] : Fin 3 → Nat) = fun _ => 0 := funext fun a => by fin_cases a <;> rfl

/-- The layer's value as one function of the arrays the region finds, index by index. -/
abbrev G2 (c : Dev nD) : S50000x128.Idx → EReal := fun idx =>
  Cert.Spec.layer1K (fun (i : Fin 50000) (k : Fin 128) => V c (Pipeline.arrRef spec2 0) (ix2 i k))
    (fun (i : Fin 50000) (k : Fin 128) => V c (Pipeline.arrRef spec2 1) (ix2 i k))
    (fun (k j : Fin 128) => V c (Pipeline.arrRef spec2 2) (ix3 (0 : Fin 1) k j))
    (fun (k j : Fin 128) => V c (Pipeline.arrRef spec2 3) (ix2 k j))
    (fun (j : Fin 128) => V c (Pipeline.arrRef spec2 4) (ix2 (0 : Fin 1) j)) (idx 0) (idx 1)

/-- The printed index maps over the grid: the row-tiled windows move with the point, the weights and the bias stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s row block, as a row of the array. -/
def row2 (t : Fin cfg2.N) (p : Fin 2000) : Fin 50000 :=
  ⟨2000 * t.val + p.val, by have ht := t.isLt; have hN : cfg2.N = 25 := N_2; have hp := p.isLt; omega⟩

/-- The aggregate's block at point `t` is the `2000` rows of its array from row `2000 t` on. -/
theorem iblk2_0_eq (c : Dev nD) (t : Fin cfg2.N) (p : Fin 2000) (k : Fin 128) :
    (iblk2 V c 0 t : Vec Ideal S2000x128 .f32) (ix2 p k) = (V c (Pipeline.arrRef spec2 0) : S50000x128.Idx → EReal) (ix2 (row2 t p) k) := by
  obtain ⟨e0, e1, -⟩ := idx_facts2 t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

/-- The destination features' block at point `t` is the same rows of its array. -/
theorem iblk2_1_eq (c : Dev nD) (t : Fin cfg2.N) (p : Fin 2000) (k : Fin 128) :
    (iblk2 V c 1 t : Vec Ideal S2000x128 .f32) (ix2 p k) = (V c (Pipeline.arrRef spec2 1) : S50000x128.Idx → EReal) (ix2 (row2 t p) k) := by
  obtain ⟨-, -, e0, e1, -⟩ := idx_facts2 t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 2000 + 1 * p.val = 2000 * t.val + p.val; omega
  | ⟨1, _⟩ => show win2_1.index t (1 : Fin 2) * 128 + 1 * k.val = k.val; omega

/-- The aggregate's weight block is its whole array. -/
theorem iblk2_2_eq (c : Dev nD) (t : Fin cfg2.N) (k j : Fin 128) :
    (iblk2 V c 2 t : Vec Ideal S1x128x128 .f32) (ix3 (0 : Fin 1) k j) = (V c (Pipeline.arrRef spec2 2) : S1x128x128.Idx → EReal) (ix3 (0 : Fin 1) k j) := by
  obtain ⟨-, -, -, -, e0, e1, e2, -⟩ := idx_facts2 t
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 3) * 1 + 1 * 0 = 0; omega
  | ⟨1, _⟩ => show win2_2.index t (1 : Fin 3) * 128 + 1 * k.val = k.val; omega
  | ⟨2, _⟩ => show win2_2.index t (2 : Fin 3) * 128 + 1 * j.val = j.val; omega

/-- The destination weight block is its whole array. -/
theorem iblk2_3_eq (c : Dev nD) (t : Fin cfg2.N) (k j : Fin 128) :
    (iblk2 V c 3 t : Vec Ideal S128x128 .f32) (ix2 k j) = (V c (Pipeline.arrRef spec2 3) : S128x128.Idx → EReal) (ix2 k j) := by
  obtain ⟨-, -, -, -, -, -, -, e0, e1, -⟩ := idx_facts2 t
  unfold iblk2
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t (0 : Fin 2) * 128 + 1 * k.val = k.val; omega
  | ⟨1, _⟩ => show win2_3.index t (1 : Fin 2) * 128 + 1 * j.val = j.val; omega

/-- The bias block is its whole array. -/
theorem iblk2_4_eq (c : Dev nD) (t : Fin cfg2.N) (j : Fin 128) :
    (iblk2 V c 4 t : Vec Ideal S1x128 .f32) (ix2 (0 : Fin 1) j) = (V c (Pipeline.arrRef spec2 4) : S1x128.Idx → EReal) (ix2 (0 : Fin 1) j) := by
  obtain ⟨-, -, -, -, -, -, -, -, -, e0, e1, -⟩ := idx_facts2 t
  unfold iblk2
  rw [View.read_apply]
  show V c (Pipeline.arrRef spec2 4) _ = V c (Pipeline.arrRef spec2 4) _
  refine congrArg (V c (Pipeline.arrRef spec2 4)) (funext fun a => Fin.ext ?_)
  match a with
  | ⟨0, _⟩ => show win2_4.index t (0 : Fin 2) * 1 + 1 * 0 = 0; omega
  | ⟨1, _⟩ => show win2_4.index t (1 : Fin 2) * 128 + 1 * j.val = j.val; omega

/-- Where the output's block at point `t` puts its entry `(p, q)`: row `2000 t + p`, column `q`. -/
theorem emb2_5 (t : Fin cfg2.N) (p : Fin 2000) (q : Fin 128) :
    ((cfg2.win 5).blk t).view.emb (ix2 p q) = (ix2 (row2 t p) q : S50000x128.Idx) := by
  obtain ⟨-, -, -, -, -, -, -, -, -, -, -, e0, e1⟩ := idx_facts2 t
  refine funext fun a => Fin.ext ?_
  match a with
  | ⟨0, _⟩ => show win2_5.index t (0 : Fin 2) * 2000 + 1 * p.val = 2000 * t.val + p.val; omega
  | ⟨1, _⟩ => show win2_5.index t (1 : Fin 2) * 128 + 1 * q.val = q.val; omega

/-- What point `t` writes back is block `t` of the layer's value. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2
  rw [View.canon_unit_zero hz2_2]
  simp only [View.ld_unit_zero (S := S2000x128) hz2_2, View.ld_unit_zero (S := S128x128) hz2_2, View.ld_unit_zero (S := S1x128x128) hz2_3, View.ld_unit_zero (S := S1x128) hz2_2]
  funext y
  obtain ⟨p, q, rfl⟩ : ∃ (p : Fin 2000) (q : Fin 128), y = ix2 p q := ⟨y 0, y 1, eq_ix2 y⟩
  show k2_pay1 (F := Ideal) (iblk2 V c 1 t) (iblk2 V c 3 t) (iblk2 V c 0 t) (iblk2 V c 2 t) (iblk2 V c 4 t) (ix2 p q) = G2 V c (((cfg2.win 5).blk t).view.emb (ix2 p q))
  refine (pay2_apply _ _ _ _ _ p q).trans ?_
  rw [emb2_5 t p q]
  simp only [iblk2_0_eq, iblk2_1_eq, iblk2_2_eq, iblk2_3_eq, iblk2_4_eq]
  rfl

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v263).slice (win2_5.rect t)).set ↔ _
  rw [View.set_slice_whole, Rect.mem_set_unit]
  exact Iff.rfl

/-- THE OUTPUT ARRAY after the region: the one-aggregate layer of the arrays the region finds (the point that covers
    row `r` is `r / 2000`). -/
theorem val2 (c : Dev nD) :
    (dat2 (F := Ideal) V c).arrAt 5 cfg2.N = fun idx =>
      Cert.Spec.layer1K (fun (i : Fin 50000) (k : Fin 128) => V c (Pipeline.arrRef spec2 0) (ix2 i k))
        (fun (i : Fin 50000) (k : Fin 128) => V c (Pipeline.arrRef spec2 1) (ix2 i k))
        (fun (k j : Fin 128) => V c (Pipeline.arrRef spec2 2) (ix3 (0 : Fin 1) k j))
        (fun (k j : Fin 128) => V c (Pipeline.arrRef spec2 3) (ix2 k j))
        (fun (j : Fin 128) => V c (Pipeline.arrRef spec2 4) (ix2 (0 : Fin 1) j)) (idx 0) (idx 1) :=
  (dat2 V c).arrAt_eq_of_cover 5 (G2 V c) (fun t _ => flushed2_eq V c t) fun i => by
    have hi0 : (i 0).val < 50000 := (i 0).isLt
    have hi1 : (i 1).val < 128 := (i 1).isLt
    have hN : cfg2.N = 25 := N_2
    let t : Fin cfg2.N := ⟨(i 0).val / 2000, by rw [hN]; omega⟩
    have ht : t.val = (i 0).val / 2000 := rfl
    obtain ⟨-, -, -, -, -, -, -, -, -, -, -, e0, e1⟩ := idx_facts2 t
    refine ⟨t, flush2_5 t, ?_⟩
    rw [mem_blk2]
    intro a
    match a with
    | ⟨0, _⟩ => show win2_5.index t (0 : Fin 2) * 2000 ≤ (i 0).val ∧ (i 0).val < win2_5.index t (0 : Fin 2) * 2000 + 2000; omega
    | ⟨1, _⟩ => show win2_5.index t (1 : Fin 2) * 128 ≤ (i 1).val ∧ (i 1).val < win2_5.index t (1 : Fin 2) * 128 + 128; omega

end Cert.KernelIdeal.Hand
-- ==== Proof.KI.Val3.lean ====
import proofs.«125545_j64845416235624_1_alg».proof.Proof.KI.D3
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 3 at the ideal values: the output array is the one-aggregate layer of the arrays the region finds

The body's payload is read at an index (two block products into zero accumulators, the bias row broadcast, the
rectifier); each input block is its array read at the point's rows; the row blocks tile the output array. -/

/-! ## The block product `[5000,128] ⬝ [128,128]` at an index -/

theorem lhs3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs3_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs3_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at row `i` and column `j`: the sum over the contracted axis. -/
theorem mm3_apply (l : FVec Ideal S5000x128 .bf16) (r : FVec Ideal S128x128 .bf16) (i : Fin 5000) (j : Fin 128) :
    matmul dot_S5000x128_S128x128_S5000x128_1_0_0_1_n_n none l r (constant (F := Ideal) S5000x128 .f32 0x00000000#32) (ix2 i j)
      = ∑ k : Fin 128, l (ix2 i k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 i j) ((contrEquiv1 dot_S5000x128_S128x128_S5000x128_1_0_0_1_n_n 128 rfl rfl).symm k) = ix2 i k := funext fun a => Fin.ext (by
    match a with
    | ⟨0, _⟩ => exact lhs3_0 _ _
    | ⟨1, _⟩ => exact (lhs3_1 _ _).trans hk)
  have er : dot_S5000x128_S128x128_S5000x128_1_0_0_1_n_n.rhsIdx (ix2 i j) ((contrEquiv1 dot_S5000x128_S128x128_S5000x128_1_0_0_1_n_n 128 rfl rfl).symm k) = ix2 k j := funext fun a => Fin.ext (by
    match a with
    | ⟨0, _⟩ => exact (rhs3_0 _ _).trans hk
    | ⟨1, _⟩ => exact rhs3_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay3_apply (x0 : Vec Ideal S5000x128 .f32) (x1 : Vec Ideal S128x128 .f32) (x2 : Vec Ideal S5000x128 .f32)
    (x3 : Vec Ideal S1x128x128 .f32) (x4 : Vec Ideal S1x128 .f32) (i : Fin 5000) (j : Fin 128) :
    k3_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k3_pay1
  simp only [maximumf_apply, addf_apply, broadcast_apply, mm3_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz3_2 : (![0, 0] : Fin 2 → Nat) = fun _ => 0 := funext fun a => by fin_cases a <;> rfl
theorem hz3_3 : (![0, 0, 0] : Fin 3 → Nat) = fun _ => 0 := funext fun a => by fin_cases a <;> rfl

/-- The layer's value as one function of the arrays the region finds, index by index. -/
abbrev G3 (c : Dev nD) : S5000x128.Idx → EReal := fun idx =>
  Cert.Spec.layer1K (fun (i : Fin 5000) (k : Fin 128) => V c (Pipeline.arrRef spec3 0) (ix2 i k))
    (fun (i : Fin 5000) (k : Fin 128) => V c (Pipeline.arrRef spec3 1) (ix2 i k))
    (fun (k j : Fin 128) => V c (Pipeline.arrRef spec3 2) (ix3 (0 : Fin 1) k j))
    (fun (k j : Fin 128) => V c (Pipeline.arrRef spec3 3) (ix2 k j))
    (fun (j : Fin 128) => V c (Pipeline.arrRef spec3 4) (ix2 (0 : Fin 1) j)) (idx 0) (idx 1)

/-- The printed index maps over the grid: the row-tiled windows move with the point, the weights and the bias stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 3) = 0 ∧ win3_2.index t (1 : Fin 3) = 0 ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of point `t`'s row block, as a row of the array. -/
def row3 (t : Fin cfg3.N) (p : Fin 5000) : Fin 5000 :=
  ⟨5000 * t.val + p.val, by have ht := t.isLt; have hN : cfg3.N = 1 := N_3; have hp := p.isLt; omega⟩

/-- The aggregate's block at point `t` is the `5000` rows of its array from row `5000 t` on. -/
theorem iblk3_0_eq (c : Dev nD) (t : Fin cfg3.N) (p : Fin 5000) (k : Fin 128) :
    (iblk3 V c 0 t : Vec Ideal S5000x128 .f32) (ix2 p k) = (V c (Pipeline.arrRef spec3 0) : S5000x128.Idx → EReal) (ix2 (row3 t p) k) := by
  obtain ⟨e0, e1, -⟩ := idx_facts3 t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * k.val = k.val; omega

/-- The destination features' block at point `t` is the same rows of its array. -/
theorem iblk3_1_eq (c : Dev nD) (t : Fin cfg3.N) (p : Fin 5000) (k : Fin 128) :
    (iblk3 V c 1 t : Vec Ideal S5000x128 .f32) (ix2 p k) = (V c (Pipeline.arrRef spec3 1) : S5000x128.Idx → EReal) (ix2 (row3 t p) k) := by
  obtain ⟨-, -, e0, e1, -⟩ := idx_facts3 t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 5000 + 1 * p.val = 5000 * t.val + p.val; omega
  | ⟨1, _⟩ => show win3_1.index t (1 : Fin 2) * 128 + 1 * k.val = k.val; omega

/-- The aggregate's weight block is its whole array. -/
theorem iblk3_2_eq (c : Dev nD) (t : Fin cfg3.N) (k j : Fin 128) :
    (iblk3 V c 2 t : Vec Ideal S1x128x128 .f32) (ix3 (0 : Fin 1) k j) = (V c (Pipeline.arrRef spec3 2) : S1x128x128.Idx → EReal) (ix3 (0 : Fin 1) k j) := by
  obtain ⟨-, -, -, -, e0, e1, e2, -⟩ := idx_facts3 t
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 3) * 1 + 1 * 0 = 0; omega
  | ⟨1, _⟩ => show win3_2.index t (1 : Fin 3) * 128 + 1 * k.val = k.val; omega
  | ⟨2, _⟩ => show win3_2.index t (2 : Fin 3) * 128 + 1 * j.val = j.val; omega

/-- The destination weight block is its whole array. -/
theorem iblk3_3_eq (c : Dev nD) (t : Fin cfg3.N) (k j : Fin 128) :
    (iblk3 V c 3 t : Vec Ideal S128x128 .f32) (ix2 k j) = (V c (Pipeline.arrRef spec3 3) : S128x128.Idx → EReal) (ix2 k j) := by
  obtain ⟨-, -, -, -, -, -, -, e0, e1, -⟩ := idx_facts3 t
  unfold iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 128 + 1 * k.val = k.val; omega
  | ⟨1, _⟩ => show win3_3.index t (1 : Fin 2) * 128 + 1 * j.val = j.val; omega

/-- The bias block is its whole array. -/
theorem iblk3_4_eq (c : Dev nD) (t : Fin cfg3.N) (j : Fin 128) :
    (iblk3 V c 4 t : Vec Ideal S1x128 .f32) (ix2 (0 : Fin 1) j) = (V c (Pipeline.arrRef spec3 4) : S1x128.Idx → EReal) (ix2 (0 : Fin 1) j) := by
  obtain ⟨-, -, -, -, -, -, -, -, -, e0, e1, -⟩ := idx_facts3 t
  unfold iblk3
  rw [View.read_apply]
  show V c (Pipeline.arrRef spec3 4) _ = V c (Pipeline.arrRef spec3 4) _
  refine congrArg (V c (Pipeline.arrRef spec3 4)) (funext fun a => Fin.ext ?_)
  match a with
  | ⟨0, _⟩ => show win3_4.index t (0 : Fin 2) * 1 + 1 * 0 = 0; omega
  | ⟨1, _⟩ => show win3_4.index t (1 : Fin 2) * 128 + 1 * j.val = j.val; omega

/-- Where the output's block at point `t` puts its entry `(p, q)`: row `5000 t + p`, column `q`. -/
theorem emb3_5 (t : Fin cfg3.N) (p : Fin 5000) (q : Fin 128) :
    ((cfg3.win 5).blk t).view.emb (ix2 p q) = (ix2 (row3 t p) q : S5000x128.Idx) := by
  obtain ⟨-, -, -, -, -, -, -, -, -, -, -, e0, e1⟩ := idx_facts3 t
  refine funext fun a => Fin.ext ?_
  match a with
  | ⟨0, _⟩ => show win3_5.index t (0 : Fin 2) * 5000 + 1 * p.val = 5000 * t.val + p.val; omega
  | ⟨1, _⟩ => show win3_5.index t (1 : Fin 2) * 128 + 1 * q.val = q.val; omega

/-- What point `t` writes back is block `t` of the layer's value. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3
  rw [View.canon_unit_zero hz3_2]
  simp only [View.ld_unit_zero (S := S5000x128) hz3_2, View.ld_unit_zero (S := S128x128) hz3_2, View.ld_unit_zero (S := S1x128x128) hz3_3, View.ld_unit_zero (S := S1x128) hz3_2]
  funext y
  obtain ⟨p, q, rfl⟩ : ∃ (p : Fin 5000) (q : Fin 128), y = ix2 p q := ⟨y 0, y 1, eq_ix2 y⟩
  show k3_pay1 (F := Ideal) (iblk3 V c 1 t) (iblk3 V c 3 t) (iblk3 V c 0 t) (iblk3 V c 2 t) (iblk3 V c 4 t) (ix2 p q) = G3 V c (((cfg3.win 5).blk t).view.emb (ix2 p q))
  refine (pay3_apply _ _ _ _ _ p q).trans ?_
  rw [emb3_5 t p q]
  simp only [iblk3_0_eq, iblk3_1_eq, iblk3_2_eq, iblk3_3_eq, iblk3_4_eq]
  rfl

/-- An index of the output array is in point `t`'s block iff each coordinate is in the block's range on its axis. -/
theorem mem_blk3 (t : Fin cfg3.N) (i : S5000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v272).slice (win3_5.rect t)).set ↔ _
  rw [View.set_slice_whole, Rect.mem_set_unit]
  exact Iff.rfl

/-- THE OUTPUT ARRAY after the region: the one-aggregate layer of the arrays the region finds (the point that covers
    row `r` is `r / 5000`). -/
theorem val3 (c : Dev nD) :
    (dat3 (F := Ideal) V c).arrAt 5 cfg3.N = fun idx =>
      Cert.Spec.layer1K (fun (i : Fin 5000) (k : Fin 128) => V c (Pipeline.arrRef spec3 0) (ix2 i k))
        (fun (i : Fin 5000) (k : Fin 128) => V c (Pipeline.arrRef spec3 1) (ix2 i k))
        (fun (k j : Fin 128) => V c (Pipeline.arrRef spec3 2) (ix3 (0 : Fin 1) k j))
        (fun (k j : Fin 128) => V c (Pipeline.arrRef spec3 3) (ix2 k j))
        (fun (j : Fin 128) => V c (Pipeline.arrRef spec3 4) (ix2 (0 : Fin 1) j)) (idx 0) (idx 1) :=
  (dat3 V c).arrAt_eq_of_cover 5 (G3 V c) (fun t _ => flushed3_eq V c t) fun i => by
    have hi0 : (i 0).val < 5000 := (i 0).isLt
    have hi1 : (i 1).val < 128 := (i 1).isLt
    have hN : cfg3.N = 1 := N_3
    let t : Fin cfg3.N := ⟨(i 0).val / 5000, by rw [hN]; omega⟩
    have ht : t.val = (i 0).val / 5000 := rfl
    obtain ⟨-, -, -, -, -, -, -, -, -, -, -, e0, e1⟩ := idx_facts3 t
    refine ⟨t, flush3_5 t, ?_⟩
    rw [mem_blk3]
    intro a
    match a with
    | ⟨0, _⟩ => show win3_5.index t (0 : Fin 2) * 5000 ≤ (i 0).val ∧ (i 0).val < win3_5.index t (0 : Fin 2) * 5000 + 5000; omega
    | ⟨1, _⟩ => show win3_5.index t (1 : Fin 2) * 128 ≤ (i 1).val ∧ (i 1).val < win3_5.index t (1 : Fin 2) * 128 + 128; omega

end Cert.KernelIdeal.Hand
-- ==== Proof.KI.Val4.lean ====
import proofs.«125545_j64845416235624_1_alg».proof.Proof.KI.D4
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 4 at the ideal values: the output array is the five-aggregate layer of the arrays the region finds

The body's payload is read at an index (six block products into zero accumulators, added in the body's order, the
bias row broadcast, the rectifier); each neighbour weight is a slice of the stacked weights; each input block is
its array read at the point's rows; the row blocks tile the output array. -/

/-! ## The block product `[2000,128] ⬝ [128,128]` at an index -/

theorem lhs4_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs4_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs4_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs4_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm4_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs4_0 _ _
    | ⟨1, _⟩ => exact (lhs4_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs4_0 _ _).trans hk
    | ⟨1, _⟩ => exact rhs4_1 _ _)
  rw [el, er]

/-! ## The payloads at an index -/

/-- The first part's sum, at row `i` and column `j`: the destination rows times the root weight, then the first
    three aggregates times their weights, added in that order. -/
theorem pay4_2_apply (x0 : Vec Ideal S2000x128 .f32) (x1 : Vec Ideal S128x128 .f32) (x2 : Vec Ideal S2000x128 .f32)
    (x3 : Vec Ideal S1x128x128 .f32) (x4 : Vec Ideal S2000x128 .f32) (x5 : Vec Ideal S1x128x128 .f32)
    (x6 : Vec Ideal S2000x128 .f32) (x7 : Vec Ideal S1x128x128 .f32) (i : Fin 2000) (j : Fin 128) :
    k4_pay2 (F := Ideal) x0 x1 x2 x3 x4 x5 x6 x7 (ix2 i j)
      = (((∑ k : Fin 128, x0 (ix2 i k) * x1 (ix2 k j)) + ∑ k : Fin 128, x2 (ix2 i k) * x3 (ix3 (0 : Fin 1) k j))
          + ∑ k : Fin 128, x4 (ix2 i k) * x5 (ix3 (0 : Fin 1) k j)) + ∑ k : Fin 128, x6 (ix2 i k) * x7 (ix3 (0 : Fin 1) k j) := by
  unfold k4_pay2
  simp only [addf_apply, mm4_apply, truncf_apply, shapeCast_self, shapeCast_1ab_ab_apply]

/-- The fourth aggregate's rows rounded to `bf16`: themselves, at the ideal values. -/
theorem pay4_3_apply (x : Vec Ideal S2000x128 .f32) (y : S2000x128.Idx) : k4_pay3 (F := Ideal) x y = x y := by
  unfold k4_pay3
  simp only [truncf_apply, shapeCast_self]

/-- What the body stores, at row `i` and column `j` of the block, from the first part's sum `s`, the fourth
    aggregate's rounded rows `a3`, and the loaded fourth weight, fifth aggregate, fifth weight and bias row. -/
theorem pay4_1_apply (s : FVec Ideal S2000x128 .f32) (a3 : FVec Ideal S2000x128 .bf16) (w3 : Vec Ideal S1x128x128 .f32)
    (a4 : Vec Ideal S2000x128 .f32) (w4 : Vec Ideal S1x128x128 .f32) (b : Vec Ideal S1x128 .f32) (i : Fin 2000) (j : Fin 128) :
    k4_pay1 (F := Ideal) s a3 w3 a4 w4 b (ix2 i j)
      = max (((s (ix2 i j) + ∑ k : Fin 128, a3 (ix2 i k) * w3 (ix3 (0 : Fin 1) k j))
          + ∑ k : Fin 128, a4 (ix2 i k) * w4 (ix3 (0 : Fin 1) k j)) + b (ix2 (0 : Fin 1) j)) 0 := by
  unfold k4_pay1
  simp only [maximumf_apply, addf_apply, broadcast_apply, mm4_apply, truncf_apply, shapeCast_self,
    shapeCast_1ab_ab_apply, broadcastTo_1b_ab_apply]
  exact congrArg (max _) Ideal.ofBits_zero_f32

/-! ## The neighbour weights: slices of the stacked weights -/

theorem ld4_l0 (x : Vec Ideal S5x128x128 .f32) (k j : Fin 128) : View.ld x r4_l0 (ix3 (0 : Fin 1) k j) = x (ix3 (0 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld4_l1 (x : Vec Ideal S5x128x128 .f32) (k j : Fin 128) : View.ld x r4_l1 (ix3 (0 : Fin 1) k j) = x (ix3 (1 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld4_l2 (x : Vec Ideal S5x128x128 .f32) (k j : Fin 128) : View.ld x r4_l2 (ix3 (0 : Fin 1) k j) = x (ix3 (2 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld4_l3 (x : Vec Ideal S5x128x128 .f32) (k j : Fin 128) : View.ld x r4_l3 (ix3 (0 : Fin 1) k j) = x (ix3 (3 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld4_l4 (x : Vec Ideal S5x128x128 .f32) (k j : Fin 128) : View.ld x r4_l4 (ix3 (0 : Fin 1) k j) = x (ix3 (4 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega

/-! ## From blocks to the array -/

variable (V : (c : Dev nD) → (b : Ref sig .tc) → Buf (Elt Ideal) ((c : Thread nD τ).loc b))

theorem hz4_2 : (![0, 0] : Fin 2 → Nat) = fun _ => 0 := funext fun a => by fin_cases a <;> rfl

/-- The layer's value as one function of the arrays the region finds, index by index. -/
abbrev G4 (c : Dev nD) : S100000x128.Idx → EReal := fun idx =>
  Cert.Spec.layer5K (fun (i : Fin 100000) (k : Fin 128) => V c (Pipeline.arrRef spec4 0) (ix2 i k))
    (fun (i : Fin 100000) (k : Fin 128) => V c (Pipeline.arrRef spec4 1) (ix2 i k))
    (fun (i : Fin 100000) (k : Fin 128) => V c (Pipeline.arrRef spec4 2) (ix2 i k))
    (fun (i : Fin 100000) (k : Fin 128) => V c (Pipeline.arrRef spec4 3) (ix2 i k))
    (fun (i : Fin 100000) (k : Fin 128) => V c (Pipeline.arrRef spec4 4) (ix2 i k))
    (fun (i : Fin 100000) (k : Fin 128) => V c (Pipeline.arrRef spec4 5) (ix2 i k))
    (fun (k j : Fin 128) => V c (Pipeline.arrRef spec4 6) (ix3 (0 : Fin 5) k j))
    (fun (k j : Fin 128) => V c (Pipeline.arrRef spec4 6) (ix3 (1 : Fin 5) k j))
    (fun (k j : Fin 128) => V c (Pipeline.arrRef spec4 6) (ix3 (2 : Fin 5) k j))
    (fun (k j : Fin 128) => V c (Pipeline.arrRef spec4 6) (ix3 (3 : Fin 5) k j))
    (fun (k j : Fin 128) => V c (Pipeline.arrRef spec4 6) (ix3 (4 : Fin 5) k j))
    (fun (k j : Fin 128) => V c (Pipeline.arrRef spec4 7) (ix2 k j))
    (fun (j : Fin 128) => V c (Pipeline.arrRef spec4 8) (ix2 (0 : Fin 1) j)) (idx 0) (idx 1)

/-- The printed index maps over the grid: the row-tiled windows move with the point, the weights and the bias stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 3) = 0 ∧ win4_6.index t (1 : Fin 3) = 0 ∧ win4_6.index t (2 : Fin 3) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- Row `p` of point `t`'s row block, as a row of the array. -/
def row4 (t : Fin cfg4.N) (p : Fin 2000) : Fin 100000 :=
  ⟨2000 * t.val + p.val, by have ht := t.isLt; have hN : cfg4.N = 50 := N_4; have hp := p.isLt; omega⟩

/-- A row-tiled window's block at point `t` is the `2000` rows of its array from row `2000 t` on: the five
    aggregates and the destination features. -/
theorem iblk4_0_eq (c : Dev nD) (t : Fin cfg4.N) (p : Fin 2000) (k : Fin 128) :
    (iblk4 V c 0 t : Vec Ideal S2000x128 .f32) (ix2 p k) = (V c (Pipeline.arrRef spec4 0) : S100000x128.Idx → EReal) (ix2 (row4 t p) k) := by
  obtain ⟨e0, e1, -⟩ := idx_facts4 t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * k.val = k.val; omega
theorem iblk4_1_eq (c : Dev nD) (t : Fin cfg4.N) (p : Fin 2000) (k : Fin 128) :
    (iblk4 V c 1 t : Vec Ideal S2000x128 .f32) (ix2 p k) = (V c (Pipeline.arrRef spec4 1) : S100000x128.Idx → EReal) (ix2 (row4 t p) k) := by
  obtain ⟨-, -, e0, e1, -⟩ := idx_facts4 t
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 2000 + 1 * p.val = 2000 * t.val + p.val; omega
  | ⟨1, _⟩ => show win4_1.index t (1 : Fin 2) * 128 + 1 * k.val = k.val; omega
theorem iblk4_2_eq (c : Dev nD) (t : Fin cfg4.N) (p : Fin 2000) (k : Fin 128) :
    (iblk4 V c 2 t : Vec Ideal S2000x128 .f32) (ix2 p k) = (V c (Pipeline.arrRef spec4 2) : S100000x128.Idx → EReal) (ix2 (row4 t p) k) := by
  obtain ⟨-, -, -, -, e0, e1, -⟩ := idx_facts4 t
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 2000 + 1 * p.val = 2000 * t.val + p.val; omega
  | ⟨1, _⟩ => show win4_2.index t (1 : Fin 2) * 128 + 1 * k.val = k.val; omega
theorem iblk4_3_eq (c : Dev nD) (t : Fin cfg4.N) (p : Fin 2000) (k : Fin 128) :
    (iblk4 V c 3 t : Vec Ideal S2000x128 .f32) (ix2 p k) = (V c (Pipeline.arrRef spec4 3) : S100000x128.Idx → EReal) (ix2 (row4 t p) k) := by
  obtain ⟨-, -, -, -, -, -, e0, e1, -⟩ := idx_facts4 t
  unfold iblk4
  rw [View.read_apply]
  show V c (Pipeline.arrRef spec4 3) _ = V c (Pipeline.arrRef spec4 3) _
  refine congrArg (V c (Pipeline.arrRef spec4 3)) (funext fun a => Fin.ext ?_)
  match a with
  | ⟨0, _⟩ => show win4_3.index t (0 : Fin 2) * 2000 + 1 * p.val = 2000 * t.val + p.val; omega
  | ⟨1, _⟩ => show win4_3.index t (1 : Fin 2) * 128 + 1 * k.val = k.val; omega
theorem iblk4_4_eq (c : Dev nD) (t : Fin cfg4.N) (p : Fin 2000) (k : Fin 128) :
    (iblk4 V c 4 t : Vec Ideal S2000x128 .f32) (ix2 p k) = (V c (Pipeline.arrRef spec4 4) : S100000x128.Idx → EReal) (ix2 (row4 t p) k) := by
  obtain ⟨-, -, -, -, -, -, -, -, e0, e1, -⟩ := idx_facts4 t
  unfold iblk4
  rw [View.read_apply]
  show V c (Pipeline.arrRef spec4 4) _ = V c (Pipeline.arrRef spec4 4) _
  refine congrArg (V c (Pipeline.arrRef spec4 4)) (funext fun a => Fin.ext ?_)
  match a with
  | ⟨0, _⟩ => show win4_4.index t (0 : Fin 2) * 2000 + 1 * p.val = 2000 * t.val + p.val; omega
  | ⟨1, _⟩ => show win4_4.index t (1 : Fin 2) * 128 + 1 * k.val = k.val; omega
theorem iblk4_5_eq (c : Dev nD) (t : Fin cfg4.N) (p : Fin 2000) (k : Fin 128) :
    (iblk4 V c 5 t : Vec Ideal S2000x128 .f32) (ix2 p k) = (V c (Pipeline.arrRef spec4 5) : S100000x128.Idx → EReal) (ix2 (row4 t p) k) := by
  obtain ⟨-, -, -, -, -, -, -, -, -, -, e0, e1, -⟩ := idx_facts4 t
  unfold iblk4
  rw [View.read_apply]
  show V c (Pipeline.arrRef spec4 5) _ = V c (Pipeline.arrRef spec4 5) _
  refine congrArg (V c (Pipeline.arrRef spec4 5)) (funext fun a => Fin.ext ?_)
  match a with
  | ⟨0, _⟩ => show win4_5.index t (0 : Fin 2) * 2000 + 1 * p.val = 2000 * t.val + p.val; omega
  | ⟨1, _⟩ => show win4_5.index t (1 : Fin 2) * 128 + 1 * k.val = k.val; omega

/-- The stacked neighbour weights' block is its whole array. -/
theorem iblk4_6_eq (c : Dev nD) (t : Fin cfg4.N) (e : Fin 5) (k j : Fin 128) :
    (iblk4 V c 6 t : Vec Ideal S5x128x128 .f32) (ix3 e k j) = (V c (Pipeline.arrRef spec4 6) : S5x128x128.Idx → EReal) (ix3 e k j) := by
  obtain ⟨-, -, -, -, -, -, -, -, -, -, -, -, e0, e1, e2, -⟩ := idx_facts4 t
  unfold iblk4
  rw [View.read_apply]
  show V c (Pipeline.arrRef spec4 6) _ = V c (Pipeline.arrRef spec4 6) _
  refine congrArg (V c (Pipeline.arrRef spec4 6)) (funext fun a => Fin.ext ?_)
  match a with
  | ⟨0, _⟩ => show win4_6.index t (0 : Fin 3) * 5 + 1 * e.val = e.val; omega
  | ⟨1, _⟩ => show win4_6.index t (1 : Fin 3) * 128 + 1 * k.val = k.val; omega
  | ⟨2, _⟩ => show win4_6.index t (2 : Fin 3) * 128 + 1 * j.val = j.val; omega

/-- Neighbour weight `e` as the body loads it: slice `e` of the stacked weights' array. -/
theorem ld4_s0 (c : Dev nD) (t : Fin cfg4.N) (k j : Fin 128) :
    View.ld (iblk4 V c 6 t : Vec Ideal S5x128x128 .f32) r4_l0 (ix3 (0 : Fin 1) k j) = (V c (Pipeline.arrRef spec4 6) : S5x128x128.Idx → EReal) (ix3 (0 : Fin 5) k j) :=
  (ld4_l0 _ k j).trans (iblk4_6_eq V c t 0 k j)
theorem ld4_s1 (c : Dev nD) (t : Fin cfg4.N) (k j : Fin 128) :
    View.ld (iblk4 V c 6 t : Vec Ideal S5x128x128 .f32) r4_l1 (ix3 (0 : Fin 1) k j) = (V c (Pipeline.arrRef spec4 6) : S5x128x128.Idx → EReal) (ix3 (1 : Fin 5) k j) :=
  (ld4_l1 _ k j).trans (iblk4_6_eq V c t 1 k j)
theorem ld4_s2 (c : Dev nD) (t : Fin cfg4.N) (k j : Fin 128) :
    View.ld (iblk4 V c 6 t : Vec Ideal S5x128x128 .f32) r4_l2 (ix3 (0 : Fin 1) k j) = (V c (Pipeline.arrRef spec4 6) : S5x128x128.Idx → EReal) (ix3 (2 : Fin 5) k j) :=
  (ld4_l2 _ k j).trans (iblk4_6_eq V c t 2 k j)
theorem ld4_s3 (c : Dev nD) (t : Fin cfg4.N) (k j : Fin 128) :
    View.ld (iblk4 V c 6 t : Vec Ideal S5x128x128 .f32) r4_l3 (ix3 (0 : Fin 1) k j) = (V c (Pipeline.arrRef spec4 6) : S5x128x128.Idx → EReal) (ix3 (3 : Fin 5) k j) :=
  (ld4_l3 _ k j).trans (iblk4_6_eq V c t 3 k j)
theorem ld4_s4 (c : Dev nD) (t : Fin cfg4.N) (k j : Fin 128) :
    View.ld (iblk4 V c 6 t : Vec Ideal S5x128x128 .f32) r4_l4 (ix3 (0 : Fin 1) k j) = (V c (Pipeline.arrRef spec4 6) : S5x128x128.Idx → EReal) (ix3 (4 : Fin 5) k j) :=
  (ld4_l4 _ k j).trans (iblk4_6_eq V c t 4 k j)

/-- The summed root weight's block is its whole array. -/
theorem iblk4_7_eq (c : Dev nD) (t : Fin cfg4.N) (k j : Fin 128) :
    (iblk4 V c 7 t : Vec Ideal S128x128 .f32) (ix2 k j) = (V c (Pipeline.arrRef spec4 7) : S128x128.Idx → EReal) (ix2 k j) := by
  obtain ⟨-, -, -, -, -, -, -, -, -, -, -, -, -, -, -, e0, e1, -⟩ := idx_facts4 t
  unfold iblk4
  rw [View.read_apply]
  show V c (Pipeline.arrRef spec4 7) _ = V c (Pipeline.arrRef spec4 7) _
  refine congrArg (V c (Pipeline.arrRef spec4 7)) (funext fun a => Fin.ext ?_)
  match a with
  | ⟨0, _⟩ => show win4_7.index t (0 : Fin 2) * 128 + 1 * k.val = k.val; omega
  | ⟨1, _⟩ => show win4_7.index t (1 : Fin 2) * 128 + 1 * j.val = j.val; omega

/-- The summed bias block is its whole array. -/
theorem iblk4_8_eq (c : Dev nD) (t : Fin cfg4.N) (j : Fin 128) :
    (iblk4 V c 8 t : Vec Ideal S1x128 .f32) (ix2 (0 : Fin 1) j) = (V c (Pipeline.arrRef spec4 8) : S1x128.Idx → EReal) (ix2 (0 : Fin 1) j) := by
  obtain ⟨-, -, -, -, -, -, -, -, -, -, -, -, -, -, -, -, -, e0, e1, -⟩ := idx_facts4 t
  unfold iblk4
  rw [View.read_apply]
  show V c (Pipeline.arrRef spec4 8) _ = V c (Pipeline.arrRef spec4 8) _
  refine congrArg (V c (Pipeline.arrRef spec4 8)) (funext fun a => Fin.ext ?_)
  match a with
  | ⟨0, _⟩ => show win4_8.index t (0 : Fin 2) * 1 + 1 * 0 = 0; omega
  | ⟨1, _⟩ => show win4_8.index t (1 : Fin 2) * 128 + 1 * j.val = j.val; omega

/-- Where the output's block at point `t` puts its entry `(p, q)`: row `2000 t + p`, column `q`. -/
theorem emb4_9 (t : Fin cfg4.N) (p : Fin 2000) (q : Fin 128) :
    ((cfg4.win 9).blk t).view.emb (ix2 p q) = (ix2 (row4 t p) q : S100000x128.Idx) := by
  obtain ⟨-, -, -, -, -, -, -, -, -, -, -, -, -, -, -, -, -, -, -, e0, e1⟩ := idx_facts4 t
  refine funext fun a => Fin.ext ?_
  match a with
  | ⟨0, _⟩ => show win4_9.index t (0 : Fin 2) * 2000 + 1 * p.val = 2000 * t.val + p.val; omega
  | ⟨1, _⟩ => show win4_9.index t (1 : Fin 2) * 128 + 1 * q.val = q.val; omega

/-- What point `t` writes back is block `t` of the layer's value. -/
theorem flushed4_eq (c : Dev nD) (t : Fin cfg4.N) :
    (dat4 (F := Ideal) V c).flushed 9 t = ((cfg4.win 9).blk t).view.read (Elt Ideal) (G4 V c) := by
  show (cfg4.win 9).cut (grid4.coords t) ((dat4 V c).after 9 t) = _
  rw [after4_9]
  unfold out4
  rw [View.canon_unit_zero hz4_2]
  simp only [View.ld_unit_zero (S := S2000x128) hz4_2, View.ld_unit_zero (S := S128x128) hz4_2, View.ld_unit_zero (S := S1x128) hz4_2]
  funext y
  obtain ⟨p, q, rfl⟩ : ∃ (p : Fin 2000) (q : Fin 128), y = ix2 p q := ⟨y 0, y 1, eq_ix2 y⟩
  show k4_pay1 (F := Ideal)
      (k4_pay2 (iblk4 V c 5 t) (iblk4 V c 7 t) (iblk4 V c 0 t) (View.ld (iblk4 V c 6 t) r4_l0) (iblk4 V c 1 t) (View.ld (iblk4 V c 6 t) r4_l1)
        (iblk4 V c 2 t) (View.ld (iblk4 V c 6 t) r4_l2))
      (k4_pay3 (iblk4 V c 3 t)) (View.ld (iblk4 V c 6 t) r4_l3) (iblk4 V c 4 t) (View.ld (iblk4 V c 6 t) r4_l4) (iblk4 V c 8 t) (ix2 p q)
    = G4 V c (((cfg4.win 9).blk t).view.emb (ix2 p q))
  refine (pay4_1_apply _ _ _ _ _ _ p q).trans ?_
  rw [emb4_9 t p q]
  simp only [pay4_2_apply, pay4_3_apply, ld4_s0, ld4_s1, ld4_s2, ld4_s3, ld4_s4]
  simp only [iblk4_0_eq, iblk4_1_eq, iblk4_2_eq, iblk4_3_eq, iblk4_4_eq, iblk4_5_eq, iblk4_7_eq, iblk4_8_eq]
  rfl

/-- An index of the output array is in point `t`'s block iff each coordinate is in the block's range on its axis. -/
theorem mem_blk4 (t : Fin cfg4.N) (i : S100000x128.Idx) :
    i ∈ ((cfg4.win 9).blk t).view.set ↔ ∀ a : Fin 2, win4_9.index t a * S2000x128.size a ≤ (i a).val ∧ (i a).val < win4_9.index t a * S2000x128.size a + S2000x128.size a := by
  show i ∈ ((View.whole main_v518).slice (win4_9.rect t)).set ↔ _
  rw [View.set_slice_whole, Rect.mem_set_unit]
  exact Iff.rfl

/-- Every index of the output array is in the block of the point `r / 2000`, `r` its row. -/
theorem mem_blk4_cover (i : S100000x128.Idx) :
    ∃ t : Fin cfg4.N, (cfg4.win 9).flush t = true ∧ i ∈ ((cfg4.win 9).blk t).view.set := by
  have hi0 : (i 0).val < 100000 := (i 0).isLt
  have hi1 : (i 1).val < 128 := (i 1).isLt
  have hN : cfg4.N = 50 := N_4
  let t : Fin cfg4.N := ⟨(i 0).val / 2000, by rw [hN]; omega⟩
  have ht : t.val = (i 0).val / 2000 := rfl
  obtain ⟨-, -, -, -, -, -, -, -, -, -, -, -, -, -, -, -, -, -, -, e0, e1⟩ := idx_facts4 t
  refine ⟨t, flush4_9 t, ?_⟩
  rw [mem_blk4]
  intro a
  match a with
  | ⟨0, _⟩ => show win4_9.index t (0 : Fin 2) * 2000 ≤ (i 0).val ∧ (i 0).val < win4_9.index t (0 : Fin 2) * 2000 + 2000; omega
  | ⟨1, _⟩ => show win4_9.index t (1 : Fin 2) * 128 ≤ (i 1).val ∧ (i 1).val < win4_9.index t (1 : Fin 2) * 128 + 128; omega

/-- The output array after the region is the layer's value: the row blocks cover it. -/
theorem val4_G (c : Dev nD) : (dat4 (F := Ideal) V c).arrAt 9 cfg4.N = G4 V c :=
  (dat4 V c).arrAt_eq_of_cover 9 (G4 V c) (fun t _ => flushed4_eq V c t) mem_blk4_cover

/-- THE OUTPUT ARRAY after the region: the five-aggregate layer of the arrays the region finds. -/
theorem val4 (c : Dev nD) :
    (dat4 (F := Ideal) V c).arrAt 9 cfg4.N = fun idx =>
      Cert.Spec.layer5K (fun (i : Fin 100000) (k : Fin 128) => V c (Pipeline.arrRef spec4 0) (ix2 i k))
        (fun (i : Fin 100000) (k : Fin 128) => V c (Pipeline.arrRef spec4 1) (ix2 i k))
        (fun (i : Fin 100000) (k : Fin 128) => V c (Pipeline.arrRef spec4 2) (ix2 i k))
        (fun (i : Fin 100000) (k : Fin 128) => V c (Pipeline.arrRef spec4 3) (ix2 i k))
        (fun (i : Fin 100000) (k : Fin 128) => V c (Pipeline.arrRef spec4 4) (ix2 i k))
        (fun (i : Fin 100000) (k : Fin 128) => V c (Pipeline.arrRef spec4 5) (ix2 i k))
        (fun (k j : Fin 128) => V c (Pipeline.arrRef spec4 6) (ix3 (0 : Fin 5) k j))
        (fun (k j : Fin 128) => V c (Pipeline.arrRef spec4 6) (ix3 (1 : Fin 5) k j))
        (fun (k j : Fin 128) => V c (Pipeline.arrRef spec4 6) (ix3 (2 : Fin 5) k j))
        (fun (k j : Fin 128) => V c (Pipeline.arrRef spec4 6) (ix3 (3 : Fin 5) k j))
        (fun (k j : Fin 128) => V c (Pipeline.arrRef spec4 6) (ix3 (4 : Fin 5) k j))
        (fun (k j : Fin 128) => V c (Pipeline.arrRef spec4 7) (ix2 k j))
        (fun (j : Fin 128) => V c (Pipeline.arrRef spec4 8) (ix2 (0 : Fin 1) j)) (idx 0) (idx 1) :=
  val4_G V c

end Cert.KernelIdeal.Hand
-- ==== Proof.KI.Val5.lean ====
import proofs.«125545_j64845416235624_1_alg».proof.Proof.KI.D5
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 5 at the ideal values: the output array is the one-aggregate layer of the arrays the region finds

The body's payload is read at an index (two block products into zero accumulators, the bias row broadcast, the
rectifier); each input block is its array read at the point's rows; the row blocks tile the output array. -/

/-! ## The block product `[2000,128] ⬝ [128,128]` at an index -/

theorem lhs5_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs5_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs5_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs5_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm5_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs5_0 _ _
    | ⟨1, _⟩ => exact (lhs5_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs5_0 _ _).trans hk
    | ⟨1, _⟩ => exact rhs5_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay5_apply (x0 : Vec Ideal S2000x128 .f32) (x1 : Vec Ideal S128x128 .f32) (x2 : Vec Ideal S2000x128 .f32)
    (x3 : Vec Ideal S1x128x128 .f32) (x4 : Vec Ideal S1x128 .f32) (i : Fin 2000) (j : Fin 128) :
    k5_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k5_pay1
  simp only [maximumf_apply, addf_apply, broadcast_apply, mm5_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz5_2 : (![0, 0] : Fin 2 → Nat) = fun _ => 0 := funext fun a => by fin_cases a <;> rfl
theorem hz5_3 : (![0, 0, 0] : Fin 3 → Nat) = fun _ => 0 := funext fun a => by fin_cases a <;> rfl

/-- The layer's value as one function of the arrays the region finds, index by index. -/
abbrev G5 (c : Dev nD) : S20000x128.Idx → EReal := fun idx =>
  Cert.Spec.layer1K (fun (i : Fin 20000) (k : Fin 128) => V c (Pipeline.arrRef spec5 0) (ix2 i k))
    (fun (i : Fin 20000) (k : Fin 128) => V c (Pipeline.arrRef spec5 1) (ix2 i k))
    (fun (k j : Fin 128) => V c (Pipeline.arrRef spec5 2) (ix3 (0 : Fin 1) k j))
    (fun (k j : Fin 128) => V c (Pipeline.arrRef spec5 3) (ix2 k j))
    (fun (j : Fin 128) => V c (Pipeline.arrRef spec5 4) (ix2 (0 : Fin 1) j)) (idx 0) (idx 1)

/-- The printed index maps over the grid: the row-tiled windows move with the point, the weights and the bias stay. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 3) = 0 ∧ win5_2.index t (1 : Fin 3) = 0 ∧ win5_2.index t (2 : Fin 3) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p` of point `t`'s row block, as a row of the array. -/
def row5 (t : Fin cfg5.N) (p : Fin 2000) : Fin 20000 :=
  ⟨2000 * t.val + p.val, by have ht := t.isLt; have hN : cfg5.N = 10 := N_5; have hp := p.isLt; omega⟩

/-- The aggregate's block at point `t` is the `2000` rows of its array from row `2000 t` on. -/
theorem iblk5_0_eq (c : Dev nD) (t : Fin cfg5.N) (p : Fin 2000) (k : Fin 128) :
    (iblk5 V c 0 t : Vec Ideal S2000x128 .f32) (ix2 p k) = (V c (Pipeline.arrRef spec5 0) : S20000x128.Idx → EReal) (ix2 (row5 t p) k) := by
  obtain ⟨e0, e1, -⟩ := idx_facts5 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 2000 + 1 * p.val = 2000 * t.val + p.val; omega
  | ⟨1, _⟩ => show win5_0.index t (1 : Fin 2) * 128 + 1 * k.val = k.val; omega

/-- The destination features' block at point `t` is the same rows of its array. -/
theorem iblk5_1_eq (c : Dev nD) (t : Fin cfg5.N) (p : Fin 2000) (k : Fin 128) :
    (iblk5 V c 1 t : Vec Ideal S2000x128 .f32) (ix2 p k) = (V c (Pipeline.arrRef spec5 1) : S20000x128.Idx → EReal) (ix2 (row5 t p) k) := by
  obtain ⟨-, -, e0, e1, -⟩ := idx_facts5 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 2000 + 1 * p.val = 2000 * t.val + p.val; omega
  | ⟨1, _⟩ => show win5_1.index t (1 : Fin 2) * 128 + 1 * k.val = k.val; omega

/-- The aggregate's weight block is its whole array. -/
theorem iblk5_2_eq (c : Dev nD) (t : Fin cfg5.N) (k j : Fin 128) :
    (iblk5 V c 2 t : Vec Ideal S1x128x128 .f32) (ix3 (0 : Fin 1) k j) = (V c (Pipeline.arrRef spec5 2) : S1x128x128.Idx → EReal) (ix3 (0 : Fin 1) k j) := by
  obtain ⟨-, -, -, -, e0, e1, e2, -⟩ := idx_facts5 t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 3) * 1 + 1 * 0 = 0; omega
  | ⟨1, _⟩ => show win5_2.index t (1 : Fin 3) * 128 + 1 * k.val = k.val; omega
  | ⟨2, _⟩ => show win5_2.index t (2 : Fin 3) * 128 + 1 * j.val = j.val; omega

/-- The destination weight block is its whole array. -/
theorem iblk5_3_eq (c : Dev nD) (t : Fin cfg5.N) (k j : Fin 128) :
    (iblk5 V c 3 t : Vec Ideal S128x128 .f32) (ix2 k j) = (V c (Pipeline.arrRef spec5 3) : S128x128.Idx → EReal) (ix2 k j) := by
  obtain ⟨-, -, -, -, -, -, -, e0, e1, -⟩ := idx_facts5 t
  unfold iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 2) * 128 + 1 * k.val = k.val; omega
  | ⟨1, _⟩ => show win5_3.index t (1 : Fin 2) * 128 + 1 * j.val = j.val; omega

/-- The bias block is its whole array. -/
theorem iblk5_4_eq (c : Dev nD) (t : Fin cfg5.N) (j : Fin 128) :
    (iblk5 V c 4 t : Vec Ideal S1x128 .f32) (ix2 (0 : Fin 1) j) = (V c (Pipeline.arrRef spec5 4) : S1x128.Idx → EReal) (ix2 (0 : Fin 1) j) := by
  obtain ⟨-, -, -, -, -, -, -, -, -, e0, e1, -⟩ := idx_facts5 t
  unfold iblk5
  rw [View.read_apply]
  show V c (Pipeline.arrRef spec5 4) _ = V c (Pipeline.arrRef spec5 4) _
  refine congrArg (V c (Pipeline.arrRef spec5 4)) (funext fun a => Fin.ext ?_)
  match a with
  | ⟨0, _⟩ => show win5_4.index t (0 : Fin 2) * 1 + 1 * 0 = 0; omega
  | ⟨1, _⟩ => show win5_4.index t (1 : Fin 2) * 128 + 1 * j.val = j.val; omega

/-- Where the output's block at point `t` puts its entry `(p, q)`: row `2000 t + p`, column `q`. -/
theorem emb5_5 (t : Fin cfg5.N) (p : Fin 2000) (q : Fin 128) :
    ((cfg5.win 5).blk t).view.emb (ix2 p q) = (ix2 (row5 t p) q : S20000x128.Idx) := by
  obtain ⟨-, -, -, -, -, -, -, -, -, -, -, e0, e1⟩ := idx_facts5 t
  refine funext fun a => Fin.ext ?_
  match a with
  | ⟨0, _⟩ => show win5_5.index t (0 : Fin 2) * 2000 + 1 * p.val = 2000 * t.val + p.val; omega
  | ⟨1, _⟩ => show win5_5.index t (1 : Fin 2) * 128 + 1 * q.val = q.val; omega

/-- What point `t` writes back is block `t` of the layer's value. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  unfold out5
  rw [View.canon_unit_zero hz5_2]
  simp only [View.ld_unit_zero (S := S2000x128) hz5_2, View.ld_unit_zero (S := S128x128) hz5_2, View.ld_unit_zero (S := S1x128x128) hz5_3, View.ld_unit_zero (S := S1x128) hz5_2]
  funext y
  obtain ⟨p, q, rfl⟩ : ∃ (p : Fin 2000) (q : Fin 128), y = ix2 p q := ⟨y 0, y 1, eq_ix2 y⟩
  show k5_pay1 (F := Ideal) (iblk5 V c 1 t) (iblk5 V c 3 t) (iblk5 V c 0 t) (iblk5 V c 2 t) (iblk5 V c 4 t) (ix2 p q) = G5 V c (((cfg5.win 5).blk t).view.emb (ix2 p q))
  refine (pay5_apply _ _ _ _ _ p q).trans ?_
  rw [emb5_5 t p q]
  simp only [iblk5_0_eq, iblk5_1_eq, iblk5_2_eq, iblk5_3_eq, iblk5_4_eq]
  rfl

/-- An index of the output array is in point `t`'s block iff each coordinate is in the block's range on its axis. -/
theorem mem_blk5 (t : Fin cfg5.N) (i : S20000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v527).slice (win5_5.rect t)).set ↔ _
  rw [View.set_slice_whole, Rect.mem_set_unit]
  exact Iff.rfl

/-- THE OUTPUT ARRAY after the region: the one-aggregate layer of the arrays the region finds (the point that covers
    row `r` is `r / 2000`). -/
theorem val5 (c : Dev nD) :
    (dat5 (F := Ideal) V c).arrAt 5 cfg5.N = fun idx =>
      Cert.Spec.layer1K (fun (i : Fin 20000) (k : Fin 128) => V c (Pipeline.arrRef spec5 0) (ix2 i k))
        (fun (i : Fin 20000) (k : Fin 128) => V c (Pipeline.arrRef spec5 1) (ix2 i k))
        (fun (k j : Fin 128) => V c (Pipeline.arrRef spec5 2) (ix3 (0 : Fin 1) k j))
        (fun (k j : Fin 128) => V c (Pipeline.arrRef spec5 3) (ix2 k j))
        (fun (j : Fin 128) => V c (Pipeline.arrRef spec5 4) (ix2 (0 : Fin 1) j)) (idx 0) (idx 1) :=
  (dat5 V c).arrAt_eq_of_cover 5 (G5 V c) (fun t _ => flushed5_eq V c t) fun i => by
    have hi0 : (i 0).val < 20000 := (i 0).isLt
    have hi1 : (i 1).val < 128 := (i 1).isLt
    have hN : cfg5.N = 10 := N_5
    let t : Fin cfg5.N := ⟨(i 0).val / 2000, by rw [hN]; omega⟩
    have ht : t.val = (i 0).val / 2000 := rfl
    obtain ⟨-, -, -, -, -, -, -, -, -, -, -, e0, e1⟩ := idx_facts5 t
    refine ⟨t, flush5_5 t, ?_⟩
    rw [mem_blk5]
    intro a
    match a with
    | ⟨0, _⟩ => show win5_5.index t (0 : Fin 2) * 2000 ≤ (i 0).val ∧ (i 0).val < win5_5.index t (0 : Fin 2) * 2000 + 2000; omega
    | ⟨1, _⟩ => show win5_5.index t (1 : Fin 2) * 128 ≤ (i 1).val ∧ (i 1).val < win5_5.index t (1 : Fin 2) * 128 + 128; omega

end Cert.KernelIdeal.Hand
-- ==== Proof.KI.Val6.lean ====
import proofs.«125545_j64845416235624_1_alg».proof.Proof.KI.D6
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 6 at the ideal values: the output array is the one-aggregate layer of the arrays the region finds

The body's payload is read at an index (two block products into zero accumulators, the bias row broadcast, the
rectifier); each input block is its array read at the point's rows; the row blocks tile the output array. -/

/-! ## The block product `[2000,128] ⬝ [128,128]` at an index -/

theorem lhs6_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs6_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs6_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs6_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm6_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs6_0 _ _
    | ⟨1, _⟩ => exact (lhs6_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs6_0 _ _).trans hk
    | ⟨1, _⟩ => exact rhs6_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay6_apply (x0 : Vec Ideal S2000x128 .f32) (x1 : Vec Ideal S128x128 .f32) (x2 : Vec Ideal S2000x128 .f32)
    (x3 : Vec Ideal S1x128x128 .f32) (x4 : Vec Ideal S1x128 .f32) (i : Fin 2000) (j : Fin 128) :
    k6_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k6_pay1
  simp only [maximumf_apply, addf_apply, broadcast_apply, mm6_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz6_2 : (![0, 0] : Fin 2 → Nat) = fun _ => 0 := funext fun a => by fin_cases a <;> rfl
theorem hz6_3 : (![0, 0, 0] : Fin 3 → Nat) = fun _ => 0 := funext fun a => by fin_cases a <;> rfl

/-- The layer's value as one function of the arrays the region finds, index by index. -/
abbrev G6 (c : Dev nD) : S50000x128.Idx → EReal := fun idx =>
  Cert.Spec.layer1K (fun (i : Fin 50000) (k : Fin 128) => V c (Pipeline.arrRef spec6 0) (ix2 i k))
    (fun (i : Fin 50000) (k : Fin 128) => V c (Pipeline.arrRef spec6 1) (ix2 i k))
    (fun (k j : Fin 128) => V c (Pipeline.arrRef spec6 2) (ix3 (0 : Fin 1) k j))
    (fun (k j : Fin 128) => V c (Pipeline.arrRef spec6 3) (ix2 k j))
    (fun (j : Fin 128) => V c (Pipeline.arrRef spec6 4) (ix2 (0 : Fin 1) j)) (idx 0) (idx 1)

/-- The printed index maps over the grid: the row-tiled windows move with the point, the weights and the bias stay. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 3) = 0 ∧ win6_2.index t (1 : Fin 3) = 0 ∧ win6_2.index t (2 : Fin 3) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p` of point `t`'s row block, as a row of the array. -/
def row6 (t : Fin cfg6.N) (p : Fin 2000) : Fin 50000 :=
  ⟨2000 * t.val + p.val, by have ht := t.isLt; have hN : cfg6.N = 25 := N_6; have hp := p.isLt; omega⟩

/-- The aggregate's block at point `t` is the `2000` rows of its array from row `2000 t` on. -/
theorem iblk6_0_eq (c : Dev nD) (t : Fin cfg6.N) (p : Fin 2000) (k : Fin 128) :
    (iblk6 V c 0 t : Vec Ideal S2000x128 .f32) (ix2 p k) = (V c (Pipeline.arrRef spec6 0) : S50000x128.Idx → EReal) (ix2 (row6 t p) k) := by
  obtain ⟨e0, e1, -⟩ := idx_facts6 t
  unfold iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t (0 : Fin 2) * 2000 + 1 * p.val = 2000 * t.val + p.val; omega
  | ⟨1, _⟩ => show win6_0.index t (1 : Fin 2) * 128 + 1 * k.val = k.val; omega

/-- The destination features' block at point `t` is the same rows of its array. -/
theorem iblk6_1_eq (c : Dev nD) (t : Fin cfg6.N) (p : Fin 2000) (k : Fin 128) :
    (iblk6 V c 1 t : Vec Ideal S2000x128 .f32) (ix2 p k) = (V c (Pipeline.arrRef spec6 1) : S50000x128.Idx → EReal) (ix2 (row6 t p) k) := by
  obtain ⟨-, -, e0, e1, -⟩ := idx_facts6 t
  unfold iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t (0 : Fin 2) * 2000 + 1 * p.val = 2000 * t.val + p.val; omega
  | ⟨1, _⟩ => show win6_1.index t (1 : Fin 2) * 128 + 1 * k.val = k.val; omega

/-- The aggregate's weight block is its whole array. -/
theorem iblk6_2_eq (c : Dev nD) (t : Fin cfg6.N) (k j : Fin 128) :
    (iblk6 V c 2 t : Vec Ideal S1x128x128 .f32) (ix3 (0 : Fin 1) k j) = (V c (Pipeline.arrRef spec6 2) : S1x128x128.Idx → EReal) (ix3 (0 : Fin 1) k j) := by
  obtain ⟨-, -, -, -, e0, e1, e2, -⟩ := idx_facts6 t
  unfold iblk6
  rw [View.read_apply]
  show V c (Pipeline.arrRef spec6 2) _ = V c (Pipeline.arrRef spec6 2) _
  refine congrArg (V c (Pipeline.arrRef spec6 2)) (funext fun a => Fin.ext ?_)
  match a with
  | ⟨0, _⟩ => show win6_2.index t (0 : Fin 3) * 1 + 1 * 0 = 0; omega
  | ⟨1, _⟩ => show win6_2.index t (1 : Fin 3) * 128 + 1 * k.val = k.val; omega
  | ⟨2, _⟩ => show win6_2.index t (2 : Fin 3) * 128 + 1 * j.val = j.val; omega

/-- The destination weight block is its whole array. -/
theorem iblk6_3_eq (c : Dev nD) (t : Fin cfg6.N) (k j : Fin 128) :
    (iblk6 V c 3 t : Vec Ideal S128x128 .f32) (ix2 k j) = (V c (Pipeline.arrRef spec6 3) : S128x128.Idx → EReal) (ix2 k j) := by
  obtain ⟨-, -, -, -, -, -, -, e0, e1, -⟩ := idx_facts6 t
  unfold iblk6
  rw [View.read_apply]
  show V c (Pipeline.arrRef spec6 3) _ = V c (Pipeline.arrRef spec6 3) _
  refine congrArg (V c (Pipeline.arrRef spec6 3)) (funext fun a => Fin.ext ?_)
  match a with
  | ⟨0, _⟩ => show win6_3.index t (0 : Fin 2) * 128 + 1 * k.val = k.val; omega
  | ⟨1, _⟩ => show win6_3.index t (1 : Fin 2) * 128 + 1 * j.val = j.val; omega

/-- The bias block is its whole array. -/
theorem iblk6_4_eq (c : Dev nD) (t : Fin cfg6.N) (j : Fin 128) :
    (iblk6 V c 4 t : Vec Ideal S1x128 .f32) (ix2 (0 : Fin 1) j) = (V c (Pipeline.arrRef spec6 4) : S1x128.Idx → EReal) (ix2 (0 : Fin 1) j) := by
  obtain ⟨-, -, -, -, -, -, -, -, -, e0, e1, -⟩ := idx_facts6 t
  unfold iblk6
  rw [View.read_apply]
  show V c (Pipeline.arrRef spec6 4) _ = V c (Pipeline.arrRef spec6 4) _
  refine congrArg (V c (Pipeline.arrRef spec6 4)) (funext fun a => Fin.ext ?_)
  match a with
  | ⟨0, _⟩ => show win6_4.index t (0 : Fin 2) * 1 + 1 * 0 = 0; omega
  | ⟨1, _⟩ => show win6_4.index t (1 : Fin 2) * 128 + 1 * j.val = j.val; omega

/-- Where the output's block at point `t` puts its entry `(p, q)`: row `2000 t + p`, column `q`. -/
theorem emb6_5 (t : Fin cfg6.N) (p : Fin 2000) (q : Fin 128) :
    ((cfg6.win 5).blk t).view.emb (ix2 p q) = (ix2 (row6 t p) q : S50000x128.Idx) := by
  obtain ⟨-, -, -, -, -, -, -, -, -, -, -, e0, e1⟩ := idx_facts6 t
  refine funext fun a => Fin.ext ?_
  match a with
  | ⟨0, _⟩ => show win6_5.index t (0 : Fin 2) * 2000 + 1 * p.val = 2000 * t.val + p.val; omega
  | ⟨1, _⟩ => show win6_5.index t (1 : Fin 2) * 128 + 1 * q.val = q.val; omega

/-- What point `t` writes back is block `t` of the layer's value. -/
theorem flushed6_eq (c : Dev nD) (t : Fin cfg6.N) :
    (dat6 (F := Ideal) V c).flushed 5 t = ((cfg6.win 5).blk t).view.read (Elt Ideal) (G6 V c) := by
  show (cfg6.win 5).cut (grid6.coords t) ((dat6 V c).after 5 t) = _
  rw [after6_5]
  unfold out6
  rw [View.canon_unit_zero hz6_2]
  simp only [View.ld_unit_zero (S := S2000x128) hz6_2, View.ld_unit_zero (S := S128x128) hz6_2, View.ld_unit_zero (S := S1x128x128) hz6_3, View.ld_unit_zero (S := S1x128) hz6_2]
  funext y
  obtain ⟨p, q, rfl⟩ : ∃ (p : Fin 2000) (q : Fin 128), y = ix2 p q := ⟨y 0, y 1, eq_ix2 y⟩
  show k6_pay1 (F := Ideal) (iblk6 V c 1 t) (iblk6 V c 3 t) (iblk6 V c 0 t) (iblk6 V c 2 t) (iblk6 V c 4 t) (ix2 p q) = G6 V c (((cfg6.win 5).blk t).view.emb (ix2 p q))
  refine (pay6_apply _ _ _ _ _ p q).trans ?_
  rw [emb6_5 t p q]
  simp only [iblk6_0_eq, iblk6_1_eq, iblk6_2_eq, iblk6_3_eq, iblk6_4_eq]
  rfl

/-- An index of the output array is in point `t`'s block iff each coordinate is in the block's range on its axis. -/
theorem mem_blk6 (t : Fin cfg6.N) (i : S50000x128.Idx) :
    i ∈ ((cfg6.win 5).blk t).view.set ↔ ∀ a : Fin 2, win6_5.index t a * S2000x128.size a ≤ (i a).val ∧ (i a).val < win6_5.index t a * S2000x128.size a + S2000x128.size a := by
  show i ∈ ((View.whole main_v536).slice (win6_5.rect t)).set ↔ _
  rw [View.set_slice_whole, Rect.mem_set_unit]
  exact Iff.rfl

/-- THE OUTPUT ARRAY after the region: the one-aggregate layer of the arrays the region finds (the point that covers
    row `r` is `r / 2000`). -/
theorem val6 (c : Dev nD) :
    (dat6 (F := Ideal) V c).arrAt 5 cfg6.N = fun idx =>
      Cert.Spec.layer1K (fun (i : Fin 50000) (k : Fin 128) => V c (Pipeline.arrRef spec6 0) (ix2 i k))
        (fun (i : Fin 50000) (k : Fin 128) => V c (Pipeline.arrRef spec6 1) (ix2 i k))
        (fun (k j : Fin 128) => V c (Pipeline.arrRef spec6 2) (ix3 (0 : Fin 1) k j))
        (fun (k j : Fin 128) => V c (Pipeline.arrRef spec6 3) (ix2 k j))
        (fun (j : Fin 128) => V c (Pipeline.arrRef spec6 4) (ix2 (0 : Fin 1) j)) (idx 0) (idx 1) :=
  (dat6 V c).arrAt_eq_of_cover 5 (G6 V c) (fun t _ => flushed6_eq V c t) fun i => by
    have hi0 : (i 0).val < 50000 := (i 0).isLt
    have hi1 : (i 1).val < 128 := (i 1).isLt
    have hN : cfg6.N = 25 := N_6
    let t : Fin cfg6.N := ⟨(i 0).val / 2000, by rw [hN]; omega⟩
    have ht : t.val = (i 0).val / 2000 := rfl
    obtain ⟨-, -, -, -, -, -, -, -, -, -, -, e0, e1⟩ := idx_facts6 t
    refine ⟨t, flush6_5 t, ?_⟩
    rw [mem_blk6]
    intro a
    match a with
    | ⟨0, _⟩ => show win6_5.index t (0 : Fin 2) * 2000 ≤ (i 0).val ∧ (i 0).val < win6_5.index t (0 : Fin 2) * 2000 + 2000; omega
    | ⟨1, _⟩ => show win6_5.index t (1 : Fin 2) * 128 ≤ (i 1).val ∧ (i 1).val < win6_5.index t (1 : Fin 2) * 128 + 128; omega

end Cert.KernelIdeal.Hand
-- ==== Proof.KI.Val7.lean ====
import proofs.«125545_j64845416235624_1_alg».proof.Proof.KI.D7
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 7 at the ideal values: the output array is the one-aggregate layer of the arrays the region finds

The body's payload is read at an index (two block products into zero accumulators, the bias row broadcast, the
rectifier); each input block is its array read at the point's rows; the row blocks tile the output array. -/

/-! ## The block product `[5000,128] ⬝ [128,128]` at an index -/

theorem lhs7_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs7_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs7_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs7_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at row `i` and column `j`: the sum over the contracted axis. -/
theorem mm7_apply (l : FVec Ideal S5000x128 .bf16) (r : FVec Ideal S128x128 .bf16) (i : Fin 5000) (j : Fin 128) :
    matmul dot_S5000x128_S128x128_S5000x128_1_0_0_1_n_n none l r (constant (F := Ideal) S5000x128 .f32 0x00000000#32) (ix2 i j)
      = ∑ k : Fin 128, l (ix2 i k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 i j) ((contrEquiv1 dot_S5000x128_S128x128_S5000x128_1_0_0_1_n_n 128 rfl rfl).symm k) = ix2 i k := funext fun a => Fin.ext (by
    match a with
    | ⟨0, _⟩ => exact lhs7_0 _ _
    | ⟨1, _⟩ => exact (lhs7_1 _ _).trans hk)
  have er : dot_S5000x128_S128x128_S5000x128_1_0_0_1_n_n.rhsIdx (ix2 i j) ((contrEquiv1 dot_S5000x128_S128x128_S5000x128_1_0_0_1_n_n 128 rfl rfl).symm k) = ix2 k j := funext fun a => Fin.ext (by
    match a with
    | ⟨0, _⟩ => exact (rhs7_0 _ _).trans hk
    | ⟨1, _⟩ => exact rhs7_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay7_apply (x0 : Vec Ideal S5000x128 .f32) (x1 : Vec Ideal S128x128 .f32) (x2 : Vec Ideal S5000x128 .f32)
    (x3 : Vec Ideal S1x128x128 .f32) (x4 : Vec Ideal S1x128 .f32) (i : Fin 5000) (j : Fin 128) :
    k7_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k7_pay1
  simp only [maximumf_apply, addf_apply, broadcast_apply, mm7_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz7_2 : (![0, 0] : Fin 2 → Nat) = fun _ => 0 := funext fun a => by fin_cases a <;> rfl
theorem hz7_3 : (![0, 0, 0] : Fin 3 → Nat) = fun _ => 0 := funext fun a => by fin_cases a <;> rfl

/-- The layer's value as one function of the arrays the region finds, index by index. -/
abbrev G7 (c : Dev nD) : S5000x128.Idx → EReal := fun idx =>
  Cert.Spec.layer1K (fun (i : Fin 5000) (k : Fin 128) => V c (Pipeline.arrRef spec7 0) (ix2 i k))
    (fun (i : Fin 5000) (k : Fin 128) => V c (Pipeline.arrRef spec7 1) (ix2 i k))
    (fun (k j : Fin 128) => V c (Pipeline.arrRef spec7 2) (ix3 (0 : Fin 1) k j))
    (fun (k j : Fin 128) => V c (Pipeline.arrRef spec7 3) (ix2 k j))
    (fun (j : Fin 128) => V c (Pipeline.arrRef spec7 4) (ix2 (0 : Fin 1) j)) (idx 0) (idx 1)

/-- The printed index maps over the grid: the row-tiled windows move with the point, the weights and the bias stay. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 3) = 0 ∧ win7_2.index t (1 : Fin 3) = 0 ∧ win7_2.index t (2 : Fin 3) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row `p` of point `t`'s row block, as a row of the array. -/
def row7 (t : Fin cfg7.N) (p : Fin 5000) : Fin 5000 :=
  ⟨5000 * t.val + p.val, by have ht := t.isLt; have hN : cfg7.N = 1 := N_7; have hp := p.isLt; omega⟩

/-- The aggregate's block at point `t` is the `5000` rows of its array from row `5000 t` on. -/
theorem iblk7_0_eq (c : Dev nD) (t : Fin cfg7.N) (p : Fin 5000) (k : Fin 128) :
    (iblk7 V c 0 t : Vec Ideal S5000x128 .f32) (ix2 p k) = (V c (Pipeline.arrRef spec7 0) : S5000x128.Idx → EReal) (ix2 (row7 t p) k) := by
  obtain ⟨e0, e1, -⟩ := idx_facts7 t
  unfold iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t (0 : Fin 2) * 5000 + 1 * p.val = 5000 * t.val + p.val; omega
  | ⟨1, _⟩ => show win7_0.index t (1 : Fin 2) * 128 + 1 * k.val = k.val; omega

/-- The destination features' block at point `t` is the same rows of its array. -/
theorem iblk7_1_eq (c : Dev nD) (t : Fin cfg7.N) (p : Fin 5000) (k : Fin 128) :
    (iblk7 V c 1 t : Vec Ideal S5000x128 .f32) (ix2 p k) = (V c (Pipeline.arrRef spec7 1) : S5000x128.Idx → EReal) (ix2 (row7 t p) k) := by
  obtain ⟨-, -, e0, e1, -⟩ := idx_facts7 t
  unfold iblk7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t (0 : Fin 2) * 5000 + 1 * p.val = 5000 * t.val + p.val; omega
  | ⟨1, _⟩ => show win7_1.index t (1 : Fin 2) * 128 + 1 * k.val = k.val; omega

/-- The aggregate's weight block is its whole array. -/
theorem iblk7_2_eq (c : Dev nD) (t : Fin cfg7.N) (k j : Fin 128) :
    (iblk7 V c 2 t : Vec Ideal S1x128x128 .f32) (ix3 (0 : Fin 1) k j) = (V c (Pipeline.arrRef spec7 2) : S1x128x128.Idx → EReal) (ix3 (0 : Fin 1) k j) := by
  obtain ⟨-, -, -, -, e0, e1, e2, -⟩ := idx_facts7 t
  unfold iblk7
  rw [View.read_apply]
  show V c (Pipeline.arrRef spec7 2) _ = V c (Pipeline.arrRef spec7 2) _
  refine congrArg (V c (Pipeline.arrRef spec7 2)) (funext fun a => Fin.ext ?_)
  match a with
  | ⟨0, _⟩ => show win7_2.index t (0 : Fin 3) * 1 + 1 * 0 = 0; omega
  | ⟨1, _⟩ => show win7_2.index t (1 : Fin 3) * 128 + 1 * k.val = k.val; omega
  | ⟨2, _⟩ => show win7_2.index t (2 : Fin 3) * 128 + 1 * j.val = j.val; omega

/-- The destination weight block is its whole array. -/
theorem iblk7_3_eq (c : Dev nD) (t : Fin cfg7.N) (k j : Fin 128) :
    (iblk7 V c 3 t : Vec Ideal S128x128 .f32) (ix2 k j) = (V c (Pipeline.arrRef spec7 3) : S128x128.Idx → EReal) (ix2 k j) := by
  obtain ⟨-, -, -, -, -, -, -, e0, e1, -⟩ := idx_facts7 t
  unfold iblk7
  rw [View.read_apply]
  show V c (Pipeline.arrRef spec7 3) _ = V c (Pipeline.arrRef spec7 3) _
  refine congrArg (V c (Pipeline.arrRef spec7 3)) (funext fun a => Fin.ext ?_)
  match a with
  | ⟨0, _⟩ => show win7_3.index t (0 : Fin 2) * 128 + 1 * k.val = k.val; omega
  | ⟨1, _⟩ => show win7_3.index t (1 : Fin 2) * 128 + 1 * j.val = j.val; omega

/-- The bias block is its whole array. -/
theorem iblk7_4_eq (c : Dev nD) (t : Fin cfg7.N) (j : Fin 128) :
    (iblk7 V c 4 t : Vec Ideal S1x128 .f32) (ix2 (0 : Fin 1) j) = (V c (Pipeline.arrRef spec7 4) : S1x128.Idx → EReal) (ix2 (0 : Fin 1) j) := by
  obtain ⟨-, -, -, -, -, -, -, -, -, e0, e1, -⟩ := idx_facts7 t
  unfold iblk7
  rw [View.read_apply]
  show V c (Pipeline.arrRef spec7 4) _ = V c (Pipeline.arrRef spec7 4) _
  refine congrArg (V c (Pipeline.arrRef spec7 4)) (funext fun a => Fin.ext ?_)
  match a with
  | ⟨0, _⟩ => show win7_4.index t (0 : Fin 2) * 1 + 1 * 0 = 0; omega
  | ⟨1, _⟩ => show win7_4.index t (1 : Fin 2) * 128 + 1 * j.val = j.val; omega

/-- Where the output's block at point `t` puts its entry `(p, q)`: row `5000 t + p`, column `q`. -/
theorem emb7_5 (t : Fin cfg7.N) (p : Fin 5000) (q : Fin 128) :
    ((cfg7.win 5).blk t).view.emb (ix2 p q) = (ix2 (row7 t p) q : S5000x128.Idx) := by
  obtain ⟨-, -, -, -, -, -, -, -, -, -, -, e0, e1⟩ := idx_facts7 t
  refine funext fun a => Fin.ext ?_
  match a with
  | ⟨0, _⟩ => show win7_5.index t (0 : Fin 2) * 5000 + 1 * p.val = 5000 * t.val + p.val; omega
  | ⟨1, _⟩ => show win7_5.index t (1 : Fin 2) * 128 + 1 * q.val = q.val; omega

/-- What point `t` writes back is block `t` of the layer's value. -/
theorem flushed7_eq (c : Dev nD) (t : Fin cfg7.N) :
    (dat7 (F := Ideal) V c).flushed 5 t = ((cfg7.win 5).blk t).view.read (Elt Ideal) (G7 V c) := by
  show (cfg7.win 5).cut (grid7.coords t) ((dat7 V c).after 5 t) = _
  rw [after7_5]
  unfold out7
  rw [View.canon_unit_zero hz7_2]
  simp only [View.ld_unit_zero (S := S5000x128) hz7_2, View.ld_unit_zero (S := S128x128) hz7_2, View.ld_unit_zero (S := S1x128x128) hz7_3, View.ld_unit_zero (S := S1x128) hz7_2]
  funext y
  obtain ⟨p, q, rfl⟩ : ∃ (p : Fin 5000) (q : Fin 128), y = ix2 p q := ⟨y 0, y 1, eq_ix2 y⟩
  show k7_pay1 (F := Ideal) (iblk7 V c 1 t) (iblk7 V c 3 t) (iblk7 V c 0 t) (iblk7 V c 2 t) (iblk7 V c 4 t) (ix2 p q) = G7 V c (((cfg7.win 5).blk t).view.emb (ix2 p q))
  refine (pay7_apply _ _ _ _ _ p q).trans ?_
  rw [emb7_5 t p q]
  simp only [iblk7_0_eq, iblk7_1_eq, iblk7_2_eq, iblk7_3_eq, iblk7_4_eq]
  rfl

/-- An index of the output array is in point `t`'s block iff each coordinate is in the block's range on its axis. -/
theorem mem_blk7 (t : Fin cfg7.N) (i : S5000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v545).slice (win7_5.rect t)).set ↔ _
  rw [View.set_slice_whole, Rect.mem_set_unit]
  exact Iff.rfl

/-- THE OUTPUT ARRAY after the region: the one-aggregate layer of the arrays the region finds (the point that covers
    row `r` is `r / 5000`). -/
theorem val7 (c : Dev nD) :
    (dat7 (F := Ideal) V c).arrAt 5 cfg7.N = fun idx =>
      Cert.Spec.layer1K (fun (i : Fin 5000) (k : Fin 128) => V c (Pipeline.arrRef spec7 0) (ix2 i k))
        (fun (i : Fin 5000) (k : Fin 128) => V c (Pipeline.arrRef spec7 1) (ix2 i k))
        (fun (k j : Fin 128) => V c (Pipeline.arrRef spec7 2) (ix3 (0 : Fin 1) k j))
        (fun (k j : Fin 128) => V c (Pipeline.arrRef spec7 3) (ix2 k j))
        (fun (j : Fin 128) => V c (Pipeline.arrRef spec7 4) (ix2 (0 : Fin 1) j)) (idx 0) (idx 1) :=
  (dat7 V c).arrAt_eq_of_cover 5 (G7 V c) (fun t _ => flushed7_eq V c t) fun i => by
    have hi0 : (i 0).val < 5000 := (i 0).isLt
    have hi1 : (i 1).val < 128 := (i 1).isLt
    have hN : cfg7.N = 1 := N_7
    let t : Fin cfg7.N := ⟨(i 0).val / 5000, by rw [hN]; omega⟩
    have ht : t.val = (i 0).val / 5000 := rfl
    obtain ⟨-, -, -, -, -, -, -, -, -, -, -, e0, e1⟩ := idx_facts7 t
    refine ⟨t, flush7_5 t, ?_⟩
    rw [mem_blk7]
    intro a
    match a with
    | ⟨0, _⟩ => show win7_5.index t (0 : Fin 2) * 5000 ≤ (i 0).val ∧ (i 0).val < win7_5.index t (0 : Fin 2) * 5000 + 5000; omega
    | ⟨1, _⟩ => show win7_5.index t (1 : Fin 2) * 128 ≤ (i 1).val ∧ (i 1).val < win7_5.index t (1 : Fin 2) * 128 + 128; omega

end Cert.KernelIdeal.Hand
-- ==== Proof.KI.Val8.lean ====
import proofs.«125545_j64845416235624_1_alg».proof.Proof.KI.D8
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 8 at the ideal values: the output array is the five-aggregate layer of the arrays the region finds

The body's payload is read at an index (six block products into zero accumulators, added in the body's order, the
bias row broadcast, the rectifier); each neighbour weight is a slice of the stacked weights; each input block is
its array read at the point's rows; the row blocks tile the output array. -/

/-! ## The block product `[2000,128] ⬝ [128,128]` at an index -/

theorem lhs8_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs8_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs8_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs8_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm8_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs8_0 _ _
    | ⟨1, _⟩ => exact (lhs8_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs8_0 _ _).trans hk
    | ⟨1, _⟩ => exact rhs8_1 _ _)
  rw [el, er]

/-! ## The payloads at an index -/

/-- The first part's sum, at row `i` and column `j`: the destination rows times the root weight, then the first
    three aggregates times their weights, added in that order. -/
theorem pay8_2_apply (x0 : Vec Ideal S2000x128 .f32) (x1 : Vec Ideal S128x128 .f32) (x2 : Vec Ideal S2000x128 .f32)
    (x3 : Vec Ideal S1x128x128 .f32) (x4 : Vec Ideal S2000x128 .f32) (x5 : Vec Ideal S1x128x128 .f32)
    (x6 : Vec Ideal S2000x128 .f32) (x7 : Vec Ideal S1x128x128 .f32) (i : Fin 2000) (j : Fin 128) :
    k8_pay2 (F := Ideal) x0 x1 x2 x3 x4 x5 x6 x7 (ix2 i j)
      = (((∑ k : Fin 128, x0 (ix2 i k) * x1 (ix2 k j)) + ∑ k : Fin 128, x2 (ix2 i k) * x3 (ix3 (0 : Fin 1) k j))
          + ∑ k : Fin 128, x4 (ix2 i k) * x5 (ix3 (0 : Fin 1) k j)) + ∑ k : Fin 128, x6 (ix2 i k) * x7 (ix3 (0 : Fin 1) k j) := by
  unfold k8_pay2
  simp only [addf_apply, mm8_apply, truncf_apply, shapeCast_self, shapeCast_1ab_ab_apply]

/-- The fourth aggregate's rows rounded to `bf16`: themselves, at the ideal values. -/
theorem pay8_3_apply (x : Vec Ideal S2000x128 .f32) (y : S2000x128.Idx) : k8_pay3 (F := Ideal) x y = x y := by
  unfold k8_pay3
  simp only [truncf_apply, shapeCast_self]

/-- What the body stores, at row `i` and column `j` of the block, from the first part's sum `s`, the fourth
    aggregate's rounded rows `a3`, and the loaded fourth weight, fifth aggregate, fifth weight and bias row. -/
theorem pay8_1_apply (s : FVec Ideal S2000x128 .f32) (a3 : FVec Ideal S2000x128 .bf16) (w3 : Vec Ideal S1x128x128 .f32)
    (a4 : Vec Ideal S2000x128 .f32) (w4 : Vec Ideal S1x128x128 .f32) (b : Vec Ideal S1x128 .f32) (i : Fin 2000) (j : Fin 128) :
    k8_pay1 (F := Ideal) s a3 w3 a4 w4 b (ix2 i j)
      = max (((s (ix2 i j) + ∑ k : Fin 128, a3 (ix2 i k) * w3 (ix3 (0 : Fin 1) k j))
          + ∑ k : Fin 128, a4 (ix2 i k) * w4 (ix3 (0 : Fin 1) k j)) + b (ix2 (0 : Fin 1) j)) 0 := by
  unfold k8_pay1
  simp only [maximumf_apply, addf_apply, broadcast_apply, mm8_apply, truncf_apply, shapeCast_self,
    shapeCast_1ab_ab_apply, broadcastTo_1b_ab_apply]
  exact congrArg (max _) Ideal.ofBits_zero_f32

/-! ## The neighbour weights: slices of the stacked weights -/

theorem ld8_l0 (x : Vec Ideal S5x128x128 .f32) (k j : Fin 128) : View.ld x r8_l0 (ix3 (0 : Fin 1) k j) = x (ix3 (0 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld8_l1 (x : Vec Ideal S5x128x128 .f32) (k j : Fin 128) : View.ld x r8_l1 (ix3 (0 : Fin 1) k j) = x (ix3 (1 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld8_l2 (x : Vec Ideal S5x128x128 .f32) (k j : Fin 128) : View.ld x r8_l2 (ix3 (0 : Fin 1) k j) = x (ix3 (2 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld8_l3 (x : Vec Ideal S5x128x128 .f32) (k j : Fin 128) : View.ld x r8_l3 (ix3 (0 : Fin 1) k j) = x (ix3 (3 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega
theorem ld8_l4 (x : Vec Ideal S5x128x128 .f32) (k j : Fin 128) : View.ld x r8_l4 (ix3 (0 : Fin 1) k j) = x (ix3 (4 : Fin 5) k j) := by
  show x _ = x _
  refine congrArg x (funext fun a => Fin.ext ?_)
  match a with
  | ⟨0, _⟩ => rfl
  | ⟨1, _⟩ => show 0 + 1 * k.val = k.val; omega
  | ⟨2, _⟩ => show 0 + 1 * j.val = j.val; omega

/-! ## From blocks to the array -/

variable (V : (c : Dev nD) → (b : Ref sig .tc) → Buf (Elt Ideal) ((c : Thread nD τ).loc b))

theorem hz8_2 : (![0, 0] : Fin 2 → Nat) = fun _ => 0 := funext fun a => by fin_cases a <;> rfl

/-- The layer's value as one function of the arrays the region finds, index by index. -/
abbrev G8 (c : Dev nD) : S100000x128.Idx → EReal := fun idx =>
  Cert.Spec.layer5K (fun (i : Fin 100000) (k : Fin 128) => V c (Pipeline.arrRef spec8 0) (ix2 i k))
    (fun (i : Fin 100000) (k : Fin 128) => V c (Pipeline.arrRef spec8 1) (ix2 i k))
    (fun (i : Fin 100000) (k : Fin 128) => V c (Pipeline.arrRef spec8 2) (ix2 i k))
    (fun (i : Fin 100000) (k : Fin 128) => V c (Pipeline.arrRef spec8 3) (ix2 i k))
    (fun (i : Fin 100000) (k : Fin 128) => V c (Pipeline.arrRef spec8 4) (ix2 i k))
    (fun (i : Fin 100000) (k : Fin 128) => V c (Pipeline.arrRef spec8 5) (ix2 i k))
    (fun (k j : Fin 128) => V c (Pipeline.arrRef spec8 6) (ix3 (0 : Fin 5) k j))
    (fun (k j : Fin 128) => V c (Pipeline.arrRef spec8 6) (ix3 (1 : Fin 5) k j))
    (fun (k j : Fin 128) => V c (Pipeline.arrRef spec8 6) (ix3 (2 : Fin 5) k j))
    (fun (k j : Fin 128) => V c (Pipeline.arrRef spec8 6) (ix3 (3 : Fin 5) k j))
    (fun (k j : Fin 128) => V c (Pipeline.arrRef spec8 6) (ix3 (4 : Fin 5) k j))
    (fun (k j : Fin 128) => V c (Pipeline.arrRef spec8 7) (ix2 k j))
    (fun (j : Fin 128) => V c (Pipeline.arrRef spec8 8) (ix2 (0 : Fin 1) j)) (idx 0) (idx 1)

/-- The printed index maps over the grid: the row-tiled windows move with the point, the weights and the bias stay. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0
    ∧ win8_6.index t (0 : Fin 3) = 0 ∧ win8_6.index t (1 : Fin 3) = 0 ∧ win8_6.index t (2 : Fin 3) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = t.val ∧ win8_9.index t (1 : Fin 2) = 0 :=
  (by decide +kernel : ∀ t : Fin grid8.N, _)

/-- Row `p` of point `t`'s row block, as a row of the array. -/
def row8 (t : Fin cfg8.N) (p : Fin 2000) : Fin 100000 :=
  ⟨2000 * t.val + p.val, by have ht := t.isLt; have hN : cfg8.N = 50 := N_8; have hp := p.isLt; omega⟩

/-- A row-tiled window's block at point `t` is the `2000` rows of its array from row `2000 t` on: the five
    aggregates and the destination features. -/
theorem iblk8_0_eq (c : Dev nD) (t : Fin cfg8.N) (p : Fin 2000) (k : Fin 128) :
    (iblk8 V c 0 t : Vec Ideal S2000x128 .f32) (ix2 p k) = (V c (Pipeline.arrRef spec8 0) : S100000x128.Idx → EReal) (ix2 (row8 t p) k) := by
  obtain ⟨e0, e1, -⟩ := idx_facts8 t
  unfold iblk8
  rw [View.read_apply]
  show V c (Pipeline.arrRef spec8 0) _ = V c (Pipeline.arrRef spec8 0) _
  refine congrArg (V c (Pipeline.arrRef spec8 0)) (funext fun a => Fin.ext ?_)
  match a with
  | ⟨0, _⟩ => show win8_0.index t (0 : Fin 2) * 2000 + 1 * p.val = 2000 * t.val + p.val; omega
  | ⟨1, _⟩ => show win8_0.index t (1 : Fin 2) * 128 + 1 * k.val = k.val; omega
theorem iblk8_1_eq (c : Dev nD) (t : Fin cfg8.N) (p : Fin 2000) (k : Fin 128) :
    (iblk8 V c 1 t : Vec Ideal S2000x128 .f32) (ix2 p k) = (V c (Pipeline.arrRef spec8 1) : S100000x128.Idx → EReal) (ix2 (row8 t p) k) := by
  obtain ⟨-, -, e0, e1, -⟩ := idx_facts8 t
  unfold iblk8
  rw [View.read_apply]
  show V c (Pipeline.arrRef spec8 1) _ = V c (Pipeline.arrRef spec8 1) _
  refine congrArg (V c (Pipeline.arrRef spec8 1)) (funext fun a => Fin.ext ?_)
  match a with
  | ⟨0, _⟩ => show win8_1.index t (0 : Fin 2) * 2000 + 1 * p.val = 2000 * t.val + p.val; omega
  | ⟨1, _⟩ => show win8_1.index t (1 : Fin 2) * 128 + 1 * k.val = k.val; omega
theorem iblk8_2_eq (c : Dev nD) (t : Fin cfg8.N) (p : Fin 2000) (k : Fin 128) :
    (iblk8 V c 2 t : Vec Ideal S2000x128 .f32) (ix2 p k) = (V c (Pipeline.arrRef spec8 2) : S100000x128.Idx → EReal) (ix2 (row8 t p) k) := by
  obtain ⟨-, -, -, -, e0, e1, -⟩ := idx_facts8 t
  unfold iblk8
  rw [View.read_apply]
  show V c (Pipeline.arrRef spec8 2) _ = V c (Pipeline.arrRef spec8 2) _
  refine congrArg (V c (Pipeline.arrRef spec8 2)) (funext fun a => Fin.ext ?_)
  match a with
  | ⟨0, _⟩ => show win8_2.index t (0 : Fin 2) * 2000 + 1 * p.val = 2000 * t.val + p.val; omega
  | ⟨1, _⟩ => show win8_2.index t (1 : Fin 2) * 128 + 1 * k.val = k.val; omega
theorem iblk8_3_eq (c : Dev nD) (t : Fin cfg8.N) (p : Fin 2000) (k : Fin 128) :
    (iblk8 V c 3 t : Vec Ideal S2000x128 .f32) (ix2 p k) = (V c (Pipeline.arrRef spec8 3) : S100000x128.Idx → EReal) (ix2 (row8 t p) k) := by
  obtain ⟨-, -, -, -, -, -, e0, e1, -⟩ := idx_facts8 t
  unfold iblk8
  rw [View.read_apply]
  show V c (Pipeline.arrRef spec8 3) _ = V c (Pipeline.arrRef spec8 3) _
  refine congrArg (V c (Pipeline.arrRef spec8 3)) (funext fun a => Fin.ext ?_)
  match a with
  | ⟨0, _⟩ => show win8_3.index t (0 : Fin 2) * 2000 + 1 * p.val = 2000 * t.val + p.val; omega
  | ⟨1, _⟩ => show win8_3.index t (1 : Fin 2) * 128 + 1 * k.val = k.val; omega
theorem iblk8_4_eq (c : Dev nD) (t : Fin cfg8.N) (p : Fin 2000) (k : Fin 128) :
    (iblk8 V c 4 t : Vec Ideal S2000x128 .f32) (ix2 p k) = (V c (Pipeline.arrRef spec8 4) : S100000x128.Idx → EReal) (ix2 (row8 t p) k) := by
  obtain ⟨-, -, -, -, -, -, -, -, e0, e1, -⟩ := idx_facts8 t
  unfold iblk8
  rw [View.read_apply]
  show V c (Pipeline.arrRef spec8 4) _ = V c (Pipeline.arrRef spec8 4) _
  refine congrArg (V c (Pipeline.arrRef spec8 4)) (funext fun a => Fin.ext ?_)
  match a with
  | ⟨0, _⟩ => show win8_4.index t (0 : Fin 2) * 2000 + 1 * p.val = 2000 * t.val + p.val; omega
  | ⟨1, _⟩ => show win8_4.index t (1 : Fin 2) * 128 + 1 * k.val = k.val; omega
theorem iblk8_5_eq (c : Dev nD) (t : Fin cfg8.N) (p : Fin 2000) (k : Fin 128) :
    (iblk8 V c 5 t : Vec Ideal S2000x128 .f32) (ix2 p k) = (V c (Pipeline.arrRef spec8 5) : S100000x128.Idx → EReal) (ix2 (row8 t p) k) := by
  obtain ⟨-, -, -, -, -, -, -, -, -, -, e0, e1, -⟩ := idx_facts8 t
  unfold iblk8
  rw [View.read_apply]
  show V c (Pipeline.arrRef spec8 5) _ = V c (Pipeline.arrRef spec8 5) _
  refine congrArg (V c (Pipeline.arrRef spec8 5)) (funext fun a => Fin.ext ?_)
  match a with
  | ⟨0, _⟩ => show win8_5.index t (0 : Fin 2) * 2000 + 1 * p.val = 2000 * t.val + p.val; omega
  | ⟨1, _⟩ => show win8_5.index t (1 : Fin 2) * 128 + 1 * k.val = k.val; omega

/-- The stacked neighbour weights' block is its whole array. -/
theorem iblk8_6_eq (c : Dev nD) (t : Fin cfg8.N) (e : Fin 5) (k j : Fin 128) :
    (iblk8 V c 6 t : Vec Ideal S5x128x128 .f32) (ix3 e k j) = (V c (Pipeline.arrRef spec8 6) : S5x128x128.Idx → EReal) (ix3 e k j) := by
  obtain ⟨-, -, -, -, -, -, -, -, -, -, -, -, e0, e1, e2, -⟩ := idx_facts8 t
  unfold iblk8
  rw [View.read_apply]
  show V c (Pipeline.arrRef spec8 6) _ = V c (Pipeline.arrRef spec8 6) _
  refine congrArg (V c (Pipeline.arrRef spec8 6)) (funext fun a => Fin.ext ?_)
  match a with
  | ⟨0, _⟩ => show win8_6.index t (0 : Fin 3) * 5 + 1 * e.val = e.val; omega
  | ⟨1, _⟩ => show win8_6.index t (1 : Fin 3) * 128 + 1 * k.val = k.val; omega
  | ⟨2, _⟩ => show win8_6.index t (2 : Fin 3) * 128 + 1 * j.val = j.val; omega

/-- Neighbour weight `e` as the body loads it: slice `e` of the stacked weights' array. -/
theorem ld8_s0 (c : Dev nD) (t : Fin cfg8.N) (k j : Fin 128) :
    View.ld (iblk8 V c 6 t : Vec Ideal S5x128x128 .f32) r8_l0 (ix3 (0 : Fin 1) k j) = (V c (Pipeline.arrRef spec8 6) : S5x128x128.Idx → EReal) (ix3 (0 : Fin 5) k j) :=
  (ld8_l0 _ k j).trans (iblk8_6_eq V c t 0 k j)
theorem ld8_s1 (c : Dev nD) (t : Fin cfg8.N) (k j : Fin 128) :
    View.ld (iblk8 V c 6 t : Vec Ideal S5x128x128 .f32) r8_l1 (ix3 (0 : Fin 1) k j) = (V c (Pipeline.arrRef spec8 6) : S5x128x128.Idx → EReal) (ix3 (1 : Fin 5) k j) :=
  (ld8_l1 _ k j).trans (iblk8_6_eq V c t 1 k j)
theorem ld8_s2 (c : Dev nD) (t : Fin cfg8.N) (k j : Fin 128) :
    View.ld (iblk8 V c 6 t : Vec Ideal S5x128x128 .f32) r8_l2 (ix3 (0 : Fin 1) k j) = (V c (Pipeline.arrRef spec8 6) : S5x128x128.Idx → EReal) (ix3 (2 : Fin 5) k j) :=
  (ld8_l2 _ k j).trans (iblk8_6_eq V c t 2 k j)
theorem ld8_s3 (c : Dev nD) (t : Fin cfg8.N) (k j : Fin 128) :
    View.ld (iblk8 V c 6 t : Vec Ideal S5x128x128 .f32) r8_l3 (ix3 (0 : Fin 1) k j) = (V c (Pipeline.arrRef spec8 6) : S5x128x128.Idx → EReal) (ix3 (3 : Fin 5) k j) :=
  (ld8_l3 _ k j).trans (iblk8_6_eq V c t 3 k j)
theorem ld8_s4 (c : Dev nD) (t : Fin cfg8.N) (k j : Fin 128) :
    View.ld (iblk8 V c 6 t : Vec Ideal S5x128x128 .f32) r8_l4 (ix3 (0 : Fin 1) k j) = (V c (Pipeline.arrRef spec8 6) : S5x128x128.Idx → EReal) (ix3 (4 : Fin 5) k j) :=
  (ld8_l4 _ k j).trans (iblk8_6_eq V c t 4 k j)

/-- The summed root weight's block is its whole array. -/
theorem iblk8_7_eq (c : Dev nD) (t : Fin cfg8.N) (k j : Fin 128) :
    (iblk8 V c 7 t : Vec Ideal S128x128 .f32) (ix2 k j) = (V c (Pipeline.arrRef spec8 7) : S128x128.Idx → EReal) (ix2 k j) := by
  obtain ⟨-, -, -, -, -, -, -, -, -, -, -, -, -, -, -, e0, e1, -⟩ := idx_facts8 t
  unfold iblk8
  rw [View.read_apply]
  show V c (Pipeline.arrRef spec8 7) _ = V c (Pipeline.arrRef spec8 7) _
  refine congrArg (V c (Pipeline.arrRef spec8 7)) (funext fun a => Fin.ext ?_)
  match a with
  | ⟨0, _⟩ => show win8_7.index t (0 : Fin 2) * 128 + 1 * k.val = k.val; omega
  | ⟨1, _⟩ => show win8_7.index t (1 : Fin 2) * 128 + 1 * j.val = j.val; omega

/-- The summed bias block is its whole array. -/
theorem iblk8_8_eq (c : Dev nD) (t : Fin cfg8.N) (j : Fin 128) :
    (iblk8 V c 8 t : Vec Ideal S1x128 .f32) (ix2 (0 : Fin 1) j) = (V c (Pipeline.arrRef spec8 8) : S1x128.Idx → EReal) (ix2 (0 : Fin 1) j) := by
  obtain ⟨-, -, -, -, -, -, -, -, -, -, -, -, -, -, -, -, -, e0, e1, -⟩ := idx_facts8 t
  unfold iblk8
  rw [View.read_apply]
  show V c (Pipeline.arrRef spec8 8) _ = V c (Pipeline.arrRef spec8 8) _
  refine congrArg (V c (Pipeline.arrRef spec8 8)) (funext fun a => Fin.ext ?_)
  match a with
  | ⟨0, _⟩ => show win8_8.index t (0 : Fin 2) * 1 + 1 * 0 = 0; omega
  | ⟨1, _⟩ => show win8_8.index t (1 : Fin 2) * 128 + 1 * j.val = j.val; omega

/-- Where the output's block at point `t` puts its entry `(p, q)`: row `2000 t + p`, column `q`. -/
theorem emb8_9 (t : Fin cfg8.N) (p : Fin 2000) (q : Fin 128) :
    ((cfg8.win 9).blk t).view.emb (ix2 p q) = (ix2 (row8 t p) q : S100000x128.Idx) := by
  obtain ⟨-, -, -, -, -, -, -, -, -, -, -, -, -, -, -, -, -, -, -, e0, e1⟩ := idx_facts8 t
  refine funext fun a => Fin.ext ?_
  match a with
  | ⟨0, _⟩ => show win8_9.index t (0 : Fin 2) * 2000 + 1 * p.val = 2000 * t.val + p.val; omega
  | ⟨1, _⟩ => show win8_9.index t (1 : Fin 2) * 128 + 1 * q.val = q.val; omega

/-- What point `t` writes back is block `t` of the layer's value. -/
theorem flushed8_eq (c : Dev nD) (t : Fin cfg8.N) :
    (dat8 (F := Ideal) V c).flushed 9 t = ((cfg8.win 9).blk t).view.read (Elt Ideal) (G8 V c) := by
  show (cfg8.win 9).cut (grid8.coords t) ((dat8 V c).after 9 t) = _
  rw [after8_9]
  unfold out8
  rw [View.canon_unit_zero hz8_2]
  simp only [View.ld_unit_zero (S := S2000x128) hz8_2, View.ld_unit_zero (S := S128x128) hz8_2, View.ld_unit_zero (S := S1x128) hz8_2]
  funext y
  obtain ⟨p, q, rfl⟩ : ∃ (p : Fin 2000) (q : Fin 128), y = ix2 p q := ⟨y 0, y 1, eq_ix2 y⟩
  show k8_pay1 (F := Ideal)
      (k8_pay2 (iblk8 V c 5 t) (iblk8 V c 7 t) (iblk8 V c 0 t) (View.ld (iblk8 V c 6 t) r8_l0) (iblk8 V c 1 t) (View.ld (iblk8 V c 6 t) r8_l1)
        (iblk8 V c 2 t) (View.ld (iblk8 V c 6 t) r8_l2))
      (k8_pay3 (iblk8 V c 3 t)) (View.ld (iblk8 V c 6 t) r8_l3) (iblk8 V c 4 t) (View.ld (iblk8 V c 6 t) r8_l4) (iblk8 V c 8 t) (ix2 p q)
    = G8 V c (((cfg8.win 9).blk t).view.emb (ix2 p q))
  refine (pay8_1_apply _ _ _ _ _ _ p q).trans ?_
  rw [emb8_9 t p q]
  simp only [pay8_2_apply, pay8_3_apply, ld8_s0, ld8_s1, ld8_s2, ld8_s3, ld8_s4]
  simp only [iblk8_0_eq, iblk8_1_eq, iblk8_2_eq, iblk8_3_eq, iblk8_4_eq, iblk8_5_eq, iblk8_7_eq, iblk8_8_eq]
  rfl

/-- An index of the output array is in point `t`'s block iff each coordinate is in the block's range on its axis. -/
theorem mem_blk8 (t : Fin cfg8.N) (i : S100000x128.Idx) :
    i ∈ ((cfg8.win 9).blk t).view.set ↔ ∀ a : Fin 2, win8_9.index t a * S2000x128.size a ≤ (i a).val ∧ (i a).val < win8_9.index t a * S2000x128.size a + S2000x128.size a := by
  show i ∈ ((View.whole main_v791).slice (win8_9.rect t)).set ↔ _
  rw [View.set_slice_whole, Rect.mem_set_unit]
  exact Iff.rfl

/-- Every index of the output array is in the block of the point `r / 2000`, `r` its row. -/
theorem mem_blk8_cover (i : S100000x128.Idx) :
    ∃ t : Fin cfg8.N, (cfg8.win 9).flush t = true ∧ i ∈ ((cfg8.win 9).blk t).view.set := by
  have hi0 : (i 0).val < 100000 := (i 0).isLt
  have hi1 : (i 1).val < 128 := (i 1).isLt
  have hN : cfg8.N = 50 := N_8
  let t : Fin cfg8.N := ⟨(i 0).val / 2000, by rw [hN]; omega⟩
  have ht : t.val = (i 0).val / 2000 := rfl
  obtain ⟨-, -, -, -, -, -, -, -, -, -, -, -, -, -, -, -, -, -, -, e0, e1⟩ := idx_facts8 t
  refine ⟨t, flush8_9 t, ?_⟩
  rw [mem_blk8]
  intro a
  match a with
  | ⟨0, _⟩ => show win8_9.index t (0 : Fin 2) * 2000 ≤ (i 0).val ∧ (i 0).val < win8_9.index t (0 : Fin 2) * 2000 + 2000; omega
  | ⟨1, _⟩ => show win8_9.index t (1 : Fin 2) * 128 ≤ (i 1).val ∧ (i 1).val < win8_9.index t (1 : Fin 2) * 128 + 128; omega

/-- The output array after the region is the layer's value: the row blocks cover it. -/
theorem val8_G (c : Dev nD) : (dat8 (F := Ideal) V c).arrAt 9 cfg8.N = G8 V c :=
  (dat8 V c).arrAt_eq_of_cover 9 (G8 V c) (fun t _ => flushed8_eq V c t) mem_blk8_cover

/-- THE OUTPUT ARRAY after the region: the five-aggregate layer of the arrays the region finds. -/
theorem val8 (c : Dev nD) :
    (dat8 (F := Ideal) V c).arrAt 9 cfg8.N = fun idx =>
      Cert.Spec.layer5K (fun (i : Fin 100000) (k : Fin 128) => V c (Pipeline.arrRef spec8 0) (ix2 i k))
        (fun (i : Fin 100000) (k : Fin 128) => V c (Pipeline.arrRef spec8 1) (ix2 i k))
        (fun (i : Fin 100000) (k : Fin 128) => V c (Pipeline.arrRef spec8 2) (ix2 i k))
        (fun (i : Fin 100000) (k : Fin 128) => V c (Pipeline.arrRef spec8 3) (ix2 i k))
        (fun (i : Fin 100000) (k : Fin 128) => V c (Pipeline.arrRef spec8 4) (ix2 i k))
        (fun (i : Fin 100000) (k : Fin 128) => V c (Pipeline.arrRef spec8 5) (ix2 i k))
        (fun (k j : Fin 128) => V c (Pipeline.arrRef spec8 6) (ix3 (0 : Fin 5) k j))
        (fun (k j : Fin 128) => V c (Pipeline.arrRef spec8 6) (ix3 (1 : Fin 5) k j))
        (fun (k j : Fin 128) => V c (Pipeline.arrRef spec8 6) (ix3 (2 : Fin 5) k j))
        (fun (k j : Fin 128) => V c (Pipeline.arrRef spec8 6) (ix3 (3 : Fin 5) k j))
        (fun (k j : Fin 128) => V c (Pipeline.arrRef spec8 6) (ix3 (4 : Fin 5) k j))
        (fun (k j : Fin 128) => V c (Pipeline.arrRef spec8 7) (ix2 k j))
        (fun (j : Fin 128) => V c (Pipeline.arrRef spec8 8) (ix2 (0 : Fin 1) j)) (idx 0) (idx 1) :=
  val8_G V c

end Cert.KernelIdeal.Hand
-- ==== Proof.KI.Val9.lean ====
import proofs.«125545_j64845416235624_1_alg».proof.Proof.KI.D9
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 9 at the ideal values: the output array is the one-aggregate layer of the arrays the region finds

The body's payload is read at an index (two block products into zero accumulators, the bias row broadcast, the
rectifier); each input block is its array read at the point's rows; the row blocks tile the output array. -/

/-! ## The block product `[2000,128] ⬝ [128,128]` at an index -/

theorem lhs9_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs9_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs9_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs9_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm9_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs9_0 _ _
    | ⟨1, _⟩ => exact (lhs9_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs9_0 _ _).trans hk
    | ⟨1, _⟩ => exact rhs9_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay9_apply (x0 : Vec Ideal S2000x128 .f32) (x1 : Vec Ideal S128x128 .f32) (x2 : Vec Ideal S2000x128 .f32)
    (x3 : Vec Ideal S1x128x128 .f32) (x4 : Vec Ideal S1x128 .f32) (i : Fin 2000) (j : Fin 128) :
    k9_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k9_pay1
  simp only [maximumf_apply, addf_apply, broadcast_apply, mm9_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz9_2 : (![0, 0] : Fin 2 → Nat) = fun _ => 0 := funext fun a => by fin_cases a <;> rfl
theorem hz9_3 : (![0, 0, 0] : Fin 3 → Nat) = fun _ => 0 := funext fun a => by fin_cases a <;> rfl

/-- The layer's value as one function of the arrays the region finds, index by index. -/
abbrev G9 (c : Dev nD) : S20000x128.Idx → EReal := fun idx =>
  Cert.Spec.layer1K (fun (i : Fin 20000) (k : Fin 128) => V c (Pipeline.arrRef spec9 0) (ix2 i k))
    (fun (i : Fin 20000) (k : Fin 128) => V c (Pipeline.arrRef spec9 1) (ix2 i k))
    (fun (k j : Fin 128) => V c (Pipeline.arrRef spec9 2) (ix3 (0 : Fin 1) k j))
    (fun (k j : Fin 128) => V c (Pipeline.arrRef spec9 3) (ix2 k j))
    (fun (j : Fin 128) => V c (Pipeline.arrRef spec9 4) (ix2 (0 : Fin 1) j)) (idx 0) (idx 1)

/-- The printed index maps over the grid: the row-tiled windows move with the point, the weights and the bias stay. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 3) = 0 ∧ win9_2.index t (1 : Fin 3) = 0 ∧ win9_2.index t (2 : Fin 3) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Row `p` of point `t`'s row block, as a row of the array. -/
def row9 (t : Fin cfg9.N) (p : Fin 2000) : Fin 20000 :=
  ⟨2000 * t.val + p.val, by have ht := t.isLt; have hN : cfg9.N = 10 := N_9; have hp := p.isLt; omega⟩

/-- The aggregate's block at point `t` is the `2000` rows of its array from row `2000 t` on. -/
theorem iblk9_0_eq (c : Dev nD) (t : Fin cfg9.N) (p : Fin 2000) (k : Fin 128) :
    (iblk9 V c 0 t : Vec Ideal S2000x128 .f32) (ix2 p k) = (V c (Pipeline.arrRef spec9 0) : S20000x128.Idx → EReal) (ix2 (row9 t p) k) := by
  obtain ⟨e0, e1, -⟩ := idx_facts9 t
  unfold iblk9
  rw [View.read_apply]
  show V c (Pipeline.arrRef spec9 0) _ = V c (Pipeline.arrRef spec9 0) _
  refine congrArg (V c (Pipeline.arrRef spec9 0)) (funext fun a => Fin.ext ?_)
  match a with
  | ⟨0, _⟩ => show win9_0.index t (0 : Fin 2) * 2000 + 1 * p.val = 2000 * t.val + p.val; omega
  | ⟨1, _⟩ => show win9_0.index t (1 : Fin 2) * 128 + 1 * k.val = k.val; omega

/-- The destination features' block at point `t` is the same rows of its array. -/
theorem iblk9_1_eq (c : Dev nD) (t : Fin cfg9.N) (p : Fin 2000) (k : Fin 128) :
    (iblk9 V c 1 t : Vec Ideal S2000x128 .f32) (ix2 p k) = (V c (Pipeline.arrRef spec9 1) : S20000x128.Idx → EReal) (ix2 (row9 t p) k) := by
  obtain ⟨-, -, e0, e1, -⟩ := idx_facts9 t
  unfold iblk9
  rw [View.read_apply]
  show V c (Pipeline.arrRef spec9 1) _ = V c (Pipeline.arrRef spec9 1) _
  refine congrArg (V c (Pipeline.arrRef spec9 1)) (funext fun a => Fin.ext ?_)
  match a with
  | ⟨0, _⟩ => show win9_1.index t (0 : Fin 2) * 2000 + 1 * p.val = 2000 * t.val + p.val; omega
  | ⟨1, _⟩ => show win9_1.index t (1 : Fin 2) * 128 + 1 * k.val = k.val; omega

/-- The aggregate's weight block is its whole array. -/
theorem iblk9_2_eq (c : Dev nD) (t : Fin cfg9.N) (k j : Fin 128) :
    (iblk9 V c 2 t : Vec Ideal S1x128x128 .f32) (ix3 (0 : Fin 1) k j) = (V c (Pipeline.arrRef spec9 2) : S1x128x128.Idx → EReal) (ix3 (0 : Fin 1) k j) := by
  obtain ⟨-, -, -, -, e0, e1, e2, -⟩ := idx_facts9 t
  unfold iblk9
  rw [View.read_apply]
  show V c (Pipeline.arrRef spec9 2) _ = V c (Pipeline.arrRef spec9 2) _
  refine congrArg (V c (Pipeline.arrRef spec9 2)) (funext fun a => Fin.ext ?_)
  match a with
  | ⟨0, _⟩ => show win9_2.index t (0 : Fin 3) * 1 + 1 * 0 = 0; omega
  | ⟨1, _⟩ => show win9_2.index t (1 : Fin 3) * 128 + 1 * k.val = k.val; omega
  | ⟨2, _⟩ => show win9_2.index t (2 : Fin 3) * 128 + 1 * j.val = j.val; omega

/-- The destination weight block is its whole array. -/
theorem iblk9_3_eq (c : Dev nD) (t : Fin cfg9.N) (k j : Fin 128) :
    (iblk9 V c 3 t : Vec Ideal S128x128 .f32) (ix2 k j) = (V c (Pipeline.arrRef spec9 3) : S128x128.Idx → EReal) (ix2 k j) := by
  obtain ⟨-, -, -, -, -, -, -, e0, e1, -⟩ := idx_facts9 t
  unfold iblk9
  rw [View.read_apply]
  show V c (Pipeline.arrRef spec9 3) _ = V c (Pipeline.arrRef spec9 3) _
  refine congrArg (V c (Pipeline.arrRef spec9 3)) (funext fun a => Fin.ext ?_)
  match a with
  | ⟨0, _⟩ => show win9_3.index t (0 : Fin 2) * 128 + 1 * k.val = k.val; omega
  | ⟨1, _⟩ => show win9_3.index t (1 : Fin 2) * 128 + 1 * j.val = j.val; omega

/-- The bias block is its whole array. -/
theorem iblk9_4_eq (c : Dev nD) (t : Fin cfg9.N) (j : Fin 128) :
    (iblk9 V c 4 t : Vec Ideal S1x128 .f32) (ix2 (0 : Fin 1) j) = (V c (Pipeline.arrRef spec9 4) : S1x128.Idx → EReal) (ix2 (0 : Fin 1) j) := by
  obtain ⟨-, -, -, -, -, -, -, -, -, e0, e1, -⟩ := idx_facts9 t
  unfold iblk9
  rw [View.read_apply]
  show V c (Pipeline.arrRef spec9 4) _ = V c (Pipeline.arrRef spec9 4) _
  refine congrArg (V c (Pipeline.arrRef spec9 4)) (funext fun a => Fin.ext ?_)
  match a with
  | ⟨0, _⟩ => show win9_4.index t (0 : Fin 2) * 1 + 1 * 0 = 0; omega
  | ⟨1, _⟩ => show win9_4.index t (1 : Fin 2) * 128 + 1 * j.val = j.val; omega

/-- Where the output's block at point `t` puts its entry `(p, q)`: row `2000 t + p`, column `q`. -/
theorem emb9_5 (t : Fin cfg9.N) (p : Fin 2000) (q : Fin 128) :
    ((cfg9.win 5).blk t).view.emb (ix2 p q) = (ix2 (row9 t p) q : S20000x128.Idx) := by
  obtain ⟨-, -, -, -, -, -, -, -, -, -, -, e0, e1⟩ := idx_facts9 t
  refine funext fun a => Fin.ext ?_
  match a with
  | ⟨0, _⟩ => show win9_5.index t (0 : Fin 2) * 2000 + 1 * p.val = 2000 * t.val + p.val; omega
  | ⟨1, _⟩ => show win9_5.index t (1 : Fin 2) * 128 + 1 * q.val = q.val; omega

/-- What point `t` writes back is block `t` of the layer's value. -/
theorem flushed9_eq (c : Dev nD) (t : Fin cfg9.N) :
    (dat9 (F := Ideal) V c).flushed 5 t = ((cfg9.win 5).blk t).view.read (Elt Ideal) (G9 V c) := by
  show (cfg9.win 5).cut (grid9.coords t) ((dat9 V c).after 5 t) = _
  rw [after9_5]
  unfold out9
  rw [View.canon_unit_zero hz9_2]
  simp only [View.ld_unit_zero (S := S2000x128) hz9_2, View.ld_unit_zero (S := S128x128) hz9_2, View.ld_unit_zero (S := S1x128x128) hz9_3, View.ld_unit_zero (S := S1x128) hz9_2]
  funext y
  obtain ⟨p, q, rfl⟩ : ∃ (p : Fin 2000) (q : Fin 128), y = ix2 p q := ⟨y 0, y 1, eq_ix2 y⟩
  show k9_pay1 (F := Ideal) (iblk9 V c 1 t) (iblk9 V c 3 t) (iblk9 V c 0 t) (iblk9 V c 2 t) (iblk9 V c 4 t) (ix2 p q) = G9 V c (((cfg9.win 5).blk t).view.emb (ix2 p q))
  refine (pay9_apply _ _ _ _ _ p q).trans ?_
  rw [emb9_5 t p q]
  simp only [iblk9_0_eq, iblk9_1_eq, iblk9_2_eq, iblk9_3_eq, iblk9_4_eq]
  rfl

/-- An index of the output array is in point `t`'s block iff each coordinate is in the block's range on its axis. -/
theorem mem_blk9 (t : Fin cfg9.N) (i : S20000x128.Idx) :
    i ∈ ((cfg9.win 5).blk t).view.set ↔ ∀ a : Fin 2, win9_5.index t a * S2000x128.size a ≤ (i a).val ∧ (i a).val < win9_5.index t a * S2000x128.size a + S2000x128.size a := by
  show i ∈ ((View.whole main_v800).slice (win9_5.rect t)).set ↔ _
  rw [View.set_slice_whole, Rect.mem_set_unit]
  exact Iff.rfl

/-- THE OUTPUT ARRAY after the region: the one-aggregate layer of the arrays the region finds (the point that covers
    row `r` is `r / 2000`). -/
theorem val9 (c : Dev nD) :
    (dat9 (F := Ideal) V c).arrAt 5 cfg9.N = fun idx =>
      Cert.Spec.layer1K (fun (i : Fin 20000) (k : Fin 128) => V c (Pipeline.arrRef spec9 0) (ix2 i k))
        (fun (i : Fin 20000) (k : Fin 128) => V c (Pipeline.arrRef spec9 1) (ix2 i k))
        (fun (k j : Fin 128) => V c (Pipeline.arrRef spec9 2) (ix3 (0 : Fin 1) k j))
        (fun (k j : Fin 128) => V c (Pipeline.arrRef spec9 3) (ix2 k j))
        (fun (j : Fin 128) => V c (Pipeline.arrRef spec9 4) (ix2 (0 : Fin 1) j)) (idx 0) (idx 1) :=
  (dat9 V c).arrAt_eq_of_cover 5 (G9 V c) (fun t _ => flushed9_eq V c t) fun i => by
    have hi0 : (i 0).val < 20000 := (i 0).isLt
    have hi1 : (i 1).val < 128 := (i 1).isLt
    have hN : cfg9.N = 10 := N_9
    let t : Fin cfg9.N := ⟨(i 0).val / 2000, by rw [hN]; omega⟩
    have ht : t.val = (i 0).val / 2000 := rfl
    obtain ⟨-, -, -, -, -, -, -, -, -, -, -, e0, e1⟩ := idx_facts9 t
    refine ⟨t, flush9_5 t, ?_⟩
    rw [mem_blk9]
    intro a
    match a with
    | ⟨0, _⟩ => show win9_5.index t (0 : Fin 2) * 2000 ≤ (i 0).val ∧ (i 0).val < win9_5.index t (0 : Fin 2) * 2000 + 2000; omega
    | ⟨1, _⟩ => show win9_5.index t (1 : Fin 2) * 128 ≤ (i 1).val ∧ (i 1).val < win9_5.index t (1 : Fin 2) * 128 + 128; omega

end Cert.KernelIdeal.Hand
-- ==== Proof.KI.Val10.lean ====
import proofs.«125545_j64845416235624_1_alg».proof.Proof.KI.D10
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 10 at the ideal values: the output array is the one-aggregate layer of the arrays the region finds

The body's payload is read at an index (two block products into zero accumulators, the bias row broadcast, the
rectifier); each input block is its array read at the point's rows; the row blocks tile the output array. -/

/-! ## The block product `[2000,128] ⬝ [128,128]` at an index -/

theorem lhs10_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs10_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs10_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs10_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm10_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs10_0 _ _
    | ⟨1, _⟩ => exact (lhs10_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs10_0 _ _).trans hk
    | ⟨1, _⟩ => exact rhs10_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay10_apply (x0 : Vec Ideal S2000x128 .f32) (x1 : Vec Ideal S128x128 .f32) (x2 : Vec Ideal S2000x128 .f32)
    (x3 : Vec Ideal S1x128x128 .f32) (x4 : Vec Ideal S1x128 .f32) (i : Fin 2000) (j : Fin 128) :
    k10_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k10_pay1
  simp only [maximumf_apply, addf_apply, broadcast_apply, mm10_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz10_2 : (![0, 0] : Fin 2 → Nat) = fun _ => 0 := funext fun a => by fin_cases a <;> rfl
theorem hz10_3 : (![0, 0, 0] : Fin 3 → Nat) = fun _ => 0 := funext fun a => by fin_cases a <;> rfl

/-- The layer's value as one function of the arrays the region finds, index by index. -/
abbrev G10 (c : Dev nD) : S50000x128.Idx → EReal := fun idx =>
  Cert.Spec.layer1K (fun (i : Fin 50000) (k : Fin 128) => V c (Pipeline.arrRef spec10 0) (ix2 i k))
    (fun (i : Fin 50000) (k : Fin 128) => V c (Pipeline.arrRef spec10 1) (ix2 i k))
    (fun (k j : Fin 128) => V c (Pipeline.arrRef spec10 2) (ix3 (0 : Fin 1) k j))
    (fun (k j : Fin 128) => V c (Pipeline.arrRef spec10 3) (ix2 k j))
    (fun (j : Fin 128) => V c (Pipeline.arrRef spec10 4) (ix2 (0 : Fin 1) j)) (idx 0) (idx 1)

/-- The printed index maps over the grid: the row-tiled windows move with the point, the weights and the bias stay. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 3) = 0 ∧ win10_2.index t (1 : Fin 3) = 0 ∧ win10_2.index t (2 : Fin 3) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Row `p` of point `t`'s row block, as a row of the array. -/
def row10 (t : Fin cfg10.N) (p : Fin 2000) : Fin 50000 :=
  ⟨2000 * t.val + p.val, by have ht := t.isLt; have hN : cfg10.N = 25 := N_10; have hp := p.isLt; omega⟩

/-- The aggregate's block at point `t` is the `2000` rows of its array from row `2000 t` on. -/
theorem iblk10_0_eq (c : Dev nD) (t : Fin cfg10.N) (p : Fin 2000) (k : Fin 128) :
    (iblk10 V c 0 t : Vec Ideal S2000x128 .f32) (ix2 p k) = (V c (Pipeline.arrRef spec10 0) : S50000x128.Idx → EReal) (ix2 (row10 t p) k) := by
  obtain ⟨e0, e1, -⟩ := idx_facts10 t
  unfold iblk10
  rw [View.read_apply]
  show V c (Pipeline.arrRef spec10 0) _ = V c (Pipeline.arrRef spec10 0) _
  refine congrArg (V c (Pipeline.arrRef spec10 0)) (funext fun a => Fin.ext ?_)
  match a with
  | ⟨0, _⟩ => show win10_0.index t (0 : Fin 2) * 2000 + 1 * p.val = 2000 * t.val + p.val; omega
  | ⟨1, _⟩ => show win10_0.index t (1 : Fin 2) * 128 + 1 * k.val = k.val; omega

/-- The destination features' block at point `t` is the same rows of its array. -/
theorem iblk10_1_eq (c : Dev nD) (t : Fin cfg10.N) (p : Fin 2000) (k : Fin 128) :
    (iblk10 V c 1 t : Vec Ideal S2000x128 .f32) (ix2 p k) = (V c (Pipeline.arrRef spec10 1) : S50000x128.Idx → EReal) (ix2 (row10 t p) k) := by
  obtain ⟨-, -, e0, e1, -⟩ := idx_facts10 t
  unfold iblk10
  rw [View.read_apply]
  show V c (Pipeline.arrRef spec10 1) _ = V c (Pipeline.arrRef spec10 1) _
  refine congrArg (V c (Pipeline.arrRef spec10 1)) (funext fun a => Fin.ext ?_)
  match a with
  | ⟨0, _⟩ => show win10_1.index t (0 : Fin 2) * 2000 + 1 * p.val = 2000 * t.val + p.val; omega
  | ⟨1, _⟩ => show win10_1.index t (1 : Fin 2) * 128 + 1 * k.val = k.val; omega

/-- The aggregate's weight block is its whole array. -/
theorem iblk10_2_eq (c : Dev nD) (t : Fin cfg10.N) (k j : Fin 128) :
    (iblk10 V c 2 t : Vec Ideal S1x128x128 .f32) (ix3 (0 : Fin 1) k j) = (V c (Pipeline.arrRef spec10 2) : S1x128x128.Idx → EReal) (ix3 (0 : Fin 1) k j) := by
  obtain ⟨-, -, -, -, e0, e1, e2, -⟩ := idx_facts10 t
  unfold iblk10
  rw [View.read_apply]
  show V c (Pipeline.arrRef spec10 2) _ = V c (Pipeline.arrRef spec10 2) _
  refine congrArg (V c (Pipeline.arrRef spec10 2)) (funext fun a => Fin.ext ?_)
  match a with
  | ⟨0, _⟩ => show win10_2.index t (0 : Fin 3) * 1 + 1 * 0 = 0; omega
  | ⟨1, _⟩ => show win10_2.index t (1 : Fin 3) * 128 + 1 * k.val = k.val; omega
  | ⟨2, _⟩ => show win10_2.index t (2 : Fin 3) * 128 + 1 * j.val = j.val; omega

/-- The destination weight block is its whole array. -/
theorem iblk10_3_eq (c : Dev nD) (t : Fin cfg10.N) (k j : Fin 128) :
    (iblk10 V c 3 t : Vec Ideal S128x128 .f32) (ix2 k j) = (V c (Pipeline.arrRef spec10 3) : S128x128.Idx → EReal) (ix2 k j) := by
  obtain ⟨-, -, -, -, -, -, -, e0, e1, -⟩ := idx_facts10 t
  unfold iblk10
  rw [View.read_apply]
  show V c (Pipeline.arrRef spec10 3) _ = V c (Pipeline.arrRef spec10 3) _
  refine congrArg (V c (Pipeline.arrRef spec10 3)) (funext fun a => Fin.ext ?_)
  match a with
  | ⟨0, _⟩ => show win10_3.index t (0 : Fin 2) * 128 + 1 * k.val = k.val; omega
  | ⟨1, _⟩ => show win10_3.index t (1 : Fin 2) * 128 + 1 * j.val = j.val; omega

/-- The bias block is its whole array. -/
theorem iblk10_4_eq (c : Dev nD) (t : Fin cfg10.N) (j : Fin 128) :
    (iblk10 V c 4 t : Vec Ideal S1x128 .f32) (ix2 (0 : Fin 1) j) = (V c (Pipeline.arrRef spec10 4) : S1x128.Idx → EReal) (ix2 (0 : Fin 1) j) := by
  obtain ⟨-, -, -, -, -, -, -, -, -, e0, e1, -⟩ := idx_facts10 t
  unfold iblk10
  rw [View.read_apply]
  show V c (Pipeline.arrRef spec10 4) _ = V c (Pipeline.arrRef spec10 4) _
  refine congrArg (V c (Pipeline.arrRef spec10 4)) (funext fun a => Fin.ext ?_)
  match a with
  | ⟨0, _⟩ => show win10_4.index t (0 : Fin 2) * 1 + 1 * 0 = 0; omega
  | ⟨1, _⟩ => show win10_4.index t (1 : Fin 2) * 128 + 1 * j.val = j.val; omega

/-- Where the output's block at point `t` puts its entry `(p, q)`: row `2000 t + p`, column `q`. -/
theorem emb10_5 (t : Fin cfg10.N) (p : Fin 2000) (q : Fin 128) :
    ((cfg10.win 5).blk t).view.emb (ix2 p q) = (ix2 (row10 t p) q : S50000x128.Idx) := by
  obtain ⟨-, -, -, -, -, -, -, -, -, -, -, e0, e1⟩ := idx_facts10 t
  refine funext fun a => Fin.ext ?_
  match a with
  | ⟨0, _⟩ => show win10_5.index t (0 : Fin 2) * 2000 + 1 * p.val = 2000 * t.val + p.val; omega
  | ⟨1, _⟩ => show win10_5.index t (1 : Fin 2) * 128 + 1 * q.val = q.val; omega

/-- What point `t` writes back is block `t` of the layer's value. -/
theorem flushed10_eq (c : Dev nD) (t : Fin cfg10.N) :
    (dat10 (F := Ideal) V c).flushed 5 t = ((cfg10.win 5).blk t).view.read (Elt Ideal) (G10 V c) := by
  show (cfg10.win 5).cut (grid10.coords t) ((dat10 V c).after 5 t) = _
  rw [after10_5]
  unfold out10
  rw [View.canon_unit_zero hz10_2]
  simp only [View.ld_unit_zero (S := S2000x128) hz10_2, View.ld_unit_zero (S := S128x128) hz10_2, View.ld_unit_zero (S := S1x128x128) hz10_3, View.ld_unit_zero (S := S1x128) hz10_2]
  funext y
  obtain ⟨p, q, rfl⟩ : ∃ (p : Fin 2000) (q : Fin 128), y = ix2 p q := ⟨y 0, y 1, eq_ix2 y⟩
  show k10_pay1 (F := Ideal) (iblk10 V c 1 t) (iblk10 V c 3 t) (iblk10 V c 0 t) (iblk10 V c 2 t) (iblk10 V c 4 t) (ix2 p q) = G10 V c (((cfg10.win 5).blk t).view.emb (ix2 p q))
  refine (pay10_apply _ _ _ _ _ p q).trans ?_
  rw [emb10_5 t p q]
  simp only [iblk10_0_eq, iblk10_1_eq, iblk10_2_eq, iblk10_3_eq, iblk10_4_eq]
  rfl

/-- An index of the output array is in point `t`'s block iff each coordinate is in the block's range on its axis. -/
theorem mem_blk10 (t : Fin cfg10.N) (i : S50000x128.Idx) :
    i ∈ ((cfg10.win 5).blk t).view.set ↔ ∀ a : Fin 2, win10_5.index t a * S2000x128.size a ≤ (i a).val ∧ (i a).val < win10_5.index t a * S2000x128.size a + S2000x128.size a := by
  show i ∈ ((View.whole main_v809).slice (win10_5.rect t)).set ↔ _
  rw [View.set_slice_whole, Rect.mem_set_unit]
  exact Iff.rfl

/-- THE OUTPUT ARRAY after the region: the one-aggregate layer of the arrays the region finds (the point that covers
    row `r` is `r / 2000`). -/
theorem val10 (c : Dev nD) :
    (dat10 (F := Ideal) V c).arrAt 5 cfg10.N = fun idx =>
      Cert.Spec.layer1K (fun (i : Fin 50000) (k : Fin 128) => V c (Pipeline.arrRef spec10 0) (ix2 i k))
        (fun (i : Fin 50000) (k : Fin 128) => V c (Pipeline.arrRef spec10 1) (ix2 i k))
        (fun (k j : Fin 128) => V c (Pipeline.arrRef spec10 2) (ix3 (0 : Fin 1) k j))
        (fun (k j : Fin 128) => V c (Pipeline.arrRef spec10 3) (ix2 k j))
        (fun (j : Fin 128) => V c (Pipeline.arrRef spec10 4) (ix2 (0 : Fin 1) j)) (idx 0) (idx 1) :=
  (dat10 V c).arrAt_eq_of_cover 5 (G10 V c) (fun t _ => flushed10_eq V c t) fun i => by
    have hi0 : (i 0).val < 50000 := (i 0).isLt
    have hi1 : (i 1).val < 128 := (i 1).isLt
    have hN : cfg10.N = 25 := N_10
    let t : Fin cfg10.N := ⟨(i 0).val / 2000, by rw [hN]; omega⟩
    have ht : t.val = (i 0).val / 2000 := rfl
    obtain ⟨-, -, -, -, -, -, -, -, -, -, -, e0, e1⟩ := idx_facts10 t
    refine ⟨t, flush10_5 t, ?_⟩
    rw [mem_blk10]
    intro a
    match a with
    | ⟨0, _⟩ => show win10_5.index t (0 : Fin 2) * 2000 ≤ (i 0).val ∧ (i 0).val < win10_5.index t (0 : Fin 2) * 2000 + 2000; omega
    | ⟨1, _⟩ => show win10_5.index t (1 : Fin 2) * 128 ≤ (i 1).val ∧ (i 1).val < win10_5.index t (1 : Fin 2) * 128 + 128; omega

end Cert.KernelIdeal.Hand
-- ==== Proof.KI.Val11.lean ====
import proofs.«125545_j64845416235624_1_alg».proof.Proof.KI.D11
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 11 at the ideal values: the output array is the one-aggregate layer of the arrays the region finds

The body's payload is read at an index (two block products into zero accumulators, the bias row broadcast, the
rectifier); each input block is its array read at the point's rows; the row blocks tile the output array. -/

/-! ## The block product `[5000,128] ⬝ [128,128]` at an index -/

theorem lhs11_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs11_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs11_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs11_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at row `i` and column `j`: the sum over the contracted axis. -/
theorem mm11_apply (l : FVec Ideal S5000x128 .bf16) (r : FVec Ideal S128x128 .bf16) (i : Fin 5000) (j : Fin 128) :
    matmul dot_S5000x128_S128x128_S5000x128_1_0_0_1_n_n none l r (constant (F := Ideal) S5000x128 .f32 0x00000000#32) (ix2 i j)
      = ∑ k : Fin 128, l (ix2 i k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 i j) ((contrEquiv1 dot_S5000x128_S128x128_S5000x128_1_0_0_1_n_n 128 rfl rfl).symm k) = ix2 i k := funext fun a => Fin.ext (by
    match a with
    | ⟨0, _⟩ => exact lhs11_0 _ _
    | ⟨1, _⟩ => exact (lhs11_1 _ _).trans hk)
  have er : dot_S5000x128_S128x128_S5000x128_1_0_0_1_n_n.rhsIdx (ix2 i j) ((contrEquiv1 dot_S5000x128_S128x128_S5000x128_1_0_0_1_n_n 128 rfl rfl).symm k) = ix2 k j := funext fun a => Fin.ext (by
    match a with
    | ⟨0, _⟩ => exact (rhs11_0 _ _).trans hk
    | ⟨1, _⟩ => exact rhs11_1 _ _)
  rw [el, er]

/-! ## The payload at an index -/

/-- What the body stores, at row `i` and column `j` of the block, from the loaded blocks in the order the body
    loads them: destination rows, destination weight, aggregate rows, aggregate weight, bias row. The roundings
    to `bf16` are the identity at the ideal values. -/
theorem pay11_apply (x0 : Vec Ideal S5000x128 .f32) (x1 : Vec Ideal S128x128 .f32) (x2 : Vec Ideal S5000x128 .f32)
    (x3 : Vec Ideal S1x128x128 .f32) (x4 : Vec Ideal S1x128 .f32) (i : Fin 5000) (j : Fin 128) :
    k11_pay1 (F := Ideal) x0 x1 x2 x3 x4 (ix2 i j)
      = max (((∑ k : Fin 128, x0 (ix2 i k) * x1 (ix2 k j)) + ∑ k : Fin 128, x2 (ix2 i k) * x3 (ix3 (0 : Fin 1) k j)) + x4 (ix2 (0 : Fin 1) j)) 0 := by
  unfold k11_pay1
  simp only [maximumf_apply, addf_apply, broadcast_apply, mm11_apply, truncf_apply, shapeCast_self,
    shapeCast_1ab_ab_apply, broadcastTo_1b_ab_apply]
  exact congrArg (max _) Ideal.ofBits_zero_f32

/-! ## From blocks to the array -/

variable (V : (c : Dev nD) → (b : Ref sig .tc) → Buf (Elt Ideal) ((c : Thread nD τ).loc b))

theorem hz11_2 : (![0, 0] : Fin 2 → Nat) = fun _ => 0 := funext fun a => by fin_cases a <;> rfl
theorem hz11_3 : (![0, 0, 0] : Fin 3 → Nat) = fun _ => 0 := funext fun a => by fin_cases a <;> rfl

/-- The layer's value as one function of the arrays the region finds, index by index. -/
abbrev G11 (c : Dev nD) : S5000x128.Idx → EReal := fun idx =>
  Cert.Spec.layer1K (fun (i : Fin 5000) (k : Fin 128) => V c (Pipeline.arrRef spec11 0) (ix2 i k))
    (fun (i : Fin 5000) (k : Fin 128) => V c (Pipeline.arrRef spec11 1) (ix2 i k))
    (fun (k j : Fin 128) => V c (Pipeline.arrRef spec11 2) (ix3 (0 : Fin 1) k j))
    (fun (k j : Fin 128) => V c (Pipeline.arrRef spec11 3) (ix2 k j))
    (fun (j : Fin 128) => V c (Pipeline.arrRef spec11 4) (ix2 (0 : Fin 1) j)) (idx 0) (idx 1)

/-- The printed index maps over the grid: the row-tiled windows move with the point, the weights and the bias stay. -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 3) = 0 ∧ win11_2.index t (1 : Fin 3) = 0 ∧ win11_2.index t (2 : Fin 3) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Row `p` of point `t`'s row block, as a row of the array. -/
def row11 (t : Fin cfg11.N) (p : Fin 5000) : Fin 5000 :=
  ⟨5000 * t.val + p.val, by have ht := t.isLt; have hN : cfg11.N = 1 := N_11; have hp := p.isLt; omega⟩

/-- The aggregate's block at point `t` is the `5000` rows of its array from row `5000 t` on. -/
theorem iblk11_0_eq (c : Dev nD) (t : Fin cfg11.N) (p : Fin 5000) (k : Fin 128) :
    (iblk11 V c 0 t : Vec Ideal S5000x128 .f32) (ix2 p k) = (V c (Pipeline.arrRef spec11 0) : S5000x128.Idx → EReal) (ix2 (row11 t p) k) := by
  obtain ⟨e0, e1, -⟩ := idx_facts11 t
  unfold iblk11
  rw [View.read_apply]
  show V c (Pipeline.arrRef spec11 0) _ = V c (Pipeline.arrRef spec11 0) _
  refine congrArg (V c (Pipeline.arrRef spec11 0)) (funext fun a => Fin.ext ?_)
  match a with
  | ⟨0, _⟩ => show win11_0.index t (0 : Fin 2) * 5000 + 1 * p.val = 5000 * t.val + p.val; omega
  | ⟨1, _⟩ => show win11_0.index t (1 : Fin 2) * 128 + 1 * k.val = k.val; omega

/-- The destination features' block at point `t` is the same rows of its array. -/
theorem iblk11_1_eq (c : Dev nD) (t : Fin cfg11.N) (p : Fin 5000) (k : Fin 128) :
    (iblk11 V c 1 t : Vec Ideal S5000x128 .f32) (ix2 p k) = (V c (Pipeline.arrRef spec11 1) : S5000x128.Idx → EReal) (ix2 (row11 t p) k) := by
  obtain ⟨-, -, e0, e1, -⟩ := idx_facts11 t
  unfold iblk11
  rw [View.read_apply]
  show V c (Pipeline.arrRef spec11 1) _ = V c (Pipeline.arrRef spec11 1) _
  refine congrArg (V c (Pipeline.arrRef spec11 1)) (funext fun a => Fin.ext ?_)
  match a with
  | ⟨0, _⟩ => show win11_1.index t (0 : Fin 2) * 5000 + 1 * p.val = 5000 * t.val + p.val; omega
  | ⟨1, _⟩ => show win11_1.index t (1 : Fin 2) * 128 + 1 * k.val = k.val; omega

/-- The aggregate's weight block is its whole array. -/
theorem iblk11_2_eq (c : Dev nD) (t : Fin cfg11.N) (k j : Fin 128) :
    (iblk11 V c 2 t : Vec Ideal S1x128x128 .f32) (ix3 (0 : Fin 1) k j) = (V c (Pipeline.arrRef spec11 2) : S1x128x128.Idx → EReal) (ix3 (0 : Fin 1) k j) := by
  obtain ⟨-, -, -, -, e0, e1, e2, -⟩ := idx_facts11 t
  unfold iblk11
  rw [View.read_apply]
  show V c (Pipeline.arrRef spec11 2) _ = V c (Pipeline.arrRef spec11 2) _
  refine congrArg (V c (Pipeline.arrRef spec11 2)) (funext fun a => Fin.ext ?_)
  match a with
  | ⟨0, _⟩ => show win11_2.index t (0 : Fin 3) * 1 + 1 * 0 = 0; omega
  | ⟨1, _⟩ => show win11_2.index t (1 : Fin 3) * 128 + 1 * k.val = k.val; omega
  | ⟨2, _⟩ => show win11_2.index t (2 : Fin 3) * 128 + 1 * j.val = j.val; omega

/-- The destination weight block is its whole array. -/
theorem iblk11_3_eq (c : Dev nD) (t : Fin cfg11.N) (k j : Fin 128) :
    (iblk11 V c 3 t : Vec Ideal S128x128 .f32) (ix2 k j) = (V c (Pipeline.arrRef spec11 3) : S128x128.Idx → EReal) (ix2 k j) := by
  obtain ⟨-, -, -, -, -, -, -, e0, e1, -⟩ := idx_facts11 t
  unfold iblk11
  rw [View.read_apply]
  show V c (Pipeline.arrRef spec11 3) _ = V c (Pipeline.arrRef spec11 3) _
  refine congrArg (V c (Pipeline.arrRef spec11 3)) (funext fun a => Fin.ext ?_)
  match a with
  | ⟨0, _⟩ => show win11_3.index t (0 : Fin 2) * 128 + 1 * k.val = k.val; omega
  | ⟨1, _⟩ => show win11_3.index t (1 : Fin 2) * 128 + 1 * j.val = j.val; omega

/-- The bias block is its whole array. -/
theorem iblk11_4_eq (c : Dev nD) (t : Fin cfg11.N) (j : Fin 128) :
    (iblk11 V c 4 t : Vec Ideal S1x128 .f32) (ix2 (0 : Fin 1) j) = (V c (Pipeline.arrRef spec11 4) : S1x128.Idx → EReal) (ix2 (0 : Fin 1) j) := by
  obtain ⟨-, -, -, -, -, -, -, -, -, e0, e1, -⟩ := idx_facts11 t
  unfold iblk11
  rw [View.read_apply]
  show V c (Pipeline.arrRef spec11 4) _ = V c (Pipeline.arrRef spec11 4) _
  refine congrArg (V c (Pipeline.arrRef spec11 4)) (funext fun a => Fin.ext ?_)
  match a with
  | ⟨0, _⟩ => show win11_4.index t (0 : Fin 2) * 1 + 1 * 0 = 0; omega
  | ⟨1, _⟩ => show win11_4.index t (1 : Fin 2) * 128 + 1 * j.val = j.val; omega

/-- Where the output's block at point `t` puts its entry `(p, q)`: row `5000 t + p`, column `q`. -/
theorem emb11_5 (t : Fin cfg11.N) (p : Fin 5000) (q : Fin 128) :
    ((cfg11.win 5).blk t).view.emb (ix2 p q) = (ix2 (row11 t p) q : S5000x128.Idx) := by
  obtain ⟨-, -, -, -, -, -, -, -, -, -, -, e0, e1⟩ := idx_facts11 t
  refine funext fun a => Fin.ext ?_
  match a with
  | ⟨0, _⟩ => show win11_5.index t (0 : Fin 2) * 5000 + 1 * p.val = 5000 * t.val + p.val; omega
  | ⟨1, _⟩ => show win11_5.index t (1 : Fin 2) * 128 + 1 * q.val = q.val; omega

/-- What point `t` writes back is block `t` of the layer's value. -/
theorem flushed11_eq (c : Dev nD) (t : Fin cfg11.N) :
    (dat11 (F := Ideal) V c).flushed 5 t = ((cfg11.win 5).blk t).view.read (Elt Ideal) (G11 V c) := by
  show (cfg11.win 5).cut (grid11.coords t) ((dat11 V c).after 5 t) = _
  rw [after11_5]
  unfold out11
  rw [View.canon_unit_zero hz11_2]
  simp only [View.ld_unit_zero (S := S5000x128) hz11_2, View.ld_unit_zero (S := S128x128) hz11_2, View.ld_unit_zero (S := S1x128x128) hz11_3, View.ld_unit_zero (S := S1x128) hz11_2]
  funext y
  obtain ⟨p, q, rfl⟩ : ∃ (p : Fin 5000) (q : Fin 128), y = ix2 p q := ⟨y 0, y 1, eq_ix2 y⟩
  show k11_pay1 (F := Ideal) (iblk11 V c 1 t) (iblk11 V c 3 t) (iblk11 V c 0 t) (iblk11 V c 2 t) (iblk11 V c 4 t) (ix2 p q) = G11 V c (((cfg11.win 5).blk t).view.emb (ix2 p q))
  refine (pay11_apply _ _ _ _ _ p q).trans ?_
  rw [emb11_5 t p q]
  simp only [iblk11_0_eq, iblk11_1_eq, iblk11_2_eq, iblk11_3_eq, iblk11_4_eq]
  rfl

/-- An index of the output array is in point `t`'s block iff each coordinate is in the block's range on its axis. -/
theorem mem_blk11 (t : Fin cfg11.N) (i : S5000x128.Idx) :
    i ∈ ((cfg11.win 5).blk t).view.set ↔ ∀ a : Fin 2, win11_5.index t a * S5000x128.size a ≤ (i a).val ∧ (i a).val < win11_5.index t a * S5000x128.size a + S5000x128.size a := by
  show i ∈ ((View.whole main_v818).slice (win11_5.rect t)).set ↔ _
  rw [View.set_slice_whole, Rect.mem_set_unit]
  exact Iff.rfl

/-- THE OUTPUT ARRAY after the region: the one-aggregate layer of the arrays the region finds (the point that covers
    row `r` is `r / 5000`). -/
theorem val11 (c : Dev nD) :
    (dat11 (F := Ideal) V c).arrAt 5 cfg11.N = fun idx =>
      Cert.Spec.layer1K (fun (i : Fin 5000) (k : Fin 128) => V c (Pipeline.arrRef spec11 0) (ix2 i k))
        (fun (i : Fin 5000) (k : Fin 128) => V c (Pipeline.arrRef spec11 1) (ix2 i k))
        (fun (k j : Fin 128) => V c (Pipeline.arrRef spec11 2) (ix3 (0 : Fin 1) k j))
        (fun (k j : Fin 128) => V c (Pipeline.arrRef spec11 3) (ix2 k j))
        (fun (j : Fin 128) => V c (Pipeline.arrRef spec11 4) (ix2 (0 : Fin 1) j)) (idx 0) (idx 1) :=
  (dat11 V c).arrAt_eq_of_cover 5 (G11 V c) (fun t _ => flushed11_eq V c t) fun i => by
    have hi0 : (i 0).val < 5000 := (i 0).isLt
    have hi1 : (i 1).val < 128 := (i 1).isLt
    have hN : cfg11.N = 1 := N_11
    let t : Fin cfg11.N := ⟨(i 0).val / 5000, by rw [hN]; omega⟩
    have ht : t.val = (i 0).val / 5000 := rfl
    obtain ⟨-, -, -, -, -, -, -, -, -, -, -, e0, e1⟩ := idx_facts11 t
    refine ⟨t, flush11_5 t, ?_⟩
    rw [mem_blk11]
    intro a
    match a with
    | ⟨0, _⟩ => show win11_5.index t (0 : Fin 2) * 5000 ≤ (i 0).val ∧ (i 0).val < win11_5.index t (0 : Fin 2) * 5000 + 5000; omega
    | ⟨1, _⟩ => show win11_5.index t (1 : Fin 2) * 128 ≤ (i 1).val ∧ (i 1).val < win11_5.index t (1 : Fin 2) * 128 + 128; omega

end Cert.KernelIdeal.Hand
-- ==== Proof.KI.Val12.lean ====
import proofs.«125545_j64845416235624_1_alg».proof.Proof.KI.D12
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 12 at the ideal values: the output array is the two-layer perceptron of the arrays the region finds

The body's payload is read at an index (a block product, the first bias row broadcast, the rectifier, a second
block product, the second bias row broadcast); the features' block is its array read at the point's rows, the
weights and biases are whole; the row blocks tile the output array. -/

/-! ## The block product `[2000,128] ⬝ [128,128]` at an index -/

theorem lhs12_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs12_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs12_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs12_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm12_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs12_0 _ _
    | ⟨1, _⟩ => exact (lhs12_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs12_0 _ _).trans hk
    | ⟨1, _⟩ => exact rhs12_1 _ _)
  rw [el, er]

/-! ## The block product `[2000,128] ⬝ [128,2]` at an index -/

theorem lhsb12_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhsb12_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhsb12_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhsb12_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The product into the zero accumulator, at row `i` and column `o`: the sum over the contracted axis. -/
theorem mmb12_apply (l : FVec Ideal S2000x128 .bf16) (r : FVec Ideal S128x2 .bf16) (i : Fin 2000) (o : Fin 2) :
    matmul dot_S2000x128_S128x2_S2000x2_1_0_0_1_n_n none l r (constant (F := Ideal) S2000x2 .f32 0x00000000#32) (ix2 i o)
      = ∑ h : Fin 128, l (ix2 i h) * r (ix2 h o) := by
  simp only [matmul]
  rw [Ideal.matmul_constant_zero_apply, ← Equiv.sum_comp (contrEquiv1 dot_S2000x128_S128x2_S2000x2_1_0_0_1_n_n 128 rfl rfl).symm]
  refine Finset.sum_congr rfl fun h _ => ?_
  have hk := contrEquiv1_symm_val dot_S2000x128_S128x2_S2000x2_1_0_0_1_n_n 128 rfl rfl h
  have el : dot_S2000x128_S128x2_S2000x2_1_0_0_1_n_n.lhsIdx (ix2 i o) ((contrEquiv1 dot_S2000x128_S128x2_S2000x2_1_0_0_1_n_n 128 rfl rfl).symm h) = ix2 i h := funext fun a => Fin.ext (by
    match a with
    | ⟨0, _⟩ => exact lhsb12_0 _ _
    | ⟨1, _⟩ => exact (lhsb12_1 _ _).trans hk)
  have er : dot_S2000x128_S128x2_S2000x2_1_0_0_1_n_n.rhsIdx (ix2 i o) ((contrEquiv1 dot_S2000x128_S128x2_S2000x2_1_0_0_1_n_n 128 rfl rfl).symm h) = ix2 h o := funext fun a => Fin.ext (by
    match a with
    | ⟨0, _⟩ => exact (rhsb12_0 _ _).trans hk
    | ⟨1, _⟩ => exact rhsb12_1 _ _)
  rw [el, er]

/-! ## The payload at an index -/

/-- What the body stores, at row `i` and column `o` of the block, from the loaded blocks in the body's order:
    feature rows, first weights, first bias row, second weights, second bias row. The roundings to `bf16` are the
    identity at the ideal values. -/
theorem pay12_apply (x0 : Vec Ideal S2000x128 .f32) (x1 : Vec Ideal S128x128 .f32) (x2 : Vec Ideal S1x128 .f32)
    (x3 : Vec Ideal S128x2 .f32) (x4 : Vec Ideal S1x2 .f32) (i : Fin 2000) (o : Fin 2) :
    k12_pay1 (F := Ideal) x0 x1 x2 x3 x4 (ix2 i o)
      = (∑ h : Fin 128, max ((∑ k : Fin 128, x0 (ix2 i k) * x1 (ix2 k h)) + x2 (ix2 (0 : Fin 1) h)) 0 * x3 (ix2 h o)) + x4 (ix2 (0 : Fin 1) o) := by
  unfold k12_pay1
  simp only [maximumf_apply, addf_apply, broadcast_apply, mm12_apply, mmb12_apply, truncf_apply, shapeCast_self,
    broadcastTo_1b_ab_apply]
  refine congrArg (· + _) (Finset.sum_congr rfl fun h _ => ?_)
  exact congrArg (· * _) (congrArg (max _) Ideal.ofBits_zero_f32)

/-! ## From blocks to the array -/

variable (V : (c : Dev nD) → (b : Ref sig .tc) → Buf (Elt Ideal) ((c : Thread nD τ).loc b))

theorem hz12_2 : (![0, 0] : Fin 2 → Nat) = fun _ => 0 := funext fun a => by fin_cases a <;> rfl

/-- The head's value as one function of the arrays the region finds, index by index. -/
abbrev G12 (c : Dev nD) : S100000x2.Idx → EReal := fun idx =>
  Cert.Spec.head (fun (i : Fin 100000) (k : Fin 128) => V c (Pipeline.arrRef spec12 0) (ix2 i k))
    (fun (k h : Fin 128) => V c (Pipeline.arrRef spec12 1) (ix2 k h))
    (fun (h : Fin 128) => V c (Pipeline.arrRef spec12 2) (ix2 (0 : Fin 1) h))
    (fun (h : Fin 128) (o : Fin 2) => V c (Pipeline.arrRef spec12 3) (ix2 h o))
    (fun (o : Fin 2) => V c (Pipeline.arrRef spec12 4) (ix2 (0 : Fin 1) o)) (idx 0) (idx 1)

/-- The printed index maps over the grid: the row-tiled windows move with the point, the weights and the biases stay. -/
theorem idx_facts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- Row `p` of point `t`'s row block, as a row of the array. -/
def row12 (t : Fin cfg12.N) (p : Fin 2000) : Fin 100000 :=
  ⟨2000 * t.val + p.val, by have ht := t.isLt; have hN : cfg12.N = 50 := N_12; have hp := p.isLt; omega⟩

/-- The features' block at point `t` is the `2000` rows of its array from row `2000 t` on. -/
theorem iblk12_0_eq (c : Dev nD) (t : Fin cfg12.N) (p : Fin 2000) (k : Fin 128) :
    (iblk12 V c 0 t : Vec Ideal S2000x128 .f32) (ix2 p k) = (V c (Pipeline.arrRef spec12 0) : S100000x128.Idx → EReal) (ix2 (row12 t p) k) := by
  obtain ⟨e0, e1, -⟩ := idx_facts12 t
  unfold iblk12
  rw [View.read_apply]
  show V c (Pipeline.arrRef spec12 0) _ = V c (Pipeline.arrRef spec12 0) _
  refine congrArg (V c (Pipeline.arrRef spec12 0)) (funext fun a => Fin.ext ?_)
  match a with
  | ⟨0, _⟩ => show win12_0.index t (0 : Fin 2) * 2000 + 1 * p.val = 2000 * t.val + p.val; omega
  | ⟨1, _⟩ => show win12_0.index t (1 : Fin 2) * 128 + 1 * k.val = k.val; omega

/-- The first layer's weight block is its whole array. -/
theorem iblk12_1_eq (c : Dev nD) (t : Fin cfg12.N) (k h : Fin 128) :
    (iblk12 V c 1 t : Vec Ideal S128x128 .f32) (ix2 k h) = (V c (Pipeline.arrRef spec12 1) : S128x128.Idx → EReal) (ix2 k h) := by
  obtain ⟨-, -, e0, e1, -⟩ := idx_facts12 t
  unfold iblk12
  rw [View.read_apply]
  show V c (Pipeline.arrRef spec12 1) _ = V c (Pipeline.arrRef spec12 1) _
  refine congrArg (V c (Pipeline.arrRef spec12 1)) (funext fun a => Fin.ext ?_)
  match a with
  | ⟨0, _⟩ => show win12_1.index t (0 : Fin 2) * 128 + 1 * k.val = k.val; omega
  | ⟨1, _⟩ => show win12_1.index t (1 : Fin 2) * 128 + 1 * h.val = h.val; omega

/-- The first layer's bias block is its whole array. -/
theorem iblk12_2_eq (c : Dev nD) (t : Fin cfg12.N) (h : Fin 128) :
    (iblk12 V c 2 t : Vec Ideal S1x128 .f32) (ix2 (0 : Fin 1) h) = (V c (Pipeline.arrRef spec12 2) : S1x128.Idx → EReal) (ix2 (0 : Fin 1) h) := by
  obtain ⟨-, -, -, -, e0, e1, -⟩ := idx_facts12 t
  unfold iblk12
  rw [View.read_apply]
  show V c (Pipeline.arrRef spec12 2) _ = V c (Pipeline.arrRef spec12 2) _
  refine congrArg (V c (Pipeline.arrRef spec12 2)) (funext fun a => Fin.ext ?_)
  match a with
  | ⟨0, _⟩ => show win12_2.index t (0 : Fin 2) * 1 + 1 * 0 = 0; omega
  | ⟨1, _⟩ => show win12_2.index t (1 : Fin 2) * 128 + 1 * h.val = h.val; omega

/-- The second layer's weight block is its whole array. -/
theorem iblk12_3_eq (c : Dev nD) (t : Fin cfg12.N) (h : Fin 128) (o : Fin 2) :
    (iblk12 V c 3 t : Vec Ideal S128x2 .f32) (ix2 h o) = (V c (Pipeline.arrRef spec12 3) : S128x2.Idx → EReal) (ix2 h o) := by
  obtain ⟨-, -, -, -, -, -, e0, e1, -⟩ := idx_facts12 t
  unfold iblk12
  rw [View.read_apply]
  show V c (Pipeline.arrRef spec12 3) _ = V c (Pipeline.arrRef spec12 3) _
  refine congrArg (V c (Pipeline.arrRef spec12 3)) (funext fun a => Fin.ext ?_)
  match a with
  | ⟨0, _⟩ => show win12_3.index t (0 : Fin 2) * 128 + 1 * h.val = h.val; omega
  | ⟨1, _⟩ => show win12_3.index t (1 : Fin 2) * 2 + 1 * o.val = o.val; omega

/-- The second layer's bias block is its whole array. -/
theorem iblk12_4_eq (c : Dev nD) (t : Fin cfg12.N) (o : Fin 2) :
    (iblk12 V c 4 t : Vec Ideal S1x2 .f32) (ix2 (0 : Fin 1) o) = (V c (Pipeline.arrRef spec12 4) : S1x2.Idx → EReal) (ix2 (0 : Fin 1) o) := by
  obtain ⟨-, -, -, -, -, -, -, -, e0, e1, -⟩ := idx_facts12 t
  unfold iblk12
  rw [View.read_apply]
  show V c (Pipeline.arrRef spec12 4) _ = V c (Pipeline.arrRef spec12 4) _
  refine congrArg (V c (Pipeline.arrRef spec12 4)) (funext fun a => Fin.ext ?_)
  match a with
  | ⟨0, _⟩ => show win12_4.index t (0 : Fin 2) * 1 + 1 * 0 = 0; omega
  | ⟨1, _⟩ => show win12_4.index t (1 : Fin 2) * 2 + 1 * o.val = o.val; omega

/-- Where the output's block at point `t` puts its entry `(p, o)`: row `2000 t + p`, column `o`. -/
theorem emb12_5 (t : Fin cfg12.N) (p : Fin 2000) (o : Fin 2) :
    ((cfg12.win 5).blk t).view.emb (ix2 p o) = (ix2 (row12 t p) o : S100000x2.Idx) := by
  obtain ⟨-, -, -, -, -, -, -, -, -, -, e0, e1⟩ := idx_facts12 t
  refine funext fun a => Fin.ext ?_
  match a with
  | ⟨0, _⟩ => show win12_5.index t (0 : Fin 2) * 2000 + 1 * p.val = 2000 * t.val + p.val; omega
  | ⟨1, _⟩ => show win12_5.index t (1 : Fin 2) * 2 + 1 * o.val = o.val; omega

/-- What point `t` writes back is block `t` of the head's value. -/
theorem flushed12_eq (c : Dev nD) (t : Fin cfg12.N) :
    (dat12 (F := Ideal) V c).flushed 5 t = ((cfg12.win 5).blk t).view.read (Elt Ideal) (G12 V c) := by
  show (cfg12.win 5).cut (grid12.coords t) ((dat12 V c).after 5 t) = _
  rw [after12_5]
  unfold out12
  rw [View.canon_unit_zero hz12_2]
  simp only [View.ld_unit_zero (S := S2000x128) hz12_2, View.ld_unit_zero (S := S128x128) hz12_2, View.ld_unit_zero (S := S1x128) hz12_2,
    View.ld_unit_zero (S := S128x2) hz12_2, View.ld_unit_zero (S := S1x2) hz12_2]
  funext y
  obtain ⟨p, o, rfl⟩ : ∃ (p : Fin 2000) (o : Fin 2), y = ix2 p o := ⟨y 0, y 1, eq_ix2 y⟩
  show k12_pay1 (F := Ideal) (iblk12 V c 0 t) (iblk12 V c 1 t) (iblk12 V c 2 t) (iblk12 V c 3 t) (iblk12 V c 4 t) (ix2 p o) = G12 V c (((cfg12.win 5).blk t).view.emb (ix2 p o))
  refine (pay12_apply _ _ _ _ _ p o).trans ?_
  rw [emb12_5 t p o]
  simp only [iblk12_0_eq, iblk12_1_eq, iblk12_2_eq, iblk12_3_eq, iblk12_4_eq]
  rfl

/-- An index of the output array is in point `t`'s block iff each coordinate is in the block's range on its axis. -/
theorem mem_blk12 (t : Fin cfg12.N) (i : S100000x2.Idx) :
    i ∈ ((cfg12.win 5).blk t).view.set ↔ ∀ a : Fin 2, win12_5.index t a * S2000x2.size a ≤ (i a).val ∧ (i a).val < win12_5.index t a * S2000x2.size a + S2000x2.size a := by
  show i ∈ ((View.whole main_v821).slice (win12_5.rect t)).set ↔ _
  rw [View.set_slice_whole, Rect.mem_set_unit]
  exact Iff.rfl

/-- THE OUTPUT ARRAY after the region: the two-layer perceptron of the arrays the region finds (the point that covers
    row `r` is `r / 2000`). -/
theorem val12 (c : Dev nD) :
    (dat12 (F := Ideal) V c).arrAt 5 cfg12.N = fun idx =>
      Cert.Spec.head (fun (i : Fin 100000) (k : Fin 128) => V c (Pipeline.arrRef spec12 0) (ix2 i k))
        (fun (k h : Fin 128) => V c (Pipeline.arrRef spec12 1) (ix2 k h))
        (fun (h : Fin 128) => V c (Pipeline.arrRef spec12 2) (ix2 (0 : Fin 1) h))
        (fun (h : Fin 128) (o : Fin 2) => V c (Pipeline.arrRef spec12 3) (ix2 h o))
        (fun (o : Fin 2) => V c (Pipeline.arrRef spec12 4) (ix2 (0 : Fin 1) o)) (idx 0) (idx 1) :=
  (dat12 V c).arrAt_eq_of_cover 5 (G12 V c) (fun t _ => flushed12_eq V c t) fun i => by
    have hi0 : (i 0).val < 100000 := (i 0).isLt
    have hi1 : (i 1).val < 2 := (i 1).isLt
    have hN : cfg12.N = 50 := N_12
    let t : Fin cfg12.N := ⟨(i 0).val / 2000, by rw [hN]; omega⟩
    have ht : t.val = (i 0).val / 2000 := rfl
    obtain ⟨-, -, -, -, -, -, -, -, -, -, e0, e1⟩ := idx_facts12 t
    refine ⟨t, flush12_5 t, ?_⟩
    rw [mem_blk12]
    intro a
    match a with
    | ⟨0, _⟩ => show win12_5.index t (0 : Fin 2) * 2000 ≤ (i 0).val ∧ (i 0).val < win12_5.index t (0 : Fin 2) * 2000 + 2000; omega
    | ⟨1, _⟩ => show win12_5.index t (1 : Fin 2) * 2 ≤ (i 1).val ∧ (i 1).val < win12_5.index t (1 : Fin 2) * 2 + 2; omega

end Cert.KernelIdeal.Hand
-- ==== Proof.KI.Val13.lean ====
import proofs.«125545_j64845416235624_1_alg».proof.Proof.KI.D13
import proofs.«125545_j64845416235624_1_alg».proof.Proof.Spec
import Idealize.ShloMosaic.PureOps.Ideal.Laws
import Idealize.ShloMosaic.Lib.ValueLayout
import Idealize.ShloMosaic.Lib.Pipeline.Value

open scoped BigOperators

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! # Region 13 at the ideal values: the output array is the two-layer perceptron of the arrays the region finds

The body's payload is read at an index (a block product, the first bias row broadcast, the rectifier, a second
block product, the second bias row broadcast); the features' block is its array read at the point's rows, the
weights and biases are whole; the row blocks tile the output array. -/

/-! ## The block product `[2000,128] ⬝ [128,128]` at an index -/

theorem lhs13_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs13_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs13_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs13_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `i` and column `j`: the sum over the contracted axis. -/
theorem mm13_apply (l : FVec Ideal S2000x128 .bf16) (r : FVec Ideal S128x128 .bf16) (i : Fin 2000) (j : Fin 128) :
    matmul dot_S2000x128_S128x128_S2000x128_1_0_0_1_n_n none l r (constant (F := Ideal) S2000x128 .f32 0x00000000#32) (ix2 i j)
      = ∑ k : Fin 128, l (ix2 i k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 i j) ((contrEquiv1 dot_S2000x128_S128x128_S2000x128_1_0_0_1_n_n 128 rfl rfl).symm k) = ix2 i k := funext fun a => Fin.ext (by
    match a with
    | ⟨0, _⟩ => exact lhs13_0 _ _
    | ⟨1, _⟩ => exact (lhs13_1 _ _).trans hk)
  have er : dot_S2000x128_S128x128_S2000x128_1_0_0_1_n_n.rhsIdx (ix2 i j) ((contrEquiv1 dot_S2000x128_S128x128_S2000x128_1_0_0_1_n_n 128 rfl rfl).symm k) = ix2 k j := funext fun a => Fin.ext (by
    match a with
    | ⟨0, _⟩ => exact (rhs13_0 _ _).trans hk
    | ⟨1, _⟩ => exact rhs13_1 _ _)
  rw [el, er]

/-! ## The block product `[2000,128] ⬝ [128,2]` at an index -/

theorem lhsb13_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhsb13_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhsb13_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhsb13_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The product into the zero accumulator, at row `i` and column `o`: the sum over the contracted axis. -/
theorem mmb13_apply (l : FVec Ideal S2000x128 .bf16) (r : FVec Ideal S128x2 .bf16) (i : Fin 2000) (o : Fin 2) :
    matmul dot_S2000x128_S128x2_S2000x2_1_0_0_1_n_n none l r (constant (F := Ideal) S2000x2 .f32 0x00000000#32) (ix2 i o)
      = ∑ h : Fin 128, l (ix2 i h) * r (ix2 h o) := by
  simp only [matmul]
  rw [Ideal.matmul_constant_zero_apply, ← Equiv.sum_comp (contrEquiv1 dot_S2000x128_S128x2_S2000x2_1_0_0_1_n_n 128 rfl rfl).symm]
  refine Finset.sum_congr rfl fun h _ => ?_
  have hk := contrEquiv1_symm_val dot_S2000x128_S128x2_S2000x2_1_0_0_1_n_n 128 rfl rfl h
  have el : dot_S2000x128_S128x2_S2000x2_1_0_0_1_n_n.lhsIdx (ix2 i o) ((contrEquiv1 dot_S2000x128_S128x2_S2000x2_1_0_0_1_n_n 128 rfl rfl).symm h) = ix2 i h := funext fun a => Fin.ext (by
    match a with
    | ⟨0, _⟩ => exact lhsb13_0 _ _
    | ⟨1, _⟩ => exact (lhsb13_1 _ _).trans hk)
  have er : dot_S2000x128_S128x2_S2000x2_1_0_0_1_n_n.rhsIdx (ix2 i o) ((contrEquiv1 dot_S2000x128_S128x2_S2000x2_1_0_0_1_n_n 128 rfl rfl).symm h) = ix2 h o := funext fun a => Fin.ext (by
    match a with
    | ⟨0, _⟩ => exact (rhsb13_0 _ _).trans hk
    | ⟨1, _⟩ => exact rhsb13_1 _ _)
  rw [el, er]

/-! ## The payload at an index -/

/-- What the body stores, at row `i` and column `o` of the block, from the loaded blocks in the body's order:
    feature rows, first weights, first bias row, second weights, second bias row. The roundings to `bf16` are the
    identity at the ideal values. -/
theorem pay13_apply (x0 : Vec Ideal S2000x128 .f32) (x1 : Vec Ideal S128x128 .f32) (x2 : Vec Ideal S1x128 .f32)
    (x3 : Vec Ideal S128x2 .f32) (x4 : Vec Ideal S1x2 .f32) (i : Fin 2000) (o : Fin 2) :
    k13_pay1 (F := Ideal) x0 x1 x2 x3 x4 (ix2 i o)
      = (∑ h : Fin 128, max ((∑ k : Fin 128, x0 (ix2 i k) * x1 (ix2 k h)) + x2 (ix2 (0 : Fin 1) h)) 0 * x3 (ix2 h o)) + x4 (ix2 (0 : Fin 1) o) := by
  unfold k13_pay1
  simp only [maximumf_apply, addf_apply, broadcast_apply, mm13_apply, mmb13_apply, truncf_apply, shapeCast_self,
    broadcastTo_1b_ab_apply]
  refine congrArg (· + _) (Finset.sum_congr rfl fun h _ => ?_)
  exact congrArg (· * _) (congrArg (max _) Ideal.ofBits_zero_f32)

/-! ## From blocks to the array -/

variable (V : (c : Dev nD) → (b : Ref sig .tc) → Buf (Elt Ideal) ((c : Thread nD τ).loc b))

theorem hz13_2 : (![0, 0] : Fin 2 → Nat) = fun _ => 0 := funext fun a => by fin_cases a <;> rfl

/-- The head's value as one function of the arrays the region finds, index by index. -/
abbrev G13 (c : Dev nD) : S20000x2.Idx → EReal := fun idx =>
  Cert.Spec.head (fun (i : Fin 20000) (k : Fin 128) => V c (Pipeline.arrRef spec13 0) (ix2 i k))
    (fun (k h : Fin 128) => V c (Pipeline.arrRef spec13 1) (ix2 k h))
    (fun (h : Fin 128) => V c (Pipeline.arrRef spec13 2) (ix2 (0 : Fin 1) h))
    (fun (h : Fin 128) (o : Fin 2) => V c (Pipeline.arrRef spec13 3) (ix2 h o))
    (fun (o : Fin 2) => V c (Pipeline.arrRef spec13 4) (ix2 (0 : Fin 1) o)) (idx 0) (idx 1)

/-- The printed index maps over the grid: the row-tiled windows move with the point, the weights and the biases stay. -/
theorem idx_facts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Row `p` of point `t`'s row block, as a row of the array. -/
def row13 (t : Fin cfg13.N) (p : Fin 2000) : Fin 20000 :=
  ⟨2000 * t.val + p.val, by have ht := t.isLt; have hN : cfg13.N = 10 := N_13; have hp := p.isLt; omega⟩

/-- The features' block at point `t` is the `2000` rows of its array from row `2000 t` on. -/
theorem iblk13_0_eq (c : Dev nD) (t : Fin cfg13.N) (p : Fin 2000) (k : Fin 128) :
    (iblk13 V c 0 t : Vec Ideal S2000x128 .f32) (ix2 p k) = (V c (Pipeline.arrRef spec13 0) : S20000x128.Idx → EReal) (ix2 (row13 t p) k) := by
  obtain ⟨e0, e1, -⟩ := idx_facts13 t
  unfold iblk13
  rw [View.read_apply]
  show V c (Pipeline.arrRef spec13 0) _ = V c (Pipeline.arrRef spec13 0) _
  refine congrArg (V c (Pipeline.arrRef spec13 0)) (funext fun a => Fin.ext ?_)
  match a with
  | ⟨0, _⟩ => show win13_0.index t (0 : Fin 2) * 2000 + 1 * p.val = 2000 * t.val + p.val; omega
  | ⟨1, _⟩ => show win13_0.index t (1 : Fin 2) * 128 + 1 * k.val = k.val; omega

/-- The first layer's weight block is its whole array. -/
theorem iblk13_1_eq (c : Dev nD) (t : Fin cfg13.N) (k h : Fin 128) :
    (iblk13 V c 1 t : Vec Ideal S128x128 .f32) (ix2 k h) = (V c (Pipeline.arrRef spec13 1) : S128x128.Idx → EReal) (ix2 k h) := by
  obtain ⟨-, -, e0, e1, -⟩ := idx_facts13 t
  unfold iblk13
  rw [View.read_apply]
  show V c (Pipeline.arrRef spec13 1) _ = V c (Pipeline.arrRef spec13 1) _
  refine congrArg (V c (Pipeline.arrRef spec13 1)) (funext fun a => Fin.ext ?_)
  match a with
  | ⟨0, _⟩ => show win13_1.index t (0 : Fin 2) * 128 + 1 * k.val = k.val; omega
  | ⟨1, _⟩ => show win13_1.index t (1 : Fin 2) * 128 + 1 * h.val = h.val; omega

/-- The first layer's bias block is its whole array. -/
theorem iblk13_2_eq (c : Dev nD) (t : Fin cfg13.N) (h : Fin 128) :
    (iblk13 V c 2 t : Vec Ideal S1x128 .f32) (ix2 (0 : Fin 1) h) = (V c (Pipeline.arrRef spec13 2) : S1x128.Idx → EReal) (ix2 (0 : Fin 1) h) := by
  obtain ⟨-, -, -, -, e0, e1, -⟩ := idx_facts13 t
  unfold iblk13
  rw [View.read_apply]
  show V c (Pipeline.arrRef spec13 2) _ = V c (Pipeline.arrRef spec13 2) _
  refine congrArg (V c (Pipeline.arrRef spec13 2)) (funext fun a => Fin.ext ?_)
  match a with
  | ⟨0, _⟩ => show win13_2.index t (0 : Fin 2) * 1 + 1 * 0 = 0; omega
  | ⟨1, _⟩ => show win13_2.index t (1 : Fin 2) * 128 + 1 * h.val = h.val; omega

/-- The second layer's weight block is its whole array. -/
theorem iblk13_3_eq (c : Dev nD) (t : Fin cfg13.N) (h : Fin 128) (o : Fin 2) :
    (iblk13 V c 3 t : Vec Ideal S128x2 .f32) (ix2 h o) = (V c (Pipeline.arrRef spec13 3) : S128x2.Idx → EReal) (ix2 h o) := by
  obtain ⟨-, -, -, -, -, -, e0, e1, -⟩ := idx_facts13 t
  unfold iblk13
  rw [View.read_apply]
  show V c (Pipeline.arrRef spec13 3) _ = V c (Pipeline.arrRef spec13 3) _
  refine congrArg (V c (Pipeline.arrRef spec13 3)) (funext fun a => Fin.ext ?_)
  match a with
  | ⟨0, _⟩ => show win13_3.index t (0 : Fin 2) * 128 + 1 * h.val = h.val; omega
  | ⟨1, _⟩ => show win13_3.index t (1 : Fin 2) * 2 + 1 * o.val = o.val; omega

/-- The second layer's bias block is its whole array. -/
theorem iblk13_4_eq (c : Dev nD) (t : Fin cfg13.N) (o : Fin 2) :
    (iblk13 V c 4 t : Vec Ideal S1x2 .f32) (ix2 (0 : Fin 1) o) = (V c (Pipeline.arrRef spec13 4) : S1x2.Idx → EReal) (ix2 (0 : Fin 1) o) := by
  obtain ⟨-, -, -, -, -, -, -, -, e0, e1, -⟩ := idx_facts13 t
  unfold iblk13
  rw [View.read_apply]
  show V c (Pipeline.arrRef spec13 4) _ = V c (Pipeline.arrRef spec13 4) _
  refine congrArg (V c (Pipeline.arrRef spec13 4)) (funext fun a => Fin.ext ?_)
  match a with
  | ⟨0, _⟩ => show win13_4.index t (0 : Fin 2) * 1 + 1 * 0 = 0; omega
  | ⟨1, _⟩ => show win13_4.index t (1 : Fin 2) * 2 + 1 * o.val = o.val; omega

/-- Where the output's block at point `t` puts its entry `(p, o)`: row `2000 t + p`, column `o`. -/
theorem emb13_5 (t : Fin cfg13.N) (p : Fin 2000) (o : Fin 2) :
    ((cfg13.win 5).blk t).view.emb (ix2 p o) = (ix2 (row13 t p) o : S20000x2.Idx) := by
  obtain ⟨-, -, -, -, -, -, -, -, -, -, e0, e1⟩ := idx_facts13 t
  refine funext fun a => Fin.ext ?_
  match a with
  | ⟨0, _⟩ => show win13_5.index t (0 : Fin 2) * 2000 + 1 * p.val = 2000 * t.val + p.val; omega
  | ⟨1, _⟩ => show win13_5.index t (1 : Fin 2) * 2 + 1 * o.val = o.val; omega

/-- What point `t` writes back is block `t` of the head's value. -/
theorem flushed13_eq (c : Dev nD) (t : Fin cfg13.N) :
    (dat13 (F := Ideal) V c).flushed 5 t = ((cfg13.win 5).blk t).view.read (Elt Ideal) (G13 V c) := by
  show (cfg13.win 5).cut (grid13.coords t) ((dat13 V c).after 5 t) = _
  rw [after13_5]
  unfold out13
  rw [View.canon_unit_zero hz13_2]
  simp only [View.ld_unit_zero (S := S2000x128) hz13_2, View.ld_unit_zero (S := S128x128) hz13_2, View.ld_unit_zero (S := S1x128) hz13_2,
    View.ld_unit_zero (S := S128x2) hz13_2, View.ld_unit_zero (S := S1x2) hz13_2]
  funext y
  obtain ⟨p, o, rfl⟩ : ∃ (p : Fin 2000) (o : Fin 2), y = ix2 p o := ⟨y 0, y 1, eq_ix2 y⟩
  show k13_pay1 (F := Ideal) (iblk13 V c 0 t) (iblk13 V c 1 t) (iblk13 V c 2 t) (iblk13 V c 3 t) (iblk13 V c 4 t) (ix2 p o) = G13 V c (((cfg13.win 5).blk t).view.emb (ix2 p o))
  refine (pay13_apply _ _ _ _ _ p o).trans ?_
  rw [emb13_5 t p o]
  simp only [iblk13_0_eq, iblk13_1_eq, iblk13_2_eq, iblk13_3_eq, iblk13_4_eq]
  rfl

/-- An index of the output array is in point `t`'s block iff each coordinate is in the block's range on its axis. -/
theorem mem_blk13 (t : Fin cfg13.N) (i : S20000x2.Idx) :
    i ∈ ((cfg13.win 5).blk t).view.set ↔ ∀ a : Fin 2, win13_5.index t a * S2000x2.size a ≤ (i a).val ∧ (i a).val < win13_5.index t a * S2000x2.size a + S2000x2.size a := by
  show i ∈ ((View.whole main_v824).slice (win13_5.rect t)).set ↔ _
  rw [View.set_slice_whole, Rect.mem_set_unit]
  exact Iff.rfl

/-- THE OUTPUT ARRAY after the region: the two-layer perceptron of the arrays the region finds (the point that covers
    row `r` is `r / 2000`). -/
theorem val13 (c : Dev nD) :
    (dat13 (F := Ideal) V c).arrAt 5 cfg13.N = fun idx =>
      Cert.Spec.head (fun (i : Fin 20000) (k : Fin 128) => V c (Pipeline.arrRef spec13 0) (ix2 i k))
        (fun (k h : Fin 128) => V c (Pipeline.arrRef spec13 1) (ix2 k h))
        (fun (h : Fin 128) => V c (Pipeline.arrRef spec13 2) (ix2 (0 : Fin 1) h))
        (fun (h : Fin 128) (o : Fin 2) => V c (Pipeline.arrRef spec13 3) (ix2 h o))
        (fun (o : Fin 2) => V c (Pipeline.arrRef spec13 4) (ix2 (0 : Fin 1) o)) (idx 0) (idx 1) :=
  (dat13 V c).arrAt_eq_of_cover 5 (G13 V c) (fun t _ => flushed13_eq V c t) fun i => by
    have hi0 : (i 0).val < 20000 := (i 0).isLt
    have hi1 : (i 1).val < 2 := (i 1).isLt
    have hN : cfg13.N = 10 := N_13
    let t : Fin cfg13.N := ⟨(i 0).val / 2000, by rw [hN]; omega⟩
    have ht : t.val = (i 0).val / 2000 := rfl
    obtain ⟨-, -, -, -, -, -, -, -, -, -, e0, e1⟩ := idx_facts13 t
    refine ⟨t, flush13_5 t, ?_⟩
    rw [mem_blk13]
    intro a
    match a with
    | ⟨0, _⟩ => show win13_5.index t (0 : Fin 2) * 2000 ≤ (i 0).val ∧ (i 0).val < win13_5.index t (0 : Fin 2) * 2000 + 2000; omega
    | ⟨1, _⟩ => show win13_5.index t (1 : Fin 2) * 2 ≤ (i 1).val ∧ (i 1).val < win13_5.index t (1 : Fin 2) * 2 + 2; omega

end Cert.KernelIdeal.Hand
-- ==== Proof.KI.HostLayout.lean ====
/- Reading @main's host operations. First the result of a five-operand operation with each operand's contents at its
   own reference, and the tactic that reads a line of operations back in one pass. Then the layout operations of the
   weight preparation read at an index: the slice that takes one layer's, one edge type's
   matrix (or bias row) out of the stacked parameters, the shape casts that drop or add its unit axes, the broadcast
   that gives a matrix a leading unit axis, and the stack of five such slabs. Each names the operand's index by
   coordinates. -/
import Idealize.ShloMosaic.Lib.ValueLayout
import Idealize.ShloMosaic.Lib.StableHlo.Run

namespace Cert.KernelIdeal.Hand

open Idealize.ShloMosaic Idealize.ShloMosaic.ValueIdx

variable {α : Type}

/-! ## A five-operand operation's result, and the one-pass reading of a line of operations -/

section Nary5
open StableHlo
variable {τ : Topo} {sig : RefSig} {Val : EltTy → Type}
variable {x a b c d y : Ref sig .tc}

/-- An operation over a literal family of five references (the stack of five matrices): its result with each operand's
    contents at its own reference, so that reading the operands goes on below it. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Nary5

/-- Reads a line of host operations back at one reference, in one pass: each operation's result at its own reference is its
    function's value, at any other reference what was there. -/
macro "host_results" : tactic =>
  `(tactic| (simp (disch := decide) only [StableHlo.after_cons, StableHlo.after_nil,
      StableHlo.nullary_result', StableHlo.unary_result', StableHlo.binary_result', StableHlo.ternary_result',
      StableHlo.reshape_result', nary5_result',
      StableHlo.nullary_result_ne', StableHlo.unary_result_ne', StableHlo.binary_result_ne', StableHlo.ternary_result_ne',
      StableHlo.reshape_result_ne', StableHlo.nary_result_ne']))

/-! ## Layout operations read at an index -/

/-- A rank-4 array cut to one entry on each of its two leading axes, from `(l, e)`, reads at `(0, 0, k, j)` the source at
    `(l, e, k, j)`. -/
theorem slice4_lead2_apply {n0 n1 a b : Nat} (l e : Nat) (X : (⟨4, ![n0, n1, a, b]⟩ : Shape).Idx → α)
    (h : (⟨4, ![n0, n1, a, b]⟩ : Shape).Slices ![l, e, 0, 0] ⟨4, ![1, 1, a, b]⟩)
    (u v : Fin 1) (k : Fin a) (j : Fin b) (L : Fin n0) (E : Fin n1) (hL : L.val = l) (hE : E.val = e) :
    extractStridedSlice ⟨4, ![1, 1, a, b]⟩ ![l, e, 0, 0] X h (ix4 u v k j) = X (ix4 L E k j) :=
  extractStridedSlice_apply _ _ _ _ _ (fun ax => by
    match ax with
    | ⟨0, _⟩ => show L.val = l + u.val; omega
    | ⟨1, _⟩ => show E.val = e + v.val; omega
    | ⟨2, _⟩ => exact (Nat.zero_add _).symm
    | ⟨3, _⟩ => exact (Nat.zero_add _).symm)

/-- A rank-3 array cut to one entry on each of its two leading axes, from `(l, e)`, reads at `(0, 0, j)` the source at
    `(l, e, j)`. -/
theorem slice3_lead2_apply {n0 n1 a : Nat} (l e : Nat) (X : (⟨3, ![n0, n1, a]⟩ : Shape).Idx → α)
    (h : (⟨3, ![n0, n1, a]⟩ : Shape).Slices ![l, e, 0] ⟨3, ![1, 1, a]⟩)
    (u v : Fin 1) (j : Fin a) (L : Fin n0) (E : Fin n1) (hL : L.val = l) (hE : E.val = e) :
    extractStridedSlice ⟨3, ![1, 1, a]⟩ ![l, e, 0] X h (ix3 u v j) = X (ix3 L E j) :=
  extractStridedSlice_apply _ _ _ _ _ (fun ax => by
    match ax with
    | ⟨0, _⟩ => show L.val = l + u.val; omega
    | ⟨1, _⟩ => show E.val = e + v.val; omega
    | ⟨2, _⟩ => exact (Nat.zero_add _).symm)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a]` array cast to `[a]` reads, at `j`, the operand at `(0, 0, j)`. -/
theorem shapeCast_11a_a_apply {a : ℕ} (x : (⟨3, ![1, 1, a]⟩ : Shape).Idx → α)
    (h : (⟨3, ![1, 1, a]⟩ : Shape).ShapeCasts ⟨1, ![a]⟩) (j : Fin a) :
    shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    simp only [Nat.zero_mul, Nat.zero_add])

/-- An `[a, b]` array given a leading unit axis by a broadcast reads, at `(u, i, j)`, the operand at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply _ h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A stack of five `[1, a, b]` slabs along the leading axis reads, at `(e, k, j)`, slab `e` at `(0, k, j)`. -/
theorem concat5_apply {a b : Nat} (x0 x1 x2 x3 x4 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩, ⟨⟨3, ![1, a, b]⟩, x3⟩, ⟨⟨3, ![1, a, b]⟩, x4⟩] :
      List ((s : Shape) × (s.Idx → α))).map (·.1)) ⟨3, ![5, a, b]⟩ 0)
    (e : Fin 5) (k : Fin a) (j : Fin b) :
    concatenate ⟨3, ![5, a, b]⟩ 0 [⟨⟨3, ![1, a, b]⟩, x0⟩, ⟨⟨3, ![1, a, b]⟩, x1⟩, ⟨⟨3, ![1, a, b]⟩, x2⟩, ⟨⟨3, ![1, a, b]⟩, x3⟩, ⟨⟨3, ![1, a, b]⟩, x4⟩] h (ix3 e k j)
      = (![x0, x1, x2, x3, x4] e) (ix3 (0 : Fin 1) k j) := by
  match e with
  | ⟨0, _⟩ =>
    show x0 _ = x0 _
    congr 1; funext d; match d with | ⟨0, _⟩ => rfl | ⟨1, _⟩ => rfl | ⟨2, _⟩ => rfl
  | ⟨1, _⟩ =>
    show x1 _ = x1 _
    congr 1; funext d; match d with | ⟨0, _⟩ => rfl | ⟨1, _⟩ => rfl | ⟨2, _⟩ => rfl
  | ⟨2, _⟩ =>
    show x2 _ = x2 _
    congr 1; funext d; match d with | ⟨0, _⟩ => rfl | ⟨1, _⟩ => rfl | ⟨2, _⟩ => rfl
  | ⟨3, _⟩ =>
    show x3 _ = x3 _
    congr 1; funext d; match d with | ⟨0, _⟩ => rfl | ⟨1, _⟩ => rfl | ⟨2, _⟩ => rfl
  | ⟨4, _⟩ =>
    show x4 _ = x4 _
    congr 1; funext d; match d with | ⟨0, _⟩ => rfl | ⟨1, _⟩ => rfl | ⟨2, _⟩ => rfl

/-! ## The prepared weights read at an index

A region's weight windows hold slices of the stacked parameters: of the [3, 8, 128, 128] neighbour and root weights the
matrix of one layer and one edge type, of the [3, 8, 128] biases one row; the bus regions hold five neighbour
matrices stacked, and the sums of five root matrices and of five bias rows. -/

/-- One layer's, one edge type's matrix out of the stacked weights, as a matrix. -/
theorem wr1_apply {n0 n1 a b : Nat} (l e : Nat) (X : (⟨4, ![n0, n1, a, b]⟩ : Shape).Idx → α)
    (hs : (⟨4, ![n0, n1, a, b]⟩ : Shape).Slices ![l, e, 0, 0] ⟨4, ![1, 1, a, b]⟩)
    (hc : (⟨4, ![1, 1, a, b]⟩ : Shape).ShapeCasts ⟨2, ![a, b]⟩)
    (k : Fin a) (j : Fin b) (L : Fin n0) (E : Fin n1) (hL : L.val = l) (hE : E.val = e) :
    shapeCast ⟨2, ![a, b]⟩ (extractStridedSlice ⟨4, ![1, 1, a, b]⟩ ![l, e, 0, 0] X hs) hc (ix2 k j) = X (ix4 L E k j) := by
  rw [shapeCast_11ab_ab_apply, slice4_lead2_apply l e X hs 0 0 k j L E hL hE]

/-- The same matrix given a leading unit axis by a shape cast. -/
theorem wl1_apply {n0 n1 a b : Nat} (l e : Nat) (X : (⟨4, ![n0, n1, a, b]⟩ : Shape).Idx → α)
    (hs : (⟨4, ![n0, n1, a, b]⟩ : Shape).Slices ![l, e, 0, 0] ⟨4, ![1, 1, a, b]⟩)
    (hc : (⟨4, ![1, 1, a, b]⟩ : Shape).ShapeCasts ⟨2, ![a, b]⟩) (hc' : (⟨2, ![a, b]⟩ : Shape).ShapeCasts ⟨3, ![1, a, b]⟩)
    (u : Fin 1) (k : Fin a) (j : Fin b) (L : Fin n0) (E : Fin n1) (hL : L.val = l) (hE : E.val = e) :
    shapeCast ⟨3, ![1, a, b]⟩ (shapeCast ⟨2, ![a, b]⟩ (extractStridedSlice ⟨4, ![1, 1, a, b]⟩ ![l, e, 0, 0] X hs) hc) hc' (ix3 u k j)
      = X (ix4 L E k j) := by
  rw [shapeCast_ab_1ab_apply, wr1_apply l e X hs hc k j L E hL hE]

/-- One layer's, one edge type's bias row out of the stacked biases, as a vector. -/
theorem bv1_apply {n0 n1 a : Nat} (l e : Nat) (X : (⟨3, ![n0, n1, a]⟩ : Shape).Idx → α)
    (hs : (⟨3, ![n0, n1, a]⟩ : Shape).Slices ![l, e, 0] ⟨3, ![1, 1, a]⟩)
    (hc : (⟨3, ![1, 1, a]⟩ : Shape).ShapeCasts ⟨1, ![a]⟩)
    (j : Fin a) (L : Fin n0) (E : Fin n1) (hL : L.val = l) (hE : E.val = e) :
    shapeCast ⟨1, ![a]⟩ (extractStridedSlice ⟨3, ![1, 1, a]⟩ ![l, e, 0] X hs) hc (ix1 j) = X (ix3 L E j) := by
  rw [shapeCast_11a_a_apply, slice3_lead2_apply l e X hs 0 0 j L E hL hE]

/-- The same row as a one-row matrix. -/
theorem b1_apply {n0 n1 a : Nat} (l e : Nat) (X : (⟨3, ![n0, n1, a]⟩ : Shape).Idx → α)
    (hs : (⟨3, ![n0, n1, a]⟩ : Shape).Slices ![l, e, 0] ⟨3, ![1, 1, a]⟩)
    (hc : (⟨3, ![1, 1, a]⟩ : Shape).ShapeCasts ⟨1, ![a]⟩) (hc' : (⟨1, ![a]⟩ : Shape).ShapeCasts ⟨2, ![1, a]⟩)
    (u : Fin 1) (j : Fin a) (L : Fin n0) (E : Fin n1) (hL : L.val = l) (hE : E.val = e) :
    shapeCast ⟨2, ![1, a]⟩ (shapeCast ⟨1, ![a]⟩ (extractStridedSlice ⟨3, ![1, 1, a]⟩ ![l, e, 0] X hs) hc) hc' (ix2 u j)
      = X (ix3 L E j) := by
  rw [shapeCast_a_1a_apply, bv1_apply l e X hs hc j L E hL hE]

/-- Five matrices of one layer stacked: slab \`e\` is the matrix of edge type \`E e\`. -/
theorem wl5_apply {n0 n1 a b : Nat} (l e0 e1 e2 e3 e4 : Nat) (X : (⟨4, ![n0, n1, a, b]⟩ : Shape).Idx → α)
    (h0 : (⟨4, ![n0, n1, a, b]⟩ : Shape).Slices ![l, e0, 0, 0] ⟨4, ![1, 1, a, b]⟩)
    (h1 : (⟨4, ![n0, n1, a, b]⟩ : Shape).Slices ![l, e1, 0, 0] ⟨4, ![1, 1, a, b]⟩)
    (h2 : (⟨4, ![n0, n1, a, b]⟩ : Shape).Slices ![l, e2, 0, 0] ⟨4, ![1, 1, a, b]⟩)
    (h3 : (⟨4, ![n0, n1, a, b]⟩ : Shape).Slices ![l, e3, 0, 0] ⟨4, ![1, 1, a, b]⟩)
    (h4 : (⟨4, ![n0, n1, a, b]⟩ : Shape).Slices ![l, e4, 0, 0] ⟨4, ![1, 1, a, b]⟩)
    (hc : (⟨4, ![1, 1, a, b]⟩ : Shape).ShapeCasts ⟨2, ![a, b]⟩)
    (hb : (⟨2, ![a, b]⟩ : Shape).BroadcastsInDim ⟨3, ![1, a, b]⟩ ![1, 2])
    (hcat : Shape.Concatenates (([
        ⟨⟨3, ![1, a, b]⟩, broadcastInDim ⟨3, ![1, a, b]⟩ ![1, 2] hb (shapeCast ⟨2, ![a, b]⟩ (extractStridedSlice ⟨4, ![1, 1, a, b]⟩ ![l, e0, 0, 0] X h0) hc)⟩,
        ⟨⟨3, ![1, a, b]⟩, broadcastInDim ⟨3, ![1, a, b]⟩ ![1, 2] hb (shapeCast ⟨2, ![a, b]⟩ (extractStridedSlice ⟨4, ![1, 1, a, b]⟩ ![l, e1, 0, 0] X h1) hc)⟩,
        ⟨⟨3, ![1, a, b]⟩, broadcastInDim ⟨3, ![1, a, b]⟩ ![1, 2] hb (shapeCast ⟨2, ![a, b]⟩ (extractStridedSlice ⟨4, ![1, 1, a, b]⟩ ![l, e2, 0, 0] X h2) hc)⟩,
        ⟨⟨3, ![1, a, b]⟩, broadcastInDim ⟨3, ![1, a, b]⟩ ![1, 2] hb (shapeCast ⟨2, ![a, b]⟩ (extractStridedSlice ⟨4, ![1, 1, a, b]⟩ ![l, e3, 0, 0] X h3) hc)⟩,
        ⟨⟨3, ![1, a, b]⟩, broadcastInDim ⟨3, ![1, a, b]⟩ ![1, 2] hb (shapeCast ⟨2, ![a, b]⟩ (extractStridedSlice ⟨4, ![1, 1, a, b]⟩ ![l, e4, 0, 0] X h4) hc)⟩] :
      List ((s : Shape) × (s.Idx → α))).map (·.1)) ⟨3, ![5, a, b]⟩ 0)
    (L : Fin n0) (E : Fin 5 → Fin n1) (hL : L.val = l)
    (hE0 : (E 0).val = e0) (hE1 : (E 1).val = e1) (hE2 : (E 2).val = e2) (hE3 : (E 3).val = e3) (hE4 : (E 4).val = e4)
    (e : Fin 5) (k : Fin a) (j : Fin b) :
    concatenate ⟨3, ![5, a, b]⟩ 0 [
        ⟨⟨3, ![1, a, b]⟩, broadcastInDim ⟨3, ![1, a, b]⟩ ![1, 2] hb (shapeCast ⟨2, ![a, b]⟩ (extractStridedSlice ⟨4, ![1, 1, a, b]⟩ ![l, e0, 0, 0] X h0) hc)⟩,
        ⟨⟨3, ![1, a, b]⟩, broadcastInDim ⟨3, ![1, a, b]⟩ ![1, 2] hb (shapeCast ⟨2, ![a, b]⟩ (extractStridedSlice ⟨4, ![1, 1, a, b]⟩ ![l, e1, 0, 0] X h1) hc)⟩,
        ⟨⟨3, ![1, a, b]⟩, broadcastInDim ⟨3, ![1, a, b]⟩ ![1, 2] hb (shapeCast ⟨2, ![a, b]⟩ (extractStridedSlice ⟨4, ![1, 1, a, b]⟩ ![l, e2, 0, 0] X h2) hc)⟩,
        ⟨⟨3, ![1, a, b]⟩, broadcastInDim ⟨3, ![1, a, b]⟩ ![1, 2] hb (shapeCast ⟨2, ![a, b]⟩ (extractStridedSlice ⟨4, ![1, 1, a, b]⟩ ![l, e3, 0, 0] X h3) hc)⟩,
        ⟨⟨3, ![1, a, b]⟩, broadcastInDim ⟨3, ![1, a, b]⟩ ![1, 2] hb (shapeCast ⟨2, ![a, b]⟩ (extractStridedSlice ⟨4, ![1, 1, a, b]⟩ ![l, e4, 0, 0] X h4) hc)⟩]
      hcat (ix3 e k j)
      = X (ix4 L (E e) k j) := by
  rw [concat5_apply]
  match e with
  | ⟨0, _⟩ => exact (broadcastInDim_ab_1ab_apply _ hb 0 k j).trans (wr1_apply l e0 X h0 hc k j L (E 0) hL hE0)
  | ⟨1, _⟩ => exact (broadcastInDim_ab_1ab_apply _ hb 0 k j).trans (wr1_apply l e1 X h1 hc k j L (E 1) hL hE1)
  | ⟨2, _⟩ => exact (broadcastInDim_ab_1ab_apply _ hb 0 k j).trans (wr1_apply l e2 X h2 hc k j L (E 2) hL hE2)
  | ⟨3, _⟩ => exact (broadcastInDim_ab_1ab_apply _ hb 0 k j).trans (wr1_apply l e3 X h3 hc k j L (E 3) hL hE3)
  | ⟨4, _⟩ => exact (broadcastInDim_ab_1ab_apply _ hb 0 k j).trans (wr1_apply l e4 X h4 hc k j L (E 4) hL hE4)

/-- The sum of five matrices of one layer, in the order the operations add them. -/
theorem wr5_apply {n0 n1 a b : Nat} (l e0 e1 e2 e3 e4 : Nat) (X : FVec Ideal ⟨4, ![n0, n1, a, b]⟩ .f32)
    (h0 : (⟨4, ![n0, n1, a, b]⟩ : Shape).Slices ![l, e0, 0, 0] ⟨4, ![1, 1, a, b]⟩)
    (h1 : (⟨4, ![n0, n1, a, b]⟩ : Shape).Slices ![l, e1, 0, 0] ⟨4, ![1, 1, a, b]⟩)
    (h2 : (⟨4, ![n0, n1, a, b]⟩ : Shape).Slices ![l, e2, 0, 0] ⟨4, ![1, 1, a, b]⟩)
    (h3 : (⟨4, ![n0, n1, a, b]⟩ : Shape).Slices ![l, e3, 0, 0] ⟨4, ![1, 1, a, b]⟩)
    (h4 : (⟨4, ![n0, n1, a, b]⟩ : Shape).Slices ![l, e4, 0, 0] ⟨4, ![1, 1, a, b]⟩)
    (hc : (⟨4, ![1, 1, a, b]⟩ : Shape).ShapeCasts ⟨2, ![a, b]⟩)
    (L : Fin n0) (E0 E1 E2 E3 E4 : Fin n1) (hL : L.val = l)
    (hE0 : E0.val = e0) (hE1 : E1.val = e1) (hE2 : E2.val = e2) (hE3 : E3.val = e3) (hE4 : E4.val = e4)
    (k : Fin a) (j : Fin b) :
    addf (addf (addf (addf
        (shapeCast ⟨2, ![a, b]⟩ (extractStridedSlice ⟨4, ![1, 1, a, b]⟩ ![l, e0, 0, 0] X h0) hc)
        (shapeCast ⟨2, ![a, b]⟩ (extractStridedSlice ⟨4, ![1, 1, a, b]⟩ ![l, e1, 0, 0] X h1) hc))
        (shapeCast ⟨2, ![a, b]⟩ (extractStridedSlice ⟨4, ![1, 1, a, b]⟩ ![l, e2, 0, 0] X h2) hc))
        (shapeCast ⟨2, ![a, b]⟩ (extractStridedSlice ⟨4, ![1, 1, a, b]⟩ ![l, e3, 0, 0] X h3) hc))
        (shapeCast ⟨2, ![a, b]⟩ (extractStridedSlice ⟨4, ![1, 1, a, b]⟩ ![l, e4, 0, 0] X h4) hc) (ix2 k j)
      = X (ix4 L E0 k j) + X (ix4 L E1 k j) + X (ix4 L E2 k j) + X (ix4 L E3 k j) + X (ix4 L E4 k j) := by
  rw [addf_apply, addf_apply, addf_apply, addf_apply, wr1_apply l e0 X h0 hc k j L E0 hL hE0,
    wr1_apply l e1 X h1 hc k j L E1 hL hE1, wr1_apply l e2 X h2 hc k j L E2 hL hE2,
    wr1_apply l e3 X h3 hc k j L E3 hL hE3, wr1_apply l e4 X h4 hc k j L E4 hL hE4]

/-- The sum of five bias rows of one layer, in the order the operations add them, as a one-row matrix. -/
theorem b5_apply {n0 n1 a : Nat} (l e0 e1 e2 e3 e4 : Nat) (X : FVec Ideal ⟨3, ![n0, n1, a]⟩ .f32)
    (h0 : (⟨3, ![n0, n1, a]⟩ : Shape).Slices ![l, e0, 0] ⟨3, ![1, 1, a]⟩)
    (h1 : (⟨3, ![n0, n1, a]⟩ : Shape).Slices ![l, e1, 0] ⟨3, ![1, 1, a]⟩)
    (h2 : (⟨3, ![n0, n1, a]⟩ : Shape).Slices ![l, e2, 0] ⟨3, ![1, 1, a]⟩)
    (h3 : (⟨3, ![n0, n1, a]⟩ : Shape).Slices ![l, e3, 0] ⟨3, ![1, 1, a]⟩)
    (h4 : (⟨3, ![n0, n1, a]⟩ : Shape).Slices ![l, e4, 0] ⟨3, ![1, 1, a]⟩)
    (hc : (⟨3, ![1, 1, a]⟩ : Shape).ShapeCasts ⟨1, ![a]⟩) (hc' : (⟨1, ![a]⟩ : Shape).ShapeCasts ⟨2, ![1, a]⟩)
    (L : Fin n0) (E0 E1 E2 E3 E4 : Fin n1) (hL : L.val = l)
    (hE0 : E0.val = e0) (hE1 : E1.val = e1) (hE2 : E2.val = e2) (hE3 : E3.val = e3) (hE4 : E4.val = e4)
    (u : Fin 1) (j : Fin a) :
    shapeCast ⟨2, ![1, a]⟩ (addf (addf (addf (addf
        (shapeCast ⟨1, ![a]⟩ (extractStridedSlice ⟨3, ![1, 1, a]⟩ ![l, e0, 0] X h0) hc)
        (shapeCast ⟨1, ![a]⟩ (extractStridedSlice ⟨3, ![1, 1, a]⟩ ![l, e1, 0] X h1) hc))
        (shapeCast ⟨1, ![a]⟩ (extractStridedSlice ⟨3, ![1, 1, a]⟩ ![l, e2, 0] X h2) hc))
        (shapeCast ⟨1, ![a]⟩ (extractStridedSlice ⟨3, ![1, 1, a]⟩ ![l, e3, 0] X h3) hc))
        (shapeCast ⟨1, ![a]⟩ (extractStridedSlice ⟨3, ![1, 1, a]⟩ ![l, e4, 0] X h4) hc)) hc' (ix2 u j)
      = X (ix3 L E0 j) + X (ix3 L E1 j) + X (ix3 L E2 j) + X (ix3 L E3 j) + X (ix3 L E4 j) := by
  rw [shapeCast_a_1a_apply, addf_apply, addf_apply, addf_apply, addf_apply, bv1_apply l e0 X h0 hc j L E0 hL hE0,
    bv1_apply l e1 X h1 hc j L E1 hL hE1, bv1_apply l e2 X h2 hc j L E2 hL hE2,
    bv1_apply l e3 X h3 hc j L E3 hL hE3, bv1_apply l e4 X h4 hc j L E4 hL hE4]

end Cert.KernelIdeal.Hand
-- ==== Proof.KI.HostPc0.lean ====
/- The host operations before the regions of layer 0, line by line: each result a region (or a later line, across a
   cut) reads, after its line, is the composed term of the line's operations over the contents before the line. -/
import proofs.«125545_j64845416235624_1_alg».proof.Proof.Gen.KernelIdeal.Launch
import proofs.«125545_j64845416235624_1_alg».proof.Proof.KI.HostLayout
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

theorem pc_part0_ops0_v24 (W : Valuation τ sig (Elt F)) :
    StableHlo.after main_part0_ops0 W (Proc.devRef .tc main_v24)
      = (Host.divf (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (W (Proc.devRef .tc main_arg15)) slices_S2x500000_S1x500000_1_0) shapeCasts_S1x500000_S500000)) (Host.gather gather_S100000x128_S500000x1_S500000x128_1_0_n_n_0_1_1128 (W (Proc.devRef .tc main_arg0)) (broadcastInDim S500000x1 ![0] bcast_S500000_S500000x1_0 (select (cmpi .slt (shapeCast _ (extractStridedSlice S1x500000 ![0, 0] (W (Proc.devRef .tc main_arg15)) slices_S2x500000_S1x500000_0_0) shapeCasts_S1x500000_S500000) (broadcastInDim S500000 ![] bcast_S_S500000 (constantI S_ 32 0#32))) (addi (shapeCast _ (extractStridedSlice S1x500000 ![0, 0] (W (Proc.devRef .tc main_arg15)) slices_S2x500000_S1x500000_0_0) shapeCasts_S1x500000_S500000) (broadcastInDim S500000 ![] bcast_S_S500000 (constantI S_ 32 100000#32))) (shapeCast _ (extractStridedSlice S1x500000 ![0, 0] (W (Proc.devRef .tc main_arg15)) slices_S2x500000_S1x500000_0_0) shapeCasts_S1x500000_S500000))))) (broadcastInDim S100000x128 ![0, 1] bcast_S100000x1_S100000x128_0_1 (broadcastInDim S100000x1 ![0] bcast_S100000_S100000x1_0 (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (shapeCast _ (extractStridedSlice S1x500000 ![1, 0] (W (Proc.devRef .tc main_arg15)) slices_S2x500000_S1x500000_1_0) shapeCasts_S1x500000_S500000)) (broadcastInDim S500000 ![] bcast_S_S500000 (constant (F := F) S_ .f32 0x3F800000#32))) (broadcastInDim S100000 ![] bcast_S_S100000 (constant (F := F) S_ .f32 0x3F800000#32)))))) := by
  host_results <;> rfl

theorem pc_part0_ops0_v38 (W : Valuation τ sig (Elt F)) :
    StableHlo.after main_part0_ops0 W (Proc.devRef .tc main_v38)
      = (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (W (Proc.devRef .tc main_arg16)) slices_S2x100000_S1x100000_1_0) shapeCasts_S1x100000_S100000)) (Host.gather gather_S100000x128_S100000x1_S100000x128_1_0_n_n_0_1_1128 (W (Proc.devRef .tc main_arg0)) (broadcastInDim S100000x1 ![0] bcast_S100000_S100000x1_0 (select (cmpi .slt (shapeCast _ (extractStridedSlice S1x100000 ![0, 0] (W (Proc.devRef .tc main_arg16)) slices_S2x100000_S1x100000_0_0) shapeCasts_S1x100000_S100000) (broadcastInDim S100000 ![] bcast_S_S100000 (constantI S_ 32 0#32))) (addi (shapeCast _ (extractStridedSlice S1x100000 ![0, 0] (W (Proc.devRef .tc main_arg16)) slices_S2x100000_S1x100000_0_0) shapeCasts_S1x100000_S100000) (broadcastInDim S100000 ![] bcast_S_S100000 (constantI S_ 32 100000#32))) (shapeCast _ (extractStridedSlice S1x100000 ![0, 0] (W (Proc.devRef .tc main_arg16)) slices_S2x100000_S1x100000_0_0) shapeCasts_S1x100000_S100000))))) := by
  host_results <;> rfl

theorem pc_part0_ops0_v47 (W : Valuation τ sig (Elt F)) :
    StableHlo.after main_part0_ops0 W (Proc.devRef .tc main_v47)
      = (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (W (Proc.devRef .tc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))) := by
  host_results <;> rfl

theorem pc_part1_ops0_v49 (W : Valuation τ sig (Elt F)) :
    StableHlo.after main_part1_ops0 W (Proc.devRef .tc main_v49)
      = (Host.divf (W (Proc.devRef .tc main_v38)) (broadcastInDim S100000x128 ![0, 1] bcast_S100000x1_S100000x128_0_1 (W (Proc.devRef .tc main_v47)))) := by
  host_results <;> rfl

theorem pc_part1_ops0_v74 (W : Valuation τ sig (Elt F)) :
    StableHlo.after main_part1_ops0 W (Proc.devRef .tc main_v74)
      = (Host.divf (Host.scatterAdd scatter_S100000x128_S20000x1_S20000x128_1_0_0_1 (broadcastInDim S100000x128 ![] bcast_S_S100000x128 (constant (F := F) S_ .f32 0x00000000#32)) (broadcastInDim S20000x1 ![0] bcast_S20000_S20000x1_0 (shapeCast _ (extractStridedSlice S1x20000 ![1, 0] (W (Proc.devRef .tc main_arg17)) slices_S2x20000_S1x20000_1_0) shapeCasts_S1x20000_S20000)) (Host.gather gather_S20000x128_S20000x1_S20000x128_1_0_n_n_0_1_1128 (W (Proc.devRef .tc main_arg1)) (broadcastInDim S20000x1 ![0] bcast_S20000_S20000x1_0 (select (cmpi .slt (shapeCast _ (extractStridedSlice S1x20000 ![0, 0] (W (Proc.devRef .tc main_arg17)) slices_S2x20000_S1x20000_0_0) shapeCasts_S1x20000_S20000) (broadcastInDim S20000 ![] bcast_S_S20000 (constantI S_ 32 0#32))) (addi (shapeCast _ (extractStridedSlice S1x20000 ![0, 0] (W (Proc.devRef .tc main_arg17)) slices_S2x20000_S1x20000_0_0) shapeCasts_S1x20000_S20000) (broadcastInDim S20000 ![] bcast_S_S20000 (constantI S_ 32 20000#32))) (shapeCast _ (extractStridedSlice S1x20000 ![0, 0] (W (Proc.devRef .tc main_arg17)) slices_S2x20000_S1x20000_0_0) shapeCasts_S1x20000_S20000))))) (broadcastInDim S100000x128 ![0, 1] bcast_S100000x1_S100000x128_0_1 (broadcastInDim S100000x1 ![0] bcast_S100000_S100000x1_0 (maximumf (Host.scatterAdd scatter_S100000_S20000x1_S20000_n_0_0_1 (broadcastInDim S100000 ![] bcast_S_S100000 (constant (F := F) S_ .f32 0x00000000#32)) (broadcastInDim S20000x1 ![0] bcast_S20000_S20000x1_0 (shapeCast _ (extractStridedSlice S1x20000 ![1, 0] (W (Proc.devRef .tc main_arg17)) slices_S2x20000_S1x20000_1_0) shapeCasts_S1x20000_S20000)) (broadcastInDim S20000 ![] bcast_S_S20000 (constant (F := F) S_ .f32 0x3F800000#32))) (broadcastInDim S100000 ![] bcast_S_S100000 (constant (F := F) S_ .f32 0x3F800000#32)))))) := by
  host_results <;> rfl

theorem pc_part1_ops0_v88 (W : Valuation τ sig (Elt F)) :
    StableHlo.after main_part1_ops0 W (Proc.devRef .tc main_v88)
      = (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (W (Proc.devRef .tc main_arg19)) slices_S2x50000_S1x50000_1_0) shapeCasts_S1x50000_S50000)) (Host.gather gather_S50000x128_S50000x1_S50000x128_1_0_n_n_0_1_1128 (W (Proc.devRef .tc main_arg2)) (broadcastInDim S50000x1 ![0] bcast_S50000_S50000x1_0 (select (cmpi .slt (shapeCast _ (extractStridedSlice S1x50000 ![0, 0] (W (Proc.devRef .tc main_arg19)) slices_S2x50000_S1x50000_0_0) shapeCasts_S1x50000_S50000) (broadcastInDim S50000 ![] bcast_S_S50000 (constantI S_ 32 0#32))) (addi (shapeCast _ (extractStridedSlice S1x50000 ![0, 0] (W (Proc.devRef .tc main_arg19)) slices_S2x50000_S1x50000_0_0) shapeCasts_S1x50000_S50000) (broadcastInDim S50000 ![] bcast_S_S50000 (constantI S_ 32 50000#32))) (shapeCast _ (extractStridedSlice S1x50000 ![0, 0] (W (Proc.devRef .tc main_arg19)) slices_S2x50000_S1x50000_0_0) shapeCasts_S1x50000_S50000))))) := by
  host_results <;> rfl

theorem pc_part1_ops0_v94 (W : Valuation τ sig (Elt F)) :
    StableHlo.after main_part1_ops0 W (Proc.devRef .tc main_v94)
      = (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (W (Proc.devRef .tc main_arg19)) slices_S2x50000_S1x50000_1_0) shapeCasts_S1x50000_S50000)) (broadcastInDim S50000 ![] bcast_S_S50000 (constant (F := F) S_ .f32 0x3F800000#32))) := by
  host_results <;> rfl

theorem pc_part1_ops0_v95 (W : Valuation τ sig (Elt F)) :
    StableHlo.after main_part1_ops0 W (Proc.devRef .tc main_v95)
      = (broadcastInDim S100000 ![] bcast_S_S100000 (constant (F := F) S_ .f32 0x3F800000#32)) := by
  host_results <;> rfl

theorem pc_part2_ops0_v99 (W : Valuation τ sig (Elt F)) :
    StableHlo.after main_part2_ops0 W (Proc.devRef .tc main_v99)
      = (Host.divf (W (Proc.devRef .tc main_v88)) (broadcastInDim S100000x128 ![0, 1] bcast_S100000x1_S100000x128_0_1 (broadcastInDim S100000x1 ![0] bcast_S100000_S100000x1_0 (maximumf (W (Proc.devRef .tc main_v94)) (W (Proc.devRef .tc main_v95)))))) := by
  host_results <;> rfl

theorem pc_part2_ops0_v124 (W : Valuation τ sig (Elt F)) :
    StableHlo.after main_part2_ops0 W (Proc.devRef .tc main_v124)
      = (Host.divf (Host.scatterAdd scatter_S100000x128_S5000x1_S5000x128_1_0_0_1 (broadcastInDim S100000x128 ![] bcast_S_S100000x128 (constant (F := F) S_ .f32 0x00000000#32)) (broadcastInDim S5000x1 ![0] bcast_S5000_S5000x1_0 (shapeCast _ (extractStridedSlice S1x5000 ![1, 0] (W (Proc.devRef .tc main_arg21)) slices_S2x5000_S1x5000_1_0) shapeCasts_S1x5000_S5000)) (Host.gather gather_S5000x128_S5000x1_S5000x128_1_0_n_n_0_1_1128 (W (Proc.devRef .tc main_arg3)) (broadcastInDim S5000x1 ![0] bcast_S5000_S5000x1_0 (select (cmpi .slt (shapeCast _ (extractStridedSlice S1x5000 ![0, 0] (W (Proc.devRef .tc main_arg21)) slices_S2x5000_S1x5000_0_0) shapeCasts_S1x5000_S5000) (broadcastInDim S5000 ![] bcast_S_S5000 (constantI S_ 32 0#32))) (addi (shapeCast _ (extractStridedSlice S1x5000 ![0, 0] (W (Proc.devRef .tc main_arg21)) slices_S2x5000_S1x5000_0_0) shapeCasts_S1x5000_S5000) (broadcastInDim S5000 ![] bcast_S_S5000 (constantI S_ 32 5000#32))) (shapeCast _ (extractStridedSlice S1x5000 ![0, 0] (W (Proc.devRef .tc main_arg21)) slices_S2x5000_S1x5000_0_0) shapeCasts_S1x5000_S5000))))) (broadcastInDim S100000x128 ![0, 1] bcast_S100000x1_S100000x128_0_1 (broadcastInDim S100000x1 ![0] bcast_S100000_S100000x1_0 (maximumf (Host.scatterAdd scatter_S100000_S5000x1_S5000_n_0_0_1 (broadcastInDim S100000 ![] bcast_S_S100000 (constant (F := F) S_ .f32 0x00000000#32)) (broadcastInDim S5000x1 ![0] bcast_S5000_S5000x1_0 (shapeCast _ (extractStridedSlice S1x5000 ![1, 0] (W (Proc.devRef .tc main_arg21)) slices_S2x5000_S1x5000_1_0) shapeCasts_S1x5000_S5000)) (broadcastInDim S5000 ![] bcast_S_S5000 (constant (F := F) S_ .f32 0x3F800000#32))) (broadcastInDim S100000 ![] bcast_S_S100000 (constant (F := F) S_ .f32 0x3F800000#32)))))) := by
  host_results <;> rfl

theorem pc_part4_ops0_v215 (W : Valuation τ sig (Elt F)) :
    StableHlo.after main_part4_ops0 W (Proc.devRef .tc main_v215)
      = (concatenate S5x128x128 0 [⟨S1x128x128, (broadcastInDim S1x128x128 ![1, 2] bcast_S128x128_S1x128x128_1_2 (shapeCast _ (extractStridedSlice S1x1x128x128 ![0, 0, 0, 0] (W (Proc.devRef .tc main_arg4)) slices_S3x8x128x128_S1x1x128x128_0_0_0_0) shapeCasts_S1x1x128x128_S128x128))⟩, ⟨S1x128x128, (broadcastInDim S1x128x128 ![1, 2] bcast_S128x128_S1x128x128_1_2 (shapeCast _ (extractStridedSlice S1x1x128x128 ![0, 1, 0, 0] (W (Proc.devRef .tc main_arg4)) slices_S3x8x128x128_S1x1x128x128_0_1_0_0) shapeCasts_S1x1x128x128_S128x128))⟩, ⟨S1x128x128, (broadcastInDim S1x128x128 ![1, 2] bcast_S128x128_S1x128x128_1_2 (shapeCast _ (extractStridedSlice S1x1x128x128 ![0, 2, 0, 0] (W (Proc.devRef .tc main_arg4)) slices_S3x8x128x128_S1x1x128x128_0_2_0_0) shapeCasts_S1x1x128x128_S128x128))⟩, ⟨S1x128x128, (broadcastInDim S1x128x128 ![1, 2] bcast_S128x128_S1x128x128_1_2 (shapeCast _ (extractStridedSlice S1x1x128x128 ![0, 4, 0, 0] (W (Proc.devRef .tc main_arg4)) slices_S3x8x128x128_S1x1x128x128_0_4_0_0) shapeCasts_S1x1x128x128_S128x128))⟩, ⟨S1x128x128, (broadcastInDim S1x128x128 ![1, 2] bcast_S128x128_S1x128x128_1_2 (shapeCast _ (extractStridedSlice S1x1x128x128 ![0, 6, 0, 0] (W (Proc.devRef .tc main_arg4)) slices_S3x8x128x128_S1x1x128x128_0_6_0_0) shapeCasts_S1x1x128x128_S128x128))⟩] concatenates_S1x128x128_S1x128x128_S1x128x128_S1x128x128_S1x128x128_S5x128x128_d0) := by
  host_results <;> rfl

theorem pc_part4_ops0_v229 (W : Valuation τ sig (Elt F)) :
    StableHlo.after main_part4_ops0 W (Proc.devRef .tc main_v229)
      = (addf (addf (addf (addf (shapeCast _ (extractStridedSlice S1x1x128x128 ![0, 0, 0, 0] (W (Proc.devRef .tc main_arg6)) slices_S3x8x128x128_S1x1x128x128_0_0_0_0) shapeCasts_S1x1x128x128_S128x128) (shapeCast _ (extractStridedSlice S1x1x128x128 ![0, 1, 0, 0] (W (Proc.devRef .tc main_arg6)) slices_S3x8x128x128_S1x1x128x128_0_1_0_0) shapeCasts_S1x1x128x128_S128x128)) (shapeCast _ (extractStridedSlice S1x1x128x128 ![0, 2, 0, 0] (W (Proc.devRef .tc main_arg6)) slices_S3x8x128x128_S1x1x128x128_0_2_0_0) shapeCasts_S1x1x128x128_S128x128)) (shapeCast _ (extractStridedSlice S1x1x128x128 ![0, 4, 0, 0] (W (Proc.devRef .tc main_arg6)) slices_S3x8x128x128_S1x1x128x128_0_4_0_0) shapeCasts_S1x1x128x128_S128x128)) (shapeCast _ (extractStridedSlice S1x1x128x128 ![0, 6, 0, 0] (W (Proc.devRef .tc main_arg6)) slices_S3x8x128x128_S1x1x128x128_0_6_0_0) shapeCasts_S1x1x128x128_S128x128)) := by
  host_results <;> rfl

theorem pc_part4_ops0_v244 (W : Valuation τ sig (Elt F)) :
    StableHlo.after main_part4_ops0 W (Proc.devRef .tc main_v244)
      = (shapeCast _ (addf (addf (addf (addf (shapeCast _ (extractStridedSlice S1x1x128 ![0, 0, 0] (W (Proc.devRef .tc main_arg5)) slices_S3x8x128_S1x1x128_0_0_0) shapeCasts_S1x1x128_S128) (shapeCast _ (extractStridedSlice S1x1x128 ![0, 1, 0] (W (Proc.devRef .tc main_arg5)) slices_S3x8x128_S1x1x128_0_1_0) shapeCasts_S1x1x128_S128)) (shapeCast _ (extractStridedSlice S1x1x128 ![0, 2, 0] (W (Proc.devRef .tc main_arg5)) slices_S3x8x128_S1x1x128_0_2_0) shapeCasts_S1x1x128_S128)) (shapeCast _ (extractStridedSlice S1x1x128 ![0, 4, 0] (W (Proc.devRef .tc main_arg5)) slices_S3x8x128_S1x1x128_0_4_0) shapeCasts_S1x1x128_S128)) (shapeCast _ (extractStridedSlice S1x1x128 ![0, 6, 0] (W (Proc.devRef .tc main_arg5)) slices_S3x8x128_S1x1x128_0_6_0) shapeCasts_S1x1x128_S128)) shapeCasts_S128_S1x128) := by
  host_results <;> rfl

theorem pc_part2_ops0_v138 (W : Valuation τ sig (Elt F)) :
    StableHlo.after main_part2_ops0 W (Proc.devRef .tc main_v138)
      = (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (W (Proc.devRef .tc main_arg18)) slices_S2x20000_S1x20000_1_0) shapeCasts_S1x20000_S20000)) (Host.gather gather_S100000x128_S20000x1_S20000x128_1_0_n_n_0_1_1128 (W (Proc.devRef .tc main_arg0)) (broadcastInDim S20000x1 ![0] bcast_S20000_S20000x1_0 (select (cmpi .slt (shapeCast _ (extractStridedSlice S1x20000 ![0, 0] (W (Proc.devRef .tc main_arg18)) slices_S2x20000_S1x20000_0_0) shapeCasts_S1x20000_S20000) (broadcastInDim S20000 ![] bcast_S_S20000 (constantI S_ 32 0#32))) (addi (shapeCast _ (extractStridedSlice S1x20000 ![0, 0] (W (Proc.devRef .tc main_arg18)) slices_S2x20000_S1x20000_0_0) shapeCasts_S1x20000_S20000) (broadcastInDim S20000 ![] bcast_S_S20000 (constantI S_ 32 100000#32))) (shapeCast _ (extractStridedSlice S1x20000 ![0, 0] (W (Proc.devRef .tc main_arg18)) slices_S2x20000_S1x20000_0_0) shapeCasts_S1x20000_S20000))))) := by
  host_results <;> rfl

theorem pc_part2_ops0_v144 (W : Valuation τ sig (Elt F)) :
    StableHlo.after main_part2_ops0 W (Proc.devRef .tc main_v144)
      = (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (W (Proc.devRef .tc main_arg18)) slices_S2x20000_S1x20000_1_0) shapeCasts_S1x20000_S20000)) (broadcastInDim S20000 ![] bcast_S_S20000 (constant (F := F) S_ .f32 0x3F800000#32))) := by
  host_results <;> rfl

theorem pc_part3_ops0_v149 (W : Valuation τ sig (Elt F)) :
    StableHlo.after main_part3_ops0 W (Proc.devRef .tc main_v149)
      = (Host.divf (W (Proc.devRef .tc main_v138)) (broadcastInDim S20000x128 ![0, 1] bcast_S20000x1_S20000x128_0_1 (broadcastInDim S20000x1 ![0] bcast_S20000_S20000x1_0 (maximumf (W (Proc.devRef .tc main_v144)) (broadcastInDim S20000 ![] bcast_S_S20000 (constant (F := F) S_ .f32 0x3F800000#32)))))) := by
  host_results <;> rfl

theorem pc_part4_ops1_v248 (W : Valuation τ sig (Elt F)) :
    StableHlo.after main_part4_ops1 W (Proc.devRef .tc main_v248)
      = (shapeCast _ (shapeCast _ (extractStridedSlice S1x1x128x128 ![0, 3, 0, 0] (W (Proc.devRef .tc main_arg4)) slices_S3x8x128x128_S1x1x128x128_0_3_0_0) shapeCasts_S1x1x128x128_S128x128) shapeCasts_S128x128_S1x128x128) := by
  host_results <;> rfl

theorem pc_part4_ops1_v250 (W : Valuation τ sig (Elt F)) :
    StableHlo.after main_part4_ops1 W (Proc.devRef .tc main_v250)
      = (shapeCast _ (extractStridedSlice S1x1x128x128 ![0, 3, 0, 0] (W (Proc.devRef .tc main_arg6)) slices_S3x8x128x128_S1x1x128x128_0_3_0_0) shapeCasts_S1x1x128x128_S128x128) := by
  host_results <;> rfl

theorem pc_part4_ops1_v251 (W : Valuation τ sig (Elt F)) :
    StableHlo.after main_part4_ops1 W (Proc.devRef .tc main_v251)
      = (extractStridedSlice S1x1x128 ![0, 3, 0] (W (Proc.devRef .tc main_arg5)) slices_S3x8x128_S1x1x128_0_3_0) := by
  host_results <;> rfl

theorem pc_part5_ops0_v253 (W : Valuation τ sig (Elt F)) :
    StableHlo.after main_part5_ops0 W (Proc.devRef .tc main_v253)
      = (shapeCast _ (shapeCast _ (W (Proc.devRef .tc main_v251)) shapeCasts_S1x1x128_S128) shapeCasts_S128_S1x128) := by
  host_results <;> rfl

theorem pc_part3_ops0_v174 (W : Valuation τ sig (Elt F)) :
    StableHlo.after main_part3_ops0 W (Proc.devRef .tc main_v174)
      = (Host.divf (Host.scatterAdd scatter_S50000x128_S50000x1_S50000x128_1_0_0_1 (broadcastInDim S50000x128 ![] bcast_S_S50000x128 (constant (F := F) S_ .f32 0x00000000#32)) (broadcastInDim S50000x1 ![0] bcast_S50000_S50000x1_0 (shapeCast _ (extractStridedSlice S1x50000 ![1, 0] (W (Proc.devRef .tc main_arg20)) slices_S2x50000_S1x50000_1_0) shapeCasts_S1x50000_S50000)) (Host.gather gather_S100000x128_S50000x1_S50000x128_1_0_n_n_0_1_1128 (W (Proc.devRef .tc main_arg0)) (broadcastInDim S50000x1 ![0] bcast_S50000_S50000x1_0 (select (cmpi .slt (shapeCast _ (extractStridedSlice S1x50000 ![0, 0] (W (Proc.devRef .tc main_arg20)) slices_S2x50000_S1x50000_0_0) shapeCasts_S1x50000_S50000) (broadcastInDim S50000 ![] bcast_S_S50000 (constantI S_ 32 0#32))) (addi (shapeCast _ (extractStridedSlice S1x50000 ![0, 0] (W (Proc.devRef .tc main_arg20)) slices_S2x50000_S1x50000_0_0) shapeCasts_S1x50000_S50000) (broadcastInDim S50000 ![] bcast_S_S50000 (constantI S_ 32 100000#32))) (shapeCast _ (extractStridedSlice S1x50000 ![0, 0] (W (Proc.devRef .tc main_arg20)) slices_S2x50000_S1x50000_0_0) shapeCasts_S1x50000_S50000))))) (broadcastInDim S50000x128 ![0, 1] bcast_S50000x1_S50000x128_0_1 (broadcastInDim S50000x1 ![0] bcast_S50000_S50000x1_0 (maximumf (Host.scatterAdd scatter_S50000_S50000x1_S50000_n_0_0_1 (broadcastInDim S50000 ![] bcast_S_S50000 (constant (F := F) S_ .f32 0x00000000#32)) (broadcastInDim S50000x1 ![0] bcast_S50000_S50000x1_0 (shapeCast _ (extractStridedSlice S1x50000 ![1, 0] (W (Proc.devRef .tc main_arg20)) slices_S2x50000_S1x50000_1_0) shapeCasts_S1x50000_S50000)) (broadcastInDim S50000 ![] bcast_S_S50000 (constant (F := F) S_ .f32 0x3F800000#32))) (broadcastInDim S50000 ![] bcast_S_S50000 (constant (F := F) S_ .f32 0x3F800000#32)))))) := by
  host_results <;> rfl

theorem pc_part5_ops1_v257 (W : Valuation τ sig (Elt F)) :
    StableHlo.after main_part5_ops1 W (Proc.devRef .tc main_v257)
      = (shapeCast _ (shapeCast _ (extractStridedSlice S1x1x128x128 ![0, 5, 0, 0] (W (Proc.devRef .tc main_arg4)) slices_S3x8x128x128_S1x1x128x128_0_5_0_0) shapeCasts_S1x1x128x128_S128x128) shapeCasts_S128x128_S1x128x128) := by
  host_results <;> rfl

theorem pc_part5_ops1_v259 (W : Valuation τ sig (Elt F)) :
    StableHlo.after main_part5_ops1 W (Proc.devRef .tc main_v259)
      = (shapeCast _ (extractStridedSlice S1x1x128x128 ![0, 5, 0, 0] (W (Proc.devRef .tc main_arg6)) slices_S3x8x128x128_S1x1x128x128_0_5_0_0) shapeCasts_S1x1x128x128_S128x128) := by
  host_results <;> rfl

theorem pc_part5_ops1_v262 (W : Valuation τ sig (Elt F)) :
    StableHlo.after main_part5_ops1 W (Proc.devRef .tc main_v262)
      = (shapeCast _ (shapeCast _ (extractStridedSlice S1x1x128 ![0, 5, 0] (W (Proc.devRef .tc main_arg5)) slices_S3x8x128_S1x1x128_0_5_0) shapeCasts_S1x1x128_S128) shapeCasts_S128_S1x128) := by
  host_results <;> rfl

theorem pc_part3_ops0_v188 (W : Valuation τ sig (Elt F)) :
    StableHlo.after main_part3_ops0 W (Proc.devRef .tc main_v188)
      = (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (W (Proc.devRef .tc main_arg22)) slices_S2x5000_S1x5000_1_0) shapeCasts_S1x5000_S5000)) (Host.gather gather_S100000x128_S5000x1_S5000x128_1_0_n_n_0_1_1128 (W (Proc.devRef .tc main_arg0)) (broadcastInDim S5000x1 ![0] bcast_S5000_S5000x1_0 (select (cmpi .slt (shapeCast _ (extractStridedSlice S1x5000 ![0, 0] (W (Proc.devRef .tc main_arg22)) slices_S2x5000_S1x5000_0_0) shapeCasts_S1x5000_S5000) (broadcastInDim S5000 ![] bcast_S_S5000 (constantI S_ 32 0#32))) (addi (shapeCast _ (extractStridedSlice S1x5000 ![0, 0] (W (Proc.devRef .tc main_arg22)) slices_S2x5000_S1x5000_0_0) shapeCasts_S1x5000_S5000) (broadcastInDim S5000 ![] bcast_S_S5000 (constantI S_ 32 100000#32))) (shapeCast _ (extractStridedSlice S1x5000 ![0, 0] (W (Proc.devRef .tc main_arg22)) slices_S2x5000_S1x5000_0_0) shapeCasts_S1x5000_S5000))))) := by
  host_results <;> rfl

theorem pc_part3_ops0_v192 (W : Valuation τ sig (Elt F)) :
    StableHlo.after main_part3_ops0 W (Proc.devRef .tc main_v192)
      = (broadcastInDim S5000 ![] bcast_S_S5000 (constant (F := F) S_ .f32 0x00000000#32)) := by
  host_results <;> rfl

theorem pc_part3_ops0_v191 (W : Valuation τ sig (Elt F)) :
    StableHlo.after main_part3_ops0 W (Proc.devRef .tc main_v191)
      = (shapeCast _ (extractStridedSlice S1x5000 ![1, 0] (W (Proc.devRef .tc main_arg22)) slices_S2x5000_S1x5000_1_0) shapeCasts_S1x5000_S5000) := by
  host_results <;> rfl

theorem pc_part3_ops0_v189 (W : Valuation τ sig (Elt F)) :
    StableHlo.after main_part3_ops0 W (Proc.devRef .tc main_v189)
      = (broadcastInDim S5000 ![] bcast_S_S5000 (constant (F := F) S_ .f32 0x3F800000#32)) := by
  host_results <;> rfl

theorem pc_part4_ops0_v199 (W : Valuation τ sig (Elt F)) :
    StableHlo.after main_part4_ops0 W (Proc.devRef .tc main_v199)
      = (Host.divf (W (Proc.devRef .tc main_v188)) (broadcastInDim S5000x128 ![0, 1] bcast_S5000x1_S5000x128_0_1 (broadcastInDim S5000x1 ![0] bcast_S5000_S5000x1_0 (maximumf (Host.scatterAdd scatter_S5000_S5000x1_S5000_n_0_0_1 (W (Proc.devRef .tc main_v192)) (broadcastInDim S5000x1 ![0] bcast_S5000_S5000x1_0 (W (Proc.devRef .tc main_v191))) (W (Proc.devRef .tc main_v189))) (broadcastInDim S5000 ![] bcast_S_S5000 (constant (F := F) S_ .f32 0x3F800000#32)))))) := by
  host_results <;> rfl

theorem pc_part5_ops2_v266 (W : Valuation τ sig (Elt F)) :
    StableHlo.after main_part5_ops2 W (Proc.devRef .tc main_v266)
      = (shapeCast _ (shapeCast _ (extractStridedSlice S1x1x128x128 ![0, 7, 0, 0] (W (Proc.devRef .tc main_arg4)) slices_S3x8x128x128_S1x1x128x128_0_7_0_0) shapeCasts_S1x1x128x128_S128x128) shapeCasts_S128x128_S1x128x128) := by
  host_results <;> rfl

theorem pc_part5_ops2_v268 (W : Valuation τ sig (Elt F)) :
    StableHlo.after main_part5_ops2 W (Proc.devRef .tc main_v268)
      = (shapeCast _ (extractStridedSlice S1x1x128x128 ![0, 7, 0, 0] (W (Proc.devRef .tc main_arg6)) slices_S3x8x128x128_S1x1x128x128_0_7_0_0) shapeCasts_S1x1x128x128_S128x128) := by
  host_results <;> rfl

theorem pc_part5_ops2_v271 (W : Valuation τ sig (Elt F)) :
    StableHlo.after main_part5_ops2 W (Proc.devRef .tc main_v271)
      = (shapeCast _ (shapeCast _ (extractStridedSlice S1x1x128 ![0, 7, 0] (W (Proc.devRef .tc main_arg5)) slices_S3x8x128_S1x1x128_0_7_0) shapeCasts_S1x1x128_S128) shapeCasts_S128_S1x128) := by
  host_results <;> rfl

end Cert.KernelIdeal.Hand

end
-- ==== Proof.KI.HostIn0.lean ====
/- What the regions of layer 0 find in their input windows' arrays: each aggregate window the mean aggregation of the
   source features of that layer along its edge type; each destination window the features themselves; each weight
   window, index by index, the slice (or the sum of slices) of the stacked parameters. First every host result these
   read, at the boundary of @main where it is made. -/
import proofs.«125545_j64845416235624_1_alg».proof.Proof.KI.Fold
import proofs.«125545_j64845416235624_1_alg».proof.Proof.KI.Keep
import proofs.«125545_j64845416235624_1_alg».proof.Proof.KI.Agg
import proofs.«125545_j64845416235624_1_alg».proof.Proof.KI.HostLayout
import proofs.«125545_j64845416235624_1_alg».proof.Proof.KI.HostPc0
import proofs.«125545_j64845416235624_1_alg».proof.Proof.NetDefs

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-! ## The host results at the boundaries where they are made -/

section Values
variable (m : (ℓ : Loc nD τ sig) → Buf (Elt F) ℓ) (ρ : Dev nD → PrngReg)

theorem val_v24 (c : Dev nD) :
    W1 m ρ c (Proc.devRef .tc main_v24)
      = (Host.divf (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (Host.gather gather_S100000x128_S500000x1_S500000x128_1_0_n_n_0_1_1128 (m ((c : Thread nD τ).loc main_arg0)) (broadcastInDim S500000x1 ![0] bcast_S500000_S500000x1_0 (select (cmpi .slt (shapeCast _ (extractStridedSlice S1x500000 ![0, 0] (m ((c : Thread nD τ).loc main_arg15)) slices_S2x500000_S1x500000_0_0) shapeCasts_S1x500000_S500000) (broadcastInDim S500000 ![] bcast_S_S500000 (constantI S_ 32 0#32))) (addi (shapeCast _ (extractStridedSlice S1x500000 ![0, 0] (m ((c : Thread nD τ).loc main_arg15)) slices_S2x500000_S1x500000_0_0) shapeCasts_S1x500000_S500000) (broadcastInDim S500000 ![] bcast_S_S500000 (constantI S_ 32 100000#32))) (shapeCast _ (extractStridedSlice S1x500000 ![0, 0] (m ((c : Thread nD τ).loc main_arg15)) slices_S2x500000_S1x500000_0_0) shapeCasts_S1x500000_S500000))))) (broadcastInDim S100000x128 ![0, 1] bcast_S100000x1_S100000x128_0_1 (broadcastInDim S100000x1 ![0] bcast_S100000_S100000x1_0 (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (broadcastInDim S500000 ![] bcast_S_S500000 (constant (F := F) S_ .f32 0x3F800000#32))) (broadcastInDim S100000 ![] bcast_S_S100000 (constant (F := F) S_ .f32 0x3F800000#32)))))) :=
  (pc_part0_ops0_v24 (W0 m ρ c)).trans (by
    rw [(show W0 m ρ c (Proc.devRef .tc main_arg15) = (m ((c : Thread nD τ).loc main_arg15)) from
    rfl),
      (show W0 m ρ c (Proc.devRef .tc main_arg0) = (m ((c : Thread nD τ).loc main_arg0)) from
    rfl)])

theorem val_v38 (c : Dev nD) :
    W1 m ρ c (Proc.devRef .tc main_v38)
      = (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (Host.gather gather_S100000x128_S100000x1_S100000x128_1_0_n_n_0_1_1128 (m ((c : Thread nD τ).loc main_arg0)) (broadcastInDim S100000x1 ![0] bcast_S100000_S100000x1_0 (select (cmpi .slt (shapeCast _ (extractStridedSlice S1x100000 ![0, 0] (m ((c : Thread nD τ).loc main_arg16)) slices_S2x100000_S1x100000_0_0) shapeCasts_S1x100000_S100000) (broadcastInDim S100000 ![] bcast_S_S100000 (constantI S_ 32 0#32))) (addi (shapeCast _ (extractStridedSlice S1x100000 ![0, 0] (m ((c : Thread nD τ).loc main_arg16)) slices_S2x100000_S1x100000_0_0) shapeCasts_S1x100000_S100000) (broadcastInDim S100000 ![] bcast_S_S100000 (constantI S_ 32 100000#32))) (shapeCast _ (extractStridedSlice S1x100000 ![0, 0] (m ((c : Thread nD τ).loc main_arg16)) slices_S2x100000_S1x100000_0_0) shapeCasts_S1x100000_S100000))))) :=
  (pc_part0_ops0_v38 (W0 m ρ c)).trans (by
    rw [(show W0 m ρ c (Proc.devRef .tc main_arg16) = (m ((c : Thread nD τ).loc main_arg16)) from
    rfl),
      (show W0 m ρ c (Proc.devRef .tc main_arg0) = (m ((c : Thread nD τ).loc main_arg0)) from
    rfl)])

theorem val_v47 (c : Dev nD) :
    W1 m ρ c (Proc.devRef .tc main_v47)
      = (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))) :=
  (pc_part0_ops0_v47 (W0 m ρ c)).trans (by
    rw [(show W0 m ρ c (Proc.devRef .tc main_arg16) = (m ((c : Thread nD τ).loc main_arg16)) from
    rfl)])

theorem val_v49 (c : Dev nD) :
    W2 m ρ c (Proc.devRef .tc main_v49)
      = (Host.divf (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (Host.gather gather_S100000x128_S100000x1_S100000x128_1_0_n_n_0_1_1128 (m ((c : Thread nD τ).loc main_arg0)) (broadcastInDim S100000x1 ![0] bcast_S100000_S100000x1_0 (select (cmpi .slt (shapeCast _ (extractStridedSlice S1x100000 ![0, 0] (m ((c : Thread nD τ).loc main_arg16)) slices_S2x100000_S1x100000_0_0) shapeCasts_S1x100000_S100000) (broadcastInDim S100000 ![] bcast_S_S100000 (constantI S_ 32 0#32))) (addi (shapeCast _ (extractStridedSlice S1x100000 ![0, 0] (m ((c : Thread nD τ).loc main_arg16)) slices_S2x100000_S1x100000_0_0) shapeCasts_S1x100000_S100000) (broadcastInDim S100000 ![] bcast_S_S100000 (constantI S_ 32 100000#32))) (shapeCast _ (extractStridedSlice S1x100000 ![0, 0] (m ((c : Thread nD τ).loc main_arg16)) slices_S2x100000_S1x100000_0_0) shapeCasts_S1x100000_S100000))))) (broadcastInDim S100000x128 ![0, 1] bcast_S100000x1_S100000x128_0_1 (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))))) :=
  (pc_part1_ops0_v49 (W1 m ρ c)).trans (by
    rw [(show W1 m ρ c (Proc.devRef .tc main_v38) = (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (Host.gather gather_S100000x128_S100000x1_S100000x128_1_0_n_n_0_1_1128 (m ((c : Thread nD τ).loc main_arg0)) (broadcastInDim S100000x1 ![0] bcast_S100000_S100000x1_0 (select (cmpi .slt (shapeCast _ (extractStridedSlice S1x100000 ![0, 0] (m ((c : Thread nD τ).loc main_arg16)) slices_S2x100000_S1x100000_0_0) shapeCasts_S1x100000_S100000) (broadcastInDim S100000 ![] bcast_S_S100000 (constantI S_ 32 0#32))) (addi (shapeCast _ (extractStridedSlice S1x100000 ![0, 0] (m ((c : Thread nD τ).loc main_arg16)) slices_S2x100000_S1x100000_0_0) shapeCasts_S1x100000_S100000) (broadcastInDim S100000 ![] bcast_S_S100000 (constantI S_ 32 100000#32))) (shapeCast _ (extractStridedSlice S1x100000 ![0, 0] (m ((c : Thread nD τ).loc main_arg16)) slices_S2x100000_S1x100000_0_0) shapeCasts_S1x100000_S100000))))) from
    val_v38 m ρ c),
      (show W1 m ρ c (Proc.devRef .tc main_v47) = (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))) from
    val_v47 m ρ c)])

theorem val_v74 (c : Dev nD) :
    W2 m ρ c (Proc.devRef .tc main_v74)
      = (Host.divf (Host.scatterAdd scatter_S100000x128_S20000x1_S20000x128_1_0_0_1 (broadcastInDim S100000x128 ![] bcast_S_S100000x128 (constant (F := F) S_ .f32 0x00000000#32)) (broadcastInDim S20000x1 ![0] bcast_S20000_S20000x1_0 (shapeCast _ (extractStridedSlice S1x20000 ![1, 0] (m ((c : Thread nD τ).loc main_arg17)) slices_S2x20000_S1x20000_1_0) shapeCasts_S1x20000_S20000)) (Host.gather gather_S20000x128_S20000x1_S20000x128_1_0_n_n_0_1_1128 (m ((c : Thread nD τ).loc main_arg1)) (broadcastInDim S20000x1 ![0] bcast_S20000_S20000x1_0 (select (cmpi .slt (shapeCast _ (extractStridedSlice S1x20000 ![0, 0] (m ((c : Thread nD τ).loc main_arg17)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg17)) slices_S2x20000_S1x20000_0_0) shapeCasts_S1x20000_S20000) (broadcastInDim S20000 ![] bcast_S_S20000 (constantI S_ 32 20000#32))) (shapeCast _ (extractStridedSlice S1x20000 ![0, 0] (m ((c : Thread nD τ).loc main_arg17)) slices_S2x20000_S1x20000_0_0) shapeCasts_S1x20000_S20000))))) (broadcastInDim S100000x128 ![0, 1] bcast_S100000x1_S100000x128_0_1 (broadcastInDim S100000x1 ![0] bcast_S100000_S100000x1_0 (maximumf (Host.scatterAdd scatter_S100000_S20000x1_S20000_n_0_0_1 (broadcastInDim S100000 ![] bcast_S_S100000 (constant (F := F) S_ .f32 0x00000000#32)) (broadcastInDim S20000x1 ![0] bcast_S20000_S20000x1_0 (shapeCast _ (extractStridedSlice S1x20000 ![1, 0] (m ((c : Thread nD τ).loc main_arg17)) slices_S2x20000_S1x20000_1_0) shapeCasts_S1x20000_S20000)) (broadcastInDim S20000 ![] bcast_S_S20000 (constant (F := F) S_ .f32 0x3F800000#32))) (broadcastInDim S100000 ![] bcast_S_S100000 (constant (F := F) S_ .f32 0x3F800000#32)))))) :=
  (pc_part1_ops0_v74 (W1 m ρ c)).trans (by
    rw [(show W1 m ρ c (Proc.devRef .tc main_arg17) = (m ((c : Thread nD τ).loc main_arg17)) from
    (keep_main_part0_ops0 (W0 m ρ c) main_arg17 (by decide)).trans <|
    rfl),
      (show W1 m ρ c (Proc.devRef .tc main_arg1) = (m ((c : Thread nD τ).loc main_arg1)) from
    (keep_main_part0_ops0 (W0 m ρ c) main_arg1 (by decide)).trans <|
    rfl)])

theorem val_v88 (c : Dev nD) :
    W2 m ρ c (Proc.devRef .tc main_v88)
      = (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (Host.gather gather_S50000x128_S50000x1_S50000x128_1_0_n_n_0_1_1128 (m ((c : Thread nD τ).loc main_arg2)) (broadcastInDim S50000x1 ![0] bcast_S50000_S50000x1_0 (select (cmpi .slt (shapeCast _ (extractStridedSlice S1x50000 ![0, 0] (m ((c : Thread nD τ).loc main_arg19)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg19)) slices_S2x50000_S1x50000_0_0) shapeCasts_S1x50000_S50000) (broadcastInDim S50000 ![] bcast_S_S50000 (constantI S_ 32 50000#32))) (shapeCast _ (extractStridedSlice S1x50000 ![0, 0] (m ((c : Thread nD τ).loc main_arg19)) slices_S2x50000_S1x50000_0_0) shapeCasts_S1x50000_S50000))))) :=
  (pc_part1_ops0_v88 (W1 m ρ c)).trans (by
    rw [(show W1 m ρ c (Proc.devRef .tc main_arg19) = (m ((c : Thread nD τ).loc main_arg19)) from
    (keep_main_part0_ops0 (W0 m ρ c) main_arg19 (by decide)).trans <|
    rfl),
      (show W1 m ρ c (Proc.devRef .tc main_arg2) = (m ((c : Thread nD τ).loc main_arg2)) from
    (keep_main_part0_ops0 (W0 m ρ c) main_arg2 (by decide)).trans <|
    rfl)])

theorem val_v94 (c : Dev nD) :
    W2 m ρ c (Proc.devRef .tc main_v94)
      = (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (broadcastInDim S50000 ![] bcast_S_S50000 (constant (F := F) S_ .f32 0x3F800000#32))) :=
  (pc_part1_ops0_v94 (W1 m ρ c)).trans (by
    rw [(show W1 m ρ c (Proc.devRef .tc main_arg19) = (m ((c : Thread nD τ).loc main_arg19)) from
    (keep_main_part0_ops0 (W0 m ρ c) main_arg19 (by decide)).trans <|
    rfl)])

theorem val_v95 (c : Dev nD) :
    W2 m ρ c (Proc.devRef .tc main_v95)
      = (broadcastInDim S100000 ![] bcast_S_S100000 (constant (F := F) S_ .f32 0x3F800000#32)) :=
  pc_part1_ops0_v95 (W1 m ρ c)

theorem val_v99 (c : Dev nD) :
    W3 m ρ c (Proc.devRef .tc main_v99)
      = (Host.divf (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (Host.gather gather_S50000x128_S50000x1_S50000x128_1_0_n_n_0_1_1128 (m ((c : Thread nD τ).loc main_arg2)) (broadcastInDim S50000x1 ![0] bcast_S50000_S50000x1_0 (select (cmpi .slt (shapeCast _ (extractStridedSlice S1x50000 ![0, 0] (m ((c : Thread nD τ).loc main_arg19)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg19)) slices_S2x50000_S1x50000_0_0) shapeCasts_S1x50000_S50000) (broadcastInDim S50000 ![] bcast_S_S50000 (constantI S_ 32 50000#32))) (shapeCast _ (extractStridedSlice S1x50000 ![0, 0] (m ((c : Thread nD τ).loc main_arg19)) slices_S2x50000_S1x50000_0_0) shapeCasts_S1x50000_S50000))))) (broadcastInDim S100000x128 ![0, 1] bcast_S100000x1_S100000x128_0_1 (broadcastInDim S100000x1 ![0] bcast_S100000_S100000x1_0 (maximumf (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (broadcastInDim S50000 ![] bcast_S_S50000 (constant (F := F) S_ .f32 0x3F800000#32))) (broadcastInDim S100000 ![] bcast_S_S100000 (constant (F := F) S_ .f32 0x3F800000#32)))))) :=
  (pc_part2_ops0_v99 (W2 m ρ c)).trans (by
    rw [(show W2 m ρ c (Proc.devRef .tc main_v88) = (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (Host.gather gather_S50000x128_S50000x1_S50000x128_1_0_n_n_0_1_1128 (m ((c : Thread nD τ).loc main_arg2)) (broadcastInDim S50000x1 ![0] bcast_S50000_S50000x1_0 (select (cmpi .slt (shapeCast _ (extractStridedSlice S1x50000 ![0, 0] (m ((c : Thread nD τ).loc main_arg19)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg19)) slices_S2x50000_S1x50000_0_0) shapeCasts_S1x50000_S50000) (broadcastInDim S50000 ![] bcast_S_S50000 (constantI S_ 32 50000#32))) (shapeCast _ (extractStridedSlice S1x50000 ![0, 0] (m ((c : Thread nD τ).loc main_arg19)) slices_S2x50000_S1x50000_0_0) shapeCasts_S1x50000_S50000))))) from
    val_v88 m ρ c),
      (show W2 m ρ c (Proc.devRef .tc main_v94) = (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (broadcastInDim S50000 ![] bcast_S_S50000 (constant (F := F) S_ .f32 0x3F800000#32))) from
    val_v94 m ρ c),
      (show W2 m ρ c (Proc.devRef .tc main_v95) = (broadcastInDim S100000 ![] bcast_S_S100000 (constant (F := F) S_ .f32 0x3F800000#32)) from
    val_v95 m ρ c)])

theorem val_v124 (c : Dev nD) :
    W3 m ρ c (Proc.devRef .tc main_v124)
      = (Host.divf (Host.scatterAdd scatter_S100000x128_S5000x1_S5000x128_1_0_0_1 (broadcastInDim S100000x128 ![] bcast_S_S100000x128 (constant (F := F) S_ .f32 0x00000000#32)) (broadcastInDim S5000x1 ![0] bcast_S5000_S5000x1_0 (shapeCast _ (extractStridedSlice S1x5000 ![1, 0] (m ((c : Thread nD τ).loc main_arg21)) slices_S2x5000_S1x5000_1_0) shapeCasts_S1x5000_S5000)) (Host.gather gather_S5000x128_S5000x1_S5000x128_1_0_n_n_0_1_1128 (m ((c : Thread nD τ).loc main_arg3)) (broadcastInDim S5000x1 ![0] bcast_S5000_S5000x1_0 (select (cmpi .slt (shapeCast _ (extractStridedSlice S1x5000 ![0, 0] (m ((c : Thread nD τ).loc main_arg21)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg21)) slices_S2x5000_S1x5000_0_0) shapeCasts_S1x5000_S5000) (broadcastInDim S5000 ![] bcast_S_S5000 (constantI S_ 32 5000#32))) (shapeCast _ (extractStridedSlice S1x5000 ![0, 0] (m ((c : Thread nD τ).loc main_arg21)) slices_S2x5000_S1x5000_0_0) shapeCasts_S1x5000_S5000))))) (broadcastInDim S100000x128 ![0, 1] bcast_S100000x1_S100000x128_0_1 (broadcastInDim S100000x1 ![0] bcast_S100000_S100000x1_0 (maximumf (Host.scatterAdd scatter_S100000_S5000x1_S5000_n_0_0_1 (broadcastInDim S100000 ![] bcast_S_S100000 (constant (F := F) S_ .f32 0x00000000#32)) (broadcastInDim S5000x1 ![0] bcast_S5000_S5000x1_0 (shapeCast _ (extractStridedSlice S1x5000 ![1, 0] (m ((c : Thread nD τ).loc main_arg21)) slices_S2x5000_S1x5000_1_0) shapeCasts_S1x5000_S5000)) (broadcastInDim S5000 ![] bcast_S_S5000 (constant (F := F) S_ .f32 0x3F800000#32))) (broadcastInDim S100000 ![] bcast_S_S100000 (constant (F := F) S_ .f32 0x3F800000#32)))))) :=
  (pc_part2_ops0_v124 (W2 m ρ c)).trans (by
    rw [(show W2 m ρ c (Proc.devRef .tc main_arg21) = (m ((c : Thread nD τ).loc main_arg21)) from
    (keep_main_part1_ops0 (W1 m ρ c) main_arg21 (by decide)).trans <|
    (keep_main_part0_ops0 (W0 m ρ c) main_arg21 (by decide)).trans <|
    rfl),
      (show W2 m ρ c (Proc.devRef .tc main_arg3) = (m ((c : Thread nD τ).loc main_arg3)) from
    (keep_main_part1_ops0 (W1 m ρ c) main_arg3 (by decide)).trans <|
    (keep_main_part0_ops0 (W0 m ρ c) main_arg3 (by decide)).trans <|
    rfl)])

theorem val_v215 (c : Dev nD) :
    W5 m ρ c (Proc.devRef .tc main_v215)
      = (concatenate S5x128x128 0 [⟨S1x128x128, (broadcastInDim S1x128x128 ![1, 2] bcast_S128x128_S1x128x128_1_2 (shapeCast _ (extractStridedSlice S1x1x128x128 ![0, 0, 0, 0] (m ((c : Thread nD τ).loc main_arg4)) slices_S3x8x128x128_S1x1x128x128_0_0_0_0) shapeCasts_S1x1x128x128_S128x128))⟩, ⟨S1x128x128, (broadcastInDim S1x128x128 ![1, 2] bcast_S128x128_S1x128x128_1_2 (shapeCast _ (extractStridedSlice S1x1x128x128 ![0, 1, 0, 0] (m ((c : Thread nD τ).loc main_arg4)) slices_S3x8x128x128_S1x1x128x128_0_1_0_0) shapeCasts_S1x1x128x128_S128x128))⟩, ⟨S1x128x128, (broadcastInDim S1x128x128 ![1, 2] bcast_S128x128_S1x128x128_1_2 (shapeCast _ (extractStridedSlice S1x1x128x128 ![0, 2, 0, 0] (m ((c : Thread nD τ).loc main_arg4)) slices_S3x8x128x128_S1x1x128x128_0_2_0_0) shapeCasts_S1x1x128x128_S128x128))⟩, ⟨S1x128x128, (broadcastInDim S1x128x128 ![1, 2] bcast_S128x128_S1x128x128_1_2 (shapeCast _ (extractStridedSlice S1x1x128x128 ![0, 4, 0, 0] (m ((c : Thread nD τ).loc main_arg4)) slices_S3x8x128x128_S1x1x128x128_0_4_0_0) shapeCasts_S1x1x128x128_S128x128))⟩, ⟨S1x128x128, (broadcastInDim S1x128x128 ![1, 2] bcast_S128x128_S1x128x128_1_2 (shapeCast _ (extractStridedSlice S1x1x128x128 ![0, 6, 0, 0] (m ((c : Thread nD τ).loc main_arg4)) slices_S3x8x128x128_S1x1x128x128_0_6_0_0) shapeCasts_S1x1x128x128_S128x128))⟩] concatenates_S1x128x128_S1x128x128_S1x128x128_S1x128x128_S1x128x128_S5x128x128_d0) :=
  (pc_part4_ops0_v215 (W4 m ρ c)).trans (by
    rw [(show W4 m ρ c (Proc.devRef .tc main_arg4) = (m ((c : Thread nD τ).loc main_arg4)) from
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v229 (c : Dev nD) :
    W5 m ρ c (Proc.devRef .tc main_v229)
      = (addf (addf (addf (addf (shapeCast _ (extractStridedSlice S1x1x128x128 ![0, 0, 0, 0] (m ((c : Thread nD τ).loc main_arg6)) slices_S3x8x128x128_S1x1x128x128_0_0_0_0) shapeCasts_S1x1x128x128_S128x128) (shapeCast _ (extractStridedSlice S1x1x128x128 ![0, 1, 0, 0] (m ((c : Thread nD τ).loc main_arg6)) slices_S3x8x128x128_S1x1x128x128_0_1_0_0) shapeCasts_S1x1x128x128_S128x128)) (shapeCast _ (extractStridedSlice S1x1x128x128 ![0, 2, 0, 0] (m ((c : Thread nD τ).loc main_arg6)) slices_S3x8x128x128_S1x1x128x128_0_2_0_0) shapeCasts_S1x1x128x128_S128x128)) (shapeCast _ (extractStridedSlice S1x1x128x128 ![0, 4, 0, 0] (m ((c : Thread nD τ).loc main_arg6)) slices_S3x8x128x128_S1x1x128x128_0_4_0_0) shapeCasts_S1x1x128x128_S128x128)) (shapeCast _ (extractStridedSlice S1x1x128x128 ![0, 6, 0, 0] (m ((c : Thread nD τ).loc main_arg6)) slices_S3x8x128x128_S1x1x128x128_0_6_0_0) shapeCasts_S1x1x128x128_S128x128)) :=
  (pc_part4_ops0_v229 (W4 m ρ c)).trans (by
    rw [(show W4 m ρ c (Proc.devRef .tc main_arg6) = (m ((c : Thread nD τ).loc main_arg6)) from
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v244 (c : Dev nD) :
    W5 m ρ c (Proc.devRef .tc main_v244)
      = (shapeCast _ (addf (addf (addf (addf (shapeCast _ (extractStridedSlice S1x1x128 ![0, 0, 0] (m ((c : Thread nD τ).loc main_arg5)) slices_S3x8x128_S1x1x128_0_0_0) shapeCasts_S1x1x128_S128) (shapeCast _ (extractStridedSlice S1x1x128 ![0, 1, 0] (m ((c : Thread nD τ).loc main_arg5)) slices_S3x8x128_S1x1x128_0_1_0) shapeCasts_S1x1x128_S128)) (shapeCast _ (extractStridedSlice S1x1x128 ![0, 2, 0] (m ((c : Thread nD τ).loc main_arg5)) slices_S3x8x128_S1x1x128_0_2_0) shapeCasts_S1x1x128_S128)) (shapeCast _ (extractStridedSlice S1x1x128 ![0, 4, 0] (m ((c : Thread nD τ).loc main_arg5)) slices_S3x8x128_S1x1x128_0_4_0) shapeCasts_S1x1x128_S128)) (shapeCast _ (extractStridedSlice S1x1x128 ![0, 6, 0] (m ((c : Thread nD τ).loc main_arg5)) slices_S3x8x128_S1x1x128_0_6_0) shapeCasts_S1x1x128_S128)) shapeCasts_S128_S1x128) :=
  (pc_part4_ops0_v244 (W4 m ρ c)).trans (by
    rw [(show W4 m ρ c (Proc.devRef .tc main_arg5) = (m ((c : Thread nD τ).loc main_arg5)) from
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v138 (c : Dev nD) :
    W3 m ρ c (Proc.devRef .tc main_v138)
      = (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (Host.gather gather_S100000x128_S20000x1_S20000x128_1_0_n_n_0_1_1128 (m ((c : Thread nD τ).loc main_arg0)) (broadcastInDim S20000x1 ![0] bcast_S20000_S20000x1_0 (select (cmpi .slt (shapeCast _ (extractStridedSlice S1x20000 ![0, 0] (m ((c : Thread nD τ).loc main_arg18)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg18)) slices_S2x20000_S1x20000_0_0) shapeCasts_S1x20000_S20000) (broadcastInDim S20000 ![] bcast_S_S20000 (constantI S_ 32 100000#32))) (shapeCast _ (extractStridedSlice S1x20000 ![0, 0] (m ((c : Thread nD τ).loc main_arg18)) slices_S2x20000_S1x20000_0_0) shapeCasts_S1x20000_S20000))))) :=
  (pc_part2_ops0_v138 (W2 m ρ c)).trans (by
    rw [(show W2 m ρ c (Proc.devRef .tc main_arg18) = (m ((c : Thread nD τ).loc main_arg18)) from
    (keep_main_part1_ops0 (W1 m ρ c) main_arg18 (by decide)).trans <|
    (keep_main_part0_ops0 (W0 m ρ c) main_arg18 (by decide)).trans <|
    rfl),
      (show W2 m ρ c (Proc.devRef .tc main_arg0) = (m ((c : Thread nD τ).loc main_arg0)) from
    (keep_main_part1_ops0 (W1 m ρ c) main_arg0 (by decide)).trans <|
    (keep_main_part0_ops0 (W0 m ρ c) main_arg0 (by decide)).trans <|
    rfl)])

theorem val_v144 (c : Dev nD) :
    W3 m ρ c (Proc.devRef .tc main_v144)
      = (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (broadcastInDim S20000 ![] bcast_S_S20000 (constant (F := F) S_ .f32 0x3F800000#32))) :=
  (pc_part2_ops0_v144 (W2 m ρ c)).trans (by
    rw [(show W2 m ρ c (Proc.devRef .tc main_arg18) = (m ((c : Thread nD τ).loc main_arg18)) from
    (keep_main_part1_ops0 (W1 m ρ c) main_arg18 (by decide)).trans <|
    (keep_main_part0_ops0 (W0 m ρ c) main_arg18 (by decide)).trans <|
    rfl)])

theorem val_v149 (c : Dev nD) :
    W4 m ρ c (Proc.devRef .tc main_v149)
      = (Host.divf (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (Host.gather gather_S100000x128_S20000x1_S20000x128_1_0_n_n_0_1_1128 (m ((c : Thread nD τ).loc main_arg0)) (broadcastInDim S20000x1 ![0] bcast_S20000_S20000x1_0 (select (cmpi .slt (shapeCast _ (extractStridedSlice S1x20000 ![0, 0] (m ((c : Thread nD τ).loc main_arg18)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg18)) slices_S2x20000_S1x20000_0_0) shapeCasts_S1x20000_S20000) (broadcastInDim S20000 ![] bcast_S_S20000 (constantI S_ 32 100000#32))) (shapeCast _ (extractStridedSlice S1x20000 ![0, 0] (m ((c : Thread nD τ).loc main_arg18)) slices_S2x20000_S1x20000_0_0) shapeCasts_S1x20000_S20000))))) (broadcastInDim S20000x128 ![0, 1] bcast_S20000x1_S20000x128_0_1 (broadcastInDim S20000x1 ![0] bcast_S20000_S20000x1_0 (maximumf (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (broadcastInDim S20000 ![] bcast_S_S20000 (constant (F := F) S_ .f32 0x3F800000#32))) (broadcastInDim S20000 ![] bcast_S_S20000 (constant (F := F) S_ .f32 0x3F800000#32)))))) :=
  (pc_part3_ops0_v149 (W3 m ρ c)).trans (by
    rw [(show W3 m ρ c (Proc.devRef .tc main_v138) = (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (Host.gather gather_S100000x128_S20000x1_S20000x128_1_0_n_n_0_1_1128 (m ((c : Thread nD τ).loc main_arg0)) (broadcastInDim S20000x1 ![0] bcast_S20000_S20000x1_0 (select (cmpi .slt (shapeCast _ (extractStridedSlice S1x20000 ![0, 0] (m ((c : Thread nD τ).loc main_arg18)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg18)) slices_S2x20000_S1x20000_0_0) shapeCasts_S1x20000_S20000) (broadcastInDim S20000 ![] bcast_S_S20000 (constantI S_ 32 100000#32))) (shapeCast _ (extractStridedSlice S1x20000 ![0, 0] (m ((c : Thread nD τ).loc main_arg18)) slices_S2x20000_S1x20000_0_0) shapeCasts_S1x20000_S20000))))) from
    val_v138 m ρ c),
      (show W3 m ρ c (Proc.devRef .tc main_v144) = (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (broadcastInDim S20000 ![] bcast_S_S20000 (constant (F := F) S_ .f32 0x3F800000#32))) from
    val_v144 m ρ c)])

theorem val_v248 (c : Dev nD) :
    W7 m ρ c (Proc.devRef .tc main_v248)
      = (shapeCast _ (shapeCast _ (extractStridedSlice S1x1x128x128 ![0, 3, 0, 0] (m ((c : Thread nD τ).loc main_arg4)) slices_S3x8x128x128_S1x1x128x128_0_3_0_0) shapeCasts_S1x1x128x128_S128x128) shapeCasts_S128x128_S1x128x128) :=
  (pc_part4_ops1_v248 (W6 m ρ c)).trans (by
    rw [(show W6 m ρ c (Proc.devRef .tc main_arg4) = (m ((c : Thread nD τ).loc main_arg4)) from
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v250 (c : Dev nD) :
    W7 m ρ c (Proc.devRef .tc main_v250)
      = (shapeCast _ (extractStridedSlice S1x1x128x128 ![0, 3, 0, 0] (m ((c : Thread nD τ).loc main_arg6)) slices_S3x8x128x128_S1x1x128x128_0_3_0_0) shapeCasts_S1x1x128x128_S128x128) :=
  (pc_part4_ops1_v250 (W6 m ρ c)).trans (by
    rw [(show W6 m ρ c (Proc.devRef .tc main_arg6) = (m ((c : Thread nD τ).loc main_arg6)) from
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v251 (c : Dev nD) :
    W7 m ρ c (Proc.devRef .tc main_v251)
      = (extractStridedSlice S1x1x128 ![0, 3, 0] (m ((c : Thread nD τ).loc main_arg5)) slices_S3x8x128_S1x1x128_0_3_0) :=
  (pc_part4_ops1_v251 (W6 m ρ c)).trans (by
    rw [(show W6 m ρ c (Proc.devRef .tc main_arg5) = (m ((c : Thread nD τ).loc main_arg5)) from
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v253 (c : Dev nD) :
    W8 m ρ c (Proc.devRef .tc main_v253)
      = (shapeCast _ (shapeCast _ (extractStridedSlice S1x1x128 ![0, 3, 0] (m ((c : Thread nD τ).loc main_arg5)) slices_S3x8x128_S1x1x128_0_3_0) shapeCasts_S1x1x128_S128) shapeCasts_S128_S1x128) :=
  (pc_part5_ops0_v253 (W7 m ρ c)).trans (by
    rw [(show W7 m ρ c (Proc.devRef .tc main_v251) = (extractStridedSlice S1x1x128 ![0, 3, 0] (m ((c : Thread nD τ).loc main_arg5)) slices_S3x8x128_S1x1x128_0_3_0) from
    val_v251 m ρ c)])

theorem val_v174 (c : Dev nD) :
    W4 m ρ c (Proc.devRef .tc main_v174)
      = (Host.divf (Host.scatterAdd scatter_S50000x128_S50000x1_S50000x128_1_0_0_1 (broadcastInDim S50000x128 ![] bcast_S_S50000x128 (constant (F := F) S_ .f32 0x00000000#32)) (broadcastInDim S50000x1 ![0] bcast_S50000_S50000x1_0 (shapeCast _ (extractStridedSlice S1x50000 ![1, 0] (m ((c : Thread nD τ).loc main_arg20)) slices_S2x50000_S1x50000_1_0) shapeCasts_S1x50000_S50000)) (Host.gather gather_S100000x128_S50000x1_S50000x128_1_0_n_n_0_1_1128 (m ((c : Thread nD τ).loc main_arg0)) (broadcastInDim S50000x1 ![0] bcast_S50000_S50000x1_0 (select (cmpi .slt (shapeCast _ (extractStridedSlice S1x50000 ![0, 0] (m ((c : Thread nD τ).loc main_arg20)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg20)) slices_S2x50000_S1x50000_0_0) shapeCasts_S1x50000_S50000) (broadcastInDim S50000 ![] bcast_S_S50000 (constantI S_ 32 100000#32))) (shapeCast _ (extractStridedSlice S1x50000 ![0, 0] (m ((c : Thread nD τ).loc main_arg20)) slices_S2x50000_S1x50000_0_0) shapeCasts_S1x50000_S50000))))) (broadcastInDim S50000x128 ![0, 1] bcast_S50000x1_S50000x128_0_1 (broadcastInDim S50000x1 ![0] bcast_S50000_S50000x1_0 (maximumf (Host.scatterAdd scatter_S50000_S50000x1_S50000_n_0_0_1 (broadcastInDim S50000 ![] bcast_S_S50000 (constant (F := F) S_ .f32 0x00000000#32)) (broadcastInDim S50000x1 ![0] bcast_S50000_S50000x1_0 (shapeCast _ (extractStridedSlice S1x50000 ![1, 0] (m ((c : Thread nD τ).loc main_arg20)) slices_S2x50000_S1x50000_1_0) shapeCasts_S1x50000_S50000)) (broadcastInDim S50000 ![] bcast_S_S50000 (constant (F := F) S_ .f32 0x3F800000#32))) (broadcastInDim S50000 ![] bcast_S_S50000 (constant (F := F) S_ .f32 0x3F800000#32)))))) :=
  (pc_part3_ops0_v174 (W3 m ρ c)).trans (by
    rw [(show W3 m ρ c (Proc.devRef .tc main_arg20) = (m ((c : Thread nD τ).loc main_arg20)) from
    (keep_main_part2_ops0 (W2 m ρ c) main_arg20 (by decide)).trans <|
    (keep_main_part1_ops0 (W1 m ρ c) main_arg20 (by decide)).trans <|
    (keep_main_part0_ops0 (W0 m ρ c) main_arg20 (by decide)).trans <|
    rfl),
      (show W3 m ρ c (Proc.devRef .tc main_arg0) = (m ((c : Thread nD τ).loc main_arg0)) from
    (keep_main_part2_ops0 (W2 m ρ c) main_arg0 (by decide)).trans <|
    (keep_main_part1_ops0 (W1 m ρ c) main_arg0 (by decide)).trans <|
    (keep_main_part0_ops0 (W0 m ρ c) main_arg0 (by decide)).trans <|
    rfl)])

theorem val_v257 (c : Dev nD) :
    W10 m ρ c (Proc.devRef .tc main_v257)
      = (shapeCast _ (shapeCast _ (extractStridedSlice S1x1x128x128 ![0, 5, 0, 0] (m ((c : Thread nD τ).loc main_arg4)) slices_S3x8x128x128_S1x1x128x128_0_5_0_0) shapeCasts_S1x1x128x128_S128x128) shapeCasts_S128x128_S1x128x128) :=
  (pc_part5_ops1_v257 (W9 m ρ c)).trans (by
    rw [(show W9 m ρ c (Proc.devRef .tc main_arg4) = (m ((c : Thread nD τ).loc main_arg4)) from
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v259 (c : Dev nD) :
    W10 m ρ c (Proc.devRef .tc main_v259)
      = (shapeCast _ (extractStridedSlice S1x1x128x128 ![0, 5, 0, 0] (m ((c : Thread nD τ).loc main_arg6)) slices_S3x8x128x128_S1x1x128x128_0_5_0_0) shapeCasts_S1x1x128x128_S128x128) :=
  (pc_part5_ops1_v259 (W9 m ρ c)).trans (by
    rw [(show W9 m ρ c (Proc.devRef .tc main_arg6) = (m ((c : Thread nD τ).loc main_arg6)) from
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v262 (c : Dev nD) :
    W10 m ρ c (Proc.devRef .tc main_v262)
      = (shapeCast _ (shapeCast _ (extractStridedSlice S1x1x128 ![0, 5, 0] (m ((c : Thread nD τ).loc main_arg5)) slices_S3x8x128_S1x1x128_0_5_0) shapeCasts_S1x1x128_S128) shapeCasts_S128_S1x128) :=
  (pc_part5_ops1_v262 (W9 m ρ c)).trans (by
    rw [(show W9 m ρ c (Proc.devRef .tc main_arg5) = (m ((c : Thread nD τ).loc main_arg5)) from
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v188 (c : Dev nD) :
    W4 m ρ c (Proc.devRef .tc main_v188)
      = (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (Host.gather gather_S100000x128_S5000x1_S5000x128_1_0_n_n_0_1_1128 (m ((c : Thread nD τ).loc main_arg0)) (broadcastInDim S5000x1 ![0] bcast_S5000_S5000x1_0 (select (cmpi .slt (shapeCast _ (extractStridedSlice S1x5000 ![0, 0] (m ((c : Thread nD τ).loc main_arg22)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg22)) slices_S2x5000_S1x5000_0_0) shapeCasts_S1x5000_S5000) (broadcastInDim S5000 ![] bcast_S_S5000 (constantI S_ 32 100000#32))) (shapeCast _ (extractStridedSlice S1x5000 ![0, 0] (m ((c : Thread nD τ).loc main_arg22)) slices_S2x5000_S1x5000_0_0) shapeCasts_S1x5000_S5000))))) :=
  (pc_part3_ops0_v188 (W3 m ρ c)).trans (by
    rw [(show W3 m ρ c (Proc.devRef .tc main_arg22) = (m ((c : Thread nD τ).loc main_arg22)) from
    (keep_main_part2_ops0 (W2 m ρ c) main_arg22 (by decide)).trans <|
    (keep_main_part1_ops0 (W1 m ρ c) main_arg22 (by decide)).trans <|
    (keep_main_part0_ops0 (W0 m ρ c) main_arg22 (by decide)).trans <|
    rfl),
      (show W3 m ρ c (Proc.devRef .tc main_arg0) = (m ((c : Thread nD τ).loc main_arg0)) from
    (keep_main_part2_ops0 (W2 m ρ c) main_arg0 (by decide)).trans <|
    (keep_main_part1_ops0 (W1 m ρ c) main_arg0 (by decide)).trans <|
    (keep_main_part0_ops0 (W0 m ρ c) main_arg0 (by decide)).trans <|
    rfl)])

theorem val_v192 (c : Dev nD) :
    W4 m ρ c (Proc.devRef .tc main_v192)
      = (broadcastInDim S5000 ![] bcast_S_S5000 (constant (F := F) S_ .f32 0x00000000#32)) :=
  pc_part3_ops0_v192 (W3 m ρ c)

theorem val_v191 (c : Dev nD) :
    W4 m ρ c (Proc.devRef .tc main_v191)
      = (shapeCast _ (extractStridedSlice S1x5000 ![1, 0] (m ((c : Thread nD τ).loc main_arg22)) slices_S2x5000_S1x5000_1_0) shapeCasts_S1x5000_S5000) :=
  (pc_part3_ops0_v191 (W3 m ρ c)).trans (by
    rw [(show W3 m ρ c (Proc.devRef .tc main_arg22) = (m ((c : Thread nD τ).loc main_arg22)) from
    (keep_main_part2_ops0 (W2 m ρ c) main_arg22 (by decide)).trans <|
    (keep_main_part1_ops0 (W1 m ρ c) main_arg22 (by decide)).trans <|
    (keep_main_part0_ops0 (W0 m ρ c) main_arg22 (by decide)).trans <|
    rfl)])

theorem val_v189 (c : Dev nD) :
    W4 m ρ c (Proc.devRef .tc main_v189)
      = (broadcastInDim S5000 ![] bcast_S_S5000 (constant (F := F) S_ .f32 0x3F800000#32)) :=
  pc_part3_ops0_v189 (W3 m ρ c)

theorem val_v199 (c : Dev nD) :
    W5 m ρ c (Proc.devRef .tc main_v199)
      = (Host.divf (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (Host.gather gather_S100000x128_S5000x1_S5000x128_1_0_n_n_0_1_1128 (m ((c : Thread nD τ).loc main_arg0)) (broadcastInDim S5000x1 ![0] bcast_S5000_S5000x1_0 (select (cmpi .slt (shapeCast _ (extractStridedSlice S1x5000 ![0, 0] (m ((c : Thread nD τ).loc main_arg22)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg22)) slices_S2x5000_S1x5000_0_0) shapeCasts_S1x5000_S5000) (broadcastInDim S5000 ![] bcast_S_S5000 (constantI S_ 32 100000#32))) (shapeCast _ (extractStridedSlice S1x5000 ![0, 0] (m ((c : Thread nD τ).loc main_arg22)) slices_S2x5000_S1x5000_0_0) shapeCasts_S1x5000_S5000))))) (broadcastInDim S5000x128 ![0, 1] bcast_S5000x1_S5000x128_0_1 (broadcastInDim S5000x1 ![0] bcast_S5000_S5000x1_0 (maximumf (Host.scatterAdd scatter_S5000_S5000x1_S5000_n_0_0_1 (broadcastInDim S5000 ![] bcast_S_S5000 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (broadcastInDim S5000 ![] bcast_S_S5000 (constant (F := F) S_ .f32 0x3F800000#32))) (broadcastInDim S5000 ![] bcast_S_S5000 (constant (F := F) S_ .f32 0x3F800000#32)))))) :=
  (pc_part4_ops0_v199 (W4 m ρ c)).trans (by
    rw [(show W4 m ρ c (Proc.devRef .tc main_v188) = (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (Host.gather gather_S100000x128_S5000x1_S5000x128_1_0_n_n_0_1_1128 (m ((c : Thread nD τ).loc main_arg0)) (broadcastInDim S5000x1 ![0] bcast_S5000_S5000x1_0 (select (cmpi .slt (shapeCast _ (extractStridedSlice S1x5000 ![0, 0] (m ((c : Thread nD τ).loc main_arg22)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg22)) slices_S2x5000_S1x5000_0_0) shapeCasts_S1x5000_S5000) (broadcastInDim S5000 ![] bcast_S_S5000 (constantI S_ 32 100000#32))) (shapeCast _ (extractStridedSlice S1x5000 ![0, 0] (m ((c : Thread nD τ).loc main_arg22)) slices_S2x5000_S1x5000_0_0) shapeCasts_S1x5000_S5000))))) from
    val_v188 m ρ c),
      (show W4 m ρ c (Proc.devRef .tc main_v192) = (broadcastInDim S5000 ![] bcast_S_S5000 (constant (F := F) S_ .f32 0x00000000#32)) from
    val_v192 m ρ c),
      (show W4 m ρ c (Proc.devRef .tc main_v191) = (shapeCast _ (extractStridedSlice S1x5000 ![1, 0] (m ((c : Thread nD τ).loc main_arg22)) slices_S2x5000_S1x5000_1_0) shapeCasts_S1x5000_S5000) from
    val_v191 m ρ c),
      (show W4 m ρ c (Proc.devRef .tc main_v189) = (broadcastInDim S5000 ![] bcast_S_S5000 (constant (F := F) S_ .f32 0x3F800000#32)) from
    val_v189 m ρ c)])

theorem val_v266 (c : Dev nD) :
    W12 m ρ c (Proc.devRef .tc main_v266)
      = (shapeCast _ (shapeCast _ (extractStridedSlice S1x1x128x128 ![0, 7, 0, 0] (m ((c : Thread nD τ).loc main_arg4)) slices_S3x8x128x128_S1x1x128x128_0_7_0_0) shapeCasts_S1x1x128x128_S128x128) shapeCasts_S128x128_S1x128x128) :=
  (pc_part5_ops2_v266 (W11 m ρ c)).trans (by
    rw [(show W11 m ρ c (Proc.devRef .tc main_arg4) = (m ((c : Thread nD τ).loc main_arg4)) from
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v268 (c : Dev nD) :
    W12 m ρ c (Proc.devRef .tc main_v268)
      = (shapeCast _ (extractStridedSlice S1x1x128x128 ![0, 7, 0, 0] (m ((c : Thread nD τ).loc main_arg6)) slices_S3x8x128x128_S1x1x128x128_0_7_0_0) shapeCasts_S1x1x128x128_S128x128) :=
  (pc_part5_ops2_v268 (W11 m ρ c)).trans (by
    rw [(show W11 m ρ c (Proc.devRef .tc main_arg6) = (m ((c : Thread nD τ).loc main_arg6)) from
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v271 (c : Dev nD) :
    W12 m ρ c (Proc.devRef .tc main_v271)
      = (shapeCast _ (shapeCast _ (extractStridedSlice S1x1x128 ![0, 7, 0] (m ((c : Thread nD τ).loc main_arg5)) slices_S3x8x128_S1x1x128_0_7_0) shapeCasts_S1x1x128_S128) shapeCasts_S128_S1x128) :=
  (pc_part5_ops2_v271 (W11 m ρ c)).trans (by
    rw [(show W11 m ρ c (Proc.devRef .tc main_arg5) = (m ((c : Thread nD τ).loc main_arg5)) from
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

/-! ## The feature windows -/

/-- Region 0, window 0: the mean aggregation over the ac edges of the layer's source features. -/
theorem in0_0 (c : Dev nD) :
    Vin0 m ρ c (Pipeline.arrRef spec0 0)
      = aggK_ac (m ((c : Thread nD τ).loc main_arg0)) (m ((c : Thread nD τ).loc main_arg15)) :=
  (keep_main_part4_ops0 (W4 m ρ c) main_v24 (by decide)).trans <|
    (keep_main_part3_ops0 (W3 m ρ c) main_v24 (by decide)).trans <|
    (keep_main_part2_ops0 (W2 m ρ c) main_v24 (by decide)).trans <|
    (keep_main_part1_ops0 (W1 m ρ c) main_v24 (by decide)).trans <|
    (val_v24 m ρ c).trans rfl

/-- Region 0, window 1: the mean aggregation over the tr edges of the layer's source features. -/
theorem in0_1 (c : Dev nD) :
    Vin0 m ρ c (Pipeline.arrRef spec0 1)
      = aggK_tr (m ((c : Thread nD τ).loc main_arg0)) (m ((c : Thread nD τ).loc main_arg16)) :=
  (keep_main_part4_ops0 (W4 m ρ c) main_v49 (by decide)).trans <|
    (keep_main_part3_ops0 (W3 m ρ c) main_v49 (by decide)).trans <|
    (keep_main_part2_ops0 (W2 m ρ c) main_v49 (by decide)).trans <|
    (val_v49 m ρ c).trans rfl

/-- Region 0, window 2: the mean aggregation over the gb edges of the layer's source features. -/
theorem in0_2 (c : Dev nD) :
    Vin0 m ρ c (Pipeline.arrRef spec0 2)
      = aggK_gb (m ((c : Thread nD τ).loc main_arg1)) (m ((c : Thread nD τ).loc main_arg17)) :=
  (keep_main_part4_ops0 (W4 m ρ c) main_v74 (by decide)).trans <|
    (keep_main_part3_ops0 (W3 m ρ c) main_v74 (by decide)).trans <|
    (keep_main_part2_ops0 (W2 m ρ c) main_v74 (by decide)).trans <|
    (val_v74 m ρ c).trans rfl

/-- Region 0, window 3: the mean aggregation over the lb edges of the layer's source features. -/
theorem in0_3 (c : Dev nD) :
    Vin0 m ρ c (Pipeline.arrRef spec0 3)
      = aggK_lb (m ((c : Thread nD τ).loc main_arg2)) (m ((c : Thread nD τ).loc main_arg19)) :=
  (keep_main_part4_ops0 (W4 m ρ c) main_v99 (by decide)).trans <|
    (keep_main_part3_ops0 (W3 m ρ c) main_v99 (by decide)).trans <|
    (val_v99 m ρ c).trans rfl

/-- Region 0, window 4: the mean aggregation over the sb edges of the layer's source features. -/
theorem in0_4 (c : Dev nD) :
    Vin0 m ρ c (Pipeline.arrRef spec0 4)
      = aggK_sb (m ((c : Thread nD τ).loc main_arg3)) (m ((c : Thread nD τ).loc main_arg21)) :=
  (keep_main_part4_ops0 (W4 m ρ c) main_v124 (by decide)).trans <|
    (keep_main_part3_ops0 (W3 m ρ c) main_v124 (by decide)).trans <|
    (val_v124 m ρ c).trans rfl

/-- Region 0, window 5: as the array stands at the region's entry. -/
theorem in0_5 (c : Dev nD) :
    Vin0 m ρ c (Pipeline.arrRef spec0 5)
      = (m ((c : Thread nD τ).loc main_arg0)) :=
  (keep_main_part4_ops0 (W4 m ρ c) main_arg0 (by decide)).trans <|
    (keep_main_part3_ops0 (W3 m ρ c) main_arg0 (by decide)).trans <|
    (keep_main_part2_ops0 (W2 m ρ c) main_arg0 (by decide)).trans <|
    (keep_main_part1_ops0 (W1 m ρ c) main_arg0 (by decide)).trans <|
    (keep_main_part0_ops0 (W0 m ρ c) main_arg0 (by decide)).trans <|
    rfl

/-- Region 1, window 0: the mean aggregation over the bg edges of the layer's source features. -/
theorem in1_0 (c : Dev nD) :
    Vin1 m ρ c (Pipeline.arrRef spec1 0)
      = aggK_bg (m ((c : Thread nD τ).loc main_arg0)) (m ((c : Thread nD τ).loc main_arg18)) :=
  (keep_main_part5_ops0 (W7 m ρ c) main_v149 (by decide)).trans <|
    (keep_main_part4_ops1 (W6 m ρ c) main_v149 (by decide)).trans <|
    (W6_of_ne m ρ c main_v149 (by decide)).trans <|
    (keep_main_part4_ops0 (W4 m ρ c) main_v149 (by decide)).trans <|
    (val_v149 m ρ c).trans rfl

/-- Region 1, window 1: as the array stands at the region's entry. -/
theorem in1_1 (c : Dev nD) :
    Vin1 m ρ c (Pipeline.arrRef spec1 1)
      = (m ((c : Thread nD τ).loc main_arg1)) :=
  (keep_main_part5_ops0 (W7 m ρ c) main_arg1 (by decide)).trans <|
    (keep_main_part4_ops1 (W6 m ρ c) main_arg1 (by decide)).trans <|
    (W6_of_ne m ρ c main_arg1 (by decide)).trans <|
    (keep_main_part4_ops0 (W4 m ρ c) main_arg1 (by decide)).trans <|
    (keep_main_part3_ops0 (W3 m ρ c) main_arg1 (by decide)).trans <|
    (keep_main_part2_ops0 (W2 m ρ c) main_arg1 (by decide)).trans <|
    (keep_main_part1_ops0 (W1 m ρ c) main_arg1 (by decide)).trans <|
    (keep_main_part0_ops0 (W0 m ρ c) main_arg1 (by decide)).trans <|
    rfl

/-- Region 2, window 0: the mean aggregation over the bl edges of the layer's source features. -/
theorem in2_0 (c : Dev nD) :
    Vin2 m ρ c (Pipeline.arrRef spec2 0)
      = aggK_bl (m ((c : Thread nD τ).loc main_arg0)) (m ((c : Thread nD τ).loc main_arg20)) :=
  (keep_main_part5_ops1 (W9 m ρ c) main_v174 (by decide)).trans <|
    (W9_of_ne m ρ c main_v174 (by decide)).trans <|
    (keep_main_part5_ops0 (W7 m ρ c) main_v174 (by decide)).trans <|
    (keep_main_part4_ops1 (W6 m ρ c) main_v174 (by decide)).trans <|
    (W6_of_ne m ρ c main_v174 (by decide)).trans <|
    (keep_main_part4_ops0 (W4 m ρ c) main_v174 (by decide)).trans <|
    (val_v174 m ρ c).trans rfl

/-- Region 2, window 1: as the array stands at the region's entry. -/
theorem in2_1 (c : Dev nD) :
    Vin2 m ρ c (Pipeline.arrRef spec2 1)
      = (m ((c : Thread nD τ).loc main_arg2)) :=
  (keep_main_part5_ops1 (W9 m ρ c) main_arg2 (by decide)).trans <|
    (W9_of_ne m ρ c main_arg2 (by decide)).trans <|
    (keep_main_part5_ops0 (W7 m ρ c) main_arg2 (by decide)).trans <|
    (keep_main_part4_ops1 (W6 m ρ c) main_arg2 (by decide)).trans <|
    (W6_of_ne m ρ c main_arg2 (by decide)).trans <|
    (keep_main_part4_ops0 (W4 m ρ c) main_arg2 (by decide)).trans <|
    (keep_main_part3_ops0 (W3 m ρ c) main_arg2 (by decide)).trans <|
    (keep_main_part2_ops0 (W2 m ρ c) main_arg2 (by decide)).trans <|
    (keep_main_part1_ops0 (W1 m ρ c) main_arg2 (by decide)).trans <|
    (keep_main_part0_ops0 (W0 m ρ c) main_arg2 (by decide)).trans <|
    rfl

/-- Region 3, window 0: the mean aggregation over the bs edges of the layer's source features. -/
theorem in3_0 (c : Dev nD) :
    Vin3 m ρ c (Pipeline.arrRef spec3 0)
      = aggK_bs (m ((c : Thread nD τ).loc main_arg0)) (m ((c : Thread nD τ).loc main_arg22)) :=
  (keep_main_part5_ops2 (W11 m ρ c) main_v199 (by decide)).trans <|
    (W11_of_ne m ρ c main_v199 (by decide)).trans <|
    (keep_main_part5_ops1 (W9 m ρ c) main_v199 (by decide)).trans <|
    (W9_of_ne m ρ c main_v199 (by decide)).trans <|
    (keep_main_part5_ops0 (W7 m ρ c) main_v199 (by decide)).trans <|
    (keep_main_part4_ops1 (W6 m ρ c) main_v199 (by decide)).trans <|
    (W6_of_ne m ρ c main_v199 (by decide)).trans <|
    (val_v199 m ρ c).trans rfl

/-- Region 3, window 1: as the array stands at the region's entry. -/
theorem in3_1 (c : Dev nD) :
    Vin3 m ρ c (Pipeline.arrRef spec3 1)
      = (m ((c : Thread nD τ).loc main_arg3)) :=
  (keep_main_part5_ops2 (W11 m ρ c) main_arg3 (by decide)).trans <|
    (W11_of_ne m ρ c main_arg3 (by decide)).trans <|
    (keep_main_part5_ops1 (W9 m ρ c) main_arg3 (by decide)).trans <|
    (W9_of_ne m ρ c main_arg3 (by decide)).trans <|
    (keep_main_part5_ops0 (W7 m ρ c) main_arg3 (by decide)).trans <|
    (keep_main_part4_ops1 (W6 m ρ c) main_arg3 (by decide)).trans <|
    (W6_of_ne m ρ c main_arg3 (by decide)).trans <|
    (keep_main_part4_ops0 (W4 m ρ c) main_arg3 (by decide)).trans <|
    (keep_main_part3_ops0 (W3 m ρ c) main_arg3 (by decide)).trans <|
    (keep_main_part2_ops0 (W2 m ρ c) main_arg3 (by decide)).trans <|
    (keep_main_part1_ops0 (W1 m ρ c) main_arg3 (by decide)).trans <|
    (keep_main_part0_ops0 (W0 m ρ c) main_arg3 (by decide)).trans <|
    rfl

end Values

/-! ## The weight windows, index by index -/

section Weights
variable (m : (ℓ : Loc nD τ sig) → Buf (Elt Ideal) ℓ) (ρ : Dev nD → PrngReg)

theorem in0_6 (c : Dev nD) (e : Fin 5) (k j : Fin 128) :
    (Vin0 m ρ c (Pipeline.arrRef spec0 6) : Vec Ideal S5x128x128 .f32) (ix3 e k j)
      = Cert.Hand.Net.W4 (m ((c : Thread nD τ).loc main_arg4)) (0 : Fin 3) ((![0, 1, 2, 4, 6] : Fin 5 → Fin 8) e) k j := by
  refine (congrFun (show Vin0 m ρ c (Pipeline.arrRef spec0 6) = _ from
    val_v215 m ρ c) (ix3 e k j)).trans ?_
  exact wl5_apply 0 0 1 2 4 6 _ _ _ _ _ _ _ _ _ (0 : Fin 3) (![0, 1, 2, 4, 6] : Fin 5 → Fin 8) rfl rfl rfl rfl rfl rfl e k j

theorem in0_7 (c : Dev nD) (k j : Fin 128) :
    (Vin0 m ρ c (Pipeline.arrRef spec0 7) : Vec Ideal S128x128 .f32) (ix2 k j)
      = Cert.Hand.Net.W4 (m ((c : Thread nD τ).loc main_arg6)) (0 : Fin 3) (0 : Fin 8) k j + Cert.Hand.Net.W4 (m ((c : Thread nD τ).loc main_arg6)) (0 : Fin 3) (1 : Fin 8) k j + Cert.Hand.Net.W4 (m ((c : Thread nD τ).loc main_arg6)) (0 : Fin 3) (2 : Fin 8) k j + Cert.Hand.Net.W4 (m ((c : Thread nD τ).loc main_arg6)) (0 : Fin 3) (4 : Fin 8) k j + Cert.Hand.Net.W4 (m ((c : Thread nD τ).loc main_arg6)) (0 : Fin 3) (6 : Fin 8) k j := by
  refine (congrFun (show Vin0 m ρ c (Pipeline.arrRef spec0 7) = _ from
    val_v229 m ρ c) (ix2 k j)).trans ?_
  exact wr5_apply 0 0 1 2 4 6 _ _ _ _ _ _ _ (0 : Fin 3) (0 : Fin 8) (1 : Fin 8) (2 : Fin 8) (4 : Fin 8) (6 : Fin 8) rfl rfl rfl rfl rfl rfl k j

theorem in0_8 (c : Dev nD) (u : Fin 1) (j : Fin 128) :
    (Vin0 m ρ c (Pipeline.arrRef spec0 8) : Vec Ideal S1x128 .f32) (ix2 u j)
      = Cert.Hand.Net.B3 (m ((c : Thread nD τ).loc main_arg5)) (0 : Fin 3) (0 : Fin 8) j + Cert.Hand.Net.B3 (m ((c : Thread nD τ).loc main_arg5)) (0 : Fin 3) (1 : Fin 8) j + Cert.Hand.Net.B3 (m ((c : Thread nD τ).loc main_arg5)) (0 : Fin 3) (2 : Fin 8) j + Cert.Hand.Net.B3 (m ((c : Thread nD τ).loc main_arg5)) (0 : Fin 3) (4 : Fin 8) j + Cert.Hand.Net.B3 (m ((c : Thread nD τ).loc main_arg5)) (0 : Fin 3) (6 : Fin 8) j := by
  refine (congrFun (show Vin0 m ρ c (Pipeline.arrRef spec0 8) = _ from
    val_v244 m ρ c) (ix2 u j)).trans ?_
  exact b5_apply 0 0 1 2 4 6 _ _ _ _ _ _ _ _ (0 : Fin 3) (0 : Fin 8) (1 : Fin 8) (2 : Fin 8) (4 : Fin 8) (6 : Fin 8) rfl rfl rfl rfl rfl rfl u j

theorem in1_2 (c : Dev nD) (u : Fin 1) (k j : Fin 128) :
    (Vin1 m ρ c (Pipeline.arrRef spec1 2) : Vec Ideal S1x128x128 .f32) (ix3 u k j)
      = Cert.Hand.Net.W4 (m ((c : Thread nD τ).loc main_arg4)) (0 : Fin 3) (3 : Fin 8) k j := by
  refine (congrFun (show Vin1 m ρ c (Pipeline.arrRef spec1 2) = _ from
    (keep_main_part5_ops0 (W7 m ρ c) main_v248 (by decide)).trans <|
    val_v248 m ρ c) (ix3 u k j)).trans ?_
  exact wl1_apply 0 3 _ _ _ _ u k j (0 : Fin 3) (3 : Fin 8) rfl rfl

theorem in1_3 (c : Dev nD) (k j : Fin 128) :
    (Vin1 m ρ c (Pipeline.arrRef spec1 3) : Vec Ideal S128x128 .f32) (ix2 k j)
      = Cert.Hand.Net.W4 (m ((c : Thread nD τ).loc main_arg6)) (0 : Fin 3) (3 : Fin 8) k j := by
  refine (congrFun (show Vin1 m ρ c (Pipeline.arrRef spec1 3) = _ from
    (keep_main_part5_ops0 (W7 m ρ c) main_v250 (by decide)).trans <|
    val_v250 m ρ c) (ix2 k j)).trans ?_
  exact wr1_apply 0 3 _ _ _ k j (0 : Fin 3) (3 : Fin 8) rfl rfl

theorem in1_4 (c : Dev nD) (u : Fin 1) (j : Fin 128) :
    (Vin1 m ρ c (Pipeline.arrRef spec1 4) : Vec Ideal S1x128 .f32) (ix2 u j)
      = Cert.Hand.Net.B3 (m ((c : Thread nD τ).loc main_arg5)) (0 : Fin 3) (3 : Fin 8) j := by
  refine (congrFun (show Vin1 m ρ c (Pipeline.arrRef spec1 4) = _ from
    val_v253 m ρ c) (ix2 u j)).trans ?_
  exact b1_apply 0 3 _ _ _ _ u j (0 : Fin 3) (3 : Fin 8) rfl rfl

theorem in2_2 (c : Dev nD) (u : Fin 1) (k j : Fin 128) :
    (Vin2 m ρ c (Pipeline.arrRef spec2 2) : Vec Ideal S1x128x128 .f32) (ix3 u k j)
      = Cert.Hand.Net.W4 (m ((c : Thread nD τ).loc main_arg4)) (0 : Fin 3) (5 : Fin 8) k j := by
  refine (congrFun (show Vin2 m ρ c (Pipeline.arrRef spec2 2) = _ from
    val_v257 m ρ c) (ix3 u k j)).trans ?_
  exact wl1_apply 0 5 _ _ _ _ u k j (0 : Fin 3) (5 : Fin 8) rfl rfl

theorem in2_3 (c : Dev nD) (k j : Fin 128) :
    (Vin2 m ρ c (Pipeline.arrRef spec2 3) : Vec Ideal S128x128 .f32) (ix2 k j)
      = Cert.Hand.Net.W4 (m ((c : Thread nD τ).loc main_arg6)) (0 : Fin 3) (5 : Fin 8) k j := by
  refine (congrFun (show Vin2 m ρ c (Pipeline.arrRef spec2 3) = _ from
    val_v259 m ρ c) (ix2 k j)).trans ?_
  exact wr1_apply 0 5 _ _ _ k j (0 : Fin 3) (5 : Fin 8) rfl rfl

theorem in2_4 (c : Dev nD) (u : Fin 1) (j : Fin 128) :
    (Vin2 m ρ c (Pipeline.arrRef spec2 4) : Vec Ideal S1x128 .f32) (ix2 u j)
      = Cert.Hand.Net.B3 (m ((c : Thread nD τ).loc main_arg5)) (0 : Fin 3) (5 : Fin 8) j := by
  refine (congrFun (show Vin2 m ρ c (Pipeline.arrRef spec2 4) = _ from
    val_v262 m ρ c) (ix2 u j)).trans ?_
  exact b1_apply 0 5 _ _ _ _ u j (0 : Fin 3) (5 : Fin 8) rfl rfl

theorem in3_2 (c : Dev nD) (u : Fin 1) (k j : Fin 128) :
    (Vin3 m ρ c (Pipeline.arrRef spec3 2) : Vec Ideal S1x128x128 .f32) (ix3 u k j)
      = Cert.Hand.Net.W4 (m ((c : Thread nD τ).loc main_arg4)) (0 : Fin 3) (7 : Fin 8) k j := by
  refine (congrFun (show Vin3 m ρ c (Pipeline.arrRef spec3 2) = _ from
    val_v266 m ρ c) (ix3 u k j)).trans ?_
  exact wl1_apply 0 7 _ _ _ _ u k j (0 : Fin 3) (7 : Fin 8) rfl rfl

theorem in3_3 (c : Dev nD) (k j : Fin 128) :
    (Vin3 m ρ c (Pipeline.arrRef spec3 3) : Vec Ideal S128x128 .f32) (ix2 k j)
      = Cert.Hand.Net.W4 (m ((c : Thread nD τ).loc main_arg6)) (0 : Fin 3) (7 : Fin 8) k j := by
  refine (congrFun (show Vin3 m ρ c (Pipeline.arrRef spec3 3) = _ from
    val_v268 m ρ c) (ix2 k j)).trans ?_
  exact wr1_apply 0 7 _ _ _ k j (0 : Fin 3) (7 : Fin 8) rfl rfl

theorem in3_4 (c : Dev nD) (u : Fin 1) (j : Fin 128) :
    (Vin3 m ρ c (Pipeline.arrRef spec3 4) : Vec Ideal S1x128 .f32) (ix2 u j)
      = Cert.Hand.Net.B3 (m ((c : Thread nD τ).loc main_arg5)) (0 : Fin 3) (7 : Fin 8) j := by
  refine (congrFun (show Vin3 m ρ c (Pipeline.arrRef spec3 4) = _ from
    val_v271 m ρ c) (ix2 u j)).trans ?_
  exact b1_apply 0 7 _ _ _ _ u j (0 : Fin 3) (7 : Fin 8) rfl rfl

end Weights

end Cert.KernelIdeal.Hand

end
-- ==== Proof.KI.HostPc1.lean ====
/- The host operations before the regions of layer 1, line by line: each result a region (or a later line, across a
   cut) reads, after its line, is the composed term of the line's operations over the contents before the line. -/
import proofs.«125545_j64845416235624_1_alg».proof.Proof.Gen.KernelIdeal.Launch
import proofs.«125545_j64845416235624_1_alg».proof.Proof.KI.HostLayout
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

theorem pc_part5_ops3_v297 (W : Valuation τ sig (Elt F)) :
    StableHlo.after main_part5_ops3 W (Proc.devRef .tc main_v297)
      = (Host.divf (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (W (Proc.devRef .tc main_arg15)) slices_S2x500000_S1x500000_1_0) shapeCasts_S1x500000_S500000)) (Host.gather gather_S100000x128_S500000x1_S500000x128_1_0_n_n_0_1_1128 (W (Proc.devRef .tc main_v245)) (broadcastInDim S500000x1 ![0] bcast_S500000_S500000x1_0 (select (cmpi .slt (shapeCast _ (extractStridedSlice S1x500000 ![0, 0] (W (Proc.devRef .tc main_arg15)) slices_S2x500000_S1x500000_0_0) shapeCasts_S1x500000_S500000) (broadcastInDim S500000 ![] bcast_S_S500000 (constantI S_ 32 0#32))) (addi (shapeCast _ (extractStridedSlice S1x500000 ![0, 0] (W (Proc.devRef .tc main_arg15)) slices_S2x500000_S1x500000_0_0) shapeCasts_S1x500000_S500000) (broadcastInDim S500000 ![] bcast_S_S500000 (constantI S_ 32 100000#32))) (shapeCast _ (extractStridedSlice S1x500000 ![0, 0] (W (Proc.devRef .tc main_arg15)) slices_S2x500000_S1x500000_0_0) shapeCasts_S1x500000_S500000))))) (broadcastInDim S100000x128 ![0, 1] bcast_S100000x1_S100000x128_0_1 (broadcastInDim S100000x1 ![0] bcast_S100000_S100000x1_0 (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (shapeCast _ (extractStridedSlice S1x500000 ![1, 0] (W (Proc.devRef .tc main_arg15)) slices_S2x500000_S1x500000_1_0) shapeCasts_S1x500000_S500000)) (broadcastInDim S500000 ![] bcast_S_S500000 (constant (F := F) S_ .f32 0x3F800000#32))) (broadcastInDim S100000 ![] bcast_S_S100000 (constant (F := F) S_ .f32 0x3F800000#32)))))) := by
  host_results <;> rfl

theorem pc_part5_ops3_v301 (W : Valuation τ sig (Elt F)) :
    StableHlo.after main_part5_ops3 W (Proc.devRef .tc main_v301)
      = (cmpi .slt (shapeCast _ (extractStridedSlice S1x100000 ![0, 0] (W (Proc.devRef .tc main_arg16)) slices_S2x100000_S1x100000_0_0) shapeCasts_S1x100000_S100000) (broadcastInDim S100000 ![] bcast_S_S100000 (constantI S_ 32 0#32))) := by
  host_results <;> rfl

theorem pc_part5_ops3_v303 (W : Valuation τ sig (Elt F)) :
    StableHlo.after main_part5_ops3 W (Proc.devRef .tc main_v303)
      = (addi (shapeCast _ (extractStridedSlice S1x100000 ![0, 0] (W (Proc.devRef .tc main_arg16)) slices_S2x100000_S1x100000_0_0) shapeCasts_S1x100000_S100000) (broadcastInDim S100000 ![] bcast_S_S100000 (constantI S_ 32 100000#32))) := by
  host_results <;> rfl

theorem pc_part5_ops3_v299 (W : Valuation τ sig (Elt F)) :
    StableHlo.after main_part5_ops3 W (Proc.devRef .tc main_v299)
      = (shapeCast _ (extractStridedSlice S1x100000 ![0, 0] (W (Proc.devRef .tc main_arg16)) slices_S2x100000_S1x100000_0_0) shapeCasts_S1x100000_S100000) := by
  host_results <;> rfl

theorem pc_part6_ops0_v322 (W : Valuation τ sig (Elt F)) :
    StableHlo.after main_part6_ops0 W (Proc.devRef .tc main_v322)
      = (Host.divf (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (W (Proc.devRef .tc main_arg16)) slices_S2x100000_S1x100000_1_0) shapeCasts_S1x100000_S100000)) (Host.gather gather_S100000x128_S100000x1_S100000x128_1_0_n_n_0_1_1128 (W (Proc.devRef .tc main_v245)) (broadcastInDim S100000x1 ![0] bcast_S100000_S100000x1_0 (select (W (Proc.devRef .tc main_v301)) (W (Proc.devRef .tc main_v303)) (W (Proc.devRef .tc main_v299)))))) (broadcastInDim S100000x128 ![0, 1] bcast_S100000x1_S100000x128_0_1 (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (W (Proc.devRef .tc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))))) := by
  host_results <;> rfl

theorem pc_part6_ops0_v347 (W : Valuation τ sig (Elt F)) :
    StableHlo.after main_part6_ops0 W (Proc.devRef .tc main_v347)
      = (Host.divf (Host.scatterAdd scatter_S100000x128_S20000x1_S20000x128_1_0_0_1 (broadcastInDim S100000x128 ![] bcast_S_S100000x128 (constant (F := F) S_ .f32 0x00000000#32)) (broadcastInDim S20000x1 ![0] bcast_S20000_S20000x1_0 (shapeCast _ (extractStridedSlice S1x20000 ![1, 0] (W (Proc.devRef .tc main_arg17)) slices_S2x20000_S1x20000_1_0) shapeCasts_S1x20000_S20000)) (Host.gather gather_S20000x128_S20000x1_S20000x128_1_0_n_n_0_1_1128 (W (Proc.devRef .tc main_v254)) (broadcastInDim S20000x1 ![0] bcast_S20000_S20000x1_0 (select (cmpi .slt (shapeCast _ (extractStridedSlice S1x20000 ![0, 0] (W (Proc.devRef .tc main_arg17)) slices_S2x20000_S1x20000_0_0) shapeCasts_S1x20000_S20000) (broadcastInDim S20000 ![] bcast_S_S20000 (constantI S_ 32 0#32))) (addi (shapeCast _ (extractStridedSlice S1x20000 ![0, 0] (W (Proc.devRef .tc main_arg17)) slices_S2x20000_S1x20000_0_0) shapeCasts_S1x20000_S20000) (broadcastInDim S20000 ![] bcast_S_S20000 (constantI S_ 32 20000#32))) (shapeCast _ (extractStridedSlice S1x20000 ![0, 0] (W (Proc.devRef .tc main_arg17)) slices_S2x20000_S1x20000_0_0) shapeCasts_S1x20000_S20000))))) (broadcastInDim S100000x128 ![0, 1] bcast_S100000x1_S100000x128_0_1 (broadcastInDim S100000x1 ![0] bcast_S100000_S100000x1_0 (maximumf (Host.scatterAdd scatter_S100000_S20000x1_S20000_n_0_0_1 (broadcastInDim S100000 ![] bcast_S_S100000 (constant (F := F) S_ .f32 0x00000000#32)) (broadcastInDim S20000x1 ![0] bcast_S20000_S20000x1_0 (shapeCast _ (extractStridedSlice S1x20000 ![1, 0] (W (Proc.devRef .tc main_arg17)) slices_S2x20000_S1x20000_1_0) shapeCasts_S1x20000_S20000)) (broadcastInDim S20000 ![] bcast_S_S20000 (constant (F := F) S_ .f32 0x3F800000#32))) (broadcastInDim S100000 ![] bcast_S_S100000 (constant (F := F) S_ .f32 0x3F800000#32)))))) := by
  host_results <;> rfl

theorem pc_part6_ops0_v351 (W : Valuation τ sig (Elt F)) :
    StableHlo.after main_part6_ops0 W (Proc.devRef .tc main_v351)
      = (cmpi .slt (shapeCast _ (extractStridedSlice S1x50000 ![0, 0] (W (Proc.devRef .tc main_arg19)) slices_S2x50000_S1x50000_0_0) shapeCasts_S1x50000_S50000) (broadcastInDim S50000 ![] bcast_S_S50000 (constantI S_ 32 0#32))) := by
  host_results <;> rfl

theorem pc_part6_ops0_v349 (W : Valuation τ sig (Elt F)) :
    StableHlo.after main_part6_ops0 W (Proc.devRef .tc main_v349)
      = (shapeCast _ (extractStridedSlice S1x50000 ![0, 0] (W (Proc.devRef .tc main_arg19)) slices_S2x50000_S1x50000_0_0) shapeCasts_S1x50000_S50000) := by
  host_results <;> rfl

theorem pc_part6_ops0_c_65 (W : Valuation τ sig (Elt F)) :
    StableHlo.after main_part6_ops0 W (Proc.devRef .tc main_c_65)
      = (constantI S_ 32 50000#32) := by
  host_results <;> rfl

theorem pc_part7_ops0_v372 (W : Valuation τ sig (Elt F)) :
    StableHlo.after main_part7_ops0 W (Proc.devRef .tc main_v372)
      = (Host.divf (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (W (Proc.devRef .tc main_arg19)) slices_S2x50000_S1x50000_1_0) shapeCasts_S1x50000_S50000)) (Host.gather gather_S50000x128_S50000x1_S50000x128_1_0_n_n_0_1_1128 (W (Proc.devRef .tc main_v263)) (broadcastInDim S50000x1 ![0] bcast_S50000_S50000x1_0 (select (W (Proc.devRef .tc main_v351)) (addi (W (Proc.devRef .tc main_v349)) (broadcastInDim S50000 ![] bcast_S_S50000 (W (Proc.devRef .tc main_c_65)))) (W (Proc.devRef .tc main_v349)))))) (broadcastInDim S100000x128 ![0, 1] bcast_S100000x1_S100000x128_0_1 (broadcastInDim S100000x1 ![0] bcast_S100000_S100000x1_0 (maximumf (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (W (Proc.devRef .tc main_arg19)) slices_S2x50000_S1x50000_1_0) shapeCasts_S1x50000_S50000)) (broadcastInDim S50000 ![] bcast_S_S50000 (constant (F := F) S_ .f32 0x3F800000#32))) (broadcastInDim S100000 ![] bcast_S_S100000 (constant (F := F) S_ .f32 0x3F800000#32)))))) := by
  host_results <;> rfl

theorem pc_part7_ops0_v397 (W : Valuation τ sig (Elt F)) :
    StableHlo.after main_part7_ops0 W (Proc.devRef .tc main_v397)
      = (Host.divf (Host.scatterAdd scatter_S100000x128_S5000x1_S5000x128_1_0_0_1 (broadcastInDim S100000x128 ![] bcast_S_S100000x128 (constant (F := F) S_ .f32 0x00000000#32)) (broadcastInDim S5000x1 ![0] bcast_S5000_S5000x1_0 (shapeCast _ (extractStridedSlice S1x5000 ![1, 0] (W (Proc.devRef .tc main_arg21)) slices_S2x5000_S1x5000_1_0) shapeCasts_S1x5000_S5000)) (Host.gather gather_S5000x128_S5000x1_S5000x128_1_0_n_n_0_1_1128 (W (Proc.devRef .tc main_v272)) (broadcastInDim S5000x1 ![0] bcast_S5000_S5000x1_0 (select (cmpi .slt (shapeCast _ (extractStridedSlice S1x5000 ![0, 0] (W (Proc.devRef .tc main_arg21)) slices_S2x5000_S1x5000_0_0) shapeCasts_S1x5000_S5000) (broadcastInDim S5000 ![] bcast_S_S5000 (constantI S_ 32 0#32))) (addi (shapeCast _ (extractStridedSlice S1x5000 ![0, 0] (W (Proc.devRef .tc main_arg21)) slices_S2x5000_S1x5000_0_0) shapeCasts_S1x5000_S5000) (broadcastInDim S5000 ![] bcast_S_S5000 (constantI S_ 32 5000#32))) (shapeCast _ (extractStridedSlice S1x5000 ![0, 0] (W (Proc.devRef .tc main_arg21)) slices_S2x5000_S1x5000_0_0) shapeCasts_S1x5000_S5000))))) (broadcastInDim S100000x128 ![0, 1] bcast_S100000x1_S100000x128_0_1 (broadcastInDim S100000x1 ![0] bcast_S100000_S100000x1_0 (maximumf (Host.scatterAdd scatter_S100000_S5000x1_S5000_n_0_0_1 (broadcastInDim S100000 ![] bcast_S_S100000 (constant (F := F) S_ .f32 0x00000000#32)) (broadcastInDim S5000x1 ![0] bcast_S5000_S5000x1_0 (shapeCast _ (extractStridedSlice S1x5000 ![1, 0] (W (Proc.devRef .tc main_arg21)) slices_S2x5000_S1x5000_1_0) shapeCasts_S1x5000_S5000)) (broadcastInDim S5000 ![] bcast_S_S5000 (constant (F := F) S_ .f32 0x3F800000#32))) (broadcastInDim S100000 ![] bcast_S_S100000 (constant (F := F) S_ .f32 0x3F800000#32)))))) := by
  host_results <;> rfl

theorem pc_part9_ops0_v488 (W : Valuation τ sig (Elt F)) :
    StableHlo.after main_part9_ops0 W (Proc.devRef .tc main_v488)
      = (concatenate S5x128x128 0 [⟨S1x128x128, (broadcastInDim S1x128x128 ![1, 2] bcast_S128x128_S1x128x128_1_2 (shapeCast _ (extractStridedSlice S1x1x128x128 ![1, 0, 0, 0] (W (Proc.devRef .tc main_arg4)) slices_S3x8x128x128_S1x1x128x128_1_0_0_0) shapeCasts_S1x1x128x128_S128x128))⟩, ⟨S1x128x128, (broadcastInDim S1x128x128 ![1, 2] bcast_S128x128_S1x128x128_1_2 (shapeCast _ (extractStridedSlice S1x1x128x128 ![1, 1, 0, 0] (W (Proc.devRef .tc main_arg4)) slices_S3x8x128x128_S1x1x128x128_1_1_0_0) shapeCasts_S1x1x128x128_S128x128))⟩, ⟨S1x128x128, (broadcastInDim S1x128x128 ![1, 2] bcast_S128x128_S1x128x128_1_2 (shapeCast _ (extractStridedSlice S1x1x128x128 ![1, 2, 0, 0] (W (Proc.devRef .tc main_arg4)) slices_S3x8x128x128_S1x1x128x128_1_2_0_0) shapeCasts_S1x1x128x128_S128x128))⟩, ⟨S1x128x128, (broadcastInDim S1x128x128 ![1, 2] bcast_S128x128_S1x128x128_1_2 (shapeCast _ (extractStridedSlice S1x1x128x128 ![1, 4, 0, 0] (W (Proc.devRef .tc main_arg4)) slices_S3x8x128x128_S1x1x128x128_1_4_0_0) shapeCasts_S1x1x128x128_S128x128))⟩, ⟨S1x128x128, (broadcastInDim S1x128x128 ![1, 2] bcast_S128x128_S1x128x128_1_2 (shapeCast _ (extractStridedSlice S1x1x128x128 ![1, 6, 0, 0] (W (Proc.devRef .tc main_arg4)) slices_S3x8x128x128_S1x1x128x128_1_6_0_0) shapeCasts_S1x1x128x128_S128x128))⟩] concatenates_S1x128x128_S1x128x128_S1x128x128_S1x128x128_S1x128x128_S5x128x128_d0) := by
  host_results <;> rfl

theorem pc_part9_ops0_v502 (W : Valuation τ sig (Elt F)) :
    StableHlo.after main_part9_ops0 W (Proc.devRef .tc main_v502)
      = (addf (addf (addf (addf (shapeCast _ (extractStridedSlice S1x1x128x128 ![1, 0, 0, 0] (W (Proc.devRef .tc main_arg6)) slices_S3x8x128x128_S1x1x128x128_1_0_0_0) shapeCasts_S1x1x128x128_S128x128) (shapeCast _ (extractStridedSlice S1x1x128x128 ![1, 1, 0, 0] (W (Proc.devRef .tc main_arg6)) slices_S3x8x128x128_S1x1x128x128_1_1_0_0) shapeCasts_S1x1x128x128_S128x128)) (shapeCast _ (extractStridedSlice S1x1x128x128 ![1, 2, 0, 0] (W (Proc.devRef .tc main_arg6)) slices_S3x8x128x128_S1x1x128x128_1_2_0_0) shapeCasts_S1x1x128x128_S128x128)) (shapeCast _ (extractStridedSlice S1x1x128x128 ![1, 4, 0, 0] (W (Proc.devRef .tc main_arg6)) slices_S3x8x128x128_S1x1x128x128_1_4_0_0) shapeCasts_S1x1x128x128_S128x128)) (shapeCast _ (extractStridedSlice S1x1x128x128 ![1, 6, 0, 0] (W (Proc.devRef .tc main_arg6)) slices_S3x8x128x128_S1x1x128x128_1_6_0_0) shapeCasts_S1x1x128x128_S128x128)) := by
  host_results <;> rfl

theorem pc_part9_ops0_v503 (W : Valuation τ sig (Elt F)) :
    StableHlo.after main_part9_ops0 W (Proc.devRef .tc main_v503)
      = (extractStridedSlice S1x1x128 ![1, 0, 0] (W (Proc.devRef .tc main_arg5)) slices_S3x8x128_S1x1x128_1_0_0) := by
  host_results <;> rfl

theorem pc_part10_ops0_v517 (W : Valuation τ sig (Elt F)) :
    StableHlo.after main_part10_ops0 W (Proc.devRef .tc main_v517)
      = (shapeCast _ (addf (addf (addf (addf (shapeCast _ (W (Proc.devRef .tc main_v503)) shapeCasts_S1x1x128_S128) (shapeCast _ (extractStridedSlice S1x1x128 ![1, 1, 0] (W (Proc.devRef .tc main_arg5)) slices_S3x8x128_S1x1x128_1_1_0) shapeCasts_S1x1x128_S128)) (shapeCast _ (extractStridedSlice S1x1x128 ![1, 2, 0] (W (Proc.devRef .tc main_arg5)) slices_S3x8x128_S1x1x128_1_2_0) shapeCasts_S1x1x128_S128)) (shapeCast _ (extractStridedSlice S1x1x128 ![1, 4, 0] (W (Proc.devRef .tc main_arg5)) slices_S3x8x128_S1x1x128_1_4_0) shapeCasts_S1x1x128_S128)) (shapeCast _ (extractStridedSlice S1x1x128 ![1, 6, 0] (W (Proc.devRef .tc main_arg5)) slices_S3x8x128_S1x1x128_1_6_0) shapeCasts_S1x1x128_S128)) shapeCasts_S128_S1x128) := by
  host_results <;> rfl

theorem pc_part7_ops0_v399 (W : Valuation τ sig (Elt F)) :
    StableHlo.after main_part7_ops0 W (Proc.devRef .tc main_v399)
      = (shapeCast _ (extractStridedSlice S1x20000 ![0, 0] (W (Proc.devRef .tc main_arg18)) slices_S2x20000_S1x20000_0_0) shapeCasts_S1x20000_S20000) := by
  host_results <;> rfl

theorem pc_part7_ops0_v400 (W : Valuation τ sig (Elt F)) :
    StableHlo.after main_part7_ops0 W (Proc.devRef .tc main_v400)
      = (broadcastInDim S20000 ![] bcast_S_S20000 (constantI S_ 32 0#32)) := by
  host_results <;> rfl

theorem pc_part8_ops0_v422 (W : Valuation τ sig (Elt F)) :
    StableHlo.after main_part8_ops0 W (Proc.devRef .tc main_v422)
      = (Host.divf (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (W (Proc.devRef .tc main_arg18)) slices_S2x20000_S1x20000_1_0) shapeCasts_S1x20000_S20000)) (Host.gather gather_S100000x128_S20000x1_S20000x128_1_0_n_n_0_1_1128 (W (Proc.devRef .tc main_v245)) (broadcastInDim S20000x1 ![0] bcast_S20000_S20000x1_0 (select (cmpi .slt (W (Proc.devRef .tc main_v399)) (W (Proc.devRef .tc main_v400))) (addi (W (Proc.devRef .tc main_v399)) (broadcastInDim S20000 ![] bcast_S_S20000 (constantI S_ 32 100000#32))) (W (Proc.devRef .tc main_v399)))))) (broadcastInDim S20000x128 ![0, 1] bcast_S20000x1_S20000x128_0_1 (broadcastInDim S20000x1 ![0] bcast_S20000_S20000x1_0 (maximumf (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (W (Proc.devRef .tc main_arg18)) slices_S2x20000_S1x20000_1_0) shapeCasts_S1x20000_S20000)) (broadcastInDim S20000 ![] bcast_S_S20000 (constant (F := F) S_ .f32 0x3F800000#32))) (broadcastInDim S20000 ![] bcast_S_S20000 (constant (F := F) S_ .f32 0x3F800000#32)))))) := by
  host_results <;> rfl

theorem pc_part10_ops1_v521 (W : Valuation τ sig (Elt F)) :
    StableHlo.after main_part10_ops1 W (Proc.devRef .tc main_v521)
      = (shapeCast _ (shapeCast _ (extractStridedSlice S1x1x128x128 ![1, 3, 0, 0] (W (Proc.devRef .tc main_arg4)) slices_S3x8x128x128_S1x1x128x128_1_3_0_0) shapeCasts_S1x1x128x128_S128x128) shapeCasts_S128x128_S1x128x128) := by
  host_results <;> rfl

theorem pc_part10_ops1_v523 (W : Valuation τ sig (Elt F)) :
    StableHlo.after main_part10_ops1 W (Proc.devRef .tc main_v523)
      = (shapeCast _ (extractStridedSlice S1x1x128x128 ![1, 3, 0, 0] (W (Proc.devRef .tc main_arg6)) slices_S3x8x128x128_S1x1x128x128_1_3_0_0) shapeCasts_S1x1x128x128_S128x128) := by
  host_results <;> rfl

theorem pc_part10_ops1_v526 (W : Valuation τ sig (Elt F)) :
    StableHlo.after main_part10_ops1 W (Proc.devRef .tc main_v526)
      = (shapeCast _ (shapeCast _ (extractStridedSlice S1x1x128 ![1, 3, 0] (W (Proc.devRef .tc main_arg5)) slices_S3x8x128_S1x1x128_1_3_0) shapeCasts_S1x1x128_S128) shapeCasts_S128_S1x128) := by
  host_results <;> rfl

theorem pc_part8_ops0_v447 (W : Valuation τ sig (Elt F)) :
    StableHlo.after main_part8_ops0 W (Proc.devRef .tc main_v447)
      = (Host.divf (Host.scatterAdd scatter_S50000x128_S50000x1_S50000x128_1_0_0_1 (broadcastInDim S50000x128 ![] bcast_S_S50000x128 (constant (F := F) S_ .f32 0x00000000#32)) (broadcastInDim S50000x1 ![0] bcast_S50000_S50000x1_0 (shapeCast _ (extractStridedSlice S1x50000 ![1, 0] (W (Proc.devRef .tc main_arg20)) slices_S2x50000_S1x50000_1_0) shapeCasts_S1x50000_S50000)) (Host.gather gather_S100000x128_S50000x1_S50000x128_1_0_n_n_0_1_1128 (W (Proc.devRef .tc main_v245)) (broadcastInDim S50000x1 ![0] bcast_S50000_S50000x1_0 (select (cmpi .slt (shapeCast _ (extractStridedSlice S1x50000 ![0, 0] (W (Proc.devRef .tc main_arg20)) slices_S2x50000_S1x50000_0_0) shapeCasts_S1x50000_S50000) (broadcastInDim S50000 ![] bcast_S_S50000 (constantI S_ 32 0#32))) (addi (shapeCast _ (extractStridedSlice S1x50000 ![0, 0] (W (Proc.devRef .tc main_arg20)) slices_S2x50000_S1x50000_0_0) shapeCasts_S1x50000_S50000) (broadcastInDim S50000 ![] bcast_S_S50000 (constantI S_ 32 100000#32))) (shapeCast _ (extractStridedSlice S1x50000 ![0, 0] (W (Proc.devRef .tc main_arg20)) slices_S2x50000_S1x50000_0_0) shapeCasts_S1x50000_S50000))))) (broadcastInDim S50000x128 ![0, 1] bcast_S50000x1_S50000x128_0_1 (broadcastInDim S50000x1 ![0] bcast_S50000_S50000x1_0 (maximumf (Host.scatterAdd scatter_S50000_S50000x1_S50000_n_0_0_1 (broadcastInDim S50000 ![] bcast_S_S50000 (constant (F := F) S_ .f32 0x00000000#32)) (broadcastInDim S50000x1 ![0] bcast_S50000_S50000x1_0 (shapeCast _ (extractStridedSlice S1x50000 ![1, 0] (W (Proc.devRef .tc main_arg20)) slices_S2x50000_S1x50000_1_0) shapeCasts_S1x50000_S50000)) (broadcastInDim S50000 ![] bcast_S_S50000 (constant (F := F) S_ .f32 0x3F800000#32))) (broadcastInDim S50000 ![] bcast_S_S50000 (constant (F := F) S_ .f32 0x3F800000#32)))))) := by
  host_results <;> rfl

theorem pc_part10_ops2_v530 (W : Valuation τ sig (Elt F)) :
    StableHlo.after main_part10_ops2 W (Proc.devRef .tc main_v530)
      = (shapeCast _ (shapeCast _ (extractStridedSlice S1x1x128x128 ![1, 5, 0, 0] (W (Proc.devRef .tc main_arg4)) slices_S3x8x128x128_S1x1x128x128_1_5_0_0) shapeCasts_S1x1x128x128_S128x128) shapeCasts_S128x128_S1x128x128) := by
  host_results <;> rfl

theorem pc_part10_ops2_v532 (W : Valuation τ sig (Elt F)) :
    StableHlo.after main_part10_ops2 W (Proc.devRef .tc main_v532)
      = (shapeCast _ (extractStridedSlice S1x1x128x128 ![1, 5, 0, 0] (W (Proc.devRef .tc main_arg6)) slices_S3x8x128x128_S1x1x128x128_1_5_0_0) shapeCasts_S1x1x128x128_S128x128) := by
  host_results <;> rfl

theorem pc_part10_ops2_v535 (W : Valuation τ sig (Elt F)) :
    StableHlo.after main_part10_ops2 W (Proc.devRef .tc main_v535)
      = (shapeCast _ (shapeCast _ (extractStridedSlice S1x1x128 ![1, 5, 0] (W (Proc.devRef .tc main_arg5)) slices_S3x8x128_S1x1x128_1_5_0) shapeCasts_S1x1x128_S128) shapeCasts_S128_S1x128) := by
  host_results <;> rfl

theorem pc_part8_ops0_v449 (W : Valuation τ sig (Elt F)) :
    StableHlo.after main_part8_ops0 W (Proc.devRef .tc main_v449)
      = (shapeCast _ (extractStridedSlice S1x5000 ![0, 0] (W (Proc.devRef .tc main_arg22)) slices_S2x5000_S1x5000_0_0) shapeCasts_S1x5000_S5000) := by
  host_results <;> rfl

theorem pc_part9_ops0_v472 (W : Valuation τ sig (Elt F)) :
    StableHlo.after main_part9_ops0 W (Proc.devRef .tc main_v472)
      = (Host.divf (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (W (Proc.devRef .tc main_arg22)) slices_S2x5000_S1x5000_1_0) shapeCasts_S1x5000_S5000)) (Host.gather gather_S100000x128_S5000x1_S5000x128_1_0_n_n_0_1_1128 (W (Proc.devRef .tc main_v245)) (broadcastInDim S5000x1 ![0] bcast_S5000_S5000x1_0 (select (cmpi .slt (W (Proc.devRef .tc main_v449)) (broadcastInDim S5000 ![] bcast_S_S5000 (constantI S_ 32 0#32))) (addi (W (Proc.devRef .tc main_v449)) (broadcastInDim S5000 ![] bcast_S_S5000 (constantI S_ 32 100000#32))) (W (Proc.devRef .tc main_v449)))))) (broadcastInDim S5000x128 ![0, 1] bcast_S5000x1_S5000x128_0_1 (broadcastInDim S5000x1 ![0] bcast_S5000_S5000x1_0 (maximumf (Host.scatterAdd scatter_S5000_S5000x1_S5000_n_0_0_1 (broadcastInDim S5000 ![] bcast_S_S5000 (constant (F := F) S_ .f32 0x00000000#32)) (broadcastInDim S5000x1 ![0] bcast_S5000_S5000x1_0 (shapeCast _ (extractStridedSlice S1x5000 ![1, 0] (W (Proc.devRef .tc main_arg22)) slices_S2x5000_S1x5000_1_0) shapeCasts_S1x5000_S5000)) (broadcastInDim S5000 ![] bcast_S_S5000 (constant (F := F) S_ .f32 0x3F800000#32))) (broadcastInDim S5000 ![] bcast_S_S5000 (constant (F := F) S_ .f32 0x3F800000#32)))))) := by
  host_results <;> rfl

theorem pc_part10_ops3_v539 (W : Valuation τ sig (Elt F)) :
    StableHlo.after main_part10_ops3 W (Proc.devRef .tc main_v539)
      = (shapeCast _ (shapeCast _ (extractStridedSlice S1x1x128x128 ![1, 7, 0, 0] (W (Proc.devRef .tc main_arg4)) slices_S3x8x128x128_S1x1x128x128_1_7_0_0) shapeCasts_S1x1x128x128_S128x128) shapeCasts_S128x128_S1x128x128) := by
  host_results <;> rfl

theorem pc_part10_ops3_v541 (W : Valuation τ sig (Elt F)) :
    StableHlo.after main_part10_ops3 W (Proc.devRef .tc main_v541)
      = (shapeCast _ (extractStridedSlice S1x1x128x128 ![1, 7, 0, 0] (W (Proc.devRef .tc main_arg6)) slices_S3x8x128x128_S1x1x128x128_1_7_0_0) shapeCasts_S1x1x128x128_S128x128) := by
  host_results <;> rfl

theorem pc_part10_ops3_v544 (W : Valuation τ sig (Elt F)) :
    StableHlo.after main_part10_ops3 W (Proc.devRef .tc main_v544)
      = (shapeCast _ (shapeCast _ (extractStridedSlice S1x1x128 ![1, 7, 0] (W (Proc.devRef .tc main_arg5)) slices_S3x8x128_S1x1x128_1_7_0) shapeCasts_S1x1x128_S128) shapeCasts_S128_S1x128) := by
  host_results <;> rfl

end Cert.KernelIdeal.Hand

end
-- ==== Proof.KI.HostIn1.lean ====
/- What the regions of layer 1 find in their input windows' arrays: each aggregate window the mean aggregation of the
   source features of that layer along its edge type; each destination window the features themselves; each weight
   window, index by index, the slice (or the sum of slices) of the stacked parameters. First every host result these
   read, at the boundary of @main where it is made. -/
import proofs.«125545_j64845416235624_1_alg».proof.Proof.KI.Fold
import proofs.«125545_j64845416235624_1_alg».proof.Proof.KI.Keep
import proofs.«125545_j64845416235624_1_alg».proof.Proof.KI.Agg
import proofs.«125545_j64845416235624_1_alg».proof.Proof.KI.HostLayout
import proofs.«125545_j64845416235624_1_alg».proof.Proof.KI.HostPc1
import proofs.«125545_j64845416235624_1_alg».proof.Proof.NetDefs

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-! ## The host results at the boundaries where they are made -/

section Values
variable (m : (ℓ : Loc nD τ sig) → Buf (Elt F) ℓ) (ρ : Dev nD → PrngReg)

theorem val_v297 (c : Dev nD) :
    W14 m ρ c (Proc.devRef .tc main_v297)
      = (Host.divf (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (Host.gather gather_S100000x128_S500000x1_S500000x128_1_0_n_n_0_1_1128 (Vout0 m ρ c (Pipeline.arrRef spec0 9)) (broadcastInDim S500000x1 ![0] bcast_S500000_S500000x1_0 (select (cmpi .slt (shapeCast _ (extractStridedSlice S1x500000 ![0, 0] (m ((c : Thread nD τ).loc main_arg15)) slices_S2x500000_S1x500000_0_0) shapeCasts_S1x500000_S500000) (broadcastInDim S500000 ![] bcast_S_S500000 (constantI S_ 32 0#32))) (addi (shapeCast _ (extractStridedSlice S1x500000 ![0, 0] (m ((c : Thread nD τ).loc main_arg15)) slices_S2x500000_S1x500000_0_0) shapeCasts_S1x500000_S500000) (broadcastInDim S500000 ![] bcast_S_S500000 (constantI S_ 32 100000#32))) (shapeCast _ (extractStridedSlice S1x500000 ![0, 0] (m ((c : Thread nD τ).loc main_arg15)) slices_S2x500000_S1x500000_0_0) shapeCasts_S1x500000_S500000))))) (broadcastInDim S100000x128 ![0, 1] bcast_S100000x1_S100000x128_0_1 (broadcastInDim S100000x1 ![0] bcast_S100000_S100000x1_0 (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (broadcastInDim S500000 ![] bcast_S_S500000 (constant (F := F) S_ .f32 0x3F800000#32))) (broadcastInDim S100000 ![] bcast_S_S100000 (constant (F := F) S_ .f32 0x3F800000#32)))))) :=
  (pc_part5_ops3_v297 (W13 m ρ c)).trans (by
    rw [(show W13 m ρ c (Proc.devRef .tc main_arg15) = (m ((c : Thread nD τ).loc main_arg15)) from
    (W13_of_ne m ρ c main_arg15 (by decide)).trans <|
    (keep_main_part5_ops2 (W11 m ρ c) main_arg15 (by decide)).trans <|
    (W11_of_ne m ρ c main_arg15 (by decide)).trans <|
    (keep_main_part5_ops1 (W9 m ρ c) main_arg15 (by decide)).trans <|
    (W9_of_ne m ρ c main_arg15 (by decide)).trans <|
    (keep_main_part5_ops0 (W7 m ρ c) main_arg15 (by decide)).trans <|
    (keep_main_part4_ops1 (W6 m ρ c) main_arg15 (by decide)).trans <|
    (W6_of_ne m ρ c main_arg15 (by decide)).trans <|
    (keep_main_part4_ops0 (W4 m ρ c) main_arg15 (by decide)).trans <|
    (keep_main_part3_ops0 (W3 m ρ c) main_arg15 (by decide)).trans <|
    (keep_main_part2_ops0 (W2 m ρ c) main_arg15 (by decide)).trans <|
    (keep_main_part1_ops0 (W1 m ρ c) main_arg15 (by decide)).trans <|
    (keep_main_part0_ops0 (W0 m ρ c) main_arg15 (by decide)).trans <|
    rfl),
      (show W13 m ρ c (Proc.devRef .tc main_v245) = (Vout0 m ρ c (Pipeline.arrRef spec0 9)) from
    (W13_of_ne m ρ c main_v245 (by decide)).trans <|
    (keep_main_part5_ops2 (W11 m ρ c) main_v245 (by decide)).trans <|
    (W11_of_ne m ρ c main_v245 (by decide)).trans <|
    (keep_main_part5_ops1 (W9 m ρ c) main_v245 (by decide)).trans <|
    (W9_of_ne m ρ c main_v245 (by decide)).trans <|
    (keep_main_part5_ops0 (W7 m ρ c) main_v245 (by decide)).trans <|
    (keep_main_part4_ops1 (W6 m ρ c) main_v245 (by decide)).trans <|
    rfl)])

theorem val_v301 (c : Dev nD) :
    W14 m ρ c (Proc.devRef .tc main_v301)
      = (cmpi .slt (shapeCast _ (extractStridedSlice S1x100000 ![0, 0] (m ((c : Thread nD τ).loc main_arg16)) slices_S2x100000_S1x100000_0_0) shapeCasts_S1x100000_S100000) (broadcastInDim S100000 ![] bcast_S_S100000 (constantI S_ 32 0#32))) :=
  (pc_part5_ops3_v301 (W13 m ρ c)).trans (by
    rw [(show W13 m ρ c (Proc.devRef .tc main_arg16) = (m ((c : Thread nD τ).loc main_arg16)) from
    (W13_of_ne m ρ c main_arg16 (by decide)).trans <|
    (keep_main_part5_ops2 (W11 m ρ c) main_arg16 (by decide)).trans <|
    (W11_of_ne m ρ c main_arg16 (by decide)).trans <|
    (keep_main_part5_ops1 (W9 m ρ c) main_arg16 (by decide)).trans <|
    (W9_of_ne m ρ c main_arg16 (by decide)).trans <|
    (keep_main_part5_ops0 (W7 m ρ c) main_arg16 (by decide)).trans <|
    (keep_main_part4_ops1 (W6 m ρ c) main_arg16 (by decide)).trans <|
    (W6_of_ne m ρ c main_arg16 (by decide)).trans <|
    (keep_main_part4_ops0 (W4 m ρ c) main_arg16 (by decide)).trans <|
    (keep_main_part3_ops0 (W3 m ρ c) main_arg16 (by decide)).trans <|
    (keep_main_part2_ops0 (W2 m ρ c) main_arg16 (by decide)).trans <|
    (keep_main_part1_ops0 (W1 m ρ c) main_arg16 (by decide)).trans <|
    (keep_main_part0_ops0 (W0 m ρ c) main_arg16 (by decide)).trans <|
    rfl)])

theorem val_v303 (c : Dev nD) :
    W14 m ρ c (Proc.devRef .tc main_v303)
      = (addi (shapeCast _ (extractStridedSlice S1x100000 ![0, 0] (m ((c : Thread nD τ).loc main_arg16)) slices_S2x100000_S1x100000_0_0) shapeCasts_S1x100000_S100000) (broadcastInDim S100000 ![] bcast_S_S100000 (constantI S_ 32 100000#32))) :=
  (pc_part5_ops3_v303 (W13 m ρ c)).trans (by
    rw [(show W13 m ρ c (Proc.devRef .tc main_arg16) = (m ((c : Thread nD τ).loc main_arg16)) from
    (W13_of_ne m ρ c main_arg16 (by decide)).trans <|
    (keep_main_part5_ops2 (W11 m ρ c) main_arg16 (by decide)).trans <|
    (W11_of_ne m ρ c main_arg16 (by decide)).trans <|
    (keep_main_part5_ops1 (W9 m ρ c) main_arg16 (by decide)).trans <|
    (W9_of_ne m ρ c main_arg16 (by decide)).trans <|
    (keep_main_part5_ops0 (W7 m ρ c) main_arg16 (by decide)).trans <|
    (keep_main_part4_ops1 (W6 m ρ c) main_arg16 (by decide)).trans <|
    (W6_of_ne m ρ c main_arg16 (by decide)).trans <|
    (keep_main_part4_ops0 (W4 m ρ c) main_arg16 (by decide)).trans <|
    (keep_main_part3_ops0 (W3 m ρ c) main_arg16 (by decide)).trans <|
    (keep_main_part2_ops0 (W2 m ρ c) main_arg16 (by decide)).trans <|
    (keep_main_part1_ops0 (W1 m ρ c) main_arg16 (by decide)).trans <|
    (keep_main_part0_ops0 (W0 m ρ c) main_arg16 (by decide)).trans <|
    rfl)])

theorem val_v299 (c : Dev nD) :
    W14 m ρ c (Proc.devRef .tc main_v299)
      = (shapeCast _ (extractStridedSlice S1x100000 ![0, 0] (m ((c : Thread nD τ).loc main_arg16)) slices_S2x100000_S1x100000_0_0) shapeCasts_S1x100000_S100000) :=
  (pc_part5_ops3_v299 (W13 m ρ c)).trans (by
    rw [(show W13 m ρ c (Proc.devRef .tc main_arg16) = (m ((c : Thread nD τ).loc main_arg16)) from
    (W13_of_ne m ρ c main_arg16 (by decide)).trans <|
    (keep_main_part5_ops2 (W11 m ρ c) main_arg16 (by decide)).trans <|
    (W11_of_ne m ρ c main_arg16 (by decide)).trans <|
    (keep_main_part5_ops1 (W9 m ρ c) main_arg16 (by decide)).trans <|
    (W9_of_ne m ρ c main_arg16 (by decide)).trans <|
    (keep_main_part5_ops0 (W7 m ρ c) main_arg16 (by decide)).trans <|
    (keep_main_part4_ops1 (W6 m ρ c) main_arg16 (by decide)).trans <|
    (W6_of_ne m ρ c main_arg16 (by decide)).trans <|
    (keep_main_part4_ops0 (W4 m ρ c) main_arg16 (by decide)).trans <|
    (keep_main_part3_ops0 (W3 m ρ c) main_arg16 (by decide)).trans <|
    (keep_main_part2_ops0 (W2 m ρ c) main_arg16 (by decide)).trans <|
    (keep_main_part1_ops0 (W1 m ρ c) main_arg16 (by decide)).trans <|
    (keep_main_part0_ops0 (W0 m ρ c) main_arg16 (by decide)).trans <|
    rfl)])

theorem val_v322 (c : Dev nD) :
    W15 m ρ c (Proc.devRef .tc main_v322)
      = (Host.divf (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (Host.gather gather_S100000x128_S100000x1_S100000x128_1_0_n_n_0_1_1128 (Vout0 m ρ c (Pipeline.arrRef spec0 9)) (broadcastInDim S100000x1 ![0] bcast_S100000_S100000x1_0 (select (cmpi .slt (shapeCast _ (extractStridedSlice S1x100000 ![0, 0] (m ((c : Thread nD τ).loc main_arg16)) slices_S2x100000_S1x100000_0_0) shapeCasts_S1x100000_S100000) (broadcastInDim S100000 ![] bcast_S_S100000 (constantI S_ 32 0#32))) (addi (shapeCast _ (extractStridedSlice S1x100000 ![0, 0] (m ((c : Thread nD τ).loc main_arg16)) slices_S2x100000_S1x100000_0_0) shapeCasts_S1x100000_S100000) (broadcastInDim S100000 ![] bcast_S_S100000 (constantI S_ 32 100000#32))) (shapeCast _ (extractStridedSlice S1x100000 ![0, 0] (m ((c : Thread nD τ).loc main_arg16)) slices_S2x100000_S1x100000_0_0) shapeCasts_S1x100000_S100000))))) (broadcastInDim S100000x128 ![0, 1] bcast_S100000x1_S100000x128_0_1 (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))))) :=
  (pc_part6_ops0_v322 (W14 m ρ c)).trans (by
    rw [(show W14 m ρ c (Proc.devRef .tc main_arg16) = (m ((c : Thread nD τ).loc main_arg16)) from
    (keep_main_part5_ops3 (W13 m ρ c) main_arg16 (by decide)).trans <|
    (W13_of_ne m ρ c main_arg16 (by decide)).trans <|
    (keep_main_part5_ops2 (W11 m ρ c) main_arg16 (by decide)).trans <|
    (W11_of_ne m ρ c main_arg16 (by decide)).trans <|
    (keep_main_part5_ops1 (W9 m ρ c) main_arg16 (by decide)).trans <|
    (W9_of_ne m ρ c main_arg16 (by decide)).trans <|
    (keep_main_part5_ops0 (W7 m ρ c) main_arg16 (by decide)).trans <|
    (keep_main_part4_ops1 (W6 m ρ c) main_arg16 (by decide)).trans <|
    (W6_of_ne m ρ c main_arg16 (by decide)).trans <|
    (keep_main_part4_ops0 (W4 m ρ c) main_arg16 (by decide)).trans <|
    (keep_main_part3_ops0 (W3 m ρ c) main_arg16 (by decide)).trans <|
    (keep_main_part2_ops0 (W2 m ρ c) main_arg16 (by decide)).trans <|
    (keep_main_part1_ops0 (W1 m ρ c) main_arg16 (by decide)).trans <|
    (keep_main_part0_ops0 (W0 m ρ c) main_arg16 (by decide)).trans <|
    rfl),
      (show W14 m ρ c (Proc.devRef .tc main_v245) = (Vout0 m ρ c (Pipeline.arrRef spec0 9)) from
    (keep_main_part5_ops3 (W13 m ρ c) main_v245 (by decide)).trans <|
    (W13_of_ne m ρ c main_v245 (by decide)).trans <|
    (keep_main_part5_ops2 (W11 m ρ c) main_v245 (by decide)).trans <|
    (W11_of_ne m ρ c main_v245 (by decide)).trans <|
    (keep_main_part5_ops1 (W9 m ρ c) main_v245 (by decide)).trans <|
    (W9_of_ne m ρ c main_v245 (by decide)).trans <|
    (keep_main_part5_ops0 (W7 m ρ c) main_v245 (by decide)).trans <|
    (keep_main_part4_ops1 (W6 m ρ c) main_v245 (by decide)).trans <|
    rfl),
      (show W14 m ρ c (Proc.devRef .tc main_v301) = (cmpi .slt (shapeCast _ (extractStridedSlice S1x100000 ![0, 0] (m ((c : Thread nD τ).loc main_arg16)) slices_S2x100000_S1x100000_0_0) shapeCasts_S1x100000_S100000) (broadcastInDim S100000 ![] bcast_S_S100000 (constantI S_ 32 0#32))) from
    val_v301 m ρ c),
      (show W14 m ρ c (Proc.devRef .tc main_v303) = (addi (shapeCast _ (extractStridedSlice S1x100000 ![0, 0] (m ((c : Thread nD τ).loc main_arg16)) slices_S2x100000_S1x100000_0_0) shapeCasts_S1x100000_S100000) (broadcastInDim S100000 ![] bcast_S_S100000 (constantI S_ 32 100000#32))) from
    val_v303 m ρ c),
      (show W14 m ρ c (Proc.devRef .tc main_v299) = (shapeCast _ (extractStridedSlice S1x100000 ![0, 0] (m ((c : Thread nD τ).loc main_arg16)) slices_S2x100000_S1x100000_0_0) shapeCasts_S1x100000_S100000) from
    val_v299 m ρ c)])

theorem val_v347 (c : Dev nD) :
    W15 m ρ c (Proc.devRef .tc main_v347)
      = (Host.divf (Host.scatterAdd scatter_S100000x128_S20000x1_S20000x128_1_0_0_1 (broadcastInDim S100000x128 ![] bcast_S_S100000x128 (constant (F := F) S_ .f32 0x00000000#32)) (broadcastInDim S20000x1 ![0] bcast_S20000_S20000x1_0 (shapeCast _ (extractStridedSlice S1x20000 ![1, 0] (m ((c : Thread nD τ).loc main_arg17)) slices_S2x20000_S1x20000_1_0) shapeCasts_S1x20000_S20000)) (Host.gather gather_S20000x128_S20000x1_S20000x128_1_0_n_n_0_1_1128 (Vout1 m ρ c (Pipeline.arrRef spec1 5)) (broadcastInDim S20000x1 ![0] bcast_S20000_S20000x1_0 (select (cmpi .slt (shapeCast _ (extractStridedSlice S1x20000 ![0, 0] (m ((c : Thread nD τ).loc main_arg17)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg17)) slices_S2x20000_S1x20000_0_0) shapeCasts_S1x20000_S20000) (broadcastInDim S20000 ![] bcast_S_S20000 (constantI S_ 32 20000#32))) (shapeCast _ (extractStridedSlice S1x20000 ![0, 0] (m ((c : Thread nD τ).loc main_arg17)) slices_S2x20000_S1x20000_0_0) shapeCasts_S1x20000_S20000))))) (broadcastInDim S100000x128 ![0, 1] bcast_S100000x1_S100000x128_0_1 (broadcastInDim S100000x1 ![0] bcast_S100000_S100000x1_0 (maximumf (Host.scatterAdd scatter_S100000_S20000x1_S20000_n_0_0_1 (broadcastInDim S100000 ![] bcast_S_S100000 (constant (F := F) S_ .f32 0x00000000#32)) (broadcastInDim S20000x1 ![0] bcast_S20000_S20000x1_0 (shapeCast _ (extractStridedSlice S1x20000 ![1, 0] (m ((c : Thread nD τ).loc main_arg17)) slices_S2x20000_S1x20000_1_0) shapeCasts_S1x20000_S20000)) (broadcastInDim S20000 ![] bcast_S_S20000 (constant (F := F) S_ .f32 0x3F800000#32))) (broadcastInDim S100000 ![] bcast_S_S100000 (constant (F := F) S_ .f32 0x3F800000#32)))))) :=
  (pc_part6_ops0_v347 (W14 m ρ c)).trans (by
    rw [(show W14 m ρ c (Proc.devRef .tc main_arg17) = (m ((c : Thread nD τ).loc main_arg17)) from
    (keep_main_part5_ops3 (W13 m ρ c) main_arg17 (by decide)).trans <|
    (W13_of_ne m ρ c main_arg17 (by decide)).trans <|
    (keep_main_part5_ops2 (W11 m ρ c) main_arg17 (by decide)).trans <|
    (W11_of_ne m ρ c main_arg17 (by decide)).trans <|
    (keep_main_part5_ops1 (W9 m ρ c) main_arg17 (by decide)).trans <|
    (W9_of_ne m ρ c main_arg17 (by decide)).trans <|
    (keep_main_part5_ops0 (W7 m ρ c) main_arg17 (by decide)).trans <|
    (keep_main_part4_ops1 (W6 m ρ c) main_arg17 (by decide)).trans <|
    (W6_of_ne m ρ c main_arg17 (by decide)).trans <|
    (keep_main_part4_ops0 (W4 m ρ c) main_arg17 (by decide)).trans <|
    (keep_main_part3_ops0 (W3 m ρ c) main_arg17 (by decide)).trans <|
    (keep_main_part2_ops0 (W2 m ρ c) main_arg17 (by decide)).trans <|
    (keep_main_part1_ops0 (W1 m ρ c) main_arg17 (by decide)).trans <|
    (keep_main_part0_ops0 (W0 m ρ c) main_arg17 (by decide)).trans <|
    rfl),
      (show W14 m ρ c (Proc.devRef .tc main_v254) = (Vout1 m ρ c (Pipeline.arrRef spec1 5)) from
    (keep_main_part5_ops3 (W13 m ρ c) main_v254 (by decide)).trans <|
    (W13_of_ne m ρ c main_v254 (by decide)).trans <|
    (keep_main_part5_ops2 (W11 m ρ c) main_v254 (by decide)).trans <|
    (W11_of_ne m ρ c main_v254 (by decide)).trans <|
    (keep_main_part5_ops1 (W9 m ρ c) main_v254 (by decide)).trans <|
    rfl)])

theorem val_v351 (c : Dev nD) :
    W15 m ρ c (Proc.devRef .tc main_v351)
      = (cmpi .slt (shapeCast _ (extractStridedSlice S1x50000 ![0, 0] (m ((c : Thread nD τ).loc main_arg19)) slices_S2x50000_S1x50000_0_0) shapeCasts_S1x50000_S50000) (broadcastInDim S50000 ![] bcast_S_S50000 (constantI S_ 32 0#32))) :=
  (pc_part6_ops0_v351 (W14 m ρ c)).trans (by
    rw [(show W14 m ρ c (Proc.devRef .tc main_arg19) = (m ((c : Thread nD τ).loc main_arg19)) from
    (keep_main_part5_ops3 (W13 m ρ c) main_arg19 (by decide)).trans <|
    (W13_of_ne m ρ c main_arg19 (by decide)).trans <|
    (keep_main_part5_ops2 (W11 m ρ c) main_arg19 (by decide)).trans <|
    (W11_of_ne m ρ c main_arg19 (by decide)).trans <|
    (keep_main_part5_ops1 (W9 m ρ c) main_arg19 (by decide)).trans <|
    (W9_of_ne m ρ c main_arg19 (by decide)).trans <|
    (keep_main_part5_ops0 (W7 m ρ c) main_arg19 (by decide)).trans <|
    (keep_main_part4_ops1 (W6 m ρ c) main_arg19 (by decide)).trans <|
    (W6_of_ne m ρ c main_arg19 (by decide)).trans <|
    (keep_main_part4_ops0 (W4 m ρ c) main_arg19 (by decide)).trans <|
    (keep_main_part3_ops0 (W3 m ρ c) main_arg19 (by decide)).trans <|
    (keep_main_part2_ops0 (W2 m ρ c) main_arg19 (by decide)).trans <|
    (keep_main_part1_ops0 (W1 m ρ c) main_arg19 (by decide)).trans <|
    (keep_main_part0_ops0 (W0 m ρ c) main_arg19 (by decide)).trans <|
    rfl)])

theorem val_v349 (c : Dev nD) :
    W15 m ρ c (Proc.devRef .tc main_v349)
      = (shapeCast _ (extractStridedSlice S1x50000 ![0, 0] (m ((c : Thread nD τ).loc main_arg19)) slices_S2x50000_S1x50000_0_0) shapeCasts_S1x50000_S50000) :=
  (pc_part6_ops0_v349 (W14 m ρ c)).trans (by
    rw [(show W14 m ρ c (Proc.devRef .tc main_arg19) = (m ((c : Thread nD τ).loc main_arg19)) from
    (keep_main_part5_ops3 (W13 m ρ c) main_arg19 (by decide)).trans <|
    (W13_of_ne m ρ c main_arg19 (by decide)).trans <|
    (keep_main_part5_ops2 (W11 m ρ c) main_arg19 (by decide)).trans <|
    (W11_of_ne m ρ c main_arg19 (by decide)).trans <|
    (keep_main_part5_ops1 (W9 m ρ c) main_arg19 (by decide)).trans <|
    (W9_of_ne m ρ c main_arg19 (by decide)).trans <|
    (keep_main_part5_ops0 (W7 m ρ c) main_arg19 (by decide)).trans <|
    (keep_main_part4_ops1 (W6 m ρ c) main_arg19 (by decide)).trans <|
    (W6_of_ne m ρ c main_arg19 (by decide)).trans <|
    (keep_main_part4_ops0 (W4 m ρ c) main_arg19 (by decide)).trans <|
    (keep_main_part3_ops0 (W3 m ρ c) main_arg19 (by decide)).trans <|
    (keep_main_part2_ops0 (W2 m ρ c) main_arg19 (by decide)).trans <|
    (keep_main_part1_ops0 (W1 m ρ c) main_arg19 (by decide)).trans <|
    (keep_main_part0_ops0 (W0 m ρ c) main_arg19 (by decide)).trans <|
    rfl)])

theorem val_c_65 (c : Dev nD) :
    W15 m ρ c (Proc.devRef .tc main_c_65)
      = (constantI S_ 32 50000#32) :=
  pc_part6_ops0_c_65 (W14 m ρ c)

theorem val_v372 (c : Dev nD) :
    W16 m ρ c (Proc.devRef .tc main_v372)
      = (Host.divf (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (Host.gather gather_S50000x128_S50000x1_S50000x128_1_0_n_n_0_1_1128 (Vout2 m ρ c (Pipeline.arrRef spec2 5)) (broadcastInDim S50000x1 ![0] bcast_S50000_S50000x1_0 (select (cmpi .slt (shapeCast _ (extractStridedSlice S1x50000 ![0, 0] (m ((c : Thread nD τ).loc main_arg19)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg19)) slices_S2x50000_S1x50000_0_0) shapeCasts_S1x50000_S50000) (broadcastInDim S50000 ![] bcast_S_S50000 (constantI S_ 32 50000#32))) (shapeCast _ (extractStridedSlice S1x50000 ![0, 0] (m ((c : Thread nD τ).loc main_arg19)) slices_S2x50000_S1x50000_0_0) shapeCasts_S1x50000_S50000))))) (broadcastInDim S100000x128 ![0, 1] bcast_S100000x1_S100000x128_0_1 (broadcastInDim S100000x1 ![0] bcast_S100000_S100000x1_0 (maximumf (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (broadcastInDim S50000 ![] bcast_S_S50000 (constant (F := F) S_ .f32 0x3F800000#32))) (broadcastInDim S100000 ![] bcast_S_S100000 (constant (F := F) S_ .f32 0x3F800000#32)))))) :=
  (pc_part7_ops0_v372 (W15 m ρ c)).trans (by
    rw [(show W15 m ρ c (Proc.devRef .tc main_arg19) = (m ((c : Thread nD τ).loc main_arg19)) from
    (keep_main_part6_ops0 (W14 m ρ c) main_arg19 (by decide)).trans <|
    (keep_main_part5_ops3 (W13 m ρ c) main_arg19 (by decide)).trans <|
    (W13_of_ne m ρ c main_arg19 (by decide)).trans <|
    (keep_main_part5_ops2 (W11 m ρ c) main_arg19 (by decide)).trans <|
    (W11_of_ne m ρ c main_arg19 (by decide)).trans <|
    (keep_main_part5_ops1 (W9 m ρ c) main_arg19 (by decide)).trans <|
    (W9_of_ne m ρ c main_arg19 (by decide)).trans <|
    (keep_main_part5_ops0 (W7 m ρ c) main_arg19 (by decide)).trans <|
    (keep_main_part4_ops1 (W6 m ρ c) main_arg19 (by decide)).trans <|
    (W6_of_ne m ρ c main_arg19 (by decide)).trans <|
    (keep_main_part4_ops0 (W4 m ρ c) main_arg19 (by decide)).trans <|
    (keep_main_part3_ops0 (W3 m ρ c) main_arg19 (by decide)).trans <|
    (keep_main_part2_ops0 (W2 m ρ c) main_arg19 (by decide)).trans <|
    (keep_main_part1_ops0 (W1 m ρ c) main_arg19 (by decide)).trans <|
    (keep_main_part0_ops0 (W0 m ρ c) main_arg19 (by decide)).trans <|
    rfl),
      (show W15 m ρ c (Proc.devRef .tc main_v263) = (Vout2 m ρ c (Pipeline.arrRef spec2 5)) from
    (keep_main_part6_ops0 (W14 m ρ c) main_v263 (by decide)).trans <|
    (keep_main_part5_ops3 (W13 m ρ c) main_v263 (by decide)).trans <|
    (W13_of_ne m ρ c main_v263 (by decide)).trans <|
    (keep_main_part5_ops2 (W11 m ρ c) main_v263 (by decide)).trans <|
    rfl),
      (show W15 m ρ c (Proc.devRef .tc main_v351) = (cmpi .slt (shapeCast _ (extractStridedSlice S1x50000 ![0, 0] (m ((c : Thread nD τ).loc main_arg19)) slices_S2x50000_S1x50000_0_0) shapeCasts_S1x50000_S50000) (broadcastInDim S50000 ![] bcast_S_S50000 (constantI S_ 32 0#32))) from
    val_v351 m ρ c),
      (show W15 m ρ c (Proc.devRef .tc main_v349) = (shapeCast _ (extractStridedSlice S1x50000 ![0, 0] (m ((c : Thread nD τ).loc main_arg19)) slices_S2x50000_S1x50000_0_0) shapeCasts_S1x50000_S50000) from
    val_v349 m ρ c),
      (show W15 m ρ c (Proc.devRef .tc main_c_65) = (constantI S_ 32 50000#32) from
    val_c_65 m ρ c)])

theorem val_v397 (c : Dev nD) :
    W16 m ρ c (Proc.devRef .tc main_v397)
      = (Host.divf (Host.scatterAdd scatter_S100000x128_S5000x1_S5000x128_1_0_0_1 (broadcastInDim S100000x128 ![] bcast_S_S100000x128 (constant (F := F) S_ .f32 0x00000000#32)) (broadcastInDim S5000x1 ![0] bcast_S5000_S5000x1_0 (shapeCast _ (extractStridedSlice S1x5000 ![1, 0] (m ((c : Thread nD τ).loc main_arg21)) slices_S2x5000_S1x5000_1_0) shapeCasts_S1x5000_S5000)) (Host.gather gather_S5000x128_S5000x1_S5000x128_1_0_n_n_0_1_1128 (Vout3 m ρ c (Pipeline.arrRef spec3 5)) (broadcastInDim S5000x1 ![0] bcast_S5000_S5000x1_0 (select (cmpi .slt (shapeCast _ (extractStridedSlice S1x5000 ![0, 0] (m ((c : Thread nD τ).loc main_arg21)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg21)) slices_S2x5000_S1x5000_0_0) shapeCasts_S1x5000_S5000) (broadcastInDim S5000 ![] bcast_S_S5000 (constantI S_ 32 5000#32))) (shapeCast _ (extractStridedSlice S1x5000 ![0, 0] (m ((c : Thread nD τ).loc main_arg21)) slices_S2x5000_S1x5000_0_0) shapeCasts_S1x5000_S5000))))) (broadcastInDim S100000x128 ![0, 1] bcast_S100000x1_S100000x128_0_1 (broadcastInDim S100000x1 ![0] bcast_S100000_S100000x1_0 (maximumf (Host.scatterAdd scatter_S100000_S5000x1_S5000_n_0_0_1 (broadcastInDim S100000 ![] bcast_S_S100000 (constant (F := F) S_ .f32 0x00000000#32)) (broadcastInDim S5000x1 ![0] bcast_S5000_S5000x1_0 (shapeCast _ (extractStridedSlice S1x5000 ![1, 0] (m ((c : Thread nD τ).loc main_arg21)) slices_S2x5000_S1x5000_1_0) shapeCasts_S1x5000_S5000)) (broadcastInDim S5000 ![] bcast_S_S5000 (constant (F := F) S_ .f32 0x3F800000#32))) (broadcastInDim S100000 ![] bcast_S_S100000 (constant (F := F) S_ .f32 0x3F800000#32)))))) :=
  (pc_part7_ops0_v397 (W15 m ρ c)).trans (by
    rw [(show W15 m ρ c (Proc.devRef .tc main_arg21) = (m ((c : Thread nD τ).loc main_arg21)) from
    (keep_main_part6_ops0 (W14 m ρ c) main_arg21 (by decide)).trans <|
    (keep_main_part5_ops3 (W13 m ρ c) main_arg21 (by decide)).trans <|
    (W13_of_ne m ρ c main_arg21 (by decide)).trans <|
    (keep_main_part5_ops2 (W11 m ρ c) main_arg21 (by decide)).trans <|
    (W11_of_ne m ρ c main_arg21 (by decide)).trans <|
    (keep_main_part5_ops1 (W9 m ρ c) main_arg21 (by decide)).trans <|
    (W9_of_ne m ρ c main_arg21 (by decide)).trans <|
    (keep_main_part5_ops0 (W7 m ρ c) main_arg21 (by decide)).trans <|
    (keep_main_part4_ops1 (W6 m ρ c) main_arg21 (by decide)).trans <|
    (W6_of_ne m ρ c main_arg21 (by decide)).trans <|
    (keep_main_part4_ops0 (W4 m ρ c) main_arg21 (by decide)).trans <|
    (keep_main_part3_ops0 (W3 m ρ c) main_arg21 (by decide)).trans <|
    (keep_main_part2_ops0 (W2 m ρ c) main_arg21 (by decide)).trans <|
    (keep_main_part1_ops0 (W1 m ρ c) main_arg21 (by decide)).trans <|
    (keep_main_part0_ops0 (W0 m ρ c) main_arg21 (by decide)).trans <|
    rfl),
      (show W15 m ρ c (Proc.devRef .tc main_v272) = (Vout3 m ρ c (Pipeline.arrRef spec3 5)) from
    (keep_main_part6_ops0 (W14 m ρ c) main_v272 (by decide)).trans <|
    (keep_main_part5_ops3 (W13 m ρ c) main_v272 (by decide)).trans <|
    rfl)])

theorem val_v488 (c : Dev nD) :
    W18 m ρ c (Proc.devRef .tc main_v488)
      = (concatenate S5x128x128 0 [⟨S1x128x128, (broadcastInDim S1x128x128 ![1, 2] bcast_S128x128_S1x128x128_1_2 (shapeCast _ (extractStridedSlice S1x1x128x128 ![1, 0, 0, 0] (m ((c : Thread nD τ).loc main_arg4)) slices_S3x8x128x128_S1x1x128x128_1_0_0_0) shapeCasts_S1x1x128x128_S128x128))⟩, ⟨S1x128x128, (broadcastInDim S1x128x128 ![1, 2] bcast_S128x128_S1x128x128_1_2 (shapeCast _ (extractStridedSlice S1x1x128x128 ![1, 1, 0, 0] (m ((c : Thread nD τ).loc main_arg4)) slices_S3x8x128x128_S1x1x128x128_1_1_0_0) shapeCasts_S1x1x128x128_S128x128))⟩, ⟨S1x128x128, (broadcastInDim S1x128x128 ![1, 2] bcast_S128x128_S1x128x128_1_2 (shapeCast _ (extractStridedSlice S1x1x128x128 ![1, 2, 0, 0] (m ((c : Thread nD τ).loc main_arg4)) slices_S3x8x128x128_S1x1x128x128_1_2_0_0) shapeCasts_S1x1x128x128_S128x128))⟩, ⟨S1x128x128, (broadcastInDim S1x128x128 ![1, 2] bcast_S128x128_S1x128x128_1_2 (shapeCast _ (extractStridedSlice S1x1x128x128 ![1, 4, 0, 0] (m ((c : Thread nD τ).loc main_arg4)) slices_S3x8x128x128_S1x1x128x128_1_4_0_0) shapeCasts_S1x1x128x128_S128x128))⟩, ⟨S1x128x128, (broadcastInDim S1x128x128 ![1, 2] bcast_S128x128_S1x128x128_1_2 (shapeCast _ (extractStridedSlice S1x1x128x128 ![1, 6, 0, 0] (m ((c : Thread nD τ).loc main_arg4)) slices_S3x8x128x128_S1x1x128x128_1_6_0_0) shapeCasts_S1x1x128x128_S128x128))⟩] concatenates_S1x128x128_S1x128x128_S1x128x128_S1x128x128_S1x128x128_S5x128x128_d0) :=
  (pc_part9_ops0_v488 (W17 m ρ c)).trans (by
    rw [(show W17 m ρ c (Proc.devRef .tc main_arg4) = (m ((c : Thread nD τ).loc main_arg4)) from
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v502 (c : Dev nD) :
    W18 m ρ c (Proc.devRef .tc main_v502)
      = (addf (addf (addf (addf (shapeCast _ (extractStridedSlice S1x1x128x128 ![1, 0, 0, 0] (m ((c : Thread nD τ).loc main_arg6)) slices_S3x8x128x128_S1x1x128x128_1_0_0_0) shapeCasts_S1x1x128x128_S128x128) (shapeCast _ (extractStridedSlice S1x1x128x128 ![1, 1, 0, 0] (m ((c : Thread nD τ).loc main_arg6)) slices_S3x8x128x128_S1x1x128x128_1_1_0_0) shapeCasts_S1x1x128x128_S128x128)) (shapeCast _ (extractStridedSlice S1x1x128x128 ![1, 2, 0, 0] (m ((c : Thread nD τ).loc main_arg6)) slices_S3x8x128x128_S1x1x128x128_1_2_0_0) shapeCasts_S1x1x128x128_S128x128)) (shapeCast _ (extractStridedSlice S1x1x128x128 ![1, 4, 0, 0] (m ((c : Thread nD τ).loc main_arg6)) slices_S3x8x128x128_S1x1x128x128_1_4_0_0) shapeCasts_S1x1x128x128_S128x128)) (shapeCast _ (extractStridedSlice S1x1x128x128 ![1, 6, 0, 0] (m ((c : Thread nD τ).loc main_arg6)) slices_S3x8x128x128_S1x1x128x128_1_6_0_0) shapeCasts_S1x1x128x128_S128x128)) :=
  (pc_part9_ops0_v502 (W17 m ρ c)).trans (by
    rw [(show W17 m ρ c (Proc.devRef .tc main_arg6) = (m ((c : Thread nD τ).loc main_arg6)) from
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v503 (c : Dev nD) :
    W18 m ρ c (Proc.devRef .tc main_v503)
      = (extractStridedSlice S1x1x128 ![1, 0, 0] (m ((c : Thread nD τ).loc main_arg5)) slices_S3x8x128_S1x1x128_1_0_0) :=
  (pc_part9_ops0_v503 (W17 m ρ c)).trans (by
    rw [(show W17 m ρ c (Proc.devRef .tc main_arg5) = (m ((c : Thread nD τ).loc main_arg5)) from
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v517 (c : Dev nD) :
    W19 m ρ c (Proc.devRef .tc main_v517)
      = (shapeCast _ (addf (addf (addf (addf (shapeCast _ (extractStridedSlice S1x1x128 ![1, 0, 0] (m ((c : Thread nD τ).loc main_arg5)) slices_S3x8x128_S1x1x128_1_0_0) shapeCasts_S1x1x128_S128) (shapeCast _ (extractStridedSlice S1x1x128 ![1, 1, 0] (m ((c : Thread nD τ).loc main_arg5)) slices_S3x8x128_S1x1x128_1_1_0) shapeCasts_S1x1x128_S128)) (shapeCast _ (extractStridedSlice S1x1x128 ![1, 2, 0] (m ((c : Thread nD τ).loc main_arg5)) slices_S3x8x128_S1x1x128_1_2_0) shapeCasts_S1x1x128_S128)) (shapeCast _ (extractStridedSlice S1x1x128 ![1, 4, 0] (m ((c : Thread nD τ).loc main_arg5)) slices_S3x8x128_S1x1x128_1_4_0) shapeCasts_S1x1x128_S128)) (shapeCast _ (extractStridedSlice S1x1x128 ![1, 6, 0] (m ((c : Thread nD τ).loc main_arg5)) slices_S3x8x128_S1x1x128_1_6_0) shapeCasts_S1x1x128_S128)) shapeCasts_S128_S1x128) :=
  (pc_part10_ops0_v517 (W18 m ρ c)).trans (by
    rw [(show W18 m ρ c (Proc.devRef .tc main_v503) = (extractStridedSlice S1x1x128 ![1, 0, 0] (m ((c : Thread nD τ).loc main_arg5)) slices_S3x8x128_S1x1x128_1_0_0) from
    val_v503 m ρ c),
      (show W18 m ρ c (Proc.devRef .tc main_arg5) = (m ((c : Thread nD τ).loc main_arg5)) from
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v399 (c : Dev nD) :
    W16 m ρ c (Proc.devRef .tc main_v399)
      = (shapeCast _ (extractStridedSlice S1x20000 ![0, 0] (m ((c : Thread nD τ).loc main_arg18)) slices_S2x20000_S1x20000_0_0) shapeCasts_S1x20000_S20000) :=
  (pc_part7_ops0_v399 (W15 m ρ c)).trans (by
    rw [(show W15 m ρ c (Proc.devRef .tc main_arg18) = (m ((c : Thread nD τ).loc main_arg18)) from
    (keep_main_part6_ops0 (W14 m ρ c) main_arg18 (by decide)).trans <|
    (keep_main_part5_ops3 (W13 m ρ c) main_arg18 (by decide)).trans <|
    (W13_of_ne m ρ c main_arg18 (by decide)).trans <|
    (keep_main_part5_ops2 (W11 m ρ c) main_arg18 (by decide)).trans <|
    (W11_of_ne m ρ c main_arg18 (by decide)).trans <|
    (keep_main_part5_ops1 (W9 m ρ c) main_arg18 (by decide)).trans <|
    (W9_of_ne m ρ c main_arg18 (by decide)).trans <|
    (keep_main_part5_ops0 (W7 m ρ c) main_arg18 (by decide)).trans <|
    (keep_main_part4_ops1 (W6 m ρ c) main_arg18 (by decide)).trans <|
    (W6_of_ne m ρ c main_arg18 (by decide)).trans <|
    (keep_main_part4_ops0 (W4 m ρ c) main_arg18 (by decide)).trans <|
    (keep_main_part3_ops0 (W3 m ρ c) main_arg18 (by decide)).trans <|
    (keep_main_part2_ops0 (W2 m ρ c) main_arg18 (by decide)).trans <|
    (keep_main_part1_ops0 (W1 m ρ c) main_arg18 (by decide)).trans <|
    (keep_main_part0_ops0 (W0 m ρ c) main_arg18 (by decide)).trans <|
    rfl)])

theorem val_v400 (c : Dev nD) :
    W16 m ρ c (Proc.devRef .tc main_v400)
      = (broadcastInDim S20000 ![] bcast_S_S20000 (constantI S_ 32 0#32)) :=
  pc_part7_ops0_v400 (W15 m ρ c)

theorem val_v422 (c : Dev nD) :
    W17 m ρ c (Proc.devRef .tc main_v422)
      = (Host.divf (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (Host.gather gather_S100000x128_S20000x1_S20000x128_1_0_n_n_0_1_1128 (Vout0 m ρ c (Pipeline.arrRef spec0 9)) (broadcastInDim S20000x1 ![0] bcast_S20000_S20000x1_0 (select (cmpi .slt (shapeCast _ (extractStridedSlice S1x20000 ![0, 0] (m ((c : Thread nD τ).loc main_arg18)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg18)) slices_S2x20000_S1x20000_0_0) shapeCasts_S1x20000_S20000) (broadcastInDim S20000 ![] bcast_S_S20000 (constantI S_ 32 100000#32))) (shapeCast _ (extractStridedSlice S1x20000 ![0, 0] (m ((c : Thread nD τ).loc main_arg18)) slices_S2x20000_S1x20000_0_0) shapeCasts_S1x20000_S20000))))) (broadcastInDim S20000x128 ![0, 1] bcast_S20000x1_S20000x128_0_1 (broadcastInDim S20000x1 ![0] bcast_S20000_S20000x1_0 (maximumf (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (broadcastInDim S20000 ![] bcast_S_S20000 (constant (F := F) S_ .f32 0x3F800000#32))) (broadcastInDim S20000 ![] bcast_S_S20000 (constant (F := F) S_ .f32 0x3F800000#32)))))) :=
  (pc_part8_ops0_v422 (W16 m ρ c)).trans (by
    rw [(show W16 m ρ c (Proc.devRef .tc main_arg18) = (m ((c : Thread nD τ).loc main_arg18)) from
    (keep_main_part7_ops0 (W15 m ρ c) main_arg18 (by decide)).trans <|
    (keep_main_part6_ops0 (W14 m ρ c) main_arg18 (by decide)).trans <|
    (keep_main_part5_ops3 (W13 m ρ c) main_arg18 (by decide)).trans <|
    (W13_of_ne m ρ c main_arg18 (by decide)).trans <|
    (keep_main_part5_ops2 (W11 m ρ c) main_arg18 (by decide)).trans <|
    (W11_of_ne m ρ c main_arg18 (by decide)).trans <|
    (keep_main_part5_ops1 (W9 m ρ c) main_arg18 (by decide)).trans <|
    (W9_of_ne m ρ c main_arg18 (by decide)).trans <|
    (keep_main_part5_ops0 (W7 m ρ c) main_arg18 (by decide)).trans <|
    (keep_main_part4_ops1 (W6 m ρ c) main_arg18 (by decide)).trans <|
    (W6_of_ne m ρ c main_arg18 (by decide)).trans <|
    (keep_main_part4_ops0 (W4 m ρ c) main_arg18 (by decide)).trans <|
    (keep_main_part3_ops0 (W3 m ρ c) main_arg18 (by decide)).trans <|
    (keep_main_part2_ops0 (W2 m ρ c) main_arg18 (by decide)).trans <|
    (keep_main_part1_ops0 (W1 m ρ c) main_arg18 (by decide)).trans <|
    (keep_main_part0_ops0 (W0 m ρ c) main_arg18 (by decide)).trans <|
    rfl),
      (show W16 m ρ c (Proc.devRef .tc main_v245) = (Vout0 m ρ c (Pipeline.arrRef spec0 9)) from
    (keep_main_part7_ops0 (W15 m ρ c) main_v245 (by decide)).trans <|
    (keep_main_part6_ops0 (W14 m ρ c) main_v245 (by decide)).trans <|
    (keep_main_part5_ops3 (W13 m ρ c) main_v245 (by decide)).trans <|
    (W13_of_ne m ρ c main_v245 (by decide)).trans <|
    (keep_main_part5_ops2 (W11 m ρ c) main_v245 (by decide)).trans <|
    (W11_of_ne m ρ c main_v245 (by decide)).trans <|
    (keep_main_part5_ops1 (W9 m ρ c) main_v245 (by decide)).trans <|
    (W9_of_ne m ρ c main_v245 (by decide)).trans <|
    (keep_main_part5_ops0 (W7 m ρ c) main_v245 (by decide)).trans <|
    (keep_main_part4_ops1 (W6 m ρ c) main_v245 (by decide)).trans <|
    rfl),
      (show W16 m ρ c (Proc.devRef .tc main_v399) = (shapeCast _ (extractStridedSlice S1x20000 ![0, 0] (m ((c : Thread nD τ).loc main_arg18)) slices_S2x20000_S1x20000_0_0) shapeCasts_S1x20000_S20000) from
    val_v399 m ρ c),
      (show W16 m ρ c (Proc.devRef .tc main_v400) = (broadcastInDim S20000 ![] bcast_S_S20000 (constantI S_ 32 0#32)) from
    val_v400 m ρ c)])

theorem val_v521 (c : Dev nD) :
    W21 m ρ c (Proc.devRef .tc main_v521)
      = (shapeCast _ (shapeCast _ (extractStridedSlice S1x1x128x128 ![1, 3, 0, 0] (m ((c : Thread nD τ).loc main_arg4)) slices_S3x8x128x128_S1x1x128x128_1_3_0_0) shapeCasts_S1x1x128x128_S128x128) shapeCasts_S128x128_S1x128x128) :=
  (pc_part10_ops1_v521 (W20 m ρ c)).trans (by
    rw [(show W20 m ρ c (Proc.devRef .tc main_arg4) = (m ((c : Thread nD τ).loc main_arg4)) from
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v523 (c : Dev nD) :
    W21 m ρ c (Proc.devRef .tc main_v523)
      = (shapeCast _ (extractStridedSlice S1x1x128x128 ![1, 3, 0, 0] (m ((c : Thread nD τ).loc main_arg6)) slices_S3x8x128x128_S1x1x128x128_1_3_0_0) shapeCasts_S1x1x128x128_S128x128) :=
  (pc_part10_ops1_v523 (W20 m ρ c)).trans (by
    rw [(show W20 m ρ c (Proc.devRef .tc main_arg6) = (m ((c : Thread nD τ).loc main_arg6)) from
    (W20_of_ne m ρ c main_arg6 (by decide)).trans <|
    (keep_main_part10_ops0 (W18 m ρ c) main_arg6 (by decide)).trans <|
    (keep_main_part9_ops0 (W17 m ρ c) main_arg6 (by decide)).trans <|
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v526 (c : Dev nD) :
    W21 m ρ c (Proc.devRef .tc main_v526)
      = (shapeCast _ (shapeCast _ (extractStridedSlice S1x1x128 ![1, 3, 0] (m ((c : Thread nD τ).loc main_arg5)) slices_S3x8x128_S1x1x128_1_3_0) shapeCasts_S1x1x128_S128) shapeCasts_S128_S1x128) :=
  (pc_part10_ops1_v526 (W20 m ρ c)).trans (by
    rw [(show W20 m ρ c (Proc.devRef .tc main_arg5) = (m ((c : Thread nD τ).loc main_arg5)) from
    (W20_of_ne m ρ c main_arg5 (by decide)).trans <|
    (keep_main_part10_ops0 (W18 m ρ c) main_arg5 (by decide)).trans <|
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v447 (c : Dev nD) :
    W17 m ρ c (Proc.devRef .tc main_v447)
      = (Host.divf (Host.scatterAdd scatter_S50000x128_S50000x1_S50000x128_1_0_0_1 (broadcastInDim S50000x128 ![] bcast_S_S50000x128 (constant (F := F) S_ .f32 0x00000000#32)) (broadcastInDim S50000x1 ![0] bcast_S50000_S50000x1_0 (shapeCast _ (extractStridedSlice S1x50000 ![1, 0] (m ((c : Thread nD τ).loc main_arg20)) slices_S2x50000_S1x50000_1_0) shapeCasts_S1x50000_S50000)) (Host.gather gather_S100000x128_S50000x1_S50000x128_1_0_n_n_0_1_1128 (Vout0 m ρ c (Pipeline.arrRef spec0 9)) (broadcastInDim S50000x1 ![0] bcast_S50000_S50000x1_0 (select (cmpi .slt (shapeCast _ (extractStridedSlice S1x50000 ![0, 0] (m ((c : Thread nD τ).loc main_arg20)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg20)) slices_S2x50000_S1x50000_0_0) shapeCasts_S1x50000_S50000) (broadcastInDim S50000 ![] bcast_S_S50000 (constantI S_ 32 100000#32))) (shapeCast _ (extractStridedSlice S1x50000 ![0, 0] (m ((c : Thread nD τ).loc main_arg20)) slices_S2x50000_S1x50000_0_0) shapeCasts_S1x50000_S50000))))) (broadcastInDim S50000x128 ![0, 1] bcast_S50000x1_S50000x128_0_1 (broadcastInDim S50000x1 ![0] bcast_S50000_S50000x1_0 (maximumf (Host.scatterAdd scatter_S50000_S50000x1_S50000_n_0_0_1 (broadcastInDim S50000 ![] bcast_S_S50000 (constant (F := F) S_ .f32 0x00000000#32)) (broadcastInDim S50000x1 ![0] bcast_S50000_S50000x1_0 (shapeCast _ (extractStridedSlice S1x50000 ![1, 0] (m ((c : Thread nD τ).loc main_arg20)) slices_S2x50000_S1x50000_1_0) shapeCasts_S1x50000_S50000)) (broadcastInDim S50000 ![] bcast_S_S50000 (constant (F := F) S_ .f32 0x3F800000#32))) (broadcastInDim S50000 ![] bcast_S_S50000 (constant (F := F) S_ .f32 0x3F800000#32)))))) :=
  (pc_part8_ops0_v447 (W16 m ρ c)).trans (by
    rw [(show W16 m ρ c (Proc.devRef .tc main_arg20) = (m ((c : Thread nD τ).loc main_arg20)) from
    (keep_main_part7_ops0 (W15 m ρ c) main_arg20 (by decide)).trans <|
    (keep_main_part6_ops0 (W14 m ρ c) main_arg20 (by decide)).trans <|
    (keep_main_part5_ops3 (W13 m ρ c) main_arg20 (by decide)).trans <|
    (W13_of_ne m ρ c main_arg20 (by decide)).trans <|
    (keep_main_part5_ops2 (W11 m ρ c) main_arg20 (by decide)).trans <|
    (W11_of_ne m ρ c main_arg20 (by decide)).trans <|
    (keep_main_part5_ops1 (W9 m ρ c) main_arg20 (by decide)).trans <|
    (W9_of_ne m ρ c main_arg20 (by decide)).trans <|
    (keep_main_part5_ops0 (W7 m ρ c) main_arg20 (by decide)).trans <|
    (keep_main_part4_ops1 (W6 m ρ c) main_arg20 (by decide)).trans <|
    (W6_of_ne m ρ c main_arg20 (by decide)).trans <|
    (keep_main_part4_ops0 (W4 m ρ c) main_arg20 (by decide)).trans <|
    (keep_main_part3_ops0 (W3 m ρ c) main_arg20 (by decide)).trans <|
    (keep_main_part2_ops0 (W2 m ρ c) main_arg20 (by decide)).trans <|
    (keep_main_part1_ops0 (W1 m ρ c) main_arg20 (by decide)).trans <|
    (keep_main_part0_ops0 (W0 m ρ c) main_arg20 (by decide)).trans <|
    rfl),
      (show W16 m ρ c (Proc.devRef .tc main_v245) = (Vout0 m ρ c (Pipeline.arrRef spec0 9)) from
    (keep_main_part7_ops0 (W15 m ρ c) main_v245 (by decide)).trans <|
    (keep_main_part6_ops0 (W14 m ρ c) main_v245 (by decide)).trans <|
    (keep_main_part5_ops3 (W13 m ρ c) main_v245 (by decide)).trans <|
    (W13_of_ne m ρ c main_v245 (by decide)).trans <|
    (keep_main_part5_ops2 (W11 m ρ c) main_v245 (by decide)).trans <|
    (W11_of_ne m ρ c main_v245 (by decide)).trans <|
    (keep_main_part5_ops1 (W9 m ρ c) main_v245 (by decide)).trans <|
    (W9_of_ne m ρ c main_v245 (by decide)).trans <|
    (keep_main_part5_ops0 (W7 m ρ c) main_v245 (by decide)).trans <|
    (keep_main_part4_ops1 (W6 m ρ c) main_v245 (by decide)).trans <|
    rfl)])

theorem val_v530 (c : Dev nD) :
    W23 m ρ c (Proc.devRef .tc main_v530)
      = (shapeCast _ (shapeCast _ (extractStridedSlice S1x1x128x128 ![1, 5, 0, 0] (m ((c : Thread nD τ).loc main_arg4)) slices_S3x8x128x128_S1x1x128x128_1_5_0_0) shapeCasts_S1x1x128x128_S128x128) shapeCasts_S128x128_S1x128x128) :=
  (pc_part10_ops2_v530 (W22 m ρ c)).trans (by
    rw [(show W22 m ρ c (Proc.devRef .tc main_arg4) = (m ((c : Thread nD τ).loc main_arg4)) from
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v532 (c : Dev nD) :
    W23 m ρ c (Proc.devRef .tc main_v532)
      = (shapeCast _ (extractStridedSlice S1x1x128x128 ![1, 5, 0, 0] (m ((c : Thread nD τ).loc main_arg6)) slices_S3x8x128x128_S1x1x128x128_1_5_0_0) shapeCasts_S1x1x128x128_S128x128) :=
  (pc_part10_ops2_v532 (W22 m ρ c)).trans (by
    rw [(show W22 m ρ c (Proc.devRef .tc main_arg6) = (m ((c : Thread nD τ).loc main_arg6)) from
    (W22_of_ne m ρ c main_arg6 (by decide)).trans <|
    (keep_main_part10_ops1 (W20 m ρ c) main_arg6 (by decide)).trans <|
    (W20_of_ne m ρ c main_arg6 (by decide)).trans <|
    (keep_main_part10_ops0 (W18 m ρ c) main_arg6 (by decide)).trans <|
    (keep_main_part9_ops0 (W17 m ρ c) main_arg6 (by decide)).trans <|
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v535 (c : Dev nD) :
    W23 m ρ c (Proc.devRef .tc main_v535)
      = (shapeCast _ (shapeCast _ (extractStridedSlice S1x1x128 ![1, 5, 0] (m ((c : Thread nD τ).loc main_arg5)) slices_S3x8x128_S1x1x128_1_5_0) shapeCasts_S1x1x128_S128) shapeCasts_S128_S1x128) :=
  (pc_part10_ops2_v535 (W22 m ρ c)).trans (by
    rw [(show W22 m ρ c (Proc.devRef .tc main_arg5) = (m ((c : Thread nD τ).loc main_arg5)) from
    (W22_of_ne m ρ c main_arg5 (by decide)).trans <|
    (keep_main_part10_ops1 (W20 m ρ c) main_arg5 (by decide)).trans <|
    (W20_of_ne m ρ c main_arg5 (by decide)).trans <|
    (keep_main_part10_ops0 (W18 m ρ c) main_arg5 (by decide)).trans <|
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v449 (c : Dev nD) :
    W17 m ρ c (Proc.devRef .tc main_v449)
      = (shapeCast _ (extractStridedSlice S1x5000 ![0, 0] (m ((c : Thread nD τ).loc main_arg22)) slices_S2x5000_S1x5000_0_0) shapeCasts_S1x5000_S5000) :=
  (pc_part8_ops0_v449 (W16 m ρ c)).trans (by
    rw [(show W16 m ρ c (Proc.devRef .tc main_arg22) = (m ((c : Thread nD τ).loc main_arg22)) from
    (keep_main_part7_ops0 (W15 m ρ c) main_arg22 (by decide)).trans <|
    (keep_main_part6_ops0 (W14 m ρ c) main_arg22 (by decide)).trans <|
    (keep_main_part5_ops3 (W13 m ρ c) main_arg22 (by decide)).trans <|
    (W13_of_ne m ρ c main_arg22 (by decide)).trans <|
    (keep_main_part5_ops2 (W11 m ρ c) main_arg22 (by decide)).trans <|
    (W11_of_ne m ρ c main_arg22 (by decide)).trans <|
    (keep_main_part5_ops1 (W9 m ρ c) main_arg22 (by decide)).trans <|
    (W9_of_ne m ρ c main_arg22 (by decide)).trans <|
    (keep_main_part5_ops0 (W7 m ρ c) main_arg22 (by decide)).trans <|
    (keep_main_part4_ops1 (W6 m ρ c) main_arg22 (by decide)).trans <|
    (W6_of_ne m ρ c main_arg22 (by decide)).trans <|
    (keep_main_part4_ops0 (W4 m ρ c) main_arg22 (by decide)).trans <|
    (keep_main_part3_ops0 (W3 m ρ c) main_arg22 (by decide)).trans <|
    (keep_main_part2_ops0 (W2 m ρ c) main_arg22 (by decide)).trans <|
    (keep_main_part1_ops0 (W1 m ρ c) main_arg22 (by decide)).trans <|
    (keep_main_part0_ops0 (W0 m ρ c) main_arg22 (by decide)).trans <|
    rfl)])

theorem val_v472 (c : Dev nD) :
    W18 m ρ c (Proc.devRef .tc main_v472)
      = (Host.divf (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (Host.gather gather_S100000x128_S5000x1_S5000x128_1_0_n_n_0_1_1128 (Vout0 m ρ c (Pipeline.arrRef spec0 9)) (broadcastInDim S5000x1 ![0] bcast_S5000_S5000x1_0 (select (cmpi .slt (shapeCast _ (extractStridedSlice S1x5000 ![0, 0] (m ((c : Thread nD τ).loc main_arg22)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg22)) slices_S2x5000_S1x5000_0_0) shapeCasts_S1x5000_S5000) (broadcastInDim S5000 ![] bcast_S_S5000 (constantI S_ 32 100000#32))) (shapeCast _ (extractStridedSlice S1x5000 ![0, 0] (m ((c : Thread nD τ).loc main_arg22)) slices_S2x5000_S1x5000_0_0) shapeCasts_S1x5000_S5000))))) (broadcastInDim S5000x128 ![0, 1] bcast_S5000x1_S5000x128_0_1 (broadcastInDim S5000x1 ![0] bcast_S5000_S5000x1_0 (maximumf (Host.scatterAdd scatter_S5000_S5000x1_S5000_n_0_0_1 (broadcastInDim S5000 ![] bcast_S_S5000 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (broadcastInDim S5000 ![] bcast_S_S5000 (constant (F := F) S_ .f32 0x3F800000#32))) (broadcastInDim S5000 ![] bcast_S_S5000 (constant (F := F) S_ .f32 0x3F800000#32)))))) :=
  (pc_part9_ops0_v472 (W17 m ρ c)).trans (by
    rw [(show W17 m ρ c (Proc.devRef .tc main_arg22) = (m ((c : Thread nD τ).loc main_arg22)) from
    (keep_main_part8_ops0 (W16 m ρ c) main_arg22 (by decide)).trans <|
    (keep_main_part7_ops0 (W15 m ρ c) main_arg22 (by decide)).trans <|
    (keep_main_part6_ops0 (W14 m ρ c) main_arg22 (by decide)).trans <|
    (keep_main_part5_ops3 (W13 m ρ c) main_arg22 (by decide)).trans <|
    (W13_of_ne m ρ c main_arg22 (by decide)).trans <|
    (keep_main_part5_ops2 (W11 m ρ c) main_arg22 (by decide)).trans <|
    (W11_of_ne m ρ c main_arg22 (by decide)).trans <|
    (keep_main_part5_ops1 (W9 m ρ c) main_arg22 (by decide)).trans <|
    (W9_of_ne m ρ c main_arg22 (by decide)).trans <|
    (keep_main_part5_ops0 (W7 m ρ c) main_arg22 (by decide)).trans <|
    (keep_main_part4_ops1 (W6 m ρ c) main_arg22 (by decide)).trans <|
    (W6_of_ne m ρ c main_arg22 (by decide)).trans <|
    (keep_main_part4_ops0 (W4 m ρ c) main_arg22 (by decide)).trans <|
    (keep_main_part3_ops0 (W3 m ρ c) main_arg22 (by decide)).trans <|
    (keep_main_part2_ops0 (W2 m ρ c) main_arg22 (by decide)).trans <|
    (keep_main_part1_ops0 (W1 m ρ c) main_arg22 (by decide)).trans <|
    (keep_main_part0_ops0 (W0 m ρ c) main_arg22 (by decide)).trans <|
    rfl),
      (show W17 m ρ c (Proc.devRef .tc main_v245) = (Vout0 m ρ c (Pipeline.arrRef spec0 9)) from
    (keep_main_part8_ops0 (W16 m ρ c) main_v245 (by decide)).trans <|
    (keep_main_part7_ops0 (W15 m ρ c) main_v245 (by decide)).trans <|
    (keep_main_part6_ops0 (W14 m ρ c) main_v245 (by decide)).trans <|
    (keep_main_part5_ops3 (W13 m ρ c) main_v245 (by decide)).trans <|
    (W13_of_ne m ρ c main_v245 (by decide)).trans <|
    (keep_main_part5_ops2 (W11 m ρ c) main_v245 (by decide)).trans <|
    (W11_of_ne m ρ c main_v245 (by decide)).trans <|
    (keep_main_part5_ops1 (W9 m ρ c) main_v245 (by decide)).trans <|
    (W9_of_ne m ρ c main_v245 (by decide)).trans <|
    (keep_main_part5_ops0 (W7 m ρ c) main_v245 (by decide)).trans <|
    (keep_main_part4_ops1 (W6 m ρ c) main_v245 (by decide)).trans <|
    rfl),
      (show W17 m ρ c (Proc.devRef .tc main_v449) = (shapeCast _ (extractStridedSlice S1x5000 ![0, 0] (m ((c : Thread nD τ).loc main_arg22)) slices_S2x5000_S1x5000_0_0) shapeCasts_S1x5000_S5000) from
    val_v449 m ρ c)])

theorem val_v539 (c : Dev nD) :
    W25 m ρ c (Proc.devRef .tc main_v539)
      = (shapeCast _ (shapeCast _ (extractStridedSlice S1x1x128x128 ![1, 7, 0, 0] (m ((c : Thread nD τ).loc main_arg4)) slices_S3x8x128x128_S1x1x128x128_1_7_0_0) shapeCasts_S1x1x128x128_S128x128) shapeCasts_S128x128_S1x128x128) :=
  (pc_part10_ops3_v539 (W24 m ρ c)).trans (by
    rw [(show W24 m ρ c (Proc.devRef .tc main_arg4) = (m ((c : Thread nD τ).loc main_arg4)) from
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v541 (c : Dev nD) :
    W25 m ρ c (Proc.devRef .tc main_v541)
      = (shapeCast _ (extractStridedSlice S1x1x128x128 ![1, 7, 0, 0] (m ((c : Thread nD τ).loc main_arg6)) slices_S3x8x128x128_S1x1x128x128_1_7_0_0) shapeCasts_S1x1x128x128_S128x128) :=
  (pc_part10_ops3_v541 (W24 m ρ c)).trans (by
    rw [(show W24 m ρ c (Proc.devRef .tc main_arg6) = (m ((c : Thread nD τ).loc main_arg6)) from
    (W24_of_ne m ρ c main_arg6 (by decide)).trans <|
    (keep_main_part10_ops2 (W22 m ρ c) main_arg6 (by decide)).trans <|
    (W22_of_ne m ρ c main_arg6 (by decide)).trans <|
    (keep_main_part10_ops1 (W20 m ρ c) main_arg6 (by decide)).trans <|
    (W20_of_ne m ρ c main_arg6 (by decide)).trans <|
    (keep_main_part10_ops0 (W18 m ρ c) main_arg6 (by decide)).trans <|
    (keep_main_part9_ops0 (W17 m ρ c) main_arg6 (by decide)).trans <|
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v544 (c : Dev nD) :
    W25 m ρ c (Proc.devRef .tc main_v544)
      = (shapeCast _ (shapeCast _ (extractStridedSlice S1x1x128 ![1, 7, 0] (m ((c : Thread nD τ).loc main_arg5)) slices_S3x8x128_S1x1x128_1_7_0) shapeCasts_S1x1x128_S128) shapeCasts_S128_S1x128) :=
  (pc_part10_ops3_v544 (W24 m ρ c)).trans (by
    rw [(show W24 m ρ c (Proc.devRef .tc main_arg5) = (m ((c : Thread nD τ).loc main_arg5)) from
    (W24_of_ne m ρ c main_arg5 (by decide)).trans <|
    (keep_main_part10_ops2 (W22 m ρ c) main_arg5 (by decide)).trans <|
    (W22_of_ne m ρ c main_arg5 (by decide)).trans <|
    (keep_main_part10_ops1 (W20 m ρ c) main_arg5 (by decide)).trans <|
    (W20_of_ne m ρ c main_arg5 (by decide)).trans <|
    (keep_main_part10_ops0 (W18 m ρ c) main_arg5 (by decide)).trans <|
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

/-! ## The feature windows -/

/-- Region 4, window 0: the mean aggregation over the ac edges of the layer's source features. -/
theorem in4_0 (c : Dev nD) :
    Vin4 m ρ c (Pipeline.arrRef spec4 0)
      = aggK_ac (Vout0 m ρ c (Pipeline.arrRef spec0 9)) (m ((c : Thread nD τ).loc main_arg15)) :=
  (keep_main_part10_ops0 (W18 m ρ c) main_v297 (by decide)).trans <|
    (keep_main_part9_ops0 (W17 m ρ c) main_v297 (by decide)).trans <|
    (keep_main_part8_ops0 (W16 m ρ c) main_v297 (by decide)).trans <|
    (keep_main_part7_ops0 (W15 m ρ c) main_v297 (by decide)).trans <|
    (keep_main_part6_ops0 (W14 m ρ c) main_v297 (by decide)).trans <|
    (val_v297 m ρ c).trans rfl

/-- Region 4, window 1: the mean aggregation over the tr edges of the layer's source features. -/
theorem in4_1 (c : Dev nD) :
    Vin4 m ρ c (Pipeline.arrRef spec4 1)
      = aggK_tr (Vout0 m ρ c (Pipeline.arrRef spec0 9)) (m ((c : Thread nD τ).loc main_arg16)) :=
  (keep_main_part10_ops0 (W18 m ρ c) main_v322 (by decide)).trans <|
    (keep_main_part9_ops0 (W17 m ρ c) main_v322 (by decide)).trans <|
    (keep_main_part8_ops0 (W16 m ρ c) main_v322 (by decide)).trans <|
    (keep_main_part7_ops0 (W15 m ρ c) main_v322 (by decide)).trans <|
    (val_v322 m ρ c).trans rfl

/-- Region 4, window 2: the mean aggregation over the gb edges of the layer's source features. -/
theorem in4_2 (c : Dev nD) :
    Vin4 m ρ c (Pipeline.arrRef spec4 2)
      = aggK_gb (Vout1 m ρ c (Pipeline.arrRef spec1 5)) (m ((c : Thread nD τ).loc main_arg17)) :=
  (keep_main_part10_ops0 (W18 m ρ c) main_v347 (by decide)).trans <|
    (keep_main_part9_ops0 (W17 m ρ c) main_v347 (by decide)).trans <|
    (keep_main_part8_ops0 (W16 m ρ c) main_v347 (by decide)).trans <|
    (keep_main_part7_ops0 (W15 m ρ c) main_v347 (by decide)).trans <|
    (val_v347 m ρ c).trans rfl

/-- Region 4, window 3: the mean aggregation over the lb edges of the layer's source features. -/
theorem in4_3 (c : Dev nD) :
    Vin4 m ρ c (Pipeline.arrRef spec4 3)
      = aggK_lb (Vout2 m ρ c (Pipeline.arrRef spec2 5)) (m ((c : Thread nD τ).loc main_arg19)) :=
  (keep_main_part10_ops0 (W18 m ρ c) main_v372 (by decide)).trans <|
    (keep_main_part9_ops0 (W17 m ρ c) main_v372 (by decide)).trans <|
    (keep_main_part8_ops0 (W16 m ρ c) main_v372 (by decide)).trans <|
    (val_v372 m ρ c).trans rfl

/-- Region 4, window 4: the mean aggregation over the sb edges of the layer's source features. -/
theorem in4_4 (c : Dev nD) :
    Vin4 m ρ c (Pipeline.arrRef spec4 4)
      = aggK_sb (Vout3 m ρ c (Pipeline.arrRef spec3 5)) (m ((c : Thread nD τ).loc main_arg21)) :=
  (keep_main_part10_ops0 (W18 m ρ c) main_v397 (by decide)).trans <|
    (keep_main_part9_ops0 (W17 m ρ c) main_v397 (by decide)).trans <|
    (keep_main_part8_ops0 (W16 m ρ c) main_v397 (by decide)).trans <|
    (val_v397 m ρ c).trans rfl

/-- Region 4, window 5: as the array stands at the region's entry. -/
theorem in4_5 (c : Dev nD) :
    Vin4 m ρ c (Pipeline.arrRef spec4 5)
      = (Vout0 m ρ c (Pipeline.arrRef spec0 9)) :=
  (keep_main_part10_ops0 (W18 m ρ c) main_v245 (by decide)).trans <|
    (keep_main_part9_ops0 (W17 m ρ c) main_v245 (by decide)).trans <|
    (keep_main_part8_ops0 (W16 m ρ c) main_v245 (by decide)).trans <|
    (keep_main_part7_ops0 (W15 m ρ c) main_v245 (by decide)).trans <|
    (keep_main_part6_ops0 (W14 m ρ c) main_v245 (by decide)).trans <|
    (keep_main_part5_ops3 (W13 m ρ c) main_v245 (by decide)).trans <|
    (W13_of_ne m ρ c main_v245 (by decide)).trans <|
    (keep_main_part5_ops2 (W11 m ρ c) main_v245 (by decide)).trans <|
    (W11_of_ne m ρ c main_v245 (by decide)).trans <|
    (keep_main_part5_ops1 (W9 m ρ c) main_v245 (by decide)).trans <|
    (W9_of_ne m ρ c main_v245 (by decide)).trans <|
    (keep_main_part5_ops0 (W7 m ρ c) main_v245 (by decide)).trans <|
    (keep_main_part4_ops1 (W6 m ρ c) main_v245 (by decide)).trans <|
    rfl

/-- Region 5, window 0: the mean aggregation over the bg edges of the layer's source features. -/
theorem in5_0 (c : Dev nD) :
    Vin5 m ρ c (Pipeline.arrRef spec5 0)
      = aggK_bg (Vout0 m ρ c (Pipeline.arrRef spec0 9)) (m ((c : Thread nD τ).loc main_arg18)) :=
  (keep_main_part10_ops1 (W20 m ρ c) main_v422 (by decide)).trans <|
    (W20_of_ne m ρ c main_v422 (by decide)).trans <|
    (keep_main_part10_ops0 (W18 m ρ c) main_v422 (by decide)).trans <|
    (keep_main_part9_ops0 (W17 m ρ c) main_v422 (by decide)).trans <|
    (val_v422 m ρ c).trans rfl

/-- Region 5, window 1: as the array stands at the region's entry. -/
theorem in5_1 (c : Dev nD) :
    Vin5 m ρ c (Pipeline.arrRef spec5 1)
      = (Vout1 m ρ c (Pipeline.arrRef spec1 5)) :=
  (keep_main_part10_ops1 (W20 m ρ c) main_v254 (by decide)).trans <|
    (W20_of_ne m ρ c main_v254 (by decide)).trans <|
    (keep_main_part10_ops0 (W18 m ρ c) main_v254 (by decide)).trans <|
    (keep_main_part9_ops0 (W17 m ρ c) main_v254 (by decide)).trans <|
    (keep_main_part8_ops0 (W16 m ρ c) main_v254 (by decide)).trans <|
    (keep_main_part7_ops0 (W15 m ρ c) main_v254 (by decide)).trans <|
    (keep_main_part6_ops0 (W14 m ρ c) main_v254 (by decide)).trans <|
    (keep_main_part5_ops3 (W13 m ρ c) main_v254 (by decide)).trans <|
    (W13_of_ne m ρ c main_v254 (by decide)).trans <|
    (keep_main_part5_ops2 (W11 m ρ c) main_v254 (by decide)).trans <|
    (W11_of_ne m ρ c main_v254 (by decide)).trans <|
    (keep_main_part5_ops1 (W9 m ρ c) main_v254 (by decide)).trans <|
    rfl

/-- Region 6, window 0: the mean aggregation over the bl edges of the layer's source features. -/
theorem in6_0 (c : Dev nD) :
    Vin6 m ρ c (Pipeline.arrRef spec6 0)
      = aggK_bl (Vout0 m ρ c (Pipeline.arrRef spec0 9)) (m ((c : Thread nD τ).loc main_arg20)) :=
  (keep_main_part10_ops2 (W22 m ρ c) main_v447 (by decide)).trans <|
    (W22_of_ne m ρ c main_v447 (by decide)).trans <|
    (keep_main_part10_ops1 (W20 m ρ c) main_v447 (by decide)).trans <|
    (W20_of_ne m ρ c main_v447 (by decide)).trans <|
    (keep_main_part10_ops0 (W18 m ρ c) main_v447 (by decide)).trans <|
    (keep_main_part9_ops0 (W17 m ρ c) main_v447 (by decide)).trans <|
    (val_v447 m ρ c).trans rfl

/-- Region 6, window 1: as the array stands at the region's entry. -/
theorem in6_1 (c : Dev nD) :
    Vin6 m ρ c (Pipeline.arrRef spec6 1)
      = (Vout2 m ρ c (Pipeline.arrRef spec2 5)) :=
  (keep_main_part10_ops2 (W22 m ρ c) main_v263 (by decide)).trans <|
    (W22_of_ne m ρ c main_v263 (by decide)).trans <|
    (keep_main_part10_ops1 (W20 m ρ c) main_v263 (by decide)).trans <|
    (W20_of_ne m ρ c main_v263 (by decide)).trans <|
    (keep_main_part10_ops0 (W18 m ρ c) main_v263 (by decide)).trans <|
    (keep_main_part9_ops0 (W17 m ρ c) main_v263 (by decide)).trans <|
    (keep_main_part8_ops0 (W16 m ρ c) main_v263 (by decide)).trans <|
    (keep_main_part7_ops0 (W15 m ρ c) main_v263 (by decide)).trans <|
    (keep_main_part6_ops0 (W14 m ρ c) main_v263 (by decide)).trans <|
    (keep_main_part5_ops3 (W13 m ρ c) main_v263 (by decide)).trans <|
    (W13_of_ne m ρ c main_v263 (by decide)).trans <|
    (keep_main_part5_ops2 (W11 m ρ c) main_v263 (by decide)).trans <|
    rfl

/-- Region 7, window 0: the mean aggregation over the bs edges of the layer's source features. -/
theorem in7_0 (c : Dev nD) :
    Vin7 m ρ c (Pipeline.arrRef spec7 0)
      = aggK_bs (Vout0 m ρ c (Pipeline.arrRef spec0 9)) (m ((c : Thread nD τ).loc main_arg22)) :=
  (keep_main_part10_ops3 (W24 m ρ c) main_v472 (by decide)).trans <|
    (W24_of_ne m ρ c main_v472 (by decide)).trans <|
    (keep_main_part10_ops2 (W22 m ρ c) main_v472 (by decide)).trans <|
    (W22_of_ne m ρ c main_v472 (by decide)).trans <|
    (keep_main_part10_ops1 (W20 m ρ c) main_v472 (by decide)).trans <|
    (W20_of_ne m ρ c main_v472 (by decide)).trans <|
    (keep_main_part10_ops0 (W18 m ρ c) main_v472 (by decide)).trans <|
    (val_v472 m ρ c).trans rfl

/-- Region 7, window 1: as the array stands at the region's entry. -/
theorem in7_1 (c : Dev nD) :
    Vin7 m ρ c (Pipeline.arrRef spec7 1)
      = (Vout3 m ρ c (Pipeline.arrRef spec3 5)) :=
  (keep_main_part10_ops3 (W24 m ρ c) main_v272 (by decide)).trans <|
    (W24_of_ne m ρ c main_v272 (by decide)).trans <|
    (keep_main_part10_ops2 (W22 m ρ c) main_v272 (by decide)).trans <|
    (W22_of_ne m ρ c main_v272 (by decide)).trans <|
    (keep_main_part10_ops1 (W20 m ρ c) main_v272 (by decide)).trans <|
    (W20_of_ne m ρ c main_v272 (by decide)).trans <|
    (keep_main_part10_ops0 (W18 m ρ c) main_v272 (by decide)).trans <|
    (keep_main_part9_ops0 (W17 m ρ c) main_v272 (by decide)).trans <|
    (keep_main_part8_ops0 (W16 m ρ c) main_v272 (by decide)).trans <|
    (keep_main_part7_ops0 (W15 m ρ c) main_v272 (by decide)).trans <|
    (keep_main_part6_ops0 (W14 m ρ c) main_v272 (by decide)).trans <|
    (keep_main_part5_ops3 (W13 m ρ c) main_v272 (by decide)).trans <|
    rfl

end Values

/-! ## The weight windows, index by index -/

section Weights
variable (m : (ℓ : Loc nD τ sig) → Buf (Elt Ideal) ℓ) (ρ : Dev nD → PrngReg)

theorem in4_6 (c : Dev nD) (e : Fin 5) (k j : Fin 128) :
    (Vin4 m ρ c (Pipeline.arrRef spec4 6) : Vec Ideal S5x128x128 .f32) (ix3 e k j)
      = Cert.Hand.Net.W4 (m ((c : Thread nD τ).loc main_arg4)) (1 : Fin 3) ((![0, 1, 2, 4, 6] : Fin 5 → Fin 8) e) k j := by
  refine (congrFun (show Vin4 m ρ c (Pipeline.arrRef spec4 6) = _ from
    (keep_main_part10_ops0 (W18 m ρ c) main_v488 (by decide)).trans <|
    val_v488 m ρ c) (ix3 e k j)).trans ?_
  exact wl5_apply 1 0 1 2 4 6 _ _ _ _ _ _ _ _ _ (1 : Fin 3) (![0, 1, 2, 4, 6] : Fin 5 → Fin 8) rfl rfl rfl rfl rfl rfl e k j

theorem in4_7 (c : Dev nD) (k j : Fin 128) :
    (Vin4 m ρ c (Pipeline.arrRef spec4 7) : Vec Ideal S128x128 .f32) (ix2 k j)
      = Cert.Hand.Net.W4 (m ((c : Thread nD τ).loc main_arg6)) (1 : Fin 3) (0 : Fin 8) k j + Cert.Hand.Net.W4 (m ((c : Thread nD τ).loc main_arg6)) (1 : Fin 3) (1 : Fin 8) k j + Cert.Hand.Net.W4 (m ((c : Thread nD τ).loc main_arg6)) (1 : Fin 3) (2 : Fin 8) k j + Cert.Hand.Net.W4 (m ((c : Thread nD τ).loc main_arg6)) (1 : Fin 3) (4 : Fin 8) k j + Cert.Hand.Net.W4 (m ((c : Thread nD τ).loc main_arg6)) (1 : Fin 3) (6 : Fin 8) k j := by
  refine (congrFun (show Vin4 m ρ c (Pipeline.arrRef spec4 7) = _ from
    (keep_main_part10_ops0 (W18 m ρ c) main_v502 (by decide)).trans <|
    val_v502 m ρ c) (ix2 k j)).trans ?_
  exact wr5_apply 1 0 1 2 4 6 _ _ _ _ _ _ _ (1 : Fin 3) (0 : Fin 8) (1 : Fin 8) (2 : Fin 8) (4 : Fin 8) (6 : Fin 8) rfl rfl rfl rfl rfl rfl k j

theorem in4_8 (c : Dev nD) (u : Fin 1) (j : Fin 128) :
    (Vin4 m ρ c (Pipeline.arrRef spec4 8) : Vec Ideal S1x128 .f32) (ix2 u j)
      = Cert.Hand.Net.B3 (m ((c : Thread nD τ).loc main_arg5)) (1 : Fin 3) (0 : Fin 8) j + Cert.Hand.Net.B3 (m ((c : Thread nD τ).loc main_arg5)) (1 : Fin 3) (1 : Fin 8) j + Cert.Hand.Net.B3 (m ((c : Thread nD τ).loc main_arg5)) (1 : Fin 3) (2 : Fin 8) j + Cert.Hand.Net.B3 (m ((c : Thread nD τ).loc main_arg5)) (1 : Fin 3) (4 : Fin 8) j + Cert.Hand.Net.B3 (m ((c : Thread nD τ).loc main_arg5)) (1 : Fin 3) (6 : Fin 8) j := by
  refine (congrFun (show Vin4 m ρ c (Pipeline.arrRef spec4 8) = _ from
    val_v517 m ρ c) (ix2 u j)).trans ?_
  exact b5_apply 1 0 1 2 4 6 _ _ _ _ _ _ _ _ (1 : Fin 3) (0 : Fin 8) (1 : Fin 8) (2 : Fin 8) (4 : Fin 8) (6 : Fin 8) rfl rfl rfl rfl rfl rfl u j

theorem in5_2 (c : Dev nD) (u : Fin 1) (k j : Fin 128) :
    (Vin5 m ρ c (Pipeline.arrRef spec5 2) : Vec Ideal S1x128x128 .f32) (ix3 u k j)
      = Cert.Hand.Net.W4 (m ((c : Thread nD τ).loc main_arg4)) (1 : Fin 3) (3 : Fin 8) k j := by
  refine (congrFun (show Vin5 m ρ c (Pipeline.arrRef spec5 2) = _ from
    val_v521 m ρ c) (ix3 u k j)).trans ?_
  exact wl1_apply 1 3 _ _ _ _ u k j (1 : Fin 3) (3 : Fin 8) rfl rfl

theorem in5_3 (c : Dev nD) (k j : Fin 128) :
    (Vin5 m ρ c (Pipeline.arrRef spec5 3) : Vec Ideal S128x128 .f32) (ix2 k j)
      = Cert.Hand.Net.W4 (m ((c : Thread nD τ).loc main_arg6)) (1 : Fin 3) (3 : Fin 8) k j := by
  refine (congrFun (show Vin5 m ρ c (Pipeline.arrRef spec5 3) = _ from
    val_v523 m ρ c) (ix2 k j)).trans ?_
  exact wr1_apply 1 3 _ _ _ k j (1 : Fin 3) (3 : Fin 8) rfl rfl

theorem in5_4 (c : Dev nD) (u : Fin 1) (j : Fin 128) :
    (Vin5 m ρ c (Pipeline.arrRef spec5 4) : Vec Ideal S1x128 .f32) (ix2 u j)
      = Cert.Hand.Net.B3 (m ((c : Thread nD τ).loc main_arg5)) (1 : Fin 3) (3 : Fin 8) j := by
  refine (congrFun (show Vin5 m ρ c (Pipeline.arrRef spec5 4) = _ from
    val_v526 m ρ c) (ix2 u j)).trans ?_
  exact b1_apply 1 3 _ _ _ _ u j (1 : Fin 3) (3 : Fin 8) rfl rfl

theorem in6_2 (c : Dev nD) (u : Fin 1) (k j : Fin 128) :
    (Vin6 m ρ c (Pipeline.arrRef spec6 2) : Vec Ideal S1x128x128 .f32) (ix3 u k j)
      = Cert.Hand.Net.W4 (m ((c : Thread nD τ).loc main_arg4)) (1 : Fin 3) (5 : Fin 8) k j := by
  refine (congrFun (show Vin6 m ρ c (Pipeline.arrRef spec6 2) = _ from
    val_v530 m ρ c) (ix3 u k j)).trans ?_
  exact wl1_apply 1 5 _ _ _ _ u k j (1 : Fin 3) (5 : Fin 8) rfl rfl

theorem in6_3 (c : Dev nD) (k j : Fin 128) :
    (Vin6 m ρ c (Pipeline.arrRef spec6 3) : Vec Ideal S128x128 .f32) (ix2 k j)
      = Cert.Hand.Net.W4 (m ((c : Thread nD τ).loc main_arg6)) (1 : Fin 3) (5 : Fin 8) k j := by
  refine (congrFun (show Vin6 m ρ c (Pipeline.arrRef spec6 3) = _ from
    val_v532 m ρ c) (ix2 k j)).trans ?_
  exact wr1_apply 1 5 _ _ _ k j (1 : Fin 3) (5 : Fin 8) rfl rfl

theorem in6_4 (c : Dev nD) (u : Fin 1) (j : Fin 128) :
    (Vin6 m ρ c (Pipeline.arrRef spec6 4) : Vec Ideal S1x128 .f32) (ix2 u j)
      = Cert.Hand.Net.B3 (m ((c : Thread nD τ).loc main_arg5)) (1 : Fin 3) (5 : Fin 8) j := by
  refine (congrFun (show Vin6 m ρ c (Pipeline.arrRef spec6 4) = _ from
    val_v535 m ρ c) (ix2 u j)).trans ?_
  exact b1_apply 1 5 _ _ _ _ u j (1 : Fin 3) (5 : Fin 8) rfl rfl

theorem in7_2 (c : Dev nD) (u : Fin 1) (k j : Fin 128) :
    (Vin7 m ρ c (Pipeline.arrRef spec7 2) : Vec Ideal S1x128x128 .f32) (ix3 u k j)
      = Cert.Hand.Net.W4 (m ((c : Thread nD τ).loc main_arg4)) (1 : Fin 3) (7 : Fin 8) k j := by
  refine (congrFun (show Vin7 m ρ c (Pipeline.arrRef spec7 2) = _ from
    val_v539 m ρ c) (ix3 u k j)).trans ?_
  exact wl1_apply 1 7 _ _ _ _ u k j (1 : Fin 3) (7 : Fin 8) rfl rfl

theorem in7_3 (c : Dev nD) (k j : Fin 128) :
    (Vin7 m ρ c (Pipeline.arrRef spec7 3) : Vec Ideal S128x128 .f32) (ix2 k j)
      = Cert.Hand.Net.W4 (m ((c : Thread nD τ).loc main_arg6)) (1 : Fin 3) (7 : Fin 8) k j := by
  refine (congrFun (show Vin7 m ρ c (Pipeline.arrRef spec7 3) = _ from
    val_v541 m ρ c) (ix2 k j)).trans ?_
  exact wr1_apply 1 7 _ _ _ k j (1 : Fin 3) (7 : Fin 8) rfl rfl

theorem in7_4 (c : Dev nD) (u : Fin 1) (j : Fin 128) :
    (Vin7 m ρ c (Pipeline.arrRef spec7 4) : Vec Ideal S1x128 .f32) (ix2 u j)
      = Cert.Hand.Net.B3 (m ((c : Thread nD τ).loc main_arg5)) (1 : Fin 3) (7 : Fin 8) j := by
  refine (congrFun (show Vin7 m ρ c (Pipeline.arrRef spec7 4) = _ from
    val_v544 m ρ c) (ix2 u j)).trans ?_
  exact b1_apply 1 7 _ _ _ _ u j (1 : Fin 3) (7 : Fin 8) rfl rfl

end Weights

end Cert.KernelIdeal.Hand

end
-- ==== Proof.KI.HostPc2.lean ====
/- The host operations before the regions of layer 2, line by line: each result a region (or a later line, across a
   cut) reads, after its line, is the composed term of the line's operations over the contents before the line. -/
import proofs.«125545_j64845416235624_1_alg».proof.Proof.Gen.KernelIdeal.Launch
import proofs.«125545_j64845416235624_1_alg».proof.Proof.KI.HostLayout
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

theorem pc_part10_ops4_v559 (W : Valuation τ sig (Elt F)) :
    StableHlo.after main_part10_ops4 W (Proc.devRef .tc main_v559)
      = (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (W (Proc.devRef .tc main_arg15)) slices_S2x500000_S1x500000_1_0) shapeCasts_S1x500000_S500000)) (Host.gather gather_S100000x128_S500000x1_S500000x128_1_0_n_n_0_1_1128 (W (Proc.devRef .tc main_v518)) (broadcastInDim S500000x1 ![0] bcast_S500000_S500000x1_0 (select (cmpi .slt (shapeCast _ (extractStridedSlice S1x500000 ![0, 0] (W (Proc.devRef .tc main_arg15)) slices_S2x500000_S1x500000_0_0) shapeCasts_S1x500000_S500000) (broadcastInDim S500000 ![] bcast_S_S500000 (constantI S_ 32 0#32))) (addi (shapeCast _ (extractStridedSlice S1x500000 ![0, 0] (W (Proc.devRef .tc main_arg15)) slices_S2x500000_S1x500000_0_0) shapeCasts_S1x500000_S500000) (broadcastInDim S500000 ![] bcast_S_S500000 (constantI S_ 32 100000#32))) (shapeCast _ (extractStridedSlice S1x500000 ![0, 0] (W (Proc.devRef .tc main_arg15)) slices_S2x500000_S1x500000_0_0) shapeCasts_S1x500000_S500000))))) := by
  host_results <;> rfl

theorem pc_part10_ops4_cst_97 (W : Valuation τ sig (Elt F)) :
    StableHlo.after main_part10_ops4 W (Proc.devRef .tc main_cst_97)
      = (constant (F := F) S_ .f32 0x3F800000#32) := by
  host_results <;> rfl

theorem pc_part11_ops0_v570 (W : Valuation τ sig (Elt F)) :
    StableHlo.after main_part11_ops0 W (Proc.devRef .tc main_v570)
      = (Host.divf (W (Proc.devRef .tc main_v559)) (broadcastInDim S100000x128 ![0, 1] bcast_S100000x1_S100000x128_0_1 (broadcastInDim S100000x1 ![0] bcast_S100000_S100000x1_0 (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (shapeCast _ (extractStridedSlice S1x500000 ![1, 0] (W (Proc.devRef .tc main_arg15)) slices_S2x500000_S1x500000_1_0) shapeCasts_S1x500000_S500000)) (broadcastInDim S500000 ![] bcast_S_S500000 (W (Proc.devRef .tc main_cst_97)))) (broadcastInDim S100000 ![] bcast_S_S100000 (constant (F := F) S_ .f32 0x3F800000#32)))))) := by
  host_results <;> rfl

theorem pc_part11_ops0_v595 (W : Valuation τ sig (Elt F)) :
    StableHlo.after main_part11_ops0 W (Proc.devRef .tc main_v595)
      = (Host.divf (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (W (Proc.devRef .tc main_arg16)) slices_S2x100000_S1x100000_1_0) shapeCasts_S1x100000_S100000)) (Host.gather gather_S100000x128_S100000x1_S100000x128_1_0_n_n_0_1_1128 (W (Proc.devRef .tc main_v518)) (broadcastInDim S100000x1 ![0] bcast_S100000_S100000x1_0 (select (cmpi .slt (shapeCast _ (extractStridedSlice S1x100000 ![0, 0] (W (Proc.devRef .tc main_arg16)) slices_S2x100000_S1x100000_0_0) shapeCasts_S1x100000_S100000) (broadcastInDim S100000 ![] bcast_S_S100000 (constantI S_ 32 0#32))) (addi (shapeCast _ (extractStridedSlice S1x100000 ![0, 0] (W (Proc.devRef .tc main_arg16)) slices_S2x100000_S1x100000_0_0) shapeCasts_S1x100000_S100000) (broadcastInDim S100000 ![] bcast_S_S100000 (constantI S_ 32 100000#32))) (shapeCast _ (extractStridedSlice S1x100000 ![0, 0] (W (Proc.devRef .tc main_arg16)) slices_S2x100000_S1x100000_0_0) shapeCasts_S1x100000_S100000))))) (broadcastInDim S100000x128 ![0, 1] bcast_S100000x1_S100000x128_0_1 (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (W (Proc.devRef .tc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))))) := by
  host_results <;> rfl

theorem pc_part11_ops0_v607 (W : Valuation τ sig (Elt F)) :
    StableHlo.after main_part11_ops0 W (Proc.devRef .tc main_v607)
      = (broadcastInDim S100000x128 ![] bcast_S_S100000x128 (constant (F := F) S_ .f32 0x00000000#32)) := by
  host_results <;> rfl

theorem pc_part11_ops0_v608 (W : Valuation τ sig (Elt F)) :
    StableHlo.after main_part11_ops0 W (Proc.devRef .tc main_v608)
      = (broadcastInDim S20000x1 ![0] bcast_S20000_S20000x1_0 (shapeCast _ (extractStridedSlice S1x20000 ![1, 0] (W (Proc.devRef .tc main_arg17)) slices_S2x20000_S1x20000_1_0) shapeCasts_S1x20000_S20000)) := by
  host_results <;> rfl

theorem pc_part11_ops0_v604 (W : Valuation τ sig (Elt F)) :
    StableHlo.after main_part11_ops0 W (Proc.devRef .tc main_v604)
      = (Host.gather gather_S20000x128_S20000x1_S20000x128_1_0_n_n_0_1_1128 (W (Proc.devRef .tc main_v527)) (broadcastInDim S20000x1 ![0] bcast_S20000_S20000x1_0 (select (cmpi .slt (shapeCast _ (extractStridedSlice S1x20000 ![0, 0] (W (Proc.devRef .tc main_arg17)) slices_S2x20000_S1x20000_0_0) shapeCasts_S1x20000_S20000) (broadcastInDim S20000 ![] bcast_S_S20000 (constantI S_ 32 0#32))) (addi (shapeCast _ (extractStridedSlice S1x20000 ![0, 0] (W (Proc.devRef .tc main_arg17)) slices_S2x20000_S1x20000_0_0) shapeCasts_S1x20000_S20000) (broadcastInDim S20000 ![] bcast_S_S20000 (constantI S_ 32 20000#32))) (shapeCast _ (extractStridedSlice S1x20000 ![0, 0] (W (Proc.devRef .tc main_arg17)) slices_S2x20000_S1x20000_0_0) shapeCasts_S1x20000_S20000)))) := by
  host_results <;> rfl

theorem pc_part12_ops0_v620 (W : Valuation τ sig (Elt F)) :
    StableHlo.after main_part12_ops0 W (Proc.devRef .tc main_v620)
      = (Host.divf (Host.scatterAdd scatter_S100000x128_S20000x1_S20000x128_1_0_0_1 (W (Proc.devRef .tc main_v607)) (W (Proc.devRef .tc main_v608)) (W (Proc.devRef .tc main_v604))) (broadcastInDim S100000x128 ![0, 1] bcast_S100000x1_S100000x128_0_1 (broadcastInDim S100000x1 ![0] bcast_S100000_S100000x1_0 (maximumf (Host.scatterAdd scatter_S100000_S20000x1_S20000_n_0_0_1 (broadcastInDim S100000 ![] bcast_S_S100000 (constant (F := F) S_ .f32 0x00000000#32)) (broadcastInDim S20000x1 ![0] bcast_S20000_S20000x1_0 (shapeCast _ (extractStridedSlice S1x20000 ![1, 0] (W (Proc.devRef .tc main_arg17)) slices_S2x20000_S1x20000_1_0) shapeCasts_S1x20000_S20000)) (broadcastInDim S20000 ![] bcast_S_S20000 (constant (F := F) S_ .f32 0x3F800000#32))) (broadcastInDim S100000 ![] bcast_S_S100000 (constant (F := F) S_ .f32 0x3F800000#32)))))) := by
  host_results <;> rfl

theorem pc_part12_ops0_v645 (W : Valuation τ sig (Elt F)) :
    StableHlo.after main_part12_ops0 W (Proc.devRef .tc main_v645)
      = (Host.divf (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (W (Proc.devRef .tc main_arg19)) slices_S2x50000_S1x50000_1_0) shapeCasts_S1x50000_S50000)) (Host.gather gather_S50000x128_S50000x1_S50000x128_1_0_n_n_0_1_1128 (W (Proc.devRef .tc main_v536)) (broadcastInDim S50000x1 ![0] bcast_S50000_S50000x1_0 (select (cmpi .slt (shapeCast _ (extractStridedSlice S1x50000 ![0, 0] (W (Proc.devRef .tc main_arg19)) slices_S2x50000_S1x50000_0_0) shapeCasts_S1x50000_S50000) (broadcastInDim S50000 ![] bcast_S_S50000 (constantI S_ 32 0#32))) (addi (shapeCast _ (extractStridedSlice S1x50000 ![0, 0] (W (Proc.devRef .tc main_arg19)) slices_S2x50000_S1x50000_0_0) shapeCasts_S1x50000_S50000) (broadcastInDim S50000 ![] bcast_S_S50000 (constantI S_ 32 50000#32))) (shapeCast _ (extractStridedSlice S1x50000 ![0, 0] (W (Proc.devRef .tc main_arg19)) slices_S2x50000_S1x50000_0_0) shapeCasts_S1x50000_S50000))))) (broadcastInDim S100000x128 ![0, 1] bcast_S100000x1_S100000x128_0_1 (broadcastInDim S100000x1 ![0] bcast_S100000_S100000x1_0 (maximumf (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (W (Proc.devRef .tc main_arg19)) slices_S2x50000_S1x50000_1_0) shapeCasts_S1x50000_S50000)) (broadcastInDim S50000 ![] bcast_S_S50000 (constant (F := F) S_ .f32 0x3F800000#32))) (broadcastInDim S100000 ![] bcast_S_S100000 (constant (F := F) S_ .f32 0x3F800000#32)))))) := by
  host_results <;> rfl

theorem pc_part12_ops0_cst_120 (W : Valuation τ sig (Elt F)) :
    StableHlo.after main_part12_ops0 W (Proc.devRef .tc main_cst_120)
      = (constant (F := F) S_ .f32 0x00000000#32) := by
  host_results <;> rfl

theorem pc_part12_ops0_v656 (W : Valuation τ sig (Elt F)) :
    StableHlo.after main_part12_ops0 W (Proc.devRef .tc main_v656)
      = (shapeCast _ (extractStridedSlice S1x5000 ![1, 0] (W (Proc.devRef .tc main_arg21)) slices_S2x5000_S1x5000_1_0) shapeCasts_S1x5000_S5000) := by
  host_results <;> rfl

theorem pc_part12_ops0_v654 (W : Valuation τ sig (Elt F)) :
    StableHlo.after main_part12_ops0 W (Proc.devRef .tc main_v654)
      = (Host.gather gather_S5000x128_S5000x1_S5000x128_1_0_n_n_0_1_1128 (W (Proc.devRef .tc main_v545)) (broadcastInDim S5000x1 ![0] bcast_S5000_S5000x1_0 (select (cmpi .slt (shapeCast _ (extractStridedSlice S1x5000 ![0, 0] (W (Proc.devRef .tc main_arg21)) slices_S2x5000_S1x5000_0_0) shapeCasts_S1x5000_S5000) (broadcastInDim S5000 ![] bcast_S_S5000 (constantI S_ 32 0#32))) (addi (shapeCast _ (extractStridedSlice S1x5000 ![0, 0] (W (Proc.devRef .tc main_arg21)) slices_S2x5000_S1x5000_0_0) shapeCasts_S1x5000_S5000) (broadcastInDim S5000 ![] bcast_S_S5000 (constantI S_ 32 5000#32))) (shapeCast _ (extractStridedSlice S1x5000 ![0, 0] (W (Proc.devRef .tc main_arg21)) slices_S2x5000_S1x5000_0_0) shapeCasts_S1x5000_S5000)))) := by
  host_results <;> rfl

theorem pc_part13_ops0_v670 (W : Valuation τ sig (Elt F)) :
    StableHlo.after main_part13_ops0 W (Proc.devRef .tc main_v670)
      = (Host.divf (Host.scatterAdd scatter_S100000x128_S5000x1_S5000x128_1_0_0_1 (broadcastInDim S100000x128 ![] bcast_S_S100000x128 (W (Proc.devRef .tc main_cst_120))) (broadcastInDim S5000x1 ![0] bcast_S5000_S5000x1_0 (W (Proc.devRef .tc main_v656))) (W (Proc.devRef .tc main_v654))) (broadcastInDim S100000x128 ![0, 1] bcast_S100000x1_S100000x128_0_1 (broadcastInDim S100000x1 ![0] bcast_S100000_S100000x1_0 (maximumf (Host.scatterAdd scatter_S100000_S5000x1_S5000_n_0_0_1 (broadcastInDim S100000 ![] bcast_S_S100000 (constant (F := F) S_ .f32 0x00000000#32)) (broadcastInDim S5000x1 ![0] bcast_S5000_S5000x1_0 (shapeCast _ (extractStridedSlice S1x5000 ![1, 0] (W (Proc.devRef .tc main_arg21)) slices_S2x5000_S1x5000_1_0) shapeCasts_S1x5000_S5000)) (broadcastInDim S5000 ![] bcast_S_S5000 (constant (F := F) S_ .f32 0x3F800000#32))) (broadcastInDim S100000 ![] bcast_S_S100000 (constant (F := F) S_ .f32 0x3F800000#32)))))) := by
  host_results <;> rfl

theorem pc_part14_ops0_v747 (W : Valuation τ sig (Elt F)) :
    StableHlo.after main_part14_ops0 W (Proc.devRef .tc main_v747)
      = (shapeCast _ (extractStridedSlice S1x1x128x128 ![2, 0, 0, 0] (W (Proc.devRef .tc main_arg4)) slices_S3x8x128x128_S1x1x128x128_2_0_0_0) shapeCasts_S1x1x128x128_S128x128) := by
  host_results <;> rfl

theorem pc_part14_ops0_v749 (W : Valuation τ sig (Elt F)) :
    StableHlo.after main_part14_ops0 W (Proc.devRef .tc main_v749)
      = (shapeCast _ (extractStridedSlice S1x1x128x128 ![2, 1, 0, 0] (W (Proc.devRef .tc main_arg4)) slices_S3x8x128x128_S1x1x128x128_2_1_0_0) shapeCasts_S1x1x128x128_S128x128) := by
  host_results <;> rfl

theorem pc_part14_ops0_v751 (W : Valuation τ sig (Elt F)) :
    StableHlo.after main_part14_ops0 W (Proc.devRef .tc main_v751)
      = (shapeCast _ (extractStridedSlice S1x1x128x128 ![2, 2, 0, 0] (W (Proc.devRef .tc main_arg4)) slices_S3x8x128x128_S1x1x128x128_2_2_0_0) shapeCasts_S1x1x128x128_S128x128) := by
  host_results <;> rfl

theorem pc_part14_ops0_v753 (W : Valuation τ sig (Elt F)) :
    StableHlo.after main_part14_ops0 W (Proc.devRef .tc main_v753)
      = (shapeCast _ (extractStridedSlice S1x1x128x128 ![2, 4, 0, 0] (W (Proc.devRef .tc main_arg4)) slices_S3x8x128x128_S1x1x128x128_2_4_0_0) shapeCasts_S1x1x128x128_S128x128) := by
  host_results <;> rfl

theorem pc_part14_ops0_v755 (W : Valuation τ sig (Elt F)) :
    StableHlo.after main_part14_ops0 W (Proc.devRef .tc main_v755)
      = (shapeCast _ (extractStridedSlice S1x1x128x128 ![2, 6, 0, 0] (W (Proc.devRef .tc main_arg4)) slices_S3x8x128x128_S1x1x128x128_2_6_0_0) shapeCasts_S1x1x128x128_S128x128) := by
  host_results <;> rfl

theorem pc_part15_ops0_v761 (W : Valuation τ sig (Elt F)) :
    StableHlo.after main_part15_ops0 W (Proc.devRef .tc main_v761)
      = (concatenate S5x128x128 0 [⟨S1x128x128, (broadcastInDim S1x128x128 ![1, 2] bcast_S128x128_S1x128x128_1_2 (W (Proc.devRef .tc main_v747)))⟩, ⟨S1x128x128, (broadcastInDim S1x128x128 ![1, 2] bcast_S128x128_S1x128x128_1_2 (W (Proc.devRef .tc main_v749)))⟩, ⟨S1x128x128, (broadcastInDim S1x128x128 ![1, 2] bcast_S128x128_S1x128x128_1_2 (W (Proc.devRef .tc main_v751)))⟩, ⟨S1x128x128, (broadcastInDim S1x128x128 ![1, 2] bcast_S128x128_S1x128x128_1_2 (W (Proc.devRef .tc main_v753)))⟩, ⟨S1x128x128, (broadcastInDim S1x128x128 ![1, 2] bcast_S128x128_S1x128x128_1_2 (W (Proc.devRef .tc main_v755)))⟩] concatenates_S1x128x128_S1x128x128_S1x128x128_S1x128x128_S1x128x128_S5x128x128_d0) := by
  host_results <;> rfl

theorem pc_part15_ops0_v775 (W : Valuation τ sig (Elt F)) :
    StableHlo.after main_part15_ops0 W (Proc.devRef .tc main_v775)
      = (addf (addf (addf (addf (shapeCast _ (extractStridedSlice S1x1x128x128 ![2, 0, 0, 0] (W (Proc.devRef .tc main_arg6)) slices_S3x8x128x128_S1x1x128x128_2_0_0_0) shapeCasts_S1x1x128x128_S128x128) (shapeCast _ (extractStridedSlice S1x1x128x128 ![2, 1, 0, 0] (W (Proc.devRef .tc main_arg6)) slices_S3x8x128x128_S1x1x128x128_2_1_0_0) shapeCasts_S1x1x128x128_S128x128)) (shapeCast _ (extractStridedSlice S1x1x128x128 ![2, 2, 0, 0] (W (Proc.devRef .tc main_arg6)) slices_S3x8x128x128_S1x1x128x128_2_2_0_0) shapeCasts_S1x1x128x128_S128x128)) (shapeCast _ (extractStridedSlice S1x1x128x128 ![2, 4, 0, 0] (W (Proc.devRef .tc main_arg6)) slices_S3x8x128x128_S1x1x128x128_2_4_0_0) shapeCasts_S1x1x128x128_S128x128)) (shapeCast _ (extractStridedSlice S1x1x128x128 ![2, 6, 0, 0] (W (Proc.devRef .tc main_arg6)) slices_S3x8x128x128_S1x1x128x128_2_6_0_0) shapeCasts_S1x1x128x128_S128x128)) := by
  host_results <;> rfl

theorem pc_part15_ops0_v790 (W : Valuation τ sig (Elt F)) :
    StableHlo.after main_part15_ops0 W (Proc.devRef .tc main_v790)
      = (shapeCast _ (addf (addf (addf (addf (shapeCast _ (extractStridedSlice S1x1x128 ![2, 0, 0] (W (Proc.devRef .tc main_arg5)) slices_S3x8x128_S1x1x128_2_0_0) shapeCasts_S1x1x128_S128) (shapeCast _ (extractStridedSlice S1x1x128 ![2, 1, 0] (W (Proc.devRef .tc main_arg5)) slices_S3x8x128_S1x1x128_2_1_0) shapeCasts_S1x1x128_S128)) (shapeCast _ (extractStridedSlice S1x1x128 ![2, 2, 0] (W (Proc.devRef .tc main_arg5)) slices_S3x8x128_S1x1x128_2_2_0) shapeCasts_S1x1x128_S128)) (shapeCast _ (extractStridedSlice S1x1x128 ![2, 4, 0] (W (Proc.devRef .tc main_arg5)) slices_S3x8x128_S1x1x128_2_4_0) shapeCasts_S1x1x128_S128)) (shapeCast _ (extractStridedSlice S1x1x128 ![2, 6, 0] (W (Proc.devRef .tc main_arg5)) slices_S3x8x128_S1x1x128_2_6_0) shapeCasts_S1x1x128_S128)) shapeCasts_S128_S1x128) := by
  host_results <;> rfl

theorem pc_part13_ops0_v695 (W : Valuation τ sig (Elt F)) :
    StableHlo.after main_part13_ops0 W (Proc.devRef .tc main_v695)
      = (Host.divf (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (W (Proc.devRef .tc main_arg18)) slices_S2x20000_S1x20000_1_0) shapeCasts_S1x20000_S20000)) (Host.gather gather_S100000x128_S20000x1_S20000x128_1_0_n_n_0_1_1128 (W (Proc.devRef .tc main_v518)) (broadcastInDim S20000x1 ![0] bcast_S20000_S20000x1_0 (select (cmpi .slt (shapeCast _ (extractStridedSlice S1x20000 ![0, 0] (W (Proc.devRef .tc main_arg18)) slices_S2x20000_S1x20000_0_0) shapeCasts_S1x20000_S20000) (broadcastInDim S20000 ![] bcast_S_S20000 (constantI S_ 32 0#32))) (addi (shapeCast _ (extractStridedSlice S1x20000 ![0, 0] (W (Proc.devRef .tc main_arg18)) slices_S2x20000_S1x20000_0_0) shapeCasts_S1x20000_S20000) (broadcastInDim S20000 ![] bcast_S_S20000 (constantI S_ 32 100000#32))) (shapeCast _ (extractStridedSlice S1x20000 ![0, 0] (W (Proc.devRef .tc main_arg18)) slices_S2x20000_S1x20000_0_0) shapeCasts_S1x20000_S20000))))) (broadcastInDim S20000x128 ![0, 1] bcast_S20000x1_S20000x128_0_1 (broadcastInDim S20000x1 ![0] bcast_S20000_S20000x1_0 (maximumf (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (W (Proc.devRef .tc main_arg18)) slices_S2x20000_S1x20000_1_0) shapeCasts_S1x20000_S20000)) (broadcastInDim S20000 ![] bcast_S_S20000 (constant (F := F) S_ .f32 0x3F800000#32))) (broadcastInDim S20000 ![] bcast_S_S20000 (constant (F := F) S_ .f32 0x3F800000#32)))))) := by
  host_results <;> rfl

theorem pc_part15_ops1_v794 (W : Valuation τ sig (Elt F)) :
    StableHlo.after main_part15_ops1 W (Proc.devRef .tc main_v794)
      = (shapeCast _ (shapeCast _ (extractStridedSlice S1x1x128x128 ![2, 3, 0, 0] (W (Proc.devRef .tc main_arg4)) slices_S3x8x128x128_S1x1x128x128_2_3_0_0) shapeCasts_S1x1x128x128_S128x128) shapeCasts_S128x128_S1x128x128) := by
  host_results <;> rfl

theorem pc_part15_ops1_v796 (W : Valuation τ sig (Elt F)) :
    StableHlo.after main_part15_ops1 W (Proc.devRef .tc main_v796)
      = (shapeCast _ (extractStridedSlice S1x1x128x128 ![2, 3, 0, 0] (W (Proc.devRef .tc main_arg6)) slices_S3x8x128x128_S1x1x128x128_2_3_0_0) shapeCasts_S1x1x128x128_S128x128) := by
  host_results <;> rfl

theorem pc_part15_ops1_v799 (W : Valuation τ sig (Elt F)) :
    StableHlo.after main_part15_ops1 W (Proc.devRef .tc main_v799)
      = (shapeCast _ (shapeCast _ (extractStridedSlice S1x1x128 ![2, 3, 0] (W (Proc.devRef .tc main_arg5)) slices_S3x8x128_S1x1x128_2_3_0) shapeCasts_S1x1x128_S128) shapeCasts_S128_S1x128) := by
  host_results <;> rfl

theorem pc_part13_ops0_v705 (W : Valuation τ sig (Elt F)) :
    StableHlo.after main_part13_ops0 W (Proc.devRef .tc main_v705)
      = (extractStridedSlice S1x50000 ![1, 0] (W (Proc.devRef .tc main_arg20)) slices_S2x50000_S1x50000_1_0) := by
  host_results <;> rfl

theorem pc_part13_ops0_v704 (W : Valuation τ sig (Elt F)) :
    StableHlo.after main_part13_ops0 W (Proc.devRef .tc main_v704)
      = (Host.gather gather_S100000x128_S50000x1_S50000x128_1_0_n_n_0_1_1128 (W (Proc.devRef .tc main_v518)) (broadcastInDim S50000x1 ![0] bcast_S50000_S50000x1_0 (select (cmpi .slt (shapeCast _ (extractStridedSlice S1x50000 ![0, 0] (W (Proc.devRef .tc main_arg20)) slices_S2x50000_S1x50000_0_0) shapeCasts_S1x50000_S50000) (broadcastInDim S50000 ![] bcast_S_S50000 (constantI S_ 32 0#32))) (addi (shapeCast _ (extractStridedSlice S1x50000 ![0, 0] (W (Proc.devRef .tc main_arg20)) slices_S2x50000_S1x50000_0_0) shapeCasts_S1x50000_S50000) (broadcastInDim S50000 ![] bcast_S_S50000 (constantI S_ 32 100000#32))) (shapeCast _ (extractStridedSlice S1x50000 ![0, 0] (W (Proc.devRef .tc main_arg20)) slices_S2x50000_S1x50000_0_0) shapeCasts_S1x50000_S50000)))) := by
  host_results <;> rfl

theorem pc_part14_ops0_v720 (W : Valuation τ sig (Elt F)) :
    StableHlo.after main_part14_ops0 W (Proc.devRef .tc main_v720)
      = (Host.divf (Host.scatterAdd scatter_S50000x128_S50000x1_S50000x128_1_0_0_1 (broadcastInDim S50000x128 ![] bcast_S_S50000x128 (constant (F := F) S_ .f32 0x00000000#32)) (broadcastInDim S50000x1 ![0] bcast_S50000_S50000x1_0 (shapeCast _ (W (Proc.devRef .tc main_v705)) shapeCasts_S1x50000_S50000)) (W (Proc.devRef .tc main_v704))) (broadcastInDim S50000x128 ![0, 1] bcast_S50000x1_S50000x128_0_1 (broadcastInDim S50000x1 ![0] bcast_S50000_S50000x1_0 (maximumf (Host.scatterAdd scatter_S50000_S50000x1_S50000_n_0_0_1 (broadcastInDim S50000 ![] bcast_S_S50000 (constant (F := F) S_ .f32 0x00000000#32)) (broadcastInDim S50000x1 ![0] bcast_S50000_S50000x1_0 (shapeCast _ (extractStridedSlice S1x50000 ![1, 0] (W (Proc.devRef .tc main_arg20)) slices_S2x50000_S1x50000_1_0) shapeCasts_S1x50000_S50000)) (broadcastInDim S50000 ![] bcast_S_S50000 (constant (F := F) S_ .f32 0x3F800000#32))) (broadcastInDim S50000 ![] bcast_S_S50000 (constant (F := F) S_ .f32 0x3F800000#32)))))) := by
  host_results <;> rfl

theorem pc_part15_ops2_v803 (W : Valuation τ sig (Elt F)) :
    StableHlo.after main_part15_ops2 W (Proc.devRef .tc main_v803)
      = (shapeCast _ (shapeCast _ (extractStridedSlice S1x1x128x128 ![2, 5, 0, 0] (W (Proc.devRef .tc main_arg4)) slices_S3x8x128x128_S1x1x128x128_2_5_0_0) shapeCasts_S1x1x128x128_S128x128) shapeCasts_S128x128_S1x128x128) := by
  host_results <;> rfl

theorem pc_part15_ops2_v805 (W : Valuation τ sig (Elt F)) :
    StableHlo.after main_part15_ops2 W (Proc.devRef .tc main_v805)
      = (shapeCast _ (extractStridedSlice S1x1x128x128 ![2, 5, 0, 0] (W (Proc.devRef .tc main_arg6)) slices_S3x8x128x128_S1x1x128x128_2_5_0_0) shapeCasts_S1x1x128x128_S128x128) := by
  host_results <;> rfl

theorem pc_part15_ops2_v808 (W : Valuation τ sig (Elt F)) :
    StableHlo.after main_part15_ops2 W (Proc.devRef .tc main_v808)
      = (shapeCast _ (shapeCast _ (extractStridedSlice S1x1x128 ![2, 5, 0] (W (Proc.devRef .tc main_arg5)) slices_S3x8x128_S1x1x128_2_5_0) shapeCasts_S1x1x128_S128) shapeCasts_S128_S1x128) := by
  host_results <;> rfl

theorem pc_part14_ops0_v745 (W : Valuation τ sig (Elt F)) :
    StableHlo.after main_part14_ops0 W (Proc.devRef .tc main_v745)
      = (Host.divf (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (W (Proc.devRef .tc main_arg22)) slices_S2x5000_S1x5000_1_0) shapeCasts_S1x5000_S5000)) (Host.gather gather_S100000x128_S5000x1_S5000x128_1_0_n_n_0_1_1128 (W (Proc.devRef .tc main_v518)) (broadcastInDim S5000x1 ![0] bcast_S5000_S5000x1_0 (select (cmpi .slt (shapeCast _ (extractStridedSlice S1x5000 ![0, 0] (W (Proc.devRef .tc main_arg22)) slices_S2x5000_S1x5000_0_0) shapeCasts_S1x5000_S5000) (broadcastInDim S5000 ![] bcast_S_S5000 (constantI S_ 32 0#32))) (addi (shapeCast _ (extractStridedSlice S1x5000 ![0, 0] (W (Proc.devRef .tc main_arg22)) slices_S2x5000_S1x5000_0_0) shapeCasts_S1x5000_S5000) (broadcastInDim S5000 ![] bcast_S_S5000 (constantI S_ 32 100000#32))) (shapeCast _ (extractStridedSlice S1x5000 ![0, 0] (W (Proc.devRef .tc main_arg22)) slices_S2x5000_S1x5000_0_0) shapeCasts_S1x5000_S5000))))) (broadcastInDim S5000x128 ![0, 1] bcast_S5000x1_S5000x128_0_1 (broadcastInDim S5000x1 ![0] bcast_S5000_S5000x1_0 (maximumf (Host.scatterAdd scatter_S5000_S5000x1_S5000_n_0_0_1 (broadcastInDim S5000 ![] bcast_S_S5000 (constant (F := F) S_ .f32 0x00000000#32)) (broadcastInDim S5000x1 ![0] bcast_S5000_S5000x1_0 (shapeCast _ (extractStridedSlice S1x5000 ![1, 0] (W (Proc.devRef .tc main_arg22)) slices_S2x5000_S1x5000_1_0) shapeCasts_S1x5000_S5000)) (broadcastInDim S5000 ![] bcast_S_S5000 (constant (F := F) S_ .f32 0x3F800000#32))) (broadcastInDim S5000 ![] bcast_S_S5000 (constant (F := F) S_ .f32 0x3F800000#32)))))) := by
  host_results <;> rfl

theorem pc_part15_ops3_v812 (W : Valuation τ sig (Elt F)) :
    StableHlo.after main_part15_ops3 W (Proc.devRef .tc main_v812)
      = (shapeCast _ (shapeCast _ (extractStridedSlice S1x1x128x128 ![2, 7, 0, 0] (W (Proc.devRef .tc main_arg4)) slices_S3x8x128x128_S1x1x128x128_2_7_0_0) shapeCasts_S1x1x128x128_S128x128) shapeCasts_S128x128_S1x128x128) := by
  host_results <;> rfl

theorem pc_part15_ops3_v814 (W : Valuation τ sig (Elt F)) :
    StableHlo.after main_part15_ops3 W (Proc.devRef .tc main_v814)
      = (shapeCast _ (extractStridedSlice S1x1x128x128 ![2, 7, 0, 0] (W (Proc.devRef .tc main_arg6)) slices_S3x8x128x128_S1x1x128x128_2_7_0_0) shapeCasts_S1x1x128x128_S128x128) := by
  host_results <;> rfl

theorem pc_part15_ops3_v815 (W : Valuation τ sig (Elt F)) :
    StableHlo.after main_part15_ops3 W (Proc.devRef .tc main_v815)
      = (extractStridedSlice S1x1x128 ![2, 7, 0] (W (Proc.devRef .tc main_arg5)) slices_S3x8x128_S1x1x128_2_7_0) := by
  host_results <;> rfl

theorem pc_part16_ops0_v817 (W : Valuation τ sig (Elt F)) :
    StableHlo.after main_part16_ops0 W (Proc.devRef .tc main_v817)
      = (shapeCast _ (shapeCast _ (W (Proc.devRef .tc main_v815)) shapeCasts_S1x1x128_S128) shapeCasts_S128_S1x128) := by
  host_results <;> rfl

end Cert.KernelIdeal.Hand

end
-- ==== Proof.KI.HostIn2.lean ====
/- What the regions of layer 2 find in their input windows' arrays: each aggregate window the mean aggregation of the
   source features of that layer along its edge type; each destination window the features themselves; each weight
   window, index by index, the slice (or the sum of slices) of the stacked parameters. First every host result these
   read, at the boundary of @main where it is made. -/
import proofs.«125545_j64845416235624_1_alg».proof.Proof.KI.Fold
import proofs.«125545_j64845416235624_1_alg».proof.Proof.KI.Keep
import proofs.«125545_j64845416235624_1_alg».proof.Proof.KI.Agg
import proofs.«125545_j64845416235624_1_alg».proof.Proof.KI.HostLayout
import proofs.«125545_j64845416235624_1_alg».proof.Proof.KI.HostPc2
import proofs.«125545_j64845416235624_1_alg».proof.Proof.NetDefs

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-! ## The host results at the boundaries where they are made -/

section Values
variable (m : (ℓ : Loc nD τ sig) → Buf (Elt F) ℓ) (ρ : Dev nD → PrngReg)

theorem val_v559 (c : Dev nD) :
    W27 m ρ c (Proc.devRef .tc main_v559)
      = (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (Host.gather gather_S100000x128_S500000x1_S500000x128_1_0_n_n_0_1_1128 (Vout4 m ρ c (Pipeline.arrRef spec4 9)) (broadcastInDim S500000x1 ![0] bcast_S500000_S500000x1_0 (select (cmpi .slt (shapeCast _ (extractStridedSlice S1x500000 ![0, 0] (m ((c : Thread nD τ).loc main_arg15)) slices_S2x500000_S1x500000_0_0) shapeCasts_S1x500000_S500000) (broadcastInDim S500000 ![] bcast_S_S500000 (constantI S_ 32 0#32))) (addi (shapeCast _ (extractStridedSlice S1x500000 ![0, 0] (m ((c : Thread nD τ).loc main_arg15)) slices_S2x500000_S1x500000_0_0) shapeCasts_S1x500000_S500000) (broadcastInDim S500000 ![] bcast_S_S500000 (constantI S_ 32 100000#32))) (shapeCast _ (extractStridedSlice S1x500000 ![0, 0] (m ((c : Thread nD τ).loc main_arg15)) slices_S2x500000_S1x500000_0_0) shapeCasts_S1x500000_S500000))))) :=
  (pc_part10_ops4_v559 (W26 m ρ c)).trans (by
    rw [(show W26 m ρ c (Proc.devRef .tc main_arg15) = (m ((c : Thread nD τ).loc main_arg15)) from
    (W26_of_ne m ρ c main_arg15 (by decide)).trans <|
    (keep_main_part10_ops3 (W24 m ρ c) main_arg15 (by decide)).trans <|
    (W24_of_ne m ρ c main_arg15 (by decide)).trans <|
    (keep_main_part10_ops2 (W22 m ρ c) main_arg15 (by decide)).trans <|
    (W22_of_ne m ρ c main_arg15 (by decide)).trans <|
    (keep_main_part10_ops1 (W20 m ρ c) main_arg15 (by decide)).trans <|
    (W20_of_ne m ρ c main_arg15 (by decide)).trans <|
    (keep_main_part10_ops0 (W18 m ρ c) main_arg15 (by decide)).trans <|
    (keep_main_part9_ops0 (W17 m ρ c) main_arg15 (by decide)).trans <|
    (keep_main_part8_ops0 (W16 m ρ c) main_arg15 (by decide)).trans <|
    (keep_main_part7_ops0 (W15 m ρ c) main_arg15 (by decide)).trans <|
    (keep_main_part6_ops0 (W14 m ρ c) main_arg15 (by decide)).trans <|
    (keep_main_part5_ops3 (W13 m ρ c) main_arg15 (by decide)).trans <|
    (W13_of_ne m ρ c main_arg15 (by decide)).trans <|
    (keep_main_part5_ops2 (W11 m ρ c) main_arg15 (by decide)).trans <|
    (W11_of_ne m ρ c main_arg15 (by decide)).trans <|
    (keep_main_part5_ops1 (W9 m ρ c) main_arg15 (by decide)).trans <|
    (W9_of_ne m ρ c main_arg15 (by decide)).trans <|
    (keep_main_part5_ops0 (W7 m ρ c) main_arg15 (by decide)).trans <|
    (keep_main_part4_ops1 (W6 m ρ c) main_arg15 (by decide)).trans <|
    (W6_of_ne m ρ c main_arg15 (by decide)).trans <|
    (keep_main_part4_ops0 (W4 m ρ c) main_arg15 (by decide)).trans <|
    (keep_main_part3_ops0 (W3 m ρ c) main_arg15 (by decide)).trans <|
    (keep_main_part2_ops0 (W2 m ρ c) main_arg15 (by decide)).trans <|
    (keep_main_part1_ops0 (W1 m ρ c) main_arg15 (by decide)).trans <|
    (keep_main_part0_ops0 (W0 m ρ c) main_arg15 (by decide)).trans <|
    rfl),
      (show W26 m ρ c (Proc.devRef .tc main_v518) = (Vout4 m ρ c (Pipeline.arrRef spec4 9)) from
    (W26_of_ne m ρ c main_v518 (by decide)).trans <|
    (keep_main_part10_ops3 (W24 m ρ c) main_v518 (by decide)).trans <|
    (W24_of_ne m ρ c main_v518 (by decide)).trans <|
    (keep_main_part10_ops2 (W22 m ρ c) main_v518 (by decide)).trans <|
    (W22_of_ne m ρ c main_v518 (by decide)).trans <|
    (keep_main_part10_ops1 (W20 m ρ c) main_v518 (by decide)).trans <|
    rfl)])

theorem val_cst_97 (c : Dev nD) :
    W27 m ρ c (Proc.devRef .tc main_cst_97)
      = (constant (F := F) S_ .f32 0x3F800000#32) :=
  pc_part10_ops4_cst_97 (W26 m ρ c)

theorem val_v570 (c : Dev nD) :
    W28 m ρ c (Proc.devRef .tc main_v570)
      = (Host.divf (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (Host.gather gather_S100000x128_S500000x1_S500000x128_1_0_n_n_0_1_1128 (Vout4 m ρ c (Pipeline.arrRef spec4 9)) (broadcastInDim S500000x1 ![0] bcast_S500000_S500000x1_0 (select (cmpi .slt (shapeCast _ (extractStridedSlice S1x500000 ![0, 0] (m ((c : Thread nD τ).loc main_arg15)) slices_S2x500000_S1x500000_0_0) shapeCasts_S1x500000_S500000) (broadcastInDim S500000 ![] bcast_S_S500000 (constantI S_ 32 0#32))) (addi (shapeCast _ (extractStridedSlice S1x500000 ![0, 0] (m ((c : Thread nD τ).loc main_arg15)) slices_S2x500000_S1x500000_0_0) shapeCasts_S1x500000_S500000) (broadcastInDim S500000 ![] bcast_S_S500000 (constantI S_ 32 100000#32))) (shapeCast _ (extractStridedSlice S1x500000 ![0, 0] (m ((c : Thread nD τ).loc main_arg15)) slices_S2x500000_S1x500000_0_0) shapeCasts_S1x500000_S500000))))) (broadcastInDim S100000x128 ![0, 1] bcast_S100000x1_S100000x128_0_1 (broadcastInDim S100000x1 ![0] bcast_S100000_S100000x1_0 (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (broadcastInDim S500000 ![] bcast_S_S500000 (constant (F := F) S_ .f32 0x3F800000#32))) (broadcastInDim S100000 ![] bcast_S_S100000 (constant (F := F) S_ .f32 0x3F800000#32)))))) :=
  (pc_part11_ops0_v570 (W27 m ρ c)).trans (by
    rw [(show W27 m ρ c (Proc.devRef .tc main_v559) = (Host.scatterAdd scatter_S100000x128_S500000x1_S500000x128_1_0_0_1 (broadcastInDim S100000x128 ![] bcast_S_S100000x128 (constant (F := F) S_ .f32 0x00000000#32)) (broadcastInDim S500000x1 ![0] bcast_S500000_S500000x1_0 (shapeCast _ (extractStridedSlice S1x500000 ![1, 0] (m ((c : Thread nD τ).loc main_arg15)) slices_S2x500000_S1x500000_1_0) shapeCasts_S1x500000_S500000)) (Host.gather gather_S100000x128_S500000x1_S500000x128_1_0_n_n_0_1_1128 (Vout4 m ρ c (Pipeline.arrRef spec4 9)) (broadcastInDim S500000x1 ![0] bcast_S500000_S500000x1_0 (select (cmpi .slt (shapeCast _ (extractStridedSlice S1x500000 ![0, 0] (m ((c : Thread nD τ).loc main_arg15)) slices_S2x500000_S1x500000_0_0) shapeCasts_S1x500000_S500000) (broadcastInDim S500000 ![] bcast_S_S500000 (constantI S_ 32 0#32))) (addi (shapeCast _ (extractStridedSlice S1x500000 ![0, 0] (m ((c : Thread nD τ).loc main_arg15)) slices_S2x500000_S1x500000_0_0) shapeCasts_S1x500000_S500000) (broadcastInDim S500000 ![] bcast_S_S500000 (constantI S_ 32 100000#32))) (shapeCast _ (extractStridedSlice S1x500000 ![0, 0] (m ((c : Thread nD τ).loc main_arg15)) slices_S2x500000_S1x500000_0_0) shapeCasts_S1x500000_S500000))))) from
    val_v559 m ρ c),
      (show W27 m ρ c (Proc.devRef .tc main_arg15) = (m ((c : Thread nD τ).loc main_arg15)) from
    (keep_main_part10_ops4 (W26 m ρ c) main_arg15 (by decide)).trans <|
    (W26_of_ne m ρ c main_arg15 (by decide)).trans <|
    (keep_main_part10_ops3 (W24 m ρ c) main_arg15 (by decide)).trans <|
    (W24_of_ne m ρ c main_arg15 (by decide)).trans <|
    (keep_main_part10_ops2 (W22 m ρ c) main_arg15 (by decide)).trans <|
    (W22_of_ne m ρ c main_arg15 (by decide)).trans <|
    (keep_main_part10_ops1 (W20 m ρ c) main_arg15 (by decide)).trans <|
    (W20_of_ne m ρ c main_arg15 (by decide)).trans <|
    (keep_main_part10_ops0 (W18 m ρ c) main_arg15 (by decide)).trans <|
    (keep_main_part9_ops0 (W17 m ρ c) main_arg15 (by decide)).trans <|
    (keep_main_part8_ops0 (W16 m ρ c) main_arg15 (by decide)).trans <|
    (keep_main_part7_ops0 (W15 m ρ c) main_arg15 (by decide)).trans <|
    (keep_main_part6_ops0 (W14 m ρ c) main_arg15 (by decide)).trans <|
    (keep_main_part5_ops3 (W13 m ρ c) main_arg15 (by decide)).trans <|
    (W13_of_ne m ρ c main_arg15 (by decide)).trans <|
    (keep_main_part5_ops2 (W11 m ρ c) main_arg15 (by decide)).trans <|
    (W11_of_ne m ρ c main_arg15 (by decide)).trans <|
    (keep_main_part5_ops1 (W9 m ρ c) main_arg15 (by decide)).trans <|
    (W9_of_ne m ρ c main_arg15 (by decide)).trans <|
    (keep_main_part5_ops0 (W7 m ρ c) main_arg15 (by decide)).trans <|
    (keep_main_part4_ops1 (W6 m ρ c) main_arg15 (by decide)).trans <|
    (W6_of_ne m ρ c main_arg15 (by decide)).trans <|
    (keep_main_part4_ops0 (W4 m ρ c) main_arg15 (by decide)).trans <|
    (keep_main_part3_ops0 (W3 m ρ c) main_arg15 (by decide)).trans <|
    (keep_main_part2_ops0 (W2 m ρ c) main_arg15 (by decide)).trans <|
    (keep_main_part1_ops0 (W1 m ρ c) main_arg15 (by decide)).trans <|
    (keep_main_part0_ops0 (W0 m ρ c) main_arg15 (by decide)).trans <|
    rfl),
      (show W27 m ρ c (Proc.devRef .tc main_cst_97) = (constant (F := F) S_ .f32 0x3F800000#32) from
    val_cst_97 m ρ c)])

theorem val_v595 (c : Dev nD) :
    W28 m ρ c (Proc.devRef .tc main_v595)
      = (Host.divf (Host.scatterAdd scatter_S100000x128_S100000x1_S100000x128_1_0_0_1 (broadcastInDim S100000x128 ![] bcast_S_S100000x128 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (Host.gather gather_S100000x128_S100000x1_S100000x128_1_0_n_n_0_1_1128 (Vout4 m ρ c (Pipeline.arrRef spec4 9)) (broadcastInDim S100000x1 ![0] bcast_S100000_S100000x1_0 (select (cmpi .slt (shapeCast _ (extractStridedSlice S1x100000 ![0, 0] (m ((c : Thread nD τ).loc main_arg16)) slices_S2x100000_S1x100000_0_0) shapeCasts_S1x100000_S100000) (broadcastInDim S100000 ![] bcast_S_S100000 (constantI S_ 32 0#32))) (addi (shapeCast _ (extractStridedSlice S1x100000 ![0, 0] (m ((c : Thread nD τ).loc main_arg16)) slices_S2x100000_S1x100000_0_0) shapeCasts_S1x100000_S100000) (broadcastInDim S100000 ![] bcast_S_S100000 (constantI S_ 32 100000#32))) (shapeCast _ (extractStridedSlice S1x100000 ![0, 0] (m ((c : Thread nD τ).loc main_arg16)) slices_S2x100000_S1x100000_0_0) shapeCasts_S1x100000_S100000))))) (broadcastInDim S100000x128 ![0, 1] bcast_S100000x1_S100000x128_0_1 (broadcastInDim S100000x1 ![0] bcast_S100000_S100000x1_0 (maximumf (Host.scatterAdd scatter_S100000_S100000x1_S100000_n_0_0_1 (broadcastInDim S100000 ![] bcast_S_S100000 (constant (F := F) S_ .f32 0x00000000#32)) (broadcastInDim S100000x1 ![0] bcast_S100000_S100000x1_0 (shapeCast _ (extractStridedSlice S1x100000 ![1, 0] (m ((c : Thread nD τ).loc main_arg16)) slices_S2x100000_S1x100000_1_0) shapeCasts_S1x100000_S100000)) (broadcastInDim S100000 ![] bcast_S_S100000 (constant (F := F) S_ .f32 0x3F800000#32))) (broadcastInDim S100000 ![] bcast_S_S100000 (constant (F := F) S_ .f32 0x3F800000#32)))))) :=
  (pc_part11_ops0_v595 (W27 m ρ c)).trans (by
    rw [(show W27 m ρ c (Proc.devRef .tc main_arg16) = (m ((c : Thread nD τ).loc main_arg16)) from
    (keep_main_part10_ops4 (W26 m ρ c) main_arg16 (by decide)).trans <|
    (W26_of_ne m ρ c main_arg16 (by decide)).trans <|
    (keep_main_part10_ops3 (W24 m ρ c) main_arg16 (by decide)).trans <|
    (W24_of_ne m ρ c main_arg16 (by decide)).trans <|
    (keep_main_part10_ops2 (W22 m ρ c) main_arg16 (by decide)).trans <|
    (W22_of_ne m ρ c main_arg16 (by decide)).trans <|
    (keep_main_part10_ops1 (W20 m ρ c) main_arg16 (by decide)).trans <|
    (W20_of_ne m ρ c main_arg16 (by decide)).trans <|
    (keep_main_part10_ops0 (W18 m ρ c) main_arg16 (by decide)).trans <|
    (keep_main_part9_ops0 (W17 m ρ c) main_arg16 (by decide)).trans <|
    (keep_main_part8_ops0 (W16 m ρ c) main_arg16 (by decide)).trans <|
    (keep_main_part7_ops0 (W15 m ρ c) main_arg16 (by decide)).trans <|
    (keep_main_part6_ops0 (W14 m ρ c) main_arg16 (by decide)).trans <|
    (keep_main_part5_ops3 (W13 m ρ c) main_arg16 (by decide)).trans <|
    (W13_of_ne m ρ c main_arg16 (by decide)).trans <|
    (keep_main_part5_ops2 (W11 m ρ c) main_arg16 (by decide)).trans <|
    (W11_of_ne m ρ c main_arg16 (by decide)).trans <|
    (keep_main_part5_ops1 (W9 m ρ c) main_arg16 (by decide)).trans <|
    (W9_of_ne m ρ c main_arg16 (by decide)).trans <|
    (keep_main_part5_ops0 (W7 m ρ c) main_arg16 (by decide)).trans <|
    (keep_main_part4_ops1 (W6 m ρ c) main_arg16 (by decide)).trans <|
    (W6_of_ne m ρ c main_arg16 (by decide)).trans <|
    (keep_main_part4_ops0 (W4 m ρ c) main_arg16 (by decide)).trans <|
    (keep_main_part3_ops0 (W3 m ρ c) main_arg16 (by decide)).trans <|
    (keep_main_part2_ops0 (W2 m ρ c) main_arg16 (by decide)).trans <|
    (keep_main_part1_ops0 (W1 m ρ c) main_arg16 (by decide)).trans <|
    (keep_main_part0_ops0 (W0 m ρ c) main_arg16 (by decide)).trans <|
    rfl),
      (show W27 m ρ c (Proc.devRef .tc main_v518) = (Vout4 m ρ c (Pipeline.arrRef spec4 9)) from
    (keep_main_part10_ops4 (W26 m ρ c) main_v518 (by decide)).trans <|
    (W26_of_ne m ρ c main_v518 (by decide)).trans <|
    (keep_main_part10_ops3 (W24 m ρ c) main_v518 (by decide)).trans <|
    (W24_of_ne m ρ c main_v518 (by decide)).trans <|
    (keep_main_part10_ops2 (W22 m ρ c) main_v518 (by decide)).trans <|
    (W22_of_ne m ρ c main_v518 (by decide)).trans <|
    (keep_main_part10_ops1 (W20 m ρ c) main_v518 (by decide)).trans <|
    rfl)])

theorem val_v607 (c : Dev nD) :
    W28 m ρ c (Proc.devRef .tc main_v607)
      = (broadcastInDim S100000x128 ![] bcast_S_S100000x128 (constant (F := F) S_ .f32 0x00000000#32)) :=
  pc_part11_ops0_v607 (W27 m ρ c)

theorem val_v608 (c : Dev nD) :
    W28 m ρ c (Proc.devRef .tc main_v608)
      = (broadcastInDim S20000x1 ![0] bcast_S20000_S20000x1_0 (shapeCast _ (extractStridedSlice S1x20000 ![1, 0] (m ((c : Thread nD τ).loc main_arg17)) slices_S2x20000_S1x20000_1_0) shapeCasts_S1x20000_S20000)) :=
  (pc_part11_ops0_v608 (W27 m ρ c)).trans (by
    rw [(show W27 m ρ c (Proc.devRef .tc main_arg17) = (m ((c : Thread nD τ).loc main_arg17)) from
    (keep_main_part10_ops4 (W26 m ρ c) main_arg17 (by decide)).trans <|
    (W26_of_ne m ρ c main_arg17 (by decide)).trans <|
    (keep_main_part10_ops3 (W24 m ρ c) main_arg17 (by decide)).trans <|
    (W24_of_ne m ρ c main_arg17 (by decide)).trans <|
    (keep_main_part10_ops2 (W22 m ρ c) main_arg17 (by decide)).trans <|
    (W22_of_ne m ρ c main_arg17 (by decide)).trans <|
    (keep_main_part10_ops1 (W20 m ρ c) main_arg17 (by decide)).trans <|
    (W20_of_ne m ρ c main_arg17 (by decide)).trans <|
    (keep_main_part10_ops0 (W18 m ρ c) main_arg17 (by decide)).trans <|
    (keep_main_part9_ops0 (W17 m ρ c) main_arg17 (by decide)).trans <|
    (keep_main_part8_ops0 (W16 m ρ c) main_arg17 (by decide)).trans <|
    (keep_main_part7_ops0 (W15 m ρ c) main_arg17 (by decide)).trans <|
    (keep_main_part6_ops0 (W14 m ρ c) main_arg17 (by decide)).trans <|
    (keep_main_part5_ops3 (W13 m ρ c) main_arg17 (by decide)).trans <|
    (W13_of_ne m ρ c main_arg17 (by decide)).trans <|
    (keep_main_part5_ops2 (W11 m ρ c) main_arg17 (by decide)).trans <|
    (W11_of_ne m ρ c main_arg17 (by decide)).trans <|
    (keep_main_part5_ops1 (W9 m ρ c) main_arg17 (by decide)).trans <|
    (W9_of_ne m ρ c main_arg17 (by decide)).trans <|
    (keep_main_part5_ops0 (W7 m ρ c) main_arg17 (by decide)).trans <|
    (keep_main_part4_ops1 (W6 m ρ c) main_arg17 (by decide)).trans <|
    (W6_of_ne m ρ c main_arg17 (by decide)).trans <|
    (keep_main_part4_ops0 (W4 m ρ c) main_arg17 (by decide)).trans <|
    (keep_main_part3_ops0 (W3 m ρ c) main_arg17 (by decide)).trans <|
    (keep_main_part2_ops0 (W2 m ρ c) main_arg17 (by decide)).trans <|
    (keep_main_part1_ops0 (W1 m ρ c) main_arg17 (by decide)).trans <|
    (keep_main_part0_ops0 (W0 m ρ c) main_arg17 (by decide)).trans <|
    rfl)])

theorem val_v604 (c : Dev nD) :
    W28 m ρ c (Proc.devRef .tc main_v604)
      = (Host.gather gather_S20000x128_S20000x1_S20000x128_1_0_n_n_0_1_1128 (Vout5 m ρ c (Pipeline.arrRef spec5 5)) (broadcastInDim S20000x1 ![0] bcast_S20000_S20000x1_0 (select (cmpi .slt (shapeCast _ (extractStridedSlice S1x20000 ![0, 0] (m ((c : Thread nD τ).loc main_arg17)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg17)) slices_S2x20000_S1x20000_0_0) shapeCasts_S1x20000_S20000) (broadcastInDim S20000 ![] bcast_S_S20000 (constantI S_ 32 20000#32))) (shapeCast _ (extractStridedSlice S1x20000 ![0, 0] (m ((c : Thread nD τ).loc main_arg17)) slices_S2x20000_S1x20000_0_0) shapeCasts_S1x20000_S20000)))) :=
  (pc_part11_ops0_v604 (W27 m ρ c)).trans (by
    rw [(show W27 m ρ c (Proc.devRef .tc main_v527) = (Vout5 m ρ c (Pipeline.arrRef spec5 5)) from
    (keep_main_part10_ops4 (W26 m ρ c) main_v527 (by decide)).trans <|
    (W26_of_ne m ρ c main_v527 (by decide)).trans <|
    (keep_main_part10_ops3 (W24 m ρ c) main_v527 (by decide)).trans <|
    (W24_of_ne m ρ c main_v527 (by decide)).trans <|
    (keep_main_part10_ops2 (W22 m ρ c) main_v527 (by decide)).trans <|
    rfl),
      (show W27 m ρ c (Proc.devRef .tc main_arg17) = (m ((c : Thread nD τ).loc main_arg17)) from
    (keep_main_part10_ops4 (W26 m ρ c) main_arg17 (by decide)).trans <|
    (W26_of_ne m ρ c main_arg17 (by decide)).trans <|
    (keep_main_part10_ops3 (W24 m ρ c) main_arg17 (by decide)).trans <|
    (W24_of_ne m ρ c main_arg17 (by decide)).trans <|
    (keep_main_part10_ops2 (W22 m ρ c) main_arg17 (by decide)).trans <|
    (W22_of_ne m ρ c main_arg17 (by decide)).trans <|
    (keep_main_part10_ops1 (W20 m ρ c) main_arg17 (by decide)).trans <|
    (W20_of_ne m ρ c main_arg17 (by decide)).trans <|
    (keep_main_part10_ops0 (W18 m ρ c) main_arg17 (by decide)).trans <|
    (keep_main_part9_ops0 (W17 m ρ c) main_arg17 (by decide)).trans <|
    (keep_main_part8_ops0 (W16 m ρ c) main_arg17 (by decide)).trans <|
    (keep_main_part7_ops0 (W15 m ρ c) main_arg17 (by decide)).trans <|
    (keep_main_part6_ops0 (W14 m ρ c) main_arg17 (by decide)).trans <|
    (keep_main_part5_ops3 (W13 m ρ c) main_arg17 (by decide)).trans <|
    (W13_of_ne m ρ c main_arg17 (by decide)).trans <|
    (keep_main_part5_ops2 (W11 m ρ c) main_arg17 (by decide)).trans <|
    (W11_of_ne m ρ c main_arg17 (by decide)).trans <|
    (keep_main_part5_ops1 (W9 m ρ c) main_arg17 (by decide)).trans <|
    (W9_of_ne m ρ c main_arg17 (by decide)).trans <|
    (keep_main_part5_ops0 (W7 m ρ c) main_arg17 (by decide)).trans <|
    (keep_main_part4_ops1 (W6 m ρ c) main_arg17 (by decide)).trans <|
    (W6_of_ne m ρ c main_arg17 (by decide)).trans <|
    (keep_main_part4_ops0 (W4 m ρ c) main_arg17 (by decide)).trans <|
    (keep_main_part3_ops0 (W3 m ρ c) main_arg17 (by decide)).trans <|
    (keep_main_part2_ops0 (W2 m ρ c) main_arg17 (by decide)).trans <|
    (keep_main_part1_ops0 (W1 m ρ c) main_arg17 (by decide)).trans <|
    (keep_main_part0_ops0 (W0 m ρ c) main_arg17 (by decide)).trans <|
    rfl)])

theorem val_v620 (c : Dev nD) :
    W29 m ρ c (Proc.devRef .tc main_v620)
      = (Host.divf (Host.scatterAdd scatter_S100000x128_S20000x1_S20000x128_1_0_0_1 (broadcastInDim S100000x128 ![] bcast_S_S100000x128 (constant (F := F) S_ .f32 0x00000000#32)) (broadcastInDim S20000x1 ![0] bcast_S20000_S20000x1_0 (shapeCast _ (extractStridedSlice S1x20000 ![1, 0] (m ((c : Thread nD τ).loc main_arg17)) slices_S2x20000_S1x20000_1_0) shapeCasts_S1x20000_S20000)) (Host.gather gather_S20000x128_S20000x1_S20000x128_1_0_n_n_0_1_1128 (Vout5 m ρ c (Pipeline.arrRef spec5 5)) (broadcastInDim S20000x1 ![0] bcast_S20000_S20000x1_0 (select (cmpi .slt (shapeCast _ (extractStridedSlice S1x20000 ![0, 0] (m ((c : Thread nD τ).loc main_arg17)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg17)) slices_S2x20000_S1x20000_0_0) shapeCasts_S1x20000_S20000) (broadcastInDim S20000 ![] bcast_S_S20000 (constantI S_ 32 20000#32))) (shapeCast _ (extractStridedSlice S1x20000 ![0, 0] (m ((c : Thread nD τ).loc main_arg17)) slices_S2x20000_S1x20000_0_0) shapeCasts_S1x20000_S20000))))) (broadcastInDim S100000x128 ![0, 1] bcast_S100000x1_S100000x128_0_1 (broadcastInDim S100000x1 ![0] bcast_S100000_S100000x1_0 (maximumf (Host.scatterAdd scatter_S100000_S20000x1_S20000_n_0_0_1 (broadcastInDim S100000 ![] bcast_S_S100000 (constant (F := F) S_ .f32 0x00000000#32)) (broadcastInDim S20000x1 ![0] bcast_S20000_S20000x1_0 (shapeCast _ (extractStridedSlice S1x20000 ![1, 0] (m ((c : Thread nD τ).loc main_arg17)) slices_S2x20000_S1x20000_1_0) shapeCasts_S1x20000_S20000)) (broadcastInDim S20000 ![] bcast_S_S20000 (constant (F := F) S_ .f32 0x3F800000#32))) (broadcastInDim S100000 ![] bcast_S_S100000 (constant (F := F) S_ .f32 0x3F800000#32)))))) :=
  (pc_part12_ops0_v620 (W28 m ρ c)).trans (by
    rw [(show W28 m ρ c (Proc.devRef .tc main_v607) = (broadcastInDim S100000x128 ![] bcast_S_S100000x128 (constant (F := F) S_ .f32 0x00000000#32)) from
    val_v607 m ρ c),
      (show W28 m ρ c (Proc.devRef .tc main_v608) = (broadcastInDim S20000x1 ![0] bcast_S20000_S20000x1_0 (shapeCast _ (extractStridedSlice S1x20000 ![1, 0] (m ((c : Thread nD τ).loc main_arg17)) slices_S2x20000_S1x20000_1_0) shapeCasts_S1x20000_S20000)) from
    val_v608 m ρ c),
      (show W28 m ρ c (Proc.devRef .tc main_v604) = (Host.gather gather_S20000x128_S20000x1_S20000x128_1_0_n_n_0_1_1128 (Vout5 m ρ c (Pipeline.arrRef spec5 5)) (broadcastInDim S20000x1 ![0] bcast_S20000_S20000x1_0 (select (cmpi .slt (shapeCast _ (extractStridedSlice S1x20000 ![0, 0] (m ((c : Thread nD τ).loc main_arg17)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg17)) slices_S2x20000_S1x20000_0_0) shapeCasts_S1x20000_S20000) (broadcastInDim S20000 ![] bcast_S_S20000 (constantI S_ 32 20000#32))) (shapeCast _ (extractStridedSlice S1x20000 ![0, 0] (m ((c : Thread nD τ).loc main_arg17)) slices_S2x20000_S1x20000_0_0) shapeCasts_S1x20000_S20000)))) from
    val_v604 m ρ c),
      (show W28 m ρ c (Proc.devRef .tc main_arg17) = (m ((c : Thread nD τ).loc main_arg17)) from
    (keep_main_part11_ops0 (W27 m ρ c) main_arg17 (by decide)).trans <|
    (keep_main_part10_ops4 (W26 m ρ c) main_arg17 (by decide)).trans <|
    (W26_of_ne m ρ c main_arg17 (by decide)).trans <|
    (keep_main_part10_ops3 (W24 m ρ c) main_arg17 (by decide)).trans <|
    (W24_of_ne m ρ c main_arg17 (by decide)).trans <|
    (keep_main_part10_ops2 (W22 m ρ c) main_arg17 (by decide)).trans <|
    (W22_of_ne m ρ c main_arg17 (by decide)).trans <|
    (keep_main_part10_ops1 (W20 m ρ c) main_arg17 (by decide)).trans <|
    (W20_of_ne m ρ c main_arg17 (by decide)).trans <|
    (keep_main_part10_ops0 (W18 m ρ c) main_arg17 (by decide)).trans <|
    (keep_main_part9_ops0 (W17 m ρ c) main_arg17 (by decide)).trans <|
    (keep_main_part8_ops0 (W16 m ρ c) main_arg17 (by decide)).trans <|
    (keep_main_part7_ops0 (W15 m ρ c) main_arg17 (by decide)).trans <|
    (keep_main_part6_ops0 (W14 m ρ c) main_arg17 (by decide)).trans <|
    (keep_main_part5_ops3 (W13 m ρ c) main_arg17 (by decide)).trans <|
    (W13_of_ne m ρ c main_arg17 (by decide)).trans <|
    (keep_main_part5_ops2 (W11 m ρ c) main_arg17 (by decide)).trans <|
    (W11_of_ne m ρ c main_arg17 (by decide)).trans <|
    (keep_main_part5_ops1 (W9 m ρ c) main_arg17 (by decide)).trans <|
    (W9_of_ne m ρ c main_arg17 (by decide)).trans <|
    (keep_main_part5_ops0 (W7 m ρ c) main_arg17 (by decide)).trans <|
    (keep_main_part4_ops1 (W6 m ρ c) main_arg17 (by decide)).trans <|
    (W6_of_ne m ρ c main_arg17 (by decide)).trans <|
    (keep_main_part4_ops0 (W4 m ρ c) main_arg17 (by decide)).trans <|
    (keep_main_part3_ops0 (W3 m ρ c) main_arg17 (by decide)).trans <|
    (keep_main_part2_ops0 (W2 m ρ c) main_arg17 (by decide)).trans <|
    (keep_main_part1_ops0 (W1 m ρ c) main_arg17 (by decide)).trans <|
    (keep_main_part0_ops0 (W0 m ρ c) main_arg17 (by decide)).trans <|
    rfl)])

theorem val_v645 (c : Dev nD) :
    W29 m ρ c (Proc.devRef .tc main_v645)
      = (Host.divf (Host.scatterAdd scatter_S100000x128_S50000x1_S50000x128_1_0_0_1 (broadcastInDim S100000x128 ![] bcast_S_S100000x128 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (Host.gather gather_S50000x128_S50000x1_S50000x128_1_0_n_n_0_1_1128 (Vout6 m ρ c (Pipeline.arrRef spec6 5)) (broadcastInDim S50000x1 ![0] bcast_S50000_S50000x1_0 (select (cmpi .slt (shapeCast _ (extractStridedSlice S1x50000 ![0, 0] (m ((c : Thread nD τ).loc main_arg19)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg19)) slices_S2x50000_S1x50000_0_0) shapeCasts_S1x50000_S50000) (broadcastInDim S50000 ![] bcast_S_S50000 (constantI S_ 32 50000#32))) (shapeCast _ (extractStridedSlice S1x50000 ![0, 0] (m ((c : Thread nD τ).loc main_arg19)) slices_S2x50000_S1x50000_0_0) shapeCasts_S1x50000_S50000))))) (broadcastInDim S100000x128 ![0, 1] bcast_S100000x1_S100000x128_0_1 (broadcastInDim S100000x1 ![0] bcast_S100000_S100000x1_0 (maximumf (Host.scatterAdd scatter_S100000_S50000x1_S50000_n_0_0_1 (broadcastInDim S100000 ![] bcast_S_S100000 (constant (F := F) S_ .f32 0x00000000#32)) (broadcastInDim S50000x1 ![0] bcast_S50000_S50000x1_0 (shapeCast _ (extractStridedSlice S1x50000 ![1, 0] (m ((c : Thread nD τ).loc main_arg19)) slices_S2x50000_S1x50000_1_0) shapeCasts_S1x50000_S50000)) (broadcastInDim S50000 ![] bcast_S_S50000 (constant (F := F) S_ .f32 0x3F800000#32))) (broadcastInDim S100000 ![] bcast_S_S100000 (constant (F := F) S_ .f32 0x3F800000#32)))))) :=
  (pc_part12_ops0_v645 (W28 m ρ c)).trans (by
    rw [(show W28 m ρ c (Proc.devRef .tc main_arg19) = (m ((c : Thread nD τ).loc main_arg19)) from
    (keep_main_part11_ops0 (W27 m ρ c) main_arg19 (by decide)).trans <|
    (keep_main_part10_ops4 (W26 m ρ c) main_arg19 (by decide)).trans <|
    (W26_of_ne m ρ c main_arg19 (by decide)).trans <|
    (keep_main_part10_ops3 (W24 m ρ c) main_arg19 (by decide)).trans <|
    (W24_of_ne m ρ c main_arg19 (by decide)).trans <|
    (keep_main_part10_ops2 (W22 m ρ c) main_arg19 (by decide)).trans <|
    (W22_of_ne m ρ c main_arg19 (by decide)).trans <|
    (keep_main_part10_ops1 (W20 m ρ c) main_arg19 (by decide)).trans <|
    (W20_of_ne m ρ c main_arg19 (by decide)).trans <|
    (keep_main_part10_ops0 (W18 m ρ c) main_arg19 (by decide)).trans <|
    (keep_main_part9_ops0 (W17 m ρ c) main_arg19 (by decide)).trans <|
    (keep_main_part8_ops0 (W16 m ρ c) main_arg19 (by decide)).trans <|
    (keep_main_part7_ops0 (W15 m ρ c) main_arg19 (by decide)).trans <|
    (keep_main_part6_ops0 (W14 m ρ c) main_arg19 (by decide)).trans <|
    (keep_main_part5_ops3 (W13 m ρ c) main_arg19 (by decide)).trans <|
    (W13_of_ne m ρ c main_arg19 (by decide)).trans <|
    (keep_main_part5_ops2 (W11 m ρ c) main_arg19 (by decide)).trans <|
    (W11_of_ne m ρ c main_arg19 (by decide)).trans <|
    (keep_main_part5_ops1 (W9 m ρ c) main_arg19 (by decide)).trans <|
    (W9_of_ne m ρ c main_arg19 (by decide)).trans <|
    (keep_main_part5_ops0 (W7 m ρ c) main_arg19 (by decide)).trans <|
    (keep_main_part4_ops1 (W6 m ρ c) main_arg19 (by decide)).trans <|
    (W6_of_ne m ρ c main_arg19 (by decide)).trans <|
    (keep_main_part4_ops0 (W4 m ρ c) main_arg19 (by decide)).trans <|
    (keep_main_part3_ops0 (W3 m ρ c) main_arg19 (by decide)).trans <|
    (keep_main_part2_ops0 (W2 m ρ c) main_arg19 (by decide)).trans <|
    (keep_main_part1_ops0 (W1 m ρ c) main_arg19 (by decide)).trans <|
    (keep_main_part0_ops0 (W0 m ρ c) main_arg19 (by decide)).trans <|
    rfl),
      (show W28 m ρ c (Proc.devRef .tc main_v536) = (Vout6 m ρ c (Pipeline.arrRef spec6 5)) from
    (keep_main_part11_ops0 (W27 m ρ c) main_v536 (by decide)).trans <|
    (keep_main_part10_ops4 (W26 m ρ c) main_v536 (by decide)).trans <|
    (W26_of_ne m ρ c main_v536 (by decide)).trans <|
    (keep_main_part10_ops3 (W24 m ρ c) main_v536 (by decide)).trans <|
    rfl)])

theorem val_cst_120 (c : Dev nD) :
    W29 m ρ c (Proc.devRef .tc main_cst_120)
      = (constant (F := F) S_ .f32 0x00000000#32) :=
  pc_part12_ops0_cst_120 (W28 m ρ c)

theorem val_v656 (c : Dev nD) :
    W29 m ρ c (Proc.devRef .tc main_v656)
      = (shapeCast _ (extractStridedSlice S1x5000 ![1, 0] (m ((c : Thread nD τ).loc main_arg21)) slices_S2x5000_S1x5000_1_0) shapeCasts_S1x5000_S5000) :=
  (pc_part12_ops0_v656 (W28 m ρ c)).trans (by
    rw [(show W28 m ρ c (Proc.devRef .tc main_arg21) = (m ((c : Thread nD τ).loc main_arg21)) from
    (keep_main_part11_ops0 (W27 m ρ c) main_arg21 (by decide)).trans <|
    (keep_main_part10_ops4 (W26 m ρ c) main_arg21 (by decide)).trans <|
    (W26_of_ne m ρ c main_arg21 (by decide)).trans <|
    (keep_main_part10_ops3 (W24 m ρ c) main_arg21 (by decide)).trans <|
    (W24_of_ne m ρ c main_arg21 (by decide)).trans <|
    (keep_main_part10_ops2 (W22 m ρ c) main_arg21 (by decide)).trans <|
    (W22_of_ne m ρ c main_arg21 (by decide)).trans <|
    (keep_main_part10_ops1 (W20 m ρ c) main_arg21 (by decide)).trans <|
    (W20_of_ne m ρ c main_arg21 (by decide)).trans <|
    (keep_main_part10_ops0 (W18 m ρ c) main_arg21 (by decide)).trans <|
    (keep_main_part9_ops0 (W17 m ρ c) main_arg21 (by decide)).trans <|
    (keep_main_part8_ops0 (W16 m ρ c) main_arg21 (by decide)).trans <|
    (keep_main_part7_ops0 (W15 m ρ c) main_arg21 (by decide)).trans <|
    (keep_main_part6_ops0 (W14 m ρ c) main_arg21 (by decide)).trans <|
    (keep_main_part5_ops3 (W13 m ρ c) main_arg21 (by decide)).trans <|
    (W13_of_ne m ρ c main_arg21 (by decide)).trans <|
    (keep_main_part5_ops2 (W11 m ρ c) main_arg21 (by decide)).trans <|
    (W11_of_ne m ρ c main_arg21 (by decide)).trans <|
    (keep_main_part5_ops1 (W9 m ρ c) main_arg21 (by decide)).trans <|
    (W9_of_ne m ρ c main_arg21 (by decide)).trans <|
    (keep_main_part5_ops0 (W7 m ρ c) main_arg21 (by decide)).trans <|
    (keep_main_part4_ops1 (W6 m ρ c) main_arg21 (by decide)).trans <|
    (W6_of_ne m ρ c main_arg21 (by decide)).trans <|
    (keep_main_part4_ops0 (W4 m ρ c) main_arg21 (by decide)).trans <|
    (keep_main_part3_ops0 (W3 m ρ c) main_arg21 (by decide)).trans <|
    (keep_main_part2_ops0 (W2 m ρ c) main_arg21 (by decide)).trans <|
    (keep_main_part1_ops0 (W1 m ρ c) main_arg21 (by decide)).trans <|
    (keep_main_part0_ops0 (W0 m ρ c) main_arg21 (by decide)).trans <|
    rfl)])

theorem val_v654 (c : Dev nD) :
    W29 m ρ c (Proc.devRef .tc main_v654)
      = (Host.gather gather_S5000x128_S5000x1_S5000x128_1_0_n_n_0_1_1128 (Vout7 m ρ c (Pipeline.arrRef spec7 5)) (broadcastInDim S5000x1 ![0] bcast_S5000_S5000x1_0 (select (cmpi .slt (shapeCast _ (extractStridedSlice S1x5000 ![0, 0] (m ((c : Thread nD τ).loc main_arg21)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg21)) slices_S2x5000_S1x5000_0_0) shapeCasts_S1x5000_S5000) (broadcastInDim S5000 ![] bcast_S_S5000 (constantI S_ 32 5000#32))) (shapeCast _ (extractStridedSlice S1x5000 ![0, 0] (m ((c : Thread nD τ).loc main_arg21)) slices_S2x5000_S1x5000_0_0) shapeCasts_S1x5000_S5000)))) :=
  (pc_part12_ops0_v654 (W28 m ρ c)).trans (by
    rw [(show W28 m ρ c (Proc.devRef .tc main_v545) = (Vout7 m ρ c (Pipeline.arrRef spec7 5)) from
    (keep_main_part11_ops0 (W27 m ρ c) main_v545 (by decide)).trans <|
    (keep_main_part10_ops4 (W26 m ρ c) main_v545 (by decide)).trans <|
    rfl),
      (show W28 m ρ c (Proc.devRef .tc main_arg21) = (m ((c : Thread nD τ).loc main_arg21)) from
    (keep_main_part11_ops0 (W27 m ρ c) main_arg21 (by decide)).trans <|
    (keep_main_part10_ops4 (W26 m ρ c) main_arg21 (by decide)).trans <|
    (W26_of_ne m ρ c main_arg21 (by decide)).trans <|
    (keep_main_part10_ops3 (W24 m ρ c) main_arg21 (by decide)).trans <|
    (W24_of_ne m ρ c main_arg21 (by decide)).trans <|
    (keep_main_part10_ops2 (W22 m ρ c) main_arg21 (by decide)).trans <|
    (W22_of_ne m ρ c main_arg21 (by decide)).trans <|
    (keep_main_part10_ops1 (W20 m ρ c) main_arg21 (by decide)).trans <|
    (W20_of_ne m ρ c main_arg21 (by decide)).trans <|
    (keep_main_part10_ops0 (W18 m ρ c) main_arg21 (by decide)).trans <|
    (keep_main_part9_ops0 (W17 m ρ c) main_arg21 (by decide)).trans <|
    (keep_main_part8_ops0 (W16 m ρ c) main_arg21 (by decide)).trans <|
    (keep_main_part7_ops0 (W15 m ρ c) main_arg21 (by decide)).trans <|
    (keep_main_part6_ops0 (W14 m ρ c) main_arg21 (by decide)).trans <|
    (keep_main_part5_ops3 (W13 m ρ c) main_arg21 (by decide)).trans <|
    (W13_of_ne m ρ c main_arg21 (by decide)).trans <|
    (keep_main_part5_ops2 (W11 m ρ c) main_arg21 (by decide)).trans <|
    (W11_of_ne m ρ c main_arg21 (by decide)).trans <|
    (keep_main_part5_ops1 (W9 m ρ c) main_arg21 (by decide)).trans <|
    (W9_of_ne m ρ c main_arg21 (by decide)).trans <|
    (keep_main_part5_ops0 (W7 m ρ c) main_arg21 (by decide)).trans <|
    (keep_main_part4_ops1 (W6 m ρ c) main_arg21 (by decide)).trans <|
    (W6_of_ne m ρ c main_arg21 (by decide)).trans <|
    (keep_main_part4_ops0 (W4 m ρ c) main_arg21 (by decide)).trans <|
    (keep_main_part3_ops0 (W3 m ρ c) main_arg21 (by decide)).trans <|
    (keep_main_part2_ops0 (W2 m ρ c) main_arg21 (by decide)).trans <|
    (keep_main_part1_ops0 (W1 m ρ c) main_arg21 (by decide)).trans <|
    (keep_main_part0_ops0 (W0 m ρ c) main_arg21 (by decide)).trans <|
    rfl)])

theorem val_v670 (c : Dev nD) :
    W30 m ρ c (Proc.devRef .tc main_v670)
      = (Host.divf (Host.scatterAdd scatter_S100000x128_S5000x1_S5000x128_1_0_0_1 (broadcastInDim S100000x128 ![] bcast_S_S100000x128 (constant (F := F) S_ .f32 0x00000000#32)) (broadcastInDim S5000x1 ![0] bcast_S5000_S5000x1_0 (shapeCast _ (extractStridedSlice S1x5000 ![1, 0] (m ((c : Thread nD τ).loc main_arg21)) slices_S2x5000_S1x5000_1_0) shapeCasts_S1x5000_S5000)) (Host.gather gather_S5000x128_S5000x1_S5000x128_1_0_n_n_0_1_1128 (Vout7 m ρ c (Pipeline.arrRef spec7 5)) (broadcastInDim S5000x1 ![0] bcast_S5000_S5000x1_0 (select (cmpi .slt (shapeCast _ (extractStridedSlice S1x5000 ![0, 0] (m ((c : Thread nD τ).loc main_arg21)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg21)) slices_S2x5000_S1x5000_0_0) shapeCasts_S1x5000_S5000) (broadcastInDim S5000 ![] bcast_S_S5000 (constantI S_ 32 5000#32))) (shapeCast _ (extractStridedSlice S1x5000 ![0, 0] (m ((c : Thread nD τ).loc main_arg21)) slices_S2x5000_S1x5000_0_0) shapeCasts_S1x5000_S5000))))) (broadcastInDim S100000x128 ![0, 1] bcast_S100000x1_S100000x128_0_1 (broadcastInDim S100000x1 ![0] bcast_S100000_S100000x1_0 (maximumf (Host.scatterAdd scatter_S100000_S5000x1_S5000_n_0_0_1 (broadcastInDim S100000 ![] bcast_S_S100000 (constant (F := F) S_ .f32 0x00000000#32)) (broadcastInDim S5000x1 ![0] bcast_S5000_S5000x1_0 (shapeCast _ (extractStridedSlice S1x5000 ![1, 0] (m ((c : Thread nD τ).loc main_arg21)) slices_S2x5000_S1x5000_1_0) shapeCasts_S1x5000_S5000)) (broadcastInDim S5000 ![] bcast_S_S5000 (constant (F := F) S_ .f32 0x3F800000#32))) (broadcastInDim S100000 ![] bcast_S_S100000 (constant (F := F) S_ .f32 0x3F800000#32)))))) :=
  (pc_part13_ops0_v670 (W29 m ρ c)).trans (by
    rw [(show W29 m ρ c (Proc.devRef .tc main_cst_120) = (constant (F := F) S_ .f32 0x00000000#32) from
    val_cst_120 m ρ c),
      (show W29 m ρ c (Proc.devRef .tc main_v656) = (shapeCast _ (extractStridedSlice S1x5000 ![1, 0] (m ((c : Thread nD τ).loc main_arg21)) slices_S2x5000_S1x5000_1_0) shapeCasts_S1x5000_S5000) from
    val_v656 m ρ c),
      (show W29 m ρ c (Proc.devRef .tc main_v654) = (Host.gather gather_S5000x128_S5000x1_S5000x128_1_0_n_n_0_1_1128 (Vout7 m ρ c (Pipeline.arrRef spec7 5)) (broadcastInDim S5000x1 ![0] bcast_S5000_S5000x1_0 (select (cmpi .slt (shapeCast _ (extractStridedSlice S1x5000 ![0, 0] (m ((c : Thread nD τ).loc main_arg21)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg21)) slices_S2x5000_S1x5000_0_0) shapeCasts_S1x5000_S5000) (broadcastInDim S5000 ![] bcast_S_S5000 (constantI S_ 32 5000#32))) (shapeCast _ (extractStridedSlice S1x5000 ![0, 0] (m ((c : Thread nD τ).loc main_arg21)) slices_S2x5000_S1x5000_0_0) shapeCasts_S1x5000_S5000)))) from
    val_v654 m ρ c),
      (show W29 m ρ c (Proc.devRef .tc main_arg21) = (m ((c : Thread nD τ).loc main_arg21)) from
    (keep_main_part12_ops0 (W28 m ρ c) main_arg21 (by decide)).trans <|
    (keep_main_part11_ops0 (W27 m ρ c) main_arg21 (by decide)).trans <|
    (keep_main_part10_ops4 (W26 m ρ c) main_arg21 (by decide)).trans <|
    (W26_of_ne m ρ c main_arg21 (by decide)).trans <|
    (keep_main_part10_ops3 (W24 m ρ c) main_arg21 (by decide)).trans <|
    (W24_of_ne m ρ c main_arg21 (by decide)).trans <|
    (keep_main_part10_ops2 (W22 m ρ c) main_arg21 (by decide)).trans <|
    (W22_of_ne m ρ c main_arg21 (by decide)).trans <|
    (keep_main_part10_ops1 (W20 m ρ c) main_arg21 (by decide)).trans <|
    (W20_of_ne m ρ c main_arg21 (by decide)).trans <|
    (keep_main_part10_ops0 (W18 m ρ c) main_arg21 (by decide)).trans <|
    (keep_main_part9_ops0 (W17 m ρ c) main_arg21 (by decide)).trans <|
    (keep_main_part8_ops0 (W16 m ρ c) main_arg21 (by decide)).trans <|
    (keep_main_part7_ops0 (W15 m ρ c) main_arg21 (by decide)).trans <|
    (keep_main_part6_ops0 (W14 m ρ c) main_arg21 (by decide)).trans <|
    (keep_main_part5_ops3 (W13 m ρ c) main_arg21 (by decide)).trans <|
    (W13_of_ne m ρ c main_arg21 (by decide)).trans <|
    (keep_main_part5_ops2 (W11 m ρ c) main_arg21 (by decide)).trans <|
    (W11_of_ne m ρ c main_arg21 (by decide)).trans <|
    (keep_main_part5_ops1 (W9 m ρ c) main_arg21 (by decide)).trans <|
    (W9_of_ne m ρ c main_arg21 (by decide)).trans <|
    (keep_main_part5_ops0 (W7 m ρ c) main_arg21 (by decide)).trans <|
    (keep_main_part4_ops1 (W6 m ρ c) main_arg21 (by decide)).trans <|
    (W6_of_ne m ρ c main_arg21 (by decide)).trans <|
    (keep_main_part4_ops0 (W4 m ρ c) main_arg21 (by decide)).trans <|
    (keep_main_part3_ops0 (W3 m ρ c) main_arg21 (by decide)).trans <|
    (keep_main_part2_ops0 (W2 m ρ c) main_arg21 (by decide)).trans <|
    (keep_main_part1_ops0 (W1 m ρ c) main_arg21 (by decide)).trans <|
    (keep_main_part0_ops0 (W0 m ρ c) main_arg21 (by decide)).trans <|
    rfl)])

theorem val_v747 (c : Dev nD) :
    W31 m ρ c (Proc.devRef .tc main_v747)
      = (shapeCast _ (extractStridedSlice S1x1x128x128 ![2, 0, 0, 0] (m ((c : Thread nD τ).loc main_arg4)) slices_S3x8x128x128_S1x1x128x128_2_0_0_0) shapeCasts_S1x1x128x128_S128x128) :=
  (pc_part14_ops0_v747 (W30 m ρ c)).trans (by
    rw [(show W30 m ρ c (Proc.devRef .tc main_arg4) = (m ((c : Thread nD τ).loc main_arg4)) from
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v749 (c : Dev nD) :
    W31 m ρ c (Proc.devRef .tc main_v749)
      = (shapeCast _ (extractStridedSlice S1x1x128x128 ![2, 1, 0, 0] (m ((c : Thread nD τ).loc main_arg4)) slices_S3x8x128x128_S1x1x128x128_2_1_0_0) shapeCasts_S1x1x128x128_S128x128) :=
  (pc_part14_ops0_v749 (W30 m ρ c)).trans (by
    rw [(show W30 m ρ c (Proc.devRef .tc main_arg4) = (m ((c : Thread nD τ).loc main_arg4)) from
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v751 (c : Dev nD) :
    W31 m ρ c (Proc.devRef .tc main_v751)
      = (shapeCast _ (extractStridedSlice S1x1x128x128 ![2, 2, 0, 0] (m ((c : Thread nD τ).loc main_arg4)) slices_S3x8x128x128_S1x1x128x128_2_2_0_0) shapeCasts_S1x1x128x128_S128x128) :=
  (pc_part14_ops0_v751 (W30 m ρ c)).trans (by
    rw [(show W30 m ρ c (Proc.devRef .tc main_arg4) = (m ((c : Thread nD τ).loc main_arg4)) from
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v753 (c : Dev nD) :
    W31 m ρ c (Proc.devRef .tc main_v753)
      = (shapeCast _ (extractStridedSlice S1x1x128x128 ![2, 4, 0, 0] (m ((c : Thread nD τ).loc main_arg4)) slices_S3x8x128x128_S1x1x128x128_2_4_0_0) shapeCasts_S1x1x128x128_S128x128) :=
  (pc_part14_ops0_v753 (W30 m ρ c)).trans (by
    rw [(show W30 m ρ c (Proc.devRef .tc main_arg4) = (m ((c : Thread nD τ).loc main_arg4)) from
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v755 (c : Dev nD) :
    W31 m ρ c (Proc.devRef .tc main_v755)
      = (shapeCast _ (extractStridedSlice S1x1x128x128 ![2, 6, 0, 0] (m ((c : Thread nD τ).loc main_arg4)) slices_S3x8x128x128_S1x1x128x128_2_6_0_0) shapeCasts_S1x1x128x128_S128x128) :=
  (pc_part14_ops0_v755 (W30 m ρ c)).trans (by
    rw [(show W30 m ρ c (Proc.devRef .tc main_arg4) = (m ((c : Thread nD τ).loc main_arg4)) from
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v761 (c : Dev nD) :
    W32 m ρ c (Proc.devRef .tc main_v761)
      = (concatenate S5x128x128 0 [⟨S1x128x128, (broadcastInDim S1x128x128 ![1, 2] bcast_S128x128_S1x128x128_1_2 (shapeCast _ (extractStridedSlice S1x1x128x128 ![2, 0, 0, 0] (m ((c : Thread nD τ).loc main_arg4)) slices_S3x8x128x128_S1x1x128x128_2_0_0_0) shapeCasts_S1x1x128x128_S128x128))⟩, ⟨S1x128x128, (broadcastInDim S1x128x128 ![1, 2] bcast_S128x128_S1x128x128_1_2 (shapeCast _ (extractStridedSlice S1x1x128x128 ![2, 1, 0, 0] (m ((c : Thread nD τ).loc main_arg4)) slices_S3x8x128x128_S1x1x128x128_2_1_0_0) shapeCasts_S1x1x128x128_S128x128))⟩, ⟨S1x128x128, (broadcastInDim S1x128x128 ![1, 2] bcast_S128x128_S1x128x128_1_2 (shapeCast _ (extractStridedSlice S1x1x128x128 ![2, 2, 0, 0] (m ((c : Thread nD τ).loc main_arg4)) slices_S3x8x128x128_S1x1x128x128_2_2_0_0) shapeCasts_S1x1x128x128_S128x128))⟩, ⟨S1x128x128, (broadcastInDim S1x128x128 ![1, 2] bcast_S128x128_S1x128x128_1_2 (shapeCast _ (extractStridedSlice S1x1x128x128 ![2, 4, 0, 0] (m ((c : Thread nD τ).loc main_arg4)) slices_S3x8x128x128_S1x1x128x128_2_4_0_0) shapeCasts_S1x1x128x128_S128x128))⟩, ⟨S1x128x128, (broadcastInDim S1x128x128 ![1, 2] bcast_S128x128_S1x128x128_1_2 (shapeCast _ (extractStridedSlice S1x1x128x128 ![2, 6, 0, 0] (m ((c : Thread nD τ).loc main_arg4)) slices_S3x8x128x128_S1x1x128x128_2_6_0_0) shapeCasts_S1x1x128x128_S128x128))⟩] concatenates_S1x128x128_S1x128x128_S1x128x128_S1x128x128_S1x128x128_S5x128x128_d0) :=
  (pc_part15_ops0_v761 (W31 m ρ c)).trans (by
    rw [(show W31 m ρ c (Proc.devRef .tc main_v747) = (shapeCast _ (extractStridedSlice S1x1x128x128 ![2, 0, 0, 0] (m ((c : Thread nD τ).loc main_arg4)) slices_S3x8x128x128_S1x1x128x128_2_0_0_0) shapeCasts_S1x1x128x128_S128x128) from
    val_v747 m ρ c),
      (show W31 m ρ c (Proc.devRef .tc main_v749) = (shapeCast _ (extractStridedSlice S1x1x128x128 ![2, 1, 0, 0] (m ((c : Thread nD τ).loc main_arg4)) slices_S3x8x128x128_S1x1x128x128_2_1_0_0) shapeCasts_S1x1x128x128_S128x128) from
    val_v749 m ρ c),
      (show W31 m ρ c (Proc.devRef .tc main_v751) = (shapeCast _ (extractStridedSlice S1x1x128x128 ![2, 2, 0, 0] (m ((c : Thread nD τ).loc main_arg4)) slices_S3x8x128x128_S1x1x128x128_2_2_0_0) shapeCasts_S1x1x128x128_S128x128) from
    val_v751 m ρ c),
      (show W31 m ρ c (Proc.devRef .tc main_v753) = (shapeCast _ (extractStridedSlice S1x1x128x128 ![2, 4, 0, 0] (m ((c : Thread nD τ).loc main_arg4)) slices_S3x8x128x128_S1x1x128x128_2_4_0_0) shapeCasts_S1x1x128x128_S128x128) from
    val_v753 m ρ c),
      (show W31 m ρ c (Proc.devRef .tc main_v755) = (shapeCast _ (extractStridedSlice S1x1x128x128 ![2, 6, 0, 0] (m ((c : Thread nD τ).loc main_arg4)) slices_S3x8x128x128_S1x1x128x128_2_6_0_0) shapeCasts_S1x1x128x128_S128x128) from
    val_v755 m ρ c)])

theorem val_v775 (c : Dev nD) :
    W32 m ρ c (Proc.devRef .tc main_v775)
      = (addf (addf (addf (addf (shapeCast _ (extractStridedSlice S1x1x128x128 ![2, 0, 0, 0] (m ((c : Thread nD τ).loc main_arg6)) slices_S3x8x128x128_S1x1x128x128_2_0_0_0) shapeCasts_S1x1x128x128_S128x128) (shapeCast _ (extractStridedSlice S1x1x128x128 ![2, 1, 0, 0] (m ((c : Thread nD τ).loc main_arg6)) slices_S3x8x128x128_S1x1x128x128_2_1_0_0) shapeCasts_S1x1x128x128_S128x128)) (shapeCast _ (extractStridedSlice S1x1x128x128 ![2, 2, 0, 0] (m ((c : Thread nD τ).loc main_arg6)) slices_S3x8x128x128_S1x1x128x128_2_2_0_0) shapeCasts_S1x1x128x128_S128x128)) (shapeCast _ (extractStridedSlice S1x1x128x128 ![2, 4, 0, 0] (m ((c : Thread nD τ).loc main_arg6)) slices_S3x8x128x128_S1x1x128x128_2_4_0_0) shapeCasts_S1x1x128x128_S128x128)) (shapeCast _ (extractStridedSlice S1x1x128x128 ![2, 6, 0, 0] (m ((c : Thread nD τ).loc main_arg6)) slices_S3x8x128x128_S1x1x128x128_2_6_0_0) shapeCasts_S1x1x128x128_S128x128)) :=
  (pc_part15_ops0_v775 (W31 m ρ c)).trans (by
    rw [(show W31 m ρ c (Proc.devRef .tc main_arg6) = (m ((c : Thread nD τ).loc main_arg6)) from
    (keep_main_part14_ops0 (W30 m ρ c) main_arg6 (by decide)).trans <|
    (keep_main_part13_ops0 (W29 m ρ c) main_arg6 (by decide)).trans <|
    (keep_main_part12_ops0 (W28 m ρ c) main_arg6 (by decide)).trans <|
    (keep_main_part11_ops0 (W27 m ρ c) main_arg6 (by decide)).trans <|
    (keep_main_part10_ops4 (W26 m ρ c) main_arg6 (by decide)).trans <|
    (W26_of_ne m ρ c main_arg6 (by decide)).trans <|
    (keep_main_part10_ops3 (W24 m ρ c) main_arg6 (by decide)).trans <|
    (W24_of_ne m ρ c main_arg6 (by decide)).trans <|
    (keep_main_part10_ops2 (W22 m ρ c) main_arg6 (by decide)).trans <|
    (W22_of_ne m ρ c main_arg6 (by decide)).trans <|
    (keep_main_part10_ops1 (W20 m ρ c) main_arg6 (by decide)).trans <|
    (W20_of_ne m ρ c main_arg6 (by decide)).trans <|
    (keep_main_part10_ops0 (W18 m ρ c) main_arg6 (by decide)).trans <|
    (keep_main_part9_ops0 (W17 m ρ c) main_arg6 (by decide)).trans <|
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v790 (c : Dev nD) :
    W32 m ρ c (Proc.devRef .tc main_v790)
      = (shapeCast _ (addf (addf (addf (addf (shapeCast _ (extractStridedSlice S1x1x128 ![2, 0, 0] (m ((c : Thread nD τ).loc main_arg5)) slices_S3x8x128_S1x1x128_2_0_0) shapeCasts_S1x1x128_S128) (shapeCast _ (extractStridedSlice S1x1x128 ![2, 1, 0] (m ((c : Thread nD τ).loc main_arg5)) slices_S3x8x128_S1x1x128_2_1_0) shapeCasts_S1x1x128_S128)) (shapeCast _ (extractStridedSlice S1x1x128 ![2, 2, 0] (m ((c : Thread nD τ).loc main_arg5)) slices_S3x8x128_S1x1x128_2_2_0) shapeCasts_S1x1x128_S128)) (shapeCast _ (extractStridedSlice S1x1x128 ![2, 4, 0] (m ((c : Thread nD τ).loc main_arg5)) slices_S3x8x128_S1x1x128_2_4_0) shapeCasts_S1x1x128_S128)) (shapeCast _ (extractStridedSlice S1x1x128 ![2, 6, 0] (m ((c : Thread nD τ).loc main_arg5)) slices_S3x8x128_S1x1x128_2_6_0) shapeCasts_S1x1x128_S128)) shapeCasts_S128_S1x128) :=
  (pc_part15_ops0_v790 (W31 m ρ c)).trans (by
    rw [(show W31 m ρ c (Proc.devRef .tc main_arg5) = (m ((c : Thread nD τ).loc main_arg5)) from
    (keep_main_part14_ops0 (W30 m ρ c) main_arg5 (by decide)).trans <|
    (keep_main_part13_ops0 (W29 m ρ c) main_arg5 (by decide)).trans <|
    (keep_main_part12_ops0 (W28 m ρ c) main_arg5 (by decide)).trans <|
    (keep_main_part11_ops0 (W27 m ρ c) main_arg5 (by decide)).trans <|
    (keep_main_part10_ops4 (W26 m ρ c) main_arg5 (by decide)).trans <|
    (W26_of_ne m ρ c main_arg5 (by decide)).trans <|
    (keep_main_part10_ops3 (W24 m ρ c) main_arg5 (by decide)).trans <|
    (W24_of_ne m ρ c main_arg5 (by decide)).trans <|
    (keep_main_part10_ops2 (W22 m ρ c) main_arg5 (by decide)).trans <|
    (W22_of_ne m ρ c main_arg5 (by decide)).trans <|
    (keep_main_part10_ops1 (W20 m ρ c) main_arg5 (by decide)).trans <|
    (W20_of_ne m ρ c main_arg5 (by decide)).trans <|
    (keep_main_part10_ops0 (W18 m ρ c) main_arg5 (by decide)).trans <|
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v695 (c : Dev nD) :
    W30 m ρ c (Proc.devRef .tc main_v695)
      = (Host.divf (Host.scatterAdd scatter_S20000x128_S20000x1_S20000x128_1_0_0_1 (broadcastInDim S20000x128 ![] bcast_S_S20000x128 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (Host.gather gather_S100000x128_S20000x1_S20000x128_1_0_n_n_0_1_1128 (Vout4 m ρ c (Pipeline.arrRef spec4 9)) (broadcastInDim S20000x1 ![0] bcast_S20000_S20000x1_0 (select (cmpi .slt (shapeCast _ (extractStridedSlice S1x20000 ![0, 0] (m ((c : Thread nD τ).loc main_arg18)) slices_S2x20000_S1x20000_0_0) shapeCasts_S1x20000_S20000) (broadcastInDim S20000 ![] bcast_S_S20000 (constantI S_ 32 0#32))) (addi (shapeCast _ (extractStridedSlice S1x20000 ![0, 0] (m ((c : Thread nD τ).loc main_arg18)) slices_S2x20000_S1x20000_0_0) shapeCasts_S1x20000_S20000) (broadcastInDim S20000 ![] bcast_S_S20000 (constantI S_ 32 100000#32))) (shapeCast _ (extractStridedSlice S1x20000 ![0, 0] (m ((c : Thread nD τ).loc main_arg18)) slices_S2x20000_S1x20000_0_0) shapeCasts_S1x20000_S20000))))) (broadcastInDim S20000x128 ![0, 1] bcast_S20000x1_S20000x128_0_1 (broadcastInDim S20000x1 ![0] bcast_S20000_S20000x1_0 (maximumf (Host.scatterAdd scatter_S20000_S20000x1_S20000_n_0_0_1 (broadcastInDim S20000 ![] bcast_S_S20000 (constant (F := F) S_ .f32 0x00000000#32)) (broadcastInDim S20000x1 ![0] bcast_S20000_S20000x1_0 (shapeCast _ (extractStridedSlice S1x20000 ![1, 0] (m ((c : Thread nD τ).loc main_arg18)) slices_S2x20000_S1x20000_1_0) shapeCasts_S1x20000_S20000)) (broadcastInDim S20000 ![] bcast_S_S20000 (constant (F := F) S_ .f32 0x3F800000#32))) (broadcastInDim S20000 ![] bcast_S_S20000 (constant (F := F) S_ .f32 0x3F800000#32)))))) :=
  (pc_part13_ops0_v695 (W29 m ρ c)).trans (by
    rw [(show W29 m ρ c (Proc.devRef .tc main_arg18) = (m ((c : Thread nD τ).loc main_arg18)) from
    (keep_main_part12_ops0 (W28 m ρ c) main_arg18 (by decide)).trans <|
    (keep_main_part11_ops0 (W27 m ρ c) main_arg18 (by decide)).trans <|
    (keep_main_part10_ops4 (W26 m ρ c) main_arg18 (by decide)).trans <|
    (W26_of_ne m ρ c main_arg18 (by decide)).trans <|
    (keep_main_part10_ops3 (W24 m ρ c) main_arg18 (by decide)).trans <|
    (W24_of_ne m ρ c main_arg18 (by decide)).trans <|
    (keep_main_part10_ops2 (W22 m ρ c) main_arg18 (by decide)).trans <|
    (W22_of_ne m ρ c main_arg18 (by decide)).trans <|
    (keep_main_part10_ops1 (W20 m ρ c) main_arg18 (by decide)).trans <|
    (W20_of_ne m ρ c main_arg18 (by decide)).trans <|
    (keep_main_part10_ops0 (W18 m ρ c) main_arg18 (by decide)).trans <|
    (keep_main_part9_ops0 (W17 m ρ c) main_arg18 (by decide)).trans <|
    (keep_main_part8_ops0 (W16 m ρ c) main_arg18 (by decide)).trans <|
    (keep_main_part7_ops0 (W15 m ρ c) main_arg18 (by decide)).trans <|
    (keep_main_part6_ops0 (W14 m ρ c) main_arg18 (by decide)).trans <|
    (keep_main_part5_ops3 (W13 m ρ c) main_arg18 (by decide)).trans <|
    (W13_of_ne m ρ c main_arg18 (by decide)).trans <|
    (keep_main_part5_ops2 (W11 m ρ c) main_arg18 (by decide)).trans <|
    (W11_of_ne m ρ c main_arg18 (by decide)).trans <|
    (keep_main_part5_ops1 (W9 m ρ c) main_arg18 (by decide)).trans <|
    (W9_of_ne m ρ c main_arg18 (by decide)).trans <|
    (keep_main_part5_ops0 (W7 m ρ c) main_arg18 (by decide)).trans <|
    (keep_main_part4_ops1 (W6 m ρ c) main_arg18 (by decide)).trans <|
    (W6_of_ne m ρ c main_arg18 (by decide)).trans <|
    (keep_main_part4_ops0 (W4 m ρ c) main_arg18 (by decide)).trans <|
    (keep_main_part3_ops0 (W3 m ρ c) main_arg18 (by decide)).trans <|
    (keep_main_part2_ops0 (W2 m ρ c) main_arg18 (by decide)).trans <|
    (keep_main_part1_ops0 (W1 m ρ c) main_arg18 (by decide)).trans <|
    (keep_main_part0_ops0 (W0 m ρ c) main_arg18 (by decide)).trans <|
    rfl),
      (show W29 m ρ c (Proc.devRef .tc main_v518) = (Vout4 m ρ c (Pipeline.arrRef spec4 9)) from
    (keep_main_part12_ops0 (W28 m ρ c) main_v518 (by decide)).trans <|
    (keep_main_part11_ops0 (W27 m ρ c) main_v518 (by decide)).trans <|
    (keep_main_part10_ops4 (W26 m ρ c) main_v518 (by decide)).trans <|
    (W26_of_ne m ρ c main_v518 (by decide)).trans <|
    (keep_main_part10_ops3 (W24 m ρ c) main_v518 (by decide)).trans <|
    (W24_of_ne m ρ c main_v518 (by decide)).trans <|
    (keep_main_part10_ops2 (W22 m ρ c) main_v518 (by decide)).trans <|
    (W22_of_ne m ρ c main_v518 (by decide)).trans <|
    (keep_main_part10_ops1 (W20 m ρ c) main_v518 (by decide)).trans <|
    rfl)])

theorem val_v794 (c : Dev nD) :
    W34 m ρ c (Proc.devRef .tc main_v794)
      = (shapeCast _ (shapeCast _ (extractStridedSlice S1x1x128x128 ![2, 3, 0, 0] (m ((c : Thread nD τ).loc main_arg4)) slices_S3x8x128x128_S1x1x128x128_2_3_0_0) shapeCasts_S1x1x128x128_S128x128) shapeCasts_S128x128_S1x128x128) :=
  (pc_part15_ops1_v794 (W33 m ρ c)).trans (by
    rw [(show W33 m ρ c (Proc.devRef .tc main_arg4) = (m ((c : Thread nD τ).loc main_arg4)) from
    (W33_of_ne m ρ c main_arg4 (by decide)).trans <|
    (keep_main_part15_ops0 (W31 m ρ c) main_arg4 (by decide)).trans <|
    (keep_main_part14_ops0 (W30 m ρ c) main_arg4 (by decide)).trans <|
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v796 (c : Dev nD) :
    W34 m ρ c (Proc.devRef .tc main_v796)
      = (shapeCast _ (extractStridedSlice S1x1x128x128 ![2, 3, 0, 0] (m ((c : Thread nD τ).loc main_arg6)) slices_S3x8x128x128_S1x1x128x128_2_3_0_0) shapeCasts_S1x1x128x128_S128x128) :=
  (pc_part15_ops1_v796 (W33 m ρ c)).trans (by
    rw [(show W33 m ρ c (Proc.devRef .tc main_arg6) = (m ((c : Thread nD τ).loc main_arg6)) from
    (W33_of_ne m ρ c main_arg6 (by decide)).trans <|
    (keep_main_part15_ops0 (W31 m ρ c) main_arg6 (by decide)).trans <|
    (keep_main_part14_ops0 (W30 m ρ c) main_arg6 (by decide)).trans <|
    (keep_main_part13_ops0 (W29 m ρ c) main_arg6 (by decide)).trans <|
    (keep_main_part12_ops0 (W28 m ρ c) main_arg6 (by decide)).trans <|
    (keep_main_part11_ops0 (W27 m ρ c) main_arg6 (by decide)).trans <|
    (keep_main_part10_ops4 (W26 m ρ c) main_arg6 (by decide)).trans <|
    (W26_of_ne m ρ c main_arg6 (by decide)).trans <|
    (keep_main_part10_ops3 (W24 m ρ c) main_arg6 (by decide)).trans <|
    (W24_of_ne m ρ c main_arg6 (by decide)).trans <|
    (keep_main_part10_ops2 (W22 m ρ c) main_arg6 (by decide)).trans <|
    (W22_of_ne m ρ c main_arg6 (by decide)).trans <|
    (keep_main_part10_ops1 (W20 m ρ c) main_arg6 (by decide)).trans <|
    (W20_of_ne m ρ c main_arg6 (by decide)).trans <|
    (keep_main_part10_ops0 (W18 m ρ c) main_arg6 (by decide)).trans <|
    (keep_main_part9_ops0 (W17 m ρ c) main_arg6 (by decide)).trans <|
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v799 (c : Dev nD) :
    W34 m ρ c (Proc.devRef .tc main_v799)
      = (shapeCast _ (shapeCast _ (extractStridedSlice S1x1x128 ![2, 3, 0] (m ((c : Thread nD τ).loc main_arg5)) slices_S3x8x128_S1x1x128_2_3_0) shapeCasts_S1x1x128_S128) shapeCasts_S128_S1x128) :=
  (pc_part15_ops1_v799 (W33 m ρ c)).trans (by
    rw [(show W33 m ρ c (Proc.devRef .tc main_arg5) = (m ((c : Thread nD τ).loc main_arg5)) from
    (W33_of_ne m ρ c main_arg5 (by decide)).trans <|
    (keep_main_part15_ops0 (W31 m ρ c) main_arg5 (by decide)).trans <|
    (keep_main_part14_ops0 (W30 m ρ c) main_arg5 (by decide)).trans <|
    (keep_main_part13_ops0 (W29 m ρ c) main_arg5 (by decide)).trans <|
    (keep_main_part12_ops0 (W28 m ρ c) main_arg5 (by decide)).trans <|
    (keep_main_part11_ops0 (W27 m ρ c) main_arg5 (by decide)).trans <|
    (keep_main_part10_ops4 (W26 m ρ c) main_arg5 (by decide)).trans <|
    (W26_of_ne m ρ c main_arg5 (by decide)).trans <|
    (keep_main_part10_ops3 (W24 m ρ c) main_arg5 (by decide)).trans <|
    (W24_of_ne m ρ c main_arg5 (by decide)).trans <|
    (keep_main_part10_ops2 (W22 m ρ c) main_arg5 (by decide)).trans <|
    (W22_of_ne m ρ c main_arg5 (by decide)).trans <|
    (keep_main_part10_ops1 (W20 m ρ c) main_arg5 (by decide)).trans <|
    (W20_of_ne m ρ c main_arg5 (by decide)).trans <|
    (keep_main_part10_ops0 (W18 m ρ c) main_arg5 (by decide)).trans <|
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v705 (c : Dev nD) :
    W30 m ρ c (Proc.devRef .tc main_v705)
      = (extractStridedSlice S1x50000 ![1, 0] (m ((c : Thread nD τ).loc main_arg20)) slices_S2x50000_S1x50000_1_0) :=
  (pc_part13_ops0_v705 (W29 m ρ c)).trans (by
    rw [(show W29 m ρ c (Proc.devRef .tc main_arg20) = (m ((c : Thread nD τ).loc main_arg20)) from
    (keep_main_part12_ops0 (W28 m ρ c) main_arg20 (by decide)).trans <|
    (keep_main_part11_ops0 (W27 m ρ c) main_arg20 (by decide)).trans <|
    (keep_main_part10_ops4 (W26 m ρ c) main_arg20 (by decide)).trans <|
    (W26_of_ne m ρ c main_arg20 (by decide)).trans <|
    (keep_main_part10_ops3 (W24 m ρ c) main_arg20 (by decide)).trans <|
    (W24_of_ne m ρ c main_arg20 (by decide)).trans <|
    (keep_main_part10_ops2 (W22 m ρ c) main_arg20 (by decide)).trans <|
    (W22_of_ne m ρ c main_arg20 (by decide)).trans <|
    (keep_main_part10_ops1 (W20 m ρ c) main_arg20 (by decide)).trans <|
    (W20_of_ne m ρ c main_arg20 (by decide)).trans <|
    (keep_main_part10_ops0 (W18 m ρ c) main_arg20 (by decide)).trans <|
    (keep_main_part9_ops0 (W17 m ρ c) main_arg20 (by decide)).trans <|
    (keep_main_part8_ops0 (W16 m ρ c) main_arg20 (by decide)).trans <|
    (keep_main_part7_ops0 (W15 m ρ c) main_arg20 (by decide)).trans <|
    (keep_main_part6_ops0 (W14 m ρ c) main_arg20 (by decide)).trans <|
    (keep_main_part5_ops3 (W13 m ρ c) main_arg20 (by decide)).trans <|
    (W13_of_ne m ρ c main_arg20 (by decide)).trans <|
    (keep_main_part5_ops2 (W11 m ρ c) main_arg20 (by decide)).trans <|
    (W11_of_ne m ρ c main_arg20 (by decide)).trans <|
    (keep_main_part5_ops1 (W9 m ρ c) main_arg20 (by decide)).trans <|
    (W9_of_ne m ρ c main_arg20 (by decide)).trans <|
    (keep_main_part5_ops0 (W7 m ρ c) main_arg20 (by decide)).trans <|
    (keep_main_part4_ops1 (W6 m ρ c) main_arg20 (by decide)).trans <|
    (W6_of_ne m ρ c main_arg20 (by decide)).trans <|
    (keep_main_part4_ops0 (W4 m ρ c) main_arg20 (by decide)).trans <|
    (keep_main_part3_ops0 (W3 m ρ c) main_arg20 (by decide)).trans <|
    (keep_main_part2_ops0 (W2 m ρ c) main_arg20 (by decide)).trans <|
    (keep_main_part1_ops0 (W1 m ρ c) main_arg20 (by decide)).trans <|
    (keep_main_part0_ops0 (W0 m ρ c) main_arg20 (by decide)).trans <|
    rfl)])

theorem val_v704 (c : Dev nD) :
    W30 m ρ c (Proc.devRef .tc main_v704)
      = (Host.gather gather_S100000x128_S50000x1_S50000x128_1_0_n_n_0_1_1128 (Vout4 m ρ c (Pipeline.arrRef spec4 9)) (broadcastInDim S50000x1 ![0] bcast_S50000_S50000x1_0 (select (cmpi .slt (shapeCast _ (extractStridedSlice S1x50000 ![0, 0] (m ((c : Thread nD τ).loc main_arg20)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg20)) slices_S2x50000_S1x50000_0_0) shapeCasts_S1x50000_S50000) (broadcastInDim S50000 ![] bcast_S_S50000 (constantI S_ 32 100000#32))) (shapeCast _ (extractStridedSlice S1x50000 ![0, 0] (m ((c : Thread nD τ).loc main_arg20)) slices_S2x50000_S1x50000_0_0) shapeCasts_S1x50000_S50000)))) :=
  (pc_part13_ops0_v704 (W29 m ρ c)).trans (by
    rw [(show W29 m ρ c (Proc.devRef .tc main_v518) = (Vout4 m ρ c (Pipeline.arrRef spec4 9)) from
    (keep_main_part12_ops0 (W28 m ρ c) main_v518 (by decide)).trans <|
    (keep_main_part11_ops0 (W27 m ρ c) main_v518 (by decide)).trans <|
    (keep_main_part10_ops4 (W26 m ρ c) main_v518 (by decide)).trans <|
    (W26_of_ne m ρ c main_v518 (by decide)).trans <|
    (keep_main_part10_ops3 (W24 m ρ c) main_v518 (by decide)).trans <|
    (W24_of_ne m ρ c main_v518 (by decide)).trans <|
    (keep_main_part10_ops2 (W22 m ρ c) main_v518 (by decide)).trans <|
    (W22_of_ne m ρ c main_v518 (by decide)).trans <|
    (keep_main_part10_ops1 (W20 m ρ c) main_v518 (by decide)).trans <|
    rfl),
      (show W29 m ρ c (Proc.devRef .tc main_arg20) = (m ((c : Thread nD τ).loc main_arg20)) from
    (keep_main_part12_ops0 (W28 m ρ c) main_arg20 (by decide)).trans <|
    (keep_main_part11_ops0 (W27 m ρ c) main_arg20 (by decide)).trans <|
    (keep_main_part10_ops4 (W26 m ρ c) main_arg20 (by decide)).trans <|
    (W26_of_ne m ρ c main_arg20 (by decide)).trans <|
    (keep_main_part10_ops3 (W24 m ρ c) main_arg20 (by decide)).trans <|
    (W24_of_ne m ρ c main_arg20 (by decide)).trans <|
    (keep_main_part10_ops2 (W22 m ρ c) main_arg20 (by decide)).trans <|
    (W22_of_ne m ρ c main_arg20 (by decide)).trans <|
    (keep_main_part10_ops1 (W20 m ρ c) main_arg20 (by decide)).trans <|
    (W20_of_ne m ρ c main_arg20 (by decide)).trans <|
    (keep_main_part10_ops0 (W18 m ρ c) main_arg20 (by decide)).trans <|
    (keep_main_part9_ops0 (W17 m ρ c) main_arg20 (by decide)).trans <|
    (keep_main_part8_ops0 (W16 m ρ c) main_arg20 (by decide)).trans <|
    (keep_main_part7_ops0 (W15 m ρ c) main_arg20 (by decide)).trans <|
    (keep_main_part6_ops0 (W14 m ρ c) main_arg20 (by decide)).trans <|
    (keep_main_part5_ops3 (W13 m ρ c) main_arg20 (by decide)).trans <|
    (W13_of_ne m ρ c main_arg20 (by decide)).trans <|
    (keep_main_part5_ops2 (W11 m ρ c) main_arg20 (by decide)).trans <|
    (W11_of_ne m ρ c main_arg20 (by decide)).trans <|
    (keep_main_part5_ops1 (W9 m ρ c) main_arg20 (by decide)).trans <|
    (W9_of_ne m ρ c main_arg20 (by decide)).trans <|
    (keep_main_part5_ops0 (W7 m ρ c) main_arg20 (by decide)).trans <|
    (keep_main_part4_ops1 (W6 m ρ c) main_arg20 (by decide)).trans <|
    (W6_of_ne m ρ c main_arg20 (by decide)).trans <|
    (keep_main_part4_ops0 (W4 m ρ c) main_arg20 (by decide)).trans <|
    (keep_main_part3_ops0 (W3 m ρ c) main_arg20 (by decide)).trans <|
    (keep_main_part2_ops0 (W2 m ρ c) main_arg20 (by decide)).trans <|
    (keep_main_part1_ops0 (W1 m ρ c) main_arg20 (by decide)).trans <|
    (keep_main_part0_ops0 (W0 m ρ c) main_arg20 (by decide)).trans <|
    rfl)])

theorem val_v720 (c : Dev nD) :
    W31 m ρ c (Proc.devRef .tc main_v720)
      = (Host.divf (Host.scatterAdd scatter_S50000x128_S50000x1_S50000x128_1_0_0_1 (broadcastInDim S50000x128 ![] bcast_S_S50000x128 (constant (F := F) S_ .f32 0x00000000#32)) (broadcastInDim S50000x1 ![0] bcast_S50000_S50000x1_0 (shapeCast _ (extractStridedSlice S1x50000 ![1, 0] (m ((c : Thread nD τ).loc main_arg20)) slices_S2x50000_S1x50000_1_0) shapeCasts_S1x50000_S50000)) (Host.gather gather_S100000x128_S50000x1_S50000x128_1_0_n_n_0_1_1128 (Vout4 m ρ c (Pipeline.arrRef spec4 9)) (broadcastInDim S50000x1 ![0] bcast_S50000_S50000x1_0 (select (cmpi .slt (shapeCast _ (extractStridedSlice S1x50000 ![0, 0] (m ((c : Thread nD τ).loc main_arg20)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg20)) slices_S2x50000_S1x50000_0_0) shapeCasts_S1x50000_S50000) (broadcastInDim S50000 ![] bcast_S_S50000 (constantI S_ 32 100000#32))) (shapeCast _ (extractStridedSlice S1x50000 ![0, 0] (m ((c : Thread nD τ).loc main_arg20)) slices_S2x50000_S1x50000_0_0) shapeCasts_S1x50000_S50000))))) (broadcastInDim S50000x128 ![0, 1] bcast_S50000x1_S50000x128_0_1 (broadcastInDim S50000x1 ![0] bcast_S50000_S50000x1_0 (maximumf (Host.scatterAdd scatter_S50000_S50000x1_S50000_n_0_0_1 (broadcastInDim S50000 ![] bcast_S_S50000 (constant (F := F) S_ .f32 0x00000000#32)) (broadcastInDim S50000x1 ![0] bcast_S50000_S50000x1_0 (shapeCast _ (extractStridedSlice S1x50000 ![1, 0] (m ((c : Thread nD τ).loc main_arg20)) slices_S2x50000_S1x50000_1_0) shapeCasts_S1x50000_S50000)) (broadcastInDim S50000 ![] bcast_S_S50000 (constant (F := F) S_ .f32 0x3F800000#32))) (broadcastInDim S50000 ![] bcast_S_S50000 (constant (F := F) S_ .f32 0x3F800000#32)))))) :=
  (pc_part14_ops0_v720 (W30 m ρ c)).trans (by
    rw [(show W30 m ρ c (Proc.devRef .tc main_v705) = (extractStridedSlice S1x50000 ![1, 0] (m ((c : Thread nD τ).loc main_arg20)) slices_S2x50000_S1x50000_1_0) from
    val_v705 m ρ c),
      (show W30 m ρ c (Proc.devRef .tc main_v704) = (Host.gather gather_S100000x128_S50000x1_S50000x128_1_0_n_n_0_1_1128 (Vout4 m ρ c (Pipeline.arrRef spec4 9)) (broadcastInDim S50000x1 ![0] bcast_S50000_S50000x1_0 (select (cmpi .slt (shapeCast _ (extractStridedSlice S1x50000 ![0, 0] (m ((c : Thread nD τ).loc main_arg20)) slices_S2x50000_S1x50000_0_0) shapeCasts_S1x50000_S50000) (broadcastInDim S50000 ![] bcast_S_S50000 (constantI S_ 32 0#32))) (addi (shapeCast _ (extractStridedSlice S1x50000 ![0, 0] (m ((c : Thread nD τ).loc main_arg20)) slices_S2x50000_S1x50000_0_0) shapeCasts_S1x50000_S50000) (broadcastInDim S50000 ![] bcast_S_S50000 (constantI S_ 32 100000#32))) (shapeCast _ (extractStridedSlice S1x50000 ![0, 0] (m ((c : Thread nD τ).loc main_arg20)) slices_S2x50000_S1x50000_0_0) shapeCasts_S1x50000_S50000)))) from
    val_v704 m ρ c),
      (show W30 m ρ c (Proc.devRef .tc main_arg20) = (m ((c : Thread nD τ).loc main_arg20)) from
    (keep_main_part13_ops0 (W29 m ρ c) main_arg20 (by decide)).trans <|
    (keep_main_part12_ops0 (W28 m ρ c) main_arg20 (by decide)).trans <|
    (keep_main_part11_ops0 (W27 m ρ c) main_arg20 (by decide)).trans <|
    (keep_main_part10_ops4 (W26 m ρ c) main_arg20 (by decide)).trans <|
    (W26_of_ne m ρ c main_arg20 (by decide)).trans <|
    (keep_main_part10_ops3 (W24 m ρ c) main_arg20 (by decide)).trans <|
    (W24_of_ne m ρ c main_arg20 (by decide)).trans <|
    (keep_main_part10_ops2 (W22 m ρ c) main_arg20 (by decide)).trans <|
    (W22_of_ne m ρ c main_arg20 (by decide)).trans <|
    (keep_main_part10_ops1 (W20 m ρ c) main_arg20 (by decide)).trans <|
    (W20_of_ne m ρ c main_arg20 (by decide)).trans <|
    (keep_main_part10_ops0 (W18 m ρ c) main_arg20 (by decide)).trans <|
    (keep_main_part9_ops0 (W17 m ρ c) main_arg20 (by decide)).trans <|
    (keep_main_part8_ops0 (W16 m ρ c) main_arg20 (by decide)).trans <|
    (keep_main_part7_ops0 (W15 m ρ c) main_arg20 (by decide)).trans <|
    (keep_main_part6_ops0 (W14 m ρ c) main_arg20 (by decide)).trans <|
    (keep_main_part5_ops3 (W13 m ρ c) main_arg20 (by decide)).trans <|
    (W13_of_ne m ρ c main_arg20 (by decide)).trans <|
    (keep_main_part5_ops2 (W11 m ρ c) main_arg20 (by decide)).trans <|
    (W11_of_ne m ρ c main_arg20 (by decide)).trans <|
    (keep_main_part5_ops1 (W9 m ρ c) main_arg20 (by decide)).trans <|
    (W9_of_ne m ρ c main_arg20 (by decide)).trans <|
    (keep_main_part5_ops0 (W7 m ρ c) main_arg20 (by decide)).trans <|
    (keep_main_part4_ops1 (W6 m ρ c) main_arg20 (by decide)).trans <|
    (W6_of_ne m ρ c main_arg20 (by decide)).trans <|
    (keep_main_part4_ops0 (W4 m ρ c) main_arg20 (by decide)).trans <|
    (keep_main_part3_ops0 (W3 m ρ c) main_arg20 (by decide)).trans <|
    (keep_main_part2_ops0 (W2 m ρ c) main_arg20 (by decide)).trans <|
    (keep_main_part1_ops0 (W1 m ρ c) main_arg20 (by decide)).trans <|
    (keep_main_part0_ops0 (W0 m ρ c) main_arg20 (by decide)).trans <|
    rfl)])

theorem val_v803 (c : Dev nD) :
    W36 m ρ c (Proc.devRef .tc main_v803)
      = (shapeCast _ (shapeCast _ (extractStridedSlice S1x1x128x128 ![2, 5, 0, 0] (m ((c : Thread nD τ).loc main_arg4)) slices_S3x8x128x128_S1x1x128x128_2_5_0_0) shapeCasts_S1x1x128x128_S128x128) shapeCasts_S128x128_S1x128x128) :=
  (pc_part15_ops2_v803 (W35 m ρ c)).trans (by
    rw [(show W35 m ρ c (Proc.devRef .tc main_arg4) = (m ((c : Thread nD τ).loc main_arg4)) from
    (W35_of_ne m ρ c main_arg4 (by decide)).trans <|
    (keep_main_part15_ops1 (W33 m ρ c) main_arg4 (by decide)).trans <|
    (W33_of_ne m ρ c main_arg4 (by decide)).trans <|
    (keep_main_part15_ops0 (W31 m ρ c) main_arg4 (by decide)).trans <|
    (keep_main_part14_ops0 (W30 m ρ c) main_arg4 (by decide)).trans <|
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v805 (c : Dev nD) :
    W36 m ρ c (Proc.devRef .tc main_v805)
      = (shapeCast _ (extractStridedSlice S1x1x128x128 ![2, 5, 0, 0] (m ((c : Thread nD τ).loc main_arg6)) slices_S3x8x128x128_S1x1x128x128_2_5_0_0) shapeCasts_S1x1x128x128_S128x128) :=
  (pc_part15_ops2_v805 (W35 m ρ c)).trans (by
    rw [(show W35 m ρ c (Proc.devRef .tc main_arg6) = (m ((c : Thread nD τ).loc main_arg6)) from
    (W35_of_ne m ρ c main_arg6 (by decide)).trans <|
    (keep_main_part15_ops1 (W33 m ρ c) main_arg6 (by decide)).trans <|
    (W33_of_ne m ρ c main_arg6 (by decide)).trans <|
    (keep_main_part15_ops0 (W31 m ρ c) main_arg6 (by decide)).trans <|
    (keep_main_part14_ops0 (W30 m ρ c) main_arg6 (by decide)).trans <|
    (keep_main_part13_ops0 (W29 m ρ c) main_arg6 (by decide)).trans <|
    (keep_main_part12_ops0 (W28 m ρ c) main_arg6 (by decide)).trans <|
    (keep_main_part11_ops0 (W27 m ρ c) main_arg6 (by decide)).trans <|
    (keep_main_part10_ops4 (W26 m ρ c) main_arg6 (by decide)).trans <|
    (W26_of_ne m ρ c main_arg6 (by decide)).trans <|
    (keep_main_part10_ops3 (W24 m ρ c) main_arg6 (by decide)).trans <|
    (W24_of_ne m ρ c main_arg6 (by decide)).trans <|
    (keep_main_part10_ops2 (W22 m ρ c) main_arg6 (by decide)).trans <|
    (W22_of_ne m ρ c main_arg6 (by decide)).trans <|
    (keep_main_part10_ops1 (W20 m ρ c) main_arg6 (by decide)).trans <|
    (W20_of_ne m ρ c main_arg6 (by decide)).trans <|
    (keep_main_part10_ops0 (W18 m ρ c) main_arg6 (by decide)).trans <|
    (keep_main_part9_ops0 (W17 m ρ c) main_arg6 (by decide)).trans <|
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v808 (c : Dev nD) :
    W36 m ρ c (Proc.devRef .tc main_v808)
      = (shapeCast _ (shapeCast _ (extractStridedSlice S1x1x128 ![2, 5, 0] (m ((c : Thread nD τ).loc main_arg5)) slices_S3x8x128_S1x1x128_2_5_0) shapeCasts_S1x1x128_S128) shapeCasts_S128_S1x128) :=
  (pc_part15_ops2_v808 (W35 m ρ c)).trans (by
    rw [(show W35 m ρ c (Proc.devRef .tc main_arg5) = (m ((c : Thread nD τ).loc main_arg5)) from
    (W35_of_ne m ρ c main_arg5 (by decide)).trans <|
    (keep_main_part15_ops1 (W33 m ρ c) main_arg5 (by decide)).trans <|
    (W33_of_ne m ρ c main_arg5 (by decide)).trans <|
    (keep_main_part15_ops0 (W31 m ρ c) main_arg5 (by decide)).trans <|
    (keep_main_part14_ops0 (W30 m ρ c) main_arg5 (by decide)).trans <|
    (keep_main_part13_ops0 (W29 m ρ c) main_arg5 (by decide)).trans <|
    (keep_main_part12_ops0 (W28 m ρ c) main_arg5 (by decide)).trans <|
    (keep_main_part11_ops0 (W27 m ρ c) main_arg5 (by decide)).trans <|
    (keep_main_part10_ops4 (W26 m ρ c) main_arg5 (by decide)).trans <|
    (W26_of_ne m ρ c main_arg5 (by decide)).trans <|
    (keep_main_part10_ops3 (W24 m ρ c) main_arg5 (by decide)).trans <|
    (W24_of_ne m ρ c main_arg5 (by decide)).trans <|
    (keep_main_part10_ops2 (W22 m ρ c) main_arg5 (by decide)).trans <|
    (W22_of_ne m ρ c main_arg5 (by decide)).trans <|
    (keep_main_part10_ops1 (W20 m ρ c) main_arg5 (by decide)).trans <|
    (W20_of_ne m ρ c main_arg5 (by decide)).trans <|
    (keep_main_part10_ops0 (W18 m ρ c) main_arg5 (by decide)).trans <|
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v745 (c : Dev nD) :
    W31 m ρ c (Proc.devRef .tc main_v745)
      = (Host.divf (Host.scatterAdd scatter_S5000x128_S5000x1_S5000x128_1_0_0_1 (broadcastInDim S5000x128 ![] bcast_S_S5000x128 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (Host.gather gather_S100000x128_S5000x1_S5000x128_1_0_n_n_0_1_1128 (Vout4 m ρ c (Pipeline.arrRef spec4 9)) (broadcastInDim S5000x1 ![0] bcast_S5000_S5000x1_0 (select (cmpi .slt (shapeCast _ (extractStridedSlice S1x5000 ![0, 0] (m ((c : Thread nD τ).loc main_arg22)) slices_S2x5000_S1x5000_0_0) shapeCasts_S1x5000_S5000) (broadcastInDim S5000 ![] bcast_S_S5000 (constantI S_ 32 0#32))) (addi (shapeCast _ (extractStridedSlice S1x5000 ![0, 0] (m ((c : Thread nD τ).loc main_arg22)) slices_S2x5000_S1x5000_0_0) shapeCasts_S1x5000_S5000) (broadcastInDim S5000 ![] bcast_S_S5000 (constantI S_ 32 100000#32))) (shapeCast _ (extractStridedSlice S1x5000 ![0, 0] (m ((c : Thread nD τ).loc main_arg22)) slices_S2x5000_S1x5000_0_0) shapeCasts_S1x5000_S5000))))) (broadcastInDim S5000x128 ![0, 1] bcast_S5000x1_S5000x128_0_1 (broadcastInDim S5000x1 ![0] bcast_S5000_S5000x1_0 (maximumf (Host.scatterAdd scatter_S5000_S5000x1_S5000_n_0_0_1 (broadcastInDim S5000 ![] bcast_S_S5000 (constant (F := F) S_ .f32 0x00000000#32)) (broadcastInDim S5000x1 ![0] bcast_S5000_S5000x1_0 (shapeCast _ (extractStridedSlice S1x5000 ![1, 0] (m ((c : Thread nD τ).loc main_arg22)) slices_S2x5000_S1x5000_1_0) shapeCasts_S1x5000_S5000)) (broadcastInDim S5000 ![] bcast_S_S5000 (constant (F := F) S_ .f32 0x3F800000#32))) (broadcastInDim S5000 ![] bcast_S_S5000 (constant (F := F) S_ .f32 0x3F800000#32)))))) :=
  (pc_part14_ops0_v745 (W30 m ρ c)).trans (by
    rw [(show W30 m ρ c (Proc.devRef .tc main_arg22) = (m ((c : Thread nD τ).loc main_arg22)) from
    (keep_main_part13_ops0 (W29 m ρ c) main_arg22 (by decide)).trans <|
    (keep_main_part12_ops0 (W28 m ρ c) main_arg22 (by decide)).trans <|
    (keep_main_part11_ops0 (W27 m ρ c) main_arg22 (by decide)).trans <|
    (keep_main_part10_ops4 (W26 m ρ c) main_arg22 (by decide)).trans <|
    (W26_of_ne m ρ c main_arg22 (by decide)).trans <|
    (keep_main_part10_ops3 (W24 m ρ c) main_arg22 (by decide)).trans <|
    (W24_of_ne m ρ c main_arg22 (by decide)).trans <|
    (keep_main_part10_ops2 (W22 m ρ c) main_arg22 (by decide)).trans <|
    (W22_of_ne m ρ c main_arg22 (by decide)).trans <|
    (keep_main_part10_ops1 (W20 m ρ c) main_arg22 (by decide)).trans <|
    (W20_of_ne m ρ c main_arg22 (by decide)).trans <|
    (keep_main_part10_ops0 (W18 m ρ c) main_arg22 (by decide)).trans <|
    (keep_main_part9_ops0 (W17 m ρ c) main_arg22 (by decide)).trans <|
    (keep_main_part8_ops0 (W16 m ρ c) main_arg22 (by decide)).trans <|
    (keep_main_part7_ops0 (W15 m ρ c) main_arg22 (by decide)).trans <|
    (keep_main_part6_ops0 (W14 m ρ c) main_arg22 (by decide)).trans <|
    (keep_main_part5_ops3 (W13 m ρ c) main_arg22 (by decide)).trans <|
    (W13_of_ne m ρ c main_arg22 (by decide)).trans <|
    (keep_main_part5_ops2 (W11 m ρ c) main_arg22 (by decide)).trans <|
    (W11_of_ne m ρ c main_arg22 (by decide)).trans <|
    (keep_main_part5_ops1 (W9 m ρ c) main_arg22 (by decide)).trans <|
    (W9_of_ne m ρ c main_arg22 (by decide)).trans <|
    (keep_main_part5_ops0 (W7 m ρ c) main_arg22 (by decide)).trans <|
    (keep_main_part4_ops1 (W6 m ρ c) main_arg22 (by decide)).trans <|
    (W6_of_ne m ρ c main_arg22 (by decide)).trans <|
    (keep_main_part4_ops0 (W4 m ρ c) main_arg22 (by decide)).trans <|
    (keep_main_part3_ops0 (W3 m ρ c) main_arg22 (by decide)).trans <|
    (keep_main_part2_ops0 (W2 m ρ c) main_arg22 (by decide)).trans <|
    (keep_main_part1_ops0 (W1 m ρ c) main_arg22 (by decide)).trans <|
    (keep_main_part0_ops0 (W0 m ρ c) main_arg22 (by decide)).trans <|
    rfl),
      (show W30 m ρ c (Proc.devRef .tc main_v518) = (Vout4 m ρ c (Pipeline.arrRef spec4 9)) from
    (keep_main_part13_ops0 (W29 m ρ c) main_v518 (by decide)).trans <|
    (keep_main_part12_ops0 (W28 m ρ c) main_v518 (by decide)).trans <|
    (keep_main_part11_ops0 (W27 m ρ c) main_v518 (by decide)).trans <|
    (keep_main_part10_ops4 (W26 m ρ c) main_v518 (by decide)).trans <|
    (W26_of_ne m ρ c main_v518 (by decide)).trans <|
    (keep_main_part10_ops3 (W24 m ρ c) main_v518 (by decide)).trans <|
    (W24_of_ne m ρ c main_v518 (by decide)).trans <|
    (keep_main_part10_ops2 (W22 m ρ c) main_v518 (by decide)).trans <|
    (W22_of_ne m ρ c main_v518 (by decide)).trans <|
    (keep_main_part10_ops1 (W20 m ρ c) main_v518 (by decide)).trans <|
    rfl)])

theorem val_v812 (c : Dev nD) :
    W38 m ρ c (Proc.devRef .tc main_v812)
      = (shapeCast _ (shapeCast _ (extractStridedSlice S1x1x128x128 ![2, 7, 0, 0] (m ((c : Thread nD τ).loc main_arg4)) slices_S3x8x128x128_S1x1x128x128_2_7_0_0) shapeCasts_S1x1x128x128_S128x128) shapeCasts_S128x128_S1x128x128) :=
  (pc_part15_ops3_v812 (W37 m ρ c)).trans (by
    rw [(show W37 m ρ c (Proc.devRef .tc main_arg4) = (m ((c : Thread nD τ).loc main_arg4)) from
    (W37_of_ne m ρ c main_arg4 (by decide)).trans <|
    (keep_main_part15_ops2 (W35 m ρ c) main_arg4 (by decide)).trans <|
    (W35_of_ne m ρ c main_arg4 (by decide)).trans <|
    (keep_main_part15_ops1 (W33 m ρ c) main_arg4 (by decide)).trans <|
    (W33_of_ne m ρ c main_arg4 (by decide)).trans <|
    (keep_main_part15_ops0 (W31 m ρ c) main_arg4 (by decide)).trans <|
    (keep_main_part14_ops0 (W30 m ρ c) main_arg4 (by decide)).trans <|
    (keep_main_part13_ops0 (W29 m ρ c) main_arg4 (by decide)).trans <|
    (keep_main_part12_ops0 (W28 m ρ c) main_arg4 (by decide)).trans <|
    (keep_main_part11_ops0 (W27 m ρ c) main_arg4 (by decide)).trans <|
    (keep_main_part10_ops4 (W26 m ρ c) main_arg4 (by decide)).trans <|
    (W26_of_ne m ρ c main_arg4 (by decide)).trans <|
    (keep_main_part10_ops3 (W24 m ρ c) main_arg4 (by decide)).trans <|
    (W24_of_ne m ρ c main_arg4 (by decide)).trans <|
    (keep_main_part10_ops2 (W22 m ρ c) main_arg4 (by decide)).trans <|
    (W22_of_ne m ρ c main_arg4 (by decide)).trans <|
    (keep_main_part10_ops1 (W20 m ρ c) main_arg4 (by decide)).trans <|
    (W20_of_ne m ρ c main_arg4 (by decide)).trans <|
    (keep_main_part10_ops0 (W18 m ρ c) main_arg4 (by decide)).trans <|
    (keep_main_part9_ops0 (W17 m ρ c) main_arg4 (by decide)).trans <|
    (keep_main_part8_ops0 (W16 m ρ c) main_arg4 (by decide)).trans <|
    (keep_main_part7_ops0 (W15 m ρ c) main_arg4 (by decide)).trans <|
    (keep_main_part6_ops0 (W14 m ρ c) main_arg4 (by decide)).trans <|
    (keep_main_part5_ops3 (W13 m ρ c) main_arg4 (by decide)).trans <|
    (W13_of_ne m ρ c main_arg4 (by decide)).trans <|
    (keep_main_part5_ops2 (W11 m ρ c) main_arg4 (by decide)).trans <|
    (W11_of_ne m ρ c main_arg4 (by decide)).trans <|
    (keep_main_part5_ops1 (W9 m ρ c) main_arg4 (by decide)).trans <|
    (W9_of_ne m ρ c main_arg4 (by decide)).trans <|
    (keep_main_part5_ops0 (W7 m ρ c) main_arg4 (by decide)).trans <|
    (keep_main_part4_ops1 (W6 m ρ c) main_arg4 (by decide)).trans <|
    (W6_of_ne m ρ c main_arg4 (by decide)).trans <|
    (keep_main_part4_ops0 (W4 m ρ c) main_arg4 (by decide)).trans <|
    (keep_main_part3_ops0 (W3 m ρ c) main_arg4 (by decide)).trans <|
    (keep_main_part2_ops0 (W2 m ρ c) main_arg4 (by decide)).trans <|
    (keep_main_part1_ops0 (W1 m ρ c) main_arg4 (by decide)).trans <|
    (keep_main_part0_ops0 (W0 m ρ c) main_arg4 (by decide)).trans <|
    rfl)])

theorem val_v814 (c : Dev nD) :
    W38 m ρ c (Proc.devRef .tc main_v814)
      = (shapeCast _ (extractStridedSlice S1x1x128x128 ![2, 7, 0, 0] (m ((c : Thread nD τ).loc main_arg6)) slices_S3x8x128x128_S1x1x128x128_2_7_0_0) shapeCasts_S1x1x128x128_S128x128) :=
  (pc_part15_ops3_v814 (W37 m ρ c)).trans (by
    rw [(show W37 m ρ c (Proc.devRef .tc main_arg6) = (m ((c : Thread nD τ).loc main_arg6)) from
    (W37_of_ne m ρ c main_arg6 (by decide)).trans <|
    (keep_main_part15_ops2 (W35 m ρ c) main_arg6 (by decide)).trans <|
    (W35_of_ne m ρ c main_arg6 (by decide)).trans <|
    (keep_main_part15_ops1 (W33 m ρ c) main_arg6 (by decide)).trans <|
    (W33_of_ne m ρ c main_arg6 (by decide)).trans <|
    (keep_main_part15_ops0 (W31 m ρ c) main_arg6 (by decide)).trans <|
    (keep_main_part14_ops0 (W30 m ρ c) main_arg6 (by decide)).trans <|
    (keep_main_part13_ops0 (W29 m ρ c) main_arg6 (by decide)).trans <|
    (keep_main_part12_ops0 (W28 m ρ c) main_arg6 (by decide)).trans <|
    (keep_main_part11_ops0 (W27 m ρ c) main_arg6 (by decide)).trans <|
    (keep_main_part10_ops4 (W26 m ρ c) main_arg6 (by decide)).trans <|
    (W26_of_ne m ρ c main_arg6 (by decide)).trans <|
    (keep_main_part10_ops3 (W24 m ρ c) main_arg6 (by decide)).trans <|
    (W24_of_ne m ρ c main_arg6 (by decide)).trans <|
    (keep_main_part10_ops2 (W22 m ρ c) main_arg6 (by decide)).trans <|
    (W22_of_ne m ρ c main_arg6 (by decide)).trans <|
    (keep_main_part10_ops1 (W20 m ρ c) main_arg6 (by decide)).trans <|
    (W20_of_ne m ρ c main_arg6 (by decide)).trans <|
    (keep_main_part10_ops0 (W18 m ρ c) main_arg6 (by decide)).trans <|
    (keep_main_part9_ops0 (W17 m ρ c) main_arg6 (by decide)).trans <|
    (keep_main_part8_ops0 (W16 m ρ c) main_arg6 (by decide)).trans <|
    (keep_main_part7_ops0 (W15 m ρ c) main_arg6 (by decide)).trans <|
    (keep_main_part6_ops0 (W14 m ρ c) main_arg6 (by decide)).trans <|
    (keep_main_part5_ops3 (W13 m ρ c) main_arg6 (by decide)).trans <|
    (W13_of_ne m ρ c main_arg6 (by decide)).trans <|
    (keep_main_part5_ops2 (W11 m ρ c) main_arg6 (by decide)).trans <|
    (W11_of_ne m ρ c main_arg6 (by decide)).trans <|
    (keep_main_part5_ops1 (W9 m ρ c) main_arg6 (by decide)).trans <|
    (W9_of_ne m ρ c main_arg6 (by decide)).trans <|
    (keep_main_part5_ops0 (W7 m ρ c) main_arg6 (by decide)).trans <|
    (keep_main_part4_ops1 (W6 m ρ c) main_arg6 (by decide)).trans <|
    (W6_of_ne m ρ c main_arg6 (by decide)).trans <|
    (keep_main_part4_ops0 (W4 m ρ c) main_arg6 (by decide)).trans <|
    (keep_main_part3_ops0 (W3 m ρ c) main_arg6 (by decide)).trans <|
    (keep_main_part2_ops0 (W2 m ρ c) main_arg6 (by decide)).trans <|
    (keep_main_part1_ops0 (W1 m ρ c) main_arg6 (by decide)).trans <|
    (keep_main_part0_ops0 (W0 m ρ c) main_arg6 (by decide)).trans <|
    rfl)])

theorem val_v815 (c : Dev nD) :
    W38 m ρ c (Proc.devRef .tc main_v815)
      = (extractStridedSlice S1x1x128 ![2, 7, 0] (m ((c : Thread nD τ).loc main_arg5)) slices_S3x8x128_S1x1x128_2_7_0) :=
  (pc_part15_ops3_v815 (W37 m ρ c)).trans (by
    rw [(show W37 m ρ c (Proc.devRef .tc main_arg5) = (m ((c : Thread nD τ).loc main_arg5)) from
    (W37_of_ne m ρ c main_arg5 (by decide)).trans <|
    (keep_main_part15_ops2 (W35 m ρ c) main_arg5 (by decide)).trans <|
    (W35_of_ne m ρ c main_arg5 (by decide)).trans <|
    (keep_main_part15_ops1 (W33 m ρ c) main_arg5 (by decide)).trans <|
    (W33_of_ne m ρ c main_arg5 (by decide)).trans <|
    (keep_main_part15_ops0 (W31 m ρ c) main_arg5 (by decide)).trans <|
    (keep_main_part14_ops0 (W30 m ρ c) main_arg5 (by decide)).trans <|
    (keep_main_part13_ops0 (W29 m ρ c) main_arg5 (by decide)).trans <|
    (keep_main_part12_ops0 (W28 m ρ c) main_arg5 (by decide)).trans <|
    (keep_main_part11_ops0 (W27 m ρ c) main_arg5 (by decide)).trans <|
    (keep_main_part10_ops4 (W26 m ρ c) main_arg5 (by decide)).trans <|
    (W26_of_ne m ρ c main_arg5 (by decide)).trans <|
    (keep_main_part10_ops3 (W24 m ρ c) main_arg5 (by decide)).trans <|
    (W24_of_ne m ρ c main_arg5 (by decide)).trans <|
    (keep_main_part10_ops2 (W22 m ρ c) main_arg5 (by decide)).trans <|
    (W22_of_ne m ρ c main_arg5 (by decide)).trans <|
    (keep_main_part10_ops1 (W20 m ρ c) main_arg5 (by decide)).trans <|
    (W20_of_ne m ρ c main_arg5 (by decide)).trans <|
    (keep_main_part10_ops0 (W18 m ρ c) main_arg5 (by decide)).trans <|
    (keep_main_part9_ops0 (W17 m ρ c) main_arg5 (by decide)).trans <|
    (keep_main_part8_ops0 (W16 m ρ c) main_arg5 (by decide)).trans <|
    (keep_main_part7_ops0 (W15 m ρ c) main_arg5 (by decide)).trans <|
    (keep_main_part6_ops0 (W14 m ρ c) main_arg5 (by decide)).trans <|
    (keep_main_part5_ops3 (W13 m ρ c) main_arg5 (by decide)).trans <|
    (W13_of_ne m ρ c main_arg5 (by decide)).trans <|
    (keep_main_part5_ops2 (W11 m ρ c) main_arg5 (by decide)).trans <|
    (W11_of_ne m ρ c main_arg5 (by decide)).trans <|
    (keep_main_part5_ops1 (W9 m ρ c) main_arg5 (by decide)).trans <|
    (W9_of_ne m ρ c main_arg5 (by decide)).trans <|
    (keep_main_part5_ops0 (W7 m ρ c) main_arg5 (by decide)).trans <|
    (keep_main_part4_ops1 (W6 m ρ c) main_arg5 (by decide)).trans <|
    (W6_of_ne m ρ c main_arg5 (by decide)).trans <|
    (keep_main_part4_ops0 (W4 m ρ c) main_arg5 (by decide)).trans <|
    (keep_main_part3_ops0 (W3 m ρ c) main_arg5 (by decide)).trans <|
    (keep_main_part2_ops0 (W2 m ρ c) main_arg5 (by decide)).trans <|
    (keep_main_part1_ops0 (W1 m ρ c) main_arg5 (by decide)).trans <|
    (keep_main_part0_ops0 (W0 m ρ c) main_arg5 (by decide)).trans <|
    rfl)])

theorem val_v817 (c : Dev nD) :
    W39 m ρ c (Proc.devRef .tc main_v817)
      = (shapeCast _ (shapeCast _ (extractStridedSlice S1x1x128 ![2, 7, 0] (m ((c : Thread nD τ).loc main_arg5)) slices_S3x8x128_S1x1x128_2_7_0) shapeCasts_S1x1x128_S128) shapeCasts_S128_S1x128) :=
  (pc_part16_ops0_v817 (W38 m ρ c)).trans (by
    rw [(show W38 m ρ c (Proc.devRef .tc main_v815) = (extractStridedSlice S1x1x128 ![2, 7, 0] (m ((c : Thread nD τ).loc main_arg5)) slices_S3x8x128_S1x1x128_2_7_0) from
    val_v815 m ρ c)])

/-! ## The feature windows -/

/-- Region 8, window 0: the mean aggregation over the ac edges of the layer's source features. -/
theorem in8_0 (c : Dev nD) :
    Vin8 m ρ c (Pipeline.arrRef spec8 0)
      = aggK_ac (Vout4 m ρ c (Pipeline.arrRef spec4 9)) (m ((c : Thread nD τ).loc main_arg15)) :=
  (keep_main_part15_ops0 (W31 m ρ c) main_v570 (by decide)).trans <|
    (keep_main_part14_ops0 (W30 m ρ c) main_v570 (by decide)).trans <|
    (keep_main_part13_ops0 (W29 m ρ c) main_v570 (by decide)).trans <|
    (keep_main_part12_ops0 (W28 m ρ c) main_v570 (by decide)).trans <|
    (val_v570 m ρ c).trans rfl

/-- Region 8, window 1: the mean aggregation over the tr edges of the layer's source features. -/
theorem in8_1 (c : Dev nD) :
    Vin8 m ρ c (Pipeline.arrRef spec8 1)
      = aggK_tr (Vout4 m ρ c (Pipeline.arrRef spec4 9)) (m ((c : Thread nD τ).loc main_arg16)) :=
  (keep_main_part15_ops0 (W31 m ρ c) main_v595 (by decide)).trans <|
    (keep_main_part14_ops0 (W30 m ρ c) main_v595 (by decide)).trans <|
    (keep_main_part13_ops0 (W29 m ρ c) main_v595 (by decide)).trans <|
    (keep_main_part12_ops0 (W28 m ρ c) main_v595 (by decide)).trans <|
    (val_v595 m ρ c).trans rfl

/-- Region 8, window 2: the mean aggregation over the gb edges of the layer's source features. -/
theorem in8_2 (c : Dev nD) :
    Vin8 m ρ c (Pipeline.arrRef spec8 2)
      = aggK_gb (Vout5 m ρ c (Pipeline.arrRef spec5 5)) (m ((c : Thread nD τ).loc main_arg17)) :=
  (keep_main_part15_ops0 (W31 m ρ c) main_v620 (by decide)).trans <|
    (keep_main_part14_ops0 (W30 m ρ c) main_v620 (by decide)).trans <|
    (keep_main_part13_ops0 (W29 m ρ c) main_v620 (by decide)).trans <|
    (val_v620 m ρ c).trans rfl

/-- Region 8, window 3: the mean aggregation over the lb edges of the layer's source features. -/
theorem in8_3 (c : Dev nD) :
    Vin8 m ρ c (Pipeline.arrRef spec8 3)
      = aggK_lb (Vout6 m ρ c (Pipeline.arrRef spec6 5)) (m ((c : Thread nD τ).loc main_arg19)) :=
  (keep_main_part15_ops0 (W31 m ρ c) main_v645 (by decide)).trans <|
    (keep_main_part14_ops0 (W30 m ρ c) main_v645 (by decide)).trans <|
    (keep_main_part13_ops0 (W29 m ρ c) main_v645 (by decide)).trans <|
    (val_v645 m ρ c).trans rfl

/-- Region 8, window 4: the mean aggregation over the sb edges of the layer's source features. -/
theorem in8_4 (c : Dev nD) :
    Vin8 m ρ c (Pipeline.arrRef spec8 4)
      = aggK_sb (Vout7 m ρ c (Pipeline.arrRef spec7 5)) (m ((c : Thread nD τ).loc main_arg21)) :=
  (keep_main_part15_ops0 (W31 m ρ c) main_v670 (by decide)).trans <|
    (keep_main_part14_ops0 (W30 m ρ c) main_v670 (by decide)).trans <|
    (val_v670 m ρ c).trans rfl

/-- Region 8, window 5: as the array stands at the region's entry. -/
theorem in8_5 (c : Dev nD) :
    Vin8 m ρ c (Pipeline.arrRef spec8 5)
      = (Vout4 m ρ c (Pipeline.arrRef spec4 9)) :=
  (keep_main_part15_ops0 (W31 m ρ c) main_v518 (by decide)).trans <|
    (keep_main_part14_ops0 (W30 m ρ c) main_v518 (by decide)).trans <|
    (keep_main_part13_ops0 (W29 m ρ c) main_v518 (by decide)).trans <|
    (keep_main_part12_ops0 (W28 m ρ c) main_v518 (by decide)).trans <|
    (keep_main_part11_ops0 (W27 m ρ c) main_v518 (by decide)).trans <|
    (keep_main_part10_ops4 (W26 m ρ c) main_v518 (by decide)).trans <|
    (W26_of_ne m ρ c main_v518 (by decide)).trans <|
    (keep_main_part10_ops3 (W24 m ρ c) main_v518 (by decide)).trans <|
    (W24_of_ne m ρ c main_v518 (by decide)).trans <|
    (keep_main_part10_ops2 (W22 m ρ c) main_v518 (by decide)).trans <|
    (W22_of_ne m ρ c main_v518 (by decide)).trans <|
    (keep_main_part10_ops1 (W20 m ρ c) main_v518 (by decide)).trans <|
    rfl

/-- Region 9, window 0: the mean aggregation over the bg edges of the layer's source features. -/
theorem in9_0 (c : Dev nD) :
    Vin9 m ρ c (Pipeline.arrRef spec9 0)
      = aggK_bg (Vout4 m ρ c (Pipeline.arrRef spec4 9)) (m ((c : Thread nD τ).loc main_arg18)) :=
  (keep_main_part15_ops1 (W33 m ρ c) main_v695 (by decide)).trans <|
    (W33_of_ne m ρ c main_v695 (by decide)).trans <|
    (keep_main_part15_ops0 (W31 m ρ c) main_v695 (by decide)).trans <|
    (keep_main_part14_ops0 (W30 m ρ c) main_v695 (by decide)).trans <|
    (val_v695 m ρ c).trans rfl

/-- Region 9, window 1: as the array stands at the region's entry. -/
theorem in9_1 (c : Dev nD) :
    Vin9 m ρ c (Pipeline.arrRef spec9 1)
      = (Vout5 m ρ c (Pipeline.arrRef spec5 5)) :=
  (keep_main_part15_ops1 (W33 m ρ c) main_v527 (by decide)).trans <|
    (W33_of_ne m ρ c main_v527 (by decide)).trans <|
    (keep_main_part15_ops0 (W31 m ρ c) main_v527 (by decide)).trans <|
    (keep_main_part14_ops0 (W30 m ρ c) main_v527 (by decide)).trans <|
    (keep_main_part13_ops0 (W29 m ρ c) main_v527 (by decide)).trans <|
    (keep_main_part12_ops0 (W28 m ρ c) main_v527 (by decide)).trans <|
    (keep_main_part11_ops0 (W27 m ρ c) main_v527 (by decide)).trans <|
    (keep_main_part10_ops4 (W26 m ρ c) main_v527 (by decide)).trans <|
    (W26_of_ne m ρ c main_v527 (by decide)).trans <|
    (keep_main_part10_ops3 (W24 m ρ c) main_v527 (by decide)).trans <|
    (W24_of_ne m ρ c main_v527 (by decide)).trans <|
    (keep_main_part10_ops2 (W22 m ρ c) main_v527 (by decide)).trans <|
    rfl

/-- Region 10, window 0: the mean aggregation over the bl edges of the layer's source features. -/
theorem in10_0 (c : Dev nD) :
    Vin10 m ρ c (Pipeline.arrRef spec10 0)
      = aggK_bl (Vout4 m ρ c (Pipeline.arrRef spec4 9)) (m ((c : Thread nD τ).loc main_arg20)) :=
  (keep_main_part15_ops2 (W35 m ρ c) main_v720 (by decide)).trans <|
    (W35_of_ne m ρ c main_v720 (by decide)).trans <|
    (keep_main_part15_ops1 (W33 m ρ c) main_v720 (by decide)).trans <|
    (W33_of_ne m ρ c main_v720 (by decide)).trans <|
    (keep_main_part15_ops0 (W31 m ρ c) main_v720 (by decide)).trans <|
    (val_v720 m ρ c).trans rfl

/-- Region 10, window 1: as the array stands at the region's entry. -/
theorem in10_1 (c : Dev nD) :
    Vin10 m ρ c (Pipeline.arrRef spec10 1)
      = (Vout6 m ρ c (Pipeline.arrRef spec6 5)) :=
  (keep_main_part15_ops2 (W35 m ρ c) main_v536 (by decide)).trans <|
    (W35_of_ne m ρ c main_v536 (by decide)).trans <|
    (keep_main_part15_ops1 (W33 m ρ c) main_v536 (by decide)).trans <|
    (W33_of_ne m ρ c main_v536 (by decide)).trans <|
    (keep_main_part15_ops0 (W31 m ρ c) main_v536 (by decide)).trans <|
    (keep_main_part14_ops0 (W30 m ρ c) main_v536 (by decide)).trans <|
    (keep_main_part13_ops0 (W29 m ρ c) main_v536 (by decide)).trans <|
    (keep_main_part12_ops0 (W28 m ρ c) main_v536 (by decide)).trans <|
    (keep_main_part11_ops0 (W27 m ρ c) main_v536 (by decide)).trans <|
    (keep_main_part10_ops4 (W26 m ρ c) main_v536 (by decide)).trans <|
    (W26_of_ne m ρ c main_v536 (by decide)).trans <|
    (keep_main_part10_ops3 (W24 m ρ c) main_v536 (by decide)).trans <|
    rfl

/-- Region 11, window 0: the mean aggregation over the bs edges of the layer's source features. -/
theorem in11_0 (c : Dev nD) :
    Vin11 m ρ c (Pipeline.arrRef spec11 0)
      = aggK_bs (Vout4 m ρ c (Pipeline.arrRef spec4 9)) (m ((c : Thread nD τ).loc main_arg22)) :=
  (keep_main_part16_ops0 (W38 m ρ c) main_v745 (by decide)).trans <|
    (keep_main_part15_ops3 (W37 m ρ c) main_v745 (by decide)).trans <|
    (W37_of_ne m ρ c main_v745 (by decide)).trans <|
    (keep_main_part15_ops2 (W35 m ρ c) main_v745 (by decide)).trans <|
    (W35_of_ne m ρ c main_v745 (by decide)).trans <|
    (keep_main_part15_ops1 (W33 m ρ c) main_v745 (by decide)).trans <|
    (W33_of_ne m ρ c main_v745 (by decide)).trans <|
    (keep_main_part15_ops0 (W31 m ρ c) main_v745 (by decide)).trans <|
    (val_v745 m ρ c).trans rfl

/-- Region 11, window 1: as the array stands at the region's entry. -/
theorem in11_1 (c : Dev nD) :
    Vin11 m ρ c (Pipeline.arrRef spec11 1)
      = (Vout7 m ρ c (Pipeline.arrRef spec7 5)) :=
  (keep_main_part16_ops0 (W38 m ρ c) main_v545 (by decide)).trans <|
    (keep_main_part15_ops3 (W37 m ρ c) main_v545 (by decide)).trans <|
    (W37_of_ne m ρ c main_v545 (by decide)).trans <|
    (keep_main_part15_ops2 (W35 m ρ c) main_v545 (by decide)).trans <|
    (W35_of_ne m ρ c main_v545 (by decide)).trans <|
    (keep_main_part15_ops1 (W33 m ρ c) main_v545 (by decide)).trans <|
    (W33_of_ne m ρ c main_v545 (by decide)).trans <|
    (keep_main_part15_ops0 (W31 m ρ c) main_v545 (by decide)).trans <|
    (keep_main_part14_ops0 (W30 m ρ c) main_v545 (by decide)).trans <|
    (keep_main_part13_ops0 (W29 m ρ c) main_v545 (by decide)).trans <|
    (keep_main_part12_ops0 (W28 m ρ c) main_v545 (by decide)).trans <|
    (keep_main_part11_ops0 (W27 m ρ c) main_v545 (by decide)).trans <|
    (keep_main_part10_ops4 (W26 m ρ c) main_v545 (by decide)).trans <|
    rfl

end Values

/-! ## The weight windows, index by index -/

section Weights
variable (m : (ℓ : Loc nD τ sig) → Buf (Elt Ideal) ℓ) (ρ : Dev nD → PrngReg)

theorem in8_6 (c : Dev nD) (e : Fin 5) (k j : Fin 128) :
    (Vin8 m ρ c (Pipeline.arrRef spec8 6) : Vec Ideal S5x128x128 .f32) (ix3 e k j)
      = Cert.Hand.Net.W4 (m ((c : Thread nD τ).loc main_arg4)) (2 : Fin 3) ((![0, 1, 2, 4, 6] : Fin 5 → Fin 8) e) k j := by
  refine (congrFun (show Vin8 m ρ c (Pipeline.arrRef spec8 6) = _ from
    val_v761 m ρ c) (ix3 e k j)).trans ?_
  exact wl5_apply 2 0 1 2 4 6 _ _ _ _ _ _ _ _ _ (2 : Fin 3) (![0, 1, 2, 4, 6] : Fin 5 → Fin 8) rfl rfl rfl rfl rfl rfl e k j

theorem in8_7 (c : Dev nD) (k j : Fin 128) :
    (Vin8 m ρ c (Pipeline.arrRef spec8 7) : Vec Ideal S128x128 .f32) (ix2 k j)
      = Cert.Hand.Net.W4 (m ((c : Thread nD τ).loc main_arg6)) (2 : Fin 3) (0 : Fin 8) k j + Cert.Hand.Net.W4 (m ((c : Thread nD τ).loc main_arg6)) (2 : Fin 3) (1 : Fin 8) k j + Cert.Hand.Net.W4 (m ((c : Thread nD τ).loc main_arg6)) (2 : Fin 3) (2 : Fin 8) k j + Cert.Hand.Net.W4 (m ((c : Thread nD τ).loc main_arg6)) (2 : Fin 3) (4 : Fin 8) k j + Cert.Hand.Net.W4 (m ((c : Thread nD τ).loc main_arg6)) (2 : Fin 3) (6 : Fin 8) k j := by
  refine (congrFun (show Vin8 m ρ c (Pipeline.arrRef spec8 7) = _ from
    val_v775 m ρ c) (ix2 k j)).trans ?_
  exact wr5_apply 2 0 1 2 4 6 _ _ _ _ _ _ _ (2 : Fin 3) (0 : Fin 8) (1 : Fin 8) (2 : Fin 8) (4 : Fin 8) (6 : Fin 8) rfl rfl rfl rfl rfl rfl k j

theorem in8_8 (c : Dev nD) (u : Fin 1) (j : Fin 128) :
    (Vin8 m ρ c (Pipeline.arrRef spec8 8) : Vec Ideal S1x128 .f32) (ix2 u j)
      = Cert.Hand.Net.B3 (m ((c : Thread nD τ).loc main_arg5)) (2 : Fin 3) (0 : Fin 8) j + Cert.Hand.Net.B3 (m ((c : Thread nD τ).loc main_arg5)) (2 : Fin 3) (1 : Fin 8) j + Cert.Hand.Net.B3 (m ((c : Thread nD τ).loc main_arg5)) (2 : Fin 3) (2 : Fin 8) j + Cert.Hand.Net.B3 (m ((c : Thread nD τ).loc main_arg5)) (2 : Fin 3) (4 : Fin 8) j + Cert.Hand.Net.B3 (m ((c : Thread nD τ).loc main_arg5)) (2 : Fin 3) (6 : Fin 8) j := by
  refine (congrFun (show Vin8 m ρ c (Pipeline.arrRef spec8 8) = _ from
    val_v790 m ρ c) (ix2 u j)).trans ?_
  exact b5_apply 2 0 1 2 4 6 _ _ _ _ _ _ _ _ (2 : Fin 3) (0 : Fin 8) (1 : Fin 8) (2 : Fin 8) (4 : Fin 8) (6 : Fin 8) rfl rfl rfl rfl rfl rfl u j

theorem in9_2 (c : Dev nD) (u : Fin 1) (k j : Fin 128) :
    (Vin9 m ρ c (Pipeline.arrRef spec9 2) : Vec Ideal S1x128x128 .f32) (ix3 u k j)
      = Cert.Hand.Net.W4 (m ((c : Thread nD τ).loc main_arg4)) (2 : Fin 3) (3 : Fin 8) k j := by
  refine (congrFun (show Vin9 m ρ c (Pipeline.arrRef spec9 2) = _ from
    val_v794 m ρ c) (ix3 u k j)).trans ?_
  exact wl1_apply 2 3 _ _ _ _ u k j (2 : Fin 3) (3 : Fin 8) rfl rfl

theorem in9_3 (c : Dev nD) (k j : Fin 128) :
    (Vin9 m ρ c (Pipeline.arrRef spec9 3) : Vec Ideal S128x128 .f32) (ix2 k j)
      = Cert.Hand.Net.W4 (m ((c : Thread nD τ).loc main_arg6)) (2 : Fin 3) (3 : Fin 8) k j := by
  refine (congrFun (show Vin9 m ρ c (Pipeline.arrRef spec9 3) = _ from
    val_v796 m ρ c) (ix2 k j)).trans ?_
  exact wr1_apply 2 3 _ _ _ k j (2 : Fin 3) (3 : Fin 8) rfl rfl

theorem in9_4 (c : Dev nD) (u : Fin 1) (j : Fin 128) :
    (Vin9 m ρ c (Pipeline.arrRef spec9 4) : Vec Ideal S1x128 .f32) (ix2 u j)
      = Cert.Hand.Net.B3 (m ((c : Thread nD τ).loc main_arg5)) (2 : Fin 3) (3 : Fin 8) j := by
  refine (congrFun (show Vin9 m ρ c (Pipeline.arrRef spec9 4) = _ from
    val_v799 m ρ c) (ix2 u j)).trans ?_
  exact b1_apply 2 3 _ _ _ _ u j (2 : Fin 3) (3 : Fin 8) rfl rfl

theorem in10_2 (c : Dev nD) (u : Fin 1) (k j : Fin 128) :
    (Vin10 m ρ c (Pipeline.arrRef spec10 2) : Vec Ideal S1x128x128 .f32) (ix3 u k j)
      = Cert.Hand.Net.W4 (m ((c : Thread nD τ).loc main_arg4)) (2 : Fin 3) (5 : Fin 8) k j := by
  refine (congrFun (show Vin10 m ρ c (Pipeline.arrRef spec10 2) = _ from
    val_v803 m ρ c) (ix3 u k j)).trans ?_
  exact wl1_apply 2 5 _ _ _ _ u k j (2 : Fin 3) (5 : Fin 8) rfl rfl

theorem in10_3 (c : Dev nD) (k j : Fin 128) :
    (Vin10 m ρ c (Pipeline.arrRef spec10 3) : Vec Ideal S128x128 .f32) (ix2 k j)
      = Cert.Hand.Net.W4 (m ((c : Thread nD τ).loc main_arg6)) (2 : Fin 3) (5 : Fin 8) k j := by
  refine (congrFun (show Vin10 m ρ c (Pipeline.arrRef spec10 3) = _ from
    val_v805 m ρ c) (ix2 k j)).trans ?_
  exact wr1_apply 2 5 _ _ _ k j (2 : Fin 3) (5 : Fin 8) rfl rfl

theorem in10_4 (c : Dev nD) (u : Fin 1) (j : Fin 128) :
    (Vin10 m ρ c (Pipeline.arrRef spec10 4) : Vec Ideal S1x128 .f32) (ix2 u j)
      = Cert.Hand.Net.B3 (m ((c : Thread nD τ).loc main_arg5)) (2 : Fin 3) (5 : Fin 8) j := by
  refine (congrFun (show Vin10 m ρ c (Pipeline.arrRef spec10 4) = _ from
    val_v808 m ρ c) (ix2 u j)).trans ?_
  exact b1_apply 2 5 _ _ _ _ u j (2 : Fin 3) (5 : Fin 8) rfl rfl

theorem in11_2 (c : Dev nD) (u : Fin 1) (k j : Fin 128) :
    (Vin11 m ρ c (Pipeline.arrRef spec11 2) : Vec Ideal S1x128x128 .f32) (ix3 u k j)
      = Cert.Hand.Net.W4 (m ((c : Thread nD τ).loc main_arg4)) (2 : Fin 3) (7 : Fin 8) k j := by
  refine (congrFun (show Vin11 m ρ c (Pipeline.arrRef spec11 2) = _ from
    (keep_main_part16_ops0 (W38 m ρ c) main_v812 (by decide)).trans <|
    val_v812 m ρ c) (ix3 u k j)).trans ?_
  exact wl1_apply 2 7 _ _ _ _ u k j (2 : Fin 3) (7 : Fin 8) rfl rfl

theorem in11_3 (c : Dev nD) (k j : Fin 128) :
    (Vin11 m ρ c (Pipeline.arrRef spec11 3) : Vec Ideal S128x128 .f32) (ix2 k j)
      = Cert.Hand.Net.W4 (m ((c : Thread nD τ).loc main_arg6)) (2 : Fin 3) (7 : Fin 8) k j := by
  refine (congrFun (show Vin11 m ρ c (Pipeline.arrRef spec11 3) = _ from
    (keep_main_part16_ops0 (W38 m ρ c) main_v814 (by decide)).trans <|
    val_v814 m ρ c) (ix2 k j)).trans ?_
  exact wr1_apply 2 7 _ _ _ k j (2 : Fin 3) (7 : Fin 8) rfl rfl

theorem in11_4 (c : Dev nD) (u : Fin 1) (j : Fin 128) :
    (Vin11 m ρ c (Pipeline.arrRef spec11 4) : Vec Ideal S1x128 .f32) (ix2 u j)
      = Cert.Hand.Net.B3 (m ((c : Thread nD τ).loc main_arg5)) (2 : Fin 3) (7 : Fin 8) j := by
  refine (congrFun (show Vin11 m ρ c (Pipeline.arrRef spec11 4) = _ from
    val_v817 m ρ c) (ix2 u j)).trans ?_
  exact b1_apply 2 7 _ _ _ _ u j (2 : Fin 3) (7 : Fin 8) rfl rfl

end Weights

end Cert.KernelIdeal.Hand

end
-- ==== Proof.KI.HostPcHead.lean ====
/- The host operations before the regions of the two heads, line by line: each result a region (or a later line, across a
   cut) reads, after its line, is the composed term of the line's operations over the contents before the line. -/
import proofs.«125545_j64845416235624_1_alg».proof.Proof.Gen.KernelIdeal.Launch
import proofs.«125545_j64845416235624_1_alg».proof.Proof.KI.HostLayout
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

theorem pc_part16_ops1_v819 (W : Valuation τ sig (Elt F)) :
    StableHlo.after main_part16_ops1 W (Proc.devRef .tc main_v819)
      = (shapeCast _ (W (Proc.devRef .tc main_arg8)) shapeCasts_S128_S1x128) := by
  host_results <;> rfl

theorem pc_part16_ops1_v820 (W : Valuation τ sig (Elt F)) :
    StableHlo.after main_part16_ops1 W (Proc.devRef .tc main_v820)
      = (shapeCast _ (W (Proc.devRef .tc main_arg10)) shapeCasts_S2_S1x2) := by
  host_results <;> rfl

theorem pc_part16_ops2_v822 (W : Valuation τ sig (Elt F)) :
    StableHlo.after main_part16_ops2 W (Proc.devRef .tc main_v822)
      = (shapeCast _ (W (Proc.devRef .tc main_arg12)) shapeCasts_S128_S1x128) := by
  host_results <;> rfl

theorem pc_part16_ops2_v823 (W : Valuation τ sig (Elt F)) :
    StableHlo.after main_part16_ops2 W (Proc.devRef .tc main_v823)
      = (shapeCast _ (W (Proc.devRef .tc main_arg14)) shapeCasts_S2_S1x2) := by
  host_results <;> rfl

end Cert.KernelIdeal.Hand

end
-- ==== Proof.KI.HostInHead.lean ====
/- What the regions of the two heads find in their input windows' arrays: each aggregate window the mean aggregation of the
   source features of that layer along its edge type; each destination window the features themselves; each weight
   window, index by index, the slice (or the sum of slices) of the stacked parameters. First every host result these
   read, at the boundary of @main where it is made. -/
import proofs.«125545_j64845416235624_1_alg».proof.Proof.KI.Fold
import proofs.«125545_j64845416235624_1_alg».proof.Proof.KI.Keep
import proofs.«125545_j64845416235624_1_alg».proof.Proof.KI.Agg
import proofs.«125545_j64845416235624_1_alg».proof.Proof.KI.HostLayout
import proofs.«125545_j64845416235624_1_alg».proof.Proof.KI.HostPcHead
import proofs.«125545_j64845416235624_1_alg».proof.Proof.NetDefs

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-! ## The host results at the boundaries where they are made -/

section Values
variable (m : (ℓ : Loc nD τ sig) → Buf (Elt F) ℓ) (ρ : Dev nD → PrngReg)

theorem val_v819 (c : Dev nD) :
    W41 m ρ c (Proc.devRef .tc main_v819)
      = (shapeCast _ (m ((c : Thread nD τ).loc main_arg8)) shapeCasts_S128_S1x128) :=
  (pc_part16_ops1_v819 (W40 m ρ c)).trans (by
    rw [(show W40 m ρ c (Proc.devRef .tc main_arg8) = (m ((c : Thread nD τ).loc main_arg8)) from
    (W40_of_ne m ρ c main_arg8 (by decide)).trans <|
    (keep_main_part16_ops0 (W38 m ρ c) main_arg8 (by decide)).trans <|
    (keep_main_part15_ops3 (W37 m ρ c) main_arg8 (by decide)).trans <|
    (W37_of_ne m ρ c main_arg8 (by decide)).trans <|
    (keep_main_part15_ops2 (W35 m ρ c) main_arg8 (by decide)).trans <|
    (W35_of_ne m ρ c main_arg8 (by decide)).trans <|
    (keep_main_part15_ops1 (W33 m ρ c) main_arg8 (by decide)).trans <|
    (W33_of_ne m ρ c main_arg8 (by decide)).trans <|
    (keep_main_part15_ops0 (W31 m ρ c) main_arg8 (by decide)).trans <|
    (keep_main_part14_ops0 (W30 m ρ c) main_arg8 (by decide)).trans <|
    (keep_main_part13_ops0 (W29 m ρ c) main_arg8 (by decide)).trans <|
    (keep_main_part12_ops0 (W28 m ρ c) main_arg8 (by decide)).trans <|
    (keep_main_part11_ops0 (W27 m ρ c) main_arg8 (by decide)).trans <|
    (keep_main_part10_ops4 (W26 m ρ c) main_arg8 (by decide)).trans <|
    (W26_of_ne m ρ c main_arg8 (by decide)).trans <|
    (keep_main_part10_ops3 (W24 m ρ c) main_arg8 (by decide)).trans <|
    (W24_of_ne m ρ c main_arg8 (by decide)).trans <|
    (keep_main_part10_ops2 (W22 m ρ c) main_arg8 (by decide)).trans <|
    (W22_of_ne m ρ c main_arg8 (by decide)).trans <|
    (keep_main_part10_ops1 (W20 m ρ c) main_arg8 (by decide)).trans <|
    (W20_of_ne m ρ c main_arg8 (by decide)).trans <|
    (keep_main_part10_ops0 (W18 m ρ c) main_arg8 (by decide)).trans <|
    (keep_main_part9_ops0 (W17 m ρ c) main_arg8 (by decide)).trans <|
    (keep_main_part8_ops0 (W16 m ρ c) main_arg8 (by decide)).trans <|
    (keep_main_part7_ops0 (W15 m ρ c) main_arg8 (by decide)).trans <|
    (keep_main_part6_ops0 (W14 m ρ c) main_arg8 (by decide)).trans <|
    (keep_main_part5_ops3 (W13 m ρ c) main_arg8 (by decide)).trans <|
    (W13_of_ne m ρ c main_arg8 (by decide)).trans <|
    (keep_main_part5_ops2 (W11 m ρ c) main_arg8 (by decide)).trans <|
    (W11_of_ne m ρ c main_arg8 (by decide)).trans <|
    (keep_main_part5_ops1 (W9 m ρ c) main_arg8 (by decide)).trans <|
    (W9_of_ne m ρ c main_arg8 (by decide)).trans <|
    (keep_main_part5_ops0 (W7 m ρ c) main_arg8 (by decide)).trans <|
    (keep_main_part4_ops1 (W6 m ρ c) main_arg8 (by decide)).trans <|
    (W6_of_ne m ρ c main_arg8 (by decide)).trans <|
    (keep_main_part4_ops0 (W4 m ρ c) main_arg8 (by decide)).trans <|
    (keep_main_part3_ops0 (W3 m ρ c) main_arg8 (by decide)).trans <|
    (keep_main_part2_ops0 (W2 m ρ c) main_arg8 (by decide)).trans <|
    (keep_main_part1_ops0 (W1 m ρ c) main_arg8 (by decide)).trans <|
    (keep_main_part0_ops0 (W0 m ρ c) main_arg8 (by decide)).trans <|
    rfl)])

theorem val_v820 (c : Dev nD) :
    W41 m ρ c (Proc.devRef .tc main_v820)
      = (shapeCast _ (m ((c : Thread nD τ).loc main_arg10)) shapeCasts_S2_S1x2) :=
  (pc_part16_ops1_v820 (W40 m ρ c)).trans (by
    rw [(show W40 m ρ c (Proc.devRef .tc main_arg10) = (m ((c : Thread nD τ).loc main_arg10)) from
    (W40_of_ne m ρ c main_arg10 (by decide)).trans <|
    (keep_main_part16_ops0 (W38 m ρ c) main_arg10 (by decide)).trans <|
    (keep_main_part15_ops3 (W37 m ρ c) main_arg10 (by decide)).trans <|
    (W37_of_ne m ρ c main_arg10 (by decide)).trans <|
    (keep_main_part15_ops2 (W35 m ρ c) main_arg10 (by decide)).trans <|
    (W35_of_ne m ρ c main_arg10 (by decide)).trans <|
    (keep_main_part15_ops1 (W33 m ρ c) main_arg10 (by decide)).trans <|
    (W33_of_ne m ρ c main_arg10 (by decide)).trans <|
    (keep_main_part15_ops0 (W31 m ρ c) main_arg10 (by decide)).trans <|
    (keep_main_part14_ops0 (W30 m ρ c) main_arg10 (by decide)).trans <|
    (keep_main_part13_ops0 (W29 m ρ c) main_arg10 (by decide)).trans <|
    (keep_main_part12_ops0 (W28 m ρ c) main_arg10 (by decide)).trans <|
    (keep_main_part11_ops0 (W27 m ρ c) main_arg10 (by decide)).trans <|
    (keep_main_part10_ops4 (W26 m ρ c) main_arg10 (by decide)).trans <|
    (W26_of_ne m ρ c main_arg10 (by decide)).trans <|
    (keep_main_part10_ops3 (W24 m ρ c) main_arg10 (by decide)).trans <|
    (W24_of_ne m ρ c main_arg10 (by decide)).trans <|
    (keep_main_part10_ops2 (W22 m ρ c) main_arg10 (by decide)).trans <|
    (W22_of_ne m ρ c main_arg10 (by decide)).trans <|
    (keep_main_part10_ops1 (W20 m ρ c) main_arg10 (by decide)).trans <|
    (W20_of_ne m ρ c main_arg10 (by decide)).trans <|
    (keep_main_part10_ops0 (W18 m ρ c) main_arg10 (by decide)).trans <|
    (keep_main_part9_ops0 (W17 m ρ c) main_arg10 (by decide)).trans <|
    (keep_main_part8_ops0 (W16 m ρ c) main_arg10 (by decide)).trans <|
    (keep_main_part7_ops0 (W15 m ρ c) main_arg10 (by decide)).trans <|
    (keep_main_part6_ops0 (W14 m ρ c) main_arg10 (by decide)).trans <|
    (keep_main_part5_ops3 (W13 m ρ c) main_arg10 (by decide)).trans <|
    (W13_of_ne m ρ c main_arg10 (by decide)).trans <|
    (keep_main_part5_ops2 (W11 m ρ c) main_arg10 (by decide)).trans <|
    (W11_of_ne m ρ c main_arg10 (by decide)).trans <|
    (keep_main_part5_ops1 (W9 m ρ c) main_arg10 (by decide)).trans <|
    (W9_of_ne m ρ c main_arg10 (by decide)).trans <|
    (keep_main_part5_ops0 (W7 m ρ c) main_arg10 (by decide)).trans <|
    (keep_main_part4_ops1 (W6 m ρ c) main_arg10 (by decide)).trans <|
    (W6_of_ne m ρ c main_arg10 (by decide)).trans <|
    (keep_main_part4_ops0 (W4 m ρ c) main_arg10 (by decide)).trans <|
    (keep_main_part3_ops0 (W3 m ρ c) main_arg10 (by decide)).trans <|
    (keep_main_part2_ops0 (W2 m ρ c) main_arg10 (by decide)).trans <|
    (keep_main_part1_ops0 (W1 m ρ c) main_arg10 (by decide)).trans <|
    (keep_main_part0_ops0 (W0 m ρ c) main_arg10 (by decide)).trans <|
    rfl)])

theorem val_v822 (c : Dev nD) :
    W43 m ρ c (Proc.devRef .tc main_v822)
      = (shapeCast _ (m ((c : Thread nD τ).loc main_arg12)) shapeCasts_S128_S1x128) :=
  (pc_part16_ops2_v822 (W42 m ρ c)).trans (by
    rw [(show W42 m ρ c (Proc.devRef .tc main_arg12) = (m ((c : Thread nD τ).loc main_arg12)) from
    (W42_of_ne m ρ c main_arg12 (by decide)).trans <|
    (keep_main_part16_ops1 (W40 m ρ c) main_arg12 (by decide)).trans <|
    (W40_of_ne m ρ c main_arg12 (by decide)).trans <|
    (keep_main_part16_ops0 (W38 m ρ c) main_arg12 (by decide)).trans <|
    (keep_main_part15_ops3 (W37 m ρ c) main_arg12 (by decide)).trans <|
    (W37_of_ne m ρ c main_arg12 (by decide)).trans <|
    (keep_main_part15_ops2 (W35 m ρ c) main_arg12 (by decide)).trans <|
    (W35_of_ne m ρ c main_arg12 (by decide)).trans <|
    (keep_main_part15_ops1 (W33 m ρ c) main_arg12 (by decide)).trans <|
    (W33_of_ne m ρ c main_arg12 (by decide)).trans <|
    (keep_main_part15_ops0 (W31 m ρ c) main_arg12 (by decide)).trans <|
    (keep_main_part14_ops0 (W30 m ρ c) main_arg12 (by decide)).trans <|
    (keep_main_part13_ops0 (W29 m ρ c) main_arg12 (by decide)).trans <|
    (keep_main_part12_ops0 (W28 m ρ c) main_arg12 (by decide)).trans <|
    (keep_main_part11_ops0 (W27 m ρ c) main_arg12 (by decide)).trans <|
    (keep_main_part10_ops4 (W26 m ρ c) main_arg12 (by decide)).trans <|
    (W26_of_ne m ρ c main_arg12 (by decide)).trans <|
    (keep_main_part10_ops3 (W24 m ρ c) main_arg12 (by decide)).trans <|
    (W24_of_ne m ρ c main_arg12 (by decide)).trans <|
    (keep_main_part10_ops2 (W22 m ρ c) main_arg12 (by decide)).trans <|
    (W22_of_ne m ρ c main_arg12 (by decide)).trans <|
    (keep_main_part10_ops1 (W20 m ρ c) main_arg12 (by decide)).trans <|
    (W20_of_ne m ρ c main_arg12 (by decide)).trans <|
    (keep_main_part10_ops0 (W18 m ρ c) main_arg12 (by decide)).trans <|
    (keep_main_part9_ops0 (W17 m ρ c) main_arg12 (by decide)).trans <|
    (keep_main_part8_ops0 (W16 m ρ c) main_arg12 (by decide)).trans <|
    (keep_main_part7_ops0 (W15 m ρ c) main_arg12 (by decide)).trans <|
    (keep_main_part6_ops0 (W14 m ρ c) main_arg12 (by decide)).trans <|
    (keep_main_part5_ops3 (W13 m ρ c) main_arg12 (by decide)).trans <|
    (W13_of_ne m ρ c main_arg12 (by decide)).trans <|
    (keep_main_part5_ops2 (W11 m ρ c) main_arg12 (by decide)).trans <|
    (W11_of_ne m ρ c main_arg12 (by decide)).trans <|
    (keep_main_part5_ops1 (W9 m ρ c) main_arg12 (by decide)).trans <|
    (W9_of_ne m ρ c main_arg12 (by decide)).trans <|
    (keep_main_part5_ops0 (W7 m ρ c) main_arg12 (by decide)).trans <|
    (keep_main_part4_ops1 (W6 m ρ c) main_arg12 (by decide)).trans <|
    (W6_of_ne m ρ c main_arg12 (by decide)).trans <|
    (keep_main_part4_ops0 (W4 m ρ c) main_arg12 (by decide)).trans <|
    (keep_main_part3_ops0 (W3 m ρ c) main_arg12 (by decide)).trans <|
    (keep_main_part2_ops0 (W2 m ρ c) main_arg12 (by decide)).trans <|
    (keep_main_part1_ops0 (W1 m ρ c) main_arg12 (by decide)).trans <|
    (keep_main_part0_ops0 (W0 m ρ c) main_arg12 (by decide)).trans <|
    rfl)])

theorem val_v823 (c : Dev nD) :
    W43 m ρ c (Proc.devRef .tc main_v823)
      = (shapeCast _ (m ((c : Thread nD τ).loc main_arg14)) shapeCasts_S2_S1x2) :=
  (pc_part16_ops2_v823 (W42 m ρ c)).trans (by
    rw [(show W42 m ρ c (Proc.devRef .tc main_arg14) = (m ((c : Thread nD τ).loc main_arg14)) from
    (W42_of_ne m ρ c main_arg14 (by decide)).trans <|
    (keep_main_part16_ops1 (W40 m ρ c) main_arg14 (by decide)).trans <|
    (W40_of_ne m ρ c main_arg14 (by decide)).trans <|
    (keep_main_part16_ops0 (W38 m ρ c) main_arg14 (by decide)).trans <|
    (keep_main_part15_ops3 (W37 m ρ c) main_arg14 (by decide)).trans <|
    (W37_of_ne m ρ c main_arg14 (by decide)).trans <|
    (keep_main_part15_ops2 (W35 m ρ c) main_arg14 (by decide)).trans <|
    (W35_of_ne m ρ c main_arg14 (by decide)).trans <|
    (keep_main_part15_ops1 (W33 m ρ c) main_arg14 (by decide)).trans <|
    (W33_of_ne m ρ c main_arg14 (by decide)).trans <|
    (keep_main_part15_ops0 (W31 m ρ c) main_arg14 (by decide)).trans <|
    (keep_main_part14_ops0 (W30 m ρ c) main_arg14 (by decide)).trans <|
    (keep_main_part13_ops0 (W29 m ρ c) main_arg14 (by decide)).trans <|
    (keep_main_part12_ops0 (W28 m ρ c) main_arg14 (by decide)).trans <|
    (keep_main_part11_ops0 (W27 m ρ c) main_arg14 (by decide)).trans <|
    (keep_main_part10_ops4 (W26 m ρ c) main_arg14 (by decide)).trans <|
    (W26_of_ne m ρ c main_arg14 (by decide)).trans <|
    (keep_main_part10_ops3 (W24 m ρ c) main_arg14 (by decide)).trans <|
    (W24_of_ne m ρ c main_arg14 (by decide)).trans <|
    (keep_main_part10_ops2 (W22 m ρ c) main_arg14 (by decide)).trans <|
    (W22_of_ne m ρ c main_arg14 (by decide)).trans <|
    (keep_main_part10_ops1 (W20 m ρ c) main_arg14 (by decide)).trans <|
    (W20_of_ne m ρ c main_arg14 (by decide)).trans <|
    (keep_main_part10_ops0 (W18 m ρ c) main_arg14 (by decide)).trans <|
    (keep_main_part9_ops0 (W17 m ρ c) main_arg14 (by decide)).trans <|
    (keep_main_part8_ops0 (W16 m ρ c) main_arg14 (by decide)).trans <|
    (keep_main_part7_ops0 (W15 m ρ c) main_arg14 (by decide)).trans <|
    (keep_main_part6_ops0 (W14 m ρ c) main_arg14 (by decide)).trans <|
    (keep_main_part5_ops3 (W13 m ρ c) main_arg14 (by decide)).trans <|
    (W13_of_ne m ρ c main_arg14 (by decide)).trans <|
    (keep_main_part5_ops2 (W11 m ρ c) main_arg14 (by decide)).trans <|
    (W11_of_ne m ρ c main_arg14 (by decide)).trans <|
    (keep_main_part5_ops1 (W9 m ρ c) main_arg14 (by decide)).trans <|
    (W9_of_ne m ρ c main_arg14 (by decide)).trans <|
    (keep_main_part5_ops0 (W7 m ρ c) main_arg14 (by decide)).trans <|
    (keep_main_part4_ops1 (W6 m ρ c) main_arg14 (by decide)).trans <|
    (W6_of_ne m ρ c main_arg14 (by decide)).trans <|
    (keep_main_part4_ops0 (W4 m ρ c) main_arg14 (by decide)).trans <|
    (keep_main_part3_ops0 (W3 m ρ c) main_arg14 (by decide)).trans <|
    (keep_main_part2_ops0 (W2 m ρ c) main_arg14 (by decide)).trans <|
    (keep_main_part1_ops0 (W1 m ρ c) main_arg14 (by decide)).trans <|
    (keep_main_part0_ops0 (W0 m ρ c) main_arg14 (by decide)).trans <|
    rfl)])

/-! ## The feature windows -/

/-- Region 12, window 0: as the array stands at the region's entry. -/
theorem in12_0 (c : Dev nD) :
    Vin12 m ρ c (Pipeline.arrRef spec12 0)
      = (Vout8 m ρ c (Pipeline.arrRef spec8 9)) :=
  (keep_main_part16_ops1 (W40 m ρ c) main_v791 (by decide)).trans <|
    (W40_of_ne m ρ c main_v791 (by decide)).trans <|
    (keep_main_part16_ops0 (W38 m ρ c) main_v791 (by decide)).trans <|
    (keep_main_part15_ops3 (W37 m ρ c) main_v791 (by decide)).trans <|
    (W37_of_ne m ρ c main_v791 (by decide)).trans <|
    (keep_main_part15_ops2 (W35 m ρ c) main_v791 (by decide)).trans <|
    (W35_of_ne m ρ c main_v791 (by decide)).trans <|
    (keep_main_part15_ops1 (W33 m ρ c) main_v791 (by decide)).trans <|
    rfl

/-- Region 12, window 1: as the array stands at the region's entry. -/
theorem in12_1 (c : Dev nD) :
    Vin12 m ρ c (Pipeline.arrRef spec12 1)
      = (m ((c : Thread nD τ).loc main_arg7)) :=
  (keep_main_part16_ops1 (W40 m ρ c) main_arg7 (by decide)).trans <|
    (W40_of_ne m ρ c main_arg7 (by decide)).trans <|
    (keep_main_part16_ops0 (W38 m ρ c) main_arg7 (by decide)).trans <|
    (keep_main_part15_ops3 (W37 m ρ c) main_arg7 (by decide)).trans <|
    (W37_of_ne m ρ c main_arg7 (by decide)).trans <|
    (keep_main_part15_ops2 (W35 m ρ c) main_arg7 (by decide)).trans <|
    (W35_of_ne m ρ c main_arg7 (by decide)).trans <|
    (keep_main_part15_ops1 (W33 m ρ c) main_arg7 (by decide)).trans <|
    (W33_of_ne m ρ c main_arg7 (by decide)).trans <|
    (keep_main_part15_ops0 (W31 m ρ c) main_arg7 (by decide)).trans <|
    (keep_main_part14_ops0 (W30 m ρ c) main_arg7 (by decide)).trans <|
    (keep_main_part13_ops0 (W29 m ρ c) main_arg7 (by decide)).trans <|
    (keep_main_part12_ops0 (W28 m ρ c) main_arg7 (by decide)).trans <|
    (keep_main_part11_ops0 (W27 m ρ c) main_arg7 (by decide)).trans <|
    (keep_main_part10_ops4 (W26 m ρ c) main_arg7 (by decide)).trans <|
    (W26_of_ne m ρ c main_arg7 (by decide)).trans <|
    (keep_main_part10_ops3 (W24 m ρ c) main_arg7 (by decide)).trans <|
    (W24_of_ne m ρ c main_arg7 (by decide)).trans <|
    (keep_main_part10_ops2 (W22 m ρ c) main_arg7 (by decide)).trans <|
    (W22_of_ne m ρ c main_arg7 (by decide)).trans <|
    (keep_main_part10_ops1 (W20 m ρ c) main_arg7 (by decide)).trans <|
    (W20_of_ne m ρ c main_arg7 (by decide)).trans <|
    (keep_main_part10_ops0 (W18 m ρ c) main_arg7 (by decide)).trans <|
    (keep_main_part9_ops0 (W17 m ρ c) main_arg7 (by decide)).trans <|
    (keep_main_part8_ops0 (W16 m ρ c) main_arg7 (by decide)).trans <|
    (keep_main_part7_ops0 (W15 m ρ c) main_arg7 (by decide)).trans <|
    (keep_main_part6_ops0 (W14 m ρ c) main_arg7 (by decide)).trans <|
    (keep_main_part5_ops3 (W13 m ρ c) main_arg7 (by decide)).trans <|
    (W13_of_ne m ρ c main_arg7 (by decide)).trans <|
    (keep_main_part5_ops2 (W11 m ρ c) main_arg7 (by decide)).trans <|
    (W11_of_ne m ρ c main_arg7 (by decide)).trans <|
    (keep_main_part5_ops1 (W9 m ρ c) main_arg7 (by decide)).trans <|
    (W9_of_ne m ρ c main_arg7 (by decide)).trans <|
    (keep_main_part5_ops0 (W7 m ρ c) main_arg7 (by decide)).trans <|
    (keep_main_part4_ops1 (W6 m ρ c) main_arg7 (by decide)).trans <|
    (W6_of_ne m ρ c main_arg7 (by decide)).trans <|
    (keep_main_part4_ops0 (W4 m ρ c) main_arg7 (by decide)).trans <|
    (keep_main_part3_ops0 (W3 m ρ c) main_arg7 (by decide)).trans <|
    (keep_main_part2_ops0 (W2 m ρ c) main_arg7 (by decide)).trans <|
    (keep_main_part1_ops0 (W1 m ρ c) main_arg7 (by decide)).trans <|
    (keep_main_part0_ops0 (W0 m ρ c) main_arg7 (by decide)).trans <|
    rfl

/-- Region 12, window 3: as the array stands at the region's entry. -/
theorem in12_3 (c : Dev nD) :
    Vin12 m ρ c (Pipeline.arrRef spec12 3)
      = (m ((c : Thread nD τ).loc main_arg9)) :=
  (keep_main_part16_ops1 (W40 m ρ c) main_arg9 (by decide)).trans <|
    (W40_of_ne m ρ c main_arg9 (by decide)).trans <|
    (keep_main_part16_ops0 (W38 m ρ c) main_arg9 (by decide)).trans <|
    (keep_main_part15_ops3 (W37 m ρ c) main_arg9 (by decide)).trans <|
    (W37_of_ne m ρ c main_arg9 (by decide)).trans <|
    (keep_main_part15_ops2 (W35 m ρ c) main_arg9 (by decide)).trans <|
    (W35_of_ne m ρ c main_arg9 (by decide)).trans <|
    (keep_main_part15_ops1 (W33 m ρ c) main_arg9 (by decide)).trans <|
    (W33_of_ne m ρ c main_arg9 (by decide)).trans <|
    (keep_main_part15_ops0 (W31 m ρ c) main_arg9 (by decide)).trans <|
    (keep_main_part14_ops0 (W30 m ρ c) main_arg9 (by decide)).trans <|
    (keep_main_part13_ops0 (W29 m ρ c) main_arg9 (by decide)).trans <|
    (keep_main_part12_ops0 (W28 m ρ c) main_arg9 (by decide)).trans <|
    (keep_main_part11_ops0 (W27 m ρ c) main_arg9 (by decide)).trans <|
    (keep_main_part10_ops4 (W26 m ρ c) main_arg9 (by decide)).trans <|
    (W26_of_ne m ρ c main_arg9 (by decide)).trans <|
    (keep_main_part10_ops3 (W24 m ρ c) main_arg9 (by decide)).trans <|
    (W24_of_ne m ρ c main_arg9 (by decide)).trans <|
    (keep_main_part10_ops2 (W22 m ρ c) main_arg9 (by decide)).trans <|
    (W22_of_ne m ρ c main_arg9 (by decide)).trans <|
    (keep_main_part10_ops1 (W20 m ρ c) main_arg9 (by decide)).trans <|
    (W20_of_ne m ρ c main_arg9 (by decide)).trans <|
    (keep_main_part10_ops0 (W18 m ρ c) main_arg9 (by decide)).trans <|
    (keep_main_part9_ops0 (W17 m ρ c) main_arg9 (by decide)).trans <|
    (keep_main_part8_ops0 (W16 m ρ c) main_arg9 (by decide)).trans <|
    (keep_main_part7_ops0 (W15 m ρ c) main_arg9 (by decide)).trans <|
    (keep_main_part6_ops0 (W14 m ρ c) main_arg9 (by decide)).trans <|
    (keep_main_part5_ops3 (W13 m ρ c) main_arg9 (by decide)).trans <|
    (W13_of_ne m ρ c main_arg9 (by decide)).trans <|
    (keep_main_part5_ops2 (W11 m ρ c) main_arg9 (by decide)).trans <|
    (W11_of_ne m ρ c main_arg9 (by decide)).trans <|
    (keep_main_part5_ops1 (W9 m ρ c) main_arg9 (by decide)).trans <|
    (W9_of_ne m ρ c main_arg9 (by decide)).trans <|
    (keep_main_part5_ops0 (W7 m ρ c) main_arg9 (by decide)).trans <|
    (keep_main_part4_ops1 (W6 m ρ c) main_arg9 (by decide)).trans <|
    (W6_of_ne m ρ c main_arg9 (by decide)).trans <|
    (keep_main_part4_ops0 (W4 m ρ c) main_arg9 (by decide)).trans <|
    (keep_main_part3_ops0 (W3 m ρ c) main_arg9 (by decide)).trans <|
    (keep_main_part2_ops0 (W2 m ρ c) main_arg9 (by decide)).trans <|
    (keep_main_part1_ops0 (W1 m ρ c) main_arg9 (by decide)).trans <|
    (keep_main_part0_ops0 (W0 m ρ c) main_arg9 (by decide)).trans <|
    rfl

/-- Region 13, window 0: as the array stands at the region's entry. -/
theorem in13_0 (c : Dev nD) :
    Vin13 m ρ c (Pipeline.arrRef spec13 0)
      = (Vout9 m ρ c (Pipeline.arrRef spec9 5)) :=
  (keep_main_part16_ops2 (W42 m ρ c) main_v800 (by decide)).trans <|
    (W42_of_ne m ρ c main_v800 (by decide)).trans <|
    (keep_main_part16_ops1 (W40 m ρ c) main_v800 (by decide)).trans <|
    (W40_of_ne m ρ c main_v800 (by decide)).trans <|
    (keep_main_part16_ops0 (W38 m ρ c) main_v800 (by decide)).trans <|
    (keep_main_part15_ops3 (W37 m ρ c) main_v800 (by decide)).trans <|
    (W37_of_ne m ρ c main_v800 (by decide)).trans <|
    (keep_main_part15_ops2 (W35 m ρ c) main_v800 (by decide)).trans <|
    rfl

/-- Region 13, window 1: as the array stands at the region's entry. -/
theorem in13_1 (c : Dev nD) :
    Vin13 m ρ c (Pipeline.arrRef spec13 1)
      = (m ((c : Thread nD τ).loc main_arg11)) :=
  (keep_main_part16_ops2 (W42 m ρ c) main_arg11 (by decide)).trans <|
    (W42_of_ne m ρ c main_arg11 (by decide)).trans <|
    (keep_main_part16_ops1 (W40 m ρ c) main_arg11 (by decide)).trans <|
    (W40_of_ne m ρ c main_arg11 (by decide)).trans <|
    (keep_main_part16_ops0 (W38 m ρ c) main_arg11 (by decide)).trans <|
    (keep_main_part15_ops3 (W37 m ρ c) main_arg11 (by decide)).trans <|
    (W37_of_ne m ρ c main_arg11 (by decide)).trans <|
    (keep_main_part15_ops2 (W35 m ρ c) main_arg11 (by decide)).trans <|
    (W35_of_ne m ρ c main_arg11 (by decide)).trans <|
    (keep_main_part15_ops1 (W33 m ρ c) main_arg11 (by decide)).trans <|
    (W33_of_ne m ρ c main_arg11 (by decide)).trans <|
    (keep_main_part15_ops0 (W31 m ρ c) main_arg11 (by decide)).trans <|
    (keep_main_part14_ops0 (W30 m ρ c) main_arg11 (by decide)).trans <|
    (keep_main_part13_ops0 (W29 m ρ c) main_arg11 (by decide)).trans <|
    (keep_main_part12_ops0 (W28 m ρ c) main_arg11 (by decide)).trans <|
    (keep_main_part11_ops0 (W27 m ρ c) main_arg11 (by decide)).trans <|
    (keep_main_part10_ops4 (W26 m ρ c) main_arg11 (by decide)).trans <|
    (W26_of_ne m ρ c main_arg11 (by decide)).trans <|
    (keep_main_part10_ops3 (W24 m ρ c) main_arg11 (by decide)).trans <|
    (W24_of_ne m ρ c main_arg11 (by decide)).trans <|
    (keep_main_part10_ops2 (W22 m ρ c) main_arg11 (by decide)).trans <|
    (W22_of_ne m ρ c main_arg11 (by decide)).trans <|
    (keep_main_part10_ops1 (W20 m ρ c) main_arg11 (by decide)).trans <|
    (W20_of_ne m ρ c main_arg11 (by decide)).trans <|
    (keep_main_part10_ops0 (W18 m ρ c) main_arg11 (by decide)).trans <|
    (keep_main_part9_ops0 (W17 m ρ c) main_arg11 (by decide)).trans <|
    (keep_main_part8_ops0 (W16 m ρ c) main_arg11 (by decide)).trans <|
    (keep_main_part7_ops0 (W15 m ρ c) main_arg11 (by decide)).trans <|
    (keep_main_part6_ops0 (W14 m ρ c) main_arg11 (by decide)).trans <|
    (keep_main_part5_ops3 (W13 m ρ c) main_arg11 (by decide)).trans <|
    (W13_of_ne m ρ c main_arg11 (by decide)).trans <|
    (keep_main_part5_ops2 (W11 m ρ c) main_arg11 (by decide)).trans <|
    (W11_of_ne m ρ c main_arg11 (by decide)).trans <|
    (keep_main_part5_ops1 (W9 m ρ c) main_arg11 (by decide)).trans <|
    (W9_of_ne m ρ c main_arg11 (by decide)).trans <|
    (keep_main_part5_ops0 (W7 m ρ c) main_arg11 (by decide)).trans <|
    (keep_main_part4_ops1 (W6 m ρ c) main_arg11 (by decide)).trans <|
    (W6_of_ne m ρ c main_arg11 (by decide)).trans <|
    (keep_main_part4_ops0 (W4 m ρ c) main_arg11 (by decide)).trans <|
    (keep_main_part3_ops0 (W3 m ρ c) main_arg11 (by decide)).trans <|
    (keep_main_part2_ops0 (W2 m ρ c) main_arg11 (by decide)).trans <|
    (keep_main_part1_ops0 (W1 m ρ c) main_arg11 (by decide)).trans <|
    (keep_main_part0_ops0 (W0 m ρ c) main_arg11 (by decide)).trans <|
    rfl

/-- Region 13, window 3: as the array stands at the region's entry. -/
theorem in13_3 (c : Dev nD) :
    Vin13 m ρ c (Pipeline.arrRef spec13 3)
      = (m ((c : Thread nD τ).loc main_arg13)) :=
  (keep_main_part16_ops2 (W42 m ρ c) main_arg13 (by decide)).trans <|
    (W42_of_ne m ρ c main_arg13 (by decide)).trans <|
    (keep_main_part16_ops1 (W40 m ρ c) main_arg13 (by decide)).trans <|
    (W40_of_ne m ρ c main_arg13 (by decide)).trans <|
    (keep_main_part16_ops0 (W38 m ρ c) main_arg13 (by decide)).trans <|
    (keep_main_part15_ops3 (W37 m ρ c) main_arg13 (by decide)).trans <|
    (W37_of_ne m ρ c main_arg13 (by decide)).trans <|
    (keep_main_part15_ops2 (W35 m ρ c) main_arg13 (by decide)).trans <|
    (W35_of_ne m ρ c main_arg13 (by decide)).trans <|
    (keep_main_part15_ops1 (W33 m ρ c) main_arg13 (by decide)).trans <|
    (W33_of_ne m ρ c main_arg13 (by decide)).trans <|
    (keep_main_part15_ops0 (W31 m ρ c) main_arg13 (by decide)).trans <|
    (keep_main_part14_ops0 (W30 m ρ c) main_arg13 (by decide)).trans <|
    (keep_main_part13_ops0 (W29 m ρ c) main_arg13 (by decide)).trans <|
    (keep_main_part12_ops0 (W28 m ρ c) main_arg13 (by decide)).trans <|
    (keep_main_part11_ops0 (W27 m ρ c) main_arg13 (by decide)).trans <|
    (keep_main_part10_ops4 (W26 m ρ c) main_arg13 (by decide)).trans <|
    (W26_of_ne m ρ c main_arg13 (by decide)).trans <|
    (keep_main_part10_ops3 (W24 m ρ c) main_arg13 (by decide)).trans <|
    (W24_of_ne m ρ c main_arg13 (by decide)).trans <|
    (keep_main_part10_ops2 (W22 m ρ c) main_arg13 (by decide)).trans <|
    (W22_of_ne m ρ c main_arg13 (by decide)).trans <|
    (keep_main_part10_ops1 (W20 m ρ c) main_arg13 (by decide)).trans <|
    (W20_of_ne m ρ c main_arg13 (by decide)).trans <|
    (keep_main_part10_ops0 (W18 m ρ c) main_arg13 (by decide)).trans <|
    (keep_main_part9_ops0 (W17 m ρ c) main_arg13 (by decide)).trans <|
    (keep_main_part8_ops0 (W16 m ρ c) main_arg13 (by decide)).trans <|
    (keep_main_part7_ops0 (W15 m ρ c) main_arg13 (by decide)).trans <|
    (keep_main_part6_ops0 (W14 m ρ c) main_arg13 (by decide)).trans <|
    (keep_main_part5_ops3 (W13 m ρ c) main_arg13 (by decide)).trans <|
    (W13_of_ne m ρ c main_arg13 (by decide)).trans <|
    (keep_main_part5_ops2 (W11 m ρ c) main_arg13 (by decide)).trans <|
    (W11_of_ne m ρ c main_arg13 (by decide)).trans <|
    (keep_main_part5_ops1 (W9 m ρ c) main_arg13 (by decide)).trans <|
    (W9_of_ne m ρ c main_arg13 (by decide)).trans <|
    (keep_main_part5_ops0 (W7 m ρ c) main_arg13 (by decide)).trans <|
    (keep_main_part4_ops1 (W6 m ρ c) main_arg13 (by decide)).trans <|
    (W6_of_ne m ρ c main_arg13 (by decide)).trans <|
    (keep_main_part4_ops0 (W4 m ρ c) main_arg13 (by decide)).trans <|
    (keep_main_part3_ops0 (W3 m ρ c) main_arg13 (by decide)).trans <|
    (keep_main_part2_ops0 (W2 m ρ c) main_arg13 (by decide)).trans <|
    (keep_main_part1_ops0 (W1 m ρ c) main_arg13 (by decide)).trans <|
    (keep_main_part0_ops0 (W0 m ρ c) main_arg13 (by decide)).trans <|
    rfl

end Values

/-! ## The weight windows, index by index -/

section Weights
variable (m : (ℓ : Loc nD τ sig) → Buf (Elt Ideal) ℓ) (ρ : Dev nD → PrngReg)

theorem in12_2 (c : Dev nD) (u : Fin 1) (h : Fin 128) :
    (Vin12 m ρ c (Pipeline.arrRef spec12 2) : Vec Ideal S1x128 .f32) (ix2 u h)
      = (m ((c : Thread nD τ).loc main_arg8) : Vec Ideal S128 .f32) (ix1 h) := by
  refine (congrFun (show Vin12 m ρ c (Pipeline.arrRef spec12 2) = _ from
    val_v819 m ρ c) (ix2 u h)).trans ?_
  exact shapeCast_a_1a_apply _ _ u h

theorem in12_4 (c : Dev nD) (u : Fin 1) (h : Fin 2) :
    (Vin12 m ρ c (Pipeline.arrRef spec12 4) : Vec Ideal S1x2 .f32) (ix2 u h)
      = (m ((c : Thread nD τ).loc main_arg10) : Vec Ideal S2 .f32) (ix1 h) := by
  refine (congrFun (show Vin12 m ρ c (Pipeline.arrRef spec12 4) = _ from
    val_v820 m ρ c) (ix2 u h)).trans ?_
  exact shapeCast_a_1a_apply _ _ u h

theorem in13_2 (c : Dev nD) (u : Fin 1) (h : Fin 128) :
    (Vin13 m ρ c (Pipeline.arrRef spec13 2) : Vec Ideal S1x128 .f32) (ix2 u h)
      = (m ((c : Thread nD τ).loc main_arg12) : Vec Ideal S128 .f32) (ix1 h) := by
  refine (congrFun (show Vin13 m ρ c (Pipeline.arrRef spec13 2) = _ from
    val_v822 m ρ c) (ix2 u h)).trans ?_
  exact shapeCast_a_1a_apply _ _ u h

theorem in13_4 (c : Dev nD) (u : Fin 1) (h : Fin 2) :
    (Vin13 m ρ c (Pipeline.arrRef spec13 4) : Vec Ideal S1x2 .f32) (ix2 u h)
      = (m ((c : Thread nD τ).loc main_arg14) : Vec Ideal S2 .f32) (ix1 h) := by
  refine (congrFun (show Vin13 m ρ c (Pipeline.arrRef spec13 4) = _ from
    val_v823 m ρ c) (ix2 u h)).trans ?_
  exact shapeCast_a_1a_apply _ _ u h

end Weights

end Cert.KernelIdeal.Hand

end
-- ==== Proof.KI.KNet.lean ====
/- The kernel program's two results as functions of the launch memory: each region's output array, read by row and
   column, is the next layer step (or the head) of the features the region finds, so that after the three layers'
   twelve regions the features are the three kernel-form steps of the input features, and the two heads' outputs the
   two-layer heads of the bus and generator features. -/
import proofs.«125545_j64845416235624_1_alg».proof.Proof.KI.Fold
import proofs.«125545_j64845416235624_1_alg».proof.Proof.KI.Keep
import proofs.«125545_j64845416235624_1_alg».proof.Proof.KI.Val0
import proofs.«125545_j64845416235624_1_alg».proof.Proof.KI.Val1
import proofs.«125545_j64845416235624_1_alg».proof.Proof.KI.Val2
import proofs.«125545_j64845416235624_1_alg».proof.Proof.KI.Val3
import proofs.«125545_j64845416235624_1_alg».proof.Proof.KI.Val4
import proofs.«125545_j64845416235624_1_alg».proof.Proof.KI.Val5
import proofs.«125545_j64845416235624_1_alg».proof.Proof.KI.Val6
import proofs.«125545_j64845416235624_1_alg».proof.Proof.KI.Val7
import proofs.«125545_j64845416235624_1_alg».proof.Proof.KI.Val8
import proofs.«125545_j64845416235624_1_alg».proof.Proof.KI.Val9
import proofs.«125545_j64845416235624_1_alg».proof.Proof.KI.Val10
import proofs.«125545_j64845416235624_1_alg».proof.Proof.KI.Val11
import proofs.«125545_j64845416235624_1_alg».proof.Proof.KI.Val12
import proofs.«125545_j64845416235624_1_alg».proof.Proof.KI.Val13
import proofs.«125545_j64845416235624_1_alg».proof.Proof.KI.HostIn0
import proofs.«125545_j64845416235624_1_alg».proof.Proof.KI.HostIn1
import proofs.«125545_j64845416235624_1_alg».proof.Proof.KI.HostIn2
import proofs.«125545_j64845416235624_1_alg».proof.Proof.KI.HostInHead
import proofs.«125545_j64845416235624_1_alg».proof.Proof.NetDefs

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Cert.Hand.Net (cur2 unc2 cur1 unc2_cur2 aggs feat0 featK headArr)

variable (m : (ℓ : Loc nD τ sig) → Buf (Elt Ideal) ℓ) (ρ : Dev nD → PrngReg)

/-! ## The network's pieces at the launch memory -/

/-- The eight aggregations at the launch memory's edge indices. -/
def kA (c : Dev nD) : Cert.Spec.Aggs (Fin 100000) (Fin 20000) (Fin 50000) (Fin 5000) (Fin 128) :=
  aggs (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
/-- The input features. -/
def kX0 (c : Dev nD) : Cert.Spec.Feat (Fin 100000) (Fin 20000) (Fin 50000) (Fin 5000) (Fin 128) :=
  feat0 (m ((c : Thread nD τ).loc main_arg0)) (m ((c : Thread nD τ).loc main_arg1)) (m ((c : Thread nD τ).loc main_arg2)) (m ((c : Thread nD τ).loc main_arg3))
/-- One kernel-form step with layer l's weights. -/
def kStep (c : Dev nD) (l : Fin 3) (x : Cert.Spec.Feat (Fin 100000) (Fin 20000) (Fin 50000) (Fin 5000) (Fin 128)) :
    Cert.Spec.Feat (Fin 100000) (Fin 20000) (Fin 50000) (Fin 5000) (Fin 128) :=
  Cert.Spec.stepK (kA m c) (Cert.Hand.Net.W4 (m ((c : Thread nD τ).loc main_arg4)) l) (Cert.Hand.Net.W4 (m ((c : Thread nD τ).loc main_arg6)) l) (Cert.Hand.Net.B3 (m ((c : Thread nD τ).loc main_arg5)) l) x
/-- The features after one, two and three layers. -/
def kX1 (c : Dev nD) := kStep m c 0 (kX0 m c)
def kX2 (c : Dev nD) := kStep m c 1 (kX1 m c)
def kX3 (c : Dev nD) := kStep m c 2 (kX2 m c)

theorem kX3_eq (c : Dev nD) :
    kX3 m c = featK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := rfl

/-! ## A region's output array from its windows' arrays -/

/-- A one-aggregate step read back by row and column, operand by operand. -/
theorem layer1K_cur2 {n : Nat} {a a' xd xd' : Fin n → Fin 128 → EReal} {wl wl' wr wr' : Fin 128 → Fin 128 → EReal}
    {b b' : Fin 128 → EReal} (ha : a = a') (hx : xd = xd') (hwl : wl = wl') (hwr : wr = wr') (hb : b = b') :
    cur2 (n0 := n) (n1 := 128) (fun idx => Cert.Spec.layer1K a xd wl wr b (idx 0) (idx 1))
      = Cert.Spec.layer1K a' xd' wl' wr' b' := by
  subst ha hx hwl hwr hb; rfl

/-- A five-aggregate step read back by row and column, operand by operand. -/
theorem layer5K_cur2 {n : Nat} {a0 a0' a1 a1' a2 a2' a3 a3' a4 a4' xd xd' : Fin n → Fin 128 → EReal}
    {w0 w0' w1 w1' w2 w2' w3 w3' w4 w4' wr wr' : Fin 128 → Fin 128 → EReal} {b b' : Fin 128 → EReal}
    (h0 : a0 = a0') (h1 : a1 = a1') (h2 : a2 = a2') (h3 : a3 = a3') (h4 : a4 = a4') (hx : xd = xd')
    (g0 : w0 = w0') (g1 : w1 = w1') (g2 : w2 = w2') (g3 : w3 = w3') (g4 : w4 = w4') (hwr : wr = wr') (hb : b = b') :
    cur2 (n0 := n) (n1 := 128) (fun idx => Cert.Spec.layer5K a0 a1 a2 a3 a4 xd w0 w1 w2 w3 w4 wr b (idx 0) (idx 1))
      = Cert.Spec.layer5K a0' a1' a2' a3' a4' xd' w0' w1' w2' w3' w4' wr' b' := by
  subst h0 h1 h2 h3 h4 hx g0 g1 g2 g3 g4 hwr hb; rfl

/-- A head's output array, operand by operand. -/
theorem head_unc2 {n : Nat} {x x' : Fin n → Fin 128 → EReal} {w1 : Fin 128 → Fin 128 → EReal} {b1 : Fin 128 → EReal}
    {w2 : Fin 128 → Fin 2 → EReal} {b2 : Fin 2 → EReal}
    {W1 : (⟨2, ![128, 128]⟩ : Shape).Idx → EReal} {B1 : (⟨1, ![128]⟩ : Shape).Idx → EReal}
    {W2 : (⟨2, ![128, 2]⟩ : Shape).Idx → EReal} {B2 : (⟨1, ![2]⟩ : Shape).Idx → EReal}
    (hx : x = x') (h1 : w1 = cur2 W1) (hb1 : b1 = cur1 B1) (h2 : w2 = cur2 W2) (hb2 : b2 = cur1 B2) :
    (fun (idx : (⟨2, ![n, 2]⟩ : Shape).Idx) => Cert.Spec.head x w1 b1 w2 b2 (idx 0) (idx 1)) = headArr x' W1 B1 W2 B2 := by
  subst hx h1 hb1 h2 hb2; rfl

/-! ## The regions, layer by layer -/

set_option maxHeartbeats 1600000 in
/-- Region 0 (layer 0, bus): its output by row and column is the bus component of the layer's step. -/
theorem kout0 (c : Dev nD) : cur2 (Vout0 m ρ c (Pipeline.arrRef spec0 9)) = (kX1 m c).b := by
  have hb : (m ((c : Thread nD τ).loc main_arg0)) = unc2 (kX0 m c).b := (unc2_cur2 (m ((c : Thread nD τ).loc main_arg0))).symm
  have hg : (m ((c : Thread nD τ).loc main_arg1)) = unc2 (kX0 m c).g := (unc2_cur2 (m ((c : Thread nD τ).loc main_arg1))).symm
  have hl : (m ((c : Thread nD τ).loc main_arg2)) = unc2 (kX0 m c).l := (unc2_cur2 (m ((c : Thread nD τ).loc main_arg2))).symm
  have hs : (m ((c : Thread nD τ).loc main_arg3)) = unc2 (kX0 m c).s := (unc2_cur2 (m ((c : Thread nD τ).loc main_arg3))).symm
  show _ = Cert.Spec.layer5K ((kA m c).ac (kX0 m c).b) ((kA m c).tr (kX0 m c).b) ((kA m c).gb (kX0 m c).g)
    ((kA m c).lb (kX0 m c).l) ((kA m c).sb (kX0 m c).s) (kX0 m c).b
    (Cert.Hand.Net.W4 (m ((c : Thread nD τ).loc main_arg4)) (0 : Fin 3) 0) (Cert.Hand.Net.W4 (m ((c : Thread nD τ).loc main_arg4)) (0 : Fin 3) 1) (Cert.Hand.Net.W4 (m ((c : Thread nD τ).loc main_arg4)) (0 : Fin 3) 2)
    (Cert.Hand.Net.W4 (m ((c : Thread nD τ).loc main_arg4)) (0 : Fin 3) 4) (Cert.Hand.Net.W4 (m ((c : Thread nD τ).loc main_arg4)) (0 : Fin 3) 6)
    (fun k j => (((Cert.Hand.Net.W4 (m ((c : Thread nD τ).loc main_arg6)) (0 : Fin 3) 0 k j + Cert.Hand.Net.W4 (m ((c : Thread nD τ).loc main_arg6)) (0 : Fin 3) 1 k j)
      + Cert.Hand.Net.W4 (m ((c : Thread nD τ).loc main_arg6)) (0 : Fin 3) 2 k j) + Cert.Hand.Net.W4 (m ((c : Thread nD τ).loc main_arg6)) (0 : Fin 3) 4 k j) + Cert.Hand.Net.W4 (m ((c : Thread nD τ).loc main_arg6)) (0 : Fin 3) 6 k j)
    (fun j => (((Cert.Hand.Net.B3 (m ((c : Thread nD τ).loc main_arg5)) (0 : Fin 3) 0 j + Cert.Hand.Net.B3 (m ((c : Thread nD τ).loc main_arg5)) (0 : Fin 3) 1 j)
      + Cert.Hand.Net.B3 (m ((c : Thread nD τ).loc main_arg5)) (0 : Fin 3) 2 j) + Cert.Hand.Net.B3 (m ((c : Thread nD τ).loc main_arg5)) (0 : Fin 3) 4 j) + Cert.Hand.Net.B3 (m ((c : Thread nD τ).loc main_arg5)) (0 : Fin 3) 6 j)
  refine (congrArg (cur2 (n0 := 100000) (n1 := 128)) ((hF0 m ρ c 9).symm.trans (val0 (Vin0 m ρ) c))).trans
    (layer5K_cur2 ?_ ?_ ?_ ?_ ?_ ?_ ?_ ?_ ?_ ?_ ?_ ?_ ?_)
  · rw [in0_0 m ρ c, hb] <;> rfl
  · rw [in0_1 m ρ c, hb] <;> rfl
  · rw [in0_2 m ρ c, hg] <;> rfl
  · rw [in0_3 m ρ c, hl] <;> rfl
  · rw [in0_4 m ρ c, hs] <;> rfl
  · rw [in0_5 m ρ c, hb] <;> rfl
  · exact funext fun k => funext fun j => in0_6 m ρ c 0 k j
  · exact funext fun k => funext fun j => in0_6 m ρ c 1 k j
  · exact funext fun k => funext fun j => in0_6 m ρ c 2 k j
  · exact funext fun k => funext fun j => in0_6 m ρ c 3 k j
  · exact funext fun k => funext fun j => in0_6 m ρ c 4 k j
  · exact funext fun k => funext fun j => in0_7 m ρ c k j
  · exact funext fun j => in0_8 m ρ c 0 j

set_option maxHeartbeats 800000 in
/-- Region 1 (layer 0, generator): its output by row and column is that component of the layer's step. -/
theorem kout1 (c : Dev nD) : cur2 (Vout1 m ρ c (Pipeline.arrRef spec1 5)) = (kX1 m c).g := by
  have hb : (m ((c : Thread nD τ).loc main_arg0)) = unc2 (kX0 m c).b := (unc2_cur2 (m ((c : Thread nD τ).loc main_arg0))).symm
  have ht : (m ((c : Thread nD τ).loc main_arg1)) = unc2 (kX0 m c).g := (unc2_cur2 (m ((c : Thread nD τ).loc main_arg1))).symm
  show _ = Cert.Spec.layer1K ((kA m c).bg (kX0 m c).b) (kX0 m c).g
    (Cert.Hand.Net.W4 (m ((c : Thread nD τ).loc main_arg4)) (0 : Fin 3) (3 : Fin 8)) (Cert.Hand.Net.W4 (m ((c : Thread nD τ).loc main_arg6)) (0 : Fin 3) (3 : Fin 8)) (Cert.Hand.Net.B3 (m ((c : Thread nD τ).loc main_arg5)) (0 : Fin 3) (3 : Fin 8))
  refine (congrArg (cur2 (n0 := 20000) (n1 := 128)) ((hF1 m ρ c 5).symm.trans (val1 (Vin1 m ρ) c))).trans
    (layer1K_cur2 ?_ ?_ ?_ ?_ ?_)
  · rw [in1_0 m ρ c, hb] <;> rfl
  · rw [in1_1 m ρ c, ht] <;> rfl
  · exact funext fun k => funext fun j => in1_2 m ρ c 0 k j
  · exact funext fun k => funext fun j => in1_3 m ρ c k j
  · exact funext fun j => in1_4 m ρ c 0 j

set_option maxHeartbeats 800000 in
/-- Region 2 (layer 0, load): its output by row and column is that component of the layer's step. -/
theorem kout2 (c : Dev nD) : cur2 (Vout2 m ρ c (Pipeline.arrRef spec2 5)) = (kX1 m c).l := by
  have hb : (m ((c : Thread nD τ).loc main_arg0)) = unc2 (kX0 m c).b := (unc2_cur2 (m ((c : Thread nD τ).loc main_arg0))).symm
  have ht : (m ((c : Thread nD τ).loc main_arg2)) = unc2 (kX0 m c).l := (unc2_cur2 (m ((c : Thread nD τ).loc main_arg2))).symm
  show _ = Cert.Spec.layer1K ((kA m c).bl (kX0 m c).b) (kX0 m c).l
    (Cert.Hand.Net.W4 (m ((c : Thread nD τ).loc main_arg4)) (0 : Fin 3) (5 : Fin 8)) (Cert.Hand.Net.W4 (m ((c : Thread nD τ).loc main_arg6)) (0 : Fin 3) (5 : Fin 8)) (Cert.Hand.Net.B3 (m ((c : Thread nD τ).loc main_arg5)) (0 : Fin 3) (5 : Fin 8))
  refine (congrArg (cur2 (n0 := 50000) (n1 := 128)) ((hF2 m ρ c 5).symm.trans (val2 (Vin2 m ρ) c))).trans
    (layer1K_cur2 ?_ ?_ ?_ ?_ ?_)
  · rw [in2_0 m ρ c, hb] <;> rfl
  · rw [in2_1 m ρ c, ht] <;> rfl
  · exact funext fun k => funext fun j => in2_2 m ρ c 0 k j
  · exact funext fun k => funext fun j => in2_3 m ρ c k j
  · exact funext fun j => in2_4 m ρ c 0 j

set_option maxHeartbeats 800000 in
/-- Region 3 (layer 0, shunt): its output by row and column is that component of the layer's step. -/
theorem kout3 (c : Dev nD) : cur2 (Vout3 m ρ c (Pipeline.arrRef spec3 5)) = (kX1 m c).s := by
  have hb : (m ((c : Thread nD τ).loc main_arg0)) = unc2 (kX0 m c).b := (unc2_cur2 (m ((c : Thread nD τ).loc main_arg0))).symm
  have ht : (m ((c : Thread nD τ).loc main_arg3)) = unc2 (kX0 m c).s := (unc2_cur2 (m ((c : Thread nD τ).loc main_arg3))).symm
  show _ = Cert.Spec.layer1K ((kA m c).bs (kX0 m c).b) (kX0 m c).s
    (Cert.Hand.Net.W4 (m ((c : Thread nD τ).loc main_arg4)) (0 : Fin 3) (7 : Fin 8)) (Cert.Hand.Net.W4 (m ((c : Thread nD τ).loc main_arg6)) (0 : Fin 3) (7 : Fin 8)) (Cert.Hand.Net.B3 (m ((c : Thread nD τ).loc main_arg5)) (0 : Fin 3) (7 : Fin 8))
  refine (congrArg (cur2 (n0 := 5000) (n1 := 128)) ((hF3 m ρ c 5).symm.trans (val3 (Vin3 m ρ) c))).trans
    (layer1K_cur2 ?_ ?_ ?_ ?_ ?_)
  · rw [in3_0 m ρ c, hb] <;> rfl
  · rw [in3_1 m ρ c, ht] <;> rfl
  · exact funext fun k => funext fun j => in3_2 m ρ c 0 k j
  · exact funext fun k => funext fun j => in3_3 m ρ c k j
  · exact funext fun j => in3_4 m ρ c 0 j

set_option maxHeartbeats 1600000 in
/-- Region 4 (layer 1, bus): its output by row and column is the bus component of the layer's step. -/
theorem kout4 (c : Dev nD) : cur2 (Vout4 m ρ c (Pipeline.arrRef spec4 9)) = (kX2 m c).b := by
  have hb : (Vout0 m ρ c (Pipeline.arrRef spec0 9)) = unc2 (kX1 m c).b := (by rw [← kout0 m ρ c, unc2_cur2])
  have hg : (Vout1 m ρ c (Pipeline.arrRef spec1 5)) = unc2 (kX1 m c).g := (by rw [← kout1 m ρ c, unc2_cur2])
  have hl : (Vout2 m ρ c (Pipeline.arrRef spec2 5)) = unc2 (kX1 m c).l := (by rw [← kout2 m ρ c, unc2_cur2])
  have hs : (Vout3 m ρ c (Pipeline.arrRef spec3 5)) = unc2 (kX1 m c).s := (by rw [← kout3 m ρ c, unc2_cur2])
  show _ = Cert.Spec.layer5K ((kA m c).ac (kX1 m c).b) ((kA m c).tr (kX1 m c).b) ((kA m c).gb (kX1 m c).g)
    ((kA m c).lb (kX1 m c).l) ((kA m c).sb (kX1 m c).s) (kX1 m c).b
    (Cert.Hand.Net.W4 (m ((c : Thread nD τ).loc main_arg4)) (1 : Fin 3) 0) (Cert.Hand.Net.W4 (m ((c : Thread nD τ).loc main_arg4)) (1 : Fin 3) 1) (Cert.Hand.Net.W4 (m ((c : Thread nD τ).loc main_arg4)) (1 : Fin 3) 2)
    (Cert.Hand.Net.W4 (m ((c : Thread nD τ).loc main_arg4)) (1 : Fin 3) 4) (Cert.Hand.Net.W4 (m ((c : Thread nD τ).loc main_arg4)) (1 : Fin 3) 6)
    (fun k j => (((Cert.Hand.Net.W4 (m ((c : Thread nD τ).loc main_arg6)) (1 : Fin 3) 0 k j + Cert.Hand.Net.W4 (m ((c : Thread nD τ).loc main_arg6)) (1 : Fin 3) 1 k j)
      + Cert.Hand.Net.W4 (m ((c : Thread nD τ).loc main_arg6)) (1 : Fin 3) 2 k j) + Cert.Hand.Net.W4 (m ((c : Thread nD τ).loc main_arg6)) (1 : Fin 3) 4 k j) + Cert.Hand.Net.W4 (m ((c : Thread nD τ).loc main_arg6)) (1 : Fin 3) 6 k j)
    (fun j => (((Cert.Hand.Net.B3 (m ((c : Thread nD τ).loc main_arg5)) (1 : Fin 3) 0 j + Cert.Hand.Net.B3 (m ((c : Thread nD τ).loc main_arg5)) (1 : Fin 3) 1 j)
      + Cert.Hand.Net.B3 (m ((c : Thread nD τ).loc main_arg5)) (1 : Fin 3) 2 j) + Cert.Hand.Net.B3 (m ((c : Thread nD τ).loc main_arg5)) (1 : Fin 3) 4 j) + Cert.Hand.Net.B3 (m ((c : Thread nD τ).loc main_arg5)) (1 : Fin 3) 6 j)
  refine (congrArg (cur2 (n0 := 100000) (n1 := 128)) ((hF4 m ρ c 9).symm.trans (val4 (Vin4 m ρ) c))).trans
    (layer5K_cur2 ?_ ?_ ?_ ?_ ?_ ?_ ?_ ?_ ?_ ?_ ?_ ?_ ?_)
  · rw [in4_0 m ρ c, hb] <;> rfl
  · rw [in4_1 m ρ c, hb] <;> rfl
  · rw [in4_2 m ρ c, hg] <;> rfl
  · rw [in4_3 m ρ c, hl] <;> rfl
  · rw [in4_4 m ρ c, hs] <;> rfl
  · rw [in4_5 m ρ c, hb] <;> rfl
  · exact funext fun k => funext fun j => in4_6 m ρ c 0 k j
  · exact funext fun k => funext fun j => in4_6 m ρ c 1 k j
  · exact funext fun k => funext fun j => in4_6 m ρ c 2 k j
  · exact funext fun k => funext fun j => in4_6 m ρ c 3 k j
  · exact funext fun k => funext fun j => in4_6 m ρ c 4 k j
  · exact funext fun k => funext fun j => in4_7 m ρ c k j
  · exact funext fun j => in4_8 m ρ c 0 j

set_option maxHeartbeats 800000 in
/-- Region 5 (layer 1, generator): its output by row and column is that component of the layer's step. -/
theorem kout5 (c : Dev nD) : cur2 (Vout5 m ρ c (Pipeline.arrRef spec5 5)) = (kX2 m c).g := by
  have hb : (Vout0 m ρ c (Pipeline.arrRef spec0 9)) = unc2 (kX1 m c).b := (by rw [← kout0 m ρ c, unc2_cur2])
  have ht : (Vout1 m ρ c (Pipeline.arrRef spec1 5)) = unc2 (kX1 m c).g := (by rw [← kout1 m ρ c, unc2_cur2])
  show _ = Cert.Spec.layer1K ((kA m c).bg (kX1 m c).b) (kX1 m c).g
    (Cert.Hand.Net.W4 (m ((c : Thread nD τ).loc main_arg4)) (1 : Fin 3) (3 : Fin 8)) (Cert.Hand.Net.W4 (m ((c : Thread nD τ).loc main_arg6)) (1 : Fin 3) (3 : Fin 8)) (Cert.Hand.Net.B3 (m ((c : Thread nD τ).loc main_arg5)) (1 : Fin 3) (3 : Fin 8))
  refine (congrArg (cur2 (n0 := 20000) (n1 := 128)) ((hF5 m ρ c 5).symm.trans (val5 (Vin5 m ρ) c))).trans
    (layer1K_cur2 ?_ ?_ ?_ ?_ ?_)
  · rw [in5_0 m ρ c, hb] <;> rfl
  · rw [in5_1 m ρ c, ht] <;> rfl
  · exact funext fun k => funext fun j => in5_2 m ρ c 0 k j
  · exact funext fun k => funext fun j => in5_3 m ρ c k j
  · exact funext fun j => in5_4 m ρ c 0 j

set_option maxHeartbeats 800000 in
/-- Region 6 (layer 1, load): its output by row and column is that component of the layer's step. -/
theorem kout6 (c : Dev nD) : cur2 (Vout6 m ρ c (Pipeline.arrRef spec6 5)) = (kX2 m c).l := by
  have hb : (Vout0 m ρ c (Pipeline.arrRef spec0 9)) = unc2 (kX1 m c).b := (by rw [← kout0 m ρ c, unc2_cur2])
  have ht : (Vout2 m ρ c (Pipeline.arrRef spec2 5)) = unc2 (kX1 m c).l := (by rw [← kout2 m ρ c, unc2_cur2])
  show _ = Cert.Spec.layer1K ((kA m c).bl (kX1 m c).b) (kX1 m c).l
    (Cert.Hand.Net.W4 (m ((c : Thread nD τ).loc main_arg4)) (1 : Fin 3) (5 : Fin 8)) (Cert.Hand.Net.W4 (m ((c : Thread nD τ).loc main_arg6)) (1 : Fin 3) (5 : Fin 8)) (Cert.Hand.Net.B3 (m ((c : Thread nD τ).loc main_arg5)) (1 : Fin 3) (5 : Fin 8))
  refine (congrArg (cur2 (n0 := 50000) (n1 := 128)) ((hF6 m ρ c 5).symm.trans (val6 (Vin6 m ρ) c))).trans
    (layer1K_cur2 ?_ ?_ ?_ ?_ ?_)
  · rw [in6_0 m ρ c, hb] <;> rfl
  · rw [in6_1 m ρ c, ht] <;> rfl
  · exact funext fun k => funext fun j => in6_2 m ρ c 0 k j
  · exact funext fun k => funext fun j => in6_3 m ρ c k j
  · exact funext fun j => in6_4 m ρ c 0 j

set_option maxHeartbeats 800000 in
/-- Region 7 (layer 1, shunt): its output by row and column is that component of the layer's step. -/
theorem kout7 (c : Dev nD) : cur2 (Vout7 m ρ c (Pipeline.arrRef spec7 5)) = (kX2 m c).s := by
  have hb : (Vout0 m ρ c (Pipeline.arrRef spec0 9)) = unc2 (kX1 m c).b := (by rw [← kout0 m ρ c, unc2_cur2])
  have ht : (Vout3 m ρ c (Pipeline.arrRef spec3 5)) = unc2 (kX1 m c).s := (by rw [← kout3 m ρ c, unc2_cur2])
  show _ = Cert.Spec.layer1K ((kA m c).bs (kX1 m c).b) (kX1 m c).s
    (Cert.Hand.Net.W4 (m ((c : Thread nD τ).loc main_arg4)) (1 : Fin 3) (7 : Fin 8)) (Cert.Hand.Net.W4 (m ((c : Thread nD τ).loc main_arg6)) (1 : Fin 3) (7 : Fin 8)) (Cert.Hand.Net.B3 (m ((c : Thread nD τ).loc main_arg5)) (1 : Fin 3) (7 : Fin 8))
  refine (congrArg (cur2 (n0 := 5000) (n1 := 128)) ((hF7 m ρ c 5).symm.trans (val7 (Vin7 m ρ) c))).trans
    (layer1K_cur2 ?_ ?_ ?_ ?_ ?_)
  · rw [in7_0 m ρ c, hb] <;> rfl
  · rw [in7_1 m ρ c, ht] <;> rfl
  · exact funext fun k => funext fun j => in7_2 m ρ c 0 k j
  · exact funext fun k => funext fun j => in7_3 m ρ c k j
  · exact funext fun j => in7_4 m ρ c 0 j

set_option maxHeartbeats 1600000 in
/-- Region 8 (layer 2, bus): its output by row and column is the bus component of the layer's step. -/
theorem kout8 (c : Dev nD) : cur2 (Vout8 m ρ c (Pipeline.arrRef spec8 9)) = (kX3 m c).b := by
  have hb : (Vout4 m ρ c (Pipeline.arrRef spec4 9)) = unc2 (kX2 m c).b := (by rw [← kout4 m ρ c, unc2_cur2])
  have hg : (Vout5 m ρ c (Pipeline.arrRef spec5 5)) = unc2 (kX2 m c).g := (by rw [← kout5 m ρ c, unc2_cur2])
  have hl : (Vout6 m ρ c (Pipeline.arrRef spec6 5)) = unc2 (kX2 m c).l := (by rw [← kout6 m ρ c, unc2_cur2])
  have hs : (Vout7 m ρ c (Pipeline.arrRef spec7 5)) = unc2 (kX2 m c).s := (by rw [← kout7 m ρ c, unc2_cur2])
  show _ = Cert.Spec.layer5K ((kA m c).ac (kX2 m c).b) ((kA m c).tr (kX2 m c).b) ((kA m c).gb (kX2 m c).g)
    ((kA m c).lb (kX2 m c).l) ((kA m c).sb (kX2 m c).s) (kX2 m c).b
    (Cert.Hand.Net.W4 (m ((c : Thread nD τ).loc main_arg4)) (2 : Fin 3) 0) (Cert.Hand.Net.W4 (m ((c : Thread nD τ).loc main_arg4)) (2 : Fin 3) 1) (Cert.Hand.Net.W4 (m ((c : Thread nD τ).loc main_arg4)) (2 : Fin 3) 2)
    (Cert.Hand.Net.W4 (m ((c : Thread nD τ).loc main_arg4)) (2 : Fin 3) 4) (Cert.Hand.Net.W4 (m ((c : Thread nD τ).loc main_arg4)) (2 : Fin 3) 6)
    (fun k j => (((Cert.Hand.Net.W4 (m ((c : Thread nD τ).loc main_arg6)) (2 : Fin 3) 0 k j + Cert.Hand.Net.W4 (m ((c : Thread nD τ).loc main_arg6)) (2 : Fin 3) 1 k j)
      + Cert.Hand.Net.W4 (m ((c : Thread nD τ).loc main_arg6)) (2 : Fin 3) 2 k j) + Cert.Hand.Net.W4 (m ((c : Thread nD τ).loc main_arg6)) (2 : Fin 3) 4 k j) + Cert.Hand.Net.W4 (m ((c : Thread nD τ).loc main_arg6)) (2 : Fin 3) 6 k j)
    (fun j => (((Cert.Hand.Net.B3 (m ((c : Thread nD τ).loc main_arg5)) (2 : Fin 3) 0 j + Cert.Hand.Net.B3 (m ((c : Thread nD τ).loc main_arg5)) (2 : Fin 3) 1 j)
      + Cert.Hand.Net.B3 (m ((c : Thread nD τ).loc main_arg5)) (2 : Fin 3) 2 j) + Cert.Hand.Net.B3 (m ((c : Thread nD τ).loc main_arg5)) (2 : Fin 3) 4 j) + Cert.Hand.Net.B3 (m ((c : Thread nD τ).loc main_arg5)) (2 : Fin 3) 6 j)
  refine (congrArg (cur2 (n0 := 100000) (n1 := 128)) ((hF8 m ρ c 9).symm.trans (val8 (Vin8 m ρ) c))).trans
    (layer5K_cur2 ?_ ?_ ?_ ?_ ?_ ?_ ?_ ?_ ?_ ?_ ?_ ?_ ?_)
  · rw [in8_0 m ρ c, hb] <;> rfl
  · rw [in8_1 m ρ c, hb] <;> rfl
  · rw [in8_2 m ρ c, hg] <;> rfl
  · rw [in8_3 m ρ c, hl] <;> rfl
  · rw [in8_4 m ρ c, hs] <;> rfl
  · rw [in8_5 m ρ c, hb] <;> rfl
  · exact funext fun k => funext fun j => in8_6 m ρ c 0 k j
  · exact funext fun k => funext fun j => in8_6 m ρ c 1 k j
  · exact funext fun k => funext fun j => in8_6 m ρ c 2 k j
  · exact funext fun k => funext fun j => in8_6 m ρ c 3 k j
  · exact funext fun k => funext fun j => in8_6 m ρ c 4 k j
  · exact funext fun k => funext fun j => in8_7 m ρ c k j
  · exact funext fun j => in8_8 m ρ c 0 j

set_option maxHeartbeats 800000 in
/-- Region 9 (layer 2, generator): its output by row and column is that component of the layer's step. -/
theorem kout9 (c : Dev nD) : cur2 (Vout9 m ρ c (Pipeline.arrRef spec9 5)) = (kX3 m c).g := by
  have hb : (Vout4 m ρ c (Pipeline.arrRef spec4 9)) = unc2 (kX2 m c).b := (by rw [← kout4 m ρ c, unc2_cur2])
  have ht : (Vout5 m ρ c (Pipeline.arrRef spec5 5)) = unc2 (kX2 m c).g := (by rw [← kout5 m ρ c, unc2_cur2])
  show _ = Cert.Spec.layer1K ((kA m c).bg (kX2 m c).b) (kX2 m c).g
    (Cert.Hand.Net.W4 (m ((c : Thread nD τ).loc main_arg4)) (2 : Fin 3) (3 : Fin 8)) (Cert.Hand.Net.W4 (m ((c : Thread nD τ).loc main_arg6)) (2 : Fin 3) (3 : Fin 8)) (Cert.Hand.Net.B3 (m ((c : Thread nD τ).loc main_arg5)) (2 : Fin 3) (3 : Fin 8))
  refine (congrArg (cur2 (n0 := 20000) (n1 := 128)) ((hF9 m ρ c 5).symm.trans (val9 (Vin9 m ρ) c))).trans
    (layer1K_cur2 ?_ ?_ ?_ ?_ ?_)
  · rw [in9_0 m ρ c, hb] <;> rfl
  · rw [in9_1 m ρ c, ht] <;> rfl
  · exact funext fun k => funext fun j => in9_2 m ρ c 0 k j
  · exact funext fun k => funext fun j => in9_3 m ρ c k j
  · exact funext fun j => in9_4 m ρ c 0 j

set_option maxHeartbeats 800000 in
/-- Region 10 (layer 2, load): its output by row and column is that component of the layer's step. -/
theorem kout10 (c : Dev nD) : cur2 (Vout10 m ρ c (Pipeline.arrRef spec10 5)) = (kX3 m c).l := by
  have hb : (Vout4 m ρ c (Pipeline.arrRef spec4 9)) = unc2 (kX2 m c).b := (by rw [← kout4 m ρ c, unc2_cur2])
  have ht : (Vout6 m ρ c (Pipeline.arrRef spec6 5)) = unc2 (kX2 m c).l := (by rw [← kout6 m ρ c, unc2_cur2])
  show _ = Cert.Spec.layer1K ((kA m c).bl (kX2 m c).b) (kX2 m c).l
    (Cert.Hand.Net.W4 (m ((c : Thread nD τ).loc main_arg4)) (2 : Fin 3) (5 : Fin 8)) (Cert.Hand.Net.W4 (m ((c : Thread nD τ).loc main_arg6)) (2 : Fin 3) (5 : Fin 8)) (Cert.Hand.Net.B3 (m ((c : Thread nD τ).loc main_arg5)) (2 : Fin 3) (5 : Fin 8))
  refine (congrArg (cur2 (n0 := 50000) (n1 := 128)) ((hF10 m ρ c 5).symm.trans (val10 (Vin10 m ρ) c))).trans
    (layer1K_cur2 ?_ ?_ ?_ ?_ ?_)
  · rw [in10_0 m ρ c, hb] <;> rfl
  · rw [in10_1 m ρ c, ht] <;> rfl
  · exact funext fun k => funext fun j => in10_2 m ρ c 0 k j
  · exact funext fun k => funext fun j => in10_3 m ρ c k j
  · exact funext fun j => in10_4 m ρ c 0 j

set_option maxHeartbeats 800000 in
/-- Region 11 (layer 2, shunt): its output by row and column is that component of the layer's step. -/
theorem kout11 (c : Dev nD) : cur2 (Vout11 m ρ c (Pipeline.arrRef spec11 5)) = (kX3 m c).s := by
  have hb : (Vout4 m ρ c (Pipeline.arrRef spec4 9)) = unc2 (kX2 m c).b := (by rw [← kout4 m ρ c, unc2_cur2])
  have ht : (Vout7 m ρ c (Pipeline.arrRef spec7 5)) = unc2 (kX2 m c).s := (by rw [← kout7 m ρ c, unc2_cur2])
  show _ = Cert.Spec.layer1K ((kA m c).bs (kX2 m c).b) (kX2 m c).s
    (Cert.Hand.Net.W4 (m ((c : Thread nD τ).loc main_arg4)) (2 : Fin 3) (7 : Fin 8)) (Cert.Hand.Net.W4 (m ((c : Thread nD τ).loc main_arg6)) (2 : Fin 3) (7 : Fin 8)) (Cert.Hand.Net.B3 (m ((c : Thread nD τ).loc main_arg5)) (2 : Fin 3) (7 : Fin 8))
  refine (congrArg (cur2 (n0 := 5000) (n1 := 128)) ((hF11 m ρ c 5).symm.trans (val11 (Vin11 m ρ) c))).trans
    (layer1K_cur2 ?_ ?_ ?_ ?_ ?_)
  · rw [in11_0 m ρ c, hb] <;> rfl
  · rw [in11_1 m ρ c, ht] <;> rfl
  · exact funext fun k => funext fun j => in11_2 m ρ c 0 k j
  · exact funext fun k => funext fun j => in11_3 m ρ c k j
  · exact funext fun j => in11_4 m ρ c 0 j

/-! ## The heads and the program's two results -/

set_option maxHeartbeats 800000 in
/-- Region 12 (the bus head): its output is the two-layer head of the final bus features. -/
theorem kout12 (c : Dev nD) :
    Vout12 m ρ c (Pipeline.arrRef spec12 5) = headArr (kX3 m c).b (m ((c : Thread nD τ).loc main_arg7)) (m ((c : Thread nD τ).loc main_arg8)) (m ((c : Thread nD τ).loc main_arg9)) (m ((c : Thread nD τ).loc main_arg10)) := by
  have hx : (Vout8 m ρ c (Pipeline.arrRef spec8 9)) = unc2 (kX3 m c).b := (by rw [← kout8 m ρ c, unc2_cur2])
  refine ((hF12 m ρ c 5).symm.trans (val12 (Vin12 m ρ) c)).trans (head_unc2 ?_ ?_ ?_ ?_ ?_)
  · rw [in12_0 m ρ c, hx] <;> rfl
  · rw [in12_1 m ρ c] <;> rfl
  · exact funext fun h => in12_2 m ρ c 0 h
  · rw [in12_3 m ρ c] <;> rfl
  · exact funext fun o => in12_4 m ρ c 0 o

set_option maxHeartbeats 800000 in
/-- Region 13 (the generator head): its output is the two-layer head of the final generator features. -/
theorem kout13 (c : Dev nD) :
    Vout13 m ρ c (Pipeline.arrRef spec13 5) = headArr (kX3 m c).g (m ((c : Thread nD τ).loc main_arg11)) (m ((c : Thread nD τ).loc main_arg12)) (m ((c : Thread nD τ).loc main_arg13)) (m ((c : Thread nD τ).loc main_arg14)) := by
  have hx : (Vout9 m ρ c (Pipeline.arrRef spec9 5)) = unc2 (kX3 m c).g := (by rw [← kout9 m ρ c, unc2_cur2])
  refine ((hF13 m ρ c 5).symm.trans (val13 (Vin13 m ρ) c)).trans (head_unc2 ?_ ?_ ?_ ?_ ?_)
  · rw [in13_0 m ρ c, hx] <;> rfl
  · rw [in13_1 m ρ c] <;> rfl
  · exact funext fun h => in13_2 m ρ c 0 h
  · rw [in13_3 m ρ c] <;> rfl
  · exact funext fun o => in13_4 m ρ c 0 o

/-- The bus result: at the end of @main the array of region 12's output holds the head of the bus features. -/
theorem ker_bus_out (c : Dev nD) :
    Wfin m ρ c (Proc.devRef .tc main_v821)
      = headArr (featK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))).b (m ((c : Thread nD τ).loc main_arg7)) (m ((c : Thread nD τ).loc main_arg8)) (m ((c : Thread nD τ).loc main_arg9)) (m ((c : Thread nD τ).loc main_arg10)) :=
  (W44_of_ne m ρ c main_v821 (by decide)).trans <|
    (keep_main_part16_ops2 (W42 m ρ c) main_v821 (by decide)).trans <|
    (kout12 m ρ c)

/-- The generator result: region 13's output array holds the head of the generator features. -/
theorem ker_gen_out (c : Dev nD) :
    Wfin m ρ c (Proc.devRef .tc main_v824)
      = headArr (featK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))).g (m ((c : Thread nD τ).loc main_arg11)) (m ((c : Thread nD τ).loc main_arg12)) (m ((c : Thread nD τ).loc main_arg13)) (m ((c : Thread nD τ).loc main_arg14)) :=
  kout13 m ρ c

end Cert.KernelIdeal.Hand

end
-- ==== Proof.Ref.Weights.lean ====
/-
  The reference's weight operands read at an index. Each edge type e of layer l takes three operands cut
  out of the stacked arguments: Wl[l, e] and Wr[l, e] (a slice [1,1,128,128] of [3,8,128,128] reshaped to
  [128,128]) and bl[l, e] (a slice [1,1,128] of [3,8,128] reshaped to [128]). Element (k, j) of the reshaped
  matrix is element (l, e, k, j) of the stacked argument; element j of the reshaped vector is element (l, e, j).
-/
import proofs.«125545_j64845416235624_1_alg».proof.Proof.Ref.ReadP
import Idealize.ShloMosaic.Lib.ValueIdx

noncomputable section
namespace Cert.ReferenceIdeal.Hand
open Cert.ReferenceIdeal Cert.ReferenceIdeal.Gen Cert.ReferenceIdeal.Read Idealize.ShloMosaic Idealize.ShloMosaic.ValueIdx
open scoped BigOperators

variable {F : FTy → Type} [FloatOps F]

/-! Layer 0, edge type 0: the slices of the stacked weights and bias, read at an index. -/

theorem wl_0_0 (x4 : (⟨S3x8x128x128, .f32⟩ : BufTy).Contents (Elt F)) (k j : Fin 128) :
    val_main_v1 (F := F) x4 (ix2 k j) = x4 (ix4 0 0 k j) := by
  rw [val_main_v1_apply, val_main_v0_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_0 (x5 : (⟨S3x8x128, .f32⟩ : BufTy).Contents (Elt F)) (j : Fin 128) :
    val_main_v3 (F := F) x5 (ix1 j) = x5 (ix3 0 0 j) := by
  rw [val_main_v3_apply, val_main_v2_apply]
  congr 1
  funext a
  apply Fin.ext
  have hj := j.isLt
  match a with
  | ⟨0, _⟩ => rfl
  | ⟨1, _⟩ => rfl
  | ⟨2, _⟩ => show j.val % 128 = j.val; omega

theorem wr_0_0 (x6 : (⟨S3x8x128x128, .f32⟩ : BufTy).Contents (Elt F)) (k j : Fin 128) :
    val_main_v5 (F := F) x6 (ix2 k j) = x6 (ix4 0 0 k j) := by
  rw [val_main_v5_apply, val_main_v4_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 0, edge type 1: the slices of the stacked weights and bias, read at an index. -/

theorem wl_0_1 (x4 : (⟨S3x8x128x128, .f32⟩ : BufTy).Contents (Elt F)) (k j : Fin 128) :
    val_main_v38 (F := F) x4 (ix2 k j) = x4 (ix4 0 1 k j) := by
  rw [val_main_v38_apply, val_main_v37_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_1 (x5 : (⟨S3x8x128, .f32⟩ : BufTy).Contents (Elt F)) (j : Fin 128) :
    val_main_v40 (F := F) x5 (ix1 j) = x5 (ix3 0 1 j) := by
  rw [val_main_v40_apply, val_main_v39_apply]
  congr 1
  funext a
  apply Fin.ext
  have hj := j.isLt
  match a with
  | ⟨0, _⟩ => rfl
  | ⟨1, _⟩ => rfl
  | ⟨2, _⟩ => show j.val % 128 = j.val; omega

theorem wr_0_1 (x6 : (⟨S3x8x128x128, .f32⟩ : BufTy).Contents (Elt F)) (k j : Fin 128) :
    val_main_v42 (F := F) x6 (ix2 k j) = x6 (ix4 0 1 k j) := by
  rw [val_main_v42_apply, val_main_v41_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 0, edge type 2: the slices of the stacked weights and bias, read at an index. -/

theorem wl_0_2 (x4 : (⟨S3x8x128x128, .f32⟩ : BufTy).Contents (Elt F)) (k j : Fin 128) :
    val_main_v76 (F := F) x4 (ix2 k j) = x4 (ix4 0 2 k j) := by
  rw [val_main_v76_apply, val_main_v75_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_2 (x5 : (⟨S3x8x128, .f32⟩ : BufTy).Contents (Elt F)) (j : Fin 128) :
    val_main_v78 (F := F) x5 (ix1 j) = x5 (ix3 0 2 j) := by
  rw [val_main_v78_apply, val_main_v77_apply]
  congr 1
  funext a
  apply Fin.ext
  have hj := j.isLt
  match a with
  | ⟨0, _⟩ => rfl
  | ⟨1, _⟩ => rfl
  | ⟨2, _⟩ => show j.val % 128 = j.val; omega

theorem wr_0_2 (x6 : (⟨S3x8x128x128, .f32⟩ : BufTy).Contents (Elt F)) (k j : Fin 128) :
    val_main_v80 (F := F) x6 (ix2 k j) = x6 (ix4 0 2 k j) := by
  rw [val_main_v80_apply, val_main_v79_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 0, edge type 4: the slices of the stacked weights and bias, read at an index. -/

theorem wl_0_4 (x4 : (⟨S3x8x128x128, .f32⟩ : BufTy).Contents (Elt F)) (k j : Fin 128) :
    val_main_v114 (F := F) x4 (ix2 k j) = x4 (ix4 0 4 k j) := by
  rw [val_main_v114_apply, val_main_v113_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_4 (x5 : (⟨S3x8x128, .f32⟩ : BufTy).Contents (Elt F)) (j : Fin 128) :
    val_main_v116 (F := F) x5 (ix1 j) = x5 (ix3 0 4 j) := by
  rw [val_main_v116_apply, val_main_v115_apply]
  congr 1
  funext a
  apply Fin.ext
  have hj := j.isLt
  match a with
  | ⟨0, _⟩ => rfl
  | ⟨1, _⟩ => rfl
  | ⟨2, _⟩ => show j.val % 128 = j.val; omega

theorem wr_0_4 (x6 : (⟨S3x8x128x128, .f32⟩ : BufTy).Contents (Elt F)) (k j : Fin 128) :
    val_main_v118 (F := F) x6 (ix2 k j) = x6 (ix4 0 4 k j) := by
  rw [val_main_v118_apply, val_main_v117_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 0, edge type 6: the slices of the stacked weights and bias, read at an index. -/

theorem wl_0_6 (x4 : (⟨S3x8x128x128, .f32⟩ : BufTy).Contents (Elt F)) (k j : Fin 128) :
    val_main_v152 (F := F) x4 (ix2 k j) = x4 (ix4 0 6 k j) := by
  rw [val_main_v152_apply, val_main_v151_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_6 (x5 : (⟨S3x8x128, .f32⟩ : BufTy).Contents (Elt F)) (j : Fin 128) :
    val_main_v154 (F := F) x5 (ix1 j) = x5 (ix3 0 6 j) := by
  rw [val_main_v154_apply, val_main_v153_apply]
  congr 1
  funext a
  apply Fin.ext
  have hj := j.isLt
  match a with
  | ⟨0, _⟩ => rfl
  | ⟨1, _⟩ => rfl
  | ⟨2, _⟩ => show j.val % 128 = j.val; omega

theorem wr_0_6 (x6 : (⟨S3x8x128x128, .f32⟩ : BufTy).Contents (Elt F)) (k j : Fin 128) :
    val_main_v156 (F := F) x6 (ix2 k j) = x6 (ix4 0 6 k j) := by
  rw [val_main_v156_apply, val_main_v155_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 0, edge type 3: the slices of the stacked weights and bias, read at an index. -/

theorem wl_0_3 (x4 : (⟨S3x8x128x128, .f32⟩ : BufTy).Contents (Elt F)) (k j : Fin 128) :
    val_main_v190 (F := F) x4 (ix2 k j) = x4 (ix4 0 3 k j) := by
  rw [val_main_v190_apply, val_main_v189_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_3 (x5 : (⟨S3x8x128, .f32⟩ : BufTy).Contents (Elt F)) (j : Fin 128) :
    val_main_v192 (F := F) x5 (ix1 j) = x5 (ix3 0 3 j) := by
  rw [val_main_v192_apply, val_main_v191_apply]
  congr 1
  funext a
  apply Fin.ext
  have hj := j.isLt
  match a with
  | ⟨0, _⟩ => rfl
  | ⟨1, _⟩ => rfl
  | ⟨2, _⟩ => show j.val % 128 = j.val; omega

theorem wr_0_3 (x6 : (⟨S3x8x128x128, .f32⟩ : BufTy).Contents (Elt F)) (k j : Fin 128) :
    val_main_v194 (F := F) x6 (ix2 k j) = x6 (ix4 0 3 k j) := by
  rw [val_main_v194_apply, val_main_v193_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 0, edge type 5: the slices of the stacked weights and bias, read at an index. -/

theorem wl_0_5 (x4 : (⟨S3x8x128x128, .f32⟩ : BufTy).Contents (Elt F)) (k j : Fin 128) :
    val_main_v227 (F := F) x4 (ix2 k j) = x4 (ix4 0 5 k j) := by
  rw [val_main_v227_apply, val_main_v226_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_5 (x5 : (⟨S3x8x128, .f32⟩ : BufTy).Contents (Elt F)) (j : Fin 128) :
    val_main_v229 (F := F) x5 (ix1 j) = x5 (ix3 0 5 j) := by
  rw [val_main_v229_apply, val_main_v228_apply]
  congr 1
  funext a
  apply Fin.ext
  have hj := j.isLt
  match a with
  | ⟨0, _⟩ => rfl
  | ⟨1, _⟩ => rfl
  | ⟨2, _⟩ => show j.val % 128 = j.val; omega

theorem wr_0_5 (x6 : (⟨S3x8x128x128, .f32⟩ : BufTy).Contents (Elt F)) (k j : Fin 128) :
    val_main_v231 (F := F) x6 (ix2 k j) = x6 (ix4 0 5 k j) := by
  rw [val_main_v231_apply, val_main_v230_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 0, edge type 7: the slices of the stacked weights and bias, read at an index. -/

theorem wl_0_7 (x4 : (⟨S3x8x128x128, .f32⟩ : BufTy).Contents (Elt F)) (k j : Fin 128) :
    val_main_v264 (F := F) x4 (ix2 k j) = x4 (ix4 0 7 k j) := by
  rw [val_main_v264_apply, val_main_v263_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_0_7 (x5 : (⟨S3x8x128, .f32⟩ : BufTy).Contents (Elt F)) (j : Fin 128) :
    val_main_v266 (F := F) x5 (ix1 j) = x5 (ix3 0 7 j) := by
  rw [val_main_v266_apply, val_main_v265_apply]
  congr 1
  funext a
  apply Fin.ext
  have hj := j.isLt
  match a with
  | ⟨0, _⟩ => rfl
  | ⟨1, _⟩ => rfl
  | ⟨2, _⟩ => show j.val % 128 = j.val; omega

theorem wr_0_7 (x6 : (⟨S3x8x128x128, .f32⟩ : BufTy).Contents (Elt F)) (k j : Fin 128) :
    val_main_v268 (F := F) x6 (ix2 k j) = x6 (ix4 0 7 k j) := by
  rw [val_main_v268_apply, val_main_v267_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 0: the slices of the stacked weights and bias, read at an index. -/

theorem wl_1_0 (x4 : (⟨S3x8x128x128, .f32⟩ : BufTy).Contents (Elt F)) (k j : Fin 128) :
    val_main_v305 (F := F) x4 (ix2 k j) = x4 (ix4 1 0 k j) := by
  rw [val_main_v305_apply, val_main_v304_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_0 (x5 : (⟨S3x8x128, .f32⟩ : BufTy).Contents (Elt F)) (j : Fin 128) :
    val_main_v307 (F := F) x5 (ix1 j) = x5 (ix3 1 0 j) := by
  rw [val_main_v307_apply, val_main_v306_apply]
  congr 1
  funext a
  apply Fin.ext
  have hj := j.isLt
  match a with
  | ⟨0, _⟩ => rfl
  | ⟨1, _⟩ => rfl
  | ⟨2, _⟩ => show j.val % 128 = j.val; omega

theorem wr_1_0 (x6 : (⟨S3x8x128x128, .f32⟩ : BufTy).Contents (Elt F)) (k j : Fin 128) :
    val_main_v309 (F := F) x6 (ix2 k j) = x6 (ix4 1 0 k j) := by
  rw [val_main_v309_apply, val_main_v308_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 1: the slices of the stacked weights and bias, read at an index. -/

theorem wl_1_1 (x4 : (⟨S3x8x128x128, .f32⟩ : BufTy).Contents (Elt F)) (k j : Fin 128) :
    val_main_v342 (F := F) x4 (ix2 k j) = x4 (ix4 1 1 k j) := by
  rw [val_main_v342_apply, val_main_v341_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_1 (x5 : (⟨S3x8x128, .f32⟩ : BufTy).Contents (Elt F)) (j : Fin 128) :
    val_main_v344 (F := F) x5 (ix1 j) = x5 (ix3 1 1 j) := by
  rw [val_main_v344_apply, val_main_v343_apply]
  congr 1
  funext a
  apply Fin.ext
  have hj := j.isLt
  match a with
  | ⟨0, _⟩ => rfl
  | ⟨1, _⟩ => rfl
  | ⟨2, _⟩ => show j.val % 128 = j.val; omega

theorem wr_1_1 (x6 : (⟨S3x8x128x128, .f32⟩ : BufTy).Contents (Elt F)) (k j : Fin 128) :
    val_main_v346 (F := F) x6 (ix2 k j) = x6 (ix4 1 1 k j) := by
  rw [val_main_v346_apply, val_main_v345_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 2: the slices of the stacked weights and bias, read at an index. -/

theorem wl_1_2 (x4 : (⟨S3x8x128x128, .f32⟩ : BufTy).Contents (Elt F)) (k j : Fin 128) :
    val_main_v380 (F := F) x4 (ix2 k j) = x4 (ix4 1 2 k j) := by
  rw [val_main_v380_apply, val_main_v379_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_2 (x5 : (⟨S3x8x128, .f32⟩ : BufTy).Contents (Elt F)) (j : Fin 128) :
    val_main_v382 (F := F) x5 (ix1 j) = x5 (ix3 1 2 j) := by
  rw [val_main_v382_apply, val_main_v381_apply]
  congr 1
  funext a
  apply Fin.ext
  have hj := j.isLt
  match a with
  | ⟨0, _⟩ => rfl
  | ⟨1, _⟩ => rfl
  | ⟨2, _⟩ => show j.val % 128 = j.val; omega

theorem wr_1_2 (x6 : (⟨S3x8x128x128, .f32⟩ : BufTy).Contents (Elt F)) (k j : Fin 128) :
    val_main_v384 (F := F) x6 (ix2 k j) = x6 (ix4 1 2 k j) := by
  rw [val_main_v384_apply, val_main_v383_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 4: the slices of the stacked weights and bias, read at an index. -/

theorem wl_1_4 (x4 : (⟨S3x8x128x128, .f32⟩ : BufTy).Contents (Elt F)) (k j : Fin 128) :
    val_main_v418 (F := F) x4 (ix2 k j) = x4 (ix4 1 4 k j) := by
  rw [val_main_v418_apply, val_main_v417_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_4 (x5 : (⟨S3x8x128, .f32⟩ : BufTy).Contents (Elt F)) (j : Fin 128) :
    val_main_v420 (F := F) x5 (ix1 j) = x5 (ix3 1 4 j) := by
  rw [val_main_v420_apply, val_main_v419_apply]
  congr 1
  funext a
  apply Fin.ext
  have hj := j.isLt
  match a with
  | ⟨0, _⟩ => rfl
  | ⟨1, _⟩ => rfl
  | ⟨2, _⟩ => show j.val % 128 = j.val; omega

theorem wr_1_4 (x6 : (⟨S3x8x128x128, .f32⟩ : BufTy).Contents (Elt F)) (k j : Fin 128) :
    val_main_v422 (F := F) x6 (ix2 k j) = x6 (ix4 1 4 k j) := by
  rw [val_main_v422_apply, val_main_v421_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 6: the slices of the stacked weights and bias, read at an index. -/

theorem wl_1_6 (x4 : (⟨S3x8x128x128, .f32⟩ : BufTy).Contents (Elt F)) (k j : Fin 128) :
    val_main_v456 (F := F) x4 (ix2 k j) = x4 (ix4 1 6 k j) := by
  rw [val_main_v456_apply, val_main_v455_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_6 (x5 : (⟨S3x8x128, .f32⟩ : BufTy).Contents (Elt F)) (j : Fin 128) :
    val_main_v458 (F := F) x5 (ix1 j) = x5 (ix3 1 6 j) := by
  rw [val_main_v458_apply, val_main_v457_apply]
  congr 1
  funext a
  apply Fin.ext
  have hj := j.isLt
  match a with
  | ⟨0, _⟩ => rfl
  | ⟨1, _⟩ => rfl
  | ⟨2, _⟩ => show j.val % 128 = j.val; omega

theorem wr_1_6 (x6 : (⟨S3x8x128x128, .f32⟩ : BufTy).Contents (Elt F)) (k j : Fin 128) :
    val_main_v460 (F := F) x6 (ix2 k j) = x6 (ix4 1 6 k j) := by
  rw [val_main_v460_apply, val_main_v459_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 3: the slices of the stacked weights and bias, read at an index. -/

theorem wl_1_3 (x4 : (⟨S3x8x128x128, .f32⟩ : BufTy).Contents (Elt F)) (k j : Fin 128) :
    val_main_v494 (F := F) x4 (ix2 k j) = x4 (ix4 1 3 k j) := by
  rw [val_main_v494_apply, val_main_v493_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_3 (x5 : (⟨S3x8x128, .f32⟩ : BufTy).Contents (Elt F)) (j : Fin 128) :
    val_main_v496 (F := F) x5 (ix1 j) = x5 (ix3 1 3 j) := by
  rw [val_main_v496_apply, val_main_v495_apply]
  congr 1
  funext a
  apply Fin.ext
  have hj := j.isLt
  match a with
  | ⟨0, _⟩ => rfl
  | ⟨1, _⟩ => rfl
  | ⟨2, _⟩ => show j.val % 128 = j.val; omega

theorem wr_1_3 (x6 : (⟨S3x8x128x128, .f32⟩ : BufTy).Contents (Elt F)) (k j : Fin 128) :
    val_main_v498 (F := F) x6 (ix2 k j) = x6 (ix4 1 3 k j) := by
  rw [val_main_v498_apply, val_main_v497_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 5: the slices of the stacked weights and bias, read at an index. -/

theorem wl_1_5 (x4 : (⟨S3x8x128x128, .f32⟩ : BufTy).Contents (Elt F)) (k j : Fin 128) :
    val_main_v531 (F := F) x4 (ix2 k j) = x4 (ix4 1 5 k j) := by
  rw [val_main_v531_apply, val_main_v530_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_5 (x5 : (⟨S3x8x128, .f32⟩ : BufTy).Contents (Elt F)) (j : Fin 128) :
    val_main_v533 (F := F) x5 (ix1 j) = x5 (ix3 1 5 j) := by
  rw [val_main_v533_apply, val_main_v532_apply]
  congr 1
  funext a
  apply Fin.ext
  have hj := j.isLt
  match a with
  | ⟨0, _⟩ => rfl
  | ⟨1, _⟩ => rfl
  | ⟨2, _⟩ => show j.val % 128 = j.val; omega

theorem wr_1_5 (x6 : (⟨S3x8x128x128, .f32⟩ : BufTy).Contents (Elt F)) (k j : Fin 128) :
    val_main_v535 (F := F) x6 (ix2 k j) = x6 (ix4 1 5 k j) := by
  rw [val_main_v535_apply, val_main_v534_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 1, edge type 7: the slices of the stacked weights and bias, read at an index. -/

theorem wl_1_7 (x4 : (⟨S3x8x128x128, .f32⟩ : BufTy).Contents (Elt F)) (k j : Fin 128) :
    val_main_v568 (F := F) x4 (ix2 k j) = x4 (ix4 1 7 k j) := by
  rw [val_main_v568_apply, val_main_v567_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_1_7 (x5 : (⟨S3x8x128, .f32⟩ : BufTy).Contents (Elt F)) (j : Fin 128) :
    val_main_v570 (F := F) x5 (ix1 j) = x5 (ix3 1 7 j) := by
  rw [val_main_v570_apply, val_main_v569_apply]
  congr 1
  funext a
  apply Fin.ext
  have hj := j.isLt
  match a with
  | ⟨0, _⟩ => rfl
  | ⟨1, _⟩ => rfl
  | ⟨2, _⟩ => show j.val % 128 = j.val; omega

theorem wr_1_7 (x6 : (⟨S3x8x128x128, .f32⟩ : BufTy).Contents (Elt F)) (k j : Fin 128) :
    val_main_v572 (F := F) x6 (ix2 k j) = x6 (ix4 1 7 k j) := by
  rw [val_main_v572_apply, val_main_v571_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 0: the slices of the stacked weights and bias, read at an index. -/

theorem wl_2_0 (x4 : (⟨S3x8x128x128, .f32⟩ : BufTy).Contents (Elt F)) (k j : Fin 128) :
    val_main_v609 (F := F) x4 (ix2 k j) = x4 (ix4 2 0 k j) := by
  rw [val_main_v609_apply, val_main_v608_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_0 (x5 : (⟨S3x8x128, .f32⟩ : BufTy).Contents (Elt F)) (j : Fin 128) :
    val_main_v611 (F := F) x5 (ix1 j) = x5 (ix3 2 0 j) := by
  rw [val_main_v611_apply, val_main_v610_apply]
  congr 1
  funext a
  apply Fin.ext
  have hj := j.isLt
  match a with
  | ⟨0, _⟩ => rfl
  | ⟨1, _⟩ => rfl
  | ⟨2, _⟩ => show j.val % 128 = j.val; omega

theorem wr_2_0 (x6 : (⟨S3x8x128x128, .f32⟩ : BufTy).Contents (Elt F)) (k j : Fin 128) :
    val_main_v613 (F := F) x6 (ix2 k j) = x6 (ix4 2 0 k j) := by
  rw [val_main_v613_apply, val_main_v612_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 1: the slices of the stacked weights and bias, read at an index. -/

theorem wl_2_1 (x4 : (⟨S3x8x128x128, .f32⟩ : BufTy).Contents (Elt F)) (k j : Fin 128) :
    val_main_v646 (F := F) x4 (ix2 k j) = x4 (ix4 2 1 k j) := by
  rw [val_main_v646_apply, val_main_v645_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_1 (x5 : (⟨S3x8x128, .f32⟩ : BufTy).Contents (Elt F)) (j : Fin 128) :
    val_main_v648 (F := F) x5 (ix1 j) = x5 (ix3 2 1 j) := by
  rw [val_main_v648_apply, val_main_v647_apply]
  congr 1
  funext a
  apply Fin.ext
  have hj := j.isLt
  match a with
  | ⟨0, _⟩ => rfl
  | ⟨1, _⟩ => rfl
  | ⟨2, _⟩ => show j.val % 128 = j.val; omega

theorem wr_2_1 (x6 : (⟨S3x8x128x128, .f32⟩ : BufTy).Contents (Elt F)) (k j : Fin 128) :
    val_main_v650 (F := F) x6 (ix2 k j) = x6 (ix4 2 1 k j) := by
  rw [val_main_v650_apply, val_main_v649_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 2: the slices of the stacked weights and bias, read at an index. -/

theorem wl_2_2 (x4 : (⟨S3x8x128x128, .f32⟩ : BufTy).Contents (Elt F)) (k j : Fin 128) :
    val_main_v684 (F := F) x4 (ix2 k j) = x4 (ix4 2 2 k j) := by
  rw [val_main_v684_apply, val_main_v683_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_2 (x5 : (⟨S3x8x128, .f32⟩ : BufTy).Contents (Elt F)) (j : Fin 128) :
    val_main_v686 (F := F) x5 (ix1 j) = x5 (ix3 2 2 j) := by
  rw [val_main_v686_apply, val_main_v685_apply]
  congr 1
  funext a
  apply Fin.ext
  have hj := j.isLt
  match a with
  | ⟨0, _⟩ => rfl
  | ⟨1, _⟩ => rfl
  | ⟨2, _⟩ => show j.val % 128 = j.val; omega

theorem wr_2_2 (x6 : (⟨S3x8x128x128, .f32⟩ : BufTy).Contents (Elt F)) (k j : Fin 128) :
    val_main_v688 (F := F) x6 (ix2 k j) = x6 (ix4 2 2 k j) := by
  rw [val_main_v688_apply, val_main_v687_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 4: the slices of the stacked weights and bias, read at an index. -/

theorem wl_2_4 (x4 : (⟨S3x8x128x128, .f32⟩ : BufTy).Contents (Elt F)) (k j : Fin 128) :
    val_main_v722 (F := F) x4 (ix2 k j) = x4 (ix4 2 4 k j) := by
  rw [val_main_v722_apply, val_main_v721_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_4 (x5 : (⟨S3x8x128, .f32⟩ : BufTy).Contents (Elt F)) (j : Fin 128) :
    val_main_v724 (F := F) x5 (ix1 j) = x5 (ix3 2 4 j) := by
  rw [val_main_v724_apply, val_main_v723_apply]
  congr 1
  funext a
  apply Fin.ext
  have hj := j.isLt
  match a with
  | ⟨0, _⟩ => rfl
  | ⟨1, _⟩ => rfl
  | ⟨2, _⟩ => show j.val % 128 = j.val; omega

theorem wr_2_4 (x6 : (⟨S3x8x128x128, .f32⟩ : BufTy).Contents (Elt F)) (k j : Fin 128) :
    val_main_v726 (F := F) x6 (ix2 k j) = x6 (ix4 2 4 k j) := by
  rw [val_main_v726_apply, val_main_v725_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 6: the slices of the stacked weights and bias, read at an index. -/

theorem wl_2_6 (x4 : (⟨S3x8x128x128, .f32⟩ : BufTy).Contents (Elt F)) (k j : Fin 128) :
    val_main_v760 (F := F) x4 (ix2 k j) = x4 (ix4 2 6 k j) := by
  rw [val_main_v760_apply, val_main_v759_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_6 (x5 : (⟨S3x8x128, .f32⟩ : BufTy).Contents (Elt F)) (j : Fin 128) :
    val_main_v762 (F := F) x5 (ix1 j) = x5 (ix3 2 6 j) := by
  rw [val_main_v762_apply, val_main_v761_apply]
  congr 1
  funext a
  apply Fin.ext
  have hj := j.isLt
  match a with
  | ⟨0, _⟩ => rfl
  | ⟨1, _⟩ => rfl
  | ⟨2, _⟩ => show j.val % 128 = j.val; omega

theorem wr_2_6 (x6 : (⟨S3x8x128x128, .f32⟩ : BufTy).Contents (Elt F)) (k j : Fin 128) :
    val_main_v764 (F := F) x6 (ix2 k j) = x6 (ix4 2 6 k j) := by
  rw [val_main_v764_apply, val_main_v763_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 3: the slices of the stacked weights and bias, read at an index. -/

theorem wl_2_3 (x4 : (⟨S3x8x128x128, .f32⟩ : BufTy).Contents (Elt F)) (k j : Fin 128) :
    val_main_v798 (F := F) x4 (ix2 k j) = x4 (ix4 2 3 k j) := by
  rw [val_main_v798_apply, val_main_v797_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_3 (x5 : (⟨S3x8x128, .f32⟩ : BufTy).Contents (Elt F)) (j : Fin 128) :
    val_main_v800 (F := F) x5 (ix1 j) = x5 (ix3 2 3 j) := by
  rw [val_main_v800_apply, val_main_v799_apply]
  congr 1
  funext a
  apply Fin.ext
  have hj := j.isLt
  match a with
  | ⟨0, _⟩ => rfl
  | ⟨1, _⟩ => rfl
  | ⟨2, _⟩ => show j.val % 128 = j.val; omega

theorem wr_2_3 (x6 : (⟨S3x8x128x128, .f32⟩ : BufTy).Contents (Elt F)) (k j : Fin 128) :
    val_main_v802 (F := F) x6 (ix2 k j) = x6 (ix4 2 3 k j) := by
  rw [val_main_v802_apply, val_main_v801_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 5: the slices of the stacked weights and bias, read at an index. -/

theorem wl_2_5 (x4 : (⟨S3x8x128x128, .f32⟩ : BufTy).Contents (Elt F)) (k j : Fin 128) :
    val_main_v835 (F := F) x4 (ix2 k j) = x4 (ix4 2 5 k j) := by
  rw [val_main_v835_apply, val_main_v834_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_5 (x5 : (⟨S3x8x128, .f32⟩ : BufTy).Contents (Elt F)) (j : Fin 128) :
    val_main_v837 (F := F) x5 (ix1 j) = x5 (ix3 2 5 j) := by
  rw [val_main_v837_apply, val_main_v836_apply]
  congr 1
  funext a
  apply Fin.ext
  have hj := j.isLt
  match a with
  | ⟨0, _⟩ => rfl
  | ⟨1, _⟩ => rfl
  | ⟨2, _⟩ => show j.val % 128 = j.val; omega

theorem wr_2_5 (x6 : (⟨S3x8x128x128, .f32⟩ : BufTy).Contents (Elt F)) (k j : Fin 128) :
    val_main_v839 (F := F) x6 (ix2 k j) = x6 (ix4 2 5 k j) := by
  rw [val_main_v839_apply, val_main_v838_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

/-! Layer 2, edge type 7: the slices of the stacked weights and bias, read at an index. -/

theorem wl_2_7 (x4 : (⟨S3x8x128x128, .f32⟩ : BufTy).Contents (Elt F)) (k j : Fin 128) :
    val_main_v872 (F := F) x4 (ix2 k j) = x4 (ix4 2 7 k j) := by
  rw [val_main_v872_apply, val_main_v871_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

theorem bl_2_7 (x5 : (⟨S3x8x128, .f32⟩ : BufTy).Contents (Elt F)) (j : Fin 128) :
    val_main_v874 (F := F) x5 (ix1 j) = x5 (ix3 2 7 j) := by
  rw [val_main_v874_apply, val_main_v873_apply]
  congr 1
  funext a
  apply Fin.ext
  have hj := j.isLt
  match a with
  | ⟨0, _⟩ => rfl
  | ⟨1, _⟩ => rfl
  | ⟨2, _⟩ => show j.val % 128 = j.val; omega

theorem wr_2_7 (x6 : (⟨S3x8x128x128, .f32⟩ : BufTy).Contents (Elt F)) (k j : Fin 128) :
    val_main_v876 (F := F) x6 (ix2 k j) = x6 (ix4 2 7 k j) := by
  rw [val_main_v876_apply, val_main_v875_apply]
  congr 1
  funext a
  apply Fin.ext
  have hk := k.isLt
  have hj := j.isLt
  match a with
  | ⟨0, _⟩ => rfl
  | ⟨1, _⟩ => rfl
  | ⟨2, _⟩ => show (k.val * 128 + j.val) / 128 % 128 = k.val; omega
  | ⟨3, _⟩ => show (k.val * 128 + j.val) % 128 = j.val; omega

end Cert.ReferenceIdeal.Hand
end
-- ==== Proof.Ref.Sage.lean ====
/-
  One edge type's contribution to a layer, at an index, at the ideal instance:
  agg · Wl[l,e] + bl[l,e] + x_dst · Wr[l,e], with agg the reference's own mean aggregation (left as its
  stage) and x_dst the destination type's features entering the layer.
-/
import proofs.«125545_j64845416235624_1_alg».proof.Proof.Ref.Weights
import proofs.«125545_j64845416235624_1_alg».proof.Proof.Spec

noncomputable section
namespace Cert.ReferenceIdeal.Hand
open Cert.ReferenceIdeal Cert.ReferenceIdeal.Gen Cert.ReferenceIdeal.Read Idealize.ShloMosaic Idealize.ShloMosaic.ValueIdx
open scoped BigOperators

variable {F : FTy → Type} [FloatOps F]

/-- Layer 0, edge type 0: the contribution `agg · Wl + bl + x_dst · Wr` at an index. -/
theorem sage_0_0_ix (x0 : (⟨S100000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (i : Fin 100000) (j : Fin 128) :
    val_main_v36 (F := Ideal) x0 x4 x5 x6 x15 (ix2 i j) =
      Cert.Spec.sageR (fun (i : Fin 100000) (k : Fin 128) => val_main_v30 (F := Ideal) x0 x15 (ix2 i k)) (fun (i : Fin 100000) (k : Fin 128) => x0 (ix2 i k))
        (fun (k j : Fin 128) => x4 (ix4 0 0 k j)) (fun (k j : Fin 128) => x6 (ix4 0 0 k j)) (fun (j : Fin 128) => x5 (ix3 0 0 j)) i j := by
  have hl : ∀ k : Fin 128, lidx_main_v31 (ix2 i j) k = ix2 i k := fun k => funext fun a => by
    match a with
    | ⟨0, _⟩ => rfl
    | ⟨1, _⟩ => rfl
  have hr : ∀ k : Fin 128, ridx_main_v31 (ix2 i j) k = ix2 k j := fun k => funext fun a => by
    match a with
    | ⟨0, _⟩ => rfl
    | ⟨1, _⟩ => rfl
  have hl' : ∀ k : Fin 128, lidx_main_v35 (ix2 i j) k = ix2 i k := fun k => funext fun a => by
    match a with
    | ⟨0, _⟩ => rfl
    | ⟨1, _⟩ => rfl
  have hr' : ∀ k : Fin 128, ridx_main_v35 (ix2 i j) k = ix2 k j := fun k => funext fun a => by
    match a with
    | ⟨0, _⟩ => rfl
    | ⟨1, _⟩ => rfl
  have hb : idx_main_v32 (idx_main_v33 (ix2 i j)) = ix1 j := funext fun a => by
    match a with
    | ⟨0, _⟩ => rfl
  unfold Cert.Spec.sageR Cert.Spec.mm
  rw [val_main_v36_apply, val_main_v34_apply, val_main_v31_apply, val_main_v35_apply, val_main_v33_apply, val_main_v32_apply, hb, bl_0_0]
  simp only [hl, hr, hl', hr', wl_0_0, wr_0_0, Ideal.addf_def]

/-- Layer 0, edge type 1: the contribution `agg · Wl + bl + x_dst · Wr` at an index. -/
theorem sage_0_1_ix (x0 : (⟨S100000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x16 : (⟨S2x100000, .i32⟩ : BufTy).Contents (Elt Ideal)) (i : Fin 100000) (j : Fin 128) :
    val_main_v73 (F := Ideal) x0 x4 x5 x6 x16 (ix2 i j) =
      Cert.Spec.sageR (fun (i : Fin 100000) (k : Fin 128) => val_main_v67 (F := Ideal) x0 x16 (ix2 i k)) (fun (i : Fin 100000) (k : Fin 128) => x0 (ix2 i k))
        (fun (k j : Fin 128) => x4 (ix4 0 1 k j)) (fun (k j : Fin 128) => x6 (ix4 0 1 k j)) (fun (j : Fin 128) => x5 (ix3 0 1 j)) i j := by
  have hl : ∀ k : Fin 128, lidx_main_v68 (ix2 i j) k = ix2 i k := fun k => funext fun a => by
    match a with
    | ⟨0, _⟩ => rfl
    | ⟨1, _⟩ => rfl
  have hr : ∀ k : Fin 128, ridx_main_v68 (ix2 i j) k = ix2 k j := fun k => funext fun a => by
    match a with
    | ⟨0, _⟩ => rfl
    | ⟨1, _⟩ => rfl
  have hl' : ∀ k : Fin 128, lidx_main_v72 (ix2 i j) k = ix2 i k := fun k => funext fun a => by
    match a with
    | ⟨0, _⟩ => rfl
    | ⟨1, _⟩ => rfl
  have hr' : ∀ k : Fin 128, ridx_main_v72 (ix2 i j) k = ix2 k j := fun k => funext fun a => by
    match a with
    | ⟨0, _⟩ => rfl
    | ⟨1, _⟩ => rfl
  have hb : idx_main_v69 (idx_main_v70 (ix2 i j)) = ix1 j := funext fun a => by
    match a with
    | ⟨0, _⟩ => rfl
  unfold Cert.Spec.sageR Cert.Spec.mm
  rw [val_main_v73_apply, val_main_v71_apply, val_main_v68_apply, val_main_v72_apply, val_main_v70_apply, val_main_v69_apply, hb, bl_0_1]
  simp only [hl, hr, hl', hr', wl_0_1, wr_0_1, Ideal.addf_def]

/-- Layer 0, edge type 2: the contribution `agg · Wl + bl + x_dst · Wr` at an index. -/
theorem sage_0_2_ix (x0 : (⟨S100000x128, .f32⟩ : BufTy).Contents (Elt Ideal)) (x1 : (⟨S20000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x17 : (⟨S2x20000, .i32⟩ : BufTy).Contents (Elt Ideal)) (i : Fin 100000) (j : Fin 128) :
    val_main_v111 (F := Ideal) x0 x1 x4 x5 x6 x17 (ix2 i j) =
      Cert.Spec.sageR (fun (i : Fin 100000) (k : Fin 128) => val_main_v105 (F := Ideal) x1 x17 (ix2 i k)) (fun (i : Fin 100000) (k : Fin 128) => x0 (ix2 i k))
        (fun (k j : Fin 128) => x4 (ix4 0 2 k j)) (fun (k j : Fin 128) => x6 (ix4 0 2 k j)) (fun (j : Fin 128) => x5 (ix3 0 2 j)) i j := by
  have hl : ∀ k : Fin 128, lidx_main_v106 (ix2 i j) k = ix2 i k := fun k => funext fun a => by
    match a with
    | ⟨0, _⟩ => rfl
    | ⟨1, _⟩ => rfl
  have hr : ∀ k : Fin 128, ridx_main_v106 (ix2 i j) k = ix2 k j := fun k => funext fun a => by
    match a with
    | ⟨0, _⟩ => rfl
    | ⟨1, _⟩ => rfl
  have hl' : ∀ k : Fin 128, lidx_main_v110 (ix2 i j) k = ix2 i k := fun k => funext fun a => by
    match a with
    | ⟨0, _⟩ => rfl
    | ⟨1, _⟩ => rfl
  have hr' : ∀ k : Fin 128, ridx_main_v110 (ix2 i j) k = ix2 k j := fun k => funext fun a => by
    match a with
    | ⟨0, _⟩ => rfl
    | ⟨1, _⟩ => rfl
  have hb : idx_main_v107 (idx_main_v108 (ix2 i j)) = ix1 j := funext fun a => by
    match a with
    | ⟨0, _⟩ => rfl
  unfold Cert.Spec.sageR Cert.Spec.mm
  rw [val_main_v111_apply, val_main_v109_apply, val_main_v106_apply, val_main_v110_apply, val_main_v108_apply, val_main_v107_apply, hb, bl_0_2]
  simp only [hl, hr, hl', hr', wl_0_2, wr_0_2, Ideal.addf_def]

/-- Layer 0, edge type 4: the contribution `agg · Wl + bl + x_dst · Wr` at an index. -/
theorem sage_0_4_ix (x0 : (⟨S100000x128, .f32⟩ : BufTy).Contents (Elt Ideal)) (x2 : (⟨S50000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x19 : (⟨S2x50000, .i32⟩ : BufTy).Contents (Elt Ideal)) (i : Fin 100000) (j : Fin 128) :
    val_main_v149 (F := Ideal) x0 x2 x4 x5 x6 x19 (ix2 i j) =
      Cert.Spec.sageR (fun (i : Fin 100000) (k : Fin 128) => val_main_v143 (F := Ideal) x2 x19 (ix2 i k)) (fun (i : Fin 100000) (k : Fin 128) => x0 (ix2 i k))
        (fun (k j : Fin 128) => x4 (ix4 0 4 k j)) (fun (k j : Fin 128) => x6 (ix4 0 4 k j)) (fun (j : Fin 128) => x5 (ix3 0 4 j)) i j := by
  have hl : ∀ k : Fin 128, lidx_main_v144 (ix2 i j) k = ix2 i k := fun k => funext fun a => by
    match a with
    | ⟨0, _⟩ => rfl
    | ⟨1, _⟩ => rfl
  have hr : ∀ k : Fin 128, ridx_main_v144 (ix2 i j) k = ix2 k j := fun k => funext fun a => by
    match a with
    | ⟨0, _⟩ => rfl
    | ⟨1, _⟩ => rfl
  have hl' : ∀ k : Fin 128, lidx_main_v148 (ix2 i j) k = ix2 i k := fun k => funext fun a => by
    match a with
    | ⟨0, _⟩ => rfl
    | ⟨1, _⟩ => rfl
  have hr' : ∀ k : Fin 128, ridx_main_v148 (ix2 i j) k = ix2 k j := fun k => funext fun a => by
    match a with
    | ⟨0, _⟩ => rfl
    | ⟨1, _⟩ => rfl
  have hb : idx_main_v145 (idx_main_v146 (ix2 i j)) = ix1 j := funext fun a => by
    match a with
    | ⟨0, _⟩ => rfl
  unfold Cert.Spec.sageR Cert.Spec.mm
  rw [val_main_v149_apply, val_main_v147_apply, val_main_v144_apply, val_main_v148_apply, val_main_v146_apply, val_main_v145_apply, hb, bl_0_4]
  simp only [hl, hr, hl', hr', wl_0_4, wr_0_4, Ideal.addf_def]

/-- Layer 0, edge type 6: the contribution `agg · Wl + bl + x_dst · Wr` at an index. -/
theorem sage_0_6_ix (x0 : (⟨S100000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x21 : (⟨S2x5000, .i32⟩ : BufTy).Contents (Elt Ideal)) (i : Fin 100000) (j : Fin 128) :
    val_main_v187 (F := Ideal) x0 x3 x4 x5 x6 x21 (ix2 i j) =
      Cert.Spec.sageR (fun (i : Fin 100000) (k : Fin 128) => val_main_v181 (F := Ideal) x3 x21 (ix2 i k)) (fun (i : Fin 100000) (k : Fin 128) => x0 (ix2 i k))
        (fun (k j : Fin 128) => x4 (ix4 0 6 k j)) (fun (k j : Fin 128) => x6 (ix4 0 6 k j)) (fun (j : Fin 128) => x5 (ix3 0 6 j)) i j := by
  have hl : ∀ k : Fin 128, lidx_main_v182 (ix2 i j) k = ix2 i k := fun k => funext fun a => by
    match a with
    | ⟨0, _⟩ => rfl
    | ⟨1, _⟩ => rfl
  have hr : ∀ k : Fin 128, ridx_main_v182 (ix2 i j) k = ix2 k j := fun k => funext fun a => by
    match a with
    | ⟨0, _⟩ => rfl
    | ⟨1, _⟩ => rfl
  have hl' : ∀ k : Fin 128, lidx_main_v186 (ix2 i j) k = ix2 i k := fun k => funext fun a => by
    match a with
    | ⟨0, _⟩ => rfl
    | ⟨1, _⟩ => rfl
  have hr' : ∀ k : Fin 128, ridx_main_v186 (ix2 i j) k = ix2 k j := fun k => funext fun a => by
    match a with
    | ⟨0, _⟩ => rfl
    | ⟨1, _⟩ => rfl
  have hb : idx_main_v183 (idx_main_v184 (ix2 i j)) = ix1 j := funext fun a => by
    match a with
    | ⟨0, _⟩ => rfl
  unfold Cert.Spec.sageR Cert.Spec.mm
  rw [val_main_v187_apply, val_main_v185_apply, val_main_v182_apply, val_main_v186_apply, val_main_v184_apply, val_main_v183_apply, hb, bl_0_6]
  simp only [hl, hr, hl', hr', wl_0_6, wr_0_6, Ideal.addf_def]

/-- Layer 0, edge type 3: the contribution `agg · Wl + bl + x_dst · Wr` at an index. -/
theorem sage_0_3_ix (x0 : (⟨S100000x128, .f32⟩ : BufTy).Contents (Elt Ideal)) (x1 : (⟨S20000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x18 : (⟨S2x20000, .i32⟩ : BufTy).Contents (Elt Ideal)) (i : Fin 20000) (j : Fin 128) :
    val_main_v225 (F := Ideal) x0 x1 x4 x5 x6 x18 (ix2 i j) =
      Cert.Spec.sageR (fun (i : Fin 20000) (k : Fin 128) => val_main_v219 (F := Ideal) x0 x18 (ix2 i k)) (fun (i : Fin 20000) (k : Fin 128) => x1 (ix2 i k))
        (fun (k j : Fin 128) => x4 (ix4 0 3 k j)) (fun (k j : Fin 128) => x6 (ix4 0 3 k j)) (fun (j : Fin 128) => x5 (ix3 0 3 j)) i j := by
  have hl : ∀ k : Fin 128, lidx_main_v220 (ix2 i j) k = ix2 i k := fun k => funext fun a => by
    match a with
    | ⟨0, _⟩ => rfl
    | ⟨1, _⟩ => rfl
  have hr : ∀ k : Fin 128, ridx_main_v220 (ix2 i j) k = ix2 k j := fun k => funext fun a => by
    match a with
    | ⟨0, _⟩ => rfl
    | ⟨1, _⟩ => rfl
  have hl' : ∀ k : Fin 128, lidx_main_v224 (ix2 i j) k = ix2 i k := fun k => funext fun a => by
    match a with
    | ⟨0, _⟩ => rfl
    | ⟨1, _⟩ => rfl
  have hr' : ∀ k : Fin 128, ridx_main_v224 (ix2 i j) k = ix2 k j := fun k => funext fun a => by
    match a with
    | ⟨0, _⟩ => rfl
    | ⟨1, _⟩ => rfl
  have hb : idx_main_v221 (idx_main_v222 (ix2 i j)) = ix1 j := funext fun a => by
    match a with
    | ⟨0, _⟩ => rfl
  unfold Cert.Spec.sageR Cert.Spec.mm
  rw [val_main_v225_apply, val_main_v223_apply, val_main_v220_apply, val_main_v224_apply, val_main_v222_apply, val_main_v221_apply, hb, bl_0_3]
  simp only [hl, hr, hl', hr', wl_0_3, wr_0_3, Ideal.addf_def]

/-- Layer 0, edge type 5: the contribution `agg · Wl + bl + x_dst · Wr` at an index. -/
theorem sage_0_5_ix (x0 : (⟨S100000x128, .f32⟩ : BufTy).Contents (Elt Ideal)) (x2 : (⟨S50000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x20 : (⟨S2x50000, .i32⟩ : BufTy).Contents (Elt Ideal)) (i : Fin 50000) (j : Fin 128) :
    val_main_v262 (F := Ideal) x0 x2 x4 x5 x6 x20 (ix2 i j) =
      Cert.Spec.sageR (fun (i : Fin 50000) (k : Fin 128) => val_main_v256 (F := Ideal) x0 x20 (ix2 i k)) (fun (i : Fin 50000) (k : Fin 128) => x2 (ix2 i k))
        (fun (k j : Fin 128) => x4 (ix4 0 5 k j)) (fun (k j : Fin 128) => x6 (ix4 0 5 k j)) (fun (j : Fin 128) => x5 (ix3 0 5 j)) i j := by
  have hl : ∀ k : Fin 128, lidx_main_v257 (ix2 i j) k = ix2 i k := fun k => funext fun a => by
    match a with
    | ⟨0, _⟩ => rfl
    | ⟨1, _⟩ => rfl
  have hr : ∀ k : Fin 128, ridx_main_v257 (ix2 i j) k = ix2 k j := fun k => funext fun a => by
    match a with
    | ⟨0, _⟩ => rfl
    | ⟨1, _⟩ => rfl
  have hl' : ∀ k : Fin 128, lidx_main_v261 (ix2 i j) k = ix2 i k := fun k => funext fun a => by
    match a with
    | ⟨0, _⟩ => rfl
    | ⟨1, _⟩ => rfl
  have hr' : ∀ k : Fin 128, ridx_main_v261 (ix2 i j) k = ix2 k j := fun k => funext fun a => by
    match a with
    | ⟨0, _⟩ => rfl
    | ⟨1, _⟩ => rfl
  have hb : idx_main_v258 (idx_main_v259 (ix2 i j)) = ix1 j := funext fun a => by
    match a with
    | ⟨0, _⟩ => rfl
  unfold Cert.Spec.sageR Cert.Spec.mm
  rw [val_main_v262_apply, val_main_v260_apply, val_main_v257_apply, val_main_v261_apply, val_main_v259_apply, val_main_v258_apply, hb, bl_0_5]
  simp only [hl, hr, hl', hr', wl_0_5, wr_0_5, Ideal.addf_def]

/-- Layer 0, edge type 7: the contribution `agg · Wl + bl + x_dst · Wr` at an index. -/
theorem sage_0_7_ix (x0 : (⟨S100000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x22 : (⟨S2x5000, .i32⟩ : BufTy).Contents (Elt Ideal)) (i : Fin 5000) (j : Fin 128) :
    val_main_v299 (F := Ideal) x0 x3 x4 x5 x6 x22 (ix2 i j) =
      Cert.Spec.sageR (fun (i : Fin 5000) (k : Fin 128) => val_main_v293 (F := Ideal) x0 x22 (ix2 i k)) (fun (i : Fin 5000) (k : Fin 128) => x3 (ix2 i k))
        (fun (k j : Fin 128) => x4 (ix4 0 7 k j)) (fun (k j : Fin 128) => x6 (ix4 0 7 k j)) (fun (j : Fin 128) => x5 (ix3 0 7 j)) i j := by
  have hl : ∀ k : Fin 128, lidx_main_v294 (ix2 i j) k = ix2 i k := fun k => funext fun a => by
    match a with
    | ⟨0, _⟩ => rfl
    | ⟨1, _⟩ => rfl
  have hr : ∀ k : Fin 128, ridx_main_v294 (ix2 i j) k = ix2 k j := fun k => funext fun a => by
    match a with
    | ⟨0, _⟩ => rfl
    | ⟨1, _⟩ => rfl
  have hl' : ∀ k : Fin 128, lidx_main_v298 (ix2 i j) k = ix2 i k := fun k => funext fun a => by
    match a with
    | ⟨0, _⟩ => rfl
    | ⟨1, _⟩ => rfl
  have hr' : ∀ k : Fin 128, ridx_main_v298 (ix2 i j) k = ix2 k j := fun k => funext fun a => by
    match a with
    | ⟨0, _⟩ => rfl
    | ⟨1, _⟩ => rfl
  have hb : idx_main_v295 (idx_main_v296 (ix2 i j)) = ix1 j := funext fun a => by
    match a with
    | ⟨0, _⟩ => rfl
  unfold Cert.Spec.sageR Cert.Spec.mm
  rw [val_main_v299_apply, val_main_v297_apply, val_main_v294_apply, val_main_v298_apply, val_main_v296_apply, val_main_v295_apply, hb, bl_0_7]
  simp only [hl, hr, hl', hr', wl_0_7, wr_0_7, Ideal.addf_def]

/-- Layer 1, edge type 0: the contribution `agg · Wl + bl + x_dst · Wr` at an index. -/
theorem sage_1_0_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (i : Fin 100000) (j : Fin 128) :
    val_main_v340 (F := Ideal) x0 x1 x2 x3 x4 x5 x6 x15 x16 x17 x19 x21 (ix2 i j) =
      Cert.Spec.sageR (fun (i : Fin 100000) (k : Fin 128) => val_main_v334 (F := Ideal) x0 x1 x2 x3 x4 x5 x6 x15 x16 x17 x19 x21 (ix2 i k)) (fun (i : Fin 100000) (k : Fin 128) => (val_main_v300 (F := Ideal) x0 x1 x2 x3 x4 x5 x6 x15 x16 x17 x19 x21) (ix2 i k))
        (fun (k j : Fin 128) => x4 (ix4 1 0 k j)) (fun (k j : Fin 128) => x6 (ix4 1 0 k j)) (fun (j : Fin 128) => x5 (ix3 1 0 j)) i j := by
  have hl : ∀ k : Fin 128, lidx_main_v335 (ix2 i j) k = ix2 i k := fun k => funext fun a => by
    match a with
    | ⟨0, _⟩ => rfl
    | ⟨1, _⟩ => rfl
  have hr : ∀ k : Fin 128, ridx_main_v335 (ix2 i j) k = ix2 k j := fun k => funext fun a => by
    match a with
    | ⟨0, _⟩ => rfl
    | ⟨1, _⟩ => rfl
  have hl' : ∀ k : Fin 128, lidx_main_v339 (ix2 i j) k = ix2 i k := fun k => funext fun a => by
    match a with
    | ⟨0, _⟩ => rfl
    | ⟨1, _⟩ => rfl
  have hr' : ∀ k : Fin 128, ridx_main_v339 (ix2 i j) k = ix2 k j := fun k => funext fun a => by
    match a with
    | ⟨0, _⟩ => rfl
    | ⟨1, _⟩ => rfl
  have hb : idx_main_v336 (idx_main_v337 (ix2 i j)) = ix1 j := funext fun a => by
    match a with
    | ⟨0, _⟩ => rfl
  unfold Cert.Spec.sageR Cert.Spec.mm
  rw [val_main_v340_apply, val_main_v338_apply, val_main_v335_apply, val_main_v339_apply, val_main_v337_apply, val_main_v336_apply, hb, bl_1_0]
  simp only [hl, hr, hl', hr', wl_1_0, wr_1_0, Ideal.addf_def]

/-- Layer 1, edge type 1: the contribution `agg · Wl + bl + x_dst · Wr` at an index. -/
theorem sage_1_1_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (i : Fin 100000) (j : Fin 128) :
    val_main_v377 (F := Ideal) x0 x1 x2 x3 x4 x5 x6 x15 x16 x17 x19 x21 (ix2 i j) =
      Cert.Spec.sageR (fun (i : Fin 100000) (k : Fin 128) => val_main_v371 (F := Ideal) x0 x1 x2 x3 x4 x5 x6 x15 x16 x17 x19 x21 (ix2 i k)) (fun (i : Fin 100000) (k : Fin 128) => (val_main_v300 (F := Ideal) x0 x1 x2 x3 x4 x5 x6 x15 x16 x17 x19 x21) (ix2 i k))
        (fun (k j : Fin 128) => x4 (ix4 1 1 k j)) (fun (k j : Fin 128) => x6 (ix4 1 1 k j)) (fun (j : Fin 128) => x5 (ix3 1 1 j)) i j := by
  have hl : ∀ k : Fin 128, lidx_main_v372 (ix2 i j) k = ix2 i k := fun k => funext fun a => by
    match a with
    | ⟨0, _⟩ => rfl
    | ⟨1, _⟩ => rfl
  have hr : ∀ k : Fin 128, ridx_main_v372 (ix2 i j) k = ix2 k j := fun k => funext fun a => by
    match a with
    | ⟨0, _⟩ => rfl
    | ⟨1, _⟩ => rfl
  have hl' : ∀ k : Fin 128, lidx_main_v376 (ix2 i j) k = ix2 i k := fun k => funext fun a => by
    match a with
    | ⟨0, _⟩ => rfl
    | ⟨1, _⟩ => rfl
  have hr' : ∀ k : Fin 128, ridx_main_v376 (ix2 i j) k = ix2 k j := fun k => funext fun a => by
    match a with
    | ⟨0, _⟩ => rfl
    | ⟨1, _⟩ => rfl
  have hb : idx_main_v373 (idx_main_v374 (ix2 i j)) = ix1 j := funext fun a => by
    match a with
    | ⟨0, _⟩ => rfl
  unfold Cert.Spec.sageR Cert.Spec.mm
  rw [val_main_v377_apply, val_main_v375_apply, val_main_v372_apply, val_main_v376_apply, val_main_v374_apply, val_main_v373_apply, hb, bl_1_1]
  simp only [hl, hr, hl', hr', wl_1_1, wr_1_1, Ideal.addf_def]

/-- Layer 1, edge type 2: the contribution `agg · Wl + bl + x_dst · Wr` at an index. -/
theorem sage_1_2_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x21 : (⟨S2x5000, .i32⟩ : BufTy).Contents (Elt Ideal)) (i : Fin 100000) (j : Fin 128) :
    val_main_v415 (F := Ideal) x0 x1 x2 x3 x4 x5 x6 x15 x16 x17 x18 x19 x21 (ix2 i j) =
      Cert.Spec.sageR (fun (i : Fin 100000) (k : Fin 128) => val_main_v409 (F := Ideal) x0 x1 x4 x5 x6 x17 x18 (ix2 i k)) (fun (i : Fin 100000) (k : Fin 128) => (val_main_v300 (F := Ideal) x0 x1 x2 x3 x4 x5 x6 x15 x16 x17 x19 x21) (ix2 i k))
        (fun (k j : Fin 128) => x4 (ix4 1 2 k j)) (fun (k j : Fin 128) => x6 (ix4 1 2 k j)) (fun (j : Fin 128) => x5 (ix3 1 2 j)) i j := by
  have hl : ∀ k : Fin 128, lidx_main_v410 (ix2 i j) k = ix2 i k := fun k => funext fun a => by
    match a with
    | ⟨0, _⟩ => rfl
    | ⟨1, _⟩ => rfl
  have hr : ∀ k : Fin 128, ridx_main_v410 (ix2 i j) k = ix2 k j := fun k => funext fun a => by
    match a with
    | ⟨0, _⟩ => rfl
    | ⟨1, _⟩ => rfl
  have hl' : ∀ k : Fin 128, lidx_main_v414 (ix2 i j) k = ix2 i k := fun k => funext fun a => by
    match a with
    | ⟨0, _⟩ => rfl
    | ⟨1, _⟩ => rfl
  have hr' : ∀ k : Fin 128, ridx_main_v414 (ix2 i j) k = ix2 k j := fun k => funext fun a => by
    match a with
    | ⟨0, _⟩ => rfl
    | ⟨1, _⟩ => rfl
  have hb : idx_main_v411 (idx_main_v412 (ix2 i j)) = ix1 j := funext fun a => by
    match a with
    | ⟨0, _⟩ => rfl
  unfold Cert.Spec.sageR Cert.Spec.mm
  rw [val_main_v415_apply, val_main_v413_apply, val_main_v410_apply, val_main_v414_apply, val_main_v412_apply, val_main_v411_apply, hb, bl_1_2]
  simp only [hl, hr, hl', hr', wl_1_2, wr_1_2, Ideal.addf_def]

/-- Layer 1, edge type 4: the contribution `agg · Wl + bl + x_dst · Wr` at an index. -/
theorem sage_1_4_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (i : Fin 100000) (j : Fin 128) :
    val_main_v453 (F := Ideal) x0 x1 x2 x3 x4 x5 x6 x15 x16 x17 x19 x20 x21 (ix2 i j) =
      Cert.Spec.sageR (fun (i : Fin 100000) (k : Fin 128) => val_main_v447 (F := Ideal) x0 x2 x4 x5 x6 x19 x20 (ix2 i k)) (fun (i : Fin 100000) (k : Fin 128) => (val_main_v300 (F := Ideal) x0 x1 x2 x3 x4 x5 x6 x15 x16 x17 x19 x21) (ix2 i k))
        (fun (k j : Fin 128) => x4 (ix4 1 4 k j)) (fun (k j : Fin 128) => x6 (ix4 1 4 k j)) (fun (j : Fin 128) => x5 (ix3 1 4 j)) i j := by
  have hl : ∀ k : Fin 128, lidx_main_v448 (ix2 i j) k = ix2 i k := fun k => funext fun a => by
    match a with
    | ⟨0, _⟩ => rfl
    | ⟨1, _⟩ => rfl
  have hr : ∀ k : Fin 128, ridx_main_v448 (ix2 i j) k = ix2 k j := fun k => funext fun a => by
    match a with
    | ⟨0, _⟩ => rfl
    | ⟨1, _⟩ => rfl
  have hl' : ∀ k : Fin 128, lidx_main_v452 (ix2 i j) k = ix2 i k := fun k => funext fun a => by
    match a with
    | ⟨0, _⟩ => rfl
    | ⟨1, _⟩ => rfl
  have hr' : ∀ k : Fin 128, ridx_main_v452 (ix2 i j) k = ix2 k j := fun k => funext fun a => by
    match a with
    | ⟨0, _⟩ => rfl
    | ⟨1, _⟩ => rfl
  have hb : idx_main_v449 (idx_main_v450 (ix2 i j)) = ix1 j := funext fun a => by
    match a with
    | ⟨0, _⟩ => rfl
  unfold Cert.Spec.sageR Cert.Spec.mm
  rw [val_main_v453_apply, val_main_v451_apply, val_main_v448_apply, val_main_v452_apply, val_main_v450_apply, val_main_v449_apply, hb, bl_1_4]
  simp only [hl, hr, hl', hr', wl_1_4, wr_1_4, Ideal.addf_def]

/-- Layer 1, edge type 6: the contribution `agg · Wl + bl + x_dst · Wr` at an index. -/
theorem sage_1_6_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v491 (F := Ideal) x0 x1 x2 x3 x4 x5 x6 x15 x16 x17 x19 x21 x22 (ix2 i j) =
      Cert.Spec.sageR (fun (i : Fin 100000) (k : Fin 128) => val_main_v485 (F := Ideal) x0 x3 x4 x5 x6 x21 x22 (ix2 i k)) (fun (i : Fin 100000) (k : Fin 128) => (val_main_v300 (F := Ideal) x0 x1 x2 x3 x4 x5 x6 x15 x16 x17 x19 x21) (ix2 i k))
        (fun (k j : Fin 128) => x4 (ix4 1 6 k j)) (fun (k j : Fin 128) => x6 (ix4 1 6 k j)) (fun (j : Fin 128) => x5 (ix3 1 6 j)) i j := by
  have hl : ∀ k : Fin 128, lidx_main_v486 (ix2 i j) k = ix2 i k := fun k => funext fun a => by
    match a with
    | ⟨0, _⟩ => rfl
    | ⟨1, _⟩ => rfl
  have hr : ∀ k : Fin 128, ridx_main_v486 (ix2 i j) k = ix2 k j := fun k => funext fun a => by
    match a with
    | ⟨0, _⟩ => rfl
    | ⟨1, _⟩ => rfl
  have hl' : ∀ k : Fin 128, lidx_main_v490 (ix2 i j) k = ix2 i k := fun k => funext fun a => by
    match a with
    | ⟨0, _⟩ => rfl
    | ⟨1, _⟩ => rfl
  have hr' : ∀ k : Fin 128, ridx_main_v490 (ix2 i j) k = ix2 k j := fun k => funext fun a => by
    match a with
    | ⟨0, _⟩ => rfl
    | ⟨1, _⟩ => rfl
  have hb : idx_main_v487 (idx_main_v488 (ix2 i j)) = ix1 j := funext fun a => by
    match a with
    | ⟨0, _⟩ => rfl
  unfold Cert.Spec.sageR Cert.Spec.mm
  rw [val_main_v491_apply, val_main_v489_apply, val_main_v486_apply, val_main_v490_apply, val_main_v488_apply, val_main_v487_apply, hb, bl_1_6]
  simp only [hl, hr, hl', hr', wl_1_6, wr_1_6, Ideal.addf_def]

/-- Layer 1, edge type 3: the contribution `agg · Wl + bl + x_dst · Wr` at an index. -/
theorem sage_1_3_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x21 : (⟨S2x5000, .i32⟩ : BufTy).Contents (Elt Ideal)) (i : Fin 20000) (j : Fin 128) :
    val_main_v529 (F := Ideal) x0 x1 x2 x3 x4 x5 x6 x15 x16 x17 x18 x19 x21 (ix2 i j) =
      Cert.Spec.sageR (fun (i : Fin 20000) (k : Fin 128) => val_main_v523 (F := Ideal) x0 x1 x2 x3 x4 x5 x6 x15 x16 x17 x18 x19 x21 (ix2 i k)) (fun (i : Fin 20000) (k : Fin 128) => (val_main_v301 (F := Ideal) x0 x1 x4 x5 x6 x18) (ix2 i k))
        (fun (k j : Fin 128) => x4 (ix4 1 3 k j)) (fun (k j : Fin 128) => x6 (ix4 1 3 k j)) (fun (j : Fin 128) => x5 (ix3 1 3 j)) i j := by
  have hl : ∀ k : Fin 128, lidx_main_v524 (ix2 i j) k = ix2 i k := fun k => funext fun a => by
    match a with
    | ⟨0, _⟩ => rfl
    | ⟨1, _⟩ => rfl
  have hr : ∀ k : Fin 128, ridx_main_v524 (ix2 i j) k = ix2 k j := fun k => funext fun a => by
    match a with
    | ⟨0, _⟩ => rfl
    | ⟨1, _⟩ => rfl
  have hl' : ∀ k : Fin 128, lidx_main_v528 (ix2 i j) k = ix2 i k := fun k => funext fun a => by
    match a with
    | ⟨0, _⟩ => rfl
    | ⟨1, _⟩ => rfl
  have hr' : ∀ k : Fin 128, ridx_main_v528 (ix2 i j) k = ix2 k j := fun k => funext fun a => by
    match a with
    | ⟨0, _⟩ => rfl
    | ⟨1, _⟩ => rfl
  have hb : idx_main_v525 (idx_main_v526 (ix2 i j)) = ix1 j := funext fun a => by
    match a with
    | ⟨0, _⟩ => rfl
  unfold Cert.Spec.sageR Cert.Spec.mm
  rw [val_main_v529_apply, val_main_v527_apply, val_main_v524_apply, val_main_v528_apply, val_main_v526_apply, val_main_v525_apply, hb, bl_1_3]
  simp only [hl, hr, hl', hr', wl_1_3, wr_1_3, Ideal.addf_def]

/-- Layer 1, edge type 5: the contribution `agg · Wl + bl + x_dst · Wr` at an index. -/
theorem sage_1_5_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (i : Fin 50000) (j : Fin 128) :
    val_main_v566 (F := Ideal) x0 x1 x2 x3 x4 x5 x6 x15 x16 x17 x19 x20 x21 (ix2 i j) =
      Cert.Spec.sageR (fun (i : Fin 50000) (k : Fin 128) => val_main_v560 (F := Ideal) x0 x1 x2 x3 x4 x5 x6 x15 x16 x17 x19 x20 x21 (ix2 i k)) (fun (i : Fin 50000) (k : Fin 128) => (val_main_v302 (F := Ideal) x0 x2 x4 x5 x6 x20) (ix2 i k))
        (fun (k j : Fin 128) => x4 (ix4 1 5 k j)) (fun (k j : Fin 128) => x6 (ix4 1 5 k j)) (fun (j : Fin 128) => x5 (ix3 1 5 j)) i j := by
  have hl : ∀ k : Fin 128, lidx_main_v561 (ix2 i j) k = ix2 i k := fun k => funext fun a => by
    match a with
    | ⟨0, _⟩ => rfl
    | ⟨1, _⟩ => rfl
  have hr : ∀ k : Fin 128, ridx_main_v561 (ix2 i j) k = ix2 k j := fun k => funext fun a => by
    match a with
    | ⟨0, _⟩ => rfl
    | ⟨1, _⟩ => rfl
  have hl' : ∀ k : Fin 128, lidx_main_v565 (ix2 i j) k = ix2 i k := fun k => funext fun a => by
    match a with
    | ⟨0, _⟩ => rfl
    | ⟨1, _⟩ => rfl
  have hr' : ∀ k : Fin 128, ridx_main_v565 (ix2 i j) k = ix2 k j := fun k => funext fun a => by
    match a with
    | ⟨0, _⟩ => rfl
    | ⟨1, _⟩ => rfl
  have hb : idx_main_v562 (idx_main_v563 (ix2 i j)) = ix1 j := funext fun a => by
    match a with
    | ⟨0, _⟩ => rfl
  unfold Cert.Spec.sageR Cert.Spec.mm
  rw [val_main_v566_apply, val_main_v564_apply, val_main_v561_apply, val_main_v565_apply, val_main_v563_apply, val_main_v562_apply, hb, bl_1_5]
  simp only [hl, hr, hl', hr', wl_1_5, wr_1_5, Ideal.addf_def]

/-- Layer 1, edge type 7: the contribution `agg · Wl + bl + x_dst · Wr` at an index. -/
theorem sage_1_7_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 5000) (j : Fin 128) :
    val_main_v603 (F := Ideal) x0 x1 x2 x3 x4 x5 x6 x15 x16 x17 x19 x21 x22 (ix2 i j) =
      Cert.Spec.sageR (fun (i : Fin 5000) (k : Fin 128) => val_main_v597 (F := Ideal) x0 x1 x2 x3 x4 x5 x6 x15 x16 x17 x19 x21 x22 (ix2 i k)) (fun (i : Fin 5000) (k : Fin 128) => (val_main_v303 (F := Ideal) x0 x3 x4 x5 x6 x22) (ix2 i k))
        (fun (k j : Fin 128) => x4 (ix4 1 7 k j)) (fun (k j : Fin 128) => x6 (ix4 1 7 k j)) (fun (j : Fin 128) => x5 (ix3 1 7 j)) i j := by
  have hl : ∀ k : Fin 128, lidx_main_v598 (ix2 i j) k = ix2 i k := fun k => funext fun a => by
    match a with
    | ⟨0, _⟩ => rfl
    | ⟨1, _⟩ => rfl
  have hr : ∀ k : Fin 128, ridx_main_v598 (ix2 i j) k = ix2 k j := fun k => funext fun a => by
    match a with
    | ⟨0, _⟩ => rfl
    | ⟨1, _⟩ => rfl
  have hl' : ∀ k : Fin 128, lidx_main_v602 (ix2 i j) k = ix2 i k := fun k => funext fun a => by
    match a with
    | ⟨0, _⟩ => rfl
    | ⟨1, _⟩ => rfl
  have hr' : ∀ k : Fin 128, ridx_main_v602 (ix2 i j) k = ix2 k j := fun k => funext fun a => by
    match a with
    | ⟨0, _⟩ => rfl
    | ⟨1, _⟩ => rfl
  have hb : idx_main_v599 (idx_main_v600 (ix2 i j)) = ix1 j := funext fun a => by
    match a with
    | ⟨0, _⟩ => rfl
  unfold Cert.Spec.sageR Cert.Spec.mm
  rw [val_main_v603_apply, val_main_v601_apply, val_main_v598_apply, val_main_v602_apply, val_main_v600_apply, val_main_v599_apply, hb, bl_1_7]
  simp only [hl, hr, hl', hr', wl_1_7, wr_1_7, Ideal.addf_def]

/-- Layer 2, edge type 0: the contribution `agg · Wl + bl + x_dst · Wr` at an index. -/
theorem sage_2_0_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v644 (F := Ideal) x0 x1 x2 x3 x4 x5 x6 x15 x16 x17 x18 x19 x20 x21 x22 (ix2 i j) =
      Cert.Spec.sageR (fun (i : Fin 100000) (k : Fin 128) => val_main_v638 (F := Ideal) x0 x1 x2 x3 x4 x5 x6 x15 x16 x17 x18 x19 x20 x21 x22 (ix2 i k)) (fun (i : Fin 100000) (k : Fin 128) => (val_main_v604 (F := Ideal) x0 x1 x2 x3 x4 x5 x6 x15 x16 x17 x18 x19 x20 x21 x22) (ix2 i k))
        (fun (k j : Fin 128) => x4 (ix4 2 0 k j)) (fun (k j : Fin 128) => x6 (ix4 2 0 k j)) (fun (j : Fin 128) => x5 (ix3 2 0 j)) i j := by
  have hl : ∀ k : Fin 128, lidx_main_v639 (ix2 i j) k = ix2 i k := fun k => funext fun a => by
    match a with
    | ⟨0, _⟩ => rfl
    | ⟨1, _⟩ => rfl
  have hr : ∀ k : Fin 128, ridx_main_v639 (ix2 i j) k = ix2 k j := fun k => funext fun a => by
    match a with
    | ⟨0, _⟩ => rfl
    | ⟨1, _⟩ => rfl
  have hl' : ∀ k : Fin 128, lidx_main_v643 (ix2 i j) k = ix2 i k := fun k => funext fun a => by
    match a with
    | ⟨0, _⟩ => rfl
    | ⟨1, _⟩ => rfl
  have hr' : ∀ k : Fin 128, ridx_main_v643 (ix2 i j) k = ix2 k j := fun k => funext fun a => by
    match a with
    | ⟨0, _⟩ => rfl
    | ⟨1, _⟩ => rfl
  have hb : idx_main_v640 (idx_main_v641 (ix2 i j)) = ix1 j := funext fun a => by
    match a with
    | ⟨0, _⟩ => rfl
  unfold Cert.Spec.sageR Cert.Spec.mm
  rw [val_main_v644_apply, val_main_v642_apply, val_main_v639_apply, val_main_v643_apply, val_main_v641_apply, val_main_v640_apply, hb, bl_2_0]
  simp only [hl, hr, hl', hr', wl_2_0, wr_2_0, Ideal.addf_def]

/-- Layer 2, edge type 1: the contribution `agg · Wl + bl + x_dst · Wr` at an index. -/
theorem sage_2_1_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v681 (F := Ideal) x0 x1 x2 x3 x4 x5 x6 x15 x16 x17 x18 x19 x20 x21 x22 (ix2 i j) =
      Cert.Spec.sageR (fun (i : Fin 100000) (k : Fin 128) => val_main_v675 (F := Ideal) x0 x1 x2 x3 x4 x5 x6 x15 x16 x17 x18 x19 x20 x21 x22 (ix2 i k)) (fun (i : Fin 100000) (k : Fin 128) => (val_main_v604 (F := Ideal) x0 x1 x2 x3 x4 x5 x6 x15 x16 x17 x18 x19 x20 x21 x22) (ix2 i k))
        (fun (k j : Fin 128) => x4 (ix4 2 1 k j)) (fun (k j : Fin 128) => x6 (ix4 2 1 k j)) (fun (j : Fin 128) => x5 (ix3 2 1 j)) i j := by
  have hl : ∀ k : Fin 128, lidx_main_v676 (ix2 i j) k = ix2 i k := fun k => funext fun a => by
    match a with
    | ⟨0, _⟩ => rfl
    | ⟨1, _⟩ => rfl
  have hr : ∀ k : Fin 128, ridx_main_v676 (ix2 i j) k = ix2 k j := fun k => funext fun a => by
    match a with
    | ⟨0, _⟩ => rfl
    | ⟨1, _⟩ => rfl
  have hl' : ∀ k : Fin 128, lidx_main_v680 (ix2 i j) k = ix2 i k := fun k => funext fun a => by
    match a with
    | ⟨0, _⟩ => rfl
    | ⟨1, _⟩ => rfl
  have hr' : ∀ k : Fin 128, ridx_main_v680 (ix2 i j) k = ix2 k j := fun k => funext fun a => by
    match a with
    | ⟨0, _⟩ => rfl
    | ⟨1, _⟩ => rfl
  have hb : idx_main_v677 (idx_main_v678 (ix2 i j)) = ix1 j := funext fun a => by
    match a with
    | ⟨0, _⟩ => rfl
  unfold Cert.Spec.sageR Cert.Spec.mm
  rw [val_main_v681_apply, val_main_v679_apply, val_main_v676_apply, val_main_v680_apply, val_main_v678_apply, val_main_v677_apply, hb, bl_2_1]
  simp only [hl, hr, hl', hr', wl_2_1, wr_2_1, Ideal.addf_def]

/-- Layer 2, edge type 2: the contribution `agg · Wl + bl + x_dst · Wr` at an index. -/
theorem sage_2_2_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v719 (F := Ideal) x0 x1 x2 x3 x4 x5 x6 x15 x16 x17 x18 x19 x20 x21 x22 (ix2 i j) =
      Cert.Spec.sageR (fun (i : Fin 100000) (k : Fin 128) => val_main_v713 (F := Ideal) x0 x1 x2 x3 x4 x5 x6 x15 x16 x17 x18 x19 x21 (ix2 i k)) (fun (i : Fin 100000) (k : Fin 128) => (val_main_v604 (F := Ideal) x0 x1 x2 x3 x4 x5 x6 x15 x16 x17 x18 x19 x20 x21 x22) (ix2 i k))
        (fun (k j : Fin 128) => x4 (ix4 2 2 k j)) (fun (k j : Fin 128) => x6 (ix4 2 2 k j)) (fun (j : Fin 128) => x5 (ix3 2 2 j)) i j := by
  have hl : ∀ k : Fin 128, lidx_main_v714 (ix2 i j) k = ix2 i k := fun k => funext fun a => by
    match a with
    | ⟨0, _⟩ => rfl
    | ⟨1, _⟩ => rfl
  have hr : ∀ k : Fin 128, ridx_main_v714 (ix2 i j) k = ix2 k j := fun k => funext fun a => by
    match a with
    | ⟨0, _⟩ => rfl
    | ⟨1, _⟩ => rfl
  have hl' : ∀ k : Fin 128, lidx_main_v718 (ix2 i j) k = ix2 i k := fun k => funext fun a => by
    match a with
    | ⟨0, _⟩ => rfl
    | ⟨1, _⟩ => rfl
  have hr' : ∀ k : Fin 128, ridx_main_v718 (ix2 i j) k = ix2 k j := fun k => funext fun a => by
    match a with
    | ⟨0, _⟩ => rfl
    | ⟨1, _⟩ => rfl
  have hb : idx_main_v715 (idx_main_v716 (ix2 i j)) = ix1 j := funext fun a => by
    match a with
    | ⟨0, _⟩ => rfl
  unfold Cert.Spec.sageR Cert.Spec.mm
  rw [val_main_v719_apply, val_main_v717_apply, val_main_v714_apply, val_main_v718_apply, val_main_v716_apply, val_main_v715_apply, hb, bl_2_2]
  simp only [hl, hr, hl', hr', wl_2_2, wr_2_2, Ideal.addf_def]

/-- Layer 2, edge type 4: the contribution `agg · Wl + bl + x_dst · Wr` at an index. -/
theorem sage_2_4_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v757 (F := Ideal) x0 x1 x2 x3 x4 x5 x6 x15 x16 x17 x18 x19 x20 x21 x22 (ix2 i j) =
      Cert.Spec.sageR (fun (i : Fin 100000) (k : Fin 128) => val_main_v751 (F := Ideal) x0 x1 x2 x3 x4 x5 x6 x15 x16 x17 x19 x20 x21 (ix2 i k)) (fun (i : Fin 100000) (k : Fin 128) => (val_main_v604 (F := Ideal) x0 x1 x2 x3 x4 x5 x6 x15 x16 x17 x18 x19 x20 x21 x22) (ix2 i k))
        (fun (k j : Fin 128) => x4 (ix4 2 4 k j)) (fun (k j : Fin 128) => x6 (ix4 2 4 k j)) (fun (j : Fin 128) => x5 (ix3 2 4 j)) i j := by
  have hl : ∀ k : Fin 128, lidx_main_v752 (ix2 i j) k = ix2 i k := fun k => funext fun a => by
    match a with
    | ⟨0, _⟩ => rfl
    | ⟨1, _⟩ => rfl
  have hr : ∀ k : Fin 128, ridx_main_v752 (ix2 i j) k = ix2 k j := fun k => funext fun a => by
    match a with
    | ⟨0, _⟩ => rfl
    | ⟨1, _⟩ => rfl
  have hl' : ∀ k : Fin 128, lidx_main_v756 (ix2 i j) k = ix2 i k := fun k => funext fun a => by
    match a with
    | ⟨0, _⟩ => rfl
    | ⟨1, _⟩ => rfl
  have hr' : ∀ k : Fin 128, ridx_main_v756 (ix2 i j) k = ix2 k j := fun k => funext fun a => by
    match a with
    | ⟨0, _⟩ => rfl
    | ⟨1, _⟩ => rfl
  have hb : idx_main_v753 (idx_main_v754 (ix2 i j)) = ix1 j := funext fun a => by
    match a with
    | ⟨0, _⟩ => rfl
  unfold Cert.Spec.sageR Cert.Spec.mm
  rw [val_main_v757_apply, val_main_v755_apply, val_main_v752_apply, val_main_v756_apply, val_main_v754_apply, val_main_v753_apply, hb, bl_2_4]
  simp only [hl, hr, hl', hr', wl_2_4, wr_2_4, Ideal.addf_def]

/-- Layer 2, edge type 6: the contribution `agg · Wl + bl + x_dst · Wr` at an index. -/
theorem sage_2_6_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v795 (F := Ideal) x0 x1 x2 x3 x4 x5 x6 x15 x16 x17 x18 x19 x20 x21 x22 (ix2 i j) =
      Cert.Spec.sageR (fun (i : Fin 100000) (k : Fin 128) => val_main_v789 (F := Ideal) x0 x1 x2 x3 x4 x5 x6 x15 x16 x17 x19 x21 x22 (ix2 i k)) (fun (i : Fin 100000) (k : Fin 128) => (val_main_v604 (F := Ideal) x0 x1 x2 x3 x4 x5 x6 x15 x16 x17 x18 x19 x20 x21 x22) (ix2 i k))
        (fun (k j : Fin 128) => x4 (ix4 2 6 k j)) (fun (k j : Fin 128) => x6 (ix4 2 6 k j)) (fun (j : Fin 128) => x5 (ix3 2 6 j)) i j := by
  have hl : ∀ k : Fin 128, lidx_main_v790 (ix2 i j) k = ix2 i k := fun k => funext fun a => by
    match a with
    | ⟨0, _⟩ => rfl
    | ⟨1, _⟩ => rfl
  have hr : ∀ k : Fin 128, ridx_main_v790 (ix2 i j) k = ix2 k j := fun k => funext fun a => by
    match a with
    | ⟨0, _⟩ => rfl
    | ⟨1, _⟩ => rfl
  have hl' : ∀ k : Fin 128, lidx_main_v794 (ix2 i j) k = ix2 i k := fun k => funext fun a => by
    match a with
    | ⟨0, _⟩ => rfl
    | ⟨1, _⟩ => rfl
  have hr' : ∀ k : Fin 128, ridx_main_v794 (ix2 i j) k = ix2 k j := fun k => funext fun a => by
    match a with
    | ⟨0, _⟩ => rfl
    | ⟨1, _⟩ => rfl
  have hb : idx_main_v791 (idx_main_v792 (ix2 i j)) = ix1 j := funext fun a => by
    match a with
    | ⟨0, _⟩ => rfl
  unfold Cert.Spec.sageR Cert.Spec.mm
  rw [val_main_v795_apply, val_main_v793_apply, val_main_v790_apply, val_main_v794_apply, val_main_v792_apply, val_main_v791_apply, hb, bl_2_6]
  simp only [hl, hr, hl', hr', wl_2_6, wr_2_6, Ideal.addf_def]

/-- Layer 2, edge type 3: the contribution `agg · Wl + bl + x_dst · Wr` at an index. -/
theorem sage_2_3_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 20000) (j : Fin 128) :
    val_main_v833 (F := Ideal) x0 x1 x2 x3 x4 x5 x6 x15 x16 x17 x18 x19 x20 x21 x22 (ix2 i j) =
      Cert.Spec.sageR (fun (i : Fin 20000) (k : Fin 128) => val_main_v827 (F := Ideal) x0 x1 x2 x3 x4 x5 x6 x15 x16 x17 x18 x19 x20 x21 x22 (ix2 i k)) (fun (i : Fin 20000) (k : Fin 128) => (val_main_v605 (F := Ideal) x0 x1 x2 x3 x4 x5 x6 x15 x16 x17 x18 x19 x21) (ix2 i k))
        (fun (k j : Fin 128) => x4 (ix4 2 3 k j)) (fun (k j : Fin 128) => x6 (ix4 2 3 k j)) (fun (j : Fin 128) => x5 (ix3 2 3 j)) i j := by
  have hl : ∀ k : Fin 128, lidx_main_v828 (ix2 i j) k = ix2 i k := fun k => funext fun a => by
    match a with
    | ⟨0, _⟩ => rfl
    | ⟨1, _⟩ => rfl
  have hr : ∀ k : Fin 128, ridx_main_v828 (ix2 i j) k = ix2 k j := fun k => funext fun a => by
    match a with
    | ⟨0, _⟩ => rfl
    | ⟨1, _⟩ => rfl
  have hl' : ∀ k : Fin 128, lidx_main_v832 (ix2 i j) k = ix2 i k := fun k => funext fun a => by
    match a with
    | ⟨0, _⟩ => rfl
    | ⟨1, _⟩ => rfl
  have hr' : ∀ k : Fin 128, ridx_main_v832 (ix2 i j) k = ix2 k j := fun k => funext fun a => by
    match a with
    | ⟨0, _⟩ => rfl
    | ⟨1, _⟩ => rfl
  have hb : idx_main_v829 (idx_main_v830 (ix2 i j)) = ix1 j := funext fun a => by
    match a with
    | ⟨0, _⟩ => rfl
  unfold Cert.Spec.sageR Cert.Spec.mm
  rw [val_main_v833_apply, val_main_v831_apply, val_main_v828_apply, val_main_v832_apply, val_main_v830_apply, val_main_v829_apply, hb, bl_2_3]
  simp only [hl, hr, hl', hr', wl_2_3, wr_2_3, Ideal.addf_def]

/-- Layer 2, edge type 5: the contribution `agg · Wl + bl + x_dst · Wr` at an index. -/
theorem sage_2_5_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 50000) (j : Fin 128) :
    val_main_v870 (F := Ideal) x0 x1 x2 x3 x4 x5 x6 x15 x16 x17 x18 x19 x20 x21 x22 (ix2 i j) =
      Cert.Spec.sageR (fun (i : Fin 50000) (k : Fin 128) => val_main_v864 (F := Ideal) x0 x1 x2 x3 x4 x5 x6 x15 x16 x17 x18 x19 x20 x21 x22 (ix2 i k)) (fun (i : Fin 50000) (k : Fin 128) => (val_main_v606 (F := Ideal) x0 x1 x2 x3 x4 x5 x6 x15 x16 x17 x19 x20 x21) (ix2 i k))
        (fun (k j : Fin 128) => x4 (ix4 2 5 k j)) (fun (k j : Fin 128) => x6 (ix4 2 5 k j)) (fun (j : Fin 128) => x5 (ix3 2 5 j)) i j := by
  have hl : ∀ k : Fin 128, lidx_main_v865 (ix2 i j) k = ix2 i k := fun k => funext fun a => by
    match a with
    | ⟨0, _⟩ => rfl
    | ⟨1, _⟩ => rfl
  have hr : ∀ k : Fin 128, ridx_main_v865 (ix2 i j) k = ix2 k j := fun k => funext fun a => by
    match a with
    | ⟨0, _⟩ => rfl
    | ⟨1, _⟩ => rfl
  have hl' : ∀ k : Fin 128, lidx_main_v869 (ix2 i j) k = ix2 i k := fun k => funext fun a => by
    match a with
    | ⟨0, _⟩ => rfl
    | ⟨1, _⟩ => rfl
  have hr' : ∀ k : Fin 128, ridx_main_v869 (ix2 i j) k = ix2 k j := fun k => funext fun a => by
    match a with
    | ⟨0, _⟩ => rfl
    | ⟨1, _⟩ => rfl
  have hb : idx_main_v866 (idx_main_v867 (ix2 i j)) = ix1 j := funext fun a => by
    match a with
    | ⟨0, _⟩ => rfl
  unfold Cert.Spec.sageR Cert.Spec.mm
  rw [val_main_v870_apply, val_main_v868_apply, val_main_v865_apply, val_main_v869_apply, val_main_v867_apply, val_main_v866_apply, hb, bl_2_5]
  simp only [hl, hr, hl', hr', wl_2_5, wr_2_5, Ideal.addf_def]

/-- Layer 2, edge type 7: the contribution `agg · Wl + bl + x_dst · Wr` at an index. -/
theorem sage_2_7_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 5000) (j : Fin 128) :
    val_main_v907 (F := Ideal) x0 x1 x2 x3 x4 x5 x6 x15 x16 x17 x18 x19 x20 x21 x22 (ix2 i j) =
      Cert.Spec.sageR (fun (i : Fin 5000) (k : Fin 128) => val_main_v901 (F := Ideal) x0 x1 x2 x3 x4 x5 x6 x15 x16 x17 x18 x19 x20 x21 x22 (ix2 i k)) (fun (i : Fin 5000) (k : Fin 128) => (val_main_v607 (F := Ideal) x0 x1 x2 x3 x4 x5 x6 x15 x16 x17 x19 x21 x22) (ix2 i k))
        (fun (k j : Fin 128) => x4 (ix4 2 7 k j)) (fun (k j : Fin 128) => x6 (ix4 2 7 k j)) (fun (j : Fin 128) => x5 (ix3 2 7 j)) i j := by
  have hl : ∀ k : Fin 128, lidx_main_v902 (ix2 i j) k = ix2 i k := fun k => funext fun a => by
    match a with
    | ⟨0, _⟩ => rfl
    | ⟨1, _⟩ => rfl
  have hr : ∀ k : Fin 128, ridx_main_v902 (ix2 i j) k = ix2 k j := fun k => funext fun a => by
    match a with
    | ⟨0, _⟩ => rfl
    | ⟨1, _⟩ => rfl
  have hl' : ∀ k : Fin 128, lidx_main_v906 (ix2 i j) k = ix2 i k := fun k => funext fun a => by
    match a with
    | ⟨0, _⟩ => rfl
    | ⟨1, _⟩ => rfl
  have hr' : ∀ k : Fin 128, ridx_main_v906 (ix2 i j) k = ix2 k j := fun k => funext fun a => by
    match a with
    | ⟨0, _⟩ => rfl
    | ⟨1, _⟩ => rfl
  have hb : idx_main_v903 (idx_main_v904 (ix2 i j)) = ix1 j := funext fun a => by
    match a with
    | ⟨0, _⟩ => rfl
  unfold Cert.Spec.sageR Cert.Spec.mm
  rw [val_main_v907_apply, val_main_v905_apply, val_main_v902_apply, val_main_v906_apply, val_main_v904_apply, val_main_v903_apply, hb, bl_2_7]
  simp only [hl, hr, hl', hr', wl_2_7, wr_2_7, Ideal.addf_def]

end Cert.ReferenceIdeal.Hand
end
-- ==== Proof.Ref.Layers.lean ====
/-
  The features leaving each layer, at an index, at the ideal instance: the rectified sum over the edge types
  into the node type (five into bus, in the order ac, tr, gb, lb, sb = weight indices 0, 1, 2, 4, 6; one into
  gen, load, shunt = weight indices 3, 5, 7), as a function of the features entering the layer and the weights.
-/
import proofs.«125545_j64845416235624_1_alg».proof.Proof.Ref.Sage

noncomputable section
namespace Cert.ReferenceIdeal.Hand
open Cert.ReferenceIdeal Cert.ReferenceIdeal.Gen Cert.ReferenceIdeal.Read Idealize.ShloMosaic Idealize.ShloMosaic.ValueIdx
open scoped BigOperators

variable {F : FTy → Type} [FloatOps F]

/-- The bus features after layer 0 (the rectified sum of the contributions of the edge types into bus), at an index. -/
theorem xbus1_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (i : Fin 100000) (j : Fin 128) :
    val_main_v300 (F := Ideal) x0 x1 x2 x3 x4 x5 x6 x15 x16 x17 x19 x21 (ix2 i j) =
      Cert.Spec.layer5R
        (fun (i : Fin 100000) (k : Fin 128) => val_main_v30 (F := Ideal) x0 x15 (ix2 i k))
        (fun (i : Fin 100000) (k : Fin 128) => val_main_v67 (F := Ideal) x0 x16 (ix2 i k))
        (fun (i : Fin 100000) (k : Fin 128) => val_main_v105 (F := Ideal) x1 x17 (ix2 i k))
        (fun (i : Fin 100000) (k : Fin 128) => val_main_v143 (F := Ideal) x2 x19 (ix2 i k))
        (fun (i : Fin 100000) (k : Fin 128) => val_main_v181 (F := Ideal) x3 x21 (ix2 i k))
        (fun (i : Fin 100000) (k : Fin 128) => x0 (ix2 i k))
        (fun (k j : Fin 128) => x4 (ix4 0 0 k j)) (fun (k j : Fin 128) => x4 (ix4 0 1 k j)) (fun (k j : Fin 128) => x4 (ix4 0 2 k j)) (fun (k j : Fin 128) => x4 (ix4 0 4 k j)) (fun (k j : Fin 128) => x4 (ix4 0 6 k j))
        (fun (k j : Fin 128) => x6 (ix4 0 0 k j)) (fun (k j : Fin 128) => x6 (ix4 0 1 k j)) (fun (k j : Fin 128) => x6 (ix4 0 2 k j)) (fun (k j : Fin 128) => x6 (ix4 0 4 k j)) (fun (k j : Fin 128) => x6 (ix4 0 6 k j))
        (fun (j : Fin 128) => x5 (ix3 0 0 j)) (fun (j : Fin 128) => x5 (ix3 0 1 j)) (fun (j : Fin 128) => x5 (ix3 0 2 j)) (fun (j : Fin 128) => x5 (ix3 0 4 j)) (fun (j : Fin 128) => x5 (ix3 0 6 j)) i j := by
  unfold Cert.Spec.layer5R Cert.Spec.relu
  rw [val_main_v300_apply, val_main_v188_apply, val_main_v150_apply, val_main_v112_apply, val_main_v74_apply, sage_0_0_ix, sage_0_1_ix, sage_0_2_ix, sage_0_4_ix, sage_0_6_ix, val_main_call0_v0_apply, val_main_call0_cst_apply]
  simp only [Ideal.maximumf_def, Ideal.addf_def, Ideal.ofBits_def, Ideal.ofBits_zero_f32]

/-- The same at an index given whole. -/
theorem xbus1_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (idx : S100000x128.Idx) :
    val_main_v300 (F := Ideal) x0 x1 x2 x3 x4 x5 x6 x15 x16 x17 x19 x21 idx =
      Cert.Spec.layer5R
        (fun (i : Fin 100000) (k : Fin 128) => val_main_v30 (F := Ideal) x0 x15 (ix2 i k))
        (fun (i : Fin 100000) (k : Fin 128) => val_main_v67 (F := Ideal) x0 x16 (ix2 i k))
        (fun (i : Fin 100000) (k : Fin 128) => val_main_v105 (F := Ideal) x1 x17 (ix2 i k))
        (fun (i : Fin 100000) (k : Fin 128) => val_main_v143 (F := Ideal) x2 x19 (ix2 i k))
        (fun (i : Fin 100000) (k : Fin 128) => val_main_v181 (F := Ideal) x3 x21 (ix2 i k))
        (fun (i : Fin 100000) (k : Fin 128) => x0 (ix2 i k))
        (fun (k j : Fin 128) => x4 (ix4 0 0 k j)) (fun (k j : Fin 128) => x4 (ix4 0 1 k j)) (fun (k j : Fin 128) => x4 (ix4 0 2 k j)) (fun (k j : Fin 128) => x4 (ix4 0 4 k j)) (fun (k j : Fin 128) => x4 (ix4 0 6 k j))
        (fun (k j : Fin 128) => x6 (ix4 0 0 k j)) (fun (k j : Fin 128) => x6 (ix4 0 1 k j)) (fun (k j : Fin 128) => x6 (ix4 0 2 k j)) (fun (k j : Fin 128) => x6 (ix4 0 4 k j)) (fun (k j : Fin 128) => x6 (ix4 0 6 k j))
        (fun (j : Fin 128) => x5 (ix3 0 0 j)) (fun (j : Fin 128) => x5 (ix3 0 1 j)) (fun (j : Fin 128) => x5 (ix3 0 2 j)) (fun (j : Fin 128) => x5 (ix3 0 4 j)) (fun (j : Fin 128) => x5 (ix3 0 6 j)) (idx 0) (idx 1) := by
  obtain ⟨i, j, rfl⟩ : ∃ (i : Fin 100000) (j : Fin 128), idx = ix2 i j := ⟨idx 0, idx 1, eq_ix2 idx⟩
  exact xbus1_ix x0 x1 x2 x3 x4 x5 x6 x15 x16 x17 x19 x21 i j

/-- The gen features after layer 0 (the rectified sum of the contributions of the edge types into gen), at an index. -/
theorem xgen1_ix (x0 : (⟨S100000x128, .f32⟩ : BufTy).Contents (Elt Ideal)) (x1 : (⟨S20000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x18 : (⟨S2x20000, .i32⟩ : BufTy).Contents (Elt Ideal)) (i : Fin 20000) (j : Fin 128) :
    val_main_v301 (F := Ideal) x0 x1 x4 x5 x6 x18 (ix2 i j) =
      Cert.Spec.layer1R (fun (i : Fin 20000) (k : Fin 128) => val_main_v219 (F := Ideal) x0 x18 (ix2 i k)) (fun (i : Fin 20000) (k : Fin 128) => x1 (ix2 i k))
        (fun (k j : Fin 128) => x4 (ix4 0 3 k j)) (fun (k j : Fin 128) => x6 (ix4 0 3 k j)) (fun (j : Fin 128) => x5 (ix3 0 3 j)) i j := by
  unfold Cert.Spec.layer1R Cert.Spec.relu
  rw [val_main_v301_apply, sage_0_3_ix, val_main_call1_v0_apply, val_main_call1_cst_apply]
  simp only [Ideal.maximumf_def, Ideal.addf_def, Ideal.ofBits_def, Ideal.ofBits_zero_f32]

/-- The same at an index given whole. -/
theorem xgen1_apply (x0 : (⟨S100000x128, .f32⟩ : BufTy).Contents (Elt Ideal)) (x1 : (⟨S20000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x18 : (⟨S2x20000, .i32⟩ : BufTy).Contents (Elt Ideal)) (idx : S20000x128.Idx) :
    val_main_v301 (F := Ideal) x0 x1 x4 x5 x6 x18 idx =
      Cert.Spec.layer1R (fun (i : Fin 20000) (k : Fin 128) => val_main_v219 (F := Ideal) x0 x18 (ix2 i k)) (fun (i : Fin 20000) (k : Fin 128) => x1 (ix2 i k))
        (fun (k j : Fin 128) => x4 (ix4 0 3 k j)) (fun (k j : Fin 128) => x6 (ix4 0 3 k j)) (fun (j : Fin 128) => x5 (ix3 0 3 j)) (idx 0) (idx 1) := by
  obtain ⟨i, j, rfl⟩ : ∃ (i : Fin 20000) (j : Fin 128), idx = ix2 i j := ⟨idx 0, idx 1, eq_ix2 idx⟩
  exact xgen1_ix x0 x1 x4 x5 x6 x18 i j

/-- The load features after layer 0 (the rectified sum of the contributions of the edge types into load), at an index. -/
theorem xload1_ix (x0 : (⟨S100000x128, .f32⟩ : BufTy).Contents (Elt Ideal)) (x2 : (⟨S50000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x20 : (⟨S2x50000, .i32⟩ : BufTy).Contents (Elt Ideal)) (i : Fin 50000) (j : Fin 128) :
    val_main_v302 (F := Ideal) x0 x2 x4 x5 x6 x20 (ix2 i j) =
      Cert.Spec.layer1R (fun (i : Fin 50000) (k : Fin 128) => val_main_v256 (F := Ideal) x0 x20 (ix2 i k)) (fun (i : Fin 50000) (k : Fin 128) => x2 (ix2 i k))
        (fun (k j : Fin 128) => x4 (ix4 0 5 k j)) (fun (k j : Fin 128) => x6 (ix4 0 5 k j)) (fun (j : Fin 128) => x5 (ix3 0 5 j)) i j := by
  unfold Cert.Spec.layer1R Cert.Spec.relu
  rw [val_main_v302_apply, sage_0_5_ix, val_main_call2_v0_apply, val_main_call2_cst_apply]
  simp only [Ideal.maximumf_def, Ideal.addf_def, Ideal.ofBits_def, Ideal.ofBits_zero_f32]

/-- The same at an index given whole. -/
theorem xload1_apply (x0 : (⟨S100000x128, .f32⟩ : BufTy).Contents (Elt Ideal)) (x2 : (⟨S50000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x20 : (⟨S2x50000, .i32⟩ : BufTy).Contents (Elt Ideal)) (idx : S50000x128.Idx) :
    val_main_v302 (F := Ideal) x0 x2 x4 x5 x6 x20 idx =
      Cert.Spec.layer1R (fun (i : Fin 50000) (k : Fin 128) => val_main_v256 (F := Ideal) x0 x20 (ix2 i k)) (fun (i : Fin 50000) (k : Fin 128) => x2 (ix2 i k))
        (fun (k j : Fin 128) => x4 (ix4 0 5 k j)) (fun (k j : Fin 128) => x6 (ix4 0 5 k j)) (fun (j : Fin 128) => x5 (ix3 0 5 j)) (idx 0) (idx 1) := by
  obtain ⟨i, j, rfl⟩ : ∃ (i : Fin 50000) (j : Fin 128), idx = ix2 i j := ⟨idx 0, idx 1, eq_ix2 idx⟩
  exact xload1_ix x0 x2 x4 x5 x6 x20 i j

/-- The shunt features after layer 0 (the rectified sum of the contributions of the edge types into shunt), at an index. -/
theorem xshunt1_ix (x0 : (⟨S100000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x22 : (⟨S2x5000, .i32⟩ : BufTy).Contents (Elt Ideal)) (i : Fin 5000) (j : Fin 128) :
    val_main_v303 (F := Ideal) x0 x3 x4 x5 x6 x22 (ix2 i j) =
      Cert.Spec.layer1R (fun (i : Fin 5000) (k : Fin 128) => val_main_v293 (F := Ideal) x0 x22 (ix2 i k)) (fun (i : Fin 5000) (k : Fin 128) => x3 (ix2 i k))
        (fun (k j : Fin 128) => x4 (ix4 0 7 k j)) (fun (k j : Fin 128) => x6 (ix4 0 7 k j)) (fun (j : Fin 128) => x5 (ix3 0 7 j)) i j := by
  unfold Cert.Spec.layer1R Cert.Spec.relu
  rw [val_main_v303_apply, sage_0_7_ix, val_main_call3_v0_apply, val_main_call3_cst_apply]
  simp only [Ideal.maximumf_def, Ideal.addf_def, Ideal.ofBits_def, Ideal.ofBits_zero_f32]

/-- The same at an index given whole. -/
theorem xshunt1_apply (x0 : (⟨S100000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x22 : (⟨S2x5000, .i32⟩ : BufTy).Contents (Elt Ideal)) (idx : S5000x128.Idx) :
    val_main_v303 (F := Ideal) x0 x3 x4 x5 x6 x22 idx =
      Cert.Spec.layer1R (fun (i : Fin 5000) (k : Fin 128) => val_main_v293 (F := Ideal) x0 x22 (ix2 i k)) (fun (i : Fin 5000) (k : Fin 128) => x3 (ix2 i k))
        (fun (k j : Fin 128) => x4 (ix4 0 7 k j)) (fun (k j : Fin 128) => x6 (ix4 0 7 k j)) (fun (j : Fin 128) => x5 (ix3 0 7 j)) (idx 0) (idx 1) := by
  obtain ⟨i, j, rfl⟩ : ∃ (i : Fin 5000) (j : Fin 128), idx = ix2 i j := ⟨idx 0, idx 1, eq_ix2 idx⟩
  exact xshunt1_ix x0 x3 x4 x5 x6 x22 i j

/-- The bus features after layer 1 (the rectified sum of the contributions of the edge types into bus), at an index. -/
theorem xbus2_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v604 (F := Ideal) x0 x1 x2 x3 x4 x5 x6 x15 x16 x17 x18 x19 x20 x21 x22 (ix2 i j) =
      Cert.Spec.layer5R
        (fun (i : Fin 100000) (k : Fin 128) => val_main_v334 (F := Ideal) x0 x1 x2 x3 x4 x5 x6 x15 x16 x17 x19 x21 (ix2 i k))
        (fun (i : Fin 100000) (k : Fin 128) => val_main_v371 (F := Ideal) x0 x1 x2 x3 x4 x5 x6 x15 x16 x17 x19 x21 (ix2 i k))
        (fun (i : Fin 100000) (k : Fin 128) => val_main_v409 (F := Ideal) x0 x1 x4 x5 x6 x17 x18 (ix2 i k))
        (fun (i : Fin 100000) (k : Fin 128) => val_main_v447 (F := Ideal) x0 x2 x4 x5 x6 x19 x20 (ix2 i k))
        (fun (i : Fin 100000) (k : Fin 128) => val_main_v485 (F := Ideal) x0 x3 x4 x5 x6 x21 x22 (ix2 i k))
        (fun (i : Fin 100000) (k : Fin 128) => (val_main_v300 (F := Ideal) x0 x1 x2 x3 x4 x5 x6 x15 x16 x17 x19 x21) (ix2 i k))
        (fun (k j : Fin 128) => x4 (ix4 1 0 k j)) (fun (k j : Fin 128) => x4 (ix4 1 1 k j)) (fun (k j : Fin 128) => x4 (ix4 1 2 k j)) (fun (k j : Fin 128) => x4 (ix4 1 4 k j)) (fun (k j : Fin 128) => x4 (ix4 1 6 k j))
        (fun (k j : Fin 128) => x6 (ix4 1 0 k j)) (fun (k j : Fin 128) => x6 (ix4 1 1 k j)) (fun (k j : Fin 128) => x6 (ix4 1 2 k j)) (fun (k j : Fin 128) => x6 (ix4 1 4 k j)) (fun (k j : Fin 128) => x6 (ix4 1 6 k j))
        (fun (j : Fin 128) => x5 (ix3 1 0 j)) (fun (j : Fin 128) => x5 (ix3 1 1 j)) (fun (j : Fin 128) => x5 (ix3 1 2 j)) (fun (j : Fin 128) => x5 (ix3 1 4 j)) (fun (j : Fin 128) => x5 (ix3 1 6 j)) i j := by
  unfold Cert.Spec.layer5R Cert.Spec.relu
  rw [val_main_v604_apply, val_main_v492_apply, val_main_v454_apply, val_main_v416_apply, val_main_v378_apply, sage_1_0_ix, sage_1_1_ix, sage_1_2_ix, sage_1_4_ix, sage_1_6_ix, val_main_call4_v0_apply, val_main_call4_cst_apply]
  simp only [Ideal.maximumf_def, Ideal.addf_def, Ideal.ofBits_def, Ideal.ofBits_zero_f32]

/-- The same at an index given whole. -/
theorem xbus2_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S100000x128.Idx) :
    val_main_v604 (F := Ideal) x0 x1 x2 x3 x4 x5 x6 x15 x16 x17 x18 x19 x20 x21 x22 idx =
      Cert.Spec.layer5R
        (fun (i : Fin 100000) (k : Fin 128) => val_main_v334 (F := Ideal) x0 x1 x2 x3 x4 x5 x6 x15 x16 x17 x19 x21 (ix2 i k))
        (fun (i : Fin 100000) (k : Fin 128) => val_main_v371 (F := Ideal) x0 x1 x2 x3 x4 x5 x6 x15 x16 x17 x19 x21 (ix2 i k))
        (fun (i : Fin 100000) (k : Fin 128) => val_main_v409 (F := Ideal) x0 x1 x4 x5 x6 x17 x18 (ix2 i k))
        (fun (i : Fin 100000) (k : Fin 128) => val_main_v447 (F := Ideal) x0 x2 x4 x5 x6 x19 x20 (ix2 i k))
        (fun (i : Fin 100000) (k : Fin 128) => val_main_v485 (F := Ideal) x0 x3 x4 x5 x6 x21 x22 (ix2 i k))
        (fun (i : Fin 100000) (k : Fin 128) => (val_main_v300 (F := Ideal) x0 x1 x2 x3 x4 x5 x6 x15 x16 x17 x19 x21) (ix2 i k))
        (fun (k j : Fin 128) => x4 (ix4 1 0 k j)) (fun (k j : Fin 128) => x4 (ix4 1 1 k j)) (fun (k j : Fin 128) => x4 (ix4 1 2 k j)) (fun (k j : Fin 128) => x4 (ix4 1 4 k j)) (fun (k j : Fin 128) => x4 (ix4 1 6 k j))
        (fun (k j : Fin 128) => x6 (ix4 1 0 k j)) (fun (k j : Fin 128) => x6 (ix4 1 1 k j)) (fun (k j : Fin 128) => x6 (ix4 1 2 k j)) (fun (k j : Fin 128) => x6 (ix4 1 4 k j)) (fun (k j : Fin 128) => x6 (ix4 1 6 k j))
        (fun (j : Fin 128) => x5 (ix3 1 0 j)) (fun (j : Fin 128) => x5 (ix3 1 1 j)) (fun (j : Fin 128) => x5 (ix3 1 2 j)) (fun (j : Fin 128) => x5 (ix3 1 4 j)) (fun (j : Fin 128) => x5 (ix3 1 6 j)) (idx 0) (idx 1) := by
  obtain ⟨i, j, rfl⟩ : ∃ (i : Fin 100000) (j : Fin 128), idx = ix2 i j := ⟨idx 0, idx 1, eq_ix2 idx⟩
  exact xbus2_ix x0 x1 x2 x3 x4 x5 x6 x15 x16 x17 x18 x19 x20 x21 x22 i j

/-- The gen features after layer 1 (the rectified sum of the contributions of the edge types into gen), at an index. -/
theorem xgen2_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x21 : (⟨S2x5000, .i32⟩ : BufTy).Contents (Elt Ideal)) (i : Fin 20000) (j : Fin 128) :
    val_main_v605 (F := Ideal) x0 x1 x2 x3 x4 x5 x6 x15 x16 x17 x18 x19 x21 (ix2 i j) =
      Cert.Spec.layer1R (fun (i : Fin 20000) (k : Fin 128) => val_main_v523 (F := Ideal) x0 x1 x2 x3 x4 x5 x6 x15 x16 x17 x18 x19 x21 (ix2 i k)) (fun (i : Fin 20000) (k : Fin 128) => (val_main_v301 (F := Ideal) x0 x1 x4 x5 x6 x18) (ix2 i k))
        (fun (k j : Fin 128) => x4 (ix4 1 3 k j)) (fun (k j : Fin 128) => x6 (ix4 1 3 k j)) (fun (j : Fin 128) => x5 (ix3 1 3 j)) i j := by
  unfold Cert.Spec.layer1R Cert.Spec.relu
  rw [val_main_v605_apply, sage_1_3_ix, val_main_call5_v0_apply, val_main_call5_cst_apply]
  simp only [Ideal.maximumf_def, Ideal.addf_def, Ideal.ofBits_def, Ideal.ofBits_zero_f32]

/-- The same at an index given whole. -/
theorem xgen2_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x21 : (⟨S2x5000, .i32⟩ : BufTy).Contents (Elt Ideal)) (idx : S20000x128.Idx) :
    val_main_v605 (F := Ideal) x0 x1 x2 x3 x4 x5 x6 x15 x16 x17 x18 x19 x21 idx =
      Cert.Spec.layer1R (fun (i : Fin 20000) (k : Fin 128) => val_main_v523 (F := Ideal) x0 x1 x2 x3 x4 x5 x6 x15 x16 x17 x18 x19 x21 (ix2 i k)) (fun (i : Fin 20000) (k : Fin 128) => (val_main_v301 (F := Ideal) x0 x1 x4 x5 x6 x18) (ix2 i k))
        (fun (k j : Fin 128) => x4 (ix4 1 3 k j)) (fun (k j : Fin 128) => x6 (ix4 1 3 k j)) (fun (j : Fin 128) => x5 (ix3 1 3 j)) (idx 0) (idx 1) := by
  obtain ⟨i, j, rfl⟩ : ∃ (i : Fin 20000) (j : Fin 128), idx = ix2 i j := ⟨idx 0, idx 1, eq_ix2 idx⟩
  exact xgen2_ix x0 x1 x2 x3 x4 x5 x6 x15 x16 x17 x18 x19 x21 i j

/-- The load features after layer 1 (the rectified sum of the contributions of the edge types into load), at an index. -/
theorem xload2_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (i : Fin 50000) (j : Fin 128) :
    val_main_v606 (F := Ideal) x0 x1 x2 x3 x4 x5 x6 x15 x16 x17 x19 x20 x21 (ix2 i j) =
      Cert.Spec.layer1R (fun (i : Fin 50000) (k : Fin 128) => val_main_v560 (F := Ideal) x0 x1 x2 x3 x4 x5 x6 x15 x16 x17 x19 x20 x21 (ix2 i k)) (fun (i : Fin 50000) (k : Fin 128) => (val_main_v302 (F := Ideal) x0 x2 x4 x5 x6 x20) (ix2 i k))
        (fun (k j : Fin 128) => x4 (ix4 1 5 k j)) (fun (k j : Fin 128) => x6 (ix4 1 5 k j)) (fun (j : Fin 128) => x5 (ix3 1 5 j)) i j := by
  unfold Cert.Spec.layer1R Cert.Spec.relu
  rw [val_main_v606_apply, sage_1_5_ix, val_main_call6_v0_apply, val_main_call6_cst_apply]
  simp only [Ideal.maximumf_def, Ideal.addf_def, Ideal.ofBits_def, Ideal.ofBits_zero_f32]

/-- The same at an index given whole. -/
theorem xload2_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (idx : S50000x128.Idx) :
    val_main_v606 (F := Ideal) x0 x1 x2 x3 x4 x5 x6 x15 x16 x17 x19 x20 x21 idx =
      Cert.Spec.layer1R (fun (i : Fin 50000) (k : Fin 128) => val_main_v560 (F := Ideal) x0 x1 x2 x3 x4 x5 x6 x15 x16 x17 x19 x20 x21 (ix2 i k)) (fun (i : Fin 50000) (k : Fin 128) => (val_main_v302 (F := Ideal) x0 x2 x4 x5 x6 x20) (ix2 i k))
        (fun (k j : Fin 128) => x4 (ix4 1 5 k j)) (fun (k j : Fin 128) => x6 (ix4 1 5 k j)) (fun (j : Fin 128) => x5 (ix3 1 5 j)) (idx 0) (idx 1) := by
  obtain ⟨i, j, rfl⟩ : ∃ (i : Fin 50000) (j : Fin 128), idx = ix2 i j := ⟨idx 0, idx 1, eq_ix2 idx⟩
  exact xload2_ix x0 x1 x2 x3 x4 x5 x6 x15 x16 x17 x19 x20 x21 i j

/-- The shunt features after layer 1 (the rectified sum of the contributions of the edge types into shunt), at an index. -/
theorem xshunt2_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 5000) (j : Fin 128) :
    val_main_v607 (F := Ideal) x0 x1 x2 x3 x4 x5 x6 x15 x16 x17 x19 x21 x22 (ix2 i j) =
      Cert.Spec.layer1R (fun (i : Fin 5000) (k : Fin 128) => val_main_v597 (F := Ideal) x0 x1 x2 x3 x4 x5 x6 x15 x16 x17 x19 x21 x22 (ix2 i k)) (fun (i : Fin 5000) (k : Fin 128) => (val_main_v303 (F := Ideal) x0 x3 x4 x5 x6 x22) (ix2 i k))
        (fun (k j : Fin 128) => x4 (ix4 1 7 k j)) (fun (k j : Fin 128) => x6 (ix4 1 7 k j)) (fun (j : Fin 128) => x5 (ix3 1 7 j)) i j := by
  unfold Cert.Spec.layer1R Cert.Spec.relu
  rw [val_main_v607_apply, sage_1_7_ix, val_main_call7_v0_apply, val_main_call7_cst_apply]
  simp only [Ideal.maximumf_def, Ideal.addf_def, Ideal.ofBits_def, Ideal.ofBits_zero_f32]

/-- The same at an index given whole. -/
theorem xshunt2_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S5000x128.Idx) :
    val_main_v607 (F := Ideal) x0 x1 x2 x3 x4 x5 x6 x15 x16 x17 x19 x21 x22 idx =
      Cert.Spec.layer1R (fun (i : Fin 5000) (k : Fin 128) => val_main_v597 (F := Ideal) x0 x1 x2 x3 x4 x5 x6 x15 x16 x17 x19 x21 x22 (ix2 i k)) (fun (i : Fin 5000) (k : Fin 128) => (val_main_v303 (F := Ideal) x0 x3 x4 x5 x6 x22) (ix2 i k))
        (fun (k j : Fin 128) => x4 (ix4 1 7 k j)) (fun (k j : Fin 128) => x6 (ix4 1 7 k j)) (fun (j : Fin 128) => x5 (ix3 1 7 j)) (idx 0) (idx 1) := by
  obtain ⟨i, j, rfl⟩ : ∃ (i : Fin 5000) (j : Fin 128), idx = ix2 i j := ⟨idx 0, idx 1, eq_ix2 idx⟩
  exact xshunt2_ix x0 x1 x2 x3 x4 x5 x6 x15 x16 x17 x19 x21 x22 i j

/-- The bus features after layer 2 (the rectified sum of the contributions of the edge types into bus), at an index. -/
theorem xbus3_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (j : Fin 128) :
    val_main_v908 (F := Ideal) x0 x1 x2 x3 x4 x5 x6 x15 x16 x17 x18 x19 x20 x21 x22 (ix2 i j) =
      Cert.Spec.layer5R
        (fun (i : Fin 100000) (k : Fin 128) => val_main_v638 (F := Ideal) x0 x1 x2 x3 x4 x5 x6 x15 x16 x17 x18 x19 x20 x21 x22 (ix2 i k))
        (fun (i : Fin 100000) (k : Fin 128) => val_main_v675 (F := Ideal) x0 x1 x2 x3 x4 x5 x6 x15 x16 x17 x18 x19 x20 x21 x22 (ix2 i k))
        (fun (i : Fin 100000) (k : Fin 128) => val_main_v713 (F := Ideal) x0 x1 x2 x3 x4 x5 x6 x15 x16 x17 x18 x19 x21 (ix2 i k))
        (fun (i : Fin 100000) (k : Fin 128) => val_main_v751 (F := Ideal) x0 x1 x2 x3 x4 x5 x6 x15 x16 x17 x19 x20 x21 (ix2 i k))
        (fun (i : Fin 100000) (k : Fin 128) => val_main_v789 (F := Ideal) x0 x1 x2 x3 x4 x5 x6 x15 x16 x17 x19 x21 x22 (ix2 i k))
        (fun (i : Fin 100000) (k : Fin 128) => (val_main_v604 (F := Ideal) x0 x1 x2 x3 x4 x5 x6 x15 x16 x17 x18 x19 x20 x21 x22) (ix2 i k))
        (fun (k j : Fin 128) => x4 (ix4 2 0 k j)) (fun (k j : Fin 128) => x4 (ix4 2 1 k j)) (fun (k j : Fin 128) => x4 (ix4 2 2 k j)) (fun (k j : Fin 128) => x4 (ix4 2 4 k j)) (fun (k j : Fin 128) => x4 (ix4 2 6 k j))
        (fun (k j : Fin 128) => x6 (ix4 2 0 k j)) (fun (k j : Fin 128) => x6 (ix4 2 1 k j)) (fun (k j : Fin 128) => x6 (ix4 2 2 k j)) (fun (k j : Fin 128) => x6 (ix4 2 4 k j)) (fun (k j : Fin 128) => x6 (ix4 2 6 k j))
        (fun (j : Fin 128) => x5 (ix3 2 0 j)) (fun (j : Fin 128) => x5 (ix3 2 1 j)) (fun (j : Fin 128) => x5 (ix3 2 2 j)) (fun (j : Fin 128) => x5 (ix3 2 4 j)) (fun (j : Fin 128) => x5 (ix3 2 6 j)) i j := by
  unfold Cert.Spec.layer5R Cert.Spec.relu
  rw [val_main_v908_apply, val_main_v796_apply, val_main_v758_apply, val_main_v720_apply, val_main_v682_apply, sage_2_0_ix, sage_2_1_ix, sage_2_2_ix, sage_2_4_ix, sage_2_6_ix, val_main_call8_v0_apply, val_main_call8_cst_apply]
  simp only [Ideal.maximumf_def, Ideal.addf_def, Ideal.ofBits_def, Ideal.ofBits_zero_f32]

/-- The same at an index given whole. -/
theorem xbus3_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S100000x128.Idx) :
    val_main_v908 (F := Ideal) x0 x1 x2 x3 x4 x5 x6 x15 x16 x17 x18 x19 x20 x21 x22 idx =
      Cert.Spec.layer5R
        (fun (i : Fin 100000) (k : Fin 128) => val_main_v638 (F := Ideal) x0 x1 x2 x3 x4 x5 x6 x15 x16 x17 x18 x19 x20 x21 x22 (ix2 i k))
        (fun (i : Fin 100000) (k : Fin 128) => val_main_v675 (F := Ideal) x0 x1 x2 x3 x4 x5 x6 x15 x16 x17 x18 x19 x20 x21 x22 (ix2 i k))
        (fun (i : Fin 100000) (k : Fin 128) => val_main_v713 (F := Ideal) x0 x1 x2 x3 x4 x5 x6 x15 x16 x17 x18 x19 x21 (ix2 i k))
        (fun (i : Fin 100000) (k : Fin 128) => val_main_v751 (F := Ideal) x0 x1 x2 x3 x4 x5 x6 x15 x16 x17 x19 x20 x21 (ix2 i k))
        (fun (i : Fin 100000) (k : Fin 128) => val_main_v789 (F := Ideal) x0 x1 x2 x3 x4 x5 x6 x15 x16 x17 x19 x21 x22 (ix2 i k))
        (fun (i : Fin 100000) (k : Fin 128) => (val_main_v604 (F := Ideal) x0 x1 x2 x3 x4 x5 x6 x15 x16 x17 x18 x19 x20 x21 x22) (ix2 i k))
        (fun (k j : Fin 128) => x4 (ix4 2 0 k j)) (fun (k j : Fin 128) => x4 (ix4 2 1 k j)) (fun (k j : Fin 128) => x4 (ix4 2 2 k j)) (fun (k j : Fin 128) => x4 (ix4 2 4 k j)) (fun (k j : Fin 128) => x4 (ix4 2 6 k j))
        (fun (k j : Fin 128) => x6 (ix4 2 0 k j)) (fun (k j : Fin 128) => x6 (ix4 2 1 k j)) (fun (k j : Fin 128) => x6 (ix4 2 2 k j)) (fun (k j : Fin 128) => x6 (ix4 2 4 k j)) (fun (k j : Fin 128) => x6 (ix4 2 6 k j))
        (fun (j : Fin 128) => x5 (ix3 2 0 j)) (fun (j : Fin 128) => x5 (ix3 2 1 j)) (fun (j : Fin 128) => x5 (ix3 2 2 j)) (fun (j : Fin 128) => x5 (ix3 2 4 j)) (fun (j : Fin 128) => x5 (ix3 2 6 j)) (idx 0) (idx 1) := by
  obtain ⟨i, j, rfl⟩ : ∃ (i : Fin 100000) (j : Fin 128), idx = ix2 i j := ⟨idx 0, idx 1, eq_ix2 idx⟩
  exact xbus3_ix x0 x1 x2 x3 x4 x5 x6 x15 x16 x17 x18 x19 x20 x21 x22 i j

/-- The gen features after layer 2 (the rectified sum of the contributions of the edge types into gen), at an index. -/
theorem xgen3_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 20000) (j : Fin 128) :
    val_main_v909 (F := Ideal) x0 x1 x2 x3 x4 x5 x6 x15 x16 x17 x18 x19 x20 x21 x22 (ix2 i j) =
      Cert.Spec.layer1R (fun (i : Fin 20000) (k : Fin 128) => val_main_v827 (F := Ideal) x0 x1 x2 x3 x4 x5 x6 x15 x16 x17 x18 x19 x20 x21 x22 (ix2 i k)) (fun (i : Fin 20000) (k : Fin 128) => (val_main_v605 (F := Ideal) x0 x1 x2 x3 x4 x5 x6 x15 x16 x17 x18 x19 x21) (ix2 i k))
        (fun (k j : Fin 128) => x4 (ix4 2 3 k j)) (fun (k j : Fin 128) => x6 (ix4 2 3 k j)) (fun (j : Fin 128) => x5 (ix3 2 3 j)) i j := by
  unfold Cert.Spec.layer1R Cert.Spec.relu
  rw [val_main_v909_apply, sage_2_3_ix, val_main_call9_v0_apply, val_main_call9_cst_apply]
  simp only [Ideal.maximumf_def, Ideal.addf_def, Ideal.ofBits_def, Ideal.ofBits_zero_f32]

/-- The same at an index given whole. -/
theorem xgen3_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S20000x128.Idx) :
    val_main_v909 (F := Ideal) x0 x1 x2 x3 x4 x5 x6 x15 x16 x17 x18 x19 x20 x21 x22 idx =
      Cert.Spec.layer1R (fun (i : Fin 20000) (k : Fin 128) => val_main_v827 (F := Ideal) x0 x1 x2 x3 x4 x5 x6 x15 x16 x17 x18 x19 x20 x21 x22 (ix2 i k)) (fun (i : Fin 20000) (k : Fin 128) => (val_main_v605 (F := Ideal) x0 x1 x2 x3 x4 x5 x6 x15 x16 x17 x18 x19 x21) (ix2 i k))
        (fun (k j : Fin 128) => x4 (ix4 2 3 k j)) (fun (k j : Fin 128) => x6 (ix4 2 3 k j)) (fun (j : Fin 128) => x5 (ix3 2 3 j)) (idx 0) (idx 1) := by
  obtain ⟨i, j, rfl⟩ : ∃ (i : Fin 20000) (j : Fin 128), idx = ix2 i j := ⟨idx 0, idx 1, eq_ix2 idx⟩
  exact xgen3_ix x0 x1 x2 x3 x4 x5 x6 x15 x16 x17 x18 x19 x20 x21 x22 i j

/-- The load features after layer 2 (the rectified sum of the contributions of the edge types into load), at an index. -/
theorem xload3_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 50000) (j : Fin 128) :
    val_main_v910 (F := Ideal) x0 x1 x2 x3 x4 x5 x6 x15 x16 x17 x18 x19 x20 x21 x22 (ix2 i j) =
      Cert.Spec.layer1R (fun (i : Fin 50000) (k : Fin 128) => val_main_v864 (F := Ideal) x0 x1 x2 x3 x4 x5 x6 x15 x16 x17 x18 x19 x20 x21 x22 (ix2 i k)) (fun (i : Fin 50000) (k : Fin 128) => (val_main_v606 (F := Ideal) x0 x1 x2 x3 x4 x5 x6 x15 x16 x17 x19 x20 x21) (ix2 i k))
        (fun (k j : Fin 128) => x4 (ix4 2 5 k j)) (fun (k j : Fin 128) => x6 (ix4 2 5 k j)) (fun (j : Fin 128) => x5 (ix3 2 5 j)) i j := by
  unfold Cert.Spec.layer1R Cert.Spec.relu
  rw [val_main_v910_apply, sage_2_5_ix, val_main_call10_v0_apply, val_main_call10_cst_apply]
  simp only [Ideal.maximumf_def, Ideal.addf_def, Ideal.ofBits_def, Ideal.ofBits_zero_f32]

/-- The same at an index given whole. -/
theorem xload3_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S50000x128.Idx) :
    val_main_v910 (F := Ideal) x0 x1 x2 x3 x4 x5 x6 x15 x16 x17 x18 x19 x20 x21 x22 idx =
      Cert.Spec.layer1R (fun (i : Fin 50000) (k : Fin 128) => val_main_v864 (F := Ideal) x0 x1 x2 x3 x4 x5 x6 x15 x16 x17 x18 x19 x20 x21 x22 (ix2 i k)) (fun (i : Fin 50000) (k : Fin 128) => (val_main_v606 (F := Ideal) x0 x1 x2 x3 x4 x5 x6 x15 x16 x17 x19 x20 x21) (ix2 i k))
        (fun (k j : Fin 128) => x4 (ix4 2 5 k j)) (fun (k j : Fin 128) => x6 (ix4 2 5 k j)) (fun (j : Fin 128) => x5 (ix3 2 5 j)) (idx 0) (idx 1) := by
  obtain ⟨i, j, rfl⟩ : ∃ (i : Fin 50000) (j : Fin 128), idx = ix2 i j := ⟨idx 0, idx 1, eq_ix2 idx⟩
  exact xload3_ix x0 x1 x2 x3 x4 x5 x6 x15 x16 x17 x18 x19 x20 x21 x22 i j

/-- The shunt features after layer 2 (the rectified sum of the contributions of the edge types into shunt), at an index. -/
theorem xshunt3_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 5000) (j : Fin 128) :
    val_main_v911 (F := Ideal) x0 x1 x2 x3 x4 x5 x6 x15 x16 x17 x18 x19 x20 x21 x22 (ix2 i j) =
      Cert.Spec.layer1R (fun (i : Fin 5000) (k : Fin 128) => val_main_v901 (F := Ideal) x0 x1 x2 x3 x4 x5 x6 x15 x16 x17 x18 x19 x20 x21 x22 (ix2 i k)) (fun (i : Fin 5000) (k : Fin 128) => (val_main_v607 (F := Ideal) x0 x1 x2 x3 x4 x5 x6 x15 x16 x17 x19 x21 x22) (ix2 i k))
        (fun (k j : Fin 128) => x4 (ix4 2 7 k j)) (fun (k j : Fin 128) => x6 (ix4 2 7 k j)) (fun (j : Fin 128) => x5 (ix3 2 7 j)) i j := by
  unfold Cert.Spec.layer1R Cert.Spec.relu
  rw [val_main_v911_apply, sage_2_7_ix, val_main_call11_v0_apply, val_main_call11_cst_apply]
  simp only [Ideal.maximumf_def, Ideal.addf_def, Ideal.ofBits_def, Ideal.ofBits_zero_f32]

/-- The same at an index given whole. -/
theorem xshunt3_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S5000x128.Idx) :
    val_main_v911 (F := Ideal) x0 x1 x2 x3 x4 x5 x6 x15 x16 x17 x18 x19 x20 x21 x22 idx =
      Cert.Spec.layer1R (fun (i : Fin 5000) (k : Fin 128) => val_main_v901 (F := Ideal) x0 x1 x2 x3 x4 x5 x6 x15 x16 x17 x18 x19 x20 x21 x22 (ix2 i k)) (fun (i : Fin 5000) (k : Fin 128) => (val_main_v607 (F := Ideal) x0 x1 x2 x3 x4 x5 x6 x15 x16 x17 x19 x21 x22) (ix2 i k))
        (fun (k j : Fin 128) => x4 (ix4 2 7 k j)) (fun (k j : Fin 128) => x6 (ix4 2 7 k j)) (fun (j : Fin 128) => x5 (ix3 2 7 j)) (idx 0) (idx 1) := by
  obtain ⟨i, j, rfl⟩ : ∃ (i : Fin 5000) (j : Fin 128), idx = ix2 i j := ⟨idx 0, idx 1, eq_ix2 idx⟩
  exact xshunt3_ix x0 x1 x2 x3 x4 x5 x6 x15 x16 x17 x18 x19 x20 x21 x22 i j

end Cert.ReferenceIdeal.Hand
end
-- ==== Proof.Ref.Heads.lean ====
/-
  The two results at an index, at the ideal instance: each is the two-layer perceptron
  relu (x · W1 + b1) · W2 + b2 of the last layer's bus (resp. gen) features.
-/
import proofs.«125545_j64845416235624_1_alg».proof.Proof.Ref.ReadP
import Idealize.ShloMosaic.Lib.ValueIdx
import proofs.«125545_j64845416235624_1_alg».proof.Proof.Spec

noncomputable section
namespace Cert.ReferenceIdeal.Hand
open Cert.ReferenceIdeal Cert.ReferenceIdeal.Gen Cert.ReferenceIdeal.Read Idealize.ShloMosaic Idealize.ShloMosaic.ValueIdx
open scoped BigOperators

variable {F : FTy → Type} [FloatOps F]

/-- The hidden layer of the bus head at an index: the rectified `x · W1 + b1`. -/
theorem bus_out_hidden_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x7 : (⟨S128x128, .f32⟩ : BufTy).Contents (Elt Ideal)) (x8 : (⟨S128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (h : Fin 128) :
    val_main_v916 (F := Ideal) x0 x1 x2 x3 x4 x5 x6 x7 x8 x15 x16 x17 x18 x19 x20 x21 x22 (ix2 i h) =
      Cert.Spec.relu (Cert.Spec.mm (fun (i : Fin 100000) (k : Fin 128) => (val_main_v908 (F := Ideal) x0 x1 x2 x3 x4 x5 x6 x15 x16 x17 x18 x19 x20 x21 x22) (ix2 i k)) (fun (k h : Fin 128) => x7 (ix2 k h)) i h + x8 (ix1 h)) := by
  have hl : ∀ k : Fin 128, lidx_main_v912 (ix2 i h) k = ix2 i k := fun k => funext fun a => by
    match a with
    | ⟨0, _⟩ => rfl
    | ⟨1, _⟩ => rfl
  have hr : ∀ k : Fin 128, ridx_main_v912 (ix2 i h) k = ix2 k h := fun k => funext fun a => by
    match a with
    | ⟨0, _⟩ => rfl
    | ⟨1, _⟩ => rfl
  have hb : idx_main_v913 (idx_main_v914 (ix2 i h)) = ix1 h := funext fun a => by
    match a with
    | ⟨0, _⟩ => rfl
  unfold Cert.Spec.relu Cert.Spec.mm
  rw [val_main_v916_apply, val_main_v915_apply, val_main_v912_apply, val_main_v914_apply, val_main_v913_apply, hb, val_main_call12_v0_apply, val_main_call12_cst_apply]
  simp only [hl, hr, Ideal.maximumf_def, Ideal.addf_def, Ideal.ofBits_def, Ideal.ofBits_zero_f32]

/-- The bus head's result at an index: `relu (x · W1 + b1) · W2 + b2`. -/
theorem bus_out_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 100000) (o : Fin 2) :
    val_main_v920 (F := Ideal) x0 x1 x2 x3 x4 x5 x6 x7 x8 x9 x10 x15 x16 x17 x18 x19 x20 x21 x22 (ix2 i o) =
      Cert.Spec.head (fun (i : Fin 100000) (k : Fin 128) => (val_main_v908 (F := Ideal) x0 x1 x2 x3 x4 x5 x6 x15 x16 x17 x18 x19 x20 x21 x22) (ix2 i k)) (fun (k h : Fin 128) => x7 (ix2 k h)) (fun (h : Fin 128) => x8 (ix1 h))
        (fun (h : Fin 128) (o : Fin 2) => x9 (ix2 h o)) (fun (o : Fin 2) => x10 (ix1 o)) i o := by
  have hl : ∀ h : Fin 128, lidx_main_v917 (ix2 i o) h = ix2 i h := fun h => funext fun a => by
    match a with
    | ⟨0, _⟩ => rfl
    | ⟨1, _⟩ => rfl
  have hr : ∀ h : Fin 128, ridx_main_v917 (ix2 i o) h = ix2 h o := fun h => funext fun a => by
    match a with
    | ⟨0, _⟩ => rfl
    | ⟨1, _⟩ => rfl
  have hb : idx_main_v918 (idx_main_v919 (ix2 i o)) = ix1 o := funext fun a => by
    match a with
    | ⟨0, _⟩ => rfl
  unfold Cert.Spec.head
  rw [val_main_v920_apply, val_main_v917_apply, val_main_v919_apply, val_main_v918_apply, hb]
  simp only [hl, hr, bus_out_hidden_ix, Ideal.addf_def]

/-- The same at an index given whole. -/
theorem bus_out_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S100000x2.Idx) :
    val_main_v920 (F := Ideal) x0 x1 x2 x3 x4 x5 x6 x7 x8 x9 x10 x15 x16 x17 x18 x19 x20 x21 x22 idx =
      Cert.Spec.head (fun (i : Fin 100000) (k : Fin 128) => (val_main_v908 (F := Ideal) x0 x1 x2 x3 x4 x5 x6 x15 x16 x17 x18 x19 x20 x21 x22) (ix2 i k)) (fun (k h : Fin 128) => x7 (ix2 k h)) (fun (h : Fin 128) => x8 (ix1 h))
        (fun (h : Fin 128) (o : Fin 2) => x9 (ix2 h o)) (fun (o : Fin 2) => x10 (ix1 o)) (idx 0) (idx 1) := by
  obtain ⟨i, o, rfl⟩ : ∃ (i : Fin 100000) (o : Fin 2), idx = ix2 i o := ⟨idx 0, idx 1, eq_ix2 idx⟩
  exact bus_out_ix x0 x1 x2 x3 x4 x5 x6 x7 x8 x9 x10 x15 x16 x17 x18 x19 x20 x21 x22 i o

/-- The hidden layer of the gen head at an index: the rectified `x · W1 + b1`. -/
theorem gen_out_hidden_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x11 : (⟨S128x128, .f32⟩ : BufTy).Contents (Elt Ideal)) (x12 : (⟨S128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 20000) (h : Fin 128) :
    val_main_v925 (F := Ideal) x0 x1 x2 x3 x4 x5 x6 x11 x12 x15 x16 x17 x18 x19 x20 x21 x22 (ix2 i h) =
      Cert.Spec.relu (Cert.Spec.mm (fun (i : Fin 20000) (k : Fin 128) => (val_main_v909 (F := Ideal) x0 x1 x2 x3 x4 x5 x6 x15 x16 x17 x18 x19 x20 x21 x22) (ix2 i k)) (fun (k h : Fin 128) => x11 (ix2 k h)) i h + x12 (ix1 h)) := by
  have hl : ∀ k : Fin 128, lidx_main_v921 (ix2 i h) k = ix2 i k := fun k => funext fun a => by
    match a with
    | ⟨0, _⟩ => rfl
    | ⟨1, _⟩ => rfl
  have hr : ∀ k : Fin 128, ridx_main_v921 (ix2 i h) k = ix2 k h := fun k => funext fun a => by
    match a with
    | ⟨0, _⟩ => rfl
    | ⟨1, _⟩ => rfl
  have hb : idx_main_v922 (idx_main_v923 (ix2 i h)) = ix1 h := funext fun a => by
    match a with
    | ⟨0, _⟩ => rfl
  unfold Cert.Spec.relu Cert.Spec.mm
  rw [val_main_v925_apply, val_main_v924_apply, val_main_v921_apply, val_main_v923_apply, val_main_v922_apply, hb, val_main_call13_v0_apply, val_main_call13_cst_apply]
  simp only [hl, hr, Ideal.maximumf_def, Ideal.addf_def, Ideal.ofBits_def, Ideal.ofBits_zero_f32]

/-- The gen head's result at an index: `relu (x · W1 + b1) · W2 + b2`. -/
theorem gen_out_ix (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x11 : (⟨S128x128, .f32⟩ : BufTy).Contents (Elt Ideal)) (x12 : (⟨S128, .f32⟩ : BufTy).Contents (Elt Ideal)) (x13 : (⟨S128x2, .f32⟩ : BufTy).Contents (Elt Ideal)) (x14 : (⟨S2, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (i : Fin 20000) (o : Fin 2) :
    val_main_v929 (F := Ideal) x0 x1 x2 x3 x4 x5 x6 x11 x12 x13 x14 x15 x16 x17 x18 x19 x20 x21 x22 (ix2 i o) =
      Cert.Spec.head (fun (i : Fin 20000) (k : Fin 128) => (val_main_v909 (F := Ideal) x0 x1 x2 x3 x4 x5 x6 x15 x16 x17 x18 x19 x20 x21 x22) (ix2 i k)) (fun (k h : Fin 128) => x11 (ix2 k h)) (fun (h : Fin 128) => x12 (ix1 h))
        (fun (h : Fin 128) (o : Fin 2) => x13 (ix2 h o)) (fun (o : Fin 2) => x14 (ix1 o)) i o := by
  have hl : ∀ h : Fin 128, lidx_main_v926 (ix2 i o) h = ix2 i h := fun h => funext fun a => by
    match a with
    | ⟨0, _⟩ => rfl
    | ⟨1, _⟩ => rfl
  have hr : ∀ h : Fin 128, ridx_main_v926 (ix2 i o) h = ix2 h o := fun h => funext fun a => by
    match a with
    | ⟨0, _⟩ => rfl
    | ⟨1, _⟩ => rfl
  have hb : idx_main_v927 (idx_main_v928 (ix2 i o)) = ix1 o := funext fun a => by
    match a with
    | ⟨0, _⟩ => rfl
  unfold Cert.Spec.head
  rw [val_main_v929_apply, val_main_v926_apply, val_main_v928_apply, val_main_v927_apply, hb]
  simp only [hl, hr, gen_out_hidden_ix, Ideal.addf_def]

/-- The same at an index given whole. -/
theorem gen_out_apply (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x11 : (⟨S128x128, .f32⟩ : BufTy).Contents (Elt Ideal)) (x12 : (⟨S128, .f32⟩ : BufTy).Contents (Elt Ideal)) (x13 : (⟨S128x2, .f32⟩ : BufTy).Contents (Elt Ideal)) (x14 : (⟨S2, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) (idx : S20000x2.Idx) :
    val_main_v929 (F := Ideal) x0 x1 x2 x3 x4 x5 x6 x11 x12 x13 x14 x15 x16 x17 x18 x19 x20 x21 x22 idx =
      Cert.Spec.head (fun (i : Fin 20000) (k : Fin 128) => (val_main_v909 (F := Ideal) x0 x1 x2 x3 x4 x5 x6 x15 x16 x17 x18 x19 x20 x21 x22) (ix2 i k)) (fun (k h : Fin 128) => x11 (ix2 k h)) (fun (h : Fin 128) => x12 (ix1 h))
        (fun (h : Fin 128) (o : Fin 2) => x13 (ix2 h o)) (fun (o : Fin 2) => x14 (ix1 o)) (idx 0) (idx 1) := by
  obtain ⟨i, o, rfl⟩ : ∃ (i : Fin 20000) (o : Fin 2), idx = ix2 i o := ⟨idx 0, idx 1, eq_ix2 idx⟩
  exact gen_out_ix x0 x1 x2 x3 x4 x5 x6 x11 x12 x13 x14 x15 x16 x17 x18 x19 x20 x21 x22 i o

end Cert.ReferenceIdeal.Hand
end
-- ==== Proof.Ref.Agg.lean ====
/-
  The mean aggregation of an edge type is one function of (source features, edge list): at layers 1 and 2 the
  reference's aggregate stage is the layer-0 stage of the same edge type applied to the previous layer's
  features of the source type.
-/
import proofs.«125545_j64845416235624_1_alg».proof.Proof.Ref.ReadP

noncomputable section
namespace Cert.ReferenceIdeal.Hand
open Cert.ReferenceIdeal Cert.ReferenceIdeal.Gen Cert.ReferenceIdeal.Read Idealize.ShloMosaic Idealize.ShloMosaic.ValueIdx
open scoped BigOperators

variable {F : FTy → Type} [FloatOps F]

/-- Layer 1, edge type 0 — ac (bus→bus): the mean aggregation is the same function of (source features, edge list) as at layer 0. -/
theorem agg_1_0 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F)) :
    val_main_v334 (F := F) x0 x1 x2 x3 x4 x5 x6 x15 x16 x17 x19 x21 = val_main_v30 (F := F) (val_main_v300 (F := F) x0 x1 x2 x3 x4 x5 x6 x15 x16 x17 x19 x21) x15 := rfl

/-- Layer 1, edge type 1 — tr (bus→bus): the mean aggregation is the same function of (source features, edge list) as at layer 0. -/
theorem agg_1_1 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F)) :
    val_main_v371 (F := F) x0 x1 x2 x3 x4 x5 x6 x15 x16 x17 x19 x21 = val_main_v67 (F := F) (val_main_v300 (F := F) x0 x1 x2 x3 x4 x5 x6 x15 x16 x17 x19 x21) x16 := rfl

/-- Layer 1, edge type 2 — gb (gen→bus): the mean aggregation is the same function of (source features, edge list) as at layer 0. -/
theorem agg_1_2 (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x17 : (⟨S2x20000, .i32⟩ : BufTy).Contents (Elt F)) (x18 : (⟨S2x20000, .i32⟩ : BufTy).Contents (Elt F)) :
    val_main_v409 (F := F) x0 x1 x4 x5 x6 x17 x18 = val_main_v105 (F := F) (val_main_v301 (F := F) x0 x1 x4 x5 x6 x18) x17 := rfl

/-- Layer 1, edge type 4 — lb (load→bus): the mean aggregation is the same function of (source features, edge list) as at layer 0. -/
theorem agg_1_4 (x0 : (⟨S100000x128, .f32⟩ : BufTy).Contents (Elt F)) (x2 : (⟨S50000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x19 : (⟨S2x50000, .i32⟩ : BufTy).Contents (Elt F)) (x20 : (⟨S2x50000, .i32⟩ : BufTy).Contents (Elt F)) :
    val_main_v447 (F := F) x0 x2 x4 x5 x6 x19 x20 = val_main_v143 (F := F) (val_main_v302 (F := F) x0 x2 x4 x5 x6 x20) x19 := rfl

/-- Layer 1, edge type 6 — sb (shunt→bus): the mean aggregation is the same function of (source features, edge list) as at layer 0. -/
theorem agg_1_6 (x0 : (⟨S100000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x21 : (⟨S2x5000, .i32⟩ : BufTy).Contents (Elt F)) (x22 : (⟨S2x5000, .i32⟩ : BufTy).Contents (Elt F)) :
    val_main_v485 (F := F) x0 x3 x4 x5 x6 x21 x22 = val_main_v181 (F := F) (val_main_v303 (F := F) x0 x3 x4 x5 x6 x22) x21 := rfl

/-- Layer 1, edge type 3 — bg (bus→gen): the mean aggregation is the same function of (source features, edge list) as at layer 0. -/
theorem agg_1_3 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F)) :
    val_main_v523 (F := F) x0 x1 x2 x3 x4 x5 x6 x15 x16 x17 x18 x19 x21 = val_main_v219 (F := F) (val_main_v300 (F := F) x0 x1 x2 x3 x4 x5 x6 x15 x16 x17 x19 x21) x18 := rfl

/-- Layer 1, edge type 5 — bl (bus→load): the mean aggregation is the same function of (source features, edge list) as at layer 0. -/
theorem agg_1_5 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) :
    val_main_v560 (F := F) x0 x1 x2 x3 x4 x5 x6 x15 x16 x17 x19 x20 x21 = val_main_v256 (F := F) (val_main_v300 (F := F) x0 x1 x2 x3 x4 x5 x6 x15 x16 x17 x19 x21) x20 := rfl

/-- Layer 1, edge type 7 — bs (bus→shunt): the mean aggregation is the same function of (source features, edge list) as at layer 0. -/
theorem agg_1_7 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F)) (x22 : (⟨S2x5000, .i32⟩ : BufTy).Contents (Elt F)) :
    val_main_v597 (F := F) x0 x1 x2 x3 x4 x5 x6 x15 x16 x17 x19 x21 x22 = val_main_v293 (F := F) (val_main_v300 (F := F) x0 x1 x2 x3 x4 x5 x6 x15 x16 x17 x19 x21) x22 := rfl

/-- Layer 2, edge type 0 — ac (bus→bus): the mean aggregation is the same function of (source features, edge list) as at layer 0. -/
theorem agg_2_0 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F)) :
    val_main_v638 (F := F) x0 x1 x2 x3 x4 x5 x6 x15 x16 x17 x18 x19 x20 x21 x22 = val_main_v30 (F := F) (val_main_v604 (F := F) x0 x1 x2 x3 x4 x5 x6 x15 x16 x17 x18 x19 x20 x21 x22) x15 := rfl

/-- Layer 2, edge type 1 — tr (bus→bus): the mean aggregation is the same function of (source features, edge list) as at layer 0. -/
theorem agg_2_1 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F)) :
    val_main_v675 (F := F) x0 x1 x2 x3 x4 x5 x6 x15 x16 x17 x18 x19 x20 x21 x22 = val_main_v67 (F := F) (val_main_v604 (F := F) x0 x1 x2 x3 x4 x5 x6 x15 x16 x17 x18 x19 x20 x21 x22) x16 := rfl

/-- Layer 2, edge type 2 — gb (gen→bus): the mean aggregation is the same function of (source features, edge list) as at layer 0. -/
theorem agg_2_2 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F)) :
    val_main_v713 (F := F) x0 x1 x2 x3 x4 x5 x6 x15 x16 x17 x18 x19 x21 = val_main_v105 (F := F) (val_main_v605 (F := F) x0 x1 x2 x3 x4 x5 x6 x15 x16 x17 x18 x19 x21) x17 := rfl

/-- Layer 2, edge type 4 — lb (load→bus): the mean aggregation is the same function of (source features, edge list) as at layer 0. -/
theorem agg_2_4 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) :
    val_main_v751 (F := F) x0 x1 x2 x3 x4 x5 x6 x15 x16 x17 x19 x20 x21 = val_main_v143 (F := F) (val_main_v606 (F := F) x0 x1 x2 x3 x4 x5 x6 x15 x16 x17 x19 x20 x21) x19 := rfl

/-- Layer 2, edge type 6 — sb (shunt→bus): the mean aggregation is the same function of (source features, edge list) as at layer 0. -/
theorem agg_2_6 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F)) (x22 : (⟨S2x5000, .i32⟩ : BufTy).Contents (Elt F)) :
    val_main_v789 (F := F) x0 x1 x2 x3 x4 x5 x6 x15 x16 x17 x19 x21 x22 = val_main_v181 (F := F) (val_main_v607 (F := F) x0 x1 x2 x3 x4 x5 x6 x15 x16 x17 x19 x21 x22) x21 := rfl

/-- Layer 2, edge type 3 — bg (bus→gen): the mean aggregation is the same function of (source features, edge list) as at layer 0. -/
theorem agg_2_3 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F)) :
    val_main_v827 (F := F) x0 x1 x2 x3 x4 x5 x6 x15 x16 x17 x18 x19 x20 x21 x22 = val_main_v219 (F := F) (val_main_v604 (F := F) x0 x1 x2 x3 x4 x5 x6 x15 x16 x17 x18 x19 x20 x21 x22) x18 := rfl

/-- Layer 2, edge type 5 — bl (bus→load): the mean aggregation is the same function of (source features, edge list) as at layer 0. -/
theorem agg_2_5 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F)) :
    val_main_v864 (F := F) x0 x1 x2 x3 x4 x5 x6 x15 x16 x17 x18 x19 x20 x21 x22 = val_main_v256 (F := F) (val_main_v604 (F := F) x0 x1 x2 x3 x4 x5 x6 x15 x16 x17 x18 x19 x20 x21 x22) x20 := rfl

/-- Layer 2, edge type 7 — bs (bus→shunt): the mean aggregation is the same function of (source features, edge list) as at layer 0. -/
theorem agg_2_7 (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F)) :
    val_main_v901 (F := F) x0 x1 x2 x3 x4 x5 x6 x15 x16 x17 x18 x19 x20 x21 x22 = val_main_v293 (F := F) (val_main_v604 (F := F) x0 x1 x2 x3 x4 x5 x6 x15 x16 x17 x18 x19 x20 x21 x22) x22 := rfl

end Cert.ReferenceIdeal.Hand
end
-- ==== Proof.Ref.Net.lean ====
/-
  The reference's two results as the network over the kernel program's eight mean aggregations: the features
  after each layer are the components of the reference-form step applied to the features before it, and each
  result is the two-layer head of the features after the third layer.
-/
import proofs.«125545_j64845416235624_1_alg».proof.Proof.Ref.Layers
import proofs.«125545_j64845416235624_1_alg».proof.Proof.Ref.Heads
import proofs.«125545_j64845416235624_1_alg».proof.Proof.Ref.Agg
import proofs.«125545_j64845416235624_1_alg».proof.Proof.NetDefs

noncomputable section
namespace Cert.ReferenceIdeal.Hand
open Cert.ReferenceIdeal Cert.ReferenceIdeal.Gen Cert.ReferenceIdeal.Read Idealize.ShloMosaic Idealize.ShloMosaic.ValueIdx Cert.Hand.Net
open scoped BigOperators

/-! ## The eight mean aggregations are the kernel program's -/

/-- Edge type 0 — ac (bus→bus): the reference's mean aggregation and the kernel program's are the same composition of the same operations. -/
theorem agg_ac_eq (x : (⟨S100000x128, .f32⟩ : BufTy).Contents (Elt Ideal)) (ei : (⟨S2x500000, .i32⟩ : BufTy).Contents (Elt Ideal)) :
    val_main_v30 (F := Ideal) x ei = Cert.KernelIdeal.Hand.aggK_ac (F := Ideal) x ei := rfl

/-- The same, by row and column, as the aggregation of the features read by row and column. -/
theorem aggR_ac (x : (⟨S100000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v30 (F := Ideal) x x15) = (aggs x15 x16 x17 x18 x19 x20 x21 x22).ac (cur2 x) := by
  show cur2 (val_main_v30 (F := Ideal) x x15) = cur2 (Cert.KernelIdeal.Hand.aggK_ac (F := Ideal) (unc2 (cur2 x)) x15)
  rw [unc2_cur2, agg_ac_eq]

/-- Edge type 1 — tr (bus→bus): the reference's mean aggregation and the kernel program's are the same composition of the same operations. -/
theorem agg_tr_eq (x : (⟨S100000x128, .f32⟩ : BufTy).Contents (Elt Ideal)) (ei : (⟨S2x100000, .i32⟩ : BufTy).Contents (Elt Ideal)) :
    val_main_v67 (F := Ideal) x ei = Cert.KernelIdeal.Hand.aggK_tr (F := Ideal) x ei := rfl

/-- The same, by row and column, as the aggregation of the features read by row and column. -/
theorem aggR_tr (x : (⟨S100000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v67 (F := Ideal) x x16) = (aggs x15 x16 x17 x18 x19 x20 x21 x22).tr (cur2 x) := by
  show cur2 (val_main_v67 (F := Ideal) x x16) = cur2 (Cert.KernelIdeal.Hand.aggK_tr (F := Ideal) (unc2 (cur2 x)) x16)
  rw [unc2_cur2, agg_tr_eq]

/-- Edge type 2 — gb (gen→bus): the reference's mean aggregation and the kernel program's are the same composition of the same operations. -/
theorem agg_gb_eq (x : (⟨S20000x128, .f32⟩ : BufTy).Contents (Elt Ideal)) (ei : (⟨S2x20000, .i32⟩ : BufTy).Contents (Elt Ideal)) :
    val_main_v105 (F := Ideal) x ei = Cert.KernelIdeal.Hand.aggK_gb (F := Ideal) x ei := rfl

/-- The same, by row and column, as the aggregation of the features read by row and column. -/
theorem aggR_gb (x : (⟨S20000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v105 (F := Ideal) x x17) = (aggs x15 x16 x17 x18 x19 x20 x21 x22).gb (cur2 x) := by
  show cur2 (val_main_v105 (F := Ideal) x x17) = cur2 (Cert.KernelIdeal.Hand.aggK_gb (F := Ideal) (unc2 (cur2 x)) x17)
  rw [unc2_cur2, agg_gb_eq]

/-- Edge type 3 — bg (bus→gen): the reference's mean aggregation and the kernel program's are the same composition of the same operations. -/
theorem agg_bg_eq (x : (⟨S100000x128, .f32⟩ : BufTy).Contents (Elt Ideal)) (ei : (⟨S2x20000, .i32⟩ : BufTy).Contents (Elt Ideal)) :
    val_main_v219 (F := Ideal) x ei = Cert.KernelIdeal.Hand.aggK_bg (F := Ideal) x ei := rfl

/-- The same, by row and column, as the aggregation of the features read by row and column. -/
theorem aggR_bg (x : (⟨S100000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v219 (F := Ideal) x x18) = (aggs x15 x16 x17 x18 x19 x20 x21 x22).bg (cur2 x) := by
  show cur2 (val_main_v219 (F := Ideal) x x18) = cur2 (Cert.KernelIdeal.Hand.aggK_bg (F := Ideal) (unc2 (cur2 x)) x18)
  rw [unc2_cur2, agg_bg_eq]

/-- Edge type 4 — lb (load→bus): the reference's mean aggregation and the kernel program's are the same composition of the same operations. -/
theorem agg_lb_eq (x : (⟨S50000x128, .f32⟩ : BufTy).Contents (Elt Ideal)) (ei : (⟨S2x50000, .i32⟩ : BufTy).Contents (Elt Ideal)) :
    val_main_v143 (F := Ideal) x ei = Cert.KernelIdeal.Hand.aggK_lb (F := Ideal) x ei := rfl

/-- The same, by row and column, as the aggregation of the features read by row and column. -/
theorem aggR_lb (x : (⟨S50000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v143 (F := Ideal) x x19) = (aggs x15 x16 x17 x18 x19 x20 x21 x22).lb (cur2 x) := by
  show cur2 (val_main_v143 (F := Ideal) x x19) = cur2 (Cert.KernelIdeal.Hand.aggK_lb (F := Ideal) (unc2 (cur2 x)) x19)
  rw [unc2_cur2, agg_lb_eq]

/-- Edge type 5 — bl (bus→load): the reference's mean aggregation and the kernel program's are the same composition of the same operations. -/
theorem agg_bl_eq (x : (⟨S100000x128, .f32⟩ : BufTy).Contents (Elt Ideal)) (ei : (⟨S2x50000, .i32⟩ : BufTy).Contents (Elt Ideal)) :
    val_main_v256 (F := Ideal) x ei = Cert.KernelIdeal.Hand.aggK_bl (F := Ideal) x ei := rfl

/-- The same, by row and column, as the aggregation of the features read by row and column. -/
theorem aggR_bl (x : (⟨S100000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v256 (F := Ideal) x x20) = (aggs x15 x16 x17 x18 x19 x20 x21 x22).bl (cur2 x) := by
  show cur2 (val_main_v256 (F := Ideal) x x20) = cur2 (Cert.KernelIdeal.Hand.aggK_bl (F := Ideal) (unc2 (cur2 x)) x20)
  rw [unc2_cur2, agg_bl_eq]

/-- Edge type 6 — sb (shunt→bus): the reference's mean aggregation and the kernel program's are the same composition of the same operations. -/
theorem agg_sb_eq (x : (⟨S5000x128, .f32⟩ : BufTy).Contents (Elt Ideal)) (ei : (⟨S2x5000, .i32⟩ : BufTy).Contents (Elt Ideal)) :
    val_main_v181 (F := Ideal) x ei = Cert.KernelIdeal.Hand.aggK_sb (F := Ideal) x ei := rfl

/-- The same, by row and column, as the aggregation of the features read by row and column. -/
theorem aggR_sb (x : (⟨S5000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v181 (F := Ideal) x x21) = (aggs x15 x16 x17 x18 x19 x20 x21 x22).sb (cur2 x) := by
  show cur2 (val_main_v181 (F := Ideal) x x21) = cur2 (Cert.KernelIdeal.Hand.aggK_sb (F := Ideal) (unc2 (cur2 x)) x21)
  rw [unc2_cur2, agg_sb_eq]

/-- Edge type 7 — bs (bus→shunt): the reference's mean aggregation and the kernel program's are the same composition of the same operations. -/
theorem agg_bs_eq (x : (⟨S100000x128, .f32⟩ : BufTy).Contents (Elt Ideal)) (ei : (⟨S2x5000, .i32⟩ : BufTy).Contents (Elt Ideal)) :
    val_main_v293 (F := Ideal) x ei = Cert.KernelIdeal.Hand.aggK_bs (F := Ideal) x ei := rfl

/-- The same, by row and column, as the aggregation of the features read by row and column. -/
theorem aggR_bs (x : (⟨S100000x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v293 (F := Ideal) x x22) = (aggs x15 x16 x17 x18 x19 x20 x21 x22).bs (cur2 x) := by
  show cur2 (val_main_v293 (F := Ideal) x x22) = cur2 (Cert.KernelIdeal.Hand.aggK_bs (F := Ideal) (unc2 (cur2 x)) x22)
  rw [unc2_cur2, agg_bs_eq]

/-! ## The features after each layer -/

/-- The features after the first layer, reference form. -/
def fR1 (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :=
  Cert.Spec.stepR (aggs x15 x16 x17 x18 x19 x20 x21 x22) (W4 x4 0) (W4 x6 0) (B3 x5 0) (feat0 x0 x1 x2 x3)
/-- The features after the second layer, reference form. -/
def fR2 (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :=
  Cert.Spec.stepR (aggs x15 x16 x17 x18 x19 x20 x21 x22) (W4 x4 1) (W4 x6 1) (B3 x5 1) (fR1 x0 x1 x2 x3 x4 x5 x6 x15 x16 x17 x18 x19 x20 x21 x22)
/-- The features after the third layer, reference form. -/
def fR3 (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :=
  Cert.Spec.stepR (aggs x15 x16 x17 x18 x19 x20 x21 x22) (W4 x4 2) (W4 x6 2) (B3 x5 2) (fR2 x0 x1 x2 x3 x4 x5 x6 x15 x16 x17 x18 x19 x20 x21 x22)
theorem fR3_eq (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    fR3 x0 x1 x2 x3 x4 x5 x6 x15 x16 x17 x18 x19 x20 x21 x22 = featR x0 x1 x2 x3 x4 x5 x6 x15 x16 x17 x18 x19 x20 x21 x22 := rfl

/-- The bus features after layer 0, by row and column. -/
theorem xbus1_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) :
    cur2 (val_main_v300 (F := Ideal) x0 x1 x2 x3 x4 x5 x6 x15 x16 x17 x19 x21) =
      Cert.Spec.layer5R
        (cur2 (val_main_v30 (F := Ideal) x0 x15))
        (cur2 (val_main_v67 (F := Ideal) x0 x16))
        (cur2 (val_main_v105 (F := Ideal) x1 x17))
        (cur2 (val_main_v143 (F := Ideal) x2 x19))
        (cur2 (val_main_v181 (F := Ideal) x3 x21))
        (cur2 x0)
        (W4 x4 0 0) (W4 x4 0 1) (W4 x4 0 2) (W4 x4 0 4) (W4 x4 0 6)
        (W4 x6 0 0) (W4 x6 0 1) (W4 x6 0 2) (W4 x6 0 4) (W4 x6 0 6)
        (B3 x5 0 0) (B3 x5 0 1) (B3 x5 0 2) (B3 x5 0 4) (B3 x5 0 6) :=
  funext fun i => funext fun j => xbus1_ix x0 x1 x2 x3 x4 x5 x6 x15 x16 x17 x19 x21 i j

/-- The bus features after layer 0 are the bus component of the reference-form step. -/
theorem L0_b (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v300 (F := Ideal) x0 x1 x2 x3 x4 x5 x6 x15 x16 x17 x19 x21) = (fR1 x0 x1 x2 x3 x4 x5 x6 x15 x16 x17 x18 x19 x20 x21 x22).b := by
  rw [xbus1_cur,
    aggR_ac x0 x15 x16 x17 x18 x19 x20 x21 x22,
    aggR_tr x0 x15 x16 x17 x18 x19 x20 x21 x22,
    aggR_gb x1 x15 x16 x17 x18 x19 x20 x21 x22,
    aggR_lb x2 x15 x16 x17 x18 x19 x20 x21 x22,
    aggR_sb x3 x15 x16 x17 x18 x19 x20 x21 x22]
  rfl

/-- The gen features after layer 0, by row and column. -/
theorem xgen1_cur (x0 : (⟨S100000x128, .f32⟩ : BufTy).Contents (Elt Ideal)) (x1 : (⟨S20000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x18 : (⟨S2x20000, .i32⟩ : BufTy).Contents (Elt Ideal)) :
    cur2 (val_main_v301 (F := Ideal) x0 x1 x4 x5 x6 x18) =
      Cert.Spec.layer1R (cur2 (val_main_v219 (F := Ideal) x0 x18)) (cur2 x1) (W4 x4 0 3) (W4 x6 0 3) (B3 x5 0 3) :=
  funext fun i => funext fun j => xgen1_ix x0 x1 x4 x5 x6 x18 i j

/-- The gen features after layer 0 are the gen component of the reference-form step. -/
theorem L0_g (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v301 (F := Ideal) x0 x1 x4 x5 x6 x18) = (fR1 x0 x1 x2 x3 x4 x5 x6 x15 x16 x17 x18 x19 x20 x21 x22).g := by
  rw [xgen1_cur,
    aggR_bg x0 x15 x16 x17 x18 x19 x20 x21 x22]
  rfl

/-- The load features after layer 0, by row and column. -/
theorem xload1_cur (x0 : (⟨S100000x128, .f32⟩ : BufTy).Contents (Elt Ideal)) (x2 : (⟨S50000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x20 : (⟨S2x50000, .i32⟩ : BufTy).Contents (Elt Ideal)) :
    cur2 (val_main_v302 (F := Ideal) x0 x2 x4 x5 x6 x20) =
      Cert.Spec.layer1R (cur2 (val_main_v256 (F := Ideal) x0 x20)) (cur2 x2) (W4 x4 0 5) (W4 x6 0 5) (B3 x5 0 5) :=
  funext fun i => funext fun j => xload1_ix x0 x2 x4 x5 x6 x20 i j

/-- The load features after layer 0 are the load component of the reference-form step. -/
theorem L0_l (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v302 (F := Ideal) x0 x2 x4 x5 x6 x20) = (fR1 x0 x1 x2 x3 x4 x5 x6 x15 x16 x17 x18 x19 x20 x21 x22).l := by
  rw [xload1_cur,
    aggR_bl x0 x15 x16 x17 x18 x19 x20 x21 x22]
  rfl

/-- The shunt features after layer 0, by row and column. -/
theorem xshunt1_cur (x0 : (⟨S100000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x22 : (⟨S2x5000, .i32⟩ : BufTy).Contents (Elt Ideal)) :
    cur2 (val_main_v303 (F := Ideal) x0 x3 x4 x5 x6 x22) =
      Cert.Spec.layer1R (cur2 (val_main_v293 (F := Ideal) x0 x22)) (cur2 x3) (W4 x4 0 7) (W4 x6 0 7) (B3 x5 0 7) :=
  funext fun i => funext fun j => xshunt1_ix x0 x3 x4 x5 x6 x22 i j

/-- The shunt features after layer 0 are the shunt component of the reference-form step. -/
theorem L0_s (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v303 (F := Ideal) x0 x3 x4 x5 x6 x22) = (fR1 x0 x1 x2 x3 x4 x5 x6 x15 x16 x17 x18 x19 x20 x21 x22).s := by
  rw [xshunt1_cur,
    aggR_bs x0 x15 x16 x17 x18 x19 x20 x21 x22]
  rfl

/-- The bus features after layer 1, by row and column. -/
theorem xbus2_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v604 (F := Ideal) x0 x1 x2 x3 x4 x5 x6 x15 x16 x17 x18 x19 x20 x21 x22) =
      Cert.Spec.layer5R
        (cur2 (val_main_v334 (F := Ideal) x0 x1 x2 x3 x4 x5 x6 x15 x16 x17 x19 x21))
        (cur2 (val_main_v371 (F := Ideal) x0 x1 x2 x3 x4 x5 x6 x15 x16 x17 x19 x21))
        (cur2 (val_main_v409 (F := Ideal) x0 x1 x4 x5 x6 x17 x18))
        (cur2 (val_main_v447 (F := Ideal) x0 x2 x4 x5 x6 x19 x20))
        (cur2 (val_main_v485 (F := Ideal) x0 x3 x4 x5 x6 x21 x22))
        (cur2 (val_main_v300 (F := Ideal) x0 x1 x2 x3 x4 x5 x6 x15 x16 x17 x19 x21))
        (W4 x4 1 0) (W4 x4 1 1) (W4 x4 1 2) (W4 x4 1 4) (W4 x4 1 6)
        (W4 x6 1 0) (W4 x6 1 1) (W4 x6 1 2) (W4 x6 1 4) (W4 x6 1 6)
        (B3 x5 1 0) (B3 x5 1 1) (B3 x5 1 2) (B3 x5 1 4) (B3 x5 1 6) :=
  funext fun i => funext fun j => xbus2_ix x0 x1 x2 x3 x4 x5 x6 x15 x16 x17 x18 x19 x20 x21 x22 i j

/-- The bus features after layer 1 are the bus component of the reference-form step. -/
theorem L1_b (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v604 (F := Ideal) x0 x1 x2 x3 x4 x5 x6 x15 x16 x17 x18 x19 x20 x21 x22) = (fR2 x0 x1 x2 x3 x4 x5 x6 x15 x16 x17 x18 x19 x20 x21 x22).b := by
  rw [xbus2_cur,
    agg_1_0,
    agg_1_1,
    agg_1_2,
    agg_1_4,
    agg_1_6,
    aggR_ac (val_main_v300 (F := Ideal) x0 x1 x2 x3 x4 x5 x6 x15 x16 x17 x19 x21) x15 x16 x17 x18 x19 x20 x21 x22,
    aggR_tr (val_main_v300 (F := Ideal) x0 x1 x2 x3 x4 x5 x6 x15 x16 x17 x19 x21) x15 x16 x17 x18 x19 x20 x21 x22,
    aggR_gb (val_main_v301 (F := Ideal) x0 x1 x4 x5 x6 x18) x15 x16 x17 x18 x19 x20 x21 x22,
    aggR_lb (val_main_v302 (F := Ideal) x0 x2 x4 x5 x6 x20) x15 x16 x17 x18 x19 x20 x21 x22,
    aggR_sb (val_main_v303 (F := Ideal) x0 x3 x4 x5 x6 x22) x15 x16 x17 x18 x19 x20 x21 x22,
    L0_b x0 x1 x2 x3 x4 x5 x6 x15 x16 x17 x18 x19 x20 x21 x22,
    L0_g x0 x1 x2 x3 x4 x5 x6 x15 x16 x17 x18 x19 x20 x21 x22,
    L0_l x0 x1 x2 x3 x4 x5 x6 x15 x16 x17 x18 x19 x20 x21 x22,
    L0_s x0 x1 x2 x3 x4 x5 x6 x15 x16 x17 x18 x19 x20 x21 x22]
  rfl

/-- The gen features after layer 1, by row and column. -/
theorem xgen2_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x21 : (⟨S2x5000, .i32⟩ : BufTy).Contents (Elt Ideal)) :
    cur2 (val_main_v605 (F := Ideal) x0 x1 x2 x3 x4 x5 x6 x15 x16 x17 x18 x19 x21) =
      Cert.Spec.layer1R (cur2 (val_main_v523 (F := Ideal) x0 x1 x2 x3 x4 x5 x6 x15 x16 x17 x18 x19 x21)) (cur2 (val_main_v301 (F := Ideal) x0 x1 x4 x5 x6 x18)) (W4 x4 1 3) (W4 x6 1 3) (B3 x5 1 3) :=
  funext fun i => funext fun j => xgen2_ix x0 x1 x2 x3 x4 x5 x6 x15 x16 x17 x18 x19 x21 i j

/-- The gen features after layer 1 are the gen component of the reference-form step. -/
theorem L1_g (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v605 (F := Ideal) x0 x1 x2 x3 x4 x5 x6 x15 x16 x17 x18 x19 x21) = (fR2 x0 x1 x2 x3 x4 x5 x6 x15 x16 x17 x18 x19 x20 x21 x22).g := by
  rw [xgen2_cur,
    agg_1_3,
    aggR_bg (val_main_v300 (F := Ideal) x0 x1 x2 x3 x4 x5 x6 x15 x16 x17 x19 x21) x15 x16 x17 x18 x19 x20 x21 x22,
    L0_b x0 x1 x2 x3 x4 x5 x6 x15 x16 x17 x18 x19 x20 x21 x22,
    L0_g x0 x1 x2 x3 x4 x5 x6 x15 x16 x17 x18 x19 x20 x21 x22]
  rfl

/-- The load features after layer 1, by row and column. -/
theorem xload2_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) :
    cur2 (val_main_v606 (F := Ideal) x0 x1 x2 x3 x4 x5 x6 x15 x16 x17 x19 x20 x21) =
      Cert.Spec.layer1R (cur2 (val_main_v560 (F := Ideal) x0 x1 x2 x3 x4 x5 x6 x15 x16 x17 x19 x20 x21)) (cur2 (val_main_v302 (F := Ideal) x0 x2 x4 x5 x6 x20)) (W4 x4 1 5) (W4 x6 1 5) (B3 x5 1 5) :=
  funext fun i => funext fun j => xload2_ix x0 x1 x2 x3 x4 x5 x6 x15 x16 x17 x19 x20 x21 i j

/-- The load features after layer 1 are the load component of the reference-form step. -/
theorem L1_l (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v606 (F := Ideal) x0 x1 x2 x3 x4 x5 x6 x15 x16 x17 x19 x20 x21) = (fR2 x0 x1 x2 x3 x4 x5 x6 x15 x16 x17 x18 x19 x20 x21 x22).l := by
  rw [xload2_cur,
    agg_1_5,
    aggR_bl (val_main_v300 (F := Ideal) x0 x1 x2 x3 x4 x5 x6 x15 x16 x17 x19 x21) x15 x16 x17 x18 x19 x20 x21 x22,
    L0_b x0 x1 x2 x3 x4 x5 x6 x15 x16 x17 x18 x19 x20 x21 x22,
    L0_l x0 x1 x2 x3 x4 x5 x6 x15 x16 x17 x18 x19 x20 x21 x22]
  rfl

/-- The shunt features after layer 1, by row and column. -/
theorem xshunt2_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x19 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v607 (F := Ideal) x0 x1 x2 x3 x4 x5 x6 x15 x16 x17 x19 x21 x22) =
      Cert.Spec.layer1R (cur2 (val_main_v597 (F := Ideal) x0 x1 x2 x3 x4 x5 x6 x15 x16 x17 x19 x21 x22)) (cur2 (val_main_v303 (F := Ideal) x0 x3 x4 x5 x6 x22)) (W4 x4 1 7) (W4 x6 1 7) (B3 x5 1 7) :=
  funext fun i => funext fun j => xshunt2_ix x0 x1 x2 x3 x4 x5 x6 x15 x16 x17 x19 x21 x22 i j

/-- The shunt features after layer 1 are the shunt component of the reference-form step. -/
theorem L1_s (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v607 (F := Ideal) x0 x1 x2 x3 x4 x5 x6 x15 x16 x17 x19 x21 x22) = (fR2 x0 x1 x2 x3 x4 x5 x6 x15 x16 x17 x18 x19 x20 x21 x22).s := by
  rw [xshunt2_cur,
    agg_1_7,
    aggR_bs (val_main_v300 (F := Ideal) x0 x1 x2 x3 x4 x5 x6 x15 x16 x17 x19 x21) x15 x16 x17 x18 x19 x20 x21 x22,
    L0_b x0 x1 x2 x3 x4 x5 x6 x15 x16 x17 x18 x19 x20 x21 x22,
    L0_s x0 x1 x2 x3 x4 x5 x6 x15 x16 x17 x18 x19 x20 x21 x22]
  rfl

/-- The bus features after layer 2, by row and column. -/
theorem xbus3_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v908 (F := Ideal) x0 x1 x2 x3 x4 x5 x6 x15 x16 x17 x18 x19 x20 x21 x22) =
      Cert.Spec.layer5R
        (cur2 (val_main_v638 (F := Ideal) x0 x1 x2 x3 x4 x5 x6 x15 x16 x17 x18 x19 x20 x21 x22))
        (cur2 (val_main_v675 (F := Ideal) x0 x1 x2 x3 x4 x5 x6 x15 x16 x17 x18 x19 x20 x21 x22))
        (cur2 (val_main_v713 (F := Ideal) x0 x1 x2 x3 x4 x5 x6 x15 x16 x17 x18 x19 x21))
        (cur2 (val_main_v751 (F := Ideal) x0 x1 x2 x3 x4 x5 x6 x15 x16 x17 x19 x20 x21))
        (cur2 (val_main_v789 (F := Ideal) x0 x1 x2 x3 x4 x5 x6 x15 x16 x17 x19 x21 x22))
        (cur2 (val_main_v604 (F := Ideal) x0 x1 x2 x3 x4 x5 x6 x15 x16 x17 x18 x19 x20 x21 x22))
        (W4 x4 2 0) (W4 x4 2 1) (W4 x4 2 2) (W4 x4 2 4) (W4 x4 2 6)
        (W4 x6 2 0) (W4 x6 2 1) (W4 x6 2 2) (W4 x6 2 4) (W4 x6 2 6)
        (B3 x5 2 0) (B3 x5 2 1) (B3 x5 2 2) (B3 x5 2 4) (B3 x5 2 6) :=
  funext fun i => funext fun j => xbus3_ix x0 x1 x2 x3 x4 x5 x6 x15 x16 x17 x18 x19 x20 x21 x22 i j

/-- The bus features after layer 2 are the bus component of the reference-form step. -/
theorem L2_b (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v908 (F := Ideal) x0 x1 x2 x3 x4 x5 x6 x15 x16 x17 x18 x19 x20 x21 x22) = (fR3 x0 x1 x2 x3 x4 x5 x6 x15 x16 x17 x18 x19 x20 x21 x22).b := by
  rw [xbus3_cur,
    agg_2_0,
    agg_2_1,
    agg_2_2,
    agg_2_4,
    agg_2_6,
    aggR_ac (val_main_v604 (F := Ideal) x0 x1 x2 x3 x4 x5 x6 x15 x16 x17 x18 x19 x20 x21 x22) x15 x16 x17 x18 x19 x20 x21 x22,
    aggR_tr (val_main_v604 (F := Ideal) x0 x1 x2 x3 x4 x5 x6 x15 x16 x17 x18 x19 x20 x21 x22) x15 x16 x17 x18 x19 x20 x21 x22,
    aggR_gb (val_main_v605 (F := Ideal) x0 x1 x2 x3 x4 x5 x6 x15 x16 x17 x18 x19 x21) x15 x16 x17 x18 x19 x20 x21 x22,
    aggR_lb (val_main_v606 (F := Ideal) x0 x1 x2 x3 x4 x5 x6 x15 x16 x17 x19 x20 x21) x15 x16 x17 x18 x19 x20 x21 x22,
    aggR_sb (val_main_v607 (F := Ideal) x0 x1 x2 x3 x4 x5 x6 x15 x16 x17 x19 x21 x22) x15 x16 x17 x18 x19 x20 x21 x22,
    L1_b x0 x1 x2 x3 x4 x5 x6 x15 x16 x17 x18 x19 x20 x21 x22,
    L1_g x0 x1 x2 x3 x4 x5 x6 x15 x16 x17 x18 x19 x20 x21 x22,
    L1_l x0 x1 x2 x3 x4 x5 x6 x15 x16 x17 x18 x19 x20 x21 x22,
    L1_s x0 x1 x2 x3 x4 x5 x6 x15 x16 x17 x18 x19 x20 x21 x22]
  rfl

/-- The gen features after layer 2, by row and column. -/
theorem xgen3_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v909 (F := Ideal) x0 x1 x2 x3 x4 x5 x6 x15 x16 x17 x18 x19 x20 x21 x22) =
      Cert.Spec.layer1R (cur2 (val_main_v827 (F := Ideal) x0 x1 x2 x3 x4 x5 x6 x15 x16 x17 x18 x19 x20 x21 x22)) (cur2 (val_main_v605 (F := Ideal) x0 x1 x2 x3 x4 x5 x6 x15 x16 x17 x18 x19 x21)) (W4 x4 2 3) (W4 x6 2 3) (B3 x5 2 3) :=
  funext fun i => funext fun j => xgen3_ix x0 x1 x2 x3 x4 x5 x6 x15 x16 x17 x18 x19 x20 x21 x22 i j

/-- The gen features after layer 2 are the gen component of the reference-form step. -/
theorem L2_g (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v909 (F := Ideal) x0 x1 x2 x3 x4 x5 x6 x15 x16 x17 x18 x19 x20 x21 x22) = (fR3 x0 x1 x2 x3 x4 x5 x6 x15 x16 x17 x18 x19 x20 x21 x22).g := by
  rw [xgen3_cur,
    agg_2_3,
    aggR_bg (val_main_v604 (F := Ideal) x0 x1 x2 x3 x4 x5 x6 x15 x16 x17 x18 x19 x20 x21 x22) x15 x16 x17 x18 x19 x20 x21 x22,
    L1_b x0 x1 x2 x3 x4 x5 x6 x15 x16 x17 x18 x19 x20 x21 x22,
    L1_g x0 x1 x2 x3 x4 x5 x6 x15 x16 x17 x18 x19 x20 x21 x22]
  rfl

/-- The load features after layer 2, by row and column. -/
theorem xload3_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v910 (F := Ideal) x0 x1 x2 x3 x4 x5 x6 x15 x16 x17 x18 x19 x20 x21 x22) =
      Cert.Spec.layer1R (cur2 (val_main_v864 (F := Ideal) x0 x1 x2 x3 x4 x5 x6 x15 x16 x17 x18 x19 x20 x21 x22)) (cur2 (val_main_v606 (F := Ideal) x0 x1 x2 x3 x4 x5 x6 x15 x16 x17 x19 x20 x21)) (W4 x4 2 5) (W4 x6 2 5) (B3 x5 2 5) :=
  funext fun i => funext fun j => xload3_ix x0 x1 x2 x3 x4 x5 x6 x15 x16 x17 x18 x19 x20 x21 x22 i j

/-- The load features after layer 2 are the load component of the reference-form step. -/
theorem L2_l (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v910 (F := Ideal) x0 x1 x2 x3 x4 x5 x6 x15 x16 x17 x18 x19 x20 x21 x22) = (fR3 x0 x1 x2 x3 x4 x5 x6 x15 x16 x17 x18 x19 x20 x21 x22).l := by
  rw [xload3_cur,
    agg_2_5,
    aggR_bl (val_main_v604 (F := Ideal) x0 x1 x2 x3 x4 x5 x6 x15 x16 x17 x18 x19 x20 x21 x22) x15 x16 x17 x18 x19 x20 x21 x22,
    L1_b x0 x1 x2 x3 x4 x5 x6 x15 x16 x17 x18 x19 x20 x21 x22,
    L1_l x0 x1 x2 x3 x4 x5 x6 x15 x16 x17 x18 x19 x20 x21 x22]
  rfl

/-- The shunt features after layer 2, by row and column. -/
theorem xshunt3_cur (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v911 (F := Ideal) x0 x1 x2 x3 x4 x5 x6 x15 x16 x17 x18 x19 x20 x21 x22) =
      Cert.Spec.layer1R (cur2 (val_main_v901 (F := Ideal) x0 x1 x2 x3 x4 x5 x6 x15 x16 x17 x18 x19 x20 x21 x22)) (cur2 (val_main_v607 (F := Ideal) x0 x1 x2 x3 x4 x5 x6 x15 x16 x17 x19 x21 x22)) (W4 x4 2 7) (W4 x6 2 7) (B3 x5 2 7) :=
  funext fun i => funext fun j => xshunt3_ix x0 x1 x2 x3 x4 x5 x6 x15 x16 x17 x18 x19 x20 x21 x22 i j

/-- The shunt features after layer 2 are the shunt component of the reference-form step. -/
theorem L2_s (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    cur2 (val_main_v911 (F := Ideal) x0 x1 x2 x3 x4 x5 x6 x15 x16 x17 x18 x19 x20 x21 x22) = (fR3 x0 x1 x2 x3 x4 x5 x6 x15 x16 x17 x18 x19 x20 x21 x22).s := by
  rw [xshunt3_cur,
    agg_2_7,
    aggR_bs (val_main_v604 (F := Ideal) x0 x1 x2 x3 x4 x5 x6 x15 x16 x17 x18 x19 x20 x21 x22) x15 x16 x17 x18 x19 x20 x21 x22,
    L1_b x0 x1 x2 x3 x4 x5 x6 x15 x16 x17 x18 x19 x20 x21 x22,
    L1_s x0 x1 x2 x3 x4 x5 x6 x15 x16 x17 x18 x19 x20 x21 x22]
  rfl

/-! ## The two results -/

/-- The reference's bus result is the head of the bus features after the three reference-form layers. -/
theorem ref_bus_out (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal)) (x11 : (⟨S128x128, .f32⟩ : BufTy).Contents (Elt Ideal)) (x12 : (⟨S128, .f32⟩ : BufTy).Contents (Elt Ideal)) (x13 : (⟨S128x2, .f32⟩ : BufTy).Contents (Elt Ideal)) (x14 : (⟨S2, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    val_main_v920 (F := Ideal) x0 x1 x2 x3 x4 x5 x6 x7 x8 x9 x10 x15 x16 x17 x18 x19 x20 x21 x22 =
      headArr (featR x0 x1 x2 x3 x4 x5 x6 x15 x16 x17 x18 x19 x20 x21 x22).b x7 x8 x9 x10 := by
  funext idx
  obtain ⟨i, o, rfl⟩ : ∃ (i : Fin 100000) (o : Fin 2), idx = ix2 i o := ⟨idx 0, idx 1, eq_ix2 idx⟩
  exact (bus_out_ix x0 x1 x2 x3 x4 x5 x6 x7 x8 x9 x10 x15 x16 x17 x18 x19 x20 x21 x22 i o).trans
    (congrArg (fun f => Cert.Spec.head f (cur2 x7) (cur1 x8) (cur2 x9) (cur1 x10) i o) (L2_b x0 x1 x2 x3 x4 x5 x6 x15 x16 x17 x18 x19 x20 x21 x22))

/-- The reference's gen result is the head of the gen features after the three reference-form layers. -/
theorem ref_gen_out (x0 : (⟨S100000x128, .f32⟩ : BufTy).Contents (Elt Ideal)) (x1 : (⟨S20000x128, .f32⟩ : BufTy).Contents (Elt Ideal)) (x2 : (⟨S50000x128, .f32⟩ : BufTy).Contents (Elt Ideal)) (x3 : (⟨S5000x128, .f32⟩ : BufTy).Contents (Elt Ideal)) (x4 : (⟨S3x8x128x128, .f32⟩ : BufTy).Contents (Elt Ideal)) (x5 : (⟨S3x8x128, .f32⟩ : BufTy).Contents (Elt Ideal)) (x6 : (⟨S3x8x128x128, .f32⟩ : BufTy).Contents (Elt Ideal)) (x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal)) (x11 : (⟨S128x128, .f32⟩ : BufTy).Contents (Elt Ideal)) (x12 : (⟨S128, .f32⟩ : BufTy).Contents (Elt Ideal)) (x13 : (⟨S128x2, .f32⟩ : BufTy).Contents (Elt Ideal)) (x14 : (⟨S2, .f32⟩ : BufTy).Contents (Elt Ideal)) (x15 : (⟨S2x500000, .i32⟩ : BufTy).Contents (Elt Ideal)) (x16 : (⟨S2x100000, .i32⟩ : BufTy).Contents (Elt Ideal)) (x17 : (⟨S2x20000, .i32⟩ : BufTy).Contents (Elt Ideal)) (x18 : (⟨S2x20000, .i32⟩ : BufTy).Contents (Elt Ideal)) (x19 : (⟨S2x50000, .i32⟩ : BufTy).Contents (Elt Ideal)) (x20 : (⟨S2x50000, .i32⟩ : BufTy).Contents (Elt Ideal)) (x21 : (⟨S2x5000, .i32⟩ : BufTy).Contents (Elt Ideal)) (x22 : (⟨S2x5000, .i32⟩ : BufTy).Contents (Elt Ideal)) :
    val_main_v929 (F := Ideal) x0 x1 x2 x3 x4 x5 x6 x11 x12 x13 x14 x15 x16 x17 x18 x19 x20 x21 x22 =
      headArr (featR x0 x1 x2 x3 x4 x5 x6 x15 x16 x17 x18 x19 x20 x21 x22).g x11 x12 x13 x14 := by
  funext idx
  obtain ⟨i, o, rfl⟩ : ∃ (i : Fin 20000) (o : Fin 2), idx = ix2 i o := ⟨idx 0, idx 1, eq_ix2 idx⟩
  exact (gen_out_ix x0 x1 x2 x3 x4 x5 x6 x11 x12 x13 x14 x15 x16 x17 x18 x19 x20 x21 x22 i o).trans
    (congrArg (fun f => Cert.Spec.head f (cur2 x11) (cur1 x12) (cur2 x13) (cur1 x14) i o) (L2_g x0 x1 x2 x3 x4 x5 x6 x15 x16 x17 x18 x19 x20 x21 x22))

end Cert.ReferenceIdeal.Hand
end
-- ==== Proof.Ref.Rd0.lean ====
/-
  Window 0 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 0 leaves `main_v51` at its stage, given the buffers the window reads at theirs. -/
theorem rd0_v51 (W : Valuation τ sig (Elt F)) (x0 : (⟨S100000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F))
    (h0 : W (Proc.devRef .tc main_arg0) = x0)
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16) :
    after rw0 W (Proc.devRef .tc main_v51) = val_main_v51 (F := F) x0 x16 := by
  subst h0 h4 h5 h6 h15 h16
  after_results_simp
  skip
  rfl

/-- Window 0 leaves `main_v38` at its stage, given the buffers the window reads at theirs. -/
theorem rd0_v38 (W : Valuation τ sig (Elt F)) (x0 : (⟨S100000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F))
    (h0 : W (Proc.devRef .tc main_arg0) = x0)
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16) :
    after rw0 W (Proc.devRef .tc main_v38) = val_main_v38 (F := F) x4 := by
  subst h0 h4 h5 h6 h15 h16
  after_results_simp
  skip
  rfl

/-- Window 0 leaves `main_v40` at its stage, given the buffers the window reads at theirs. -/
theorem rd0_v40 (W : Valuation τ sig (Elt F)) (x0 : (⟨S100000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F))
    (h0 : W (Proc.devRef .tc main_arg0) = x0)
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16) :
    after rw0 W (Proc.devRef .tc main_v40) = val_main_v40 (F := F) x5 := by
  subst h0 h4 h5 h6 h15 h16
  after_results_simp
  skip
  rfl

/-- Window 0 leaves `main_v42` at its stage, given the buffers the window reads at theirs. -/
theorem rd0_v42 (W : Valuation τ sig (Elt F)) (x0 : (⟨S100000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F))
    (h0 : W (Proc.devRef .tc main_arg0) = x0)
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16) :
    after rw0 W (Proc.devRef .tc main_v42) = val_main_v42 (F := F) x6 := by
  subst h0 h4 h5 h6 h15 h16
  after_results_simp
  skip
  rfl

/-- Window 0 leaves `main_v36` at its stage, given the buffers the window reads at theirs. -/
theorem rd0_v36 (W : Valuation τ sig (Elt F)) (x0 : (⟨S100000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F))
    (h0 : W (Proc.devRef .tc main_arg0) = x0)
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16) :
    after rw0 W (Proc.devRef .tc main_v36) = val_main_v36 (F := F) x0 x4 x5 x6 x15 := by
  subst h0 h4 h5 h6 h15 h16
  after_results_simp
  skip
  rfl

end Cert.ReferenceIdeal.Hand
end
-- ==== Proof.Ref.Rd1.lean ====
/-
  Window 1 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 1 leaves `main_v100` at its stage, given the buffers the window reads at theirs. -/
theorem rd1_v100 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v51 : W (Proc.devRef .tc main_v51) = val_main_v51 (F := F) x0 x16)
    (h_v38 : W (Proc.devRef .tc main_v38) = val_main_v38 (F := F) x4)
    (h_v40 : W (Proc.devRef .tc main_v40) = val_main_v40 (F := F) x5)
    (h_v42 : W (Proc.devRef .tc main_v42) = val_main_v42 (F := F) x6)
    (h_v36 : W (Proc.devRef .tc main_v36) = val_main_v36 (F := F) x0 x4 x5 x6 x15) :
    after rw1 W (Proc.devRef .tc main_v100) = val_main_v100 (F := F) x17 := by
  subst h0 h1 h4 h5 h6 h16 h17
  after_results_simp
  try simp only [h_v51, h_v38, h_v40, h_v42, h_v36]
  rfl

/-- Window 1 leaves `main_v101` at its stage, given the buffers the window reads at theirs. -/
theorem rd1_v101 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v51 : W (Proc.devRef .tc main_v51) = val_main_v51 (F := F) x0 x16)
    (h_v38 : W (Proc.devRef .tc main_v38) = val_main_v38 (F := F) x4)
    (h_v40 : W (Proc.devRef .tc main_v40) = val_main_v40 (F := F) x5)
    (h_v42 : W (Proc.devRef .tc main_v42) = val_main_v42 (F := F) x6)
    (h_v36 : W (Proc.devRef .tc main_v36) = val_main_v36 (F := F) x0 x4 x5 x6 x15) :
    after rw1 W (Proc.devRef .tc main_v101) = val_main_v101 (F := F) := by
  subst h0 h1 h4 h5 h6 h16 h17
  after_results_simp
  try simp only [h_v51, h_v38, h_v40, h_v42, h_v36]
  rfl

/-- Window 1 leaves `main_v94` at its stage, given the buffers the window reads at theirs. -/
theorem rd1_v94 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v51 : W (Proc.devRef .tc main_v51) = val_main_v51 (F := F) x0 x16)
    (h_v38 : W (Proc.devRef .tc main_v38) = val_main_v38 (F := F) x4)
    (h_v40 : W (Proc.devRef .tc main_v40) = val_main_v40 (F := F) x5)
    (h_v42 : W (Proc.devRef .tc main_v42) = val_main_v42 (F := F) x6)
    (h_v36 : W (Proc.devRef .tc main_v36) = val_main_v36 (F := F) x0 x4 x5 x6 x15) :
    after rw1 W (Proc.devRef .tc main_v94) = val_main_v94 (F := F) x1 x17 := by
  subst h0 h1 h4 h5 h6 h16 h17
  after_results_simp
  try simp only [h_v51, h_v38, h_v40, h_v42, h_v36]
  rfl

/-- Window 1 leaves `main_v76` at its stage, given the buffers the window reads at theirs. -/
theorem rd1_v76 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v51 : W (Proc.devRef .tc main_v51) = val_main_v51 (F := F) x0 x16)
    (h_v38 : W (Proc.devRef .tc main_v38) = val_main_v38 (F := F) x4)
    (h_v40 : W (Proc.devRef .tc main_v40) = val_main_v40 (F := F) x5)
    (h_v42 : W (Proc.devRef .tc main_v42) = val_main_v42 (F := F) x6)
    (h_v36 : W (Proc.devRef .tc main_v36) = val_main_v36 (F := F) x0 x4 x5 x6 x15) :
    after rw1 W (Proc.devRef .tc main_v76) = val_main_v76 (F := F) x4 := by
  subst h0 h1 h4 h5 h6 h16 h17
  after_results_simp
  try simp only [h_v51, h_v38, h_v40, h_v42, h_v36]
  rfl

/-- Window 1 leaves `main_v78` at its stage, given the buffers the window reads at theirs. -/
theorem rd1_v78 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v51 : W (Proc.devRef .tc main_v51) = val_main_v51 (F := F) x0 x16)
    (h_v38 : W (Proc.devRef .tc main_v38) = val_main_v38 (F := F) x4)
    (h_v40 : W (Proc.devRef .tc main_v40) = val_main_v40 (F := F) x5)
    (h_v42 : W (Proc.devRef .tc main_v42) = val_main_v42 (F := F) x6)
    (h_v36 : W (Proc.devRef .tc main_v36) = val_main_v36 (F := F) x0 x4 x5 x6 x15) :
    after rw1 W (Proc.devRef .tc main_v78) = val_main_v78 (F := F) x5 := by
  subst h0 h1 h4 h5 h6 h16 h17
  after_results_simp
  try simp only [h_v51, h_v38, h_v40, h_v42, h_v36]
  rfl

/-- Window 1 leaves `main_v80` at its stage, given the buffers the window reads at theirs. -/
theorem rd1_v80 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v51 : W (Proc.devRef .tc main_v51) = val_main_v51 (F := F) x0 x16)
    (h_v38 : W (Proc.devRef .tc main_v38) = val_main_v38 (F := F) x4)
    (h_v40 : W (Proc.devRef .tc main_v40) = val_main_v40 (F := F) x5)
    (h_v42 : W (Proc.devRef .tc main_v42) = val_main_v42 (F := F) x6)
    (h_v36 : W (Proc.devRef .tc main_v36) = val_main_v36 (F := F) x0 x4 x5 x6 x15) :
    after rw1 W (Proc.devRef .tc main_v80) = val_main_v80 (F := F) x6 := by
  subst h0 h1 h4 h5 h6 h16 h17
  after_results_simp
  try simp only [h_v51, h_v38, h_v40, h_v42, h_v36]
  rfl

/-- Window 1 leaves `main_v74` at its stage, given the buffers the window reads at theirs. -/
theorem rd1_v74 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v51 : W (Proc.devRef .tc main_v51) = val_main_v51 (F := F) x0 x16)
    (h_v38 : W (Proc.devRef .tc main_v38) = val_main_v38 (F := F) x4)
    (h_v40 : W (Proc.devRef .tc main_v40) = val_main_v40 (F := F) x5)
    (h_v42 : W (Proc.devRef .tc main_v42) = val_main_v42 (F := F) x6)
    (h_v36 : W (Proc.devRef .tc main_v36) = val_main_v36 (F := F) x0 x4 x5 x6 x15) :
    after rw1 W (Proc.devRef .tc main_v74) = val_main_v74 (F := F) x0 x4 x5 x6 x15 x16 := by
  subst h0 h1 h4 h5 h6 h16 h17
  after_results_simp
  try simp only [h_v51, h_v38, h_v40, h_v42, h_v36]
  rfl

end Cert.ReferenceIdeal.Hand
end
-- ==== Proof.Ref.Rd2.lean ====
/-
  Window 2 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 2 leaves `main_v155` at its stage, given the buffers the window reads at theirs. -/
theorem rd2_v155 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F))
    (h0 : W (Proc.devRef .tc main_arg0) = x0)
    (h2 : W (Proc.devRef .tc main_arg2) = x2)
    (h4 : W (Proc.devRef .tc main_arg4) = x4)
    (h5 : W (Proc.devRef .tc main_arg5) = x5)
    (h6 : W (Proc.devRef .tc main_arg6) = x6)
    (h19 : W (Proc.devRef .tc main_arg19) = x19)
    (h_v100 : W (Proc.devRef .tc main_v100) = val_main_v100 (F := F) x17)
    (h_v101 : W (Proc.devRef .tc main_v101) = val_main_v101 (F := F))
    (h_v94 : W (Proc.devRef .tc main_v94) = val_main_v94 (F := F) x1 x17)
    (h_v76 : W (Proc.devRef .tc main_v76) = val_main_v76 (F := F) x4)
    (h_v78 : W (Proc.devRef .tc main_v78) = val_main_v78 (F := F) x5)
    (h_v80 : W (Proc.devRef .tc main_v80) = val_main_v80 (F := F) x6)
    (h_v74 : W (Proc.devRef .tc main_v74) = val_main_v74 (F := F) x0 x4 x5 x6 x15 x16) :
    after rw2 W (Proc.devRef .tc main_v155) = val_main_v155 (F := F) x6 := by
  subst h0 h2 h4 h5 h6 h19
  after_results_simp
  try simp only [h_v100, h_v101, h_v94, h_v76, h_v78, h_v80, h_v74]
  rfl

/-- Window 2 leaves `main_v152` at its stage, given the buffers the window reads at theirs. -/
theorem rd2_v152 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F))
    (h0 : W (Proc.devRef .tc main_arg0) = x0)
    (h2 : W (Proc.devRef .tc main_arg2) = x2)
    (h4 : W (Proc.devRef .tc main_arg4) = x4)
    (h5 : W (Proc.devRef .tc main_arg5) = x5)
    (h6 : W (Proc.devRef .tc main_arg6) = x6)
    (h19 : W (Proc.devRef .tc main_arg19) = x19)
    (h_v100 : W (Proc.devRef .tc main_v100) = val_main_v100 (F := F) x17)
    (h_v101 : W (Proc.devRef .tc main_v101) = val_main_v101 (F := F))
    (h_v94 : W (Proc.devRef .tc main_v94) = val_main_v94 (F := F) x1 x17)
    (h_v76 : W (Proc.devRef .tc main_v76) = val_main_v76 (F := F) x4)
    (h_v78 : W (Proc.devRef .tc main_v78) = val_main_v78 (F := F) x5)
    (h_v80 : W (Proc.devRef .tc main_v80) = val_main_v80 (F := F) x6)
    (h_v74 : W (Proc.devRef .tc main_v74) = val_main_v74 (F := F) x0 x4 x5 x6 x15 x16) :
    after rw2 W (Proc.devRef .tc main_v152) = val_main_v152 (F := F) x4 := by
  subst h0 h2 h4 h5 h6 h19
  after_results_simp
  try simp only [h_v100, h_v101, h_v94, h_v76, h_v78, h_v80, h_v74]
  rfl

/-- Window 2 leaves `main_v154` at its stage, given the buffers the window reads at theirs. -/
theorem rd2_v154 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F))
    (h0 : W (Proc.devRef .tc main_arg0) = x0)
    (h2 : W (Proc.devRef .tc main_arg2) = x2)
    (h4 : W (Proc.devRef .tc main_arg4) = x4)
    (h5 : W (Proc.devRef .tc main_arg5) = x5)
    (h6 : W (Proc.devRef .tc main_arg6) = x6)
    (h19 : W (Proc.devRef .tc main_arg19) = x19)
    (h_v100 : W (Proc.devRef .tc main_v100) = val_main_v100 (F := F) x17)
    (h_v101 : W (Proc.devRef .tc main_v101) = val_main_v101 (F := F))
    (h_v94 : W (Proc.devRef .tc main_v94) = val_main_v94 (F := F) x1 x17)
    (h_v76 : W (Proc.devRef .tc main_v76) = val_main_v76 (F := F) x4)
    (h_v78 : W (Proc.devRef .tc main_v78) = val_main_v78 (F := F) x5)
    (h_v80 : W (Proc.devRef .tc main_v80) = val_main_v80 (F := F) x6)
    (h_v74 : W (Proc.devRef .tc main_v74) = val_main_v74 (F := F) x0 x4 x5 x6 x15 x16) :
    after rw2 W (Proc.devRef .tc main_v154) = val_main_v154 (F := F) x5 := by
  subst h0 h2 h4 h5 h6 h19
  after_results_simp
  try simp only [h_v100, h_v101, h_v94, h_v76, h_v78, h_v80, h_v74]
  rfl

/-- Window 2 leaves `main_v150` at its stage, given the buffers the window reads at theirs. -/
theorem rd2_v150 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F))
    (h0 : W (Proc.devRef .tc main_arg0) = x0)
    (h2 : W (Proc.devRef .tc main_arg2) = x2)
    (h4 : W (Proc.devRef .tc main_arg4) = x4)
    (h5 : W (Proc.devRef .tc main_arg5) = x5)
    (h6 : W (Proc.devRef .tc main_arg6) = x6)
    (h19 : W (Proc.devRef .tc main_arg19) = x19)
    (h_v100 : W (Proc.devRef .tc main_v100) = val_main_v100 (F := F) x17)
    (h_v101 : W (Proc.devRef .tc main_v101) = val_main_v101 (F := F))
    (h_v94 : W (Proc.devRef .tc main_v94) = val_main_v94 (F := F) x1 x17)
    (h_v76 : W (Proc.devRef .tc main_v76) = val_main_v76 (F := F) x4)
    (h_v78 : W (Proc.devRef .tc main_v78) = val_main_v78 (F := F) x5)
    (h_v80 : W (Proc.devRef .tc main_v80) = val_main_v80 (F := F) x6)
    (h_v74 : W (Proc.devRef .tc main_v74) = val_main_v74 (F := F) x0 x4 x5 x6 x15 x16) :
    after rw2 W (Proc.devRef .tc main_v150) = val_main_v150 (F := F) x0 x1 x2 x4 x5 x6 x15 x16 x17 x19 := by
  subst h0 h2 h4 h5 h6 h19
  after_results_simp
  try simp only [h_v100, h_v101, h_v94, h_v76, h_v78, h_v80, h_v74]
  rfl

end Cert.ReferenceIdeal.Hand
end
-- ==== Proof.Ref.Rd3.lean ====
/-
  Window 3 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 3 leaves `main_v205` at its stage, given the buffers the window reads at theirs. -/
theorem rd3_v205 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h0 : W (Proc.devRef .tc main_arg0) = x0)
    (h3 : W (Proc.devRef .tc main_arg3) = x3)
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v155 : W (Proc.devRef .tc main_v155) = val_main_v155 (F := F) x6)
    (h_v152 : W (Proc.devRef .tc main_v152) = val_main_v152 (F := F) x4)
    (h_v154 : W (Proc.devRef .tc main_v154) = val_main_v154 (F := F) x5)
    (h_v150 : W (Proc.devRef .tc main_v150) = val_main_v150 (F := F) x0 x1 x2 x4 x5 x6 x15 x16 x17 x19) :
    after rw3 W (Proc.devRef .tc main_v205) = val_main_v205 (F := F) x18 := by
  subst h0 h3 h4 h5 h6 h18 h21
  after_results_simp
  try simp only [h_v155, h_v152, h_v154, h_v150]
  rfl

/-- Window 3 leaves `main_v206` at its stage, given the buffers the window reads at theirs. -/
theorem rd3_v206 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h0 : W (Proc.devRef .tc main_arg0) = x0)
    (h3 : W (Proc.devRef .tc main_arg3) = x3)
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v155 : W (Proc.devRef .tc main_v155) = val_main_v155 (F := F) x6)
    (h_v152 : W (Proc.devRef .tc main_v152) = val_main_v152 (F := F) x4)
    (h_v154 : W (Proc.devRef .tc main_v154) = val_main_v154 (F := F) x5)
    (h_v150 : W (Proc.devRef .tc main_v150) = val_main_v150 (F := F) x0 x1 x2 x4 x5 x6 x15 x16 x17 x19) :
    after rw3 W (Proc.devRef .tc main_v206) = val_main_v206 (F := F) := by
  subst h0 h3 h4 h5 h6 h18 h21
  after_results_simp
  try simp only [h_v155, h_v152, h_v154, h_v150]
  rfl

/-- Window 3 leaves `main_v203` at its stage, given the buffers the window reads at theirs. -/
theorem rd3_v203 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h0 : W (Proc.devRef .tc main_arg0) = x0)
    (h3 : W (Proc.devRef .tc main_arg3) = x3)
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v155 : W (Proc.devRef .tc main_v155) = val_main_v155 (F := F) x6)
    (h_v152 : W (Proc.devRef .tc main_v152) = val_main_v152 (F := F) x4)
    (h_v154 : W (Proc.devRef .tc main_v154) = val_main_v154 (F := F) x5)
    (h_v150 : W (Proc.devRef .tc main_v150) = val_main_v150 (F := F) x0 x1 x2 x4 x5 x6 x15 x16 x17 x19) :
    after rw3 W (Proc.devRef .tc main_v203) = val_main_v203 (F := F) x0 x18 := by
  subst h0 h3 h4 h5 h6 h18 h21
  after_results_simp
  try simp only [h_v155, h_v152, h_v154, h_v150]
  rfl

/-- Window 3 leaves `main_v190` at its stage, given the buffers the window reads at theirs. -/
theorem rd3_v190 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h0 : W (Proc.devRef .tc main_arg0) = x0)
    (h3 : W (Proc.devRef .tc main_arg3) = x3)
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v155 : W (Proc.devRef .tc main_v155) = val_main_v155 (F := F) x6)
    (h_v152 : W (Proc.devRef .tc main_v152) = val_main_v152 (F := F) x4)
    (h_v154 : W (Proc.devRef .tc main_v154) = val_main_v154 (F := F) x5)
    (h_v150 : W (Proc.devRef .tc main_v150) = val_main_v150 (F := F) x0 x1 x2 x4 x5 x6 x15 x16 x17 x19) :
    after rw3 W (Proc.devRef .tc main_v190) = val_main_v190 (F := F) x4 := by
  subst h0 h3 h4 h5 h6 h18 h21
  after_results_simp
  try simp only [h_v155, h_v152, h_v154, h_v150]
  rfl

/-- Window 3 leaves `main_v192` at its stage, given the buffers the window reads at theirs. -/
theorem rd3_v192 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h0 : W (Proc.devRef .tc main_arg0) = x0)
    (h3 : W (Proc.devRef .tc main_arg3) = x3)
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v155 : W (Proc.devRef .tc main_v155) = val_main_v155 (F := F) x6)
    (h_v152 : W (Proc.devRef .tc main_v152) = val_main_v152 (F := F) x4)
    (h_v154 : W (Proc.devRef .tc main_v154) = val_main_v154 (F := F) x5)
    (h_v150 : W (Proc.devRef .tc main_v150) = val_main_v150 (F := F) x0 x1 x2 x4 x5 x6 x15 x16 x17 x19) :
    after rw3 W (Proc.devRef .tc main_v192) = val_main_v192 (F := F) x5 := by
  subst h0 h3 h4 h5 h6 h18 h21
  after_results_simp
  try simp only [h_v155, h_v152, h_v154, h_v150]
  rfl

/-- Window 3 leaves `main_v194` at its stage, given the buffers the window reads at theirs. -/
theorem rd3_v194 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h0 : W (Proc.devRef .tc main_arg0) = x0)
    (h3 : W (Proc.devRef .tc main_arg3) = x3)
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v155 : W (Proc.devRef .tc main_v155) = val_main_v155 (F := F) x6)
    (h_v152 : W (Proc.devRef .tc main_v152) = val_main_v152 (F := F) x4)
    (h_v154 : W (Proc.devRef .tc main_v154) = val_main_v154 (F := F) x5)
    (h_v150 : W (Proc.devRef .tc main_v150) = val_main_v150 (F := F) x0 x1 x2 x4 x5 x6 x15 x16 x17 x19) :
    after rw3 W (Proc.devRef .tc main_v194) = val_main_v194 (F := F) x6 := by
  subst h0 h3 h4 h5 h6 h18 h21
  after_results_simp
  try simp only [h_v155, h_v152, h_v154, h_v150]
  rfl

/-- Window 3 leaves `main_v188` at its stage, given the buffers the window reads at theirs. -/
theorem rd3_v188 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h0 : W (Proc.devRef .tc main_arg0) = x0)
    (h3 : W (Proc.devRef .tc main_arg3) = x3)
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v155 : W (Proc.devRef .tc main_v155) = val_main_v155 (F := F) x6)
    (h_v152 : W (Proc.devRef .tc main_v152) = val_main_v152 (F := F) x4)
    (h_v154 : W (Proc.devRef .tc main_v154) = val_main_v154 (F := F) x5)
    (h_v150 : W (Proc.devRef .tc main_v150) = val_main_v150 (F := F) x0 x1 x2 x4 x5 x6 x15 x16 x17 x19) :
    after rw3 W (Proc.devRef .tc main_v188) = val_main_v188 (F := F) x0 x1 x2 x3 x4 x5 x6 x15 x16 x17 x19 x21 := by
  subst h0 h3 h4 h5 h6 h18 h21
  after_results_simp
  try simp only [h_v155, h_v152, h_v154, h_v150]
  rfl

end Cert.ReferenceIdeal.Hand
end
-- ==== Proof.Ref.Rd4.lean ====
/-
  Window 4 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 4 leaves `main_v229` at its stage, given the buffers the window reads at theirs. -/
theorem rd4_v229 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x18 : (⟨S2x20000, .i32⟩ : BufTy).Contents (Elt F)) (x20 : (⟨S2x50000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h18 : W (Proc.devRef .tc main_arg18) = x18)
    (h20 : W (Proc.devRef .tc main_arg20) = x20)
    (h_v205 : W (Proc.devRef .tc main_v205) = val_main_v205 (F := F) x18)
    (h_v206 : W (Proc.devRef .tc main_v206) = val_main_v206 (F := F))
    (h_v203 : W (Proc.devRef .tc main_v203) = val_main_v203 (F := F) x0 x18)
    (h_v190 : W (Proc.devRef .tc main_v190) = val_main_v190 (F := F) x4)
    (h_v192 : W (Proc.devRef .tc main_v192) = val_main_v192 (F := F) x5)
    (h_v194 : W (Proc.devRef .tc main_v194) = val_main_v194 (F := F) x6) :
    after rw4 W (Proc.devRef .tc main_v229) = val_main_v229 (F := F) x5 := by
  subst h0 h1 h4 h5 h6 h18 h20
  after_results_simp
  try simp only [h_v205, h_v206, h_v203, h_v190, h_v192, h_v194]
  rfl

/-- Window 4 leaves `main_v257` at its stage, given the buffers the window reads at theirs. -/
theorem rd4_v257 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x18 : (⟨S2x20000, .i32⟩ : BufTy).Contents (Elt F)) (x20 : (⟨S2x50000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h18 : W (Proc.devRef .tc main_arg18) = x18)
    (h20 : W (Proc.devRef .tc main_arg20) = x20)
    (h_v205 : W (Proc.devRef .tc main_v205) = val_main_v205 (F := F) x18)
    (h_v206 : W (Proc.devRef .tc main_v206) = val_main_v206 (F := F))
    (h_v203 : W (Proc.devRef .tc main_v203) = val_main_v203 (F := F) x0 x18)
    (h_v190 : W (Proc.devRef .tc main_v190) = val_main_v190 (F := F) x4)
    (h_v192 : W (Proc.devRef .tc main_v192) = val_main_v192 (F := F) x5)
    (h_v194 : W (Proc.devRef .tc main_v194) = val_main_v194 (F := F) x6) :
    after rw4 W (Proc.devRef .tc main_v257) = val_main_v257 (F := F) x0 x4 x20 := by
  subst h0 h1 h4 h5 h6 h18 h20
  after_results_simp
  try simp only [h_v205, h_v206, h_v203, h_v190, h_v192, h_v194]
  rfl

/-- Window 4 leaves `main_v231` at its stage, given the buffers the window reads at theirs. -/
theorem rd4_v231 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x18 : (⟨S2x20000, .i32⟩ : BufTy).Contents (Elt F)) (x20 : (⟨S2x50000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h18 : W (Proc.devRef .tc main_arg18) = x18)
    (h20 : W (Proc.devRef .tc main_arg20) = x20)
    (h_v205 : W (Proc.devRef .tc main_v205) = val_main_v205 (F := F) x18)
    (h_v206 : W (Proc.devRef .tc main_v206) = val_main_v206 (F := F))
    (h_v203 : W (Proc.devRef .tc main_v203) = val_main_v203 (F := F) x0 x18)
    (h_v190 : W (Proc.devRef .tc main_v190) = val_main_v190 (F := F) x4)
    (h_v192 : W (Proc.devRef .tc main_v192) = val_main_v192 (F := F) x5)
    (h_v194 : W (Proc.devRef .tc main_v194) = val_main_v194 (F := F) x6) :
    after rw4 W (Proc.devRef .tc main_v231) = val_main_v231 (F := F) x6 := by
  subst h0 h1 h4 h5 h6 h18 h20
  after_results_simp
  try simp only [h_v205, h_v206, h_v203, h_v190, h_v192, h_v194]
  rfl

/-- Window 4 leaves `main_v225` at its stage, given the buffers the window reads at theirs. -/
theorem rd4_v225 (W : Valuation τ sig (Elt F)) (x0 : (⟨S100000x128, .f32⟩ : BufTy).Contents (Elt F)) (x1 : (⟨S20000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x18 : (⟨S2x20000, .i32⟩ : BufTy).Contents (Elt F)) (x20 : (⟨S2x50000, .i32⟩ : BufTy).Contents (Elt F))
    (h0 : W (Proc.devRef .tc main_arg0) = x0)
    (h1 : W (Proc.devRef .tc main_arg1) = x1)
    (h4 : W (Proc.devRef .tc main_arg4) = x4)
    (h5 : W (Proc.devRef .tc main_arg5) = x5)
    (h6 : W (Proc.devRef .tc main_arg6) = x6)
    (h18 : W (Proc.devRef .tc main_arg18) = x18)
    (h20 : W (Proc.devRef .tc main_arg20) = x20)
    (h_v205 : W (Proc.devRef .tc main_v205) = val_main_v205 (F := F) x18)
    (h_v206 : W (Proc.devRef .tc main_v206) = val_main_v206 (F := F))
    (h_v203 : W (Proc.devRef .tc main_v203) = val_main_v203 (F := F) x0 x18)
    (h_v190 : W (Proc.devRef .tc main_v190) = val_main_v190 (F := F) x4)
    (h_v192 : W (Proc.devRef .tc main_v192) = val_main_v192 (F := F) x5)
    (h_v194 : W (Proc.devRef .tc main_v194) = val_main_v194 (F := F) x6) :
    after rw4 W (Proc.devRef .tc main_v225) = val_main_v225 (F := F) x0 x1 x4 x5 x6 x18 := by
  subst h0 h1 h4 h5 h6 h18 h20
  after_results_simp
  try simp only [h_v205, h_v206, h_v203, h_v190, h_v192, h_v194]
  rfl

end Cert.ReferenceIdeal.Hand
end
-- ==== Proof.Ref.Rd5.lean ====
/-
  Window 5 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 5 leaves `main_v311` at its stage, given the buffers the window reads at theirs. -/
theorem rd5_v311 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v311) = val_main_v311 (F := F) x15 := by
  subst h0 h2 h3 h4 h5 h6 h15 h22
  after_results_simp
  try simp only [h_v229, h_v257, h_v231, h_v188, h_v225]
  rfl

/-- Window 5 leaves `main_v300` at its stage, given the buffers the window reads at theirs. -/
theorem rd5_v300 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v300) = val_main_v300 (F := F) x0 x1 x2 x3 x4 x5 x6 x15 x16 x17 x19 x21 := by
  subst h0 h2 h3 h4 h5 h6 h15 h22
  after_results_simp
  try simp only [h_v229, h_v257, h_v231, h_v188, h_v225]
  rfl

/-- Window 5 leaves `main_v305` at its stage, given the buffers the window reads at theirs. -/
theorem rd5_v305 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v305) = val_main_v305 (F := F) x4 := by
  subst h0 h2 h3 h4 h5 h6 h15 h22
  after_results_simp
  try simp only [h_v229, h_v257, h_v231, h_v188, h_v225]
  rfl

/-- Window 5 leaves `main_v307` at its stage, given the buffers the window reads at theirs. -/
theorem rd5_v307 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v307) = val_main_v307 (F := F) x5 := by
  subst h0 h2 h3 h4 h5 h6 h15 h22
  after_results_simp
  try simp only [h_v229, h_v257, h_v231, h_v188, h_v225]
  rfl

/-- Window 5 leaves `main_v309` at its stage, given the buffers the window reads at theirs. -/
theorem rd5_v309 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v309) = val_main_v309 (F := F) x6 := by
  subst h0 h2 h3 h4 h5 h6 h15 h22
  after_results_simp
  try simp only [h_v229, h_v257, h_v231, h_v188, h_v225]
  rfl

/-- Window 5 leaves `main_v301` at its stage, given the buffers the window reads at theirs. -/
theorem rd5_v301 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v301) = val_main_v301 (F := F) x0 x1 x4 x5 x6 x18 := by
  subst h0 h2 h3 h4 h5 h6 h15 h22
  after_results_simp
  try simp only [h_v229, h_v257, h_v231, h_v188, h_v225]
  rfl

/-- Window 5 leaves `main_v302` at its stage, given the buffers the window reads at theirs. -/
theorem rd5_v302 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v302) = val_main_v302 (F := F) x0 x2 x4 x5 x6 x20 := by
  subst h0 h2 h3 h4 h5 h6 h15 h22
  after_results_simp
  try simp only [h_v229, h_v257, h_v231, h_v188, h_v225]
  rfl

/-- Window 5 leaves `main_v303` at its stage, given the buffers the window reads at theirs. -/
theorem rd5_v303 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h0 : W (Proc.devRef .tc main_arg0) = x0)
    (h2 : W (Proc.devRef .tc main_arg2) = x2)
    (h3 : W (Proc.devRef .tc main_arg3) = x3)
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v229 : W (Proc.devRef .tc main_v229) = val_main_v229 (F := F) x5)
    (h_v257 : W (Proc.devRef .tc main_v257) = val_main_v257 (F := F) x0 x4 x20)
    (h_v231 : W (Proc.devRef .tc main_v231) = val_main_v231 (F := F) x6)
    (h_v188 : W (Proc.devRef .tc main_v188) = val_main_v188 (F := F) x0 x1 x2 x3 x4 x5 x6 x15 x16 x17 x19 x21)
    (h_v225 : W (Proc.devRef .tc main_v225) = val_main_v225 (F := F) x0 x1 x4 x5 x6 x18) :
    after rw5 W (Proc.devRef .tc main_v303) = val_main_v303 (F := F) x0 x3 x4 x5 x6 x22 := by
  subst h0 h2 h3 h4 h5 h6 h15 h22
  after_results_simp
  try simp only [h_v229, h_v257, h_v231, h_v188, h_v225]
  rfl

end Cert.ReferenceIdeal.Hand
end
-- ==== Proof.Ref.Rd6.lean ====
/-
  Window 6 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 6 leaves `main_v361` at its stage, given the buffers the window reads at theirs. -/
theorem rd6_v361 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v311 : W (Proc.devRef .tc main_v311) = val_main_v311 (F := F) x15)
    (h_v300 : W (Proc.devRef .tc main_v300) = val_main_v300 (F := F) x0 x1 x2 x3 x4 x5 x6 x15 x16 x17 x19 x21)
    (h_v305 : W (Proc.devRef .tc main_v305) = val_main_v305 (F := F) x4)
    (h_v307 : W (Proc.devRef .tc main_v307) = val_main_v307 (F := F) x5)
    (h_v309 : W (Proc.devRef .tc main_v309) = val_main_v309 (F := F) x6) :
    after rw6 W (Proc.devRef .tc main_v361) = val_main_v361 (F := F) := by
  subst h4 h5 h6 h15 h16
  after_results_simp
  try simp only [h_v311, h_v300, h_v305, h_v307, h_v309]
  rfl

/-- Window 6 leaves `main_v360` at its stage, given the buffers the window reads at theirs. -/
theorem rd6_v360 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v311 : W (Proc.devRef .tc main_v311) = val_main_v311 (F := F) x15)
    (h_v300 : W (Proc.devRef .tc main_v300) = val_main_v300 (F := F) x0 x1 x2 x3 x4 x5 x6 x15 x16 x17 x19 x21)
    (h_v305 : W (Proc.devRef .tc main_v305) = val_main_v305 (F := F) x4)
    (h_v307 : W (Proc.devRef .tc main_v307) = val_main_v307 (F := F) x5)
    (h_v309 : W (Proc.devRef .tc main_v309) = val_main_v309 (F := F) x6) :
    after rw6 W (Proc.devRef .tc main_v360) = val_main_v360 (F := F) x0 x1 x2 x3 x4 x5 x6 x15 x16 x17 x19 x21 := by
  subst h4 h5 h6 h15 h16
  after_results_simp
  try simp only [h_v311, h_v300, h_v305, h_v307, h_v309]
  rfl

/-- Window 6 leaves `main_v342` at its stage, given the buffers the window reads at theirs. -/
theorem rd6_v342 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v311 : W (Proc.devRef .tc main_v311) = val_main_v311 (F := F) x15)
    (h_v300 : W (Proc.devRef .tc main_v300) = val_main_v300 (F := F) x0 x1 x2 x3 x4 x5 x6 x15 x16 x17 x19 x21)
    (h_v305 : W (Proc.devRef .tc main_v305) = val_main_v305 (F := F) x4)
    (h_v307 : W (Proc.devRef .tc main_v307) = val_main_v307 (F := F) x5)
    (h_v309 : W (Proc.devRef .tc main_v309) = val_main_v309 (F := F) x6) :
    after rw6 W (Proc.devRef .tc main_v342) = val_main_v342 (F := F) x4 := by
  subst h4 h5 h6 h15 h16
  after_results_simp
  try simp only [h_v311, h_v300, h_v305, h_v307, h_v309]
  rfl

/-- Window 6 leaves `main_v344` at its stage, given the buffers the window reads at theirs. -/
theorem rd6_v344 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v311 : W (Proc.devRef .tc main_v311) = val_main_v311 (F := F) x15)
    (h_v300 : W (Proc.devRef .tc main_v300) = val_main_v300 (F := F) x0 x1 x2 x3 x4 x5 x6 x15 x16 x17 x19 x21)
    (h_v305 : W (Proc.devRef .tc main_v305) = val_main_v305 (F := F) x4)
    (h_v307 : W (Proc.devRef .tc main_v307) = val_main_v307 (F := F) x5)
    (h_v309 : W (Proc.devRef .tc main_v309) = val_main_v309 (F := F) x6) :
    after rw6 W (Proc.devRef .tc main_v344) = val_main_v344 (F := F) x5 := by
  subst h4 h5 h6 h15 h16
  after_results_simp
  try simp only [h_v311, h_v300, h_v305, h_v307, h_v309]
  rfl

/-- Window 6 leaves `main_v346` at its stage, given the buffers the window reads at theirs. -/
theorem rd6_v346 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v311 : W (Proc.devRef .tc main_v311) = val_main_v311 (F := F) x15)
    (h_v300 : W (Proc.devRef .tc main_v300) = val_main_v300 (F := F) x0 x1 x2 x3 x4 x5 x6 x15 x16 x17 x19 x21)
    (h_v305 : W (Proc.devRef .tc main_v305) = val_main_v305 (F := F) x4)
    (h_v307 : W (Proc.devRef .tc main_v307) = val_main_v307 (F := F) x5)
    (h_v309 : W (Proc.devRef .tc main_v309) = val_main_v309 (F := F) x6) :
    after rw6 W (Proc.devRef .tc main_v346) = val_main_v346 (F := F) x6 := by
  subst h4 h5 h6 h15 h16
  after_results_simp
  try simp only [h_v311, h_v300, h_v305, h_v307, h_v309]
  rfl

/-- Window 6 leaves `main_v340` at its stage, given the buffers the window reads at theirs. -/
theorem rd6_v340 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v311 : W (Proc.devRef .tc main_v311) = val_main_v311 (F := F) x15)
    (h_v300 : W (Proc.devRef .tc main_v300) = val_main_v300 (F := F) x0 x1 x2 x3 x4 x5 x6 x15 x16 x17 x19 x21)
    (h_v305 : W (Proc.devRef .tc main_v305) = val_main_v305 (F := F) x4)
    (h_v307 : W (Proc.devRef .tc main_v307) = val_main_v307 (F := F) x5)
    (h_v309 : W (Proc.devRef .tc main_v309) = val_main_v309 (F := F) x6) :
    after rw6 W (Proc.devRef .tc main_v340) = val_main_v340 (F := F) x0 x1 x2 x3 x4 x5 x6 x15 x16 x17 x19 x21 := by
  subst h4 h5 h6 h15 h16
  after_results_simp
  try simp only [h_v311, h_v300, h_v305, h_v307, h_v309]
  rfl

end Cert.ReferenceIdeal.Hand
end
-- ==== Proof.Ref.Rd7.lean ====
/-
  Window 7 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 7 leaves `main_v384` at its stage, given the buffers the window reads at theirs. -/
theorem rd7_v384 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v361 : W (Proc.devRef .tc main_v361) = val_main_v361 (F := F))
    (h_v360 : W (Proc.devRef .tc main_v360) = val_main_v360 (F := F) x0 x1 x2 x3 x4 x5 x6 x15 x16 x17 x19 x21)
    (h_v342 : W (Proc.devRef .tc main_v342) = val_main_v342 (F := F) x4)
    (h_v344 : W (Proc.devRef .tc main_v344) = val_main_v344 (F := F) x5)
    (h_v300 : W (Proc.devRef .tc main_v300) = val_main_v300 (F := F) x0 x1 x2 x3 x4 x5 x6 x15 x16 x17 x19 x21)
    (h_v346 : W (Proc.devRef .tc main_v346) = val_main_v346 (F := F) x6)
    (h_v340 : W (Proc.devRef .tc main_v340) = val_main_v340 (F := F) x0 x1 x2 x3 x4 x5 x6 x15 x16 x17 x19 x21)
    (h_v301 : W (Proc.devRef .tc main_v301) = val_main_v301 (F := F) x0 x1 x4 x5 x6 x18) :
    after rw7 W (Proc.devRef .tc main_v384) = val_main_v384 (F := F) x6 := by
  subst h4 h5 h6 h16 h17
  after_results_simp
  try simp only [h_v361, h_v360, h_v342, h_v344, h_v300, h_v346, h_v340, h_v301]
  rfl

/-- Window 7 leaves `main_v413` at its stage, given the buffers the window reads at theirs. -/
theorem rd7_v413 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v361 : W (Proc.devRef .tc main_v361) = val_main_v361 (F := F))
    (h_v360 : W (Proc.devRef .tc main_v360) = val_main_v360 (F := F) x0 x1 x2 x3 x4 x5 x6 x15 x16 x17 x19 x21)
    (h_v342 : W (Proc.devRef .tc main_v342) = val_main_v342 (F := F) x4)
    (h_v344 : W (Proc.devRef .tc main_v344) = val_main_v344 (F := F) x5)
    (h_v300 : W (Proc.devRef .tc main_v300) = val_main_v300 (F := F) x0 x1 x2 x3 x4 x5 x6 x15 x16 x17 x19 x21)
    (h_v346 : W (Proc.devRef .tc main_v346) = val_main_v346 (F := F) x6)
    (h_v340 : W (Proc.devRef .tc main_v340) = val_main_v340 (F := F) x0 x1 x2 x3 x4 x5 x6 x15 x16 x17 x19 x21)
    (h_v301 : W (Proc.devRef .tc main_v301) = val_main_v301 (F := F) x0 x1 x4 x5 x6 x18) :
    after rw7 W (Proc.devRef .tc main_v413) = val_main_v413 (F := F) x0 x1 x4 x5 x6 x17 x18 := by
  subst h4 h5 h6 h16 h17
  after_results_simp
  try simp only [h_v361, h_v360, h_v342, h_v344, h_v300, h_v346, h_v340, h_v301]
  rfl

/-- Window 7 leaves `main_v378` at its stage, given the buffers the window reads at theirs. -/
theorem rd7_v378 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h16 : W (Proc.devRef .tc main_arg16) = x16)
    (h17 : W (Proc.devRef .tc main_arg17) = x17)
    (h_v361 : W (Proc.devRef .tc main_v361) = val_main_v361 (F := F))
    (h_v360 : W (Proc.devRef .tc main_v360) = val_main_v360 (F := F) x0 x1 x2 x3 x4 x5 x6 x15 x16 x17 x19 x21)
    (h_v342 : W (Proc.devRef .tc main_v342) = val_main_v342 (F := F) x4)
    (h_v344 : W (Proc.devRef .tc main_v344) = val_main_v344 (F := F) x5)
    (h_v300 : W (Proc.devRef .tc main_v300) = val_main_v300 (F := F) x0 x1 x2 x3 x4 x5 x6 x15 x16 x17 x19 x21)
    (h_v346 : W (Proc.devRef .tc main_v346) = val_main_v346 (F := F) x6)
    (h_v340 : W (Proc.devRef .tc main_v340) = val_main_v340 (F := F) x0 x1 x2 x3 x4 x5 x6 x15 x16 x17 x19 x21)
    (h_v301 : W (Proc.devRef .tc main_v301) = val_main_v301 (F := F) x0 x1 x4 x5 x6 x18) :
    after rw7 W (Proc.devRef .tc main_v378) = val_main_v378 (F := F) x0 x1 x2 x3 x4 x5 x6 x15 x16 x17 x19 x21 := by
  subst h4 h5 h6 h16 h17
  after_results_simp
  try simp only [h_v361, h_v360, h_v342, h_v344, h_v300, h_v346, h_v340, h_v301]
  rfl

end Cert.ReferenceIdeal.Hand
end
-- ==== Proof.Ref.Rd8.lean ====
/-
  Window 8 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 8 leaves `main_v462` at its stage, given the buffers the window reads at theirs. -/
theorem rd8_v462 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v300 : W (Proc.devRef .tc main_v300) = val_main_v300 (F := F) x0 x1 x2 x3 x4 x5 x6 x15 x16 x17 x19 x21)
    (h_v384 : W (Proc.devRef .tc main_v384) = val_main_v384 (F := F) x6)
    (h_v413 : W (Proc.devRef .tc main_v413) = val_main_v413 (F := F) x0 x1 x4 x5 x6 x17 x18)
    (h_v378 : W (Proc.devRef .tc main_v378) = val_main_v378 (F := F) x0 x1 x2 x3 x4 x5 x6 x15 x16 x17 x19 x21)
    (h_v302 : W (Proc.devRef .tc main_v302) = val_main_v302 (F := F) x0 x2 x4 x5 x6 x20) :
    after rw8 W (Proc.devRef .tc main_v462) = val_main_v462 (F := F) x21 := by
  subst h4 h5 h6 h19 h21
  after_results_simp
  try simp only [h_v300, h_v384, h_v413, h_v378, h_v302]
  rfl

/-- Window 8 leaves `main_v465` at its stage, given the buffers the window reads at theirs. -/
theorem rd8_v465 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v300 : W (Proc.devRef .tc main_v300) = val_main_v300 (F := F) x0 x1 x2 x3 x4 x5 x6 x15 x16 x17 x19 x21)
    (h_v384 : W (Proc.devRef .tc main_v384) = val_main_v384 (F := F) x6)
    (h_v413 : W (Proc.devRef .tc main_v413) = val_main_v413 (F := F) x0 x1 x4 x5 x6 x17 x18)
    (h_v378 : W (Proc.devRef .tc main_v378) = val_main_v378 (F := F) x0 x1 x2 x3 x4 x5 x6 x15 x16 x17 x19 x21)
    (h_v302 : W (Proc.devRef .tc main_v302) = val_main_v302 (F := F) x0 x2 x4 x5 x6 x20) :
    after rw8 W (Proc.devRef .tc main_v465) = val_main_v465 (F := F) := by
  subst h4 h5 h6 h19 h21
  after_results_simp
  try simp only [h_v300, h_v384, h_v413, h_v378, h_v302]
  rfl

/-- Window 8 leaves `main_v464` at its stage, given the buffers the window reads at theirs. -/
theorem rd8_v464 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v300 : W (Proc.devRef .tc main_v300) = val_main_v300 (F := F) x0 x1 x2 x3 x4 x5 x6 x15 x16 x17 x19 x21)
    (h_v384 : W (Proc.devRef .tc main_v384) = val_main_v384 (F := F) x6)
    (h_v413 : W (Proc.devRef .tc main_v413) = val_main_v413 (F := F) x0 x1 x4 x5 x6 x17 x18)
    (h_v378 : W (Proc.devRef .tc main_v378) = val_main_v378 (F := F) x0 x1 x2 x3 x4 x5 x6 x15 x16 x17 x19 x21)
    (h_v302 : W (Proc.devRef .tc main_v302) = val_main_v302 (F := F) x0 x2 x4 x5 x6 x20) :
    after rw8 W (Proc.devRef .tc main_v464) = val_main_v464 (F := F) x21 := by
  subst h4 h5 h6 h19 h21
  after_results_simp
  try simp only [h_v300, h_v384, h_v413, h_v378, h_v302]
  rfl

/-- Window 8 leaves `main_v456` at its stage, given the buffers the window reads at theirs. -/
theorem rd8_v456 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v300 : W (Proc.devRef .tc main_v300) = val_main_v300 (F := F) x0 x1 x2 x3 x4 x5 x6 x15 x16 x17 x19 x21)
    (h_v384 : W (Proc.devRef .tc main_v384) = val_main_v384 (F := F) x6)
    (h_v413 : W (Proc.devRef .tc main_v413) = val_main_v413 (F := F) x0 x1 x4 x5 x6 x17 x18)
    (h_v378 : W (Proc.devRef .tc main_v378) = val_main_v378 (F := F) x0 x1 x2 x3 x4 x5 x6 x15 x16 x17 x19 x21)
    (h_v302 : W (Proc.devRef .tc main_v302) = val_main_v302 (F := F) x0 x2 x4 x5 x6 x20) :
    after rw8 W (Proc.devRef .tc main_v456) = val_main_v456 (F := F) x4 := by
  subst h4 h5 h6 h19 h21
  after_results_simp
  try simp only [h_v300, h_v384, h_v413, h_v378, h_v302]
  rfl

/-- Window 8 leaves `main_v458` at its stage, given the buffers the window reads at theirs. -/
theorem rd8_v458 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v300 : W (Proc.devRef .tc main_v300) = val_main_v300 (F := F) x0 x1 x2 x3 x4 x5 x6 x15 x16 x17 x19 x21)
    (h_v384 : W (Proc.devRef .tc main_v384) = val_main_v384 (F := F) x6)
    (h_v413 : W (Proc.devRef .tc main_v413) = val_main_v413 (F := F) x0 x1 x4 x5 x6 x17 x18)
    (h_v378 : W (Proc.devRef .tc main_v378) = val_main_v378 (F := F) x0 x1 x2 x3 x4 x5 x6 x15 x16 x17 x19 x21)
    (h_v302 : W (Proc.devRef .tc main_v302) = val_main_v302 (F := F) x0 x2 x4 x5 x6 x20) :
    after rw8 W (Proc.devRef .tc main_v458) = val_main_v458 (F := F) x5 := by
  subst h4 h5 h6 h19 h21
  after_results_simp
  try simp only [h_v300, h_v384, h_v413, h_v378, h_v302]
  rfl

/-- Window 8 leaves `main_v460` at its stage, given the buffers the window reads at theirs. -/
theorem rd8_v460 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v300 : W (Proc.devRef .tc main_v300) = val_main_v300 (F := F) x0 x1 x2 x3 x4 x5 x6 x15 x16 x17 x19 x21)
    (h_v384 : W (Proc.devRef .tc main_v384) = val_main_v384 (F := F) x6)
    (h_v413 : W (Proc.devRef .tc main_v413) = val_main_v413 (F := F) x0 x1 x4 x5 x6 x17 x18)
    (h_v378 : W (Proc.devRef .tc main_v378) = val_main_v378 (F := F) x0 x1 x2 x3 x4 x5 x6 x15 x16 x17 x19 x21)
    (h_v302 : W (Proc.devRef .tc main_v302) = val_main_v302 (F := F) x0 x2 x4 x5 x6 x20) :
    after rw8 W (Proc.devRef .tc main_v460) = val_main_v460 (F := F) x6 := by
  subst h4 h5 h6 h19 h21
  after_results_simp
  try simp only [h_v300, h_v384, h_v413, h_v378, h_v302]
  rfl

/-- Window 8 leaves `main_v454` at its stage, given the buffers the window reads at theirs. -/
theorem rd8_v454 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v300 : W (Proc.devRef .tc main_v300) = val_main_v300 (F := F) x0 x1 x2 x3 x4 x5 x6 x15 x16 x17 x19 x21)
    (h_v384 : W (Proc.devRef .tc main_v384) = val_main_v384 (F := F) x6)
    (h_v413 : W (Proc.devRef .tc main_v413) = val_main_v413 (F := F) x0 x1 x4 x5 x6 x17 x18)
    (h_v378 : W (Proc.devRef .tc main_v378) = val_main_v378 (F := F) x0 x1 x2 x3 x4 x5 x6 x15 x16 x17 x19 x21)
    (h_v302 : W (Proc.devRef .tc main_v302) = val_main_v302 (F := F) x0 x2 x4 x5 x6 x20) :
    after rw8 W (Proc.devRef .tc main_v454) = val_main_v454 (F := F) x0 x1 x2 x3 x4 x5 x6 x15 x16 x17 x18 x19 x20 x21 := by
  subst h4 h5 h6 h19 h21
  after_results_simp
  try simp only [h_v300, h_v384, h_v413, h_v378, h_v302]
  rfl

end Cert.ReferenceIdeal.Hand
end
-- ==== Proof.Ref.Rd9.lean ====
/-
  Window 9 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 9 leaves `main_v515` at its stage, given the buffers the window reads at theirs. -/
theorem rd9_v515 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v515) = val_main_v515 (F := F) x18 := by
  subst h4 h5 h6 h18 h21
  after_results_simp
  try simp only [h_v462, h_v465, h_v464, h_v303, h_v456, h_v458, h_v300, h_v460, h_v454]
  rfl

/-- Window 9 leaves `main_v516` at its stage, given the buffers the window reads at theirs. -/
theorem rd9_v516 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v516) = val_main_v516 (F := F) := by
  subst h4 h5 h6 h18 h21
  after_results_simp
  try simp only [h_v462, h_v465, h_v464, h_v303, h_v456, h_v458, h_v300, h_v460, h_v454]
  rfl

/-- Window 9 leaves `main_v513` at its stage, given the buffers the window reads at theirs. -/
theorem rd9_v513 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v513) = val_main_v513 (F := F) := by
  subst h4 h5 h6 h18 h21
  after_results_simp
  try simp only [h_v462, h_v465, h_v464, h_v303, h_v456, h_v458, h_v300, h_v460, h_v454]
  rfl

/-- Window 9 leaves `main_v512` at its stage, given the buffers the window reads at theirs. -/
theorem rd9_v512 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v512) = val_main_v512 (F := F) x0 x1 x2 x3 x4 x5 x6 x15 x16 x17 x18 x19 x21 := by
  subst h4 h5 h6 h18 h21
  after_results_simp
  try simp only [h_v462, h_v465, h_v464, h_v303, h_v456, h_v458, h_v300, h_v460, h_v454]
  rfl

/-- Window 9 leaves `main_v494` at its stage, given the buffers the window reads at theirs. -/
theorem rd9_v494 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v494) = val_main_v494 (F := F) x4 := by
  subst h4 h5 h6 h18 h21
  after_results_simp
  try simp only [h_v462, h_v465, h_v464, h_v303, h_v456, h_v458, h_v300, h_v460, h_v454]
  rfl

/-- Window 9 leaves `main_v496` at its stage, given the buffers the window reads at theirs. -/
theorem rd9_v496 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v496) = val_main_v496 (F := F) x5 := by
  subst h4 h5 h6 h18 h21
  after_results_simp
  try simp only [h_v462, h_v465, h_v464, h_v303, h_v456, h_v458, h_v300, h_v460, h_v454]
  rfl

/-- Window 9 leaves `main_v498` at its stage, given the buffers the window reads at theirs. -/
theorem rd9_v498 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v498) = val_main_v498 (F := F) x6 := by
  subst h4 h5 h6 h18 h21
  after_results_simp
  try simp only [h_v462, h_v465, h_v464, h_v303, h_v456, h_v458, h_v300, h_v460, h_v454]
  rfl

/-- Window 9 leaves `main_v492` at its stage, given the buffers the window reads at theirs. -/
theorem rd9_v492 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v462 : W (Proc.devRef .tc main_v462) = val_main_v462 (F := F) x21)
    (h_v465 : W (Proc.devRef .tc main_v465) = val_main_v465 (F := F))
    (h_v464 : W (Proc.devRef .tc main_v464) = val_main_v464 (F := F) x21)
    (h_v303 : W (Proc.devRef .tc main_v303) = val_main_v303 (F := F) x0 x3 x4 x5 x6 x22)
    (h_v456 : W (Proc.devRef .tc main_v456) = val_main_v456 (F := F) x4)
    (h_v458 : W (Proc.devRef .tc main_v458) = val_main_v458 (F := F) x5)
    (h_v300 : W (Proc.devRef .tc main_v300) = val_main_v300 (F := F) x0 x1 x2 x3 x4 x5 x6 x15 x16 x17 x19 x21)
    (h_v460 : W (Proc.devRef .tc main_v460) = val_main_v460 (F := F) x6)
    (h_v454 : W (Proc.devRef .tc main_v454) = val_main_v454 (F := F) x0 x1 x2 x3 x4 x5 x6 x15 x16 x17 x18 x19 x20 x21) :
    after rw9 W (Proc.devRef .tc main_v492) = val_main_v492 (F := F) x0 x1 x2 x3 x4 x5 x6 x15 x16 x17 x18 x19 x20 x21 x22 := by
  subst h4 h5 h6 h18 h21
  after_results_simp
  try simp only [h_v462, h_v465, h_v464, h_v303, h_v456, h_v458, h_v300, h_v460, h_v454]
  rfl

end Cert.ReferenceIdeal.Hand
end
-- ==== Proof.Ref.Rd10.lean ====
/-
  Window 10 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 10 leaves `main_v569` at its stage, given the buffers the window reads at theirs. -/
theorem rd10_v569 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h_v515 : W (Proc.devRef .tc main_v515) = val_main_v515 (F := F) x18)
    (h_v516 : W (Proc.devRef .tc main_v516) = val_main_v516 (F := F))
    (h_v513 : W (Proc.devRef .tc main_v513) = val_main_v513 (F := F))
    (h_v512 : W (Proc.devRef .tc main_v512) = val_main_v512 (F := F) x0 x1 x2 x3 x4 x5 x6 x15 x16 x17 x18 x19 x21)
    (h_v494 : W (Proc.devRef .tc main_v494) = val_main_v494 (F := F) x4)
    (h_v496 : W (Proc.devRef .tc main_v496) = val_main_v496 (F := F) x5)
    (h_v301 : W (Proc.devRef .tc main_v301) = val_main_v301 (F := F) x0 x1 x4 x5 x6 x18)
    (h_v498 : W (Proc.devRef .tc main_v498) = val_main_v498 (F := F) x6)
    (h_v300 : W (Proc.devRef .tc main_v300) = val_main_v300 (F := F) x0 x1 x2 x3 x4 x5 x6 x15 x16 x17 x19 x21)
    (h_v302 : W (Proc.devRef .tc main_v302) = val_main_v302 (F := F) x0 x2 x4 x5 x6 x20) :
    after rw10 W (Proc.devRef .tc main_v569) = val_main_v569 (F := F) x5 := by
  subst h4 h5 h6 h20
  after_results_simp
  try simp only [h_v515, h_v516, h_v513, h_v512, h_v494, h_v496, h_v301, h_v498, h_v300, h_v302]
  rfl

/-- Window 10 leaves `main_v568` at its stage, given the buffers the window reads at theirs. -/
theorem rd10_v568 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h_v515 : W (Proc.devRef .tc main_v515) = val_main_v515 (F := F) x18)
    (h_v516 : W (Proc.devRef .tc main_v516) = val_main_v516 (F := F))
    (h_v513 : W (Proc.devRef .tc main_v513) = val_main_v513 (F := F))
    (h_v512 : W (Proc.devRef .tc main_v512) = val_main_v512 (F := F) x0 x1 x2 x3 x4 x5 x6 x15 x16 x17 x18 x19 x21)
    (h_v494 : W (Proc.devRef .tc main_v494) = val_main_v494 (F := F) x4)
    (h_v496 : W (Proc.devRef .tc main_v496) = val_main_v496 (F := F) x5)
    (h_v301 : W (Proc.devRef .tc main_v301) = val_main_v301 (F := F) x0 x1 x4 x5 x6 x18)
    (h_v498 : W (Proc.devRef .tc main_v498) = val_main_v498 (F := F) x6)
    (h_v300 : W (Proc.devRef .tc main_v300) = val_main_v300 (F := F) x0 x1 x2 x3 x4 x5 x6 x15 x16 x17 x19 x21)
    (h_v302 : W (Proc.devRef .tc main_v302) = val_main_v302 (F := F) x0 x2 x4 x5 x6 x20) :
    after rw10 W (Proc.devRef .tc main_v568) = val_main_v568 (F := F) x4 := by
  subst h4 h5 h6 h20
  after_results_simp
  try simp only [h_v515, h_v516, h_v513, h_v512, h_v494, h_v496, h_v301, h_v498, h_v300, h_v302]
  rfl

/-- Window 10 leaves `main_v529` at its stage, given the buffers the window reads at theirs. -/
theorem rd10_v529 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h_v515 : W (Proc.devRef .tc main_v515) = val_main_v515 (F := F) x18)
    (h_v516 : W (Proc.devRef .tc main_v516) = val_main_v516 (F := F))
    (h_v513 : W (Proc.devRef .tc main_v513) = val_main_v513 (F := F))
    (h_v512 : W (Proc.devRef .tc main_v512) = val_main_v512 (F := F) x0 x1 x2 x3 x4 x5 x6 x15 x16 x17 x18 x19 x21)
    (h_v494 : W (Proc.devRef .tc main_v494) = val_main_v494 (F := F) x4)
    (h_v496 : W (Proc.devRef .tc main_v496) = val_main_v496 (F := F) x5)
    (h_v301 : W (Proc.devRef .tc main_v301) = val_main_v301 (F := F) x0 x1 x4 x5 x6 x18)
    (h_v498 : W (Proc.devRef .tc main_v498) = val_main_v498 (F := F) x6)
    (h_v300 : W (Proc.devRef .tc main_v300) = val_main_v300 (F := F) x0 x1 x2 x3 x4 x5 x6 x15 x16 x17 x19 x21)
    (h_v302 : W (Proc.devRef .tc main_v302) = val_main_v302 (F := F) x0 x2 x4 x5 x6 x20) :
    after rw10 W (Proc.devRef .tc main_v529) = val_main_v529 (F := F) x0 x1 x2 x3 x4 x5 x6 x15 x16 x17 x18 x19 x21 := by
  subst h4 h5 h6 h20
  after_results_simp
  try simp only [h_v515, h_v516, h_v513, h_v512, h_v494, h_v496, h_v301, h_v498, h_v300, h_v302]
  rfl

/-- Window 10 leaves `main_v566` at its stage, given the buffers the window reads at theirs. -/
theorem rd10_v566 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h_v515 : W (Proc.devRef .tc main_v515) = val_main_v515 (F := F) x18)
    (h_v516 : W (Proc.devRef .tc main_v516) = val_main_v516 (F := F))
    (h_v513 : W (Proc.devRef .tc main_v513) = val_main_v513 (F := F))
    (h_v512 : W (Proc.devRef .tc main_v512) = val_main_v512 (F := F) x0 x1 x2 x3 x4 x5 x6 x15 x16 x17 x18 x19 x21)
    (h_v494 : W (Proc.devRef .tc main_v494) = val_main_v494 (F := F) x4)
    (h_v496 : W (Proc.devRef .tc main_v496) = val_main_v496 (F := F) x5)
    (h_v301 : W (Proc.devRef .tc main_v301) = val_main_v301 (F := F) x0 x1 x4 x5 x6 x18)
    (h_v498 : W (Proc.devRef .tc main_v498) = val_main_v498 (F := F) x6)
    (h_v300 : W (Proc.devRef .tc main_v300) = val_main_v300 (F := F) x0 x1 x2 x3 x4 x5 x6 x15 x16 x17 x19 x21)
    (h_v302 : W (Proc.devRef .tc main_v302) = val_main_v302 (F := F) x0 x2 x4 x5 x6 x20) :
    after rw10 W (Proc.devRef .tc main_v566) = val_main_v566 (F := F) x0 x1 x2 x3 x4 x5 x6 x15 x16 x17 x19 x20 x21 := by
  subst h4 h5 h6 h20
  after_results_simp
  try simp only [h_v515, h_v516, h_v513, h_v512, h_v494, h_v496, h_v301, h_v498, h_v300, h_v302]
  rfl

end Cert.ReferenceIdeal.Hand
end
-- ==== Proof.Ref.Rd11.lean ====
/-
  Window 11 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 11 leaves `main_v604` at its stage, given the buffers the window reads at theirs. -/
theorem rd11_v604 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v604) = val_main_v604 (F := F) x0 x1 x2 x3 x4 x5 x6 x15 x16 x17 x18 x19 x20 x21 x22 := by
  subst h4 h5 h6 h15 h22
  after_results_simp
  try simp only [h_v569, h_v300, h_v568, h_v303, h_v492, h_v529, h_v566]
  rfl

/-- Window 11 leaves `main_v621` at its stage, given the buffers the window reads at theirs. -/
theorem rd11_v621 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v621) = val_main_v621 (F := F) x15 := by
  subst h4 h5 h6 h15 h22
  after_results_simp
  try simp only [h_v569, h_v300, h_v568, h_v303, h_v492, h_v529, h_v566]
  rfl

/-- Window 11 leaves `main_v609` at its stage, given the buffers the window reads at theirs. -/
theorem rd11_v609 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v609) = val_main_v609 (F := F) x4 := by
  subst h4 h5 h6 h15 h22
  after_results_simp
  try simp only [h_v569, h_v300, h_v568, h_v303, h_v492, h_v529, h_v566]
  rfl

/-- Window 11 leaves `main_v611` at its stage, given the buffers the window reads at theirs. -/
theorem rd11_v611 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v611) = val_main_v611 (F := F) x5 := by
  subst h4 h5 h6 h15 h22
  after_results_simp
  try simp only [h_v569, h_v300, h_v568, h_v303, h_v492, h_v529, h_v566]
  rfl

/-- Window 11 leaves `main_v613` at its stage, given the buffers the window reads at theirs. -/
theorem rd11_v613 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v613) = val_main_v613 (F := F) x6 := by
  subst h4 h5 h6 h15 h22
  after_results_simp
  try simp only [h_v569, h_v300, h_v568, h_v303, h_v492, h_v529, h_v566]
  rfl

/-- Window 11 leaves `main_v605` at its stage, given the buffers the window reads at theirs. -/
theorem rd11_v605 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v605) = val_main_v605 (F := F) x0 x1 x2 x3 x4 x5 x6 x15 x16 x17 x18 x19 x21 := by
  subst h4 h5 h6 h15 h22
  after_results_simp
  try simp only [h_v569, h_v300, h_v568, h_v303, h_v492, h_v529, h_v566]
  rfl

/-- Window 11 leaves `main_v606` at its stage, given the buffers the window reads at theirs. -/
theorem rd11_v606 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v606) = val_main_v606 (F := F) x0 x1 x2 x3 x4 x5 x6 x15 x16 x17 x19 x20 x21 := by
  subst h4 h5 h6 h15 h22
  after_results_simp
  try simp only [h_v569, h_v300, h_v568, h_v303, h_v492, h_v529, h_v566]
  rfl

/-- Window 11 leaves `main_v607` at its stage, given the buffers the window reads at theirs. -/
theorem rd11_v607 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h22 : W (Proc.devRef .tc main_arg22) = x22)
    (h_v569 : W (Proc.devRef .tc main_v569) = val_main_v569 (F := F) x5)
    (h_v300 : W (Proc.devRef .tc main_v300) = val_main_v300 (F := F) x0 x1 x2 x3 x4 x5 x6 x15 x16 x17 x19 x21)
    (h_v568 : W (Proc.devRef .tc main_v568) = val_main_v568 (F := F) x4)
    (h_v303 : W (Proc.devRef .tc main_v303) = val_main_v303 (F := F) x0 x3 x4 x5 x6 x22)
    (h_v492 : W (Proc.devRef .tc main_v492) = val_main_v492 (F := F) x0 x1 x2 x3 x4 x5 x6 x15 x16 x17 x18 x19 x20 x21 x22)
    (h_v529 : W (Proc.devRef .tc main_v529) = val_main_v529 (F := F) x0 x1 x2 x3 x4 x5 x6 x15 x16 x17 x18 x19 x21)
    (h_v566 : W (Proc.devRef .tc main_v566) = val_main_v566 (F := F) x0 x1 x2 x3 x4 x5 x6 x15 x16 x17 x19 x20 x21) :
    after rw11 W (Proc.devRef .tc main_v607) = val_main_v607 (F := F) x0 x1 x2 x3 x4 x5 x6 x15 x16 x17 x19 x21 x22 := by
  subst h4 h5 h6 h15 h22
  after_results_simp
  try simp only [h_v569, h_v300, h_v568, h_v303, h_v492, h_v529, h_v566]
  rfl

end Cert.ReferenceIdeal.Hand
end
-- ==== Proof.Ref.Rd12.lean ====
/-
  Window 12 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 12 leaves `main_v670` at its stage, given the buffers the window reads at theirs. -/
theorem rd12_v670 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v604 : W (Proc.devRef .tc main_v604) = val_main_v604 (F := F) x0 x1 x2 x3 x4 x5 x6 x15 x16 x17 x18 x19 x20 x21 x22)
    (h_v621 : W (Proc.devRef .tc main_v621) = val_main_v621 (F := F) x15)
    (h_v609 : W (Proc.devRef .tc main_v609) = val_main_v609 (F := F) x4)
    (h_v611 : W (Proc.devRef .tc main_v611) = val_main_v611 (F := F) x5)
    (h_v613 : W (Proc.devRef .tc main_v613) = val_main_v613 (F := F) x6) :
    after rw12 W (Proc.devRef .tc main_v670) = val_main_v670 (F := F) x16 := by
  subst h4 h5 h6 h15 h16
  after_results_simp
  try simp only [h_v604, h_v621, h_v609, h_v611, h_v613]
  rfl

/-- Window 12 leaves `main_v671` at its stage, given the buffers the window reads at theirs. -/
theorem rd12_v671 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v604 : W (Proc.devRef .tc main_v604) = val_main_v604 (F := F) x0 x1 x2 x3 x4 x5 x6 x15 x16 x17 x18 x19 x20 x21 x22)
    (h_v621 : W (Proc.devRef .tc main_v621) = val_main_v621 (F := F) x15)
    (h_v609 : W (Proc.devRef .tc main_v609) = val_main_v609 (F := F) x4)
    (h_v611 : W (Proc.devRef .tc main_v611) = val_main_v611 (F := F) x5)
    (h_v613 : W (Proc.devRef .tc main_v613) = val_main_v613 (F := F) x6) :
    after rw12 W (Proc.devRef .tc main_v671) = val_main_v671 (F := F) := by
  subst h4 h5 h6 h15 h16
  after_results_simp
  try simp only [h_v604, h_v621, h_v609, h_v611, h_v613]
  rfl

/-- Window 12 leaves `main_v664` at its stage, given the buffers the window reads at theirs. -/
theorem rd12_v664 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v604 : W (Proc.devRef .tc main_v604) = val_main_v604 (F := F) x0 x1 x2 x3 x4 x5 x6 x15 x16 x17 x18 x19 x20 x21 x22)
    (h_v621 : W (Proc.devRef .tc main_v621) = val_main_v621 (F := F) x15)
    (h_v609 : W (Proc.devRef .tc main_v609) = val_main_v609 (F := F) x4)
    (h_v611 : W (Proc.devRef .tc main_v611) = val_main_v611 (F := F) x5)
    (h_v613 : W (Proc.devRef .tc main_v613) = val_main_v613 (F := F) x6) :
    after rw12 W (Proc.devRef .tc main_v664) = val_main_v664 (F := F) x0 x1 x2 x3 x4 x5 x6 x15 x16 x17 x18 x19 x20 x21 x22 := by
  subst h4 h5 h6 h15 h16
  after_results_simp
  try simp only [h_v604, h_v621, h_v609, h_v611, h_v613]
  rfl

/-- Window 12 leaves `main_v646` at its stage, given the buffers the window reads at theirs. -/
theorem rd12_v646 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v604 : W (Proc.devRef .tc main_v604) = val_main_v604 (F := F) x0 x1 x2 x3 x4 x5 x6 x15 x16 x17 x18 x19 x20 x21 x22)
    (h_v621 : W (Proc.devRef .tc main_v621) = val_main_v621 (F := F) x15)
    (h_v609 : W (Proc.devRef .tc main_v609) = val_main_v609 (F := F) x4)
    (h_v611 : W (Proc.devRef .tc main_v611) = val_main_v611 (F := F) x5)
    (h_v613 : W (Proc.devRef .tc main_v613) = val_main_v613 (F := F) x6) :
    after rw12 W (Proc.devRef .tc main_v646) = val_main_v646 (F := F) x4 := by
  subst h4 h5 h6 h15 h16
  after_results_simp
  try simp only [h_v604, h_v621, h_v609, h_v611, h_v613]
  rfl

/-- Window 12 leaves `main_v648` at its stage, given the buffers the window reads at theirs. -/
theorem rd12_v648 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v604 : W (Proc.devRef .tc main_v604) = val_main_v604 (F := F) x0 x1 x2 x3 x4 x5 x6 x15 x16 x17 x18 x19 x20 x21 x22)
    (h_v621 : W (Proc.devRef .tc main_v621) = val_main_v621 (F := F) x15)
    (h_v609 : W (Proc.devRef .tc main_v609) = val_main_v609 (F := F) x4)
    (h_v611 : W (Proc.devRef .tc main_v611) = val_main_v611 (F := F) x5)
    (h_v613 : W (Proc.devRef .tc main_v613) = val_main_v613 (F := F) x6) :
    after rw12 W (Proc.devRef .tc main_v648) = val_main_v648 (F := F) x5 := by
  subst h4 h5 h6 h15 h16
  after_results_simp
  try simp only [h_v604, h_v621, h_v609, h_v611, h_v613]
  rfl

/-- Window 12 leaves `main_v650` at its stage, given the buffers the window reads at theirs. -/
theorem rd12_v650 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v604 : W (Proc.devRef .tc main_v604) = val_main_v604 (F := F) x0 x1 x2 x3 x4 x5 x6 x15 x16 x17 x18 x19 x20 x21 x22)
    (h_v621 : W (Proc.devRef .tc main_v621) = val_main_v621 (F := F) x15)
    (h_v609 : W (Proc.devRef .tc main_v609) = val_main_v609 (F := F) x4)
    (h_v611 : W (Proc.devRef .tc main_v611) = val_main_v611 (F := F) x5)
    (h_v613 : W (Proc.devRef .tc main_v613) = val_main_v613 (F := F) x6) :
    after rw12 W (Proc.devRef .tc main_v650) = val_main_v650 (F := F) x6 := by
  subst h4 h5 h6 h15 h16
  after_results_simp
  try simp only [h_v604, h_v621, h_v609, h_v611, h_v613]
  rfl

/-- Window 12 leaves `main_v644` at its stage, given the buffers the window reads at theirs. -/
theorem rd12_v644 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h15 : W (Proc.devRef .tc main_arg15) = x15)
    (h16 : W (Proc.devRef .tc main_arg16) = x16)
    (h_v604 : W (Proc.devRef .tc main_v604) = val_main_v604 (F := F) x0 x1 x2 x3 x4 x5 x6 x15 x16 x17 x18 x19 x20 x21 x22)
    (h_v621 : W (Proc.devRef .tc main_v621) = val_main_v621 (F := F) x15)
    (h_v609 : W (Proc.devRef .tc main_v609) = val_main_v609 (F := F) x4)
    (h_v611 : W (Proc.devRef .tc main_v611) = val_main_v611 (F := F) x5)
    (h_v613 : W (Proc.devRef .tc main_v613) = val_main_v613 (F := F) x6) :
    after rw12 W (Proc.devRef .tc main_v644) = val_main_v644 (F := F) x0 x1 x2 x3 x4 x5 x6 x15 x16 x17 x18 x19 x20 x21 x22 := by
  subst h4 h5 h6 h15 h16
  after_results_simp
  try simp only [h_v604, h_v621, h_v609, h_v611, h_v613]
  rfl

end Cert.ReferenceIdeal.Hand
end
-- ==== Proof.Ref.Rd13.lean ====
/-
  Window 13 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 13 leaves `main_v725` at its stage, given the buffers the window reads at theirs. -/
theorem rd13_v725 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h17 : W (Proc.devRef .tc main_arg17) = x17)
    (h_v670 : W (Proc.devRef .tc main_v670) = val_main_v670 (F := F) x16)
    (h_v671 : W (Proc.devRef .tc main_v671) = val_main_v671 (F := F))
    (h_v664 : W (Proc.devRef .tc main_v664) = val_main_v664 (F := F) x0 x1 x2 x3 x4 x5 x6 x15 x16 x17 x18 x19 x20 x21 x22)
    (h_v646 : W (Proc.devRef .tc main_v646) = val_main_v646 (F := F) x4)
    (h_v648 : W (Proc.devRef .tc main_v648) = val_main_v648 (F := F) x5)
    (h_v604 : W (Proc.devRef .tc main_v604) = val_main_v604 (F := F) x0 x1 x2 x3 x4 x5 x6 x15 x16 x17 x18 x19 x20 x21 x22)
    (h_v650 : W (Proc.devRef .tc main_v650) = val_main_v650 (F := F) x6)
    (h_v644 : W (Proc.devRef .tc main_v644) = val_main_v644 (F := F) x0 x1 x2 x3 x4 x5 x6 x15 x16 x17 x18 x19 x20 x21 x22)
    (h_v605 : W (Proc.devRef .tc main_v605) = val_main_v605 (F := F) x0 x1 x2 x3 x4 x5 x6 x15 x16 x17 x18 x19 x21) :
    after rw13 W (Proc.devRef .tc main_v725) = val_main_v725 (F := F) x6 := by
  subst h4 h5 h6 h17
  after_results_simp
  try simp only [h_v670, h_v671, h_v664, h_v646, h_v648, h_v604, h_v650, h_v644, h_v605]
  rfl

/-- Window 13 leaves `main_v722` at its stage, given the buffers the window reads at theirs. -/
theorem rd13_v722 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h17 : W (Proc.devRef .tc main_arg17) = x17)
    (h_v670 : W (Proc.devRef .tc main_v670) = val_main_v670 (F := F) x16)
    (h_v671 : W (Proc.devRef .tc main_v671) = val_main_v671 (F := F))
    (h_v664 : W (Proc.devRef .tc main_v664) = val_main_v664 (F := F) x0 x1 x2 x3 x4 x5 x6 x15 x16 x17 x18 x19 x20 x21 x22)
    (h_v646 : W (Proc.devRef .tc main_v646) = val_main_v646 (F := F) x4)
    (h_v648 : W (Proc.devRef .tc main_v648) = val_main_v648 (F := F) x5)
    (h_v604 : W (Proc.devRef .tc main_v604) = val_main_v604 (F := F) x0 x1 x2 x3 x4 x5 x6 x15 x16 x17 x18 x19 x20 x21 x22)
    (h_v650 : W (Proc.devRef .tc main_v650) = val_main_v650 (F := F) x6)
    (h_v644 : W (Proc.devRef .tc main_v644) = val_main_v644 (F := F) x0 x1 x2 x3 x4 x5 x6 x15 x16 x17 x18 x19 x20 x21 x22)
    (h_v605 : W (Proc.devRef .tc main_v605) = val_main_v605 (F := F) x0 x1 x2 x3 x4 x5 x6 x15 x16 x17 x18 x19 x21) :
    after rw13 W (Proc.devRef .tc main_v722) = val_main_v722 (F := F) x4 := by
  subst h4 h5 h6 h17
  after_results_simp
  try simp only [h_v670, h_v671, h_v664, h_v646, h_v648, h_v604, h_v650, h_v644, h_v605]
  rfl

/-- Window 13 leaves `main_v724` at its stage, given the buffers the window reads at theirs. -/
theorem rd13_v724 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h17 : W (Proc.devRef .tc main_arg17) = x17)
    (h_v670 : W (Proc.devRef .tc main_v670) = val_main_v670 (F := F) x16)
    (h_v671 : W (Proc.devRef .tc main_v671) = val_main_v671 (F := F))
    (h_v664 : W (Proc.devRef .tc main_v664) = val_main_v664 (F := F) x0 x1 x2 x3 x4 x5 x6 x15 x16 x17 x18 x19 x20 x21 x22)
    (h_v646 : W (Proc.devRef .tc main_v646) = val_main_v646 (F := F) x4)
    (h_v648 : W (Proc.devRef .tc main_v648) = val_main_v648 (F := F) x5)
    (h_v604 : W (Proc.devRef .tc main_v604) = val_main_v604 (F := F) x0 x1 x2 x3 x4 x5 x6 x15 x16 x17 x18 x19 x20 x21 x22)
    (h_v650 : W (Proc.devRef .tc main_v650) = val_main_v650 (F := F) x6)
    (h_v644 : W (Proc.devRef .tc main_v644) = val_main_v644 (F := F) x0 x1 x2 x3 x4 x5 x6 x15 x16 x17 x18 x19 x20 x21 x22)
    (h_v605 : W (Proc.devRef .tc main_v605) = val_main_v605 (F := F) x0 x1 x2 x3 x4 x5 x6 x15 x16 x17 x18 x19 x21) :
    after rw13 W (Proc.devRef .tc main_v724) = val_main_v724 (F := F) x5 := by
  subst h4 h5 h6 h17
  after_results_simp
  try simp only [h_v670, h_v671, h_v664, h_v646, h_v648, h_v604, h_v650, h_v644, h_v605]
  rfl

/-- Window 13 leaves `main_v720` at its stage, given the buffers the window reads at theirs. -/
theorem rd13_v720 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h17 : W (Proc.devRef .tc main_arg17) = x17)
    (h_v670 : W (Proc.devRef .tc main_v670) = val_main_v670 (F := F) x16)
    (h_v671 : W (Proc.devRef .tc main_v671) = val_main_v671 (F := F))
    (h_v664 : W (Proc.devRef .tc main_v664) = val_main_v664 (F := F) x0 x1 x2 x3 x4 x5 x6 x15 x16 x17 x18 x19 x20 x21 x22)
    (h_v646 : W (Proc.devRef .tc main_v646) = val_main_v646 (F := F) x4)
    (h_v648 : W (Proc.devRef .tc main_v648) = val_main_v648 (F := F) x5)
    (h_v604 : W (Proc.devRef .tc main_v604) = val_main_v604 (F := F) x0 x1 x2 x3 x4 x5 x6 x15 x16 x17 x18 x19 x20 x21 x22)
    (h_v650 : W (Proc.devRef .tc main_v650) = val_main_v650 (F := F) x6)
    (h_v644 : W (Proc.devRef .tc main_v644) = val_main_v644 (F := F) x0 x1 x2 x3 x4 x5 x6 x15 x16 x17 x18 x19 x20 x21 x22)
    (h_v605 : W (Proc.devRef .tc main_v605) = val_main_v605 (F := F) x0 x1 x2 x3 x4 x5 x6 x15 x16 x17 x18 x19 x21) :
    after rw13 W (Proc.devRef .tc main_v720) = val_main_v720 (F := F) x0 x1 x2 x3 x4 x5 x6 x15 x16 x17 x18 x19 x20 x21 x22 := by
  subst h4 h5 h6 h17
  after_results_simp
  try simp only [h_v670, h_v671, h_v664, h_v646, h_v648, h_v604, h_v650, h_v644, h_v605]
  rfl

end Cert.ReferenceIdeal.Hand
end
-- ==== Proof.Ref.Rd14.lean ====
/-
  Window 14 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 14 leaves `main_v775` at its stage, given the buffers the window reads at theirs. -/
theorem rd14_v775 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v725 : W (Proc.devRef .tc main_v725) = val_main_v725 (F := F) x6)
    (h_v606 : W (Proc.devRef .tc main_v606) = val_main_v606 (F := F) x0 x1 x2 x3 x4 x5 x6 x15 x16 x17 x19 x20 x21)
    (h_v722 : W (Proc.devRef .tc main_v722) = val_main_v722 (F := F) x4)
    (h_v724 : W (Proc.devRef .tc main_v724) = val_main_v724 (F := F) x5)
    (h_v604 : W (Proc.devRef .tc main_v604) = val_main_v604 (F := F) x0 x1 x2 x3 x4 x5 x6 x15 x16 x17 x18 x19 x20 x21 x22)
    (h_v720 : W (Proc.devRef .tc main_v720) = val_main_v720 (F := F) x0 x1 x2 x3 x4 x5 x6 x15 x16 x17 x18 x19 x20 x21 x22)
    (h_v607 : W (Proc.devRef .tc main_v607) = val_main_v607 (F := F) x0 x1 x2 x3 x4 x5 x6 x15 x16 x17 x19 x21 x22) :
    after rw14 W (Proc.devRef .tc main_v775) = val_main_v775 (F := F) x21 := by
  subst h4 h5 h6 h19 h21
  after_results_simp
  try simp only [h_v725, h_v606, h_v722, h_v724, h_v604, h_v720, h_v607]
  rfl

/-- Window 14 leaves `main_v776` at its stage, given the buffers the window reads at theirs. -/
theorem rd14_v776 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v725 : W (Proc.devRef .tc main_v725) = val_main_v725 (F := F) x6)
    (h_v606 : W (Proc.devRef .tc main_v606) = val_main_v606 (F := F) x0 x1 x2 x3 x4 x5 x6 x15 x16 x17 x19 x20 x21)
    (h_v722 : W (Proc.devRef .tc main_v722) = val_main_v722 (F := F) x4)
    (h_v724 : W (Proc.devRef .tc main_v724) = val_main_v724 (F := F) x5)
    (h_v604 : W (Proc.devRef .tc main_v604) = val_main_v604 (F := F) x0 x1 x2 x3 x4 x5 x6 x15 x16 x17 x18 x19 x20 x21 x22)
    (h_v720 : W (Proc.devRef .tc main_v720) = val_main_v720 (F := F) x0 x1 x2 x3 x4 x5 x6 x15 x16 x17 x18 x19 x20 x21 x22)
    (h_v607 : W (Proc.devRef .tc main_v607) = val_main_v607 (F := F) x0 x1 x2 x3 x4 x5 x6 x15 x16 x17 x19 x21 x22) :
    after rw14 W (Proc.devRef .tc main_v776) = val_main_v776 (F := F) := by
  subst h4 h5 h6 h19 h21
  after_results_simp
  try simp only [h_v725, h_v606, h_v722, h_v724, h_v604, h_v720, h_v607]
  rfl

/-- Window 14 leaves `main_v773` at its stage, given the buffers the window reads at theirs. -/
theorem rd14_v773 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v725 : W (Proc.devRef .tc main_v725) = val_main_v725 (F := F) x6)
    (h_v606 : W (Proc.devRef .tc main_v606) = val_main_v606 (F := F) x0 x1 x2 x3 x4 x5 x6 x15 x16 x17 x19 x20 x21)
    (h_v722 : W (Proc.devRef .tc main_v722) = val_main_v722 (F := F) x4)
    (h_v724 : W (Proc.devRef .tc main_v724) = val_main_v724 (F := F) x5)
    (h_v604 : W (Proc.devRef .tc main_v604) = val_main_v604 (F := F) x0 x1 x2 x3 x4 x5 x6 x15 x16 x17 x18 x19 x20 x21 x22)
    (h_v720 : W (Proc.devRef .tc main_v720) = val_main_v720 (F := F) x0 x1 x2 x3 x4 x5 x6 x15 x16 x17 x18 x19 x20 x21 x22)
    (h_v607 : W (Proc.devRef .tc main_v607) = val_main_v607 (F := F) x0 x1 x2 x3 x4 x5 x6 x15 x16 x17 x19 x21 x22) :
    after rw14 W (Proc.devRef .tc main_v773) = val_main_v773 (F := F) x0 x1 x2 x3 x4 x5 x6 x15 x16 x17 x19 x21 x22 := by
  subst h4 h5 h6 h19 h21
  after_results_simp
  try simp only [h_v725, h_v606, h_v722, h_v724, h_v604, h_v720, h_v607]
  rfl

/-- Window 14 leaves `main_v760` at its stage, given the buffers the window reads at theirs. -/
theorem rd14_v760 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v725 : W (Proc.devRef .tc main_v725) = val_main_v725 (F := F) x6)
    (h_v606 : W (Proc.devRef .tc main_v606) = val_main_v606 (F := F) x0 x1 x2 x3 x4 x5 x6 x15 x16 x17 x19 x20 x21)
    (h_v722 : W (Proc.devRef .tc main_v722) = val_main_v722 (F := F) x4)
    (h_v724 : W (Proc.devRef .tc main_v724) = val_main_v724 (F := F) x5)
    (h_v604 : W (Proc.devRef .tc main_v604) = val_main_v604 (F := F) x0 x1 x2 x3 x4 x5 x6 x15 x16 x17 x18 x19 x20 x21 x22)
    (h_v720 : W (Proc.devRef .tc main_v720) = val_main_v720 (F := F) x0 x1 x2 x3 x4 x5 x6 x15 x16 x17 x18 x19 x20 x21 x22)
    (h_v607 : W (Proc.devRef .tc main_v607) = val_main_v607 (F := F) x0 x1 x2 x3 x4 x5 x6 x15 x16 x17 x19 x21 x22) :
    after rw14 W (Proc.devRef .tc main_v760) = val_main_v760 (F := F) x4 := by
  subst h4 h5 h6 h19 h21
  after_results_simp
  try simp only [h_v725, h_v606, h_v722, h_v724, h_v604, h_v720, h_v607]
  rfl

/-- Window 14 leaves `main_v762` at its stage, given the buffers the window reads at theirs. -/
theorem rd14_v762 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v725 : W (Proc.devRef .tc main_v725) = val_main_v725 (F := F) x6)
    (h_v606 : W (Proc.devRef .tc main_v606) = val_main_v606 (F := F) x0 x1 x2 x3 x4 x5 x6 x15 x16 x17 x19 x20 x21)
    (h_v722 : W (Proc.devRef .tc main_v722) = val_main_v722 (F := F) x4)
    (h_v724 : W (Proc.devRef .tc main_v724) = val_main_v724 (F := F) x5)
    (h_v604 : W (Proc.devRef .tc main_v604) = val_main_v604 (F := F) x0 x1 x2 x3 x4 x5 x6 x15 x16 x17 x18 x19 x20 x21 x22)
    (h_v720 : W (Proc.devRef .tc main_v720) = val_main_v720 (F := F) x0 x1 x2 x3 x4 x5 x6 x15 x16 x17 x18 x19 x20 x21 x22)
    (h_v607 : W (Proc.devRef .tc main_v607) = val_main_v607 (F := F) x0 x1 x2 x3 x4 x5 x6 x15 x16 x17 x19 x21 x22) :
    after rw14 W (Proc.devRef .tc main_v762) = val_main_v762 (F := F) x5 := by
  subst h4 h5 h6 h19 h21
  after_results_simp
  try simp only [h_v725, h_v606, h_v722, h_v724, h_v604, h_v720, h_v607]
  rfl

/-- Window 14 leaves `main_v764` at its stage, given the buffers the window reads at theirs. -/
theorem rd14_v764 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v725 : W (Proc.devRef .tc main_v725) = val_main_v725 (F := F) x6)
    (h_v606 : W (Proc.devRef .tc main_v606) = val_main_v606 (F := F) x0 x1 x2 x3 x4 x5 x6 x15 x16 x17 x19 x20 x21)
    (h_v722 : W (Proc.devRef .tc main_v722) = val_main_v722 (F := F) x4)
    (h_v724 : W (Proc.devRef .tc main_v724) = val_main_v724 (F := F) x5)
    (h_v604 : W (Proc.devRef .tc main_v604) = val_main_v604 (F := F) x0 x1 x2 x3 x4 x5 x6 x15 x16 x17 x18 x19 x20 x21 x22)
    (h_v720 : W (Proc.devRef .tc main_v720) = val_main_v720 (F := F) x0 x1 x2 x3 x4 x5 x6 x15 x16 x17 x18 x19 x20 x21 x22)
    (h_v607 : W (Proc.devRef .tc main_v607) = val_main_v607 (F := F) x0 x1 x2 x3 x4 x5 x6 x15 x16 x17 x19 x21 x22) :
    after rw14 W (Proc.devRef .tc main_v764) = val_main_v764 (F := F) x6 := by
  subst h4 h5 h6 h19 h21
  after_results_simp
  try simp only [h_v725, h_v606, h_v722, h_v724, h_v604, h_v720, h_v607]
  rfl

/-- Window 14 leaves `main_v758` at its stage, given the buffers the window reads at theirs. -/
theorem rd14_v758 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h19 : W (Proc.devRef .tc main_arg19) = x19)
    (h21 : W (Proc.devRef .tc main_arg21) = x21)
    (h_v725 : W (Proc.devRef .tc main_v725) = val_main_v725 (F := F) x6)
    (h_v606 : W (Proc.devRef .tc main_v606) = val_main_v606 (F := F) x0 x1 x2 x3 x4 x5 x6 x15 x16 x17 x19 x20 x21)
    (h_v722 : W (Proc.devRef .tc main_v722) = val_main_v722 (F := F) x4)
    (h_v724 : W (Proc.devRef .tc main_v724) = val_main_v724 (F := F) x5)
    (h_v604 : W (Proc.devRef .tc main_v604) = val_main_v604 (F := F) x0 x1 x2 x3 x4 x5 x6 x15 x16 x17 x18 x19 x20 x21 x22)
    (h_v720 : W (Proc.devRef .tc main_v720) = val_main_v720 (F := F) x0 x1 x2 x3 x4 x5 x6 x15 x16 x17 x18 x19 x20 x21 x22)
    (h_v607 : W (Proc.devRef .tc main_v607) = val_main_v607 (F := F) x0 x1 x2 x3 x4 x5 x6 x15 x16 x17 x19 x21 x22) :
    after rw14 W (Proc.devRef .tc main_v758) = val_main_v758 (F := F) x0 x1 x2 x3 x4 x5 x6 x15 x16 x17 x18 x19 x20 x21 x22 := by
  subst h4 h5 h6 h19 h21
  after_results_simp
  try simp only [h_v725, h_v606, h_v722, h_v724, h_v604, h_v720, h_v607]
  rfl

end Cert.ReferenceIdeal.Hand
end
-- ==== Proof.Ref.Rd15.lean ====
/-
  Window 15 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 15 leaves `main_v827` at its stage, given the buffers the window reads at theirs. -/
theorem rd15_v827 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v775 : W (Proc.devRef .tc main_v775) = val_main_v775 (F := F) x21)
    (h_v776 : W (Proc.devRef .tc main_v776) = val_main_v776 (F := F))
    (h_v773 : W (Proc.devRef .tc main_v773) = val_main_v773 (F := F) x0 x1 x2 x3 x4 x5 x6 x15 x16 x17 x19 x21 x22)
    (h_v760 : W (Proc.devRef .tc main_v760) = val_main_v760 (F := F) x4)
    (h_v762 : W (Proc.devRef .tc main_v762) = val_main_v762 (F := F) x5)
    (h_v604 : W (Proc.devRef .tc main_v604) = val_main_v604 (F := F) x0 x1 x2 x3 x4 x5 x6 x15 x16 x17 x18 x19 x20 x21 x22)
    (h_v764 : W (Proc.devRef .tc main_v764) = val_main_v764 (F := F) x6)
    (h_v758 : W (Proc.devRef .tc main_v758) = val_main_v758 (F := F) x0 x1 x2 x3 x4 x5 x6 x15 x16 x17 x18 x19 x20 x21 x22) :
    after rw15 W (Proc.devRef .tc main_v827) = val_main_v827 (F := F) x0 x1 x2 x3 x4 x5 x6 x15 x16 x17 x18 x19 x20 x21 x22 := by
  subst h4 h5 h6 h18 h21
  after_results_simp
  try simp only [h_v775, h_v776, h_v773, h_v760, h_v762, h_v604, h_v764, h_v758]
  rfl

/-- Window 15 leaves `main_v798` at its stage, given the buffers the window reads at theirs. -/
theorem rd15_v798 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v775 : W (Proc.devRef .tc main_v775) = val_main_v775 (F := F) x21)
    (h_v776 : W (Proc.devRef .tc main_v776) = val_main_v776 (F := F))
    (h_v773 : W (Proc.devRef .tc main_v773) = val_main_v773 (F := F) x0 x1 x2 x3 x4 x5 x6 x15 x16 x17 x19 x21 x22)
    (h_v760 : W (Proc.devRef .tc main_v760) = val_main_v760 (F := F) x4)
    (h_v762 : W (Proc.devRef .tc main_v762) = val_main_v762 (F := F) x5)
    (h_v604 : W (Proc.devRef .tc main_v604) = val_main_v604 (F := F) x0 x1 x2 x3 x4 x5 x6 x15 x16 x17 x18 x19 x20 x21 x22)
    (h_v764 : W (Proc.devRef .tc main_v764) = val_main_v764 (F := F) x6)
    (h_v758 : W (Proc.devRef .tc main_v758) = val_main_v758 (F := F) x0 x1 x2 x3 x4 x5 x6 x15 x16 x17 x18 x19 x20 x21 x22) :
    after rw15 W (Proc.devRef .tc main_v798) = val_main_v798 (F := F) x4 := by
  subst h4 h5 h6 h18 h21
  after_results_simp
  try simp only [h_v775, h_v776, h_v773, h_v760, h_v762, h_v604, h_v764, h_v758]
  rfl

/-- Window 15 leaves `main_v800` at its stage, given the buffers the window reads at theirs. -/
theorem rd15_v800 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v775 : W (Proc.devRef .tc main_v775) = val_main_v775 (F := F) x21)
    (h_v776 : W (Proc.devRef .tc main_v776) = val_main_v776 (F := F))
    (h_v773 : W (Proc.devRef .tc main_v773) = val_main_v773 (F := F) x0 x1 x2 x3 x4 x5 x6 x15 x16 x17 x19 x21 x22)
    (h_v760 : W (Proc.devRef .tc main_v760) = val_main_v760 (F := F) x4)
    (h_v762 : W (Proc.devRef .tc main_v762) = val_main_v762 (F := F) x5)
    (h_v604 : W (Proc.devRef .tc main_v604) = val_main_v604 (F := F) x0 x1 x2 x3 x4 x5 x6 x15 x16 x17 x18 x19 x20 x21 x22)
    (h_v764 : W (Proc.devRef .tc main_v764) = val_main_v764 (F := F) x6)
    (h_v758 : W (Proc.devRef .tc main_v758) = val_main_v758 (F := F) x0 x1 x2 x3 x4 x5 x6 x15 x16 x17 x18 x19 x20 x21 x22) :
    after rw15 W (Proc.devRef .tc main_v800) = val_main_v800 (F := F) x5 := by
  subst h4 h5 h6 h18 h21
  after_results_simp
  try simp only [h_v775, h_v776, h_v773, h_v760, h_v762, h_v604, h_v764, h_v758]
  rfl

/-- Window 15 leaves `main_v802` at its stage, given the buffers the window reads at theirs. -/
theorem rd15_v802 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v775 : W (Proc.devRef .tc main_v775) = val_main_v775 (F := F) x21)
    (h_v776 : W (Proc.devRef .tc main_v776) = val_main_v776 (F := F))
    (h_v773 : W (Proc.devRef .tc main_v773) = val_main_v773 (F := F) x0 x1 x2 x3 x4 x5 x6 x15 x16 x17 x19 x21 x22)
    (h_v760 : W (Proc.devRef .tc main_v760) = val_main_v760 (F := F) x4)
    (h_v762 : W (Proc.devRef .tc main_v762) = val_main_v762 (F := F) x5)
    (h_v604 : W (Proc.devRef .tc main_v604) = val_main_v604 (F := F) x0 x1 x2 x3 x4 x5 x6 x15 x16 x17 x18 x19 x20 x21 x22)
    (h_v764 : W (Proc.devRef .tc main_v764) = val_main_v764 (F := F) x6)
    (h_v758 : W (Proc.devRef .tc main_v758) = val_main_v758 (F := F) x0 x1 x2 x3 x4 x5 x6 x15 x16 x17 x18 x19 x20 x21 x22) :
    after rw15 W (Proc.devRef .tc main_v802) = val_main_v802 (F := F) x6 := by
  subst h4 h5 h6 h18 h21
  after_results_simp
  try simp only [h_v775, h_v776, h_v773, h_v760, h_v762, h_v604, h_v764, h_v758]
  rfl

/-- Window 15 leaves `main_v796` at its stage, given the buffers the window reads at theirs. -/
theorem rd15_v796 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h18 : W (Proc.devRef .tc main_arg18) = x18)
    (h21 : W (Proc.devRef .tc main_arg21) = x21)
    (h_v775 : W (Proc.devRef .tc main_v775) = val_main_v775 (F := F) x21)
    (h_v776 : W (Proc.devRef .tc main_v776) = val_main_v776 (F := F))
    (h_v773 : W (Proc.devRef .tc main_v773) = val_main_v773 (F := F) x0 x1 x2 x3 x4 x5 x6 x15 x16 x17 x19 x21 x22)
    (h_v760 : W (Proc.devRef .tc main_v760) = val_main_v760 (F := F) x4)
    (h_v762 : W (Proc.devRef .tc main_v762) = val_main_v762 (F := F) x5)
    (h_v604 : W (Proc.devRef .tc main_v604) = val_main_v604 (F := F) x0 x1 x2 x3 x4 x5 x6 x15 x16 x17 x18 x19 x20 x21 x22)
    (h_v764 : W (Proc.devRef .tc main_v764) = val_main_v764 (F := F) x6)
    (h_v758 : W (Proc.devRef .tc main_v758) = val_main_v758 (F := F) x0 x1 x2 x3 x4 x5 x6 x15 x16 x17 x18 x19 x20 x21 x22) :
    after rw15 W (Proc.devRef .tc main_v796) = val_main_v796 (F := F) x0 x1 x2 x3 x4 x5 x6 x15 x16 x17 x18 x19 x20 x21 x22 := by
  subst h4 h5 h6 h18 h21
  after_results_simp
  try simp only [h_v775, h_v776, h_v773, h_v760, h_v762, h_v604, h_v764, h_v758]
  rfl

end Cert.ReferenceIdeal.Hand
end
-- ==== Proof.Ref.Rd16.lean ====
/-
  Window 16 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 16 leaves `main_v878` at its stage, given the buffers the window reads at theirs. -/
theorem rd16_v878 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h22 : W (Proc.devRef .tc main_arg22) = x22)
    (h_v827 : W (Proc.devRef .tc main_v827) = val_main_v827 (F := F) x0 x1 x2 x3 x4 x5 x6 x15 x16 x17 x18 x19 x20 x21 x22)
    (h_v798 : W (Proc.devRef .tc main_v798) = val_main_v798 (F := F) x4)
    (h_v800 : W (Proc.devRef .tc main_v800) = val_main_v800 (F := F) x5)
    (h_v605 : W (Proc.devRef .tc main_v605) = val_main_v605 (F := F) x0 x1 x2 x3 x4 x5 x6 x15 x16 x17 x18 x19 x21)
    (h_v802 : W (Proc.devRef .tc main_v802) = val_main_v802 (F := F) x6)
    (h_v604 : W (Proc.devRef .tc main_v604) = val_main_v604 (F := F) x0 x1 x2 x3 x4 x5 x6 x15 x16 x17 x18 x19 x20 x21 x22)
    (h_v606 : W (Proc.devRef .tc main_v606) = val_main_v606 (F := F) x0 x1 x2 x3 x4 x5 x6 x15 x16 x17 x19 x20 x21) :
    after rw16 W (Proc.devRef .tc main_v878) = val_main_v878 (F := F) x22 := by
  subst h4 h5 h6 h20 h22
  after_results_simp
  try simp only [h_v827, h_v798, h_v800, h_v605, h_v802, h_v604, h_v606]
  rfl

/-- Window 16 leaves `main_v880` at its stage, given the buffers the window reads at theirs. -/
theorem rd16_v880 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h22 : W (Proc.devRef .tc main_arg22) = x22)
    (h_v827 : W (Proc.devRef .tc main_v827) = val_main_v827 (F := F) x0 x1 x2 x3 x4 x5 x6 x15 x16 x17 x18 x19 x20 x21 x22)
    (h_v798 : W (Proc.devRef .tc main_v798) = val_main_v798 (F := F) x4)
    (h_v800 : W (Proc.devRef .tc main_v800) = val_main_v800 (F := F) x5)
    (h_v605 : W (Proc.devRef .tc main_v605) = val_main_v605 (F := F) x0 x1 x2 x3 x4 x5 x6 x15 x16 x17 x18 x19 x21)
    (h_v802 : W (Proc.devRef .tc main_v802) = val_main_v802 (F := F) x6)
    (h_v604 : W (Proc.devRef .tc main_v604) = val_main_v604 (F := F) x0 x1 x2 x3 x4 x5 x6 x15 x16 x17 x18 x19 x20 x21 x22)
    (h_v606 : W (Proc.devRef .tc main_v606) = val_main_v606 (F := F) x0 x1 x2 x3 x4 x5 x6 x15 x16 x17 x19 x20 x21) :
    after rw16 W (Proc.devRef .tc main_v880) = val_main_v880 (F := F) x22 := by
  subst h4 h5 h6 h20 h22
  after_results_simp
  try simp only [h_v827, h_v798, h_v800, h_v605, h_v802, h_v604, h_v606]
  rfl

/-- Window 16 leaves `main_v872` at its stage, given the buffers the window reads at theirs. -/
theorem rd16_v872 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h22 : W (Proc.devRef .tc main_arg22) = x22)
    (h_v827 : W (Proc.devRef .tc main_v827) = val_main_v827 (F := F) x0 x1 x2 x3 x4 x5 x6 x15 x16 x17 x18 x19 x20 x21 x22)
    (h_v798 : W (Proc.devRef .tc main_v798) = val_main_v798 (F := F) x4)
    (h_v800 : W (Proc.devRef .tc main_v800) = val_main_v800 (F := F) x5)
    (h_v605 : W (Proc.devRef .tc main_v605) = val_main_v605 (F := F) x0 x1 x2 x3 x4 x5 x6 x15 x16 x17 x18 x19 x21)
    (h_v802 : W (Proc.devRef .tc main_v802) = val_main_v802 (F := F) x6)
    (h_v604 : W (Proc.devRef .tc main_v604) = val_main_v604 (F := F) x0 x1 x2 x3 x4 x5 x6 x15 x16 x17 x18 x19 x20 x21 x22)
    (h_v606 : W (Proc.devRef .tc main_v606) = val_main_v606 (F := F) x0 x1 x2 x3 x4 x5 x6 x15 x16 x17 x19 x20 x21) :
    after rw16 W (Proc.devRef .tc main_v872) = val_main_v872 (F := F) x4 := by
  subst h4 h5 h6 h20 h22
  after_results_simp
  try simp only [h_v827, h_v798, h_v800, h_v605, h_v802, h_v604, h_v606]
  rfl

/-- Window 16 leaves `main_v874` at its stage, given the buffers the window reads at theirs. -/
theorem rd16_v874 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h22 : W (Proc.devRef .tc main_arg22) = x22)
    (h_v827 : W (Proc.devRef .tc main_v827) = val_main_v827 (F := F) x0 x1 x2 x3 x4 x5 x6 x15 x16 x17 x18 x19 x20 x21 x22)
    (h_v798 : W (Proc.devRef .tc main_v798) = val_main_v798 (F := F) x4)
    (h_v800 : W (Proc.devRef .tc main_v800) = val_main_v800 (F := F) x5)
    (h_v605 : W (Proc.devRef .tc main_v605) = val_main_v605 (F := F) x0 x1 x2 x3 x4 x5 x6 x15 x16 x17 x18 x19 x21)
    (h_v802 : W (Proc.devRef .tc main_v802) = val_main_v802 (F := F) x6)
    (h_v604 : W (Proc.devRef .tc main_v604) = val_main_v604 (F := F) x0 x1 x2 x3 x4 x5 x6 x15 x16 x17 x18 x19 x20 x21 x22)
    (h_v606 : W (Proc.devRef .tc main_v606) = val_main_v606 (F := F) x0 x1 x2 x3 x4 x5 x6 x15 x16 x17 x19 x20 x21) :
    after rw16 W (Proc.devRef .tc main_v874) = val_main_v874 (F := F) x5 := by
  subst h4 h5 h6 h20 h22
  after_results_simp
  try simp only [h_v827, h_v798, h_v800, h_v605, h_v802, h_v604, h_v606]
  rfl

/-- Window 16 leaves `main_v876` at its stage, given the buffers the window reads at theirs. -/
theorem rd16_v876 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h22 : W (Proc.devRef .tc main_arg22) = x22)
    (h_v827 : W (Proc.devRef .tc main_v827) = val_main_v827 (F := F) x0 x1 x2 x3 x4 x5 x6 x15 x16 x17 x18 x19 x20 x21 x22)
    (h_v798 : W (Proc.devRef .tc main_v798) = val_main_v798 (F := F) x4)
    (h_v800 : W (Proc.devRef .tc main_v800) = val_main_v800 (F := F) x5)
    (h_v605 : W (Proc.devRef .tc main_v605) = val_main_v605 (F := F) x0 x1 x2 x3 x4 x5 x6 x15 x16 x17 x18 x19 x21)
    (h_v802 : W (Proc.devRef .tc main_v802) = val_main_v802 (F := F) x6)
    (h_v604 : W (Proc.devRef .tc main_v604) = val_main_v604 (F := F) x0 x1 x2 x3 x4 x5 x6 x15 x16 x17 x18 x19 x20 x21 x22)
    (h_v606 : W (Proc.devRef .tc main_v606) = val_main_v606 (F := F) x0 x1 x2 x3 x4 x5 x6 x15 x16 x17 x19 x20 x21) :
    after rw16 W (Proc.devRef .tc main_v876) = val_main_v876 (F := F) x6 := by
  subst h4 h5 h6 h20 h22
  after_results_simp
  try simp only [h_v827, h_v798, h_v800, h_v605, h_v802, h_v604, h_v606]
  rfl

/-- Window 16 leaves `main_v833` at its stage, given the buffers the window reads at theirs. -/
theorem rd16_v833 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h22 : W (Proc.devRef .tc main_arg22) = x22)
    (h_v827 : W (Proc.devRef .tc main_v827) = val_main_v827 (F := F) x0 x1 x2 x3 x4 x5 x6 x15 x16 x17 x18 x19 x20 x21 x22)
    (h_v798 : W (Proc.devRef .tc main_v798) = val_main_v798 (F := F) x4)
    (h_v800 : W (Proc.devRef .tc main_v800) = val_main_v800 (F := F) x5)
    (h_v605 : W (Proc.devRef .tc main_v605) = val_main_v605 (F := F) x0 x1 x2 x3 x4 x5 x6 x15 x16 x17 x18 x19 x21)
    (h_v802 : W (Proc.devRef .tc main_v802) = val_main_v802 (F := F) x6)
    (h_v604 : W (Proc.devRef .tc main_v604) = val_main_v604 (F := F) x0 x1 x2 x3 x4 x5 x6 x15 x16 x17 x18 x19 x20 x21 x22)
    (h_v606 : W (Proc.devRef .tc main_v606) = val_main_v606 (F := F) x0 x1 x2 x3 x4 x5 x6 x15 x16 x17 x19 x20 x21) :
    after rw16 W (Proc.devRef .tc main_v833) = val_main_v833 (F := F) x0 x1 x2 x3 x4 x5 x6 x15 x16 x17 x18 x19 x20 x21 x22 := by
  subst h4 h5 h6 h20 h22
  after_results_simp
  try simp only [h_v827, h_v798, h_v800, h_v605, h_v802, h_v604, h_v606]
  rfl

/-- Window 16 leaves `main_v870` at its stage, given the buffers the window reads at theirs. -/
theorem rd16_v870 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h4 : W (Proc.devRef .tc main_arg4) = x4)
    (h5 : W (Proc.devRef .tc main_arg5) = x5)
    (h6 : W (Proc.devRef .tc main_arg6) = x6)
    (h20 : W (Proc.devRef .tc main_arg20) = x20)
    (h22 : W (Proc.devRef .tc main_arg22) = x22)
    (h_v827 : W (Proc.devRef .tc main_v827) = val_main_v827 (F := F) x0 x1 x2 x3 x4 x5 x6 x15 x16 x17 x18 x19 x20 x21 x22)
    (h_v798 : W (Proc.devRef .tc main_v798) = val_main_v798 (F := F) x4)
    (h_v800 : W (Proc.devRef .tc main_v800) = val_main_v800 (F := F) x5)
    (h_v605 : W (Proc.devRef .tc main_v605) = val_main_v605 (F := F) x0 x1 x2 x3 x4 x5 x6 x15 x16 x17 x18 x19 x21)
    (h_v802 : W (Proc.devRef .tc main_v802) = val_main_v802 (F := F) x6)
    (h_v604 : W (Proc.devRef .tc main_v604) = val_main_v604 (F := F) x0 x1 x2 x3 x4 x5 x6 x15 x16 x17 x18 x19 x20 x21 x22)
    (h_v606 : W (Proc.devRef .tc main_v606) = val_main_v606 (F := F) x0 x1 x2 x3 x4 x5 x6 x15 x16 x17 x19 x20 x21) :
    after rw16 W (Proc.devRef .tc main_v870) = val_main_v870 (F := F) x0 x1 x2 x3 x4 x5 x6 x15 x16 x17 x18 x19 x20 x21 x22 := by
  subst h4 h5 h6 h20 h22
  after_results_simp
  try simp only [h_v827, h_v798, h_v800, h_v605, h_v802, h_v604, h_v606]
  rfl

end Cert.ReferenceIdeal.Hand
end
-- ==== Proof.Ref.Rd17.lean ====
/-
  Window 17 of the reference's @main, read: every buffer it writes that a later window reads (or that is a result)
  holds its stage — the operation's value as a function of @main's arguments — once the buffers the window itself
  reads from earlier windows hold theirs and the arguments it reads are the given arrays.
-/
import proofs.«125545_j64845416235624_1_alg».proof.Proof.Ref.Ops
import proofs.«125545_j64845416235624_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Window 17 leaves `main_v920` at its stage, given the buffers the window reads at theirs. -/
theorem rd17_v920 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x7 : (⟨S128x128, .f32⟩ : BufTy).Contents (Elt F)) (x8 : (⟨S128, .f32⟩ : BufTy).Contents (Elt F)) (x9 : (⟨S128x2, .f32⟩ : BufTy).Contents (Elt F)) (x10 : (⟨S2, .f32⟩ : BufTy).Contents (Elt F)) (x11 : (⟨S128x128, .f32⟩ : BufTy).Contents (Elt F)) (x12 : (⟨S128, .f32⟩ : BufTy).Contents (Elt F)) (x13 : (⟨S128x2, .f32⟩ : BufTy).Contents (Elt F)) (x14 : (⟨S2, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h7 : W (Proc.devRef .tc main_arg7) = x7)
    (h8 : W (Proc.devRef .tc main_arg8) = x8)
    (h9 : W (Proc.devRef .tc main_arg9) = x9)
    (h10 : W (Proc.devRef .tc main_arg10) = x10)
    (h11 : W (Proc.devRef .tc main_arg11) = x11)
    (h12 : W (Proc.devRef .tc main_arg12) = x12)
    (h13 : W (Proc.devRef .tc main_arg13) = x13)
    (h14 : W (Proc.devRef .tc main_arg14) = x14)
    (h22 : W (Proc.devRef .tc main_arg22) = x22)
    (h_v878 : W (Proc.devRef .tc main_v878) = val_main_v878 (F := F) x22)
    (h_v880 : W (Proc.devRef .tc main_v880) = val_main_v880 (F := F) x22)
    (h_v604 : W (Proc.devRef .tc main_v604) = val_main_v604 (F := F) x0 x1 x2 x3 x4 x5 x6 x15 x16 x17 x18 x19 x20 x21 x22)
    (h_v872 : W (Proc.devRef .tc main_v872) = val_main_v872 (F := F) x4)
    (h_v874 : W (Proc.devRef .tc main_v874) = val_main_v874 (F := F) x5)
    (h_v607 : W (Proc.devRef .tc main_v607) = val_main_v607 (F := F) x0 x1 x2 x3 x4 x5 x6 x15 x16 x17 x19 x21 x22)
    (h_v876 : W (Proc.devRef .tc main_v876) = val_main_v876 (F := F) x6)
    (h_v796 : W (Proc.devRef .tc main_v796) = val_main_v796 (F := F) x0 x1 x2 x3 x4 x5 x6 x15 x16 x17 x18 x19 x20 x21 x22)
    (h_v833 : W (Proc.devRef .tc main_v833) = val_main_v833 (F := F) x0 x1 x2 x3 x4 x5 x6 x15 x16 x17 x18 x19 x20 x21 x22)
    (h_v870 : W (Proc.devRef .tc main_v870) = val_main_v870 (F := F) x0 x1 x2 x3 x4 x5 x6 x15 x16 x17 x18 x19 x20 x21 x22) :
    after rw17 W (Proc.devRef .tc main_v920) = val_main_v920 (F := F) x0 x1 x2 x3 x4 x5 x6 x7 x8 x9 x10 x15 x16 x17 x18 x19 x20 x21 x22 := by
  subst h7 h8 h9 h10 h11 h12 h13 h14 h22
  after_results_simp
  try simp only [h_v878, h_v880, h_v604, h_v872, h_v874, h_v607, h_v876, h_v796, h_v833, h_v870]
  rfl

/-- Window 17 leaves `main_v929` at its stage, given the buffers the window reads at theirs. -/
theorem rd17_v929 (W : Valuation τ sig (Elt F)) (x0 : (⟨S100000x128, .f32⟩ : BufTy).Contents (Elt F)) (x1 : (⟨S20000x128, .f32⟩ : BufTy).Contents (Elt F)) (x2 : (⟨S50000x128, .f32⟩ : BufTy).Contents (Elt F)) (x3 : (⟨S5000x128, .f32⟩ : BufTy).Contents (Elt F)) (x4 : (⟨S3x8x128x128, .f32⟩ : BufTy).Contents (Elt F)) (x5 : (⟨S3x8x128, .f32⟩ : BufTy).Contents (Elt F)) (x6 : (⟨S3x8x128x128, .f32⟩ : BufTy).Contents (Elt F)) (x7 : (⟨S128x128, .f32⟩ : BufTy).Contents (Elt F)) (x8 : (⟨S128, .f32⟩ : BufTy).Contents (Elt F)) (x9 : (⟨S128x2, .f32⟩ : BufTy).Contents (Elt F)) (x10 : (⟨S2, .f32⟩ : BufTy).Contents (Elt F)) (x11 : (⟨S128x128, .f32⟩ : BufTy).Contents (Elt F)) (x12 : (⟨S128, .f32⟩ : BufTy).Contents (Elt F)) (x13 : (⟨S128x2, .f32⟩ : BufTy).Contents (Elt F)) (x14 : (⟨S2, .f32⟩ : BufTy).Contents (Elt F)) (x15 : (⟨S2x500000, .i32⟩ : BufTy).Contents (Elt F)) (x16 : (⟨S2x100000, .i32⟩ : BufTy).Contents (Elt F)) (x17 : (⟨S2x20000, .i32⟩ : BufTy).Contents (Elt F)) (x18 : (⟨S2x20000, .i32⟩ : BufTy).Contents (Elt F)) (x19 : (⟨S2x50000, .i32⟩ : BufTy).Contents (Elt F)) (x20 : (⟨S2x50000, .i32⟩ : BufTy).Contents (Elt F)) (x21 : (⟨S2x5000, .i32⟩ : BufTy).Contents (Elt F)) (x22 : (⟨S2x5000, .i32⟩ : BufTy).Contents (Elt F))
    (h7 : W (Proc.devRef .tc main_arg7) = x7)
    (h8 : W (Proc.devRef .tc main_arg8) = x8)
    (h9 : W (Proc.devRef .tc main_arg9) = x9)
    (h10 : W (Proc.devRef .tc main_arg10) = x10)
    (h11 : W (Proc.devRef .tc main_arg11) = x11)
    (h12 : W (Proc.devRef .tc main_arg12) = x12)
    (h13 : W (Proc.devRef .tc main_arg13) = x13)
    (h14 : W (Proc.devRef .tc main_arg14) = x14)
    (h22 : W (Proc.devRef .tc main_arg22) = x22)
    (h_v878 : W (Proc.devRef .tc main_v878) = val_main_v878 (F := F) x22)
    (h_v880 : W (Proc.devRef .tc main_v880) = val_main_v880 (F := F) x22)
    (h_v604 : W (Proc.devRef .tc main_v604) = val_main_v604 (F := F) x0 x1 x2 x3 x4 x5 x6 x15 x16 x17 x18 x19 x20 x21 x22)
    (h_v872 : W (Proc.devRef .tc main_v872) = val_main_v872 (F := F) x4)
    (h_v874 : W (Proc.devRef .tc main_v874) = val_main_v874 (F := F) x5)
    (h_v607 : W (Proc.devRef .tc main_v607) = val_main_v607 (F := F) x0 x1 x2 x3 x4 x5 x6 x15 x16 x17 x19 x21 x22)
    (h_v876 : W (Proc.devRef .tc main_v876) = val_main_v876 (F := F) x6)
    (h_v796 : W (Proc.devRef .tc main_v796) = val_main_v796 (F := F) x0 x1 x2 x3 x4 x5 x6 x15 x16 x17 x18 x19 x20 x21 x22)
    (h_v833 : W (Proc.devRef .tc main_v833) = val_main_v833 (F := F) x0 x1 x2 x3 x4 x5 x6 x15 x16 x17 x18 x19 x20 x21 x22)
    (h_v870 : W (Proc.devRef .tc main_v870) = val_main_v870 (F := F) x0 x1 x2 x3 x4 x5 x6 x15 x16 x17 x18 x19 x20 x21 x22) :
    after rw17 W (Proc.devRef .tc main_v929) = val_main_v929 (F := F) x0 x1 x2 x3 x4 x5 x6 x11 x12 x13 x14 x15 x16 x17 x18 x19 x20 x21 x22 := by
  subst h7 h8 h9 h10 h11 h12 h13 h14 h22
  after_results_simp
  try simp only [h_v878, h_v880, h_v604, h_v872, h_v874, h_v607, h_v876, h_v796, h_v833, h_v870]
  rfl

end Cert.ReferenceIdeal.Hand
end
-- ==== Proof.Ref.Res.lean ====
/-
  The reference's two results after @main, as stages of the arguments at launch: the contents after each window
  in turn, the arguments unchanged through every window, every buffer live at a window's end at its stage (by the
  window's reading if written there, kept otherwise), and the two result buffers at the end.
-/
import proofs.«125545_j64845416235624_1_alg».proof.Proof.Ref.Rd0
import proofs.«125545_j64845416235624_1_alg».proof.Proof.Ref.Rd1
import proofs.«125545_j64845416235624_1_alg».proof.Proof.Ref.Rd2
import proofs.«125545_j64845416235624_1_alg».proof.Proof.Ref.Rd3
import proofs.«125545_j64845416235624_1_alg».proof.Proof.Ref.Rd4
import proofs.«125545_j64845416235624_1_alg».proof.Proof.Ref.Rd5
import proofs.«125545_j64845416235624_1_alg».proof.Proof.Ref.Rd6
import proofs.«125545_j64845416235624_1_alg».proof.Proof.Ref.Rd7
import proofs.«125545_j64845416235624_1_alg».proof.Proof.Ref.Rd8
import proofs.«125545_j64845416235624_1_alg».proof.Proof.Ref.Rd9
import proofs.«125545_j64845416235624_1_alg».proof.Proof.Ref.Rd10
import proofs.«125545_j64845416235624_1_alg».proof.Proof.Ref.Rd11
import proofs.«125545_j64845416235624_1_alg».proof.Proof.Ref.Rd12
import proofs.«125545_j64845416235624_1_alg».proof.Proof.Ref.Rd13
import proofs.«125545_j64845416235624_1_alg».proof.Proof.Ref.Rd14
import proofs.«125545_j64845416235624_1_alg».proof.Proof.Ref.Rd15
import proofs.«125545_j64845416235624_1_alg».proof.Proof.Ref.Rd16
import proofs.«125545_j64845416235624_1_alg».proof.Proof.Ref.Rd17
import proofs.«125545_j64845416235624_1_alg».proof.Proof.Ref.Keep

set_option maxRecDepth 8192

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

private theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The contents after the first k windows -/

/-- The contents after window 0. -/
def W1 (V : Valuation τ sig (Elt F)) : Valuation τ sig (Elt F) := after rw0 V
/-- The contents after windows 0 … 1. -/
def W2 (V : Valuation τ sig (Elt F)) : Valuation τ sig (Elt F) := after rw1 (W1 V)
/-- The contents after windows 0 … 2. -/
def W3 (V : Valuation τ sig (Elt F)) : Valuation τ sig (Elt F) := after rw2 (W2 V)
/-- The contents after windows 0 … 3. -/
def W4 (V : Valuation τ sig (Elt F)) : Valuation τ sig (Elt F) := after rw3 (W3 V)
/-- The contents after windows 0 … 4. -/
def W5 (V : Valuation τ sig (Elt F)) : Valuation τ sig (Elt F) := after rw4 (W4 V)
/-- The contents after windows 0 … 5. -/
def W6 (V : Valuation τ sig (Elt F)) : Valuation τ sig (Elt F) := after rw5 (W5 V)
/-- The contents after windows 0 … 6. -/
def W7 (V : Valuation τ sig (Elt F)) : Valuation τ sig (Elt F) := after rw6 (W6 V)
/-- The contents after windows 0 … 7. -/
def W8 (V : Valuation τ sig (Elt F)) : Valuation τ sig (Elt F) := after rw7 (W7 V)
/-- The contents after windows 0 … 8. -/
def W9 (V : Valuation τ sig (Elt F)) : Valuation τ sig (Elt F) := after rw8 (W8 V)
/-- The contents after windows 0 … 9. -/
def W10 (V : Valuation τ sig (Elt F)) : Valuation τ sig (Elt F) := after rw9 (W9 V)
/-- The contents after windows 0 … 10. -/
def W11 (V : Valuation τ sig (Elt F)) : Valuation τ sig (Elt F) := after rw10 (W10 V)
/-- The contents after windows 0 … 11. -/
def W12 (V : Valuation τ sig (Elt F)) : Valuation τ sig (Elt F) := after rw11 (W11 V)
/-- The contents after windows 0 … 12. -/
def W13 (V : Valuation τ sig (Elt F)) : Valuation τ sig (Elt F) := after rw12 (W12 V)
/-- The contents after windows 0 … 13. -/
def W14 (V : Valuation τ sig (Elt F)) : Valuation τ sig (Elt F) := after rw13 (W13 V)
/-- The contents after windows 0 … 14. -/
def W15 (V : Valuation τ sig (Elt F)) : Valuation τ sig (Elt F) := after rw14 (W14 V)
/-- The contents after windows 0 … 15. -/
def W16 (V : Valuation τ sig (Elt F)) : Valuation τ sig (Elt F) := after rw15 (W15 V)
/-- The contents after windows 0 … 16. -/
def W17 (V : Valuation τ sig (Elt F)) : Valuation τ sig (Elt F) := after rw16 (W16 V)
/-- The contents after windows 0 … 17. -/
def W18 (V : Valuation τ sig (Elt F)) : Valuation τ sig (Elt F) := after rw17 (W17 V)

/-- The whole of @main is the eighteen windows in turn. -/
theorem after_rops (V : Valuation τ sig (Elt F)) : after rops V = W18 V :=
  (after_app rw0 _ V).trans ((after_app rw1 _ (W1 V)).trans ((after_app rw2 _ (W2 V)).trans ((after_app rw3 _ (W3 V)).trans ((after_app rw4 _ (W4 V)).trans ((after_app rw5 _ (W5 V)).trans ((after_app rw6 _ (W6 V)).trans ((after_app rw7 _ (W7 V)).trans ((after_app rw8 _ (W8 V)).trans ((after_app rw9 _ (W9 V)).trans ((after_app rw10 _ (W10 V)).trans ((after_app rw11 _ (W11 V)).trans ((after_app rw12 _ (W12 V)).trans ((after_app rw13 _ (W13 V)).trans ((after_app rw14 _ (W14 V)).trans ((after_app rw15 _ (W15 V)).trans ((after_app rw16 _ (W16 V)).trans (rfl)))))))))))))))))

/-! ## The arguments are never written -/

theorem at1_arg0 (V : Valuation τ sig (Elt F)) : W1 V (Proc.devRef .tc main_arg0) = V (Proc.devRef .tc main_arg0) :=
  keep_rw0 V main_arg0 (by decide)
theorem at2_arg0 (V : Valuation τ sig (Elt F)) : W2 V (Proc.devRef .tc main_arg0) = V (Proc.devRef .tc main_arg0) :=
  (keep_rw1 (W1 V) main_arg0 (by decide)).trans (at1_arg0 V)
theorem at3_arg0 (V : Valuation τ sig (Elt F)) : W3 V (Proc.devRef .tc main_arg0) = V (Proc.devRef .tc main_arg0) :=
  (keep_rw2 (W2 V) main_arg0 (by decide)).trans (at2_arg0 V)
theorem at4_arg0 (V : Valuation τ sig (Elt F)) : W4 V (Proc.devRef .tc main_arg0) = V (Proc.devRef .tc main_arg0) :=
  (keep_rw3 (W3 V) main_arg0 (by decide)).trans (at3_arg0 V)
theorem at5_arg0 (V : Valuation τ sig (Elt F)) : W5 V (Proc.devRef .tc main_arg0) = V (Proc.devRef .tc main_arg0) :=
  (keep_rw4 (W4 V) main_arg0 (by decide)).trans (at4_arg0 V)
theorem at1_arg1 (V : Valuation τ sig (Elt F)) : W1 V (Proc.devRef .tc main_arg1) = V (Proc.devRef .tc main_arg1) :=
  keep_rw0 V main_arg1 (by decide)
theorem at2_arg1 (V : Valuation τ sig (Elt F)) : W2 V (Proc.devRef .tc main_arg1) = V (Proc.devRef .tc main_arg1) :=
  (keep_rw1 (W1 V) main_arg1 (by decide)).trans (at1_arg1 V)
theorem at3_arg1 (V : Valuation τ sig (Elt F)) : W3 V (Proc.devRef .tc main_arg1) = V (Proc.devRef .tc main_arg1) :=
  (keep_rw2 (W2 V) main_arg1 (by decide)).trans (at2_arg1 V)
theorem at4_arg1 (V : Valuation τ sig (Elt F)) : W4 V (Proc.devRef .tc main_arg1) = V (Proc.devRef .tc main_arg1) :=
  (keep_rw3 (W3 V) main_arg1 (by decide)).trans (at3_arg1 V)
theorem at1_arg2 (V : Valuation τ sig (Elt F)) : W1 V (Proc.devRef .tc main_arg2) = V (Proc.devRef .tc main_arg2) :=
  keep_rw0 V main_arg2 (by decide)
theorem at2_arg2 (V : Valuation τ sig (Elt F)) : W2 V (Proc.devRef .tc main_arg2) = V (Proc.devRef .tc main_arg2) :=
  (keep_rw1 (W1 V) main_arg2 (by decide)).trans (at1_arg2 V)
theorem at3_arg2 (V : Valuation τ sig (Elt F)) : W3 V (Proc.devRef .tc main_arg2) = V (Proc.devRef .tc main_arg2) :=
  (keep_rw2 (W2 V) main_arg2 (by decide)).trans (at2_arg2 V)
theorem at4_arg2 (V : Valuation τ sig (Elt F)) : W4 V (Proc.devRef .tc main_arg2) = V (Proc.devRef .tc main_arg2) :=
  (keep_rw3 (W3 V) main_arg2 (by decide)).trans (at3_arg2 V)
theorem at5_arg2 (V : Valuation τ sig (Elt F)) : W5 V (Proc.devRef .tc main_arg2) = V (Proc.devRef .tc main_arg2) :=
  (keep_rw4 (W4 V) main_arg2 (by decide)).trans (at4_arg2 V)
theorem at1_arg3 (V : Valuation τ sig (Elt F)) : W1 V (Proc.devRef .tc main_arg3) = V (Proc.devRef .tc main_arg3) :=
  keep_rw0 V main_arg3 (by decide)
theorem at2_arg3 (V : Valuation τ sig (Elt F)) : W2 V (Proc.devRef .tc main_arg3) = V (Proc.devRef .tc main_arg3) :=
  (keep_rw1 (W1 V) main_arg3 (by decide)).trans (at1_arg3 V)
theorem at3_arg3 (V : Valuation τ sig (Elt F)) : W3 V (Proc.devRef .tc main_arg3) = V (Proc.devRef .tc main_arg3) :=
  (keep_rw2 (W2 V) main_arg3 (by decide)).trans (at2_arg3 V)
theorem at4_arg3 (V : Valuation τ sig (Elt F)) : W4 V (Proc.devRef .tc main_arg3) = V (Proc.devRef .tc main_arg3) :=
  (keep_rw3 (W3 V) main_arg3 (by decide)).trans (at3_arg3 V)
theorem at5_arg3 (V : Valuation τ sig (Elt F)) : W5 V (Proc.devRef .tc main_arg3) = V (Proc.devRef .tc main_arg3) :=
  (keep_rw4 (W4 V) main_arg3 (by decide)).trans (at4_arg3 V)
theorem at1_arg4 (V : Valuation τ sig (Elt F)) : W1 V (Proc.devRef .tc main_arg4) = V (Proc.devRef .tc main_arg4) :=
  keep_rw0 V main_arg4 (by decide)
theorem at2_arg4 (V : Valuation τ sig (Elt F)) : W2 V (Proc.devRef .tc main_arg4) = V (Proc.devRef .tc main_arg4) :=
  (keep_rw1 (W1 V) main_arg4 (by decide)).trans (at1_arg4 V)
theorem at3_arg4 (V : Valuation τ sig (Elt F)) : W3 V (Proc.devRef .tc main_arg4) = V (Proc.devRef .tc main_arg4) :=
  (keep_rw2 (W2 V) main_arg4 (by decide)).trans (at2_arg4 V)
theorem at4_arg4 (V : Valuation τ sig (Elt F)) : W4 V (Proc.devRef .tc main_arg4) = V (Proc.devRef .tc main_arg4) :=
  (keep_rw3 (W3 V) main_arg4 (by decide)).trans (at3_arg4 V)
theorem at5_arg4 (V : Valuation τ sig (Elt F)) : W5 V (Proc.devRef .tc main_arg4) = V (Proc.devRef .tc main_arg4) :=
  (keep_rw4 (W4 V) main_arg4 (by decide)).trans (at4_arg4 V)
theorem at6_arg4 (V : Valuation τ sig (Elt F)) : W6 V (Proc.devRef .tc main_arg4) = V (Proc.devRef .tc main_arg4) :=
  (keep_rw5 (W5 V) main_arg4 (by decide)).trans (at5_arg4 V)
theorem at7_arg4 (V : Valuation τ sig (Elt F)) : W7 V (Proc.devRef .tc main_arg4) = V (Proc.devRef .tc main_arg4) :=
  (keep_rw6 (W6 V) main_arg4 (by decide)).trans (at6_arg4 V)
theorem at8_arg4 (V : Valuation τ sig (Elt F)) : W8 V (Proc.devRef .tc main_arg4) = V (Proc.devRef .tc main_arg4) :=
  (keep_rw7 (W7 V) main_arg4 (by decide)).trans (at7_arg4 V)
theorem at9_arg4 (V : Valuation τ sig (Elt F)) : W9 V (Proc.devRef .tc main_arg4) = V (Proc.devRef .tc main_arg4) :=
  (keep_rw8 (W8 V) main_arg4 (by decide)).trans (at8_arg4 V)
theorem at10_arg4 (V : Valuation τ sig (Elt F)) : W10 V (Proc.devRef .tc main_arg4) = V (Proc.devRef .tc main_arg4) :=
  (keep_rw9 (W9 V) main_arg4 (by decide)).trans (at9_arg4 V)
theorem at11_arg4 (V : Valuation τ sig (Elt F)) : W11 V (Proc.devRef .tc main_arg4) = V (Proc.devRef .tc main_arg4) :=
  (keep_rw10 (W10 V) main_arg4 (by decide)).trans (at10_arg4 V)
theorem at12_arg4 (V : Valuation τ sig (Elt F)) : W12 V (Proc.devRef .tc main_arg4) = V (Proc.devRef .tc main_arg4) :=
  (keep_rw11 (W11 V) main_arg4 (by decide)).trans (at11_arg4 V)
theorem at13_arg4 (V : Valuation τ sig (Elt F)) : W13 V (Proc.devRef .tc main_arg4) = V (Proc.devRef .tc main_arg4) :=
  (keep_rw12 (W12 V) main_arg4 (by decide)).trans (at12_arg4 V)
theorem at14_arg4 (V : Valuation τ sig (Elt F)) : W14 V (Proc.devRef .tc main_arg4) = V (Proc.devRef .tc main_arg4) :=
  (keep_rw13 (W13 V) main_arg4 (by decide)).trans (at13_arg4 V)
theorem at15_arg4 (V : Valuation τ sig (Elt F)) : W15 V (Proc.devRef .tc main_arg4) = V (Proc.devRef .tc main_arg4) :=
  (keep_rw14 (W14 V) main_arg4 (by decide)).trans (at14_arg4 V)
theorem at16_arg4 (V : Valuation τ sig (Elt F)) : W16 V (Proc.devRef .tc main_arg4) = V (Proc.devRef .tc main_arg4) :=
  (keep_rw15 (W15 V) main_arg4 (by decide)).trans (at15_arg4 V)
theorem at1_arg5 (V : Valuation τ sig (Elt F)) : W1 V (Proc.devRef .tc main_arg5) = V (Proc.devRef .tc main_arg5) :=
  keep_rw0 V main_arg5 (by decide)
theorem at2_arg5 (V : Valuation τ sig (Elt F)) : W2 V (Proc.devRef .tc main_arg5) = V (Proc.devRef .tc main_arg5) :=
  (keep_rw1 (W1 V) main_arg5 (by decide)).trans (at1_arg5 V)
theorem at3_arg5 (V : Valuation τ sig (Elt F)) : W3 V (Proc.devRef .tc main_arg5) = V (Proc.devRef .tc main_arg5) :=
  (keep_rw2 (W2 V) main_arg5 (by decide)).trans (at2_arg5 V)
theorem at4_arg5 (V : Valuation τ sig (Elt F)) : W4 V (Proc.devRef .tc main_arg5) = V (Proc.devRef .tc main_arg5) :=
  (keep_rw3 (W3 V) main_arg5 (by decide)).trans (at3_arg5 V)
theorem at5_arg5 (V : Valuation τ sig (Elt F)) : W5 V (Proc.devRef .tc main_arg5) = V (Proc.devRef .tc main_arg5) :=
  (keep_rw4 (W4 V) main_arg5 (by decide)).trans (at4_arg5 V)
theorem at6_arg5 (V : Valuation τ sig (Elt F)) : W6 V (Proc.devRef .tc main_arg5) = V (Proc.devRef .tc main_arg5) :=
  (keep_rw5 (W5 V) main_arg5 (by decide)).trans (at5_arg5 V)
theorem at7_arg5 (V : Valuation τ sig (Elt F)) : W7 V (Proc.devRef .tc main_arg5) = V (Proc.devRef .tc main_arg5) :=
  (keep_rw6 (W6 V) main_arg5 (by decide)).trans (at6_arg5 V)
theorem at8_arg5 (V : Valuation τ sig (Elt F)) : W8 V (Proc.devRef .tc main_arg5) = V (Proc.devRef .tc main_arg5) :=
  (keep_rw7 (W7 V) main_arg5 (by decide)).trans (at7_arg5 V)
theorem at9_arg5 (V : Valuation τ sig (Elt F)) : W9 V (Proc.devRef .tc main_arg5) = V (Proc.devRef .tc main_arg5) :=
  (keep_rw8 (W8 V) main_arg5 (by decide)).trans (at8_arg5 V)
theorem at10_arg5 (V : Valuation τ sig (Elt F)) : W10 V (Proc.devRef .tc main_arg5) = V (Proc.devRef .tc main_arg5) :=
  (keep_rw9 (W9 V) main_arg5 (by decide)).trans (at9_arg5 V)
theorem at11_arg5 (V : Valuation τ sig (Elt F)) : W11 V (Proc.devRef .tc main_arg5) = V (Proc.devRef .tc main_arg5) :=
  (keep_rw10 (W10 V) main_arg5 (by decide)).trans (at10_arg5 V)
theorem at12_arg5 (V : Valuation τ sig (Elt F)) : W12 V (Proc.devRef .tc main_arg5) = V (Proc.devRef .tc main_arg5) :=
  (keep_rw11 (W11 V) main_arg5 (by decide)).trans (at11_arg5 V)
theorem at13_arg5 (V : Valuation τ sig (Elt F)) : W13 V (Proc.devRef .tc main_arg5) = V (Proc.devRef .tc main_arg5) :=
  (keep_rw12 (W12 V) main_arg5 (by decide)).trans (at12_arg5 V)
theorem at14_arg5 (V : Valuation τ sig (Elt F)) : W14 V (Proc.devRef .tc main_arg5) = V (Proc.devRef .tc main_arg5) :=
  (keep_rw13 (W13 V) main_arg5 (by decide)).trans (at13_arg5 V)
theorem at15_arg5 (V : Valuation τ sig (Elt F)) : W15 V (Proc.devRef .tc main_arg5) = V (Proc.devRef .tc main_arg5) :=
  (keep_rw14 (W14 V) main_arg5 (by decide)).trans (at14_arg5 V)
theorem at16_arg5 (V : Valuation τ sig (Elt F)) : W16 V (Proc.devRef .tc main_arg5) = V (Proc.devRef .tc main_arg5) :=
  (keep_rw15 (W15 V) main_arg5 (by decide)).trans (at15_arg5 V)
theorem at1_arg6 (V : Valuation τ sig (Elt F)) : W1 V (Proc.devRef .tc main_arg6) = V (Proc.devRef .tc main_arg6) :=
  keep_rw0 V main_arg6 (by decide)
theorem at2_arg6 (V : Valuation τ sig (Elt F)) : W2 V (Proc.devRef .tc main_arg6) = V (Proc.devRef .tc main_arg6) :=
  (keep_rw1 (W1 V) main_arg6 (by decide)).trans (at1_arg6 V)
theorem at3_arg6 (V : Valuation τ sig (Elt F)) : W3 V (Proc.devRef .tc main_arg6) = V (Proc.devRef .tc main_arg6) :=
  (keep_rw2 (W2 V) main_arg6 (by decide)).trans (at2_arg6 V)
theorem at4_arg6 (V : Valuation τ sig (Elt F)) : W4 V (Proc.devRef .tc main_arg6) = V (Proc.devRef .tc main_arg6) :=
  (keep_rw3 (W3 V) main_arg6 (by decide)).trans (at3_arg6 V)
theorem at5_arg6 (V : Valuation τ sig (Elt F)) : W5 V (Proc.devRef .tc main_arg6) = V (Proc.devRef .tc main_arg6) :=
  (keep_rw4 (W4 V) main_arg6 (by decide)).trans (at4_arg6 V)
theorem at6_arg6 (V : Valuation τ sig (Elt F)) : W6 V (Proc.devRef .tc main_arg6) = V (Proc.devRef .tc main_arg6) :=
  (keep_rw5 (W5 V) main_arg6 (by decide)).trans (at5_arg6 V)
theorem at7_arg6 (V : Valuation τ sig (Elt F)) : W7 V (Proc.devRef .tc main_arg6) = V (Proc.devRef .tc main_arg6) :=
  (keep_rw6 (W6 V) main_arg6 (by decide)).trans (at6_arg6 V)
theorem at8_arg6 (V : Valuation τ sig (Elt F)) : W8 V (Proc.devRef .tc main_arg6) = V (Proc.devRef .tc main_arg6) :=
  (keep_rw7 (W7 V) main_arg6 (by decide)).trans (at7_arg6 V)
theorem at9_arg6 (V : Valuation τ sig (Elt F)) : W9 V (Proc.devRef .tc main_arg6) = V (Proc.devRef .tc main_arg6) :=
  (keep_rw8 (W8 V) main_arg6 (by decide)).trans (at8_arg6 V)
theorem at10_arg6 (V : Valuation τ sig (Elt F)) : W10 V (Proc.devRef .tc main_arg6) = V (Proc.devRef .tc main_arg6) :=
  (keep_rw9 (W9 V) main_arg6 (by decide)).trans (at9_arg6 V)
theorem at11_arg6 (V : Valuation τ sig (Elt F)) : W11 V (Proc.devRef .tc main_arg6) = V (Proc.devRef .tc main_arg6) :=
  (keep_rw10 (W10 V) main_arg6 (by decide)).trans (at10_arg6 V)
theorem at12_arg6 (V : Valuation τ sig (Elt F)) : W12 V (Proc.devRef .tc main_arg6) = V (Proc.devRef .tc main_arg6) :=
  (keep_rw11 (W11 V) main_arg6 (by decide)).trans (at11_arg6 V)
theorem at13_arg6 (V : Valuation τ sig (Elt F)) : W13 V (Proc.devRef .tc main_arg6) = V (Proc.devRef .tc main_arg6) :=
  (keep_rw12 (W12 V) main_arg6 (by decide)).trans (at12_arg6 V)
theorem at14_arg6 (V : Valuation τ sig (Elt F)) : W14 V (Proc.devRef .tc main_arg6) = V (Proc.devRef .tc main_arg6) :=
  (keep_rw13 (W13 V) main_arg6 (by decide)).trans (at13_arg6 V)
theorem at15_arg6 (V : Valuation τ sig (Elt F)) : W15 V (Proc.devRef .tc main_arg6) = V (Proc.devRef .tc main_arg6) :=
  (keep_rw14 (W14 V) main_arg6 (by decide)).trans (at14_arg6 V)
theorem at16_arg6 (V : Valuation τ sig (Elt F)) : W16 V (Proc.devRef .tc main_arg6) = V (Proc.devRef .tc main_arg6) :=
  (keep_rw15 (W15 V) main_arg6 (by decide)).trans (at15_arg6 V)
theorem at1_arg7 (V : Valuation τ sig (Elt F)) : W1 V (Proc.devRef .tc main_arg7) = V (Proc.devRef .tc main_arg7) :=
  keep_rw0 V main_arg7 (by decide)
theorem at2_arg7 (V : Valuation τ sig (Elt F)) : W2 V (Proc.devRef .tc main_arg7) = V (Proc.devRef .tc main_arg7) :=
  (keep_rw1 (W1 V) main_arg7 (by decide)).trans (at1_arg7 V)
theorem at3_arg7 (V : Valuation τ sig (Elt F)) : W3 V (Proc.devRef .tc main_arg7) = V (Proc.devRef .tc main_arg7) :=
  (keep_rw2 (W2 V) main_arg7 (by decide)).trans (at2_arg7 V)
theorem at4_arg7 (V : Valuation τ sig (Elt F)) : W4 V (Proc.devRef .tc main_arg7) = V (Proc.devRef .tc main_arg7) :=
  (keep_rw3 (W3 V) main_arg7 (by decide)).trans (at3_arg7 V)
theorem at5_arg7 (V : Valuation τ sig (Elt F)) : W5 V (Proc.devRef .tc main_arg7) = V (Proc.devRef .tc main_arg7) :=
  (keep_rw4 (W4 V) main_arg7 (by decide)).trans (at4_arg7 V)
theorem at6_arg7 (V : Valuation τ sig (Elt F)) : W6 V (Proc.devRef .tc main_arg7) = V (Proc.devRef .tc main_arg7) :=
  (keep_rw5 (W5 V) main_arg7 (by decide)).trans (at5_arg7 V)
theorem at7_arg7 (V : Valuation τ sig (Elt F)) : W7 V (Proc.devRef .tc main_arg7) = V (Proc.devRef .tc main_arg7) :=
  (keep_rw6 (W6 V) main_arg7 (by decide)).trans (at6_arg7 V)
theorem at8_arg7 (V : Valuation τ sig (Elt F)) : W8 V (Proc.devRef .tc main_arg7) = V (Proc.devRef .tc main_arg7) :=
  (keep_rw7 (W7 V) main_arg7 (by decide)).trans (at7_arg7 V)
theorem at9_arg7 (V : Valuation τ sig (Elt F)) : W9 V (Proc.devRef .tc main_arg7) = V (Proc.devRef .tc main_arg7) :=
  (keep_rw8 (W8 V) main_arg7 (by decide)).trans (at8_arg7 V)
theorem at10_arg7 (V : Valuation τ sig (Elt F)) : W10 V (Proc.devRef .tc main_arg7) = V (Proc.devRef .tc main_arg7) :=
  (keep_rw9 (W9 V) main_arg7 (by decide)).trans (at9_arg7 V)
theorem at11_arg7 (V : Valuation τ sig (Elt F)) : W11 V (Proc.devRef .tc main_arg7) = V (Proc.devRef .tc main_arg7) :=
  (keep_rw10 (W10 V) main_arg7 (by decide)).trans (at10_arg7 V)
theorem at12_arg7 (V : Valuation τ sig (Elt F)) : W12 V (Proc.devRef .tc main_arg7) = V (Proc.devRef .tc main_arg7) :=
  (keep_rw11 (W11 V) main_arg7 (by decide)).trans (at11_arg7 V)
theorem at13_arg7 (V : Valuation τ sig (Elt F)) : W13 V (Proc.devRef .tc main_arg7) = V (Proc.devRef .tc main_arg7) :=
  (keep_rw12 (W12 V) main_arg7 (by decide)).trans (at12_arg7 V)
theorem at14_arg7 (V : Valuation τ sig (Elt F)) : W14 V (Proc.devRef .tc main_arg7) = V (Proc.devRef .tc main_arg7) :=
  (keep_rw13 (W13 V) main_arg7 (by decide)).trans (at13_arg7 V)
theorem at15_arg7 (V : Valuation τ sig (Elt F)) : W15 V (Proc.devRef .tc main_arg7) = V (Proc.devRef .tc main_arg7) :=
  (keep_rw14 (W14 V) main_arg7 (by decide)).trans (at14_arg7 V)
theorem at16_arg7 (V : Valuation τ sig (Elt F)) : W16 V (Proc.devRef .tc main_arg7) = V (Proc.devRef .tc main_arg7) :=
  (keep_rw15 (W15 V) main_arg7 (by decide)).trans (at15_arg7 V)
theorem at17_arg7 (V : Valuation τ sig (Elt F)) : W17 V (Proc.devRef .tc main_arg7) = V (Proc.devRef .tc main_arg7) :=
  (keep_rw16 (W16 V) main_arg7 (by decide)).trans (at16_arg7 V)
theorem at1_arg8 (V : Valuation τ sig (Elt F)) : W1 V (Proc.devRef .tc main_arg8) = V (Proc.devRef .tc main_arg8) :=
  keep_rw0 V main_arg8 (by decide)
theorem at2_arg8 (V : Valuation τ sig (Elt F)) : W2 V (Proc.devRef .tc main_arg8) = V (Proc.devRef .tc main_arg8) :=
  (keep_rw1 (W1 V) main_arg8 (by decide)).trans (at1_arg8 V)
theorem at3_arg8 (V : Valuation τ sig (Elt F)) : W3 V (Proc.devRef .tc main_arg8) = V (Proc.devRef .tc main_arg8) :=
  (keep_rw2 (W2 V) main_arg8 (by decide)).trans (at2_arg8 V)
theorem at4_arg8 (V : Valuation τ sig (Elt F)) : W4 V (Proc.devRef .tc main_arg8) = V (Proc.devRef .tc main_arg8) :=
  (keep_rw3 (W3 V) main_arg8 (by decide)).trans (at3_arg8 V)
theorem at5_arg8 (V : Valuation τ sig (Elt F)) : W5 V (Proc.devRef .tc main_arg8) = V (Proc.devRef .tc main_arg8) :=
  (keep_rw4 (W4 V) main_arg8 (by decide)).trans (at4_arg8 V)
theorem at6_arg8 (V : Valuation τ sig (Elt F)) : W6 V (Proc.devRef .tc main_arg8) = V (Proc.devRef .tc main_arg8) :=
  (keep_rw5 (W5 V) main_arg8 (by decide)).trans (at5_arg8 V)
theorem at7_arg8 (V : Valuation τ sig (Elt F)) : W7 V (Proc.devRef .tc main_arg8) = V (Proc.devRef .tc main_arg8) :=
  (keep_rw6 (W6 V) main_arg8 (by decide)).trans (at6_arg8 V)
theorem at8_arg8 (V : Valuation τ sig (Elt F)) : W8 V (Proc.devRef .tc main_arg8) = V (Proc.devRef .tc main_arg8) :=
  (keep_rw7 (W7 V) main_arg8 (by decide)).trans (at7_arg8 V)
theorem at9_arg8 (V : Valuation τ sig (Elt F)) : W9 V (Proc.devRef .tc main_arg8) = V (Proc.devRef .tc main_arg8) :=
  (keep_rw8 (W8 V) main_arg8 (by decide)).trans (at8_arg8 V)
theorem at10_arg8 (V : Valuation τ sig (Elt F)) : W10 V (Proc.devRef .tc main_arg8) = V (Proc.devRef .tc main_arg8) :=
  (keep_rw9 (W9 V) main_arg8 (by decide)).trans (at9_arg8 V)
theorem at11_arg8 (V : Valuation τ sig (Elt F)) : W11 V (Proc.devRef .tc main_arg8) = V (Proc.devRef .tc main_arg8) :=
  (keep_rw10 (W10 V) main_arg8 (by decide)).trans (at10_arg8 V)
theorem at12_arg8 (V : Valuation τ sig (Elt F)) : W12 V (Proc.devRef .tc main_arg8) = V (Proc.devRef .tc main_arg8) :=
  (keep_rw11 (W11 V) main_arg8 (by decide)).trans (at11_arg8 V)
theorem at13_arg8 (V : Valuation τ sig (Elt F)) : W13 V (Proc.devRef .tc main_arg8) = V (Proc.devRef .tc main_arg8) :=
  (keep_rw12 (W12 V) main_arg8 (by decide)).trans (at12_arg8 V)
theorem at14_arg8 (V : Valuation τ sig (Elt F)) : W14 V (Proc.devRef .tc main_arg8) = V (Proc.devRef .tc main_arg8) :=
  (keep_rw13 (W13 V) main_arg8 (by decide)).trans (at13_arg8 V)
theorem at15_arg8 (V : Valuation τ sig (Elt F)) : W15 V (Proc.devRef .tc main_arg8) = V (Proc.devRef .tc main_arg8) :=
  (keep_rw14 (W14 V) main_arg8 (by decide)).trans (at14_arg8 V)
theorem at16_arg8 (V : Valuation τ sig (Elt F)) : W16 V (Proc.devRef .tc main_arg8) = V (Proc.devRef .tc main_arg8) :=
  (keep_rw15 (W15 V) main_arg8 (by decide)).trans (at15_arg8 V)
theorem at17_arg8 (V : Valuation τ sig (Elt F)) : W17 V (Proc.devRef .tc main_arg8) = V (Proc.devRef .tc main_arg8) :=
  (keep_rw16 (W16 V) main_arg8 (by decide)).trans (at16_arg8 V)
theorem at1_arg9 (V : Valuation τ sig (Elt F)) : W1 V (Proc.devRef .tc main_arg9) = V (Proc.devRef .tc main_arg9) :=
  keep_rw0 V main_arg9 (by decide)
theorem at2_arg9 (V : Valuation τ sig (Elt F)) : W2 V (Proc.devRef .tc main_arg9) = V (Proc.devRef .tc main_arg9) :=
  (keep_rw1 (W1 V) main_arg9 (by decide)).trans (at1_arg9 V)
theorem at3_arg9 (V : Valuation τ sig (Elt F)) : W3 V (Proc.devRef .tc main_arg9) = V (Proc.devRef .tc main_arg9) :=
  (keep_rw2 (W2 V) main_arg9 (by decide)).trans (at2_arg9 V)
theorem at4_arg9 (V : Valuation τ sig (Elt F)) : W4 V (Proc.devRef .tc main_arg9) = V (Proc.devRef .tc main_arg9) :=
  (keep_rw3 (W3 V) main_arg9 (by decide)).trans (at3_arg9 V)
theorem at5_arg9 (V : Valuation τ sig (Elt F)) : W5 V (Proc.devRef .tc main_arg9) = V (Proc.devRef .tc main_arg9) :=
  (keep_rw4 (W4 V) main_arg9 (by decide)).trans (at4_arg9 V)
theorem at6_arg9 (V : Valuation τ sig (Elt F)) : W6 V (Proc.devRef .tc main_arg9) = V (Proc.devRef .tc main_arg9) :=
  (keep_rw5 (W5 V) main_arg9 (by decide)).trans (at5_arg9 V)
theorem at7_arg9 (V : Valuation τ sig (Elt F)) : W7 V (Proc.devRef .tc main_arg9) = V (Proc.devRef .tc main_arg9) :=
  (keep_rw6 (W6 V) main_arg9 (by decide)).trans (at6_arg9 V)
theorem at8_arg9 (V : Valuation τ sig (Elt F)) : W8 V (Proc.devRef .tc main_arg9) = V (Proc.devRef .tc main_arg9) :=
  (keep_rw7 (W7 V) main_arg9 (by decide)).trans (at7_arg9 V)
theorem at9_arg9 (V : Valuation τ sig (Elt F)) : W9 V (Proc.devRef .tc main_arg9) = V (Proc.devRef .tc main_arg9) :=
  (keep_rw8 (W8 V) main_arg9 (by decide)).trans (at8_arg9 V)
theorem at10_arg9 (V : Valuation τ sig (Elt F)) : W10 V (Proc.devRef .tc main_arg9) = V (Proc.devRef .tc main_arg9) :=
  (keep_rw9 (W9 V) main_arg9 (by decide)).trans (at9_arg9 V)
theorem at11_arg9 (V : Valuation τ sig (Elt F)) : W11 V (Proc.devRef .tc main_arg9) = V (Proc.devRef .tc main_arg9) :=
  (keep_rw10 (W10 V) main_arg9 (by decide)).trans (at10_arg9 V)
theorem at12_arg9 (V : Valuation τ sig (Elt F)) : W12 V (Proc.devRef .tc main_arg9) = V (Proc.devRef .tc main_arg9) :=
  (keep_rw11 (W11 V) main_arg9 (by decide)).trans (at11_arg9 V)
theorem at13_arg9 (V : Valuation τ sig (Elt F)) : W13 V (Proc.devRef .tc main_arg9) = V (Proc.devRef .tc main_arg9) :=
  (keep_rw12 (W12 V) main_arg9 (by decide)).trans (at12_arg9 V)
theorem at14_arg9 (V : Valuation τ sig (Elt F)) : W14 V (Proc.devRef .tc main_arg9) = V (Proc.devRef .tc main_arg9) :=
  (keep_rw13 (W13 V) main_arg9 (by decide)).trans (at13_arg9 V)
theorem at15_arg9 (V : Valuation τ sig (Elt F)) : W15 V (Proc.devRef .tc main_arg9) = V (Proc.devRef .tc main_arg9) :=
  (keep_rw14 (W14 V) main_arg9 (by decide)).trans (at14_arg9 V)
theorem at16_arg9 (V : Valuation τ sig (Elt F)) : W16 V (Proc.devRef .tc main_arg9) = V (Proc.devRef .tc main_arg9) :=
  (keep_rw15 (W15 V) main_arg9 (by decide)).trans (at15_arg9 V)
theorem at17_arg9 (V : Valuation τ sig (Elt F)) : W17 V (Proc.devRef .tc main_arg9) = V (Proc.devRef .tc main_arg9) :=
  (keep_rw16 (W16 V) main_arg9 (by decide)).trans (at16_arg9 V)
theorem at1_arg10 (V : Valuation τ sig (Elt F)) : W1 V (Proc.devRef .tc main_arg10) = V (Proc.devRef .tc main_arg10) :=
  keep_rw0 V main_arg10 (by decide)
theorem at2_arg10 (V : Valuation τ sig (Elt F)) : W2 V (Proc.devRef .tc main_arg10) = V (Proc.devRef .tc main_arg10) :=
  (keep_rw1 (W1 V) main_arg10 (by decide)).trans (at1_arg10 V)
theorem at3_arg10 (V : Valuation τ sig (Elt F)) : W3 V (Proc.devRef .tc main_arg10) = V (Proc.devRef .tc main_arg10) :=
  (keep_rw2 (W2 V) main_arg10 (by decide)).trans (at2_arg10 V)
theorem at4_arg10 (V : Valuation τ sig (Elt F)) : W4 V (Proc.devRef .tc main_arg10) = V (Proc.devRef .tc main_arg10) :=
  (keep_rw3 (W3 V) main_arg10 (by decide)).trans (at3_arg10 V)
theorem at5_arg10 (V : Valuation τ sig (Elt F)) : W5 V (Proc.devRef .tc main_arg10) = V (Proc.devRef .tc main_arg10) :=
  (keep_rw4 (W4 V) main_arg10 (by decide)).trans (at4_arg10 V)
theorem at6_arg10 (V : Valuation τ sig (Elt F)) : W6 V (Proc.devRef .tc main_arg10) = V (Proc.devRef .tc main_arg10) :=
  (keep_rw5 (W5 V) main_arg10 (by decide)).trans (at5_arg10 V)
theorem at7_arg10 (V : Valuation τ sig (Elt F)) : W7 V (Proc.devRef .tc main_arg10) = V (Proc.devRef .tc main_arg10) :=
  (keep_rw6 (W6 V) main_arg10 (by decide)).trans (at6_arg10 V)
theorem at8_arg10 (V : Valuation τ sig (Elt F)) : W8 V (Proc.devRef .tc main_arg10) = V (Proc.devRef .tc main_arg10) :=
  (keep_rw7 (W7 V) main_arg10 (by decide)).trans (at7_arg10 V)
theorem at9_arg10 (V : Valuation τ sig (Elt F)) : W9 V (Proc.devRef .tc main_arg10) = V (Proc.devRef .tc main_arg10) :=
  (keep_rw8 (W8 V) main_arg10 (by decide)).trans (at8_arg10 V)
theorem at10_arg10 (V : Valuation τ sig (Elt F)) : W10 V (Proc.devRef .tc main_arg10) = V (Proc.devRef .tc main_arg10) :=
  (keep_rw9 (W9 V) main_arg10 (by decide)).trans (at9_arg10 V)
theorem at11_arg10 (V : Valuation τ sig (Elt F)) : W11 V (Proc.devRef .tc main_arg10) = V (Proc.devRef .tc main_arg10) :=
  (keep_rw10 (W10 V) main_arg10 (by decide)).trans (at10_arg10 V)
theorem at12_arg10 (V : Valuation τ sig (Elt F)) : W12 V (Proc.devRef .tc main_arg10) = V (Proc.devRef .tc main_arg10) :=
  (keep_rw11 (W11 V) main_arg10 (by decide)).trans (at11_arg10 V)
theorem at13_arg10 (V : Valuation τ sig (Elt F)) : W13 V (Proc.devRef .tc main_arg10) = V (Proc.devRef .tc main_arg10) :=
  (keep_rw12 (W12 V) main_arg10 (by decide)).trans (at12_arg10 V)
theorem at14_arg10 (V : Valuation τ sig (Elt F)) : W14 V (Proc.devRef .tc main_arg10) = V (Proc.devRef .tc main_arg10) :=
  (keep_rw13 (W13 V) main_arg10 (by decide)).trans (at13_arg10 V)
theorem at15_arg10 (V : Valuation τ sig (Elt F)) : W15 V (Proc.devRef .tc main_arg10) = V (Proc.devRef .tc main_arg10) :=
  (keep_rw14 (W14 V) main_arg10 (by decide)).trans (at14_arg10 V)
theorem at16_arg10 (V : Valuation τ sig (Elt F)) : W16 V (Proc.devRef .tc main_arg10) = V (Proc.devRef .tc main_arg10) :=
  (keep_rw15 (W15 V) main_arg10 (by decide)).trans (at15_arg10 V)
theorem at17_arg10 (V : Valuation τ sig (Elt F)) : W17 V (Proc.devRef .tc main_arg10) = V (Proc.devRef .tc main_arg10) :=
  (keep_rw16 (W16 V) main_arg10 (by decide)).trans (at16_arg10 V)
theorem at1_arg11 (V : Valuation τ sig (Elt F)) : W1 V (Proc.devRef .tc main_arg11) = V (Proc.devRef .tc main_arg11) :=
  keep_rw0 V main_arg11 (by decide)
theorem at2_arg11 (V : Valuation τ sig (Elt F)) : W2 V (Proc.devRef .tc main_arg11) = V (Proc.devRef .tc main_arg11) :=
  (keep_rw1 (W1 V) main_arg11 (by decide)).trans (at1_arg11 V)
theorem at3_arg11 (V : Valuation τ sig (Elt F)) : W3 V (Proc.devRef .tc main_arg11) = V (Proc.devRef .tc main_arg11) :=
  (keep_rw2 (W2 V) main_arg11 (by decide)).trans (at2_arg11 V)
theorem at4_arg11 (V : Valuation τ sig (Elt F)) : W4 V (Proc.devRef .tc main_arg11) = V (Proc.devRef .tc main_arg11) :=
  (keep_rw3 (W3 V) main_arg11 (by decide)).trans (at3_arg11 V)
theorem at5_arg11 (V : Valuation τ sig (Elt F)) : W5 V (Proc.devRef .tc main_arg11) = V (Proc.devRef .tc main_arg11) :=
  (keep_rw4 (W4 V) main_arg11 (by decide)).trans (at4_arg11 V)
theorem at6_arg11 (V : Valuation τ sig (Elt F)) : W6 V (Proc.devRef .tc main_arg11) = V (Proc.devRef .tc main_arg11) :=
  (keep_rw5 (W5 V) main_arg11 (by decide)).trans (at5_arg11 V)
theorem at7_arg11 (V : Valuation τ sig (Elt F)) : W7 V (Proc.devRef .tc main_arg11) = V (Proc.devRef .tc main_arg11) :=
  (keep_rw6 (W6 V) main_arg11 (by decide)).trans (at6_arg11 V)
theorem at8_arg11 (V : Valuation τ sig (Elt F)) : W8 V (Proc.devRef .tc main_arg11) = V (Proc.devRef .tc main_arg11) :=
  (keep_rw7 (W7 V) main_arg11 (by decide)).trans (at7_arg11 V)
theorem at9_arg11 (V : Valuation τ sig (Elt F)) : W9 V (Proc.devRef .tc main_arg11) = V (Proc.devRef .tc main_arg11) :=
  (keep_rw8 (W8 V) main_arg11 (by decide)).trans (at8_arg11 V)
theorem at10_arg11 (V : Valuation τ sig (Elt F)) : W10 V (Proc.devRef .tc main_arg11) = V (Proc.devRef .tc main_arg11) :=
  (keep_rw9 (W9 V) main_arg11 (by decide)).trans (at9_arg11 V)
theorem at11_arg11 (V : Valuation τ sig (Elt F)) : W11 V (Proc.devRef .tc main_arg11) = V (Proc.devRef .tc main_arg11) :=
  (keep_rw10 (W10 V) main_arg11 (by decide)).trans (at10_arg11 V)
theorem at12_arg11 (V : Valuation τ sig (Elt F)) : W12 V (Proc.devRef .tc main_arg11) = V (Proc.devRef .tc main_arg11) :=
  (keep_rw11 (W11 V) main_arg11 (by decide)).trans (at11_arg11 V)
theorem at13_arg11 (V : Valuation τ sig (Elt F)) : W13 V (Proc.devRef .tc main_arg11) = V (Proc.devRef .tc main_arg11) :=
  (keep_rw12 (W12 V) main_arg11 (by decide)).trans (at12_arg11 V)
theorem at14_arg11 (V : Valuation τ sig (Elt F)) : W14 V (Proc.devRef .tc main_arg11) = V (Proc.devRef .tc main_arg11) :=
  (keep_rw13 (W13 V) main_arg11 (by decide)).trans (at13_arg11 V)
theorem at15_arg11 (V : Valuation τ sig (Elt F)) : W15 V (Proc.devRef .tc main_arg11) = V (Proc.devRef .tc main_arg11) :=
  (keep_rw14 (W14 V) main_arg11 (by decide)).trans (at14_arg11 V)
theorem at16_arg11 (V : Valuation τ sig (Elt F)) : W16 V (Proc.devRef .tc main_arg11) = V (Proc.devRef .tc main_arg11) :=
  (keep_rw15 (W15 V) main_arg11 (by decide)).trans (at15_arg11 V)
theorem at17_arg11 (V : Valuation τ sig (Elt F)) : W17 V (Proc.devRef .tc main_arg11) = V (Proc.devRef .tc main_arg11) :=
  (keep_rw16 (W16 V) main_arg11 (by decide)).trans (at16_arg11 V)
theorem at1_arg12 (V : Valuation τ sig (Elt F)) : W1 V (Proc.devRef .tc main_arg12) = V (Proc.devRef .tc main_arg12) :=
  keep_rw0 V main_arg12 (by decide)
theorem at2_arg12 (V : Valuation τ sig (Elt F)) : W2 V (Proc.devRef .tc main_arg12) = V (Proc.devRef .tc main_arg12) :=
  (keep_rw1 (W1 V) main_arg12 (by decide)).trans (at1_arg12 V)
theorem at3_arg12 (V : Valuation τ sig (Elt F)) : W3 V (Proc.devRef .tc main_arg12) = V (Proc.devRef .tc main_arg12) :=
  (keep_rw2 (W2 V) main_arg12 (by decide)).trans (at2_arg12 V)
theorem at4_arg12 (V : Valuation τ sig (Elt F)) : W4 V (Proc.devRef .tc main_arg12) = V (Proc.devRef .tc main_arg12) :=
  (keep_rw3 (W3 V) main_arg12 (by decide)).trans (at3_arg12 V)
theorem at5_arg12 (V : Valuation τ sig (Elt F)) : W5 V (Proc.devRef .tc main_arg12) = V (Proc.devRef .tc main_arg12) :=
  (keep_rw4 (W4 V) main_arg12 (by decide)).trans (at4_arg12 V)
theorem at6_arg12 (V : Valuation τ sig (Elt F)) : W6 V (Proc.devRef .tc main_arg12) = V (Proc.devRef .tc main_arg12) :=
  (keep_rw5 (W5 V) main_arg12 (by decide)).trans (at5_arg12 V)
theorem at7_arg12 (V : Valuation τ sig (Elt F)) : W7 V (Proc.devRef .tc main_arg12) = V (Proc.devRef .tc main_arg12) :=
  (keep_rw6 (W6 V) main_arg12 (by decide)).trans (at6_arg12 V)
theorem at8_arg12 (V : Valuation τ sig (Elt F)) : W8 V (Proc.devRef .tc main_arg12) = V (Proc.devRef .tc main_arg12) :=
  (keep_rw7 (W7 V) main_arg12 (by decide)).trans (at7_arg12 V)
theorem at9_arg12 (V : Valuation τ sig (Elt F)) : W9 V (Proc.devRef .tc main_arg12) = V (Proc.devRef .tc main_arg12) :=
  (keep_rw8 (W8 V) main_arg12 (by decide)).trans (at8_arg12 V)
theorem at10_arg12 (V : Valuation τ sig (Elt F)) : W10 V (Proc.devRef .tc main_arg12) = V (Proc.devRef .tc main_arg12) :=
  (keep_rw9 (W9 V) main_arg12 (by decide)).trans (at9_arg12 V)
theorem at11_arg12 (V : Valuation τ sig (Elt F)) : W11 V (Proc.devRef .tc main_arg12) = V (Proc.devRef .tc main_arg12) :=
  (keep_rw10 (W10 V) main_arg12 (by decide)).trans (at10_arg12 V)
theorem at12_arg12 (V : Valuation τ sig (Elt F)) : W12 V (Proc.devRef .tc main_arg12) = V (Proc.devRef .tc main_arg12) :=
  (keep_rw11 (W11 V) main_arg12 (by decide)).trans (at11_arg12 V)
theorem at13_arg12 (V : Valuation τ sig (Elt F)) : W13 V (Proc.devRef .tc main_arg12) = V (Proc.devRef .tc main_arg12) :=
  (keep_rw12 (W12 V) main_arg12 (by decide)).trans (at12_arg12 V)
theorem at14_arg12 (V : Valuation τ sig (Elt F)) : W14 V (Proc.devRef .tc main_arg12) = V (Proc.devRef .tc main_arg12) :=
  (keep_rw13 (W13 V) main_arg12 (by decide)).trans (at13_arg12 V)
theorem at15_arg12 (V : Valuation τ sig (Elt F)) : W15 V (Proc.devRef .tc main_arg12) = V (Proc.devRef .tc main_arg12) :=
  (keep_rw14 (W14 V) main_arg12 (by decide)).trans (at14_arg12 V)
theorem at16_arg12 (V : Valuation τ sig (Elt F)) : W16 V (Proc.devRef .tc main_arg12) = V (Proc.devRef .tc main_arg12) :=
  (keep_rw15 (W15 V) main_arg12 (by decide)).trans (at15_arg12 V)
theorem at17_arg12 (V : Valuation τ sig (Elt F)) : W17 V (Proc.devRef .tc main_arg12) = V (Proc.devRef .tc main_arg12) :=
  (keep_rw16 (W16 V) main_arg12 (by decide)).trans (at16_arg12 V)
theorem at1_arg13 (V : Valuation τ sig (Elt F)) : W1 V (Proc.devRef .tc main_arg13) = V (Proc.devRef .tc main_arg13) :=
  keep_rw0 V main_arg13 (by decide)
theorem at2_arg13 (V : Valuation τ sig (Elt F)) : W2 V (Proc.devRef .tc main_arg13) = V (Proc.devRef .tc main_arg13) :=
  (keep_rw1 (W1 V) main_arg13 (by decide)).trans (at1_arg13 V)
theorem at3_arg13 (V : Valuation τ sig (Elt F)) : W3 V (Proc.devRef .tc main_arg13) = V (Proc.devRef .tc main_arg13) :=
  (keep_rw2 (W2 V) main_arg13 (by decide)).trans (at2_arg13 V)
theorem at4_arg13 (V : Valuation τ sig (Elt F)) : W4 V (Proc.devRef .tc main_arg13) = V (Proc.devRef .tc main_arg13) :=
  (keep_rw3 (W3 V) main_arg13 (by decide)).trans (at3_arg13 V)
theorem at5_arg13 (V : Valuation τ sig (Elt F)) : W5 V (Proc.devRef .tc main_arg13) = V (Proc.devRef .tc main_arg13) :=
  (keep_rw4 (W4 V) main_arg13 (by decide)).trans (at4_arg13 V)
theorem at6_arg13 (V : Valuation τ sig (Elt F)) : W6 V (Proc.devRef .tc main_arg13) = V (Proc.devRef .tc main_arg13) :=
  (keep_rw5 (W5 V) main_arg13 (by decide)).trans (at5_arg13 V)
theorem at7_arg13 (V : Valuation τ sig (Elt F)) : W7 V (Proc.devRef .tc main_arg13) = V (Proc.devRef .tc main_arg13) :=
  (keep_rw6 (W6 V) main_arg13 (by decide)).trans (at6_arg13 V)
theorem at8_arg13 (V : Valuation τ sig (Elt F)) : W8 V (Proc.devRef .tc main_arg13) = V (Proc.devRef .tc main_arg13) :=
  (keep_rw7 (W7 V) main_arg13 (by decide)).trans (at7_arg13 V)
theorem at9_arg13 (V : Valuation τ sig (Elt F)) : W9 V (Proc.devRef .tc main_arg13) = V (Proc.devRef .tc main_arg13) :=
  (keep_rw8 (W8 V) main_arg13 (by decide)).trans (at8_arg13 V)
theorem at10_arg13 (V : Valuation τ sig (Elt F)) : W10 V (Proc.devRef .tc main_arg13) = V (Proc.devRef .tc main_arg13) :=
  (keep_rw9 (W9 V) main_arg13 (by decide)).trans (at9_arg13 V)
theorem at11_arg13 (V : Valuation τ sig (Elt F)) : W11 V (Proc.devRef .tc main_arg13) = V (Proc.devRef .tc main_arg13) :=
  (keep_rw10 (W10 V) main_arg13 (by decide)).trans (at10_arg13 V)
theorem at12_arg13 (V : Valuation τ sig (Elt F)) : W12 V (Proc.devRef .tc main_arg13) = V (Proc.devRef .tc main_arg13) :=
  (keep_rw11 (W11 V) main_arg13 (by decide)).trans (at11_arg13 V)
theorem at13_arg13 (V : Valuation τ sig (Elt F)) : W13 V (Proc.devRef .tc main_arg13) = V (Proc.devRef .tc main_arg13) :=
  (keep_rw12 (W12 V) main_arg13 (by decide)).trans (at12_arg13 V)
theorem at14_arg13 (V : Valuation τ sig (Elt F)) : W14 V (Proc.devRef .tc main_arg13) = V (Proc.devRef .tc main_arg13) :=
  (keep_rw13 (W13 V) main_arg13 (by decide)).trans (at13_arg13 V)
theorem at15_arg13 (V : Valuation τ sig (Elt F)) : W15 V (Proc.devRef .tc main_arg13) = V (Proc.devRef .tc main_arg13) :=
  (keep_rw14 (W14 V) main_arg13 (by decide)).trans (at14_arg13 V)
theorem at16_arg13 (V : Valuation τ sig (Elt F)) : W16 V (Proc.devRef .tc main_arg13) = V (Proc.devRef .tc main_arg13) :=
  (keep_rw15 (W15 V) main_arg13 (by decide)).trans (at15_arg13 V)
theorem at17_arg13 (V : Valuation τ sig (Elt F)) : W17 V (Proc.devRef .tc main_arg13) = V (Proc.devRef .tc main_arg13) :=
  (keep_rw16 (W16 V) main_arg13 (by decide)).trans (at16_arg13 V)
theorem at1_arg14 (V : Valuation τ sig (Elt F)) : W1 V (Proc.devRef .tc main_arg14) = V (Proc.devRef .tc main_arg14) :=
  keep_rw0 V main_arg14 (by decide)
theorem at2_arg14 (V : Valuation τ sig (Elt F)) : W2 V (Proc.devRef .tc main_arg14) = V (Proc.devRef .tc main_arg14) :=
  (keep_rw1 (W1 V) main_arg14 (by decide)).trans (at1_arg14 V)
theorem at3_arg14 (V : Valuation τ sig (Elt F)) : W3 V (Proc.devRef .tc main_arg14) = V (Proc.devRef .tc main_arg14) :=
  (keep_rw2 (W2 V) main_arg14 (by decide)).trans (at2_arg14 V)
theorem at4_arg14 (V : Valuation τ sig (Elt F)) : W4 V (Proc.devRef .tc main_arg14) = V (Proc.devRef .tc main_arg14) :=
  (keep_rw3 (W3 V) main_arg14 (by decide)).trans (at3_arg14 V)
theorem at5_arg14 (V : Valuation τ sig (Elt F)) : W5 V (Proc.devRef .tc main_arg14) = V (Proc.devRef .tc main_arg14) :=
  (keep_rw4 (W4 V) main_arg14 (by decide)).trans (at4_arg14 V)
theorem at6_arg14 (V : Valuation τ sig (Elt F)) : W6 V (Proc.devRef .tc main_arg14) = V (Proc.devRef .tc main_arg14) :=
  (keep_rw5 (W5 V) main_arg14 (by decide)).trans (at5_arg14 V)
theorem at7_arg14 (V : Valuation τ sig (Elt F)) : W7 V (Proc.devRef .tc main_arg14) = V (Proc.devRef .tc main_arg14) :=
  (keep_rw6 (W6 V) main_arg14 (by decide)).trans (at6_arg14 V)
theorem at8_arg14 (V : Valuation τ sig (Elt F)) : W8 V (Proc.devRef .tc main_arg14) = V (Proc.devRef .tc main_arg14) :=
  (keep_rw7 (W7 V) main_arg14 (by decide)).trans (at7_arg14 V)
theorem at9_arg14 (V : Valuation τ sig (Elt F)) : W9 V (Proc.devRef .tc main_arg14) = V (Proc.devRef .tc main_arg14) :=
  (keep_rw8 (W8 V) main_arg14 (by decide)).trans (at8_arg14 V)
theorem at10_arg14 (V : Valuation τ sig (Elt F)) : W10 V (Proc.devRef .tc main_arg14) = V (Proc.devRef .tc main_arg14) :=
  (keep_rw9 (W9 V) main_arg14 (by decide)).trans (at9_arg14 V)
theorem at11_arg14 (V : Valuation τ sig (Elt F)) : W11 V (Proc.devRef .tc main_arg14) = V (Proc.devRef .tc main_arg14) :=
  (keep_rw10 (W10 V) main_arg14 (by decide)).trans (at10_arg14 V)
theorem at12_arg14 (V : Valuation τ sig (Elt F)) : W12 V (Proc.devRef .tc main_arg14) = V (Proc.devRef .tc main_arg14) :=
  (keep_rw11 (W11 V) main_arg14 (by decide)).trans (at11_arg14 V)
theorem at13_arg14 (V : Valuation τ sig (Elt F)) : W13 V (Proc.devRef .tc main_arg14) = V (Proc.devRef .tc main_arg14) :=
  (keep_rw12 (W12 V) main_arg14 (by decide)).trans (at12_arg14 V)
theorem at14_arg14 (V : Valuation τ sig (Elt F)) : W14 V (Proc.devRef .tc main_arg14) = V (Proc.devRef .tc main_arg14) :=
  (keep_rw13 (W13 V) main_arg14 (by decide)).trans (at13_arg14 V)
theorem at15_arg14 (V : Valuation τ sig (Elt F)) : W15 V (Proc.devRef .tc main_arg14) = V (Proc.devRef .tc main_arg14) :=
  (keep_rw14 (W14 V) main_arg14 (by decide)).trans (at14_arg14 V)
theorem at16_arg14 (V : Valuation τ sig (Elt F)) : W16 V (Proc.devRef .tc main_arg14) = V (Proc.devRef .tc main_arg14) :=
  (keep_rw15 (W15 V) main_arg14 (by decide)).trans (at15_arg14 V)
theorem at17_arg14 (V : Valuation τ sig (Elt F)) : W17 V (Proc.devRef .tc main_arg14) = V (Proc.devRef .tc main_arg14) :=
  (keep_rw16 (W16 V) main_arg14 (by decide)).trans (at16_arg14 V)
theorem at1_arg15 (V : Valuation τ sig (Elt F)) : W1 V (Proc.devRef .tc main_arg15) = V (Proc.devRef .tc main_arg15) :=
  keep_rw0 V main_arg15 (by decide)
theorem at2_arg15 (V : Valuation τ sig (Elt F)) : W2 V (Proc.devRef .tc main_arg15) = V (Proc.devRef .tc main_arg15) :=
  (keep_rw1 (W1 V) main_arg15 (by decide)).trans (at1_arg15 V)
theorem at3_arg15 (V : Valuation τ sig (Elt F)) : W3 V (Proc.devRef .tc main_arg15) = V (Proc.devRef .tc main_arg15) :=
  (keep_rw2 (W2 V) main_arg15 (by decide)).trans (at2_arg15 V)
theorem at4_arg15 (V : Valuation τ sig (Elt F)) : W4 V (Proc.devRef .tc main_arg15) = V (Proc.devRef .tc main_arg15) :=
  (keep_rw3 (W3 V) main_arg15 (by decide)).trans (at3_arg15 V)
theorem at5_arg15 (V : Valuation τ sig (Elt F)) : W5 V (Proc.devRef .tc main_arg15) = V (Proc.devRef .tc main_arg15) :=
  (keep_rw4 (W4 V) main_arg15 (by decide)).trans (at4_arg15 V)
theorem at6_arg15 (V : Valuation τ sig (Elt F)) : W6 V (Proc.devRef .tc main_arg15) = V (Proc.devRef .tc main_arg15) :=
  (keep_rw5 (W5 V) main_arg15 (by decide)).trans (at5_arg15 V)
theorem at7_arg15 (V : Valuation τ sig (Elt F)) : W7 V (Proc.devRef .tc main_arg15) = V (Proc.devRef .tc main_arg15) :=
  (keep_rw6 (W6 V) main_arg15 (by decide)).trans (at6_arg15 V)
theorem at8_arg15 (V : Valuation τ sig (Elt F)) : W8 V (Proc.devRef .tc main_arg15) = V (Proc.devRef .tc main_arg15) :=
  (keep_rw7 (W7 V) main_arg15 (by decide)).trans (at7_arg15 V)
theorem at9_arg15 (V : Valuation τ sig (Elt F)) : W9 V (Proc.devRef .tc main_arg15) = V (Proc.devRef .tc main_arg15) :=
  (keep_rw8 (W8 V) main_arg15 (by decide)).trans (at8_arg15 V)
theorem at10_arg15 (V : Valuation τ sig (Elt F)) : W10 V (Proc.devRef .tc main_arg15) = V (Proc.devRef .tc main_arg15) :=
  (keep_rw9 (W9 V) main_arg15 (by decide)).trans (at9_arg15 V)
theorem at11_arg15 (V : Valuation τ sig (Elt F)) : W11 V (Proc.devRef .tc main_arg15) = V (Proc.devRef .tc main_arg15) :=
  (keep_rw10 (W10 V) main_arg15 (by decide)).trans (at10_arg15 V)
theorem at12_arg15 (V : Valuation τ sig (Elt F)) : W12 V (Proc.devRef .tc main_arg15) = V (Proc.devRef .tc main_arg15) :=
  (keep_rw11 (W11 V) main_arg15 (by decide)).trans (at11_arg15 V)
theorem at1_arg16 (V : Valuation τ sig (Elt F)) : W1 V (Proc.devRef .tc main_arg16) = V (Proc.devRef .tc main_arg16) :=
  keep_rw0 V main_arg16 (by decide)
theorem at2_arg16 (V : Valuation τ sig (Elt F)) : W2 V (Proc.devRef .tc main_arg16) = V (Proc.devRef .tc main_arg16) :=
  (keep_rw1 (W1 V) main_arg16 (by decide)).trans (at1_arg16 V)
theorem at3_arg16 (V : Valuation τ sig (Elt F)) : W3 V (Proc.devRef .tc main_arg16) = V (Proc.devRef .tc main_arg16) :=
  (keep_rw2 (W2 V) main_arg16 (by decide)).trans (at2_arg16 V)
theorem at4_arg16 (V : Valuation τ sig (Elt F)) : W4 V (Proc.devRef .tc main_arg16) = V (Proc.devRef .tc main_arg16) :=
  (keep_rw3 (W3 V) main_arg16 (by decide)).trans (at3_arg16 V)
theorem at5_arg16 (V : Valuation τ sig (Elt F)) : W5 V (Proc.devRef .tc main_arg16) = V (Proc.devRef .tc main_arg16) :=
  (keep_rw4 (W4 V) main_arg16 (by decide)).trans (at4_arg16 V)
theorem at6_arg16 (V : Valuation τ sig (Elt F)) : W6 V (Proc.devRef .tc main_arg16) = V (Proc.devRef .tc main_arg16) :=
  (keep_rw5 (W5 V) main_arg16 (by decide)).trans (at5_arg16 V)
theorem at7_arg16 (V : Valuation τ sig (Elt F)) : W7 V (Proc.devRef .tc main_arg16) = V (Proc.devRef .tc main_arg16) :=
  (keep_rw6 (W6 V) main_arg16 (by decide)).trans (at6_arg16 V)
theorem at8_arg16 (V : Valuation τ sig (Elt F)) : W8 V (Proc.devRef .tc main_arg16) = V (Proc.devRef .tc main_arg16) :=
  (keep_rw7 (W7 V) main_arg16 (by decide)).trans (at7_arg16 V)
theorem at9_arg16 (V : Valuation τ sig (Elt F)) : W9 V (Proc.devRef .tc main_arg16) = V (Proc.devRef .tc main_arg16) :=
  (keep_rw8 (W8 V) main_arg16 (by decide)).trans (at8_arg16 V)
theorem at10_arg16 (V : Valuation τ sig (Elt F)) : W10 V (Proc.devRef .tc main_arg16) = V (Proc.devRef .tc main_arg16) :=
  (keep_rw9 (W9 V) main_arg16 (by decide)).trans (at9_arg16 V)
theorem at11_arg16 (V : Valuation τ sig (Elt F)) : W11 V (Proc.devRef .tc main_arg16) = V (Proc.devRef .tc main_arg16) :=
  (keep_rw10 (W10 V) main_arg16 (by decide)).trans (at10_arg16 V)
theorem at12_arg16 (V : Valuation τ sig (Elt F)) : W12 V (Proc.devRef .tc main_arg16) = V (Proc.devRef .tc main_arg16) :=
  (keep_rw11 (W11 V) main_arg16 (by decide)).trans (at11_arg16 V)
theorem at1_arg17 (V : Valuation τ sig (Elt F)) : W1 V (Proc.devRef .tc main_arg17) = V (Proc.devRef .tc main_arg17) :=
  keep_rw0 V main_arg17 (by decide)
theorem at2_arg17 (V : Valuation τ sig (Elt F)) : W2 V (Proc.devRef .tc main_arg17) = V (Proc.devRef .tc main_arg17) :=
  (keep_rw1 (W1 V) main_arg17 (by decide)).trans (at1_arg17 V)
theorem at3_arg17 (V : Valuation τ sig (Elt F)) : W3 V (Proc.devRef .tc main_arg17) = V (Proc.devRef .tc main_arg17) :=
  (keep_rw2 (W2 V) main_arg17 (by decide)).trans (at2_arg17 V)
theorem at4_arg17 (V : Valuation τ sig (Elt F)) : W4 V (Proc.devRef .tc main_arg17) = V (Proc.devRef .tc main_arg17) :=
  (keep_rw3 (W3 V) main_arg17 (by decide)).trans (at3_arg17 V)
theorem at5_arg17 (V : Valuation τ sig (Elt F)) : W5 V (Proc.devRef .tc main_arg17) = V (Proc.devRef .tc main_arg17) :=
  (keep_rw4 (W4 V) main_arg17 (by decide)).trans (at4_arg17 V)
theorem at6_arg17 (V : Valuation τ sig (Elt F)) : W6 V (Proc.devRef .tc main_arg17) = V (Proc.devRef .tc main_arg17) :=
  (keep_rw5 (W5 V) main_arg17 (by decide)).trans (at5_arg17 V)
theorem at7_arg17 (V : Valuation τ sig (Elt F)) : W7 V (Proc.devRef .tc main_arg17) = V (Proc.devRef .tc main_arg17) :=
  (keep_rw6 (W6 V) main_arg17 (by decide)).trans (at6_arg17 V)
theorem at8_arg17 (V : Valuation τ sig (Elt F)) : W8 V (Proc.devRef .tc main_arg17) = V (Proc.devRef .tc main_arg17) :=
  (keep_rw7 (W7 V) main_arg17 (by decide)).trans (at7_arg17 V)
theorem at9_arg17 (V : Valuation τ sig (Elt F)) : W9 V (Proc.devRef .tc main_arg17) = V (Proc.devRef .tc main_arg17) :=
  (keep_rw8 (W8 V) main_arg17 (by decide)).trans (at8_arg17 V)
theorem at10_arg17 (V : Valuation τ sig (Elt F)) : W10 V (Proc.devRef .tc main_arg17) = V (Proc.devRef .tc main_arg17) :=
  (keep_rw9 (W9 V) main_arg17 (by decide)).trans (at9_arg17 V)
theorem at11_arg17 (V : Valuation τ sig (Elt F)) : W11 V (Proc.devRef .tc main_arg17) = V (Proc.devRef .tc main_arg17) :=
  (keep_rw10 (W10 V) main_arg17 (by decide)).trans (at10_arg17 V)
theorem at12_arg17 (V : Valuation τ sig (Elt F)) : W12 V (Proc.devRef .tc main_arg17) = V (Proc.devRef .tc main_arg17) :=
  (keep_rw11 (W11 V) main_arg17 (by decide)).trans (at11_arg17 V)
theorem at13_arg17 (V : Valuation τ sig (Elt F)) : W13 V (Proc.devRef .tc main_arg17) = V (Proc.devRef .tc main_arg17) :=
  (keep_rw12 (W12 V) main_arg17 (by decide)).trans (at12_arg17 V)
theorem at1_arg18 (V : Valuation τ sig (Elt F)) : W1 V (Proc.devRef .tc main_arg18) = V (Proc.devRef .tc main_arg18) :=
  keep_rw0 V main_arg18 (by decide)
theorem at2_arg18 (V : Valuation τ sig (Elt F)) : W2 V (Proc.devRef .tc main_arg18) = V (Proc.devRef .tc main_arg18) :=
  (keep_rw1 (W1 V) main_arg18 (by decide)).trans (at1_arg18 V)
theorem at3_arg18 (V : Valuation τ sig (Elt F)) : W3 V (Proc.devRef .tc main_arg18) = V (Proc.devRef .tc main_arg18) :=
  (keep_rw2 (W2 V) main_arg18 (by decide)).trans (at2_arg18 V)
theorem at4_arg18 (V : Valuation τ sig (Elt F)) : W4 V (Proc.devRef .tc main_arg18) = V (Proc.devRef .tc main_arg18) :=
  (keep_rw3 (W3 V) main_arg18 (by decide)).trans (at3_arg18 V)
theorem at5_arg18 (V : Valuation τ sig (Elt F)) : W5 V (Proc.devRef .tc main_arg18) = V (Proc.devRef .tc main_arg18) :=
  (keep_rw4 (W4 V) main_arg18 (by decide)).trans (at4_arg18 V)
theorem at6_arg18 (V : Valuation τ sig (Elt F)) : W6 V (Proc.devRef .tc main_arg18) = V (Proc.devRef .tc main_arg18) :=
  (keep_rw5 (W5 V) main_arg18 (by decide)).trans (at5_arg18 V)
theorem at7_arg18 (V : Valuation τ sig (Elt F)) : W7 V (Proc.devRef .tc main_arg18) = V (Proc.devRef .tc main_arg18) :=
  (keep_rw6 (W6 V) main_arg18 (by decide)).trans (at6_arg18 V)
theorem at8_arg18 (V : Valuation τ sig (Elt F)) : W8 V (Proc.devRef .tc main_arg18) = V (Proc.devRef .tc main_arg18) :=
  (keep_rw7 (W7 V) main_arg18 (by decide)).trans (at7_arg18 V)
theorem at9_arg18 (V : Valuation τ sig (Elt F)) : W9 V (Proc.devRef .tc main_arg18) = V (Proc.devRef .tc main_arg18) :=
  (keep_rw8 (W8 V) main_arg18 (by decide)).trans (at8_arg18 V)
theorem at10_arg18 (V : Valuation τ sig (Elt F)) : W10 V (Proc.devRef .tc main_arg18) = V (Proc.devRef .tc main_arg18) :=
  (keep_rw9 (W9 V) main_arg18 (by decide)).trans (at9_arg18 V)
theorem at11_arg18 (V : Valuation τ sig (Elt F)) : W11 V (Proc.devRef .tc main_arg18) = V (Proc.devRef .tc main_arg18) :=
  (keep_rw10 (W10 V) main_arg18 (by decide)).trans (at10_arg18 V)
theorem at12_arg18 (V : Valuation τ sig (Elt F)) : W12 V (Proc.devRef .tc main_arg18) = V (Proc.devRef .tc main_arg18) :=
  (keep_rw11 (W11 V) main_arg18 (by decide)).trans (at11_arg18 V)
theorem at13_arg18 (V : Valuation τ sig (Elt F)) : W13 V (Proc.devRef .tc main_arg18) = V (Proc.devRef .tc main_arg18) :=
  (keep_rw12 (W12 V) main_arg18 (by decide)).trans (at12_arg18 V)
theorem at14_arg18 (V : Valuation τ sig (Elt F)) : W14 V (Proc.devRef .tc main_arg18) = V (Proc.devRef .tc main_arg18) :=
  (keep_rw13 (W13 V) main_arg18 (by decide)).trans (at13_arg18 V)
theorem at15_arg18 (V : Valuation τ sig (Elt F)) : W15 V (Proc.devRef .tc main_arg18) = V (Proc.devRef .tc main_arg18) :=
  (keep_rw14 (W14 V) main_arg18 (by decide)).trans (at14_arg18 V)
theorem at1_arg19 (V : Valuation τ sig (Elt F)) : W1 V (Proc.devRef .tc main_arg19) = V (Proc.devRef .tc main_arg19) :=
  keep_rw0 V main_arg19 (by decide)
theorem at2_arg19 (V : Valuation τ sig (Elt F)) : W2 V (Proc.devRef .tc main_arg19) = V (Proc.devRef .tc main_arg19) :=
  (keep_rw1 (W1 V) main_arg19 (by decide)).trans (at1_arg19 V)
theorem at3_arg19 (V : Valuation τ sig (Elt F)) : W3 V (Proc.devRef .tc main_arg19) = V (Proc.devRef .tc main_arg19) :=
  (keep_rw2 (W2 V) main_arg19 (by decide)).trans (at2_arg19 V)
theorem at4_arg19 (V : Valuation τ sig (Elt F)) : W4 V (Proc.devRef .tc main_arg19) = V (Proc.devRef .tc main_arg19) :=
  (keep_rw3 (W3 V) main_arg19 (by decide)).trans (at3_arg19 V)
theorem at5_arg19 (V : Valuation τ sig (Elt F)) : W5 V (Proc.devRef .tc main_arg19) = V (Proc.devRef .tc main_arg19) :=
  (keep_rw4 (W4 V) main_arg19 (by decide)).trans (at4_arg19 V)
theorem at6_arg19 (V : Valuation τ sig (Elt F)) : W6 V (Proc.devRef .tc main_arg19) = V (Proc.devRef .tc main_arg19) :=
  (keep_rw5 (W5 V) main_arg19 (by decide)).trans (at5_arg19 V)
theorem at7_arg19 (V : Valuation τ sig (Elt F)) : W7 V (Proc.devRef .tc main_arg19) = V (Proc.devRef .tc main_arg19) :=
  (keep_rw6 (W6 V) main_arg19 (by decide)).trans (at6_arg19 V)
theorem at8_arg19 (V : Valuation τ sig (Elt F)) : W8 V (Proc.devRef .tc main_arg19) = V (Proc.devRef .tc main_arg19) :=
  (keep_rw7 (W7 V) main_arg19 (by decide)).trans (at7_arg19 V)
theorem at9_arg19 (V : Valuation τ sig (Elt F)) : W9 V (Proc.devRef .tc main_arg19) = V (Proc.devRef .tc main_arg19) :=
  (keep_rw8 (W8 V) main_arg19 (by decide)).trans (at8_arg19 V)
theorem at10_arg19 (V : Valuation τ sig (Elt F)) : W10 V (Proc.devRef .tc main_arg19) = V (Proc.devRef .tc main_arg19) :=
  (keep_rw9 (W9 V) main_arg19 (by decide)).trans (at9_arg19 V)
theorem at11_arg19 (V : Valuation τ sig (Elt F)) : W11 V (Proc.devRef .tc main_arg19) = V (Proc.devRef .tc main_arg19) :=
  (keep_rw10 (W10 V) main_arg19 (by decide)).trans (at10_arg19 V)
theorem at12_arg19 (V : Valuation τ sig (Elt F)) : W12 V (Proc.devRef .tc main_arg19) = V (Proc.devRef .tc main_arg19) :=
  (keep_rw11 (W11 V) main_arg19 (by decide)).trans (at11_arg19 V)
theorem at13_arg19 (V : Valuation τ sig (Elt F)) : W13 V (Proc.devRef .tc main_arg19) = V (Proc.devRef .tc main_arg19) :=
  (keep_rw12 (W12 V) main_arg19 (by decide)).trans (at12_arg19 V)
theorem at14_arg19 (V : Valuation τ sig (Elt F)) : W14 V (Proc.devRef .tc main_arg19) = V (Proc.devRef .tc main_arg19) :=
  (keep_rw13 (W13 V) main_arg19 (by decide)).trans (at13_arg19 V)
theorem at1_arg20 (V : Valuation τ sig (Elt F)) : W1 V (Proc.devRef .tc main_arg20) = V (Proc.devRef .tc main_arg20) :=
  keep_rw0 V main_arg20 (by decide)
theorem at2_arg20 (V : Valuation τ sig (Elt F)) : W2 V (Proc.devRef .tc main_arg20) = V (Proc.devRef .tc main_arg20) :=
  (keep_rw1 (W1 V) main_arg20 (by decide)).trans (at1_arg20 V)
theorem at3_arg20 (V : Valuation τ sig (Elt F)) : W3 V (Proc.devRef .tc main_arg20) = V (Proc.devRef .tc main_arg20) :=
  (keep_rw2 (W2 V) main_arg20 (by decide)).trans (at2_arg20 V)
theorem at4_arg20 (V : Valuation τ sig (Elt F)) : W4 V (Proc.devRef .tc main_arg20) = V (Proc.devRef .tc main_arg20) :=
  (keep_rw3 (W3 V) main_arg20 (by decide)).trans (at3_arg20 V)
theorem at5_arg20 (V : Valuation τ sig (Elt F)) : W5 V (Proc.devRef .tc main_arg20) = V (Proc.devRef .tc main_arg20) :=
  (keep_rw4 (W4 V) main_arg20 (by decide)).trans (at4_arg20 V)
theorem at6_arg20 (V : Valuation τ sig (Elt F)) : W6 V (Proc.devRef .tc main_arg20) = V (Proc.devRef .tc main_arg20) :=
  (keep_rw5 (W5 V) main_arg20 (by decide)).trans (at5_arg20 V)
theorem at7_arg20 (V : Valuation τ sig (Elt F)) : W7 V (Proc.devRef .tc main_arg20) = V (Proc.devRef .tc main_arg20) :=
  (keep_rw6 (W6 V) main_arg20 (by decide)).trans (at6_arg20 V)
theorem at8_arg20 (V : Valuation τ sig (Elt F)) : W8 V (Proc.devRef .tc main_arg20) = V (Proc.devRef .tc main_arg20) :=
  (keep_rw7 (W7 V) main_arg20 (by decide)).trans (at7_arg20 V)
theorem at9_arg20 (V : Valuation τ sig (Elt F)) : W9 V (Proc.devRef .tc main_arg20) = V (Proc.devRef .tc main_arg20) :=
  (keep_rw8 (W8 V) main_arg20 (by decide)).trans (at8_arg20 V)
theorem at10_arg20 (V : Valuation τ sig (Elt F)) : W10 V (Proc.devRef .tc main_arg20) = V (Proc.devRef .tc main_arg20) :=
  (keep_rw9 (W9 V) main_arg20 (by decide)).trans (at9_arg20 V)
theorem at11_arg20 (V : Valuation τ sig (Elt F)) : W11 V (Proc.devRef .tc main_arg20) = V (Proc.devRef .tc main_arg20) :=
  (keep_rw10 (W10 V) main_arg20 (by decide)).trans (at10_arg20 V)
theorem at12_arg20 (V : Valuation τ sig (Elt F)) : W12 V (Proc.devRef .tc main_arg20) = V (Proc.devRef .tc main_arg20) :=
  (keep_rw11 (W11 V) main_arg20 (by decide)).trans (at11_arg20 V)
theorem at13_arg20 (V : Valuation τ sig (Elt F)) : W13 V (Proc.devRef .tc main_arg20) = V (Proc.devRef .tc main_arg20) :=
  (keep_rw12 (W12 V) main_arg20 (by decide)).trans (at12_arg20 V)
theorem at14_arg20 (V : Valuation τ sig (Elt F)) : W14 V (Proc.devRef .tc main_arg20) = V (Proc.devRef .tc main_arg20) :=
  (keep_rw13 (W13 V) main_arg20 (by decide)).trans (at13_arg20 V)
theorem at15_arg20 (V : Valuation τ sig (Elt F)) : W15 V (Proc.devRef .tc main_arg20) = V (Proc.devRef .tc main_arg20) :=
  (keep_rw14 (W14 V) main_arg20 (by decide)).trans (at14_arg20 V)
theorem at16_arg20 (V : Valuation τ sig (Elt F)) : W16 V (Proc.devRef .tc main_arg20) = V (Proc.devRef .tc main_arg20) :=
  (keep_rw15 (W15 V) main_arg20 (by decide)).trans (at15_arg20 V)
theorem at1_arg21 (V : Valuation τ sig (Elt F)) : W1 V (Proc.devRef .tc main_arg21) = V (Proc.devRef .tc main_arg21) :=
  keep_rw0 V main_arg21 (by decide)
theorem at2_arg21 (V : Valuation τ sig (Elt F)) : W2 V (Proc.devRef .tc main_arg21) = V (Proc.devRef .tc main_arg21) :=
  (keep_rw1 (W1 V) main_arg21 (by decide)).trans (at1_arg21 V)
theorem at3_arg21 (V : Valuation τ sig (Elt F)) : W3 V (Proc.devRef .tc main_arg21) = V (Proc.devRef .tc main_arg21) :=
  (keep_rw2 (W2 V) main_arg21 (by decide)).trans (at2_arg21 V)
theorem at4_arg21 (V : Valuation τ sig (Elt F)) : W4 V (Proc.devRef .tc main_arg21) = V (Proc.devRef .tc main_arg21) :=
  (keep_rw3 (W3 V) main_arg21 (by decide)).trans (at3_arg21 V)
theorem at5_arg21 (V : Valuation τ sig (Elt F)) : W5 V (Proc.devRef .tc main_arg21) = V (Proc.devRef .tc main_arg21) :=
  (keep_rw4 (W4 V) main_arg21 (by decide)).trans (at4_arg21 V)
theorem at6_arg21 (V : Valuation τ sig (Elt F)) : W6 V (Proc.devRef .tc main_arg21) = V (Proc.devRef .tc main_arg21) :=
  (keep_rw5 (W5 V) main_arg21 (by decide)).trans (at5_arg21 V)
theorem at7_arg21 (V : Valuation τ sig (Elt F)) : W7 V (Proc.devRef .tc main_arg21) = V (Proc.devRef .tc main_arg21) :=
  (keep_rw6 (W6 V) main_arg21 (by decide)).trans (at6_arg21 V)
theorem at8_arg21 (V : Valuation τ sig (Elt F)) : W8 V (Proc.devRef .tc main_arg21) = V (Proc.devRef .tc main_arg21) :=
  (keep_rw7 (W7 V) main_arg21 (by decide)).trans (at7_arg21 V)
theorem at9_arg21 (V : Valuation τ sig (Elt F)) : W9 V (Proc.devRef .tc main_arg21) = V (Proc.devRef .tc main_arg21) :=
  (keep_rw8 (W8 V) main_arg21 (by decide)).trans (at8_arg21 V)
theorem at10_arg21 (V : Valuation τ sig (Elt F)) : W10 V (Proc.devRef .tc main_arg21) = V (Proc.devRef .tc main_arg21) :=
  (keep_rw9 (W9 V) main_arg21 (by decide)).trans (at9_arg21 V)
theorem at11_arg21 (V : Valuation τ sig (Elt F)) : W11 V (Proc.devRef .tc main_arg21) = V (Proc.devRef .tc main_arg21) :=
  (keep_rw10 (W10 V) main_arg21 (by decide)).trans (at10_arg21 V)
theorem at12_arg21 (V : Valuation τ sig (Elt F)) : W12 V (Proc.devRef .tc main_arg21) = V (Proc.devRef .tc main_arg21) :=
  (keep_rw11 (W11 V) main_arg21 (by decide)).trans (at11_arg21 V)
theorem at13_arg21 (V : Valuation τ sig (Elt F)) : W13 V (Proc.devRef .tc main_arg21) = V (Proc.devRef .tc main_arg21) :=
  (keep_rw12 (W12 V) main_arg21 (by decide)).trans (at12_arg21 V)
theorem at14_arg21 (V : Valuation τ sig (Elt F)) : W14 V (Proc.devRef .tc main_arg21) = V (Proc.devRef .tc main_arg21) :=
  (keep_rw13 (W13 V) main_arg21 (by decide)).trans (at13_arg21 V)
theorem at15_arg21 (V : Valuation τ sig (Elt F)) : W15 V (Proc.devRef .tc main_arg21) = V (Proc.devRef .tc main_arg21) :=
  (keep_rw14 (W14 V) main_arg21 (by decide)).trans (at14_arg21 V)
theorem at1_arg22 (V : Valuation τ sig (Elt F)) : W1 V (Proc.devRef .tc main_arg22) = V (Proc.devRef .tc main_arg22) :=
  keep_rw0 V main_arg22 (by decide)
theorem at2_arg22 (V : Valuation τ sig (Elt F)) : W2 V (Proc.devRef .tc main_arg22) = V (Proc.devRef .tc main_arg22) :=
  (keep_rw1 (W1 V) main_arg22 (by decide)).trans (at1_arg22 V)
theorem at3_arg22 (V : Valuation τ sig (Elt F)) : W3 V (Proc.devRef .tc main_arg22) = V (Proc.devRef .tc main_arg22) :=
  (keep_rw2 (W2 V) main_arg22 (by decide)).trans (at2_arg22 V)
theorem at4_arg22 (V : Valuation τ sig (Elt F)) : W4 V (Proc.devRef .tc main_arg22) = V (Proc.devRef .tc main_arg22) :=
  (keep_rw3 (W3 V) main_arg22 (by decide)).trans (at3_arg22 V)
theorem at5_arg22 (V : Valuation τ sig (Elt F)) : W5 V (Proc.devRef .tc main_arg22) = V (Proc.devRef .tc main_arg22) :=
  (keep_rw4 (W4 V) main_arg22 (by decide)).trans (at4_arg22 V)
theorem at6_arg22 (V : Valuation τ sig (Elt F)) : W6 V (Proc.devRef .tc main_arg22) = V (Proc.devRef .tc main_arg22) :=
  (keep_rw5 (W5 V) main_arg22 (by decide)).trans (at5_arg22 V)
theorem at7_arg22 (V : Valuation τ sig (Elt F)) : W7 V (Proc.devRef .tc main_arg22) = V (Proc.devRef .tc main_arg22) :=
  (keep_rw6 (W6 V) main_arg22 (by decide)).trans (at6_arg22 V)
theorem at8_arg22 (V : Valuation τ sig (Elt F)) : W8 V (Proc.devRef .tc main_arg22) = V (Proc.devRef .tc main_arg22) :=
  (keep_rw7 (W7 V) main_arg22 (by decide)).trans (at7_arg22 V)
theorem at9_arg22 (V : Valuation τ sig (Elt F)) : W9 V (Proc.devRef .tc main_arg22) = V (Proc.devRef .tc main_arg22) :=
  (keep_rw8 (W8 V) main_arg22 (by decide)).trans (at8_arg22 V)
theorem at10_arg22 (V : Valuation τ sig (Elt F)) : W10 V (Proc.devRef .tc main_arg22) = V (Proc.devRef .tc main_arg22) :=
  (keep_rw9 (W9 V) main_arg22 (by decide)).trans (at9_arg22 V)
theorem at11_arg22 (V : Valuation τ sig (Elt F)) : W11 V (Proc.devRef .tc main_arg22) = V (Proc.devRef .tc main_arg22) :=
  (keep_rw10 (W10 V) main_arg22 (by decide)).trans (at10_arg22 V)
theorem at12_arg22 (V : Valuation τ sig (Elt F)) : W12 V (Proc.devRef .tc main_arg22) = V (Proc.devRef .tc main_arg22) :=
  (keep_rw11 (W11 V) main_arg22 (by decide)).trans (at11_arg22 V)
theorem at13_arg22 (V : Valuation τ sig (Elt F)) : W13 V (Proc.devRef .tc main_arg22) = V (Proc.devRef .tc main_arg22) :=
  (keep_rw12 (W12 V) main_arg22 (by decide)).trans (at12_arg22 V)
theorem at14_arg22 (V : Valuation τ sig (Elt F)) : W14 V (Proc.devRef .tc main_arg22) = V (Proc.devRef .tc main_arg22) :=
  (keep_rw13 (W13 V) main_arg22 (by decide)).trans (at13_arg22 V)
theorem at15_arg22 (V : Valuation τ sig (Elt F)) : W15 V (Proc.devRef .tc main_arg22) = V (Proc.devRef .tc main_arg22) :=
  (keep_rw14 (W14 V) main_arg22 (by decide)).trans (at14_arg22 V)
theorem at16_arg22 (V : Valuation τ sig (Elt F)) : W16 V (Proc.devRef .tc main_arg22) = V (Proc.devRef .tc main_arg22) :=
  (keep_rw15 (W15 V) main_arg22 (by decide)).trans (at15_arg22 V)
theorem at17_arg22 (V : Valuation τ sig (Elt F)) : W17 V (Proc.devRef .tc main_arg22) = V (Proc.devRef .tc main_arg22) :=
  (keep_rw16 (W16 V) main_arg22 (by decide)).trans (at16_arg22 V)

/-! ## Every buffer live at a window's end is at its stage -/

theorem at1_v51 (V : Valuation τ sig (Elt F)) :
    W1 V (Proc.devRef .tc main_v51) = val_main_v51 (F := F) (V (Proc.devRef .tc main_arg0)) (V (Proc.devRef .tc main_arg16)) :=
  rd0_v51 V (V (Proc.devRef .tc main_arg0)) (V (Proc.devRef .tc main_arg4)) (V (Proc.devRef .tc main_arg5)) (V (Proc.devRef .tc main_arg6)) (V (Proc.devRef .tc main_arg15)) (V (Proc.devRef .tc main_arg16))
    rfl rfl rfl rfl rfl rfl
theorem at1_v38 (V : Valuation τ sig (Elt F)) :
    W1 V (Proc.devRef .tc main_v38) = val_main_v38 (F := F) (V (Proc.devRef .tc main_arg4)) :=
  rd0_v38 V (V (Proc.devRef .tc main_arg0)) (V (Proc.devRef .tc main_arg4)) (V (Proc.devRef .tc main_arg5)) (V (Proc.devRef .tc main_arg6)) (V (Proc.devRef .tc main_arg15)) (V (Proc.devRef .tc main_arg16))
    rfl rfl rfl rfl rfl rfl
theorem at1_v40 (V : Valuation τ sig (Elt F)) :
    W1 V (Proc.devRef .tc main_v40) = val_main_v40 (F := F) (V (Proc.devRef .tc main_arg5)) :=
  rd0_v40 V (V (Proc.devRef .tc main_arg0)) (V (Proc.devRef .tc main_arg4)) (V (Proc.devRef .tc main_arg5)) (V (Proc.devRef .tc main_arg6)) (V (Proc.devRef .tc main_arg15)) (V (Proc.devRef .tc main_arg16))
    rfl rfl rfl rfl rfl rfl
theorem at1_v42 (V : Valuation τ sig (Elt F)) :
    W1 V (Proc.devRef .tc main_v42) = val_main_v42 (F := F) (V (Proc.devRef .tc main_arg6)) :=
  rd0_v42 V (V (Proc.devRef .tc main_arg0)) (V (Proc.devRef .tc main_arg4)) (V (Proc.devRef .tc main_arg5)) (V (Proc.devRef .tc main_arg6)) (V (Proc.devRef .tc main_arg15)) (V (Proc.devRef .tc main_arg16))
    rfl rfl rfl rfl rfl rfl
theorem at1_v36 (V : Valuation τ sig (Elt F)) :
    W1 V (Proc.devRef .tc main_v36) = val_main_v36 (F := F) (V (Proc.devRef .tc main_arg0)) (V (Proc.devRef .tc main_arg4)) (V (Proc.devRef .tc main_arg5)) (V (Proc.devRef .tc main_arg6)) (V (Proc.devRef .tc main_arg15)) :=
  rd0_v36 V (V (Proc.devRef .tc main_arg0)) (V (Proc.devRef .tc main_arg4)) (V (Proc.devRef .tc main_arg5)) (V (Proc.devRef .tc main_arg6)) (V (Proc.devRef .tc main_arg15)) (V (Proc.devRef .tc main_arg16))
    rfl rfl rfl rfl rfl rfl
theorem at2_v100 (V : Valuation τ sig (Elt F)) :
    W2 V (Proc.devRef .tc main_v100) = val_main_v100 (F := F) (V (Proc.devRef .tc main_arg17)) :=
  rd1_v100 (W1 V) (V (Proc.devRef .tc main_arg0)) (V (Proc.devRef .tc main_arg1)) (V (Proc.devRef .tc main_arg4)) (V (Proc.devRef .tc main_arg5)) (V (Proc.devRef .tc main_arg6)) (V (Proc.devRef .tc main_arg15)) (V (Proc.devRef .tc main_arg16)) (V (Proc.devRef .tc main_arg17))
    (at1_arg0 V) (at1_arg1 V) (at1_arg4 V) (at1_arg5 V) (at1_arg6 V) (at1_arg16 V) (at1_arg17 V) (at1_v51 V) (at1_v38 V) (at1_v40 V) (at1_v42 V) (at1_v36 V)
theorem at2_v101 (V : Valuation τ sig (Elt F)) :
    W2 V (Proc.devRef .tc main_v101) = val_main_v101 (F := F) :=
  rd1_v101 (W1 V) (V (Proc.devRef .tc main_arg0)) (V (Proc.devRef .tc main_arg1)) (V (Proc.devRef .tc main_arg4)) (V (Proc.devRef .tc main_arg5)) (V (Proc.devRef .tc main_arg6)) (V (Proc.devRef .tc main_arg15)) (V (Proc.devRef .tc main_arg16)) (V (Proc.devRef .tc main_arg17))
    (at1_arg0 V) (at1_arg1 V) (at1_arg4 V) (at1_arg5 V) (at1_arg6 V) (at1_arg16 V) (at1_arg17 V) (at1_v51 V) (at1_v38 V) (at1_v40 V) (at1_v42 V) (at1_v36 V)
theorem at2_v94 (V : Valuation τ sig (Elt F)) :
    W2 V (Proc.devRef .tc main_v94) = val_main_v94 (F := F) (V (Proc.devRef .tc main_arg1)) (V (Proc.devRef .tc main_arg17)) :=
  rd1_v94 (W1 V) (V (Proc.devRef .tc main_arg0)) (V (Proc.devRef .tc main_arg1)) (V (Proc.devRef .tc main_arg4)) (V (Proc.devRef .tc main_arg5)) (V (Proc.devRef .tc main_arg6)) (V (Proc.devRef .tc main_arg15)) (V (Proc.devRef .tc main_arg16)) (V (Proc.devRef .tc main_arg17))
    (at1_arg0 V) (at1_arg1 V) (at1_arg4 V) (at1_arg5 V) (at1_arg6 V) (at1_arg16 V) (at1_arg17 V) (at1_v51 V) (at1_v38 V) (at1_v40 V) (at1_v42 V) (at1_v36 V)
theorem at2_v76 (V : Valuation τ sig (Elt F)) :
    W2 V (Proc.devRef .tc main_v76) = val_main_v76 (F := F) (V (Proc.devRef .tc main_arg4)) :=
  rd1_v76 (W1 V) (V (Proc.devRef .tc main_arg0)) (V (Proc.devRef .tc main_arg1)) (V (Proc.devRef .tc main_arg4)) (V (Proc.devRef .tc main_arg5)) (V (Proc.devRef .tc main_arg6)) (V (Proc.devRef .tc main_arg15)) (V (Proc.devRef .tc main_arg16)) (V (Proc.devRef .tc main_arg17))
    (at1_arg0 V) (at1_arg1 V) (at1_arg4 V) (at1_arg5 V) (at1_arg6 V) (at1_arg16 V) (at1_arg17 V) (at1_v51 V) (at1_v38 V) (at1_v40 V) (at1_v42 V) (at1_v36 V)
theorem at2_v78 (V : Valuation τ sig (Elt F)) :
    W2 V (Proc.devRef .tc main_v78) = val_main_v78 (F := F) (V (Proc.devRef .tc main_arg5)) :=
  rd1_v78 (W1 V) (V (Proc.devRef .tc main_arg0)) (V (Proc.devRef .tc main_arg1)) (V (Proc.devRef .tc main_arg4)) (V (Proc.devRef .tc main_arg5)) (V (Proc.devRef .tc main_arg6)) (V (Proc.devRef .tc main_arg15)) (V (Proc.devRef .tc main_arg16)) (V (Proc.devRef .tc main_arg17))
    (at1_arg0 V) (at1_arg1 V) (at1_arg4 V) (at1_arg5 V) (at1_arg6 V) (at1_arg16 V) (at1_arg17 V) (at1_v51 V) (at1_v38 V) (at1_v40 V) (at1_v42 V) (at1_v36 V)
theorem at2_v80 (V : Valuation τ sig (Elt F)) :
    W2 V (Proc.devRef .tc main_v80) = val_main_v80 (F := F) (V (Proc.devRef .tc main_arg6)) :=
  rd1_v80 (W1 V) (V (Proc.devRef .tc main_arg0)) (V (Proc.devRef .tc main_arg1)) (V (Proc.devRef .tc main_arg4)) (V (Proc.devRef .tc main_arg5)) (V (Proc.devRef .tc main_arg6)) (V (Proc.devRef .tc main_arg15)) (V (Proc.devRef .tc main_arg16)) (V (Proc.devRef .tc main_arg17))
    (at1_arg0 V) (at1_arg1 V) (at1_arg4 V) (at1_arg5 V) (at1_arg6 V) (at1_arg16 V) (at1_arg17 V) (at1_v51 V) (at1_v38 V) (at1_v40 V) (at1_v42 V) (at1_v36 V)
theorem at2_v74 (V : Valuation τ sig (Elt F)) :
    W2 V (Proc.devRef .tc main_v74) = val_main_v74 (F := F) (V (Proc.devRef .tc main_arg0)) (V (Proc.devRef .tc main_arg4)) (V (Proc.devRef .tc main_arg5)) (V (Proc.devRef .tc main_arg6)) (V (Proc.devRef .tc main_arg15)) (V (Proc.devRef .tc main_arg16)) :=
  rd1_v74 (W1 V) (V (Proc.devRef .tc main_arg0)) (V (Proc.devRef .tc main_arg1)) (V (Proc.devRef .tc main_arg4)) (V (Proc.devRef .tc main_arg5)) (V (Proc.devRef .tc main_arg6)) (V (Proc.devRef .tc main_arg15)) (V (Proc.devRef .tc main_arg16)) (V (Proc.devRef .tc main_arg17))
    (at1_arg0 V) (at1_arg1 V) (at1_arg4 V) (at1_arg5 V) (at1_arg6 V) (at1_arg16 V) (at1_arg17 V) (at1_v51 V) (at1_v38 V) (at1_v40 V) (at1_v42 V) (at1_v36 V)
theorem at3_v155 (V : Valuation τ sig (Elt F)) :
    W3 V (Proc.devRef .tc main_v155) = val_main_v155 (F := F) (V (Proc.devRef .tc main_arg6)) :=
  rd2_v155 (W2 V) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19))
    (at2_arg0 V) (at2_arg2 V) (at2_arg4 V) (at2_arg5 V) (at2_arg6 V) (at2_arg19 V) (at2_v100 V) (at2_v101 V) (at2_v94 V) (at2_v76 V) (at2_v78 V) (at2_v80 V) (at2_v74 V)
theorem at3_v152 (V : Valuation τ sig (Elt F)) :
    W3 V (Proc.devRef .tc main_v152) = val_main_v152 (F := F) (V (Proc.devRef .tc main_arg4)) :=
  rd2_v152 (W2 V) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19))
    (at2_arg0 V) (at2_arg2 V) (at2_arg4 V) (at2_arg5 V) (at2_arg6 V) (at2_arg19 V) (at2_v100 V) (at2_v101 V) (at2_v94 V) (at2_v76 V) (at2_v78 V) (at2_v80 V) (at2_v74 V)
theorem at3_v154 (V : Valuation τ sig (Elt F)) :
    W3 V (Proc.devRef .tc main_v154) = val_main_v154 (F := F) (V (Proc.devRef .tc main_arg5)) :=
  rd2_v154 (W2 V) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19))
    (at2_arg0 V) (at2_arg2 V) (at2_arg4 V) (at2_arg5 V) (at2_arg6 V) (at2_arg19 V) (at2_v100 V) (at2_v101 V) (at2_v94 V) (at2_v76 V) (at2_v78 V) (at2_v80 V) (at2_v74 V)
theorem at3_v150 (V : Valuation τ sig (Elt F)) :
    W3 V (Proc.devRef .tc main_v150) = val_main_v150 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) :=
  rd2_v150 (W2 V) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19))
    (at2_arg0 V) (at2_arg2 V) (at2_arg4 V) (at2_arg5 V) (at2_arg6 V) (at2_arg19 V) (at2_v100 V) (at2_v101 V) (at2_v94 V) (at2_v76 V) (at2_v78 V) (at2_v80 V) (at2_v74 V)
theorem at4_v205 (V : Valuation τ sig (Elt F)) :
    W4 V (Proc.devRef .tc main_v205) = val_main_v205 (F := F) (V (Proc.devRef .tc main_arg18)) :=
  rd3_v205 (W3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at3_arg0 V) (at3_arg3 V) (at3_arg4 V) (at3_arg5 V) (at3_arg6 V) (at3_arg18 V) (at3_arg21 V) (at3_v155 V) (at3_v152 V) (at3_v154 V) (at3_v150 V)
theorem at4_v206 (V : Valuation τ sig (Elt F)) :
    W4 V (Proc.devRef .tc main_v206) = val_main_v206 (F := F) :=
  rd3_v206 (W3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at3_arg0 V) (at3_arg3 V) (at3_arg4 V) (at3_arg5 V) (at3_arg6 V) (at3_arg18 V) (at3_arg21 V) (at3_v155 V) (at3_v152 V) (at3_v154 V) (at3_v150 V)
theorem at4_v203 (V : Valuation τ sig (Elt F)) :
    W4 V (Proc.devRef .tc main_v203) = val_main_v203 (F := F) (V (Proc.devRef .tc main_arg0)) (V (Proc.devRef .tc main_arg18)) :=
  rd3_v203 (W3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at3_arg0 V) (at3_arg3 V) (at3_arg4 V) (at3_arg5 V) (at3_arg6 V) (at3_arg18 V) (at3_arg21 V) (at3_v155 V) (at3_v152 V) (at3_v154 V) (at3_v150 V)
theorem at4_v190 (V : Valuation τ sig (Elt F)) :
    W4 V (Proc.devRef .tc main_v190) = val_main_v190 (F := F) (V (Proc.devRef .tc main_arg4)) :=
  rd3_v190 (W3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at3_arg0 V) (at3_arg3 V) (at3_arg4 V) (at3_arg5 V) (at3_arg6 V) (at3_arg18 V) (at3_arg21 V) (at3_v155 V) (at3_v152 V) (at3_v154 V) (at3_v150 V)
theorem at4_v192 (V : Valuation τ sig (Elt F)) :
    W4 V (Proc.devRef .tc main_v192) = val_main_v192 (F := F) (V (Proc.devRef .tc main_arg5)) :=
  rd3_v192 (W3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at3_arg0 V) (at3_arg3 V) (at3_arg4 V) (at3_arg5 V) (at3_arg6 V) (at3_arg18 V) (at3_arg21 V) (at3_v155 V) (at3_v152 V) (at3_v154 V) (at3_v150 V)
theorem at4_v194 (V : Valuation τ sig (Elt F)) :
    W4 V (Proc.devRef .tc main_v194) = val_main_v194 (F := F) (V (Proc.devRef .tc main_arg6)) :=
  rd3_v194 (W3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at3_arg0 V) (at3_arg3 V) (at3_arg4 V) (at3_arg5 V) (at3_arg6 V) (at3_arg18 V) (at3_arg21 V) (at3_v155 V) (at3_v152 V) (at3_v154 V) (at3_v150 V)
theorem at4_v188 (V : Valuation τ sig (Elt F)) :
    W4 V (Proc.devRef .tc main_v188) = val_main_v188 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  rd3_v188 (W3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at3_arg0 V) (at3_arg3 V) (at3_arg4 V) (at3_arg5 V) (at3_arg6 V) (at3_arg18 V) (at3_arg21 V) (at3_v155 V) (at3_v152 V) (at3_v154 V) (at3_v150 V)
theorem at5_v229 (V : Valuation τ sig (Elt F)) :
    W5 V (Proc.devRef .tc main_v229) = val_main_v229 (F := F) (V (Proc.devRef .tc main_arg5)) :=
  rd4_v229 (W4 V) (V (Proc.devRef .tc main_arg0)) (V (Proc.devRef .tc main_arg1)) (V (Proc.devRef .tc main_arg4)) (V (Proc.devRef .tc main_arg5)) (V (Proc.devRef .tc main_arg6)) (V (Proc.devRef .tc main_arg18)) (V (Proc.devRef .tc main_arg20))
    (at4_arg0 V) (at4_arg1 V) (at4_arg4 V) (at4_arg5 V) (at4_arg6 V) (at4_arg18 V) (at4_arg20 V) (at4_v205 V) (at4_v206 V) (at4_v203 V) (at4_v190 V) (at4_v192 V) (at4_v194 V)
theorem at5_v257 (V : Valuation τ sig (Elt F)) :
    W5 V (Proc.devRef .tc main_v257) = val_main_v257 (F := F) (V (Proc.devRef .tc main_arg0)) (V (Proc.devRef .tc main_arg4)) (V (Proc.devRef .tc main_arg20)) :=
  rd4_v257 (W4 V) (V (Proc.devRef .tc main_arg0)) (V (Proc.devRef .tc main_arg1)) (V (Proc.devRef .tc main_arg4)) (V (Proc.devRef .tc main_arg5)) (V (Proc.devRef .tc main_arg6)) (V (Proc.devRef .tc main_arg18)) (V (Proc.devRef .tc main_arg20))
    (at4_arg0 V) (at4_arg1 V) (at4_arg4 V) (at4_arg5 V) (at4_arg6 V) (at4_arg18 V) (at4_arg20 V) (at4_v205 V) (at4_v206 V) (at4_v203 V) (at4_v190 V) (at4_v192 V) (at4_v194 V)
theorem at5_v231 (V : Valuation τ sig (Elt F)) :
    W5 V (Proc.devRef .tc main_v231) = val_main_v231 (F := F) (V (Proc.devRef .tc main_arg6)) :=
  rd4_v231 (W4 V) (V (Proc.devRef .tc main_arg0)) (V (Proc.devRef .tc main_arg1)) (V (Proc.devRef .tc main_arg4)) (V (Proc.devRef .tc main_arg5)) (V (Proc.devRef .tc main_arg6)) (V (Proc.devRef .tc main_arg18)) (V (Proc.devRef .tc main_arg20))
    (at4_arg0 V) (at4_arg1 V) (at4_arg4 V) (at4_arg5 V) (at4_arg6 V) (at4_arg18 V) (at4_arg20 V) (at4_v205 V) (at4_v206 V) (at4_v203 V) (at4_v190 V) (at4_v192 V) (at4_v194 V)
theorem at5_v188 (V : Valuation τ sig (Elt F)) :
    W5 V (Proc.devRef .tc main_v188) = val_main_v188 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  (keep_rw4 (W4 V) main_v188 (by decide)).trans (at4_v188 V)
theorem at5_v225 (V : Valuation τ sig (Elt F)) :
    W5 V (Proc.devRef .tc main_v225) = val_main_v225 (F := F) (V (Proc.devRef .tc main_arg0)) (V (Proc.devRef .tc main_arg1)) (V (Proc.devRef .tc main_arg4)) (V (Proc.devRef .tc main_arg5)) (V (Proc.devRef .tc main_arg6)) (V (Proc.devRef .tc main_arg18)) :=
  rd4_v225 (W4 V) (V (Proc.devRef .tc main_arg0)) (V (Proc.devRef .tc main_arg1)) (V (Proc.devRef .tc main_arg4)) (V (Proc.devRef .tc main_arg5)) (V (Proc.devRef .tc main_arg6)) (V (Proc.devRef .tc main_arg18)) (V (Proc.devRef .tc main_arg20))
    (at4_arg0 V) (at4_arg1 V) (at4_arg4 V) (at4_arg5 V) (at4_arg6 V) (at4_arg18 V) (at4_arg20 V) (at4_v205 V) (at4_v206 V) (at4_v203 V) (at4_v190 V) (at4_v192 V) (at4_v194 V)
theorem at6_v311 (V : Valuation τ sig (Elt F)) :
    W6 V (Proc.devRef .tc main_v311) = val_main_v311 (F := F) (V (Proc.devRef .tc main_arg15)) :=
  rd5_v311 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at6_v300 (V : Valuation τ sig (Elt F)) :
    W6 V (Proc.devRef .tc main_v300) = val_main_v300 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  rd5_v300 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at6_v305 (V : Valuation τ sig (Elt F)) :
    W6 V (Proc.devRef .tc main_v305) = val_main_v305 (F := F) (V (Proc.devRef .tc main_arg4)) :=
  rd5_v305 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at6_v307 (V : Valuation τ sig (Elt F)) :
    W6 V (Proc.devRef .tc main_v307) = val_main_v307 (F := F) (V (Proc.devRef .tc main_arg5)) :=
  rd5_v307 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at6_v309 (V : Valuation τ sig (Elt F)) :
    W6 V (Proc.devRef .tc main_v309) = val_main_v309 (F := F) (V (Proc.devRef .tc main_arg6)) :=
  rd5_v309 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at6_v301 (V : Valuation τ sig (Elt F)) :
    W6 V (Proc.devRef .tc main_v301) = val_main_v301 (F := F) (V (Proc.devRef .tc main_arg0)) (V (Proc.devRef .tc main_arg1)) (V (Proc.devRef .tc main_arg4)) (V (Proc.devRef .tc main_arg5)) (V (Proc.devRef .tc main_arg6)) (V (Proc.devRef .tc main_arg18)) :=
  rd5_v301 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at6_v302 (V : Valuation τ sig (Elt F)) :
    W6 V (Proc.devRef .tc main_v302) = val_main_v302 (F := F) (V (Proc.devRef .tc main_arg0)) (V (Proc.devRef .tc main_arg2)) (V (Proc.devRef .tc main_arg4)) (V (Proc.devRef .tc main_arg5)) (V (Proc.devRef .tc main_arg6)) (V (Proc.devRef .tc main_arg20)) :=
  rd5_v302 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at6_v303 (V : Valuation τ sig (Elt F)) :
    W6 V (Proc.devRef .tc main_v303) = val_main_v303 (F := F) (V (Proc.devRef .tc main_arg0)) (V (Proc.devRef .tc main_arg3)) (V (Proc.devRef .tc main_arg4)) (V (Proc.devRef .tc main_arg5)) (V (Proc.devRef .tc main_arg6)) (V (Proc.devRef .tc main_arg22)) :=
  rd5_v303 (W5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at5_arg0 V) (at5_arg2 V) (at5_arg3 V) (at5_arg4 V) (at5_arg5 V) (at5_arg6 V) (at5_arg15 V) (at5_arg22 V) (at5_v229 V) (at5_v257 V) (at5_v231 V) (at5_v188 V) (at5_v225 V)
theorem at7_v361 (V : Valuation τ sig (Elt F)) :
    W7 V (Proc.devRef .tc main_v361) = val_main_v361 (F := F) :=
  rd6_v361 (W6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21))
    (at6_arg4 V) (at6_arg5 V) (at6_arg6 V) (at6_arg15 V) (at6_arg16 V) (at6_v311 V) (at6_v300 V) (at6_v305 V) (at6_v307 V) (at6_v309 V)
theorem at7_v360 (V : Valuation τ sig (Elt F)) :
    W7 V (Proc.devRef .tc main_v360) = val_main_v360 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  rd6_v360 (W6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21))
    (at6_arg4 V) (at6_arg5 V) (at6_arg6 V) (at6_arg15 V) (at6_arg16 V) (at6_v311 V) (at6_v300 V) (at6_v305 V) (at6_v307 V) (at6_v309 V)
theorem at7_v342 (V : Valuation τ sig (Elt F)) :
    W7 V (Proc.devRef .tc main_v342) = val_main_v342 (F := F) (V (Proc.devRef .tc main_arg4)) :=
  rd6_v342 (W6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21))
    (at6_arg4 V) (at6_arg5 V) (at6_arg6 V) (at6_arg15 V) (at6_arg16 V) (at6_v311 V) (at6_v300 V) (at6_v305 V) (at6_v307 V) (at6_v309 V)
theorem at7_v344 (V : Valuation τ sig (Elt F)) :
    W7 V (Proc.devRef .tc main_v344) = val_main_v344 (F := F) (V (Proc.devRef .tc main_arg5)) :=
  rd6_v344 (W6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21))
    (at6_arg4 V) (at6_arg5 V) (at6_arg6 V) (at6_arg15 V) (at6_arg16 V) (at6_v311 V) (at6_v300 V) (at6_v305 V) (at6_v307 V) (at6_v309 V)
theorem at7_v300 (V : Valuation τ sig (Elt F)) :
    W7 V (Proc.devRef .tc main_v300) = val_main_v300 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  (keep_rw6 (W6 V) main_v300 (by decide)).trans (at6_v300 V)
theorem at7_v346 (V : Valuation τ sig (Elt F)) :
    W7 V (Proc.devRef .tc main_v346) = val_main_v346 (F := F) (V (Proc.devRef .tc main_arg6)) :=
  rd6_v346 (W6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21))
    (at6_arg4 V) (at6_arg5 V) (at6_arg6 V) (at6_arg15 V) (at6_arg16 V) (at6_v311 V) (at6_v300 V) (at6_v305 V) (at6_v307 V) (at6_v309 V)
theorem at7_v340 (V : Valuation τ sig (Elt F)) :
    W7 V (Proc.devRef .tc main_v340) = val_main_v340 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  rd6_v340 (W6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21))
    (at6_arg4 V) (at6_arg5 V) (at6_arg6 V) (at6_arg15 V) (at6_arg16 V) (at6_v311 V) (at6_v300 V) (at6_v305 V) (at6_v307 V) (at6_v309 V)
theorem at7_v301 (V : Valuation τ sig (Elt F)) :
    W7 V (Proc.devRef .tc main_v301) = val_main_v301 (F := F) (V (Proc.devRef .tc main_arg0)) (V (Proc.devRef .tc main_arg1)) (V (Proc.devRef .tc main_arg4)) (V (Proc.devRef .tc main_arg5)) (V (Proc.devRef .tc main_arg6)) (V (Proc.devRef .tc main_arg18)) :=
  (keep_rw6 (W6 V) main_v301 (by decide)).trans (at6_v301 V)
theorem at7_v302 (V : Valuation τ sig (Elt F)) :
    W7 V (Proc.devRef .tc main_v302) = val_main_v302 (F := F) (V (Proc.devRef .tc main_arg0)) (V (Proc.devRef .tc main_arg2)) (V (Proc.devRef .tc main_arg4)) (V (Proc.devRef .tc main_arg5)) (V (Proc.devRef .tc main_arg6)) (V (Proc.devRef .tc main_arg20)) :=
  (keep_rw6 (W6 V) main_v302 (by decide)).trans (at6_v302 V)
theorem at7_v303 (V : Valuation τ sig (Elt F)) :
    W7 V (Proc.devRef .tc main_v303) = val_main_v303 (F := F) (V (Proc.devRef .tc main_arg0)) (V (Proc.devRef .tc main_arg3)) (V (Proc.devRef .tc main_arg4)) (V (Proc.devRef .tc main_arg5)) (V (Proc.devRef .tc main_arg6)) (V (Proc.devRef .tc main_arg22)) :=
  (keep_rw6 (W6 V) main_v303 (by decide)).trans (at6_v303 V)
theorem at8_v300 (V : Valuation τ sig (Elt F)) :
    W8 V (Proc.devRef .tc main_v300) = val_main_v300 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  (keep_rw7 (W7 V) main_v300 (by decide)).trans (at7_v300 V)
theorem at8_v384 (V : Valuation τ sig (Elt F)) :
    W8 V (Proc.devRef .tc main_v384) = val_main_v384 (F := F) (V (Proc.devRef .tc main_arg6)) :=
  rd7_v384 (W7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at7_arg4 V) (at7_arg5 V) (at7_arg6 V) (at7_arg16 V) (at7_arg17 V) (at7_v361 V) (at7_v360 V) (at7_v342 V) (at7_v344 V) (at7_v300 V) (at7_v346 V) (at7_v340 V) (at7_v301 V)
theorem at8_v413 (V : Valuation τ sig (Elt F)) :
    W8 V (Proc.devRef .tc main_v413) = val_main_v413 (F := F) (V (Proc.devRef .tc main_arg0)) (V (Proc.devRef .tc main_arg1)) (V (Proc.devRef .tc main_arg4)) (V (Proc.devRef .tc main_arg5)) (V (Proc.devRef .tc main_arg6)) (V (Proc.devRef .tc main_arg17)) (V (Proc.devRef .tc main_arg18)) :=
  rd7_v413 (W7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at7_arg4 V) (at7_arg5 V) (at7_arg6 V) (at7_arg16 V) (at7_arg17 V) (at7_v361 V) (at7_v360 V) (at7_v342 V) (at7_v344 V) (at7_v300 V) (at7_v346 V) (at7_v340 V) (at7_v301 V)
theorem at8_v378 (V : Valuation τ sig (Elt F)) :
    W8 V (Proc.devRef .tc main_v378) = val_main_v378 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  rd7_v378 (W7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21))
    (at7_arg4 V) (at7_arg5 V) (at7_arg6 V) (at7_arg16 V) (at7_arg17 V) (at7_v361 V) (at7_v360 V) (at7_v342 V) (at7_v344 V) (at7_v300 V) (at7_v346 V) (at7_v340 V) (at7_v301 V)
theorem at8_v302 (V : Valuation τ sig (Elt F)) :
    W8 V (Proc.devRef .tc main_v302) = val_main_v302 (F := F) (V (Proc.devRef .tc main_arg0)) (V (Proc.devRef .tc main_arg2)) (V (Proc.devRef .tc main_arg4)) (V (Proc.devRef .tc main_arg5)) (V (Proc.devRef .tc main_arg6)) (V (Proc.devRef .tc main_arg20)) :=
  (keep_rw7 (W7 V) main_v302 (by decide)).trans (at7_v302 V)
theorem at8_v303 (V : Valuation τ sig (Elt F)) :
    W8 V (Proc.devRef .tc main_v303) = val_main_v303 (F := F) (V (Proc.devRef .tc main_arg0)) (V (Proc.devRef .tc main_arg3)) (V (Proc.devRef .tc main_arg4)) (V (Proc.devRef .tc main_arg5)) (V (Proc.devRef .tc main_arg6)) (V (Proc.devRef .tc main_arg22)) :=
  (keep_rw7 (W7 V) main_v303 (by decide)).trans (at7_v303 V)
theorem at8_v301 (V : Valuation τ sig (Elt F)) :
    W8 V (Proc.devRef .tc main_v301) = val_main_v301 (F := F) (V (Proc.devRef .tc main_arg0)) (V (Proc.devRef .tc main_arg1)) (V (Proc.devRef .tc main_arg4)) (V (Proc.devRef .tc main_arg5)) (V (Proc.devRef .tc main_arg6)) (V (Proc.devRef .tc main_arg18)) :=
  (keep_rw7 (W7 V) main_v301 (by decide)).trans (at7_v301 V)
theorem at9_v462 (V : Valuation τ sig (Elt F)) :
    W9 V (Proc.devRef .tc main_v462) = val_main_v462 (F := F) (V (Proc.devRef .tc main_arg21)) :=
  rd8_v462 (W8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at8_arg4 V) (at8_arg5 V) (at8_arg6 V) (at8_arg19 V) (at8_arg21 V) (at8_v300 V) (at8_v384 V) (at8_v413 V) (at8_v378 V) (at8_v302 V)
theorem at9_v465 (V : Valuation τ sig (Elt F)) :
    W9 V (Proc.devRef .tc main_v465) = val_main_v465 (F := F) :=
  rd8_v465 (W8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at8_arg4 V) (at8_arg5 V) (at8_arg6 V) (at8_arg19 V) (at8_arg21 V) (at8_v300 V) (at8_v384 V) (at8_v413 V) (at8_v378 V) (at8_v302 V)
theorem at9_v464 (V : Valuation τ sig (Elt F)) :
    W9 V (Proc.devRef .tc main_v464) = val_main_v464 (F := F) (V (Proc.devRef .tc main_arg21)) :=
  rd8_v464 (W8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at8_arg4 V) (at8_arg5 V) (at8_arg6 V) (at8_arg19 V) (at8_arg21 V) (at8_v300 V) (at8_v384 V) (at8_v413 V) (at8_v378 V) (at8_v302 V)
theorem at9_v303 (V : Valuation τ sig (Elt F)) :
    W9 V (Proc.devRef .tc main_v303) = val_main_v303 (F := F) (V (Proc.devRef .tc main_arg0)) (V (Proc.devRef .tc main_arg3)) (V (Proc.devRef .tc main_arg4)) (V (Proc.devRef .tc main_arg5)) (V (Proc.devRef .tc main_arg6)) (V (Proc.devRef .tc main_arg22)) :=
  (keep_rw8 (W8 V) main_v303 (by decide)).trans (at8_v303 V)
theorem at9_v456 (V : Valuation τ sig (Elt F)) :
    W9 V (Proc.devRef .tc main_v456) = val_main_v456 (F := F) (V (Proc.devRef .tc main_arg4)) :=
  rd8_v456 (W8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at8_arg4 V) (at8_arg5 V) (at8_arg6 V) (at8_arg19 V) (at8_arg21 V) (at8_v300 V) (at8_v384 V) (at8_v413 V) (at8_v378 V) (at8_v302 V)
theorem at9_v458 (V : Valuation τ sig (Elt F)) :
    W9 V (Proc.devRef .tc main_v458) = val_main_v458 (F := F) (V (Proc.devRef .tc main_arg5)) :=
  rd8_v458 (W8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at8_arg4 V) (at8_arg5 V) (at8_arg6 V) (at8_arg19 V) (at8_arg21 V) (at8_v300 V) (at8_v384 V) (at8_v413 V) (at8_v378 V) (at8_v302 V)
theorem at9_v300 (V : Valuation τ sig (Elt F)) :
    W9 V (Proc.devRef .tc main_v300) = val_main_v300 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  (keep_rw8 (W8 V) main_v300 (by decide)).trans (at8_v300 V)
theorem at9_v460 (V : Valuation τ sig (Elt F)) :
    W9 V (Proc.devRef .tc main_v460) = val_main_v460 (F := F) (V (Proc.devRef .tc main_arg6)) :=
  rd8_v460 (W8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at8_arg4 V) (at8_arg5 V) (at8_arg6 V) (at8_arg19 V) (at8_arg21 V) (at8_v300 V) (at8_v384 V) (at8_v413 V) (at8_v378 V) (at8_v302 V)
theorem at9_v454 (V : Valuation τ sig (Elt F)) :
    W9 V (Proc.devRef .tc main_v454) = val_main_v454 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) :=
  rd8_v454 (W8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at8_arg4 V) (at8_arg5 V) (at8_arg6 V) (at8_arg19 V) (at8_arg21 V) (at8_v300 V) (at8_v384 V) (at8_v413 V) (at8_v378 V) (at8_v302 V)
theorem at9_v301 (V : Valuation τ sig (Elt F)) :
    W9 V (Proc.devRef .tc main_v301) = val_main_v301 (F := F) (V (Proc.devRef .tc main_arg0)) (V (Proc.devRef .tc main_arg1)) (V (Proc.devRef .tc main_arg4)) (V (Proc.devRef .tc main_arg5)) (V (Proc.devRef .tc main_arg6)) (V (Proc.devRef .tc main_arg18)) :=
  (keep_rw8 (W8 V) main_v301 (by decide)).trans (at8_v301 V)
theorem at9_v302 (V : Valuation τ sig (Elt F)) :
    W9 V (Proc.devRef .tc main_v302) = val_main_v302 (F := F) (V (Proc.devRef .tc main_arg0)) (V (Proc.devRef .tc main_arg2)) (V (Proc.devRef .tc main_arg4)) (V (Proc.devRef .tc main_arg5)) (V (Proc.devRef .tc main_arg6)) (V (Proc.devRef .tc main_arg20)) :=
  (keep_rw8 (W8 V) main_v302 (by decide)).trans (at8_v302 V)
theorem at10_v515 (V : Valuation τ sig (Elt F)) :
    W10 V (Proc.devRef .tc main_v515) = val_main_v515 (F := F) (V (Proc.devRef .tc main_arg18)) :=
  rd9_v515 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at10_v516 (V : Valuation τ sig (Elt F)) :
    W10 V (Proc.devRef .tc main_v516) = val_main_v516 (F := F) :=
  rd9_v516 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at10_v513 (V : Valuation τ sig (Elt F)) :
    W10 V (Proc.devRef .tc main_v513) = val_main_v513 (F := F) :=
  rd9_v513 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at10_v512 (V : Valuation τ sig (Elt F)) :
    W10 V (Proc.devRef .tc main_v512) = val_main_v512 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21)) :=
  rd9_v512 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at10_v494 (V : Valuation τ sig (Elt F)) :
    W10 V (Proc.devRef .tc main_v494) = val_main_v494 (F := F) (V (Proc.devRef .tc main_arg4)) :=
  rd9_v494 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at10_v496 (V : Valuation τ sig (Elt F)) :
    W10 V (Proc.devRef .tc main_v496) = val_main_v496 (F := F) (V (Proc.devRef .tc main_arg5)) :=
  rd9_v496 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at10_v301 (V : Valuation τ sig (Elt F)) :
    W10 V (Proc.devRef .tc main_v301) = val_main_v301 (F := F) (V (Proc.devRef .tc main_arg0)) (V (Proc.devRef .tc main_arg1)) (V (Proc.devRef .tc main_arg4)) (V (Proc.devRef .tc main_arg5)) (V (Proc.devRef .tc main_arg6)) (V (Proc.devRef .tc main_arg18)) :=
  (keep_rw9 (W9 V) main_v301 (by decide)).trans (at9_v301 V)
theorem at10_v498 (V : Valuation τ sig (Elt F)) :
    W10 V (Proc.devRef .tc main_v498) = val_main_v498 (F := F) (V (Proc.devRef .tc main_arg6)) :=
  rd9_v498 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at10_v300 (V : Valuation τ sig (Elt F)) :
    W10 V (Proc.devRef .tc main_v300) = val_main_v300 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  (keep_rw9 (W9 V) main_v300 (by decide)).trans (at9_v300 V)
theorem at10_v302 (V : Valuation τ sig (Elt F)) :
    W10 V (Proc.devRef .tc main_v302) = val_main_v302 (F := F) (V (Proc.devRef .tc main_arg0)) (V (Proc.devRef .tc main_arg2)) (V (Proc.devRef .tc main_arg4)) (V (Proc.devRef .tc main_arg5)) (V (Proc.devRef .tc main_arg6)) (V (Proc.devRef .tc main_arg20)) :=
  (keep_rw9 (W9 V) main_v302 (by decide)).trans (at9_v302 V)
theorem at10_v303 (V : Valuation τ sig (Elt F)) :
    W10 V (Proc.devRef .tc main_v303) = val_main_v303 (F := F) (V (Proc.devRef .tc main_arg0)) (V (Proc.devRef .tc main_arg3)) (V (Proc.devRef .tc main_arg4)) (V (Proc.devRef .tc main_arg5)) (V (Proc.devRef .tc main_arg6)) (V (Proc.devRef .tc main_arg22)) :=
  (keep_rw9 (W9 V) main_v303 (by decide)).trans (at9_v303 V)
theorem at10_v492 (V : Valuation τ sig (Elt F)) :
    W10 V (Proc.devRef .tc main_v492) = val_main_v492 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd9_v492 (W9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at9_arg4 V) (at9_arg5 V) (at9_arg6 V) (at9_arg18 V) (at9_arg21 V) (at9_v462 V) (at9_v465 V) (at9_v464 V) (at9_v303 V) (at9_v456 V) (at9_v458 V) (at9_v300 V) (at9_v460 V) (at9_v454 V)
theorem at11_v569 (V : Valuation τ sig (Elt F)) :
    W11 V (Proc.devRef .tc main_v569) = val_main_v569 (F := F) (V (Proc.devRef .tc main_arg5)) :=
  rd10_v569 (W10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at10_arg4 V) (at10_arg5 V) (at10_arg6 V) (at10_arg20 V) (at10_v515 V) (at10_v516 V) (at10_v513 V) (at10_v512 V) (at10_v494 V) (at10_v496 V) (at10_v301 V) (at10_v498 V) (at10_v300 V) (at10_v302 V)
theorem at11_v300 (V : Valuation τ sig (Elt F)) :
    W11 V (Proc.devRef .tc main_v300) = val_main_v300 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) :=
  (keep_rw10 (W10 V) main_v300 (by decide)).trans (at10_v300 V)
theorem at11_v568 (V : Valuation τ sig (Elt F)) :
    W11 V (Proc.devRef .tc main_v568) = val_main_v568 (F := F) (V (Proc.devRef .tc main_arg4)) :=
  rd10_v568 (W10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at10_arg4 V) (at10_arg5 V) (at10_arg6 V) (at10_arg20 V) (at10_v515 V) (at10_v516 V) (at10_v513 V) (at10_v512 V) (at10_v494 V) (at10_v496 V) (at10_v301 V) (at10_v498 V) (at10_v300 V) (at10_v302 V)
theorem at11_v303 (V : Valuation τ sig (Elt F)) :
    W11 V (Proc.devRef .tc main_v303) = val_main_v303 (F := F) (V (Proc.devRef .tc main_arg0)) (V (Proc.devRef .tc main_arg3)) (V (Proc.devRef .tc main_arg4)) (V (Proc.devRef .tc main_arg5)) (V (Proc.devRef .tc main_arg6)) (V (Proc.devRef .tc main_arg22)) :=
  (keep_rw10 (W10 V) main_v303 (by decide)).trans (at10_v303 V)
theorem at11_v492 (V : Valuation τ sig (Elt F)) :
    W11 V (Proc.devRef .tc main_v492) = val_main_v492 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (keep_rw10 (W10 V) main_v492 (by decide)).trans (at10_v492 V)
theorem at11_v529 (V : Valuation τ sig (Elt F)) :
    W11 V (Proc.devRef .tc main_v529) = val_main_v529 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21)) :=
  rd10_v529 (W10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at10_arg4 V) (at10_arg5 V) (at10_arg6 V) (at10_arg20 V) (at10_v515 V) (at10_v516 V) (at10_v513 V) (at10_v512 V) (at10_v494 V) (at10_v496 V) (at10_v301 V) (at10_v498 V) (at10_v300 V) (at10_v302 V)
theorem at11_v566 (V : Valuation τ sig (Elt F)) :
    W11 V (Proc.devRef .tc main_v566) = val_main_v566 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg20)) (V (Proc.devRef .tc main_arg21)) :=
  rd10_v566 (W10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
    (at10_arg4 V) (at10_arg5 V) (at10_arg6 V) (at10_arg20 V) (at10_v515 V) (at10_v516 V) (at10_v513 V) (at10_v512 V) (at10_v494 V) (at10_v496 V) (at10_v301 V) (at10_v498 V) (at10_v300 V) (at10_v302 V)
theorem at12_v604 (V : Valuation τ sig (Elt F)) :
    W12 V (Proc.devRef .tc main_v604) = val_main_v604 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd11_v604 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at12_v621 (V : Valuation τ sig (Elt F)) :
    W12 V (Proc.devRef .tc main_v621) = val_main_v621 (F := F) (V (Proc.devRef .tc main_arg15)) :=
  rd11_v621 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at12_v609 (V : Valuation τ sig (Elt F)) :
    W12 V (Proc.devRef .tc main_v609) = val_main_v609 (F := F) (V (Proc.devRef .tc main_arg4)) :=
  rd11_v609 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at12_v611 (V : Valuation τ sig (Elt F)) :
    W12 V (Proc.devRef .tc main_v611) = val_main_v611 (F := F) (V (Proc.devRef .tc main_arg5)) :=
  rd11_v611 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at12_v613 (V : Valuation τ sig (Elt F)) :
    W12 V (Proc.devRef .tc main_v613) = val_main_v613 (F := F) (V (Proc.devRef .tc main_arg6)) :=
  rd11_v613 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at12_v605 (V : Valuation τ sig (Elt F)) :
    W12 V (Proc.devRef .tc main_v605) = val_main_v605 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21)) :=
  rd11_v605 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at12_v606 (V : Valuation τ sig (Elt F)) :
    W12 V (Proc.devRef .tc main_v606) = val_main_v606 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg20)) (V (Proc.devRef .tc main_arg21)) :=
  rd11_v606 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at12_v607 (V : Valuation τ sig (Elt F)) :
    W12 V (Proc.devRef .tc main_v607) = val_main_v607 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) (V (Proc.devRef .tc main_arg22)) :=
  rd11_v607 (W11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at11_arg4 V) (at11_arg5 V) (at11_arg6 V) (at11_arg15 V) (at11_arg22 V) (at11_v569 V) (at11_v300 V) (at11_v568 V) (at11_v303 V) (at11_v492 V) (at11_v529 V) (at11_v566 V)
theorem at13_v670 (V : Valuation τ sig (Elt F)) :
    W13 V (Proc.devRef .tc main_v670) = val_main_v670 (F := F) (V (Proc.devRef .tc main_arg16)) :=
  rd12_v670 (W12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at12_arg4 V) (at12_arg5 V) (at12_arg6 V) (at12_arg15 V) (at12_arg16 V) (at12_v604 V) (at12_v621 V) (at12_v609 V) (at12_v611 V) (at12_v613 V)
theorem at13_v671 (V : Valuation τ sig (Elt F)) :
    W13 V (Proc.devRef .tc main_v671) = val_main_v671 (F := F) :=
  rd12_v671 (W12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at12_arg4 V) (at12_arg5 V) (at12_arg6 V) (at12_arg15 V) (at12_arg16 V) (at12_v604 V) (at12_v621 V) (at12_v609 V) (at12_v611 V) (at12_v613 V)
theorem at13_v664 (V : Valuation τ sig (Elt F)) :
    W13 V (Proc.devRef .tc main_v664) = val_main_v664 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd12_v664 (W12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at12_arg4 V) (at12_arg5 V) (at12_arg6 V) (at12_arg15 V) (at12_arg16 V) (at12_v604 V) (at12_v621 V) (at12_v609 V) (at12_v611 V) (at12_v613 V)
theorem at13_v646 (V : Valuation τ sig (Elt F)) :
    W13 V (Proc.devRef .tc main_v646) = val_main_v646 (F := F) (V (Proc.devRef .tc main_arg4)) :=
  rd12_v646 (W12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at12_arg4 V) (at12_arg5 V) (at12_arg6 V) (at12_arg15 V) (at12_arg16 V) (at12_v604 V) (at12_v621 V) (at12_v609 V) (at12_v611 V) (at12_v613 V)
theorem at13_v648 (V : Valuation τ sig (Elt F)) :
    W13 V (Proc.devRef .tc main_v648) = val_main_v648 (F := F) (V (Proc.devRef .tc main_arg5)) :=
  rd12_v648 (W12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at12_arg4 V) (at12_arg5 V) (at12_arg6 V) (at12_arg15 V) (at12_arg16 V) (at12_v604 V) (at12_v621 V) (at12_v609 V) (at12_v611 V) (at12_v613 V)
theorem at13_v604 (V : Valuation τ sig (Elt F)) :
    W13 V (Proc.devRef .tc main_v604) = val_main_v604 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (keep_rw12 (W12 V) main_v604 (by decide)).trans (at12_v604 V)
theorem at13_v650 (V : Valuation τ sig (Elt F)) :
    W13 V (Proc.devRef .tc main_v650) = val_main_v650 (F := F) (V (Proc.devRef .tc main_arg6)) :=
  rd12_v650 (W12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at12_arg4 V) (at12_arg5 V) (at12_arg6 V) (at12_arg15 V) (at12_arg16 V) (at12_v604 V) (at12_v621 V) (at12_v609 V) (at12_v611 V) (at12_v613 V)
theorem at13_v644 (V : Valuation τ sig (Elt F)) :
    W13 V (Proc.devRef .tc main_v644) = val_main_v644 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd12_v644 (W12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at12_arg4 V) (at12_arg5 V) (at12_arg6 V) (at12_arg15 V) (at12_arg16 V) (at12_v604 V) (at12_v621 V) (at12_v609 V) (at12_v611 V) (at12_v613 V)
theorem at13_v605 (V : Valuation τ sig (Elt F)) :
    W13 V (Proc.devRef .tc main_v605) = val_main_v605 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21)) :=
  (keep_rw12 (W12 V) main_v605 (by decide)).trans (at12_v605 V)
theorem at13_v606 (V : Valuation τ sig (Elt F)) :
    W13 V (Proc.devRef .tc main_v606) = val_main_v606 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg20)) (V (Proc.devRef .tc main_arg21)) :=
  (keep_rw12 (W12 V) main_v606 (by decide)).trans (at12_v606 V)
theorem at13_v607 (V : Valuation τ sig (Elt F)) :
    W13 V (Proc.devRef .tc main_v607) = val_main_v607 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) (V (Proc.devRef .tc main_arg22)) :=
  (keep_rw12 (W12 V) main_v607 (by decide)).trans (at12_v607 V)
theorem at14_v725 (V : Valuation τ sig (Elt F)) :
    W14 V (Proc.devRef .tc main_v725) = val_main_v725 (F := F) (V (Proc.devRef .tc main_arg6)) :=
  rd13_v725 (W13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at13_arg4 V) (at13_arg5 V) (at13_arg6 V) (at13_arg17 V) (at13_v670 V) (at13_v671 V) (at13_v664 V) (at13_v646 V) (at13_v648 V) (at13_v604 V) (at13_v650 V) (at13_v644 V) (at13_v605 V)
theorem at14_v606 (V : Valuation τ sig (Elt F)) :
    W14 V (Proc.devRef .tc main_v606) = val_main_v606 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg20)) (V (Proc.devRef .tc main_arg21)) :=
  (keep_rw13 (W13 V) main_v606 (by decide)).trans (at13_v606 V)
theorem at14_v722 (V : Valuation τ sig (Elt F)) :
    W14 V (Proc.devRef .tc main_v722) = val_main_v722 (F := F) (V (Proc.devRef .tc main_arg4)) :=
  rd13_v722 (W13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at13_arg4 V) (at13_arg5 V) (at13_arg6 V) (at13_arg17 V) (at13_v670 V) (at13_v671 V) (at13_v664 V) (at13_v646 V) (at13_v648 V) (at13_v604 V) (at13_v650 V) (at13_v644 V) (at13_v605 V)
theorem at14_v724 (V : Valuation τ sig (Elt F)) :
    W14 V (Proc.devRef .tc main_v724) = val_main_v724 (F := F) (V (Proc.devRef .tc main_arg5)) :=
  rd13_v724 (W13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at13_arg4 V) (at13_arg5 V) (at13_arg6 V) (at13_arg17 V) (at13_v670 V) (at13_v671 V) (at13_v664 V) (at13_v646 V) (at13_v648 V) (at13_v604 V) (at13_v650 V) (at13_v644 V) (at13_v605 V)
theorem at14_v604 (V : Valuation τ sig (Elt F)) :
    W14 V (Proc.devRef .tc main_v604) = val_main_v604 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (keep_rw13 (W13 V) main_v604 (by decide)).trans (at13_v604 V)
theorem at14_v720 (V : Valuation τ sig (Elt F)) :
    W14 V (Proc.devRef .tc main_v720) = val_main_v720 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd13_v720 (W13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at13_arg4 V) (at13_arg5 V) (at13_arg6 V) (at13_arg17 V) (at13_v670 V) (at13_v671 V) (at13_v664 V) (at13_v646 V) (at13_v648 V) (at13_v604 V) (at13_v650 V) (at13_v644 V) (at13_v605 V)
theorem at14_v607 (V : Valuation τ sig (Elt F)) :
    W14 V (Proc.devRef .tc main_v607) = val_main_v607 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) (V (Proc.devRef .tc main_arg22)) :=
  (keep_rw13 (W13 V) main_v607 (by decide)).trans (at13_v607 V)
theorem at14_v605 (V : Valuation τ sig (Elt F)) :
    W14 V (Proc.devRef .tc main_v605) = val_main_v605 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21)) :=
  (keep_rw13 (W13 V) main_v605 (by decide)).trans (at13_v605 V)
theorem at15_v775 (V : Valuation τ sig (Elt F)) :
    W15 V (Proc.devRef .tc main_v775) = val_main_v775 (F := F) (V (Proc.devRef .tc main_arg21)) :=
  rd14_v775 (W14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at14_arg4 V) (at14_arg5 V) (at14_arg6 V) (at14_arg19 V) (at14_arg21 V) (at14_v725 V) (at14_v606 V) (at14_v722 V) (at14_v724 V) (at14_v604 V) (at14_v720 V) (at14_v607 V)
theorem at15_v776 (V : Valuation τ sig (Elt F)) :
    W15 V (Proc.devRef .tc main_v776) = val_main_v776 (F := F) :=
  rd14_v776 (W14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at14_arg4 V) (at14_arg5 V) (at14_arg6 V) (at14_arg19 V) (at14_arg21 V) (at14_v725 V) (at14_v606 V) (at14_v722 V) (at14_v724 V) (at14_v604 V) (at14_v720 V) (at14_v607 V)
theorem at15_v773 (V : Valuation τ sig (Elt F)) :
    W15 V (Proc.devRef .tc main_v773) = val_main_v773 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) (V (Proc.devRef .tc main_arg22)) :=
  rd14_v773 (W14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at14_arg4 V) (at14_arg5 V) (at14_arg6 V) (at14_arg19 V) (at14_arg21 V) (at14_v725 V) (at14_v606 V) (at14_v722 V) (at14_v724 V) (at14_v604 V) (at14_v720 V) (at14_v607 V)
theorem at15_v760 (V : Valuation τ sig (Elt F)) :
    W15 V (Proc.devRef .tc main_v760) = val_main_v760 (F := F) (V (Proc.devRef .tc main_arg4)) :=
  rd14_v760 (W14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at14_arg4 V) (at14_arg5 V) (at14_arg6 V) (at14_arg19 V) (at14_arg21 V) (at14_v725 V) (at14_v606 V) (at14_v722 V) (at14_v724 V) (at14_v604 V) (at14_v720 V) (at14_v607 V)
theorem at15_v762 (V : Valuation τ sig (Elt F)) :
    W15 V (Proc.devRef .tc main_v762) = val_main_v762 (F := F) (V (Proc.devRef .tc main_arg5)) :=
  rd14_v762 (W14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at14_arg4 V) (at14_arg5 V) (at14_arg6 V) (at14_arg19 V) (at14_arg21 V) (at14_v725 V) (at14_v606 V) (at14_v722 V) (at14_v724 V) (at14_v604 V) (at14_v720 V) (at14_v607 V)
theorem at15_v604 (V : Valuation τ sig (Elt F)) :
    W15 V (Proc.devRef .tc main_v604) = val_main_v604 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (keep_rw14 (W14 V) main_v604 (by decide)).trans (at14_v604 V)
theorem at15_v764 (V : Valuation τ sig (Elt F)) :
    W15 V (Proc.devRef .tc main_v764) = val_main_v764 (F := F) (V (Proc.devRef .tc main_arg6)) :=
  rd14_v764 (W14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at14_arg4 V) (at14_arg5 V) (at14_arg6 V) (at14_arg19 V) (at14_arg21 V) (at14_v725 V) (at14_v606 V) (at14_v722 V) (at14_v724 V) (at14_v604 V) (at14_v720 V) (at14_v607 V)
theorem at15_v758 (V : Valuation τ sig (Elt F)) :
    W15 V (Proc.devRef .tc main_v758) = val_main_v758 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd14_v758 (W14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at14_arg4 V) (at14_arg5 V) (at14_arg6 V) (at14_arg19 V) (at14_arg21 V) (at14_v725 V) (at14_v606 V) (at14_v722 V) (at14_v724 V) (at14_v604 V) (at14_v720 V) (at14_v607 V)
theorem at15_v605 (V : Valuation τ sig (Elt F)) :
    W15 V (Proc.devRef .tc main_v605) = val_main_v605 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21)) :=
  (keep_rw14 (W14 V) main_v605 (by decide)).trans (at14_v605 V)
theorem at15_v606 (V : Valuation τ sig (Elt F)) :
    W15 V (Proc.devRef .tc main_v606) = val_main_v606 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg20)) (V (Proc.devRef .tc main_arg21)) :=
  (keep_rw14 (W14 V) main_v606 (by decide)).trans (at14_v606 V)
theorem at15_v607 (V : Valuation τ sig (Elt F)) :
    W15 V (Proc.devRef .tc main_v607) = val_main_v607 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) (V (Proc.devRef .tc main_arg22)) :=
  (keep_rw14 (W14 V) main_v607 (by decide)).trans (at14_v607 V)
theorem at16_v827 (V : Valuation τ sig (Elt F)) :
    W16 V (Proc.devRef .tc main_v827) = val_main_v827 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd15_v827 (W15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at15_arg4 V) (at15_arg5 V) (at15_arg6 V) (at15_arg18 V) (at15_arg21 V) (at15_v775 V) (at15_v776 V) (at15_v773 V) (at15_v760 V) (at15_v762 V) (at15_v604 V) (at15_v764 V) (at15_v758 V)
theorem at16_v798 (V : Valuation τ sig (Elt F)) :
    W16 V (Proc.devRef .tc main_v798) = val_main_v798 (F := F) (V (Proc.devRef .tc main_arg4)) :=
  rd15_v798 (W15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at15_arg4 V) (at15_arg5 V) (at15_arg6 V) (at15_arg18 V) (at15_arg21 V) (at15_v775 V) (at15_v776 V) (at15_v773 V) (at15_v760 V) (at15_v762 V) (at15_v604 V) (at15_v764 V) (at15_v758 V)
theorem at16_v800 (V : Valuation τ sig (Elt F)) :
    W16 V (Proc.devRef .tc main_v800) = val_main_v800 (F := F) (V (Proc.devRef .tc main_arg5)) :=
  rd15_v800 (W15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at15_arg4 V) (at15_arg5 V) (at15_arg6 V) (at15_arg18 V) (at15_arg21 V) (at15_v775 V) (at15_v776 V) (at15_v773 V) (at15_v760 V) (at15_v762 V) (at15_v604 V) (at15_v764 V) (at15_v758 V)
theorem at16_v605 (V : Valuation τ sig (Elt F)) :
    W16 V (Proc.devRef .tc main_v605) = val_main_v605 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg21)) :=
  (keep_rw15 (W15 V) main_v605 (by decide)).trans (at15_v605 V)
theorem at16_v802 (V : Valuation τ sig (Elt F)) :
    W16 V (Proc.devRef .tc main_v802) = val_main_v802 (F := F) (V (Proc.devRef .tc main_arg6)) :=
  rd15_v802 (W15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at15_arg4 V) (at15_arg5 V) (at15_arg6 V) (at15_arg18 V) (at15_arg21 V) (at15_v775 V) (at15_v776 V) (at15_v773 V) (at15_v760 V) (at15_v762 V) (at15_v604 V) (at15_v764 V) (at15_v758 V)
theorem at16_v604 (V : Valuation τ sig (Elt F)) :
    W16 V (Proc.devRef .tc main_v604) = val_main_v604 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (keep_rw15 (W15 V) main_v604 (by decide)).trans (at15_v604 V)
theorem at16_v606 (V : Valuation τ sig (Elt F)) :
    W16 V (Proc.devRef .tc main_v606) = val_main_v606 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg20)) (V (Proc.devRef .tc main_arg21)) :=
  (keep_rw15 (W15 V) main_v606 (by decide)).trans (at15_v606 V)
theorem at16_v607 (V : Valuation τ sig (Elt F)) :
    W16 V (Proc.devRef .tc main_v607) = val_main_v607 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) (V (Proc.devRef .tc main_arg22)) :=
  (keep_rw15 (W15 V) main_v607 (by decide)).trans (at15_v607 V)
theorem at16_v796 (V : Valuation τ sig (Elt F)) :
    W16 V (Proc.devRef .tc main_v796) = val_main_v796 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd15_v796 (W15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at15_arg4 V) (at15_arg5 V) (at15_arg6 V) (at15_arg18 V) (at15_arg21 V) (at15_v775 V) (at15_v776 V) (at15_v773 V) (at15_v760 V) (at15_v762 V) (at15_v604 V) (at15_v764 V) (at15_v758 V)
theorem at17_v878 (V : Valuation τ sig (Elt F)) :
    W17 V (Proc.devRef .tc main_v878) = val_main_v878 (F := F) (V (Proc.devRef .tc main_arg22)) :=
  rd16_v878 (W16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at16_arg4 V) (at16_arg5 V) (at16_arg6 V) (at16_arg20 V) (at16_arg22 V) (at16_v827 V) (at16_v798 V) (at16_v800 V) (at16_v605 V) (at16_v802 V) (at16_v604 V) (at16_v606 V)
theorem at17_v880 (V : Valuation τ sig (Elt F)) :
    W17 V (Proc.devRef .tc main_v880) = val_main_v880 (F := F) (V (Proc.devRef .tc main_arg22)) :=
  rd16_v880 (W16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at16_arg4 V) (at16_arg5 V) (at16_arg6 V) (at16_arg20 V) (at16_arg22 V) (at16_v827 V) (at16_v798 V) (at16_v800 V) (at16_v605 V) (at16_v802 V) (at16_v604 V) (at16_v606 V)
theorem at17_v604 (V : Valuation τ sig (Elt F)) :
    W17 V (Proc.devRef .tc main_v604) = val_main_v604 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (keep_rw16 (W16 V) main_v604 (by decide)).trans (at16_v604 V)
theorem at17_v872 (V : Valuation τ sig (Elt F)) :
    W17 V (Proc.devRef .tc main_v872) = val_main_v872 (F := F) (V (Proc.devRef .tc main_arg4)) :=
  rd16_v872 (W16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at16_arg4 V) (at16_arg5 V) (at16_arg6 V) (at16_arg20 V) (at16_arg22 V) (at16_v827 V) (at16_v798 V) (at16_v800 V) (at16_v605 V) (at16_v802 V) (at16_v604 V) (at16_v606 V)
theorem at17_v874 (V : Valuation τ sig (Elt F)) :
    W17 V (Proc.devRef .tc main_v874) = val_main_v874 (F := F) (V (Proc.devRef .tc main_arg5)) :=
  rd16_v874 (W16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at16_arg4 V) (at16_arg5 V) (at16_arg6 V) (at16_arg20 V) (at16_arg22 V) (at16_v827 V) (at16_v798 V) (at16_v800 V) (at16_v605 V) (at16_v802 V) (at16_v604 V) (at16_v606 V)
theorem at17_v607 (V : Valuation τ sig (Elt F)) :
    W17 V (Proc.devRef .tc main_v607) = val_main_v607 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg19)) (V (Proc.devRef .tc main_arg21)) (V (Proc.devRef .tc main_arg22)) :=
  (keep_rw16 (W16 V) main_v607 (by decide)).trans (at16_v607 V)
theorem at17_v876 (V : Valuation τ sig (Elt F)) :
    W17 V (Proc.devRef .tc main_v876) = val_main_v876 (F := F) (V (Proc.devRef .tc main_arg6)) :=
  rd16_v876 (W16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at16_arg4 V) (at16_arg5 V) (at16_arg6 V) (at16_arg20 V) (at16_arg22 V) (at16_v827 V) (at16_v798 V) (at16_v800 V) (at16_v605 V) (at16_v802 V) (at16_v604 V) (at16_v606 V)
theorem at17_v796 (V : Valuation τ sig (Elt F)) :
    W17 V (Proc.devRef .tc main_v796) = val_main_v796 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (keep_rw16 (W16 V) main_v796 (by decide)).trans (at16_v796 V)
theorem at17_v833 (V : Valuation τ sig (Elt F)) :
    W17 V (Proc.devRef .tc main_v833) = val_main_v833 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd16_v833 (W16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at16_arg4 V) (at16_arg5 V) (at16_arg6 V) (at16_arg20 V) (at16_arg22 V) (at16_v827 V) (at16_v798 V) (at16_v800 V) (at16_v605 V) (at16_v802 V) (at16_v604 V) (at16_v606 V)
theorem at17_v870 (V : Valuation τ sig (Elt F)) :
    W17 V (Proc.devRef .tc main_v870) = val_main_v870 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd16_v870 (W16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at16_arg4 V) (at16_arg5 V) (at16_arg6 V) (at16_arg20 V) (at16_arg22 V) (at16_v827 V) (at16_v798 V) (at16_v800 V) (at16_v605 V) (at16_v802 V) (at16_v604 V) (at16_v606 V)
theorem at18_v920 (V : Valuation τ sig (Elt F)) :
    W18 V (Proc.devRef .tc main_v920) = val_main_v920 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd17_v920 (W17 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at17_arg7 V) (at17_arg8 V) (at17_arg9 V) (at17_arg10 V) (at17_arg11 V) (at17_arg12 V) (at17_arg13 V) (at17_arg14 V) (at17_arg22 V) (at17_v878 V) (at17_v880 V) (at17_v604 V) (at17_v872 V) (at17_v874 V) (at17_v607 V) (at17_v876 V) (at17_v796 V) (at17_v833 V) (at17_v870 V)
theorem at18_v929 (V : Valuation τ sig (Elt F)) :
    W18 V (Proc.devRef .tc main_v929) = val_main_v929 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  rd17_v929 (W17 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22))
    (at17_arg7 V) (at17_arg8 V) (at17_arg9 V) (at17_arg10 V) (at17_arg11 V) (at17_arg12 V) (at17_arg13 V) (at17_arg14 V) (at17_arg22 V) (at17_v878 V) (at17_v880 V) (at17_v604 V) (at17_v872 V) (at17_v874 V) (at17_v607 V) (at17_v876 V) (at17_v796 V) (at17_v833 V) (at17_v870 V)

/-! ## The two results -/

/-- After @main the first result buffer holds the last stage of the bus head, as a function of the arguments at launch. -/
theorem res_bus (V : Valuation τ sig (Elt F)) :
    after rops V (Proc.devRef .tc main_v920) = val_main_v920 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (congrFun (after_rops V) _).trans (at18_v920 V)

/-- After @main the second result buffer holds the last stage of the gen head, as a function of the arguments at launch. -/
theorem res_gen (V : Valuation τ sig (Elt F)) :
    after rops V (Proc.devRef .tc main_v929) = val_main_v929 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  (congrFun (after_rops V) _).trans (at18_v929 V)

end Cert.ReferenceIdeal.Hand
end
-- ==== Proof.Ref.RunRes.lean ====
/- The reference program's run with its results read: every weakly fair execution terminates with each of the two
   results at its stage of the arguments' launch contents (the value the last operation that writes it leaves, as a
   function of @main's arguments) and the twenty-three arguments unchanged. From the run read off the operations, the
   two results' readings through the line, and per argument the fact that no operation writes it. -/
import proofs.«125545_j64845416235624_1_alg».proof.Proof.Ref.RunSeq
import proofs.«125545_j64845416235624_1_alg».proof.Proof.Ref.Keep
import proofs.«125545_j64845416235624_1_alg».proof.Proof.Ref.Res

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Read

/-- On every device, for any float values, from any memory with zero counters: every weakly fair execution of the
    reference's @main terminates with each of the two results at its stage of the arguments' launch contents, and the
    twenty-three arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v920) = val_main_v920 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v929) = val_main_v929 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c =>
    ⟨(h c main_v920).trans (res_bus (launchContents m c)),
     (h c main_v929).trans (res_gen (launchContents m c)),
     (h c main_arg0).trans (rops_arg0 _),
     (h c main_arg1).trans (rops_arg1 _),
     (h c main_arg2).trans (rops_arg2 _),
     (h c main_arg3).trans (rops_arg3 _),
     (h c main_arg4).trans (rops_arg4 _),
     (h c main_arg5).trans (rops_arg5 _),
     (h c main_arg6).trans (rops_arg6 _),
     (h c main_arg7).trans (rops_arg7 _),
     (h c main_arg8).trans (rops_arg8 _),
     (h c main_arg9).trans (rops_arg9 _),
     (h c main_arg10).trans (rops_arg10 _),
     (h c main_arg11).trans (rops_arg11 _),
     (h c main_arg12).trans (rops_arg12 _),
     (h c main_arg13).trans (rops_arg13 _),
     (h c main_arg14).trans (rops_arg14 _),
     (h c main_arg15).trans (rops_arg15 _),
     (h c main_arg16).trans (rops_arg16 _),
     (h c main_arg17).trans (rops_arg17 _),
     (h c main_arg18).trans (rops_arg18 _),
     (h c main_arg19).trans (rops_arg19 _),
     (h c main_arg20).trans (rops_arg20 _),
     (h c main_arg21).trans (rops_arg21 _),
     (h c main_arg22).trans (rops_arg22 _)⟩)
    (ref_run_after m ρ)

end Cert.ReferenceIdeal.Hand

end
-- ==== Proof.Alg.lean ====
import proofs.«125545_j64845416235624_1_alg».proof.Proof.AlgCore
import proofs.«125545_j64845416235624_1_alg».proof.Proof.KI.Run
import proofs.«125545_j64845416235624_1_alg».proof.Proof.KI.Args
import proofs.«125545_j64845416235624_1_alg».proof.Proof.KI.KNet
import proofs.«125545_j64845416235624_1_alg».proof.Proof.Ref.Net
import proofs.«125545_j64845416235624_1_alg».proof.Proof.Ref.RunRes

/-!
  The algebraic claim: the assembly at the kernel program's run, its arguments and results at the last
  valuation, the reference program's run and its two result terms.
-/

noncomputable section

namespace Cert.Hand.Alg

open Idealize.ShloMosaic Idealize.ShloMosaic.TcCoe Idealize.SL.Sem

theorem algebraic : Cert.algebraic_KernelIdeal_ReferenceIdeal :=
  algebraic_of (fun m g => Cert.KernelIdeal.Hand.Wfin (F := Ideal) m g)
    (fun m' c => Cert.ReferenceIdeal.Read.val_main_v920 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22)))
    (fun m' c => Cert.ReferenceIdeal.Read.val_main_v929 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22)))
    fun m g m' g' =>
    { run := Cert.KernelIdeal.Hand.run_all (F := Ideal) m g
      uc := Cert.KernelIdeal.Hand.mem_uc
      arg0 := Cert.KernelIdeal.Hand.Wfin_arg0 (F := Ideal) m g
      arg1 := Cert.KernelIdeal.Hand.Wfin_arg1 (F := Ideal) m g
      arg2 := Cert.KernelIdeal.Hand.Wfin_arg2 (F := Ideal) m g
      arg3 := Cert.KernelIdeal.Hand.Wfin_arg3 (F := Ideal) m g
      arg4 := Cert.KernelIdeal.Hand.Wfin_arg4 (F := Ideal) m g
      arg5 := Cert.KernelIdeal.Hand.Wfin_arg5 (F := Ideal) m g
      arg6 := Cert.KernelIdeal.Hand.Wfin_arg6 (F := Ideal) m g
      arg7 := Cert.KernelIdeal.Hand.Wfin_arg7 (F := Ideal) m g
      arg8 := Cert.KernelIdeal.Hand.Wfin_arg8 (F := Ideal) m g
      arg9 := Cert.KernelIdeal.Hand.Wfin_arg9 (F := Ideal) m g
      arg10 := Cert.KernelIdeal.Hand.Wfin_arg10 (F := Ideal) m g
      arg11 := Cert.KernelIdeal.Hand.Wfin_arg11 (F := Ideal) m g
      arg12 := Cert.KernelIdeal.Hand.Wfin_arg12 (F := Ideal) m g
      arg13 := Cert.KernelIdeal.Hand.Wfin_arg13 (F := Ideal) m g
      arg14 := Cert.KernelIdeal.Hand.Wfin_arg14 (F := Ideal) m g
      arg15 := Cert.KernelIdeal.Hand.Wfin_arg15 (F := Ideal) m g
      arg16 := Cert.KernelIdeal.Hand.Wfin_arg16 (F := Ideal) m g
      arg17 := Cert.KernelIdeal.Hand.Wfin_arg17 (F := Ideal) m g
      arg18 := Cert.KernelIdeal.Hand.Wfin_arg18 (F := Ideal) m g
      arg19 := Cert.KernelIdeal.Hand.Wfin_arg19 (F := Ideal) m g
      arg20 := Cert.KernelIdeal.Hand.Wfin_arg20 (F := Ideal) m g
      arg21 := Cert.KernelIdeal.Hand.Wfin_arg21 (F := Ideal) m g
      arg22 := Cert.KernelIdeal.Hand.Wfin_arg22 (F := Ideal) m g
      kbus := Cert.KernelIdeal.Hand.ker_bus_out m g
      kgen := Cert.KernelIdeal.Hand.ker_gen_out m g
      rrun := Cert.ReferenceIdeal.Hand.ref_run (F := Ideal) m' g'
      rbus := fun c => Cert.ReferenceIdeal.Hand.ref_bus_out
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19))
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg21))
          (m' ((c.tc : Thread Cert.ReferenceIdeal.nD Cert.ReferenceIdeal.τ).loc Cert.ReferenceIdeal.main_arg22))
      rgen := fun c => Cert.ReferenceIdeal.Hand.ref_gen_out
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19))
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg21))
          (m' ((c.tc : Thread Cert.ReferenceIdeal.nD Cert.ReferenceIdeal.τ).loc Cert.ReferenceIdeal.main_arg22)) }

end Cert.Hand.Alg

end
-- ==== Proof.lean ====
/- The certificate's claim, assembled.

   Both kernel programs (the word-level one and its reading over the extended reals) are fourteen tiled matrix-product
   regions among stretches of host operations; each program's frame is the run of those forty-four segments, every
   region entered from what the segment before it left, and no segment writes an argument array. The reference is a
   host-only program whose run is read back operation by operation. Over the extended reals the two results are one
   function of the arguments: per layer and node type the kernel's relu(x·(ΣWr) + Σ agg·Wl + Σ b) is the reference's
   relu(Σ (agg·Wl + b + x·Wr)) because every entry is a real number (the inputs are, by the precondition, and the mean
   aggregations, products and sums keep them so), where distributivity holds. -/
import proofs.«125545_j64845416235624_1_alg».proof.Defs
import proofs.«125545_j64845416235624_1_alg».proof.Proof.Gen.Kernel
import proofs.«125545_j64845416235624_1_alg».proof.Proof.Gen.Kernel.Skeleton
import proofs.«125545_j64845416235624_1_alg».proof.Proof.Gen.Kernel.Launch
import proofs.«125545_j64845416235624_1_alg».proof.Proof.Gen.Kernel.Regions
import proofs.«125545_j64845416235624_1_alg».proof.Proof.Gen.Kernel.Points
import proofs.«125545_j64845416235624_1_alg».proof.Proof.Gen.KernelIdeal
import proofs.«125545_j64845416235624_1_alg».proof.Proof.Gen.KernelIdeal.Skeleton
import proofs.«125545_j64845416235624_1_alg».proof.Proof.Gen.KernelIdeal.Launch
import proofs.«125545_j64845416235624_1_alg».proof.Proof.Gen.KernelIdeal.Regions
import proofs.«125545_j64845416235624_1_alg».proof.Proof.Gen.KernelIdeal.Points
import proofs.«125545_j64845416235624_1_alg».proof.Proof.Gen.ReferenceIdeal
import proofs.«125545_j64845416235624_1_alg».proof.Proof.Gen.Pre_finite_inputs
import proofs.«125545_j64845416235624_1_alg».proof.Proof.KB.Frame
import proofs.«125545_j64845416235624_1_alg».proof.Proof.KI.Frame
import proofs.«125545_j64845416235624_1_alg».proof.Proof.Ref.Frame
import proofs.«125545_j64845416235624_1_alg».proof.Proof.Alg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.Hand.frame_ri,
  trivial,
  Cert.Hand.Alg.algebraic⟩

end Cert.Proof

end
